-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v407)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v407) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v787) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x800000 : Shape := ⟨2, ![2, 800000]⟩
abbrev S50000x128 : Shape := ⟨2, ![50000, 128]⟩
abbrev S6x3 : Shape := ⟨2, ![6, 3]⟩
abbrev S6x3x128x128 : Shape := ⟨4, ![6, 3, 128, 128]⟩
abbrev S6x3x128 : Shape := ⟨3, ![6, 3, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S6x3 : S_.BroadcastsInDim S6x3 (![] : Fin 0 → Fin S6x3.rank)
  reducesTo_S6x3_S_d0_1 : S6x3.ReducesTo [0, 1] S_
  bcast_S_S6x3x128x128 : S_.BroadcastsInDim S6x3x128x128 (![] : Fin 0 → Fin S6x3x128x128.rank)
  reducesTo_S6x3x128x128_S_d0_1_2_3 : S6x3x128x128.ReducesTo [0, 1, 2, 3] S_
  bcast_S_S6x3x128 : S_.BroadcastsInDim S6x3x128 (![] : Fin 0 → Fin S6x3x128.rank)
  reducesTo_S6x3x128_S_d0_1_2 : S6x3x128.ReducesTo [0, 1, 2] S_

variable [Facts]

def fn_part1 {F : FTy → Type} [FloatOps F] (main_arg5 : FVec F S6x3x128 .f32) (main_arg6 : FVec F S6x3x128 .f32) (main_arg7 : FVec F S6x3x128 .f32) (main_v13 : IVec S_ 1) (main_v16 : IVec S6x3x128x128 1) : IVec S_ 1 :=
  let main_c_5 : IVec S_ 1 := constantI S_ 1 1#1
  let main_v17 : IVec S_ 1 := (fun x v => Host.reduce IntOp.andi x v reducesTo_S6x3x128x128_S_d0_1_2_3 h_S_) main_v16 main_c_5
  let main_v18 : IVec S_ 1 := andi main_v13 main_v17
  let main_v19 : FVec F S6x3x128 .f32 := Host.absf main_arg5
  let main_cst_6 : FVec F S_ .f32 := constant S_ .f32 0x7F800000#32
  let main_v20 : FVec F S6x3x128 .f32 := broadcastInDim S6x3x128 ![] bcast_S_S6x3x128 main_cst_6
  let main_v21 : IVec S6x3x128 1 := cmpf .olt main_v19 main_v20
  let main_c_7 : IVec S_ 1 := constantI S_ 1 1#1
  let main_v22 : IVec S_ 1 := (fun x v => Host.reduce IntOp.andi x v reducesTo_S6x3x128_S_d0_1_2 h_S_) main_v21 main_c_7
  let main_v23 : IVec S_ 1 := andi main_v18 main_v22
  let main_v24 : FVec F S6x3x128 .f32 := Host.absf main_arg6
  let main_cst_8 : FVec F S_ .f32 := constant S_ .f32 0x7F800000#32
  let main_v25 : FVec F S6x3x128 .f32 := broadcastInDim S6x3x128 ![] bcast_S_S6x3x128 main_cst_8
  let main_v26 : IVec S6x3x128 1 := cmpf .olt main_v24 main_v25
  let main_c_9 : IVec S_ 1 := constantI S_ 1 1#1
  let main_v27 : IVec S_ 1 := (fun x v => Host.reduce IntOp.andi x v reducesTo_S6x3x128_S_d0_1_2 h_S_) main_v26 main_c_9
  let main_v28 : IVec S_ 1 := andi main_v23 main_v27
  let main_v29 : FVec F S6x3x128 .f32 := Host.absf main_arg7
  let main_cst_10 : FVec F S_ .f32 := constant S_ .f32 0x7F800000#32
  let main_v30 : FVec F S6x3x128 .f32 := broadcastInDim S6x3x128 ![] bcast_S_S6x3x128 main_cst_10
  let main_v31 : IVec S6x3x128 1 := cmpf .olt main_v29 main_v30
  let main_c_11 : IVec S_ 1 := constantI S_ 1 1#1
  let main_v32 : IVec S_ 1 := (fun x v => Host.reduce IntOp.andi x v reducesTo_S6x3x128_S_d0_1_2 h_S_) main_v31 main_c_11
  let main_v33 : IVec S_ 1 := andi main_v28 main_v32
  main_v33

def fn {F : FTy → Type} [FloatOps F] (main_arg0 : IVec S2x800000 32) (main_arg1 : FVec F S50000x128 .f32) (main_arg2 : FVec F S50000x128 .f32) (main_arg3 : FVec F S6x3 .f32) (main_arg4 : FVec F S6x3x128x128 .f32) (main_arg5 : FVec F S6x3x128 .f32) (main_arg6 : FVec F S6x3x128 .f32) (main_arg7 : FVec F S6x3x128 .f32) : IVec S_ 1 :=
  let main_v0 : FVec F S50000x128 .f32 := Host.absf main_arg1
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg2
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S6x3 .f32 := Host.absf main_arg3
  let main_cst_2 : FVec F S_ .f32 := constant S_ .f32 0x7F800000#32
  let main_v10 : FVec F S6x3 .f32 := broadcastInDim S6x3 ![] bcast_S_S6x3 main_cst_2
  let main_v11 : IVec S6x3 1 := cmpf .olt main_v9 main_v10
  let main_c_3 : IVec S_ 1 := constantI S_ 1 1#1
  let main_v12 : IVec S_ 1 := (fun x v => Host.reduce IntOp.andi x v reducesTo_S6x3_S_d0_1 h_S_) main_v11 main_c_3
  let main_v13 : IVec S_ 1 := andi main_v8 main_v12
  let main_v14 : FVec F S6x3x128x128 .f32 := Host.absf main_arg4
  let main_cst_4 : FVec F S_ .f32 := constant S_ .f32 0x7F800000#32
  let main_v15 : FVec F S6x3x128x128 .f32 := broadcastInDim S6x3x128x128 ![] bcast_S_S6x3x128x128 main_cst_4
  let main_v16 : IVec S6x3x128x128 1 := cmpf .olt main_v14 main_v15
  fn_part1 (F := F) main_arg5 main_arg6 main_arg7 main_v13 main_v16
-- ==== Kernel.lean ====
abbrev S2x800000 : Shape := ⟨2, ![2, 800000]⟩
abbrev S50000x128 : Shape := ⟨2, ![50000, 128]⟩
abbrev S6x3 : Shape := ⟨2, ![6, 3]⟩
abbrev S6x3x128x128 : Shape := ⟨4, ![6, 3, 128, 128]⟩
abbrev S6x3x128 : Shape := ⟨3, ![6, 3, 128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x1x128x128 : Shape := ⟨4, ![1, 1, 128, 128]⟩
abbrev S128x128 : Shape := ⟨2, ![128, 128]⟩
abbrev S128x384 : Shape := ⟨2, ![128, 384]⟩
abbrev S1x1x128 : Shape := ⟨3, ![1, 1, 128]⟩
abbrev S128 : Shape := ⟨1, ![128]⟩
abbrev S384 : Shape := ⟨1, ![384]⟩
abbrev S1x1 : Shape := ⟨2, ![1, 1]⟩
abbrev S1x128x384 : Shape := ⟨3, ![1, 128, 384]⟩
abbrev S3x128x384 : Shape := ⟨3, ![3, 128, 384]⟩
abbrev S1x384 : Shape := ⟨2, ![1, 384]⟩
abbrev S3x384 : Shape := ⟨2, ![3, 384]⟩
abbrev S2x3x384 : Shape := ⟨3, ![2, 3, 384]⟩
abbrev S1000x128 : Shape := ⟨2, ![1000, 128]⟩
abbrev S1x3x384 : Shape := ⟨3, ![1, 3, 384]⟩
abbrev S1000x384 : Shape := ⟨2, ![1000, 384]⟩
abbrev S50000x384 : Shape := ⟨2, ![50000, 384]⟩
abbrev S2000x128 : Shape := ⟨2, ![2000, 128]⟩
abbrev S2000x384 : Shape := ⟨2, ![2000, 384]⟩
abbrev S128x256 : Shape := ⟨2, ![128, 256]⟩
abbrev S256 : Shape := ⟨1, ![256]⟩
abbrev S1x128x256 : Shape := ⟨3, ![1, 128, 256]⟩
abbrev S3x128x256 : Shape := ⟨3, ![3, 128, 256]⟩
abbrev S1x256 : Shape := ⟨2, ![1, 256]⟩
abbrev S3x256 : Shape := ⟨2, ![3, 256]⟩
abbrev S2x3x256 : Shape := ⟨3, ![2, 3, 256]⟩
abbrev S1x3x256 : Shape := ⟨3, ![1, 3, 256]⟩
abbrev S1000x256 : Shape := ⟨2, ![1000, 256]⟩
abbrev S50000x256 : Shape := ⟨2, ![50000, 256]⟩
abbrev S2000x256 : Shape := ⟨2, ![2000, 256]⟩
abbrev S1x128x128 : Shape := ⟨3, ![1, 128, 128]⟩
abbrev S3x128x128 : Shape := ⟨3, ![3, 128, 128]⟩
abbrev S1x128 : Shape := ⟨2, ![1, 128]⟩
abbrev S3x128 : Shape := ⟨2, ![3, 128]⟩
abbrev S2x3x128 : Shape := ⟨3, ![2, 3, 128]⟩
abbrev S1x3x128 : Shape := ⟨3, ![1, 3, 128]⟩
abbrev S1x50000x128 : Shape := ⟨3, ![1, 50000, 128]⟩
abbrev S3x50000x128 : Shape := ⟨3, ![3, 50000, 128]⟩

abbrev nBuf : Space → Nat
  | .hbm => 447
  | .vmem => 85
  | .smem => 0
  | _ => 0

abbrev hbmTy0_0 (i : Nat) : BufTy := match i % 128 with
  | 0 => ⟨S2x800000, .i32⟩
  | 1 => ⟨S50000x128, .f32⟩
  | 2 => ⟨S50000x128, .f32⟩
  | 3 => ⟨S6x3, .f32⟩
  | 4 => ⟨S6x3x128x128, .f32⟩
  | 5 => ⟨S6x3x128, .f32⟩
  | 6 => ⟨S6x3x128, .f32⟩
  | 7 => ⟨S6x3x128, .f32⟩
  | 8 => ⟨S1x800000, .i32⟩
  | 9 => ⟨S800000, .i32⟩
  | 10 => ⟨S1x800000, .i32⟩
  | 11 => ⟨S800000, .i32⟩
  | 12 => ⟨S_, .f32⟩
  | 13 => ⟨S800000, .f32⟩
  | 14 => ⟨S_, .f32⟩
  | 15 => ⟨S50000, .f32⟩
  | 16 => ⟨S800000x1, .i32⟩
  | 17 => ⟨S50000, .f32⟩
  | 18 => ⟨S_, .f32⟩
  | 19 => ⟨S50000, .f32⟩
  | 20 => ⟨S50000, .f32⟩
  | 21 => ⟨S_, .f32⟩
  | 22 => ⟨S50000, .f32⟩
  | 23 => ⟨S50000, .f32⟩
  | 24 => ⟨S50000x1, .f32⟩
  | 25 => ⟨S50000x128, .bf16⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000x128, .f32⟩
  | 35 => ⟨S_, .f32⟩
  | 36 => ⟨S50000x128, .f32⟩
  | 37 => ⟨S800000x1, .i32⟩
  | 38 => ⟨S50000x128, .f32⟩
  | 39 => ⟨S50000x128, .f32⟩
  | 40 => ⟨S50000x128, .f32⟩
  | 41 => ⟨S1x1x128x128, .f32⟩
  | 42 => ⟨S128x128, .f32⟩
  | 43 => ⟨S128x128, .f32⟩
  | 44 => ⟨S1x1x128x128, .f32⟩
  | 45 => ⟨S128x128, .f32⟩
  | 46 => ⟨S128x128, .f32⟩
  | 47 => ⟨S1x1x128x128, .f32⟩
  | 48 => ⟨S128x128, .f32⟩
  | 49 => ⟨S128x128, .f32⟩
  | 50 => ⟨S128x384, .f32⟩
  | 51 => ⟨S1x1x128, .f32⟩
  | 52 => ⟨S128, .f32⟩
  | 53 => ⟨S1x1x128, .f32⟩
  | 54 => ⟨S128, .f32⟩
  | 55 => ⟨S1x1x128, .f32⟩
  | 56 => ⟨S128, .f32⟩
  | 57 => ⟨S384, .f32⟩
  | 58 => ⟨S1x1x128, .f32⟩
  | 59 => ⟨S128, .f32⟩
  | 60 => ⟨S1x1x128, .f32⟩
  | 61 => ⟨S128, .f32⟩
  | 62 => ⟨S1x1x128, .f32⟩
  | 63 => ⟨S128, .f32⟩
  | 64 => ⟨S384, .f32⟩
  | 65 => ⟨S1x1x128, .f32⟩
  | 66 => ⟨S128, .f32⟩
  | 67 => ⟨S1x1x128, .f32⟩
  | 68 => ⟨S128, .f32⟩
  | 69 => ⟨S1x1x128, .f32⟩
  | 70 => ⟨S128, .f32⟩
  | 71 => ⟨S384, .f32⟩
  | 72 => ⟨S1x1, .f32⟩
  | 73 => ⟨S_, .f32⟩
  | 74 => ⟨S128, .f32⟩
  | 75 => ⟨S1x1, .f32⟩
  | 76 => ⟨S_, .f32⟩
  | 77 => ⟨S128, .f32⟩
  | 78 => ⟨S1x1, .f32⟩
  | 79 => ⟨S_, .f32⟩
  | 80 => ⟨S128, .f32⟩
  | 81 => ⟨S384, .f32⟩
  | 82 => ⟨S1x1x128x128, .f32⟩
  | 83 => ⟨S128x128, .f32⟩
  | 84 => ⟨S128x128, .f32⟩
  | 85 => ⟨S1x1x128x128, .f32⟩
  | 86 => ⟨S128x128, .f32⟩
  | 87 => ⟨S128x128, .f32⟩
  | 88 => ⟨S1x1x128x128, .f32⟩
  | 89 => ⟨S128x128, .f32⟩
  | 90 => ⟨S128x128, .f32⟩
  | 91 => ⟨S128x384, .f32⟩
  | 92 => ⟨S1x1x128, .f32⟩
  | 93 => ⟨S128, .f32⟩
  | 94 => ⟨S1x1x128, .f32⟩
  | 95 => ⟨S128, .f32⟩
  | 96 => ⟨S1x1x128, .f32⟩
  | 97 => ⟨S128, .f32⟩
  | 98 => ⟨S384, .f32⟩
  | 99 => ⟨S1x1x128, .f32⟩
  | 100 => ⟨S128, .f32⟩
  | 101 => ⟨S1x1x128, .f32⟩
  | 102 => ⟨S128, .f32⟩
  | 103 => ⟨S1x1x128, .f32⟩
  | 104 => ⟨S128, .f32⟩
  | 105 => ⟨S384, .f32⟩
  | 106 => ⟨S1x1x128, .f32⟩
  | 107 => ⟨S128, .f32⟩
  | 108 => ⟨S1x1x128, .f32⟩
  | 109 => ⟨S128, .f32⟩
  | 110 => ⟨S1x1x128, .f32⟩
  | 111 => ⟨S128, .f32⟩
  | 112 => ⟨S384, .f32⟩
  | 113 => ⟨S1x1, .f32⟩
  | 114 => ⟨S_, .f32⟩
  | 115 => ⟨S128, .f32⟩
  | 116 => ⟨S1x1, .f32⟩
  | 117 => ⟨S_, .f32⟩
  | 118 => ⟨S128, .f32⟩
  | 119 => ⟨S1x1, .f32⟩
  | 120 => ⟨S_, .f32⟩
  | 121 => ⟨S128, .f32⟩
  | 122 => ⟨S384, .f32⟩
  | 123 => ⟨S1x1x128x128, .f32⟩
  | 124 => ⟨S128x128, .f32⟩
  | 125 => ⟨S128x128, .f32⟩
  | 126 => ⟨S1x1x128x128, .f32⟩
  | 127 => ⟨S128x128, .f32⟩
  | _ => ⟨S2x800000, .i32⟩

abbrev hbmTy0_1 (i : Nat) : BufTy := match i % 128 with
  | 0 => ⟨S128x128, .f32⟩
  | 1 => ⟨S1x1x128x128, .f32⟩
  | 2 => ⟨S128x128, .f32⟩
  | 3 => ⟨S128x128, .f32⟩
  | 4 => ⟨S128x384, .f32⟩
  | 5 => ⟨S1x1x128, .f32⟩
  | 6 => ⟨S128, .f32⟩
  | 7 => ⟨S1x1x128, .f32⟩
  | 8 => ⟨S128, .f32⟩
  | 9 => ⟨S1x1x128, .f32⟩
  | 10 => ⟨S128, .f32⟩
  | 11 => ⟨S384, .f32⟩
  | 12 => ⟨S1x1x128, .f32⟩
  | 13 => ⟨S128, .f32⟩
  | 14 => ⟨S1x1x128, .f32⟩
  | 15 => ⟨S128, .f32⟩
  | 16 => ⟨S1x1x128, .f32⟩
  | 17 => ⟨S128, .f32⟩
  | 18 => ⟨S384, .f32⟩
  | 19 => ⟨S1x1x128, .f32⟩
  | 20 => ⟨S128, .f32⟩
  | 21 => ⟨S1x1x128, .f32⟩
  | 22 => ⟨S128, .f32⟩
  | 23 => ⟨S1x1x128, .f32⟩
  | 24 => ⟨S128, .f32⟩
  | 25 => ⟨S384, .f32⟩
  | 26 => ⟨S1x1, .f32⟩
  | 27 => ⟨S_, .f32⟩
  | 28 => ⟨S128, .f32⟩
  | 29 => ⟨S1x1, .f32⟩
  | 30 => ⟨S_, .f32⟩
  | 31 => ⟨S128, .f32⟩
  | 32 => ⟨S1x1, .f32⟩
  | 33 => ⟨S_, .f32⟩
  | 34 => ⟨S128, .f32⟩
  | 35 => ⟨S384, .f32⟩
  | 36 => ⟨S1x128x384, .f32⟩
  | 37 => ⟨S1x128x384, .f32⟩
  | 38 => ⟨S1x128x384, .f32⟩
  | 39 => ⟨S3x128x384, .f32⟩
  | 40 => ⟨S1x384, .f32⟩
  | 41 => ⟨S1x384, .f32⟩
  | 42 => ⟨S1x384, .f32⟩
  | 43 => ⟨S3x384, .f32⟩
  | 44 => ⟨S1x384, .f32⟩
  | 45 => ⟨S1x384, .f32⟩
  | 46 => ⟨S1x384, .f32⟩
  | 47 => ⟨S3x384, .f32⟩
  | 48 => ⟨S1x384, .f32⟩
  | 49 => ⟨S1x384, .f32⟩
  | 50 => ⟨S1x384, .f32⟩
  | 51 => ⟨S3x384, .f32⟩
  | 52 => ⟨S1x384, .f32⟩
  | 53 => ⟨S1x384, .f32⟩
  | 54 => ⟨S1x384, .f32⟩
  | 55 => ⟨S3x384, .f32⟩
  | 56 => ⟨S50000x128, .bf16⟩
  | 57 => ⟨S50000x128, .bf16⟩
  | 58 => ⟨S2x3x384, .f32⟩
  | 59 => ⟨S2x3x384, .f32⟩
  | 60 => ⟨S_, .f32⟩
  | 61 => ⟨S3x384, .f32⟩
  | 62 => ⟨S_, .f32⟩
  | 63 => ⟨S3x384, .f32⟩
  | 64 => ⟨S_, .f32⟩
  | 65 => ⟨S3x384, .f32⟩
  | 66 => ⟨S3x384, .f32⟩
  | 67 => ⟨S_, .f32⟩
  | 68 => ⟨S3x384, .f32⟩
  | 69 => ⟨S3x384, .f32⟩
  | 70 => ⟨S3x384, .f32⟩
  | 71 => ⟨S3x384, .f32⟩
  | 72 => ⟨S_, .f32⟩
  | 73 => ⟨S3x384, .f32⟩
  | 74 => ⟨S3x384, .f32⟩
  | 75 => ⟨S50000x384, .f32⟩
  | 76 => ⟨S50000x128, .f32⟩
  | 77 => ⟨S_, .i32⟩
  | 78 => ⟨S800000, .i32⟩
  | 79 => ⟨S800000, .i1⟩
  | 80 => ⟨S_, .i32⟩
  | 81 => ⟨S800000, .i32⟩
  | 82 => ⟨S800000, .i32⟩
  | 83 => ⟨S800000, .i32⟩
  | 84 => ⟨S800000x1, .i32⟩
  | 85 => ⟨S800000x128, .f32⟩
  | 86 => ⟨S_, .f32⟩
  | 87 => ⟨S50000x128, .f32⟩
  | 88 => ⟨S800000x1, .i32⟩
  | 89 => ⟨S50000x128, .f32⟩
  | 90 => ⟨S50000x128, .f32⟩
  | 91 => ⟨S50000x128, .f32⟩
  | 92 => ⟨S50000x128, .f32⟩
  | 93 => ⟨S1x1x128x128, .f32⟩
  | 94 => ⟨S128x128, .f32⟩
  | 95 => ⟨S128x128, .f32⟩
  | 96 => ⟨S1x1x128x128, .f32⟩
  | 97 => ⟨S128x128, .f32⟩
  | 98 => ⟨S128x128, .f32⟩
  | 99 => ⟨S128x256, .f32⟩
  | 100 => ⟨S1x1x128, .f32⟩
  | 101 => ⟨S128, .f32⟩
  | 102 => ⟨S1x1x128, .f32⟩
  | 103 => ⟨S128, .f32⟩
  | 104 => ⟨S256, .f32⟩
  | 105 => ⟨S1x1x128, .f32⟩
  | 106 => ⟨S128, .f32⟩
  | 107 => ⟨S1x1x128, .f32⟩
  | 108 => ⟨S128, .f32⟩
  | 109 => ⟨S256, .f32⟩
  | 110 => ⟨S1x1x128, .f32⟩
  | 111 => ⟨S128, .f32⟩
  | 112 => ⟨S1x1x128, .f32⟩
  | 113 => ⟨S128, .f32⟩
  | 114 => ⟨S256, .f32⟩
  | 115 => ⟨S1x1, .f32⟩
  | 116 => ⟨S_, .f32⟩
  | 117 => ⟨S128, .f32⟩
  | 118 => ⟨S1x1, .f32⟩
  | 119 => ⟨S_, .f32⟩
  | 120 => ⟨S128, .f32⟩
  | 121 => ⟨S256, .f32⟩
  | 122 => ⟨S1x1x128x128, .f32⟩
  | 123 => ⟨S128x128, .f32⟩
  | 124 => ⟨S128x128, .f32⟩
  | 125 => ⟨S1x1x128x128, .f32⟩
  | 126 => ⟨S128x128, .f32⟩
  | 127 => ⟨S128x128, .f32⟩
  | _ => ⟨S2x800000, .i32⟩

abbrev hbmTy0_2 (i : Nat) : BufTy := match i % 128 with
  | 0 => ⟨S128x256, .f32⟩
  | 1 => ⟨S1x1x128, .f32⟩
  | 2 => ⟨S128, .f32⟩
  | 3 => ⟨S1x1x128, .f32⟩
  | 4 => ⟨S128, .f32⟩
  | 5 => ⟨S256, .f32⟩
  | 6 => ⟨S1x1x128, .f32⟩
  | 7 => ⟨S128, .f32⟩
  | 8 => ⟨S1x1x128, .f32⟩
  | 9 => ⟨S128, .f32⟩
  | 10 => ⟨S256, .f32⟩
  | 11 => ⟨S1x1x128, .f32⟩
  | 12 => ⟨S128, .f32⟩
  | 13 => ⟨S1x1x128, .f32⟩
  | 14 => ⟨S128, .f32⟩
  | 15 => ⟨S256, .f32⟩
  | 16 => ⟨S1x1, .f32⟩
  | 17 => ⟨S_, .f32⟩
  | 18 => ⟨S128, .f32⟩
  | 19 => ⟨S1x1, .f32⟩
  | 20 => ⟨S_, .f32⟩
  | 21 => ⟨S128, .f32⟩
  | 22 => ⟨S256, .f32⟩
  | 23 => ⟨S1x1x128x128, .f32⟩
  | 24 => ⟨S128x128, .f32⟩
  | 25 => ⟨S128x128, .f32⟩
  | 26 => ⟨S1x1x128x128, .f32⟩
  | 27 => ⟨S128x128, .f32⟩
  | 28 => ⟨S128x128, .f32⟩
  | 29 => ⟨S128x256, .f32⟩
  | 30 => ⟨S1x1x128, .f32⟩
  | 31 => ⟨S128, .f32⟩
  | 32 => ⟨S1x1x128, .f32⟩
  | 33 => ⟨S128, .f32⟩
  | 34 => ⟨S256, .f32⟩
  | 35 => ⟨S1x1x128, .f32⟩
  | 36 => ⟨S128, .f32⟩
  | 37 => ⟨S1x1x128, .f32⟩
  | 38 => ⟨S128, .f32⟩
  | 39 => ⟨S256, .f32⟩
  | 40 => ⟨S1x1x128, .f32⟩
  | 41 => ⟨S128, .f32⟩
  | 42 => ⟨S1x1x128, .f32⟩
  | 43 => ⟨S128, .f32⟩
  | 44 => ⟨S256, .f32⟩
  | 45 => ⟨S1x1, .f32⟩
  | 46 => ⟨S_, .f32⟩
  | 47 => ⟨S128, .f32⟩
  | 48 => ⟨S1x1, .f32⟩
  | 49 => ⟨S_, .f32⟩
  | 50 => ⟨S128, .f32⟩
  | 51 => ⟨S256, .f32⟩
  | 52 => ⟨S1x128x256, .f32⟩
  | 53 => ⟨S1x128x256, .f32⟩
  | 54 => ⟨S1x128x256, .f32⟩
  | 55 => ⟨S3x128x256, .f32⟩
  | 56 => ⟨S1x256, .f32⟩
  | 57 => ⟨S1x256, .f32⟩
  | 58 => ⟨S1x256, .f32⟩
  | 59 => ⟨S3x256, .f32⟩
  | 60 => ⟨S1x256, .f32⟩
  | 61 => ⟨S1x256, .f32⟩
  | 62 => ⟨S1x256, .f32⟩
  | 63 => ⟨S3x256, .f32⟩
  | 64 => ⟨S1x256, .f32⟩
  | 65 => ⟨S1x256, .f32⟩
  | 66 => ⟨S1x256, .f32⟩
  | 67 => ⟨S3x256, .f32⟩
  | 68 => ⟨S1x256, .f32⟩
  | 69 => ⟨S1x256, .f32⟩
  | 70 => ⟨S1x256, .f32⟩
  | 71 => ⟨S3x256, .f32⟩
  | 72 => ⟨S50000x128, .bf16⟩
  | 73 => ⟨S50000x128, .bf16⟩
  | 74 => ⟨S2x3x256, .f32⟩
  | 75 => ⟨S2x3x256, .f32⟩
  | 76 => ⟨S_, .f32⟩
  | 77 => ⟨S3x256, .f32⟩
  | 78 => ⟨S_, .f32⟩
  | 79 => ⟨S3x256, .f32⟩
  | 80 => ⟨S_, .f32⟩
  | 81 => ⟨S3x256, .f32⟩
  | 82 => ⟨S3x256, .f32⟩
  | 83 => ⟨S_, .f32⟩
  | 84 => ⟨S3x256, .f32⟩
  | 85 => ⟨S3x256, .f32⟩
  | 86 => ⟨S3x256, .f32⟩
  | 87 => ⟨S3x256, .f32⟩
  | 88 => ⟨S_, .f32⟩
  | 89 => ⟨S3x256, .f32⟩
  | 90 => ⟨S3x256, .f32⟩
  | 91 => ⟨S50000x256, .f32⟩
  | 92 => ⟨S50000x128, .f32⟩
  | 93 => ⟨S50000x128, .f32⟩
  | 94 => ⟨S50000x128, .f32⟩
  | 95 => ⟨S50000x128, .f32⟩
  | 96 => ⟨S_, .i32⟩
  | 97 => ⟨S800000, .i32⟩
  | 98 => ⟨S800000, .i1⟩
  | 99 => ⟨S_, .i32⟩
  | 100 => ⟨S800000, .i32⟩
  | 101 => ⟨S800000, .i32⟩
  | 102 => ⟨S800000, .i32⟩
  | 103 => ⟨S800000x1, .i32⟩
  | 104 => ⟨S800000x128, .f32⟩
  | 105 => ⟨S_, .f32⟩
  | 106 => ⟨S50000x128, .f32⟩
  | 107 => ⟨S800000x1, .i32⟩
  | 108 => ⟨S50000x128, .f32⟩
  | 109 => ⟨S50000x128, .f32⟩
  | 110 => ⟨S50000x128, .f32⟩
  | 111 => ⟨S1x1x128x128, .f32⟩
  | 112 => ⟨S128x128, .f32⟩
  | 113 => ⟨S128x128, .f32⟩
  | 114 => ⟨S1x1x128, .f32⟩
  | 115 => ⟨S128, .f32⟩
  | 116 => ⟨S1x1x128, .f32⟩
  | 117 => ⟨S128, .f32⟩
  | 118 => ⟨S1x1x128, .f32⟩
  | 119 => ⟨S128, .f32⟩
  | 120 => ⟨S1x1, .f32⟩
  | 121 => ⟨S_, .f32⟩
  | 122 => ⟨S128, .f32⟩
  | 123 => ⟨S1x1x128x128, .f32⟩
  | 124 => ⟨S128x128, .f32⟩
  | 125 => ⟨S128x128, .f32⟩
  | 126 => ⟨S1x1x128, .f32⟩
  | 127 => ⟨S128, .f32⟩
  | _ => ⟨S2x800000, .i32⟩

abbrev hbmTy0_3 (i : Nat) : BufTy := match i % 128 with
  | 0 => ⟨S1x1x128, .f32⟩
  | 1 => ⟨S128, .f32⟩
  | 2 => ⟨S1x1x128, .f32⟩
  | 3 => ⟨S128, .f32⟩
  | 4 => ⟨S1x1, .f32⟩
  | 5 => ⟨S_, .f32⟩
  | 6 => ⟨S128, .f32⟩
  | 7 => ⟨S1x1x128x128, .f32⟩
  | 8 => ⟨S128x128, .f32⟩
  | 9 => ⟨S128x128, .f32⟩
  | 10 => ⟨S1x1x128, .f32⟩
  | 11 => ⟨S128, .f32⟩
  | 12 => ⟨S1x1x128, .f32⟩
  | 13 => ⟨S128, .f32⟩
  | 14 => ⟨S1x1x128, .f32⟩
  | 15 => ⟨S128, .f32⟩
  | 16 => ⟨S1x1, .f32⟩
  | 17 => ⟨S_, .f32⟩
  | 18 => ⟨S128, .f32⟩
  | 19 => ⟨S1x128x128, .f32⟩
  | 20 => ⟨S1x128x128, .f32⟩
  | 21 => ⟨S1x128x128, .f32⟩
  | 22 => ⟨S3x128x128, .f32⟩
  | 23 => ⟨S1x128, .f32⟩
  | 24 => ⟨S1x128, .f32⟩
  | 25 => ⟨S1x128, .f32⟩
  | 26 => ⟨S3x128, .f32⟩
  | 27 => ⟨S1x128, .f32⟩
  | 28 => ⟨S1x128, .f32⟩
  | 29 => ⟨S1x128, .f32⟩
  | 30 => ⟨S3x128, .f32⟩
  | 31 => ⟨S1x128, .f32⟩
  | 32 => ⟨S1x128, .f32⟩
  | 33 => ⟨S1x128, .f32⟩
  | 34 => ⟨S3x128, .f32⟩
  | 35 => ⟨S1x128, .f32⟩
  | 36 => ⟨S1x128, .f32⟩
  | 37 => ⟨S1x128, .f32⟩
  | 38 => ⟨S3x128, .f32⟩
  | 39 => ⟨S50000x128, .bf16⟩
  | 40 => ⟨S50000x128, .bf16⟩
  | 41 => ⟨S2x3x128, .f32⟩
  | 42 => ⟨S2x3x128, .f32⟩
  | 43 => ⟨S_, .f32⟩
  | 44 => ⟨S3x128, .f32⟩
  | 45 => ⟨S_, .f32⟩
  | 46 => ⟨S3x128, .f32⟩
  | 47 => ⟨S_, .f32⟩
  | 48 => ⟨S3x128, .f32⟩
  | 49 => ⟨S3x128, .f32⟩
  | 50 => ⟨S_, .f32⟩
  | 51 => ⟨S3x128, .f32⟩
  | 52 => ⟨S3x128, .f32⟩
  | 53 => ⟨S3x128, .f32⟩
  | 54 => ⟨S3x128, .f32⟩
  | 55 => ⟨S_, .f32⟩
  | 56 => ⟨S3x128, .f32⟩
  | 57 => ⟨S3x128, .f32⟩
  | 58 => ⟨S50000x128, .f32⟩
  | 59 => ⟨S1x50000x128, .f32⟩
  | 60 => ⟨S1x50000x128, .f32⟩
  | 61 => ⟨S1x50000x128, .f32⟩
  | 62 => ⟨S3x50000x128, .f32⟩
  | _ => ⟨S2x800000, .i32⟩

abbrev hbmTy (i : Nat) : BufTy := match i / 128 with
  | 0 => hbmTy0_0 i
  | 1 => hbmTy0_1 i
  | 2 => hbmTy0_2 i
  | 3 => hbmTy0_3 i
  | _ => ⟨S2x800000, .i32⟩

abbrev bufTy : (tb : Table) → Fin (tcTables nBuf tb) → BufTy
  | .hbm, ⟨i, _⟩ => hbmTy i
  | .local _ .vmem, ⟨0, _⟩ => ⟨S1000x128, .bf16⟩
  | .local _ .vmem, ⟨1, _⟩ => ⟨S1000x128, .bf16⟩
  | .local _ .vmem, ⟨2, _⟩ => ⟨S1000x128, .bf16⟩
  | .local _ .vmem, ⟨3, _⟩ => ⟨S1000x128, .bf16⟩
  | .local _ .vmem, ⟨4, _⟩ => ⟨S1000x128, .bf16⟩
  | .local _ .vmem, ⟨5, _⟩ => ⟨S1000x128, .bf16⟩
  | .local _ .vmem, ⟨6, _⟩ => ⟨S3x128x384, .f32⟩
  | .local _ .vmem, ⟨7, _⟩ => ⟨S3x384, .f32⟩
  | .local _ .vmem, ⟨8, _⟩ => ⟨S1x3x384, .f32⟩
  | .local _ .vmem, ⟨9, _⟩ => ⟨S1x3x384, .f32⟩
  | .local _ .vmem, ⟨10, _⟩ => ⟨S1x3x384, .f32⟩
  | .local _ .vmem, ⟨11, _⟩ => ⟨S1x3x384, .f32⟩
  | .local _ .vmem, ⟨12, _⟩ => ⟨S2000x128, .bf16⟩
  | .local _ .vmem, ⟨13, _⟩ => ⟨S2000x128, .bf16⟩
  | .local _ .vmem, ⟨14, _⟩ => ⟨S2000x128, .bf16⟩
  | .local _ .vmem, ⟨15, _⟩ => ⟨S2000x128, .bf16⟩
  | .local _ .vmem, ⟨16, _⟩ => ⟨S2000x128, .bf16⟩
  | .local _ .vmem, ⟨17, _⟩ => ⟨S2000x128, .bf16⟩
  | .local _ .vmem, ⟨18, _⟩ => ⟨S3x128x384, .f32⟩
  | .local _ .vmem, ⟨19, _⟩ => ⟨S3x384, .f32⟩
  | .local _ .vmem, ⟨20, _⟩ => ⟨S3x384, .f32⟩
  | .local _ .vmem, ⟨21, _⟩ => ⟨S3x384, .f32⟩
  | .local _ .vmem, ⟨22, _⟩ => ⟨S3x384, .f32⟩
  | .local _ .vmem, ⟨23, _⟩ => ⟨S3x384, .f32⟩
  | .local _ .vmem, ⟨24, _⟩ => ⟨S3x384, .f32⟩
  | .local _ .vmem, ⟨25, _⟩ => ⟨S2000x384, .f32⟩
  | .local _ .vmem, ⟨26, _⟩ => ⟨S2000x384, .f32⟩
  | .local _ .vmem, ⟨27, _⟩ => ⟨S1000x128, .bf16⟩
  | .local _ .vmem, ⟨28, _⟩ => ⟨S1000x128, .bf16⟩
  | .local _ .vmem, ⟨29, _⟩ => ⟨S1000x128, .bf16⟩
  | .local _ .vmem, ⟨30, _⟩ => ⟨S1000x128, .bf16⟩
  | .local _ .vmem, ⟨31, _⟩ => ⟨S1000x128, .bf16⟩
  | .local _ .vmem, ⟨32, _⟩ => ⟨S1000x128, .bf16⟩
  | .local _ .vmem, ⟨33, _⟩ => ⟨S3x128x256, .f32⟩
  | .local _ .vmem, ⟨34, _⟩ => ⟨S3x256, .f32⟩
  | .local _ .vmem, ⟨35, _⟩ => ⟨S1x3x256, .f32⟩
  | .local _ .vmem, ⟨36, _⟩ => ⟨S1x3x256, .f32⟩
  | .local _ .vmem, ⟨37, _⟩ => ⟨S1x3x256, .f32⟩
  | .local _ .vmem, ⟨38, _⟩ => ⟨S1x3x256, .f32⟩
  | .local _ .vmem, ⟨39, _⟩ => ⟨S2000x128, .bf16⟩
  | .local _ .vmem, ⟨40, _⟩ => ⟨S2000x128, .bf16⟩
  | .local _ .vmem, ⟨41, _⟩ => ⟨S2000x128, .bf16⟩
  | .local _ .vmem, ⟨42, _⟩ => ⟨S2000x128, .bf16⟩
  | .local _ .vmem, ⟨43, _⟩ => ⟨S2000x128, .bf16⟩
  | .local _ .vmem, ⟨44, _⟩ => ⟨S2000x128, .bf16⟩
  | .local _ .vmem, ⟨45, _⟩ => ⟨S3x128x256, .f32⟩
  | .local _ .vmem, ⟨46, _⟩ => ⟨S3x256, .f32⟩
  | .local _ .vmem, ⟨47, _⟩ => ⟨S3x256, .f32⟩
  | .local _ .vmem, ⟨48, _⟩ => ⟨S3x256, .f32⟩
  | .local _ .vmem, ⟨49, _⟩ => ⟨S3x256, .f32⟩
  | .local _ .vmem, ⟨50, _⟩ => ⟨S3x256, .f32⟩
  | .local _ .vmem, ⟨51, _⟩ => ⟨S3x256, .f32⟩
  | .local _ .vmem, ⟨52, _⟩ => ⟨S2000x128, .f32⟩
  | .local _ .vmem, ⟨53, _⟩ => ⟨S2000x128, .f32⟩
  | .local _ .vmem, ⟨54, _⟩ => ⟨S2000x256, .f32⟩
  | .local _ .vmem, ⟨55, _⟩ => ⟨S2000x256, .f32⟩
  | .local _ .vmem, ⟨56, _⟩ => ⟨S1000x128, .bf16⟩
  | .local _ .vmem, ⟨57, _⟩ => ⟨S1000x128, .bf16⟩
  | .local _ .vmem, ⟨58, _⟩ => ⟨S1000x128, .bf16⟩
  | .local _ .vmem, ⟨59, _⟩ => ⟨S1000x128, .bf16⟩
  | .local _ .vmem, ⟨60, _⟩ => ⟨S1000x128, .bf16⟩
  | .local _ .vmem, ⟨61, _⟩ => ⟨S1000x128, .bf16⟩
  | .local _ .vmem, ⟨62, _⟩ => ⟨S3x128x128, .f32⟩
  | .local _ .vmem, ⟨63, _⟩ => ⟨S3x128, .f32⟩
  | .local _ .vmem, ⟨64, _⟩ => ⟨S1x3x128, .f32⟩
  | .local _ .vmem, ⟨65, _⟩ => ⟨S1x3x128, .f32⟩
  | .local _ .vmem, ⟨66, _⟩ => ⟨S1x3x128, .f32⟩
  | .local _ .vmem, ⟨67, _⟩ => ⟨S1x3x128, .f32⟩
  | .local _ .vmem, ⟨68, _⟩ => ⟨S2000x128, .bf16⟩
  | .local _ .vmem, ⟨69, _⟩ => ⟨S2000x128, .bf16⟩
  | .local _ .vmem, ⟨70, _⟩ => ⟨S2000x128, .bf16⟩
  | .local _ .vmem, ⟨71, _⟩ => ⟨S2000x128, .bf16⟩
  | .local _ .vmem, ⟨72, _⟩ => ⟨S2000x128, .bf16⟩
  | .local _ .vmem, ⟨73, _⟩ => ⟨S2000x128, .bf16⟩
  | .local _ .vmem, ⟨74, _⟩ => ⟨S3x128x128, .f32⟩
  | .local _ .vmem, ⟨75, _⟩ => ⟨S3x128, .f32⟩
  | .local _ .vmem, ⟨76, _⟩ => ⟨S3x128, .f32⟩
  | .local _ .vmem, ⟨77, _⟩ => ⟨S3x128, .f32⟩
  | .local _ .vmem, ⟨78, _⟩ => ⟨S3x128, .f32⟩
  | .local _ .vmem, ⟨79, _⟩ => ⟨S3x128, .f32⟩
  | .local _ .vmem, ⟨80, _⟩ => ⟨S3x128, .f32⟩
  | .local _ .vmem, ⟨81, _⟩ => ⟨S2000x128, .f32⟩
  | .local _ .vmem, ⟨82, _⟩ => ⟨S2000x128, .f32⟩
  | .local _ .vmem, ⟨83, _⟩ => ⟨S2000x128, .f32⟩
  | .local _ .vmem, ⟨84, _⟩ => ⟨S2000x128, .f32⟩
  | _, _ => ⟨S2x800000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | _, _ => false

abbrev semScoped : Fin 0 → Bool
  | ⟨_, h⟩ => absurd h (Nat.not_lt_zero _)

abbrev dmaSemScoped : Fin 85 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | _ => false

abbrev sig : RefSig :=
  ofTc nBuf bufTy 0 85 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_v128 : Ref sig .tc := ⟨.hbm, 143, rfl⟩
abbrev main_v129 : Ref sig .tc := ⟨.hbm, 144, rfl⟩
abbrev main_v130 : Ref sig .tc := ⟨.hbm, 145, rfl⟩
abbrev main_v131 : Ref sig .tc := ⟨.hbm, 146, rfl⟩
abbrev main_v132 : Ref sig .tc := ⟨.hbm, 147, rfl⟩
abbrev main_v133 : Ref sig .tc := ⟨.hbm, 148, rfl⟩
abbrev main_v134 : Ref sig .tc := ⟨.hbm, 149, rfl⟩
abbrev main_v135 : Ref sig .tc := ⟨.hbm, 150, rfl⟩
abbrev main_v136 : Ref sig .tc := ⟨.hbm, 151, rfl⟩
abbrev main_v137 : Ref sig .tc := ⟨.hbm, 152, rfl⟩
abbrev main_v138 : Ref sig .tc := ⟨.hbm, 153, rfl⟩
abbrev main_v139 : Ref sig .tc := ⟨.hbm, 154, rfl⟩
abbrev main_v140 : Ref sig .tc := ⟨.hbm, 155, rfl⟩
abbrev main_v141 : Ref sig .tc := ⟨.hbm, 156, rfl⟩
abbrev main_v142 : Ref sig .tc := ⟨.hbm, 157, rfl⟩
abbrev main_v143 : Ref sig .tc := ⟨.hbm, 158, rfl⟩
abbrev main_v144 : Ref sig .tc := ⟨.hbm, 159, rfl⟩
abbrev main_v145 : Ref sig .tc := ⟨.hbm, 160, rfl⟩
abbrev main_v146 : Ref sig .tc := ⟨.hbm, 161, rfl⟩
abbrev main_v147 : Ref sig .tc := ⟨.hbm, 162, rfl⟩
abbrev main_v148 : Ref sig .tc := ⟨.hbm, 163, rfl⟩
abbrev main_v149 : Ref sig .tc := ⟨.hbm, 164, rfl⟩
abbrev main_v150 : Ref sig .tc := ⟨.hbm, 165, rfl⟩
abbrev main_v151 : Ref sig .tc := ⟨.hbm, 166, rfl⟩
abbrev main_v152 : Ref sig .tc := ⟨.hbm, 167, rfl⟩
abbrev main_v153 : Ref sig .tc := ⟨.hbm, 168, rfl⟩
abbrev main_v154 : Ref sig .tc := ⟨.hbm, 169, rfl⟩
abbrev main_v155 : Ref sig .tc := ⟨.hbm, 170, rfl⟩
abbrev main_v156 : Ref sig .tc := ⟨.hbm, 171, rfl⟩
abbrev main_v157 : Ref sig .tc := ⟨.hbm, 172, rfl⟩
abbrev main_v158 : Ref sig .tc := ⟨.hbm, 173, rfl⟩
abbrev main_v159 : Ref sig .tc := ⟨.hbm, 174, rfl⟩
abbrev main_v160 : Ref sig .tc := ⟨.hbm, 175, rfl⟩
abbrev main_v161 : Ref sig .tc := ⟨.hbm, 176, rfl⟩
abbrev main_v162 : Ref sig .tc := ⟨.hbm, 177, rfl⟩
abbrev main_v163 : Ref sig .tc := ⟨.hbm, 178, rfl⟩
abbrev main_v164 : Ref sig .tc := ⟨.hbm, 179, rfl⟩
abbrev main_v165 : Ref sig .tc := ⟨.hbm, 180, rfl⟩
abbrev main_v166 : Ref sig .tc := ⟨.hbm, 181, rfl⟩
abbrev main_v167 : Ref sig .tc := ⟨.hbm, 182, rfl⟩
abbrev main_v168 : Ref sig .tc := ⟨.hbm, 183, rfl⟩
abbrev main_v169 : Ref sig .tc := ⟨.hbm, 184, rfl⟩
abbrev main_v170 : Ref sig .tc := ⟨.hbm, 185, rfl⟩
abbrev main_v171_0 : Ref sig .tc := ⟨.hbm, 186, rfl⟩
abbrev main_v171_1 : Ref sig .tc := ⟨.hbm, 187, rfl⟩
abbrev main_cst_5 : Ref sig .tc := ⟨.hbm, 188, rfl⟩
abbrev main_v172 : Ref sig .tc := ⟨.hbm, 189, rfl⟩
abbrev main_cst_6 : Ref sig .tc := ⟨.hbm, 190, rfl⟩
abbrev main_v173 : Ref sig .tc := ⟨.hbm, 191, rfl⟩
abbrev main_cst_7 : Ref sig .tc := ⟨.hbm, 192, rfl⟩
abbrev main_v174 : Ref sig .tc := ⟨.hbm, 193, rfl⟩
abbrev main_v175 : Ref sig .tc := ⟨.hbm, 194, rfl⟩
abbrev main_cst_8 : Ref sig .tc := ⟨.hbm, 195, rfl⟩
abbrev main_v176 : Ref sig .tc := ⟨.hbm, 196, rfl⟩
abbrev main_v177 : Ref sig .tc := ⟨.hbm, 197, rfl⟩
abbrev main_v178 : Ref sig .tc := ⟨.hbm, 198, rfl⟩
abbrev main_v179 : Ref sig .tc := ⟨.hbm, 199, rfl⟩
abbrev main_cst_9 : Ref sig .tc := ⟨.hbm, 200, rfl⟩
abbrev main_v180 : Ref sig .tc := ⟨.hbm, 201, rfl⟩
abbrev main_v181 : Ref sig .tc := ⟨.hbm, 202, rfl⟩
abbrev main_v182 : Ref sig .tc := ⟨.hbm, 203, rfl⟩
abbrev main_v183 : Ref sig .tc := ⟨.hbm, 204, rfl⟩
abbrev main_c_10 : Ref sig .tc := ⟨.hbm, 205, rfl⟩
abbrev main_v184 : Ref sig .tc := ⟨.hbm, 206, rfl⟩
abbrev main_v185 : Ref sig .tc := ⟨.hbm, 207, rfl⟩
abbrev main_c_11 : Ref sig .tc := ⟨.hbm, 208, rfl⟩
abbrev main_v186 : Ref sig .tc := ⟨.hbm, 209, rfl⟩
abbrev main_v187 : Ref sig .tc := ⟨.hbm, 210, rfl⟩
abbrev main_v188 : Ref sig .tc := ⟨.hbm, 211, rfl⟩
abbrev main_v189 : Ref sig .tc := ⟨.hbm, 212, rfl⟩
abbrev main_v190 : Ref sig .tc := ⟨.hbm, 213, rfl⟩
abbrev main_cst_12 : Ref sig .tc := ⟨.hbm, 214, rfl⟩
abbrev main_v191 : Ref sig .tc := ⟨.hbm, 215, rfl⟩
abbrev main_v192 : Ref sig .tc := ⟨.hbm, 216, rfl⟩
abbrev main_v193 : Ref sig .tc := ⟨.hbm, 217, rfl⟩
abbrev main_v194 : Ref sig .tc := ⟨.hbm, 218, rfl⟩
abbrev main_v195 : Ref sig .tc := ⟨.hbm, 219, rfl⟩
abbrev main_v196 : Ref sig .tc := ⟨.hbm, 220, rfl⟩
abbrev main_v197 : Ref sig .tc := ⟨.hbm, 221, rfl⟩
abbrev main_v198 : Ref sig .tc := ⟨.hbm, 222, rfl⟩
abbrev main_v199 : Ref sig .tc := ⟨.hbm, 223, rfl⟩
abbrev main_v200 : Ref sig .tc := ⟨.hbm, 224, rfl⟩
abbrev main_v201 : Ref sig .tc := ⟨.hbm, 225, rfl⟩
abbrev main_v202 : Ref sig .tc := ⟨.hbm, 226, rfl⟩
abbrev main_v203 : Ref sig .tc := ⟨.hbm, 227, rfl⟩
abbrev main_v204 : Ref sig .tc := ⟨.hbm, 228, rfl⟩
abbrev main_v205 : Ref sig .tc := ⟨.hbm, 229, rfl⟩
abbrev main_v206 : Ref sig .tc := ⟨.hbm, 230, rfl⟩
abbrev main_v207 : Ref sig .tc := ⟨.hbm, 231, rfl⟩
abbrev main_v208 : Ref sig .tc := ⟨.hbm, 232, rfl⟩
abbrev main_v209 : Ref sig .tc := ⟨.hbm, 233, rfl⟩
abbrev main_v210 : Ref sig .tc := ⟨.hbm, 234, rfl⟩
abbrev main_v211 : Ref sig .tc := ⟨.hbm, 235, rfl⟩
abbrev main_v212 : Ref sig .tc := ⟨.hbm, 236, rfl⟩
abbrev main_v213 : Ref sig .tc := ⟨.hbm, 237, rfl⟩
abbrev main_v214 : Ref sig .tc := ⟨.hbm, 238, rfl⟩
abbrev main_v215 : Ref sig .tc := ⟨.hbm, 239, rfl⟩
abbrev main_v216 : Ref sig .tc := ⟨.hbm, 240, rfl⟩
abbrev main_v217 : Ref sig .tc := ⟨.hbm, 241, rfl⟩
abbrev main_v218 : Ref sig .tc := ⟨.hbm, 242, rfl⟩
abbrev main_v219 : Ref sig .tc := ⟨.hbm, 243, rfl⟩
abbrev main_v220 : Ref sig .tc := ⟨.hbm, 244, rfl⟩
abbrev main_v221 : Ref sig .tc := ⟨.hbm, 245, rfl⟩
abbrev main_v222 : Ref sig .tc := ⟨.hbm, 246, rfl⟩
abbrev main_v223 : Ref sig .tc := ⟨.hbm, 247, rfl⟩
abbrev main_v224 : Ref sig .tc := ⟨.hbm, 248, rfl⟩
abbrev main_v225 : Ref sig .tc := ⟨.hbm, 249, rfl⟩
abbrev main_v226 : Ref sig .tc := ⟨.hbm, 250, rfl⟩
abbrev main_v227 : Ref sig .tc := ⟨.hbm, 251, rfl⟩
abbrev main_v228 : Ref sig .tc := ⟨.hbm, 252, rfl⟩
abbrev main_v229 : Ref sig .tc := ⟨.hbm, 253, rfl⟩
abbrev main_v230 : Ref sig .tc := ⟨.hbm, 254, rfl⟩
abbrev main_v231 : Ref sig .tc := ⟨.hbm, 255, rfl⟩
abbrev main_v232 : Ref sig .tc := ⟨.hbm, 256, rfl⟩
abbrev main_v233 : Ref sig .tc := ⟨.hbm, 257, rfl⟩
abbrev main_v234 : Ref sig .tc := ⟨.hbm, 258, rfl⟩
abbrev main_v235 : Ref sig .tc := ⟨.hbm, 259, rfl⟩
abbrev main_v236 : Ref sig .tc := ⟨.hbm, 260, rfl⟩
abbrev main_v237 : Ref sig .tc := ⟨.hbm, 261, rfl⟩
abbrev main_v238 : Ref sig .tc := ⟨.hbm, 262, rfl⟩
abbrev main_v239 : Ref sig .tc := ⟨.hbm, 263, rfl⟩
abbrev main_v240 : Ref sig .tc := ⟨.hbm, 264, rfl⟩
abbrev main_v241 : Ref sig .tc := ⟨.hbm, 265, rfl⟩
abbrev main_v242 : Ref sig .tc := ⟨.hbm, 266, rfl⟩
abbrev main_v243 : Ref sig .tc := ⟨.hbm, 267, rfl⟩
abbrev main_v244 : Ref sig .tc := ⟨.hbm, 268, rfl⟩
abbrev main_v245 : Ref sig .tc := ⟨.hbm, 269, rfl⟩
abbrev main_v246 : Ref sig .tc := ⟨.hbm, 270, rfl⟩
abbrev main_v247 : Ref sig .tc := ⟨.hbm, 271, rfl⟩
abbrev main_v248 : Ref sig .tc := ⟨.hbm, 272, rfl⟩
abbrev main_v249 : Ref sig .tc := ⟨.hbm, 273, rfl⟩
abbrev main_v250 : Ref sig .tc := ⟨.hbm, 274, rfl⟩
abbrev main_v251 : Ref sig .tc := ⟨.hbm, 275, rfl⟩
abbrev main_v252 : Ref sig .tc := ⟨.hbm, 276, rfl⟩
abbrev main_v253 : Ref sig .tc := ⟨.hbm, 277, rfl⟩
abbrev main_v254 : Ref sig .tc := ⟨.hbm, 278, rfl⟩
abbrev main_v255 : Ref sig .tc := ⟨.hbm, 279, rfl⟩
abbrev main_v256 : Ref sig .tc := ⟨.hbm, 280, rfl⟩
abbrev main_v257 : Ref sig .tc := ⟨.hbm, 281, rfl⟩
abbrev main_v258 : Ref sig .tc := ⟨.hbm, 282, rfl⟩
abbrev main_v259 : Ref sig .tc := ⟨.hbm, 283, rfl⟩
abbrev main_v260 : Ref sig .tc := ⟨.hbm, 284, rfl⟩
abbrev main_v261 : Ref sig .tc := ⟨.hbm, 285, rfl⟩
abbrev main_v262 : Ref sig .tc := ⟨.hbm, 286, rfl⟩
abbrev main_v263 : Ref sig .tc := ⟨.hbm, 287, rfl⟩
abbrev main_v264 : Ref sig .tc := ⟨.hbm, 288, rfl⟩
abbrev main_v265 : Ref sig .tc := ⟨.hbm, 289, rfl⟩
abbrev main_v266 : Ref sig .tc := ⟨.hbm, 290, rfl⟩
abbrev main_v267 : Ref sig .tc := ⟨.hbm, 291, rfl⟩
abbrev main_v268 : Ref sig .tc := ⟨.hbm, 292, rfl⟩
abbrev main_v269 : Ref sig .tc := ⟨.hbm, 293, rfl⟩
abbrev main_v270 : Ref sig .tc := ⟨.hbm, 294, rfl⟩
abbrev main_v271 : Ref sig .tc := ⟨.hbm, 295, rfl⟩
abbrev main_v272 : Ref sig .tc := ⟨.hbm, 296, rfl⟩
abbrev main_v273 : Ref sig .tc := ⟨.hbm, 297, rfl⟩
abbrev main_v274 : Ref sig .tc := ⟨.hbm, 298, rfl⟩
abbrev main_v275 : Ref sig .tc := ⟨.hbm, 299, rfl⟩
abbrev main_v276 : Ref sig .tc := ⟨.hbm, 300, rfl⟩
abbrev main_v277 : Ref sig .tc := ⟨.hbm, 301, rfl⟩
abbrev main_v278 : Ref sig .tc := ⟨.hbm, 302, rfl⟩
abbrev main_v279 : Ref sig .tc := ⟨.hbm, 303, rfl⟩
abbrev main_v280 : Ref sig .tc := ⟨.hbm, 304, rfl⟩
abbrev main_v281 : Ref sig .tc := ⟨.hbm, 305, rfl⟩
abbrev main_v282 : Ref sig .tc := ⟨.hbm, 306, rfl⟩
abbrev main_v283 : Ref sig .tc := ⟨.hbm, 307, rfl⟩
abbrev main_v284 : Ref sig .tc := ⟨.hbm, 308, rfl⟩
abbrev main_v285 : Ref sig .tc := ⟨.hbm, 309, rfl⟩
abbrev main_v286 : Ref sig .tc := ⟨.hbm, 310, rfl⟩
abbrev main_v287 : Ref sig .tc := ⟨.hbm, 311, rfl⟩
abbrev main_v288 : Ref sig .tc := ⟨.hbm, 312, rfl⟩
abbrev main_v289 : Ref sig .tc := ⟨.hbm, 313, rfl⟩
abbrev main_v290 : Ref sig .tc := ⟨.hbm, 314, rfl⟩
abbrev main_v291 : Ref sig .tc := ⟨.hbm, 315, rfl⟩
abbrev main_v292 : Ref sig .tc := ⟨.hbm, 316, rfl⟩
abbrev main_v293 : Ref sig .tc := ⟨.hbm, 317, rfl⟩
abbrev main_v294 : Ref sig .tc := ⟨.hbm, 318, rfl⟩
abbrev main_v295 : Ref sig .tc := ⟨.hbm, 319, rfl⟩
abbrev main_v296 : Ref sig .tc := ⟨.hbm, 320, rfl⟩
abbrev main_v297 : Ref sig .tc := ⟨.hbm, 321, rfl⟩
abbrev main_v298 : Ref sig .tc := ⟨.hbm, 322, rfl⟩
abbrev main_v299 : Ref sig .tc := ⟨.hbm, 323, rfl⟩
abbrev main_v300 : Ref sig .tc := ⟨.hbm, 324, rfl⟩
abbrev main_v301 : Ref sig .tc := ⟨.hbm, 325, rfl⟩
abbrev main_v302 : Ref sig .tc := ⟨.hbm, 326, rfl⟩
abbrev main_v303 : Ref sig .tc := ⟨.hbm, 327, rfl⟩
abbrev main_v304 : Ref sig .tc := ⟨.hbm, 328, rfl⟩
abbrev main_v305 : Ref sig .tc := ⟨.hbm, 329, rfl⟩
abbrev main_v306_0 : Ref sig .tc := ⟨.hbm, 330, rfl⟩
abbrev main_v306_1 : Ref sig .tc := ⟨.hbm, 331, rfl⟩
abbrev main_cst_13 : Ref sig .tc := ⟨.hbm, 332, rfl⟩
abbrev main_v307 : Ref sig .tc := ⟨.hbm, 333, rfl⟩
abbrev main_cst_14 : Ref sig .tc := ⟨.hbm, 334, rfl⟩
abbrev main_v308 : Ref sig .tc := ⟨.hbm, 335, rfl⟩
abbrev main_cst_15 : Ref sig .tc := ⟨.hbm, 336, rfl⟩
abbrev main_v309 : Ref sig .tc := ⟨.hbm, 337, rfl⟩
abbrev main_v310 : Ref sig .tc := ⟨.hbm, 338, rfl⟩
abbrev main_cst_16 : Ref sig .tc := ⟨.hbm, 339, rfl⟩
abbrev main_v311 : Ref sig .tc := ⟨.hbm, 340, rfl⟩
abbrev main_v312 : Ref sig .tc := ⟨.hbm, 341, rfl⟩
abbrev main_v313 : Ref sig .tc := ⟨.hbm, 342, rfl⟩
abbrev main_v314 : Ref sig .tc := ⟨.hbm, 343, rfl⟩
abbrev main_cst_17 : Ref sig .tc := ⟨.hbm, 344, rfl⟩
abbrev main_v315 : Ref sig .tc := ⟨.hbm, 345, rfl⟩
abbrev main_v316 : Ref sig .tc := ⟨.hbm, 346, rfl⟩
abbrev main_v317 : Ref sig .tc := ⟨.hbm, 347, rfl⟩
abbrev main_v318 : Ref sig .tc := ⟨.hbm, 348, rfl⟩
abbrev main_v319 : Ref sig .tc := ⟨.hbm, 349, rfl⟩
abbrev main_v320 : Ref sig .tc := ⟨.hbm, 350, rfl⟩
abbrev main_v321 : Ref sig .tc := ⟨.hbm, 351, rfl⟩
abbrev main_c_18 : Ref sig .tc := ⟨.hbm, 352, rfl⟩
abbrev main_v322 : Ref sig .tc := ⟨.hbm, 353, rfl⟩
abbrev main_v323 : Ref sig .tc := ⟨.hbm, 354, rfl⟩
abbrev main_c_19 : Ref sig .tc := ⟨.hbm, 355, rfl⟩
abbrev main_v324 : Ref sig .tc := ⟨.hbm, 356, rfl⟩
abbrev main_v325 : Ref sig .tc := ⟨.hbm, 357, rfl⟩
abbrev main_v326 : Ref sig .tc := ⟨.hbm, 358, rfl⟩
abbrev main_v327 : Ref sig .tc := ⟨.hbm, 359, rfl⟩
abbrev main_v328 : Ref sig .tc := ⟨.hbm, 360, rfl⟩
abbrev main_cst_20 : Ref sig .tc := ⟨.hbm, 361, rfl⟩
abbrev main_v329 : Ref sig .tc := ⟨.hbm, 362, rfl⟩
abbrev main_v330 : Ref sig .tc := ⟨.hbm, 363, rfl⟩
abbrev main_v331 : Ref sig .tc := ⟨.hbm, 364, rfl⟩
abbrev main_v332 : Ref sig .tc := ⟨.hbm, 365, rfl⟩
abbrev main_v333 : Ref sig .tc := ⟨.hbm, 366, rfl⟩
abbrev main_v334 : Ref sig .tc := ⟨.hbm, 367, rfl⟩
abbrev main_v335 : Ref sig .tc := ⟨.hbm, 368, rfl⟩
abbrev main_v336 : Ref sig .tc := ⟨.hbm, 369, rfl⟩
abbrev main_v337 : Ref sig .tc := ⟨.hbm, 370, rfl⟩
abbrev main_v338 : Ref sig .tc := ⟨.hbm, 371, rfl⟩
abbrev main_v339 : Ref sig .tc := ⟨.hbm, 372, rfl⟩
abbrev main_v340 : Ref sig .tc := ⟨.hbm, 373, rfl⟩
abbrev main_v341 : Ref sig .tc := ⟨.hbm, 374, rfl⟩
abbrev main_v342 : Ref sig .tc := ⟨.hbm, 375, rfl⟩
abbrev main_v343 : Ref sig .tc := ⟨.hbm, 376, rfl⟩
abbrev main_v344 : Ref sig .tc := ⟨.hbm, 377, rfl⟩
abbrev main_v345 : Ref sig .tc := ⟨.hbm, 378, rfl⟩
abbrev main_v346 : Ref sig .tc := ⟨.hbm, 379, rfl⟩
abbrev main_v347 : Ref sig .tc := ⟨.hbm, 380, rfl⟩
abbrev main_v348 : Ref sig .tc := ⟨.hbm, 381, rfl⟩
abbrev main_v349 : Ref sig .tc := ⟨.hbm, 382, rfl⟩
abbrev main_v350 : Ref sig .tc := ⟨.hbm, 383, rfl⟩
abbrev main_v351 : Ref sig .tc := ⟨.hbm, 384, rfl⟩
abbrev main_v352 : Ref sig .tc := ⟨.hbm, 385, rfl⟩
abbrev main_v353 : Ref sig .tc := ⟨.hbm, 386, rfl⟩
abbrev main_v354 : Ref sig .tc := ⟨.hbm, 387, rfl⟩
abbrev main_v355 : Ref sig .tc := ⟨.hbm, 388, rfl⟩
abbrev main_v356 : Ref sig .tc := ⟨.hbm, 389, rfl⟩
abbrev main_v357 : Ref sig .tc := ⟨.hbm, 390, rfl⟩
abbrev main_v358 : Ref sig .tc := ⟨.hbm, 391, rfl⟩
abbrev main_v359 : Ref sig .tc := ⟨.hbm, 392, rfl⟩
abbrev main_v360 : Ref sig .tc := ⟨.hbm, 393, rfl⟩
abbrev main_v361 : Ref sig .tc := ⟨.hbm, 394, rfl⟩
abbrev main_v362 : Ref sig .tc := ⟨.hbm, 395, rfl⟩
abbrev main_v363 : Ref sig .tc := ⟨.hbm, 396, rfl⟩
abbrev main_v364 : Ref sig .tc := ⟨.hbm, 397, rfl⟩
abbrev main_v365 : Ref sig .tc := ⟨.hbm, 398, rfl⟩
abbrev main_v366 : Ref sig .tc := ⟨.hbm, 399, rfl⟩
abbrev main_v367 : Ref sig .tc := ⟨.hbm, 400, rfl⟩
abbrev main_v368 : Ref sig .tc := ⟨.hbm, 401, rfl⟩
abbrev main_v369 : Ref sig .tc := ⟨.hbm, 402, rfl⟩
abbrev main_v370 : Ref sig .tc := ⟨.hbm, 403, rfl⟩
abbrev main_v371 : Ref sig .tc := ⟨.hbm, 404, rfl⟩
abbrev main_v372 : Ref sig .tc := ⟨.hbm, 405, rfl⟩
abbrev main_v373 : Ref sig .tc := ⟨.hbm, 406, rfl⟩
abbrev main_v374 : Ref sig .tc := ⟨.hbm, 407, rfl⟩
abbrev main_v375 : Ref sig .tc := ⟨.hbm, 408, rfl⟩
abbrev main_v376 : Ref sig .tc := ⟨.hbm, 409, rfl⟩
abbrev main_v377 : Ref sig .tc := ⟨.hbm, 410, rfl⟩
abbrev main_v378 : Ref sig .tc := ⟨.hbm, 411, rfl⟩
abbrev main_v379 : Ref sig .tc := ⟨.hbm, 412, rfl⟩
abbrev main_v380 : Ref sig .tc := ⟨.hbm, 413, rfl⟩
abbrev main_v381 : Ref sig .tc := ⟨.hbm, 414, rfl⟩
abbrev main_v382 : Ref sig .tc := ⟨.hbm, 415, rfl⟩
abbrev main_v383 : Ref sig .tc := ⟨.hbm, 416, rfl⟩
abbrev main_v384 : Ref sig .tc := ⟨.hbm, 417, rfl⟩
abbrev main_v385 : Ref sig .tc := ⟨.hbm, 418, rfl⟩
abbrev main_v386 : Ref sig .tc := ⟨.hbm, 419, rfl⟩
abbrev main_v387 : Ref sig .tc := ⟨.hbm, 420, rfl⟩
abbrev main_v388 : Ref sig .tc := ⟨.hbm, 421, rfl⟩
abbrev main_v389 : Ref sig .tc := ⟨.hbm, 422, rfl⟩
abbrev main_v390 : Ref sig .tc := ⟨.hbm, 423, rfl⟩
abbrev main_v391 : Ref sig .tc := ⟨.hbm, 424, rfl⟩
abbrev main_v392_0 : Ref sig .tc := ⟨.hbm, 425, rfl⟩
abbrev main_v392_1 : Ref sig .tc := ⟨.hbm, 426, rfl⟩
abbrev main_cst_21 : Ref sig .tc := ⟨.hbm, 427, rfl⟩
abbrev main_v393 : Ref sig .tc := ⟨.hbm, 428, rfl⟩
abbrev main_cst_22 : Ref sig .tc := ⟨.hbm, 429, rfl⟩
abbrev main_v394 : Ref sig .tc := ⟨.hbm, 430, rfl⟩
abbrev main_cst_23 : Ref sig .tc := ⟨.hbm, 431, rfl⟩
abbrev main_v395 : Ref sig .tc := ⟨.hbm, 432, rfl⟩
abbrev main_v396 : Ref sig .tc := ⟨.hbm, 433, rfl⟩
abbrev main_cst_24 : Ref sig .tc := ⟨.hbm, 434, rfl⟩
abbrev main_v397 : Ref sig .tc := ⟨.hbm, 435, rfl⟩
abbrev main_v398 : Ref sig .tc := ⟨.hbm, 436, rfl⟩
abbrev main_v399 : Ref sig .tc := ⟨.hbm, 437, rfl⟩
abbrev main_v400 : Ref sig .tc := ⟨.hbm, 438, rfl⟩
abbrev main_cst_25 : Ref sig .tc := ⟨.hbm, 439, rfl⟩
abbrev main_v401 : Ref sig .tc := ⟨.hbm, 440, rfl⟩
abbrev main_v402 : Ref sig .tc := ⟨.hbm, 441, rfl⟩
abbrev main_v403 : Ref sig .tc := ⟨.hbm, 442, rfl⟩
abbrev main_v404 : Ref sig .tc := ⟨.hbm, 443, rfl⟩
abbrev main_v405 : Ref sig .tc := ⟨.hbm, 444, rfl⟩
abbrev main_v406 : Ref sig .tc := ⟨.hbm, 445, rfl⟩
abbrev main_v407 : Ref sig .tc := ⟨.hbm, 446, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg10_0 : Ref sig .tc := ⟨.vmem, 25, rfl⟩
abbrev cc1_stg10_1 : Ref sig .tc := ⟨.vmem, 26, rfl⟩
abbrev cc2_stg0_0 : Ref sig .tc := ⟨.vmem, 27, rfl⟩
abbrev cc2_stg0_1 : Ref sig .tc := ⟨.vmem, 28, rfl⟩
abbrev cc2_stg1_0 : Ref sig .tc := ⟨.vmem, 29, rfl⟩
abbrev cc2_stg1_1 : Ref sig .tc := ⟨.vmem, 30, rfl⟩
abbrev cc2_stg2_0 : Ref sig .tc := ⟨.vmem, 31, rfl⟩
abbrev cc2_stg2_1 : Ref sig .tc := ⟨.vmem, 32, rfl⟩
abbrev cc2_stg3_0 : Ref sig .tc := ⟨.vmem, 33, rfl⟩
abbrev cc2_stg4_0 : Ref sig .tc := ⟨.vmem, 34, rfl⟩
abbrev cc2_stg5_0 : Ref sig .tc := ⟨.vmem, 35, rfl⟩
abbrev cc2_stg5_1 : Ref sig .tc := ⟨.vmem, 36, rfl⟩
abbrev cc2_stg6_0 : Ref sig .tc := ⟨.vmem, 37, rfl⟩
abbrev cc2_stg6_1 : Ref sig .tc := ⟨.vmem, 38, rfl⟩
abbrev cc3_stg0_0 : Ref sig .tc := ⟨.vmem, 39, rfl⟩
abbrev cc3_stg0_1 : Ref sig .tc := ⟨.vmem, 40, rfl⟩
abbrev cc3_stg1_0 : Ref sig .tc := ⟨.vmem, 41, rfl⟩
abbrev cc3_stg1_1 : Ref sig .tc := ⟨.vmem, 42, rfl⟩
abbrev cc3_stg2_0 : Ref sig .tc := ⟨.vmem, 43, rfl⟩
abbrev cc3_stg2_1 : Ref sig .tc := ⟨.vmem, 44, rfl⟩
abbrev cc3_stg3_0 : Ref sig .tc := ⟨.vmem, 45, rfl⟩
abbrev cc3_stg4_0 : Ref sig .tc := ⟨.vmem, 46, rfl⟩
abbrev cc3_stg5_0 : Ref sig .tc := ⟨.vmem, 47, rfl⟩
abbrev cc3_stg6_0 : Ref sig .tc := ⟨.vmem, 48, rfl⟩
abbrev cc3_stg7_0 : Ref sig .tc := ⟨.vmem, 49, rfl⟩
abbrev cc3_stg8_0 : Ref sig .tc := ⟨.vmem, 50, rfl⟩
abbrev cc3_stg9_0 : Ref sig .tc := ⟨.vmem, 51, rfl⟩
abbrev cc3_stg10_0 : Ref sig .tc := ⟨.vmem, 52, rfl⟩
abbrev cc3_stg10_1 : Ref sig .tc := ⟨.vmem, 53, rfl⟩
abbrev cc3_stg11_0 : Ref sig .tc := ⟨.vmem, 54, rfl⟩
abbrev cc3_stg11_1 : Ref sig .tc := ⟨.vmem, 55, rfl⟩
abbrev cc4_stg0_0 : Ref sig .tc := ⟨.vmem, 56, rfl⟩
abbrev cc4_stg0_1 : Ref sig .tc := ⟨.vmem, 57, rfl⟩
abbrev cc4_stg1_0 : Ref sig .tc := ⟨.vmem, 58, rfl⟩
abbrev cc4_stg1_1 : Ref sig .tc := ⟨.vmem, 59, rfl⟩
abbrev cc4_stg2_0 : Ref sig .tc := ⟨.vmem, 60, rfl⟩
abbrev cc4_stg2_1 : Ref sig .tc := ⟨.vmem, 61, rfl⟩
abbrev cc4_stg3_0 : Ref sig .tc := ⟨.vmem, 62, rfl⟩
abbrev cc4_stg4_0 : Ref sig .tc := ⟨.vmem, 63, rfl⟩
abbrev cc4_stg5_0 : Ref sig .tc := ⟨.vmem, 64, rfl⟩
abbrev cc4_stg5_1 : Ref sig .tc := ⟨.vmem, 65, rfl⟩
abbrev cc4_stg6_0 : Ref sig .tc := ⟨.vmem, 66, rfl⟩
abbrev cc4_stg6_1 : Ref sig .tc := ⟨.vmem, 67, rfl⟩
abbrev cc5_stg0_0 : Ref sig .tc := ⟨.vmem, 68, rfl⟩
abbrev cc5_stg0_1 : Ref sig .tc := ⟨.vmem, 69, rfl⟩
abbrev cc5_stg1_0 : Ref sig .tc := ⟨.vmem, 70, rfl⟩
abbrev cc5_stg1_1 : Ref sig .tc := ⟨.vmem, 71, rfl⟩
abbrev cc5_stg2_0 : Ref sig .tc := ⟨.vmem, 72, rfl⟩
abbrev cc5_stg2_1 : Ref sig .tc := ⟨.vmem, 73, rfl⟩
abbrev cc5_stg3_0 : Ref sig .tc := ⟨.vmem, 74, rfl⟩
abbrev cc5_stg4_0 : Ref sig .tc := ⟨.vmem, 75, rfl⟩
abbrev cc5_stg5_0 : Ref sig .tc := ⟨.vmem, 76, rfl⟩
abbrev cc5_stg6_0 : Ref sig .tc := ⟨.vmem, 77, rfl⟩
abbrev cc5_stg7_0 : Ref sig .tc := ⟨.vmem, 78, rfl⟩
abbrev cc5_stg8_0 : Ref sig .tc := ⟨.vmem, 79, rfl⟩
abbrev cc5_stg9_0 : Ref sig .tc := ⟨.vmem, 80, rfl⟩
abbrev cc5_stg10_0 : Ref sig .tc := ⟨.vmem, 81, rfl⟩
abbrev cc5_stg10_1 : Ref sig .tc := ⟨.vmem, 82, rfl⟩
abbrev cc5_stg11_0 : Ref sig .tc := ⟨.vmem, 83, rfl⟩
abbrev cc5_stg11_1 : Ref sig .tc := ⟨.vmem, 84, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem10_0 : DmaSem sig := 25
abbrev cc1_sem10_1 : DmaSem sig := 26
abbrev cc2_sem0_0 : DmaSem sig := 27
abbrev cc2_sem0_1 : DmaSem sig := 28
abbrev cc2_sem1_0 : DmaSem sig := 29
abbrev cc2_sem1_1 : DmaSem sig := 30
abbrev cc2_sem2_0 : DmaSem sig := 31
abbrev cc2_sem2_1 : DmaSem sig := 32
abbrev cc2_sem3_0 : DmaSem sig := 33
abbrev cc2_sem4_0 : DmaSem sig := 34
abbrev cc2_sem5_0 : DmaSem sig := 35
abbrev cc2_sem5_1 : DmaSem sig := 36
abbrev cc2_sem6_0 : DmaSem sig := 37
abbrev cc2_sem6_1 : DmaSem sig := 38
abbrev cc3_sem0_0 : DmaSem sig := 39
abbrev cc3_sem0_1 : DmaSem sig := 40
abbrev cc3_sem1_0 : DmaSem sig := 41
abbrev cc3_sem1_1 : DmaSem sig := 42
abbrev cc3_sem2_0 : DmaSem sig := 43
abbrev cc3_sem2_1 : DmaSem sig := 44
abbrev cc3_sem3_0 : DmaSem sig := 45
abbrev cc3_sem4_0 : DmaSem sig := 46
abbrev cc3_sem5_0 : DmaSem sig := 47
abbrev cc3_sem6_0 : DmaSem sig := 48
abbrev cc3_sem7_0 : DmaSem sig := 49
abbrev cc3_sem8_0 : DmaSem sig := 50
abbrev cc3_sem9_0 : DmaSem sig := 51
abbrev cc3_sem10_0 : DmaSem sig := 52
abbrev cc3_sem10_1 : DmaSem sig := 53
abbrev cc3_sem11_0 : DmaSem sig := 54
abbrev cc3_sem11_1 : DmaSem sig := 55
abbrev cc4_sem0_0 : DmaSem sig := 56
abbrev cc4_sem0_1 : DmaSem sig := 57
abbrev cc4_sem1_0 : DmaSem sig := 58
abbrev cc4_sem1_1 : DmaSem sig := 59
abbrev cc4_sem2_0 : DmaSem sig := 60
abbrev cc4_sem2_1 : DmaSem sig := 61
abbrev cc4_sem3_0 : DmaSem sig := 62
abbrev cc4_sem4_0 : DmaSem sig := 63
abbrev cc4_sem5_0 : DmaSem sig := 64
abbrev cc4_sem5_1 : DmaSem sig := 65
abbrev cc4_sem6_0 : DmaSem sig := 66
abbrev cc4_sem6_1 : DmaSem sig := 67
abbrev cc5_sem0_0 : DmaSem sig := 68
abbrev cc5_sem0_1 : DmaSem sig := 69
abbrev cc5_sem1_0 : DmaSem sig := 70
abbrev cc5_sem1_1 : DmaSem sig := 71
abbrev cc5_sem2_0 : DmaSem sig := 72
abbrev cc5_sem2_1 : DmaSem sig := 73
abbrev cc5_sem3_0 : DmaSem sig := 74
abbrev cc5_sem4_0 : DmaSem sig := 75
abbrev cc5_sem5_0 : DmaSem sig := 76
abbrev cc5_sem6_0 : DmaSem sig := 77
abbrev cc5_sem7_0 : DmaSem sig := 78
abbrev cc5_sem8_0 : DmaSem sig := 79
abbrev cc5_sem9_0 : DmaSem sig := 80
abbrev cc5_sem10_0 : DmaSem sig := 81
abbrev cc5_sem10_1 : DmaSem sig := 82
abbrev cc5_sem11_0 : DmaSem sig := 83
abbrev cc5_sem11_1 : DmaSem sig := 84

abbrev nD : Nat := 1
abbrev τ : Topo := Topo.v7x

variable {F : FTy → Type} [FloatOps F]

abbrev grid0 : Pipeline.Grid := ⟨2, ![2, 25], ![false, false]⟩

def cc0_transform_0 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S3x128x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x3x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x3x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S3x128x384 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S3x384 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S3x384 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S3x384 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S3x384 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S3x384 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S3x384 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S2000x384 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨2, ![2, 25], ![false, false]⟩

def cc2_transform_0 (i : grid2.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc2_transform_1 (i : grid2.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc2_transform_2 (i : grid2.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1000x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1000x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 1 → Memref sig .tc .vmem S3x128x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S3x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S1x3x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev stage2_6 : Fin 2 → Memref sig .tc .vmem S1x3x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_11 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S3x128x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S3x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S3x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S3x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S3x256 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S3x256 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S3x256 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 2 → Memref sig .tc .vmem S2000x128 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

abbrev stage3_11 : Fin 2 → Memref sig .tc .vmem S2000x256 .f32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true]

abbrev grid4 : Pipeline.Grid := ⟨2, ![2, 25], ![false, false]⟩

def cc4_transform_0 (i : grid4.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc4_transform_1 (i : grid4.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc4_transform_2 (i : grid4.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc4_transform_3 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_6 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S1000x128 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1000x128 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 2 → Memref sig .tc .vmem S1000x128 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev stage4_3 : Fin 1 → Memref sig .tc .vmem S3x128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false, false]

abbrev stage4_4 : Fin 1 → Memref sig .tc .vmem S3x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false, false]

abbrev stage4_5 : Fin 2 → Memref sig .tc .vmem S1x3x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, false]

abbrev stage4_6 : Fin 2 → Memref sig .tc .vmem S1x3x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true, false]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_10 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_11 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x128 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x128 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S3x128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S3x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S3x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S3x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S3x128 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S3x128 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 1 → Memref sig .tc .vmem S3x128 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

abbrev stage5_10 : Fin 2 → Memref sig .tc .vmem S2000x128 .f32 := fun | 0 => Memref.whole cc5_stg10_0 | 1 => Memref.whole cc5_stg10_1 | ⟨_ + 2, h⟩ => absurd h (Nat.not_lt.2 (Nat.le_add_left _ _))
abbrev sem5_10 : Fin 2 → DmaSem sig := fun | 0 => cc5_sem10_0 | 1 => cc5_sem10_1 | ⟨_ + 2, h⟩ => absurd h (Nat.not_lt.2 (Nat.le_add_left _ _))
abbrev reads5_10 : Fin grid5.rank → Bool := ![true]

abbrev stage5_11 : Fin 2 → Memref sig .tc .vmem S2000x128 .f32 := fun | 0 => Memref.whole cc5_stg11_0 | 1 => Memref.whole cc5_stg11_1 | ⟨_ + 2, h⟩ => absurd h (Nat.not_lt.2 (Nat.le_add_left _ _))
abbrev sem5_11 : Fin 2 → DmaSem sig := fun | 0 => cc5_sem11_0 | 1 => cc5_sem11_1 | ⟨_ + 2, h⟩ => absurd h (Nat.not_lt.2 (Nat.le_add_left _ _))
abbrev reads5_11 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bitsLt_bf16_f32 : FTy.bits .bf16 < FTy.bits .f32
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  slices_S6x3x128x128_S1x1x128x128_0_0_0_0 : S6x3x128x128.Slices ![0, 0, 0, 0] S1x1x128x128
  shapeCasts_S1x1x128x128_S128x128 : S1x1x128x128.ShapeCasts S128x128
  transposes_S128x128_S128x128_1_0 : S128x128.Transposes [1, 0] S128x128
  slices_S6x3x128x128_S1x1x128x128_1_0_0_0 : S6x3x128x128.Slices ![1, 0, 0, 0] S1x1x128x128
  slices_S6x3x128x128_S1x1x128x128_3_0_0_0 : S6x3x128x128.Slices ![3, 0, 0, 0] S1x1x128x128
  concatenates_S128x128_S128x128_S128x128_S128x384_d1 : Shape.Concatenates [S128x128, S128x128, S128x128] S128x384 1
  slices_S6x3x128_S1x1x128_0_0_0 : S6x3x128.Slices ![0, 0, 0] S1x1x128
  shapeCasts_S1x1x128_S128 : S1x1x128.ShapeCasts S128
  slices_S6x3x128_S1x1x128_1_0_0 : S6x3x128.Slices ![1, 0, 0] S1x1x128
  slices_S6x3x128_S1x1x128_3_0_0 : S6x3x128.Slices ![3, 0, 0] S1x1x128
  concatenates_S128_S128_S128_S384_d0 : Shape.Concatenates [S128, S128, S128] S384 0
  slices_S6x3_S1x1_0_0 : S6x3.Slices ![0, 0] S1x1
  shapeCasts_S1x1_S_ : S1x1.ShapeCasts S_
  bcast_S_S128 : S_.BroadcastsInDim S128 (![] : Fin 0 → Fin S128.rank)
  slices_S6x3_S1x1_1_0 : S6x3.Slices ![1, 0] S1x1
  slices_S6x3_S1x1_3_0 : S6x3.Slices ![3, 0] S1x1
  slices_S6x3x128x128_S1x1x128x128_0_1_0_0 : S6x3x128x128.Slices ![0, 1, 0, 0] S1x1x128x128
  slices_S6x3x128x128_S1x1x128x128_1_1_0_0 : S6x3x128x128.Slices ![1, 1, 0, 0] S1x1x128x128
  slices_S6x3x128x128_S1x1x128x128_3_1_0_0 : S6x3x128x128.Slices ![3, 1, 0, 0] S1x1x128x128
  slices_S6x3x128_S1x1x128_0_1_0 : S6x3x128.Slices ![0, 1, 0] S1x1x128
  slices_S6x3x128_S1x1x128_1_1_0 : S6x3x128.Slices ![1, 1, 0] S1x1x128
  slices_S6x3x128_S1x1x128_3_1_0 : S6x3x128.Slices ![3, 1, 0] S1x1x128
  slices_S6x3_S1x1_0_1 : S6x3.Slices ![0, 1] S1x1
  slices_S6x3_S1x1_1_1 : S6x3.Slices ![1, 1] S1x1
  slices_S6x3_S1x1_3_1 : S6x3.Slices ![3, 1] S1x1
  slices_S6x3x128x128_S1x1x128x128_0_2_0_0 : S6x3x128x128.Slices ![0, 2, 0, 0] S1x1x128x128
  slices_S6x3x128x128_S1x1x128x128_1_2_0_0 : S6x3x128x128.Slices ![1, 2, 0, 0] S1x1x128x128
  slices_S6x3x128x128_S1x1x128x128_3_2_0_0 : S6x3x128x128.Slices ![3, 2, 0, 0] S1x1x128x128
  slices_S6x3x128_S1x1x128_0_2_0 : S6x3x128.Slices ![0, 2, 0] S1x1x128
  slices_S6x3x128_S1x1x128_1_2_0 : S6x3x128.Slices ![1, 2, 0] S1x1x128
  slices_S6x3x128_S1x1x128_3_2_0 : S6x3x128.Slices ![3, 2, 0] S1x1x128
  slices_S6x3_S1x1_0_2 : S6x3.Slices ![0, 2] S1x1
  slices_S6x3_S1x1_1_2 : S6x3.Slices ![1, 2] S1x1
  slices_S6x3_S1x1_3_2 : S6x3.Slices ![3, 2] S1x1
  bcast_S128x384_S1x128x384_1_2 : S128x384.BroadcastsInDim S1x128x384 (![1, 2] : Fin 2 → Fin S1x128x384.rank)
  concatenates_S1x128x384_S1x128x384_S1x128x384_S3x128x384_d0 : Shape.Concatenates [S1x128x384, S1x128x384, S1x128x384] S3x128x384 0
  bcast_S384_S1x384_1 : S384.BroadcastsInDim S1x384 (![1] : Fin 1 → Fin S1x384.rank)
  concatenates_S1x384_S1x384_S1x384_S3x384_d0 : Shape.Concatenates [S1x384, S1x384, S1x384] S3x384 0
  inb_S1x3x384_S1x3x384_0_0_0 : ∀ a, (![0, 0, 0] : Fin 3 → Nat) a + S1x3x384.size a ≤ S1x3x384.size a
  h_S1x3x384 : 0 < S1x3x384.numel
  shapeCasts_S1x3x384_S3x384 : S1x3x384.ShapeCasts S3x384
  shapeCasts_S3x384_S1x3x384 : S3x384.ShapeCasts S1x3x384
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  inb_S3x128x384_S1x128x384_0_0_0 : ∀ a, (![0, 0, 0] : Fin 3 → Nat) a + S1x128x384.size a ≤ S3x128x384.size a
  h_S1x128x384 : 0 < S1x128x384.numel
  shapeCasts_S1x128x384_S128x384 : S1x128x384.ShapeCasts S128x384
  inb_S3x384_S1x384_0_0 : ∀ a, (![0, 0] : Fin 2 → Nat) a + S1x384.size a ≤ S3x384.size a
  h_S1x384 : 0 < S1x384.numel
  shapeCasts_S1x384_S384 : S1x384.ShapeCasts S384
  shapeCasts_S384_S1x384 : S384.ShapeCasts S1x384
  broadcasts_S1x384_S1000x384 : S1x384.Broadcasts S1000x384
  reduces_S1000x384_S384 : S1000x384.Reduces [0] S384
  inb_S3x128x384_S1x128x384_1_0_0 : ∀ a, (![1, 0, 0] : Fin 3 → Nat) a + S1x128x384.size a ≤ S3x128x384.size a
  inb_S3x384_S1x384_1_0 : ∀ a, (![1, 0] : Fin 2 → Nat) a + S1x384.size a ≤ S3x384.size a
  inb_S3x128x384_S1x128x384_2_0_0 : ∀ a, (![2, 0, 0] : Fin 3 → Nat) a + S1x128x384.size a ≤ S3x128x384.size a
  inb_S3x384_S1x384_2_0 : ∀ a, (![2, 0] : Fin 2 → Nat) a + S1x384.size a ≤ S3x384.size a
  reducesTo_S2x3x384_S3x384_d0 : S2x3x384.ReducesTo [0] S3x384
  h_S_ : 0 < S_.numel
  bcast_S_S3x384 : S_.BroadcastsInDim S3x384 (![] : Fin 0 → Fin S3x384.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S1x384_S2000x384 : S1x384.Broadcasts S2000x384
  inb_S2000x384_S2000x384_0_0 : ∀ a, (![0, 0] : Fin 2 → Nat) a + S2000x384.size a ≤ S2000x384.size a
  h_S2000x384 : 0 < S2000x384.numel
  slices_S50000x384_S50000x128_0_0 : S50000x384.Slices ![0, 0] S50000x128
  slices_S50000x384_S50000x128_0_128 : S50000x384.Slices ![0, 128] S50000x128
  slices_S6x3x128x128_S1x1x128x128_2_0_0_0 : S6x3x128x128.Slices ![2, 0, 0, 0] S1x1x128x128
  slices_S6x3x128x128_S1x1x128x128_4_0_0_0 : S6x3x128x128.Slices ![4, 0, 0, 0] S1x1x128x128
  concatenates_S128x128_S128x128_S128x256_d1 : Shape.Concatenates [S128x128, S128x128] S128x256 1
  slices_S6x3x128_S1x1x128_2_0_0 : S6x3x128.Slices ![2, 0, 0] S1x1x128
  slices_S6x3x128_S1x1x128_4_0_0 : S6x3x128.Slices ![4, 0, 0] S1x1x128
  concatenates_S128_S128_S256_d0 : Shape.Concatenates [S128, S128] S256 0
  slices_S6x3_S1x1_2_0 : S6x3.Slices ![2, 0] S1x1
  slices_S6x3_S1x1_4_0 : S6x3.Slices ![4, 0] S1x1
  slices_S6x3x128x128_S1x1x128x128_2_1_0_0 : S6x3x128x128.Slices ![2, 1, 0, 0] S1x1x128x128
  slices_S6x3x128x128_S1x1x128x128_4_1_0_0 : S6x3x128x128.Slices ![4, 1, 0, 0] S1x1x128x128
  slices_S6x3x128_S1x1x128_2_1_0 : S6x3x128.Slices ![2, 1, 0] S1x1x128
  slices_S6x3x128_S1x1x128_4_1_0 : S6x3x128.Slices ![4, 1, 0] S1x1x128
  slices_S6x3_S1x1_2_1 : S6x3.Slices ![2, 1] S1x1
  slices_S6x3_S1x1_4_1 : S6x3.Slices ![4, 1] S1x1
  slices_S6x3x128x128_S1x1x128x128_2_2_0_0 : S6x3x128x128.Slices ![2, 2, 0, 0] S1x1x128x128
  slices_S6x3x128x128_S1x1x128x128_4_2_0_0 : S6x3x128x128.Slices ![4, 2, 0, 0] S1x1x128x128
  slices_S6x3x128_S1x1x128_2_2_0 : S6x3x128.Slices ![2, 2, 0] S1x1x128
  slices_S6x3x128_S1x1x128_4_2_0 : S6x3x128.Slices ![4, 2, 0] S1x1x128
  slices_S6x3_S1x1_2_2 : S6x3.Slices ![2, 2] S1x1
  slices_S6x3_S1x1_4_2 : S6x3.Slices ![4, 2] S1x1
  bcast_S128x256_S1x128x256_1_2 : S128x256.BroadcastsInDim S1x128x256 (![1, 2] : Fin 2 → Fin S1x128x256.rank)
  concatenates_S1x128x256_S1x128x256_S1x128x256_S3x128x256_d0 : Shape.Concatenates [S1x128x256, S1x128x256, S1x128x256] S3x128x256 0
  bcast_S256_S1x256_1 : S256.BroadcastsInDim S1x256 (![1] : Fin 1 → Fin S1x256.rank)
  concatenates_S1x256_S1x256_S1x256_S3x256_d0 : Shape.Concatenates [S1x256, S1x256, S1x256] S3x256 0
  inb_S1x3x256_S1x3x256_0_0_0 : ∀ a, (![0, 0, 0] : Fin 3 → Nat) a + S1x3x256.size a ≤ S1x3x256.size a
  h_S1x3x256 : 0 < S1x3x256.numel
  shapeCasts_S1x3x256_S3x256 : S1x3x256.ShapeCasts S3x256
  shapeCasts_S3x256_S1x3x256 : S3x256.ShapeCasts S1x3x256
  inb_S3x128x256_S1x128x256_0_0_0 : ∀ a, (![0, 0, 0] : Fin 3 → Nat) a + S1x128x256.size a ≤ S3x128x256.size a
  h_S1x128x256 : 0 < S1x128x256.numel
  shapeCasts_S1x128x256_S128x256 : S1x128x256.ShapeCasts S128x256
  inb_S3x256_S1x256_0_0 : ∀ a, (![0, 0] : Fin 2 → Nat) a + S1x256.size a ≤ S3x256.size a
  h_S1x256 : 0 < S1x256.numel
  shapeCasts_S1x256_S256 : S1x256.ShapeCasts S256
  shapeCasts_S256_S1x256 : S256.ShapeCasts S1x256
  broadcasts_S1x256_S1000x256 : S1x256.Broadcasts S1000x256
  reduces_S1000x256_S256 : S1000x256.Reduces [0] S256
  inb_S3x128x256_S1x128x256_1_0_0 : ∀ a, (![1, 0, 0] : Fin 3 → Nat) a + S1x128x256.size a ≤ S3x128x256.size a
  inb_S3x256_S1x256_1_0 : ∀ a, (![1, 0] : Fin 2 → Nat) a + S1x256.size a ≤ S3x256.size a
  inb_S3x128x256_S1x128x256_2_0_0 : ∀ a, (![2, 0, 0] : Fin 3 → Nat) a + S1x128x256.size a ≤ S3x128x256.size a
  inb_S3x256_S1x256_2_0 : ∀ a, (![2, 0] : Fin 2 → Nat) a + S1x256.size a ≤ S3x256.size a
  reducesTo_S2x3x256_S3x256_d0 : S2x3x256.ReducesTo [0] S3x256
  bcast_S_S3x256 : S_.BroadcastsInDim S3x256 (![] : Fin 0 → Fin S3x256.rank)
  broadcasts_S1x256_S2000x256 : S1x256.Broadcasts S2000x256
  slices_S2000x256_o0_0_S2000x128 : S2000x256.Slices ![0, 0] S2000x128
  inb_S2000x256_S2000x128_0_0 : ∀ a, (![0, 0] : Fin 2 → Nat) a + S2000x128.size a ≤ S2000x256.size a
  slices_S2000x256_o0_128_S2000x128 : S2000x256.Slices ![0, 128] S2000x128
  inb_S2000x256_S2000x128_0_128 : ∀ a, (![0, 128] : Fin 2 → Nat) a + S2000x128.size a ≤ S2000x256.size a
  slices_S50000x256_S50000x128_0_0 : S50000x256.Slices ![0, 0] S50000x128
  slices_S50000x384_S50000x128_0_256 : S50000x384.Slices ![0, 256] S50000x128
  slices_S50000x256_S50000x128_0_128 : S50000x256.Slices ![0, 128] S50000x128
  slices_S6x3x128x128_S1x1x128x128_5_0_0_0 : S6x3x128x128.Slices ![5, 0, 0, 0] S1x1x128x128
  slices_S6x3x128_S1x1x128_5_0_0 : S6x3x128.Slices ![5, 0, 0] S1x1x128
  slices_S6x3_S1x1_5_0 : S6x3.Slices ![5, 0] S1x1
  slices_S6x3x128x128_S1x1x128x128_5_1_0_0 : S6x3x128x128.Slices ![5, 1, 0, 0] S1x1x128x128
  slices_S6x3x128_S1x1x128_5_1_0 : S6x3x128.Slices ![5, 1, 0] S1x1x128
  slices_S6x3_S1x1_5_1 : S6x3.Slices ![5, 1] S1x1
  slices_S6x3x128x128_S1x1x128x128_5_2_0_0 : S6x3x128x128.Slices ![5, 2, 0, 0] S1x1x128x128
  slices_S6x3x128_S1x1x128_5_2_0 : S6x3x128.Slices ![5, 2, 0] S1x1x128
  slices_S6x3_S1x1_5_2 : S6x3.Slices ![5, 2] S1x1
  bcast_S128x128_S1x128x128_1_2 : S128x128.BroadcastsInDim S1x128x128 (![1, 2] : Fin 2 → Fin S1x128x128.rank)
  concatenates_S1x128x128_S1x128x128_S1x128x128_S3x128x128_d0 : Shape.Concatenates [S1x128x128, S1x128x128, S1x128x128] S3x128x128 0
  bcast_S128_S1x128_1 : S128.BroadcastsInDim S1x128 (![1] : Fin 1 → Fin S1x128.rank)
  concatenates_S1x128_S1x128_S1x128_S3x128_d0 : Shape.Concatenates [S1x128, S1x128, S1x128] S3x128 0
  inb_S1x3x128_S1x3x128_0_0_0 : ∀ a, (![0, 0, 0] : Fin 3 → Nat) a + S1x3x128.size a ≤ S1x3x128.size a
  h_S1x3x128 : 0 < S1x3x128.numel
  shapeCasts_S1x3x128_S3x128 : S1x3x128.ShapeCasts S3x128
  shapeCasts_S3x128_S1x3x128 : S3x128.ShapeCasts S1x3x128
  inb_S3x128x128_S1x128x128_0_0_0 : ∀ a, (![0, 0, 0] : Fin 3 → Nat) a + S1x128x128.size a ≤ S3x128x128.size a
  h_S1x128x128 : 0 < S1x128x128.numel
  shapeCasts_S1x128x128_S128x128 : S1x128x128.ShapeCasts S128x128
  inb_S3x128_S1x128_0_0 : ∀ a, (![0, 0] : Fin 2 → Nat) a + S1x128.size a ≤ S3x128.size a
  h_S1x128 : 0 < S1x128.numel
  shapeCasts_S1x128_S128 : S1x128.ShapeCasts S128
  shapeCasts_S128_S1x128 : S128.ShapeCasts S1x128
  broadcasts_S1x128_S1000x128 : S1x128.Broadcasts S1000x128
  reduces_S1000x128_S128 : S1000x128.Reduces [0] S128
  inb_S3x128x128_S1x128x128_1_0_0 : ∀ a, (![1, 0, 0] : Fin 3 → Nat) a + S1x128x128.size a ≤ S3x128x128.size a
  inb_S3x128_S1x128_1_0 : ∀ a, (![1, 0] : Fin 2 → Nat) a + S1x128.size a ≤ S3x128.size a
  inb_S3x128x128_S1x128x128_2_0_0 : ∀ a, (![2, 0, 0] : Fin 3 → Nat) a + S1x128x128.size a ≤ S3x128x128.size a
  inb_S3x128_S1x128_2_0 : ∀ a, (![2, 0] : Fin 2 → Nat) a + S1x128.size a ≤ S3x128.size a
  reducesTo_S2x3x128_S3x128_d0 : S2x3x128.ReducesTo [0] S3x128
  bcast_S_S3x128 : S_.BroadcastsInDim S3x128 (![] : Fin 0 → Fin S3x128.rank)
  broadcasts_S1x128_S2000x128 : S1x128.Broadcasts S2000x128
  bcast_S50000x128_S1x50000x128_1_2 : S50000x128.BroadcastsInDim S1x50000x128 (![1, 2] : Fin 2 → Fin S1x50000x128.rank)
  concatenates_S1x50000x128_S1x50000x128_S1x50000x128_S3x50000x128_d0 : Shape.Concatenates [S1x50000x128, S1x50000x128, S1x50000x128] S3x50000x128 0
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S1000x128_S128x384_S1000x384_1_0_0_1_n_n_wf : DotDims.WF S1000x128 S128x384 S1000x384 [1] [0] [0] [1] [] []
  dot_S2000x128_S128x384_S2000x384_1_0_0_1_n_n_wf : DotDims.WF S2000x128 S128x384 S2000x384 [1] [0] [0] [1] [] []
  dot_S1000x128_S128x256_S1000x256_1_0_0_1_n_n_wf : DotDims.WF S1000x128 S128x256 S1000x256 [1] [0] [0] [1] [] []
  dot_S2000x128_S128x256_S2000x256_1_0_0_1_n_n_wf : DotDims.WF S2000x128 S128x256 S2000x256 [1] [0] [0] [1] [] []
  dot_S1000x128_S128x128_S1000x128_1_0_0_1_n_n_wf : DotDims.WF S1000x128 S128x128 S1000x128 [1] [0] [0] [1] [] []
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S50000x128.size a
  hwx0_0 : ∀ i : grid0.Coords, EltTy.bits .bf16 = 32 ∨ (Rect.block (s := S50000x128) S1000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x128.size a ≤ S50000x128.size a
  hwx0_1 : ∀ i : grid0.Coords, EltTy.bits .bf16 = 32 ∨ (Rect.block (s := S50000x128) S1000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x128.size a ≤ S50000x128.size a
  hwx0_2 : ∀ i : grid0.Coords, EltTy.bits .bf16 = 32 ∨ (Rect.block (s := S50000x128) S1000x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x128x384.size a ≤ S3x128x384.size a
  hwx0_3 : ∀ i : grid0.Coords, EltTy.bits .f32 = 32 ∨ (Rect.block (s := S3x128x384) S3x128x384.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x384.size a ≤ S3x384.size a
  hwx0_4 : ∀ i : grid0.Coords, EltTy.bits .f32 = 32 ∨ (Rect.block (s := S3x384) S3x384.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x3x384.size a ≤ S2x3x384.size a
  hwx0_5 : ∀ i : grid0.Coords, EltTy.bits .f32 = 32 ∨ (Rect.block (s := S2x3x384) S1x3x384.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x3x384.size a ≤ S2x3x384.size a
  hwx0_6 : ∀ i : grid0.Coords, EltTy.bits .f32 = 32 ∨ (Rect.block (s := S2x3x384) S1x3x384.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .bf16 = 32 ∨ (Rect.block (s := S50000x128) S2000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .bf16 = 32 ∨ (Rect.block (s := S50000x128) S2000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .bf16 = 32 ∨ (Rect.block (s := S50000x128) S2000x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S3x128x384.size a ≤ S3x128x384.size a
  hwx1_3 : ∀ i : grid1.Coords, EltTy.bits .f32 = 32 ∨ (Rect.block (s := S3x128x384) S3x128x384.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S3x384.size a ≤ S3x384.size a
  hwx1_4 : ∀ i : grid1.Coords, EltTy.bits .f32 = 32 ∨ (Rect.block (s := S3x384) S3x384.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S3x384.size a ≤ S3x384.size a
  hwx1_5 : ∀ i : grid1.Coords, EltTy.bits .f32 = 32 ∨ (Rect.block (s := S3x384) S3x384.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S3x384.size a ≤ S3x384.size a
  hwx1_6 : ∀ i : grid1.Coords, EltTy.bits .f32 = 32 ∨ (Rect.block (s := S3x384) S3x384.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S3x384.size a ≤ S3x384.size a
  hwx1_7 : ∀ i : grid1.Coords, EltTy.bits .f32 = 32 ∨ (Rect.block (s := S3x384) S3x384.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S3x384.size a ≤ S3x384.size a
  hwx1_8 : ∀ i : grid1.Coords, EltTy.bits .f32 = 32 ∨ (Rect.block (s := S3x384) S3x384.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S3x384.size a ≤ S3x384.size a
  hwx1_9 : ∀ i : grid1.Coords, EltTy.bits .f32 = 32 ∨ (Rect.block (s := S3x384) S3x384.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S2000x384.size a ≤ S50000x384.size a
  hwx1_10 : ∀ i : grid1.Coords, EltTy.bits .f32 = 32 ∨ (Rect.block (s := S50000x384) S2000x384.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x128.size a ≤ S50000x128.size a
  hwx2_0 : ∀ i : grid2.Coords, EltTy.bits .bf16 = 32 ∨ (Rect.block (s := S50000x128) S1000x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x128.size a ≤ S50000x128.size a
  hwx2_1 : ∀ i : grid2.Coords, EltTy.bits .bf16 = 32 ∨ (Rect.block (s := S50000x128) S1000x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x128.size a ≤ S50000x128.size a
  hwx2_2 : ∀ i : grid2.Coords, EltTy.bits .bf16 = 32 ∨ (Rect.block (s := S50000x128) S1000x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S3x128x256.size a ≤ S3x128x256.size a
  hwx2_3 : ∀ i : grid2.Coords, EltTy.bits .f32 = 32 ∨ (Rect.block (s := S3x128x256) S3x128x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S3x256.size a ≤ S3x256.size a
  hwx2_4 : ∀ i : grid2.Coords, EltTy.bits .f32 = 32 ∨ (Rect.block (s := S3x256) S3x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x3x256.size a ≤ S2x3x256.size a
  hwx2_5 : ∀ i : grid2.Coords, EltTy.bits .f32 = 32 ∨ (Rect.block (s := S2x3x256) S1x3x256.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x3x256.size a ≤ S2x3x256.size a
  hwx2_6 : ∀ i : grid2.Coords, EltTy.bits .f32 = 32 ∨ (Rect.block (s := S2x3x256) S1x3x256.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .bf16 = 32 ∨ (Rect.block (s := S50000x128) S2000x128.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .bf16 = 32 ∨ (Rect.block (s := S50000x128) S2000x128.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S50000x128.size a
  hwx3_2 : ∀ i : grid3.Coords, EltTy.bits .bf16 = 32 ∨ (Rect.block (s := S50000x128) S2000x128.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S3x128x256.size a ≤ S3x128x256.size a
  hwx3_3 : ∀ i : grid3.Coords, EltTy.bits .f32 = 32 ∨ (Rect.block (s := S3x128x256) S3x128x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S3x256.size a ≤ S3x256.size a
  hwx3_4 : ∀ i : grid3.Coords, EltTy.bits .f32 = 32 ∨ (Rect.block (s := S3x256) S3x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S3x256.size a ≤ S3x256.size a
  hwx3_5 : ∀ i : grid3.Coords, EltTy.bits .f32 = 32 ∨ (Rect.block (s := S3x256) S3x256.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S3x256.size a ≤ S3x256.size a
  hwx3_6 : ∀ i : grid3.Coords, EltTy.bits .f32 = 32 ∨ (Rect.block (s := S3x256) S3x256.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S3x256.size a ≤ S3x256.size a
  hwx3_7 : ∀ i : grid3.Coords, EltTy.bits .f32 = 32 ∨ (Rect.block (s := S3x256) S3x256.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S3x256.size a ≤ S3x256.size a
  hwx3_8 : ∀ i : grid3.Coords, EltTy.bits .f32 = 32 ∨ (Rect.block (s := S3x256) S3x256.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S3x256.size a ≤ S3x256.size a
  hwx3_9 : ∀ i : grid3.Coords, EltTy.bits .f32 = 32 ∨ (Rect.block (s := S3x256) S3x256.size (cc3_transform_9 i) (hinb3_9 i)).WholeWords (EltTy.packing .f32)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S2000x128.size a ≤ S50000x128.size a
  hwx3_10 : ∀ i : grid3.Coords, EltTy.bits .f32 = 32 ∨ (Rect.block (s := S50000x128) S2000x128.size (cc3_transform_10 i) (hinb3_10 i)).WholeWords (EltTy.packing .f32)
  hstage3_11 : ∀ j, (stage3_11 j).IsWhole
  nbuf3_11 : grid3.bufCount reads3_11 false = 2
  hreads3_11 : ∀ i i' : grid3.Coords, (∀ a, reads3_11 a = true → i a = i' a) → cc3_transform_11 i = cc3_transform_11 i'
  hinb3_11 : ∀ (i : grid3.Coords) a, (cc3_transform_11 i a + 1) * S2000x256.size a ≤ S50000x256.size a
  hwx3_11 : ∀ i : grid3.Coords, EltTy.bits .f32 = 32 ∨ (Rect.block (s := S50000x256) S2000x256.size (cc3_transform_11 i) (hinb3_11 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x128.size a ≤ S50000x128.size a
  hwx4_0 : ∀ i : grid4.Coords, EltTy.bits .bf16 = 32 ∨ (Rect.block (s := S50000x128) S1000x128.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1000x128.size a ≤ S50000x128.size a
  hwx4_1 : ∀ i : grid4.Coords, EltTy.bits .bf16 = 32 ∨ (Rect.block (s := S50000x128) S1000x128.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1000x128.size a ≤ S50000x128.size a
  hwx4_2 : ∀ i : grid4.Coords, EltTy.bits .bf16 = 32 ∨ (Rect.block (s := S50000x128) S1000x128.size (cc4_transform_2 i) (hinb4_2 i)).WholeWords (EltTy.packing .bf16)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S3x128x128.size a ≤ S3x128x128.size a
  hwx4_3 : ∀ i : grid4.Coords, EltTy.bits .f32 = 32 ∨ (Rect.block (s := S3x128x128) S3x128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S3x128.size a ≤ S3x128.size a
  hwx4_4 : ∀ i : grid4.Coords, EltTy.bits .f32 = 32 ∨ (Rect.block (s := S3x128) S3x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S1x3x128.size a ≤ S2x3x128.size a
  hwx4_5 : ∀ i : grid4.Coords, EltTy.bits .f32 = 32 ∨ (Rect.block (s := S2x3x128) S1x3x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S1x3x128.size a ≤ S2x3x128.size a
  hwx4_6 : ∀ i : grid4.Coords, EltTy.bits .f32 = 32 ∨ (Rect.block (s := S2x3x128) S1x3x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .bf16 = 32 ∨ (Rect.block (s := S50000x128) S2000x128.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x128.size a ≤ S50000x128.size a
  hwx5_1 : ∀ i : grid5.Coords, EltTy.bits .bf16 = 32 ∨ (Rect.block (s := S50000x128) S2000x128.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x128.size a ≤ S50000x128.size a
  hwx5_2 : ∀ i : grid5.Coords, EltTy.bits .bf16 = 32 ∨ (Rect.block (s := S50000x128) S2000x128.size (cc5_transform_2 i) (hinb5_2 i)).WholeWords (EltTy.packing .bf16)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S3x128x128.size a ≤ S3x128x128.size a
  hwx5_3 : ∀ i : grid5.Coords, EltTy.bits .f32 = 32 ∨ (Rect.block (s := S3x128x128) S3x128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S3x128.size a ≤ S3x128.size a
  hwx5_4 : ∀ i : grid5.Coords, EltTy.bits .f32 = 32 ∨ (Rect.block (s := S3x128) S3x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S3x128.size a ≤ S3x128.size a
  hwx5_5 : ∀ i : grid5.Coords, EltTy.bits .f32 = 32 ∨ (Rect.block (s := S3x128) S3x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S3x128.size a ≤ S3x128.size a
  hwx5_6 : ∀ i : grid5.Coords, EltTy.bits .f32 = 32 ∨ (Rect.block (s := S3x128) S3x128.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S3x128.size a ≤ S3x128.size a
  hwx5_7 : ∀ i : grid5.Coords, EltTy.bits .f32 = 32 ∨ (Rect.block (s := S3x128) S3x128.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S3x128.size a ≤ S3x128.size a
  hwx5_8 : ∀ i : grid5.Coords, EltTy.bits .f32 = 32 ∨ (Rect.block (s := S3x128) S3x128.size (cc5_transform_8 i) (hinb5_8 i)).WholeWords (EltTy.packing .f32)
  hstage5_9 : ∀ j, (stage5_9 j).IsWhole
  nbuf5_9 : grid5.bufCount reads5_9 true = 1
  hreads5_9 : ∀ i i' : grid5.Coords, (∀ a, reads5_9 a = true → i a = i' a) → cc5_transform_9 i = cc5_transform_9 i'
  hinb5_9 : ∀ (i : grid5.Coords) a, (cc5_transform_9 i a + 1) * S3x128.size a ≤ S3x128.size a
  hwx5_9 : ∀ i : grid5.Coords, EltTy.bits .f32 = 32 ∨ (Rect.block (s := S3x128) S3x128.size (cc5_transform_9 i) (hinb5_9 i)).WholeWords (EltTy.packing .f32)
  hstage5_10 : ∀ j, (stage5_10 j).IsWhole
  nbuf5_10 : grid5.bufCount reads5_10 false = 2
  hreads5_10 : ∀ i i' : grid5.Coords, (∀ a, reads5_10 a = true → i a = i' a) → cc5_transform_10 i = cc5_transform_10 i'
  hinb5_10 : ∀ (i : grid5.Coords) a, (cc5_transform_10 i a + 1) * S2000x128.size a ≤ S50000x128.size a
  hwx5_10 : ∀ i : grid5.Coords, EltTy.bits .f32 = 32 ∨ (Rect.block (s := S50000x128) S2000x128.size (cc5_transform_10 i) (hinb5_10 i)).WholeWords (EltTy.packing .f32)
  hstage5_11 : ∀ j, (stage5_11 j).IsWhole
  nbuf5_11 : grid5.bufCount reads5_11 false = 2
  hreads5_11 : ∀ i i' : grid5.Coords, (∀ a, reads5_11 a = true → i a = i' a) → cc5_transform_11 i = cc5_transform_11 i'
  hinb5_11 : ∀ (i : grid5.Coords) a, (cc5_transform_11 i a + 1) * S2000x128.size a ≤ S50000x128.size a
  hwx5_11 : ∀ i : grid5.Coords, EltTy.bits .f32 = 32 ∨ (Rect.block (s := S50000x128) S2000x128.size (cc5_transform_11 i) (hinb5_11 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S1000x128_S128x384_S1000x384_1_0_0_1_n_n : DotDims S1000x128 S128x384 S1000x384 where
  lhsContracting := [1]
  rhsContracting := [0]
  lhsNonContracting := [0]
  rhsNonContracting := [1]
  lhsBatch := []
  rhsBatch := []
  wf := dot_S1000x128_S128x384_S1000x384_1_0_0_1_n_n_wf
def dot_S2000x128_S128x384_S2000x384_1_0_0_1_n_n : DotDims S2000x128 S128x384 S2000x384 where
  lhsContracting := [1]
  rhsContracting := [0]
  lhsNonContracting := [0]
  rhsNonContracting := [1]
  lhsBatch := []
  rhsBatch := []
  wf := dot_S2000x128_S128x384_S2000x384_1_0_0_1_n_n_wf
def dot_S1000x128_S128x256_S1000x256_1_0_0_1_n_n : DotDims S1000x128 S128x256 S1000x256 where
  lhsContracting := [1]
  rhsContracting := [0]
  lhsNonContracting := [0]
  rhsNonContracting := [1]
  lhsBatch := []
  rhsBatch := []
  wf := dot_S1000x128_S128x256_S1000x256_1_0_0_1_n_n_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v169) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v170) S1000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v152) S3x128x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v156) S3x384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v171_0) S1x3x384.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v171_1) S1x3x384.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v169) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v170) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v152) S3x128x384.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v156) S3x384.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v160) S3x384.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v164) S3x384.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v168) S3x384.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v175) S3x384.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v181) S3x384.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v182) S2000x384.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v304) S1000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v305) S1000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v13) S1000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v287) S3x128x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v291) S3x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v306_0) S1x3x256.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v306_1) S1x3x256.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v304) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v305) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v13) S2000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v287) S3x128x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v291) S3x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v295) S3x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v299) S3x256.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v303) S3x256.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v310) S3x256.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v316) S3x256.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v196) S2000x128.size cc3_transform_10 reads3_10 false false 2 stage3_10 sem3_10
    hrank3 hreads3_10 hinb3_10 nbuf3_10 (Memref.isWhole_whole _) hwx3_10 hstage3_10

abbrev win3_11 : Pipeline.Window sig grid3 :=
  Pipeline.Window.ofSpec (Memref.whole main_v317) S2000x256.size cc3_transform_11 reads3_11 true false 2 stage3_11 sem3_11
    hrank3 hreads3_11 hinb3_11 nbuf3_11 (Memref.isWhole_whole _) hwx3_11 hstage3_11

abbrev win3 : Fin 12 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | ⟨_ + 12, h⟩ => absurd h (Nat.not_lt.2 (Nat.le_add_left _ _))
abbrev spec3 : Fin 12 → Pipeline.WinSpec sig grid3.rank := fun w => (win3 w).toWinSpec

abbrev win4_0 : Pipeline.Window sig grid4 :=
  Pipeline.Window.ofSpec (Memref.whole main_v390) S1000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v391) S1000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v13) S1000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v373) S3x128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v377) S3x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v392_0) S1x3x128.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v392_1) S1x3x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v390) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v391) S2000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v13) S2000x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v373) S3x128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v377) S3x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v381) S3x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v385) S3x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v389) S3x128.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v396) S3x128.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v402) S3x128.size cc5_transform_9 reads5_9 false true 1 stage5_9 sem5_9
    hrank5 hreads5_9 hinb5_9 nbuf5_9 (Memref.isWhole_whole _) hwx5_9 hstage5_9

abbrev win5_10 : Pipeline.Window sig grid5 :=
  Pipeline.Window.ofSpec (Memref.whole main_v321) S2000x128.size cc5_transform_10 reads5_10 false false 2 stage5_10 sem5_10
    hrank5 hreads5_10 hinb5_10 nbuf5_10 (Memref.isWhole_whole _) hwx5_10 hstage5_10

abbrev win5_11 : Pipeline.Window sig grid5 :=
  Pipeline.Window.ofSpec (Memref.whole main_v403) S2000x128.size cc5_transform_11 reads5_11 true false 2 stage5_11 sem5_11
    hrank5 hreads5_11 hinb5_11 nbuf5_11 (Memref.isWhole_whole _) hwx5_11 hstage5_11

abbrev win5 : Fin 12 → Pipeline.Window sig grid5 := fun | 0 => win5_0 | 1 => win5_1 | 2 => win5_2 | 3 => win5_3 | 4 => win5_4 | 5 => win5_5 | 6 => win5_6 | 7 => win5_7 | 8 => win5_8 | 9 => win5_9 | 10 => win5_10 | 11 => win5_11 | ⟨_ + 12, h⟩ => absurd h (Nat.not_lt.2 (Nat.le_add_left _ _))
abbrev spec5 : Fin 12 → Pipeline.WinSpec sig grid5.rank := fun w => (win5 w).toWinSpec

class Facts : Prop extends Facts₀ where

variable [Facts]
-- ==== ReferenceIdeal.lean ====
abbrev S2x800000 : Shape := ⟨2, ![2, 800000]⟩
abbrev S50000x128 : Shape := ⟨2, ![50000, 128]⟩
abbrev S6x3 : Shape := ⟨2, ![6, 3]⟩
abbrev S6x3x128x128 : Shape := ⟨4, ![6, 3, 128, 128]⟩
abbrev S6x3x128 : Shape := ⟨3, ![6, 3, 128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x1x128x128 : Shape := ⟨4, ![1, 1, 128, 128]⟩
abbrev S128x128 : Shape := ⟨2, ![128, 128]⟩
abbrev S1x1x128 : Shape := ⟨3, ![1, 1, 128]⟩
abbrev S128 : Shape := ⟨1, ![128]⟩
abbrev S1x128 : Shape := ⟨2, ![1, 128]⟩
abbrev S1x1 : Shape := ⟨2, ![1, 1]⟩
abbrev S1x50000x128 : Shape := ⟨3, ![1, 50000, 128]⟩
abbrev S3x50000x128 : Shape := ⟨3, ![3, 50000, 128]⟩

abbrev nBuf : Space → Nat
  | .hbm => 1313
  | .vmem => 0
  | .smem => 0
  | _ => 0

abbrev hbmTy0_0 (i : Nat) : BufTy := match i % 128 with
  | 0 => ⟨S2x800000, .i32⟩
  | 1 => ⟨S50000x128, .f32⟩
  | 2 => ⟨S50000x128, .f32⟩
  | 3 => ⟨S6x3, .f32⟩
  | 4 => ⟨S6x3x128x128, .f32⟩
  | 5 => ⟨S6x3x128, .f32⟩
  | 6 => ⟨S6x3x128, .f32⟩
  | 7 => ⟨S6x3x128, .f32⟩
  | 8 => ⟨S1x800000, .i32⟩
  | 9 => ⟨S800000, .i32⟩
  | 10 => ⟨S1x800000, .i32⟩
  | 11 => ⟨S800000, .i32⟩
  | 12 => ⟨S_, .f32⟩
  | 13 => ⟨S800000, .f32⟩
  | 14 => ⟨S_, .f32⟩
  | 15 => ⟨S50000, .f32⟩
  | 16 => ⟨S800000x1, .i32⟩
  | 17 => ⟨S50000, .f32⟩
  | 18 => ⟨S_, .f32⟩
  | 19 => ⟨S50000, .f32⟩
  | 20 => ⟨S50000, .f32⟩
  | 21 => ⟨S_, .f32⟩
  | 22 => ⟨S50000, .f32⟩
  | 23 => ⟨S50000, .f32⟩
  | 24 => ⟨S50000x1, .f32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000x128, .f32⟩
  | 34 => ⟨S_, .f32⟩
  | 35 => ⟨S50000x128, .f32⟩
  | 36 => ⟨S800000x1, .i32⟩
  | 37 => ⟨S50000x128, .f32⟩
  | 38 => ⟨S50000x128, .f32⟩
  | 39 => ⟨S50000x128, .f32⟩
  | 40 => ⟨S_, .f32⟩
  | 41 => ⟨S50000x128, .f32⟩
  | 42 => ⟨S1x1x128x128, .f32⟩
  | 43 => ⟨S128x128, .f32⟩
  | 44 => ⟨S128x128, .f32⟩
  | 45 => ⟨S50000x128, .f32⟩
  | 46 => ⟨S1x1x128, .f32⟩
  | 47 => ⟨S128, .f32⟩
  | 48 => ⟨S1x128, .f32⟩
  | 49 => ⟨S50000x128, .f32⟩
  | 50 => ⟨S50000x128, .f32⟩
  | 51 => ⟨S1x1x128, .f32⟩
  | 52 => ⟨S128, .f32⟩
  | 53 => ⟨S1x1x128, .f32⟩
  | 54 => ⟨S128, .f32⟩
  | 55 => ⟨S_, .f32⟩
  | 56 => ⟨S128, .f32⟩
  | 57 => ⟨S_, .f32⟩
  | 58 => ⟨S128, .f32⟩
  | 59 => ⟨S128, .f32⟩
  | 60 => ⟨S_, .i32⟩
  | 61 => ⟨S_, .f32⟩
  | 62 => ⟨S128, .f32⟩
  | 63 => ⟨S1x128, .f32⟩
  | 64 => ⟨S_, .f32⟩
  | 65 => ⟨S1x128, .f32⟩
  | 66 => ⟨S1x128, .f32⟩
  | 67 => ⟨S50000x128, .f32⟩
  | 68 => ⟨S50000x128, .f32⟩
  | 69 => ⟨S50000x128, .f32⟩
  | 70 => ⟨S_, .f32⟩
  | 71 => ⟨S_, .f32⟩
  | 72 => ⟨S_, .f32⟩
  | 73 => ⟨S_, .f32⟩
  | 74 => ⟨S128, .f32⟩
  | 75 => ⟨S128, .f32⟩
  | 76 => ⟨S128, .f32⟩
  | 77 => ⟨S_, .f32⟩
  | 78 => ⟨S_, .i1⟩
  | 79 => ⟨S_, .f32⟩
  | 80 => ⟨S_, .f32⟩
  | 81 => ⟨S128, .f32⟩
  | 82 => ⟨S128, .f32⟩
  | 83 => ⟨S1x128, .f32⟩
  | 84 => ⟨S50000x128, .f32⟩
  | 85 => ⟨S50000x128, .f32⟩
  | 86 => ⟨S_, .f32⟩
  | 87 => ⟨S128, .f32⟩
  | 88 => ⟨S128, .f32⟩
  | 89 => ⟨S128, .f32⟩
  | 90 => ⟨S1x128, .f32⟩
  | 91 => ⟨S50000x128, .f32⟩
  | 92 => ⟨S50000x128, .f32⟩
  | 93 => ⟨S1x128, .f32⟩
  | 94 => ⟨S50000x128, .f32⟩
  | 95 => ⟨S50000x128, .f32⟩
  | 96 => ⟨S1x128, .f32⟩
  | 97 => ⟨S50000x128, .f32⟩
  | 98 => ⟨S50000x128, .f32⟩
  | 99 => ⟨S_, .f32⟩
  | 100 => ⟨S50000x128, .f32⟩
  | 101 => ⟨S50000x128, .f32⟩
  | 102 => ⟨S1x1, .f32⟩
  | 103 => ⟨S_, .f32⟩
  | 104 => ⟨S50000x128, .f32⟩
  | 105 => ⟨S50000x128, .f32⟩
  | 106 => ⟨S50000x128, .f32⟩
  | 107 => ⟨S1x1x128x128, .f32⟩
  | 108 => ⟨S128x128, .f32⟩
  | 109 => ⟨S128x128, .f32⟩
  | 110 => ⟨S50000x128, .f32⟩
  | 111 => ⟨S1x1x128, .f32⟩
  | 112 => ⟨S128, .f32⟩
  | 113 => ⟨S1x128, .f32⟩
  | 114 => ⟨S50000x128, .f32⟩
  | 115 => ⟨S50000x128, .f32⟩
  | 116 => ⟨S1x1x128, .f32⟩
  | 117 => ⟨S128, .f32⟩
  | 118 => ⟨S1x1x128, .f32⟩
  | 119 => ⟨S128, .f32⟩
  | 120 => ⟨S_, .f32⟩
  | 121 => ⟨S128, .f32⟩
  | 122 => ⟨S_, .f32⟩
  | 123 => ⟨S128, .f32⟩
  | 124 => ⟨S128, .f32⟩
  | 125 => ⟨S_, .i32⟩
  | 126 => ⟨S_, .f32⟩
  | 127 => ⟨S128, .f32⟩
  | _ => ⟨S2x800000, .i32⟩

abbrev hbmTy0_1 (i : Nat) : BufTy := match i % 128 with
  | 0 => ⟨S1x128, .f32⟩
  | 1 => ⟨S_, .f32⟩
  | 2 => ⟨S1x128, .f32⟩
  | 3 => ⟨S1x128, .f32⟩
  | 4 => ⟨S50000x128, .f32⟩
  | 5 => ⟨S50000x128, .f32⟩
  | 6 => ⟨S50000x128, .f32⟩
  | 7 => ⟨S_, .f32⟩
  | 8 => ⟨S_, .f32⟩
  | 9 => ⟨S_, .f32⟩
  | 10 => ⟨S_, .f32⟩
  | 11 => ⟨S128, .f32⟩
  | 12 => ⟨S128, .f32⟩
  | 13 => ⟨S128, .f32⟩
  | 14 => ⟨S_, .f32⟩
  | 15 => ⟨S_, .i1⟩
  | 16 => ⟨S_, .f32⟩
  | 17 => ⟨S_, .f32⟩
  | 18 => ⟨S128, .f32⟩
  | 19 => ⟨S128, .f32⟩
  | 20 => ⟨S1x128, .f32⟩
  | 21 => ⟨S50000x128, .f32⟩
  | 22 => ⟨S50000x128, .f32⟩
  | 23 => ⟨S_, .f32⟩
  | 24 => ⟨S128, .f32⟩
  | 25 => ⟨S128, .f32⟩
  | 26 => ⟨S128, .f32⟩
  | 27 => ⟨S1x128, .f32⟩
  | 28 => ⟨S50000x128, .f32⟩
  | 29 => ⟨S50000x128, .f32⟩
  | 30 => ⟨S1x128, .f32⟩
  | 31 => ⟨S50000x128, .f32⟩
  | 32 => ⟨S50000x128, .f32⟩
  | 33 => ⟨S1x128, .f32⟩
  | 34 => ⟨S50000x128, .f32⟩
  | 35 => ⟨S50000x128, .f32⟩
  | 36 => ⟨S_, .f32⟩
  | 37 => ⟨S50000x128, .f32⟩
  | 38 => ⟨S50000x128, .f32⟩
  | 39 => ⟨S1x1, .f32⟩
  | 40 => ⟨S_, .f32⟩
  | 41 => ⟨S50000x128, .f32⟩
  | 42 => ⟨S50000x128, .f32⟩
  | 43 => ⟨S50000x128, .f32⟩
  | 44 => ⟨S1x1x128x128, .f32⟩
  | 45 => ⟨S128x128, .f32⟩
  | 46 => ⟨S128x128, .f32⟩
  | 47 => ⟨S50000x128, .f32⟩
  | 48 => ⟨S1x1x128, .f32⟩
  | 49 => ⟨S128, .f32⟩
  | 50 => ⟨S1x128, .f32⟩
  | 51 => ⟨S50000x128, .f32⟩
  | 52 => ⟨S50000x128, .f32⟩
  | 53 => ⟨S1x1x128, .f32⟩
  | 54 => ⟨S128, .f32⟩
  | 55 => ⟨S1x1x128, .f32⟩
  | 56 => ⟨S128, .f32⟩
  | 57 => ⟨S_, .f32⟩
  | 58 => ⟨S128, .f32⟩
  | 59 => ⟨S_, .f32⟩
  | 60 => ⟨S128, .f32⟩
  | 61 => ⟨S128, .f32⟩
  | 62 => ⟨S_, .i32⟩
  | 63 => ⟨S_, .f32⟩
  | 64 => ⟨S128, .f32⟩
  | 65 => ⟨S1x128, .f32⟩
  | 66 => ⟨S_, .f32⟩
  | 67 => ⟨S1x128, .f32⟩
  | 68 => ⟨S1x128, .f32⟩
  | 69 => ⟨S50000x128, .f32⟩
  | 70 => ⟨S50000x128, .f32⟩
  | 71 => ⟨S50000x128, .f32⟩
  | 72 => ⟨S_, .f32⟩
  | 73 => ⟨S_, .f32⟩
  | 74 => ⟨S_, .f32⟩
  | 75 => ⟨S_, .f32⟩
  | 76 => ⟨S128, .f32⟩
  | 77 => ⟨S128, .f32⟩
  | 78 => ⟨S128, .f32⟩
  | 79 => ⟨S_, .f32⟩
  | 80 => ⟨S_, .i1⟩
  | 81 => ⟨S_, .f32⟩
  | 82 => ⟨S_, .f32⟩
  | 83 => ⟨S128, .f32⟩
  | 84 => ⟨S128, .f32⟩
  | 85 => ⟨S1x128, .f32⟩
  | 86 => ⟨S50000x128, .f32⟩
  | 87 => ⟨S50000x128, .f32⟩
  | 88 => ⟨S_, .f32⟩
  | 89 => ⟨S128, .f32⟩
  | 90 => ⟨S128, .f32⟩
  | 91 => ⟨S128, .f32⟩
  | 92 => ⟨S1x128, .f32⟩
  | 93 => ⟨S50000x128, .f32⟩
  | 94 => ⟨S50000x128, .f32⟩
  | 95 => ⟨S1x128, .f32⟩
  | 96 => ⟨S50000x128, .f32⟩
  | 97 => ⟨S50000x128, .f32⟩
  | 98 => ⟨S1x128, .f32⟩
  | 99 => ⟨S50000x128, .f32⟩
  | 100 => ⟨S50000x128, .f32⟩
  | 101 => ⟨S_, .f32⟩
  | 102 => ⟨S50000x128, .f32⟩
  | 103 => ⟨S50000x128, .f32⟩
  | 104 => ⟨S1x1, .f32⟩
  | 105 => ⟨S_, .f32⟩
  | 106 => ⟨S50000x128, .f32⟩
  | 107 => ⟨S50000x128, .f32⟩
  | 108 => ⟨S50000x128, .f32⟩
  | 109 => ⟨S_, .f32⟩
  | 110 => ⟨S50000x128, .f32⟩
  | 111 => ⟨S50000x128, .f32⟩
  | 112 => ⟨S_, .i32⟩
  | 113 => ⟨S800000, .i32⟩
  | 114 => ⟨S800000, .i1⟩
  | 115 => ⟨S_, .i32⟩
  | 116 => ⟨S800000, .i32⟩
  | 117 => ⟨S800000, .i32⟩
  | 118 => ⟨S800000, .i32⟩
  | 119 => ⟨S800000x1, .i32⟩
  | 120 => ⟨S800000x128, .f32⟩
  | 121 => ⟨S_, .f32⟩
  | 122 => ⟨S50000x128, .f32⟩
  | 123 => ⟨S800000x1, .i32⟩
  | 124 => ⟨S50000x128, .f32⟩
  | 125 => ⟨S50000x128, .f32⟩
  | 126 => ⟨S50000x128, .f32⟩
  | 127 => ⟨S_, .f32⟩
  | _ => ⟨S2x800000, .i32⟩

abbrev hbmTy0_2 (i : Nat) : BufTy := match i % 128 with
  | 0 => ⟨S50000x128, .f32⟩
  | 1 => ⟨S1x1x128x128, .f32⟩
  | 2 => ⟨S128x128, .f32⟩
  | 3 => ⟨S128x128, .f32⟩
  | 4 => ⟨S50000x128, .f32⟩
  | 5 => ⟨S1x1x128, .f32⟩
  | 6 => ⟨S128, .f32⟩
  | 7 => ⟨S1x128, .f32⟩
  | 8 => ⟨S50000x128, .f32⟩
  | 9 => ⟨S50000x128, .f32⟩
  | 10 => ⟨S1x1x128, .f32⟩
  | 11 => ⟨S128, .f32⟩
  | 12 => ⟨S1x1x128, .f32⟩
  | 13 => ⟨S128, .f32⟩
  | 14 => ⟨S_, .f32⟩
  | 15 => ⟨S128, .f32⟩
  | 16 => ⟨S_, .f32⟩
  | 17 => ⟨S128, .f32⟩
  | 18 => ⟨S128, .f32⟩
  | 19 => ⟨S_, .i32⟩
  | 20 => ⟨S_, .f32⟩
  | 21 => ⟨S128, .f32⟩
  | 22 => ⟨S1x128, .f32⟩
  | 23 => ⟨S_, .f32⟩
  | 24 => ⟨S1x128, .f32⟩
  | 25 => ⟨S1x128, .f32⟩
  | 26 => ⟨S50000x128, .f32⟩
  | 27 => ⟨S50000x128, .f32⟩
  | 28 => ⟨S50000x128, .f32⟩
  | 29 => ⟨S_, .f32⟩
  | 30 => ⟨S_, .f32⟩
  | 31 => ⟨S_, .f32⟩
  | 32 => ⟨S_, .f32⟩
  | 33 => ⟨S128, .f32⟩
  | 34 => ⟨S128, .f32⟩
  | 35 => ⟨S128, .f32⟩
  | 36 => ⟨S_, .f32⟩
  | 37 => ⟨S_, .i1⟩
  | 38 => ⟨S_, .f32⟩
  | 39 => ⟨S_, .f32⟩
  | 40 => ⟨S128, .f32⟩
  | 41 => ⟨S128, .f32⟩
  | 42 => ⟨S1x128, .f32⟩
  | 43 => ⟨S50000x128, .f32⟩
  | 44 => ⟨S50000x128, .f32⟩
  | 45 => ⟨S_, .f32⟩
  | 46 => ⟨S128, .f32⟩
  | 47 => ⟨S128, .f32⟩
  | 48 => ⟨S128, .f32⟩
  | 49 => ⟨S1x128, .f32⟩
  | 50 => ⟨S50000x128, .f32⟩
  | 51 => ⟨S50000x128, .f32⟩
  | 52 => ⟨S1x128, .f32⟩
  | 53 => ⟨S50000x128, .f32⟩
  | 54 => ⟨S50000x128, .f32⟩
  | 55 => ⟨S1x128, .f32⟩
  | 56 => ⟨S50000x128, .f32⟩
  | 57 => ⟨S50000x128, .f32⟩
  | 58 => ⟨S_, .f32⟩
  | 59 => ⟨S50000x128, .f32⟩
  | 60 => ⟨S50000x128, .f32⟩
  | 61 => ⟨S1x1, .f32⟩
  | 62 => ⟨S_, .f32⟩
  | 63 => ⟨S50000x128, .f32⟩
  | 64 => ⟨S50000x128, .f32⟩
  | 65 => ⟨S50000x128, .f32⟩
  | 66 => ⟨S1x1x128x128, .f32⟩
  | 67 => ⟨S128x128, .f32⟩
  | 68 => ⟨S128x128, .f32⟩
  | 69 => ⟨S50000x128, .f32⟩
  | 70 => ⟨S1x1x128, .f32⟩
  | 71 => ⟨S128, .f32⟩
  | 72 => ⟨S1x128, .f32⟩
  | 73 => ⟨S50000x128, .f32⟩
  | 74 => ⟨S50000x128, .f32⟩
  | 75 => ⟨S1x1x128, .f32⟩
  | 76 => ⟨S128, .f32⟩
  | 77 => ⟨S1x1x128, .f32⟩
  | 78 => ⟨S128, .f32⟩
  | 79 => ⟨S_, .f32⟩
  | 80 => ⟨S128, .f32⟩
  | 81 => ⟨S_, .f32⟩
  | 82 => ⟨S128, .f32⟩
  | 83 => ⟨S128, .f32⟩
  | 84 => ⟨S_, .i32⟩
  | 85 => ⟨S_, .f32⟩
  | 86 => ⟨S128, .f32⟩
  | 87 => ⟨S1x128, .f32⟩
  | 88 => ⟨S_, .f32⟩
  | 89 => ⟨S1x128, .f32⟩
  | 90 => ⟨S1x128, .f32⟩
  | 91 => ⟨S50000x128, .f32⟩
  | 92 => ⟨S50000x128, .f32⟩
  | 93 => ⟨S50000x128, .f32⟩
  | 94 => ⟨S_, .f32⟩
  | 95 => ⟨S_, .f32⟩
  | 96 => ⟨S_, .f32⟩
  | 97 => ⟨S_, .f32⟩
  | 98 => ⟨S128, .f32⟩
  | 99 => ⟨S128, .f32⟩
  | 100 => ⟨S128, .f32⟩
  | 101 => ⟨S_, .f32⟩
  | 102 => ⟨S_, .i1⟩
  | 103 => ⟨S_, .f32⟩
  | 104 => ⟨S_, .f32⟩
  | 105 => ⟨S128, .f32⟩
  | 106 => ⟨S128, .f32⟩
  | 107 => ⟨S1x128, .f32⟩
  | 108 => ⟨S50000x128, .f32⟩
  | 109 => ⟨S50000x128, .f32⟩
  | 110 => ⟨S_, .f32⟩
  | 111 => ⟨S128, .f32⟩
  | 112 => ⟨S128, .f32⟩
  | 113 => ⟨S128, .f32⟩
  | 114 => ⟨S1x128, .f32⟩
  | 115 => ⟨S50000x128, .f32⟩
  | 116 => ⟨S50000x128, .f32⟩
  | 117 => ⟨S1x128, .f32⟩
  | 118 => ⟨S50000x128, .f32⟩
  | 119 => ⟨S50000x128, .f32⟩
  | 120 => ⟨S1x128, .f32⟩
  | 121 => ⟨S50000x128, .f32⟩
  | 122 => ⟨S50000x128, .f32⟩
  | 123 => ⟨S_, .f32⟩
  | 124 => ⟨S50000x128, .f32⟩
  | 125 => ⟨S50000x128, .f32⟩
  | 126 => ⟨S1x1, .f32⟩
  | 127 => ⟨S_, .f32⟩
  | _ => ⟨S2x800000, .i32⟩

abbrev hbmTy0_3 (i : Nat) : BufTy := match i % 128 with
  | 0 => ⟨S50000x128, .f32⟩
  | 1 => ⟨S50000x128, .f32⟩
  | 2 => ⟨S50000x128, .f32⟩
  | 3 => ⟨S1x1x128x128, .f32⟩
  | 4 => ⟨S128x128, .f32⟩
  | 5 => ⟨S128x128, .f32⟩
  | 6 => ⟨S50000x128, .f32⟩
  | 7 => ⟨S1x1x128, .f32⟩
  | 8 => ⟨S128, .f32⟩
  | 9 => ⟨S1x128, .f32⟩
  | 10 => ⟨S50000x128, .f32⟩
  | 11 => ⟨S50000x128, .f32⟩
  | 12 => ⟨S1x1x128, .f32⟩
  | 13 => ⟨S128, .f32⟩
  | 14 => ⟨S1x1x128, .f32⟩
  | 15 => ⟨S128, .f32⟩
  | 16 => ⟨S_, .f32⟩
  | 17 => ⟨S128, .f32⟩
  | 18 => ⟨S_, .f32⟩
  | 19 => ⟨S128, .f32⟩
  | 20 => ⟨S128, .f32⟩
  | 21 => ⟨S_, .i32⟩
  | 22 => ⟨S_, .f32⟩
  | 23 => ⟨S128, .f32⟩
  | 24 => ⟨S1x128, .f32⟩
  | 25 => ⟨S_, .f32⟩
  | 26 => ⟨S1x128, .f32⟩
  | 27 => ⟨S1x128, .f32⟩
  | 28 => ⟨S50000x128, .f32⟩
  | 29 => ⟨S50000x128, .f32⟩
  | 30 => ⟨S50000x128, .f32⟩
  | 31 => ⟨S_, .f32⟩
  | 32 => ⟨S_, .f32⟩
  | 33 => ⟨S_, .f32⟩
  | 34 => ⟨S_, .f32⟩
  | 35 => ⟨S128, .f32⟩
  | 36 => ⟨S128, .f32⟩
  | 37 => ⟨S128, .f32⟩
  | 38 => ⟨S_, .f32⟩
  | 39 => ⟨S_, .i1⟩
  | 40 => ⟨S_, .f32⟩
  | 41 => ⟨S_, .f32⟩
  | 42 => ⟨S128, .f32⟩
  | 43 => ⟨S128, .f32⟩
  | 44 => ⟨S1x128, .f32⟩
  | 45 => ⟨S50000x128, .f32⟩
  | 46 => ⟨S50000x128, .f32⟩
  | 47 => ⟨S_, .f32⟩
  | 48 => ⟨S128, .f32⟩
  | 49 => ⟨S128, .f32⟩
  | 50 => ⟨S128, .f32⟩
  | 51 => ⟨S1x128, .f32⟩
  | 52 => ⟨S50000x128, .f32⟩
  | 53 => ⟨S50000x128, .f32⟩
  | 54 => ⟨S1x128, .f32⟩
  | 55 => ⟨S50000x128, .f32⟩
  | 56 => ⟨S50000x128, .f32⟩
  | 57 => ⟨S1x128, .f32⟩
  | 58 => ⟨S50000x128, .f32⟩
  | 59 => ⟨S50000x128, .f32⟩
  | 60 => ⟨S_, .f32⟩
  | 61 => ⟨S50000x128, .f32⟩
  | 62 => ⟨S50000x128, .f32⟩
  | 63 => ⟨S1x1, .f32⟩
  | 64 => ⟨S_, .f32⟩
  | 65 => ⟨S50000x128, .f32⟩
  | 66 => ⟨S50000x128, .f32⟩
  | 67 => ⟨S50000x128, .f32⟩
  | 68 => ⟨S_, .f32⟩
  | 69 => ⟨S50000x128, .f32⟩
  | 70 => ⟨S50000x128, .f32⟩
  | 71 => ⟨S_, .i32⟩
  | 72 => ⟨S800000, .i32⟩
  | 73 => ⟨S800000, .i1⟩
  | 74 => ⟨S_, .i32⟩
  | 75 => ⟨S800000, .i32⟩
  | 76 => ⟨S800000, .i32⟩
  | 77 => ⟨S800000, .i32⟩
  | 78 => ⟨S800000x1, .i32⟩
  | 79 => ⟨S800000x128, .f32⟩
  | 80 => ⟨S_, .f32⟩
  | 81 => ⟨S50000x128, .f32⟩
  | 82 => ⟨S800000x1, .i32⟩
  | 83 => ⟨S50000x128, .f32⟩
  | 84 => ⟨S50000x128, .f32⟩
  | 85 => ⟨S50000x128, .f32⟩
  | 86 => ⟨S_, .f32⟩
  | 87 => ⟨S50000x128, .f32⟩
  | 88 => ⟨S1x1x128x128, .f32⟩
  | 89 => ⟨S128x128, .f32⟩
  | 90 => ⟨S128x128, .f32⟩
  | 91 => ⟨S50000x128, .f32⟩
  | 92 => ⟨S1x1x128, .f32⟩
  | 93 => ⟨S128, .f32⟩
  | 94 => ⟨S1x128, .f32⟩
  | 95 => ⟨S50000x128, .f32⟩
  | 96 => ⟨S50000x128, .f32⟩
  | 97 => ⟨S1x1x128, .f32⟩
  | 98 => ⟨S128, .f32⟩
  | 99 => ⟨S1x1x128, .f32⟩
  | 100 => ⟨S128, .f32⟩
  | 101 => ⟨S_, .f32⟩
  | 102 => ⟨S128, .f32⟩
  | 103 => ⟨S_, .f32⟩
  | 104 => ⟨S128, .f32⟩
  | 105 => ⟨S128, .f32⟩
  | 106 => ⟨S_, .i32⟩
  | 107 => ⟨S_, .f32⟩
  | 108 => ⟨S128, .f32⟩
  | 109 => ⟨S1x128, .f32⟩
  | 110 => ⟨S_, .f32⟩
  | 111 => ⟨S1x128, .f32⟩
  | 112 => ⟨S1x128, .f32⟩
  | 113 => ⟨S50000x128, .f32⟩
  | 114 => ⟨S50000x128, .f32⟩
  | 115 => ⟨S50000x128, .f32⟩
  | 116 => ⟨S_, .f32⟩
  | 117 => ⟨S_, .f32⟩
  | 118 => ⟨S_, .f32⟩
  | 119 => ⟨S_, .f32⟩
  | 120 => ⟨S128, .f32⟩
  | 121 => ⟨S128, .f32⟩
  | 122 => ⟨S128, .f32⟩
  | 123 => ⟨S_, .f32⟩
  | 124 => ⟨S_, .i1⟩
  | 125 => ⟨S_, .f32⟩
  | 126 => ⟨S_, .f32⟩
  | 127 => ⟨S128, .f32⟩
  | _ => ⟨S2x800000, .i32⟩

abbrev hbmTy0_4 (i : Nat) : BufTy := match i % 128 with
  | 0 => ⟨S128, .f32⟩
  | 1 => ⟨S1x128, .f32⟩
  | 2 => ⟨S50000x128, .f32⟩
  | 3 => ⟨S50000x128, .f32⟩
  | 4 => ⟨S_, .f32⟩
  | 5 => ⟨S128, .f32⟩
  | 6 => ⟨S128, .f32⟩
  | 7 => ⟨S128, .f32⟩
  | 8 => ⟨S1x128, .f32⟩
  | 9 => ⟨S50000x128, .f32⟩
  | 10 => ⟨S50000x128, .f32⟩
  | 11 => ⟨S1x128, .f32⟩
  | 12 => ⟨S50000x128, .f32⟩
  | 13 => ⟨S50000x128, .f32⟩
  | 14 => ⟨S1x128, .f32⟩
  | 15 => ⟨S50000x128, .f32⟩
  | 16 => ⟨S50000x128, .f32⟩
  | 17 => ⟨S_, .f32⟩
  | 18 => ⟨S50000x128, .f32⟩
  | 19 => ⟨S50000x128, .f32⟩
  | 20 => ⟨S1x1, .f32⟩
  | 21 => ⟨S_, .f32⟩
  | 22 => ⟨S50000x128, .f32⟩
  | 23 => ⟨S50000x128, .f32⟩
  | 24 => ⟨S50000x128, .f32⟩
  | 25 => ⟨S1x1x128x128, .f32⟩
  | 26 => ⟨S128x128, .f32⟩
  | 27 => ⟨S128x128, .f32⟩
  | 28 => ⟨S50000x128, .f32⟩
  | 29 => ⟨S1x1x128, .f32⟩
  | 30 => ⟨S128, .f32⟩
  | 31 => ⟨S1x128, .f32⟩
  | 32 => ⟨S50000x128, .f32⟩
  | 33 => ⟨S50000x128, .f32⟩
  | 34 => ⟨S1x1x128, .f32⟩
  | 35 => ⟨S128, .f32⟩
  | 36 => ⟨S1x1x128, .f32⟩
  | 37 => ⟨S128, .f32⟩
  | 38 => ⟨S_, .f32⟩
  | 39 => ⟨S128, .f32⟩
  | 40 => ⟨S_, .f32⟩
  | 41 => ⟨S128, .f32⟩
  | 42 => ⟨S128, .f32⟩
  | 43 => ⟨S_, .i32⟩
  | 44 => ⟨S_, .f32⟩
  | 45 => ⟨S128, .f32⟩
  | 46 => ⟨S1x128, .f32⟩
  | 47 => ⟨S_, .f32⟩
  | 48 => ⟨S1x128, .f32⟩
  | 49 => ⟨S1x128, .f32⟩
  | 50 => ⟨S50000x128, .f32⟩
  | 51 => ⟨S50000x128, .f32⟩
  | 52 => ⟨S50000x128, .f32⟩
  | 53 => ⟨S_, .f32⟩
  | 54 => ⟨S_, .f32⟩
  | 55 => ⟨S_, .f32⟩
  | 56 => ⟨S_, .f32⟩
  | 57 => ⟨S128, .f32⟩
  | 58 => ⟨S128, .f32⟩
  | 59 => ⟨S128, .f32⟩
  | 60 => ⟨S_, .f32⟩
  | 61 => ⟨S_, .i1⟩
  | 62 => ⟨S_, .f32⟩
  | 63 => ⟨S_, .f32⟩
  | 64 => ⟨S128, .f32⟩
  | 65 => ⟨S128, .f32⟩
  | 66 => ⟨S1x128, .f32⟩
  | 67 => ⟨S50000x128, .f32⟩
  | 68 => ⟨S50000x128, .f32⟩
  | 69 => ⟨S_, .f32⟩
  | 70 => ⟨S128, .f32⟩
  | 71 => ⟨S128, .f32⟩
  | 72 => ⟨S128, .f32⟩
  | 73 => ⟨S1x128, .f32⟩
  | 74 => ⟨S50000x128, .f32⟩
  | 75 => ⟨S50000x128, .f32⟩
  | 76 => ⟨S1x128, .f32⟩
  | 77 => ⟨S50000x128, .f32⟩
  | 78 => ⟨S50000x128, .f32⟩
  | 79 => ⟨S1x128, .f32⟩
  | 80 => ⟨S50000x128, .f32⟩
  | 81 => ⟨S50000x128, .f32⟩
  | 82 => ⟨S_, .f32⟩
  | 83 => ⟨S50000x128, .f32⟩
  | 84 => ⟨S50000x128, .f32⟩
  | 85 => ⟨S1x1, .f32⟩
  | 86 => ⟨S_, .f32⟩
  | 87 => ⟨S50000x128, .f32⟩
  | 88 => ⟨S50000x128, .f32⟩
  | 89 => ⟨S50000x128, .f32⟩
  | 90 => ⟨S1x1x128x128, .f32⟩
  | 91 => ⟨S128x128, .f32⟩
  | 92 => ⟨S128x128, .f32⟩
  | 93 => ⟨S50000x128, .f32⟩
  | 94 => ⟨S1x1x128, .f32⟩
  | 95 => ⟨S128, .f32⟩
  | 96 => ⟨S1x128, .f32⟩
  | 97 => ⟨S50000x128, .f32⟩
  | 98 => ⟨S50000x128, .f32⟩
  | 99 => ⟨S1x1x128, .f32⟩
  | 100 => ⟨S128, .f32⟩
  | 101 => ⟨S1x1x128, .f32⟩
  | 102 => ⟨S128, .f32⟩
  | 103 => ⟨S_, .f32⟩
  | 104 => ⟨S128, .f32⟩
  | 105 => ⟨S_, .f32⟩
  | 106 => ⟨S128, .f32⟩
  | 107 => ⟨S128, .f32⟩
  | 108 => ⟨S_, .i32⟩
  | 109 => ⟨S_, .f32⟩
  | 110 => ⟨S128, .f32⟩
  | 111 => ⟨S1x128, .f32⟩
  | 112 => ⟨S_, .f32⟩
  | 113 => ⟨S1x128, .f32⟩
  | 114 => ⟨S1x128, .f32⟩
  | 115 => ⟨S50000x128, .f32⟩
  | 116 => ⟨S50000x128, .f32⟩
  | 117 => ⟨S50000x128, .f32⟩
  | 118 => ⟨S_, .f32⟩
  | 119 => ⟨S_, .f32⟩
  | 120 => ⟨S_, .f32⟩
  | 121 => ⟨S_, .f32⟩
  | 122 => ⟨S128, .f32⟩
  | 123 => ⟨S128, .f32⟩
  | 124 => ⟨S128, .f32⟩
  | 125 => ⟨S_, .f32⟩
  | 126 => ⟨S_, .i1⟩
  | 127 => ⟨S_, .f32⟩
  | _ => ⟨S2x800000, .i32⟩

abbrev hbmTy0_5 (i : Nat) : BufTy := match i % 128 with
  | 0 => ⟨S_, .f32⟩
  | 1 => ⟨S128, .f32⟩
  | 2 => ⟨S128, .f32⟩
  | 3 => ⟨S1x128, .f32⟩
  | 4 => ⟨S50000x128, .f32⟩
  | 5 => ⟨S50000x128, .f32⟩
  | 6 => ⟨S_, .f32⟩
  | 7 => ⟨S128, .f32⟩
  | 8 => ⟨S128, .f32⟩
  | 9 => ⟨S128, .f32⟩
  | 10 => ⟨S1x128, .f32⟩
  | 11 => ⟨S50000x128, .f32⟩
  | 12 => ⟨S50000x128, .f32⟩
  | 13 => ⟨S1x128, .f32⟩
  | 14 => ⟨S50000x128, .f32⟩
  | 15 => ⟨S50000x128, .f32⟩
  | 16 => ⟨S1x128, .f32⟩
  | 17 => ⟨S50000x128, .f32⟩
  | 18 => ⟨S50000x128, .f32⟩
  | 19 => ⟨S_, .f32⟩
  | 20 => ⟨S50000x128, .f32⟩
  | 21 => ⟨S50000x128, .f32⟩
  | 22 => ⟨S1x1, .f32⟩
  | 23 => ⟨S_, .f32⟩
  | 24 => ⟨S50000x128, .f32⟩
  | 25 => ⟨S50000x128, .f32⟩
  | 26 => ⟨S50000x128, .f32⟩
  | 27 => ⟨S50000x128, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000x128, .f32⟩
  | 37 => ⟨S_, .f32⟩
  | 38 => ⟨S50000x128, .f32⟩
  | 39 => ⟨S800000x1, .i32⟩
  | 40 => ⟨S50000x128, .f32⟩
  | 41 => ⟨S50000x128, .f32⟩
  | 42 => ⟨S50000x128, .f32⟩
  | 43 => ⟨S_, .f32⟩
  | 44 => ⟨S50000x128, .f32⟩
  | 45 => ⟨S1x1x128x128, .f32⟩
  | 46 => ⟨S128x128, .f32⟩
  | 47 => ⟨S128x128, .f32⟩
  | 48 => ⟨S50000x128, .f32⟩
  | 49 => ⟨S1x1x128, .f32⟩
  | 50 => ⟨S128, .f32⟩
  | 51 => ⟨S1x128, .f32⟩
  | 52 => ⟨S50000x128, .f32⟩
  | 53 => ⟨S50000x128, .f32⟩
  | 54 => ⟨S1x1x128, .f32⟩
  | 55 => ⟨S128, .f32⟩
  | 56 => ⟨S1x1x128, .f32⟩
  | 57 => ⟨S128, .f32⟩
  | 58 => ⟨S_, .f32⟩
  | 59 => ⟨S128, .f32⟩
  | 60 => ⟨S_, .f32⟩
  | 61 => ⟨S128, .f32⟩
  | 62 => ⟨S128, .f32⟩
  | 63 => ⟨S_, .i32⟩
  | 64 => ⟨S_, .f32⟩
  | 65 => ⟨S128, .f32⟩
  | 66 => ⟨S1x128, .f32⟩
  | 67 => ⟨S_, .f32⟩
  | 68 => ⟨S1x128, .f32⟩
  | 69 => ⟨S1x128, .f32⟩
  | 70 => ⟨S50000x128, .f32⟩
  | 71 => ⟨S50000x128, .f32⟩
  | 72 => ⟨S50000x128, .f32⟩
  | 73 => ⟨S_, .f32⟩
  | 74 => ⟨S_, .f32⟩
  | 75 => ⟨S_, .f32⟩
  | 76 => ⟨S_, .f32⟩
  | 77 => ⟨S128, .f32⟩
  | 78 => ⟨S128, .f32⟩
  | 79 => ⟨S128, .f32⟩
  | 80 => ⟨S_, .f32⟩
  | 81 => ⟨S_, .i1⟩
  | 82 => ⟨S_, .f32⟩
  | 83 => ⟨S_, .f32⟩
  | 84 => ⟨S128, .f32⟩
  | 85 => ⟨S128, .f32⟩
  | 86 => ⟨S1x128, .f32⟩
  | 87 => ⟨S50000x128, .f32⟩
  | 88 => ⟨S50000x128, .f32⟩
  | 89 => ⟨S_, .f32⟩
  | 90 => ⟨S128, .f32⟩
  | 91 => ⟨S128, .f32⟩
  | 92 => ⟨S128, .f32⟩
  | 93 => ⟨S1x128, .f32⟩
  | 94 => ⟨S50000x128, .f32⟩
  | 95 => ⟨S50000x128, .f32⟩
  | 96 => ⟨S1x128, .f32⟩
  | 97 => ⟨S50000x128, .f32⟩
  | 98 => ⟨S50000x128, .f32⟩
  | 99 => ⟨S1x128, .f32⟩
  | 100 => ⟨S50000x128, .f32⟩
  | 101 => ⟨S50000x128, .f32⟩
  | 102 => ⟨S_, .f32⟩
  | 103 => ⟨S50000x128, .f32⟩
  | 104 => ⟨S50000x128, .f32⟩
  | 105 => ⟨S1x1, .f32⟩
  | 106 => ⟨S_, .f32⟩
  | 107 => ⟨S50000x128, .f32⟩
  | 108 => ⟨S50000x128, .f32⟩
  | 109 => ⟨S50000x128, .f32⟩
  | 110 => ⟨S1x1x128x128, .f32⟩
  | 111 => ⟨S128x128, .f32⟩
  | 112 => ⟨S128x128, .f32⟩
  | 113 => ⟨S50000x128, .f32⟩
  | 114 => ⟨S1x1x128, .f32⟩
  | 115 => ⟨S128, .f32⟩
  | 116 => ⟨S1x128, .f32⟩
  | 117 => ⟨S50000x128, .f32⟩
  | 118 => ⟨S50000x128, .f32⟩
  | 119 => ⟨S1x1x128, .f32⟩
  | 120 => ⟨S128, .f32⟩
  | 121 => ⟨S1x1x128, .f32⟩
  | 122 => ⟨S128, .f32⟩
  | 123 => ⟨S_, .f32⟩
  | 124 => ⟨S128, .f32⟩
  | 125 => ⟨S_, .f32⟩
  | 126 => ⟨S128, .f32⟩
  | 127 => ⟨S128, .f32⟩
  | _ => ⟨S2x800000, .i32⟩

abbrev hbmTy0_6 (i : Nat) : BufTy := match i % 128 with
  | 0 => ⟨S_, .i32⟩
  | 1 => ⟨S_, .f32⟩
  | 2 => ⟨S128, .f32⟩
  | 3 => ⟨S1x128, .f32⟩
  | 4 => ⟨S_, .f32⟩
  | 5 => ⟨S1x128, .f32⟩
  | 6 => ⟨S1x128, .f32⟩
  | 7 => ⟨S50000x128, .f32⟩
  | 8 => ⟨S50000x128, .f32⟩
  | 9 => ⟨S50000x128, .f32⟩
  | 10 => ⟨S_, .f32⟩
  | 11 => ⟨S_, .f32⟩
  | 12 => ⟨S_, .f32⟩
  | 13 => ⟨S_, .f32⟩
  | 14 => ⟨S128, .f32⟩
  | 15 => ⟨S128, .f32⟩
  | 16 => ⟨S128, .f32⟩
  | 17 => ⟨S_, .f32⟩
  | 18 => ⟨S_, .i1⟩
  | 19 => ⟨S_, .f32⟩
  | 20 => ⟨S_, .f32⟩
  | 21 => ⟨S128, .f32⟩
  | 22 => ⟨S128, .f32⟩
  | 23 => ⟨S1x128, .f32⟩
  | 24 => ⟨S50000x128, .f32⟩
  | 25 => ⟨S50000x128, .f32⟩
  | 26 => ⟨S_, .f32⟩
  | 27 => ⟨S128, .f32⟩
  | 28 => ⟨S128, .f32⟩
  | 29 => ⟨S128, .f32⟩
  | 30 => ⟨S1x128, .f32⟩
  | 31 => ⟨S50000x128, .f32⟩
  | 32 => ⟨S50000x128, .f32⟩
  | 33 => ⟨S1x128, .f32⟩
  | 34 => ⟨S50000x128, .f32⟩
  | 35 => ⟨S50000x128, .f32⟩
  | 36 => ⟨S1x128, .f32⟩
  | 37 => ⟨S50000x128, .f32⟩
  | 38 => ⟨S50000x128, .f32⟩
  | 39 => ⟨S_, .f32⟩
  | 40 => ⟨S50000x128, .f32⟩
  | 41 => ⟨S50000x128, .f32⟩
  | 42 => ⟨S1x1, .f32⟩
  | 43 => ⟨S_, .f32⟩
  | 44 => ⟨S50000x128, .f32⟩
  | 45 => ⟨S50000x128, .f32⟩
  | 46 => ⟨S50000x128, .f32⟩
  | 47 => ⟨S1x1x128x128, .f32⟩
  | 48 => ⟨S128x128, .f32⟩
  | 49 => ⟨S128x128, .f32⟩
  | 50 => ⟨S50000x128, .f32⟩
  | 51 => ⟨S1x1x128, .f32⟩
  | 52 => ⟨S128, .f32⟩
  | 53 => ⟨S1x128, .f32⟩
  | 54 => ⟨S50000x128, .f32⟩
  | 55 => ⟨S50000x128, .f32⟩
  | 56 => ⟨S1x1x128, .f32⟩
  | 57 => ⟨S128, .f32⟩
  | 58 => ⟨S1x1x128, .f32⟩
  | 59 => ⟨S128, .f32⟩
  | 60 => ⟨S_, .f32⟩
  | 61 => ⟨S128, .f32⟩
  | 62 => ⟨S_, .f32⟩
  | 63 => ⟨S128, .f32⟩
  | 64 => ⟨S128, .f32⟩
  | 65 => ⟨S_, .i32⟩
  | 66 => ⟨S_, .f32⟩
  | 67 => ⟨S128, .f32⟩
  | 68 => ⟨S1x128, .f32⟩
  | 69 => ⟨S_, .f32⟩
  | 70 => ⟨S1x128, .f32⟩
  | 71 => ⟨S1x128, .f32⟩
  | 72 => ⟨S50000x128, .f32⟩
  | 73 => ⟨S50000x128, .f32⟩
  | 74 => ⟨S50000x128, .f32⟩
  | 75 => ⟨S_, .f32⟩
  | 76 => ⟨S_, .f32⟩
  | 77 => ⟨S_, .f32⟩
  | 78 => ⟨S_, .f32⟩
  | 79 => ⟨S128, .f32⟩
  | 80 => ⟨S128, .f32⟩
  | 81 => ⟨S128, .f32⟩
  | 82 => ⟨S_, .f32⟩
  | 83 => ⟨S_, .i1⟩
  | 84 => ⟨S_, .f32⟩
  | 85 => ⟨S_, .f32⟩
  | 86 => ⟨S128, .f32⟩
  | 87 => ⟨S128, .f32⟩
  | 88 => ⟨S1x128, .f32⟩
  | 89 => ⟨S50000x128, .f32⟩
  | 90 => ⟨S50000x128, .f32⟩
  | 91 => ⟨S_, .f32⟩
  | 92 => ⟨S128, .f32⟩
  | 93 => ⟨S128, .f32⟩
  | 94 => ⟨S128, .f32⟩
  | 95 => ⟨S1x128, .f32⟩
  | 96 => ⟨S50000x128, .f32⟩
  | 97 => ⟨S50000x128, .f32⟩
  | 98 => ⟨S1x128, .f32⟩
  | 99 => ⟨S50000x128, .f32⟩
  | 100 => ⟨S50000x128, .f32⟩
  | 101 => ⟨S1x128, .f32⟩
  | 102 => ⟨S50000x128, .f32⟩
  | 103 => ⟨S50000x128, .f32⟩
  | 104 => ⟨S_, .f32⟩
  | 105 => ⟨S50000x128, .f32⟩
  | 106 => ⟨S50000x128, .f32⟩
  | 107 => ⟨S1x1, .f32⟩
  | 108 => ⟨S_, .f32⟩
  | 109 => ⟨S50000x128, .f32⟩
  | 110 => ⟨S50000x128, .f32⟩
  | 111 => ⟨S50000x128, .f32⟩
  | 112 => ⟨S_, .f32⟩
  | 113 => ⟨S50000x128, .f32⟩
  | 114 => ⟨S50000x128, .f32⟩
  | 115 => ⟨S_, .i32⟩
  | 116 => ⟨S800000, .i32⟩
  | 117 => ⟨S800000, .i1⟩
  | 118 => ⟨S_, .i32⟩
  | 119 => ⟨S800000, .i32⟩
  | 120 => ⟨S800000, .i32⟩
  | 121 => ⟨S800000, .i32⟩
  | 122 => ⟨S800000x1, .i32⟩
  | 123 => ⟨S800000x128, .f32⟩
  | 124 => ⟨S_, .f32⟩
  | 125 => ⟨S50000x128, .f32⟩
  | 126 => ⟨S800000x1, .i32⟩
  | 127 => ⟨S50000x128, .f32⟩
  | _ => ⟨S2x800000, .i32⟩

abbrev hbmTy0_7 (i : Nat) : BufTy := match i % 128 with
  | 0 => ⟨S50000x128, .f32⟩
  | 1 => ⟨S50000x128, .f32⟩
  | 2 => ⟨S_, .f32⟩
  | 3 => ⟨S50000x128, .f32⟩
  | 4 => ⟨S1x1x128x128, .f32⟩
  | 5 => ⟨S128x128, .f32⟩
  | 6 => ⟨S128x128, .f32⟩
  | 7 => ⟨S50000x128, .f32⟩
  | 8 => ⟨S1x1x128, .f32⟩
  | 9 => ⟨S128, .f32⟩
  | 10 => ⟨S1x128, .f32⟩
  | 11 => ⟨S50000x128, .f32⟩
  | 12 => ⟨S50000x128, .f32⟩
  | 13 => ⟨S1x1x128, .f32⟩
  | 14 => ⟨S128, .f32⟩
  | 15 => ⟨S1x1x128, .f32⟩
  | 16 => ⟨S128, .f32⟩
  | 17 => ⟨S_, .f32⟩
  | 18 => ⟨S128, .f32⟩
  | 19 => ⟨S_, .f32⟩
  | 20 => ⟨S128, .f32⟩
  | 21 => ⟨S128, .f32⟩
  | 22 => ⟨S_, .i32⟩
  | 23 => ⟨S_, .f32⟩
  | 24 => ⟨S128, .f32⟩
  | 25 => ⟨S1x128, .f32⟩
  | 26 => ⟨S_, .f32⟩
  | 27 => ⟨S1x128, .f32⟩
  | 28 => ⟨S1x128, .f32⟩
  | 29 => ⟨S50000x128, .f32⟩
  | 30 => ⟨S50000x128, .f32⟩
  | 31 => ⟨S50000x128, .f32⟩
  | 32 => ⟨S_, .f32⟩
  | 33 => ⟨S_, .f32⟩
  | 34 => ⟨S_, .f32⟩
  | 35 => ⟨S_, .f32⟩
  | 36 => ⟨S128, .f32⟩
  | 37 => ⟨S128, .f32⟩
  | 38 => ⟨S128, .f32⟩
  | 39 => ⟨S_, .f32⟩
  | 40 => ⟨S_, .i1⟩
  | 41 => ⟨S_, .f32⟩
  | 42 => ⟨S_, .f32⟩
  | 43 => ⟨S128, .f32⟩
  | 44 => ⟨S128, .f32⟩
  | 45 => ⟨S1x128, .f32⟩
  | 46 => ⟨S50000x128, .f32⟩
  | 47 => ⟨S50000x128, .f32⟩
  | 48 => ⟨S_, .f32⟩
  | 49 => ⟨S128, .f32⟩
  | 50 => ⟨S128, .f32⟩
  | 51 => ⟨S128, .f32⟩
  | 52 => ⟨S1x128, .f32⟩
  | 53 => ⟨S50000x128, .f32⟩
  | 54 => ⟨S50000x128, .f32⟩
  | 55 => ⟨S1x128, .f32⟩
  | 56 => ⟨S50000x128, .f32⟩
  | 57 => ⟨S50000x128, .f32⟩
  | 58 => ⟨S1x128, .f32⟩
  | 59 => ⟨S50000x128, .f32⟩
  | 60 => ⟨S50000x128, .f32⟩
  | 61 => ⟨S_, .f32⟩
  | 62 => ⟨S50000x128, .f32⟩
  | 63 => ⟨S50000x128, .f32⟩
  | 64 => ⟨S1x1, .f32⟩
  | 65 => ⟨S_, .f32⟩
  | 66 => ⟨S50000x128, .f32⟩
  | 67 => ⟨S50000x128, .f32⟩
  | 68 => ⟨S50000x128, .f32⟩
  | 69 => ⟨S1x1x128x128, .f32⟩
  | 70 => ⟨S128x128, .f32⟩
  | 71 => ⟨S128x128, .f32⟩
  | 72 => ⟨S50000x128, .f32⟩
  | 73 => ⟨S1x1x128, .f32⟩
  | 74 => ⟨S128, .f32⟩
  | 75 => ⟨S1x128, .f32⟩
  | 76 => ⟨S50000x128, .f32⟩
  | 77 => ⟨S50000x128, .f32⟩
  | 78 => ⟨S1x1x128, .f32⟩
  | 79 => ⟨S128, .f32⟩
  | 80 => ⟨S1x1x128, .f32⟩
  | 81 => ⟨S128, .f32⟩
  | 82 => ⟨S_, .f32⟩
  | 83 => ⟨S128, .f32⟩
  | 84 => ⟨S_, .f32⟩
  | 85 => ⟨S128, .f32⟩
  | 86 => ⟨S128, .f32⟩
  | 87 => ⟨S_, .i32⟩
  | 88 => ⟨S_, .f32⟩
  | 89 => ⟨S128, .f32⟩
  | 90 => ⟨S1x128, .f32⟩
  | 91 => ⟨S_, .f32⟩
  | 92 => ⟨S1x128, .f32⟩
  | 93 => ⟨S1x128, .f32⟩
  | 94 => ⟨S50000x128, .f32⟩
  | 95 => ⟨S50000x128, .f32⟩
  | 96 => ⟨S50000x128, .f32⟩
  | 97 => ⟨S_, .f32⟩
  | 98 => ⟨S_, .f32⟩
  | 99 => ⟨S_, .f32⟩
  | 100 => ⟨S_, .f32⟩
  | 101 => ⟨S128, .f32⟩
  | 102 => ⟨S128, .f32⟩
  | 103 => ⟨S128, .f32⟩
  | 104 => ⟨S_, .f32⟩
  | 105 => ⟨S_, .i1⟩
  | 106 => ⟨S_, .f32⟩
  | 107 => ⟨S_, .f32⟩
  | 108 => ⟨S128, .f32⟩
  | 109 => ⟨S128, .f32⟩
  | 110 => ⟨S1x128, .f32⟩
  | 111 => ⟨S50000x128, .f32⟩
  | 112 => ⟨S50000x128, .f32⟩
  | 113 => ⟨S_, .f32⟩
  | 114 => ⟨S128, .f32⟩
  | 115 => ⟨S128, .f32⟩
  | 116 => ⟨S128, .f32⟩
  | 117 => ⟨S1x128, .f32⟩
  | 118 => ⟨S50000x128, .f32⟩
  | 119 => ⟨S50000x128, .f32⟩
  | 120 => ⟨S1x128, .f32⟩
  | 121 => ⟨S50000x128, .f32⟩
  | 122 => ⟨S50000x128, .f32⟩
  | 123 => ⟨S1x128, .f32⟩
  | 124 => ⟨S50000x128, .f32⟩
  | 125 => ⟨S50000x128, .f32⟩
  | 126 => ⟨S_, .f32⟩
  | 127 => ⟨S50000x128, .f32⟩
  | _ => ⟨S2x800000, .i32⟩

abbrev hbmTy0_8 (i : Nat) : BufTy := match i % 128 with
  | 0 => ⟨S50000x128, .f32⟩
  | 1 => ⟨S1x1, .f32⟩
  | 2 => ⟨S_, .f32⟩
  | 3 => ⟨S50000x128, .f32⟩
  | 4 => ⟨S50000x128, .f32⟩
  | 5 => ⟨S50000x128, .f32⟩
  | 6 => ⟨S1x1x128x128, .f32⟩
  | 7 => ⟨S128x128, .f32⟩
  | 8 => ⟨S128x128, .f32⟩
  | 9 => ⟨S50000x128, .f32⟩
  | 10 => ⟨S1x1x128, .f32⟩
  | 11 => ⟨S128, .f32⟩
  | 12 => ⟨S1x128, .f32⟩
  | 13 => ⟨S50000x128, .f32⟩
  | 14 => ⟨S50000x128, .f32⟩
  | 15 => ⟨S1x1x128, .f32⟩
  | 16 => ⟨S128, .f32⟩
  | 17 => ⟨S1x1x128, .f32⟩
  | 18 => ⟨S128, .f32⟩
  | 19 => ⟨S_, .f32⟩
  | 20 => ⟨S128, .f32⟩
  | 21 => ⟨S_, .f32⟩
  | 22 => ⟨S128, .f32⟩
  | 23 => ⟨S128, .f32⟩
  | 24 => ⟨S_, .i32⟩
  | 25 => ⟨S_, .f32⟩
  | 26 => ⟨S128, .f32⟩
  | 27 => ⟨S1x128, .f32⟩
  | 28 => ⟨S_, .f32⟩
  | 29 => ⟨S1x128, .f32⟩
  | 30 => ⟨S1x128, .f32⟩
  | 31 => ⟨S50000x128, .f32⟩
  | 32 => ⟨S50000x128, .f32⟩
  | 33 => ⟨S50000x128, .f32⟩
  | 34 => ⟨S_, .f32⟩
  | 35 => ⟨S_, .f32⟩
  | 36 => ⟨S_, .f32⟩
  | 37 => ⟨S_, .f32⟩
  | 38 => ⟨S128, .f32⟩
  | 39 => ⟨S128, .f32⟩
  | 40 => ⟨S128, .f32⟩
  | 41 => ⟨S_, .f32⟩
  | 42 => ⟨S_, .i1⟩
  | 43 => ⟨S_, .f32⟩
  | 44 => ⟨S_, .f32⟩
  | 45 => ⟨S128, .f32⟩
  | 46 => ⟨S128, .f32⟩
  | 47 => ⟨S1x128, .f32⟩
  | 48 => ⟨S50000x128, .f32⟩
  | 49 => ⟨S50000x128, .f32⟩
  | 50 => ⟨S_, .f32⟩
  | 51 => ⟨S128, .f32⟩
  | 52 => ⟨S128, .f32⟩
  | 53 => ⟨S128, .f32⟩
  | 54 => ⟨S1x128, .f32⟩
  | 55 => ⟨S50000x128, .f32⟩
  | 56 => ⟨S50000x128, .f32⟩
  | 57 => ⟨S1x128, .f32⟩
  | 58 => ⟨S50000x128, .f32⟩
  | 59 => ⟨S50000x128, .f32⟩
  | 60 => ⟨S1x128, .f32⟩
  | 61 => ⟨S50000x128, .f32⟩
  | 62 => ⟨S50000x128, .f32⟩
  | 63 => ⟨S_, .f32⟩
  | 64 => ⟨S50000x128, .f32⟩
  | 65 => ⟨S50000x128, .f32⟩
  | 66 => ⟨S1x1, .f32⟩
  | 67 => ⟨S_, .f32⟩
  | 68 => ⟨S50000x128, .f32⟩
  | 69 => ⟨S50000x128, .f32⟩
  | 70 => ⟨S50000x128, .f32⟩
  | 71 => ⟨S50000x128, .f32⟩
  | 72 => ⟨S_, .i32⟩
  | 73 => ⟨S800000, .i32⟩
  | 74 => ⟨S800000, .i1⟩
  | 75 => ⟨S_, .i32⟩
  | 76 => ⟨S800000, .i32⟩
  | 77 => ⟨S800000, .i32⟩
  | 78 => ⟨S800000, .i32⟩
  | 79 => ⟨S800000x1, .i32⟩
  | 80 => ⟨S800000x128, .f32⟩
  | 81 => ⟨S_, .f32⟩
  | 82 => ⟨S50000x128, .f32⟩
  | 83 => ⟨S800000x1, .i32⟩
  | 84 => ⟨S50000x128, .f32⟩
  | 85 => ⟨S50000x128, .f32⟩
  | 86 => ⟨S50000x128, .f32⟩
  | 87 => ⟨S_, .f32⟩
  | 88 => ⟨S50000x128, .f32⟩
  | 89 => ⟨S1x1x128x128, .f32⟩
  | 90 => ⟨S128x128, .f32⟩
  | 91 => ⟨S128x128, .f32⟩
  | 92 => ⟨S50000x128, .f32⟩
  | 93 => ⟨S1x1x128, .f32⟩
  | 94 => ⟨S128, .f32⟩
  | 95 => ⟨S1x128, .f32⟩
  | 96 => ⟨S50000x128, .f32⟩
  | 97 => ⟨S50000x128, .f32⟩
  | 98 => ⟨S1x1x128, .f32⟩
  | 99 => ⟨S128, .f32⟩
  | 100 => ⟨S1x1x128, .f32⟩
  | 101 => ⟨S128, .f32⟩
  | 102 => ⟨S_, .f32⟩
  | 103 => ⟨S128, .f32⟩
  | 104 => ⟨S_, .f32⟩
  | 105 => ⟨S128, .f32⟩
  | 106 => ⟨S128, .f32⟩
  | 107 => ⟨S_, .i32⟩
  | 108 => ⟨S_, .f32⟩
  | 109 => ⟨S128, .f32⟩
  | 110 => ⟨S1x128, .f32⟩
  | 111 => ⟨S_, .f32⟩
  | 112 => ⟨S1x128, .f32⟩
  | 113 => ⟨S1x128, .f32⟩
  | 114 => ⟨S50000x128, .f32⟩
  | 115 => ⟨S50000x128, .f32⟩
  | 116 => ⟨S50000x128, .f32⟩
  | 117 => ⟨S_, .f32⟩
  | 118 => ⟨S_, .f32⟩
  | 119 => ⟨S_, .f32⟩
  | 120 => ⟨S_, .f32⟩
  | 121 => ⟨S128, .f32⟩
  | 122 => ⟨S128, .f32⟩
  | 123 => ⟨S128, .f32⟩
  | 124 => ⟨S_, .f32⟩
  | 125 => ⟨S_, .i1⟩
  | 126 => ⟨S_, .f32⟩
  | 127 => ⟨S_, .f32⟩
  | _ => ⟨S2x800000, .i32⟩

abbrev hbmTy0_9 (i : Nat) : BufTy := match i % 128 with
  | 0 => ⟨S128, .f32⟩
  | 1 => ⟨S128, .f32⟩
  | 2 => ⟨S1x128, .f32⟩
  | 3 => ⟨S50000x128, .f32⟩
  | 4 => ⟨S50000x128, .f32⟩
  | 5 => ⟨S_, .f32⟩
  | 6 => ⟨S128, .f32⟩
  | 7 => ⟨S128, .f32⟩
  | 8 => ⟨S128, .f32⟩
  | 9 => ⟨S1x128, .f32⟩
  | 10 => ⟨S50000x128, .f32⟩
  | 11 => ⟨S50000x128, .f32⟩
  | 12 => ⟨S1x128, .f32⟩
  | 13 => ⟨S50000x128, .f32⟩
  | 14 => ⟨S50000x128, .f32⟩
  | 15 => ⟨S1x128, .f32⟩
  | 16 => ⟨S50000x128, .f32⟩
  | 17 => ⟨S50000x128, .f32⟩
  | 18 => ⟨S_, .f32⟩
  | 19 => ⟨S50000x128, .f32⟩
  | 20 => ⟨S50000x128, .f32⟩
  | 21 => ⟨S1x1, .f32⟩
  | 22 => ⟨S_, .f32⟩
  | 23 => ⟨S50000x128, .f32⟩
  | 24 => ⟨S50000x128, .f32⟩
  | 25 => ⟨S50000x128, .f32⟩
  | 26 => ⟨S1x1x128x128, .f32⟩
  | 27 => ⟨S128x128, .f32⟩
  | 28 => ⟨S128x128, .f32⟩
  | 29 => ⟨S50000x128, .f32⟩
  | 30 => ⟨S1x1x128, .f32⟩
  | 31 => ⟨S128, .f32⟩
  | 32 => ⟨S1x128, .f32⟩
  | 33 => ⟨S50000x128, .f32⟩
  | 34 => ⟨S50000x128, .f32⟩
  | 35 => ⟨S1x1x128, .f32⟩
  | 36 => ⟨S128, .f32⟩
  | 37 => ⟨S1x1x128, .f32⟩
  | 38 => ⟨S128, .f32⟩
  | 39 => ⟨S_, .f32⟩
  | 40 => ⟨S128, .f32⟩
  | 41 => ⟨S_, .f32⟩
  | 42 => ⟨S128, .f32⟩
  | 43 => ⟨S128, .f32⟩
  | 44 => ⟨S_, .i32⟩
  | 45 => ⟨S_, .f32⟩
  | 46 => ⟨S128, .f32⟩
  | 47 => ⟨S1x128, .f32⟩
  | 48 => ⟨S_, .f32⟩
  | 49 => ⟨S1x128, .f32⟩
  | 50 => ⟨S1x128, .f32⟩
  | 51 => ⟨S50000x128, .f32⟩
  | 52 => ⟨S50000x128, .f32⟩
  | 53 => ⟨S50000x128, .f32⟩
  | 54 => ⟨S_, .f32⟩
  | 55 => ⟨S_, .f32⟩
  | 56 => ⟨S_, .f32⟩
  | 57 => ⟨S_, .f32⟩
  | 58 => ⟨S128, .f32⟩
  | 59 => ⟨S128, .f32⟩
  | 60 => ⟨S128, .f32⟩
  | 61 => ⟨S_, .f32⟩
  | 62 => ⟨S_, .i1⟩
  | 63 => ⟨S_, .f32⟩
  | 64 => ⟨S_, .f32⟩
  | 65 => ⟨S128, .f32⟩
  | 66 => ⟨S128, .f32⟩
  | 67 => ⟨S1x128, .f32⟩
  | 68 => ⟨S50000x128, .f32⟩
  | 69 => ⟨S50000x128, .f32⟩
  | 70 => ⟨S_, .f32⟩
  | 71 => ⟨S128, .f32⟩
  | 72 => ⟨S128, .f32⟩
  | 73 => ⟨S128, .f32⟩
  | 74 => ⟨S1x128, .f32⟩
  | 75 => ⟨S50000x128, .f32⟩
  | 76 => ⟨S50000x128, .f32⟩
  | 77 => ⟨S1x128, .f32⟩
  | 78 => ⟨S50000x128, .f32⟩
  | 79 => ⟨S50000x128, .f32⟩
  | 80 => ⟨S1x128, .f32⟩
  | 81 => ⟨S50000x128, .f32⟩
  | 82 => ⟨S50000x128, .f32⟩
  | 83 => ⟨S_, .f32⟩
  | 84 => ⟨S50000x128, .f32⟩
  | 85 => ⟨S50000x128, .f32⟩
  | 86 => ⟨S1x1, .f32⟩
  | 87 => ⟨S_, .f32⟩
  | 88 => ⟨S50000x128, .f32⟩
  | 89 => ⟨S50000x128, .f32⟩
  | 90 => ⟨S50000x128, .f32⟩
  | 91 => ⟨S1x1x128x128, .f32⟩
  | 92 => ⟨S128x128, .f32⟩
  | 93 => ⟨S128x128, .f32⟩
  | 94 => ⟨S50000x128, .f32⟩
  | 95 => ⟨S1x1x128, .f32⟩
  | 96 => ⟨S128, .f32⟩
  | 97 => ⟨S1x128, .f32⟩
  | 98 => ⟨S50000x128, .f32⟩
  | 99 => ⟨S50000x128, .f32⟩
  | 100 => ⟨S1x1x128, .f32⟩
  | 101 => ⟨S128, .f32⟩
  | 102 => ⟨S1x1x128, .f32⟩
  | 103 => ⟨S128, .f32⟩
  | 104 => ⟨S_, .f32⟩
  | 105 => ⟨S128, .f32⟩
  | 106 => ⟨S_, .f32⟩
  | 107 => ⟨S128, .f32⟩
  | 108 => ⟨S128, .f32⟩
  | 109 => ⟨S_, .i32⟩
  | 110 => ⟨S_, .f32⟩
  | 111 => ⟨S128, .f32⟩
  | 112 => ⟨S1x128, .f32⟩
  | 113 => ⟨S_, .f32⟩
  | 114 => ⟨S1x128, .f32⟩
  | 115 => ⟨S1x128, .f32⟩
  | 116 => ⟨S50000x128, .f32⟩
  | 117 => ⟨S50000x128, .f32⟩
  | 118 => ⟨S50000x128, .f32⟩
  | 119 => ⟨S_, .f32⟩
  | 120 => ⟨S_, .f32⟩
  | 121 => ⟨S_, .f32⟩
  | 122 => ⟨S_, .f32⟩
  | 123 => ⟨S128, .f32⟩
  | 124 => ⟨S128, .f32⟩
  | 125 => ⟨S128, .f32⟩
  | 126 => ⟨S_, .f32⟩
  | 127 => ⟨S_, .i1⟩
  | _ => ⟨S2x800000, .i32⟩

abbrev hbmTy0_10 (i : Nat) : BufTy := match i % 128 with
  | 0 => ⟨S_, .f32⟩
  | 1 => ⟨S_, .f32⟩
  | 2 => ⟨S128, .f32⟩
  | 3 => ⟨S128, .f32⟩
  | 4 => ⟨S1x128, .f32⟩
  | 5 => ⟨S50000x128, .f32⟩
  | 6 => ⟨S50000x128, .f32⟩
  | 7 => ⟨S_, .f32⟩
  | 8 => ⟨S128, .f32⟩
  | 9 => ⟨S128, .f32⟩
  | 10 => ⟨S128, .f32⟩
  | 11 => ⟨S1x128, .f32⟩
  | 12 => ⟨S50000x128, .f32⟩
  | 13 => ⟨S50000x128, .f32⟩
  | 14 => ⟨S1x128, .f32⟩
  | 15 => ⟨S50000x128, .f32⟩
  | 16 => ⟨S50000x128, .f32⟩
  | 17 => ⟨S1x128, .f32⟩
  | 18 => ⟨S50000x128, .f32⟩
  | 19 => ⟨S50000x128, .f32⟩
  | 20 => ⟨S_, .f32⟩
  | 21 => ⟨S50000x128, .f32⟩
  | 22 => ⟨S50000x128, .f32⟩
  | 23 => ⟨S1x1, .f32⟩
  | 24 => ⟨S_, .f32⟩
  | 25 => ⟨S50000x128, .f32⟩
  | 26 => ⟨S50000x128, .f32⟩
  | 27 => ⟨S50000x128, .f32⟩
  | 28 => ⟨S50000x128, .f32⟩
  | 29 => ⟨S1x50000x128, .f32⟩
  | 30 => ⟨S1x50000x128, .f32⟩
  | 31 => ⟨S1x50000x128, .f32⟩
  | 32 => ⟨S3x50000x128, .f32⟩
  | _ => ⟨S2x800000, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | _ => ⟨S2x800000, .i32⟩

abbrev bufTy : (tb : Table) → Fin (tcTables nBuf tb) → BufTy
  | .hbm, ⟨i, _⟩ => hbmTy i
  | _, _ => ⟨S2x800000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_6 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_c_8 : Ref sig .tc := ⟨.hbm, 60, rfl⟩
abbrev main_call0_cst : Ref sig .tc := ⟨.hbm, 61, rfl⟩
abbrev main_call0_v0 : Ref sig .tc := ⟨.hbm, 62, rfl⟩
abbrev main_call0_v1 : Ref sig .tc := ⟨.hbm, 63, rfl⟩
abbrev main_call0_cst_0 : Ref sig .tc := ⟨.hbm, 64, rfl⟩
abbrev main_call0_v2 : Ref sig .tc := ⟨.hbm, 65, rfl⟩
abbrev main_call0_v3 : Ref sig .tc := ⟨.hbm, 66, rfl⟩
abbrev main_call0_v4 : Ref sig .tc := ⟨.hbm, 67, rfl⟩
abbrev main_call0_v5 : Ref sig .tc := ⟨.hbm, 68, rfl⟩
abbrev main_call0_v6 : Ref sig .tc := ⟨.hbm, 69, rfl⟩
abbrev main_call0_v7 : Ref sig .tc := ⟨.hbm, 70, rfl⟩
abbrev main_call0_cst_1 : Ref sig .tc := ⟨.hbm, 71, rfl⟩
abbrev main_call0_v8 : Ref sig .tc := ⟨.hbm, 72, rfl⟩
abbrev main_call0_cst_2 : Ref sig .tc := ⟨.hbm, 73, rfl⟩
abbrev main_call0_v9 : Ref sig .tc := ⟨.hbm, 74, rfl⟩
abbrev main_call0_v10 : Ref sig .tc := ⟨.hbm, 75, rfl⟩
abbrev main_call0_v11 : Ref sig .tc := ⟨.hbm, 76, rfl⟩
abbrev main_call0_cst_3 : Ref sig .tc := ⟨.hbm, 77, rfl⟩
abbrev main_call0_v12 : Ref sig .tc := ⟨.hbm, 78, rfl⟩
abbrev main_call0_cst_4 : Ref sig .tc := ⟨.hbm, 79, rfl⟩
abbrev main_call0_call0_v0 : Ref sig .tc := ⟨.hbm, 80, rfl⟩
abbrev main_call0_call0_v1 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_cst_9 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_call1_cst : Ref sig .tc := ⟨.hbm, 99, rfl⟩
abbrev main_call1_v0 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_cst_10 : Ref sig .tc := ⟨.hbm, 120, rfl⟩
abbrev main_v77 : Ref sig .tc := ⟨.hbm, 121, rfl⟩
abbrev main_cst_11 : Ref sig .tc := ⟨.hbm, 122, rfl⟩
abbrev main_v78 : Ref sig .tc := ⟨.hbm, 123, rfl⟩
abbrev main_v79 : Ref sig .tc := ⟨.hbm, 124, rfl⟩
abbrev main_c_12 : Ref sig .tc := ⟨.hbm, 125, rfl⟩
abbrev main_call2_cst : Ref sig .tc := ⟨.hbm, 126, rfl⟩
abbrev main_call2_v0 : Ref sig .tc := ⟨.hbm, 127, rfl⟩
abbrev main_call2_v1 : Ref sig .tc := ⟨.hbm, 128, rfl⟩
abbrev main_call2_cst_0 : Ref sig .tc := ⟨.hbm, 129, rfl⟩
abbrev main_call2_v2 : Ref sig .tc := ⟨.hbm, 130, rfl⟩
abbrev main_call2_v3 : Ref sig .tc := ⟨.hbm, 131, rfl⟩
abbrev main_call2_v4 : Ref sig .tc := ⟨.hbm, 132, rfl⟩
abbrev main_call2_v5 : Ref sig .tc := ⟨.hbm, 133, rfl⟩
abbrev main_call2_v6 : Ref sig .tc := ⟨.hbm, 134, rfl⟩
abbrev main_call2_v7 : Ref sig .tc := ⟨.hbm, 135, rfl⟩
abbrev main_call2_cst_1 : Ref sig .tc := ⟨.hbm, 136, rfl⟩
abbrev main_call2_v8 : Ref sig .tc := ⟨.hbm, 137, rfl⟩
abbrev main_call2_cst_2 : Ref sig .tc := ⟨.hbm, 138, rfl⟩
abbrev main_call2_v9 : Ref sig .tc := ⟨.hbm, 139, rfl⟩
abbrev main_call2_v10 : Ref sig .tc := ⟨.hbm, 140, rfl⟩
abbrev main_call2_v11 : Ref sig .tc := ⟨.hbm, 141, rfl⟩
abbrev main_call2_cst_3 : Ref sig .tc := ⟨.hbm, 142, rfl⟩
abbrev main_call2_v12 : Ref sig .tc := ⟨.hbm, 143, rfl⟩
abbrev main_call2_cst_4 : Ref sig .tc := ⟨.hbm, 144, rfl⟩
abbrev main_call2_call0_v0 : Ref sig .tc := ⟨.hbm, 145, rfl⟩
abbrev main_call2_call0_v1 : Ref sig .tc := ⟨.hbm, 146, rfl⟩
abbrev main_v80 : Ref sig .tc := ⟨.hbm, 147, rfl⟩
abbrev main_v81 : Ref sig .tc := ⟨.hbm, 148, rfl⟩
abbrev main_v82 : Ref sig .tc := ⟨.hbm, 149, rfl⟩
abbrev main_v83 : Ref sig .tc := ⟨.hbm, 150, rfl⟩
abbrev main_cst_13 : Ref sig .tc := ⟨.hbm, 151, rfl⟩
abbrev main_v84 : Ref sig .tc := ⟨.hbm, 152, rfl⟩
abbrev main_v85 : Ref sig .tc := ⟨.hbm, 153, rfl⟩
abbrev main_v86 : Ref sig .tc := ⟨.hbm, 154, rfl⟩
abbrev main_v87 : Ref sig .tc := ⟨.hbm, 155, rfl⟩
abbrev main_v88 : Ref sig .tc := ⟨.hbm, 156, rfl⟩
abbrev main_v89 : Ref sig .tc := ⟨.hbm, 157, rfl⟩
abbrev main_v90 : Ref sig .tc := ⟨.hbm, 158, rfl⟩
abbrev main_v91 : Ref sig .tc := ⟨.hbm, 159, rfl⟩
abbrev main_v92 : Ref sig .tc := ⟨.hbm, 160, rfl⟩
abbrev main_v93 : Ref sig .tc := ⟨.hbm, 161, rfl⟩
abbrev main_v94 : Ref sig .tc := ⟨.hbm, 162, rfl⟩
abbrev main_v95 : Ref sig .tc := ⟨.hbm, 163, rfl⟩
abbrev main_call3_cst : Ref sig .tc := ⟨.hbm, 164, rfl⟩
abbrev main_call3_v0 : Ref sig .tc := ⟨.hbm, 165, rfl⟩
abbrev main_v96 : Ref sig .tc := ⟨.hbm, 166, rfl⟩
abbrev main_v97 : Ref sig .tc := ⟨.hbm, 167, rfl⟩
abbrev main_v98 : Ref sig .tc := ⟨.hbm, 168, rfl⟩
abbrev main_v99 : Ref sig .tc := ⟨.hbm, 169, rfl⟩
abbrev main_v100 : Ref sig .tc := ⟨.hbm, 170, rfl⟩
abbrev main_v101 : Ref sig .tc := ⟨.hbm, 171, rfl⟩
abbrev main_v102 : Ref sig .tc := ⟨.hbm, 172, rfl⟩
abbrev main_v103 : Ref sig .tc := ⟨.hbm, 173, rfl⟩
abbrev main_v104 : Ref sig .tc := ⟨.hbm, 174, rfl⟩
abbrev main_v105 : Ref sig .tc := ⟨.hbm, 175, rfl⟩
abbrev main_v106 : Ref sig .tc := ⟨.hbm, 176, rfl⟩
abbrev main_v107 : Ref sig .tc := ⟨.hbm, 177, rfl⟩
abbrev main_v108 : Ref sig .tc := ⟨.hbm, 178, rfl⟩
abbrev main_v109 : Ref sig .tc := ⟨.hbm, 179, rfl⟩
abbrev main_v110 : Ref sig .tc := ⟨.hbm, 180, rfl⟩
abbrev main_v111 : Ref sig .tc := ⟨.hbm, 181, rfl⟩
abbrev main_v112 : Ref sig .tc := ⟨.hbm, 182, rfl⟩
abbrev main_v113 : Ref sig .tc := ⟨.hbm, 183, rfl⟩
abbrev main_v114 : Ref sig .tc := ⟨.hbm, 184, rfl⟩
abbrev main_cst_14 : Ref sig .tc := ⟨.hbm, 185, rfl⟩
abbrev main_v115 : Ref sig .tc := ⟨.hbm, 186, rfl⟩
abbrev main_cst_15 : Ref sig .tc := ⟨.hbm, 187, rfl⟩
abbrev main_v116 : Ref sig .tc := ⟨.hbm, 188, rfl⟩
abbrev main_v117 : Ref sig .tc := ⟨.hbm, 189, rfl⟩
abbrev main_c_16 : Ref sig .tc := ⟨.hbm, 190, rfl⟩
abbrev main_call4_cst : Ref sig .tc := ⟨.hbm, 191, rfl⟩
abbrev main_call4_v0 : Ref sig .tc := ⟨.hbm, 192, rfl⟩
abbrev main_call4_v1 : Ref sig .tc := ⟨.hbm, 193, rfl⟩
abbrev main_call4_cst_0 : Ref sig .tc := ⟨.hbm, 194, rfl⟩
abbrev main_call4_v2 : Ref sig .tc := ⟨.hbm, 195, rfl⟩
abbrev main_call4_v3 : Ref sig .tc := ⟨.hbm, 196, rfl⟩
abbrev main_call4_v4 : Ref sig .tc := ⟨.hbm, 197, rfl⟩
abbrev main_call4_v5 : Ref sig .tc := ⟨.hbm, 198, rfl⟩
abbrev main_call4_v6 : Ref sig .tc := ⟨.hbm, 199, rfl⟩
abbrev main_call4_v7 : Ref sig .tc := ⟨.hbm, 200, rfl⟩
abbrev main_call4_cst_1 : Ref sig .tc := ⟨.hbm, 201, rfl⟩
abbrev main_call4_v8 : Ref sig .tc := ⟨.hbm, 202, rfl⟩
abbrev main_call4_cst_2 : Ref sig .tc := ⟨.hbm, 203, rfl⟩
abbrev main_call4_v9 : Ref sig .tc := ⟨.hbm, 204, rfl⟩
abbrev main_call4_v10 : Ref sig .tc := ⟨.hbm, 205, rfl⟩
abbrev main_call4_v11 : Ref sig .tc := ⟨.hbm, 206, rfl⟩
abbrev main_call4_cst_3 : Ref sig .tc := ⟨.hbm, 207, rfl⟩
abbrev main_call4_v12 : Ref sig .tc := ⟨.hbm, 208, rfl⟩
abbrev main_call4_cst_4 : Ref sig .tc := ⟨.hbm, 209, rfl⟩
abbrev main_call4_call0_v0 : Ref sig .tc := ⟨.hbm, 210, rfl⟩
abbrev main_call4_call0_v1 : Ref sig .tc := ⟨.hbm, 211, rfl⟩
abbrev main_v118 : Ref sig .tc := ⟨.hbm, 212, rfl⟩
abbrev main_v119 : Ref sig .tc := ⟨.hbm, 213, rfl⟩
abbrev main_v120 : Ref sig .tc := ⟨.hbm, 214, rfl⟩
abbrev main_v121 : Ref sig .tc := ⟨.hbm, 215, rfl⟩
abbrev main_cst_17 : Ref sig .tc := ⟨.hbm, 216, rfl⟩
abbrev main_v122 : Ref sig .tc := ⟨.hbm, 217, rfl⟩
abbrev main_v123 : Ref sig .tc := ⟨.hbm, 218, rfl⟩
abbrev main_v124 : Ref sig .tc := ⟨.hbm, 219, rfl⟩
abbrev main_v125 : Ref sig .tc := ⟨.hbm, 220, rfl⟩
abbrev main_v126 : Ref sig .tc := ⟨.hbm, 221, rfl⟩
abbrev main_v127 : Ref sig .tc := ⟨.hbm, 222, rfl⟩
abbrev main_v128 : Ref sig .tc := ⟨.hbm, 223, rfl⟩
abbrev main_v129 : Ref sig .tc := ⟨.hbm, 224, rfl⟩
abbrev main_v130 : Ref sig .tc := ⟨.hbm, 225, rfl⟩
abbrev main_v131 : Ref sig .tc := ⟨.hbm, 226, rfl⟩
abbrev main_v132 : Ref sig .tc := ⟨.hbm, 227, rfl⟩
abbrev main_v133 : Ref sig .tc := ⟨.hbm, 228, rfl⟩
abbrev main_call5_cst : Ref sig .tc := ⟨.hbm, 229, rfl⟩
abbrev main_call5_v0 : Ref sig .tc := ⟨.hbm, 230, rfl⟩
abbrev main_v134 : Ref sig .tc := ⟨.hbm, 231, rfl⟩
abbrev main_v135 : Ref sig .tc := ⟨.hbm, 232, rfl⟩
abbrev main_v136 : Ref sig .tc := ⟨.hbm, 233, rfl⟩
abbrev main_v137 : Ref sig .tc := ⟨.hbm, 234, rfl⟩
abbrev main_v138 : Ref sig .tc := ⟨.hbm, 235, rfl⟩
abbrev main_v139 : Ref sig .tc := ⟨.hbm, 236, rfl⟩
abbrev main_cst_18 : Ref sig .tc := ⟨.hbm, 237, rfl⟩
abbrev main_v140 : Ref sig .tc := ⟨.hbm, 238, rfl⟩
abbrev main_v141 : Ref sig .tc := ⟨.hbm, 239, rfl⟩
abbrev main_c_19 : Ref sig .tc := ⟨.hbm, 240, rfl⟩
abbrev main_v142 : Ref sig .tc := ⟨.hbm, 241, rfl⟩
abbrev main_v143 : Ref sig .tc := ⟨.hbm, 242, rfl⟩
abbrev main_c_20 : Ref sig .tc := ⟨.hbm, 243, rfl⟩
abbrev main_v144 : Ref sig .tc := ⟨.hbm, 244, rfl⟩
abbrev main_v145 : Ref sig .tc := ⟨.hbm, 245, rfl⟩
abbrev main_v146 : Ref sig .tc := ⟨.hbm, 246, rfl⟩
abbrev main_v147 : Ref sig .tc := ⟨.hbm, 247, rfl⟩
abbrev main_v148 : Ref sig .tc := ⟨.hbm, 248, rfl⟩
abbrev main_cst_21 : Ref sig .tc := ⟨.hbm, 249, rfl⟩
abbrev main_v149 : Ref sig .tc := ⟨.hbm, 250, rfl⟩
abbrev main_v150 : Ref sig .tc := ⟨.hbm, 251, rfl⟩
abbrev main_v151 : Ref sig .tc := ⟨.hbm, 252, rfl⟩
abbrev main_v152 : Ref sig .tc := ⟨.hbm, 253, rfl⟩
abbrev main_v153 : Ref sig .tc := ⟨.hbm, 254, rfl⟩
abbrev main_cst_22 : Ref sig .tc := ⟨.hbm, 255, rfl⟩
abbrev main_v154 : Ref sig .tc := ⟨.hbm, 256, rfl⟩
abbrev main_v155 : Ref sig .tc := ⟨.hbm, 257, rfl⟩
abbrev main_v156 : Ref sig .tc := ⟨.hbm, 258, rfl⟩
abbrev main_v157 : Ref sig .tc := ⟨.hbm, 259, rfl⟩
abbrev main_v158 : Ref sig .tc := ⟨.hbm, 260, rfl⟩
abbrev main_v159 : Ref sig .tc := ⟨.hbm, 261, rfl⟩
abbrev main_v160 : Ref sig .tc := ⟨.hbm, 262, rfl⟩
abbrev main_v161 : Ref sig .tc := ⟨.hbm, 263, rfl⟩
abbrev main_v162 : Ref sig .tc := ⟨.hbm, 264, rfl⟩
abbrev main_v163 : Ref sig .tc := ⟨.hbm, 265, rfl⟩
abbrev main_v164 : Ref sig .tc := ⟨.hbm, 266, rfl⟩
abbrev main_v165 : Ref sig .tc := ⟨.hbm, 267, rfl⟩
abbrev main_v166 : Ref sig .tc := ⟨.hbm, 268, rfl⟩
abbrev main_v167 : Ref sig .tc := ⟨.hbm, 269, rfl⟩
abbrev main_cst_23 : Ref sig .tc := ⟨.hbm, 270, rfl⟩
abbrev main_v168 : Ref sig .tc := ⟨.hbm, 271, rfl⟩
abbrev main_cst_24 : Ref sig .tc := ⟨.hbm, 272, rfl⟩
abbrev main_v169 : Ref sig .tc := ⟨.hbm, 273, rfl⟩
abbrev main_v170 : Ref sig .tc := ⟨.hbm, 274, rfl⟩
abbrev main_c_25 : Ref sig .tc := ⟨.hbm, 275, rfl⟩
abbrev main_call6_cst : Ref sig .tc := ⟨.hbm, 276, rfl⟩
abbrev main_call6_v0 : Ref sig .tc := ⟨.hbm, 277, rfl⟩
abbrev main_call6_v1 : Ref sig .tc := ⟨.hbm, 278, rfl⟩
abbrev main_call6_cst_0 : Ref sig .tc := ⟨.hbm, 279, rfl⟩
abbrev main_call6_v2 : Ref sig .tc := ⟨.hbm, 280, rfl⟩
abbrev main_call6_v3 : Ref sig .tc := ⟨.hbm, 281, rfl⟩
abbrev main_call6_v4 : Ref sig .tc := ⟨.hbm, 282, rfl⟩
abbrev main_call6_v5 : Ref sig .tc := ⟨.hbm, 283, rfl⟩
abbrev main_call6_v6 : Ref sig .tc := ⟨.hbm, 284, rfl⟩
abbrev main_call6_v7 : Ref sig .tc := ⟨.hbm, 285, rfl⟩
abbrev main_call6_cst_1 : Ref sig .tc := ⟨.hbm, 286, rfl⟩
abbrev main_call6_v8 : Ref sig .tc := ⟨.hbm, 287, rfl⟩
abbrev main_call6_cst_2 : Ref sig .tc := ⟨.hbm, 288, rfl⟩
abbrev main_call6_v9 : Ref sig .tc := ⟨.hbm, 289, rfl⟩
abbrev main_call6_v10 : Ref sig .tc := ⟨.hbm, 290, rfl⟩
abbrev main_call6_v11 : Ref sig .tc := ⟨.hbm, 291, rfl⟩
abbrev main_call6_cst_3 : Ref sig .tc := ⟨.hbm, 292, rfl⟩
abbrev main_call6_v12 : Ref sig .tc := ⟨.hbm, 293, rfl⟩
abbrev main_call6_cst_4 : Ref sig .tc := ⟨.hbm, 294, rfl⟩
abbrev main_call6_call0_v0 : Ref sig .tc := ⟨.hbm, 295, rfl⟩
abbrev main_call6_call0_v1 : Ref sig .tc := ⟨.hbm, 296, rfl⟩
abbrev main_v171 : Ref sig .tc := ⟨.hbm, 297, rfl⟩
abbrev main_v172 : Ref sig .tc := ⟨.hbm, 298, rfl⟩
abbrev main_v173 : Ref sig .tc := ⟨.hbm, 299, rfl⟩
abbrev main_v174 : Ref sig .tc := ⟨.hbm, 300, rfl⟩
abbrev main_cst_26 : Ref sig .tc := ⟨.hbm, 301, rfl⟩
abbrev main_v175 : Ref sig .tc := ⟨.hbm, 302, rfl⟩
abbrev main_v176 : Ref sig .tc := ⟨.hbm, 303, rfl⟩
abbrev main_v177 : Ref sig .tc := ⟨.hbm, 304, rfl⟩
abbrev main_v178 : Ref sig .tc := ⟨.hbm, 305, rfl⟩
abbrev main_v179 : Ref sig .tc := ⟨.hbm, 306, rfl⟩
abbrev main_v180 : Ref sig .tc := ⟨.hbm, 307, rfl⟩
abbrev main_v181 : Ref sig .tc := ⟨.hbm, 308, rfl⟩
abbrev main_v182 : Ref sig .tc := ⟨.hbm, 309, rfl⟩
abbrev main_v183 : Ref sig .tc := ⟨.hbm, 310, rfl⟩
abbrev main_v184 : Ref sig .tc := ⟨.hbm, 311, rfl⟩
abbrev main_v185 : Ref sig .tc := ⟨.hbm, 312, rfl⟩
abbrev main_v186 : Ref sig .tc := ⟨.hbm, 313, rfl⟩
abbrev main_call7_cst : Ref sig .tc := ⟨.hbm, 314, rfl⟩
abbrev main_call7_v0 : Ref sig .tc := ⟨.hbm, 315, rfl⟩
abbrev main_v187 : Ref sig .tc := ⟨.hbm, 316, rfl⟩
abbrev main_v188 : Ref sig .tc := ⟨.hbm, 317, rfl⟩
abbrev main_v189 : Ref sig .tc := ⟨.hbm, 318, rfl⟩
abbrev main_v190 : Ref sig .tc := ⟨.hbm, 319, rfl⟩
abbrev main_v191 : Ref sig .tc := ⟨.hbm, 320, rfl⟩
abbrev main_v192 : Ref sig .tc := ⟨.hbm, 321, rfl⟩
abbrev main_v193 : Ref sig .tc := ⟨.hbm, 322, rfl⟩
abbrev main_v194 : Ref sig .tc := ⟨.hbm, 323, rfl⟩
abbrev main_v195 : Ref sig .tc := ⟨.hbm, 324, rfl⟩
abbrev main_v196 : Ref sig .tc := ⟨.hbm, 325, rfl⟩
abbrev main_v197 : Ref sig .tc := ⟨.hbm, 326, rfl⟩
abbrev main_v198 : Ref sig .tc := ⟨.hbm, 327, rfl⟩
abbrev main_v199 : Ref sig .tc := ⟨.hbm, 328, rfl⟩
abbrev main_v200 : Ref sig .tc := ⟨.hbm, 329, rfl⟩
abbrev main_v201 : Ref sig .tc := ⟨.hbm, 330, rfl⟩
abbrev main_v202 : Ref sig .tc := ⟨.hbm, 331, rfl⟩
abbrev main_v203 : Ref sig .tc := ⟨.hbm, 332, rfl⟩
abbrev main_v204 : Ref sig .tc := ⟨.hbm, 333, rfl⟩
abbrev main_v205 : Ref sig .tc := ⟨.hbm, 334, rfl⟩
abbrev main_cst_27 : Ref sig .tc := ⟨.hbm, 335, rfl⟩
abbrev main_v206 : Ref sig .tc := ⟨.hbm, 336, rfl⟩
abbrev main_cst_28 : Ref sig .tc := ⟨.hbm, 337, rfl⟩
abbrev main_v207 : Ref sig .tc := ⟨.hbm, 338, rfl⟩
abbrev main_v208 : Ref sig .tc := ⟨.hbm, 339, rfl⟩
abbrev main_c_29 : Ref sig .tc := ⟨.hbm, 340, rfl⟩
abbrev main_call8_cst : Ref sig .tc := ⟨.hbm, 341, rfl⟩
abbrev main_call8_v0 : Ref sig .tc := ⟨.hbm, 342, rfl⟩
abbrev main_call8_v1 : Ref sig .tc := ⟨.hbm, 343, rfl⟩
abbrev main_call8_cst_0 : Ref sig .tc := ⟨.hbm, 344, rfl⟩
abbrev main_call8_v2 : Ref sig .tc := ⟨.hbm, 345, rfl⟩
abbrev main_call8_v3 : Ref sig .tc := ⟨.hbm, 346, rfl⟩
abbrev main_call8_v4 : Ref sig .tc := ⟨.hbm, 347, rfl⟩
abbrev main_call8_v5 : Ref sig .tc := ⟨.hbm, 348, rfl⟩
abbrev main_call8_v6 : Ref sig .tc := ⟨.hbm, 349, rfl⟩
abbrev main_call8_v7 : Ref sig .tc := ⟨.hbm, 350, rfl⟩
abbrev main_call8_cst_1 : Ref sig .tc := ⟨.hbm, 351, rfl⟩
abbrev main_call8_v8 : Ref sig .tc := ⟨.hbm, 352, rfl⟩
abbrev main_call8_cst_2 : Ref sig .tc := ⟨.hbm, 353, rfl⟩
abbrev main_call8_v9 : Ref sig .tc := ⟨.hbm, 354, rfl⟩
abbrev main_call8_v10 : Ref sig .tc := ⟨.hbm, 355, rfl⟩
abbrev main_call8_v11 : Ref sig .tc := ⟨.hbm, 356, rfl⟩
abbrev main_call8_cst_3 : Ref sig .tc := ⟨.hbm, 357, rfl⟩
abbrev main_call8_v12 : Ref sig .tc := ⟨.hbm, 358, rfl⟩
abbrev main_call8_cst_4 : Ref sig .tc := ⟨.hbm, 359, rfl⟩
abbrev main_call8_call0_v0 : Ref sig .tc := ⟨.hbm, 360, rfl⟩
abbrev main_call8_call0_v1 : Ref sig .tc := ⟨.hbm, 361, rfl⟩
abbrev main_v209 : Ref sig .tc := ⟨.hbm, 362, rfl⟩
abbrev main_v210 : Ref sig .tc := ⟨.hbm, 363, rfl⟩
abbrev main_v211 : Ref sig .tc := ⟨.hbm, 364, rfl⟩
abbrev main_v212 : Ref sig .tc := ⟨.hbm, 365, rfl⟩
abbrev main_cst_30 : Ref sig .tc := ⟨.hbm, 366, rfl⟩
abbrev main_v213 : Ref sig .tc := ⟨.hbm, 367, rfl⟩
abbrev main_v214 : Ref sig .tc := ⟨.hbm, 368, rfl⟩
abbrev main_v215 : Ref sig .tc := ⟨.hbm, 369, rfl⟩
abbrev main_v216 : Ref sig .tc := ⟨.hbm, 370, rfl⟩
abbrev main_v217 : Ref sig .tc := ⟨.hbm, 371, rfl⟩
abbrev main_v218 : Ref sig .tc := ⟨.hbm, 372, rfl⟩
abbrev main_v219 : Ref sig .tc := ⟨.hbm, 373, rfl⟩
abbrev main_v220 : Ref sig .tc := ⟨.hbm, 374, rfl⟩
abbrev main_v221 : Ref sig .tc := ⟨.hbm, 375, rfl⟩
abbrev main_v222 : Ref sig .tc := ⟨.hbm, 376, rfl⟩
abbrev main_v223 : Ref sig .tc := ⟨.hbm, 377, rfl⟩
abbrev main_v224 : Ref sig .tc := ⟨.hbm, 378, rfl⟩
abbrev main_call9_cst : Ref sig .tc := ⟨.hbm, 379, rfl⟩
abbrev main_call9_v0 : Ref sig .tc := ⟨.hbm, 380, rfl⟩
abbrev main_v225 : Ref sig .tc := ⟨.hbm, 381, rfl⟩
abbrev main_v226 : Ref sig .tc := ⟨.hbm, 382, rfl⟩
abbrev main_v227 : Ref sig .tc := ⟨.hbm, 383, rfl⟩
abbrev main_v228 : Ref sig .tc := ⟨.hbm, 384, rfl⟩
abbrev main_v229 : Ref sig .tc := ⟨.hbm, 385, rfl⟩
abbrev main_v230 : Ref sig .tc := ⟨.hbm, 386, rfl⟩
abbrev main_v231 : Ref sig .tc := ⟨.hbm, 387, rfl⟩
abbrev main_v232 : Ref sig .tc := ⟨.hbm, 388, rfl⟩
abbrev main_v233 : Ref sig .tc := ⟨.hbm, 389, rfl⟩
abbrev main_v234 : Ref sig .tc := ⟨.hbm, 390, rfl⟩
abbrev main_v235 : Ref sig .tc := ⟨.hbm, 391, rfl⟩
abbrev main_v236 : Ref sig .tc := ⟨.hbm, 392, rfl⟩
abbrev main_v237 : Ref sig .tc := ⟨.hbm, 393, rfl⟩
abbrev main_v238 : Ref sig .tc := ⟨.hbm, 394, rfl⟩
abbrev main_v239 : Ref sig .tc := ⟨.hbm, 395, rfl⟩
abbrev main_v240 : Ref sig .tc := ⟨.hbm, 396, rfl⟩
abbrev main_v241 : Ref sig .tc := ⟨.hbm, 397, rfl⟩
abbrev main_v242 : Ref sig .tc := ⟨.hbm, 398, rfl⟩
abbrev main_v243 : Ref sig .tc := ⟨.hbm, 399, rfl⟩
abbrev main_cst_31 : Ref sig .tc := ⟨.hbm, 400, rfl⟩
abbrev main_v244 : Ref sig .tc := ⟨.hbm, 401, rfl⟩
abbrev main_cst_32 : Ref sig .tc := ⟨.hbm, 402, rfl⟩
abbrev main_v245 : Ref sig .tc := ⟨.hbm, 403, rfl⟩
abbrev main_v246 : Ref sig .tc := ⟨.hbm, 404, rfl⟩
abbrev main_c_33 : Ref sig .tc := ⟨.hbm, 405, rfl⟩
abbrev main_call10_cst : Ref sig .tc := ⟨.hbm, 406, rfl⟩
abbrev main_call10_v0 : Ref sig .tc := ⟨.hbm, 407, rfl⟩
abbrev main_call10_v1 : Ref sig .tc := ⟨.hbm, 408, rfl⟩
abbrev main_call10_cst_0 : Ref sig .tc := ⟨.hbm, 409, rfl⟩
abbrev main_call10_v2 : Ref sig .tc := ⟨.hbm, 410, rfl⟩
abbrev main_call10_v3 : Ref sig .tc := ⟨.hbm, 411, rfl⟩
abbrev main_call10_v4 : Ref sig .tc := ⟨.hbm, 412, rfl⟩
abbrev main_call10_v5 : Ref sig .tc := ⟨.hbm, 413, rfl⟩
abbrev main_call10_v6 : Ref sig .tc := ⟨.hbm, 414, rfl⟩
abbrev main_call10_v7 : Ref sig .tc := ⟨.hbm, 415, rfl⟩
abbrev main_call10_cst_1 : Ref sig .tc := ⟨.hbm, 416, rfl⟩
abbrev main_call10_v8 : Ref sig .tc := ⟨.hbm, 417, rfl⟩
abbrev main_call10_cst_2 : Ref sig .tc := ⟨.hbm, 418, rfl⟩
abbrev main_call10_v9 : Ref sig .tc := ⟨.hbm, 419, rfl⟩
abbrev main_call10_v10 : Ref sig .tc := ⟨.hbm, 420, rfl⟩
abbrev main_call10_v11 : Ref sig .tc := ⟨.hbm, 421, rfl⟩
abbrev main_call10_cst_3 : Ref sig .tc := ⟨.hbm, 422, rfl⟩
abbrev main_call10_v12 : Ref sig .tc := ⟨.hbm, 423, rfl⟩
abbrev main_call10_cst_4 : Ref sig .tc := ⟨.hbm, 424, rfl⟩
abbrev main_call10_call0_v0 : Ref sig .tc := ⟨.hbm, 425, rfl⟩
abbrev main_call10_call0_v1 : Ref sig .tc := ⟨.hbm, 426, rfl⟩
abbrev main_v247 : Ref sig .tc := ⟨.hbm, 427, rfl⟩
abbrev main_v248 : Ref sig .tc := ⟨.hbm, 428, rfl⟩
abbrev main_v249 : Ref sig .tc := ⟨.hbm, 429, rfl⟩
abbrev main_v250 : Ref sig .tc := ⟨.hbm, 430, rfl⟩
abbrev main_cst_34 : Ref sig .tc := ⟨.hbm, 431, rfl⟩
abbrev main_v251 : Ref sig .tc := ⟨.hbm, 432, rfl⟩
abbrev main_v252 : Ref sig .tc := ⟨.hbm, 433, rfl⟩
abbrev main_v253 : Ref sig .tc := ⟨.hbm, 434, rfl⟩
abbrev main_v254 : Ref sig .tc := ⟨.hbm, 435, rfl⟩
abbrev main_v255 : Ref sig .tc := ⟨.hbm, 436, rfl⟩
abbrev main_v256 : Ref sig .tc := ⟨.hbm, 437, rfl⟩
abbrev main_v257 : Ref sig .tc := ⟨.hbm, 438, rfl⟩
abbrev main_v258 : Ref sig .tc := ⟨.hbm, 439, rfl⟩
abbrev main_v259 : Ref sig .tc := ⟨.hbm, 440, rfl⟩
abbrev main_v260 : Ref sig .tc := ⟨.hbm, 441, rfl⟩
abbrev main_v261 : Ref sig .tc := ⟨.hbm, 442, rfl⟩
abbrev main_v262 : Ref sig .tc := ⟨.hbm, 443, rfl⟩
abbrev main_call11_cst : Ref sig .tc := ⟨.hbm, 444, rfl⟩
abbrev main_call11_v0 : Ref sig .tc := ⟨.hbm, 445, rfl⟩
abbrev main_v263 : Ref sig .tc := ⟨.hbm, 446, rfl⟩
abbrev main_v264 : Ref sig .tc := ⟨.hbm, 447, rfl⟩
abbrev main_v265 : Ref sig .tc := ⟨.hbm, 448, rfl⟩
abbrev main_v266 : Ref sig .tc := ⟨.hbm, 449, rfl⟩
abbrev main_v267 : Ref sig .tc := ⟨.hbm, 450, rfl⟩
abbrev main_v268 : Ref sig .tc := ⟨.hbm, 451, rfl⟩
abbrev main_cst_35 : Ref sig .tc := ⟨.hbm, 452, rfl⟩
abbrev main_v269 : Ref sig .tc := ⟨.hbm, 453, rfl⟩
abbrev main_v270 : Ref sig .tc := ⟨.hbm, 454, rfl⟩
abbrev main_c_36 : Ref sig .tc := ⟨.hbm, 455, rfl⟩
abbrev main_v271 : Ref sig .tc := ⟨.hbm, 456, rfl⟩
abbrev main_v272 : Ref sig .tc := ⟨.hbm, 457, rfl⟩
abbrev main_c_37 : Ref sig .tc := ⟨.hbm, 458, rfl⟩
abbrev main_v273 : Ref sig .tc := ⟨.hbm, 459, rfl⟩
abbrev main_v274 : Ref sig .tc := ⟨.hbm, 460, rfl⟩
abbrev main_v275 : Ref sig .tc := ⟨.hbm, 461, rfl⟩
abbrev main_v276 : Ref sig .tc := ⟨.hbm, 462, rfl⟩
abbrev main_v277 : Ref sig .tc := ⟨.hbm, 463, rfl⟩
abbrev main_cst_38 : Ref sig .tc := ⟨.hbm, 464, rfl⟩
abbrev main_v278 : Ref sig .tc := ⟨.hbm, 465, rfl⟩
abbrev main_v279 : Ref sig .tc := ⟨.hbm, 466, rfl⟩
abbrev main_v280 : Ref sig .tc := ⟨.hbm, 467, rfl⟩
abbrev main_v281 : Ref sig .tc := ⟨.hbm, 468, rfl⟩
abbrev main_v282 : Ref sig .tc := ⟨.hbm, 469, rfl⟩
abbrev main_cst_39 : Ref sig .tc := ⟨.hbm, 470, rfl⟩
abbrev main_v283 : Ref sig .tc := ⟨.hbm, 471, rfl⟩
abbrev main_v284 : Ref sig .tc := ⟨.hbm, 472, rfl⟩
abbrev main_v285 : Ref sig .tc := ⟨.hbm, 473, rfl⟩
abbrev main_v286 : Ref sig .tc := ⟨.hbm, 474, rfl⟩
abbrev main_v287 : Ref sig .tc := ⟨.hbm, 475, rfl⟩
abbrev main_v288 : Ref sig .tc := ⟨.hbm, 476, rfl⟩
abbrev main_v289 : Ref sig .tc := ⟨.hbm, 477, rfl⟩
abbrev main_v290 : Ref sig .tc := ⟨.hbm, 478, rfl⟩
abbrev main_v291 : Ref sig .tc := ⟨.hbm, 479, rfl⟩
abbrev main_v292 : Ref sig .tc := ⟨.hbm, 480, rfl⟩
abbrev main_v293 : Ref sig .tc := ⟨.hbm, 481, rfl⟩
abbrev main_v294 : Ref sig .tc := ⟨.hbm, 482, rfl⟩
abbrev main_v295 : Ref sig .tc := ⟨.hbm, 483, rfl⟩
abbrev main_v296 : Ref sig .tc := ⟨.hbm, 484, rfl⟩
abbrev main_cst_40 : Ref sig .tc := ⟨.hbm, 485, rfl⟩
abbrev main_v297 : Ref sig .tc := ⟨.hbm, 486, rfl⟩
abbrev main_cst_41 : Ref sig .tc := ⟨.hbm, 487, rfl⟩
abbrev main_v298 : Ref sig .tc := ⟨.hbm, 488, rfl⟩
abbrev main_v299 : Ref sig .tc := ⟨.hbm, 489, rfl⟩
abbrev main_c_42 : Ref sig .tc := ⟨.hbm, 490, rfl⟩
abbrev main_call12_cst : Ref sig .tc := ⟨.hbm, 491, rfl⟩
abbrev main_call12_v0 : Ref sig .tc := ⟨.hbm, 492, rfl⟩
abbrev main_call12_v1 : Ref sig .tc := ⟨.hbm, 493, rfl⟩
abbrev main_call12_cst_0 : Ref sig .tc := ⟨.hbm, 494, rfl⟩
abbrev main_call12_v2 : Ref sig .tc := ⟨.hbm, 495, rfl⟩
abbrev main_call12_v3 : Ref sig .tc := ⟨.hbm, 496, rfl⟩
abbrev main_call12_v4 : Ref sig .tc := ⟨.hbm, 497, rfl⟩
abbrev main_call12_v5 : Ref sig .tc := ⟨.hbm, 498, rfl⟩
abbrev main_call12_v6 : Ref sig .tc := ⟨.hbm, 499, rfl⟩
abbrev main_call12_v7 : Ref sig .tc := ⟨.hbm, 500, rfl⟩
abbrev main_call12_cst_1 : Ref sig .tc := ⟨.hbm, 501, rfl⟩
abbrev main_call12_v8 : Ref sig .tc := ⟨.hbm, 502, rfl⟩
abbrev main_call12_cst_2 : Ref sig .tc := ⟨.hbm, 503, rfl⟩
abbrev main_call12_v9 : Ref sig .tc := ⟨.hbm, 504, rfl⟩
abbrev main_call12_v10 : Ref sig .tc := ⟨.hbm, 505, rfl⟩
abbrev main_call12_v11 : Ref sig .tc := ⟨.hbm, 506, rfl⟩
abbrev main_call12_cst_3 : Ref sig .tc := ⟨.hbm, 507, rfl⟩
abbrev main_call12_v12 : Ref sig .tc := ⟨.hbm, 508, rfl⟩
abbrev main_call12_cst_4 : Ref sig .tc := ⟨.hbm, 509, rfl⟩
abbrev main_call12_call0_v0 : Ref sig .tc := ⟨.hbm, 510, rfl⟩
abbrev main_call12_call0_v1 : Ref sig .tc := ⟨.hbm, 511, rfl⟩
abbrev main_v300 : Ref sig .tc := ⟨.hbm, 512, rfl⟩
abbrev main_v301 : Ref sig .tc := ⟨.hbm, 513, rfl⟩
abbrev main_v302 : Ref sig .tc := ⟨.hbm, 514, rfl⟩
abbrev main_v303 : Ref sig .tc := ⟨.hbm, 515, rfl⟩
abbrev main_cst_43 : Ref sig .tc := ⟨.hbm, 516, rfl⟩
abbrev main_v304 : Ref sig .tc := ⟨.hbm, 517, rfl⟩
abbrev main_v305 : Ref sig .tc := ⟨.hbm, 518, rfl⟩
abbrev main_v306 : Ref sig .tc := ⟨.hbm, 519, rfl⟩
abbrev main_v307 : Ref sig .tc := ⟨.hbm, 520, rfl⟩
abbrev main_v308 : Ref sig .tc := ⟨.hbm, 521, rfl⟩
abbrev main_v309 : Ref sig .tc := ⟨.hbm, 522, rfl⟩
abbrev main_v310 : Ref sig .tc := ⟨.hbm, 523, rfl⟩
abbrev main_v311 : Ref sig .tc := ⟨.hbm, 524, rfl⟩
abbrev main_v312 : Ref sig .tc := ⟨.hbm, 525, rfl⟩
abbrev main_v313 : Ref sig .tc := ⟨.hbm, 526, rfl⟩
abbrev main_v314 : Ref sig .tc := ⟨.hbm, 527, rfl⟩
abbrev main_v315 : Ref sig .tc := ⟨.hbm, 528, rfl⟩
abbrev main_call13_cst : Ref sig .tc := ⟨.hbm, 529, rfl⟩
abbrev main_call13_v0 : Ref sig .tc := ⟨.hbm, 530, rfl⟩
abbrev main_v316 : Ref sig .tc := ⟨.hbm, 531, rfl⟩
abbrev main_v317 : Ref sig .tc := ⟨.hbm, 532, rfl⟩
abbrev main_v318 : Ref sig .tc := ⟨.hbm, 533, rfl⟩
abbrev main_v319 : Ref sig .tc := ⟨.hbm, 534, rfl⟩
abbrev main_v320 : Ref sig .tc := ⟨.hbm, 535, rfl⟩
abbrev main_v321 : Ref sig .tc := ⟨.hbm, 536, rfl⟩
abbrev main_v322 : Ref sig .tc := ⟨.hbm, 537, rfl⟩
abbrev main_v323 : Ref sig .tc := ⟨.hbm, 538, rfl⟩
abbrev main_v324 : Ref sig .tc := ⟨.hbm, 539, rfl⟩
abbrev main_v325 : Ref sig .tc := ⟨.hbm, 540, rfl⟩
abbrev main_v326 : Ref sig .tc := ⟨.hbm, 541, rfl⟩
abbrev main_v327 : Ref sig .tc := ⟨.hbm, 542, rfl⟩
abbrev main_v328 : Ref sig .tc := ⟨.hbm, 543, rfl⟩
abbrev main_v329 : Ref sig .tc := ⟨.hbm, 544, rfl⟩
abbrev main_v330 : Ref sig .tc := ⟨.hbm, 545, rfl⟩
abbrev main_v331 : Ref sig .tc := ⟨.hbm, 546, rfl⟩
abbrev main_v332 : Ref sig .tc := ⟨.hbm, 547, rfl⟩
abbrev main_v333 : Ref sig .tc := ⟨.hbm, 548, rfl⟩
abbrev main_v334 : Ref sig .tc := ⟨.hbm, 549, rfl⟩
abbrev main_cst_44 : Ref sig .tc := ⟨.hbm, 550, rfl⟩
abbrev main_v335 : Ref sig .tc := ⟨.hbm, 551, rfl⟩
abbrev main_cst_45 : Ref sig .tc := ⟨.hbm, 552, rfl⟩
abbrev main_v336 : Ref sig .tc := ⟨.hbm, 553, rfl⟩
abbrev main_v337 : Ref sig .tc := ⟨.hbm, 554, rfl⟩
abbrev main_c_46 : Ref sig .tc := ⟨.hbm, 555, rfl⟩
abbrev main_call14_cst : Ref sig .tc := ⟨.hbm, 556, rfl⟩
abbrev main_call14_v0 : Ref sig .tc := ⟨.hbm, 557, rfl⟩
abbrev main_call14_v1 : Ref sig .tc := ⟨.hbm, 558, rfl⟩
abbrev main_call14_cst_0 : Ref sig .tc := ⟨.hbm, 559, rfl⟩
abbrev main_call14_v2 : Ref sig .tc := ⟨.hbm, 560, rfl⟩
abbrev main_call14_v3 : Ref sig .tc := ⟨.hbm, 561, rfl⟩
abbrev main_call14_v4 : Ref sig .tc := ⟨.hbm, 562, rfl⟩
abbrev main_call14_v5 : Ref sig .tc := ⟨.hbm, 563, rfl⟩
abbrev main_call14_v6 : Ref sig .tc := ⟨.hbm, 564, rfl⟩
abbrev main_call14_v7 : Ref sig .tc := ⟨.hbm, 565, rfl⟩
abbrev main_call14_cst_1 : Ref sig .tc := ⟨.hbm, 566, rfl⟩
abbrev main_call14_v8 : Ref sig .tc := ⟨.hbm, 567, rfl⟩
abbrev main_call14_cst_2 : Ref sig .tc := ⟨.hbm, 568, rfl⟩
abbrev main_call14_v9 : Ref sig .tc := ⟨.hbm, 569, rfl⟩
abbrev main_call14_v10 : Ref sig .tc := ⟨.hbm, 570, rfl⟩
abbrev main_call14_v11 : Ref sig .tc := ⟨.hbm, 571, rfl⟩
abbrev main_call14_cst_3 : Ref sig .tc := ⟨.hbm, 572, rfl⟩
abbrev main_call14_v12 : Ref sig .tc := ⟨.hbm, 573, rfl⟩
abbrev main_call14_cst_4 : Ref sig .tc := ⟨.hbm, 574, rfl⟩
abbrev main_call14_call0_v0 : Ref sig .tc := ⟨.hbm, 575, rfl⟩
abbrev main_call14_call0_v1 : Ref sig .tc := ⟨.hbm, 576, rfl⟩
abbrev main_v338 : Ref sig .tc := ⟨.hbm, 577, rfl⟩
abbrev main_v339 : Ref sig .tc := ⟨.hbm, 578, rfl⟩
abbrev main_v340 : Ref sig .tc := ⟨.hbm, 579, rfl⟩
abbrev main_v341 : Ref sig .tc := ⟨.hbm, 580, rfl⟩
abbrev main_cst_47 : Ref sig .tc := ⟨.hbm, 581, rfl⟩
abbrev main_v342 : Ref sig .tc := ⟨.hbm, 582, rfl⟩
abbrev main_v343 : Ref sig .tc := ⟨.hbm, 583, rfl⟩
abbrev main_v344 : Ref sig .tc := ⟨.hbm, 584, rfl⟩
abbrev main_v345 : Ref sig .tc := ⟨.hbm, 585, rfl⟩
abbrev main_v346 : Ref sig .tc := ⟨.hbm, 586, rfl⟩
abbrev main_v347 : Ref sig .tc := ⟨.hbm, 587, rfl⟩
abbrev main_v348 : Ref sig .tc := ⟨.hbm, 588, rfl⟩
abbrev main_v349 : Ref sig .tc := ⟨.hbm, 589, rfl⟩
abbrev main_v350 : Ref sig .tc := ⟨.hbm, 590, rfl⟩
abbrev main_v351 : Ref sig .tc := ⟨.hbm, 591, rfl⟩
abbrev main_v352 : Ref sig .tc := ⟨.hbm, 592, rfl⟩
abbrev main_v353 : Ref sig .tc := ⟨.hbm, 593, rfl⟩
abbrev main_call15_cst : Ref sig .tc := ⟨.hbm, 594, rfl⟩
abbrev main_call15_v0 : Ref sig .tc := ⟨.hbm, 595, rfl⟩
abbrev main_v354 : Ref sig .tc := ⟨.hbm, 596, rfl⟩
abbrev main_v355 : Ref sig .tc := ⟨.hbm, 597, rfl⟩
abbrev main_v356 : Ref sig .tc := ⟨.hbm, 598, rfl⟩
abbrev main_v357 : Ref sig .tc := ⟨.hbm, 599, rfl⟩
abbrev main_v358 : Ref sig .tc := ⟨.hbm, 600, rfl⟩
abbrev main_v359 : Ref sig .tc := ⟨.hbm, 601, rfl⟩
abbrev main_v360 : Ref sig .tc := ⟨.hbm, 602, rfl⟩
abbrev main_v361 : Ref sig .tc := ⟨.hbm, 603, rfl⟩
abbrev main_v362 : Ref sig .tc := ⟨.hbm, 604, rfl⟩
abbrev main_v363 : Ref sig .tc := ⟨.hbm, 605, rfl⟩
abbrev main_v364 : Ref sig .tc := ⟨.hbm, 606, rfl⟩
abbrev main_v365 : Ref sig .tc := ⟨.hbm, 607, rfl⟩
abbrev main_v366 : Ref sig .tc := ⟨.hbm, 608, rfl⟩
abbrev main_v367 : Ref sig .tc := ⟨.hbm, 609, rfl⟩
abbrev main_v368 : Ref sig .tc := ⟨.hbm, 610, rfl⟩
abbrev main_v369 : Ref sig .tc := ⟨.hbm, 611, rfl⟩
abbrev main_v370 : Ref sig .tc := ⟨.hbm, 612, rfl⟩
abbrev main_v371 : Ref sig .tc := ⟨.hbm, 613, rfl⟩
abbrev main_v372 : Ref sig .tc := ⟨.hbm, 614, rfl⟩
abbrev main_cst_48 : Ref sig .tc := ⟨.hbm, 615, rfl⟩
abbrev main_v373 : Ref sig .tc := ⟨.hbm, 616, rfl⟩
abbrev main_cst_49 : Ref sig .tc := ⟨.hbm, 617, rfl⟩
abbrev main_v374 : Ref sig .tc := ⟨.hbm, 618, rfl⟩
abbrev main_v375 : Ref sig .tc := ⟨.hbm, 619, rfl⟩
abbrev main_c_50 : Ref sig .tc := ⟨.hbm, 620, rfl⟩
abbrev main_call16_cst : Ref sig .tc := ⟨.hbm, 621, rfl⟩
abbrev main_call16_v0 : Ref sig .tc := ⟨.hbm, 622, rfl⟩
abbrev main_call16_v1 : Ref sig .tc := ⟨.hbm, 623, rfl⟩
abbrev main_call16_cst_0 : Ref sig .tc := ⟨.hbm, 624, rfl⟩
abbrev main_call16_v2 : Ref sig .tc := ⟨.hbm, 625, rfl⟩
abbrev main_call16_v3 : Ref sig .tc := ⟨.hbm, 626, rfl⟩
abbrev main_call16_v4 : Ref sig .tc := ⟨.hbm, 627, rfl⟩
abbrev main_call16_v5 : Ref sig .tc := ⟨.hbm, 628, rfl⟩
abbrev main_call16_v6 : Ref sig .tc := ⟨.hbm, 629, rfl⟩
abbrev main_call16_v7 : Ref sig .tc := ⟨.hbm, 630, rfl⟩
abbrev main_call16_cst_1 : Ref sig .tc := ⟨.hbm, 631, rfl⟩
abbrev main_call16_v8 : Ref sig .tc := ⟨.hbm, 632, rfl⟩
abbrev main_call16_cst_2 : Ref sig .tc := ⟨.hbm, 633, rfl⟩
abbrev main_call16_v9 : Ref sig .tc := ⟨.hbm, 634, rfl⟩
abbrev main_call16_v10 : Ref sig .tc := ⟨.hbm, 635, rfl⟩
abbrev main_call16_v11 : Ref sig .tc := ⟨.hbm, 636, rfl⟩
abbrev main_call16_cst_3 : Ref sig .tc := ⟨.hbm, 637, rfl⟩
abbrev main_call16_v12 : Ref sig .tc := ⟨.hbm, 638, rfl⟩
abbrev main_call16_cst_4 : Ref sig .tc := ⟨.hbm, 639, rfl⟩
abbrev main_call16_call0_v0 : Ref sig .tc := ⟨.hbm, 640, rfl⟩
abbrev main_call16_call0_v1 : Ref sig .tc := ⟨.hbm, 641, rfl⟩
abbrev main_v376 : Ref sig .tc := ⟨.hbm, 642, rfl⟩
abbrev main_v377 : Ref sig .tc := ⟨.hbm, 643, rfl⟩
abbrev main_v378 : Ref sig .tc := ⟨.hbm, 644, rfl⟩
abbrev main_v379 : Ref sig .tc := ⟨.hbm, 645, rfl⟩
abbrev main_cst_51 : Ref sig .tc := ⟨.hbm, 646, rfl⟩
abbrev main_v380 : Ref sig .tc := ⟨.hbm, 647, rfl⟩
abbrev main_v381 : Ref sig .tc := ⟨.hbm, 648, rfl⟩
abbrev main_v382 : Ref sig .tc := ⟨.hbm, 649, rfl⟩
abbrev main_v383 : Ref sig .tc := ⟨.hbm, 650, rfl⟩
abbrev main_v384 : Ref sig .tc := ⟨.hbm, 651, rfl⟩
abbrev main_v385 : Ref sig .tc := ⟨.hbm, 652, rfl⟩
abbrev main_v386 : Ref sig .tc := ⟨.hbm, 653, rfl⟩
abbrev main_v387 : Ref sig .tc := ⟨.hbm, 654, rfl⟩
abbrev main_v388 : Ref sig .tc := ⟨.hbm, 655, rfl⟩
abbrev main_v389 : Ref sig .tc := ⟨.hbm, 656, rfl⟩
abbrev main_v390 : Ref sig .tc := ⟨.hbm, 657, rfl⟩
abbrev main_v391 : Ref sig .tc := ⟨.hbm, 658, rfl⟩
abbrev main_call17_cst : Ref sig .tc := ⟨.hbm, 659, rfl⟩
abbrev main_call17_v0 : Ref sig .tc := ⟨.hbm, 660, rfl⟩
abbrev main_v392 : Ref sig .tc := ⟨.hbm, 661, rfl⟩
abbrev main_v393 : Ref sig .tc := ⟨.hbm, 662, rfl⟩
abbrev main_v394 : Ref sig .tc := ⟨.hbm, 663, rfl⟩
abbrev main_v395 : Ref sig .tc := ⟨.hbm, 664, rfl⟩
abbrev main_v396 : Ref sig .tc := ⟨.hbm, 665, rfl⟩
abbrev main_v397 : Ref sig .tc := ⟨.hbm, 666, rfl⟩
abbrev main_v398 : Ref sig .tc := ⟨.hbm, 667, rfl⟩
abbrev main_c_52 : Ref sig .tc := ⟨.hbm, 668, rfl⟩
abbrev main_v399 : Ref sig .tc := ⟨.hbm, 669, rfl⟩
abbrev main_v400 : Ref sig .tc := ⟨.hbm, 670, rfl⟩
abbrev main_c_53 : Ref sig .tc := ⟨.hbm, 671, rfl⟩
abbrev main_v401 : Ref sig .tc := ⟨.hbm, 672, rfl⟩
abbrev main_v402 : Ref sig .tc := ⟨.hbm, 673, rfl⟩
abbrev main_v403 : Ref sig .tc := ⟨.hbm, 674, rfl⟩
abbrev main_v404 : Ref sig .tc := ⟨.hbm, 675, rfl⟩
abbrev main_v405 : Ref sig .tc := ⟨.hbm, 676, rfl⟩
abbrev main_cst_54 : Ref sig .tc := ⟨.hbm, 677, rfl⟩
abbrev main_v406 : Ref sig .tc := ⟨.hbm, 678, rfl⟩
abbrev main_v407 : Ref sig .tc := ⟨.hbm, 679, rfl⟩
abbrev main_v408 : Ref sig .tc := ⟨.hbm, 680, rfl⟩
abbrev main_v409 : Ref sig .tc := ⟨.hbm, 681, rfl⟩
abbrev main_v410 : Ref sig .tc := ⟨.hbm, 682, rfl⟩
abbrev main_cst_55 : Ref sig .tc := ⟨.hbm, 683, rfl⟩
abbrev main_v411 : Ref sig .tc := ⟨.hbm, 684, rfl⟩
abbrev main_v412 : Ref sig .tc := ⟨.hbm, 685, rfl⟩
abbrev main_v413 : Ref sig .tc := ⟨.hbm, 686, rfl⟩
abbrev main_v414 : Ref sig .tc := ⟨.hbm, 687, rfl⟩
abbrev main_v415 : Ref sig .tc := ⟨.hbm, 688, rfl⟩
abbrev main_v416 : Ref sig .tc := ⟨.hbm, 689, rfl⟩
abbrev main_v417 : Ref sig .tc := ⟨.hbm, 690, rfl⟩
abbrev main_v418 : Ref sig .tc := ⟨.hbm, 691, rfl⟩
abbrev main_v419 : Ref sig .tc := ⟨.hbm, 692, rfl⟩
abbrev main_v420 : Ref sig .tc := ⟨.hbm, 693, rfl⟩
abbrev main_v421 : Ref sig .tc := ⟨.hbm, 694, rfl⟩
abbrev main_v422 : Ref sig .tc := ⟨.hbm, 695, rfl⟩
abbrev main_v423 : Ref sig .tc := ⟨.hbm, 696, rfl⟩
abbrev main_v424 : Ref sig .tc := ⟨.hbm, 697, rfl⟩
abbrev main_cst_56 : Ref sig .tc := ⟨.hbm, 698, rfl⟩
abbrev main_v425 : Ref sig .tc := ⟨.hbm, 699, rfl⟩
abbrev main_cst_57 : Ref sig .tc := ⟨.hbm, 700, rfl⟩
abbrev main_v426 : Ref sig .tc := ⟨.hbm, 701, rfl⟩
abbrev main_v427 : Ref sig .tc := ⟨.hbm, 702, rfl⟩
abbrev main_c_58 : Ref sig .tc := ⟨.hbm, 703, rfl⟩
abbrev main_call18_cst : Ref sig .tc := ⟨.hbm, 704, rfl⟩
abbrev main_call18_v0 : Ref sig .tc := ⟨.hbm, 705, rfl⟩
abbrev main_call18_v1 : Ref sig .tc := ⟨.hbm, 706, rfl⟩
abbrev main_call18_cst_0 : Ref sig .tc := ⟨.hbm, 707, rfl⟩
abbrev main_call18_v2 : Ref sig .tc := ⟨.hbm, 708, rfl⟩
abbrev main_call18_v3 : Ref sig .tc := ⟨.hbm, 709, rfl⟩
abbrev main_call18_v4 : Ref sig .tc := ⟨.hbm, 710, rfl⟩
abbrev main_call18_v5 : Ref sig .tc := ⟨.hbm, 711, rfl⟩
abbrev main_call18_v6 : Ref sig .tc := ⟨.hbm, 712, rfl⟩
abbrev main_call18_v7 : Ref sig .tc := ⟨.hbm, 713, rfl⟩
abbrev main_call18_cst_1 : Ref sig .tc := ⟨.hbm, 714, rfl⟩
abbrev main_call18_v8 : Ref sig .tc := ⟨.hbm, 715, rfl⟩
abbrev main_call18_cst_2 : Ref sig .tc := ⟨.hbm, 716, rfl⟩
abbrev main_call18_v9 : Ref sig .tc := ⟨.hbm, 717, rfl⟩
abbrev main_call18_v10 : Ref sig .tc := ⟨.hbm, 718, rfl⟩
abbrev main_call18_v11 : Ref sig .tc := ⟨.hbm, 719, rfl⟩
abbrev main_call18_cst_3 : Ref sig .tc := ⟨.hbm, 720, rfl⟩
abbrev main_call18_v12 : Ref sig .tc := ⟨.hbm, 721, rfl⟩
abbrev main_call18_cst_4 : Ref sig .tc := ⟨.hbm, 722, rfl⟩
abbrev main_call18_call0_v0 : Ref sig .tc := ⟨.hbm, 723, rfl⟩
abbrev main_call18_call0_v1 : Ref sig .tc := ⟨.hbm, 724, rfl⟩
abbrev main_v428 : Ref sig .tc := ⟨.hbm, 725, rfl⟩
abbrev main_v429 : Ref sig .tc := ⟨.hbm, 726, rfl⟩
abbrev main_v430 : Ref sig .tc := ⟨.hbm, 727, rfl⟩
abbrev main_v431 : Ref sig .tc := ⟨.hbm, 728, rfl⟩
abbrev main_cst_59 : Ref sig .tc := ⟨.hbm, 729, rfl⟩
abbrev main_v432 : Ref sig .tc := ⟨.hbm, 730, rfl⟩
abbrev main_v433 : Ref sig .tc := ⟨.hbm, 731, rfl⟩
abbrev main_v434 : Ref sig .tc := ⟨.hbm, 732, rfl⟩
abbrev main_v435 : Ref sig .tc := ⟨.hbm, 733, rfl⟩
abbrev main_v436 : Ref sig .tc := ⟨.hbm, 734, rfl⟩
abbrev main_v437 : Ref sig .tc := ⟨.hbm, 735, rfl⟩
abbrev main_v438 : Ref sig .tc := ⟨.hbm, 736, rfl⟩
abbrev main_v439 : Ref sig .tc := ⟨.hbm, 737, rfl⟩
abbrev main_v440 : Ref sig .tc := ⟨.hbm, 738, rfl⟩
abbrev main_v441 : Ref sig .tc := ⟨.hbm, 739, rfl⟩
abbrev main_v442 : Ref sig .tc := ⟨.hbm, 740, rfl⟩
abbrev main_v443 : Ref sig .tc := ⟨.hbm, 741, rfl⟩
abbrev main_call19_cst : Ref sig .tc := ⟨.hbm, 742, rfl⟩
abbrev main_call19_v0 : Ref sig .tc := ⟨.hbm, 743, rfl⟩
abbrev main_v444 : Ref sig .tc := ⟨.hbm, 744, rfl⟩
abbrev main_v445 : Ref sig .tc := ⟨.hbm, 745, rfl⟩
abbrev main_v446 : Ref sig .tc := ⟨.hbm, 746, rfl⟩
abbrev main_v447 : Ref sig .tc := ⟨.hbm, 747, rfl⟩
abbrev main_v448 : Ref sig .tc := ⟨.hbm, 748, rfl⟩
abbrev main_v449 : Ref sig .tc := ⟨.hbm, 749, rfl⟩
abbrev main_v450 : Ref sig .tc := ⟨.hbm, 750, rfl⟩
abbrev main_v451 : Ref sig .tc := ⟨.hbm, 751, rfl⟩
abbrev main_v452 : Ref sig .tc := ⟨.hbm, 752, rfl⟩
abbrev main_v453 : Ref sig .tc := ⟨.hbm, 753, rfl⟩
abbrev main_v454 : Ref sig .tc := ⟨.hbm, 754, rfl⟩
abbrev main_v455 : Ref sig .tc := ⟨.hbm, 755, rfl⟩
abbrev main_v456 : Ref sig .tc := ⟨.hbm, 756, rfl⟩
abbrev main_v457 : Ref sig .tc := ⟨.hbm, 757, rfl⟩
abbrev main_v458 : Ref sig .tc := ⟨.hbm, 758, rfl⟩
abbrev main_v459 : Ref sig .tc := ⟨.hbm, 759, rfl⟩
abbrev main_v460 : Ref sig .tc := ⟨.hbm, 760, rfl⟩
abbrev main_v461 : Ref sig .tc := ⟨.hbm, 761, rfl⟩
abbrev main_v462 : Ref sig .tc := ⟨.hbm, 762, rfl⟩
abbrev main_cst_60 : Ref sig .tc := ⟨.hbm, 763, rfl⟩
abbrev main_v463 : Ref sig .tc := ⟨.hbm, 764, rfl⟩
abbrev main_cst_61 : Ref sig .tc := ⟨.hbm, 765, rfl⟩
abbrev main_v464 : Ref sig .tc := ⟨.hbm, 766, rfl⟩
abbrev main_v465 : Ref sig .tc := ⟨.hbm, 767, rfl⟩
abbrev main_c_62 : Ref sig .tc := ⟨.hbm, 768, rfl⟩
abbrev main_call20_cst : Ref sig .tc := ⟨.hbm, 769, rfl⟩
abbrev main_call20_v0 : Ref sig .tc := ⟨.hbm, 770, rfl⟩
abbrev main_call20_v1 : Ref sig .tc := ⟨.hbm, 771, rfl⟩
abbrev main_call20_cst_0 : Ref sig .tc := ⟨.hbm, 772, rfl⟩
abbrev main_call20_v2 : Ref sig .tc := ⟨.hbm, 773, rfl⟩
abbrev main_call20_v3 : Ref sig .tc := ⟨.hbm, 774, rfl⟩
abbrev main_call20_v4 : Ref sig .tc := ⟨.hbm, 775, rfl⟩
abbrev main_call20_v5 : Ref sig .tc := ⟨.hbm, 776, rfl⟩
abbrev main_call20_v6 : Ref sig .tc := ⟨.hbm, 777, rfl⟩
abbrev main_call20_v7 : Ref sig .tc := ⟨.hbm, 778, rfl⟩
abbrev main_call20_cst_1 : Ref sig .tc := ⟨.hbm, 779, rfl⟩
abbrev main_call20_v8 : Ref sig .tc := ⟨.hbm, 780, rfl⟩
abbrev main_call20_cst_2 : Ref sig .tc := ⟨.hbm, 781, rfl⟩
abbrev main_call20_v9 : Ref sig .tc := ⟨.hbm, 782, rfl⟩
abbrev main_call20_v10 : Ref sig .tc := ⟨.hbm, 783, rfl⟩
abbrev main_call20_v11 : Ref sig .tc := ⟨.hbm, 784, rfl⟩
abbrev main_call20_cst_3 : Ref sig .tc := ⟨.hbm, 785, rfl⟩
abbrev main_call20_v12 : Ref sig .tc := ⟨.hbm, 786, rfl⟩
abbrev main_call20_cst_4 : Ref sig .tc := ⟨.hbm, 787, rfl⟩
abbrev main_call20_call0_v0 : Ref sig .tc := ⟨.hbm, 788, rfl⟩
abbrev main_call20_call0_v1 : Ref sig .tc := ⟨.hbm, 789, rfl⟩
abbrev main_v466 : Ref sig .tc := ⟨.hbm, 790, rfl⟩
abbrev main_v467 : Ref sig .tc := ⟨.hbm, 791, rfl⟩
abbrev main_v468 : Ref sig .tc := ⟨.hbm, 792, rfl⟩
abbrev main_v469 : Ref sig .tc := ⟨.hbm, 793, rfl⟩
abbrev main_cst_63 : Ref sig .tc := ⟨.hbm, 794, rfl⟩
abbrev main_v470 : Ref sig .tc := ⟨.hbm, 795, rfl⟩
abbrev main_v471 : Ref sig .tc := ⟨.hbm, 796, rfl⟩
abbrev main_v472 : Ref sig .tc := ⟨.hbm, 797, rfl⟩
abbrev main_v473 : Ref sig .tc := ⟨.hbm, 798, rfl⟩
abbrev main_v474 : Ref sig .tc := ⟨.hbm, 799, rfl⟩
abbrev main_v475 : Ref sig .tc := ⟨.hbm, 800, rfl⟩
abbrev main_v476 : Ref sig .tc := ⟨.hbm, 801, rfl⟩
abbrev main_v477 : Ref sig .tc := ⟨.hbm, 802, rfl⟩
abbrev main_v478 : Ref sig .tc := ⟨.hbm, 803, rfl⟩
abbrev main_v479 : Ref sig .tc := ⟨.hbm, 804, rfl⟩
abbrev main_v480 : Ref sig .tc := ⟨.hbm, 805, rfl⟩
abbrev main_v481 : Ref sig .tc := ⟨.hbm, 806, rfl⟩
abbrev main_call21_cst : Ref sig .tc := ⟨.hbm, 807, rfl⟩
abbrev main_call21_v0 : Ref sig .tc := ⟨.hbm, 808, rfl⟩
abbrev main_v482 : Ref sig .tc := ⟨.hbm, 809, rfl⟩
abbrev main_v483 : Ref sig .tc := ⟨.hbm, 810, rfl⟩
abbrev main_v484 : Ref sig .tc := ⟨.hbm, 811, rfl⟩
abbrev main_v485 : Ref sig .tc := ⟨.hbm, 812, rfl⟩
abbrev main_v486 : Ref sig .tc := ⟨.hbm, 813, rfl⟩
abbrev main_v487 : Ref sig .tc := ⟨.hbm, 814, rfl⟩
abbrev main_v488 : Ref sig .tc := ⟨.hbm, 815, rfl⟩
abbrev main_v489 : Ref sig .tc := ⟨.hbm, 816, rfl⟩
abbrev main_v490 : Ref sig .tc := ⟨.hbm, 817, rfl⟩
abbrev main_v491 : Ref sig .tc := ⟨.hbm, 818, rfl⟩
abbrev main_v492 : Ref sig .tc := ⟨.hbm, 819, rfl⟩
abbrev main_v493 : Ref sig .tc := ⟨.hbm, 820, rfl⟩
abbrev main_v494 : Ref sig .tc := ⟨.hbm, 821, rfl⟩
abbrev main_v495 : Ref sig .tc := ⟨.hbm, 822, rfl⟩
abbrev main_v496 : Ref sig .tc := ⟨.hbm, 823, rfl⟩
abbrev main_v497 : Ref sig .tc := ⟨.hbm, 824, rfl⟩
abbrev main_v498 : Ref sig .tc := ⟨.hbm, 825, rfl⟩
abbrev main_v499 : Ref sig .tc := ⟨.hbm, 826, rfl⟩
abbrev main_v500 : Ref sig .tc := ⟨.hbm, 827, rfl⟩
abbrev main_cst_64 : Ref sig .tc := ⟨.hbm, 828, rfl⟩
abbrev main_v501 : Ref sig .tc := ⟨.hbm, 829, rfl⟩
abbrev main_cst_65 : Ref sig .tc := ⟨.hbm, 830, rfl⟩
abbrev main_v502 : Ref sig .tc := ⟨.hbm, 831, rfl⟩
abbrev main_v503 : Ref sig .tc := ⟨.hbm, 832, rfl⟩
abbrev main_c_66 : Ref sig .tc := ⟨.hbm, 833, rfl⟩
abbrev main_call22_cst : Ref sig .tc := ⟨.hbm, 834, rfl⟩
abbrev main_call22_v0 : Ref sig .tc := ⟨.hbm, 835, rfl⟩
abbrev main_call22_v1 : Ref sig .tc := ⟨.hbm, 836, rfl⟩
abbrev main_call22_cst_0 : Ref sig .tc := ⟨.hbm, 837, rfl⟩
abbrev main_call22_v2 : Ref sig .tc := ⟨.hbm, 838, rfl⟩
abbrev main_call22_v3 : Ref sig .tc := ⟨.hbm, 839, rfl⟩
abbrev main_call22_v4 : Ref sig .tc := ⟨.hbm, 840, rfl⟩
abbrev main_call22_v5 : Ref sig .tc := ⟨.hbm, 841, rfl⟩
abbrev main_call22_v6 : Ref sig .tc := ⟨.hbm, 842, rfl⟩
abbrev main_call22_v7 : Ref sig .tc := ⟨.hbm, 843, rfl⟩
abbrev main_call22_cst_1 : Ref sig .tc := ⟨.hbm, 844, rfl⟩
abbrev main_call22_v8 : Ref sig .tc := ⟨.hbm, 845, rfl⟩
abbrev main_call22_cst_2 : Ref sig .tc := ⟨.hbm, 846, rfl⟩
abbrev main_call22_v9 : Ref sig .tc := ⟨.hbm, 847, rfl⟩
abbrev main_call22_v10 : Ref sig .tc := ⟨.hbm, 848, rfl⟩
abbrev main_call22_v11 : Ref sig .tc := ⟨.hbm, 849, rfl⟩
abbrev main_call22_cst_3 : Ref sig .tc := ⟨.hbm, 850, rfl⟩
abbrev main_call22_v12 : Ref sig .tc := ⟨.hbm, 851, rfl⟩
abbrev main_call22_cst_4 : Ref sig .tc := ⟨.hbm, 852, rfl⟩
abbrev main_call22_call0_v0 : Ref sig .tc := ⟨.hbm, 853, rfl⟩
abbrev main_call22_call0_v1 : Ref sig .tc := ⟨.hbm, 854, rfl⟩
abbrev main_v504 : Ref sig .tc := ⟨.hbm, 855, rfl⟩
abbrev main_v505 : Ref sig .tc := ⟨.hbm, 856, rfl⟩
abbrev main_v506 : Ref sig .tc := ⟨.hbm, 857, rfl⟩
abbrev main_v507 : Ref sig .tc := ⟨.hbm, 858, rfl⟩
abbrev main_cst_67 : Ref sig .tc := ⟨.hbm, 859, rfl⟩
abbrev main_v508 : Ref sig .tc := ⟨.hbm, 860, rfl⟩
abbrev main_v509 : Ref sig .tc := ⟨.hbm, 861, rfl⟩
abbrev main_v510 : Ref sig .tc := ⟨.hbm, 862, rfl⟩
abbrev main_v511 : Ref sig .tc := ⟨.hbm, 863, rfl⟩
abbrev main_v512 : Ref sig .tc := ⟨.hbm, 864, rfl⟩
abbrev main_v513 : Ref sig .tc := ⟨.hbm, 865, rfl⟩
abbrev main_v514 : Ref sig .tc := ⟨.hbm, 866, rfl⟩
abbrev main_v515 : Ref sig .tc := ⟨.hbm, 867, rfl⟩
abbrev main_v516 : Ref sig .tc := ⟨.hbm, 868, rfl⟩
abbrev main_v517 : Ref sig .tc := ⟨.hbm, 869, rfl⟩
abbrev main_v518 : Ref sig .tc := ⟨.hbm, 870, rfl⟩
abbrev main_v519 : Ref sig .tc := ⟨.hbm, 871, rfl⟩
abbrev main_call23_cst : Ref sig .tc := ⟨.hbm, 872, rfl⟩
abbrev main_call23_v0 : Ref sig .tc := ⟨.hbm, 873, rfl⟩
abbrev main_v520 : Ref sig .tc := ⟨.hbm, 874, rfl⟩
abbrev main_v521 : Ref sig .tc := ⟨.hbm, 875, rfl⟩
abbrev main_v522 : Ref sig .tc := ⟨.hbm, 876, rfl⟩
abbrev main_v523 : Ref sig .tc := ⟨.hbm, 877, rfl⟩
abbrev main_v524 : Ref sig .tc := ⟨.hbm, 878, rfl⟩
abbrev main_v525 : Ref sig .tc := ⟨.hbm, 879, rfl⟩
abbrev main_cst_68 : Ref sig .tc := ⟨.hbm, 880, rfl⟩
abbrev main_v526 : Ref sig .tc := ⟨.hbm, 881, rfl⟩
abbrev main_v527 : Ref sig .tc := ⟨.hbm, 882, rfl⟩
abbrev main_c_69 : Ref sig .tc := ⟨.hbm, 883, rfl⟩
abbrev main_v528 : Ref sig .tc := ⟨.hbm, 884, rfl⟩
abbrev main_v529 : Ref sig .tc := ⟨.hbm, 885, rfl⟩
abbrev main_c_70 : Ref sig .tc := ⟨.hbm, 886, rfl⟩
abbrev main_v530 : Ref sig .tc := ⟨.hbm, 887, rfl⟩
abbrev main_v531 : Ref sig .tc := ⟨.hbm, 888, rfl⟩
abbrev main_v532 : Ref sig .tc := ⟨.hbm, 889, rfl⟩
abbrev main_v533 : Ref sig .tc := ⟨.hbm, 890, rfl⟩
abbrev main_v534 : Ref sig .tc := ⟨.hbm, 891, rfl⟩
abbrev main_cst_71 : Ref sig .tc := ⟨.hbm, 892, rfl⟩
abbrev main_v535 : Ref sig .tc := ⟨.hbm, 893, rfl⟩
abbrev main_v536 : Ref sig .tc := ⟨.hbm, 894, rfl⟩
abbrev main_v537 : Ref sig .tc := ⟨.hbm, 895, rfl⟩
abbrev main_v538 : Ref sig .tc := ⟨.hbm, 896, rfl⟩
abbrev main_v539 : Ref sig .tc := ⟨.hbm, 897, rfl⟩
abbrev main_cst_72 : Ref sig .tc := ⟨.hbm, 898, rfl⟩
abbrev main_v540 : Ref sig .tc := ⟨.hbm, 899, rfl⟩
abbrev main_v541 : Ref sig .tc := ⟨.hbm, 900, rfl⟩
abbrev main_v542 : Ref sig .tc := ⟨.hbm, 901, rfl⟩
abbrev main_v543 : Ref sig .tc := ⟨.hbm, 902, rfl⟩
abbrev main_v544 : Ref sig .tc := ⟨.hbm, 903, rfl⟩
abbrev main_v545 : Ref sig .tc := ⟨.hbm, 904, rfl⟩
abbrev main_v546 : Ref sig .tc := ⟨.hbm, 905, rfl⟩
abbrev main_v547 : Ref sig .tc := ⟨.hbm, 906, rfl⟩
abbrev main_v548 : Ref sig .tc := ⟨.hbm, 907, rfl⟩
abbrev main_v549 : Ref sig .tc := ⟨.hbm, 908, rfl⟩
abbrev main_v550 : Ref sig .tc := ⟨.hbm, 909, rfl⟩
abbrev main_v551 : Ref sig .tc := ⟨.hbm, 910, rfl⟩
abbrev main_v552 : Ref sig .tc := ⟨.hbm, 911, rfl⟩
abbrev main_v553 : Ref sig .tc := ⟨.hbm, 912, rfl⟩
abbrev main_cst_73 : Ref sig .tc := ⟨.hbm, 913, rfl⟩
abbrev main_v554 : Ref sig .tc := ⟨.hbm, 914, rfl⟩
abbrev main_cst_74 : Ref sig .tc := ⟨.hbm, 915, rfl⟩
abbrev main_v555 : Ref sig .tc := ⟨.hbm, 916, rfl⟩
abbrev main_v556 : Ref sig .tc := ⟨.hbm, 917, rfl⟩
abbrev main_c_75 : Ref sig .tc := ⟨.hbm, 918, rfl⟩
abbrev main_call24_cst : Ref sig .tc := ⟨.hbm, 919, rfl⟩
abbrev main_call24_v0 : Ref sig .tc := ⟨.hbm, 920, rfl⟩
abbrev main_call24_v1 : Ref sig .tc := ⟨.hbm, 921, rfl⟩
abbrev main_call24_cst_0 : Ref sig .tc := ⟨.hbm, 922, rfl⟩
abbrev main_call24_v2 : Ref sig .tc := ⟨.hbm, 923, rfl⟩
abbrev main_call24_v3 : Ref sig .tc := ⟨.hbm, 924, rfl⟩
abbrev main_call24_v4 : Ref sig .tc := ⟨.hbm, 925, rfl⟩
abbrev main_call24_v5 : Ref sig .tc := ⟨.hbm, 926, rfl⟩
abbrev main_call24_v6 : Ref sig .tc := ⟨.hbm, 927, rfl⟩
abbrev main_call24_v7 : Ref sig .tc := ⟨.hbm, 928, rfl⟩
abbrev main_call24_cst_1 : Ref sig .tc := ⟨.hbm, 929, rfl⟩
abbrev main_call24_v8 : Ref sig .tc := ⟨.hbm, 930, rfl⟩
abbrev main_call24_cst_2 : Ref sig .tc := ⟨.hbm, 931, rfl⟩
abbrev main_call24_v9 : Ref sig .tc := ⟨.hbm, 932, rfl⟩
abbrev main_call24_v10 : Ref sig .tc := ⟨.hbm, 933, rfl⟩
abbrev main_call24_v11 : Ref sig .tc := ⟨.hbm, 934, rfl⟩
abbrev main_call24_cst_3 : Ref sig .tc := ⟨.hbm, 935, rfl⟩
abbrev main_call24_v12 : Ref sig .tc := ⟨.hbm, 936, rfl⟩
abbrev main_call24_cst_4 : Ref sig .tc := ⟨.hbm, 937, rfl⟩
abbrev main_call24_call0_v0 : Ref sig .tc := ⟨.hbm, 938, rfl⟩
abbrev main_call24_call0_v1 : Ref sig .tc := ⟨.hbm, 939, rfl⟩
abbrev main_v557 : Ref sig .tc := ⟨.hbm, 940, rfl⟩
abbrev main_v558 : Ref sig .tc := ⟨.hbm, 941, rfl⟩
abbrev main_v559 : Ref sig .tc := ⟨.hbm, 942, rfl⟩
abbrev main_v560 : Ref sig .tc := ⟨.hbm, 943, rfl⟩
abbrev main_cst_76 : Ref sig .tc := ⟨.hbm, 944, rfl⟩
abbrev main_v561 : Ref sig .tc := ⟨.hbm, 945, rfl⟩
abbrev main_v562 : Ref sig .tc := ⟨.hbm, 946, rfl⟩
abbrev main_v563 : Ref sig .tc := ⟨.hbm, 947, rfl⟩
abbrev main_v564 : Ref sig .tc := ⟨.hbm, 948, rfl⟩
abbrev main_v565 : Ref sig .tc := ⟨.hbm, 949, rfl⟩
abbrev main_v566 : Ref sig .tc := ⟨.hbm, 950, rfl⟩
abbrev main_v567 : Ref sig .tc := ⟨.hbm, 951, rfl⟩
abbrev main_v568 : Ref sig .tc := ⟨.hbm, 952, rfl⟩
abbrev main_v569 : Ref sig .tc := ⟨.hbm, 953, rfl⟩
abbrev main_v570 : Ref sig .tc := ⟨.hbm, 954, rfl⟩
abbrev main_v571 : Ref sig .tc := ⟨.hbm, 955, rfl⟩
abbrev main_v572 : Ref sig .tc := ⟨.hbm, 956, rfl⟩
abbrev main_call25_cst : Ref sig .tc := ⟨.hbm, 957, rfl⟩
abbrev main_call25_v0 : Ref sig .tc := ⟨.hbm, 958, rfl⟩
abbrev main_v573 : Ref sig .tc := ⟨.hbm, 959, rfl⟩
abbrev main_v574 : Ref sig .tc := ⟨.hbm, 960, rfl⟩
abbrev main_v575 : Ref sig .tc := ⟨.hbm, 961, rfl⟩
abbrev main_v576 : Ref sig .tc := ⟨.hbm, 962, rfl⟩
abbrev main_v577 : Ref sig .tc := ⟨.hbm, 963, rfl⟩
abbrev main_v578 : Ref sig .tc := ⟨.hbm, 964, rfl⟩
abbrev main_v579 : Ref sig .tc := ⟨.hbm, 965, rfl⟩
abbrev main_v580 : Ref sig .tc := ⟨.hbm, 966, rfl⟩
abbrev main_v581 : Ref sig .tc := ⟨.hbm, 967, rfl⟩
abbrev main_v582 : Ref sig .tc := ⟨.hbm, 968, rfl⟩
abbrev main_v583 : Ref sig .tc := ⟨.hbm, 969, rfl⟩
abbrev main_v584 : Ref sig .tc := ⟨.hbm, 970, rfl⟩
abbrev main_v585 : Ref sig .tc := ⟨.hbm, 971, rfl⟩
abbrev main_v586 : Ref sig .tc := ⟨.hbm, 972, rfl⟩
abbrev main_v587 : Ref sig .tc := ⟨.hbm, 973, rfl⟩
abbrev main_v588 : Ref sig .tc := ⟨.hbm, 974, rfl⟩
abbrev main_v589 : Ref sig .tc := ⟨.hbm, 975, rfl⟩
abbrev main_v590 : Ref sig .tc := ⟨.hbm, 976, rfl⟩
abbrev main_v591 : Ref sig .tc := ⟨.hbm, 977, rfl⟩
abbrev main_cst_77 : Ref sig .tc := ⟨.hbm, 978, rfl⟩
abbrev main_v592 : Ref sig .tc := ⟨.hbm, 979, rfl⟩
abbrev main_cst_78 : Ref sig .tc := ⟨.hbm, 980, rfl⟩
abbrev main_v593 : Ref sig .tc := ⟨.hbm, 981, rfl⟩
abbrev main_v594 : Ref sig .tc := ⟨.hbm, 982, rfl⟩
abbrev main_c_79 : Ref sig .tc := ⟨.hbm, 983, rfl⟩
abbrev main_call26_cst : Ref sig .tc := ⟨.hbm, 984, rfl⟩
abbrev main_call26_v0 : Ref sig .tc := ⟨.hbm, 985, rfl⟩
abbrev main_call26_v1 : Ref sig .tc := ⟨.hbm, 986, rfl⟩
abbrev main_call26_cst_0 : Ref sig .tc := ⟨.hbm, 987, rfl⟩
abbrev main_call26_v2 : Ref sig .tc := ⟨.hbm, 988, rfl⟩
abbrev main_call26_v3 : Ref sig .tc := ⟨.hbm, 989, rfl⟩
abbrev main_call26_v4 : Ref sig .tc := ⟨.hbm, 990, rfl⟩
abbrev main_call26_v5 : Ref sig .tc := ⟨.hbm, 991, rfl⟩
abbrev main_call26_v6 : Ref sig .tc := ⟨.hbm, 992, rfl⟩
abbrev main_call26_v7 : Ref sig .tc := ⟨.hbm, 993, rfl⟩
abbrev main_call26_cst_1 : Ref sig .tc := ⟨.hbm, 994, rfl⟩
abbrev main_call26_v8 : Ref sig .tc := ⟨.hbm, 995, rfl⟩
abbrev main_call26_cst_2 : Ref sig .tc := ⟨.hbm, 996, rfl⟩
abbrev main_call26_v9 : Ref sig .tc := ⟨.hbm, 997, rfl⟩
abbrev main_call26_v10 : Ref sig .tc := ⟨.hbm, 998, rfl⟩
abbrev main_call26_v11 : Ref sig .tc := ⟨.hbm, 999, rfl⟩
abbrev main_call26_cst_3 : Ref sig .tc := ⟨.hbm, 1000, rfl⟩
abbrev main_call26_v12 : Ref sig .tc := ⟨.hbm, 1001, rfl⟩
abbrev main_call26_cst_4 : Ref sig .tc := ⟨.hbm, 1002, rfl⟩
abbrev main_call26_call0_v0 : Ref sig .tc := ⟨.hbm, 1003, rfl⟩
abbrev main_call26_call0_v1 : Ref sig .tc := ⟨.hbm, 1004, rfl⟩
abbrev main_v595 : Ref sig .tc := ⟨.hbm, 1005, rfl⟩
abbrev main_v596 : Ref sig .tc := ⟨.hbm, 1006, rfl⟩
abbrev main_v597 : Ref sig .tc := ⟨.hbm, 1007, rfl⟩
abbrev main_v598 : Ref sig .tc := ⟨.hbm, 1008, rfl⟩
abbrev main_cst_80 : Ref sig .tc := ⟨.hbm, 1009, rfl⟩
abbrev main_v599 : Ref sig .tc := ⟨.hbm, 1010, rfl⟩
abbrev main_v600 : Ref sig .tc := ⟨.hbm, 1011, rfl⟩
abbrev main_v601 : Ref sig .tc := ⟨.hbm, 1012, rfl⟩
abbrev main_v602 : Ref sig .tc := ⟨.hbm, 1013, rfl⟩
abbrev main_v603 : Ref sig .tc := ⟨.hbm, 1014, rfl⟩
abbrev main_v604 : Ref sig .tc := ⟨.hbm, 1015, rfl⟩
abbrev main_v605 : Ref sig .tc := ⟨.hbm, 1016, rfl⟩
abbrev main_v606 : Ref sig .tc := ⟨.hbm, 1017, rfl⟩
abbrev main_v607 : Ref sig .tc := ⟨.hbm, 1018, rfl⟩
abbrev main_v608 : Ref sig .tc := ⟨.hbm, 1019, rfl⟩
abbrev main_v609 : Ref sig .tc := ⟨.hbm, 1020, rfl⟩
abbrev main_v610 : Ref sig .tc := ⟨.hbm, 1021, rfl⟩
abbrev main_call27_cst : Ref sig .tc := ⟨.hbm, 1022, rfl⟩
abbrev main_call27_v0 : Ref sig .tc := ⟨.hbm, 1023, rfl⟩
abbrev main_v611 : Ref sig .tc := ⟨.hbm, 1024, rfl⟩
abbrev main_v612 : Ref sig .tc := ⟨.hbm, 1025, rfl⟩
abbrev main_v613 : Ref sig .tc := ⟨.hbm, 1026, rfl⟩
abbrev main_v614 : Ref sig .tc := ⟨.hbm, 1027, rfl⟩
abbrev main_v615 : Ref sig .tc := ⟨.hbm, 1028, rfl⟩
abbrev main_v616 : Ref sig .tc := ⟨.hbm, 1029, rfl⟩
abbrev main_v617 : Ref sig .tc := ⟨.hbm, 1030, rfl⟩
abbrev main_v618 : Ref sig .tc := ⟨.hbm, 1031, rfl⟩
abbrev main_v619 : Ref sig .tc := ⟨.hbm, 1032, rfl⟩
abbrev main_v620 : Ref sig .tc := ⟨.hbm, 1033, rfl⟩
abbrev main_v621 : Ref sig .tc := ⟨.hbm, 1034, rfl⟩
abbrev main_v622 : Ref sig .tc := ⟨.hbm, 1035, rfl⟩
abbrev main_v623 : Ref sig .tc := ⟨.hbm, 1036, rfl⟩
abbrev main_v624 : Ref sig .tc := ⟨.hbm, 1037, rfl⟩
abbrev main_v625 : Ref sig .tc := ⟨.hbm, 1038, rfl⟩
abbrev main_v626 : Ref sig .tc := ⟨.hbm, 1039, rfl⟩
abbrev main_v627 : Ref sig .tc := ⟨.hbm, 1040, rfl⟩
abbrev main_v628 : Ref sig .tc := ⟨.hbm, 1041, rfl⟩
abbrev main_v629 : Ref sig .tc := ⟨.hbm, 1042, rfl⟩
abbrev main_cst_81 : Ref sig .tc := ⟨.hbm, 1043, rfl⟩
abbrev main_v630 : Ref sig .tc := ⟨.hbm, 1044, rfl⟩
abbrev main_cst_82 : Ref sig .tc := ⟨.hbm, 1045, rfl⟩
abbrev main_v631 : Ref sig .tc := ⟨.hbm, 1046, rfl⟩
abbrev main_v632 : Ref sig .tc := ⟨.hbm, 1047, rfl⟩
abbrev main_c_83 : Ref sig .tc := ⟨.hbm, 1048, rfl⟩
abbrev main_call28_cst : Ref sig .tc := ⟨.hbm, 1049, rfl⟩
abbrev main_call28_v0 : Ref sig .tc := ⟨.hbm, 1050, rfl⟩
abbrev main_call28_v1 : Ref sig .tc := ⟨.hbm, 1051, rfl⟩
abbrev main_call28_cst_0 : Ref sig .tc := ⟨.hbm, 1052, rfl⟩
abbrev main_call28_v2 : Ref sig .tc := ⟨.hbm, 1053, rfl⟩
abbrev main_call28_v3 : Ref sig .tc := ⟨.hbm, 1054, rfl⟩
abbrev main_call28_v4 : Ref sig .tc := ⟨.hbm, 1055, rfl⟩
abbrev main_call28_v5 : Ref sig .tc := ⟨.hbm, 1056, rfl⟩
abbrev main_call28_v6 : Ref sig .tc := ⟨.hbm, 1057, rfl⟩
abbrev main_call28_v7 : Ref sig .tc := ⟨.hbm, 1058, rfl⟩
abbrev main_call28_cst_1 : Ref sig .tc := ⟨.hbm, 1059, rfl⟩
abbrev main_call28_v8 : Ref sig .tc := ⟨.hbm, 1060, rfl⟩
abbrev main_call28_cst_2 : Ref sig .tc := ⟨.hbm, 1061, rfl⟩
abbrev main_call28_v9 : Ref sig .tc := ⟨.hbm, 1062, rfl⟩
abbrev main_call28_v10 : Ref sig .tc := ⟨.hbm, 1063, rfl⟩
abbrev main_call28_v11 : Ref sig .tc := ⟨.hbm, 1064, rfl⟩
abbrev main_call28_cst_3 : Ref sig .tc := ⟨.hbm, 1065, rfl⟩
abbrev main_call28_v12 : Ref sig .tc := ⟨.hbm, 1066, rfl⟩
abbrev main_call28_cst_4 : Ref sig .tc := ⟨.hbm, 1067, rfl⟩
abbrev main_call28_call0_v0 : Ref sig .tc := ⟨.hbm, 1068, rfl⟩
abbrev main_call28_call0_v1 : Ref sig .tc := ⟨.hbm, 1069, rfl⟩
abbrev main_v633 : Ref sig .tc := ⟨.hbm, 1070, rfl⟩
abbrev main_v634 : Ref sig .tc := ⟨.hbm, 1071, rfl⟩
abbrev main_v635 : Ref sig .tc := ⟨.hbm, 1072, rfl⟩
abbrev main_v636 : Ref sig .tc := ⟨.hbm, 1073, rfl⟩
abbrev main_cst_84 : Ref sig .tc := ⟨.hbm, 1074, rfl⟩
abbrev main_v637 : Ref sig .tc := ⟨.hbm, 1075, rfl⟩
abbrev main_v638 : Ref sig .tc := ⟨.hbm, 1076, rfl⟩
abbrev main_v639 : Ref sig .tc := ⟨.hbm, 1077, rfl⟩
abbrev main_v640 : Ref sig .tc := ⟨.hbm, 1078, rfl⟩
abbrev main_v641 : Ref sig .tc := ⟨.hbm, 1079, rfl⟩
abbrev main_v642 : Ref sig .tc := ⟨.hbm, 1080, rfl⟩
abbrev main_v643 : Ref sig .tc := ⟨.hbm, 1081, rfl⟩
abbrev main_v644 : Ref sig .tc := ⟨.hbm, 1082, rfl⟩
abbrev main_v645 : Ref sig .tc := ⟨.hbm, 1083, rfl⟩
abbrev main_v646 : Ref sig .tc := ⟨.hbm, 1084, rfl⟩
abbrev main_v647 : Ref sig .tc := ⟨.hbm, 1085, rfl⟩
abbrev main_v648 : Ref sig .tc := ⟨.hbm, 1086, rfl⟩
abbrev main_call29_cst : Ref sig .tc := ⟨.hbm, 1087, rfl⟩
abbrev main_call29_v0 : Ref sig .tc := ⟨.hbm, 1088, rfl⟩
abbrev main_v649 : Ref sig .tc := ⟨.hbm, 1089, rfl⟩
abbrev main_v650 : Ref sig .tc := ⟨.hbm, 1090, rfl⟩
abbrev main_v651 : Ref sig .tc := ⟨.hbm, 1091, rfl⟩
abbrev main_v652 : Ref sig .tc := ⟨.hbm, 1092, rfl⟩
abbrev main_v653 : Ref sig .tc := ⟨.hbm, 1093, rfl⟩
abbrev main_v654 : Ref sig .tc := ⟨.hbm, 1094, rfl⟩
abbrev main_v655 : Ref sig .tc := ⟨.hbm, 1095, rfl⟩
abbrev main_c_85 : Ref sig .tc := ⟨.hbm, 1096, rfl⟩
abbrev main_v656 : Ref sig .tc := ⟨.hbm, 1097, rfl⟩
abbrev main_v657 : Ref sig .tc := ⟨.hbm, 1098, rfl⟩
abbrev main_c_86 : Ref sig .tc := ⟨.hbm, 1099, rfl⟩
abbrev main_v658 : Ref sig .tc := ⟨.hbm, 1100, rfl⟩
abbrev main_v659 : Ref sig .tc := ⟨.hbm, 1101, rfl⟩
abbrev main_v660 : Ref sig .tc := ⟨.hbm, 1102, rfl⟩
abbrev main_v661 : Ref sig .tc := ⟨.hbm, 1103, rfl⟩
abbrev main_v662 : Ref sig .tc := ⟨.hbm, 1104, rfl⟩
abbrev main_cst_87 : Ref sig .tc := ⟨.hbm, 1105, rfl⟩
abbrev main_v663 : Ref sig .tc := ⟨.hbm, 1106, rfl⟩
abbrev main_v664 : Ref sig .tc := ⟨.hbm, 1107, rfl⟩
abbrev main_v665 : Ref sig .tc := ⟨.hbm, 1108, rfl⟩
abbrev main_v666 : Ref sig .tc := ⟨.hbm, 1109, rfl⟩
abbrev main_v667 : Ref sig .tc := ⟨.hbm, 1110, rfl⟩
abbrev main_cst_88 : Ref sig .tc := ⟨.hbm, 1111, rfl⟩
abbrev main_v668 : Ref sig .tc := ⟨.hbm, 1112, rfl⟩
abbrev main_v669 : Ref sig .tc := ⟨.hbm, 1113, rfl⟩
abbrev main_v670 : Ref sig .tc := ⟨.hbm, 1114, rfl⟩
abbrev main_v671 : Ref sig .tc := ⟨.hbm, 1115, rfl⟩
abbrev main_v672 : Ref sig .tc := ⟨.hbm, 1116, rfl⟩
abbrev main_v673 : Ref sig .tc := ⟨.hbm, 1117, rfl⟩
abbrev main_v674 : Ref sig .tc := ⟨.hbm, 1118, rfl⟩
abbrev main_v675 : Ref sig .tc := ⟨.hbm, 1119, rfl⟩
abbrev main_v676 : Ref sig .tc := ⟨.hbm, 1120, rfl⟩
abbrev main_v677 : Ref sig .tc := ⟨.hbm, 1121, rfl⟩
abbrev main_v678 : Ref sig .tc := ⟨.hbm, 1122, rfl⟩
abbrev main_v679 : Ref sig .tc := ⟨.hbm, 1123, rfl⟩
abbrev main_v680 : Ref sig .tc := ⟨.hbm, 1124, rfl⟩
abbrev main_v681 : Ref sig .tc := ⟨.hbm, 1125, rfl⟩
abbrev main_cst_89 : Ref sig .tc := ⟨.hbm, 1126, rfl⟩
abbrev main_v682 : Ref sig .tc := ⟨.hbm, 1127, rfl⟩
abbrev main_cst_90 : Ref sig .tc := ⟨.hbm, 1128, rfl⟩
abbrev main_v683 : Ref sig .tc := ⟨.hbm, 1129, rfl⟩
abbrev main_v684 : Ref sig .tc := ⟨.hbm, 1130, rfl⟩
abbrev main_c_91 : Ref sig .tc := ⟨.hbm, 1131, rfl⟩
abbrev main_call30_cst : Ref sig .tc := ⟨.hbm, 1132, rfl⟩
abbrev main_call30_v0 : Ref sig .tc := ⟨.hbm, 1133, rfl⟩
abbrev main_call30_v1 : Ref sig .tc := ⟨.hbm, 1134, rfl⟩
abbrev main_call30_cst_0 : Ref sig .tc := ⟨.hbm, 1135, rfl⟩
abbrev main_call30_v2 : Ref sig .tc := ⟨.hbm, 1136, rfl⟩
abbrev main_call30_v3 : Ref sig .tc := ⟨.hbm, 1137, rfl⟩
abbrev main_call30_v4 : Ref sig .tc := ⟨.hbm, 1138, rfl⟩
abbrev main_call30_v5 : Ref sig .tc := ⟨.hbm, 1139, rfl⟩
abbrev main_call30_v6 : Ref sig .tc := ⟨.hbm, 1140, rfl⟩
abbrev main_call30_v7 : Ref sig .tc := ⟨.hbm, 1141, rfl⟩
abbrev main_call30_cst_1 : Ref sig .tc := ⟨.hbm, 1142, rfl⟩
abbrev main_call30_v8 : Ref sig .tc := ⟨.hbm, 1143, rfl⟩
abbrev main_call30_cst_2 : Ref sig .tc := ⟨.hbm, 1144, rfl⟩
abbrev main_call30_v9 : Ref sig .tc := ⟨.hbm, 1145, rfl⟩
abbrev main_call30_v10 : Ref sig .tc := ⟨.hbm, 1146, rfl⟩
abbrev main_call30_v11 : Ref sig .tc := ⟨.hbm, 1147, rfl⟩
abbrev main_call30_cst_3 : Ref sig .tc := ⟨.hbm, 1148, rfl⟩
abbrev main_call30_v12 : Ref sig .tc := ⟨.hbm, 1149, rfl⟩
abbrev main_call30_cst_4 : Ref sig .tc := ⟨.hbm, 1150, rfl⟩
abbrev main_call30_call0_v0 : Ref sig .tc := ⟨.hbm, 1151, rfl⟩
abbrev main_call30_call0_v1 : Ref sig .tc := ⟨.hbm, 1152, rfl⟩
abbrev main_v685 : Ref sig .tc := ⟨.hbm, 1153, rfl⟩
abbrev main_v686 : Ref sig .tc := ⟨.hbm, 1154, rfl⟩
abbrev main_v687 : Ref sig .tc := ⟨.hbm, 1155, rfl⟩
abbrev main_v688 : Ref sig .tc := ⟨.hbm, 1156, rfl⟩
abbrev main_cst_92 : Ref sig .tc := ⟨.hbm, 1157, rfl⟩
abbrev main_v689 : Ref sig .tc := ⟨.hbm, 1158, rfl⟩
abbrev main_v690 : Ref sig .tc := ⟨.hbm, 1159, rfl⟩
abbrev main_v691 : Ref sig .tc := ⟨.hbm, 1160, rfl⟩
abbrev main_v692 : Ref sig .tc := ⟨.hbm, 1161, rfl⟩
abbrev main_v693 : Ref sig .tc := ⟨.hbm, 1162, rfl⟩
abbrev main_v694 : Ref sig .tc := ⟨.hbm, 1163, rfl⟩
abbrev main_v695 : Ref sig .tc := ⟨.hbm, 1164, rfl⟩
abbrev main_v696 : Ref sig .tc := ⟨.hbm, 1165, rfl⟩
abbrev main_v697 : Ref sig .tc := ⟨.hbm, 1166, rfl⟩
abbrev main_v698 : Ref sig .tc := ⟨.hbm, 1167, rfl⟩
abbrev main_v699 : Ref sig .tc := ⟨.hbm, 1168, rfl⟩
abbrev main_v700 : Ref sig .tc := ⟨.hbm, 1169, rfl⟩
abbrev main_call31_cst : Ref sig .tc := ⟨.hbm, 1170, rfl⟩
abbrev main_call31_v0 : Ref sig .tc := ⟨.hbm, 1171, rfl⟩
abbrev main_v701 : Ref sig .tc := ⟨.hbm, 1172, rfl⟩
abbrev main_v702 : Ref sig .tc := ⟨.hbm, 1173, rfl⟩
abbrev main_v703 : Ref sig .tc := ⟨.hbm, 1174, rfl⟩
abbrev main_v704 : Ref sig .tc := ⟨.hbm, 1175, rfl⟩
abbrev main_v705 : Ref sig .tc := ⟨.hbm, 1176, rfl⟩
abbrev main_v706 : Ref sig .tc := ⟨.hbm, 1177, rfl⟩
abbrev main_v707 : Ref sig .tc := ⟨.hbm, 1178, rfl⟩
abbrev main_v708 : Ref sig .tc := ⟨.hbm, 1179, rfl⟩
abbrev main_v709 : Ref sig .tc := ⟨.hbm, 1180, rfl⟩
abbrev main_v710 : Ref sig .tc := ⟨.hbm, 1181, rfl⟩
abbrev main_v711 : Ref sig .tc := ⟨.hbm, 1182, rfl⟩
abbrev main_v712 : Ref sig .tc := ⟨.hbm, 1183, rfl⟩
abbrev main_v713 : Ref sig .tc := ⟨.hbm, 1184, rfl⟩
abbrev main_v714 : Ref sig .tc := ⟨.hbm, 1185, rfl⟩
abbrev main_v715 : Ref sig .tc := ⟨.hbm, 1186, rfl⟩
abbrev main_v716 : Ref sig .tc := ⟨.hbm, 1187, rfl⟩
abbrev main_v717 : Ref sig .tc := ⟨.hbm, 1188, rfl⟩
abbrev main_v718 : Ref sig .tc := ⟨.hbm, 1189, rfl⟩
abbrev main_v719 : Ref sig .tc := ⟨.hbm, 1190, rfl⟩
abbrev main_cst_93 : Ref sig .tc := ⟨.hbm, 1191, rfl⟩
abbrev main_v720 : Ref sig .tc := ⟨.hbm, 1192, rfl⟩
abbrev main_cst_94 : Ref sig .tc := ⟨.hbm, 1193, rfl⟩
abbrev main_v721 : Ref sig .tc := ⟨.hbm, 1194, rfl⟩
abbrev main_v722 : Ref sig .tc := ⟨.hbm, 1195, rfl⟩
abbrev main_c_95 : Ref sig .tc := ⟨.hbm, 1196, rfl⟩
abbrev main_call32_cst : Ref sig .tc := ⟨.hbm, 1197, rfl⟩
abbrev main_call32_v0 : Ref sig .tc := ⟨.hbm, 1198, rfl⟩
abbrev main_call32_v1 : Ref sig .tc := ⟨.hbm, 1199, rfl⟩
abbrev main_call32_cst_0 : Ref sig .tc := ⟨.hbm, 1200, rfl⟩
abbrev main_call32_v2 : Ref sig .tc := ⟨.hbm, 1201, rfl⟩
abbrev main_call32_v3 : Ref sig .tc := ⟨.hbm, 1202, rfl⟩
abbrev main_call32_v4 : Ref sig .tc := ⟨.hbm, 1203, rfl⟩
abbrev main_call32_v5 : Ref sig .tc := ⟨.hbm, 1204, rfl⟩
abbrev main_call32_v6 : Ref sig .tc := ⟨.hbm, 1205, rfl⟩
abbrev main_call32_v7 : Ref sig .tc := ⟨.hbm, 1206, rfl⟩
abbrev main_call32_cst_1 : Ref sig .tc := ⟨.hbm, 1207, rfl⟩
abbrev main_call32_v8 : Ref sig .tc := ⟨.hbm, 1208, rfl⟩
abbrev main_call32_cst_2 : Ref sig .tc := ⟨.hbm, 1209, rfl⟩
abbrev main_call32_v9 : Ref sig .tc := ⟨.hbm, 1210, rfl⟩
abbrev main_call32_v10 : Ref sig .tc := ⟨.hbm, 1211, rfl⟩
abbrev main_call32_v11 : Ref sig .tc := ⟨.hbm, 1212, rfl⟩
abbrev main_call32_cst_3 : Ref sig .tc := ⟨.hbm, 1213, rfl⟩
abbrev main_call32_v12 : Ref sig .tc := ⟨.hbm, 1214, rfl⟩
abbrev main_call32_cst_4 : Ref sig .tc := ⟨.hbm, 1215, rfl⟩
abbrev main_call32_call0_v0 : Ref sig .tc := ⟨.hbm, 1216, rfl⟩
abbrev main_call32_call0_v1 : Ref sig .tc := ⟨.hbm, 1217, rfl⟩
abbrev main_v723 : Ref sig .tc := ⟨.hbm, 1218, rfl⟩
abbrev main_v724 : Ref sig .tc := ⟨.hbm, 1219, rfl⟩
abbrev main_v725 : Ref sig .tc := ⟨.hbm, 1220, rfl⟩
abbrev main_v726 : Ref sig .tc := ⟨.hbm, 1221, rfl⟩
abbrev main_cst_96 : Ref sig .tc := ⟨.hbm, 1222, rfl⟩
abbrev main_v727 : Ref sig .tc := ⟨.hbm, 1223, rfl⟩
abbrev main_v728 : Ref sig .tc := ⟨.hbm, 1224, rfl⟩
abbrev main_v729 : Ref sig .tc := ⟨.hbm, 1225, rfl⟩
abbrev main_v730 : Ref sig .tc := ⟨.hbm, 1226, rfl⟩
abbrev main_v731 : Ref sig .tc := ⟨.hbm, 1227, rfl⟩
abbrev main_v732 : Ref sig .tc := ⟨.hbm, 1228, rfl⟩
abbrev main_v733 : Ref sig .tc := ⟨.hbm, 1229, rfl⟩
abbrev main_v734 : Ref sig .tc := ⟨.hbm, 1230, rfl⟩
abbrev main_v735 : Ref sig .tc := ⟨.hbm, 1231, rfl⟩
abbrev main_v736 : Ref sig .tc := ⟨.hbm, 1232, rfl⟩
abbrev main_v737 : Ref sig .tc := ⟨.hbm, 1233, rfl⟩
abbrev main_v738 : Ref sig .tc := ⟨.hbm, 1234, rfl⟩
abbrev main_call33_cst : Ref sig .tc := ⟨.hbm, 1235, rfl⟩
abbrev main_call33_v0 : Ref sig .tc := ⟨.hbm, 1236, rfl⟩
abbrev main_v739 : Ref sig .tc := ⟨.hbm, 1237, rfl⟩
abbrev main_v740 : Ref sig .tc := ⟨.hbm, 1238, rfl⟩
abbrev main_v741 : Ref sig .tc := ⟨.hbm, 1239, rfl⟩
abbrev main_v742 : Ref sig .tc := ⟨.hbm, 1240, rfl⟩
abbrev main_v743 : Ref sig .tc := ⟨.hbm, 1241, rfl⟩
abbrev main_v744 : Ref sig .tc := ⟨.hbm, 1242, rfl⟩
abbrev main_v745 : Ref sig .tc := ⟨.hbm, 1243, rfl⟩
abbrev main_v746 : Ref sig .tc := ⟨.hbm, 1244, rfl⟩
abbrev main_v747 : Ref sig .tc := ⟨.hbm, 1245, rfl⟩
abbrev main_v748 : Ref sig .tc := ⟨.hbm, 1246, rfl⟩
abbrev main_v749 : Ref sig .tc := ⟨.hbm, 1247, rfl⟩
abbrev main_v750 : Ref sig .tc := ⟨.hbm, 1248, rfl⟩
abbrev main_v751 : Ref sig .tc := ⟨.hbm, 1249, rfl⟩
abbrev main_v752 : Ref sig .tc := ⟨.hbm, 1250, rfl⟩
abbrev main_v753 : Ref sig .tc := ⟨.hbm, 1251, rfl⟩
abbrev main_v754 : Ref sig .tc := ⟨.hbm, 1252, rfl⟩
abbrev main_v755 : Ref sig .tc := ⟨.hbm, 1253, rfl⟩
abbrev main_v756 : Ref sig .tc := ⟨.hbm, 1254, rfl⟩
abbrev main_v757 : Ref sig .tc := ⟨.hbm, 1255, rfl⟩
abbrev main_cst_97 : Ref sig .tc := ⟨.hbm, 1256, rfl⟩
abbrev main_v758 : Ref sig .tc := ⟨.hbm, 1257, rfl⟩
abbrev main_cst_98 : Ref sig .tc := ⟨.hbm, 1258, rfl⟩
abbrev main_v759 : Ref sig .tc := ⟨.hbm, 1259, rfl⟩
abbrev main_v760 : Ref sig .tc := ⟨.hbm, 1260, rfl⟩
abbrev main_c_99 : Ref sig .tc := ⟨.hbm, 1261, rfl⟩
abbrev main_call34_cst : Ref sig .tc := ⟨.hbm, 1262, rfl⟩
abbrev main_call34_v0 : Ref sig .tc := ⟨.hbm, 1263, rfl⟩
abbrev main_call34_v1 : Ref sig .tc := ⟨.hbm, 1264, rfl⟩
abbrev main_call34_cst_0 : Ref sig .tc := ⟨.hbm, 1265, rfl⟩
abbrev main_call34_v2 : Ref sig .tc := ⟨.hbm, 1266, rfl⟩
abbrev main_call34_v3 : Ref sig .tc := ⟨.hbm, 1267, rfl⟩
abbrev main_call34_v4 : Ref sig .tc := ⟨.hbm, 1268, rfl⟩
abbrev main_call34_v5 : Ref sig .tc := ⟨.hbm, 1269, rfl⟩
abbrev main_call34_v6 : Ref sig .tc := ⟨.hbm, 1270, rfl⟩
abbrev main_call34_v7 : Ref sig .tc := ⟨.hbm, 1271, rfl⟩
abbrev main_call34_cst_1 : Ref sig .tc := ⟨.hbm, 1272, rfl⟩
abbrev main_call34_v8 : Ref sig .tc := ⟨.hbm, 1273, rfl⟩
abbrev main_call34_cst_2 : Ref sig .tc := ⟨.hbm, 1274, rfl⟩
abbrev main_call34_v9 : Ref sig .tc := ⟨.hbm, 1275, rfl⟩
abbrev main_call34_v10 : Ref sig .tc := ⟨.hbm, 1276, rfl⟩
abbrev main_call34_v11 : Ref sig .tc := ⟨.hbm, 1277, rfl⟩
abbrev main_call34_cst_3 : Ref sig .tc := ⟨.hbm, 1278, rfl⟩
abbrev main_call34_v12 : Ref sig .tc := ⟨.hbm, 1279, rfl⟩
abbrev main_call34_cst_4 : Ref sig .tc := ⟨.hbm, 1280, rfl⟩
abbrev main_call34_call0_v0 : Ref sig .tc := ⟨.hbm, 1281, rfl⟩
abbrev main_call34_call0_v1 : Ref sig .tc := ⟨.hbm, 1282, rfl⟩
abbrev main_v761 : Ref sig .tc := ⟨.hbm, 1283, rfl⟩
abbrev main_v762 : Ref sig .tc := ⟨.hbm, 1284, rfl⟩
abbrev main_v763 : Ref sig .tc := ⟨.hbm, 1285, rfl⟩
abbrev main_v764 : Ref sig .tc := ⟨.hbm, 1286, rfl⟩
abbrev main_cst_100 : Ref sig .tc := ⟨.hbm, 1287, rfl⟩
abbrev main_v765 : Ref sig .tc := ⟨.hbm, 1288, rfl⟩
abbrev main_v766 : Ref sig .tc := ⟨.hbm, 1289, rfl⟩
abbrev main_v767 : Ref sig .tc := ⟨.hbm, 1290, rfl⟩
abbrev main_v768 : Ref sig .tc := ⟨.hbm, 1291, rfl⟩
abbrev main_v769 : Ref sig .tc := ⟨.hbm, 1292, rfl⟩
abbrev main_v770 : Ref sig .tc := ⟨.hbm, 1293, rfl⟩
abbrev main_v771 : Ref sig .tc := ⟨.hbm, 1294, rfl⟩
abbrev main_v772 : Ref sig .tc := ⟨.hbm, 1295, rfl⟩
abbrev main_v773 : Ref sig .tc := ⟨.hbm, 1296, rfl⟩
abbrev main_v774 : Ref sig .tc := ⟨.hbm, 1297, rfl⟩
abbrev main_v775 : Ref sig .tc := ⟨.hbm, 1298, rfl⟩
abbrev main_v776 : Ref sig .tc := ⟨.hbm, 1299, rfl⟩
abbrev main_call35_cst : Ref sig .tc := ⟨.hbm, 1300, rfl⟩
abbrev main_call35_v0 : Ref sig .tc := ⟨.hbm, 1301, rfl⟩
abbrev main_v777 : Ref sig .tc := ⟨.hbm, 1302, rfl⟩
abbrev main_v778 : Ref sig .tc := ⟨.hbm, 1303, rfl⟩
abbrev main_v779 : Ref sig .tc := ⟨.hbm, 1304, rfl⟩
abbrev main_v780 : Ref sig .tc := ⟨.hbm, 1305, rfl⟩
abbrev main_v781 : Ref sig .tc := ⟨.hbm, 1306, rfl⟩
abbrev main_v782 : Ref sig .tc := ⟨.hbm, 1307, rfl⟩
abbrev main_v783 : Ref sig .tc := ⟨.hbm, 1308, rfl⟩
abbrev main_v784 : Ref sig .tc := ⟨.hbm, 1309, rfl⟩
abbrev main_v785 : Ref sig .tc := ⟨.hbm, 1310, rfl⟩
abbrev main_v786 : Ref sig .tc := ⟨.hbm, 1311, rfl⟩
abbrev main_v787 : Ref sig .tc := ⟨.hbm, 1312, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  slices_S6x3x128x128_S1x1x128x128_0_0_0_0 : S6x3x128x128.Slices ![0, 0, 0, 0] S1x1x128x128
  shapeCasts_S1x1x128x128_S128x128 : S1x1x128x128.ShapeCasts S128x128
  transposes_S128x128_S128x128_1_0 : S128x128.Transposes [1, 0] S128x128
  slices_S6x3x128_S1x1x128_0_0_0 : S6x3x128.Slices ![0, 0, 0] S1x1x128
  shapeCasts_S1x1x128_S128 : S1x1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S6x3_S1x1_0_0 : S6x3.Slices ![0, 0] S1x1
  shapeCasts_S1x1_S_ : S1x1.ShapeCasts S_
  slices_S6x3x128x128_S1x1x128x128_0_1_0_0 : S6x3x128x128.Slices ![0, 1, 0, 0] S1x1x128x128
  slices_S6x3x128_S1x1x128_0_1_0 : S6x3x128.Slices ![0, 1, 0] S1x1x128
  slices_S6x3_S1x1_0_1 : S6x3.Slices ![0, 1] S1x1
  slices_S6x3x128x128_S1x1x128x128_0_2_0_0 : S6x3x128x128.Slices ![0, 2, 0, 0] S1x1x128x128
  slices_S6x3x128_S1x1x128_0_2_0 : S6x3x128.Slices ![0, 2, 0] S1x1x128
  slices_S6x3_S1x1_0_2 : S6x3.Slices ![0, 2] S1x1
  slices_S6x3x128x128_S1x1x128x128_1_0_0_0 : S6x3x128x128.Slices ![1, 0, 0, 0] S1x1x128x128
  slices_S6x3x128_S1x1x128_1_0_0 : S6x3x128.Slices ![1, 0, 0] S1x1x128
  slices_S6x3_S1x1_1_0 : S6x3.Slices ![1, 0] S1x1
  slices_S6x3x128x128_S1x1x128x128_1_1_0_0 : S6x3x128x128.Slices ![1, 1, 0, 0] S1x1x128x128
  slices_S6x3x128_S1x1x128_1_1_0 : S6x3x128.Slices ![1, 1, 0] S1x1x128
  slices_S6x3_S1x1_1_1 : S6x3.Slices ![1, 1] S1x1
  slices_S6x3x128x128_S1x1x128x128_1_2_0_0 : S6x3x128x128.Slices ![1, 2, 0, 0] S1x1x128x128
  slices_S6x3x128_S1x1x128_1_2_0 : S6x3x128.Slices ![1, 2, 0] S1x1x128
  slices_S6x3_S1x1_1_2 : S6x3.Slices ![1, 2] S1x1
  slices_S6x3x128x128_S1x1x128x128_2_0_0_0 : S6x3x128x128.Slices ![2, 0, 0, 0] S1x1x128x128
  slices_S6x3x128_S1x1x128_2_0_0 : S6x3x128.Slices ![2, 0, 0] S1x1x128
  slices_S6x3_S1x1_2_0 : S6x3.Slices ![2, 0] S1x1
  slices_S6x3x128x128_S1x1x128x128_2_1_0_0 : S6x3x128x128.Slices ![2, 1, 0, 0] S1x1x128x128
  slices_S6x3x128_S1x1x128_2_1_0 : S6x3x128.Slices ![2, 1, 0] S1x1x128
  slices_S6x3_S1x1_2_1 : S6x3.Slices ![2, 1] S1x1
  slices_S6x3x128x128_S1x1x128x128_2_2_0_0 : S6x3x128x128.Slices ![2, 2, 0, 0] S1x1x128x128
  slices_S6x3x128_S1x1x128_2_2_0 : S6x3x128.Slices ![2, 2, 0] S1x1x128
  slices_S6x3_S1x1_2_2 : S6x3.Slices ![2, 2] S1x1
  slices_S6x3x128x128_S1x1x128x128_3_0_0_0 : S6x3x128x128.Slices ![3, 0, 0, 0] S1x1x128x128
  slices_S6x3x128_S1x1x128_3_0_0 : S6x3x128.Slices ![3, 0, 0] S1x1x128
  slices_S6x3_S1x1_3_0 : S6x3.Slices ![3, 0] S1x1
  slices_S6x3x128x128_S1x1x128x128_3_1_0_0 : S6x3x128x128.Slices ![3, 1, 0, 0] S1x1x128x128
  slices_S6x3x128_S1x1x128_3_1_0 : S6x3x128.Slices ![3, 1, 0] S1x1x128
  slices_S6x3_S1x1_3_1 : S6x3.Slices ![3, 1] S1x1
  slices_S6x3x128x128_S1x1x128x128_3_2_0_0 : S6x3x128x128.Slices ![3, 2, 0, 0] S1x1x128x128
  slices_S6x3x128_S1x1x128_3_2_0 : S6x3x128.Slices ![3, 2, 0] S1x1x128
  slices_S6x3_S1x1_3_2 : S6x3.Slices ![3, 2] S1x1
  slices_S6x3x128x128_S1x1x128x128_4_0_0_0 : S6x3x128x128.Slices ![4, 0, 0, 0] S1x1x128x128
  slices_S6x3x128_S1x1x128_4_0_0 : S6x3x128.Slices ![4, 0, 0] S1x1x128
  slices_S6x3_S1x1_4_0 : S6x3.Slices ![4, 0] S1x1
  slices_S6x3x128x128_S1x1x128x128_4_1_0_0 : S6x3x128x128.Slices ![4, 1, 0, 0] S1x1x128x128
  slices_S6x3x128_S1x1x128_4_1_0 : S6x3x128.Slices ![4, 1, 0] S1x1x128
  slices_S6x3_S1x1_4_1 : S6x3.Slices ![4, 1] S1x1
  slices_S6x3x128x128_S1x1x128x128_4_2_0_0 : S6x3x128x128.Slices ![4, 2, 0, 0] S1x1x128x128
  slices_S6x3x128_S1x1x128_4_2_0 : S6x3x128.Slices ![4, 2, 0] S1x1x128
  slices_S6x3_S1x1_4_2 : S6x3.Slices ![4, 2] S1x1
  slices_S6x3x128x128_S1x1x128x128_5_0_0_0 : S6x3x128x128.Slices ![5, 0, 0, 0] S1x1x128x128
  slices_S6x3x128_S1x1x128_5_0_0 : S6x3x128.Slices ![5, 0, 0] S1x1x128
  slices_S6x3_S1x1_5_0 : S6x3.Slices ![5, 0] S1x1
  slices_S6x3x128x128_S1x1x128x128_5_1_0_0 : S6x3x128x128.Slices ![5, 1, 0, 0] S1x1x128x128
  slices_S6x3x128_S1x1x128_5_1_0 : S6x3x128.Slices ![5, 1, 0] S1x1x128
  slices_S6x3_S1x1_5_1 : S6x3.Slices ![5, 1] S1x1
  slices_S6x3x128x128_S1x1x128x128_5_2_0_0 : S6x3x128x128.Slices ![5, 2, 0, 0] S1x1x128x128
  slices_S6x3x128_S1x1x128_5_2_0 : S6x3x128.Slices ![5, 2, 0] S1x1x128
  slices_S6x3_S1x1_5_2 : S6x3.Slices ![5, 2] S1x1
  bcast_S50000x128_S1x50000x128_1_2 : S50000x128.BroadcastsInDim S1x50000x128 (![1, 2] : Fin 2 → Fin S1x50000x128.rank)
  concatenates_S1x50000x128_S1x50000x128_S1x50000x128_S3x50000x128_d0 : Shape.Concatenates [S1x50000x128, S1x50000x128, S1x50000x128] S3x50000x128 0
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.K.Stats0Runs.lean ====
import proofs.«414290_j6631429505478_3_alg».proof.Proof.Gen.Kernel.Launch
import proofs.«414290_j6631429505478_3_alg».proof.Proof.Gen.Kernel.Skeleton
import proofs.«414290_j6631429505478_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0 (the statistics kernel at width 384): what its cases share

The region-entry contents `V` are a parameter throughout. -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is `V`'s and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch condition -/

/-- The condition of the body's conditional (reset of both outputs), from the grid coordinates. -/
abbrev cond0_0 (i : grid0.Coords) : Prop := (Scalar.cmpi .ne (Scalar.extui (Scalar.cmpi .eq (BitVec.ofNat 32 (i 1).val) 0#32)) 0#32) = 1#1
/-- It holds exactly at the first point of each core's row of 25 — decided over the grid. -/
theorem hcond0_0 : ∀ t : Fin cfg0.N, cond0_0 (grid0.coords t) ↔ t.val % 25 = 0 :=
  (by decide +kernel : ∀ t : Fin grid0.N, cond0_0 (grid0.coords t) ↔ t.val % 25 = 0)

/-! ## The staging memrefs -/

/-- One staging buffer of each output window, through which its contents are stated (the choice does not matter). -/
abbrev VO0_5 : View sig .tc .vmem S1x3x384 .f32 := (Memref.whole cc0_stg5_0 : Memref sig .tc .vmem S1x3x384 .f32).view
abbrev VO0_6 : View sig .tc .vmem S1x3x384 .f32 := (Memref.whole cc0_stg6_0 : Memref sig .tc .vmem S1x3x384 .f32).view
/-- Each window's current staging memref at point `t`, spelled as the pipeline passes it, and its wholeness. -/
abbrev ms0_0 (t : Fin cfg0.N) : Memref sig .tc .vmem S1000x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1000x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1000x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3x128x384 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S3x384 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x3x384 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x3x384 .f32 := win0_6.stage (cfg0.slots t 6)
abbrev hs0_6 (t : Fin cfg0.N) : (ms0_6 t).IsWhole := hstage0_6 ((cfg0.slots t 6).cast nbuf0_6)

end Cert.Kernel.Hand

end
-- ==== Proof.K.Stats0RunA.lean ====
import proofs.«414290_j6631429505478_3_alg».proof.Proof.K.Stats0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the whole-body run in case A -/

set_option maxHeartbeats 4000000 in
/-- What the body's stores leave in each output's staging memref, as pieces (last first), IN CASE A (the conditional taken:
    the first point of a core's row), with the proof that on whole staging memrefs — the inputs' at their contents, the
    outputs' at anything — the body runs to the continuation holding the inputs' as they were and each output's buffer
    with its pieces written. -/
noncomputable def kernelRun0_A (c : Dev nD) (i : grid0.Coords) (arg2 : Memref sig .tc .vmem S1000x128 .bf16) (harg2 : arg2.IsWhole) (arg3 : Memref sig .tc .vmem S1000x128 .bf16) (harg3 : arg3.IsWhole) (arg4 : Memref sig .tc .vmem S1000x128 .bf16) (harg4 : arg4.IsWhole) (arg5 : Memref sig .tc .vmem S3x128x384 .f32) (harg5 : arg5.IsWhole) (arg6 : Memref sig .tc .vmem S3x384 .f32) (harg6 : arg6.IsWhole) (arg7 : Memref sig .tc .vmem S1x3x384 .f32) (harg7 : arg7.IsWhole) (arg8 : Memref sig .tc .vmem S1x3x384 .f32) (harg8 : arg8.IsWhole) (hc0 : cond0_0 i)
    (x0 : Vec F S1000x128 .bf16) (x1 : Vec F S1000x128 .bf16) (x2 : Vec F S1000x128 .bf16) (x3 : Vec F S3x128x384 .f32) (x4 : Vec F S3x384 .f32) :
    Σ' (L5 : List (View.Piece (Elt F) S1x3x384 .f32)), { L6 : List (View.Piece (Elt F) S1x3x384 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6)) -∗ K ⟨⟩))
          ⊢ wp frame (wpE (defs₀ (F := F)) Variants.none c none) E (cc0__stats_kernel i arg2 harg2 arg3 harg3 arg4 harg4 arg5 harg5 arg6 harg6 arg7 harg7 arg8 harg8) K } := by
  refine ⟨?_, ?_, fun E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact H6

end Cert.Kernel.Hand

end
-- ==== Proof.K.Stats0RunB.lean ====
import proofs.«414290_j6631429505478_3_alg».proof.Proof.K.Stats0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the whole-body run in case B -/

set_option maxHeartbeats 4000000 in
/-- What the body's stores leave in each output's staging memref, as pieces (last first), IN CASE B (the conditional not
    taken: the other points of a core's row), with the proof that on whole staging memrefs — the inputs' at their contents,
    the outputs', which the body reads before covering, at their running contents `xo·` — the body runs to the continuation
    holding the inputs' as they were and each output's buffer with its pieces written. -/
noncomputable def kernelRun0_B (c : Dev nD) (i : grid0.Coords) (arg2 : Memref sig .tc .vmem S1000x128 .bf16) (harg2 : arg2.IsWhole) (arg3 : Memref sig .tc .vmem S1000x128 .bf16) (harg3 : arg3.IsWhole) (arg4 : Memref sig .tc .vmem S1000x128 .bf16) (harg4 : arg4.IsWhole) (arg5 : Memref sig .tc .vmem S3x128x384 .f32) (harg5 : arg5.IsWhole) (arg6 : Memref sig .tc .vmem S3x384 .f32) (harg6 : arg6.IsWhole) (arg7 : Memref sig .tc .vmem S1x3x384 .f32) (harg7 : arg7.IsWhole) (arg8 : Memref sig .tc .vmem S1x3x384 .f32) (harg8 : arg8.IsWhole) (hc0 : ¬cond0_0 i)
    (x0 : Vec F S1000x128 .bf16) (x1 : Vec F S1000x128 .bf16) (x2 : Vec F S1000x128 .bf16) (x3 : Vec F S3x128x384 .f32) (x4 : Vec F S3x384 .f32) (xo5 : Vec F S1x3x384 .f32) (xo6 : Vec F S1x3x384 .f32) :
    Σ' (L5 : List (View.Piece (Elt F) S1x3x384 .f32)), { L6 : List (View.Piece (Elt F) S1x3x384 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo5 ∗ owns (c : Thread nD τ) arg8 fullShare xo6
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6)) -∗ K ⟨⟩))
          ⊢ wp frame (wpE (defs₀ (F := F)) Variants.none c none) E (cc0__stats_kernel i arg2 harg2 arg3 harg3 arg4 harg4 arg5 harg5 arg6 harg6 arg7 harg7 arg8 harg8) K } := by
  refine ⟨?_, ?_, fun E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact H6

end Cert.Kernel.Hand

end
-- ==== Proof.K.Stats0.lean ====
import proofs.«414290_j6631429505478_3_alg».proof.Proof.K.Stats0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0 (the statistics kernel at width 384): the frame half

Both outputs' blocks are revisited over a core's row of 25 points: reset at the row's first point, added to at the
others, written back at its last. -/

variable (V : (c : Dev nD) → (b : Ref sig .tc) → Buf (Elt F) ((c : Thread nD τ).loc b))

/-- Case A's pieces for output 5 tile its block, so they cover it. -/
theorem cover0_A_5 (c : Dev nD) (i : grid0.Coords) (arg2 : Memref sig .tc .vmem S1000x128 .bf16) (harg2 : arg2.IsWhole) (arg3 : Memref sig .tc .vmem S1000x128 .bf16) (harg3 : arg3.IsWhole) (arg4 : Memref sig .tc .vmem S1000x128 .bf16) (harg4 : arg4.IsWhole) (arg5 : Memref sig .tc .vmem S3x128x384 .f32) (harg5 : arg5.IsWhole) (arg6 : Memref sig .tc .vmem S3x384 .f32) (harg6 : arg6.IsWhole) (arg7 : Memref sig .tc .vmem S1x3x384 .f32) (harg7 : arg7.IsWhole) (arg8 : Memref sig .tc .vmem S1x3x384 .f32) (harg8 : arg8.IsWhole) (hc0 : cond0_0 i)
    (x0 : Vec F S1000x128 .bf16) (x1 : Vec F S1000x128 .bf16) (x2 : Vec F S1000x128 .bf16) (x3 : Vec F S3x128x384 .f32) (x4 : Vec F S3x384 .f32) (y : S1x3x384.Idx) :
    ∃ pc ∈ (kernelRun0_A c i arg2 harg2 arg3 harg3 arg4 harg4 arg5 harg5 arg6 harg6 arg7 harg7 arg8 harg8 hc0 x0 x1 x2 x3 x4).1, y ∈ pc.1.set :=
  View.cover_of_tiledL (kernelRun0_A c i arg2 harg2 arg3 harg3 arg4 harg4 arg5 harg5 arg6 harg6 arg7 harg7 arg8 harg8 hc0 x0 x1 x2 x3 x4).1 S1x3x384.size (by sl_kernel_rfl) y

/-- What case A leaves in output 5's staging buffer: its pieces read back over junk. -/
def out0_A_5 (c : Dev nD) (i : grid0.Coords) (arg2 : Memref sig .tc .vmem S1000x128 .bf16) (harg2 : arg2.IsWhole) (arg3 : Memref sig .tc .vmem S1000x128 .bf16) (harg3 : arg3.IsWhole) (arg4 : Memref sig .tc .vmem S1000x128 .bf16) (harg4 : arg4.IsWhole) (arg5 : Memref sig .tc .vmem S3x128x384 .f32) (harg5 : arg5.IsWhole) (arg6 : Memref sig .tc .vmem S3x384 .f32) (harg6 : arg6.IsWhole) (arg7 : Memref sig .tc .vmem S1x3x384 .f32) (harg7 : arg7.IsWhole) (arg8 : Memref sig .tc .vmem S1x3x384 .f32) (harg8 : arg8.IsWhole) (hc0 : cond0_0 i)
    (x0 : Vec F S1000x128 .bf16) (x1 : Vec F S1000x128 .bf16) (x2 : Vec F S1000x128 .bf16) (x3 : Vec F S3x128x384 .f32) (x4 : Vec F S3x384 .f32) : Vec F S1x3x384 .f32 :=
  VO0_5.read (Elt F) (VO0_5.writes (Elt F) VO0_5.junk (kernelRun0_A c i arg2 harg2 arg3 harg3 arg4 harg4 arg5 harg5 arg6 harg6 arg7 harg7 arg8 harg8 hc0 x0 x1 x2 x3 x4).1)

/-- Case A's pieces for output 6 tile its block, so they cover it. -/
theorem cover0_A_6 (c : Dev nD) (i : grid0.Coords) (arg2 : Memref sig .tc .vmem S1000x128 .bf16) (harg2 : arg2.IsWhole) (arg3 : Memref sig .tc .vmem S1000x128 .bf16) (harg3 : arg3.IsWhole) (arg4 : Memref sig .tc .vmem S1000x128 .bf16) (harg4 : arg4.IsWhole) (arg5 : Memref sig .tc .vmem S3x128x384 .f32) (harg5 : arg5.IsWhole) (arg6 : Memref sig .tc .vmem S3x384 .f32) (harg6 : arg6.IsWhole) (arg7 : Memref sig .tc .vmem S1x3x384 .f32) (harg7 : arg7.IsWhole) (arg8 : Memref sig .tc .vmem S1x3x384 .f32) (harg8 : arg8.IsWhole) (hc0 : cond0_0 i)
    (x0 : Vec F S1000x128 .bf16) (x1 : Vec F S1000x128 .bf16) (x2 : Vec F S1000x128 .bf16) (x3 : Vec F S3x128x384 .f32) (x4 : Vec F S3x384 .f32) (y : S1x3x384.Idx) :
    ∃ pc ∈ (kernelRun0_A c i arg2 harg2 arg3 harg3 arg4 harg4 arg5 harg5 arg6 harg6 arg7 harg7 arg8 harg8 hc0 x0 x1 x2 x3 x4).2.1, y ∈ pc.1.set :=
  View.cover_of_tiledL (kernelRun0_A c i arg2 harg2 arg3 harg3 arg4 harg4 arg5 harg5 arg6 harg6 arg7 harg7 arg8 harg8 hc0 x0 x1 x2 x3 x4).2.1 S1x3x384.size (by sl_kernel_rfl) y

/-- What case A leaves in output 6's staging buffer: its pieces read back over junk. -/
def out0_A_6 (c : Dev nD) (i : grid0.Coords) (arg2 : Memref sig .tc .vmem S1000x128 .bf16) (harg2 : arg2.IsWhole) (arg3 : Memref sig .tc .vmem S1000x128 .bf16) (harg3 : arg3.IsWhole) (arg4 : Memref sig .tc .vmem S1000x128 .bf16) (harg4 : arg4.IsWhole) (arg5 : Memref sig .tc .vmem S3x128x384 .f32) (harg5 : arg5.IsWhole) (arg6 : Memref sig .tc .vmem S3x384 .f32) (harg6 : arg6.IsWhole) (arg7 : Memref sig .tc .vmem S1x3x384 .f32) (harg7 : arg7.IsWhole) (arg8 : Memref sig .tc .vmem S1x3x384 .f32) (harg8 : arg8.IsWhole) (hc0 : cond0_0 i)
    (x0 : Vec F S1000x128 .bf16) (x1 : Vec F S1000x128 .bf16) (x2 : Vec F S1000x128 .bf16) (x3 : Vec F S3x128x384 .f32) (x4 : Vec F S3x384 .f32) : Vec F S1x3x384 .f32 :=
  VO0_6.read (Elt F) (VO0_6.writes (Elt F) VO0_6.junk (kernelRun0_A c i arg2 harg2 arg3 harg3 arg4 harg4 arg5 harg5 arg6 harg6 arg7 harg7 arg8 harg8 hc0 x0 x1 x2 x3 x4).2.1)

/-- Case B's pieces for output 5 tile its block, so they cover it. -/
theorem cover0_B_5 (c : Dev nD) (i : grid0.Coords) (arg2 : Memref sig .tc .vmem S1000x128 .bf16) (harg2 : arg2.IsWhole) (arg3 : Memref sig .tc .vmem S1000x128 .bf16) (harg3 : arg3.IsWhole) (arg4 : Memref sig .tc .vmem S1000x128 .bf16) (harg4 : arg4.IsWhole) (arg5 : Memref sig .tc .vmem S3x128x384 .f32) (harg5 : arg5.IsWhole) (arg6 : Memref sig .tc .vmem S3x384 .f32) (harg6 : arg6.IsWhole) (arg7 : Memref sig .tc .vmem S1x3x384 .f32) (harg7 : arg7.IsWhole) (arg8 : Memref sig .tc .vmem S1x3x384 .f32) (harg8 : arg8.IsWhole) (hc0 : ¬cond0_0 i)
    (x0 : Vec F S1000x128 .bf16) (x1 : Vec F S1000x128 .bf16) (x2 : Vec F S1000x128 .bf16) (x3 : Vec F S3x128x384 .f32) (x4 : Vec F S3x384 .f32) (xo5 : Vec F S1x3x384 .f32) (xo6 : Vec F S1x3x384 .f32) (y : S1x3x384.Idx) :
    ∃ pc ∈ (kernelRun0_B c i arg2 harg2 arg3 harg3 arg4 harg4 arg5 harg5 arg6 harg6 arg7 harg7 arg8 harg8 hc0 x0 x1 x2 x3 x4 xo5 xo6).1, y ∈ pc.1.set :=
  View.cover_of_tiledL (kernelRun0_B c i arg2 harg2 arg3 harg3 arg4 harg4 arg5 harg5 arg6 harg6 arg7 harg7 arg8 harg8 hc0 x0 x1 x2 x3 x4 xo5 xo6).1 S1x3x384.size (by sl_kernel_rfl) y

/-- What case B leaves in output 5's staging buffer: its pieces read back over junk. -/
def out0_B_5 (c : Dev nD) (i : grid0.Coords) (arg2 : Memref sig .tc .vmem S1000x128 .bf16) (harg2 : arg2.IsWhole) (arg3 : Memref sig .tc .vmem S1000x128 .bf16) (harg3 : arg3.IsWhole) (arg4 : Memref sig .tc .vmem S1000x128 .bf16) (harg4 : arg4.IsWhole) (arg5 : Memref sig .tc .vmem S3x128x384 .f32) (harg5 : arg5.IsWhole) (arg6 : Memref sig .tc .vmem S3x384 .f32) (harg6 : arg6.IsWhole) (arg7 : Memref sig .tc .vmem S1x3x384 .f32) (harg7 : arg7.IsWhole) (arg8 : Memref sig .tc .vmem S1x3x384 .f32) (harg8 : arg8.IsWhole) (hc0 : ¬cond0_0 i)
    (x0 : Vec F S1000x128 .bf16) (x1 : Vec F S1000x128 .bf16) (x2 : Vec F S1000x128 .bf16) (x3 : Vec F S3x128x384 .f32) (x4 : Vec F S3x384 .f32) (xo5 : Vec F S1x3x384 .f32) (xo6 : Vec F S1x3x384 .f32) : Vec F S1x3x384 .f32 :=
  VO0_5.read (Elt F) (VO0_5.writes (Elt F) VO0_5.junk (kernelRun0_B c i arg2 harg2 arg3 harg3 arg4 harg4 arg5 harg5 arg6 harg6 arg7 harg7 arg8 harg8 hc0 x0 x1 x2 x3 x4 xo5 xo6).1)

/-- Case B's pieces for output 6 tile its block, so they cover it. -/
theorem cover0_B_6 (c : Dev nD) (i : grid0.Coords) (arg2 : Memref sig .tc .vmem S1000x128 .bf16) (harg2 : arg2.IsWhole) (arg3 : Memref sig .tc .vmem S1000x128 .bf16) (harg3 : arg3.IsWhole) (arg4 : Memref sig .tc .vmem S1000x128 .bf16) (harg4 : arg4.IsWhole) (arg5 : Memref sig .tc .vmem S3x128x384 .f32) (harg5 : arg5.IsWhole) (arg6 : Memref sig .tc .vmem S3x384 .f32) (harg6 : arg6.IsWhole) (arg7 : Memref sig .tc .vmem S1x3x384 .f32) (harg7 : arg7.IsWhole) (arg8 : Memref sig .tc .vmem S1x3x384 .f32) (harg8 : arg8.IsWhole) (hc0 : ¬cond0_0 i)
    (x0 : Vec F S1000x128 .bf16) (x1 : Vec F S1000x128 .bf16) (x2 : Vec F S1000x128 .bf16) (x3 : Vec F S3x128x384 .f32) (x4 : Vec F S3x384 .f32) (xo5 : Vec F S1x3x384 .f32) (xo6 : Vec F S1x3x384 .f32) (y : S1x3x384.Idx) :
    ∃ pc ∈ (kernelRun0_B c i arg2 harg2 arg3 harg3 arg4 harg4 arg5 harg5 arg6 harg6 arg7 harg7 arg8 harg8 hc0 x0 x1 x2 x3 x4 xo5 xo6).2.1, y ∈ pc.1.set :=
  View.cover_of_tiledL (kernelRun0_B c i arg2 harg2 arg3 harg3 arg4 harg4 arg5 harg5 arg6 harg6 arg7 harg7 arg8 harg8 hc0 x0 x1 x2 x3 x4 xo5 xo6).2.1 S1x3x384.size (by sl_kernel_rfl) y

/-- What case B leaves in output 6's staging buffer: its pieces read back over junk. -/
def out0_B_6 (c : Dev nD) (i : grid0.Coords) (arg2 : Memref sig .tc .vmem S1000x128 .bf16) (harg2 : arg2.IsWhole) (arg3 : Memref sig .tc .vmem S1000x128 .bf16) (harg3 : arg3.IsWhole) (arg4 : Memref sig .tc .vmem S1000x128 .bf16) (harg4 : arg4.IsWhole) (arg5 : Memref sig .tc .vmem S3x128x384 .f32) (harg5 : arg5.IsWhole) (arg6 : Memref sig .tc .vmem S3x384 .f32) (harg6 : arg6.IsWhole) (arg7 : Memref sig .tc .vmem S1x3x384 .f32) (harg7 : arg7.IsWhole) (arg8 : Memref sig .tc .vmem S1x3x384 .f32) (harg8 : arg8.IsWhole) (hc0 : ¬cond0_0 i)
    (x0 : Vec F S1000x128 .bf16) (x1 : Vec F S1000x128 .bf16) (x2 : Vec F S1000x128 .bf16) (x3 : Vec F S3x128x384 .f32) (x4 : Vec F S3x384 .f32) (xo5 : Vec F S1x3x384 .f32) (xo6 : Vec F S1x3x384 .f32) : Vec F S1x3x384 .f32 :=
  VO0_6.read (Elt F) (VO0_6.writes (Elt F) VO0_6.junk (kernelRun0_B c i arg2 harg2 arg3 harg3 arg4 harg4 arg5 harg5 arg6 harg6 arg7 harg7 arg8 harg8 hc0 x0 x1 x2 x3 x4 xo5 xo6).2.1)

/-! ## What the outputs hold after each point -/

/-- THE ACCUMULATION. What the two outputs' staging buffers hold after the body at position `n`: the case the closed
    form selects at `n`, run at the point's memrefs and input blocks; in case B over what this leaves at `n - 1`
    (the buffers are not written back between). The recursion restarts at every first point of a row. -/
def outsAt0 (c : Dev nD) : (n : ℕ) → n < cfg0.N → Vec F S1x3x384 .f32 × Vec F S1x3x384 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h0 : (n + 1) % 25 = 0 then
      (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩))
    else
      (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).1 (outsAt0 c n (Nat.lt_of_succ_lt hn)).2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).1 (outsAt0 c n (Nat.lt_of_succ_lt hn)).2)

/-- `outsAt0` at a point of case A: that case's contents. -/
theorem outsAt0_A (c : Dev nD) (t : Fin cfg0.N) (h0 : t.val % 25 = 0) :
    outsAt0 V c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 V c 0 t) (iblk0 V c 1 t) (iblk0 V c 2 t) (iblk0 V c 3 t) (iblk0 V c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 V c 0 t) (iblk0 V c 1 t) (iblk0 V c 2 t) (iblk0 V c 3 t) (iblk0 V c 4 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 25 = 0) :
    outsAt0 V c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).1 (outsAt0 V c (t.val - 1) (Nat.lt_of_le_of_lt (Nat.sub_le _ _) t.isLt)).2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).1 (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data of region 0's pipeline on core `c`: the arrays as the region finds them; after the body at point
    `t` each input's buffer at its block and the outputs' at `outsAt0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
    | ⟨6, _⟩ => (outsAt0 V c t.val t.isLt).2
  Φ _ := Pipeline.ΦA spec0 c
  q _ := fullShare
  owed _ := 0

/-- The proof data's arrays are the region-entry contents. -/
theorem A_eq0 (c : Dev nD) (w : Fin cfg0.W) :
    (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]
theorem after0_6 (c : Dev nD) (t : Fin cfg0.N) : (dat0 V c).after 6 t = (outsAt0 V c t.val t.isLt).2 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
/-- At a point of case B output 5's current staging buffer holds what the body left at the point before: the point is not
    a row's first, so the buffer was not written back between. -/
theorem before0_5_B (c : Dev nD) (t : Fin cfg0.N) (h0 : ¬t.val % 25 = 0) (d) :
    (dat0 V c).before 5 t d = (outsAt0 V c (t.val - 1) (Nat.lt_of_le_of_lt (Nat.sub_le _ _) t.isLt)).1 := by
  have hN : t.val < 50 := lt_of_lt_of_eq t.isLt (show cfg0.N = 50 from N_0)
  rw [Dat.before_out_kept _ 5 rfl t (by omega) (Bool.eq_false_iff.mpr fun h => by have := (flush0_5 _).mp h; dsimp only at this; omega)
    (fun _ => rfl) (fun _ _ => rfl)]
  dsimp only [dat0]
/-- At a point of case B output 6's current staging buffer holds what the body left at the point before: the point is not
    a row's first, so the buffer was not written back between. -/
theorem before0_6_B (c : Dev nD) (t : Fin cfg0.N) (h0 : ¬t.val % 25 = 0) (d) :
    (dat0 V c).before 6 t d = (outsAt0 V c (t.val - 1) (Nat.lt_of_le_of_lt (Nat.sub_le _ _) t.isLt)).2 := by
  have hN : t.val < 50 := lt_of_lt_of_eq t.isLt (show cfg0.N = 50 from N_0)
  rw [Dat.before_out_kept _ 6 rfl t (by omega) (Bool.eq_false_iff.mpr fun h => by have := (flush0_6 _).mp h; dsimp only at this; omega)
    (fun _ => rfl) (fun _ _ => rfl)]
  dsimp only [dat0]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t))

set_option maxHeartbeats 1600000 in
/-- The body at any point: the inputs' memrefs hold their blocks; the closed form says which case the point is in; in
    case B the outputs' memrefs hold what the point before left; so the run applies; the invariant passes through
    unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  have hN : t.val < 50 := lt_of_lt_of_eq t.isLt (show cfg0.N = 50 from N_0)
  by_cases h0 : t.val % 25 = 0
  · rw [outsAt0_A V c t h0]
    dsimp only
    unfold out0_A_5 out0_A_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) _ _ _ _ _ _ _ _ _ _ _ _ _ _ ((hcond0_0 t).mpr h0) (iblk0 V c 0 t) (iblk0 V c 1 t) (iblk0 V c 2 t) (iblk0 V c 3 t) (iblk0 V c 4 t)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover0_A_5 c _ _ _ _ _ _ _ _ _ _ _ _ _ _ _ _ _ _ _ _ _)
    unfold owns; iexists _; isplitr
    swap; · iexact H6
    ipureintro; exact View.read_writes_of_cover _ _ _ _ _ (cover0_A_6 c _ _ _ _ _ _ _ _ _ _ _ _ _ _ _ _ _ _ _ _ _)
  · rw [outsAt0_B V c t h0]
    dsimp only
    simp only [before0_5_B V c t h0, before0_6_B V c t h0]
    unfold out0_B_5 out0_B_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) _ _ _ _ _ _ _ _ _ _ _ _ _ _ (fun h => h0 ((hcond0_0 t).mp h)) (iblk0 V c 0 t) (iblk0 V c 1 t) (iblk0 V c 2 t) (iblk0 V c 3 t) (iblk0 V c 4 t) _ _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover0_B_5 c _ _ _ _ _ _ _ _ _ _ _ _ _ _ _ _ _ _ _ _ _ _ _)
    unfold owns; iexists _; isplitr
    swap; · iexact H6
    ipureintro; exact View.read_writes_of_cover _ _ _ _ _ (cover0_B_6 c _ _ _ _ _ _ _ _ _ _ _ _ _ _ _ _ _ _ _ _ _ _ _)

/-- The library's body obligation, at every point. -/
theorem body_obligation0 (c : Dev nD) :
    BodyObligation (dat0 (F := F) V c) (defs₀ (F := F)) Variants.none () Set.univ := fun t => by
  rw [bigSep_W0, bigSep_W0]
  exact sound_body0 V c t

end Cert.Kernel.Hand

end
-- ==== Proof.K.Comb1.lean ====
/- REGION 1 of program Kernel (the combine kernel without addend, 384 columns), at a parameter V: the
   TensorCore's buffer contents when the region is entered. Each window's block at a point, what the body finds in
   every input window's buffer, what its one store leaves in the output window's buffer as a closed function of the
   input blocks, the body's triple, the pipeline's proof data and the body obligation. -/
import proofs.«414290_j6631429505478_3_alg».proof.Proof.Gen.Kernel.Launch
import proofs.«414290_j6631429505478_3_alg».proof.Proof.Gen.Kernel.Skeleton
import proofs.«414290_j6631429505478_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2000 rows: the elaborator's structural look recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Every input window's current staging buffer holds its block at every point, fetched there or not, for ANY proof
    data whose array is `V`'s (`hA`) and whose body leaves the block in place (`hafter`). Windows 0, 1, 2 (the three
    row blocks) are fetched at every point; windows 3 … 9 (the whole parameter arrays) at the first point only, their
    block index constant: unfetched, the buffer still holds the previous point's block, which is this point's. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- a whole row block of 128 columns (windows 0, 1, 2) -/
abbrev r1_0 : Rect S2000x128 := Rect.unit (s := S2000x128) ![0, 0] S2000x128.size inb_S2000x128_S2000x128_0_0
/-- branch 0, 1, 2 of the weight array (window 3) -/
abbrev r1_1 : Rect S3x128x384 := Rect.unit (s := S3x128x384) ![0, 0, 0] S1x128x384.size inb_S3x128x384_S1x128x384_0_0_0
abbrev r1_2 : Rect S3x128x384 := Rect.unit (s := S3x128x384) ![1, 0, 0] S1x128x384.size inb_S3x128x384_S1x128x384_1_0_0
abbrev r1_3 : Rect S3x128x384 := Rect.unit (s := S3x128x384) ![2, 0, 0] S1x128x384.size inb_S3x128x384_S1x128x384_2_0_0
/-- row 0, 1, 2 of a per-branch parameter array (windows 4 … 9) -/
abbrev r1_4 : Rect S3x384 := Rect.unit (s := S3x384) ![0, 0] S1x384.size inb_S3x384_S1x384_0_0
abbrev r1_5 : Rect S3x384 := Rect.unit (s := S3x384) ![1, 0] S1x384.size inb_S3x384_S1x384_1_0
abbrev r1_6 : Rect S3x384 := Rect.unit (s := S3x384) ![2, 0] S1x384.size inb_S3x384_S1x384_2_0
/-- the whole output block (window 10) -/
abbrev r1_7 : Rect S2000x384 := Rect.unit (s := S2000x384) ![0, 0] S2000x384.size inb_S2000x384_S2000x384_0_0

/-! ## What the body leaves in the output window's buffer -/

/-- Window 10's staging buffer after the body, from the input windows' blocks (x0, x1, x2 the three row blocks; x3 the
    weights; x4 bias, x5 gamma, x6 beta, x7 mixing weights, x8 mean, x9 variance): its one store as a piece
    (Lib/Pipeline/FrameBody.lean `View.canon`; the payloads are the skeleton's, composed as the body's three parts
    hand them on: branch 0 normalised, weighted and accumulated, then branch 1, then branch 2). -/
def out1_10 (x0 : Vec F S2000x128 .bf16) (x1 : Vec F S2000x128 .bf16) (x2 : Vec F S2000x128 .bf16) (x3 : Vec F S3x128x384 .f32)
    (x4 : Vec F S3x384 .f32) (x5 : Vec F S3x384 .f32) (x6 : Vec F S3x384 .f32) (x7 : Vec F S3x384 .f32) (x8 : Vec F S3x384 .f32)
    (x9 : Vec F S3x384 .f32) : Vec F S2000x384 .f32 :=
  View.canon [⟨r1_7, k1_pay1
    (k1_pay7
      (k1_pay5 (k1_pay4 (View.ld x0 r1_0) (View.ld x3 r1_1) (View.ld x4 r1_4) (View.ld x8 r1_4) (View.ld x9 r1_4) (View.ld x5 r1_4) (View.ld x6 r1_4))
        (View.ld x7 r1_4))
      (k1_pay6 (k1_pay2 (View.ld x1 r1_0)) (View.ld x3 r1_2) (View.ld x4 r1_5) (View.ld x8 r1_5) (View.ld x9 r1_5) (View.ld x5 r1_5) (View.ld x6 r1_5))
      (View.ld x7 r1_5))
    (k1_pay8 (k1_pay3 (View.ld x2 r1_0)) (View.ld x3 r1_3) (View.ld x4 r1_6) (View.ld x8 r1_6) (View.ld x9 r1_6) (View.ld x5 r1_6) (View.ld x6 r1_6))
    (View.ld x7 r1_6)⟩]

/-- Its store is the whole buffer (checked by evaluation), so it covers it. -/
theorem cover1_10 (p0 : Vec F S2000x384 .f32) (y : S2000x384.Idx) :
    ∃ pc ∈ ([⟨r1_7, p0⟩] : List (View.Piece (Elt F) S2000x384 .f32)), y ∈ pc.1.set :=
  View.cover_of_tiled [⟨r1_7, p0⟩] S2000x384.size (by rfl) y

/-! ## The body's triple -/

set_option maxHeartbeats 4000000 in
/-- The kernel body on whole staging memrefs, the inputs' at read contents `xW` and the output's at anything, runs to
    the continuation holding the inputs' as they were and the output's at `out1_10` of the inputs': the printed functions
    are their skeletons, run through every part call. -/
theorem sound_kernel1 (c : Dev nD) (E : Set ℕ) (i : grid1.Coords)
    (arg1 : Memref sig .tc .vmem S2000x128 .bf16) (harg1 : arg1.IsWhole) (arg2 : Memref sig .tc .vmem S2000x128 .bf16) (harg2 : arg2.IsWhole)
    (arg3 : Memref sig .tc .vmem S2000x128 .bf16) (harg3 : arg3.IsWhole) (arg4 : Memref sig .tc .vmem S3x128x384 .f32) (harg4 : arg4.IsWhole)
    (arg5 : Memref sig .tc .vmem S3x384 .f32) (harg5 : arg5.IsWhole) (arg6 : Memref sig .tc .vmem S3x384 .f32) (harg6 : arg6.IsWhole)
    (arg7 : Memref sig .tc .vmem S3x384 .f32) (harg7 : arg7.IsWhole) (arg8 : Memref sig .tc .vmem S3x384 .f32) (harg8 : arg8.IsWhole)
    (arg9 : Memref sig .tc .vmem S3x384 .f32) (harg9 : arg9.IsWhole) (arg10 : Memref sig .tc .vmem S3x384 .f32) (harg10 : arg10.IsWhole)
    (arg11 : Memref sig .tc .vmem S2000x384 .f32) (harg11 : arg11.IsWhole)
    (x0 : Vec F S2000x128 .bf16) (x1 : Vec F S2000x128 .bf16) (x2 : Vec F S2000x128 .bf16) (x3 : Vec F S3x128x384 .f32)
    (x4 : Vec F S3x384 .f32) (x5 : Vec F S3x384 .f32) (x6 : Vec F S3x384 .f32) (x7 : Vec F S3x384 .f32) (x8 : Vec F S3x384 .f32)
    (x9 : Vec F S3x384 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare x9
            ∗ owns (c : Thread nD τ) arg11 fullShare (out1_10 x0 x1 x2 x3 x4 x5 x6 x7 x8 x9)) -∗ K ⟨⟩))
      ⊢ wp frame (wpE (defs₀ (F := F)) Variants.none c none) E
          (cc1__combine_kernel_noadd i arg1 harg1 arg2 harg2 arg3 harg3 arg4 harg4 arg5 harg5 arg6 harg6 arg7 harg7 arg8 harg8 arg9 harg9 arg10 harg10 arg11 harg11) K := by
  simp only [cc1__combine_kernel_noadd_eq_skeleton]; unfold cc1__combine_kernel_noadd_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover1_10 _)

/-! ## The pipeline's proof data -/

/-- The proof data of pipeline 1 on core `c`: the arrays as the region finds them (`V`); after the body at
    point `t` each input's buffer at its block and the output's at `out1_10` of the input blocks; the invariant the
    class's (Lib/Pipeline/Frame.lean `ΦA`: the scoped rest and the generator register, untouched); nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => out1_10 (iblk1 V c 0 t) (iblk1 V c 1 t) (iblk1 V c 2 t) (iblk1 V c 3 t) (iblk1 V c 4 t) (iblk1 V c 5 t)
        (iblk1 V c 6 t) (iblk1 V c 7 t) (iblk1 V c 8 t) (iblk1 V c 9 t)
  Φ _ := Pipeline.ΦA spec1 c
  q _ := fullShare
  owed _ := 0

/-- The proof data's arrays are the region-entry contents (the proof data's definition projected, by `dsimp`). -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t =
    out1_10 (iblk1 V c 0 t) (iblk1 V c 1 t) (iblk1 V c 2 t) (iblk1 V c 3 t) (iblk1 V c 4 t) (iblk1 V c 5 t)
      (iblk1 V c 6 t) (iblk1 V c 7 t) (iblk1 V c 8 t) (iblk1 V c 9 t) := by dsimp only [dat1]

/-- Each input's current staging buffer holds its block at every point, fetched there or not (`before1_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel1 c Set.univ (grid1.coords t) _ _ _ _ _ _ _ _ _ _ _ _ _ _ _ _ _ _ _ _ _ _
    (iblk1 V c 0 t) (iblk1 V c 1 t) (iblk1 V c 2 t) (iblk1 V c 3 t) (iblk1 V c 4 t) (iblk1 V c 5 t)
    (iblk1 V c 6 t) (iblk1 V c 7 t) (iblk1 V c 8 t) (iblk1 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.K.Stats2Runs.lean ====
import proofs.«414290_j6631429505478_3_alg».proof.Proof.Gen.Kernel.Launch
import proofs.«414290_j6631429505478_3_alg».proof.Proof.Gen.Kernel.Skeleton
import proofs.«414290_j6631429505478_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2 (the statistics kernel at width 256): what its cases share

The region-entry contents `V` are a parameter throughout. -/

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is `V`'s and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof
    data whose array is `V`'s and whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch condition -/

/-- The condition of the body's conditional (reset of both outputs), from the grid coordinates. -/
abbrev cond2_0 (i : grid2.Coords) : Prop := (Scalar.cmpi .ne (Scalar.extui (Scalar.cmpi .eq (BitVec.ofNat 32 (i 1).val) 0#32)) 0#32) = 1#1
/-- It holds exactly at the first point of each core's row of 25 — decided over the grid. -/
theorem hcond2_0 : ∀ t : Fin cfg2.N, cond2_0 (grid2.coords t) ↔ t.val % 25 = 0 :=
  (by decide +kernel : ∀ t : Fin grid2.N, cond2_0 (grid2.coords t) ↔ t.val % 25 = 0)

/-! ## The staging memrefs -/

/-- One staging buffer of each output window, through which its contents are stated (the choice does not matter). -/
abbrev VO2_5 : View sig .tc .vmem S1x3x256 .f32 := (Memref.whole cc2_stg5_0 : Memref sig .tc .vmem S1x3x256 .f32).view
abbrev VO2_6 : View sig .tc .vmem S1x3x256 .f32 := (Memref.whole cc2_stg6_0 : Memref sig .tc .vmem S1x3x256 .f32).view
/-- Each window's current staging memref at point `t`, spelled as the pipeline passes it, and its wholeness. -/
abbrev ms2_0 (t : Fin cfg2.N) : Memref sig .tc .vmem S1000x128 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1000x128 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1000x128 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S3x128x256 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S3x256 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x3x256 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x3x256 .f32 := win2_6.stage (cfg2.slots t 6)
abbrev hs2_6 (t : Fin cfg2.N) : (ms2_6 t).IsWhole := hstage2_6 ((cfg2.slots t 6).cast nbuf2_6)

end Cert.Kernel.Hand

end
-- ==== Proof.K.Stats2RunA.lean ====
import proofs.«414290_j6631429505478_3_alg».proof.Proof.K.Stats2Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: the whole-body run in case A -/

set_option maxHeartbeats 4000000 in
/-- What the body's stores leave in each output's staging memref, as pieces (last first), IN CASE A (the conditional taken:
    the first point of a core's row), with the proof that on whole staging memrefs — the inputs' at their contents, the
    outputs' at anything — the body runs to the continuation holding the inputs' as they were and each output's buffer
    with its pieces written. -/
noncomputable def kernelRun2_A (c : Dev nD) (i : grid2.Coords) (arg2 : Memref sig .tc .vmem S1000x128 .bf16) (harg2 : arg2.IsWhole) (arg3 : Memref sig .tc .vmem S1000x128 .bf16) (harg3 : arg3.IsWhole) (arg4 : Memref sig .tc .vmem S1000x128 .bf16) (harg4 : arg4.IsWhole) (arg5 : Memref sig .tc .vmem S3x128x256 .f32) (harg5 : arg5.IsWhole) (arg6 : Memref sig .tc .vmem S3x256 .f32) (harg6 : arg6.IsWhole) (arg7 : Memref sig .tc .vmem S1x3x256 .f32) (harg7 : arg7.IsWhole) (arg8 : Memref sig .tc .vmem S1x3x256 .f32) (harg8 : arg8.IsWhole) (hc0 : cond2_0 i)
    (x0 : Vec F S1000x128 .bf16) (x1 : Vec F S1000x128 .bf16) (x2 : Vec F S1000x128 .bf16) (x3 : Vec F S3x128x256 .f32) (x4 : Vec F S3x256 .f32) :
    Σ' (L5 : List (View.Piece (Elt F) S1x3x256 .f32)), { L6 : List (View.Piece (Elt F) S1x3x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6)) -∗ K ⟨⟩))
          ⊢ wp frame (wpE (defs₀ (F := F)) Variants.none c none) E (cc2__stats_kernel i arg2 harg2 arg3 harg3 arg4 harg4 arg5 harg5 arg6 harg6 arg7 harg7 arg8 harg8) K } := by
  refine ⟨?_, ?_, fun E K => ?run⟩
  case run =>
    simp only [cc2__stats_kernel_eq_skeleton]; unfold cc2__stats_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact H6

end Cert.Kernel.Hand

end
-- ==== Proof.K.Stats2RunB.lean ====
import proofs.«414290_j6631429505478_3_alg».proof.Proof.K.Stats2RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: the whole-body run in case B -/

set_option maxHeartbeats 4000000 in
/-- What the body's stores leave in each output's staging memref, as pieces (last first), IN CASE B (the conditional not
    taken: the other points of a core's row), with the proof that on whole staging memrefs — the inputs' at their contents,
    the outputs', which the body reads before covering, at their running contents `xo·` — the body runs to the continuation
    holding the inputs' as they were and each output's buffer with its pieces written. -/
noncomputable def kernelRun2_B (c : Dev nD) (i : grid2.Coords) (arg2 : Memref sig .tc .vmem S1000x128 .bf16) (harg2 : arg2.IsWhole) (arg3 : Memref sig .tc .vmem S1000x128 .bf16) (harg3 : arg3.IsWhole) (arg4 : Memref sig .tc .vmem S1000x128 .bf16) (harg4 : arg4.IsWhole) (arg5 : Memref sig .tc .vmem S3x128x256 .f32) (harg5 : arg5.IsWhole) (arg6 : Memref sig .tc .vmem S3x256 .f32) (harg6 : arg6.IsWhole) (arg7 : Memref sig .tc .vmem S1x3x256 .f32) (harg7 : arg7.IsWhole) (arg8 : Memref sig .tc .vmem S1x3x256 .f32) (harg8 : arg8.IsWhole) (hc0 : ¬cond2_0 i)
    (x0 : Vec F S1000x128 .bf16) (x1 : Vec F S1000x128 .bf16) (x2 : Vec F S1000x128 .bf16) (x3 : Vec F S3x128x256 .f32) (x4 : Vec F S3x256 .f32) (xo5 : Vec F S1x3x256 .f32) (xo6 : Vec F S1x3x256 .f32) :
    Σ' (L5 : List (View.Piece (Elt F) S1x3x256 .f32)), { L6 : List (View.Piece (Elt F) S1x3x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo5 ∗ owns (c : Thread nD τ) arg8 fullShare xo6
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6)) -∗ K ⟨⟩))
          ⊢ wp frame (wpE (defs₀ (F := F)) Variants.none c none) E (cc2__stats_kernel i arg2 harg2 arg3 harg3 arg4 harg4 arg5 harg5 arg6 harg6 arg7 harg7 arg8 harg8) K } := by
  refine ⟨?_, ?_, fun E K => ?run⟩
  case run =>
    simp only [cc2__stats_kernel_eq_skeleton]; unfold cc2__stats_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact H6

end Cert.Kernel.Hand

end
-- ==== Proof.K.Stats2.lean ====
import proofs.«414290_j6631429505478_3_alg».proof.Proof.K.Stats2RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2 (the statistics kernel at width 256): the frame half

Both outputs' blocks are revisited over a core's row of 25 points: reset at the row's first point, added to at the
others, written back at its last. -/

variable (V : (c : Dev nD) → (b : Ref sig .tc) → Buf (Elt F) ((c : Thread nD τ).loc b))

/-- Case A's pieces for output 5 tile its block, so they cover it. -/
theorem cover2_A_5 (c : Dev nD) (i : grid2.Coords) (arg2 : Memref sig .tc .vmem S1000x128 .bf16) (harg2 : arg2.IsWhole) (arg3 : Memref sig .tc .vmem S1000x128 .bf16) (harg3 : arg3.IsWhole) (arg4 : Memref sig .tc .vmem S1000x128 .bf16) (harg4 : arg4.IsWhole) (arg5 : Memref sig .tc .vmem S3x128x256 .f32) (harg5 : arg5.IsWhole) (arg6 : Memref sig .tc .vmem S3x256 .f32) (harg6 : arg6.IsWhole) (arg7 : Memref sig .tc .vmem S1x3x256 .f32) (harg7 : arg7.IsWhole) (arg8 : Memref sig .tc .vmem S1x3x256 .f32) (harg8 : arg8.IsWhole) (hc0 : cond2_0 i)
    (x0 : Vec F S1000x128 .bf16) (x1 : Vec F S1000x128 .bf16) (x2 : Vec F S1000x128 .bf16) (x3 : Vec F S3x128x256 .f32) (x4 : Vec F S3x256 .f32) (y : S1x3x256.Idx) :
    ∃ pc ∈ (kernelRun2_A c i arg2 harg2 arg3 harg3 arg4 harg4 arg5 harg5 arg6 harg6 arg7 harg7 arg8 harg8 hc0 x0 x1 x2 x3 x4).1, y ∈ pc.1.set :=
  View.cover_of_tiledL (kernelRun2_A c i arg2 harg2 arg3 harg3 arg4 harg4 arg5 harg5 arg6 harg6 arg7 harg7 arg8 harg8 hc0 x0 x1 x2 x3 x4).1 S1x3x256.size (by sl_kernel_rfl) y

/-- What case A leaves in output 5's staging buffer: its pieces read back over junk. -/
def out2_A_5 (c : Dev nD) (i : grid2.Coords) (arg2 : Memref sig .tc .vmem S1000x128 .bf16) (harg2 : arg2.IsWhole) (arg3 : Memref sig .tc .vmem S1000x128 .bf16) (harg3 : arg3.IsWhole) (arg4 : Memref sig .tc .vmem S1000x128 .bf16) (harg4 : arg4.IsWhole) (arg5 : Memref sig .tc .vmem S3x128x256 .f32) (harg5 : arg5.IsWhole) (arg6 : Memref sig .tc .vmem S3x256 .f32) (harg6 : arg6.IsWhole) (arg7 : Memref sig .tc .vmem S1x3x256 .f32) (harg7 : arg7.IsWhole) (arg8 : Memref sig .tc .vmem S1x3x256 .f32) (harg8 : arg8.IsWhole) (hc0 : cond2_0 i)
    (x0 : Vec F S1000x128 .bf16) (x1 : Vec F S1000x128 .bf16) (x2 : Vec F S1000x128 .bf16) (x3 : Vec F S3x128x256 .f32) (x4 : Vec F S3x256 .f32) : Vec F S1x3x256 .f32 :=
  VO2_5.read (Elt F) (VO2_5.writes (Elt F) VO2_5.junk (kernelRun2_A c i arg2 harg2 arg3 harg3 arg4 harg4 arg5 harg5 arg6 harg6 arg7 harg7 arg8 harg8 hc0 x0 x1 x2 x3 x4).1)

/-- Case A's pieces for output 6 tile its block, so they cover it. -/
theorem cover2_A_6 (c : Dev nD) (i : grid2.Coords) (arg2 : Memref sig .tc .vmem S1000x128 .bf16) (harg2 : arg2.IsWhole) (arg3 : Memref sig .tc .vmem S1000x128 .bf16) (harg3 : arg3.IsWhole) (arg4 : Memref sig .tc .vmem S1000x128 .bf16) (harg4 : arg4.IsWhole) (arg5 : Memref sig .tc .vmem S3x128x256 .f32) (harg5 : arg5.IsWhole) (arg6 : Memref sig .tc .vmem S3x256 .f32) (harg6 : arg6.IsWhole) (arg7 : Memref sig .tc .vmem S1x3x256 .f32) (harg7 : arg7.IsWhole) (arg8 : Memref sig .tc .vmem S1x3x256 .f32) (harg8 : arg8.IsWhole) (hc0 : cond2_0 i)
    (x0 : Vec F S1000x128 .bf16) (x1 : Vec F S1000x128 .bf16) (x2 : Vec F S1000x128 .bf16) (x3 : Vec F S3x128x256 .f32) (x4 : Vec F S3x256 .f32) (y : S1x3x256.Idx) :
    ∃ pc ∈ (kernelRun2_A c i arg2 harg2 arg3 harg3 arg4 harg4 arg5 harg5 arg6 harg6 arg7 harg7 arg8 harg8 hc0 x0 x1 x2 x3 x4).2.1, y ∈ pc.1.set :=
  View.cover_of_tiledL (kernelRun2_A c i arg2 harg2 arg3 harg3 arg4 harg4 arg5 harg5 arg6 harg6 arg7 harg7 arg8 harg8 hc0 x0 x1 x2 x3 x4).2.1 S1x3x256.size (by sl_kernel_rfl) y

/-- What case A leaves in output 6's staging buffer: its pieces read back over junk. -/
def out2_A_6 (c : Dev nD) (i : grid2.Coords) (arg2 : Memref sig .tc .vmem S1000x128 .bf16) (harg2 : arg2.IsWhole) (arg3 : Memref sig .tc .vmem S1000x128 .bf16) (harg3 : arg3.IsWhole) (arg4 : Memref sig .tc .vmem S1000x128 .bf16) (harg4 : arg4.IsWhole) (arg5 : Memref sig .tc .vmem S3x128x256 .f32) (harg5 : arg5.IsWhole) (arg6 : Memref sig .tc .vmem S3x256 .f32) (harg6 : arg6.IsWhole) (arg7 : Memref sig .tc .vmem S1x3x256 .f32) (harg7 : arg7.IsWhole) (arg8 : Memref sig .tc .vmem S1x3x256 .f32) (harg8 : arg8.IsWhole) (hc0 : cond2_0 i)
    (x0 : Vec F S1000x128 .bf16) (x1 : Vec F S1000x128 .bf16) (x2 : Vec F S1000x128 .bf16) (x3 : Vec F S3x128x256 .f32) (x4 : Vec F S3x256 .f32) : Vec F S1x3x256 .f32 :=
  VO2_6.read (Elt F) (VO2_6.writes (Elt F) VO2_6.junk (kernelRun2_A c i arg2 harg2 arg3 harg3 arg4 harg4 arg5 harg5 arg6 harg6 arg7 harg7 arg8 harg8 hc0 x0 x1 x2 x3 x4).2.1)

/-- Case B's pieces for output 5 tile its block, so they cover it. -/
theorem cover2_B_5 (c : Dev nD) (i : grid2.Coords) (arg2 : Memref sig .tc .vmem S1000x128 .bf16) (harg2 : arg2.IsWhole) (arg3 : Memref sig .tc .vmem S1000x128 .bf16) (harg3 : arg3.IsWhole) (arg4 : Memref sig .tc .vmem S1000x128 .bf16) (harg4 : arg4.IsWhole) (arg5 : Memref sig .tc .vmem S3x128x256 .f32) (harg5 : arg5.IsWhole) (arg6 : Memref sig .tc .vmem S3x256 .f32) (harg6 : arg6.IsWhole) (arg7 : Memref sig .tc .vmem S1x3x256 .f32) (harg7 : arg7.IsWhole) (arg8 : Memref sig .tc .vmem S1x3x256 .f32) (harg8 : arg8.IsWhole) (hc0 : ¬cond2_0 i)
    (x0 : Vec F S1000x128 .bf16) (x1 : Vec F S1000x128 .bf16) (x2 : Vec F S1000x128 .bf16) (x3 : Vec F S3x128x256 .f32) (x4 : Vec F S3x256 .f32) (xo5 : Vec F S1x3x256 .f32) (xo6 : Vec F S1x3x256 .f32) (y : S1x3x256.Idx) :
    ∃ pc ∈ (kernelRun2_B c i arg2 harg2 arg3 harg3 arg4 harg4 arg5 harg5 arg6 harg6 arg7 harg7 arg8 harg8 hc0 x0 x1 x2 x3 x4 xo5 xo6).1, y ∈ pc.1.set :=
  View.cover_of_tiledL (kernelRun2_B c i arg2 harg2 arg3 harg3 arg4 harg4 arg5 harg5 arg6 harg6 arg7 harg7 arg8 harg8 hc0 x0 x1 x2 x3 x4 xo5 xo6).1 S1x3x256.size (by sl_kernel_rfl) y

/-- What case B leaves in output 5's staging buffer: its pieces read back over junk. -/
def out2_B_5 (c : Dev nD) (i : grid2.Coords) (arg2 : Memref sig .tc .vmem S1000x128 .bf16) (harg2 : arg2.IsWhole) (arg3 : Memref sig .tc .vmem S1000x128 .bf16) (harg3 : arg3.IsWhole) (arg4 : Memref sig .tc .vmem S1000x128 .bf16) (harg4 : arg4.IsWhole) (arg5 : Memref sig .tc .vmem S3x128x256 .f32) (harg5 : arg5.IsWhole) (arg6 : Memref sig .tc .vmem S3x256 .f32) (harg6 : arg6.IsWhole) (arg7 : Memref sig .tc .vmem S1x3x256 .f32) (harg7 : arg7.IsWhole) (arg8 : Memref sig .tc .vmem S1x3x256 .f32) (harg8 : arg8.IsWhole) (hc0 : ¬cond2_0 i)
    (x0 : Vec F S1000x128 .bf16) (x1 : Vec F S1000x128 .bf16) (x2 : Vec F S1000x128 .bf16) (x3 : Vec F S3x128x256 .f32) (x4 : Vec F S3x256 .f32) (xo5 : Vec F S1x3x256 .f32) (xo6 : Vec F S1x3x256 .f32) : Vec F S1x3x256 .f32 :=
  VO2_5.read (Elt F) (VO2_5.writes (Elt F) VO2_5.junk (kernelRun2_B c i arg2 harg2 arg3 harg3 arg4 harg4 arg5 harg5 arg6 harg6 arg7 harg7 arg8 harg8 hc0 x0 x1 x2 x3 x4 xo5 xo6).1)

/-- Case B's pieces for output 6 tile its block, so they cover it. -/
theorem cover2_B_6 (c : Dev nD) (i : grid2.Coords) (arg2 : Memref sig .tc .vmem S1000x128 .bf16) (harg2 : arg2.IsWhole) (arg3 : Memref sig .tc .vmem S1000x128 .bf16) (harg3 : arg3.IsWhole) (arg4 : Memref sig .tc .vmem S1000x128 .bf16) (harg4 : arg4.IsWhole) (arg5 : Memref sig .tc .vmem S3x128x256 .f32) (harg5 : arg5.IsWhole) (arg6 : Memref sig .tc .vmem S3x256 .f32) (harg6 : arg6.IsWhole) (arg7 : Memref sig .tc .vmem S1x3x256 .f32) (harg7 : arg7.IsWhole) (arg8 : Memref sig .tc .vmem S1x3x256 .f32) (harg8 : arg8.IsWhole) (hc0 : ¬cond2_0 i)
    (x0 : Vec F S1000x128 .bf16) (x1 : Vec F S1000x128 .bf16) (x2 : Vec F S1000x128 .bf16) (x3 : Vec F S3x128x256 .f32) (x4 : Vec F S3x256 .f32) (xo5 : Vec F S1x3x256 .f32) (xo6 : Vec F S1x3x256 .f32) (y : S1x3x256.Idx) :
    ∃ pc ∈ (kernelRun2_B c i arg2 harg2 arg3 harg3 arg4 harg4 arg5 harg5 arg6 harg6 arg7 harg7 arg8 harg8 hc0 x0 x1 x2 x3 x4 xo5 xo6).2.1, y ∈ pc.1.set :=
  View.cover_of_tiledL (kernelRun2_B c i arg2 harg2 arg3 harg3 arg4 harg4 arg5 harg5 arg6 harg6 arg7 harg7 arg8 harg8 hc0 x0 x1 x2 x3 x4 xo5 xo6).2.1 S1x3x256.size (by sl_kernel_rfl) y

/-- What case B leaves in output 6's staging buffer: its pieces read back over junk. -/
def out2_B_6 (c : Dev nD) (i : grid2.Coords) (arg2 : Memref sig .tc .vmem S1000x128 .bf16) (harg2 : arg2.IsWhole) (arg3 : Memref sig .tc .vmem S1000x128 .bf16) (harg3 : arg3.IsWhole) (arg4 : Memref sig .tc .vmem S1000x128 .bf16) (harg4 : arg4.IsWhole) (arg5 : Memref sig .tc .vmem S3x128x256 .f32) (harg5 : arg5.IsWhole) (arg6 : Memref sig .tc .vmem S3x256 .f32) (harg6 : arg6.IsWhole) (arg7 : Memref sig .tc .vmem S1x3x256 .f32) (harg7 : arg7.IsWhole) (arg8 : Memref sig .tc .vmem S1x3x256 .f32) (harg8 : arg8.IsWhole) (hc0 : ¬cond2_0 i)
    (x0 : Vec F S1000x128 .bf16) (x1 : Vec F S1000x128 .bf16) (x2 : Vec F S1000x128 .bf16) (x3 : Vec F S3x128x256 .f32) (x4 : Vec F S3x256 .f32) (xo5 : Vec F S1x3x256 .f32) (xo6 : Vec F S1x3x256 .f32) : Vec F S1x3x256 .f32 :=
  VO2_6.read (Elt F) (VO2_6.writes (Elt F) VO2_6.junk (kernelRun2_B c i arg2 harg2 arg3 harg3 arg4 harg4 arg5 harg5 arg6 harg6 arg7 harg7 arg8 harg8 hc0 x0 x1 x2 x3 x4 xo5 xo6).2.1)

/-! ## What the outputs hold after each point -/

/-- THE ACCUMULATION. What the two outputs' staging buffers hold after the body at position `n`: the case the closed
    form selects at `n`, run at the point's memrefs and input blocks; in case B over what this leaves at `n - 1`
    (the buffers are not written back between). The recursion restarts at every first point of a row. -/
def outsAt2 (c : Dev nD) : (n : ℕ) → n < cfg2.N → Vec F S1x3x256 .f32 × Vec F S1x3x256 .f32
  | 0, hn => (out2_A_5 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩), out2_A_6 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩))
  | n + 1, hn =>
    if h0 : (n + 1) % 25 = 0 then
      (out2_A_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩), out2_A_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩))
    else
      (out2_B_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).1 (outsAt2 c n (Nat.lt_of_succ_lt hn)).2, out2_B_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).1 (outsAt2 c n (Nat.lt_of_succ_lt hn)).2)

/-- `outsAt2` at a point of case A: that case's contents. -/
theorem outsAt2_A (c : Dev nD) (t : Fin cfg2.N) (h0 : t.val % 25 = 0) :
    outsAt2 V c t.val t.isLt = (out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) ((hcond2_0 t).mpr h0) (iblk2 V c 0 t) (iblk2 V c 1 t) (iblk2 V c 2 t) (iblk2 V c 3 t) (iblk2 V c 4 t), out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) ((hcond2_0 t).mpr h0) (iblk2 V c 0 t) (iblk2 V c 1 t) (iblk2 V c 2 t) (iblk2 V c 3 t) (iblk2 V c 4 t)) := by
  obtain ⟨n, hn⟩ := t
  cases n with
  | zero => exact rfl
  | succ n => exact (dif_pos h0).trans rfl

/-- `outsAt2` at a point of case B: that case's contents, over what the point before left. -/
theorem outsAt2_B (c : Dev nD) (t : Fin cfg2.N) (h0 : ¬t.val % 25 = 0) :
    outsAt2 V c t.val t.isLt = (out2_B_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (fun h => h0 ((hcond2_0 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).1 (outsAt2 V c (t.val - 1) (Nat.lt_of_le_of_lt (Nat.sub_le _ _) t.isLt)).2, out2_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (fun h => h0 ((hcond2_0 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).1 (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data of region 2's pipeline on core `c`: the arrays as the region finds them; after the body at point
    `t` each input's buffer at its block and the outputs' at `outsAt2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
    | ⟨6, _⟩ => (outsAt2 V c t.val t.isLt).2
  Φ _ := Pipeline.ΦA spec2 c
  q _ := fullShare
  owed _ := 0

/-- The proof data's arrays are the region-entry contents. -/
theorem A_eq2 (c : Dev nD) (w : Fin cfg2.W) :
    (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).1 := by dsimp only [dat2]
theorem after2_6 (c : Dev nD) (t : Fin cfg2.N) : (dat2 V c).after 6 t = (outsAt2 V c t.val t.isLt).2 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
/-- At a point of case B output 5's current staging buffer holds what the body left at the point before: the point is not
    a row's first, so the buffer was not written back between. -/
theorem before2_5_B (c : Dev nD) (t : Fin cfg2.N) (h0 : ¬t.val % 25 = 0) (d) :
    (dat2 V c).before 5 t d = (outsAt2 V c (t.val - 1) (Nat.lt_of_le_of_lt (Nat.sub_le _ _) t.isLt)).1 := by
  have hN : t.val < 50 := lt_of_lt_of_eq t.isLt (show cfg2.N = 50 from N_2)
  rw [Dat.before_out_kept _ 5 rfl t (by omega) (Bool.eq_false_iff.mpr fun h => by have := (flush2_5 _).mp h; dsimp only at this; omega)
    (fun _ => rfl) (fun _ _ => rfl)]
  dsimp only [dat2]
/-- At a point of case B output 6's current staging buffer holds what the body left at the point before: the point is not
    a row's first, so the buffer was not written back between. -/
theorem before2_6_B (c : Dev nD) (t : Fin cfg2.N) (h0 : ¬t.val % 25 = 0) (d) :
    (dat2 V c).before 6 t d = (outsAt2 V c (t.val - 1) (Nat.lt_of_le_of_lt (Nat.sub_le _ _) t.isLt)).2 := by
  have hN : t.val < 50 := lt_of_lt_of_eq t.isLt (show cfg2.N = 50 from N_2)
  rw [Dat.before_out_kept _ 6 rfl t (by omega) (Bool.eq_false_iff.mpr fun h => by have := (flush2_6 _).mp h; dsimp only at this; omega)
    (fun _ => rfl) (fun _ _ => rfl)]
  dsimp only [dat2]

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t)
    ∗ owns (c : Thread nD τ) (ms2_6 t) fullShare ((dat2 V c).after 6 t))

set_option maxHeartbeats 1600000 in
/-- The body at any point: the inputs' memrefs hold their blocks; the closed form says which case the point is in; in
    case B the outputs' memrefs hold what the point before left; so the run applies; the invariant passes through
    unread; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  have hN : t.val < 50 := lt_of_lt_of_eq t.isLt (show cfg2.N = 50 from N_2)
  by_cases h0 : t.val % 25 = 0
  · rw [outsAt2_A V c t h0]
    dsimp only
    unfold out2_A_5 out2_A_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun2_A c (grid2.coords t) _ _ _ _ _ _ _ _ _ _ _ _ _ _ ((hcond2_0 t).mpr h0) (iblk2 V c 0 t) (iblk2 V c 1 t) (iblk2 V c 2 t) (iblk2 V c 3 t) (iblk2 V c 4 t)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover2_A_5 c _ _ _ _ _ _ _ _ _ _ _ _ _ _ _ _ _ _ _ _ _)
    unfold owns; iexists _; isplitr
    swap; · iexact H6
    ipureintro; exact View.read_writes_of_cover _ _ _ _ _ (cover2_A_6 c _ _ _ _ _ _ _ _ _ _ _ _ _ _ _ _ _ _ _ _ _)
  · rw [outsAt2_B V c t h0]
    dsimp only
    simp only [before2_5_B V c t h0, before2_6_B V c t h0]
    unfold out2_B_5 out2_B_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun2_B c (grid2.coords t) _ _ _ _ _ _ _ _ _ _ _ _ _ _ (fun h => h0 ((hcond2_0 t).mp h)) (iblk2 V c 0 t) (iblk2 V c 1 t) (iblk2 V c 2 t) (iblk2 V c 3 t) (iblk2 V c 4 t) _ _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover2_B_5 c _ _ _ _ _ _ _ _ _ _ _ _ _ _ _ _ _ _ _ _ _ _ _)
    unfold owns; iexists _; isplitr
    swap; · iexact H6
    ipureintro; exact View.read_writes_of_cover _ _ _ _ _ (cover2_B_6 c _ _ _ _ _ _ _ _ _ _ _ _ _ _ _ _ _ _ _ _ _ _ _)

/-- The library's body obligation, at every point. -/
theorem body_obligation2 (c : Dev nD) :
    BodyObligation (dat2 (F := F) V c) (defs₀ (F := F)) Variants.none () Set.univ := fun t => by
  rw [bigSep_W2, bigSep_W2]
  exact sound_body2 V c t

end Cert.Kernel.Hand

end
-- ==== Proof.K.Comb3.lean ====
/- REGION 3 of program Kernel (the combine kernel with addend, 256 columns), at a parameter V: the
   TensorCore's buffer contents when the region is entered. Each window's block at a point, what the body finds in
   every input window's buffer, what its two stores leave in the output window's buffer as a closed function of the
   input blocks, the body's triple, the pipeline's proof data and the body obligation. -/
import proofs.«414290_j6631429505478_3_alg».proof.Proof.Gen.Kernel.Launch
import proofs.«414290_j6631429505478_3_alg».proof.Proof.Gen.Kernel.Skeleton
import proofs.«414290_j6631429505478_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2000 rows: the elaborator's structural look recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! Every input window's current staging buffer holds its block at every point, fetched there or not, for ANY proof
    data whose array is `V`'s (`hA`) and whose body leaves the block in place (`hafter`). Windows 0, 1, 2 (the three
    row blocks) and 10 (the addend's row block) are fetched at every point; windows 3 … 9 (the whole parameter arrays) at
    the first point only, their block index constant: unfetched, the buffer still holds the previous point's block,
    which is this point's. -/

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)
theorem before3_9_of {c : Dev nD} (dat : Dat τ (Elt F) Unit ℕ (UR sig nD τ) ℕ cfg3 c) (hA : dat.A 9 = V c (Pipeline.arrRef spec3 9))
    (hafter : ∀ t, dat.after 9 t = iblk3 V c 9 t) (t : Fin cfg3.N) (d) : dat.before 9 t d = iblk3 V c 9 t :=
  (dat.before_in_eq_fetched 9 rfl (fun _ => rfl) (fun _ _ _ => rfl) (fun t => by rw [hafter]; unfold Dat.blockOf iblk3; rw [hA]; try rfl) t d).trans
    (by unfold Dat.fetched Dat.blockOf iblk3; rw [hA]; try rfl)
theorem before3_10_of {c : Dev nD} (dat : Dat τ (Elt F) Unit ℕ (UR sig nD τ) ℕ cfg3 c) (hA : dat.A 10 = V c (Pipeline.arrRef spec3 10))
    (hafter : ∀ t, dat.after 10 t = iblk3 V c 10 t) (t : Fin cfg3.N) (d) : dat.before 10 t d = iblk3 V c 10 t :=
  (dat.before_in_eq_fetched 10 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- a whole row block of 128 columns (windows 0, 1, 2 and the addend's window 10) -/
abbrev r3_0 : Rect S2000x128 := Rect.unit (s := S2000x128) ![0, 0] S2000x128.size inb_S2000x128_S2000x128_0_0
/-- branch 0, 1, 2 of the weight array (window 3) -/
abbrev r3_1 : Rect S3x128x256 := Rect.unit (s := S3x128x256) ![0, 0, 0] S1x128x256.size inb_S3x128x256_S1x128x256_0_0_0
abbrev r3_2 : Rect S3x128x256 := Rect.unit (s := S3x128x256) ![1, 0, 0] S1x128x256.size inb_S3x128x256_S1x128x256_1_0_0
abbrev r3_3 : Rect S3x128x256 := Rect.unit (s := S3x128x256) ![2, 0, 0] S1x128x256.size inb_S3x128x256_S1x128x256_2_0_0
/-- row 0, 1, 2 of a per-branch parameter array (windows 4 … 9) -/
abbrev r3_4 : Rect S3x256 := Rect.unit (s := S3x256) ![0, 0] S1x256.size inb_S3x256_S1x256_0_0
abbrev r3_5 : Rect S3x256 := Rect.unit (s := S3x256) ![1, 0] S1x256.size inb_S3x256_S1x256_1_0
abbrev r3_6 : Rect S3x256 := Rect.unit (s := S3x256) ![2, 0] S1x256.size inb_S3x256_S1x256_2_0
/-- columns 0:128 and columns 128:256 of the output block (window 11) -/
abbrev r3_7 : Rect S2000x256 := Rect.unit (s := S2000x256) ![0, 0] S2000x128.size inb_S2000x256_S2000x128_0_0
abbrev r3_8 : Rect S2000x256 := Rect.unit (s := S2000x256) ![0, 128] S2000x128.size inb_S2000x256_S2000x128_0_128

/-! ## What the body leaves in the output window's buffer -/

/-- Window 11's staging buffer after the body, from the input windows' blocks (x0, x1, x2 the three row blocks; x3 the
    weights; x4 bias, x5 gamma, x6 beta, x7 mixing weights, x8 mean, x9 variance; x10 the addend's row block): its two
    stores as pieces, LAST FIRST (Lib/Pipeline/FrameBody.lean `View.canon`; the payloads are the skeleton's, composed as
    the body's three parts hand them on). Columns 128:256 take the accumulated sum's columns 128:256, columns 0:128 its
    columns 0:128 plus the addend. -/
def out3_11 (x0 : Vec F S2000x128 .bf16) (x1 : Vec F S2000x128 .bf16) (x2 : Vec F S2000x128 .bf16) (x3 : Vec F S3x128x256 .f32)
    (x4 : Vec F S3x256 .f32) (x5 : Vec F S3x256 .f32) (x6 : Vec F S3x256 .f32) (x7 : Vec F S3x256 .f32) (x8 : Vec F S3x256 .f32)
    (x9 : Vec F S3x256 .f32) (x10 : Vec F S2000x128 .f32) : Vec F S2000x256 .f32 :=
  View.canon [
    ⟨r3_8, k3_pay3
      (k3_pay9
        (k3_pay7 (k3_pay6 (View.ld x0 r3_0) (View.ld x3 r3_1) (View.ld x4 r3_4) (View.ld x8 r3_4) (View.ld x9 r3_4) (View.ld x5 r3_4) (View.ld x6 r3_4))
          (View.ld x7 r3_4))
        (k3_pay8 (k3_pay4 (View.ld x1 r3_0)) (View.ld x3 r3_2) (View.ld x4 r3_5) (View.ld x8 r3_5) (View.ld x9 r3_5) (View.ld x5 r3_5) (View.ld x6 r3_5))
        (View.ld x7 r3_5))
      (k3_pay10 (k3_pay5 (View.ld x2 r3_0)) (View.ld x3 r3_3) (View.ld x4 r3_6) (View.ld x8 r3_6) (View.ld x9 r3_6) (View.ld x5 r3_6) (View.ld x6 r3_6))
      (View.ld x7 r3_6)⟩,
    ⟨r3_7, k3_pay2
      (k3_pay9
        (k3_pay7 (k3_pay6 (View.ld x0 r3_0) (View.ld x3 r3_1) (View.ld x4 r3_4) (View.ld x8 r3_4) (View.ld x9 r3_4) (View.ld x5 r3_4) (View.ld x6 r3_4))
          (View.ld x7 r3_4))
        (k3_pay8 (k3_pay4 (View.ld x1 r3_0)) (View.ld x3 r3_2) (View.ld x4 r3_5) (View.ld x8 r3_5) (View.ld x9 r3_5) (View.ld x5 r3_5) (View.ld x6 r3_5))
        (View.ld x7 r3_5))
      (k3_pay10 (k3_pay5 (View.ld x2 r3_0)) (View.ld x3 r3_3) (View.ld x4 r3_6) (View.ld x8 r3_6) (View.ld x9 r3_6) (View.ld x5 r3_6) (View.ld x6 r3_6))
      (View.ld x7 r3_6)
      (View.ld x10 r3_0)⟩]

/-- Its stores tile the buffer in column blocks of 128 (checked by evaluation), so they cover it. -/
theorem cover3_11 (p0 : Vec F S2000x128 .f32) (p1 : Vec F S2000x128 .f32) (y : S2000x256.Idx) :
    ∃ pc ∈ ([⟨r3_8, p0⟩, ⟨r3_7, p1⟩] : List (View.Piece (Elt F) S2000x256 .f32)), y ∈ pc.1.set :=
  View.cover_of_tiled [⟨r3_8, p0⟩, ⟨r3_7, p1⟩] S2000x128.size (by rfl) y

/-! ## The body's triple -/

set_option maxHeartbeats 4000000 in
/-- The kernel body on whole staging memrefs, the inputs' at read contents `xW` and the output's at anything, runs to
    the continuation holding the inputs' as they were and the output's at `out3_11` of the inputs': the printed functions
    are their skeletons, run through every part call. -/
theorem sound_kernel3 (c : Dev nD) (E : Set ℕ) (i : grid3.Coords)
    (arg1 : Memref sig .tc .vmem S2000x128 .bf16) (harg1 : arg1.IsWhole) (arg2 : Memref sig .tc .vmem S2000x128 .bf16) (harg2 : arg2.IsWhole)
    (arg3 : Memref sig .tc .vmem S2000x128 .bf16) (harg3 : arg3.IsWhole) (arg4 : Memref sig .tc .vmem S3x128x256 .f32) (harg4 : arg4.IsWhole)
    (arg5 : Memref sig .tc .vmem S3x256 .f32) (harg5 : arg5.IsWhole) (arg6 : Memref sig .tc .vmem S3x256 .f32) (harg6 : arg6.IsWhole)
    (arg7 : Memref sig .tc .vmem S3x256 .f32) (harg7 : arg7.IsWhole) (arg8 : Memref sig .tc .vmem S3x256 .f32) (harg8 : arg8.IsWhole)
    (arg9 : Memref sig .tc .vmem S3x256 .f32) (harg9 : arg9.IsWhole) (arg10 : Memref sig .tc .vmem S3x256 .f32) (harg10 : arg10.IsWhole)
    (arg11 : Memref sig .tc .vmem S2000x128 .f32) (harg11 : arg11.IsWhole) (arg12 : Memref sig .tc .vmem S2000x256 .f32) (harg12 : arg12.IsWhole)
    (x0 : Vec F S2000x128 .bf16) (x1 : Vec F S2000x128 .bf16) (x2 : Vec F S2000x128 .bf16) (x3 : Vec F S3x128x256 .f32)
    (x4 : Vec F S3x256 .f32) (x5 : Vec F S3x256 .f32) (x6 : Vec F S3x256 .f32) (x7 : Vec F S3x256 .f32) (x8 : Vec F S3x256 .f32)
    (x9 : Vec F S3x256 .f32) (x10 : Vec F S2000x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare x9 ∗ owns (c : Thread nD τ) arg11 fullShare x10
        ∗ (∃ d, owns (c : Thread nD τ) arg12 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare x9 ∗ owns (c : Thread nD τ) arg11 fullShare x10
            ∗ owns (c : Thread nD τ) arg12 fullShare (out3_11 x0 x1 x2 x3 x4 x5 x6 x7 x8 x9 x10)) -∗ K ⟨⟩))
      ⊢ wp frame (wpE (defs₀ (F := F)) Variants.none c none) E
          (cc3__combine_kernel_add i arg1 harg1 arg2 harg2 arg3 harg3 arg4 harg4 arg5 harg5 arg6 harg6 arg7 harg7 arg8 harg8 arg9 harg9 arg10 harg10 arg11 harg11 arg12 harg12) K := by
  simp only [cc3__combine_kernel_add_eq_skeleton]; unfold cc3__combine_kernel_add_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  exact View.read_writes_eq_canon _ _ _ (cover3_11 _ _)

/-! ## The pipeline's proof data -/

/-- The proof data of pipeline 3 on core `c`: the arrays as the region finds them (`V`); after the body at
    point `t` each input's buffer at its block and the output's at `out3_11` of the input blocks; the invariant the
    class's (Lib/Pipeline/Frame.lean `ΦA`: the scoped rest and the generator register, untouched); nothing owed;
    full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => iblk3 V c 10 t
    | ⟨11, _⟩ => out3_11 (iblk3 V c 0 t) (iblk3 V c 1 t) (iblk3 V c 2 t) (iblk3 V c 3 t) (iblk3 V c 4 t) (iblk3 V c 5 t)
        (iblk3 V c 6 t) (iblk3 V c 7 t) (iblk3 V c 8 t) (iblk3 V c 9 t) (iblk3 V c 10 t)
  Φ _ := Pipeline.ΦA spec3 c
  q _ := fullShare
  owed _ := 0

/-- The proof data's arrays are the region-entry contents (the proof data's definition projected, by `dsimp`). -/
theorem A_eq3 (c : Dev nD) (w : Fin cfg3.W) : (dat3 V c).A w = V c (Pipeline.arrRef spec3 w) := by
  dsimp only [dat3]

/-- What the body leaves, window by window (the proof data's `match` reduced by `dsimp`). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = iblk3 V c 9 t := by dsimp only [dat3]
theorem after3_10 (c : Dev nD) (t : Fin cfg3.N) : (dat3 V c).after 10 t = iblk3 V c 10 t := by dsimp only [dat3]
theorem after3_11 (c : Dev nD) (t : Fin cfg3.N) : (dat3 V c).after 11 t =
    out3_11 (iblk3 V c 0 t) (iblk3 V c 1 t) (iblk3 V c 2 t) (iblk3 V c 3 t) (iblk3 V c 4 t) (iblk3 V c 5 t)
      (iblk3 V c 6 t) (iblk3 V c 7 t) (iblk3 V c 8 t) (iblk3 V c 9 t) (iblk3 V c 10 t) := by dsimp only [dat3]

/-- Each input's current staging buffer holds its block at every point, fetched there or not (`before3_W_of`). -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d
theorem before3_9 (c : Dev nD) (t : Fin cfg3.N) (d) : (dat3 V c).before 9 t d = iblk3 V c 9 t :=
  before3_9_of V (dat3 V c) (A_eq3 V c 9) (after3_9 V c) t d
theorem before3_10 (c : Dev nD) (t : Fin cfg3.N) (d) : (dat3 V c).before 10 t d = iblk3 V c 10 t :=
  before3_10_of V (dat3 V c) (A_eq3 V c 10) (after3_10 V c) t d

/-! ## The body obligation, at a generic point -/

/-- What the body is called with at point `t` (Lib/Pipeline.lean `BodyObligation`'s precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d))
    ∗ (∃ d, owns (c : Thread nD τ) (st3_11 t) fullShare ((dat3 V c).before 11 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t)
    ∗ owns (c : Thread nD τ) (st3_11 t) fullShare ((dat3 V c).after 11 t))

/-- The body at any point: the inputs' memrefs hold their blocks (`before3_W`), so `sound_kernel3` applies; the invariant and
    the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8, before3_9, before3_10]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9, after3_10, after3_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel3 c Set.univ (grid3.coords t) _ _ _ _ _ _ _ _ _ _ _ _ _ _ _ _ _ _ _ _ _ _ _ _
    (iblk3 V c 0 t) (iblk3 V c 1 t) (iblk3 V c 2 t) (iblk3 V c 3 t) (iblk3 V c 4 t) (iblk3 V c 5 t)
    (iblk3 V c 6 t) (iblk3 V c 7 t) (iblk3 V c 8 t) (iblk3 V c 9 t) (iblk3 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation3 (c : Dev nD) : BodyObligation (dat3 (F := F) V c) (defs₀ (F := F)) Variants.none () Set.univ := fun t => by
  rw [bigSep_W3, bigSep_W3]
  exact sound_body3 V c t

end Region3

end Cert.Kernel.Hand

end
-- ==== Proof.K.Stats4Runs.lean ====
import proofs.«414290_j6631429505478_3_alg».proof.Proof.Gen.Kernel.Launch
import proofs.«414290_j6631429505478_3_alg».proof.Proof.Gen.Kernel.Skeleton
import proofs.«414290_j6631429505478_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 4 (the statistics kernel at width 128): what its cases share

The region-entry contents `V` are a parameter throughout. -/

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof
    data whose array is `V`'s and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not, for any proof
    data whose array is `V`'s and whose body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not, for any proof
    data whose array is `V`'s and whose body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not, for any proof
    data whose array is `V`'s and whose body leaves the block in place. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, fetched there or not, for any proof
    data whose array is `V`'s and whose body leaves the block in place. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The body's branch condition -/

/-- The condition of the body's conditional (reset of both outputs), from the grid coordinates. -/
abbrev cond4_0 (i : grid4.Coords) : Prop := (Scalar.cmpi .ne (Scalar.extui (Scalar.cmpi .eq (BitVec.ofNat 32 (i 1).val) 0#32)) 0#32) = 1#1
/-- It holds exactly at the first point of each core's row of 25 — decided over the grid. -/
theorem hcond4_0 : ∀ t : Fin cfg4.N, cond4_0 (grid4.coords t) ↔ t.val % 25 = 0 :=
  (by decide +kernel : ∀ t : Fin grid4.N, cond4_0 (grid4.coords t) ↔ t.val % 25 = 0)

/-! ## The staging memrefs -/

/-- One staging buffer of each output window, through which its contents are stated (the choice does not matter). -/
abbrev VO4_5 : View sig .tc .vmem S1x3x128 .f32 := (Memref.whole cc4_stg5_0 : Memref sig .tc .vmem S1x3x128 .f32).view
abbrev VO4_6 : View sig .tc .vmem S1x3x128 .f32 := (Memref.whole cc4_stg6_0 : Memref sig .tc .vmem S1x3x128 .f32).view
/-- Each window's current staging memref at point `t`, spelled as the pipeline passes it, and its wholeness. -/
abbrev ms4_0 (t : Fin cfg4.N) : Memref sig .tc .vmem S1000x128 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1000x128 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1000x128 .bf16 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S3x128x128 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S3x128 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1x3x128 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S1x3x128 .f32 := win4_6.stage (cfg4.slots t 6)
abbrev hs4_6 (t : Fin cfg4.N) : (ms4_6 t).IsWhole := hstage4_6 ((cfg4.slots t 6).cast nbuf4_6)

end Cert.Kernel.Hand

end
-- ==== Proof.K.Stats4RunA.lean ====
import proofs.«414290_j6631429505478_3_alg».proof.Proof.K.Stats4Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 4: the whole-body run in case A -/

set_option maxHeartbeats 4000000 in
/-- What the body's stores leave in each output's staging memref, as pieces (last first), IN CASE A (the conditional taken:
    the first point of a core's row), with the proof that on whole staging memrefs — the inputs' at their contents, the
    outputs' at anything — the body runs to the continuation holding the inputs' as they were and each output's buffer
    with its pieces written. -/
noncomputable def kernelRun4_A (c : Dev nD) (i : grid4.Coords) (arg2 : Memref sig .tc .vmem S1000x128 .bf16) (harg2 : arg2.IsWhole) (arg3 : Memref sig .tc .vmem S1000x128 .bf16) (harg3 : arg3.IsWhole) (arg4 : Memref sig .tc .vmem S1000x128 .bf16) (harg4 : arg4.IsWhole) (arg5 : Memref sig .tc .vmem S3x128x128 .f32) (harg5 : arg5.IsWhole) (arg6 : Memref sig .tc .vmem S3x128 .f32) (harg6 : arg6.IsWhole) (arg7 : Memref sig .tc .vmem S1x3x128 .f32) (harg7 : arg7.IsWhole) (arg8 : Memref sig .tc .vmem S1x3x128 .f32) (harg8 : arg8.IsWhole) (hc0 : cond4_0 i)
    (x0 : Vec F S1000x128 .bf16) (x1 : Vec F S1000x128 .bf16) (x2 : Vec F S1000x128 .bf16) (x3 : Vec F S3x128x128 .f32) (x4 : Vec F S3x128 .f32) :
    Σ' (L5 : List (View.Piece (Elt F) S1x3x128 .f32)), { L6 : List (View.Piece (Elt F) S1x3x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6)) -∗ K ⟨⟩))
          ⊢ wp frame (wpE (defs₀ (F := F)) Variants.none c none) E (cc4__stats_kernel i arg2 harg2 arg3 harg3 arg4 harg4 arg5 harg5 arg6 harg6 arg7 harg7 arg8 harg8) K } := by
  refine ⟨?_, ?_, fun E K => ?run⟩
  case run =>
    simp only [cc4__stats_kernel_eq_skeleton]; unfold cc4__stats_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact H6

end Cert.Kernel.Hand

end
-- ==== Proof.K.Stats4RunB.lean ====
import proofs.«414290_j6631429505478_3_alg».proof.Proof.K.Stats4RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 4: the whole-body run in case B -/

set_option maxHeartbeats 4000000 in
/-- What the body's stores leave in each output's staging memref, as pieces (last first), IN CASE B (the conditional not
    taken: the other points of a core's row), with the proof that on whole staging memrefs — the inputs' at their contents,
    the outputs', which the body reads before covering, at their running contents `xo·` — the body runs to the continuation
    holding the inputs' as they were and each output's buffer with its pieces written. -/
noncomputable def kernelRun4_B (c : Dev nD) (i : grid4.Coords) (arg2 : Memref sig .tc .vmem S1000x128 .bf16) (harg2 : arg2.IsWhole) (arg3 : Memref sig .tc .vmem S1000x128 .bf16) (harg3 : arg3.IsWhole) (arg4 : Memref sig .tc .vmem S1000x128 .bf16) (harg4 : arg4.IsWhole) (arg5 : Memref sig .tc .vmem S3x128x128 .f32) (harg5 : arg5.IsWhole) (arg6 : Memref sig .tc .vmem S3x128 .f32) (harg6 : arg6.IsWhole) (arg7 : Memref sig .tc .vmem S1x3x128 .f32) (harg7 : arg7.IsWhole) (arg8 : Memref sig .tc .vmem S1x3x128 .f32) (harg8 : arg8.IsWhole) (hc0 : ¬cond4_0 i)
    (x0 : Vec F S1000x128 .bf16) (x1 : Vec F S1000x128 .bf16) (x2 : Vec F S1000x128 .bf16) (x3 : Vec F S3x128x128 .f32) (x4 : Vec F S3x128 .f32) (xo5 : Vec F S1x3x128 .f32) (xo6 : Vec F S1x3x128 .f32) :
    Σ' (L5 : List (View.Piece (Elt F) S1x3x128 .f32)), { L6 : List (View.Piece (Elt F) S1x3x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo5 ∗ owns (c : Thread nD τ) arg8 fullShare xo6
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6)) -∗ K ⟨⟩))
          ⊢ wp frame (wpE (defs₀ (F := F)) Variants.none c none) E (cc4__stats_kernel i arg2 harg2 arg3 harg3 arg4 harg4 arg5 harg5 arg6 harg6 arg7 harg7 arg8 harg8) K } := by
  refine ⟨?_, ?_, fun E K => ?run⟩
  case run =>
    simp only [cc4__stats_kernel_eq_skeleton]; unfold cc4__stats_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact H6

end Cert.Kernel.Hand

end
-- ==== Proof.K.Stats4.lean ====
import proofs.«414290_j6631429505478_3_alg».proof.Proof.K.Stats4RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 4 (the statistics kernel at width 128): the frame half

Both outputs' blocks are revisited over a core's row of 25 points: reset at the row's first point, added to at the
others, written back at its last. -/

variable (V : (c : Dev nD) → (b : Ref sig .tc) → Buf (Elt F) ((c : Thread nD τ).loc b))

/-- Case A's pieces for output 5 tile its block, so they cover it. -/
theorem cover4_A_5 (c : Dev nD) (i : grid4.Coords) (arg2 : Memref sig .tc .vmem S1000x128 .bf16) (harg2 : arg2.IsWhole) (arg3 : Memref sig .tc .vmem S1000x128 .bf16) (harg3 : arg3.IsWhole) (arg4 : Memref sig .tc .vmem S1000x128 .bf16) (harg4 : arg4.IsWhole) (arg5 : Memref sig .tc .vmem S3x128x128 .f32) (harg5 : arg5.IsWhole) (arg6 : Memref sig .tc .vmem S3x128 .f32) (harg6 : arg6.IsWhole) (arg7 : Memref sig .tc .vmem S1x3x128 .f32) (harg7 : arg7.IsWhole) (arg8 : Memref sig .tc .vmem S1x3x128 .f32) (harg8 : arg8.IsWhole) (hc0 : cond4_0 i)
    (x0 : Vec F S1000x128 .bf16) (x1 : Vec F S1000x128 .bf16) (x2 : Vec F S1000x128 .bf16) (x3 : Vec F S3x128x128 .f32) (x4 : Vec F S3x128 .f32) (y : S1x3x128.Idx) :
    ∃ pc ∈ (kernelRun4_A c i arg2 harg2 arg3 harg3 arg4 harg4 arg5 harg5 arg6 harg6 arg7 harg7 arg8 harg8 hc0 x0 x1 x2 x3 x4).1, y ∈ pc.1.set :=
  View.cover_of_tiledL (kernelRun4_A c i arg2 harg2 arg3 harg3 arg4 harg4 arg5 harg5 arg6 harg6 arg7 harg7 arg8 harg8 hc0 x0 x1 x2 x3 x4).1 S1x3x128.size (by sl_kernel_rfl) y

/-- What case A leaves in output 5's staging buffer: its pieces read back over junk. -/
def out4_A_5 (c : Dev nD) (i : grid4.Coords) (arg2 : Memref sig .tc .vmem S1000x128 .bf16) (harg2 : arg2.IsWhole) (arg3 : Memref sig .tc .vmem S1000x128 .bf16) (harg3 : arg3.IsWhole) (arg4 : Memref sig .tc .vmem S1000x128 .bf16) (harg4 : arg4.IsWhole) (arg5 : Memref sig .tc .vmem S3x128x128 .f32) (harg5 : arg5.IsWhole) (arg6 : Memref sig .tc .vmem S3x128 .f32) (harg6 : arg6.IsWhole) (arg7 : Memref sig .tc .vmem S1x3x128 .f32) (harg7 : arg7.IsWhole) (arg8 : Memref sig .tc .vmem S1x3x128 .f32) (harg8 : arg8.IsWhole) (hc0 : cond4_0 i)
    (x0 : Vec F S1000x128 .bf16) (x1 : Vec F S1000x128 .bf16) (x2 : Vec F S1000x128 .bf16) (x3 : Vec F S3x128x128 .f32) (x4 : Vec F S3x128 .f32) : Vec F S1x3x128 .f32 :=
  VO4_5.read (Elt F) (VO4_5.writes (Elt F) VO4_5.junk (kernelRun4_A c i arg2 harg2 arg3 harg3 arg4 harg4 arg5 harg5 arg6 harg6 arg7 harg7 arg8 harg8 hc0 x0 x1 x2 x3 x4).1)

/-- Case A's pieces for output 6 tile its block, so they cover it. -/
theorem cover4_A_6 (c : Dev nD) (i : grid4.Coords) (arg2 : Memref sig .tc .vmem S1000x128 .bf16) (harg2 : arg2.IsWhole) (arg3 : Memref sig .tc .vmem S1000x128 .bf16) (harg3 : arg3.IsWhole) (arg4 : Memref sig .tc .vmem S1000x128 .bf16) (harg4 : arg4.IsWhole) (arg5 : Memref sig .tc .vmem S3x128x128 .f32) (harg5 : arg5.IsWhole) (arg6 : Memref sig .tc .vmem S3x128 .f32) (harg6 : arg6.IsWhole) (arg7 : Memref sig .tc .vmem S1x3x128 .f32) (harg7 : arg7.IsWhole) (arg8 : Memref sig .tc .vmem S1x3x128 .f32) (harg8 : arg8.IsWhole) (hc0 : cond4_0 i)
    (x0 : Vec F S1000x128 .bf16) (x1 : Vec F S1000x128 .bf16) (x2 : Vec F S1000x128 .bf16) (x3 : Vec F S3x128x128 .f32) (x4 : Vec F S3x128 .f32) (y : S1x3x128.Idx) :
    ∃ pc ∈ (kernelRun4_A c i arg2 harg2 arg3 harg3 arg4 harg4 arg5 harg5 arg6 harg6 arg7 harg7 arg8 harg8 hc0 x0 x1 x2 x3 x4).2.1, y ∈ pc.1.set :=
  View.cover_of_tiledL (kernelRun4_A c i arg2 harg2 arg3 harg3 arg4 harg4 arg5 harg5 arg6 harg6 arg7 harg7 arg8 harg8 hc0 x0 x1 x2 x3 x4).2.1 S1x3x128.size (by sl_kernel_rfl) y

/-- What case A leaves in output 6's staging buffer: its pieces read back over junk. -/
def out4_A_6 (c : Dev nD) (i : grid4.Coords) (arg2 : Memref sig .tc .vmem S1000x128 .bf16) (harg2 : arg2.IsWhole) (arg3 : Memref sig .tc .vmem S1000x128 .bf16) (harg3 : arg3.IsWhole) (arg4 : Memref sig .tc .vmem S1000x128 .bf16) (harg4 : arg4.IsWhole) (arg5 : Memref sig .tc .vmem S3x128x128 .f32) (harg5 : arg5.IsWhole) (arg6 : Memref sig .tc .vmem S3x128 .f32) (harg6 : arg6.IsWhole) (arg7 : Memref sig .tc .vmem S1x3x128 .f32) (harg7 : arg7.IsWhole) (arg8 : Memref sig .tc .vmem S1x3x128 .f32) (harg8 : arg8.IsWhole) (hc0 : cond4_0 i)
    (x0 : Vec F S1000x128 .bf16) (x1 : Vec F S1000x128 .bf16) (x2 : Vec F S1000x128 .bf16) (x3 : Vec F S3x128x128 .f32) (x4 : Vec F S3x128 .f32) : Vec F S1x3x128 .f32 :=
  VO4_6.read (Elt F) (VO4_6.writes (Elt F) VO4_6.junk (kernelRun4_A c i arg2 harg2 arg3 harg3 arg4 harg4 arg5 harg5 arg6 harg6 arg7 harg7 arg8 harg8 hc0 x0 x1 x2 x3 x4).2.1)

/-- Case B's pieces for output 5 tile its block, so they cover it. -/
theorem cover4_B_5 (c : Dev nD) (i : grid4.Coords) (arg2 : Memref sig .tc .vmem S1000x128 .bf16) (harg2 : arg2.IsWhole) (arg3 : Memref sig .tc .vmem S1000x128 .bf16) (harg3 : arg3.IsWhole) (arg4 : Memref sig .tc .vmem S1000x128 .bf16) (harg4 : arg4.IsWhole) (arg5 : Memref sig .tc .vmem S3x128x128 .f32) (harg5 : arg5.IsWhole) (arg6 : Memref sig .tc .vmem S3x128 .f32) (harg6 : arg6.IsWhole) (arg7 : Memref sig .tc .vmem S1x3x128 .f32) (harg7 : arg7.IsWhole) (arg8 : Memref sig .tc .vmem S1x3x128 .f32) (harg8 : arg8.IsWhole) (hc0 : ¬cond4_0 i)
    (x0 : Vec F S1000x128 .bf16) (x1 : Vec F S1000x128 .bf16) (x2 : Vec F S1000x128 .bf16) (x3 : Vec F S3x128x128 .f32) (x4 : Vec F S3x128 .f32) (xo5 : Vec F S1x3x128 .f32) (xo6 : Vec F S1x3x128 .f32) (y : S1x3x128.Idx) :
    ∃ pc ∈ (kernelRun4_B c i arg2 harg2 arg3 harg3 arg4 harg4 arg5 harg5 arg6 harg6 arg7 harg7 arg8 harg8 hc0 x0 x1 x2 x3 x4 xo5 xo6).1, y ∈ pc.1.set :=
  View.cover_of_tiledL (kernelRun4_B c i arg2 harg2 arg3 harg3 arg4 harg4 arg5 harg5 arg6 harg6 arg7 harg7 arg8 harg8 hc0 x0 x1 x2 x3 x4 xo5 xo6).1 S1x3x128.size (by sl_kernel_rfl) y

/-- What case B leaves in output 5's staging buffer: its pieces read back over junk. -/
def out4_B_5 (c : Dev nD) (i : grid4.Coords) (arg2 : Memref sig .tc .vmem S1000x128 .bf16) (harg2 : arg2.IsWhole) (arg3 : Memref sig .tc .vmem S1000x128 .bf16) (harg3 : arg3.IsWhole) (arg4 : Memref sig .tc .vmem S1000x128 .bf16) (harg4 : arg4.IsWhole) (arg5 : Memref sig .tc .vmem S3x128x128 .f32) (harg5 : arg5.IsWhole) (arg6 : Memref sig .tc .vmem S3x128 .f32) (harg6 : arg6.IsWhole) (arg7 : Memref sig .tc .vmem S1x3x128 .f32) (harg7 : arg7.IsWhole) (arg8 : Memref sig .tc .vmem S1x3x128 .f32) (harg8 : arg8.IsWhole) (hc0 : ¬cond4_0 i)
    (x0 : Vec F S1000x128 .bf16) (x1 : Vec F S1000x128 .bf16) (x2 : Vec F S1000x128 .bf16) (x3 : Vec F S3x128x128 .f32) (x4 : Vec F S3x128 .f32) (xo5 : Vec F S1x3x128 .f32) (xo6 : Vec F S1x3x128 .f32) : Vec F S1x3x128 .f32 :=
  VO4_5.read (Elt F) (VO4_5.writes (Elt F) VO4_5.junk (kernelRun4_B c i arg2 harg2 arg3 harg3 arg4 harg4 arg5 harg5 arg6 harg6 arg7 harg7 arg8 harg8 hc0 x0 x1 x2 x3 x4 xo5 xo6).1)

/-- Case B's pieces for output 6 tile its block, so they cover it. -/
theorem cover4_B_6 (c : Dev nD) (i : grid4.Coords) (arg2 : Memref sig .tc .vmem S1000x128 .bf16) (harg2 : arg2.IsWhole) (arg3 : Memref sig .tc .vmem S1000x128 .bf16) (harg3 : arg3.IsWhole) (arg4 : Memref sig .tc .vmem S1000x128 .bf16) (harg4 : arg4.IsWhole) (arg5 : Memref sig .tc .vmem S3x128x128 .f32) (harg5 : arg5.IsWhole) (arg6 : Memref sig .tc .vmem S3x128 .f32) (harg6 : arg6.IsWhole) (arg7 : Memref sig .tc .vmem S1x3x128 .f32) (harg7 : arg7.IsWhole) (arg8 : Memref sig .tc .vmem S1x3x128 .f32) (harg8 : arg8.IsWhole) (hc0 : ¬cond4_0 i)
    (x0 : Vec F S1000x128 .bf16) (x1 : Vec F S1000x128 .bf16) (x2 : Vec F S1000x128 .bf16) (x3 : Vec F S3x128x128 .f32) (x4 : Vec F S3x128 .f32) (xo5 : Vec F S1x3x128 .f32) (xo6 : Vec F S1x3x128 .f32) (y : S1x3x128.Idx) :
    ∃ pc ∈ (kernelRun4_B c i arg2 harg2 arg3 harg3 arg4 harg4 arg5 harg5 arg6 harg6 arg7 harg7 arg8 harg8 hc0 x0 x1 x2 x3 x4 xo5 xo6).2.1, y ∈ pc.1.set :=
  View.cover_of_tiledL (kernelRun4_B c i arg2 harg2 arg3 harg3 arg4 harg4 arg5 harg5 arg6 harg6 arg7 harg7 arg8 harg8 hc0 x0 x1 x2 x3 x4 xo5 xo6).2.1 S1x3x128.size (by sl_kernel_rfl) y

/-- What case B leaves in output 6's staging buffer: its pieces read back over junk. -/
def out4_B_6 (c : Dev nD) (i : grid4.Coords) (arg2 : Memref sig .tc .vmem S1000x128 .bf16) (harg2 : arg2.IsWhole) (arg3 : Memref sig .tc .vmem S1000x128 .bf16) (harg3 : arg3.IsWhole) (arg4 : Memref sig .tc .vmem S1000x128 .bf16) (harg4 : arg4.IsWhole) (arg5 : Memref sig .tc .vmem S3x128x128 .f32) (harg5 : arg5.IsWhole) (arg6 : Memref sig .tc .vmem S3x128 .f32) (harg6 : arg6.IsWhole) (arg7 : Memref sig .tc .vmem S1x3x128 .f32) (harg7 : arg7.IsWhole) (arg8 : Memref sig .tc .vmem S1x3x128 .f32) (harg8 : arg8.IsWhole) (hc0 : ¬cond4_0 i)
    (x0 : Vec F S1000x128 .bf16) (x1 : Vec F S1000x128 .bf16) (x2 : Vec F S1000x128 .bf16) (x3 : Vec F S3x128x128 .f32) (x4 : Vec F S3x128 .f32) (xo5 : Vec F S1x3x128 .f32) (xo6 : Vec F S1x3x128 .f32) : Vec F S1x3x128 .f32 :=
  VO4_6.read (Elt F) (VO4_6.writes (Elt F) VO4_6.junk (kernelRun4_B c i arg2 harg2 arg3 harg3 arg4 harg4 arg5 harg5 arg6 harg6 arg7 harg7 arg8 harg8 hc0 x0 x1 x2 x3 x4 xo5 xo6).2.1)

/-! ## What the outputs hold after each point -/

/-- THE ACCUMULATION. What the two outputs' staging buffers hold after the body at position `n`: the case the closed
    form selects at `n`, run at the point's memrefs and input blocks; in case B over what this leaves at `n - 1`
    (the buffers are not written back between). The recursion restarts at every first point of a row. -/
def outsAt4 (c : Dev nD) : (n : ℕ) → n < cfg4.N → Vec F S1x3x128 .f32 × Vec F S1x3x128 .f32
  | 0, hn => (out4_A_5 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) ((hcond4_0 ⟨0, hn⟩).mpr (Nat.zero_mod _)) (iblk4 V c 0 ⟨0, hn⟩) (iblk4 V c 1 ⟨0, hn⟩) (iblk4 V c 2 ⟨0, hn⟩) (iblk4 V c 3 ⟨0, hn⟩) (iblk4 V c 4 ⟨0, hn⟩), out4_A_6 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) ((hcond4_0 ⟨0, hn⟩).mpr (Nat.zero_mod _)) (iblk4 V c 0 ⟨0, hn⟩) (iblk4 V c 1 ⟨0, hn⟩) (iblk4 V c 2 ⟨0, hn⟩) (iblk4 V c 3 ⟨0, hn⟩) (iblk4 V c 4 ⟨0, hn⟩))
  | n + 1, hn =>
    if h0 : (n + 1) % 25 = 0 then
      (out4_A_5 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) ((hcond4_0 ⟨n + 1, hn⟩).mpr h0) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩), out4_A_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) ((hcond4_0 ⟨n + 1, hn⟩).mpr h0) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩))
    else
      (out4_B_5 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (fun h => h0 ((hcond4_0 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).1 (outsAt4 c n (Nat.lt_of_succ_lt hn)).2, out4_B_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (fun h => h0 ((hcond4_0 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).1 (outsAt4 c n (Nat.lt_of_succ_lt hn)).2)

/-- `outsAt4` at a point of case A: that case's contents. -/
theorem outsAt4_A (c : Dev nD) (t : Fin cfg4.N) (h0 : t.val % 25 = 0) :
    outsAt4 V c t.val t.isLt = (out4_A_5 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) ((hcond4_0 t).mpr h0) (iblk4 V c 0 t) (iblk4 V c 1 t) (iblk4 V c 2 t) (iblk4 V c 3 t) (iblk4 V c 4 t), out4_A_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) ((hcond4_0 t).mpr h0) (iblk4 V c 0 t) (iblk4 V c 1 t) (iblk4 V c 2 t) (iblk4 V c 3 t) (iblk4 V c 4 t)) := by
  obtain ⟨n, hn⟩ := t
  cases n with
  | zero => exact rfl
  | succ n => exact (dif_pos h0).trans rfl

/-- `outsAt4` at a point of case B: that case's contents, over what the point before left. -/
theorem outsAt4_B (c : Dev nD) (t : Fin cfg4.N) (h0 : ¬t.val % 25 = 0) :
    outsAt4 V c t.val t.isLt = (out4_B_5 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (fun h => h0 ((hcond4_0 t).mp h)) (iblk4 V c 0 t) (iblk4 V c 1 t) (iblk4 V c 2 t) (iblk4 V c 3 t) (iblk4 V c 4 t) (outsAt4 V c (t.val - 1) (Nat.lt_of_le_of_lt (Nat.sub_le _ _) t.isLt)).1 (outsAt4 V c (t.val - 1) (Nat.lt_of_le_of_lt (Nat.sub_le _ _) t.isLt)).2, out4_B_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (fun h => h0 ((hcond4_0 t).mp h)) (iblk4 V c 0 t) (iblk4 V c 1 t) (iblk4 V c 2 t) (iblk4 V c 3 t) (iblk4 V c 4 t) (outsAt4 V c (t.val - 1) (Nat.lt_of_le_of_lt (Nat.sub_le _ _) t.isLt)).1 (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data of region 4's pipeline on core `c`: the arrays as the region finds them; after the body at point
    `t` each input's buffer at its block and the outputs' at `outsAt4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => (outsAt4 V c t.val t.isLt).1
    | ⟨6, _⟩ => (outsAt4 V c t.val t.isLt).2
  Φ _ := Pipeline.ΦA spec4 c
  q _ := fullShare
  owed _ := 0

/-- The proof data's arrays are the region-entry contents. -/
theorem A_eq4 (c : Dev nD) (w : Fin cfg4.W) :
    (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = (outsAt4 V c t.val t.isLt).1 := by dsimp only [dat4]
theorem after4_6 (c : Dev nD) (t : Fin cfg4.N) : (dat4 V c).after 6 t = (outsAt4 V c t.val t.isLt).2 := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
/-- At a point of case B output 5's current staging buffer holds what the body left at the point before: the point is not
    a row's first, so the buffer was not written back between. -/
theorem before4_5_B (c : Dev nD) (t : Fin cfg4.N) (h0 : ¬t.val % 25 = 0) (d) :
    (dat4 V c).before 5 t d = (outsAt4 V c (t.val - 1) (Nat.lt_of_le_of_lt (Nat.sub_le _ _) t.isLt)).1 := by
  have hN : t.val < 50 := lt_of_lt_of_eq t.isLt (show cfg4.N = 50 from N_4)
  rw [Dat.before_out_kept _ 5 rfl t (by omega) (Bool.eq_false_iff.mpr fun h => by have := (flush4_5 _).mp h; dsimp only at this; omega)
    (fun _ => rfl) (fun _ _ => rfl)]
  dsimp only [dat4]
/-- At a point of case B output 6's current staging buffer holds what the body left at the point before: the point is not
    a row's first, so the buffer was not written back between. -/
theorem before4_6_B (c : Dev nD) (t : Fin cfg4.N) (h0 : ¬t.val % 25 = 0) (d) :
    (dat4 V c).before 6 t d = (outsAt4 V c (t.val - 1) (Nat.lt_of_le_of_lt (Nat.sub_le _ _) t.isLt)).2 := by
  have hN : t.val < 50 := lt_of_lt_of_eq t.isLt (show cfg4.N = 50 from N_4)
  rw [Dat.before_out_kept _ 6 rfl t (by omega) (Bool.eq_false_iff.mpr fun h => by have := (flush4_6 _).mp h; dsimp only at this; omega)
    (fun _ => rfl) (fun _ _ => rfl)]
  dsimp only [dat4]

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d)))

/-- and what it returns. -/
def bodyPost4 (c : Dev nD) (t : Fin cfg4.N) : sProp 𝕄 :=
  iprop((dat4 V c).Φ t.succ ∗ (dat4 V c).owesAt () t.succ
    ∗ owns (c : Thread nD τ) (ms4_0 t) fullShare ((dat4 V c).after 0 t)
    ∗ owns (c : Thread nD τ) (ms4_1 t) fullShare ((dat4 V c).after 1 t)
    ∗ owns (c : Thread nD τ) (ms4_2 t) fullShare ((dat4 V c).after 2 t)
    ∗ owns (c : Thread nD τ) (ms4_3 t) fullShare ((dat4 V c).after 3 t)
    ∗ owns (c : Thread nD τ) (ms4_4 t) fullShare ((dat4 V c).after 4 t)
    ∗ owns (c : Thread nD τ) (ms4_5 t) fullShare ((dat4 V c).after 5 t)
    ∗ owns (c : Thread nD τ) (ms4_6 t) fullShare ((dat4 V c).after 6 t))

set_option maxHeartbeats 1600000 in
/-- The body at any point: the inputs' memrefs hold their blocks; the closed form says which case the point is in; in
    case B the outputs' memrefs hold what the point before left; so the run applies; the invariant passes through
    unread; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6]
  have hN : t.val < 50 := lt_of_lt_of_eq t.isLt (show cfg4.N = 50 from N_4)
  by_cases h0 : t.val % 25 = 0
  · rw [outsAt4_A V c t h0]
    dsimp only
    unfold out4_A_5 out4_A_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun4_A c (grid4.coords t) _ _ _ _ _ _ _ _ _ _ _ _ _ _ ((hcond4_0 t).mpr h0) (iblk4 V c 0 t) (iblk4 V c 1 t) (iblk4 V c 2 t) (iblk4 V c 3 t) (iblk4 V c 4 t)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover4_A_5 c _ _ _ _ _ _ _ _ _ _ _ _ _ _ _ _ _ _ _ _ _)
    unfold owns; iexists _; isplitr
    swap; · iexact H6
    ipureintro; exact View.read_writes_of_cover _ _ _ _ _ (cover4_A_6 c _ _ _ _ _ _ _ _ _ _ _ _ _ _ _ _ _ _ _ _ _)
  · rw [outsAt4_B V c t h0]
    dsimp only
    simp only [before4_5_B V c t h0, before4_6_B V c t h0]
    unfold out4_B_5 out4_B_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun4_B c (grid4.coords t) _ _ _ _ _ _ _ _ _ _ _ _ _ _ (fun h => h0 ((hcond4_0 t).mp h)) (iblk4 V c 0 t) (iblk4 V c 1 t) (iblk4 V c 2 t) (iblk4 V c 3 t) (iblk4 V c 4 t) _ _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover4_B_5 c _ _ _ _ _ _ _ _ _ _ _ _ _ _ _ _ _ _ _ _ _ _ _)
    unfold owns; iexists _; isplitr
    swap; · iexact H6
    ipureintro; exact View.read_writes_of_cover _ _ _ _ _ (cover4_B_6 c _ _ _ _ _ _ _ _ _ _ _ _ _ _ _ _ _ _ _ _ _ _ _)

/-- The library's body obligation, at every point. -/
theorem body_obligation4 (c : Dev nD) :
    BodyObligation (dat4 (F := F) V c) (defs₀ (F := F)) Variants.none () Set.univ := fun t => by
  rw [bigSep_W4, bigSep_W4]
  exact sound_body4 V c t

end Cert.Kernel.Hand

end
-- ==== Proof.K.Comb5.lean ====
/- REGION 5 of program Kernel (the combine kernel with addend, 128 columns), at a parameter V: the
   TensorCore's buffer contents when the region is entered. Each window's block at a point, what the body finds in
   every input window's buffer, what its one store leaves in the output window's buffer as a closed function of the
   input blocks, the body's triple, the pipeline's proof data and the body obligation. -/
import proofs.«414290_j6631429505478_3_alg».proof.Proof.Gen.Kernel.Launch
import proofs.«414290_j6631429505478_3_alg».proof.Proof.Gen.Kernel.Skeleton
import proofs.«414290_j6631429505478_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2000 rows: the elaborator's structural look recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region5
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! Every input window's current staging buffer holds its block at every point, fetched there or not, for ANY proof
    data whose array is `V`'s (`hA`) and whose body leaves the block in place (`hafter`). Windows 0, 1, 2 (the three
    row blocks) and 10 (the addend's row block) are fetched at every point; windows 3 … 9 (the whole parameter arrays) at
    the first point only, their block index constant: unfetched, the buffer still holds the previous point's block,
    which is this point's. -/

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)
theorem before5_7_of {c : Dev nD} (dat : Dat τ (Elt F) Unit ℕ (UR sig nD τ) ℕ cfg5 c) (hA : dat.A 7 = V c (Pipeline.arrRef spec5 7))
    (hafter : ∀ t, dat.after 7 t = iblk5 V c 7 t) (t : Fin cfg5.N) (d) : dat.before 7 t d = iblk5 V c 7 t :=
  (dat.before_in_eq_fetched 7 rfl (fun _ => rfl) (fun _ _ _ => rfl) (fun t => by rw [hafter]; unfold Dat.blockOf iblk5; rw [hA]; try rfl) t d).trans
    (by unfold Dat.fetched Dat.blockOf iblk5; rw [hA]; try rfl)
theorem before5_8_of {c : Dev nD} (dat : Dat τ (Elt F) Unit ℕ (UR sig nD τ) ℕ cfg5 c) (hA : dat.A 8 = V c (Pipeline.arrRef spec5 8))
    (hafter : ∀ t, dat.after 8 t = iblk5 V c 8 t) (t : Fin cfg5.N) (d) : dat.before 8 t d = iblk5 V c 8 t :=
  (dat.before_in_eq_fetched 8 rfl (fun _ => rfl) (fun _ _ _ => rfl) (fun t => by rw [hafter]; unfold Dat.blockOf iblk5; rw [hA]; try rfl) t d).trans
    (by unfold Dat.fetched Dat.blockOf iblk5; rw [hA]; try rfl)
theorem before5_9_of {c : Dev nD} (dat : Dat τ (Elt F) Unit ℕ (UR sig nD τ) ℕ cfg5 c) (hA : dat.A 9 = V c (Pipeline.arrRef spec5 9))
    (hafter : ∀ t, dat.after 9 t = iblk5 V c 9 t) (t : Fin cfg5.N) (d) : dat.before 9 t d = iblk5 V c 9 t :=
  (dat.before_in_eq_fetched 9 rfl (fun _ => rfl) (fun _ _ _ => rfl) (fun t => by rw [hafter]; unfold Dat.blockOf iblk5; rw [hA]; try rfl) t d).trans
    (by unfold Dat.fetched Dat.blockOf iblk5; rw [hA]; try rfl)
theorem before5_10_of {c : Dev nD} (dat : Dat τ (Elt F) Unit ℕ (UR sig nD τ) ℕ cfg5 c) (hA : dat.A 10 = V c (Pipeline.arrRef spec5 10))
    (hafter : ∀ t, dat.after 10 t = iblk5 V c 10 t) (t : Fin cfg5.N) (d) : dat.before 10 t d = iblk5 V c 10 t :=
  (dat.before_in_eq_fetched 10 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

/-- a whole row block of 128 columns (windows 0, 1, 2 and the addend's window 10) -/
abbrev r5_0 : Rect S2000x128 := Rect.unit (s := S2000x128) ![0, 0] S2000x128.size inb_S2000x128_S2000x128_0_0
/-- branch 0, 1, 2 of the weight array (window 3) -/
abbrev r5_1 : Rect S3x128x128 := Rect.unit (s := S3x128x128) ![0, 0, 0] S1x128x128.size inb_S3x128x128_S1x128x128_0_0_0
abbrev r5_2 : Rect S3x128x128 := Rect.unit (s := S3x128x128) ![1, 0, 0] S1x128x128.size inb_S3x128x128_S1x128x128_1_0_0
abbrev r5_3 : Rect S3x128x128 := Rect.unit (s := S3x128x128) ![2, 0, 0] S1x128x128.size inb_S3x128x128_S1x128x128_2_0_0
/-- row 0, 1, 2 of a per-branch parameter array (windows 4 … 9) -/
abbrev r5_4 : Rect S3x128 := Rect.unit (s := S3x128) ![0, 0] S1x128.size inb_S3x128_S1x128_0_0
abbrev r5_5 : Rect S3x128 := Rect.unit (s := S3x128) ![1, 0] S1x128.size inb_S3x128_S1x128_1_0
abbrev r5_6 : Rect S3x128 := Rect.unit (s := S3x128) ![2, 0] S1x128.size inb_S3x128_S1x128_2_0
/-- the whole output block (window 11) -/
abbrev r5_7 : Rect S2000x128 := Rect.unit (s := S2000x128) ![0, 0] S2000x128.size inb_S2000x128_S2000x128_0_0

/-! ## What the body leaves in the output window's buffer -/

/-- Window 11's staging buffer after the body, from the input windows' blocks (x0, x1, x2 the three row blocks; x3 the
    weights; x4 bias, x5 gamma, x6 beta, x7 mixing weights, x8 mean, x9 variance; x10 the addend's row block): its one
    store as a piece (Lib/Pipeline/FrameBody.lean `View.canon`; the payloads are the skeleton's, composed as the body's
    three parts hand them on): the accumulated sum plus the addend. -/
def out5_11 (x0 : Vec F S2000x128 .bf16) (x1 : Vec F S2000x128 .bf16) (x2 : Vec F S2000x128 .bf16) (x3 : Vec F S3x128x128 .f32)
    (x4 : Vec F S3x128 .f32) (x5 : Vec F S3x128 .f32) (x6 : Vec F S3x128 .f32) (x7 : Vec F S3x128 .f32) (x8 : Vec F S3x128 .f32)
    (x9 : Vec F S3x128 .f32) (x10 : Vec F S2000x128 .f32) : Vec F S2000x128 .f32 :=
  View.canon [⟨r5_7, k5_pay1
    (k5_pay7
      (k5_pay5 (k5_pay4 (View.ld x0 r5_0) (View.ld x3 r5_1) (View.ld x4 r5_4) (View.ld x8 r5_4) (View.ld x9 r5_4) (View.ld x5 r5_4) (View.ld x6 r5_4))
        (View.ld x7 r5_4))
      (k5_pay6 (k5_pay2 (View.ld x1 r5_0)) (View.ld x3 r5_2) (View.ld x4 r5_5) (View.ld x8 r5_5) (View.ld x9 r5_5) (View.ld x5 r5_5) (View.ld x6 r5_5))
      (View.ld x7 r5_5))
    (k5_pay8 (k5_pay3 (View.ld x2 r5_0)) (View.ld x3 r5_3) (View.ld x4 r5_6) (View.ld x8 r5_6) (View.ld x9 r5_6) (View.ld x5 r5_6) (View.ld x6 r5_6))
    (View.ld x7 r5_6)
    (View.ld x10 r5_0)⟩]

/-- Its store is the whole buffer (checked by evaluation), so it covers it. -/
theorem cover5_11 (p0 : Vec F S2000x128 .f32) (y : S2000x128.Idx) :
    ∃ pc ∈ ([⟨r5_7, p0⟩] : List (View.Piece (Elt F) S2000x128 .f32)), y ∈ pc.1.set :=
  View.cover_of_tiled [⟨r5_7, p0⟩] S2000x128.size (by rfl) y

/-! ## The body's triple -/

set_option maxHeartbeats 4000000 in
/-- The kernel body on whole staging memrefs, the inputs' at read contents `xW` and the output's at anything, runs to
    the continuation holding the inputs' as they were and the output's at `out5_11` of the inputs': the printed functions
    are their skeletons, run through every part call. -/
theorem sound_kernel5 (c : Dev nD) (E : Set ℕ) (i : grid5.Coords)
    (arg1 : Memref sig .tc .vmem S2000x128 .bf16) (harg1 : arg1.IsWhole) (arg2 : Memref sig .tc .vmem S2000x128 .bf16) (harg2 : arg2.IsWhole)
    (arg3 : Memref sig .tc .vmem S2000x128 .bf16) (harg3 : arg3.IsWhole) (arg4 : Memref sig .tc .vmem S3x128x128 .f32) (harg4 : arg4.IsWhole)
    (arg5 : Memref sig .tc .vmem S3x128 .f32) (harg5 : arg5.IsWhole) (arg6 : Memref sig .tc .vmem S3x128 .f32) (harg6 : arg6.IsWhole)
    (arg7 : Memref sig .tc .vmem S3x128 .f32) (harg7 : arg7.IsWhole) (arg8 : Memref sig .tc .vmem S3x128 .f32) (harg8 : arg8.IsWhole)
    (arg9 : Memref sig .tc .vmem S3x128 .f32) (harg9 : arg9.IsWhole) (arg10 : Memref sig .tc .vmem S3x128 .f32) (harg10 : arg10.IsWhole)
    (arg11 : Memref sig .tc .vmem S2000x128 .f32) (harg11 : arg11.IsWhole) (arg12 : Memref sig .tc .vmem S2000x128 .f32) (harg12 : arg12.IsWhole)
    (x0 : Vec F S2000x128 .bf16) (x1 : Vec F S2000x128 .bf16) (x2 : Vec F S2000x128 .bf16) (x3 : Vec F S3x128x128 .f32)
    (x4 : Vec F S3x128 .f32) (x5 : Vec F S3x128 .f32) (x6 : Vec F S3x128 .f32) (x7 : Vec F S3x128 .f32) (x8 : Vec F S3x128 .f32)
    (x9 : Vec F S3x128 .f32) (x10 : Vec F S2000x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare x9 ∗ owns (c : Thread nD τ) arg11 fullShare x10
        ∗ (∃ d, owns (c : Thread nD τ) arg12 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare x9 ∗ owns (c : Thread nD τ) arg11 fullShare x10
            ∗ owns (c : Thread nD τ) arg12 fullShare (out5_11 x0 x1 x2 x3 x4 x5 x6 x7 x8 x9 x10)) -∗ K ⟨⟩))
      ⊢ wp frame (wpE (defs₀ (F := F)) Variants.none c none) E
          (cc5__combine_kernel_add i arg1 harg1 arg2 harg2 arg3 harg3 arg4 harg4 arg5 harg5 arg6 harg6 arg7 harg7 arg8 harg8 arg9 harg9 arg10 harg10 arg11 harg11 arg12 harg12) K := by
  simp only [cc5__combine_kernel_add_eq_skeleton]; unfold cc5__combine_kernel_add_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  exact View.read_writes_eq_canon _ _ _ (cover5_11 _)

/-! ## The pipeline's proof data -/

/-- The proof data of pipeline 5 on core `c`: the arrays as the region finds them (`V`); after the body at
    point `t` each input's buffer at its block and the output's at `out5_11` of the input blocks; the invariant the
    class's (Lib/Pipeline/Frame.lean `ΦA`: the scoped rest and the generator register, untouched); nothing owed;
    full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => iblk5 V c 8 t
    | ⟨9, _⟩ => iblk5 V c 9 t
    | ⟨10, _⟩ => iblk5 V c 10 t
    | ⟨11, _⟩ => out5_11 (iblk5 V c 0 t) (iblk5 V c 1 t) (iblk5 V c 2 t) (iblk5 V c 3 t) (iblk5 V c 4 t) (iblk5 V c 5 t)
        (iblk5 V c 6 t) (iblk5 V c 7 t) (iblk5 V c 8 t) (iblk5 V c 9 t) (iblk5 V c 10 t)
  Φ _ := Pipeline.ΦA spec5 c
  q _ := fullShare
  owed _ := 0

/-- The proof data's arrays are the region-entry contents (the proof data's definition projected, by `dsimp`). -/
theorem A_eq5 (c : Dev nD) (w : Fin cfg5.W) : (dat5 V c).A w = V c (Pipeline.arrRef spec5 w) := by
  dsimp only [dat5]

/-- What the body leaves, window by window (the proof data's `match` reduced by `dsimp`). -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = iblk5 V c 7 t := by dsimp only [dat5]
theorem after5_8 (c : Dev nD) (t : Fin cfg5.N) : (dat5 V c).after 8 t = iblk5 V c 8 t := by dsimp only [dat5]
theorem after5_9 (c : Dev nD) (t : Fin cfg5.N) : (dat5 V c).after 9 t = iblk5 V c 9 t := by dsimp only [dat5]
theorem after5_10 (c : Dev nD) (t : Fin cfg5.N) : (dat5 V c).after 10 t = iblk5 V c 10 t := by dsimp only [dat5]
theorem after5_11 (c : Dev nD) (t : Fin cfg5.N) : (dat5 V c).after 11 t =
    out5_11 (iblk5 V c 0 t) (iblk5 V c 1 t) (iblk5 V c 2 t) (iblk5 V c 3 t) (iblk5 V c 4 t) (iblk5 V c 5 t)
      (iblk5 V c 6 t) (iblk5 V c 7 t) (iblk5 V c 8 t) (iblk5 V c 9 t) (iblk5 V c 10 t) := by dsimp only [dat5]

/-- Each input's current staging buffer holds its block at every point, fetched there or not (`before5_W_of`). -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d
theorem before5_7 (c : Dev nD) (t : Fin cfg5.N) (d) : (dat5 V c).before 7 t d = iblk5 V c 7 t :=
  before5_7_of V (dat5 V c) (A_eq5 V c 7) (after5_7 V c) t d
theorem before5_8 (c : Dev nD) (t : Fin cfg5.N) (d) : (dat5 V c).before 8 t d = iblk5 V c 8 t :=
  before5_8_of V (dat5 V c) (A_eq5 V c 8) (after5_8 V c) t d
theorem before5_9 (c : Dev nD) (t : Fin cfg5.N) (d) : (dat5 V c).before 9 t d = iblk5 V c 9 t :=
  before5_9_of V (dat5 V c) (A_eq5 V c 9) (after5_9 V c) t d
theorem before5_10 (c : Dev nD) (t : Fin cfg5.N) (d) : (dat5 V c).before 10 t d = iblk5 V c 10 t :=
  before5_10_of V (dat5 V c) (A_eq5 V c 10) (after5_10 V c) t d

/-! ## The body obligation, at a generic point -/

/-- What the body is called with at point `t` (Lib/Pipeline.lean `BodyObligation`'s precondition, the windows one by one), -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d))
    ∗ (∃ d, owns (c : Thread nD τ) (st5_8 t) fullShare ((dat5 V c).before 8 t d))
    ∗ (∃ d, owns (c : Thread nD τ) (st5_9 t) fullShare ((dat5 V c).before 9 t d))
    ∗ (∃ d, owns (c : Thread nD τ) (st5_10 t) fullShare ((dat5 V c).before 10 t d))
    ∗ (∃ d, owns (c : Thread nD τ) (st5_11 t) fullShare ((dat5 V c).before 11 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t)
    ∗ owns (c : Thread nD τ) (st5_8 t) fullShare ((dat5 V c).after 8 t)
    ∗ owns (c : Thread nD τ) (st5_9 t) fullShare ((dat5 V c).after 9 t)
    ∗ owns (c : Thread nD τ) (st5_10 t) fullShare ((dat5 V c).after 10 t)
    ∗ owns (c : Thread nD τ) (st5_11 t) fullShare ((dat5 V c).after 11 t))

/-- The body at any point: the inputs' memrefs hold their blocks (`before5_W`), so `sound_kernel5` applies; the invariant and
    the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6, before5_7, before5_8, before5_9, before5_10]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7, after5_8, after5_9, after5_10, after5_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel5 c Set.univ (grid5.coords t) _ _ _ _ _ _ _ _ _ _ _ _ _ _ _ _ _ _ _ _ _ _ _ _
    (iblk5 V c 0 t) (iblk5 V c 1 t) (iblk5 V c 2 t) (iblk5 V c 3 t) (iblk5 V c 4 t) (iblk5 V c 5 t)
    (iblk5 V c 6 t) (iblk5 V c 7 t) (iblk5 V c 8 t) (iblk5 V c 9 t) (iblk5 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation5 (c : Dev nD) : BodyObligation (dat5 (F := F) V c) (defs₀ (F := F)) Variants.none () Set.univ := fun t => by
  rw [bigSep_W5, bigSep_W5]
  exact sound_body5 V c t

end Region5

end Cert.Kernel.Hand

end
-- ==== Proof.K.Fold.lean ====
import proofs.«414290_j6631429505478_3_alg».proof.Proof.K.Stats0
import proofs.«414290_j6631429505478_3_alg».proof.Proof.K.Comb1
import proofs.«414290_j6631429505478_3_alg».proof.Proof.K.Stats2
import proofs.«414290_j6631429505478_3_alg».proof.Proof.K.Comb3
import proofs.«414290_j6631429505478_3_alg».proof.Proof.K.Stats4
import proofs.«414290_j6631429505478_3_alg».proof.Proof.K.Comb5
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What the host stretches write

Every operation of a stretch writes one reference, its result; the stretch's written references are listed in order,
and the list is proved to hold every write by one step per operation (the earlier results weakened into the longer list). -/

section Writes

variable {Val : EltTy → Type}

/-- No operation, nothing written. -/
theorem writes_nil :
    ([] : List (HloOp τ sig Val)).Forall fun op => op.writes ⊆ (([] : List (Ref sig .tc)).map (Proc.devRef (τ := τ) .tc)).toFinset :=
  trivial

/-- An operation whose one write is `y`, before a line whose writes are among `W`: the whole line's are among `y :: W`. -/
theorem writes_cons {op : HloOp τ sig Val} {ops : List (HloOp τ sig Val)} {y : Ref sig .tc} {W : List (Ref sig .tc)}
    (h : op.writes = {Proc.devRef .tc y})
    (ht : ops.Forall fun op => op.writes ⊆ (W.map (Proc.devRef (τ := τ) .tc)).toFinset) :
    (op :: ops).Forall fun op => op.writes ⊆ ((y :: W).map (Proc.devRef (τ := τ) .tc)).toFinset := by
  refine (List.forall_cons _ _ _).2 ⟨?_, ?_⟩
  · rw [h, Finset.singleton_subset_iff, List.mem_toFinset]
    exact List.mem_map_of_mem List.mem_cons_self
  · refine List.forall_iff_forall_mem.2 fun o ho b hb => ?_
    have := (List.forall_iff_forall_mem.1 ht) o ho hb
    rw [List.mem_toFinset] at this ⊢
    rw [List.map_cons]
    exact List.mem_cons_of_mem _ this

/-- An operation that allocates nothing, before a line of such. -/
theorem fresh_cons {op : HloOp τ sig Val} {ops : List (HloOp τ sig Val)}
    (h : op.fresh = ∅) (ht : ops.Forall fun op => op.fresh = ∅) : (op :: ops).Forall fun op => op.fresh = ∅ :=
  (List.forall_cons _ _ _).2 ⟨h, ht⟩

end Writes

/-- The references `hostOps0`'s operations write, in order. -/
abbrev hostOps0_W : List (Ref sig .tc) :=
  [main_v0, main_v1, main_v2, main_v3, main_cst, main_v4, main_cst_0, main_v5, main_v6, main_v7, main_cst_1, main_v8, main_v9, main_cst_2, main_v10, main_v11, main_v12, main_v13, main_c, main_v14, main_v15, main_c_3, main_v16, main_v17, main_v18, main_v19, main_v20, main_cst_4, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_v53, main_v54, main_v55, main_v56, main_v57, main_v58, main_v59, main_v60, main_v61, main_v62, main_v63, main_v64, main_v65, main_v66, main_v67, main_v68, main_v69, main_v70, main_v71, main_v72, main_v73, main_v74, main_v75, main_v76, main_v77, main_v78, main_v79, main_v80, main_v81, main_v82, main_v83, main_v84, main_v85, main_v86, main_v87, main_v88, main_v89, main_v90, main_v91, main_v92, main_v93, main_v94, main_v95, main_v96, main_v97, main_v98, main_v99, main_v100, main_v101, main_v102, main_v103, main_v104, main_v105, main_v106, main_v107, main_v108, main_v109, main_v110, main_v111, main_v112, main_v113, main_v114, main_v115, main_v116, main_v117, main_v118, main_v119, main_v120, main_v121, main_v122, main_v123, main_v124, main_v125, main_v126, main_v127, main_v128, main_v129, main_v130, main_v131, main_v132, main_v133, main_v134, main_v135, main_v136, main_v137, main_v138, main_v139, main_v140, main_v141, main_v142, main_v143, main_v144, main_v145, main_v146, main_v147, main_v148, main_v149, main_v150, main_v151, main_v152, main_v153, main_v154, main_v155, main_v156, main_v157, main_v158, main_v159, main_v160, main_v161, main_v162, main_v163, main_v164, main_v165, main_v166, main_v167, main_v168, main_v169, main_v170]
/-- No operation of `hostOps0` allocates a buffer. -/
theorem hostOps0_fresh : (hostOps0 : List (HloOp τ sig (Elt F))).Forall fun op => op.fresh = ∅ := by
  iterate 178 refine fresh_cons rfl ?_
  exact trivial
/-- Every write of `hostOps0` is at a reference of `hostOps0_W`. -/
theorem hostOps0_writes : (hostOps0 : List (HloOp τ sig (Elt F))).Forall fun op => op.writes ⊆ (hostOps0_W.map (Proc.devRef (τ := τ) .tc)).toFinset := by
  iterate 178 refine writes_cons rfl ?_
  exact writes_nil

/-- The references `hostOps1`'s operations write, in order. -/
abbrev hostOps1_W : List (Ref sig .tc) :=
  [main_cst_5, main_v172, main_cst_6, main_v173, main_cst_7, main_v174, main_v175, main_cst_8, main_v176, main_v177, main_v178, main_v179, main_cst_9, main_v180, main_v181]
/-- No operation of `hostOps1` allocates a buffer. -/
theorem hostOps1_fresh : (hostOps1 : List (HloOp τ sig (Elt F))).Forall fun op => op.fresh = ∅ := by
  iterate 15 refine fresh_cons rfl ?_
  exact trivial
/-- Every write of `hostOps1` is at a reference of `hostOps1_W`. -/
theorem hostOps1_writes : (hostOps1 : List (HloOp τ sig (Elt F))).Forall fun op => op.writes ⊆ (hostOps1_W.map (Proc.devRef (τ := τ) .tc)).toFinset := by
  iterate 15 refine writes_cons rfl ?_
  exact writes_nil

/-- The references `hostOps2`'s operations write, in order. -/
abbrev hostOps2_W : List (Ref sig .tc) :=
  [main_v183, main_c_10, main_v184, main_v185, main_c_11, main_v186, main_v187, main_v188, main_v189, main_v190, main_cst_12, main_v191, main_v192, main_v193, main_v194, main_v195, main_v196, main_v197, main_v198, main_v199, main_v200, main_v201, main_v202, main_v203, main_v204, main_v205, main_v206, main_v207, main_v208, main_v209, main_v210, main_v211, main_v212, main_v213, main_v214, main_v215, main_v216, main_v217, main_v218, main_v219, main_v220, main_v221, main_v222, main_v223, main_v224, main_v225, main_v226, main_v227, main_v228, main_v229, main_v230, main_v231, main_v232, main_v233, main_v234, main_v235, main_v236, main_v237, main_v238, main_v239, main_v240, main_v241, main_v242, main_v243, main_v244, main_v245, main_v246, main_v247, main_v248, main_v249, main_v250, main_v251, main_v252, main_v253, main_v254, main_v255, main_v256, main_v257, main_v258, main_v259, main_v260, main_v261, main_v262, main_v263, main_v264, main_v265, main_v266, main_v267, main_v268, main_v269, main_v270, main_v271, main_v272, main_v273, main_v274, main_v275, main_v276, main_v277, main_v278, main_v279, main_v280, main_v281, main_v282, main_v283, main_v284, main_v285, main_v286, main_v287, main_v288, main_v289, main_v290, main_v291, main_v292, main_v293, main_v294, main_v295, main_v296, main_v297, main_v298, main_v299, main_v300, main_v301, main_v302, main_v303, main_v304, main_v305]
/-- No operation of `hostOps2` allocates a buffer. -/
theorem hostOps2_fresh : (hostOps2 : List (HloOp τ sig (Elt F))).Forall fun op => op.fresh = ∅ := by
  iterate 126 refine fresh_cons rfl ?_
  exact trivial
/-- Every write of `hostOps2` is at a reference of `hostOps2_W`. -/
theorem hostOps2_writes : (hostOps2 : List (HloOp τ sig (Elt F))).Forall fun op => op.writes ⊆ (hostOps2_W.map (Proc.devRef (τ := τ) .tc)).toFinset := by
  iterate 126 refine writes_cons rfl ?_
  exact writes_nil

/-- The references `hostOps3`'s operations write, in order. -/
abbrev hostOps3_W : List (Ref sig .tc) :=
  [main_cst_13, main_v307, main_cst_14, main_v308, main_cst_15, main_v309, main_v310, main_cst_16, main_v311, main_v312, main_v313, main_v314, main_cst_17, main_v315, main_v316]
/-- No operation of `hostOps3` allocates a buffer. -/
theorem hostOps3_fresh : (hostOps3 : List (HloOp τ sig (Elt F))).Forall fun op => op.fresh = ∅ := by
  iterate 15 refine fresh_cons rfl ?_
  exact trivial
/-- Every write of `hostOps3` is at a reference of `hostOps3_W`. -/
theorem hostOps3_writes : (hostOps3 : List (HloOp τ sig (Elt F))).Forall fun op => op.writes ⊆ (hostOps3_W.map (Proc.devRef (τ := τ) .tc)).toFinset := by
  iterate 15 refine writes_cons rfl ?_
  exact writes_nil

/-- The references `hostOps4`'s operations write, in order. -/
abbrev hostOps4_W : List (Ref sig .tc) :=
  [main_v318, main_v319, main_v320, main_v321, main_c_18, main_v322, main_v323, main_c_19, main_v324, main_v325, main_v326, main_v327, main_v328, main_cst_20, main_v329, main_v330, main_v331, main_v332, main_v333, main_v334, main_v335, main_v336, main_v337, main_v338, main_v339, main_v340, main_v341, main_v342, main_v343, main_v344, main_v345, main_v346, main_v347, main_v348, main_v349, main_v350, main_v351, main_v352, main_v353, main_v354, main_v355, main_v356, main_v357, main_v358, main_v359, main_v360, main_v361, main_v362, main_v363, main_v364, main_v365, main_v366, main_v367, main_v368, main_v369, main_v370, main_v371, main_v372, main_v373, main_v374, main_v375, main_v376, main_v377, main_v378, main_v379, main_v380, main_v381, main_v382, main_v383, main_v384, main_v385, main_v386, main_v387, main_v388, main_v389, main_v390, main_v391]
/-- No operation of `hostOps4` allocates a buffer. -/
theorem hostOps4_fresh : (hostOps4 : List (HloOp τ sig (Elt F))).Forall fun op => op.fresh = ∅ := by
  iterate 77 refine fresh_cons rfl ?_
  exact trivial
/-- Every write of `hostOps4` is at a reference of `hostOps4_W`. -/
theorem hostOps4_writes : (hostOps4 : List (HloOp τ sig (Elt F))).Forall fun op => op.writes ⊆ (hostOps4_W.map (Proc.devRef (τ := τ) .tc)).toFinset := by
  iterate 77 refine writes_cons rfl ?_
  exact writes_nil

/-- The references `hostOps5`'s operations write, in order. -/
abbrev hostOps5_W : List (Ref sig .tc) :=
  [main_cst_21, main_v393, main_cst_22, main_v394, main_cst_23, main_v395, main_v396, main_cst_24, main_v397, main_v398, main_v399, main_v400, main_cst_25, main_v401, main_v402]
/-- No operation of `hostOps5` allocates a buffer. -/
theorem hostOps5_fresh : (hostOps5 : List (HloOp τ sig (Elt F))).Forall fun op => op.fresh = ∅ := by
  iterate 15 refine fresh_cons rfl ?_
  exact trivial
/-- Every write of `hostOps5` is at a reference of `hostOps5_W`. -/
theorem hostOps5_writes : (hostOps5 : List (HloOp τ sig (Elt F))).Forall fun op => op.writes ⊆ (hostOps5_W.map (Proc.devRef (τ := τ) .tc)).toFinset := by
  iterate 15 refine writes_cons rfl ?_
  exact writes_nil

/-- The references `hostOps6`'s operations write, in order. -/
abbrev hostOps6_W : List (Ref sig .tc) :=
  [main_v404, main_v405, main_v406, main_v407]
/-- No operation of `hostOps6` allocates a buffer. -/
theorem hostOps6_fresh : (hostOps6 : List (HloOp τ sig (Elt F))).Forall fun op => op.fresh = ∅ := by
  iterate 4 refine fresh_cons rfl ?_
  exact trivial
/-- Every write of `hostOps6` is at a reference of `hostOps6_W`. -/
theorem hostOps6_writes : (hostOps6 : List (HloOp τ sig (Elt F))).Forall fun op => op.writes ⊆ (hostOps6_W.map (Proc.devRef (τ := τ) .tc)).toFinset := by
  iterate 4 refine writes_cons rfl ?_
  exact writes_nil

variable (m : (ℓ : Loc nD τ sig) → Buf (Elt F) ℓ) (ρ : Dev nD → PrngReg)

/-! # The buffer contents at each boundary between @main's 13 items: a fold from the launch memory

Item 2J is the host stretch `hostOpsJ` (J = 0..6), item 2K+1 the kernel region K (K = 0..5). `W j` is core `c`'s buffers
before item `j` (`W13` after the last); `V j` the same read at the TensorCore's references. The folds are sealed
(`W j_eq` opens one): a stretch is up to 178 operations long, and nothing below needs to look inside one. -/

/-- Core `c`'s buffers at launch. -/
abbrev W0 : Dev nD → Valuation τ sig (Elt F) := fun c b => (s₀ m ρ).mem ((c : Dev nD), b)

/-- After `hostOps0` (region 0's entry). -/
def W1 : Dev nD → Valuation τ sig (Elt F) := fun c => StableHlo.after hostOps0 (W0 m ρ c)
theorem W1_eq (c : Dev nD) : W1 m ρ c = StableHlo.after hostOps0 (W0 m ρ c) := rfl
attribute [irreducible] W1
/-- The same read at the TensorCore's references (what region 0's proof data take). -/
abbrev V1 : (c : Dev nD) → (b : Ref sig .tc) → Buf (Elt F) ((c : Thread nD τ).loc b) := fun c b => W1 m ρ c b
/-- A reference `hostOps0` does not write holds after it what it held before. -/
theorem W1_of_nw (c : Dev nD) (r : Ref sig .tc) (h : r ∉ hostOps0_W) :
    W1 m ρ c (Proc.devRef .tc r) = W0 m ρ c (Proc.devRef .tc r) := by
  rw [W1_eq]; exact StableHlo.after_of_writes_sub hostOps0 _ hostOps0_writes h
/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_eq (c : Dev nD) :
    W2 m ρ c = Pipeline.withArrays spec0 c (W1 m ρ c) fun w => (dat0 (V1 m ρ) c).arrAt w cfg0.N := rfl
attribute [irreducible] W2
theorem W2_arr (c : Dev nD) (w : Fin cfg0.W) :
    W2 m ρ c (Proc.devRef .tc (Pipeline.arrRef spec0 w)) = (dat0 (V1 m ρ) c).arrAt w cfg0.N := by
  rw [W2_eq]; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  rw [W2_eq]; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves, and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
def W3 : Dev nD → Valuation τ sig (Elt F) := fun c => StableHlo.after hostOps1 (W2 m ρ c)
theorem W3_eq (c : Dev nD) : W3 m ρ c = StableHlo.after hostOps1 (W2 m ρ c) := rfl
attribute [irreducible] W3
/-- The same read at the TensorCore's references (what region 1's proof data take). -/
abbrev V3 : (c : Dev nD) → (b : Ref sig .tc) → Buf (Elt F) ((c : Thread nD τ).loc b) := fun c b => W3 m ρ c b
/-- A reference `hostOps1` does not write holds after it what it held before. -/
theorem W3_of_nw (c : Dev nD) (r : Ref sig .tc) (h : r ∉ hostOps1_W) :
    W3 m ρ c (Proc.devRef .tc r) = W2 m ρ c (Proc.devRef .tc r) := by
  rw [W3_eq]; exact StableHlo.after_of_writes_sub hostOps1 _ hostOps1_writes h
/-- At region 1's exit: its arrays at what the pipeline leaves (the inputs as entered, each output's write-backs
    folded), every other buffer as entered. -/
def W4 (c : Dev nD) : Valuation τ sig (Elt F) :=
  Pipeline.withArrays spec1 c (W3 m ρ c) fun w => (dat1 (V3 m ρ) c).arrAt w cfg1.N
theorem W4_eq (c : Dev nD) :
    W4 m ρ c = Pipeline.withArrays spec1 c (W3 m ρ c) fun w => (dat1 (V3 m ρ) c).arrAt w cfg1.N := rfl
attribute [irreducible] W4
theorem W4_arr (c : Dev nD) (w : Fin cfg1.W) :
    W4 m ρ c (Proc.devRef .tc (Pipeline.arrRef spec1 w)) = (dat1 (V3 m ρ) c).arrAt w cfg1.N := by
  rw [W4_eq]; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  rw [W4_eq]; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves, and every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2` (region 2's entry). -/
def W5 : Dev nD → Valuation τ sig (Elt F) := fun c => StableHlo.after hostOps2 (W4 m ρ c)
theorem W5_eq (c : Dev nD) : W5 m ρ c = StableHlo.after hostOps2 (W4 m ρ c) := rfl
attribute [irreducible] W5
/-- The same read at the TensorCore's references (what region 2's proof data take). -/
abbrev V5 : (c : Dev nD) → (b : Ref sig .tc) → Buf (Elt F) ((c : Thread nD τ).loc b) := fun c b => W5 m ρ c b
/-- A reference `hostOps2` does not write holds after it what it held before. -/
theorem W5_of_nw (c : Dev nD) (r : Ref sig .tc) (h : r ∉ hostOps2_W) :
    W5 m ρ c (Proc.devRef .tc r) = W4 m ρ c (Proc.devRef .tc r) := by
  rw [W5_eq]; exact StableHlo.after_of_writes_sub hostOps2 _ hostOps2_writes h
/-- At region 2's exit: its arrays at what the pipeline leaves (the inputs as entered, each output's write-backs
    folded), every other buffer as entered. -/
def W6 (c : Dev nD) : Valuation τ sig (Elt F) :=
  Pipeline.withArrays spec2 c (W5 m ρ c) fun w => (dat2 (V5 m ρ) c).arrAt w cfg2.N
theorem W6_eq (c : Dev nD) :
    W6 m ρ c = Pipeline.withArrays spec2 c (W5 m ρ c) fun w => (dat2 (V5 m ρ) c).arrAt w cfg2.N := rfl
attribute [irreducible] W6
theorem W6_arr (c : Dev nD) (w : Fin cfg2.W) :
    W6 m ρ c (Proc.devRef .tc (Pipeline.arrRef spec2 w)) = (dat2 (V5 m ρ) c).arrAt w cfg2.N := by
  rw [W6_eq]; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  rw [W6_eq]; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves, and every other buffer what it held at entry. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After `hostOps3` (region 3's entry). -/
def W7 : Dev nD → Valuation τ sig (Elt F) := fun c => StableHlo.after hostOps3 (W6 m ρ c)
theorem W7_eq (c : Dev nD) : W7 m ρ c = StableHlo.after hostOps3 (W6 m ρ c) := rfl
attribute [irreducible] W7
/-- The same read at the TensorCore's references (what region 3's proof data take). -/
abbrev V7 : (c : Dev nD) → (b : Ref sig .tc) → Buf (Elt F) ((c : Thread nD τ).loc b) := fun c b => W7 m ρ c b
/-- A reference `hostOps3` does not write holds after it what it held before. -/
theorem W7_of_nw (c : Dev nD) (r : Ref sig .tc) (h : r ∉ hostOps3_W) :
    W7 m ρ c (Proc.devRef .tc r) = W6 m ρ c (Proc.devRef .tc r) := by
  rw [W7_eq]; exact StableHlo.after_of_writes_sub hostOps3 _ hostOps3_writes h
/-- At region 3's exit: its arrays at what the pipeline leaves (the inputs as entered, each output's write-backs
    folded), every other buffer as entered. -/
def W8 (c : Dev nD) : Valuation τ sig (Elt F) :=
  Pipeline.withArrays spec3 c (W7 m ρ c) fun w => (dat3 (V7 m ρ) c).arrAt w cfg3.N
theorem W8_eq (c : Dev nD) :
    W8 m ρ c = Pipeline.withArrays spec3 c (W7 m ρ c) fun w => (dat3 (V7 m ρ) c).arrAt w cfg3.N := rfl
attribute [irreducible] W8
theorem W8_arr (c : Dev nD) (w : Fin cfg3.W) :
    W8 m ρ c (Proc.devRef .tc (Pipeline.arrRef spec3 w)) = (dat3 (V7 m ρ) c).arrAt w cfg3.N := by
  rw [W8_eq]; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  rw [W8_eq]; exact Pipeline.withArrays_of_ne spec3 c _ _ b hb
/-- The same read at the TensorCore's references (region 3's exit contents). -/
abbrev V8 : (c : Dev nD) → (b : Ref sig .tc) → Buf (Elt F) ((c : Thread nD τ).loc b) := fun c b => W8 m ρ c b
/-- At region 3's exit each of its arrays holds what the pipeline leaves, and every other buffer what it held at entry. -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After `hostOps4` (region 4's entry). -/
def W9 : Dev nD → Valuation τ sig (Elt F) := fun c => StableHlo.after hostOps4 (W8 m ρ c)
theorem W9_eq (c : Dev nD) : W9 m ρ c = StableHlo.after hostOps4 (W8 m ρ c) := rfl
attribute [irreducible] W9
/-- The same read at the TensorCore's references (what region 4's proof data take). -/
abbrev V9 : (c : Dev nD) → (b : Ref sig .tc) → Buf (Elt F) ((c : Thread nD τ).loc b) := fun c b => W9 m ρ c b
/-- A reference `hostOps4` does not write holds after it what it held before. -/
theorem W9_of_nw (c : Dev nD) (r : Ref sig .tc) (h : r ∉ hostOps4_W) :
    W9 m ρ c (Proc.devRef .tc r) = W8 m ρ c (Proc.devRef .tc r) := by
  rw [W9_eq]; exact StableHlo.after_of_writes_sub hostOps4 _ hostOps4_writes h
/-- At region 4's exit: its arrays at what the pipeline leaves (the inputs as entered, each output's write-backs
    folded), every other buffer as entered. -/
def W10 (c : Dev nD) : Valuation τ sig (Elt F) :=
  Pipeline.withArrays spec4 c (W9 m ρ c) fun w => (dat4 (V9 m ρ) c).arrAt w cfg4.N
theorem W10_eq (c : Dev nD) :
    W10 m ρ c = Pipeline.withArrays spec4 c (W9 m ρ c) fun w => (dat4 (V9 m ρ) c).arrAt w cfg4.N := rfl
attribute [irreducible] W10
theorem W10_arr (c : Dev nD) (w : Fin cfg4.W) :
    W10 m ρ c (Proc.devRef .tc (Pipeline.arrRef spec4 w)) = (dat4 (V9 m ρ) c).arrAt w cfg4.N := by
  rw [W10_eq]; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  rw [W10_eq]; exact Pipeline.withArrays_of_ne spec4 c _ _ b hb
/-- The same read at the TensorCore's references (region 4's exit contents). -/
abbrev V10 : (c : Dev nD) → (b : Ref sig .tc) → Buf (Elt F) ((c : Thread nD τ).loc b) := fun c b => W10 m ρ c b
/-- At region 4's exit each of its arrays holds what the pipeline leaves, and every other buffer what it held at entry. -/
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-- After `hostOps5` (region 5's entry). -/
def W11 : Dev nD → Valuation τ sig (Elt F) := fun c => StableHlo.after hostOps5 (W10 m ρ c)
theorem W11_eq (c : Dev nD) : W11 m ρ c = StableHlo.after hostOps5 (W10 m ρ c) := rfl
attribute [irreducible] W11
/-- The same read at the TensorCore's references (what region 5's proof data take). -/
abbrev V11 : (c : Dev nD) → (b : Ref sig .tc) → Buf (Elt F) ((c : Thread nD τ).loc b) := fun c b => W11 m ρ c b
/-- A reference `hostOps5` does not write holds after it what it held before. -/
theorem W11_of_nw (c : Dev nD) (r : Ref sig .tc) (h : r ∉ hostOps5_W) :
    W11 m ρ c (Proc.devRef .tc r) = W10 m ρ c (Proc.devRef .tc r) := by
  rw [W11_eq]; exact StableHlo.after_of_writes_sub hostOps5 _ hostOps5_writes h
/-- At region 5's exit: its arrays at what the pipeline leaves (the inputs as entered, each output's write-backs
    folded), every other buffer as entered. -/
def W12 (c : Dev nD) : Valuation τ sig (Elt F) :=
  Pipeline.withArrays spec5 c (W11 m ρ c) fun w => (dat5 (V11 m ρ) c).arrAt w cfg5.N
theorem W12_eq (c : Dev nD) :
    W12 m ρ c = Pipeline.withArrays spec5 c (W11 m ρ c) fun w => (dat5 (V11 m ρ) c).arrAt w cfg5.N := rfl
attribute [irreducible] W12
theorem W12_arr (c : Dev nD) (w : Fin cfg5.W) :
    W12 m ρ c (Proc.devRef .tc (Pipeline.arrRef spec5 w)) = (dat5 (V11 m ρ) c).arrAt w cfg5.N := by
  rw [W12_eq]; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  rw [W12_eq]; exact Pipeline.withArrays_of_ne spec5 c _ _ b hb
/-- The same read at the TensorCore's references (region 5's exit contents). -/
abbrev V12 : (c : Dev nD) → (b : Ref sig .tc) → Buf (Elt F) ((c : Thread nD τ).loc b) := fun c b => W12 m ρ c b
/-- At region 5's exit each of its arrays holds what the pipeline leaves, and every other buffer what it held at entry. -/
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)

/-- After `hostOps6`: the contents @main returns with. -/
def W13 : Dev nD → Valuation τ sig (Elt F) := fun c => StableHlo.after hostOps6 (W12 m ρ c)
theorem W13_eq (c : Dev nD) : W13 m ρ c = StableHlo.after hostOps6 (W12 m ρ c) := rfl
attribute [irreducible] W13
/-- A reference `hostOps6` does not write holds after it what it held before. -/
theorem W13_of_nw (c : Dev nD) (r : Ref sig .tc) (h : r ∉ hostOps6_W) :
    W13 m ρ c (Proc.devRef .tc r) = W12 m ρ c (Proc.devRef .tc r) := by
  rw [W13_eq]; exact StableHlo.after_of_writes_sub hostOps6 _ hostOps6_writes h

/-! ### The arguments end as launched: no host operation writes one and no region has one among its arrays -/

/-- A reference no item touches holds at the end what the launch memory holds. -/
theorem W13_of_untouched (c : Dev nD) (r : Ref sig .tc)
    (h0 : r ∉ hostOps0_W) (k0 : ∀ w, Pipeline.arrRef spec0 w ≠ r)
    (h1 : r ∉ hostOps1_W) (k1 : ∀ w, Pipeline.arrRef spec1 w ≠ r)
    (h2 : r ∉ hostOps2_W) (k2 : ∀ w, Pipeline.arrRef spec2 w ≠ r)
    (h3 : r ∉ hostOps3_W) (k3 : ∀ w, Pipeline.arrRef spec3 w ≠ r)
    (h4 : r ∉ hostOps4_W) (k4 : ∀ w, Pipeline.arrRef spec4 w ≠ r)
    (h5 : r ∉ hostOps5_W) (k5 : ∀ w, Pipeline.arrRef spec5 w ≠ r)
    (h6 : r ∉ hostOps6_W) :
    W13 m ρ c (Proc.devRef .tc r) = m ((c : Thread nD τ).loc r) :=
  calc W13 m ρ c (Proc.devRef .tc r)
    _ = W12 m ρ c (Proc.devRef .tc r) := W13_of_nw m ρ c r h6
    _ = W11 m ρ c (Proc.devRef .tc r) := W12_of_ne m ρ c r k5
    _ = W10 m ρ c (Proc.devRef .tc r) := W11_of_nw m ρ c r h5
    _ = W9 m ρ c (Proc.devRef .tc r) := W10_of_ne m ρ c r k4
    _ = W8 m ρ c (Proc.devRef .tc r) := W9_of_nw m ρ c r h4
    _ = W7 m ρ c (Proc.devRef .tc r) := W8_of_ne m ρ c r k3
    _ = W6 m ρ c (Proc.devRef .tc r) := W7_of_nw m ρ c r h3
    _ = W5 m ρ c (Proc.devRef .tc r) := W6_of_ne m ρ c r k2
    _ = W4 m ρ c (Proc.devRef .tc r) := W5_of_nw m ρ c r h2
    _ = W3 m ρ c (Proc.devRef .tc r) := W4_of_ne m ρ c r k1
    _ = W2 m ρ c (Proc.devRef .tc r) := W3_of_nw m ρ c r h1
    _ = W1 m ρ c (Proc.devRef .tc r) := W2_of_ne m ρ c r k0
    _ = W0 m ρ c (Proc.devRef .tc r) := W1_of_nw m ρ c r h0
    _ = m ((c : Thread nD τ).loc r) := rfl

theorem W13_main_arg0 (c : Dev nD) : W13 m ρ c (Proc.devRef .tc main_arg0) = m ((c : Thread nD τ).loc main_arg0) :=
  W13_of_untouched m ρ c main_arg0 (by decide) (by decide) (by decide) (by decide) (by decide) (by decide) (by decide)
    (by decide) (by decide) (by decide) (by decide) (by decide) (by decide)

theorem W13_main_arg1 (c : Dev nD) : W13 m ρ c (Proc.devRef .tc main_arg1) = m ((c : Thread nD τ).loc main_arg1) :=
  W13_of_untouched m ρ c main_arg1 (by decide) (by decide) (by decide) (by decide) (by decide) (by decide) (by decide)
    (by decide) (by decide) (by decide) (by decide) (by decide) (by decide)

theorem W13_main_arg2 (c : Dev nD) : W13 m ρ c (Proc.devRef .tc main_arg2) = m ((c : Thread nD τ).loc main_arg2) :=
  W13_of_untouched m ρ c main_arg2 (by decide) (by decide) (by decide) (by decide) (by decide) (by decide) (by decide)
    (by decide) (by decide) (by decide) (by decide) (by decide) (by decide)

theorem W13_main_arg3 (c : Dev nD) : W13 m ρ c (Proc.devRef .tc main_arg3) = m ((c : Thread nD τ).loc main_arg3) :=
  W13_of_untouched m ρ c main_arg3 (by decide) (by decide) (by decide) (by decide) (by decide) (by decide) (by decide)
    (by decide) (by decide) (by decide) (by decide) (by decide) (by decide)

theorem W13_main_arg4 (c : Dev nD) : W13 m ρ c (Proc.devRef .tc main_arg4) = m ((c : Thread nD τ).loc main_arg4) :=
  W13_of_untouched m ρ c main_arg4 (by decide) (by decide) (by decide) (by decide) (by decide) (by decide) (by decide)
    (by decide) (by decide) (by decide) (by decide) (by decide) (by decide)

theorem W13_main_arg5 (c : Dev nD) : W13 m ρ c (Proc.devRef .tc main_arg5) = m ((c : Thread nD τ).loc main_arg5) :=
  W13_of_untouched m ρ c main_arg5 (by decide) (by decide) (by decide) (by decide) (by decide) (by decide) (by decide)
    (by decide) (by decide) (by decide) (by decide) (by decide) (by decide)

theorem W13_main_arg6 (c : Dev nD) : W13 m ρ c (Proc.devRef .tc main_arg6) = m ((c : Thread nD τ).loc main_arg6) :=
  W13_of_untouched m ρ c main_arg6 (by decide) (by decide) (by decide) (by decide) (by decide) (by decide) (by decide)
    (by decide) (by decide) (by decide) (by decide) (by decide) (by decide)

theorem W13_main_arg7 (c : Dev nD) : W13 m ρ c (Proc.devRef .tc main_arg7) = m ((c : Thread nD τ).loc main_arg7) :=
  W13_of_untouched m ρ c main_arg7 (by decide) (by decide) (by decide) (by decide) (by decide) (by decide) (by decide)
    (by decide) (by decide) (by decide) (by decide) (by decide) (by decide)

/-! # The proof data family and the thread state -/

/-- The prefetched tables' admissible contents: no pipeline has a table. -/
abbrev adm : (p : Fin 6) → (pcfgs (F := F) p).Adm := fun p => (cfgs p).toPCfg_adm
/-- Every pipeline's proof data, each at its region's entry contents — a literal `match`, so that
    `Pipeline.pin pcfgs adm p` at a numeral reduces to the printed configuration. -/
def pdats : (p : Fin 6) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W13`, the generator
    register at some state. -/
abbrev Tₙ (c : Dev nD) : sProp 𝕄 := iprop(StableHlo.held (c : Thread nD τ) (Pipeline.ucRefs τ sig) (W13 m ρ c) ∗ ∃ r, prngReg c r)

/-! ### A stretch's segment ends where the next item begins: its `after` is the next boundary's contents by definition -/

theorem chain_host0 (c : Dev nD) :
    (iprop(StableHlo.held (c : Thread nD τ) (Pipeline.ucRefs τ sig) (StableHlo.after hostOps0 (W0 m ρ c)) ∗ R c) : sProp 𝕄)
      ⊢ iprop(StableHlo.held (c : Thread nD τ) (Pipeline.ucRefs τ sig) (W1 m ρ c) ∗ R c) :=
  Entails.of_eq (by rw [W1_eq])

theorem chain_host1 (c : Dev nD) :
    (iprop(StableHlo.held (c : Thread nD τ) (Pipeline.ucRefs τ sig) (StableHlo.after hostOps1 (W2 m ρ c)) ∗ R c) : sProp 𝕄)
      ⊢ iprop(StableHlo.held (c : Thread nD τ) (Pipeline.ucRefs τ sig) (W3 m ρ c) ∗ R c) :=
  Entails.of_eq (by rw [W3_eq])

theorem chain_host2 (c : Dev nD) :
    (iprop(StableHlo.held (c : Thread nD τ) (Pipeline.ucRefs τ sig) (StableHlo.after hostOps2 (W4 m ρ c)) ∗ R c) : sProp 𝕄)
      ⊢ iprop(StableHlo.held (c : Thread nD τ) (Pipeline.ucRefs τ sig) (W5 m ρ c) ∗ R c) :=
  Entails.of_eq (by rw [W5_eq])

theorem chain_host3 (c : Dev nD) :
    (iprop(StableHlo.held (c : Thread nD τ) (Pipeline.ucRefs τ sig) (StableHlo.after hostOps3 (W6 m ρ c)) ∗ R c) : sProp 𝕄)
      ⊢ iprop(StableHlo.held (c : Thread nD τ) (Pipeline.ucRefs τ sig) (W7 m ρ c) ∗ R c) :=
  Entails.of_eq (by rw [W7_eq])

theorem chain_host4 (c : Dev nD) :
    (iprop(StableHlo.held (c : Thread nD τ) (Pipeline.ucRefs τ sig) (StableHlo.after hostOps4 (W8 m ρ c)) ∗ R c) : sProp 𝕄)
      ⊢ iprop(StableHlo.held (c : Thread nD τ) (Pipeline.ucRefs τ sig) (W9 m ρ c) ∗ R c) :=
  Entails.of_eq (by rw [W9_eq])

theorem chain_host5 (c : Dev nD) :
    (iprop(StableHlo.held (c : Thread nD τ) (Pipeline.ucRefs τ sig) (StableHlo.after hostOps5 (W10 m ρ c)) ∗ R c) : sProp 𝕄)
      ⊢ iprop(StableHlo.held (c : Thread nD τ) (Pipeline.ucRefs τ sig) (W11 m ρ c) ∗ R c) :=
  Entails.of_eq (by rw [W11_eq])

theorem chain_host6 (c : Dev nD) :
    (iprop(StableHlo.held (c : Thread nD τ) (Pipeline.ucRefs τ sig) (StableHlo.after hostOps6 (W12 m ρ c)) ∗ R c) : sProp 𝕄)
      ⊢ iprop(StableHlo.held (c : Thread nD τ) (Pipeline.ucRefs τ sig) (W13 m ρ c) ∗ R c) :=
  Entails.of_eq (by rw [W13_eq])

end Cert.Kernel.Hand

end
-- ==== Proof.K.Reg0.lean ====
import proofs.«414290_j6631429505478_3_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over `pin pcs a p` unifies with the pinned configuration only when unification may
-- unfold plain definitions in a metavariable's type
set_option backward.isDefEq.respectTransparency.types false in
/-- REGION 0 (custom_call 0) over the thread state: entered from every unscoped buffer at `W1`, left at `W2`.
    Its arrays split out of the unscoped buffers and put back at the exit contents; the generator register into the
    class invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg1.lean ====
import proofs.«414290_j6631429505478_3_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over `pin pcs a p` unifies with the pinned configuration only when unification may
-- unfold plain definitions in a metavariable's type
set_option backward.isDefEq.respectTransparency.types false in
/-- REGION 1 (custom_call 1) over the thread state: entered from every unscoped buffer at `W3`, left at `W4`.
    Its arrays split out of the unscoped buffers and put back at the exit contents; the generator register into the
    class invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg2.lean ====
import proofs.«414290_j6631429505478_3_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over `pin pcs a p` unifies with the pinned configuration only when unification may
-- unfold plain definitions in a metavariable's type
set_option backward.isDefEq.respectTransparency.types false in
/-- REGION 2 (custom_call 2) over the thread state: entered from every unscoped buffer at `W5`, left at `W6`.
    Its arrays split out of the unscoped buffers and put back at the exit contents; the generator register into the
    class invariant and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg3.lean ====
import proofs.«414290_j6631429505478_3_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over `pin pcs a p` unifies with the pinned configuration only when unification may
-- unfold plain definitions in a metavariable's type
set_option backward.isDefEq.respectTransparency.types false in
/-- REGION 3 (custom_call 3) over the thread state: entered from every unscoped buffer at `W7`, left at `W8`.
    Its arrays split out of the unscoped buffers and put back at the exit contents; the generator register into the
    class invariant and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg4.lean ====
import proofs.«414290_j6631429505478_3_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over `pin pcs a p` unifies with the pinned configuration only when unification may
-- unfold plain definitions in a metavariable's type
set_option backward.isDefEq.respectTransparency.types false in
/-- REGION 4 (custom_call 4) over the thread state: entered from every unscoped buffer at `W9`, left at `W10`.
    Its arrays split out of the unscoped buffers and put back at the exit contents; the generator register into the
    class invariant and out; nothing owed; no semaphore of the kernel's own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg5.lean ====
import proofs.«414290_j6631429505478_3_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over `pin pcs a p` unifies with the pinned configuration only when unification may
-- unfold plain definitions in a metavariable's type
set_option backward.isDefEq.respectTransparency.types false in
/-- REGION 5 (custom_call 5) over the thread state: entered from every unscoped buffer at `W11`, left at `W12`.
    Its arrays split out of the unscoped buffers and put back at the exit contents; the generator register into the
    class invariant and out; nothing owed; no semaphore of the kernel's own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Run.lean ====
import proofs.«414290_j6631429505478_3_alg».proof.Proof.K.Reg0
import proofs.«414290_j6631429505478_3_alg».proof.Proof.K.Reg1
import proofs.«414290_j6631429505478_3_alg».proof.Proof.K.Reg2
import proofs.«414290_j6631429505478_3_alg».proof.Proof.K.Reg3
import proofs.«414290_j6631429505478_3_alg».proof.Proof.K.Reg4
import proofs.«414290_j6631429505478_3_alg».proof.Proof.K.Reg5
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # @main as segments, and the launch -/

/-- @main's 13 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)) ]

/-- @main IS the run of the segments: the chain of its 13 items, which the segments' run is item by item. -/
theorem main_run (c : Dev nD) : main (F := F) c = Pipeline.Seg.run (segs m ρ) := by
  rw [main_chain c, Pipeline.Seg.run_eq_chain]
  rfl

-- the launch theorem's implicit arguments are found by unifying its conclusion with this one, which takes unfolding
-- plain definitions in a metavariable's type
set_option backward.isDefEq.respectTransparency.types false in
/-- THE RUN: at the compiled mesh, from any memory with zero counters, every weakly fair execution of @main on the
    TensorCores terminates, nothing faulting, and in every final state each core's unscoped buffers hold the last
    boundary's contents `W13`. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W13 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun c => chain_host0 m ρ c, fun _ => .rfl, fun c => chain_host1 m ρ c, fun _ => .rfl,
      fun c => chain_host2 m ρ c, fun _ => .rfl, fun c => chain_host3 m ρ c, fun _ => .rfl, fun c => chain_host4 m ρ c,
      fun _ => .rfl, fun c => chain_host5 m ρ c, fun _ => .rfl,
      fun c => (chain_host6 m ρ c).trans (by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c => h c)

end Cert.Kernel.Hand

end
-- ==== Proof.KI.Stats0Runs.lean ====
import proofs.«414290_j6631429505478_3_alg».proof.Proof.Gen.KernelIdeal.Launch
import proofs.«414290_j6631429505478_3_alg».proof.Proof.Gen.KernelIdeal.Skeleton
import proofs.«414290_j6631429505478_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0 (the statistics kernel at width 384): what its cases share

The region-entry contents `V` are a parameter throughout. -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is `V`'s and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch condition -/

/-- The condition of the body's conditional (reset of both outputs), from the grid coordinates. -/
abbrev cond0_0 (i : grid0.Coords) : Prop := (Scalar.cmpi .ne (Scalar.extui (Scalar.cmpi .eq (BitVec.ofNat 32 (i 1).val) 0#32)) 0#32) = 1#1
/-- It holds exactly at the first point of each core's row of 25 — decided over the grid. -/
theorem hcond0_0 : ∀ t : Fin cfg0.N, cond0_0 (grid0.coords t) ↔ t.val % 25 = 0 :=
  (by decide +kernel : ∀ t : Fin grid0.N, cond0_0 (grid0.coords t) ↔ t.val % 25 = 0)

/-! ## The staging memrefs -/

/-- One staging buffer of each output window, through which its contents are stated (the choice does not matter). -/
abbrev VO0_5 : View sig .tc .vmem S1x3x384 .f32 := (Memref.whole cc0_stg5_0 : Memref sig .tc .vmem S1x3x384 .f32).view
abbrev VO0_6 : View sig .tc .vmem S1x3x384 .f32 := (Memref.whole cc0_stg6_0 : Memref sig .tc .vmem S1x3x384 .f32).view
/-- Each window's current staging memref at point `t`, spelled as the pipeline passes it, and its wholeness. -/
abbrev ms0_0 (t : Fin cfg0.N) : Memref sig .tc .vmem S1000x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1000x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1000x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3x128x384 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S3x384 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x3x384 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x3x384 .f32 := win0_6.stage (cfg0.slots t 6)
abbrev hs0_6 (t : Fin cfg0.N) : (ms0_6 t).IsWhole := hstage0_6 ((cfg0.slots t 6).cast nbuf0_6)

end Cert.KernelIdeal.Hand

end
-- ==== Proof.KI.Stats0RunA.lean ====
import proofs.«414290_j6631429505478_3_alg».proof.Proof.KI.Stats0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the whole-body run in case A -/

set_option maxHeartbeats 4000000 in
/-- What the body's stores leave in each output's staging memref, as pieces (last first), IN CASE A (the conditional taken:
    the first point of a core's row), with the proof that on whole staging memrefs — the inputs' at their contents, the
    outputs' at anything — the body runs to the continuation holding the inputs' as they were and each output's buffer
    with its pieces written. -/
noncomputable def kernelRun0_A (c : Dev nD) (i : grid0.Coords) (arg2 : Memref sig .tc .vmem S1000x128 .bf16) (harg2 : arg2.IsWhole) (arg3 : Memref sig .tc .vmem S1000x128 .bf16) (harg3 : arg3.IsWhole) (arg4 : Memref sig .tc .vmem S1000x128 .bf16) (harg4 : arg4.IsWhole) (arg5 : Memref sig .tc .vmem S3x128x384 .f32) (harg5 : arg5.IsWhole) (arg6 : Memref sig .tc .vmem S3x384 .f32) (harg6 : arg6.IsWhole) (arg7 : Memref sig .tc .vmem S1x3x384 .f32) (harg7 : arg7.IsWhole) (arg8 : Memref sig .tc .vmem S1x3x384 .f32) (harg8 : arg8.IsWhole) (hc0 : cond0_0 i)
    (x0 : Vec F S1000x128 .bf16) (x1 : Vec F S1000x128 .bf16) (x2 : Vec F S1000x128 .bf16) (x3 : Vec F S3x128x384 .f32) (x4 : Vec F S3x384 .f32) :
    Σ' (L5 : List (View.Piece (Elt F) S1x3x384 .f32)), { L6 : List (View.Piece (Elt F) S1x3x384 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6)) -∗ K ⟨⟩))
          ⊢ wp frame (wpE (defs₀ (F := F)) Variants.none c none) E (cc0__stats_kernel i arg2 harg2 arg3 harg3 arg4 harg4 arg5 harg5 arg6 harg6 arg7 harg7 arg8 harg8) K } := by
  refine ⟨?_, ?_, fun E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact H6

end Cert.KernelIdeal.Hand

end
-- ==== Proof.KI.Stats0RunB.lean ====
import proofs.«414290_j6631429505478_3_alg».proof.Proof.KI.Stats0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the whole-body run in case B -/

set_option maxHeartbeats 4000000 in
/-- What the body's stores leave in each output's staging memref, as pieces (last first), IN CASE B (the conditional not
    taken: the other points of a core's row), with the proof that on whole staging memrefs — the inputs' at their contents,
    the outputs', which the body reads before covering, at their running contents `xo·` — the body runs to the continuation
    holding the inputs' as they were and each output's buffer with its pieces written. -/
noncomputable def kernelRun0_B (c : Dev nD) (i : grid0.Coords) (arg2 : Memref sig .tc .vmem S1000x128 .bf16) (harg2 : arg2.IsWhole) (arg3 : Memref sig .tc .vmem S1000x128 .bf16) (harg3 : arg3.IsWhole) (arg4 : Memref sig .tc .vmem S1000x128 .bf16) (harg4 : arg4.IsWhole) (arg5 : Memref sig .tc .vmem S3x128x384 .f32) (harg5 : arg5.IsWhole) (arg6 : Memref sig .tc .vmem S3x384 .f32) (harg6 : arg6.IsWhole) (arg7 : Memref sig .tc .vmem S1x3x384 .f32) (harg7 : arg7.IsWhole) (arg8 : Memref sig .tc .vmem S1x3x384 .f32) (harg8 : arg8.IsWhole) (hc0 : ¬cond0_0 i)
    (x0 : Vec F S1000x128 .bf16) (x1 : Vec F S1000x128 .bf16) (x2 : Vec F S1000x128 .bf16) (x3 : Vec F S3x128x384 .f32) (x4 : Vec F S3x384 .f32) (xo5 : Vec F S1x3x384 .f32) (xo6 : Vec F S1x3x384 .f32) :
    Σ' (L5 : List (View.Piece (Elt F) S1x3x384 .f32)), { L6 : List (View.Piece (Elt F) S1x3x384 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo5 ∗ owns (c : Thread nD τ) arg8 fullShare xo6
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6)) -∗ K ⟨⟩))
          ⊢ wp frame (wpE (defs₀ (F := F)) Variants.none c none) E (cc0__stats_kernel i arg2 harg2 arg3 harg3 arg4 harg4 arg5 harg5 arg6 harg6 arg7 harg7 arg8 harg8) K } := by
  refine ⟨?_, ?_, fun E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact H6

end Cert.KernelIdeal.Hand

end
-- ==== Proof.KI.Stats0.lean ====
import proofs.«414290_j6631429505478_3_alg».proof.Proof.KI.Stats0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0 (the statistics kernel at width 384): the frame half

Both outputs' blocks are revisited over a core's row of 25 points: reset at the row's first point, added to at the
others, written back at its last. -/

variable (V : (c : Dev nD) → (b : Ref sig .tc) → Buf (Elt F) ((c : Thread nD τ).loc b))

/-- Case A's pieces for output 5 tile its block, so they cover it. -/
theorem cover0_A_5 (c : Dev nD) (i : grid0.Coords) (arg2 : Memref sig .tc .vmem S1000x128 .bf16) (harg2 : arg2.IsWhole) (arg3 : Memref sig .tc .vmem S1000x128 .bf16) (harg3 : arg3.IsWhole) (arg4 : Memref sig .tc .vmem S1000x128 .bf16) (harg4 : arg4.IsWhole) (arg5 : Memref sig .tc .vmem S3x128x384 .f32) (harg5 : arg5.IsWhole) (arg6 : Memref sig .tc .vmem S3x384 .f32) (harg6 : arg6.IsWhole) (arg7 : Memref sig .tc .vmem S1x3x384 .f32) (harg7 : arg7.IsWhole) (arg8 : Memref sig .tc .vmem S1x3x384 .f32) (harg8 : arg8.IsWhole) (hc0 : cond0_0 i)
    (x0 : Vec F S1000x128 .bf16) (x1 : Vec F S1000x128 .bf16) (x2 : Vec F S1000x128 .bf16) (x3 : Vec F S3x128x384 .f32) (x4 : Vec F S3x384 .f32) (y : S1x3x384.Idx) :
    ∃ pc ∈ (kernelRun0_A c i arg2 harg2 arg3 harg3 arg4 harg4 arg5 harg5 arg6 harg6 arg7 harg7 arg8 harg8 hc0 x0 x1 x2 x3 x4).1, y ∈ pc.1.set :=
  View.cover_of_tiledL (kernelRun0_A c i arg2 harg2 arg3 harg3 arg4 harg4 arg5 harg5 arg6 harg6 arg7 harg7 arg8 harg8 hc0 x0 x1 x2 x3 x4).1 S1x3x384.size (by sl_kernel_rfl) y

/-- What case A leaves in output 5's staging buffer: its pieces read back over junk. -/
def out0_A_5 (c : Dev nD) (i : grid0.Coords) (arg2 : Memref sig .tc .vmem S1000x128 .bf16) (harg2 : arg2.IsWhole) (arg3 : Memref sig .tc .vmem S1000x128 .bf16) (harg3 : arg3.IsWhole) (arg4 : Memref sig .tc .vmem S1000x128 .bf16) (harg4 : arg4.IsWhole) (arg5 : Memref sig .tc .vmem S3x128x384 .f32) (harg5 : arg5.IsWhole) (arg6 : Memref sig .tc .vmem S3x384 .f32) (harg6 : arg6.IsWhole) (arg7 : Memref sig .tc .vmem S1x3x384 .f32) (harg7 : arg7.IsWhole) (arg8 : Memref sig .tc .vmem S1x3x384 .f32) (harg8 : arg8.IsWhole) (hc0 : cond0_0 i)
    (x0 : Vec F S1000x128 .bf16) (x1 : Vec F S1000x128 .bf16) (x2 : Vec F S1000x128 .bf16) (x3 : Vec F S3x128x384 .f32) (x4 : Vec F S3x384 .f32) : Vec F S1x3x384 .f32 :=
  VO0_5.read (Elt F) (VO0_5.writes (Elt F) VO0_5.junk (kernelRun0_A c i arg2 harg2 arg3 harg3 arg4 harg4 arg5 harg5 arg6 harg6 arg7 harg7 arg8 harg8 hc0 x0 x1 x2 x3 x4).1)

/-- Case A's pieces for output 6 tile its block, so they cover it. -/
theorem cover0_A_6 (c : Dev nD) (i : grid0.Coords) (arg2 : Memref sig .tc .vmem S1000x128 .bf16) (harg2 : arg2.IsWhole) (arg3 : Memref sig .tc .vmem S1000x128 .bf16) (harg3 : arg3.IsWhole) (arg4 : Memref sig .tc .vmem S1000x128 .bf16) (harg4 : arg4.IsWhole) (arg5 : Memref sig .tc .vmem S3x128x384 .f32) (harg5 : arg5.IsWhole) (arg6 : Memref sig .tc .vmem S3x384 .f32) (harg6 : arg6.IsWhole) (arg7 : Memref sig .tc .vmem S1x3x384 .f32) (harg7 : arg7.IsWhole) (arg8 : Memref sig .tc .vmem S1x3x384 .f32) (harg8 : arg8.IsWhole) (hc0 : cond0_0 i)
    (x0 : Vec F S1000x128 .bf16) (x1 : Vec F S1000x128 .bf16) (x2 : Vec F S1000x128 .bf16) (x3 : Vec F S3x128x384 .f32) (x4 : Vec F S3x384 .f32) (y : S1x3x384.Idx) :
    ∃ pc ∈ (kernelRun0_A c i arg2 harg2 arg3 harg3 arg4 harg4 arg5 harg5 arg6 harg6 arg7 harg7 arg8 harg8 hc0 x0 x1 x2 x3 x4).2.1, y ∈ pc.1.set :=
  View.cover_of_tiledL (kernelRun0_A c i arg2 harg2 arg3 harg3 arg4 harg4 arg5 harg5 arg6 harg6 arg7 harg7 arg8 harg8 hc0 x0 x1 x2 x3 x4).2.1 S1x3x384.size (by sl_kernel_rfl) y

/-- What case A leaves in output 6's staging buffer: its pieces read back over junk. -/
def out0_A_6 (c : Dev nD) (i : grid0.Coords) (arg2 : Memref sig .tc .vmem S1000x128 .bf16) (harg2 : arg2.IsWhole) (arg3 : Memref sig .tc .vmem S1000x128 .bf16) (harg3 : arg3.IsWhole) (arg4 : Memref sig .tc .vmem S1000x128 .bf16) (harg4 : arg4.IsWhole) (arg5 : Memref sig .tc .vmem S3x128x384 .f32) (harg5 : arg5.IsWhole) (arg6 : Memref sig .tc .vmem S3x384 .f32) (harg6 : arg6.IsWhole) (arg7 : Memref sig .tc .vmem S1x3x384 .f32) (harg7 : arg7.IsWhole) (arg8 : Memref sig .tc .vmem S1x3x384 .f32) (harg8 : arg8.IsWhole) (hc0 : cond0_0 i)
    (x0 : Vec F S1000x128 .bf16) (x1 : Vec F S1000x128 .bf16) (x2 : Vec F S1000x128 .bf16) (x3 : Vec F S3x128x384 .f32) (x4 : Vec F S3x384 .f32) : Vec F S1x3x384 .f32 :=
  VO0_6.read (Elt F) (VO0_6.writes (Elt F) VO0_6.junk (kernelRun0_A c i arg2 harg2 arg3 harg3 arg4 harg4 arg5 harg5 arg6 harg6 arg7 harg7 arg8 harg8 hc0 x0 x1 x2 x3 x4).2.1)

/-- Case B's pieces for output 5 tile its block, so they cover it. -/
theorem cover0_B_5 (c : Dev nD) (i : grid0.Coords) (arg2 : Memref sig .tc .vmem S1000x128 .bf16) (harg2 : arg2.IsWhole) (arg3 : Memref sig .tc .vmem S1000x128 .bf16) (harg3 : arg3.IsWhole) (arg4 : Memref sig .tc .vmem S1000x128 .bf16) (harg4 : arg4.IsWhole) (arg5 : Memref sig .tc .vmem S3x128x384 .f32) (harg5 : arg5.IsWhole) (arg6 : Memref sig .tc .vmem S3x384 .f32) (harg6 : arg6.IsWhole) (arg7 : Memref sig .tc .vmem S1x3x384 .f32) (harg7 : arg7.IsWhole) (arg8 : Memref sig .tc .vmem S1x3x384 .f32) (harg8 : arg8.IsWhole) (hc0 : ¬cond0_0 i)
    (x0 : Vec F S1000x128 .bf16) (x1 : Vec F S1000x128 .bf16) (x2 : Vec F S1000x128 .bf16) (x3 : Vec F S3x128x384 .f32) (x4 : Vec F S3x384 .f32) (xo5 : Vec F S1x3x384 .f32) (xo6 : Vec F S1x3x384 .f32) (y : S1x3x384.Idx) :
    ∃ pc ∈ (kernelRun0_B c i arg2 harg2 arg3 harg3 arg4 harg4 arg5 harg5 arg6 harg6 arg7 harg7 arg8 harg8 hc0 x0 x1 x2 x3 x4 xo5 xo6).1, y ∈ pc.1.set :=
  View.cover_of_tiledL (kernelRun0_B c i arg2 harg2 arg3 harg3 arg4 harg4 arg5 harg5 arg6 harg6 arg7 harg7 arg8 harg8 hc0 x0 x1 x2 x3 x4 xo5 xo6).1 S1x3x384.size (by sl_kernel_rfl) y

/-- What case B leaves in output 5's staging buffer: its pieces read back over junk. -/
def out0_B_5 (c : Dev nD) (i : grid0.Coords) (arg2 : Memref sig .tc .vmem S1000x128 .bf16) (harg2 : arg2.IsWhole) (arg3 : Memref sig .tc .vmem S1000x128 .bf16) (harg3 : arg3.IsWhole) (arg4 : Memref sig .tc .vmem S1000x128 .bf16) (harg4 : arg4.IsWhole) (arg5 : Memref sig .tc .vmem S3x128x384 .f32) (harg5 : arg5.IsWhole) (arg6 : Memref sig .tc .vmem S3x384 .f32) (harg6 : arg6.IsWhole) (arg7 : Memref sig .tc .vmem S1x3x384 .f32) (harg7 : arg7.IsWhole) (arg8 : Memref sig .tc .vmem S1x3x384 .f32) (harg8 : arg8.IsWhole) (hc0 : ¬cond0_0 i)
    (x0 : Vec F S1000x128 .bf16) (x1 : Vec F S1000x128 .bf16) (x2 : Vec F S1000x128 .bf16) (x3 : Vec F S3x128x384 .f32) (x4 : Vec F S3x384 .f32) (xo5 : Vec F S1x3x384 .f32) (xo6 : Vec F S1x3x384 .f32) : Vec F S1x3x384 .f32 :=
  VO0_5.read (Elt F) (VO0_5.writes (Elt F) VO0_5.junk (kernelRun0_B c i arg2 harg2 arg3 harg3 arg4 harg4 arg5 harg5 arg6 harg6 arg7 harg7 arg8 harg8 hc0 x0 x1 x2 x3 x4 xo5 xo6).1)

/-- Case B's pieces for output 6 tile its block, so they cover it. -/
theorem cover0_B_6 (c : Dev nD) (i : grid0.Coords) (arg2 : Memref sig .tc .vmem S1000x128 .bf16) (harg2 : arg2.IsWhole) (arg3 : Memref sig .tc .vmem S1000x128 .bf16) (harg3 : arg3.IsWhole) (arg4 : Memref sig .tc .vmem S1000x128 .bf16) (harg4 : arg4.IsWhole) (arg5 : Memref sig .tc .vmem S3x128x384 .f32) (harg5 : arg5.IsWhole) (arg6 : Memref sig .tc .vmem S3x384 .f32) (harg6 : arg6.IsWhole) (arg7 : Memref sig .tc .vmem S1x3x384 .f32) (harg7 : arg7.IsWhole) (arg8 : Memref sig .tc .vmem S1x3x384 .f32) (harg8 : arg8.IsWhole) (hc0 : ¬cond0_0 i)
    (x0 : Vec F S1000x128 .bf16) (x1 : Vec F S1000x128 .bf16) (x2 : Vec F S1000x128 .bf16) (x3 : Vec F S3x128x384 .f32) (x4 : Vec F S3x384 .f32) (xo5 : Vec F S1x3x384 .f32) (xo6 : Vec F S1x3x384 .f32) (y : S1x3x384.Idx) :
    ∃ pc ∈ (kernelRun0_B c i arg2 harg2 arg3 harg3 arg4 harg4 arg5 harg5 arg6 harg6 arg7 harg7 arg8 harg8 hc0 x0 x1 x2 x3 x4 xo5 xo6).2.1, y ∈ pc.1.set :=
  View.cover_of_tiledL (kernelRun0_B c i arg2 harg2 arg3 harg3 arg4 harg4 arg5 harg5 arg6 harg6 arg7 harg7 arg8 harg8 hc0 x0 x1 x2 x3 x4 xo5 xo6).2.1 S1x3x384.size (by sl_kernel_rfl) y

/-- What case B leaves in output 6's staging buffer: its pieces read back over junk. -/
def out0_B_6 (c : Dev nD) (i : grid0.Coords) (arg2 : Memref sig .tc .vmem S1000x128 .bf16) (harg2 : arg2.IsWhole) (arg3 : Memref sig .tc .vmem S1000x128 .bf16) (harg3 : arg3.IsWhole) (arg4 : Memref sig .tc .vmem S1000x128 .bf16) (harg4 : arg4.IsWhole) (arg5 : Memref sig .tc .vmem S3x128x384 .f32) (harg5 : arg5.IsWhole) (arg6 : Memref sig .tc .vmem S3x384 .f32) (harg6 : arg6.IsWhole) (arg7 : Memref sig .tc .vmem S1x3x384 .f32) (harg7 : arg7.IsWhole) (arg8 : Memref sig .tc .vmem S1x3x384 .f32) (harg8 : arg8.IsWhole) (hc0 : ¬cond0_0 i)
    (x0 : Vec F S1000x128 .bf16) (x1 : Vec F S1000x128 .bf16) (x2 : Vec F S1000x128 .bf16) (x3 : Vec F S3x128x384 .f32) (x4 : Vec F S3x384 .f32) (xo5 : Vec F S1x3x384 .f32) (xo6 : Vec F S1x3x384 .f32) : Vec F S1x3x384 .f32 :=
  VO0_6.read (Elt F) (VO0_6.writes (Elt F) VO0_6.junk (kernelRun0_B c i arg2 harg2 arg3 harg3 arg4 harg4 arg5 harg5 arg6 harg6 arg7 harg7 arg8 harg8 hc0 x0 x1 x2 x3 x4 xo5 xo6).2.1)

/-! ## What the outputs hold after each point -/

/-- THE ACCUMULATION. What the two outputs' staging buffers hold after the body at position `n`: the case the closed
    form selects at `n`, run at the point's memrefs and input blocks; in case B over what this leaves at `n - 1`
    (the buffers are not written back between). The recursion restarts at every first point of a row. -/
def outsAt0 (c : Dev nD) : (n : ℕ) → n < cfg0.N → Vec F S1x3x384 .f32 × Vec F S1x3x384 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h0 : (n + 1) % 25 = 0 then
      (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩))
    else
      (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).1 (outsAt0 c n (Nat.lt_of_succ_lt hn)).2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).1 (outsAt0 c n (Nat.lt_of_succ_lt hn)).2)

/-- `outsAt0` at a point of case A: that case's contents. -/
theorem outsAt0_A (c : Dev nD) (t : Fin cfg0.N) (h0 : t.val % 25 = 0) :
    outsAt0 V c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 V c 0 t) (iblk0 V c 1 t) (iblk0 V c 2 t) (iblk0 V c 3 t) (iblk0 V c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk0 V c 0 t) (iblk0 V c 1 t) (iblk0 V c 2 t) (iblk0 V c 3 t) (iblk0 V c 4 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 25 = 0) :
    outsAt0 V c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).1 (outsAt0 V c (t.val - 1) (Nat.lt_of_le_of_lt (Nat.sub_le _ _) t.isLt)).2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).1 (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data of region 0's pipeline on core `c`: the arrays as the region finds them; after the body at point
    `t` each input's buffer at its block and the outputs' at `outsAt0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
    | ⟨6, _⟩ => (outsAt0 V c t.val t.isLt).2
  Φ _ := Pipeline.ΦA spec0 c
  q _ := fullShare
  owed _ := 0

/-- The proof data's arrays are the region-entry contents. -/
theorem A_eq0 (c : Dev nD) (w : Fin cfg0.W) :
    (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]
theorem after0_6 (c : Dev nD) (t : Fin cfg0.N) : (dat0 V c).after 6 t = (outsAt0 V c t.val t.isLt).2 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
/-- At a point of case B output 5's current staging buffer holds what the body left at the point before: the point is not
    a row's first, so the buffer was not written back between. -/
theorem before0_5_B (c : Dev nD) (t : Fin cfg0.N) (h0 : ¬t.val % 25 = 0) (d) :
    (dat0 V c).before 5 t d = (outsAt0 V c (t.val - 1) (Nat.lt_of_le_of_lt (Nat.sub_le _ _) t.isLt)).1 := by
  have hN : t.val < 50 := lt_of_lt_of_eq t.isLt (show cfg0.N = 50 from N_0)
  rw [Dat.before_out_kept _ 5 rfl t (by omega) (Bool.eq_false_iff.mpr fun h => by have := (flush0_5 _).mp h; dsimp only at this; omega)
    (fun _ => rfl) (fun _ _ => rfl)]
  dsimp only [dat0]
/-- At a point of case B output 6's current staging buffer holds what the body left at the point before: the point is not
    a row's first, so the buffer was not written back between. -/
theorem before0_6_B (c : Dev nD) (t : Fin cfg0.N) (h0 : ¬t.val % 25 = 0) (d) :
    (dat0 V c).before 6 t d = (outsAt0 V c (t.val - 1) (Nat.lt_of_le_of_lt (Nat.sub_le _ _) t.isLt)).2 := by
  have hN : t.val < 50 := lt_of_lt_of_eq t.isLt (show cfg0.N = 50 from N_0)
  rw [Dat.before_out_kept _ 6 rfl t (by omega) (Bool.eq_false_iff.mpr fun h => by have := (flush0_6 _).mp h; dsimp only at this; omega)
    (fun _ => rfl) (fun _ _ => rfl)]
  dsimp only [dat0]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t))

set_option maxHeartbeats 1600000 in
/-- The body at any point: the inputs' memrefs hold their blocks; the closed form says which case the point is in; in
    case B the outputs' memrefs hold what the point before left; so the run applies; the invariant passes through
    unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  have hN : t.val < 50 := lt_of_lt_of_eq t.isLt (show cfg0.N = 50 from N_0)
  by_cases h0 : t.val % 25 = 0
  · rw [outsAt0_A V c t h0]
    dsimp only
    unfold out0_A_5 out0_A_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) _ _ _ _ _ _ _ _ _ _ _ _ _ _ ((hcond0_0 t).mpr h0) (iblk0 V c 0 t) (iblk0 V c 1 t) (iblk0 V c 2 t) (iblk0 V c 3 t) (iblk0 V c 4 t)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover0_A_5 c _ _ _ _ _ _ _ _ _ _ _ _ _ _ _ _ _ _ _ _ _)
    unfold owns; iexists _; isplitr
    swap; · iexact H6
    ipureintro; exact View.read_writes_of_cover _ _ _ _ _ (cover0_A_6 c _ _ _ _ _ _ _ _ _ _ _ _ _ _ _ _ _ _ _ _ _)
  · rw [outsAt0_B V c t h0]
    dsimp only
    simp only [before0_5_B V c t h0, before0_6_B V c t h0]
    unfold out0_B_5 out0_B_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) _ _ _ _ _ _ _ _ _ _ _ _ _ _ (fun h => h0 ((hcond0_0 t).mp h)) (iblk0 V c 0 t) (iblk0 V c 1 t) (iblk0 V c 2 t) (iblk0 V c 3 t) (iblk0 V c 4 t) _ _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover0_B_5 c _ _ _ _ _ _ _ _ _ _ _ _ _ _ _ _ _ _ _ _ _ _ _)
    unfold owns; iexists _; isplitr
    swap; · iexact H6
    ipureintro; exact View.read_writes_of_cover _ _ _ _ _ (cover0_B_6 c _ _ _ _ _ _ _ _ _ _ _ _ _ _ _ _ _ _ _ _ _ _ _)

/-- The library's body obligation, at every point. -/
theorem body_obligation0 (c : Dev nD) :
    BodyObligation (dat0 (F := F) V c) (defs₀ (F := F)) Variants.none () Set.univ := fun t => by
  rw [bigSep_W0, bigSep_W0]
  exact sound_body0 V c t

end Cert.KernelIdeal.Hand

end
-- ==== Proof.KI.Comb1.lean ====
/- REGION 1 of program KernelIdeal (the combine kernel without addend, 384 columns), at a parameter V: the
   TensorCore's buffer contents when the region is entered. Each window's block at a point, what the body finds in
   every input window's buffer, what its one store leaves in the output window's buffer as a closed function of the
   input blocks, the body's triple, the pipeline's proof data and the body obligation. -/
import proofs.«414290_j6631429505478_3_alg».proof.Proof.Gen.KernelIdeal.Launch
import proofs.«414290_j6631429505478_3_alg».proof.Proof.Gen.KernelIdeal.Skeleton
import proofs.«414290_j6631429505478_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2000 rows: the elaborator's structural look recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Every input window's current staging buffer holds its block at every point, fetched there or not, for ANY proof
    data whose array is `V`'s (`hA`) and whose body leaves the block in place (`hafter`). Windows 0, 1, 2 (the three
    row blocks) are fetched at every point; windows 3 … 9 (the whole parameter arrays) at the first point only, their
    block index constant: unfetched, the buffer still holds the previous point's block, which is this point's. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- a whole row block of 128 columns (windows 0, 1, 2) -/
abbrev r1_0 : Rect S2000x128 := Rect.unit (s := S2000x128) ![0, 0] S2000x128.size inb_S2000x128_S2000x128_0_0
/-- branch 0, 1, 2 of the weight array (window 3) -/
abbrev r1_1 : Rect S3x128x384 := Rect.unit (s := S3x128x384) ![0, 0, 0] S1x128x384.size inb_S3x128x384_S1x128x384_0_0_0
abbrev r1_2 : Rect S3x128x384 := Rect.unit (s := S3x128x384) ![1, 0, 0] S1x128x384.size inb_S3x128x384_S1x128x384_1_0_0
abbrev r1_3 : Rect S3x128x384 := Rect.unit (s := S3x128x384) ![2, 0, 0] S1x128x384.size inb_S3x128x384_S1x128x384_2_0_0
/-- row 0, 1, 2 of a per-branch parameter array (windows 4 … 9) -/
abbrev r1_4 : Rect S3x384 := Rect.unit (s := S3x384) ![0, 0] S1x384.size inb_S3x384_S1x384_0_0
abbrev r1_5 : Rect S3x384 := Rect.unit (s := S3x384) ![1, 0] S1x384.size inb_S3x384_S1x384_1_0
abbrev r1_6 : Rect S3x384 := Rect.unit (s := S3x384) ![2, 0] S1x384.size inb_S3x384_S1x384_2_0
/-- the whole output block (window 10) -/
abbrev r1_7 : Rect S2000x384 := Rect.unit (s := S2000x384) ![0, 0] S2000x384.size inb_S2000x384_S2000x384_0_0

/-! ## What the body leaves in the output window's buffer -/

/-- Window 10's staging buffer after the body, from the input windows' blocks (x0, x1, x2 the three row blocks; x3 the
    weights; x4 bias, x5 gamma, x6 beta, x7 mixing weights, x8 mean, x9 variance): its one store as a piece
    (Lib/Pipeline/FrameBody.lean `View.canon`; the payloads are the skeleton's, composed as the body's three parts
    hand them on: branch 0 normalised, weighted and accumulated, then branch 1, then branch 2). -/
def out1_10 (x0 : Vec F S2000x128 .bf16) (x1 : Vec F S2000x128 .bf16) (x2 : Vec F S2000x128 .bf16) (x3 : Vec F S3x128x384 .f32)
    (x4 : Vec F S3x384 .f32) (x5 : Vec F S3x384 .f32) (x6 : Vec F S3x384 .f32) (x7 : Vec F S3x384 .f32) (x8 : Vec F S3x384 .f32)
    (x9 : Vec F S3x384 .f32) : Vec F S2000x384 .f32 :=
  View.canon [⟨r1_7, k1_pay1
    (k1_pay7
      (k1_pay5 (k1_pay4 (View.ld x0 r1_0) (View.ld x3 r1_1) (View.ld x4 r1_4) (View.ld x8 r1_4) (View.ld x9 r1_4) (View.ld x5 r1_4) (View.ld x6 r1_4))
        (View.ld x7 r1_4))
      (k1_pay6 (k1_pay2 (View.ld x1 r1_0)) (View.ld x3 r1_2) (View.ld x4 r1_5) (View.ld x8 r1_5) (View.ld x9 r1_5) (View.ld x5 r1_5) (View.ld x6 r1_5))
      (View.ld x7 r1_5))
    (k1_pay8 (k1_pay3 (View.ld x2 r1_0)) (View.ld x3 r1_3) (View.ld x4 r1_6) (View.ld x8 r1_6) (View.ld x9 r1_6) (View.ld x5 r1_6) (View.ld x6 r1_6))
    (View.ld x7 r1_6)⟩]

/-- Its store is the whole buffer (checked by evaluation), so it covers it. -/
theorem cover1_10 (p0 : Vec F S2000x384 .f32) (y : S2000x384.Idx) :
    ∃ pc ∈ ([⟨r1_7, p0⟩] : List (View.Piece (Elt F) S2000x384 .f32)), y ∈ pc.1.set :=
  View.cover_of_tiled [⟨r1_7, p0⟩] S2000x384.size (by rfl) y

/-! ## The body's triple -/

set_option maxHeartbeats 4000000 in
/-- The kernel body on whole staging memrefs, the inputs' at read contents `xW` and the output's at anything, runs to
    the continuation holding the inputs' as they were and the output's at `out1_10` of the inputs': the printed functions
    are their skeletons, run through every part call. -/
theorem sound_kernel1 (c : Dev nD) (E : Set ℕ) (i : grid1.Coords)
    (arg1 : Memref sig .tc .vmem S2000x128 .bf16) (harg1 : arg1.IsWhole) (arg2 : Memref sig .tc .vmem S2000x128 .bf16) (harg2 : arg2.IsWhole)
    (arg3 : Memref sig .tc .vmem S2000x128 .bf16) (harg3 : arg3.IsWhole) (arg4 : Memref sig .tc .vmem S3x128x384 .f32) (harg4 : arg4.IsWhole)
    (arg5 : Memref sig .tc .vmem S3x384 .f32) (harg5 : arg5.IsWhole) (arg6 : Memref sig .tc .vmem S3x384 .f32) (harg6 : arg6.IsWhole)
    (arg7 : Memref sig .tc .vmem S3x384 .f32) (harg7 : arg7.IsWhole) (arg8 : Memref sig .tc .vmem S3x384 .f32) (harg8 : arg8.IsWhole)
    (arg9 : Memref sig .tc .vmem S3x384 .f32) (harg9 : arg9.IsWhole) (arg10 : Memref sig .tc .vmem S3x384 .f32) (harg10 : arg10.IsWhole)
    (arg11 : Memref sig .tc .vmem S2000x384 .f32) (harg11 : arg11.IsWhole)
    (x0 : Vec F S2000x128 .bf16) (x1 : Vec F S2000x128 .bf16) (x2 : Vec F S2000x128 .bf16) (x3 : Vec F S3x128x384 .f32)
    (x4 : Vec F S3x384 .f32) (x5 : Vec F S3x384 .f32) (x6 : Vec F S3x384 .f32) (x7 : Vec F S3x384 .f32) (x8 : Vec F S3x384 .f32)
    (x9 : Vec F S3x384 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare x9
            ∗ owns (c : Thread nD τ) arg11 fullShare (out1_10 x0 x1 x2 x3 x4 x5 x6 x7 x8 x9)) -∗ K ⟨⟩))
      ⊢ wp frame (wpE (defs₀ (F := F)) Variants.none c none) E
          (cc1__combine_kernel_noadd i arg1 harg1 arg2 harg2 arg3 harg3 arg4 harg4 arg5 harg5 arg6 harg6 arg7 harg7 arg8 harg8 arg9 harg9 arg10 harg10 arg11 harg11) K := by
  simp only [cc1__combine_kernel_noadd_eq_skeleton]; unfold cc1__combine_kernel_noadd_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover1_10 _)

/-! ## The pipeline's proof data -/

/-- The proof data of pipeline 1 on core `c`: the arrays as the region finds them (`V`); after the body at
    point `t` each input's buffer at its block and the output's at `out1_10` of the input blocks; the invariant the
    class's (Lib/Pipeline/Frame.lean `ΦA`: the scoped rest and the generator register, untouched); nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => out1_10 (iblk1 V c 0 t) (iblk1 V c 1 t) (iblk1 V c 2 t) (iblk1 V c 3 t) (iblk1 V c 4 t) (iblk1 V c 5 t)
        (iblk1 V c 6 t) (iblk1 V c 7 t) (iblk1 V c 8 t) (iblk1 V c 9 t)
  Φ _ := Pipeline.ΦA spec1 c
  q _ := fullShare
  owed _ := 0

/-- The proof data's arrays are the region-entry contents (the proof data's definition projected, by `dsimp`). -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t =
    out1_10 (iblk1 V c 0 t) (iblk1 V c 1 t) (iblk1 V c 2 t) (iblk1 V c 3 t) (iblk1 V c 4 t) (iblk1 V c 5 t)
      (iblk1 V c 6 t) (iblk1 V c 7 t) (iblk1 V c 8 t) (iblk1 V c 9 t) := by dsimp only [dat1]

/-- Each input's current staging buffer holds its block at every point, fetched there or not (`before1_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel1 c Set.univ (grid1.coords t) _ _ _ _ _ _ _ _ _ _ _ _ _ _ _ _ _ _ _ _ _ _
    (iblk1 V c 0 t) (iblk1 V c 1 t) (iblk1 V c 2 t) (iblk1 V c 3 t) (iblk1 V c 4 t) (iblk1 V c 5 t)
    (iblk1 V c 6 t) (iblk1 V c 7 t) (iblk1 V c 8 t) (iblk1 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KI.Stats2Runs.lean ====
import proofs.«414290_j6631429505478_3_alg».proof.Proof.Gen.KernelIdeal.Launch
import proofs.«414290_j6631429505478_3_alg».proof.Proof.Gen.KernelIdeal.Skeleton
import proofs.«414290_j6631429505478_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2 (the statistics kernel at width 256): what its cases share

The region-entry contents `V` are a parameter throughout. -/

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is `V`'s and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof
    data whose array is `V`'s and whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch condition -/

/-- The condition of the body's conditional (reset of both outputs), from the grid coordinates. -/
abbrev cond2_0 (i : grid2.Coords) : Prop := (Scalar.cmpi .ne (Scalar.extui (Scalar.cmpi .eq (BitVec.ofNat 32 (i 1).val) 0#32)) 0#32) = 1#1
/-- It holds exactly at the first point of each core's row of 25 — decided over the grid. -/
theorem hcond2_0 : ∀ t : Fin cfg2.N, cond2_0 (grid2.coords t) ↔ t.val % 25 = 0 :=
  (by decide +kernel : ∀ t : Fin grid2.N, cond2_0 (grid2.coords t) ↔ t.val % 25 = 0)

/-! ## The staging memrefs -/

/-- One staging buffer of each output window, through which its contents are stated (the choice does not matter). -/
abbrev VO2_5 : View sig .tc .vmem S1x3x256 .f32 := (Memref.whole cc2_stg5_0 : Memref sig .tc .vmem S1x3x256 .f32).view
abbrev VO2_6 : View sig .tc .vmem S1x3x256 .f32 := (Memref.whole cc2_stg6_0 : Memref sig .tc .vmem S1x3x256 .f32).view
/-- Each window's current staging memref at point `t`, spelled as the pipeline passes it, and its wholeness. -/
abbrev ms2_0 (t : Fin cfg2.N) : Memref sig .tc .vmem S1000x128 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1000x128 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1000x128 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S3x128x256 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S3x256 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x3x256 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x3x256 .f32 := win2_6.stage (cfg2.slots t 6)
abbrev hs2_6 (t : Fin cfg2.N) : (ms2_6 t).IsWhole := hstage2_6 ((cfg2.slots t 6).cast nbuf2_6)

end Cert.KernelIdeal.Hand

end
-- ==== Proof.KI.Stats2RunA.lean ====
import proofs.«414290_j6631429505478_3_alg».proof.Proof.KI.Stats2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: the whole-body run in case A -/

set_option maxHeartbeats 4000000 in
/-- What the body's stores leave in each output's staging memref, as pieces (last first), IN CASE A (the conditional taken:
    the first point of a core's row), with the proof that on whole staging memrefs — the inputs' at their contents, the
    outputs' at anything — the body runs to the continuation holding the inputs' as they were and each output's buffer
    with its pieces written. -/
noncomputable def kernelRun2_A (c : Dev nD) (i : grid2.Coords) (arg2 : Memref sig .tc .vmem S1000x128 .bf16) (harg2 : arg2.IsWhole) (arg3 : Memref sig .tc .vmem S1000x128 .bf16) (harg3 : arg3.IsWhole) (arg4 : Memref sig .tc .vmem S1000x128 .bf16) (harg4 : arg4.IsWhole) (arg5 : Memref sig .tc .vmem S3x128x256 .f32) (harg5 : arg5.IsWhole) (arg6 : Memref sig .tc .vmem S3x256 .f32) (harg6 : arg6.IsWhole) (arg7 : Memref sig .tc .vmem S1x3x256 .f32) (harg7 : arg7.IsWhole) (arg8 : Memref sig .tc .vmem S1x3x256 .f32) (harg8 : arg8.IsWhole) (hc0 : cond2_0 i)
    (x0 : Vec F S1000x128 .bf16) (x1 : Vec F S1000x128 .bf16) (x2 : Vec F S1000x128 .bf16) (x3 : Vec F S3x128x256 .f32) (x4 : Vec F S3x256 .f32) :
    Σ' (L5 : List (View.Piece (Elt F) S1x3x256 .f32)), { L6 : List (View.Piece (Elt F) S1x3x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6)) -∗ K ⟨⟩))
          ⊢ wp frame (wpE (defs₀ (F := F)) Variants.none c none) E (cc2__stats_kernel i arg2 harg2 arg3 harg3 arg4 harg4 arg5 harg5 arg6 harg6 arg7 harg7 arg8 harg8) K } := by
  refine ⟨?_, ?_, fun E K => ?run⟩
  case run =>
    simp only [cc2__stats_kernel_eq_skeleton]; unfold cc2__stats_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact H6

end Cert.KernelIdeal.Hand

end
-- ==== Proof.KI.Stats2RunB.lean ====
import proofs.«414290_j6631429505478_3_alg».proof.Proof.KI.Stats2RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: the whole-body run in case B -/

set_option maxHeartbeats 4000000 in
/-- What the body's stores leave in each output's staging memref, as pieces (last first), IN CASE B (the conditional not
    taken: the other points of a core's row), with the proof that on whole staging memrefs — the inputs' at their contents,
    the outputs', which the body reads before covering, at their running contents `xo·` — the body runs to the continuation
    holding the inputs' as they were and each output's buffer with its pieces written. -/
noncomputable def kernelRun2_B (c : Dev nD) (i : grid2.Coords) (arg2 : Memref sig .tc .vmem S1000x128 .bf16) (harg2 : arg2.IsWhole) (arg3 : Memref sig .tc .vmem S1000x128 .bf16) (harg3 : arg3.IsWhole) (arg4 : Memref sig .tc .vmem S1000x128 .bf16) (harg4 : arg4.IsWhole) (arg5 : Memref sig .tc .vmem S3x128x256 .f32) (harg5 : arg5.IsWhole) (arg6 : Memref sig .tc .vmem S3x256 .f32) (harg6 : arg6.IsWhole) (arg7 : Memref sig .tc .vmem S1x3x256 .f32) (harg7 : arg7.IsWhole) (arg8 : Memref sig .tc .vmem S1x3x256 .f32) (harg8 : arg8.IsWhole) (hc0 : ¬cond2_0 i)
    (x0 : Vec F S1000x128 .bf16) (x1 : Vec F S1000x128 .bf16) (x2 : Vec F S1000x128 .bf16) (x3 : Vec F S3x128x256 .f32) (x4 : Vec F S3x256 .f32) (xo5 : Vec F S1x3x256 .f32) (xo6 : Vec F S1x3x256 .f32) :
    Σ' (L5 : List (View.Piece (Elt F) S1x3x256 .f32)), { L6 : List (View.Piece (Elt F) S1x3x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo5 ∗ owns (c : Thread nD τ) arg8 fullShare xo6
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6)) -∗ K ⟨⟩))
          ⊢ wp frame (wpE (defs₀ (F := F)) Variants.none c none) E (cc2__stats_kernel i arg2 harg2 arg3 harg3 arg4 harg4 arg5 harg5 arg6 harg6 arg7 harg7 arg8 harg8) K } := by
  refine ⟨?_, ?_, fun E K => ?run⟩
  case run =>
    simp only [cc2__stats_kernel_eq_skeleton]; unfold cc2__stats_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact H6

end Cert.KernelIdeal.Hand

end
-- ==== Proof.KI.Stats2.lean ====
import proofs.«414290_j6631429505478_3_alg».proof.Proof.KI.Stats2RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2 (the statistics kernel at width 256): the frame half

Both outputs' blocks are revisited over a core's row of 25 points: reset at the row's first point, added to at the
others, written back at its last. -/

variable (V : (c : Dev nD) → (b : Ref sig .tc) → Buf (Elt F) ((c : Thread nD τ).loc b))

/-- Case A's pieces for output 5 tile its block, so they cover it. -/
theorem cover2_A_5 (c : Dev nD) (i : grid2.Coords) (arg2 : Memref sig .tc .vmem S1000x128 .bf16) (harg2 : arg2.IsWhole) (arg3 : Memref sig .tc .vmem S1000x128 .bf16) (harg3 : arg3.IsWhole) (arg4 : Memref sig .tc .vmem S1000x128 .bf16) (harg4 : arg4.IsWhole) (arg5 : Memref sig .tc .vmem S3x128x256 .f32) (harg5 : arg5.IsWhole) (arg6 : Memref sig .tc .vmem S3x256 .f32) (harg6 : arg6.IsWhole) (arg7 : Memref sig .tc .vmem S1x3x256 .f32) (harg7 : arg7.IsWhole) (arg8 : Memref sig .tc .vmem S1x3x256 .f32) (harg8 : arg8.IsWhole) (hc0 : cond2_0 i)
    (x0 : Vec F S1000x128 .bf16) (x1 : Vec F S1000x128 .bf16) (x2 : Vec F S1000x128 .bf16) (x3 : Vec F S3x128x256 .f32) (x4 : Vec F S3x256 .f32) (y : S1x3x256.Idx) :
    ∃ pc ∈ (kernelRun2_A c i arg2 harg2 arg3 harg3 arg4 harg4 arg5 harg5 arg6 harg6 arg7 harg7 arg8 harg8 hc0 x0 x1 x2 x3 x4).1, y ∈ pc.1.set :=
  View.cover_of_tiledL (kernelRun2_A c i arg2 harg2 arg3 harg3 arg4 harg4 arg5 harg5 arg6 harg6 arg7 harg7 arg8 harg8 hc0 x0 x1 x2 x3 x4).1 S1x3x256.size (by sl_kernel_rfl) y

/-- What case A leaves in output 5's staging buffer: its pieces read back over junk. -/
def out2_A_5 (c : Dev nD) (i : grid2.Coords) (arg2 : Memref sig .tc .vmem S1000x128 .bf16) (harg2 : arg2.IsWhole) (arg3 : Memref sig .tc .vmem S1000x128 .bf16) (harg3 : arg3.IsWhole) (arg4 : Memref sig .tc .vmem S1000x128 .bf16) (harg4 : arg4.IsWhole) (arg5 : Memref sig .tc .vmem S3x128x256 .f32) (harg5 : arg5.IsWhole) (arg6 : Memref sig .tc .vmem S3x256 .f32) (harg6 : arg6.IsWhole) (arg7 : Memref sig .tc .vmem S1x3x256 .f32) (harg7 : arg7.IsWhole) (arg8 : Memref sig .tc .vmem S1x3x256 .f32) (harg8 : arg8.IsWhole) (hc0 : cond2_0 i)
    (x0 : Vec F S1000x128 .bf16) (x1 : Vec F S1000x128 .bf16) (x2 : Vec F S1000x128 .bf16) (x3 : Vec F S3x128x256 .f32) (x4 : Vec F S3x256 .f32) : Vec F S1x3x256 .f32 :=
  VO2_5.read (Elt F) (VO2_5.writes (Elt F) VO2_5.junk (kernelRun2_A c i arg2 harg2 arg3 harg3 arg4 harg4 arg5 harg5 arg6 harg6 arg7 harg7 arg8 harg8 hc0 x0 x1 x2 x3 x4).1)

/-- Case A's pieces for output 6 tile its block, so they cover it. -/
theorem cover2_A_6 (c : Dev nD) (i : grid2.Coords) (arg2 : Memref sig .tc .vmem S1000x128 .bf16) (harg2 : arg2.IsWhole) (arg3 : Memref sig .tc .vmem S1000x128 .bf16) (harg3 : arg3.IsWhole) (arg4 : Memref sig .tc .vmem S1000x128 .bf16) (harg4 : arg4.IsWhole) (arg5 : Memref sig .tc .vmem S3x128x256 .f32) (harg5 : arg5.IsWhole) (arg6 : Memref sig .tc .vmem S3x256 .f32) (harg6 : arg6.IsWhole) (arg7 : Memref sig .tc .vmem S1x3x256 .f32) (harg7 : arg7.IsWhole) (arg8 : Memref sig .tc .vmem S1x3x256 .f32) (harg8 : arg8.IsWhole) (hc0 : cond2_0 i)
    (x0 : Vec F S1000x128 .bf16) (x1 : Vec F S1000x128 .bf16) (x2 : Vec F S1000x128 .bf16) (x3 : Vec F S3x128x256 .f32) (x4 : Vec F S3x256 .f32) (y : S1x3x256.Idx) :
    ∃ pc ∈ (kernelRun2_A c i arg2 harg2 arg3 harg3 arg4 harg4 arg5 harg5 arg6 harg6 arg7 harg7 arg8 harg8 hc0 x0 x1 x2 x3 x4).2.1, y ∈ pc.1.set :=
  View.cover_of_tiledL (kernelRun2_A c i arg2 harg2 arg3 harg3 arg4 harg4 arg5 harg5 arg6 harg6 arg7 harg7 arg8 harg8 hc0 x0 x1 x2 x3 x4).2.1 S1x3x256.size (by sl_kernel_rfl) y

/-- What case A leaves in output 6's staging buffer: its pieces read back over junk. -/
def out2_A_6 (c : Dev nD) (i : grid2.Coords) (arg2 : Memref sig .tc .vmem S1000x128 .bf16) (harg2 : arg2.IsWhole) (arg3 : Memref sig .tc .vmem S1000x128 .bf16) (harg3 : arg3.IsWhole) (arg4 : Memref sig .tc .vmem S1000x128 .bf16) (harg4 : arg4.IsWhole) (arg5 : Memref sig .tc .vmem S3x128x256 .f32) (harg5 : arg5.IsWhole) (arg6 : Memref sig .tc .vmem S3x256 .f32) (harg6 : arg6.IsWhole) (arg7 : Memref sig .tc .vmem S1x3x256 .f32) (harg7 : arg7.IsWhole) (arg8 : Memref sig .tc .vmem S1x3x256 .f32) (harg8 : arg8.IsWhole) (hc0 : cond2_0 i)
    (x0 : Vec F S1000x128 .bf16) (x1 : Vec F S1000x128 .bf16) (x2 : Vec F S1000x128 .bf16) (x3 : Vec F S3x128x256 .f32) (x4 : Vec F S3x256 .f32) : Vec F S1x3x256 .f32 :=
  VO2_6.read (Elt F) (VO2_6.writes (Elt F) VO2_6.junk (kernelRun2_A c i arg2 harg2 arg3 harg3 arg4 harg4 arg5 harg5 arg6 harg6 arg7 harg7 arg8 harg8 hc0 x0 x1 x2 x3 x4).2.1)

/-- Case B's pieces for output 5 tile its block, so they cover it. -/
theorem cover2_B_5 (c : Dev nD) (i : grid2.Coords) (arg2 : Memref sig .tc .vmem S1000x128 .bf16) (harg2 : arg2.IsWhole) (arg3 : Memref sig .tc .vmem S1000x128 .bf16) (harg3 : arg3.IsWhole) (arg4 : Memref sig .tc .vmem S1000x128 .bf16) (harg4 : arg4.IsWhole) (arg5 : Memref sig .tc .vmem S3x128x256 .f32) (harg5 : arg5.IsWhole) (arg6 : Memref sig .tc .vmem S3x256 .f32) (harg6 : arg6.IsWhole) (arg7 : Memref sig .tc .vmem S1x3x256 .f32) (harg7 : arg7.IsWhole) (arg8 : Memref sig .tc .vmem S1x3x256 .f32) (harg8 : arg8.IsWhole) (hc0 : ¬cond2_0 i)
    (x0 : Vec F S1000x128 .bf16) (x1 : Vec F S1000x128 .bf16) (x2 : Vec F S1000x128 .bf16) (x3 : Vec F S3x128x256 .f32) (x4 : Vec F S3x256 .f32) (xo5 : Vec F S1x3x256 .f32) (xo6 : Vec F S1x3x256 .f32) (y : S1x3x256.Idx) :
    ∃ pc ∈ (kernelRun2_B c i arg2 harg2 arg3 harg3 arg4 harg4 arg5 harg5 arg6 harg6 arg7 harg7 arg8 harg8 hc0 x0 x1 x2 x3 x4 xo5 xo6).1, y ∈ pc.1.set :=
  View.cover_of_tiledL (kernelRun2_B c i arg2 harg2 arg3 harg3 arg4 harg4 arg5 harg5 arg6 harg6 arg7 harg7 arg8 harg8 hc0 x0 x1 x2 x3 x4 xo5 xo6).1 S1x3x256.size (by sl_kernel_rfl) y

/-- What case B leaves in output 5's staging buffer: its pieces read back over junk. -/
def out2_B_5 (c : Dev nD) (i : grid2.Coords) (arg2 : Memref sig .tc .vmem S1000x128 .bf16) (harg2 : arg2.IsWhole) (arg3 : Memref sig .tc .vmem S1000x128 .bf16) (harg3 : arg3.IsWhole) (arg4 : Memref sig .tc .vmem S1000x128 .bf16) (harg4 : arg4.IsWhole) (arg5 : Memref sig .tc .vmem S3x128x256 .f32) (harg5 : arg5.IsWhole) (arg6 : Memref sig .tc .vmem S3x256 .f32) (harg6 : arg6.IsWhole) (arg7 : Memref sig .tc .vmem S1x3x256 .f32) (harg7 : arg7.IsWhole) (arg8 : Memref sig .tc .vmem S1x3x256 .f32) (harg8 : arg8.IsWhole) (hc0 : ¬cond2_0 i)
    (x0 : Vec F S1000x128 .bf16) (x1 : Vec F S1000x128 .bf16) (x2 : Vec F S1000x128 .bf16) (x3 : Vec F S3x128x256 .f32) (x4 : Vec F S3x256 .f32) (xo5 : Vec F S1x3x256 .f32) (xo6 : Vec F S1x3x256 .f32) : Vec F S1x3x256 .f32 :=
  VO2_5.read (Elt F) (VO2_5.writes (Elt F) VO2_5.junk (kernelRun2_B c i arg2 harg2 arg3 harg3 arg4 harg4 arg5 harg5 arg6 harg6 arg7 harg7 arg8 harg8 hc0 x0 x1 x2 x3 x4 xo5 xo6).1)

/-- Case B's pieces for output 6 tile its block, so they cover it. -/
theorem cover2_B_6 (c : Dev nD) (i : grid2.Coords) (arg2 : Memref sig .tc .vmem S1000x128 .bf16) (harg2 : arg2.IsWhole) (arg3 : Memref sig .tc .vmem S1000x128 .bf16) (harg3 : arg3.IsWhole) (arg4 : Memref sig .tc .vmem S1000x128 .bf16) (harg4 : arg4.IsWhole) (arg5 : Memref sig .tc .vmem S3x128x256 .f32) (harg5 : arg5.IsWhole) (arg6 : Memref sig .tc .vmem S3x256 .f32) (harg6 : arg6.IsWhole) (arg7 : Memref sig .tc .vmem S1x3x256 .f32) (harg7 : arg7.IsWhole) (arg8 : Memref sig .tc .vmem S1x3x256 .f32) (harg8 : arg8.IsWhole) (hc0 : ¬cond2_0 i)
    (x0 : Vec F S1000x128 .bf16) (x1 : Vec F S1000x128 .bf16) (x2 : Vec F S1000x128 .bf16) (x3 : Vec F S3x128x256 .f32) (x4 : Vec F S3x256 .f32) (xo5 : Vec F S1x3x256 .f32) (xo6 : Vec F S1x3x256 .f32) (y : S1x3x256.Idx) :
    ∃ pc ∈ (kernelRun2_B c i arg2 harg2 arg3 harg3 arg4 harg4 arg5 harg5 arg6 harg6 arg7 harg7 arg8 harg8 hc0 x0 x1 x2 x3 x4 xo5 xo6).2.1, y ∈ pc.1.set :=
  View.cover_of_tiledL (kernelRun2_B c i arg2 harg2 arg3 harg3 arg4 harg4 arg5 harg5 arg6 harg6 arg7 harg7 arg8 harg8 hc0 x0 x1 x2 x3 x4 xo5 xo6).2.1 S1x3x256.size (by sl_kernel_rfl) y

/-- What case B leaves in output 6's staging buffer: its pieces read back over junk. -/
def out2_B_6 (c : Dev nD) (i : grid2.Coords) (arg2 : Memref sig .tc .vmem S1000x128 .bf16) (harg2 : arg2.IsWhole) (arg3 : Memref sig .tc .vmem S1000x128 .bf16) (harg3 : arg3.IsWhole) (arg4 : Memref sig .tc .vmem S1000x128 .bf16) (harg4 : arg4.IsWhole) (arg5 : Memref sig .tc .vmem S3x128x256 .f32) (harg5 : arg5.IsWhole) (arg6 : Memref sig .tc .vmem S3x256 .f32) (harg6 : arg6.IsWhole) (arg7 : Memref sig .tc .vmem S1x3x256 .f32) (harg7 : arg7.IsWhole) (arg8 : Memref sig .tc .vmem S1x3x256 .f32) (harg8 : arg8.IsWhole) (hc0 : ¬cond2_0 i)
    (x0 : Vec F S1000x128 .bf16) (x1 : Vec F S1000x128 .bf16) (x2 : Vec F S1000x128 .bf16) (x3 : Vec F S3x128x256 .f32) (x4 : Vec F S3x256 .f32) (xo5 : Vec F S1x3x256 .f32) (xo6 : Vec F S1x3x256 .f32) : Vec F S1x3x256 .f32 :=
  VO2_6.read (Elt F) (VO2_6.writes (Elt F) VO2_6.junk (kernelRun2_B c i arg2 harg2 arg3 harg3 arg4 harg4 arg5 harg5 arg6 harg6 arg7 harg7 arg8 harg8 hc0 x0 x1 x2 x3 x4 xo5 xo6).2.1)

/-! ## What the outputs hold after each point -/

/-- THE ACCUMULATION. What the two outputs' staging buffers hold after the body at position `n`: the case the closed
    form selects at `n`, run at the point's memrefs and input blocks; in case B over what this leaves at `n - 1`
    (the buffers are not written back between). The recursion restarts at every first point of a row. -/
def outsAt2 (c : Dev nD) : (n : ℕ) → n < cfg2.N → Vec F S1x3x256 .f32 × Vec F S1x3x256 .f32
  | 0, hn => (out2_A_5 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩), out2_A_6 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩))
  | n + 1, hn =>
    if h0 : (n + 1) % 25 = 0 then
      (out2_A_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩), out2_A_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩))
    else
      (out2_B_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).1 (outsAt2 c n (Nat.lt_of_succ_lt hn)).2, out2_B_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).1 (outsAt2 c n (Nat.lt_of_succ_lt hn)).2)

/-- `outsAt2` at a point of case A: that case's contents. -/
theorem outsAt2_A (c : Dev nD) (t : Fin cfg2.N) (h0 : t.val % 25 = 0) :
    outsAt2 V c t.val t.isLt = (out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) ((hcond2_0 t).mpr h0) (iblk2 V c 0 t) (iblk2 V c 1 t) (iblk2 V c 2 t) (iblk2 V c 3 t) (iblk2 V c 4 t), out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) ((hcond2_0 t).mpr h0) (iblk2 V c 0 t) (iblk2 V c 1 t) (iblk2 V c 2 t) (iblk2 V c 3 t) (iblk2 V c 4 t)) := by
  obtain ⟨n, hn⟩ := t
  cases n with
  | zero => exact rfl
  | succ n => exact (dif_pos h0).trans rfl

/-- `outsAt2` at a point of case B: that case's contents, over what the point before left. -/
theorem outsAt2_B (c : Dev nD) (t : Fin cfg2.N) (h0 : ¬t.val % 25 = 0) :
    outsAt2 V c t.val t.isLt = (out2_B_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (fun h => h0 ((hcond2_0 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).1 (outsAt2 V c (t.val - 1) (Nat.lt_of_le_of_lt (Nat.sub_le _ _) t.isLt)).2, out2_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (fun h => h0 ((hcond2_0 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).1 (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data of region 2's pipeline on core `c`: the arrays as the region finds them; after the body at point
    `t` each input's buffer at its block and the outputs' at `outsAt2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
    | ⟨6, _⟩ => (outsAt2 V c t.val t.isLt).2
  Φ _ := Pipeline.ΦA spec2 c
  q _ := fullShare
  owed _ := 0

/-- The proof data's arrays are the region-entry contents. -/
theorem A_eq2 (c : Dev nD) (w : Fin cfg2.W) :
    (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).1 := by dsimp only [dat2]
theorem after2_6 (c : Dev nD) (t : Fin cfg2.N) : (dat2 V c).after 6 t = (outsAt2 V c t.val t.isLt).2 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
/-- At a point of case B output 5's current staging buffer holds what the body left at the point before: the point is not
    a row's first, so the buffer was not written back between. -/
theorem before2_5_B (c : Dev nD) (t : Fin cfg2.N) (h0 : ¬t.val % 25 = 0) (d) :
    (dat2 V c).before 5 t d = (outsAt2 V c (t.val - 1) (Nat.lt_of_le_of_lt (Nat.sub_le _ _) t.isLt)).1 := by
  have hN : t.val < 50 := lt_of_lt_of_eq t.isLt (show cfg2.N = 50 from N_2)
  rw [Dat.before_out_kept _ 5 rfl t (by omega) (Bool.eq_false_iff.mpr fun h => by have := (flush2_5 _).mp h; dsimp only at this; omega)
    (fun _ => rfl) (fun _ _ => rfl)]
  dsimp only [dat2]
/-- At a point of case B output 6's current staging buffer holds what the body left at the point before: the point is not
    a row's first, so the buffer was not written back between. -/
theorem before2_6_B (c : Dev nD) (t : Fin cfg2.N) (h0 : ¬t.val % 25 = 0) (d) :
    (dat2 V c).before 6 t d = (outsAt2 V c (t.val - 1) (Nat.lt_of_le_of_lt (Nat.sub_le _ _) t.isLt)).2 := by
  have hN : t.val < 50 := lt_of_lt_of_eq t.isLt (show cfg2.N = 50 from N_2)
  rw [Dat.before_out_kept _ 6 rfl t (by omega) (Bool.eq_false_iff.mpr fun h => by have := (flush2_6 _).mp h; dsimp only at this; omega)
    (fun _ => rfl) (fun _ _ => rfl)]
  dsimp only [dat2]

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t)
    ∗ owns (c : Thread nD τ) (ms2_6 t) fullShare ((dat2 V c).after 6 t))

set_option maxHeartbeats 1600000 in
/-- The body at any point: the inputs' memrefs hold their blocks; the closed form says which case the point is in; in
    case B the outputs' memrefs hold what the point before left; so the run applies; the invariant passes through
    unread; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  have hN : t.val < 50 := lt_of_lt_of_eq t.isLt (show cfg2.N = 50 from N_2)
  by_cases h0 : t.val % 25 = 0
  · rw [outsAt2_A V c t h0]
    dsimp only
    unfold out2_A_5 out2_A_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun2_A c (grid2.coords t) _ _ _ _ _ _ _ _ _ _ _ _ _ _ ((hcond2_0 t).mpr h0) (iblk2 V c 0 t) (iblk2 V c 1 t) (iblk2 V c 2 t) (iblk2 V c 3 t) (iblk2 V c 4 t)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover2_A_5 c _ _ _ _ _ _ _ _ _ _ _ _ _ _ _ _ _ _ _ _ _)
    unfold owns; iexists _; isplitr
    swap; · iexact H6
    ipureintro; exact View.read_writes_of_cover _ _ _ _ _ (cover2_A_6 c _ _ _ _ _ _ _ _ _ _ _ _ _ _ _ _ _ _ _ _ _)
  · rw [outsAt2_B V c t h0]
    dsimp only
    simp only [before2_5_B V c t h0, before2_6_B V c t h0]
    unfold out2_B_5 out2_B_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun2_B c (grid2.coords t) _ _ _ _ _ _ _ _ _ _ _ _ _ _ (fun h => h0 ((hcond2_0 t).mp h)) (iblk2 V c 0 t) (iblk2 V c 1 t) (iblk2 V c 2 t) (iblk2 V c 3 t) (iblk2 V c 4 t) _ _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover2_B_5 c _ _ _ _ _ _ _ _ _ _ _ _ _ _ _ _ _ _ _ _ _ _ _)
    unfold owns; iexists _; isplitr
    swap; · iexact H6
    ipureintro; exact View.read_writes_of_cover _ _ _ _ _ (cover2_B_6 c _ _ _ _ _ _ _ _ _ _ _ _ _ _ _ _ _ _ _ _ _ _ _)

/-- The library's body obligation, at every point. -/
theorem body_obligation2 (c : Dev nD) :
    BodyObligation (dat2 (F := F) V c) (defs₀ (F := F)) Variants.none () Set.univ := fun t => by
  rw [bigSep_W2, bigSep_W2]
  exact sound_body2 V c t

end Cert.KernelIdeal.Hand

end
-- ==== Proof.KI.Comb3.lean ====
/- REGION 3 of program KernelIdeal (the combine kernel with addend, 256 columns), at a parameter V: the
   TensorCore's buffer contents when the region is entered. Each window's block at a point, what the body finds in
   every input window's buffer, what its two stores leave in the output window's buffer as a closed function of the
   input blocks, the body's triple, the pipeline's proof data and the body obligation. -/
import proofs.«414290_j6631429505478_3_alg».proof.Proof.Gen.KernelIdeal.Launch
import proofs.«414290_j6631429505478_3_alg».proof.Proof.Gen.KernelIdeal.Skeleton
import proofs.«414290_j6631429505478_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2000 rows: the elaborator's structural look recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! Every input window's current staging buffer holds its block at every point, fetched there or not, for ANY proof
    data whose array is `V`'s (`hA`) and whose body leaves the block in place (`hafter`). Windows 0, 1, 2 (the three
    row blocks) and 10 (the addend's row block) are fetched at every point; windows 3 … 9 (the whole parameter arrays) at
    the first point only, their block index constant: unfetched, the buffer still holds the previous point's block,
    which is this point's. -/

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)
theorem before3_9_of {c : Dev nD} (dat : Dat τ (Elt F) Unit ℕ (UR sig nD τ) ℕ cfg3 c) (hA : dat.A 9 = V c (Pipeline.arrRef spec3 9))
    (hafter : ∀ t, dat.after 9 t = iblk3 V c 9 t) (t : Fin cfg3.N) (d) : dat.before 9 t d = iblk3 V c 9 t :=
  (dat.before_in_eq_fetched 9 rfl (fun _ => rfl) (fun _ _ _ => rfl) (fun t => by rw [hafter]; unfold Dat.blockOf iblk3; rw [hA]; try rfl) t d).trans
    (by unfold Dat.fetched Dat.blockOf iblk3; rw [hA]; try rfl)
theorem before3_10_of {c : Dev nD} (dat : Dat τ (Elt F) Unit ℕ (UR sig nD τ) ℕ cfg3 c) (hA : dat.A 10 = V c (Pipeline.arrRef spec3 10))
    (hafter : ∀ t, dat.after 10 t = iblk3 V c 10 t) (t : Fin cfg3.N) (d) : dat.before 10 t d = iblk3 V c 10 t :=
  (dat.before_in_eq_fetched 10 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- a whole row block of 128 columns (windows 0, 1, 2 and the addend's window 10) -/
abbrev r3_0 : Rect S2000x128 := Rect.unit (s := S2000x128) ![0, 0] S2000x128.size inb_S2000x128_S2000x128_0_0
/-- branch 0, 1, 2 of the weight array (window 3) -/
abbrev r3_1 : Rect S3x128x256 := Rect.unit (s := S3x128x256) ![0, 0, 0] S1x128x256.size inb_S3x128x256_S1x128x256_0_0_0
abbrev r3_2 : Rect S3x128x256 := Rect.unit (s := S3x128x256) ![1, 0, 0] S1x128x256.size inb_S3x128x256_S1x128x256_1_0_0
abbrev r3_3 : Rect S3x128x256 := Rect.unit (s := S3x128x256) ![2, 0, 0] S1x128x256.size inb_S3x128x256_S1x128x256_2_0_0
/-- row 0, 1, 2 of a per-branch parameter array (windows 4 … 9) -/
abbrev r3_4 : Rect S3x256 := Rect.unit (s := S3x256) ![0, 0] S1x256.size inb_S3x256_S1x256_0_0
abbrev r3_5 : Rect S3x256 := Rect.unit (s := S3x256) ![1, 0] S1x256.size inb_S3x256_S1x256_1_0
abbrev r3_6 : Rect S3x256 := Rect.unit (s := S3x256) ![2, 0] S1x256.size inb_S3x256_S1x256_2_0
/-- columns 0:128 and columns 128:256 of the output block (window 11) -/
abbrev r3_7 : Rect S2000x256 := Rect.unit (s := S2000x256) ![0, 0] S2000x128.size inb_S2000x256_S2000x128_0_0
abbrev r3_8 : Rect S2000x256 := Rect.unit (s := S2000x256) ![0, 128] S2000x128.size inb_S2000x256_S2000x128_0_128

/-! ## What the body leaves in the output window's buffer -/

/-- Window 11's staging buffer after the body, from the input windows' blocks (x0, x1, x2 the three row blocks; x3 the
    weights; x4 bias, x5 gamma, x6 beta, x7 mixing weights, x8 mean, x9 variance; x10 the addend's row block): its two
    stores as pieces, LAST FIRST (Lib/Pipeline/FrameBody.lean `View.canon`; the payloads are the skeleton's, composed as
    the body's three parts hand them on). Columns 128:256 take the accumulated sum's columns 128:256, columns 0:128 its
    columns 0:128 plus the addend. -/
def out3_11 (x0 : Vec F S2000x128 .bf16) (x1 : Vec F S2000x128 .bf16) (x2 : Vec F S2000x128 .bf16) (x3 : Vec F S3x128x256 .f32)
    (x4 : Vec F S3x256 .f32) (x5 : Vec F S3x256 .f32) (x6 : Vec F S3x256 .f32) (x7 : Vec F S3x256 .f32) (x8 : Vec F S3x256 .f32)
    (x9 : Vec F S3x256 .f32) (x10 : Vec F S2000x128 .f32) : Vec F S2000x256 .f32 :=
  View.canon [
    ⟨r3_8, k3_pay3
      (k3_pay9
        (k3_pay7 (k3_pay6 (View.ld x0 r3_0) (View.ld x3 r3_1) (View.ld x4 r3_4) (View.ld x8 r3_4) (View.ld x9 r3_4) (View.ld x5 r3_4) (View.ld x6 r3_4))
          (View.ld x7 r3_4))
        (k3_pay8 (k3_pay4 (View.ld x1 r3_0)) (View.ld x3 r3_2) (View.ld x4 r3_5) (View.ld x8 r3_5) (View.ld x9 r3_5) (View.ld x5 r3_5) (View.ld x6 r3_5))
        (View.ld x7 r3_5))
      (k3_pay10 (k3_pay5 (View.ld x2 r3_0)) (View.ld x3 r3_3) (View.ld x4 r3_6) (View.ld x8 r3_6) (View.ld x9 r3_6) (View.ld x5 r3_6) (View.ld x6 r3_6))
      (View.ld x7 r3_6)⟩,
    ⟨r3_7, k3_pay2
      (k3_pay9
        (k3_pay7 (k3_pay6 (View.ld x0 r3_0) (View.ld x3 r3_1) (View.ld x4 r3_4) (View.ld x8 r3_4) (View.ld x9 r3_4) (View.ld x5 r3_4) (View.ld x6 r3_4))
          (View.ld x7 r3_4))
        (k3_pay8 (k3_pay4 (View.ld x1 r3_0)) (View.ld x3 r3_2) (View.ld x4 r3_5) (View.ld x8 r3_5) (View.ld x9 r3_5) (View.ld x5 r3_5) (View.ld x6 r3_5))
        (View.ld x7 r3_5))
      (k3_pay10 (k3_pay5 (View.ld x2 r3_0)) (View.ld x3 r3_3) (View.ld x4 r3_6) (View.ld x8 r3_6) (View.ld x9 r3_6) (View.ld x5 r3_6) (View.ld x6 r3_6))
      (View.ld x7 r3_6)
      (View.ld x10 r3_0)⟩]

/-- Its stores tile the buffer in column blocks of 128 (checked by evaluation), so they cover it. -/
theorem cover3_11 (p0 : Vec F S2000x128 .f32) (p1 : Vec F S2000x128 .f32) (y : S2000x256.Idx) :
    ∃ pc ∈ ([⟨r3_8, p0⟩, ⟨r3_7, p1⟩] : List (View.Piece (Elt F) S2000x256 .f32)), y ∈ pc.1.set :=
  View.cover_of_tiled [⟨r3_8, p0⟩, ⟨r3_7, p1⟩] S2000x128.size (by rfl) y

/-! ## The body's triple -/

set_option maxHeartbeats 4000000 in
/-- The kernel body on whole staging memrefs, the inputs' at read contents `xW` and the output's at anything, runs to
    the continuation holding the inputs' as they were and the output's at `out3_11` of the inputs': the printed functions
    are their skeletons, run through every part call. -/
theorem sound_kernel3 (c : Dev nD) (E : Set ℕ) (i : grid3.Coords)
    (arg1 : Memref sig .tc .vmem S2000x128 .bf16) (harg1 : arg1.IsWhole) (arg2 : Memref sig .tc .vmem S2000x128 .bf16) (harg2 : arg2.IsWhole)
    (arg3 : Memref sig .tc .vmem S2000x128 .bf16) (harg3 : arg3.IsWhole) (arg4 : Memref sig .tc .vmem S3x128x256 .f32) (harg4 : arg4.IsWhole)
    (arg5 : Memref sig .tc .vmem S3x256 .f32) (harg5 : arg5.IsWhole) (arg6 : Memref sig .tc .vmem S3x256 .f32) (harg6 : arg6.IsWhole)
    (arg7 : Memref sig .tc .vmem S3x256 .f32) (harg7 : arg7.IsWhole) (arg8 : Memref sig .tc .vmem S3x256 .f32) (harg8 : arg8.IsWhole)
    (arg9 : Memref sig .tc .vmem S3x256 .f32) (harg9 : arg9.IsWhole) (arg10 : Memref sig .tc .vmem S3x256 .f32) (harg10 : arg10.IsWhole)
    (arg11 : Memref sig .tc .vmem S2000x128 .f32) (harg11 : arg11.IsWhole) (arg12 : Memref sig .tc .vmem S2000x256 .f32) (harg12 : arg12.IsWhole)
    (x0 : Vec F S2000x128 .bf16) (x1 : Vec F S2000x128 .bf16) (x2 : Vec F S2000x128 .bf16) (x3 : Vec F S3x128x256 .f32)
    (x4 : Vec F S3x256 .f32) (x5 : Vec F S3x256 .f32) (x6 : Vec F S3x256 .f32) (x7 : Vec F S3x256 .f32) (x8 : Vec F S3x256 .f32)
    (x9 : Vec F S3x256 .f32) (x10 : Vec F S2000x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare x9 ∗ owns (c : Thread nD τ) arg11 fullShare x10
        ∗ (∃ d, owns (c : Thread nD τ) arg12 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare x9 ∗ owns (c : Thread nD τ) arg11 fullShare x10
            ∗ owns (c : Thread nD τ) arg12 fullShare (out3_11 x0 x1 x2 x3 x4 x5 x6 x7 x8 x9 x10)) -∗ K ⟨⟩))
      ⊢ wp frame (wpE (defs₀ (F := F)) Variants.none c none) E
          (cc3__combine_kernel_add i arg1 harg1 arg2 harg2 arg3 harg3 arg4 harg4 arg5 harg5 arg6 harg6 arg7 harg7 arg8 harg8 arg9 harg9 arg10 harg10 arg11 harg11 arg12 harg12) K := by
  simp only [cc3__combine_kernel_add_eq_skeleton]; unfold cc3__combine_kernel_add_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  exact View.read_writes_eq_canon _ _ _ (cover3_11 _ _)

/-! ## The pipeline's proof data -/

/-- The proof data of pipeline 3 on core `c`: the arrays as the region finds them (`V`); after the body at
    point `t` each input's buffer at its block and the output's at `out3_11` of the input blocks; the invariant the
    class's (Lib/Pipeline/Frame.lean `ΦA`: the scoped rest and the generator register, untouched); nothing owed;
    full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => iblk3 V c 10 t
    | ⟨11, _⟩ => out3_11 (iblk3 V c 0 t) (iblk3 V c 1 t) (iblk3 V c 2 t) (iblk3 V c 3 t) (iblk3 V c 4 t) (iblk3 V c 5 t)
        (iblk3 V c 6 t) (iblk3 V c 7 t) (iblk3 V c 8 t) (iblk3 V c 9 t) (iblk3 V c 10 t)
  Φ _ := Pipeline.ΦA spec3 c
  q _ := fullShare
  owed _ := 0

/-- The proof data's arrays are the region-entry contents (the proof data's definition projected, by `dsimp`). -/
theorem A_eq3 (c : Dev nD) (w : Fin cfg3.W) : (dat3 V c).A w = V c (Pipeline.arrRef spec3 w) := by
  dsimp only [dat3]

/-- What the body leaves, window by window (the proof data's `match` reduced by `dsimp`). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = iblk3 V c 9 t := by dsimp only [dat3]
theorem after3_10 (c : Dev nD) (t : Fin cfg3.N) : (dat3 V c).after 10 t = iblk3 V c 10 t := by dsimp only [dat3]
theorem after3_11 (c : Dev nD) (t : Fin cfg3.N) : (dat3 V c).after 11 t =
    out3_11 (iblk3 V c 0 t) (iblk3 V c 1 t) (iblk3 V c 2 t) (iblk3 V c 3 t) (iblk3 V c 4 t) (iblk3 V c 5 t)
      (iblk3 V c 6 t) (iblk3 V c 7 t) (iblk3 V c 8 t) (iblk3 V c 9 t) (iblk3 V c 10 t) := by dsimp only [dat3]

/-- Each input's current staging buffer holds its block at every point, fetched there or not (`before3_W_of`). -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d
theorem before3_9 (c : Dev nD) (t : Fin cfg3.N) (d) : (dat3 V c).before 9 t d = iblk3 V c 9 t :=
  before3_9_of V (dat3 V c) (A_eq3 V c 9) (after3_9 V c) t d
theorem before3_10 (c : Dev nD) (t : Fin cfg3.N) (d) : (dat3 V c).before 10 t d = iblk3 V c 10 t :=
  before3_10_of V (dat3 V c) (A_eq3 V c 10) (after3_10 V c) t d

/-! ## The body obligation, at a generic point -/

/-- What the body is called with at point `t` (Lib/Pipeline.lean `BodyObligation`'s precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d))
    ∗ (∃ d, owns (c : Thread nD τ) (st3_11 t) fullShare ((dat3 V c).before 11 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t)
    ∗ owns (c : Thread nD τ) (st3_11 t) fullShare ((dat3 V c).after 11 t))

/-- The body at any point: the inputs' memrefs hold their blocks (`before3_W`), so `sound_kernel3` applies; the invariant and
    the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8, before3_9, before3_10]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9, after3_10, after3_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel3 c Set.univ (grid3.coords t) _ _ _ _ _ _ _ _ _ _ _ _ _ _ _ _ _ _ _ _ _ _ _ _
    (iblk3 V c 0 t) (iblk3 V c 1 t) (iblk3 V c 2 t) (iblk3 V c 3 t) (iblk3 V c 4 t) (iblk3 V c 5 t)
    (iblk3 V c 6 t) (iblk3 V c 7 t) (iblk3 V c 8 t) (iblk3 V c 9 t) (iblk3 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation3 (c : Dev nD) : BodyObligation (dat3 (F := F) V c) (defs₀ (F := F)) Variants.none () Set.univ := fun t => by
  rw [bigSep_W3, bigSep_W3]
  exact sound_body3 V c t

end Region3

end Cert.KernelIdeal.Hand

end
-- ==== Proof.KI.Stats4Runs.lean ====
import proofs.«414290_j6631429505478_3_alg».proof.Proof.Gen.KernelIdeal.Launch
import proofs.«414290_j6631429505478_3_alg».proof.Proof.Gen.KernelIdeal.Skeleton
import proofs.«414290_j6631429505478_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 4 (the statistics kernel at width 128): what its cases share

The region-entry contents `V` are a parameter throughout. -/

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof
    data whose array is `V`'s and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not, for any proof
    data whose array is `V`'s and whose body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not, for any proof
    data whose array is `V`'s and whose body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not, for any proof
    data whose array is `V`'s and whose body leaves the block in place. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, fetched there or not, for any proof
    data whose array is `V`'s and whose body leaves the block in place. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The body's branch condition -/

/-- The condition of the body's conditional (reset of both outputs), from the grid coordinates. -/
abbrev cond4_0 (i : grid4.Coords) : Prop := (Scalar.cmpi .ne (Scalar.extui (Scalar.cmpi .eq (BitVec.ofNat 32 (i 1).val) 0#32)) 0#32) = 1#1
/-- It holds exactly at the first point of each core's row of 25 — decided over the grid. -/
theorem hcond4_0 : ∀ t : Fin cfg4.N, cond4_0 (grid4.coords t) ↔ t.val % 25 = 0 :=
  (by decide +kernel : ∀ t : Fin grid4.N, cond4_0 (grid4.coords t) ↔ t.val % 25 = 0)

/-! ## The staging memrefs -/

/-- One staging buffer of each output window, through which its contents are stated (the choice does not matter). -/
abbrev VO4_5 : View sig .tc .vmem S1x3x128 .f32 := (Memref.whole cc4_stg5_0 : Memref sig .tc .vmem S1x3x128 .f32).view
abbrev VO4_6 : View sig .tc .vmem S1x3x128 .f32 := (Memref.whole cc4_stg6_0 : Memref sig .tc .vmem S1x3x128 .f32).view
/-- Each window's current staging memref at point `t`, spelled as the pipeline passes it, and its wholeness. -/
abbrev ms4_0 (t : Fin cfg4.N) : Memref sig .tc .vmem S1000x128 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1000x128 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1000x128 .bf16 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S3x128x128 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S3x128 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1x3x128 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S1x3x128 .f32 := win4_6.stage (cfg4.slots t 6)
abbrev hs4_6 (t : Fin cfg4.N) : (ms4_6 t).IsWhole := hstage4_6 ((cfg4.slots t 6).cast nbuf4_6)

end Cert.KernelIdeal.Hand

end
-- ==== Proof.KI.Stats4RunA.lean ====
import proofs.«414290_j6631429505478_3_alg».proof.Proof.KI.Stats4Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 4: the whole-body run in case A -/

set_option maxHeartbeats 4000000 in
/-- What the body's stores leave in each output's staging memref, as pieces (last first), IN CASE A (the conditional taken:
    the first point of a core's row), with the proof that on whole staging memrefs — the inputs' at their contents, the
    outputs' at anything — the body runs to the continuation holding the inputs' as they were and each output's buffer
    with its pieces written. -/
noncomputable def kernelRun4_A (c : Dev nD) (i : grid4.Coords) (arg2 : Memref sig .tc .vmem S1000x128 .bf16) (harg2 : arg2.IsWhole) (arg3 : Memref sig .tc .vmem S1000x128 .bf16) (harg3 : arg3.IsWhole) (arg4 : Memref sig .tc .vmem S1000x128 .bf16) (harg4 : arg4.IsWhole) (arg5 : Memref sig .tc .vmem S3x128x128 .f32) (harg5 : arg5.IsWhole) (arg6 : Memref sig .tc .vmem S3x128 .f32) (harg6 : arg6.IsWhole) (arg7 : Memref sig .tc .vmem S1x3x128 .f32) (harg7 : arg7.IsWhole) (arg8 : Memref sig .tc .vmem S1x3x128 .f32) (harg8 : arg8.IsWhole) (hc0 : cond4_0 i)
    (x0 : Vec F S1000x128 .bf16) (x1 : Vec F S1000x128 .bf16) (x2 : Vec F S1000x128 .bf16) (x3 : Vec F S3x128x128 .f32) (x4 : Vec F S3x128 .f32) :
    Σ' (L5 : List (View.Piece (Elt F) S1x3x128 .f32)), { L6 : List (View.Piece (Elt F) S1x3x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6)) -∗ K ⟨⟩))
          ⊢ wp frame (wpE (defs₀ (F := F)) Variants.none c none) E (cc4__stats_kernel i arg2 harg2 arg3 harg3 arg4 harg4 arg5 harg5 arg6 harg6 arg7 harg7 arg8 harg8) K } := by
  refine ⟨?_, ?_, fun E K => ?run⟩
  case run =>
    simp only [cc4__stats_kernel_eq_skeleton]; unfold cc4__stats_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact H6

end Cert.KernelIdeal.Hand

end
-- ==== Proof.KI.Stats4RunB.lean ====
import proofs.«414290_j6631429505478_3_alg».proof.Proof.KI.Stats4RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 4: the whole-body run in case B -/

set_option maxHeartbeats 4000000 in
/-- What the body's stores leave in each output's staging memref, as pieces (last first), IN CASE B (the conditional not
    taken: the other points of a core's row), with the proof that on whole staging memrefs — the inputs' at their contents,
    the outputs', which the body reads before covering, at their running contents `xo·` — the body runs to the continuation
    holding the inputs' as they were and each output's buffer with its pieces written. -/
noncomputable def kernelRun4_B (c : Dev nD) (i : grid4.Coords) (arg2 : Memref sig .tc .vmem S1000x128 .bf16) (harg2 : arg2.IsWhole) (arg3 : Memref sig .tc .vmem S1000x128 .bf16) (harg3 : arg3.IsWhole) (arg4 : Memref sig .tc .vmem S1000x128 .bf16) (harg4 : arg4.IsWhole) (arg5 : Memref sig .tc .vmem S3x128x128 .f32) (harg5 : arg5.IsWhole) (arg6 : Memref sig .tc .vmem S3x128 .f32) (harg6 : arg6.IsWhole) (arg7 : Memref sig .tc .vmem S1x3x128 .f32) (harg7 : arg7.IsWhole) (arg8 : Memref sig .tc .vmem S1x3x128 .f32) (harg8 : arg8.IsWhole) (hc0 : ¬cond4_0 i)
    (x0 : Vec F S1000x128 .bf16) (x1 : Vec F S1000x128 .bf16) (x2 : Vec F S1000x128 .bf16) (x3 : Vec F S3x128x128 .f32) (x4 : Vec F S3x128 .f32) (xo5 : Vec F S1x3x128 .f32) (xo6 : Vec F S1x3x128 .f32) :
    Σ' (L5 : List (View.Piece (Elt F) S1x3x128 .f32)), { L6 : List (View.Piece (Elt F) S1x3x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo5 ∗ owns (c : Thread nD τ) arg8 fullShare xo6
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6)) -∗ K ⟨⟩))
          ⊢ wp frame (wpE (defs₀ (F := F)) Variants.none c none) E (cc4__stats_kernel i arg2 harg2 arg3 harg3 arg4 harg4 arg5 harg5 arg6 harg6 arg7 harg7 arg8 harg8) K } := by
  refine ⟨?_, ?_, fun E K => ?run⟩
  case run =>
    simp only [cc4__stats_kernel_eq_skeleton]; unfold cc4__stats_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact H6

end Cert.KernelIdeal.Hand

end
-- ==== Proof.KI.Stats4.lean ====
import proofs.«414290_j6631429505478_3_alg».proof.Proof.KI.Stats4RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 4 (the statistics kernel at width 128): the frame half

Both outputs' blocks are revisited over a core's row of 25 points: reset at the row's first point, added to at the
others, written back at its last. -/

variable (V : (c : Dev nD) → (b : Ref sig .tc) → Buf (Elt F) ((c : Thread nD τ).loc b))

/-- Case A's pieces for output 5 tile its block, so they cover it. -/
theorem cover4_A_5 (c : Dev nD) (i : grid4.Coords) (arg2 : Memref sig .tc .vmem S1000x128 .bf16) (harg2 : arg2.IsWhole) (arg3 : Memref sig .tc .vmem S1000x128 .bf16) (harg3 : arg3.IsWhole) (arg4 : Memref sig .tc .vmem S1000x128 .bf16) (harg4 : arg4.IsWhole) (arg5 : Memref sig .tc .vmem S3x128x128 .f32) (harg5 : arg5.IsWhole) (arg6 : Memref sig .tc .vmem S3x128 .f32) (harg6 : arg6.IsWhole) (arg7 : Memref sig .tc .vmem S1x3x128 .f32) (harg7 : arg7.IsWhole) (arg8 : Memref sig .tc .vmem S1x3x128 .f32) (harg8 : arg8.IsWhole) (hc0 : cond4_0 i)
    (x0 : Vec F S1000x128 .bf16) (x1 : Vec F S1000x128 .bf16) (x2 : Vec F S1000x128 .bf16) (x3 : Vec F S3x128x128 .f32) (x4 : Vec F S3x128 .f32) (y : S1x3x128.Idx) :
    ∃ pc ∈ (kernelRun4_A c i arg2 harg2 arg3 harg3 arg4 harg4 arg5 harg5 arg6 harg6 arg7 harg7 arg8 harg8 hc0 x0 x1 x2 x3 x4).1, y ∈ pc.1.set :=
  View.cover_of_tiledL (kernelRun4_A c i arg2 harg2 arg3 harg3 arg4 harg4 arg5 harg5 arg6 harg6 arg7 harg7 arg8 harg8 hc0 x0 x1 x2 x3 x4).1 S1x3x128.size (by sl_kernel_rfl) y

/-- What case A leaves in output 5's staging buffer: its pieces read back over junk. -/
def out4_A_5 (c : Dev nD) (i : grid4.Coords) (arg2 : Memref sig .tc .vmem S1000x128 .bf16) (harg2 : arg2.IsWhole) (arg3 : Memref sig .tc .vmem S1000x128 .bf16) (harg3 : arg3.IsWhole) (arg4 : Memref sig .tc .vmem S1000x128 .bf16) (harg4 : arg4.IsWhole) (arg5 : Memref sig .tc .vmem S3x128x128 .f32) (harg5 : arg5.IsWhole) (arg6 : Memref sig .tc .vmem S3x128 .f32) (harg6 : arg6.IsWhole) (arg7 : Memref sig .tc .vmem S1x3x128 .f32) (harg7 : arg7.IsWhole) (arg8 : Memref sig .tc .vmem S1x3x128 .f32) (harg8 : arg8.IsWhole) (hc0 : cond4_0 i)
    (x0 : Vec F S1000x128 .bf16) (x1 : Vec F S1000x128 .bf16) (x2 : Vec F S1000x128 .bf16) (x3 : Vec F S3x128x128 .f32) (x4 : Vec F S3x128 .f32) : Vec F S1x3x128 .f32 :=
  VO4_5.read (Elt F) (VO4_5.writes (Elt F) VO4_5.junk (kernelRun4_A c i arg2 harg2 arg3 harg3 arg4 harg4 arg5 harg5 arg6 harg6 arg7 harg7 arg8 harg8 hc0 x0 x1 x2 x3 x4).1)

/-- Case A's pieces for output 6 tile its block, so they cover it. -/
theorem cover4_A_6 (c : Dev nD) (i : grid4.Coords) (arg2 : Memref sig .tc .vmem S1000x128 .bf16) (harg2 : arg2.IsWhole) (arg3 : Memref sig .tc .vmem S1000x128 .bf16) (harg3 : arg3.IsWhole) (arg4 : Memref sig .tc .vmem S1000x128 .bf16) (harg4 : arg4.IsWhole) (arg5 : Memref sig .tc .vmem S3x128x128 .f32) (harg5 : arg5.IsWhole) (arg6 : Memref sig .tc .vmem S3x128 .f32) (harg6 : arg6.IsWhole) (arg7 : Memref sig .tc .vmem S1x3x128 .f32) (harg7 : arg7.IsWhole) (arg8 : Memref sig .tc .vmem S1x3x128 .f32) (harg8 : arg8.IsWhole) (hc0 : cond4_0 i)
    (x0 : Vec F S1000x128 .bf16) (x1 : Vec F S1000x128 .bf16) (x2 : Vec F S1000x128 .bf16) (x3 : Vec F S3x128x128 .f32) (x4 : Vec F S3x128 .f32) (y : S1x3x128.Idx) :
    ∃ pc ∈ (kernelRun4_A c i arg2 harg2 arg3 harg3 arg4 harg4 arg5 harg5 arg6 harg6 arg7 harg7 arg8 harg8 hc0 x0 x1 x2 x3 x4).2.1, y ∈ pc.1.set :=
  View.cover_of_tiledL (kernelRun4_A c i arg2 harg2 arg3 harg3 arg4 harg4 arg5 harg5 arg6 harg6 arg7 harg7 arg8 harg8 hc0 x0 x1 x2 x3 x4).2.1 S1x3x128.size (by sl_kernel_rfl) y

/-- What case A leaves in output 6's staging buffer: its pieces read back over junk. -/
def out4_A_6 (c : Dev nD) (i : grid4.Coords) (arg2 : Memref sig .tc .vmem S1000x128 .bf16) (harg2 : arg2.IsWhole) (arg3 : Memref sig .tc .vmem S1000x128 .bf16) (harg3 : arg3.IsWhole) (arg4 : Memref sig .tc .vmem S1000x128 .bf16) (harg4 : arg4.IsWhole) (arg5 : Memref sig .tc .vmem S3x128x128 .f32) (harg5 : arg5.IsWhole) (arg6 : Memref sig .tc .vmem S3x128 .f32) (harg6 : arg6.IsWhole) (arg7 : Memref sig .tc .vmem S1x3x128 .f32) (harg7 : arg7.IsWhole) (arg8 : Memref sig .tc .vmem S1x3x128 .f32) (harg8 : arg8.IsWhole) (hc0 : cond4_0 i)
    (x0 : Vec F S1000x128 .bf16) (x1 : Vec F S1000x128 .bf16) (x2 : Vec F S1000x128 .bf16) (x3 : Vec F S3x128x128 .f32) (x4 : Vec F S3x128 .f32) : Vec F S1x3x128 .f32 :=
  VO4_6.read (Elt F) (VO4_6.writes (Elt F) VO4_6.junk (kernelRun4_A c i arg2 harg2 arg3 harg3 arg4 harg4 arg5 harg5 arg6 harg6 arg7 harg7 arg8 harg8 hc0 x0 x1 x2 x3 x4).2.1)

/-- Case B's pieces for output 5 tile its block, so they cover it. -/
theorem cover4_B_5 (c : Dev nD) (i : grid4.Coords) (arg2 : Memref sig .tc .vmem S1000x128 .bf16) (harg2 : arg2.IsWhole) (arg3 : Memref sig .tc .vmem S1000x128 .bf16) (harg3 : arg3.IsWhole) (arg4 : Memref sig .tc .vmem S1000x128 .bf16) (harg4 : arg4.IsWhole) (arg5 : Memref sig .tc .vmem S3x128x128 .f32) (harg5 : arg5.IsWhole) (arg6 : Memref sig .tc .vmem S3x128 .f32) (harg6 : arg6.IsWhole) (arg7 : Memref sig .tc .vmem S1x3x128 .f32) (harg7 : arg7.IsWhole) (arg8 : Memref sig .tc .vmem S1x3x128 .f32) (harg8 : arg8.IsWhole) (hc0 : ¬cond4_0 i)
    (x0 : Vec F S1000x128 .bf16) (x1 : Vec F S1000x128 .bf16) (x2 : Vec F S1000x128 .bf16) (x3 : Vec F S3x128x128 .f32) (x4 : Vec F S3x128 .f32) (xo5 : Vec F S1x3x128 .f32) (xo6 : Vec F S1x3x128 .f32) (y : S1x3x128.Idx) :
    ∃ pc ∈ (kernelRun4_B c i arg2 harg2 arg3 harg3 arg4 harg4 arg5 harg5 arg6 harg6 arg7 harg7 arg8 harg8 hc0 x0 x1 x2 x3 x4 xo5 xo6).1, y ∈ pc.1.set :=
  View.cover_of_tiledL (kernelRun4_B c i arg2 harg2 arg3 harg3 arg4 harg4 arg5 harg5 arg6 harg6 arg7 harg7 arg8 harg8 hc0 x0 x1 x2 x3 x4 xo5 xo6).1 S1x3x128.size (by sl_kernel_rfl) y

/-- What case B leaves in output 5's staging buffer: its pieces read back over junk. -/
def out4_B_5 (c : Dev nD) (i : grid4.Coords) (arg2 : Memref sig .tc .vmem S1000x128 .bf16) (harg2 : arg2.IsWhole) (arg3 : Memref sig .tc .vmem S1000x128 .bf16) (harg3 : arg3.IsWhole) (arg4 : Memref sig .tc .vmem S1000x128 .bf16) (harg4 : arg4.IsWhole) (arg5 : Memref sig .tc .vmem S3x128x128 .f32) (harg5 : arg5.IsWhole) (arg6 : Memref sig .tc .vmem S3x128 .f32) (harg6 : arg6.IsWhole) (arg7 : Memref sig .tc .vmem S1x3x128 .f32) (harg7 : arg7.IsWhole) (arg8 : Memref sig .tc .vmem S1x3x128 .f32) (harg8 : arg8.IsWhole) (hc0 : ¬cond4_0 i)
    (x0 : Vec F S1000x128 .bf16) (x1 : Vec F S1000x128 .bf16) (x2 : Vec F S1000x128 .bf16) (x3 : Vec F S3x128x128 .f32) (x4 : Vec F S3x128 .f32) (xo5 : Vec F S1x3x128 .f32) (xo6 : Vec F S1x3x128 .f32) : Vec F S1x3x128 .f32 :=
  VO4_5.read (Elt F) (VO4_5.writes (Elt F) VO4_5.junk (kernelRun4_B c i arg2 harg2 arg3 harg3 arg4 harg4 arg5 harg5 arg6 harg6 arg7 harg7 arg8 harg8 hc0 x0 x1 x2 x3 x4 xo5 xo6).1)

/-- Case B's pieces for output 6 tile its block, so they cover it. -/
theorem cover4_B_6 (c : Dev nD) (i : grid4.Coords) (arg2 : Memref sig .tc .vmem S1000x128 .bf16) (harg2 : arg2.IsWhole) (arg3 : Memref sig .tc .vmem S1000x128 .bf16) (harg3 : arg3.IsWhole) (arg4 : Memref sig .tc .vmem S1000x128 .bf16) (harg4 : arg4.IsWhole) (arg5 : Memref sig .tc .vmem S3x128x128 .f32) (harg5 : arg5.IsWhole) (arg6 : Memref sig .tc .vmem S3x128 .f32) (harg6 : arg6.IsWhole) (arg7 : Memref sig .tc .vmem S1x3x128 .f32) (harg7 : arg7.IsWhole) (arg8 : Memref sig .tc .vmem S1x3x128 .f32) (harg8 : arg8.IsWhole) (hc0 : ¬cond4_0 i)
    (x0 : Vec F S1000x128 .bf16) (x1 : Vec F S1000x128 .bf16) (x2 : Vec F S1000x128 .bf16) (x3 : Vec F S3x128x128 .f32) (x4 : Vec F S3x128 .f32) (xo5 : Vec F S1x3x128 .f32) (xo6 : Vec F S1x3x128 .f32) (y : S1x3x128.Idx) :
    ∃ pc ∈ (kernelRun4_B c i arg2 harg2 arg3 harg3 arg4 harg4 arg5 harg5 arg6 harg6 arg7 harg7 arg8 harg8 hc0 x0 x1 x2 x3 x4 xo5 xo6).2.1, y ∈ pc.1.set :=
  View.cover_of_tiledL (kernelRun4_B c i arg2 harg2 arg3 harg3 arg4 harg4 arg5 harg5 arg6 harg6 arg7 harg7 arg8 harg8 hc0 x0 x1 x2 x3 x4 xo5 xo6).2.1 S1x3x128.size (by sl_kernel_rfl) y

/-- What case B leaves in output 6's staging buffer: its pieces read back over junk. -/
def out4_B_6 (c : Dev nD) (i : grid4.Coords) (arg2 : Memref sig .tc .vmem S1000x128 .bf16) (harg2 : arg2.IsWhole) (arg3 : Memref sig .tc .vmem S1000x128 .bf16) (harg3 : arg3.IsWhole) (arg4 : Memref sig .tc .vmem S1000x128 .bf16) (harg4 : arg4.IsWhole) (arg5 : Memref sig .tc .vmem S3x128x128 .f32) (harg5 : arg5.IsWhole) (arg6 : Memref sig .tc .vmem S3x128 .f32) (harg6 : arg6.IsWhole) (arg7 : Memref sig .tc .vmem S1x3x128 .f32) (harg7 : arg7.IsWhole) (arg8 : Memref sig .tc .vmem S1x3x128 .f32) (harg8 : arg8.IsWhole) (hc0 : ¬cond4_0 i)
    (x0 : Vec F S1000x128 .bf16) (x1 : Vec F S1000x128 .bf16) (x2 : Vec F S1000x128 .bf16) (x3 : Vec F S3x128x128 .f32) (x4 : Vec F S3x128 .f32) (xo5 : Vec F S1x3x128 .f32) (xo6 : Vec F S1x3x128 .f32) : Vec F S1x3x128 .f32 :=
  VO4_6.read (Elt F) (VO4_6.writes (Elt F) VO4_6.junk (kernelRun4_B c i arg2 harg2 arg3 harg3 arg4 harg4 arg5 harg5 arg6 harg6 arg7 harg7 arg8 harg8 hc0 x0 x1 x2 x3 x4 xo5 xo6).2.1)

/-! ## What the outputs hold after each point -/

/-- THE ACCUMULATION. What the two outputs' staging buffers hold after the body at position `n`: the case the closed
    form selects at `n`, run at the point's memrefs and input blocks; in case B over what this leaves at `n - 1`
    (the buffers are not written back between). The recursion restarts at every first point of a row. -/
def outsAt4 (c : Dev nD) : (n : ℕ) → n < cfg4.N → Vec F S1x3x128 .f32 × Vec F S1x3x128 .f32
  | 0, hn => (out4_A_5 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) ((hcond4_0 ⟨0, hn⟩).mpr (Nat.zero_mod _)) (iblk4 V c 0 ⟨0, hn⟩) (iblk4 V c 1 ⟨0, hn⟩) (iblk4 V c 2 ⟨0, hn⟩) (iblk4 V c 3 ⟨0, hn⟩) (iblk4 V c 4 ⟨0, hn⟩), out4_A_6 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) ((hcond4_0 ⟨0, hn⟩).mpr (Nat.zero_mod _)) (iblk4 V c 0 ⟨0, hn⟩) (iblk4 V c 1 ⟨0, hn⟩) (iblk4 V c 2 ⟨0, hn⟩) (iblk4 V c 3 ⟨0, hn⟩) (iblk4 V c 4 ⟨0, hn⟩))
  | n + 1, hn =>
    if h0 : (n + 1) % 25 = 0 then
      (out4_A_5 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) ((hcond4_0 ⟨n + 1, hn⟩).mpr h0) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩), out4_A_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) ((hcond4_0 ⟨n + 1, hn⟩).mpr h0) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩))
    else
      (out4_B_5 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (fun h => h0 ((hcond4_0 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).1 (outsAt4 c n (Nat.lt_of_succ_lt hn)).2, out4_B_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (fun h => h0 ((hcond4_0 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn)).1 (outsAt4 c n (Nat.lt_of_succ_lt hn)).2)

/-- `outsAt4` at a point of case A: that case's contents. -/
theorem outsAt4_A (c : Dev nD) (t : Fin cfg4.N) (h0 : t.val % 25 = 0) :
    outsAt4 V c t.val t.isLt = (out4_A_5 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) ((hcond4_0 t).mpr h0) (iblk4 V c 0 t) (iblk4 V c 1 t) (iblk4 V c 2 t) (iblk4 V c 3 t) (iblk4 V c 4 t), out4_A_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) ((hcond4_0 t).mpr h0) (iblk4 V c 0 t) (iblk4 V c 1 t) (iblk4 V c 2 t) (iblk4 V c 3 t) (iblk4 V c 4 t)) := by
  obtain ⟨n, hn⟩ := t
  cases n with
  | zero => exact rfl
  | succ n => exact (dif_pos h0).trans rfl

/-- `outsAt4` at a point of case B: that case's contents, over what the point before left. -/
theorem outsAt4_B (c : Dev nD) (t : Fin cfg4.N) (h0 : ¬t.val % 25 = 0) :
    outsAt4 V c t.val t.isLt = (out4_B_5 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (fun h => h0 ((hcond4_0 t).mp h)) (iblk4 V c 0 t) (iblk4 V c 1 t) (iblk4 V c 2 t) (iblk4 V c 3 t) (iblk4 V c 4 t) (outsAt4 V c (t.val - 1) (Nat.lt_of_le_of_lt (Nat.sub_le _ _) t.isLt)).1 (outsAt4 V c (t.val - 1) (Nat.lt_of_le_of_lt (Nat.sub_le _ _) t.isLt)).2, out4_B_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (fun h => h0 ((hcond4_0 t).mp h)) (iblk4 V c 0 t) (iblk4 V c 1 t) (iblk4 V c 2 t) (iblk4 V c 3 t) (iblk4 V c 4 t) (outsAt4 V c (t.val - 1) (Nat.lt_of_le_of_lt (Nat.sub_le _ _) t.isLt)).1 (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data of region 4's pipeline on core `c`: the arrays as the region finds them; after the body at point
    `t` each input's buffer at its block and the outputs' at `outsAt4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => (outsAt4 V c t.val t.isLt).1
    | ⟨6, _⟩ => (outsAt4 V c t.val t.isLt).2
  Φ _ := Pipeline.ΦA spec4 c
  q _ := fullShare
  owed _ := 0

/-- The proof data's arrays are the region-entry contents. -/
theorem A_eq4 (c : Dev nD) (w : Fin cfg4.W) :
    (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = (outsAt4 V c t.val t.isLt).1 := by dsimp only [dat4]
theorem after4_6 (c : Dev nD) (t : Fin cfg4.N) : (dat4 V c).after 6 t = (outsAt4 V c t.val t.isLt).2 := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
/-- At a point of case B output 5's current staging buffer holds what the body left at the point before: the point is not
    a row's first, so the buffer was not written back between. -/
theorem before4_5_B (c : Dev nD) (t : Fin cfg4.N) (h0 : ¬t.val % 25 = 0) (d) :
    (dat4 V c).before 5 t d = (outsAt4 V c (t.val - 1) (Nat.lt_of_le_of_lt (Nat.sub_le _ _) t.isLt)).1 := by
  have hN : t.val < 50 := lt_of_lt_of_eq t.isLt (show cfg4.N = 50 from N_4)
  rw [Dat.before_out_kept _ 5 rfl t (by omega) (Bool.eq_false_iff.mpr fun h => by have := (flush4_5 _).mp h; dsimp only at this; omega)
    (fun _ => rfl) (fun _ _ => rfl)]
  dsimp only [dat4]
/-- At a point of case B output 6's current staging buffer holds what the body left at the point before: the point is not
    a row's first, so the buffer was not written back between. -/
theorem before4_6_B (c : Dev nD) (t : Fin cfg4.N) (h0 : ¬t.val % 25 = 0) (d) :
    (dat4 V c).before 6 t d = (outsAt4 V c (t.val - 1) (Nat.lt_of_le_of_lt (Nat.sub_le _ _) t.isLt)).2 := by
  have hN : t.val < 50 := lt_of_lt_of_eq t.isLt (show cfg4.N = 50 from N_4)
  rw [Dat.before_out_kept _ 6 rfl t (by omega) (Bool.eq_false_iff.mpr fun h => by have := (flush4_6 _).mp h; dsimp only at this; omega)
    (fun _ => rfl) (fun _ _ => rfl)]
  dsimp only [dat4]

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d)))

/-- and what it returns. -/
def bodyPost4 (c : Dev nD) (t : Fin cfg4.N) : sProp 𝕄 :=
  iprop((dat4 V c).Φ t.succ ∗ (dat4 V c).owesAt () t.succ
    ∗ owns (c : Thread nD τ) (ms4_0 t) fullShare ((dat4 V c).after 0 t)
    ∗ owns (c : Thread nD τ) (ms4_1 t) fullShare ((dat4 V c).after 1 t)
    ∗ owns (c : Thread nD τ) (ms4_2 t) fullShare ((dat4 V c).after 2 t)
    ∗ owns (c : Thread nD τ) (ms4_3 t) fullShare ((dat4 V c).after 3 t)
    ∗ owns (c : Thread nD τ) (ms4_4 t) fullShare ((dat4 V c).after 4 t)
    ∗ owns (c : Thread nD τ) (ms4_5 t) fullShare ((dat4 V c).after 5 t)
    ∗ owns (c : Thread nD τ) (ms4_6 t) fullShare ((dat4 V c).after 6 t))

set_option maxHeartbeats 1600000 in
/-- The body at any point: the inputs' memrefs hold their blocks; the closed form says which case the point is in; in
    case B the outputs' memrefs hold what the point before left; so the run applies; the invariant passes through
    unread; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6]
  have hN : t.val < 50 := lt_of_lt_of_eq t.isLt (show cfg4.N = 50 from N_4)
  by_cases h0 : t.val % 25 = 0
  · rw [outsAt4_A V c t h0]
    dsimp only
    unfold out4_A_5 out4_A_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun4_A c (grid4.coords t) _ _ _ _ _ _ _ _ _ _ _ _ _ _ ((hcond4_0 t).mpr h0) (iblk4 V c 0 t) (iblk4 V c 1 t) (iblk4 V c 2 t) (iblk4 V c 3 t) (iblk4 V c 4 t)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover4_A_5 c _ _ _ _ _ _ _ _ _ _ _ _ _ _ _ _ _ _ _ _ _)
    unfold owns; iexists _; isplitr
    swap; · iexact H6
    ipureintro; exact View.read_writes_of_cover _ _ _ _ _ (cover4_A_6 c _ _ _ _ _ _ _ _ _ _ _ _ _ _ _ _ _ _ _ _ _)
  · rw [outsAt4_B V c t h0]
    dsimp only
    simp only [before4_5_B V c t h0, before4_6_B V c t h0]
    unfold out4_B_5 out4_B_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun4_B c (grid4.coords t) _ _ _ _ _ _ _ _ _ _ _ _ _ _ (fun h => h0 ((hcond4_0 t).mp h)) (iblk4 V c 0 t) (iblk4 V c 1 t) (iblk4 V c 2 t) (iblk4 V c 3 t) (iblk4 V c 4 t) _ _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover4_B_5 c _ _ _ _ _ _ _ _ _ _ _ _ _ _ _ _ _ _ _ _ _ _ _)
    unfold owns; iexists _; isplitr
    swap; · iexact H6
    ipureintro; exact View.read_writes_of_cover _ _ _ _ _ (cover4_B_6 c _ _ _ _ _ _ _ _ _ _ _ _ _ _ _ _ _ _ _ _ _ _ _)

/-- The library's body obligation, at every point. -/
theorem body_obligation4 (c : Dev nD) :
    BodyObligation (dat4 (F := F) V c) (defs₀ (F := F)) Variants.none () Set.univ := fun t => by
  rw [bigSep_W4, bigSep_W4]
  exact sound_body4 V c t

end Cert.KernelIdeal.Hand

end
-- ==== Proof.KI.Comb5.lean ====
/- REGION 5 of program KernelIdeal (the combine kernel with addend, 128 columns), at a parameter V: the
   TensorCore's buffer contents when the region is entered. Each window's block at a point, what the body finds in
   every input window's buffer, what its one store leaves in the output window's buffer as a closed function of the
   input blocks, the body's triple, the pipeline's proof data and the body obligation. -/
import proofs.«414290_j6631429505478_3_alg».proof.Proof.Gen.KernelIdeal.Launch
import proofs.«414290_j6631429505478_3_alg».proof.Proof.Gen.KernelIdeal.Skeleton
import proofs.«414290_j6631429505478_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2000 rows: the elaborator's structural look recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region5
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! Every input window's current staging buffer holds its block at every point, fetched there or not, for ANY proof
    data whose array is `V`'s (`hA`) and whose body leaves the block in place (`hafter`). Windows 0, 1, 2 (the three
    row blocks) and 10 (the addend's row block) are fetched at every point; windows 3 … 9 (the whole parameter arrays) at
    the first point only, their block index constant: unfetched, the buffer still holds the previous point's block,
    which is this point's. -/

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)
theorem before5_7_of {c : Dev nD} (dat : Dat τ (Elt F) Unit ℕ (UR sig nD τ) ℕ cfg5 c) (hA : dat.A 7 = V c (Pipeline.arrRef spec5 7))
    (hafter : ∀ t, dat.after 7 t = iblk5 V c 7 t) (t : Fin cfg5.N) (d) : dat.before 7 t d = iblk5 V c 7 t :=
  (dat.before_in_eq_fetched 7 rfl (fun _ => rfl) (fun _ _ _ => rfl) (fun t => by rw [hafter]; unfold Dat.blockOf iblk5; rw [hA]; try rfl) t d).trans
    (by unfold Dat.fetched Dat.blockOf iblk5; rw [hA]; try rfl)
theorem before5_8_of {c : Dev nD} (dat : Dat τ (Elt F) Unit ℕ (UR sig nD τ) ℕ cfg5 c) (hA : dat.A 8 = V c (Pipeline.arrRef spec5 8))
    (hafter : ∀ t, dat.after 8 t = iblk5 V c 8 t) (t : Fin cfg5.N) (d) : dat.before 8 t d = iblk5 V c 8 t :=
  (dat.before_in_eq_fetched 8 rfl (fun _ => rfl) (fun _ _ _ => rfl) (fun t => by rw [hafter]; unfold Dat.blockOf iblk5; rw [hA]; try rfl) t d).trans
    (by unfold Dat.fetched Dat.blockOf iblk5; rw [hA]; try rfl)
theorem before5_9_of {c : Dev nD} (dat : Dat τ (Elt F) Unit ℕ (UR sig nD τ) ℕ cfg5 c) (hA : dat.A 9 = V c (Pipeline.arrRef spec5 9))
    (hafter : ∀ t, dat.after 9 t = iblk5 V c 9 t) (t : Fin cfg5.N) (d) : dat.before 9 t d = iblk5 V c 9 t :=
  (dat.before_in_eq_fetched 9 rfl (fun _ => rfl) (fun _ _ _ => rfl) (fun t => by rw [hafter]; unfold Dat.blockOf iblk5; rw [hA]; try rfl) t d).trans
    (by unfold Dat.fetched Dat.blockOf iblk5; rw [hA]; try rfl)
theorem before5_10_of {c : Dev nD} (dat : Dat τ (Elt F) Unit ℕ (UR sig nD τ) ℕ cfg5 c) (hA : dat.A 10 = V c (Pipeline.arrRef spec5 10))
    (hafter : ∀ t, dat.after 10 t = iblk5 V c 10 t) (t : Fin cfg5.N) (d) : dat.before 10 t d = iblk5 V c 10 t :=
  (dat.before_in_eq_fetched 10 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

/-- a whole row block of 128 columns (windows 0, 1, 2 and the addend's window 10) -/
abbrev r5_0 : Rect S2000x128 := Rect.unit (s := S2000x128) ![0, 0] S2000x128.size inb_S2000x128_S2000x128_0_0
/-- branch 0, 1, 2 of the weight array (window 3) -/
abbrev r5_1 : Rect S3x128x128 := Rect.unit (s := S3x128x128) ![0, 0, 0] S1x128x128.size inb_S3x128x128_S1x128x128_0_0_0
abbrev r5_2 : Rect S3x128x128 := Rect.unit (s := S3x128x128) ![1, 0, 0] S1x128x128.size inb_S3x128x128_S1x128x128_1_0_0
abbrev r5_3 : Rect S3x128x128 := Rect.unit (s := S3x128x128) ![2, 0, 0] S1x128x128.size inb_S3x128x128_S1x128x128_2_0_0
/-- row 0, 1, 2 of a per-branch parameter array (windows 4 … 9) -/
abbrev r5_4 : Rect S3x128 := Rect.unit (s := S3x128) ![0, 0] S1x128.size inb_S3x128_S1x128_0_0
abbrev r5_5 : Rect S3x128 := Rect.unit (s := S3x128) ![1, 0] S1x128.size inb_S3x128_S1x128_1_0
abbrev r5_6 : Rect S3x128 := Rect.unit (s := S3x128) ![2, 0] S1x128.size inb_S3x128_S1x128_2_0
/-- the whole output block (window 11) -/
abbrev r5_7 : Rect S2000x128 := Rect.unit (s := S2000x128) ![0, 0] S2000x128.size inb_S2000x128_S2000x128_0_0

/-! ## What the body leaves in the output window's buffer -/

/-- Window 11's staging buffer after the body, from the input windows' blocks (x0, x1, x2 the three row blocks; x3 the
    weights; x4 bias, x5 gamma, x6 beta, x7 mixing weights, x8 mean, x9 variance; x10 the addend's row block): its one
    store as a piece (Lib/Pipeline/FrameBody.lean `View.canon`; the payloads are the skeleton's, composed as the body's
    three parts hand them on): the accumulated sum plus the addend. -/
def out5_11 (x0 : Vec F S2000x128 .bf16) (x1 : Vec F S2000x128 .bf16) (x2 : Vec F S2000x128 .bf16) (x3 : Vec F S3x128x128 .f32)
    (x4 : Vec F S3x128 .f32) (x5 : Vec F S3x128 .f32) (x6 : Vec F S3x128 .f32) (x7 : Vec F S3x128 .f32) (x8 : Vec F S3x128 .f32)
    (x9 : Vec F S3x128 .f32) (x10 : Vec F S2000x128 .f32) : Vec F S2000x128 .f32 :=
  View.canon [⟨r5_7, k5_pay1
    (k5_pay7
      (k5_pay5 (k5_pay4 (View.ld x0 r5_0) (View.ld x3 r5_1) (View.ld x4 r5_4) (View.ld x8 r5_4) (View.ld x9 r5_4) (View.ld x5 r5_4) (View.ld x6 r5_4))
        (View.ld x7 r5_4))
      (k5_pay6 (k5_pay2 (View.ld x1 r5_0)) (View.ld x3 r5_2) (View.ld x4 r5_5) (View.ld x8 r5_5) (View.ld x9 r5_5) (View.ld x5 r5_5) (View.ld x6 r5_5))
      (View.ld x7 r5_5))
    (k5_pay8 (k5_pay3 (View.ld x2 r5_0)) (View.ld x3 r5_3) (View.ld x4 r5_6) (View.ld x8 r5_6) (View.ld x9 r5_6) (View.ld x5 r5_6) (View.ld x6 r5_6))
    (View.ld x7 r5_6)
    (View.ld x10 r5_0)⟩]

/-- Its store is the whole buffer (checked by evaluation), so it covers it. -/
theorem cover5_11 (p0 : Vec F S2000x128 .f32) (y : S2000x128.Idx) :
    ∃ pc ∈ ([⟨r5_7, p0⟩] : List (View.Piece (Elt F) S2000x128 .f32)), y ∈ pc.1.set :=
  View.cover_of_tiled [⟨r5_7, p0⟩] S2000x128.size (by rfl) y

/-! ## The body's triple -/

set_option maxHeartbeats 4000000 in
/-- The kernel body on whole staging memrefs, the inputs' at read contents `xW` and the output's at anything, runs to
    the continuation holding the inputs' as they were and the output's at `out5_11` of the inputs': the printed functions
    are their skeletons, run through every part call. -/
theorem sound_kernel5 (c : Dev nD) (E : Set ℕ) (i : grid5.Coords)
    (arg1 : Memref sig .tc .vmem S2000x128 .bf16) (harg1 : arg1.IsWhole) (arg2 : Memref sig .tc .vmem S2000x128 .bf16) (harg2 : arg2.IsWhole)
    (arg3 : Memref sig .tc .vmem S2000x128 .bf16) (harg3 : arg3.IsWhole) (arg4 : Memref sig .tc .vmem S3x128x128 .f32) (harg4 : arg4.IsWhole)
    (arg5 : Memref sig .tc .vmem S3x128 .f32) (harg5 : arg5.IsWhole) (arg6 : Memref sig .tc .vmem S3x128 .f32) (harg6 : arg6.IsWhole)
    (arg7 : Memref sig .tc .vmem S3x128 .f32) (harg7 : arg7.IsWhole) (arg8 : Memref sig .tc .vmem S3x128 .f32) (harg8 : arg8.IsWhole)
    (arg9 : Memref sig .tc .vmem S3x128 .f32) (harg9 : arg9.IsWhole) (arg10 : Memref sig .tc .vmem S3x128 .f32) (harg10 : arg10.IsWhole)
    (arg11 : Memref sig .tc .vmem S2000x128 .f32) (harg11 : arg11.IsWhole) (arg12 : Memref sig .tc .vmem S2000x128 .f32) (harg12 : arg12.IsWhole)
    (x0 : Vec F S2000x128 .bf16) (x1 : Vec F S2000x128 .bf16) (x2 : Vec F S2000x128 .bf16) (x3 : Vec F S3x128x128 .f32)
    (x4 : Vec F S3x128 .f32) (x5 : Vec F S3x128 .f32) (x6 : Vec F S3x128 .f32) (x7 : Vec F S3x128 .f32) (x8 : Vec F S3x128 .f32)
    (x9 : Vec F S3x128 .f32) (x10 : Vec F S2000x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare x9 ∗ owns (c : Thread nD τ) arg11 fullShare x10
        ∗ (∃ d, owns (c : Thread nD τ) arg12 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare x9 ∗ owns (c : Thread nD τ) arg11 fullShare x10
            ∗ owns (c : Thread nD τ) arg12 fullShare (out5_11 x0 x1 x2 x3 x4 x5 x6 x7 x8 x9 x10)) -∗ K ⟨⟩))
      ⊢ wp frame (wpE (defs₀ (F := F)) Variants.none c none) E
          (cc5__combine_kernel_add i arg1 harg1 arg2 harg2 arg3 harg3 arg4 harg4 arg5 harg5 arg6 harg6 arg7 harg7 arg8 harg8 arg9 harg9 arg10 harg10 arg11 harg11 arg12 harg12) K := by
  simp only [cc5__combine_kernel_add_eq_skeleton]; unfold cc5__combine_kernel_add_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  exact View.read_writes_eq_canon _ _ _ (cover5_11 _)

/-! ## The pipeline's proof data -/

/-- The proof data of pipeline 5 on core `c`: the arrays as the region finds them (`V`); after the body at
    point `t` each input's buffer at its block and the output's at `out5_11` of the input blocks; the invariant the
    class's (Lib/Pipeline/Frame.lean `ΦA`: the scoped rest and the generator register, untouched); nothing owed;
    full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => iblk5 V c 8 t
    | ⟨9, _⟩ => iblk5 V c 9 t
    | ⟨10, _⟩ => iblk5 V c 10 t
    | ⟨11, _⟩ => out5_11 (iblk5 V c 0 t) (iblk5 V c 1 t) (iblk5 V c 2 t) (iblk5 V c 3 t) (iblk5 V c 4 t) (iblk5 V c 5 t)
        (iblk5 V c 6 t) (iblk5 V c 7 t) (iblk5 V c 8 t) (iblk5 V c 9 t) (iblk5 V c 10 t)
  Φ _ := Pipeline.ΦA spec5 c
  q _ := fullShare
  owed _ := 0

/-- The proof data's arrays are the region-entry contents (the proof data's definition projected, by `dsimp`). -/
theorem A_eq5 (c : Dev nD) (w : Fin cfg5.W) : (dat5 V c).A w = V c (Pipeline.arrRef spec5 w) := by
  dsimp only [dat5]

/-- What the body leaves, window by window (the proof data's `match` reduced by `dsimp`). -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = iblk5 V c 7 t := by dsimp only [dat5]
theorem after5_8 (c : Dev nD) (t : Fin cfg5.N) : (dat5 V c).after 8 t = iblk5 V c 8 t := by dsimp only [dat5]
theorem after5_9 (c : Dev nD) (t : Fin cfg5.N) : (dat5 V c).after 9 t = iblk5 V c 9 t := by dsimp only [dat5]
theorem after5_10 (c : Dev nD) (t : Fin cfg5.N) : (dat5 V c).after 10 t = iblk5 V c 10 t := by dsimp only [dat5]
theorem after5_11 (c : Dev nD) (t : Fin cfg5.N) : (dat5 V c).after 11 t =
    out5_11 (iblk5 V c 0 t) (iblk5 V c 1 t) (iblk5 V c 2 t) (iblk5 V c 3 t) (iblk5 V c 4 t) (iblk5 V c 5 t)
      (iblk5 V c 6 t) (iblk5 V c 7 t) (iblk5 V c 8 t) (iblk5 V c 9 t) (iblk5 V c 10 t) := by dsimp only [dat5]

/-- Each input's current staging buffer holds its block at every point, fetched there or not (`before5_W_of`). -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d
theorem before5_7 (c : Dev nD) (t : Fin cfg5.N) (d) : (dat5 V c).before 7 t d = iblk5 V c 7 t :=
  before5_7_of V (dat5 V c) (A_eq5 V c 7) (after5_7 V c) t d
theorem before5_8 (c : Dev nD) (t : Fin cfg5.N) (d) : (dat5 V c).before 8 t d = iblk5 V c 8 t :=
  before5_8_of V (dat5 V c) (A_eq5 V c 8) (after5_8 V c) t d
theorem before5_9 (c : Dev nD) (t : Fin cfg5.N) (d) : (dat5 V c).before 9 t d = iblk5 V c 9 t :=
  before5_9_of V (dat5 V c) (A_eq5 V c 9) (after5_9 V c) t d
theorem before5_10 (c : Dev nD) (t : Fin cfg5.N) (d) : (dat5 V c).before 10 t d = iblk5 V c 10 t :=
  before5_10_of V (dat5 V c) (A_eq5 V c 10) (after5_10 V c) t d

/-! ## The body obligation, at a generic point -/

/-- What the body is called with at point `t` (Lib/Pipeline.lean `BodyObligation`'s precondition, the windows one by one), -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d))
    ∗ (∃ d, owns (c : Thread nD τ) (st5_8 t) fullShare ((dat5 V c).before 8 t d))
    ∗ (∃ d, owns (c : Thread nD τ) (st5_9 t) fullShare ((dat5 V c).before 9 t d))
    ∗ (∃ d, owns (c : Thread nD τ) (st5_10 t) fullShare ((dat5 V c).before 10 t d))
    ∗ (∃ d, owns (c : Thread nD τ) (st5_11 t) fullShare ((dat5 V c).before 11 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t)
    ∗ owns (c : Thread nD τ) (st5_8 t) fullShare ((dat5 V c).after 8 t)
    ∗ owns (c : Thread nD τ) (st5_9 t) fullShare ((dat5 V c).after 9 t)
    ∗ owns (c : Thread nD τ) (st5_10 t) fullShare ((dat5 V c).after 10 t)
    ∗ owns (c : Thread nD τ) (st5_11 t) fullShare ((dat5 V c).after 11 t))

/-- The body at any point: the inputs' memrefs hold their blocks (`before5_W`), so `sound_kernel5` applies; the invariant and
    the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6, before5_7, before5_8, before5_9, before5_10]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7, after5_8, after5_9, after5_10, after5_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel5 c Set.univ (grid5.coords t) _ _ _ _ _ _ _ _ _ _ _ _ _ _ _ _ _ _ _ _ _ _ _ _
    (iblk5 V c 0 t) (iblk5 V c 1 t) (iblk5 V c 2 t) (iblk5 V c 3 t) (iblk5 V c 4 t) (iblk5 V c 5 t)
    (iblk5 V c 6 t) (iblk5 V c 7 t) (iblk5 V c 8 t) (iblk5 V c 9 t) (iblk5 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation5 (c : Dev nD) : BodyObligation (dat5 (F := F) V c) (defs₀ (F := F)) Variants.none () Set.univ := fun t => by
  rw [bigSep_W5, bigSep_W5]
  exact sound_body5 V c t

end Region5

end Cert.KernelIdeal.Hand

end
-- ==== Proof.KI.Fold.lean ====
import proofs.«414290_j6631429505478_3_alg».proof.Proof.KI.Stats0
import proofs.«414290_j6631429505478_3_alg».proof.Proof.KI.Comb1
import proofs.«414290_j6631429505478_3_alg».proof.Proof.KI.Stats2
import proofs.«414290_j6631429505478_3_alg».proof.Proof.KI.Comb3
import proofs.«414290_j6631429505478_3_alg».proof.Proof.KI.Stats4
import proofs.«414290_j6631429505478_3_alg».proof.Proof.KI.Comb5
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # What the host stretches write

Every operation of a stretch writes one reference, its result; the stretch's written references are listed in order,
and the list is proved to hold every write by one step per operation (the earlier results weakened into the longer list). -/

section Writes

variable {Val : EltTy → Type}

/-- No operation, nothing written. -/
theorem writes_nil :
    ([] : List (HloOp τ sig Val)).Forall fun op => op.writes ⊆ (([] : List (Ref sig .tc)).map (Proc.devRef (τ := τ) .tc)).toFinset :=
  trivial

/-- An operation whose one write is `y`, before a line whose writes are among `W`: the whole line's are among `y :: W`. -/
theorem writes_cons {op : HloOp τ sig Val} {ops : List (HloOp τ sig Val)} {y : Ref sig .tc} {W : List (Ref sig .tc)}
    (h : op.writes = {Proc.devRef .tc y})
    (ht : ops.Forall fun op => op.writes ⊆ (W.map (Proc.devRef (τ := τ) .tc)).toFinset) :
    (op :: ops).Forall fun op => op.writes ⊆ ((y :: W).map (Proc.devRef (τ := τ) .tc)).toFinset := by
  refine (List.forall_cons _ _ _).2 ⟨?_, ?_⟩
  · rw [h, Finset.singleton_subset_iff, List.mem_toFinset]
    exact List.mem_map_of_mem List.mem_cons_self
  · refine List.forall_iff_forall_mem.2 fun o ho b hb => ?_
    have := (List.forall_iff_forall_mem.1 ht) o ho hb
    rw [List.mem_toFinset] at this ⊢
    rw [List.map_cons]
    exact List.mem_cons_of_mem _ this

/-- An operation that allocates nothing, before a line of such. -/
theorem fresh_cons {op : HloOp τ sig Val} {ops : List (HloOp τ sig Val)}
    (h : op.fresh = ∅) (ht : ops.Forall fun op => op.fresh = ∅) : (op :: ops).Forall fun op => op.fresh = ∅ :=
  (List.forall_cons _ _ _).2 ⟨h, ht⟩

end Writes

/-- The references `hostOps0`'s operations write, in order. -/
abbrev hostOps0_W : List (Ref sig .tc) :=
  [main_v0, main_v1, main_v2, main_v3, main_cst, main_v4, main_cst_0, main_v5, main_v6, main_v7, main_cst_1, main_v8, main_v9, main_cst_2, main_v10, main_v11, main_v12, main_v13, main_c, main_v14, main_v15, main_c_3, main_v16, main_v17, main_v18, main_v19, main_v20, main_cst_4, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_v53, main_v54, main_v55, main_v56, main_v57, main_v58, main_v59, main_v60, main_v61, main_v62, main_v63, main_v64, main_v65, main_v66, main_v67, main_v68, main_v69, main_v70, main_v71, main_v72, main_v73, main_v74, main_v75, main_v76, main_v77, main_v78, main_v79, main_v80, main_v81, main_v82, main_v83, main_v84, main_v85, main_v86, main_v87, main_v88, main_v89, main_v90, main_v91, main_v92, main_v93, main_v94, main_v95, main_v96, main_v97, main_v98, main_v99, main_v100, main_v101, main_v102, main_v103, main_v104, main_v105, main_v106, main_v107, main_v108, main_v109, main_v110, main_v111, main_v112, main_v113, main_v114, main_v115, main_v116, main_v117, main_v118, main_v119, main_v120, main_v121, main_v122, main_v123, main_v124, main_v125, main_v126, main_v127, main_v128, main_v129, main_v130, main_v131, main_v132, main_v133, main_v134, main_v135, main_v136, main_v137, main_v138, main_v139, main_v140, main_v141, main_v142, main_v143, main_v144, main_v145, main_v146, main_v147, main_v148, main_v149, main_v150, main_v151, main_v152, main_v153, main_v154, main_v155, main_v156, main_v157, main_v158, main_v159, main_v160, main_v161, main_v162, main_v163, main_v164, main_v165, main_v166, main_v167, main_v168, main_v169, main_v170]
/-- No operation of `hostOps0` allocates a buffer. -/
theorem hostOps0_fresh : (hostOps0 : List (HloOp τ sig (Elt F))).Forall fun op => op.fresh = ∅ := by
  iterate 178 refine fresh_cons rfl ?_
  exact trivial
/-- Every write of `hostOps0` is at a reference of `hostOps0_W`. -/
theorem hostOps0_writes : (hostOps0 : List (HloOp τ sig (Elt F))).Forall fun op => op.writes ⊆ (hostOps0_W.map (Proc.devRef (τ := τ) .tc)).toFinset := by
  iterate 178 refine writes_cons rfl ?_
  exact writes_nil

/-- The references `hostOps1`'s operations write, in order. -/
abbrev hostOps1_W : List (Ref sig .tc) :=
  [main_cst_5, main_v172, main_cst_6, main_v173, main_cst_7, main_v174, main_v175, main_cst_8, main_v176, main_v177, main_v178, main_v179, main_cst_9, main_v180, main_v181]
/-- No operation of `hostOps1` allocates a buffer. -/
theorem hostOps1_fresh : (hostOps1 : List (HloOp τ sig (Elt F))).Forall fun op => op.fresh = ∅ := by
  iterate 15 refine fresh_cons rfl ?_
  exact trivial
/-- Every write of `hostOps1` is at a reference of `hostOps1_W`. -/
theorem hostOps1_writes : (hostOps1 : List (HloOp τ sig (Elt F))).Forall fun op => op.writes ⊆ (hostOps1_W.map (Proc.devRef (τ := τ) .tc)).toFinset := by
  iterate 15 refine writes_cons rfl ?_
  exact writes_nil

/-- The references `hostOps2`'s operations write, in order. -/
abbrev hostOps2_W : List (Ref sig .tc) :=
  [main_v183, main_c_10, main_v184, main_v185, main_c_11, main_v186, main_v187, main_v188, main_v189, main_v190, main_cst_12, main_v191, main_v192, main_v193, main_v194, main_v195, main_v196, main_v197, main_v198, main_v199, main_v200, main_v201, main_v202, main_v203, main_v204, main_v205, main_v206, main_v207, main_v208, main_v209, main_v210, main_v211, main_v212, main_v213, main_v214, main_v215, main_v216, main_v217, main_v218, main_v219, main_v220, main_v221, main_v222, main_v223, main_v224, main_v225, main_v226, main_v227, main_v228, main_v229, main_v230, main_v231, main_v232, main_v233, main_v234, main_v235, main_v236, main_v237, main_v238, main_v239, main_v240, main_v241, main_v242, main_v243, main_v244, main_v245, main_v246, main_v247, main_v248, main_v249, main_v250, main_v251, main_v252, main_v253, main_v254, main_v255, main_v256, main_v257, main_v258, main_v259, main_v260, main_v261, main_v262, main_v263, main_v264, main_v265, main_v266, main_v267, main_v268, main_v269, main_v270, main_v271, main_v272, main_v273, main_v274, main_v275, main_v276, main_v277, main_v278, main_v279, main_v280, main_v281, main_v282, main_v283, main_v284, main_v285, main_v286, main_v287, main_v288, main_v289, main_v290, main_v291, main_v292, main_v293, main_v294, main_v295, main_v296, main_v297, main_v298, main_v299, main_v300, main_v301, main_v302, main_v303, main_v304, main_v305]
/-- No operation of `hostOps2` allocates a buffer. -/
theorem hostOps2_fresh : (hostOps2 : List (HloOp τ sig (Elt F))).Forall fun op => op.fresh = ∅ := by
  iterate 126 refine fresh_cons rfl ?_
  exact trivial
/-- Every write of `hostOps2` is at a reference of `hostOps2_W`. -/
theorem hostOps2_writes : (hostOps2 : List (HloOp τ sig (Elt F))).Forall fun op => op.writes ⊆ (hostOps2_W.map (Proc.devRef (τ := τ) .tc)).toFinset := by
  iterate 126 refine writes_cons rfl ?_
  exact writes_nil

/-- The references `hostOps3`'s operations write, in order. -/
abbrev hostOps3_W : List (Ref sig .tc) :=
  [main_cst_13, main_v307, main_cst_14, main_v308, main_cst_15, main_v309, main_v310, main_cst_16, main_v311, main_v312, main_v313, main_v314, main_cst_17, main_v315, main_v316]
/-- No operation of `hostOps3` allocates a buffer. -/
theorem hostOps3_fresh : (hostOps3 : List (HloOp τ sig (Elt F))).Forall fun op => op.fresh = ∅ := by
  iterate 15 refine fresh_cons rfl ?_
  exact trivial
/-- Every write of `hostOps3` is at a reference of `hostOps3_W`. -/
theorem hostOps3_writes : (hostOps3 : List (HloOp τ sig (Elt F))).Forall fun op => op.writes ⊆ (hostOps3_W.map (Proc.devRef (τ := τ) .tc)).toFinset := by
  iterate 15 refine writes_cons rfl ?_
  exact writes_nil

/-- The references `hostOps4`'s operations write, in order. -/
abbrev hostOps4_W : List (Ref sig .tc) :=
  [main_v318, main_v319, main_v320, main_v321, main_c_18, main_v322, main_v323, main_c_19, main_v324, main_v325, main_v326, main_v327, main_v328, main_cst_20, main_v329, main_v330, main_v331, main_v332, main_v333, main_v334, main_v335, main_v336, main_v337, main_v338, main_v339, main_v340, main_v341, main_v342, main_v343, main_v344, main_v345, main_v346, main_v347, main_v348, main_v349, main_v350, main_v351, main_v352, main_v353, main_v354, main_v355, main_v356, main_v357, main_v358, main_v359, main_v360, main_v361, main_v362, main_v363, main_v364, main_v365, main_v366, main_v367, main_v368, main_v369, main_v370, main_v371, main_v372, main_v373, main_v374, main_v375, main_v376, main_v377, main_v378, main_v379, main_v380, main_v381, main_v382, main_v383, main_v384, main_v385, main_v386, main_v387, main_v388, main_v389, main_v390, main_v391]
/-- No operation of `hostOps4` allocates a buffer. -/
theorem hostOps4_fresh : (hostOps4 : List (HloOp τ sig (Elt F))).Forall fun op => op.fresh = ∅ := by
  iterate 77 refine fresh_cons rfl ?_
  exact trivial
/-- Every write of `hostOps4` is at a reference of `hostOps4_W`. -/
theorem hostOps4_writes : (hostOps4 : List (HloOp τ sig (Elt F))).Forall fun op => op.writes ⊆ (hostOps4_W.map (Proc.devRef (τ := τ) .tc)).toFinset := by
  iterate 77 refine writes_cons rfl ?_
  exact writes_nil

/-- The references `hostOps5`'s operations write, in order. -/
abbrev hostOps5_W : List (Ref sig .tc) :=
  [main_cst_21, main_v393, main_cst_22, main_v394, main_cst_23, main_v395, main_v396, main_cst_24, main_v397, main_v398, main_v399, main_v400, main_cst_25, main_v401, main_v402]
/-- No operation of `hostOps5` allocates a buffer. -/
theorem hostOps5_fresh : (hostOps5 : List (HloOp τ sig (Elt F))).Forall fun op => op.fresh = ∅ := by
  iterate 15 refine fresh_cons rfl ?_
  exact trivial
/-- Every write of `hostOps5` is at a reference of `hostOps5_W`. -/
theorem hostOps5_writes : (hostOps5 : List (HloOp τ sig (Elt F))).Forall fun op => op.writes ⊆ (hostOps5_W.map (Proc.devRef (τ := τ) .tc)).toFinset := by
  iterate 15 refine writes_cons rfl ?_
  exact writes_nil

/-- The references `hostOps6`'s operations write, in order. -/
abbrev hostOps6_W : List (Ref sig .tc) :=
  [main_v404, main_v405, main_v406, main_v407]
/-- No operation of `hostOps6` allocates a buffer. -/
theorem hostOps6_fresh : (hostOps6 : List (HloOp τ sig (Elt F))).Forall fun op => op.fresh = ∅ := by
  iterate 4 refine fresh_cons rfl ?_
  exact trivial
/-- Every write of `hostOps6` is at a reference of `hostOps6_W`. -/
theorem hostOps6_writes : (hostOps6 : List (HloOp τ sig (Elt F))).Forall fun op => op.writes ⊆ (hostOps6_W.map (Proc.devRef (τ := τ) .tc)).toFinset := by
  iterate 4 refine writes_cons rfl ?_
  exact writes_nil

variable (m : (ℓ : Loc nD τ sig) → Buf (Elt F) ℓ) (ρ : Dev nD → PrngReg)

/-! # The buffer contents at each boundary between @main's 13 items: a fold from the launch memory

Item 2J is the host stretch `hostOpsJ` (J = 0..6), item 2K+1 the kernel region K (K = 0..5). `W j` is core `c`'s buffers
before item `j` (`W13` after the last); `V j` the same read at the TensorCore's references. The folds are sealed
(`W j_eq` opens one): a stretch is up to 178 operations long, and nothing below needs to look inside one. -/

/-- Core `c`'s buffers at launch. -/
abbrev W0 : Dev nD → Valuation τ sig (Elt F) := fun c b => (s₀ m ρ).mem ((c : Dev nD), b)

/-- After `hostOps0` (region 0's entry). -/
def W1 : Dev nD → Valuation τ sig (Elt F) := fun c => StableHlo.after hostOps0 (W0 m ρ c)
theorem W1_eq (c : Dev nD) : W1 m ρ c = StableHlo.after hostOps0 (W0 m ρ c) := rfl
attribute [irreducible] W1
/-- The same read at the TensorCore's references (what region 0's proof data take). -/
abbrev V1 : (c : Dev nD) → (b : Ref sig .tc) → Buf (Elt F) ((c : Thread nD τ).loc b) := fun c b => W1 m ρ c b
/-- A reference `hostOps0` does not write holds after it what it held before. -/
theorem W1_of_nw (c : Dev nD) (r : Ref sig .tc) (h : r ∉ hostOps0_W) :
    W1 m ρ c (Proc.devRef .tc r) = W0 m ρ c (Proc.devRef .tc r) := by
  rw [W1_eq]; exact StableHlo.after_of_writes_sub hostOps0 _ hostOps0_writes h
/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_eq (c : Dev nD) :
    W2 m ρ c = Pipeline.withArrays spec0 c (W1 m ρ c) fun w => (dat0 (V1 m ρ) c).arrAt w cfg0.N := rfl
attribute [irreducible] W2
theorem W2_arr (c : Dev nD) (w : Fin cfg0.W) :
    W2 m ρ c (Proc.devRef .tc (Pipeline.arrRef spec0 w)) = (dat0 (V1 m ρ) c).arrAt w cfg0.N := by
  rw [W2_eq]; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  rw [W2_eq]; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves, and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
def W3 : Dev nD → Valuation τ sig (Elt F) := fun c => StableHlo.after hostOps1 (W2 m ρ c)
theorem W3_eq (c : Dev nD) : W3 m ρ c = StableHlo.after hostOps1 (W2 m ρ c) := rfl
attribute [irreducible] W3
/-- The same read at the TensorCore's references (what region 1's proof data take). -/
abbrev V3 : (c : Dev nD) → (b : Ref sig .tc) → Buf (Elt F) ((c : Thread nD τ).loc b) := fun c b => W3 m ρ c b
/-- A reference `hostOps1` does not write holds after it what it held before. -/
theorem W3_of_nw (c : Dev nD) (r : Ref sig .tc) (h : r ∉ hostOps1_W) :
    W3 m ρ c (Proc.devRef .tc r) = W2 m ρ c (Proc.devRef .tc r) := by
  rw [W3_eq]; exact StableHlo.after_of_writes_sub hostOps1 _ hostOps1_writes h
/-- At region 1's exit: its arrays at what the pipeline leaves (the inputs as entered, each output's write-backs
    folded), every other buffer as entered. -/
def W4 (c : Dev nD) : Valuation τ sig (Elt F) :=
  Pipeline.withArrays spec1 c (W3 m ρ c) fun w => (dat1 (V3 m ρ) c).arrAt w cfg1.N
theorem W4_eq (c : Dev nD) :
    W4 m ρ c = Pipeline.withArrays spec1 c (W3 m ρ c) fun w => (dat1 (V3 m ρ) c).arrAt w cfg1.N := rfl
attribute [irreducible] W4
theorem W4_arr (c : Dev nD) (w : Fin cfg1.W) :
    W4 m ρ c (Proc.devRef .tc (Pipeline.arrRef spec1 w)) = (dat1 (V3 m ρ) c).arrAt w cfg1.N := by
  rw [W4_eq]; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  rw [W4_eq]; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves, and every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2` (region 2's entry). -/
def W5 : Dev nD → Valuation τ sig (Elt F) := fun c => StableHlo.after hostOps2 (W4 m ρ c)
theorem W5_eq (c : Dev nD) : W5 m ρ c = StableHlo.after hostOps2 (W4 m ρ c) := rfl
attribute [irreducible] W5
/-- The same read at the TensorCore's references (what region 2's proof data take). -/
abbrev V5 : (c : Dev nD) → (b : Ref sig .tc) → Buf (Elt F) ((c : Thread nD τ).loc b) := fun c b => W5 m ρ c b
/-- A reference `hostOps2` does not write holds after it what it held before. -/
theorem W5_of_nw (c : Dev nD) (r : Ref sig .tc) (h : r ∉ hostOps2_W) :
    W5 m ρ c (Proc.devRef .tc r) = W4 m ρ c (Proc.devRef .tc r) := by
  rw [W5_eq]; exact StableHlo.after_of_writes_sub hostOps2 _ hostOps2_writes h
/-- At region 2's exit: its arrays at what the pipeline leaves (the inputs as entered, each output's write-backs
    folded), every other buffer as entered. -/
def W6 (c : Dev nD) : Valuation τ sig (Elt F) :=
  Pipeline.withArrays spec2 c (W5 m ρ c) fun w => (dat2 (V5 m ρ) c).arrAt w cfg2.N
theorem W6_eq (c : Dev nD) :
    W6 m ρ c = Pipeline.withArrays spec2 c (W5 m ρ c) fun w => (dat2 (V5 m ρ) c).arrAt w cfg2.N := rfl
attribute [irreducible] W6
theorem W6_arr (c : Dev nD) (w : Fin cfg2.W) :
    W6 m ρ c (Proc.devRef .tc (Pipeline.arrRef spec2 w)) = (dat2 (V5 m ρ) c).arrAt w cfg2.N := by
  rw [W6_eq]; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  rw [W6_eq]; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves, and every other buffer what it held at entry. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After `hostOps3` (region 3's entry). -/
def W7 : Dev nD → Valuation τ sig (Elt F) := fun c => StableHlo.after hostOps3 (W6 m ρ c)
theorem W7_eq (c : Dev nD) : W7 m ρ c = StableHlo.after hostOps3 (W6 m ρ c) := rfl
attribute [irreducible] W7
/-- The same read at the TensorCore's references (what region 3's proof data take). -/
abbrev V7 : (c : Dev nD) → (b : Ref sig .tc) → Buf (Elt F) ((c : Thread nD τ).loc b) := fun c b => W7 m ρ c b
/-- A reference `hostOps3` does not write holds after it what it held before. -/
theorem W7_of_nw (c : Dev nD) (r : Ref sig .tc) (h : r ∉ hostOps3_W) :
    W7 m ρ c (Proc.devRef .tc r) = W6 m ρ c (Proc.devRef .tc r) := by
  rw [W7_eq]; exact StableHlo.after_of_writes_sub hostOps3 _ hostOps3_writes h
/-- At region 3's exit: its arrays at what the pipeline leaves (the inputs as entered, each output's write-backs
    folded), every other buffer as entered. -/
def W8 (c : Dev nD) : Valuation τ sig (Elt F) :=
  Pipeline.withArrays spec3 c (W7 m ρ c) fun w => (dat3 (V7 m ρ) c).arrAt w cfg3.N
theorem W8_eq (c : Dev nD) :
    W8 m ρ c = Pipeline.withArrays spec3 c (W7 m ρ c) fun w => (dat3 (V7 m ρ) c).arrAt w cfg3.N := rfl
attribute [irreducible] W8
theorem W8_arr (c : Dev nD) (w : Fin cfg3.W) :
    W8 m ρ c (Proc.devRef .tc (Pipeline.arrRef spec3 w)) = (dat3 (V7 m ρ) c).arrAt w cfg3.N := by
  rw [W8_eq]; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  rw [W8_eq]; exact Pipeline.withArrays_of_ne spec3 c _ _ b hb
/-- The same read at the TensorCore's references (region 3's exit contents). -/
abbrev V8 : (c : Dev nD) → (b : Ref sig .tc) → Buf (Elt F) ((c : Thread nD τ).loc b) := fun c b => W8 m ρ c b
/-- At region 3's exit each of its arrays holds what the pipeline leaves, and every other buffer what it held at entry. -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After `hostOps4` (region 4's entry). -/
def W9 : Dev nD → Valuation τ sig (Elt F) := fun c => StableHlo.after hostOps4 (W8 m ρ c)
theorem W9_eq (c : Dev nD) : W9 m ρ c = StableHlo.after hostOps4 (W8 m ρ c) := rfl
attribute [irreducible] W9
/-- The same read at the TensorCore's references (what region 4's proof data take). -/
abbrev V9 : (c : Dev nD) → (b : Ref sig .tc) → Buf (Elt F) ((c : Thread nD τ).loc b) := fun c b => W9 m ρ c b
/-- A reference `hostOps4` does not write holds after it what it held before. -/
theorem W9_of_nw (c : Dev nD) (r : Ref sig .tc) (h : r ∉ hostOps4_W) :
    W9 m ρ c (Proc.devRef .tc r) = W8 m ρ c (Proc.devRef .tc r) := by
  rw [W9_eq]; exact StableHlo.after_of_writes_sub hostOps4 _ hostOps4_writes h
/-- At region 4's exit: its arrays at what the pipeline leaves (the inputs as entered, each output's write-backs
    folded), every other buffer as entered. -/
def W10 (c : Dev nD) : Valuation τ sig (Elt F) :=
  Pipeline.withArrays spec4 c (W9 m ρ c) fun w => (dat4 (V9 m ρ) c).arrAt w cfg4.N
theorem W10_eq (c : Dev nD) :
    W10 m ρ c = Pipeline.withArrays spec4 c (W9 m ρ c) fun w => (dat4 (V9 m ρ) c).arrAt w cfg4.N := rfl
attribute [irreducible] W10
theorem W10_arr (c : Dev nD) (w : Fin cfg4.W) :
    W10 m ρ c (Proc.devRef .tc (Pipeline.arrRef spec4 w)) = (dat4 (V9 m ρ) c).arrAt w cfg4.N := by
  rw [W10_eq]; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  rw [W10_eq]; exact Pipeline.withArrays_of_ne spec4 c _ _ b hb
/-- The same read at the TensorCore's references (region 4's exit contents). -/
abbrev V10 : (c : Dev nD) → (b : Ref sig .tc) → Buf (Elt F) ((c : Thread nD τ).loc b) := fun c b => W10 m ρ c b
/-- At region 4's exit each of its arrays holds what the pipeline leaves, and every other buffer what it held at entry. -/
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-- After `hostOps5` (region 5's entry). -/
def W11 : Dev nD → Valuation τ sig (Elt F) := fun c => StableHlo.after hostOps5 (W10 m ρ c)
theorem W11_eq (c : Dev nD) : W11 m ρ c = StableHlo.after hostOps5 (W10 m ρ c) := rfl
attribute [irreducible] W11
/-- The same read at the TensorCore's references (what region 5's proof data take). -/
abbrev V11 : (c : Dev nD) → (b : Ref sig .tc) → Buf (Elt F) ((c : Thread nD τ).loc b) := fun c b => W11 m ρ c b
/-- A reference `hostOps5` does not write holds after it what it held before. -/
theorem W11_of_nw (c : Dev nD) (r : Ref sig .tc) (h : r ∉ hostOps5_W) :
    W11 m ρ c (Proc.devRef .tc r) = W10 m ρ c (Proc.devRef .tc r) := by
  rw [W11_eq]; exact StableHlo.after_of_writes_sub hostOps5 _ hostOps5_writes h
/-- At region 5's exit: its arrays at what the pipeline leaves (the inputs as entered, each output's write-backs
    folded), every other buffer as entered. -/
def W12 (c : Dev nD) : Valuation τ sig (Elt F) :=
  Pipeline.withArrays spec5 c (W11 m ρ c) fun w => (dat5 (V11 m ρ) c).arrAt w cfg5.N
theorem W12_eq (c : Dev nD) :
    W12 m ρ c = Pipeline.withArrays spec5 c (W11 m ρ c) fun w => (dat5 (V11 m ρ) c).arrAt w cfg5.N := rfl
attribute [irreducible] W12
theorem W12_arr (c : Dev nD) (w : Fin cfg5.W) :
    W12 m ρ c (Proc.devRef .tc (Pipeline.arrRef spec5 w)) = (dat5 (V11 m ρ) c).arrAt w cfg5.N := by
  rw [W12_eq]; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  rw [W12_eq]; exact Pipeline.withArrays_of_ne spec5 c _ _ b hb
/-- The same read at the TensorCore's references (region 5's exit contents). -/
abbrev V12 : (c : Dev nD) → (b : Ref sig .tc) → Buf (Elt F) ((c : Thread nD τ).loc b) := fun c b => W12 m ρ c b
/-- At region 5's exit each of its arrays holds what the pipeline leaves, and every other buffer what it held at entry. -/
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)

/-- After `hostOps6`: the contents @main returns with. -/
def W13 : Dev nD → Valuation τ sig (Elt F) := fun c => StableHlo.after hostOps6 (W12 m ρ c)
theorem W13_eq (c : Dev nD) : W13 m ρ c = StableHlo.after hostOps6 (W12 m ρ c) := rfl
attribute [irreducible] W13
/-- A reference `hostOps6` does not write holds after it what it held before. -/
theorem W13_of_nw (c : Dev nD) (r : Ref sig .tc) (h : r ∉ hostOps6_W) :
    W13 m ρ c (Proc.devRef .tc r) = W12 m ρ c (Proc.devRef .tc r) := by
  rw [W13_eq]; exact StableHlo.after_of_writes_sub hostOps6 _ hostOps6_writes h

/-! ### The arguments end as launched: no host operation writes one and no region has one among its arrays -/

/-- A reference no item touches holds at the end what the launch memory holds. -/
theorem W13_of_untouched (c : Dev nD) (r : Ref sig .tc)
    (h0 : r ∉ hostOps0_W) (k0 : ∀ w, Pipeline.arrRef spec0 w ≠ r)
    (h1 : r ∉ hostOps1_W) (k1 : ∀ w, Pipeline.arrRef spec1 w ≠ r)
    (h2 : r ∉ hostOps2_W) (k2 : ∀ w, Pipeline.arrRef spec2 w ≠ r)
    (h3 : r ∉ hostOps3_W) (k3 : ∀ w, Pipeline.arrRef spec3 w ≠ r)
    (h4 : r ∉ hostOps4_W) (k4 : ∀ w, Pipeline.arrRef spec4 w ≠ r)
    (h5 : r ∉ hostOps5_W) (k5 : ∀ w, Pipeline.arrRef spec5 w ≠ r)
    (h6 : r ∉ hostOps6_W) :
    W13 m ρ c (Proc.devRef .tc r) = m ((c : Thread nD τ).loc r) :=
  calc W13 m ρ c (Proc.devRef .tc r)
    _ = W12 m ρ c (Proc.devRef .tc r) := W13_of_nw m ρ c r h6
    _ = W11 m ρ c (Proc.devRef .tc r) := W12_of_ne m ρ c r k5
    _ = W10 m ρ c (Proc.devRef .tc r) := W11_of_nw m ρ c r h5
    _ = W9 m ρ c (Proc.devRef .tc r) := W10_of_ne m ρ c r k4
    _ = W8 m ρ c (Proc.devRef .tc r) := W9_of_nw m ρ c r h4
    _ = W7 m ρ c (Proc.devRef .tc r) := W8_of_ne m ρ c r k3
    _ = W6 m ρ c (Proc.devRef .tc r) := W7_of_nw m ρ c r h3
    _ = W5 m ρ c (Proc.devRef .tc r) := W6_of_ne m ρ c r k2
    _ = W4 m ρ c (Proc.devRef .tc r) := W5_of_nw m ρ c r h2
    _ = W3 m ρ c (Proc.devRef .tc r) := W4_of_ne m ρ c r k1
    _ = W2 m ρ c (Proc.devRef .tc r) := W3_of_nw m ρ c r h1
    _ = W1 m ρ c (Proc.devRef .tc r) := W2_of_ne m ρ c r k0
    _ = W0 m ρ c (Proc.devRef .tc r) := W1_of_nw m ρ c r h0
    _ = m ((c : Thread nD τ).loc r) := rfl

theorem W13_main_arg0 (c : Dev nD) : W13 m ρ c (Proc.devRef .tc main_arg0) = m ((c : Thread nD τ).loc main_arg0) :=
  W13_of_untouched m ρ c main_arg0 (by decide) (by decide) (by decide) (by decide) (by decide) (by decide) (by decide)
    (by decide) (by decide) (by decide) (by decide) (by decide) (by decide)

theorem W13_main_arg1 (c : Dev nD) : W13 m ρ c (Proc.devRef .tc main_arg1) = m ((c : Thread nD τ).loc main_arg1) :=
  W13_of_untouched m ρ c main_arg1 (by decide) (by decide) (by decide) (by decide) (by decide) (by decide) (by decide)
    (by decide) (by decide) (by decide) (by decide) (by decide) (by decide)

theorem W13_main_arg2 (c : Dev nD) : W13 m ρ c (Proc.devRef .tc main_arg2) = m ((c : Thread nD τ).loc main_arg2) :=
  W13_of_untouched m ρ c main_arg2 (by decide) (by decide) (by decide) (by decide) (by decide) (by decide) (by decide)
    (by decide) (by decide) (by decide) (by decide) (by decide) (by decide)

theorem W13_main_arg3 (c : Dev nD) : W13 m ρ c (Proc.devRef .tc main_arg3) = m ((c : Thread nD τ).loc main_arg3) :=
  W13_of_untouched m ρ c main_arg3 (by decide) (by decide) (by decide) (by decide) (by decide) (by decide) (by decide)
    (by decide) (by decide) (by decide) (by decide) (by decide) (by decide)

theorem W13_main_arg4 (c : Dev nD) : W13 m ρ c (Proc.devRef .tc main_arg4) = m ((c : Thread nD τ).loc main_arg4) :=
  W13_of_untouched m ρ c main_arg4 (by decide) (by decide) (by decide) (by decide) (by decide) (by decide) (by decide)
    (by decide) (by decide) (by decide) (by decide) (by decide) (by decide)

theorem W13_main_arg5 (c : Dev nD) : W13 m ρ c (Proc.devRef .tc main_arg5) = m ((c : Thread nD τ).loc main_arg5) :=
  W13_of_untouched m ρ c main_arg5 (by decide) (by decide) (by decide) (by decide) (by decide) (by decide) (by decide)
    (by decide) (by decide) (by decide) (by decide) (by decide) (by decide)

theorem W13_main_arg6 (c : Dev nD) : W13 m ρ c (Proc.devRef .tc main_arg6) = m ((c : Thread nD τ).loc main_arg6) :=
  W13_of_untouched m ρ c main_arg6 (by decide) (by decide) (by decide) (by decide) (by decide) (by decide) (by decide)
    (by decide) (by decide) (by decide) (by decide) (by decide) (by decide)

theorem W13_main_arg7 (c : Dev nD) : W13 m ρ c (Proc.devRef .tc main_arg7) = m ((c : Thread nD τ).loc main_arg7) :=
  W13_of_untouched m ρ c main_arg7 (by decide) (by decide) (by decide) (by decide) (by decide) (by decide) (by decide)
    (by decide) (by decide) (by decide) (by decide) (by decide) (by decide)

/-! # The proof data family and the thread state -/

/-- The prefetched tables' admissible contents: no pipeline has a table. -/
abbrev adm : (p : Fin 6) → (pcfgs (F := F) p).Adm := fun p => (cfgs p).toPCfg_adm
/-- Every pipeline's proof data, each at its region's entry contents — a literal `match`, so that
    `Pipeline.pin pcfgs adm p` at a numeral reduces to the printed configuration. -/
def pdats : (p : Fin 6) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W13`, the generator
    register at some state. -/
abbrev Tₙ (c : Dev nD) : sProp 𝕄 := iprop(StableHlo.held (c : Thread nD τ) (Pipeline.ucRefs τ sig) (W13 m ρ c) ∗ ∃ r, prngReg c r)

/-! ### A stretch's segment ends where the next item begins: its `after` is the next boundary's contents by definition -/

theorem chain_host0 (c : Dev nD) :
    (iprop(StableHlo.held (c : Thread nD τ) (Pipeline.ucRefs τ sig) (StableHlo.after hostOps0 (W0 m ρ c)) ∗ R c) : sProp 𝕄)
      ⊢ iprop(StableHlo.held (c : Thread nD τ) (Pipeline.ucRefs τ sig) (W1 m ρ c) ∗ R c) :=
  Entails.of_eq (by rw [W1_eq])

theorem chain_host1 (c : Dev nD) :
    (iprop(StableHlo.held (c : Thread nD τ) (Pipeline.ucRefs τ sig) (StableHlo.after hostOps1 (W2 m ρ c)) ∗ R c) : sProp 𝕄)
      ⊢ iprop(StableHlo.held (c : Thread nD τ) (Pipeline.ucRefs τ sig) (W3 m ρ c) ∗ R c) :=
  Entails.of_eq (by rw [W3_eq])

theorem chain_host2 (c : Dev nD) :
    (iprop(StableHlo.held (c : Thread nD τ) (Pipeline.ucRefs τ sig) (StableHlo.after hostOps2 (W4 m ρ c)) ∗ R c) : sProp 𝕄)
      ⊢ iprop(StableHlo.held (c : Thread nD τ) (Pipeline.ucRefs τ sig) (W5 m ρ c) ∗ R c) :=
  Entails.of_eq (by rw [W5_eq])

theorem chain_host3 (c : Dev nD) :
    (iprop(StableHlo.held (c : Thread nD τ) (Pipeline.ucRefs τ sig) (StableHlo.after hostOps3 (W6 m ρ c)) ∗ R c) : sProp 𝕄)
      ⊢ iprop(StableHlo.held (c : Thread nD τ) (Pipeline.ucRefs τ sig) (W7 m ρ c) ∗ R c) :=
  Entails.of_eq (by rw [W7_eq])

theorem chain_host4 (c : Dev nD) :
    (iprop(StableHlo.held (c : Thread nD τ) (Pipeline.ucRefs τ sig) (StableHlo.after hostOps4 (W8 m ρ c)) ∗ R c) : sProp 𝕄)
      ⊢ iprop(StableHlo.held (c : Thread nD τ) (Pipeline.ucRefs τ sig) (W9 m ρ c) ∗ R c) :=
  Entails.of_eq (by rw [W9_eq])

theorem chain_host5 (c : Dev nD) :
    (iprop(StableHlo.held (c : Thread nD τ) (Pipeline.ucRefs τ sig) (StableHlo.after hostOps5 (W10 m ρ c)) ∗ R c) : sProp 𝕄)
      ⊢ iprop(StableHlo.held (c : Thread nD τ) (Pipeline.ucRefs τ sig) (W11 m ρ c) ∗ R c) :=
  Entails.of_eq (by rw [W11_eq])

theorem chain_host6 (c : Dev nD) :
    (iprop(StableHlo.held (c : Thread nD τ) (Pipeline.ucRefs τ sig) (StableHlo.after hostOps6 (W12 m ρ c)) ∗ R c) : sProp 𝕄)
      ⊢ iprop(StableHlo.held (c : Thread nD τ) (Pipeline.ucRefs τ sig) (W13 m ρ c) ∗ R c) :=
  Entails.of_eq (by rw [W13_eq])

end Cert.KernelIdeal.Hand

end
-- ==== Proof.KI.Reg0.lean ====
import proofs.«414290_j6631429505478_3_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over `pin pcs a p` unifies with the pinned configuration only when unification may
-- unfold plain definitions in a metavariable's type
set_option backward.isDefEq.respectTransparency.types false in
/-- REGION 0 (custom_call 0) over the thread state: entered from every unscoped buffer at `W1`, left at `W2`.
    Its arrays split out of the unscoped buffers and put back at the exit contents; the generator register into the
    class invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg1.lean ====
import proofs.«414290_j6631429505478_3_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over `pin pcs a p` unifies with the pinned configuration only when unification may
-- unfold plain definitions in a metavariable's type
set_option backward.isDefEq.respectTransparency.types false in
/-- REGION 1 (custom_call 1) over the thread state: entered from every unscoped buffer at `W3`, left at `W4`.
    Its arrays split out of the unscoped buffers and put back at the exit contents; the generator register into the
    class invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg2.lean ====
import proofs.«414290_j6631429505478_3_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over `pin pcs a p` unifies with the pinned configuration only when unification may
-- unfold plain definitions in a metavariable's type
set_option backward.isDefEq.respectTransparency.types false in
/-- REGION 2 (custom_call 2) over the thread state: entered from every unscoped buffer at `W5`, left at `W6`.
    Its arrays split out of the unscoped buffers and put back at the exit contents; the generator register into the
    class invariant and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg3.lean ====
import proofs.«414290_j6631429505478_3_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over `pin pcs a p` unifies with the pinned configuration only when unification may
-- unfold plain definitions in a metavariable's type
set_option backward.isDefEq.respectTransparency.types false in
/-- REGION 3 (custom_call 3) over the thread state: entered from every unscoped buffer at `W7`, left at `W8`.
    Its arrays split out of the unscoped buffers and put back at the exit contents; the generator register into the
    class invariant and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg4.lean ====
import proofs.«414290_j6631429505478_3_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over `pin pcs a p` unifies with the pinned configuration only when unification may
-- unfold plain definitions in a metavariable's type
set_option backward.isDefEq.respectTransparency.types false in
/-- REGION 4 (custom_call 4) over the thread state: entered from every unscoped buffer at `W9`, left at `W10`.
    Its arrays split out of the unscoped buffers and put back at the exit contents; the generator register into the
    class invariant and out; nothing owed; no semaphore of the kernel's own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg5.lean ====
import proofs.«414290_j6631429505478_3_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over `pin pcs a p` unifies with the pinned configuration only when unification may
-- unfold plain definitions in a metavariable's type
set_option backward.isDefEq.respectTransparency.types false in
/-- REGION 5 (custom_call 5) over the thread state: entered from every unscoped buffer at `W11`, left at `W12`.
    Its arrays split out of the unscoped buffers and put back at the exit contents; the generator register into the
    class invariant and out; nothing owed; no semaphore of the kernel's own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Run.lean ====
import proofs.«414290_j6631429505478_3_alg».proof.Proof.KI.Reg0
import proofs.«414290_j6631429505478_3_alg».proof.Proof.KI.Reg1
import proofs.«414290_j6631429505478_3_alg».proof.Proof.KI.Reg2
import proofs.«414290_j6631429505478_3_alg».proof.Proof.KI.Reg3
import proofs.«414290_j6631429505478_3_alg».proof.Proof.KI.Reg4
import proofs.«414290_j6631429505478_3_alg».proof.Proof.KI.Reg5
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # @main as segments, and the launch -/

/-- @main's 13 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ),
    .host (hseg hostOps6 hostOps6_sub hostOps6_fresh (W12 m ρ)) ]

/-- @main IS the run of the segments: the chain of its 13 items, which the segments' run is item by item. -/
theorem main_run (c : Dev nD) : main (F := F) c = Pipeline.Seg.run (segs m ρ) := by
  rw [main_chain c, Pipeline.Seg.run_eq_chain]
  rfl

-- the launch theorem's implicit arguments are found by unifying its conclusion with this one, which takes unfolding
-- plain definitions in a metavariable's type
set_option backward.isDefEq.respectTransparency.types false in
/-- THE RUN: at the compiled mesh, from any memory with zero counters, every weakly fair execution of @main on the
    TensorCores terminates, nothing faulting, and in every final state each core's unscoped buffers hold the last
    boundary's contents `W13`. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W13 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun c => chain_host0 m ρ c, fun _ => .rfl, fun c => chain_host1 m ρ c, fun _ => .rfl,
      fun c => chain_host2 m ρ c, fun _ => .rfl, fun c => chain_host3 m ρ c, fun _ => .rfl, fun c => chain_host4 m ρ c,
      fun _ => .rfl, fun c => chain_host5 m ρ c, fun _ => .rfl,
      fun c => (chain_host6 m ρ c).trans (by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c => h c)

end Cert.KernelIdeal.Hand

end
-- ==== Proof.Ref.Ops0.lean ====
import proofs.«414290_j6631429505478_3_alg».proof.Proof.Gen.ReferenceIdeal
import Idealize.ShloMosaic.Lib.StableHlo.Run
import Idealize.ShloMosaic.Lib.Pipeline.Frame

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
set_option maxRecDepth 8192 in
/-- The 81 operations of window 0 of @main, in order, a called function's operations in its call's place. -/
abbrev ops0 : List (HloOp τ sig (Elt F)) :=
  [ StableHlo.unary main_arg0 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg0 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_cst (constant S_ .f32 0x3F800000#32),
    StableHlo.unary main_cst main_v4 (broadcastInDim S800000 ![] bcast_S_S800000 : (⟨S_, .f32⟩ : BufTy).Contents (Elt F) → (⟨S800000, .f32⟩ : BufTy).Contents (Elt F)),
    StableHlo.nullary main_cst_0 (constant S_ .f32 0x00000000#32),
    StableHlo.unary main_cst_0 main_v5 (broadcastInDim S50000 ![] bcast_S_S50000 : (⟨S_, .f32⟩ : BufTy).Contents (Elt F) → (⟨S50000, .f32⟩ : BufTy).Contents (Elt F)),
    StableHlo.unary main_v3 main_v6 (broadcastInDim S800000x1 ![0] bcast_S800000_S800000x1_0 : (⟨S800000, .i32⟩ : BufTy).Contents (Elt F) → (⟨S800000x1, .i32⟩ : BufTy).Contents (Elt F)),
    StableHlo.ternary main_v5 main_v6 main_v4 main_v7 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_1 (constant S_ .f32 0x3F800000#32),
    StableHlo.unary main_cst_1 main_v8 (broadcastInDim S50000 ![] bcast_S_S50000 : (⟨S_, .f32⟩ : BufTy).Contents (Elt F) → (⟨S50000, .f32⟩ : BufTy).Contents (Elt F)),
    StableHlo.binary main_v7 main_v8 main_v9 (maximumf : (⟨S50000, .f32⟩ : BufTy).Contents (Elt F) → (⟨S50000, .f32⟩ : BufTy).Contents (Elt F) → (⟨S50000, .f32⟩ : BufTy).Contents (Elt F)),
    StableHlo.nullary main_cst_2 (constant S_ .f32 0x3F800000#32),
    StableHlo.unary main_cst_2 main_v10 (broadcastInDim S50000 ![] bcast_S_S50000 : (⟨S_, .f32⟩ : BufTy).Contents (Elt F) → (⟨S50000, .f32⟩ : BufTy).Contents (Elt F)),
    StableHlo.binary main_v10 main_v9 main_v11 (Host.divf : (⟨S50000, .f32⟩ : BufTy).Contents (Elt F) → (⟨S50000, .f32⟩ : BufTy).Contents (Elt F) → (⟨S50000, .f32⟩ : BufTy).Contents (Elt F)),
    StableHlo.unary main_v11 main_v12 (broadcastInDim S50000x1 ![0] bcast_S50000_S50000x1_0 : (⟨S50000, .f32⟩ : BufTy).Contents (Elt F) → (⟨S50000x1, .f32⟩ : BufTy).Contents (Elt F)),
    StableHlo.nullary main_c (constantI S_ 32 0#32),
    StableHlo.unary main_c main_v13 (broadcastInDim S800000 ![] bcast_S_S800000 : (⟨S_, .i32⟩ : BufTy).Contents (Elt F) → (⟨S800000, .i32⟩ : BufTy).Contents (Elt F)),
    StableHlo.binary main_v1 main_v13 main_v14 (cmpi .slt : (⟨S800000, .i32⟩ : BufTy).Contents (Elt F) → (⟨S800000, .i32⟩ : BufTy).Contents (Elt F) → (⟨S800000, .i1⟩ : BufTy).Contents (Elt F)),
    StableHlo.nullary main_c_3 (constantI S_ 32 50000#32),
    StableHlo.unary main_c_3 main_v15 (broadcastInDim S800000 ![] bcast_S_S800000 : (⟨S_, .i32⟩ : BufTy).Contents (Elt F) → (⟨S800000, .i32⟩ : BufTy).Contents (Elt F)),
    StableHlo.binary main_v1 main_v15 main_v16 (addi : (⟨S800000, .i32⟩ : BufTy).Contents (Elt F) → (⟨S800000, .i32⟩ : BufTy).Contents (Elt F) → (⟨S800000, .i32⟩ : BufTy).Contents (Elt F)),
    StableHlo.ternary main_v14 main_v16 main_v1 main_v17 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v17 main_v18 (broadcastInDim S800000x1 ![0] bcast_S800000_S800000x1_0 : (⟨S800000, .i32⟩ : BufTy).Contents (Elt F) → (⟨S800000x1, .i32⟩ : BufTy).Contents (Elt F)),
    StableHlo.binary main_arg1 main_v18 main_v19 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_4 (constant S_ .f32 0x00000000#32),
    StableHlo.unary main_cst_4 main_v20 (broadcastInDim S50000x128 ![] bcast_S_S50000x128 : (⟨S_, .f32⟩ : BufTy).Contents (Elt F) → (⟨S50000x128, .f32⟩ : BufTy).Contents (Elt F)),
    StableHlo.unary main_v3 main_v21 (broadcastInDim S800000x1 ![0] bcast_S800000_S800000x1_0 : (⟨S800000, .i32⟩ : BufTy).Contents (Elt F) → (⟨S800000x1, .i32⟩ : BufTy).Contents (Elt F)),
    StableHlo.ternary main_v20 main_v21 main_v19 main_v22 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v12 main_v23 (broadcastInDim S50000x128 ![0, 1] bcast_S50000x1_S50000x128_0_1 : (⟨S50000x1, .f32⟩ : BufTy).Contents (Elt F) → (⟨S50000x128, .f32⟩ : BufTy).Contents (Elt F)),
    StableHlo.binary main_v22 main_v23 main_v24 (mulf : (⟨S50000x128, .f32⟩ : BufTy).Contents (Elt F) → (⟨S50000x128, .f32⟩ : BufTy).Contents (Elt F) → (⟨S50000x128, .f32⟩ : BufTy).Contents (Elt F)),
    StableHlo.nullary main_cst_5 (constant S_ .f32 0x00000000#32),
    StableHlo.unary main_cst_5 main_v25 (broadcastInDim S50000x128 ![] bcast_S_S50000x128 : (⟨S_, .f32⟩ : BufTy).Contents (Elt F) → (⟨S50000x128, .f32⟩ : BufTy).Contents (Elt F)),
    StableHlo.unary main_arg4 main_v26 ((extractStridedSlice S1x1x128x128 ![0, 0, 0, 0] · slices_S6x3x128x128_S1x1x128x128_0_0_0_0) : (⟨S6x3x128x128, .f32⟩ : BufTy).Contents (Elt F) → (⟨S1x1x128x128, .f32⟩ : BufTy).Contents (Elt F)),
    StableHlo.reshape main_v26 main_v27 rfl shapeCasts_S1x1x128x128_S128x128,
    StableHlo.unary main_v27 main_v28 ((transpose S128x128 [1, 0] · transposes_S128x128_S128x128_1_0) : (⟨S128x128, .f32⟩ : BufTy).Contents (Elt F) → (⟨S128x128, .f32⟩ : BufTy).Contents (Elt F)),
    StableHlo.binary main_v24 main_v28 main_v29 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg5 main_v30 ((extractStridedSlice S1x1x128 ![0, 0, 0] · slices_S6x3x128_S1x1x128_0_0_0) : (⟨S6x3x128, .f32⟩ : BufTy).Contents (Elt F) → (⟨S1x1x128, .f32⟩ : BufTy).Contents (Elt F)),
    StableHlo.reshape main_v30 main_v31 rfl shapeCasts_S1x1x128_S128,
    StableHlo.unary main_v31 main_v32 (broadcastInDim S1x128 ![1] bcast_S128_S1x128_1 : (⟨S128, .f32⟩ : BufTy).Contents (Elt F) → (⟨S1x128, .f32⟩ : BufTy).Contents (Elt F)),
    StableHlo.unary main_v32 main_v33 (broadcastInDim S50000x128 ![0, 1] bcast_S1x128_S50000x128_0_1 : (⟨S1x128, .f32⟩ : BufTy).Contents (Elt F) → (⟨S50000x128, .f32⟩ : BufTy).Contents (Elt F)),
    StableHlo.binary main_v29 main_v33 main_v34 (addf : (⟨S50000x128, .f32⟩ : BufTy).Contents (Elt F) → (⟨S50000x128, .f32⟩ : BufTy).Contents (Elt F) → (⟨S50000x128, .f32⟩ : BufTy).Contents (Elt F)),
    StableHlo.unary main_arg6 main_v35 ((extractStridedSlice S1x1x128 ![0, 0, 0] · slices_S6x3x128_S1x1x128_0_0_0) : (⟨S6x3x128, .f32⟩ : BufTy).Contents (Elt F) → (⟨S1x1x128, .f32⟩ : BufTy).Contents (Elt F)),
    StableHlo.reshape main_v35 main_v36 rfl shapeCasts_S1x1x128_S128,
    StableHlo.unary main_arg7 main_v37 ((extractStridedSlice S1x1x128 ![0, 0, 0] · slices_S6x3x128_S1x1x128_0_0_0) : (⟨S6x3x128, .f32⟩ : BufTy).Contents (Elt F) → (⟨S1x1x128, .f32⟩ : BufTy).Contents (Elt F)),
    StableHlo.reshape main_v37 main_v38 rfl shapeCasts_S1x1x128_S128,
    StableHlo.nullary main_cst_6 (constant S_ .f32 0x00000000#32),
    StableHlo.binary main_v34 main_cst_6 main_v39 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_7 (constant S_ .f32 0x47435000#32),
    StableHlo.unary main_cst_7 main_v40 (broadcastInDim S128 ![] bcast_S_S128 : (⟨S_, .f32⟩ : BufTy).Contents (Elt F) → (⟨S128, .f32⟩ : BufTy).Contents (Elt F)),
    StableHlo.binary main_v39 main_v40 main_v41 (Host.divf : (⟨S128, .f32⟩ : BufTy).Contents (Elt F) → (⟨S128, .f32⟩ : BufTy).Contents (Elt F) → (⟨S128, .f32⟩ : BufTy).Contents (Elt F)),
    StableHlo.nullary main_c_8 (constantI S_ 32 0#32),
    StableHlo.TRef.nullary main_call0.cst (constant S_ .f32 0x00000000#32),
    StableHlo.TRef.binary (.of main_v34 : StableHlo.TRef sig ⟨S50000x128, .f32⟩) main_call0.cst main_call0.v0 (fun x v => Host.reduceAdd x v reducesTo_S50000x128_S128_d0 h_S_),
    StableHlo.TRef.unary main_call0.v0 main_call0.v1 (broadcastInDim S1x128 ![1] bcast_S128_S1x128_1),
    StableHlo.TRef.nullary main_call0.cst_0 (constant S_ .f32 0x47435000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S50000x128 ![0, 1] bcast_S1x128_S50000x128_0_1),
    StableHlo.TRef.binary (.of main_v34 : StableHlo.TRef sig ⟨S50000x128, .f32⟩) main_call0.v4 main_call0.v5 subf,
    StableHlo.TRef.binary main_call0.v5 main_call0.v5 main_call0.v6 mulf,
    StableHlo.TRef.unary (.of main_c_8 : StableHlo.TRef sig ⟨S_, .i32⟩) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v41 main_v43 (broadcastInDim S1x128 ![1] bcast_S128_S1x128_1 : (⟨S128, .f32⟩ : BufTy).Contents (Elt F) → (⟨S1x128, .f32⟩ : BufTy).Contents (Elt F)),
    StableHlo.unary main_v43 main_v44 (broadcastInDim S50000x128 ![0, 1] bcast_S1x128_S50000x128_0_1 : (⟨S1x128, .f32⟩ : BufTy).Contents (Elt F) → (⟨S50000x128, .f32⟩ : BufTy).Contents (Elt F)),
    StableHlo.binary main_v34 main_v44 main_v45 (subf : (⟨S50000x128, .f32⟩ : BufTy).Contents (Elt F) → (⟨S50000x128, .f32⟩ : BufTy).Contents (Elt F) → (⟨S50000x128, .f32⟩ : BufTy).Contents (Elt F)),
    StableHlo.nullary main_cst_9 (constant S_ .f32 0x3727C5AC#32),
    StableHlo.unary main_cst_9 main_v46 (broadcastInDim S128 ![] bcast_S_S128 : (⟨S_, .f32⟩ : BufTy).Contents (Elt F) → (⟨S128, .f32⟩ : BufTy).Contents (Elt F)),
    StableHlo.binary main_v42 main_v46 main_v47 (addf : (⟨S128, .f32⟩ : BufTy).Contents (Elt F) → (⟨S128, .f32⟩ : BufTy).Contents (Elt F) → (⟨S128, .f32⟩ : BufTy).Contents (Elt F)) ]

set_option maxHeartbeats 40000000 in
set_option maxRecDepth 8192 in
/-- Window 0 is the straight line of its operations. -/
theorem main_part0_eq (c : Dev nD) : main_part0 (F := F) c = seq ops0 := by
  chain_rfl

set_option maxHeartbeats 40000000 in
set_option maxRecDepth 8192 in
/-- Each operation touches TensorCore references only. -/
theorem ops0_sub : (ops0 : List (HloOp τ sig (Elt F))).Forall fun op => op.bufs ⊆ tcRefs τ sig :=
  ⟨StableHlo.unary_bufs_sub .., StableHlo.reshape_bufs_sub .., StableHlo.unary_bufs_sub .., StableHlo.reshape_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.binary_bufs_sub .., StableHlo.nullary_bufs_sub .., StableHlo.unary_bufs_sub .., StableHlo.unary_bufs_sub .., StableHlo.reshape_bufs_sub .., StableHlo.unary_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub ..⟩

set_option maxHeartbeats 40000000 in
set_option maxRecDepth 8192 in
/-- Each operation determines what it writes. -/
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references the window's operations write, in order. -/
abbrev ops0_W : List (Ref sig .tc) :=
  [main_v0, main_v1, main_v2, main_v3, main_cst, main_v4, main_cst_0, main_v5, main_v6, main_v7, main_cst_1, main_v8, main_v9, main_cst_2, main_v10, main_v11, main_v12, main_c, main_v13, main_v14, main_c_3, main_v15, main_v16, main_v17, main_v18, main_v19, main_cst_4, main_v20, main_v21, main_v22, main_v23, main_v24, main_cst_5, main_v25, main_v26, main_v27, main_v28, main_v29, main_v30, main_v31, main_v32, main_v33, main_v34, main_v35, main_v36, main_v37, main_v38, main_cst_6, main_v39, main_cst_7, main_v40, main_v41, main_c_8, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v42, main_v43, main_v44, main_v45, main_cst_9, main_v46, main_v47]

set_option maxHeartbeats 40000000 in
set_option maxRecDepth 8192 in
/-- Each operation writes its own result reference, the one listed at its place. -/
theorem ops0_writes : (ops0 : List (HloOp τ sig (Elt F))).Forall fun op => op.writes ⊆ (ops0_W.map (Proc.devRef (τ := τ) .tc)).toFinset :=
  ⟨(Finset.singleton_subset_iff (a := Proc.devRef (τ := τ) .tc main_v0)).mpr (List.mem_toFinset.mpr (List.mem_map_of_mem (by decide))),
   (Finset.singleton_subset_iff (a := Proc.devRef (τ := τ) .tc main_v1)).mpr (List.mem_toFinset.mpr (List.mem_map_of_mem (by decide))),
   (Finset.singleton_subset_iff (a := Proc.devRef (τ := τ) .tc main_v2)).mpr (List.mem_toFinset.mpr (List.mem_map_of_mem (by decide))),
   (Finset.singleton_subset_iff (a := Proc.devRef (τ := τ) .tc main_v3)).mpr (List.mem_toFinset.mpr (List.mem_map_of_mem (by decide))),
   (Finset.singleton_subset_iff (a := Proc.devRef (τ := τ) .tc main_cst)).mpr (List.mem_toFinset.mpr (List.mem_map_of_mem (by decide))),
   (Finset.singleton_subset_iff (a := Proc.devRef (τ := τ) .tc main_v4)).mpr (List.mem_toFinset.mpr (List.mem_map_of_mem (by decide))),
   (Finset.singleton_subset_iff (a := Proc.devRef (τ := τ) .tc main_cst_0)).mpr (List.mem_toFinset.mpr (List.mem_map_of_mem (by decide))),
   (Finset.singleton_subset_iff (a := Proc.devRef (τ := τ) .tc main_v5)).mpr (List.mem_toFinset.mpr (List.mem_map_of_mem (by decide))),
   (Finset.singleton_subset_iff (a := Proc.devRef (τ := τ) .tc main_v6)).mpr (List.mem_toFinset.mpr (List.mem_map_of_mem (by decide))),
   (Finset.singleton_subset_iff (a := Proc.devRef (τ := τ) .tc main_v7)).mpr (List.mem_toFinset.mpr (List.mem_map_of_mem (by decide))),
   (Finset.singleton_subset_iff (a := Proc.devRef (τ := τ) .tc main_cst_1)).mpr (List.mem_toFinset.mpr (List.mem_map_of_mem (by decide))),
   (Finset.singleton_subset_iff (a := Proc.devRef (τ := τ) .tc main_v8)).mpr (List.mem_toFinset.mpr (List.mem_map_of_mem (by decide))),
   (Finset.singleton_subset_iff (a := Proc.devRef (τ := τ) .tc main_v9)).mpr (List.mem_toFinset.mpr (List.mem_map_of_mem (by decide))),
   (Finset.singleton_subset_iff (a := Proc.devRef (τ := τ) .tc main_cst_2)).mpr (List.mem_toFinset.mpr (List.mem_map_of_mem (by decide))),
   (Finset.singleton_subset_iff (a := Proc.devRef (τ := τ) .tc main_v10)).mpr (List.mem_toFinset.mpr (List.mem_map_of_mem (by decide))),
   (Finset.singleton_subset_iff (a := Proc.devRef (τ := τ) .tc main_v11)).mpr (List.mem_toFinset.mpr (List.mem_map_of_mem (by decide))),
   (Finset.singleton_subset_iff (a := Proc.devRef (τ := τ) .tc main_v12)).mpr (List.mem_toFinset.mpr (List.mem_map_of_mem (by decide))),
   (Finset.singleton_subset_iff (a := Proc.devRef (τ := τ) .tc main_c)).mpr (List.mem_toFinset.mpr (List.mem_map_of_mem (by decide))),
   (Finset.singleton_subset_iff (a := Proc.devRef (τ := τ) .tc main_v13)).mpr (List.mem_toFinset.mpr (List.mem_map_of_mem (by decide))),
   (Finset.singleton_subset_iff (a := Proc.devRef (τ := τ) .tc main_v14)).mpr (List.mem_toFinset.mpr (List.mem_map_of_mem (by decide))),
   (Finset.singleton_subset_iff (a := Proc.devRef (τ := τ) .tc main_c_3)).mpr (List.mem_toFinset.mpr (List.mem_map_of_mem (by decide))),
   (Finset.singleton_subset_iff (a := Proc.devRef (τ := τ) .tc main_v15)).mpr (List.mem_toFinset.mpr (List.mem_map_of_mem (by decide))),
   (Finset.singleton_subset_iff (a := Proc.devRef (τ := τ) .tc main_v16)).mpr (List.mem_toFinset.mpr (List.mem_map_of_mem (by decide))),
   (Finset.singleton_subset_iff (a := Proc.devRef (τ := τ) .tc main_v17)).mpr (List.mem_toFinset.mpr (List.mem_map_of_mem (by decide))),
   (Finset.singleton_subset_iff (a := Proc.devRef (τ := τ) .tc main_v18)).mpr (List.mem_toFinset.mpr (List.mem_map_of_mem (by decide))),
   (Finset.singleton_subset_iff (a := Proc.devRef (τ := τ) .tc main_v19)).mpr (List.mem_toFinset.mpr (List.mem_map_of_mem (by decide))),
   (Finset.singleton_subset_iff (a := Proc.devRef (τ := τ) .tc main_cst_4)).mpr (List.mem_toFinset.mpr (List.mem_map_of_mem (by decide))),
   (Finset.singleton_subset_iff (a := Proc.devRef (τ := τ) .tc main_v20)).mpr (List.mem_toFinset.mpr (List.mem_map_of_mem (by decide))),
   (Finset.singleton_subset_iff (a := Proc.devRef (τ := τ) .tc main_v21)).mpr (List.mem_toFinset.mpr (List.mem_map_of_mem (by decide))),
   (Finset.singleton_subset_iff (a := Proc.devRef (τ := τ) .tc main_v22)).mpr (List.mem_toFinset.mpr (List.mem_map_of_mem (by decide))),
   (Finset.singleton_subset_iff (a := Proc.devRef (τ := τ) .tc main_v23)).mpr (List.mem_toFinset.mpr (List.mem_map_of_mem (by decide))),
   (Finset.singleton_subset_iff (a := Proc.devRef (τ := τ) .tc main_v24)).mpr (List.mem_toFinset.mpr (List.mem_map_of_mem (by decide))),
   (Finset.singleton_subset_iff (a := Proc.devRef (τ := τ) .tc main_cst_5)).mpr (List.mem_toFinset.mpr (List.mem_map_of_mem (by decide))),
   (Finset.singleton_subset_iff (a := Proc.devRef (τ := τ) .tc main_v25)).mpr (List.mem_toFinset.mpr (List.mem_map_of_mem (by decide))),
   (Finset.singleton_subset_iff (a := Proc.devRef (τ := τ) .tc main_v26)).mpr (List.mem_toFinset.mpr (List.mem_map_of_mem (by decide))),
   (Finset.singleton_subset_iff (a := Proc.devRef (τ := τ) .tc main_v27)).mpr (List.mem_toFinset.mpr (List.mem_map_of_mem (by decide))),
   (Finset.singleton_subset_iff (a := Proc.devRef (τ := τ) .tc main_v28)).mpr (List.mem_toFinset.mpr (List.mem_map_of_mem (by decide))),
   (Finset.singleton_subset_iff (a := Proc.devRef (τ := τ) .tc main_v29)).mpr (List.mem_toFinset.mpr (List.mem_map_of_mem (by decide))),
   (Finset.singleton_subset_iff (a := Proc.devRef (τ := τ) .tc main_v30)).mpr (List.mem_toFinset.mpr (List.mem_map_of_mem (by decide))),
   (Finset.singleton_subset_iff (a := Proc.devRef (τ := τ) .tc main_v31)).mpr (List.mem_toFinset.mpr (List.mem_map_of_mem (by decide))),
   (Finset.singleton_subset_iff (a := Proc.devRef (τ := τ) .tc main_v32)).mpr (List.mem_toFinset.mpr (List.mem_map_of_mem (by decide))),
   (Finset.singleton_subset_iff (a := Proc.devRef (τ := τ) .tc main_v33)).mpr (List.mem_toFinset.mpr (List.mem_map_of_mem (by decide))),
   (Finset.singleton_subset_iff (a := Proc.devRef (τ := τ) .tc main_v34)).mpr (List.mem_toFinset.mpr (List.mem_map_of_mem (by decide))),
   (Finset.singleton_subset_iff (a := Proc.devRef (τ := τ) .tc main_v35)).mpr (List.mem_toFinset.mpr (List.mem_map_of_mem (by decide))),
   (Finset.singleton_subset_iff (a := Proc.devRef (τ := τ) .tc main_v36)).mpr (List.mem_toFinset.mpr (List.mem_map_of_mem (by decide))),
   (Finset.singleton_subset_iff (a := Proc.devRef (τ := τ) .tc main_v37)).mpr (List.mem_toFinset.mpr (List.mem_map_of_mem (by decide))),
   (Finset.singleton_subset_iff (a := Proc.devRef (τ := τ) .tc main_v38)).mpr (List.mem_toFinset.mpr (List.mem_map_of_mem (by decide))),
   (Finset.singleton_subset_iff (a := Proc.devRef (τ := τ) .tc main_cst_6)).mpr (List.mem_toFinset.mpr (List.mem_map_of_mem (by decide))),
   (Finset.singleton_subset_iff (a := Proc.devRef (τ := τ) .tc main_v39)).mpr (List.mem_toFinset.mpr (List.mem_map_of_mem (by decide))),
   (Finset.singleton_subset_iff (a := Proc.devRef (τ := τ) .tc main_cst_7)).mpr (List.mem_toFinset.mpr (List.mem_map_of_mem (by decide))),
   (Finset.singleton_subset_iff (a := Proc.devRef (τ := τ) .tc main_v40)).mpr (List.mem_toFinset.mpr (List.mem_map_of_mem (by decide))),
   (Finset.singleton_subset_iff (a := Proc.devRef (τ := τ) .tc main_v41)).mpr (List.mem_toFinset.mpr (List.mem_map_of_mem (by decide))),
   (Finset.singleton_subset_iff (a := Proc.devRef (τ := τ) .tc main_c_8)).mpr (List.mem_toFinset.mpr (List.mem_map_of_mem (by decide))),
   (Finset.singleton_subset_iff (a := Proc.devRef (τ := τ) .tc main_call0_cst)).mpr (List.mem_toFinset.mpr (List.mem_map_of_mem (by decide))),
   (Finset.singleton_subset_iff (a := Proc.devRef (τ := τ) .tc main_call0_v0)).mpr (List.mem_toFinset.mpr (List.mem_map_of_mem (by decide))),
   (Finset.singleton_subset_iff (a := Proc.devRef (τ := τ) .tc main_call0_v1)).mpr (List.mem_toFinset.mpr (List.mem_map_of_mem (by decide))),
   (Finset.singleton_subset_iff (a := Proc.devRef (τ := τ) .tc main_call0_cst_0)).mpr (List.mem_toFinset.mpr (List.mem_map_of_mem (by decide))),
   (Finset.singleton_subset_iff (a := Proc.devRef (τ := τ) .tc main_call0_v2)).mpr (List.mem_toFinset.mpr (List.mem_map_of_mem (by decide))),
   (Finset.singleton_subset_iff (a := Proc.devRef (τ := τ) .tc main_call0_v3)).mpr (List.mem_toFinset.mpr (List.mem_map_of_mem (by decide))),
   (Finset.singleton_subset_iff (a := Proc.devRef (τ := τ) .tc main_call0_v4)).mpr (List.mem_toFinset.mpr (List.mem_map_of_mem (by decide))),
   (Finset.singleton_subset_iff (a := Proc.devRef (τ := τ) .tc main_call0_v5)).mpr (List.mem_toFinset.mpr (List.mem_map_of_mem (by decide))),
   (Finset.singleton_subset_iff (a := Proc.devRef (τ := τ) .tc main_call0_v6)).mpr (List.mem_toFinset.mpr (List.mem_map_of_mem (by decide))),
   (Finset.singleton_subset_iff (a := Proc.devRef (τ := τ) .tc main_call0_v7)).mpr (List.mem_toFinset.mpr (List.mem_map_of_mem (by decide))),
   (Finset.singleton_subset_iff (a := Proc.devRef (τ := τ) .tc main_call0_cst_1)).mpr (List.mem_toFinset.mpr (List.mem_map_of_mem (by decide))),
   (Finset.singleton_subset_iff (a := Proc.devRef (τ := τ) .tc main_call0_v8)).mpr (List.mem_toFinset.mpr (List.mem_map_of_mem (by decide))),
   (Finset.singleton_subset_iff (a := Proc.devRef (τ := τ) .tc main_call0_cst_2)).mpr (List.mem_toFinset.mpr (List.mem_map_of_mem (by decide))),
   (Finset.singleton_subset_iff (a := Proc.devRef (τ := τ) .tc main_call0_v9)).mpr (List.mem_toFinset.mpr (List.mem_map_of_mem (by decide))),
   (Finset.singleton_subset_iff (a := Proc.devRef (τ := τ) .tc main_call0_v10)).mpr (List.mem_toFinset.mpr (List.mem_map_of_mem (by decide))),
   (Finset.singleton_subset_iff (a := Proc.devRef (τ := τ) .tc main_call0_v11)).mpr (List.mem_toFinset.mpr (List.mem_map_of_mem (by decide))),
   (Finset.singleton_subset_iff (a := Proc.devRef (τ := τ) .tc main_call0_cst_3)).mpr (List.mem_toFinset.mpr (List.mem_map_of_mem (by decide))),
   (Finset.singleton_subset_iff (a := Proc.devRef (τ := τ) .tc main_call0_v12)).mpr (List.mem_toFinset.mpr (List.mem_map_of_mem (by decide))),
   (Finset.singleton_subset_iff (a := Proc.devRef (τ := τ) .tc main_call0_cst_4)).mpr (List.mem_toFinset.mpr (List.mem_map_of_mem (by decide))),
   (Finset.singleton_subset_iff (a := Proc.devRef (τ := τ) .tc main_call0_call0_v0)).mpr (List.mem_toFinset.mpr (List.mem_map_of_mem (by decide))),
   (Finset.singleton_subset_iff (a := Proc.devRef (τ := τ) .tc main_call0_call0_v1)).mpr (List.mem_toFinset.mpr (List.mem_map_of_mem (by decide))),
   (Finset.singleton_subset_iff (a := Proc.devRef (τ := τ) .tc main_v42)).mpr (List.mem_toFinset.mpr (List.mem_map_of_mem (by decide))),
   (Finset.singleton_subset_iff (a := Proc.devRef (τ := τ) .tc main_v43)).mpr (List.mem_toFinset.mpr (List.mem_map_of_mem (by decide))),
   (Finset.singleton_subset_iff (a := Proc.devRef (τ := τ) .tc main_v44)).mpr (List.mem_toFinset.mpr (List.mem_map_of_mem (by decide))),
   (Finset.singleton_subset_iff (a := Proc.devRef (τ := τ) .tc main_v45)).mpr (List.mem_toFinset.mpr (List.mem_map_of_mem (by decide))),
   (Finset.singleton_subset_iff (a := Proc.devRef (τ := τ) .tc main_cst_9)).mpr (List.mem_toFinset.mpr (List.mem_map_of_mem (by decide))),
   (Finset.singleton_subset_iff (a := Proc.devRef (τ := τ) .tc main_v46)).mpr (List.mem_toFinset.mpr (List.mem_map_of_mem (by decide))),
   (Finset.singleton_subset_iff (a := Proc.devRef (τ := τ) .tc main_v47)).mpr (List.mem_toFinset.mpr (List.mem_map_of_mem (by decide)))⟩

/-- A reference the window does not write keeps its contents through it. -/
theorem ops0_keep (V : Valuation τ sig (Elt F)) (r : Ref sig .tc) (h : r ∉ ops0_W) :
    after ops0 V (Proc.devRef .tc r) = V (Proc.devRef .tc r) :=
  after_of_writes_sub ops0 V ops0_writes h

end Cert.ReferenceIdeal.Hand

end
-- ==== Proof.Ref.Ops1.lean ====
import proofs.«414290_j6631429505478_3_alg».proof.Proof.Gen.ReferenceIdeal
import Idealize.ShloMosaic.Lib.StableHlo.Run
import Idealize.ShloMosaic.Lib.Pipeline.Frame

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
set_option maxRecDepth 8192 in
/-- The 85 operations of window 1 of @main, in order, a called function's operations in its call's place. -/
abbrev ops1 : List (HloOp τ sig (Elt F)) :=
  [ StableHlo.unary main_v47 main_v48 (Host.rsqrt : (⟨S128, .f32⟩ : BufTy).Contents (Elt F) → (⟨S128, .f32⟩ : BufTy).Contents (Elt F)),
    StableHlo.unary main_v48 main_v49 (broadcastInDim S1x128 ![1] bcast_S128_S1x128_1 : (⟨S128, .f32⟩ : BufTy).Contents (Elt F) → (⟨S1x128, .f32⟩ : BufTy).Contents (Elt F)),
    StableHlo.unary main_v49 main_v50 (broadcastInDim S50000x128 ![0, 1] bcast_S1x128_S50000x128_0_1 : (⟨S1x128, .f32⟩ : BufTy).Contents (Elt F) → (⟨S50000x128, .f32⟩ : BufTy).Contents (Elt F)),
    StableHlo.binary main_v45 main_v50 main_v51 (mulf : (⟨S50000x128, .f32⟩ : BufTy).Contents (Elt F) → (⟨S50000x128, .f32⟩ : BufTy).Contents (Elt F) → (⟨S50000x128, .f32⟩ : BufTy).Contents (Elt F)),
    StableHlo.unary main_v36 main_v52 (broadcastInDim S1x128 ![1] bcast_S128_S1x128_1 : (⟨S128, .f32⟩ : BufTy).Contents (Elt F) → (⟨S1x128, .f32⟩ : BufTy).Contents (Elt F)),
    StableHlo.unary main_v52 main_v53 (broadcastInDim S50000x128 ![0, 1] bcast_S1x128_S50000x128_0_1 : (⟨S1x128, .f32⟩ : BufTy).Contents (Elt F) → (⟨S50000x128, .f32⟩ : BufTy).Contents (Elt F)),
    StableHlo.binary main_v51 main_v53 main_v54 (mulf : (⟨S50000x128, .f32⟩ : BufTy).Contents (Elt F) → (⟨S50000x128, .f32⟩ : BufTy).Contents (Elt F) → (⟨S50000x128, .f32⟩ : BufTy).Contents (Elt F)),
    StableHlo.unary main_v38 main_v55 (broadcastInDim S1x128 ![1] bcast_S128_S1x128_1 : (⟨S128, .f32⟩ : BufTy).Contents (Elt F) → (⟨S1x128, .f32⟩ : BufTy).Contents (Elt F)),
    StableHlo.unary main_v55 main_v56 (broadcastInDim S50000x128 ![0, 1] bcast_S1x128_S50000x128_0_1 : (⟨S1x128, .f32⟩ : BufTy).Contents (Elt F) → (⟨S50000x128, .f32⟩ : BufTy).Contents (Elt F)),
    StableHlo.binary main_v54 main_v56 main_v57 (addf : (⟨S50000x128, .f32⟩ : BufTy).Contents (Elt F) → (⟨S50000x128, .f32⟩ : BufTy).Contents (Elt F) → (⟨S50000x128, .f32⟩ : BufTy).Contents (Elt F)),
    StableHlo.TRef.nullary main_call1.cst (constant S_ .f32 0x00000000#32),
    StableHlo.TRef.unary main_call1.cst main_call1.v0 (broadcastInDim S50000x128 ![] bcast_S_S50000x128),
    StableHlo.TRef.binary (.of main_v57 : StableHlo.TRef sig ⟨S50000x128, .f32⟩) main_call1.v0 main_call1.v1 maximumf,
    StableHlo.unary main_arg3 main_v59 ((extractStridedSlice S1x1 ![0, 0] · slices_S6x3_S1x1_0_0) : (⟨S6x3, .f32⟩ : BufTy).Contents (Elt F) → (⟨S1x1, .f32⟩ : BufTy).Contents (Elt F)),
    StableHlo.reshape main_v59 main_v60 rfl shapeCasts_S1x1_S_,
    StableHlo.unary main_v60 main_v61 (broadcastInDim S50000x128 ![] bcast_S_S50000x128 : (⟨S_, .f32⟩ : BufTy).Contents (Elt F) → (⟨S50000x128, .f32⟩ : BufTy).Contents (Elt F)),
    StableHlo.binary main_v61 main_v58 main_v62 (mulf : (⟨S50000x128, .f32⟩ : BufTy).Contents (Elt F) → (⟨S50000x128, .f32⟩ : BufTy).Contents (Elt F) → (⟨S50000x128, .f32⟩ : BufTy).Contents (Elt F)),
    StableHlo.binary main_v25 main_v62 main_v63 (addf : (⟨S50000x128, .f32⟩ : BufTy).Contents (Elt F) → (⟨S50000x128, .f32⟩ : BufTy).Contents (Elt F) → (⟨S50000x128, .f32⟩ : BufTy).Contents (Elt F)),
    StableHlo.unary main_arg4 main_v64 ((extractStridedSlice S1x1x128x128 ![0, 1, 0, 0] · slices_S6x3x128x128_S1x1x128x128_0_1_0_0) : (⟨S6x3x128x128, .f32⟩ : BufTy).Contents (Elt F) → (⟨S1x1x128x128, .f32⟩ : BufTy).Contents (Elt F)),
    StableHlo.reshape main_v64 main_v65 rfl shapeCasts_S1x1x128x128_S128x128,
    StableHlo.unary main_v65 main_v66 ((transpose S128x128 [1, 0] · transposes_S128x128_S128x128_1_0) : (⟨S128x128, .f32⟩ : BufTy).Contents (Elt F) → (⟨S128x128, .f32⟩ : BufTy).Contents (Elt F)),
    StableHlo.binary main_arg1 main_v66 main_v67 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg5 main_v68 ((extractStridedSlice S1x1x128 ![0, 1, 0] · slices_S6x3x128_S1x1x128_0_1_0) : (⟨S6x3x128, .f32⟩ : BufTy).Contents (Elt F) → (⟨S1x1x128, .f32⟩ : BufTy).Contents (Elt F)),
    StableHlo.reshape main_v68 main_v69 rfl shapeCasts_S1x1x128_S128,
    StableHlo.unary main_v69 main_v70 (broadcastInDim S1x128 ![1] bcast_S128_S1x128_1 : (⟨S128, .f32⟩ : BufTy).Contents (Elt F) → (⟨S1x128, .f32⟩ : BufTy).Contents (Elt F)),
    StableHlo.unary main_v70 main_v71 (broadcastInDim S50000x128 ![0, 1] bcast_S1x128_S50000x128_0_1 : (⟨S1x128, .f32⟩ : BufTy).Contents (Elt F) → (⟨S50000x128, .f32⟩ : BufTy).Contents (Elt F)),
    StableHlo.binary main_v67 main_v71 main_v72 (addf : (⟨S50000x128, .f32⟩ : BufTy).Contents (Elt F) → (⟨S50000x128, .f32⟩ : BufTy).Contents (Elt F) → (⟨S50000x128, .f32⟩ : BufTy).Contents (Elt F)),
    StableHlo.unary main_arg6 main_v73 ((extractStridedSlice S1x1x128 ![0, 1, 0] · slices_S6x3x128_S1x1x128_0_1_0) : (⟨S6x3x128, .f32⟩ : BufTy).Contents (Elt F) → (⟨S1x1x128, .f32⟩ : BufTy).Contents (Elt F)),
    StableHlo.reshape main_v73 main_v74 rfl shapeCasts_S1x1x128_S128,
    StableHlo.unary main_arg7 main_v75 ((extractStridedSlice S1x1x128 ![0, 1, 0] · slices_S6x3x128_S1x1x128_0_1_0) : (⟨S6x3x128, .f32⟩ : BufTy).Contents (Elt F) → (⟨S1x1x128, .f32⟩ : BufTy).Contents (Elt F)),
    StableHlo.reshape main_v75 main_v76 rfl shapeCasts_S1x1x128_S128,
    StableHlo.nullary main_cst_10 (constant S_ .f32 0x00000000#32),
    StableHlo.binary main_v72 main_cst_10 main_v77 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_11 (constant S_ .f32 0x47435000#32),
    StableHlo.unary main_cst_11 main_v78 (broadcastInDim S128 ![] bcast_S_S128 : (⟨S_, .f32⟩ : BufTy).Contents (Elt F) → (⟨S128, .f32⟩ : BufTy).Contents (Elt F)),
    StableHlo.binary main_v77 main_v78 main_v79 (Host.divf : (⟨S128, .f32⟩ : BufTy).Contents (Elt F) → (⟨S128, .f32⟩ : BufTy).Contents (Elt F) → (⟨S128, .f32⟩ : BufTy).Contents (Elt F)),
    StableHlo.nullary main_c_12 (constantI S_ 32 0#32),
    StableHlo.TRef.nullary main_call2.cst (constant S_ .f32 0x00000000#32),
    StableHlo.TRef.binary (.of main_v72 : StableHlo.TRef sig ⟨S50000x128, .f32⟩) main_call2.cst main_call2.v0 (fun x v => Host.reduceAdd x v reducesTo_S50000x128_S128_d0 h_S_),
    StableHlo.TRef.unary main_call2.v0 main_call2.v1 (broadcastInDim S1x128 ![1] bcast_S128_S1x128_1),
    StableHlo.TRef.nullary main_call2.cst_0 (constant S_ .f32 0x47435000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S50000x128 ![0, 1] bcast_S1x128_S50000x128_0_1),
    StableHlo.TRef.binary (.of main_v72 : StableHlo.TRef sig ⟨S50000x128, .f32⟩) main_call2.v4 main_call2.v5 subf,
    StableHlo.TRef.binary main_call2.v5 main_call2.v5 main_call2.v6 mulf,
    StableHlo.TRef.unary (.of main_c_12 : StableHlo.TRef sig ⟨S_, .i32⟩) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v79 main_v81 (broadcastInDim S1x128 ![1] bcast_S128_S1x128_1 : (⟨S128, .f32⟩ : BufTy).Contents (Elt F) → (⟨S1x128, .f32⟩ : BufTy).Contents (Elt F)),
    StableHlo.unary main_v81 main_v82 (broadcastInDim S50000x128 ![0, 1] bcast_S1x128_S50000x128_0_1 : (⟨S1x128, .f32⟩ : BufTy).Contents (Elt F) → (⟨S50000x128, .f32⟩ : BufTy).Contents (Elt F)),
    StableHlo.binary main_v72 main_v82 main_v83 (subf : (⟨S50000x128, .f32⟩ : BufTy).Contents (Elt F) → (⟨S50000x128, .f32⟩ : BufTy).Contents (Elt F) → (⟨S50000x128, .f32⟩ : BufTy).Contents (Elt F)),
    StableHlo.nullary main_cst_13 (constant S_ .f32 0x3727C5AC#32),
    StableHlo.unary main_cst_13 main_v84 (broadcastInDim S128 ![] bcast_S_S128 : (⟨S_, .f32⟩ : BufTy).Contents (Elt F) → (⟨S128, .f32⟩ : BufTy).Contents (Elt F)),
    StableHlo.binary main_v80 main_v84 main_v85 (addf : (⟨S128, .f32⟩ : BufTy).Contents (Elt F) → (⟨S128, .f32⟩ : BufTy).Contents (Elt F) → (⟨S128, .f32⟩ : BufTy).Contents (Elt F)),
    StableHlo.unary main_v85 main_v86 (Host.rsqrt : (⟨S128, .f32⟩ : BufTy).Contents (Elt F) → (⟨S128, .f32⟩ : BufTy).Contents (Elt F)),
    StableHlo.unary main_v86 main_v87 (broadcastInDim S1x128 ![1] bcast_S128_S1x128_1 : (⟨S128, .f32⟩ : BufTy).Contents (Elt F) → (⟨S1x128, .f32⟩ : BufTy).Contents (Elt F)),
    StableHlo.unary main_v87 main_v88 (broadcastInDim S50000x128 ![0, 1] bcast_S1x128_S50000x128_0_1 : (⟨S1x128, .f32⟩ : BufTy).Contents (Elt F) → (⟨S50000x128, .f32⟩ : BufTy).Contents (Elt F)),
    StableHlo.binary main_v83 main_v88 main_v89 (mulf : (⟨S50000x128, .f32⟩ : BufTy).Contents (Elt F) → (⟨S50000x128, .f32⟩ : BufTy).Contents (Elt F) → (⟨S50000x128, .f32⟩ : BufTy).Contents (Elt F)),
    StableHlo.unary main_v74 main_v90 (broadcastInDim S1x128 ![1] bcast_S128_S1x128_1 : (⟨S128, .f32⟩ : BufTy).Contents (Elt F) → (⟨S1x128, .f32⟩ : BufTy).Contents (Elt F)),
    StableHlo.unary main_v90 main_v91 (broadcastInDim S50000x128 ![0, 1] bcast_S1x128_S50000x128_0_1 : (⟨S1x128, .f32⟩ : BufTy).Contents (Elt F) → (⟨S50000x128, .f32⟩ : BufTy).Contents (Elt F)),
    StableHlo.binary main_v89 main_v91 main_v92 (mulf : (⟨S50000x128, .f32⟩ : BufTy).Contents (Elt F) → (⟨S50000x128, .f32⟩ : BufTy).Contents (Elt F) → (⟨S50000x128, .f32⟩ : BufTy).Contents (Elt F)),
    StableHlo.unary main_v76 main_v93 (broadcastInDim S1x128 ![1] bcast_S128_S1x128_1 : (⟨S128, .f32⟩ : BufTy).Contents (Elt F) → (⟨S1x128, .f32⟩ : BufTy).Contents (Elt F)),
    StableHlo.unary main_v93 main_v94 (broadcastInDim S50000x128 ![0, 1] bcast_S1x128_S50000x128_0_1 : (⟨S1x128, .f32⟩ : BufTy).Contents (Elt F) → (⟨S50000x128, .f32⟩ : BufTy).Contents (Elt F)),
    StableHlo.binary main_v92 main_v94 main_v95 (addf : (⟨S50000x128, .f32⟩ : BufTy).Contents (Elt F) → (⟨S50000x128, .f32⟩ : BufTy).Contents (Elt F) → (⟨S50000x128, .f32⟩ : BufTy).Contents (Elt F)),
    StableHlo.TRef.nullary main_call3.cst (constant S_ .f32 0x00000000#32),
    StableHlo.TRef.unary main_call3.cst main_call3.v0 (broadcastInDim S50000x128 ![] bcast_S_S50000x128),
    StableHlo.TRef.binary (.of main_v95 : StableHlo.TRef sig ⟨S50000x128, .f32⟩) main_call3.v0 main_call3.v1 maximumf,
    StableHlo.unary main_arg3 main_v97 ((extractStridedSlice S1x1 ![0, 1] · slices_S6x3_S1x1_0_1) : (⟨S6x3, .f32⟩ : BufTy).Contents (Elt F) → (⟨S1x1, .f32⟩ : BufTy).Contents (Elt F)),
    StableHlo.reshape main_v97 main_v98 rfl shapeCasts_S1x1_S_,
    StableHlo.unary main_v98 main_v99 (broadcastInDim S50000x128 ![] bcast_S_S50000x128 : (⟨S_, .f32⟩ : BufTy).Contents (Elt F) → (⟨S50000x128, .f32⟩ : BufTy).Contents (Elt F)),
    StableHlo.binary main_v99 main_v96 main_v100 (mulf : (⟨S50000x128, .f32⟩ : BufTy).Contents (Elt F) → (⟨S50000x128, .f32⟩ : BufTy).Contents (Elt F) → (⟨S50000x128, .f32⟩ : BufTy).Contents (Elt F)),
    StableHlo.binary main_v63 main_v100 main_v101 (addf : (⟨S50000x128, .f32⟩ : BufTy).Contents (Elt F) → (⟨S50000x128, .f32⟩ : BufTy).Contents (Elt F) → (⟨S50000x128, .f32⟩ : BufTy).Contents (Elt F)),
    StableHlo.unary main_arg4 main_v102 ((extractStridedSlice S1x1x128x128 ![0, 2, 0, 0] · slices_S6x3x128x128_S1x1x128x128_0_2_0_0) : (⟨S6x3x128x128, .f32⟩ : BufTy).Contents (Elt F) → (⟨S1x1x128x128, .f32⟩ : BufTy).Contents (Elt F)),
    StableHlo.reshape main_v102 main_v103 rfl shapeCasts_S1x1x128x128_S128x128 ]

set_option maxHeartbeats 40000000 in
set_option maxRecDepth 8192 in
/-- Window 1 is the straight line of its operations. -/
theorem main_part1_eq (c : Dev nD) : main_part1 (F := F) c = seq ops1 := by
  chain_rfl

set_option maxHeartbeats 40000000 in
set_option maxRecDepth 8192 in
/-- Each operation touches TensorCore references only. -/
theorem ops1_sub : (ops1 : List (HloOp τ sig (Elt F))).Forall fun op => op.bufs ⊆ tcRefs τ sig :=
  ⟨StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.unary_bufs_sub .., StableHlo.binary_bufs_sub .., StableHlo.binary_bufs_sub .., StableHlo.unary_bufs_sub .., StableHlo.reshape_bufs_sub .., StableHlo.unary_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.unary_bufs_sub .., StableHlo.binary_bufs_sub .., StableHlo.binary_bufs_sub .., StableHlo.unary_bufs_sub .., StableHlo.reshape_bufs_sub ..⟩

set_option maxHeartbeats 40000000 in
set_option maxRecDepth 8192 in
/-- Each operation determines what it writes. -/
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references the window's operations write, in order. -/
abbrev ops1_W : List (Ref sig .tc) :=
  [main_v48, main_v49, main_v50, main_v51, main_v52, main_v53, main_v54, main_v55, main_v56, main_v57, main_call1_cst, main_call1_v0, main_v58, main_v59, main_v60, main_v61, main_v62, main_v63, main_v64, main_v65, main_v66, main_v67, main_v68, main_v69, main_v70, main_v71, main_v72, main_v73, main_v74, main_v75, main_v76, main_cst_10, main_v77, main_cst_11, main_v78, main_v79, main_c_12, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v80, main_v81, main_v82, main_v83, main_cst_13, main_v84, main_v85, main_v86, main_v87, main_v88, main_v89, main_v90, main_v91, main_v92, main_v93, main_v94, main_v95, main_call3_cst, main_call3_v0, main_v96, main_v97, main_v98, main_v99, main_v100, main_v101, main_v102, main_v103]

set_option maxHeartbeats 40000000 in
set_option maxRecDepth 8192 in
/-- Each operation writes its own result reference, the one listed at its place. -/
theorem ops1_writes : (ops1 : List (HloOp τ sig (Elt F))).Forall fun op => op.writes ⊆ (ops1_W.map (Proc.devRef (τ := τ) .tc)).toFinset :=
  ⟨(Finset.singleton_subset_iff (a := Proc.devRef (τ := τ) .tc main_v48)).mpr (List.mem_toFinset.mpr (List.mem_map_of_mem (by decide))),
   (Finset.singleton_subset_iff (a := Proc.devRef (τ := τ) .tc main_v49)).mpr (List.mem_toFinset.mpr (List.mem_map_of_mem (by decide))),
   (Finset.singleton_subset_iff (a := Proc.devRef (τ := τ) .tc main_v50)).mpr (List.mem_toFinset.mpr (List.mem_map_of_mem (by decide))),
   (Finset.singleton_subset_iff (a := Proc.devRef (τ := τ) .tc main_v51)).mpr (List.mem_toFinset.mpr (List.mem_map_of_mem (by decide))),
   (Finset.singleton_subset_iff (a := Proc.devRef (τ := τ) .tc main_v52)).mpr (List.mem_toFinset.mpr (List.mem_map_of_mem (by decide))),
   (Finset.singleton_subset_iff (a := Proc.devRef (τ := τ) .tc main_v53)).mpr (List.mem_toFinset.mpr (List.mem_map_of_mem (by decide))),
   (Finset.singleton_subset_iff (a := Proc.devRef (τ := τ) .tc main_v54)).mpr (List.mem_toFinset.mpr (List.mem_map_of_mem (by decide))),
   (Finset.singleton_subset_iff (a := Proc.devRef (τ := τ) .tc main_v55)).mpr (List.mem_toFinset.mpr (List.mem_map_of_mem (by decide))),
   (Finset.singleton_subset_iff (a := Proc.devRef (τ := τ) .tc main_v56)).mpr (List.mem_toFinset.mpr (List.mem_map_of_mem (by decide))),
   (Finset.singleton_subset_iff (a := Proc.devRef (τ := τ) .tc main_v57)).mpr (List.mem_toFinset.mpr (List.mem_map_of_mem (by decide))),
   (Finset.singleton_subset_iff (a := Proc.devRef (τ := τ) .tc main_call1_cst)).mpr (List.mem_toFinset.mpr (List.mem_map_of_mem (by decide))),
   (Finset.singleton_subset_iff (a := Proc.devRef (τ := τ) .tc main_call1_v0)).mpr (List.mem_toFinset.mpr (List.mem_map_of_mem (by decide))),
   (Finset.singleton_subset_iff (a := Proc.devRef (τ := τ) .tc main_v58)).mpr (List.mem_toFinset.mpr (List.mem_map_of_mem (by decide))),
   (Finset.singleton_subset_iff (a := Proc.devRef (τ := τ) .tc main_v59)).mpr (List.mem_toFinset.mpr (List.mem_map_of_mem (by decide))),
   (Finset.singleton_subset_iff (a := Proc.devRef (τ := τ) .tc main_v60)).mpr (List.mem_toFinset.mpr (List.mem_map_of_mem (by decide))),
   (Finset.singleton_subset_iff (a := Proc.devRef (τ := τ) .tc main_v61)).mpr (List.mem_toFinset.mpr (List.mem_map_of_mem (by decide))),
   (Finset.singleton_subset_iff (a := Proc.devRef (τ := τ) .tc main_v62)).mpr (List.mem_toFinset.mpr (List.mem_map_of_mem (by decide))),
   (Finset.singleton_subset_iff (a := Proc.devRef (τ := τ) .tc main_v63)).mpr (List.mem_toFinset.mpr (List.mem_map_of_mem (by decide))),
   (Finset.singleton_subset_iff (a := Proc.devRef (τ := τ) .tc main_v64)).mpr (List.mem_toFinset.mpr (List.mem_map_of_mem (by decide))),
   (Finset.singleton_subset_iff (a := Proc.devRef (τ := τ) .tc main_v65)).mpr (List.mem_toFinset.mpr (List.mem_map_of_mem (by decide))),
   (Finset.singleton_subset_iff (a := Proc.devRef (τ := τ) .tc main_v66)).mpr (List.mem_toFinset.mpr (List.mem_map_of_mem (by decide))),
   (Finset.singleton_subset_iff (a := Proc.devRef (τ := τ) .tc main_v67)).mpr (List.mem_toFinset.mpr (List.mem_map_of_mem (by decide))),
   (Finset.singleton_subset_iff (a := Proc.devRef (τ := τ) .tc main_v68)).mpr (List.mem_toFinset.mpr (List.mem_map_of_mem (by decide))),
   (Finset.singleton_subset_iff (a := Proc.devRef (τ := τ) .tc main_v69)).mpr (List.mem_toFinset.mpr (List.mem_map_of_mem (by decide))),
   (Finset.singleton_subset_iff (a := Proc.devRef (τ := τ) .tc main_v70)).mpr (List.mem_toFinset.mpr (List.mem_map_of_mem (by decide))),
   (Finset.singleton_subset_iff (a := Proc.devRef (τ := τ) .tc main_v71)).mpr (List.mem_toFinset.mpr (List.mem_map_of_mem (by decide))),
   (Finset.singleton_subset_iff (a := Proc.devRef (τ := τ) .tc main_v72)).mpr (List.mem_toFinset.mpr (List.mem_map_of_mem (by decide))),
   (Finset.singleton_subset_iff (a := Proc.devRef (τ := τ) .tc main_v73)).mpr (List.mem_toFinset.mpr (List.mem_map_of_mem (by decide))),
   (Finset.singleton_subset_iff (a := Proc.devRef (τ := τ) .tc main_v74)).mpr (List.mem_toFinset.mpr (List.mem_map_of_mem (by decide))),
   (Finset.singleton_subset_iff (a := Proc.devRef (τ := τ) .tc main_v75)).mpr (List.mem_toFinset.mpr (List.mem_map_of_mem (by decide))),
   (Finset.singleton_subset_iff (a := Proc.devRef (τ := τ) .tc main_v76)).mpr (List.mem_toFinset.mpr (List.mem_map_of_mem (by decide))),
   (Finset.singleton_subset_iff (a := Proc.devRef (τ := τ) .tc main_cst_10)).mpr (List.mem_toFinset.mpr (List.mem_map_of_mem (by decide))),
   (Finset.singleton_subset_iff (a := Proc.devRef (τ := τ) .tc main_v77)).mpr (List.mem_toFinset.mpr (List.mem_map_of_mem (by decide))),
   (Finset.singleton_subset_iff (a := Proc.devRef (τ := τ) .tc main_cst_11)).mpr (List.mem_toFinset.mpr (List.mem_map_of_mem (by decide))),
   (Finset.singleton_subset_iff (a := Proc.devRef (τ := τ) .tc main_v78)).mpr (List.mem_toFinset.mpr (List.mem_map_of_mem (by decide))),
   (Finset.singleton_subset_iff (a := Proc.devRef (τ := τ) .tc main_v79)).mpr (List.mem_toFinset.mpr (List.mem_map_of_mem (by decide))),
   (Finset.singleton_subset_iff (a := Proc.devRef (τ := τ) .tc main_c_12)).mpr (List.mem_toFinset.mpr (List.mem_map_of_mem (by decide))),
   (Finset.singleton_subset_iff (a := Proc.devRef (τ := τ) .tc main_call2_cst)).mpr (List.mem_toFinset.mpr (List.mem_map_of_mem (by decide))),
   (Finset.singleton_subset_iff (a := Proc.devRef (τ := τ) .tc main_call2_v0)).mpr (List.mem_toFinset.mpr (List.mem_map_of_mem (by decide))),
   (Finset.singleton_subset_iff (a := Proc.devRef (τ := τ) .tc main_call2_v1)).mpr (List.mem_toFinset.mpr (List.mem_map_of_mem (by decide))),
   (Finset.singleton_subset_iff (a := Proc.devRef (τ := τ) .tc main_call2_cst_0)).mpr (List.mem_toFinset.mpr (List.mem_map_of_mem (by decide))),
   (Finset.singleton_subset_iff (a := Proc.devRef (τ := τ) .tc main_call2_v2)).mpr (List.mem_toFinset.mpr (List.mem_map_of_mem (by decide))),
   (Finset.singleton_subset_iff (a := Proc.devRef (τ := τ) .tc main_call2_v3)).mpr (List.mem_toFinset.mpr (List.mem_map_of_mem (by decide))),
   (Finset.singleton_subset_iff (a := Proc.devRef (τ := τ) .tc main_call2_v4)).mpr (List.mem_toFinset.mpr (List.mem_map_of_mem (by decide))),
   (Finset.singleton_subset_iff (a := Proc.devRef (τ := τ) .tc main_call2_v5)).mpr (List.mem_toFinset.mpr (List.mem_map_of_mem (by decide))),
   (Finset.singleton_subset_iff (a := Proc.devRef (τ := τ) .tc main_call2_v6)).mpr (List.mem_toFinset.mpr (List.mem_map_of_mem (by decide))),
   (Finset.singleton_subset_iff (a := Proc.devRef (τ := τ) .tc main_call2_v7)).mpr (List.mem_toFinset.mpr (List.mem_map_of_mem (by decide))),
   (Finset.singleton_subset_iff (a := Proc.devRef (τ := τ) .tc main_call2_cst_1)).mpr (List.mem_toFinset.mpr (List.mem_map_of_mem (by decide))),
   (Finset.singleton_subset_iff (a := Proc.devRef (τ := τ) .tc main_call2_v8)).mpr (List.mem_toFinset.mpr (List.mem_map_of_mem (by decide))),
   (Finset.singleton_subset_iff (a := Proc.devRef (τ := τ) .tc main_call2_cst_2)).mpr (List.mem_toFinset.mpr (List.mem_map_of_mem (by decide))),
   (Finset.singleton_subset_iff (a := Proc.devRef (τ := τ) .tc main_call2_v9)).mpr (List.mem_toFinset.mpr (List.mem_map_of_mem (by decide))),
   (Finset.singleton_subset_iff (a := Proc.devRef (τ := τ) .tc main_call2_v10)).mpr (List.mem_toFinset.mpr (List.mem_map_of_mem (by decide))),
   (Finset.singleton_subset_iff (a := Proc.devRef (τ := τ) .tc main_call2_v11)).mpr (List.mem_toFinset.mpr (List.mem_map_of_mem (by decide))),
   (Finset.singleton_subset_iff (a := Proc.devRef (τ := τ) .tc main_call2_cst_3)).mpr (List.mem_toFinset.mpr (List.mem_map_of_mem (by decide))),
   (Finset.singleton_subset_iff (a := Proc.devRef (τ := τ) .tc main_call2_v12)).mpr (List.mem_toFinset.mpr (List.mem_map_of_mem (by decide))),
   (Finset.singleton_subset_iff (a := Proc.devRef (τ := τ) .tc main_call2_cst_4)).mpr (List.mem_toFinset.mpr (List.mem_map_of_mem (by decide))),
   (Finset.singleton_subset_iff (a := Proc.devRef (τ := τ) .tc main_call2_call0_v0)).mpr (List.mem_toFinset.mpr (List.mem_map_of_mem (by decide))),
   (Finset.singleton_subset_iff (a := Proc.devRef (τ := τ) .tc main_call2_call0_v1)).mpr (List.mem_toFinset.mpr (List.mem_map_of_mem (by decide))),
   (Finset.singleton_subset_iff (a := Proc.devRef (τ := τ) .tc main_v80)).mpr (List.mem_toFinset.mpr (List.mem_map_of_mem (by decide))),
   (Finset.singleton_subset_iff (a := Proc.devRef (τ := τ) .tc main_v81)).mpr (List.mem_toFinset.mpr (List.mem_map_of_mem (by decide))),
   (Finset.singleton_subset_iff (a := Proc.devRef (τ := τ) .tc main_v82)).mpr (List.mem_toFinset.mpr (List.mem_map_of_mem (by decide))),
   (Finset.singleton_subset_iff (a := Proc.devRef (τ := τ) .tc main_v83)).mpr (List.mem_toFinset.mpr (List.mem_map_of_mem (by decide))),
   (Finset.singleton_subset_iff (a := Proc.devRef (τ := τ) .tc main_cst_13)).mpr (List.mem_toFinset.mpr (List.mem_map_of_mem (by decide))),
   (Finset.singleton_subset_iff (a := Proc.devRef (τ := τ) .tc main_v84)).mpr (List.mem_toFinset.mpr (List.mem_map_of_mem (by decide))),
   (Finset.singleton_subset_iff (a := Proc.devRef (τ := τ) .tc main_v85)).mpr (List.mem_toFinset.mpr (List.mem_map_of_mem (by decide))),
   (Finset.singleton_subset_iff (a := Proc.devRef (τ := τ) .tc main_v86)).mpr (List.mem_toFinset.mpr (List.mem_map_of_mem (by decide))),
   (Finset.singleton_subset_iff (a := Proc.devRef (τ := τ) .tc main_v87)).mpr (List.mem_toFinset.mpr (List.mem_map_of_mem (by decide))),
   (Finset.singleton_subset_iff (a := Proc.devRef (τ := τ) .tc main_v88)).mpr (List.mem_toFinset.mpr (List.mem_map_of_mem (by decide))),
   (Finset.singleton_subset_iff (a := Proc.devRef (τ := τ) .tc main_v89)).mpr (List.mem_toFinset.mpr (List.mem_map_of_mem (by decide))),
   (Finset.singleton_subset_iff (a := Proc.devRef (τ := τ) .tc main_v90)).mpr (List.mem_toFinset.mpr (List.mem_map_of_mem (by decide))),
   (Finset.singleton_subset_iff (a := Proc.devRef (τ := τ) .tc main_v91)).mpr (List.mem_toFinset.mpr (List.mem_map_of_mem (by decide))),
   (Finset.singleton_subset_iff (a := Proc.devRef (τ := τ) .tc main_v92)).mpr (List.mem_toFinset.mpr (List.mem_map_of_mem (by decide))),
   (Finset.singleton_subset_iff (a := Proc.devRef (τ := τ) .tc main_v93)).mpr (List.mem_toFinset.mpr (List.mem_map_of_mem (by decide))),
   (Finset.singleton_subset_iff (a := Proc.devRef (τ := τ) .tc main_v94)).mpr (List.mem_toFinset.mpr (List.mem_map_of_mem (by decide))),
   (Finset.singleton_subset_iff (a := Proc.devRef (τ := τ) .tc main_v95)).mpr (List.mem_toFinset.mpr (List.mem_map_of_mem (by decide))),
   (Finset.singleton_subset_iff (a := Proc.devRef (τ := τ) .tc main_call3_cst)).mpr (List.mem_toFinset.mpr (List.mem_map_of_mem (by decide))),
   (Finset.singleton_subset_iff (a := Proc.devRef (τ := τ) .tc main_call3_v0)).mpr (List.mem_toFinset.mpr (List.mem_map_of_mem (by decide))),
   (Finset.singleton_subset_iff (a := Proc.devRef (τ := τ) .tc main_v96)).mpr (List.mem_toFinset.mpr (List.mem_map_of_mem (by decide))),
   (Finset.singleton_subset_iff (a := Proc.devRef (τ := τ) .tc main_v97)).mpr (List.mem_toFinset.mpr (List.mem_map_of_mem (by decide))),
   (Finset.singleton_subset_iff (a := Proc.devRef (τ := τ) .tc main_v98)).mpr (List.mem_toFinset.mpr (List.mem_map_of_mem (by decide))),
   (Finset.singleton_subset_iff (a := Proc.devRef (τ := τ) .tc main_v99)).mpr (List.mem_toFinset.mpr (List.mem_map_of_mem (by decide))),
   (Finset.singleton_subset_iff (a := Proc.devRef (τ := τ) .tc main_v100)).mpr (List.mem_toFinset.mpr (List.mem_map_of_mem (by decide))),
   (Finset.singleton_subset_iff (a := Proc.devRef (τ := τ) .tc main_v101)).mpr (List.mem_toFinset.mpr (List.mem_map_of_mem (by decide))),
   (Finset.singleton_subset_iff (a := Proc.devRef (τ := τ) .tc main_v102)).mpr (List.mem_toFinset.mpr (List.mem_map_of_mem (by decide))),
   (Finset.singleton_subset_iff (a := Proc.devRef (τ := τ) .tc main_v103)).mpr (List.mem_toFinset.mpr (List.mem_map_of_mem (by decide)))⟩

/-- A reference the window does not write keeps its contents through it. -/
theorem ops1_keep (V : Valuation τ sig (Elt F)) (r : Ref sig .tc) (h : r ∉ ops1_W) :
    after ops1 V (Proc.devRef .tc r) = V (Proc.devRef .tc r) :=
  after_of_writes_sub ops1 V ops1_writes h

end Cert.ReferenceIdeal.Hand

end
-- ==== Proof.Ref.Ops2.lean ====
import proofs.«414290_j6631429505478_3_alg».proof.Proof.Gen.ReferenceIdeal
import Idealize.ShloMosaic.Lib.StableHlo.Run
import Idealize.ShloMosaic.Lib.Pipeline.Frame

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
set_option maxRecDepth 8192 in
/-- The 83 operations of window 2 of @main, in order, a called function's operations in its call's place. -/
abbrev ops2 : List (HloOp τ sig (Elt F)) :=
  [ StableHlo.unary main_v103 main_v104 ((transpose S128x128 [1, 0] · transposes_S128x128_S128x128_1_0) : (⟨S128x128, .f32⟩ : BufTy).Contents (Elt F) → (⟨S128x128, .f32⟩ : BufTy).Contents (Elt F)),
    StableHlo.binary main_arg2 main_v104 main_v105 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg5 main_v106 ((extractStridedSlice S1x1x128 ![0, 2, 0] · slices_S6x3x128_S1x1x128_0_2_0) : (⟨S6x3x128, .f32⟩ : BufTy).Contents (Elt F) → (⟨S1x1x128, .f32⟩ : BufTy).Contents (Elt F)),
    StableHlo.reshape main_v106 main_v107 rfl shapeCasts_S1x1x128_S128,
    StableHlo.unary main_v107 main_v108 (broadcastInDim S1x128 ![1] bcast_S128_S1x128_1 : (⟨S128, .f32⟩ : BufTy).Contents (Elt F) → (⟨S1x128, .f32⟩ : BufTy).Contents (Elt F)),
    StableHlo.unary main_v108 main_v109 (broadcastInDim S50000x128 ![0, 1] bcast_S1x128_S50000x128_0_1 : (⟨S1x128, .f32⟩ : BufTy).Contents (Elt F) → (⟨S50000x128, .f32⟩ : BufTy).Contents (Elt F)),
    StableHlo.binary main_v105 main_v109 main_v110 (addf : (⟨S50000x128, .f32⟩ : BufTy).Contents (Elt F) → (⟨S50000x128, .f32⟩ : BufTy).Contents (Elt F) → (⟨S50000x128, .f32⟩ : BufTy).Contents (Elt F)),
    StableHlo.unary main_arg6 main_v111 ((extractStridedSlice S1x1x128 ![0, 2, 0] · slices_S6x3x128_S1x1x128_0_2_0) : (⟨S6x3x128, .f32⟩ : BufTy).Contents (Elt F) → (⟨S1x1x128, .f32⟩ : BufTy).Contents (Elt F)),
    StableHlo.reshape main_v111 main_v112 rfl shapeCasts_S1x1x128_S128,
    StableHlo.unary main_arg7 main_v113 ((extractStridedSlice S1x1x128 ![0, 2, 0] · slices_S6x3x128_S1x1x128_0_2_0) : (⟨S6x3x128, .f32⟩ : BufTy).Contents (Elt F) → (⟨S1x1x128, .f32⟩ : BufTy).Contents (Elt F)),
    StableHlo.reshape main_v113 main_v114 rfl shapeCasts_S1x1x128_S128,
    StableHlo.nullary main_cst_14 (constant S_ .f32 0x00000000#32),
    StableHlo.binary main_v110 main_cst_14 main_v115 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_15 (constant S_ .f32 0x47435000#32),
    StableHlo.unary main_cst_15 main_v116 (broadcastInDim S128 ![] bcast_S_S128 : (⟨S_, .f32⟩ : BufTy).Contents (Elt F) → (⟨S128, .f32⟩ : BufTy).Contents (Elt F)),
    StableHlo.binary main_v115 main_v116 main_v117 (Host.divf : (⟨S128, .f32⟩ : BufTy).Contents (Elt F) → (⟨S128, .f32⟩ : BufTy).Contents (Elt F) → (⟨S128, .f32⟩ : BufTy).Contents (Elt F)),
    StableHlo.nullary main_c_16 (constantI S_ 32 0#32),
    StableHlo.TRef.nullary main_call4.cst (constant S_ .f32 0x00000000#32),
    StableHlo.TRef.binary (.of main_v110 : StableHlo.TRef sig ⟨S50000x128, .f32⟩) main_call4.cst main_call4.v0 (fun x v => Host.reduceAdd x v reducesTo_S50000x128_S128_d0 h_S_),
    StableHlo.TRef.unary main_call4.v0 main_call4.v1 (broadcastInDim S1x128 ![1] bcast_S128_S1x128_1),
    StableHlo.TRef.nullary main_call4.cst_0 (constant S_ .f32 0x47435000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S50000x128 ![0, 1] bcast_S1x128_S50000x128_0_1),
    StableHlo.TRef.binary (.of main_v110 : StableHlo.TRef sig ⟨S50000x128, .f32⟩) main_call4.v4 main_call4.v5 subf,
    StableHlo.TRef.binary main_call4.v5 main_call4.v5 main_call4.v6 mulf,
    StableHlo.TRef.unary (.of main_c_16 : StableHlo.TRef sig ⟨S_, .i32⟩) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x128_S128_d0 h_S_),
    StableHlo.TRef.unary main_call4.v8 main_call4.v10 (broadcastInDim S128 ![] bcast_S_S128),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S128 ![] bcast_S_S128),
    StableHlo.TRef.ternary main_call4.v12 main_call4.v11 main_call4.call0.v1 main_call4.call0.v2 (fun p a b => select (broadcastInDim S128 ![] bcast_S_S128 p) a b),
    StableHlo.unary main_v117 main_v119 (broadcastInDim S1x128 ![1] bcast_S128_S1x128_1 : (⟨S128, .f32⟩ : BufTy).Contents (Elt F) → (⟨S1x128, .f32⟩ : BufTy).Contents (Elt F)),
    StableHlo.unary main_v119 main_v120 (broadcastInDim S50000x128 ![0, 1] bcast_S1x128_S50000x128_0_1 : (⟨S1x128, .f32⟩ : BufTy).Contents (Elt F) → (⟨S50000x128, .f32⟩ : BufTy).Contents (Elt F)),
    StableHlo.binary main_v110 main_v120 main_v121 (subf : (⟨S50000x128, .f32⟩ : BufTy).Contents (Elt F) → (⟨S50000x128, .f32⟩ : BufTy).Contents (Elt F) → (⟨S50000x128, .f32⟩ : BufTy).Contents (Elt F)),
    StableHlo.nullary main_cst_17 (constant S_ .f32 0x3727C5AC#32),
    StableHlo.unary main_cst_17 main_v122 (broadcastInDim S128 ![] bcast_S_S128 : (⟨S_, .f32⟩ : BufTy).Contents (Elt F) → (⟨S128, .f32⟩ : BufTy).Contents (Elt F)),
    StableHlo.binary main_v118 main_v122 main_v123 (addf : (⟨S128, .f32⟩ : BufTy).Contents (Elt F) → (⟨S128, .f32⟩ : BufTy).Contents (Elt F) → (⟨S128, .f32⟩ : BufTy).Contents (Elt F)),
    StableHlo.unary main_v123 main_v124 (Host.rsqrt : (⟨S128, .f32⟩ : BufTy).Contents (Elt F) → (⟨S128, .f32⟩ : BufTy).Contents (Elt F)),
    StableHlo.unary main_v124 main_v125 (broadcastInDim S1x128 ![1] bcast_S128_S1x128_1 : (⟨S128, .f32⟩ : BufTy).Contents (Elt F) → (⟨S1x128, .f32⟩ : BufTy).Contents (Elt F)),
    StableHlo.unary main_v125 main_v126 (broadcastInDim S50000x128 ![0, 1] bcast_S1x128_S50000x128_0_1 : (⟨S1x128, .f32⟩ : BufTy).Contents (Elt F) → (⟨S50000x128, .f32⟩ : BufTy).Contents (Elt F)),
    StableHlo.binary main_v121 main_v126 main_v127 (mulf : (⟨S50000x128, .f32⟩ : BufTy).Contents (Elt F) → (⟨S50000x128, .f32⟩ : BufTy).Contents (Elt F) → (⟨S50000x128, .f32⟩ : BufTy).Contents (Elt F)),
    StableHlo.unary main_v112 main_v128 (broadcastInDim S1x128 ![1] bcast_S128_S1x128_1 : (⟨S128, .f32⟩ : BufTy).Contents (Elt F) → (⟨S1x128, .f32⟩ : BufTy).Contents (Elt F)),
    StableHlo.unary main_v128 main_v129 (broadcastInDim S50000x128 ![0, 1] bcast_S1x128_S50000x128_0_1 : (⟨S1x128, .f32⟩ : BufTy).Contents (Elt F) → (⟨S50000x128, .f32⟩ : BufTy).Contents (Elt F)),
    StableHlo.binary main_v127 main_v129 main_v130 (mulf : (⟨S50000x128, .f32⟩ : BufTy).Contents (Elt F) → (⟨S50000x128, .f32⟩ : BufTy).Contents (Elt F) → (⟨S50000x128, .f32⟩ : BufTy).Contents (Elt F)),
    StableHlo.unary main_v114 main_v131 (broadcastInDim S1x128 ![1] bcast_S128_S1x128_1 : (⟨S128, .f32⟩ : BufTy).Contents (Elt F) → (⟨S1x128, .f32⟩ : BufTy).Contents (Elt F)),
    StableHlo.unary main_v131 main_v132 (broadcastInDim S50000x128 ![0, 1] bcast_S1x128_S50000x128_0_1 : (⟨S1x128, .f32⟩ : BufTy).Contents (Elt F) → (⟨S50000x128, .f32⟩ : BufTy).Contents (Elt F)),
    StableHlo.binary main_v130 main_v132 main_v133 (addf : (⟨S50000x128, .f32⟩ : BufTy).Contents (Elt F) → (⟨S50000x128, .f32⟩ : BufTy).Contents (Elt F) → (⟨S50000x128, .f32⟩ : BufTy).Contents (Elt F)),
    StableHlo.TRef.nullary main_call5.cst (constant S_ .f32 0x00000000#32),
    StableHlo.TRef.unary main_call5.cst main_call5.v0 (broadcastInDim S50000x128 ![] bcast_S_S50000x128),
    StableHlo.TRef.binary (.of main_v133 : StableHlo.TRef sig ⟨S50000x128, .f32⟩) main_call5.v0 main_call5.v1 maximumf,
    StableHlo.unary main_arg3 main_v135 ((extractStridedSlice S1x1 ![0, 2] · slices_S6x3_S1x1_0_2) : (⟨S6x3, .f32⟩ : BufTy).Contents (Elt F) → (⟨S1x1, .f32⟩ : BufTy).Contents (Elt F)),
    StableHlo.reshape main_v135 main_v136 rfl shapeCasts_S1x1_S_,
    StableHlo.unary main_v136 main_v137 (broadcastInDim S50000x128 ![] bcast_S_S50000x128 : (⟨S_, .f32⟩ : BufTy).Contents (Elt F) → (⟨S50000x128, .f32⟩ : BufTy).Contents (Elt F)),
    StableHlo.binary main_v137 main_v134 main_v138 (mulf : (⟨S50000x128, .f32⟩ : BufTy).Contents (Elt F) → (⟨S50000x128, .f32⟩ : BufTy).Contents (Elt F) → (⟨S50000x128, .f32⟩ : BufTy).Contents (Elt F)),
    StableHlo.binary main_v101 main_v138 main_v139 (addf : (⟨S50000x128, .f32⟩ : BufTy).Contents (Elt F) → (⟨S50000x128, .f32⟩ : BufTy).Contents (Elt F) → (⟨S50000x128, .f32⟩ : BufTy).Contents (Elt F)),
    StableHlo.nullary main_cst_18 (constant S_ .f32 0x00000000#32),
    StableHlo.unary main_cst_18 main_v140 (broadcastInDim S50000x128 ![] bcast_S_S50000x128 : (⟨S_, .f32⟩ : BufTy).Contents (Elt F) → (⟨S50000x128, .f32⟩ : BufTy).Contents (Elt F)),
    StableHlo.binary main_v140 main_v139 main_v141 (addf : (⟨S50000x128, .f32⟩ : BufTy).Contents (Elt F) → (⟨S50000x128, .f32⟩ : BufTy).Contents (Elt F) → (⟨S50000x128, .f32⟩ : BufTy).Contents (Elt F)),
    StableHlo.nullary main_c_19 (constantI S_ 32 0#32),
    StableHlo.unary main_c_19 main_v142 (broadcastInDim S800000 ![] bcast_S_S800000 : (⟨S_, .i32⟩ : BufTy).Contents (Elt F) → (⟨S800000, .i32⟩ : BufTy).Contents (Elt F)),
    StableHlo.binary main_v1 main_v142 main_v143 (cmpi .slt : (⟨S800000, .i32⟩ : BufTy).Contents (Elt F) → (⟨S800000, .i32⟩ : BufTy).Contents (Elt F) → (⟨S800000, .i1⟩ : BufTy).Contents (Elt F)),
    StableHlo.nullary main_c_20 (constantI S_ 32 50000#32),
    StableHlo.unary main_c_20 main_v144 (broadcastInDim S800000 ![] bcast_S_S800000 : (⟨S_, .i32⟩ : BufTy).Contents (Elt F) → (⟨S800000, .i32⟩ : BufTy).Contents (Elt F)),
    StableHlo.binary main_v1 main_v144 main_v145 (addi : (⟨S800000, .i32⟩ : BufTy).Contents (Elt F) → (⟨S800000, .i32⟩ : BufTy).Contents (Elt F) → (⟨S800000, .i32⟩ : BufTy).Contents (Elt F)),
    StableHlo.ternary main_v143 main_v145 main_v1 main_v146 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v146 main_v147 (broadcastInDim S800000x1 ![0] bcast_S800000_S800000x1_0 : (⟨S800000, .i32⟩ : BufTy).Contents (Elt F) → (⟨S800000x1, .i32⟩ : BufTy).Contents (Elt F)),
    StableHlo.binary main_arg1 main_v147 main_v148 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_21 (constant S_ .f32 0x00000000#32),
    StableHlo.unary main_cst_21 main_v149 (broadcastInDim S50000x128 ![] bcast_S_S50000x128 : (⟨S_, .f32⟩ : BufTy).Contents (Elt F) → (⟨S50000x128, .f32⟩ : BufTy).Contents (Elt F)),
    StableHlo.unary main_v3 main_v150 (broadcastInDim S800000x1 ![0] bcast_S800000_S800000x1_0 : (⟨S800000, .i32⟩ : BufTy).Contents (Elt F) → (⟨S800000x1, .i32⟩ : BufTy).Contents (Elt F)),
    StableHlo.ternary main_v149 main_v150 main_v148 main_v151 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v12 main_v152 (broadcastInDim S50000x128 ![0, 1] bcast_S50000x1_S50000x128_0_1 : (⟨S50000x1, .f32⟩ : BufTy).Contents (Elt F) → (⟨S50000x128, .f32⟩ : BufTy).Contents (Elt F)),
    StableHlo.binary main_v151 main_v152 main_v153 (mulf : (⟨S50000x128, .f32⟩ : BufTy).Contents (Elt F) → (⟨S50000x128, .f32⟩ : BufTy).Contents (Elt F) → (⟨S50000x128, .f32⟩ : BufTy).Contents (Elt F)),
    StableHlo.nullary main_cst_22 (constant S_ .f32 0x00000000#32),
    StableHlo.unary main_cst_22 main_v154 (broadcastInDim S50000x128 ![] bcast_S_S50000x128 : (⟨S_, .f32⟩ : BufTy).Contents (Elt F) → (⟨S50000x128, .f32⟩ : BufTy).Contents (Elt F)) ]

set_option maxHeartbeats 40000000 in
set_option maxRecDepth 8192 in
/-- Window 2 is the straight line of its operations. -/
theorem main_part2_eq (c : Dev nD) : main_part2 (F := F) c = seq ops2 := by
  chain_rfl

set_option maxHeartbeats 40000000 in
set_option maxRecDepth 8192 in
/-- Each operation touches TensorCore references only. -/
theorem ops2_sub : (ops2 : List (HloOp τ sig (Elt F))).Forall fun op => op.bufs ⊆ tcRefs τ sig :=
  ⟨StableHlo.unary_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.binary_bufs_sub .., StableHlo.nullary_bufs_sub .., StableHlo.unary_bufs_sub ..⟩

set_option maxHeartbeats 40000000 in
set_option maxRecDepth 8192 in
/-- Each operation determines what it writes. -/
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references the window's operations write, in order. -/
abbrev ops2_W : List (Ref sig .tc) :=
  [main_v104, main_v105, main_v106, main_v107, main_v108, main_v109, main_v110, main_v111, main_v112, main_v113, main_v114, main_cst_14, main_v115, main_cst_15, main_v116, main_v117, main_c_16, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v118, main_v119, main_v120, main_v121, main_cst_17, main_v122, main_v123, main_v124, main_v125, main_v126, main_v127, main_v128, main_v129, main_v130, main_v131, main_v132, main_v133, main_call5_cst, main_call5_v0, main_v134, main_v135, main_v136, main_v137, main_v138, main_v139, main_cst_18, main_v140, main_v141, main_c_19, main_v142, main_v143, main_c_20, main_v144, main_v145, main_v146, main_v147, main_v148, main_cst_21, main_v149, main_v150, main_v151, main_v152, main_v153, main_cst_22, main_v154]

set_option maxHeartbeats 40000000 in
set_option maxRecDepth 8192 in
/-- Each operation writes its own result reference, the one listed at its place. -/
theorem ops2_writes : (ops2 : List (HloOp τ sig (Elt F))).Forall fun op => op.writes ⊆ (ops2_W.map (Proc.devRef (τ := τ) .tc)).toFinset :=
  ⟨(Finset.singleton_subset_iff (a := Proc.devRef (τ := τ) .tc main_v104)).mpr (List.mem_toFinset.mpr (List.mem_map_of_mem (by decide))),
   (Finset.singleton_subset_iff (a := Proc.devRef (τ := τ) .tc main_v105)).mpr (List.mem_toFinset.mpr (List.mem_map_of_mem (by decide))),
   (Finset.singleton_subset_iff (a := Proc.devRef (τ := τ) .tc main_v106)).mpr (List.mem_toFinset.mpr (List.mem_map_of_mem (by decide))),
   (Finset.singleton_subset_iff (a := Proc.devRef (τ := τ) .tc main_v107)).mpr (List.mem_toFinset.mpr (List.mem_map_of_mem (by decide))),
   (Finset.singleton_subset_iff (a := Proc.devRef (τ := τ) .tc main_v108)).mpr (List.mem_toFinset.mpr (List.mem_map_of_mem (by decide))),
   (Finset.singleton_subset_iff (a := Proc.devRef (τ := τ) .tc main_v109)).mpr (List.mem_toFinset.mpr (List.mem_map_of_mem (by decide))),
   (Finset.singleton_subset_iff (a := Proc.devRef (τ := τ) .tc main_v110)).mpr (List.mem_toFinset.mpr (List.mem_map_of_mem (by decide))),
   (Finset.singleton_subset_iff (a := Proc.devRef (τ := τ) .tc main_v111)).mpr (List.mem_toFinset.mpr (List.mem_map_of_mem (by decide))),
   (Finset.singleton_subset_iff (a := Proc.devRef (τ := τ) .tc main_v112)).mpr (List.mem_toFinset.mpr (List.mem_map_of_mem (by decide))),
   (Finset.singleton_subset_iff (a := Proc.devRef (τ := τ) .tc main_v113)).mpr (List.mem_toFinset.mpr (List.mem_map_of_mem (by decide))),
   (Finset.singleton_subset_iff (a := Proc.devRef (τ := τ) .tc main_v114)).mpr (List.mem_toFinset.mpr (List.mem_map_of_mem (by decide))),
   (Finset.singleton_subset_iff (a := Proc.devRef (τ := τ) .tc main_cst_14)).mpr (List.mem_toFinset.mpr (List.mem_map_of_mem (by decide))),
   (Finset.singleton_subset_iff (a := Proc.devRef (τ := τ) .tc main_v115)).mpr (List.mem_toFinset.mpr (List.mem_map_of_mem (by decide))),
   (Finset.singleton_subset_iff (a := Proc.devRef (τ := τ) .tc main_cst_15)).mpr (List.mem_toFinset.mpr (List.mem_map_of_mem (by decide))),
   (Finset.singleton_subset_iff (a := Proc.devRef (τ := τ) .tc main_v116)).mpr (List.mem_toFinset.mpr (List.mem_map_of_mem (by decide))),
   (Finset.singleton_subset_iff (a := Proc.devRef (τ := τ) .tc main_v117)).mpr (List.mem_toFinset.mpr (List.mem_map_of_mem (by decide))),
   (Finset.singleton_subset_iff (a := Proc.devRef (τ := τ) .tc main_c_16)).mpr (List.mem_toFinset.mpr (List.mem_map_of_mem (by decide))),
   (Finset.singleton_subset_iff (a := Proc.devRef (τ := τ) .tc main_call4_cst)).mpr (List.mem_toFinset.mpr (List.mem_map_of_mem (by decide))),
   (Finset.singleton_subset_iff (a := Proc.devRef (τ := τ) .tc main_call4_v0)).mpr (List.mem_toFinset.mpr (List.mem_map_of_mem (by decide))),
   (Finset.singleton_subset_iff (a := Proc.devRef (τ := τ) .tc main_call4_v1)).mpr (List.mem_toFinset.mpr (List.mem_map_of_mem (by decide))),
   (Finset.singleton_subset_iff (a := Proc.devRef (τ := τ) .tc main_call4_cst_0)).mpr (List.mem_toFinset.mpr (List.mem_map_of_mem (by decide))),
   (Finset.singleton_subset_iff (a := Proc.devRef (τ := τ) .tc main_call4_v2)).mpr (List.mem_toFinset.mpr (List.mem_map_of_mem (by decide))),
   (Finset.singleton_subset_iff (a := Proc.devRef (τ := τ) .tc main_call4_v3)).mpr (List.mem_toFinset.mpr (List.mem_map_of_mem (by decide))),
   (Finset.singleton_subset_iff (a := Proc.devRef (τ := τ) .tc main_call4_v4)).mpr (List.mem_toFinset.mpr (List.mem_map_of_mem (by decide))),
   (Finset.singleton_subset_iff (a := Proc.devRef (τ := τ) .tc main_call4_v5)).mpr (List.mem_toFinset.mpr (List.mem_map_of_mem (by decide))),
   (Finset.singleton_subset_iff (a := Proc.devRef (τ := τ) .tc main_call4_v6)).mpr (List.mem_toFinset.mpr (List.mem_map_of_mem (by decide))),
   (Finset.singleton_subset_iff (a := Proc.devRef (τ := τ) .tc main_call4_v7)).mpr (List.mem_toFinset.mpr (List.mem_map_of_mem (by decide))),
   (Finset.singleton_subset_iff (a := Proc.devRef (τ := τ) .tc main_call4_cst_1)).mpr (List.mem_toFinset.mpr (List.mem_map_of_mem (by decide))),
   (Finset.singleton_subset_iff (a := Proc.devRef (τ := τ) .tc main_call4_v8)).mpr (List.mem_toFinset.mpr (List.mem_map_of_mem (by decide))),
   (Finset.singleton_subset_iff (a := Proc.devRef (τ := τ) .tc main_call4_cst_2)).mpr (List.mem_toFinset.mpr (List.mem_map_of_mem (by decide))),
   (Finset.singleton_subset_iff (a := Proc.devRef (τ := τ) .tc main_call4_v9)).mpr (List.mem_toFinset.mpr (List.mem_map_of_mem (by decide))),
   (Finset.singleton_subset_iff (a := Proc.devRef (τ := τ) .tc main_call4_v10)).mpr (List.mem_toFinset.mpr (List.mem_map_of_mem (by decide))),
   (Finset.singleton_subset_iff (a := Proc.devRef (τ := τ) .tc main_call4_v11)).mpr (List.mem_toFinset.mpr (List.mem_map_of_mem (by decide))),
   (Finset.singleton_subset_iff (a := Proc.devRef (τ := τ) .tc main_call4_cst_3)).mpr (List.mem_toFinset.mpr (List.mem_map_of_mem (by decide))),
   (Finset.singleton_subset_iff (a := Proc.devRef (τ := τ) .tc main_call4_v12)).mpr (List.mem_toFinset.mpr (List.mem_map_of_mem (by decide))),
   (Finset.singleton_subset_iff (a := Proc.devRef (τ := τ) .tc main_call4_cst_4)).mpr (List.mem_toFinset.mpr (List.mem_map_of_mem (by decide))),
   (Finset.singleton_subset_iff (a := Proc.devRef (τ := τ) .tc main_call4_call0_v0)).mpr (List.mem_toFinset.mpr (List.mem_map_of_mem (by decide))),
   (Finset.singleton_subset_iff (a := Proc.devRef (τ := τ) .tc main_call4_call0_v1)).mpr (List.mem_toFinset.mpr (List.mem_map_of_mem (by decide))),
   (Finset.singleton_subset_iff (a := Proc.devRef (τ := τ) .tc main_v118)).mpr (List.mem_toFinset.mpr (List.mem_map_of_mem (by decide))),
   (Finset.singleton_subset_iff (a := Proc.devRef (τ := τ) .tc main_v119)).mpr (List.mem_toFinset.mpr (List.mem_map_of_mem (by decide))),
   (Finset.singleton_subset_iff (a := Proc.devRef (τ := τ) .tc main_v120)).mpr (List.mem_toFinset.mpr (List.mem_map_of_mem (by decide))),
   (Finset.singleton_subset_iff (a := Proc.devRef (τ := τ) .tc main_v121)).mpr (List.mem_toFinset.mpr (List.mem_map_of_mem (by decide))),
   (Finset.singleton_subset_iff (a := Proc.devRef (τ := τ) .tc main_cst_17)).mpr (List.mem_toFinset.mpr (List.mem_map_of_mem (by decide))),
   (Finset.singleton_subset_iff (a := Proc.devRef (τ := τ) .tc main_v122)).mpr (List.mem_toFinset.mpr (List.mem_map_of_mem (by decide))),
   (Finset.singleton_subset_iff (a := Proc.devRef (τ := τ) .tc main_v123)).mpr (List.mem_toFinset.mpr (List.mem_map_of_mem (by decide))),
   (Finset.singleton_subset_iff (a := Proc.devRef (τ := τ) .tc main_v124)).mpr (List.mem_toFinset.mpr (List.mem_map_of_mem (by decide))),
   (Finset.singleton_subset_iff (a := Proc.devRef (τ := τ) .tc main_v125)).mpr (List.mem_toFinset.mpr (List.mem_map_of_mem (by decide))),
   (Finset.singleton_subset_iff (a := Proc.devRef (τ := τ) .tc main_v126)).mpr (List.mem_toFinset.mpr (List.mem_map_of_mem (by decide))),
   (Finset.singleton_subset_iff (a := Proc.devRef (τ := τ) .tc main_v127)).mpr (List.mem_toFinset.mpr (List.mem_map_of_mem (by decide))),
   (Finset.singleton_subset_iff (a := Proc.devRef (τ := τ) .tc main_v128)).mpr (List.mem_toFinset.mpr (List.mem_map_of_mem (by decide))),
   (Finset.singleton_subset_iff (a := Proc.devRef (τ := τ) .tc main_v129)).mpr (List.mem_toFinset.mpr (List.mem_map_of_mem (by decide))),
   (Finset.singleton_subset_iff (a := Proc.devRef (τ := τ) .tc main_v130)).mpr (List.mem_toFinset.mpr (List.mem_map_of_mem (by decide))),
   (Finset.singleton_subset_iff (a := Proc.devRef (τ := τ) .tc main_v131)).mpr (List.mem_toFinset.mpr (List.mem_map_of_mem (by decide))),
   (Finset.singleton_subset_iff (a := Proc.devRef (τ := τ) .tc main_v132)).mpr (List.mem_toFinset.mpr (List.mem_map_of_mem (by decide))),
   (Finset.singleton_subset_iff (a := Proc.devRef (τ := τ) .tc main_v133)).mpr (List.mem_toFinset.mpr (List.mem_map_of_mem (by decide))),
   (Finset.singleton_subset_iff (a := Proc.devRef (τ := τ) .tc main_call5_cst)).mpr (List.mem_toFinset.mpr (List.mem_map_of_mem (by decide))),
   (Finset.singleton_subset_iff (a := Proc.devRef (τ := τ) .tc main_call5_v0)).mpr (List.mem_toFinset.mpr (List.mem_map_of_mem (by decide))),
   (Finset.singleton_subset_iff (a := Proc.devRef (τ := τ) .tc main_v134)).mpr (List.mem_toFinset.mpr (List.mem_map_of_mem (by decide))),
   (Finset.singleton_subset_iff (a := Proc.devRef (τ := τ) .tc main_v135)).mpr (List.mem_toFinset.mpr (List.mem_map_of_mem (by decide))),
   (Finset.singleton_subset_iff (a := Proc.devRef (τ := τ) .tc main_v136)).mpr (List.mem_toFinset.mpr (List.mem_map_of_mem (by decide))),
   (Finset.singleton_subset_iff (a := Proc.devRef (τ := τ) .tc main_v137)).mpr (List.mem_toFinset.mpr (List.mem_map_of_mem (by decide))),
   (Finset.singleton_subset_iff (a := Proc.devRef (τ := τ) .tc main_v138)).mpr (List.mem_toFinset.mpr (List.mem_map_of_mem (by decide))),
   (Finset.singleton_subset_iff (a := Proc.devRef (τ := τ) .tc main_v139)).mpr (List.mem_toFinset.mpr (List.mem_map_of_mem (by decide))),
   (Finset.singleton_subset_iff (a := Proc.devRef (τ := τ) .tc main_cst_18)).mpr (List.mem_toFinset.mpr (List.mem_map_of_mem (by decide))),
   (Finset.singleton_subset_iff (a := Proc.devRef (τ := τ) .tc main_v140)).mpr (List.mem_toFinset.mpr (List.mem_map_of_mem (by decide))),
   (Finset.singleton_subset_iff (a := Proc.devRef (τ := τ) .tc main_v141)).mpr (List.mem_toFinset.mpr (List.mem_map_of_mem (by decide))),
   (Finset.singleton_subset_iff (a := Proc.devRef (τ := τ) .tc main_c_19)).mpr (List.mem_toFinset.mpr (List.mem_map_of_mem (by decide))),
   (Finset.singleton_subset_iff (a := Proc.devRef (τ := τ) .tc main_v142)).mpr (List.mem_toFinset.mpr (List.mem_map_of_mem (by decide))),
   (Finset.singleton_subset_iff (a := Proc.devRef (τ := τ) .tc main_v143)).mpr (List.mem_toFinset.mpr (List.mem_map_of_mem (by decide))),
   (Finset.singleton_subset_iff (a := Proc.devRef (τ := τ) .tc main_c_20)).mpr (List.mem_toFinset.mpr (List.mem_map_of_mem (by decide))),
   (Finset.singleton_subset_iff (a := Proc.devRef (τ := τ) .tc main_v144)).mpr (List.mem_toFinset.mpr (List.mem_map_of_mem (by decide))),
   (Finset.singleton_subset_iff (a := Proc.devRef (τ := τ) .tc main_v145)).mpr (List.mem_toFinset.mpr (List.mem_map_of_mem (by decide))),
   (Finset.singleton_subset_iff (a := Proc.devRef (τ := τ) .tc main_v146)).mpr (List.mem_toFinset.mpr (List.mem_map_of_mem (by decide))),
   (Finset.singleton_subset_iff (a := Proc.devRef (τ := τ) .tc main_v147)).mpr (List.mem_toFinset.mpr (List.mem_map_of_mem (by decide))),
   (Finset.singleton_subset_iff (a := Proc.devRef (τ := τ) .tc main_v148)).mpr (List.mem_toFinset.mpr (List.mem_map_of_mem (by decide))),
   (Finset.singleton_subset_iff (a := Proc.devRef (τ := τ) .tc main_cst_21)).mpr (List.mem_toFinset.mpr (List.mem_map_of_mem (by decide))),
   (Finset.singleton_subset_iff (a := Proc.devRef (τ := τ) .tc main_v149)).mpr (List.mem_toFinset.mpr (List.mem_map_of_mem (by decide))),
   (Finset.singleton_subset_iff (a := Proc.devRef (τ := τ) .tc main_v150)).mpr (List.mem_toFinset.mpr (List.mem_map_of_mem (by decide))),
   (Finset.singleton_subset_iff (a := Proc.devRef (τ := τ) .tc main_v151)).mpr (List.mem_toFinset.mpr (List.mem_map_of_mem (by decide))),
   (Finset.singleton_subset_iff (a := Proc.devRef (τ := τ) .tc main_v152)).mpr (List.mem_toFinset.mpr (List.mem_map_of_mem (by decide))),
   (Finset.singleton_subset_iff (a := Proc.devRef (τ := τ) .tc main_v153)).mpr (List.mem_toFinset.mpr (List.mem_map_of_mem (by decide))),
   (Finset.singleton_subset_iff (a := Proc.devRef (τ := τ) .tc main_cst_22)).mpr (List.mem_toFinset.mpr (List.mem_map_of_mem (by decide))),
   (Finset.singleton_subset_iff (a := Proc.devRef (τ := τ) .tc main_v154)).mpr (List.mem_toFinset.mpr (List.mem_map_of_mem (by decide)))⟩

/-- A reference the window does not write keeps its contents through it. -/
theorem ops2_keep (V : Valuation τ sig (Elt F)) (r : Ref sig .tc) (h : r ∉ ops2_W) :
    after ops2 V (Proc.devRef .tc r) = V (Proc.devRef .tc r) :=
  after_of_writes_sub ops2 V ops2_writes h

end Cert.ReferenceIdeal.Hand

end
-- ==== Proof.Ref.Ops3.lean ====
import proofs.«414290_j6631429505478_3_alg».proof.Proof.Gen.ReferenceIdeal
import Idealize.ShloMosaic.Lib.StableHlo.Run
import Idealize.ShloMosaic.Lib.Pipeline.Frame

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
set_option maxRecDepth 8192 in
/-- The 83 operations of window 3 of @main, in order, a called function's operations in its call's place. -/
abbrev ops3 : List (HloOp τ sig (Elt F)) :=
  [ StableHlo.unary main_arg4 main_v155 ((extractStridedSlice S1x1x128x128 ![1, 0, 0, 0] · slices_S6x3x128x128_S1x1x128x128_1_0_0_0) : (⟨S6x3x128x128, .f32⟩ : BufTy).Contents (Elt F) → (⟨S1x1x128x128, .f32⟩ : BufTy).Contents (Elt F)),
    StableHlo.reshape main_v155 main_v156 rfl shapeCasts_S1x1x128x128_S128x128,
    StableHlo.unary main_v156 main_v157 ((transpose S128x128 [1, 0] · transposes_S128x128_S128x128_1_0) : (⟨S128x128, .f32⟩ : BufTy).Contents (Elt F) → (⟨S128x128, .f32⟩ : BufTy).Contents (Elt F)),
    StableHlo.binary main_v153 main_v157 main_v158 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg5 main_v159 ((extractStridedSlice S1x1x128 ![1, 0, 0] · slices_S6x3x128_S1x1x128_1_0_0) : (⟨S6x3x128, .f32⟩ : BufTy).Contents (Elt F) → (⟨S1x1x128, .f32⟩ : BufTy).Contents (Elt F)),
    StableHlo.reshape main_v159 main_v160 rfl shapeCasts_S1x1x128_S128,
    StableHlo.unary main_v160 main_v161 (broadcastInDim S1x128 ![1] bcast_S128_S1x128_1 : (⟨S128, .f32⟩ : BufTy).Contents (Elt F) → (⟨S1x128, .f32⟩ : BufTy).Contents (Elt F)),
    StableHlo.unary main_v161 main_v162 (broadcastInDim S50000x128 ![0, 1] bcast_S1x128_S50000x128_0_1 : (⟨S1x128, .f32⟩ : BufTy).Contents (Elt F) → (⟨S50000x128, .f32⟩ : BufTy).Contents (Elt F)),
    StableHlo.binary main_v158 main_v162 main_v163 (addf : (⟨S50000x128, .f32⟩ : BufTy).Contents (Elt F) → (⟨S50000x128, .f32⟩ : BufTy).Contents (Elt F) → (⟨S50000x128, .f32⟩ : BufTy).Contents (Elt F)),
    StableHlo.unary main_arg6 main_v164 ((extractStridedSlice S1x1x128 ![1, 0, 0] · slices_S6x3x128_S1x1x128_1_0_0) : (⟨S6x3x128, .f32⟩ : BufTy).Contents (Elt F) → (⟨S1x1x128, .f32⟩ : BufTy).Contents (Elt F)),
    StableHlo.reshape main_v164 main_v165 rfl shapeCasts_S1x1x128_S128,
    StableHlo.unary main_arg7 main_v166 ((extractStridedSlice S1x1x128 ![1, 0, 0] · slices_S6x3x128_S1x1x128_1_0_0) : (⟨S6x3x128, .f32⟩ : BufTy).Contents (Elt F) → (⟨S1x1x128, .f32⟩ : BufTy).Contents (Elt F)),
    StableHlo.reshape main_v166 main_v167 rfl shapeCasts_S1x1x128_S128,
    StableHlo.nullary main_cst_23 (constant S_ .f32 0x00000000#32),
    StableHlo.binary main_v163 main_cst_23 main_v168 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_24 (constant S_ .f32 0x47435000#32),
    StableHlo.unary main_cst_24 main_v169 (broadcastInDim S128 ![] bcast_S_S128 : (⟨S_, .f32⟩ : BufTy).Contents (Elt F) → (⟨S128, .f32⟩ : BufTy).Contents (Elt F)),
    StableHlo.binary main_v168 main_v169 main_v170 (Host.divf : (⟨S128, .f32⟩ : BufTy).Contents (Elt F) → (⟨S128, .f32⟩ : BufTy).Contents (Elt F) → (⟨S128, .f32⟩ : BufTy).Contents (Elt F)),
    StableHlo.nullary main_c_25 (constantI S_ 32 0#32),
    StableHlo.TRef.nullary main_call6.cst (constant S_ .f32 0x00000000#32),
    StableHlo.TRef.binary (.of main_v163 : StableHlo.TRef sig ⟨S50000x128, .f32⟩) main_call6.cst main_call6.v0 (fun x v => Host.reduceAdd x v reducesTo_S50000x128_S128_d0 h_S_),
    StableHlo.TRef.unary main_call6.v0 main_call6.v1 (broadcastInDim S1x128 ![1] bcast_S128_S1x128_1),
    StableHlo.TRef.nullary main_call6.cst_0 (constant S_ .f32 0x47435000#32),
    StableHlo.TRef.unary main_call6.cst_0 main_call6.v2 (broadcastInDim S1x128 ![] bcast_S_S1x128),
    StableHlo.TRef.binary main_call6.v1 main_call6.v2 main_call6.v3 Host.divf,
    StableHlo.TRef.unary main_call6.v3 main_call6.v4 (broadcastInDim S50000x128 ![0, 1] bcast_S1x128_S50000x128_0_1),
    StableHlo.TRef.binary (.of main_v163 : StableHlo.TRef sig ⟨S50000x128, .f32⟩) main_call6.v4 main_call6.v5 subf,
    StableHlo.TRef.binary main_call6.v5 main_call6.v5 main_call6.v6 mulf,
    StableHlo.TRef.unary (.of main_c_25 : StableHlo.TRef sig ⟨S_, .i32⟩) main_call6.v7 (sitofp .f32),
    StableHlo.TRef.nullary main_call6.cst_1 (constant S_ .f32 0x47435000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S50000x128_S128_d0 h_S_),
    StableHlo.TRef.unary main_call6.v8 main_call6.v10 (broadcastInDim S128 ![] bcast_S_S128),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S128 ![] bcast_S_S128),
    StableHlo.TRef.ternary main_call6.v12 main_call6.v11 main_call6.call0.v1 main_call6.call0.v2 (fun p a b => select (broadcastInDim S128 ![] bcast_S_S128 p) a b),
    StableHlo.unary main_v170 main_v172 (broadcastInDim S1x128 ![1] bcast_S128_S1x128_1 : (⟨S128, .f32⟩ : BufTy).Contents (Elt F) → (⟨S1x128, .f32⟩ : BufTy).Contents (Elt F)),
    StableHlo.unary main_v172 main_v173 (broadcastInDim S50000x128 ![0, 1] bcast_S1x128_S50000x128_0_1 : (⟨S1x128, .f32⟩ : BufTy).Contents (Elt F) → (⟨S50000x128, .f32⟩ : BufTy).Contents (Elt F)),
    StableHlo.binary main_v163 main_v173 main_v174 (subf : (⟨S50000x128, .f32⟩ : BufTy).Contents (Elt F) → (⟨S50000x128, .f32⟩ : BufTy).Contents (Elt F) → (⟨S50000x128, .f32⟩ : BufTy).Contents (Elt F)),
    StableHlo.nullary main_cst_26 (constant S_ .f32 0x3727C5AC#32),
    StableHlo.unary main_cst_26 main_v175 (broadcastInDim S128 ![] bcast_S_S128 : (⟨S_, .f32⟩ : BufTy).Contents (Elt F) → (⟨S128, .f32⟩ : BufTy).Contents (Elt F)),
    StableHlo.binary main_v171 main_v175 main_v176 (addf : (⟨S128, .f32⟩ : BufTy).Contents (Elt F) → (⟨S128, .f32⟩ : BufTy).Contents (Elt F) → (⟨S128, .f32⟩ : BufTy).Contents (Elt F)),
    StableHlo.unary main_v176 main_v177 (Host.rsqrt : (⟨S128, .f32⟩ : BufTy).Contents (Elt F) → (⟨S128, .f32⟩ : BufTy).Contents (Elt F)),
    StableHlo.unary main_v177 main_v178 (broadcastInDim S1x128 ![1] bcast_S128_S1x128_1 : (⟨S128, .f32⟩ : BufTy).Contents (Elt F) → (⟨S1x128, .f32⟩ : BufTy).Contents (Elt F)),
    StableHlo.unary main_v178 main_v179 (broadcastInDim S50000x128 ![0, 1] bcast_S1x128_S50000x128_0_1 : (⟨S1x128, .f32⟩ : BufTy).Contents (Elt F) → (⟨S50000x128, .f32⟩ : BufTy).Contents (Elt F)),
    StableHlo.binary main_v174 main_v179 main_v180 (mulf : (⟨S50000x128, .f32⟩ : BufTy).Contents (Elt F) → (⟨S50000x128, .f32⟩ : BufTy).Contents (Elt F) → (⟨S50000x128, .f32⟩ : BufTy).Contents (Elt F)),
    StableHlo.unary main_v165 main_v181 (broadcastInDim S1x128 ![1] bcast_S128_S1x128_1 : (⟨S128, .f32⟩ : BufTy).Contents (Elt F) → (⟨S1x128, .f32⟩ : BufTy).Contents (Elt F)),
    StableHlo.unary main_v181 main_v182 (broadcastInDim S50000x128 ![0, 1] bcast_S1x128_S50000x128_0_1 : (⟨S1x128, .f32⟩ : BufTy).Contents (Elt F) → (⟨S50000x128, .f32⟩ : BufTy).Contents (Elt F)),
    StableHlo.binary main_v180 main_v182 main_v183 (mulf : (⟨S50000x128, .f32⟩ : BufTy).Contents (Elt F) → (⟨S50000x128, .f32⟩ : BufTy).Contents (Elt F) → (⟨S50000x128, .f32⟩ : BufTy).Contents (Elt F)),
    StableHlo.unary main_v167 main_v184 (broadcastInDim S1x128 ![1] bcast_S128_S1x128_1 : (⟨S128, .f32⟩ : BufTy).Contents (Elt F) → (⟨S1x128, .f32⟩ : BufTy).Contents (Elt F)),
    StableHlo.unary main_v184 main_v185 (broadcastInDim S50000x128 ![0, 1] bcast_S1x128_S50000x128_0_1 : (⟨S1x128, .f32⟩ : BufTy).Contents (Elt F) → (⟨S50000x128, .f32⟩ : BufTy).Contents (Elt F)),
    StableHlo.binary main_v183 main_v185 main_v186 (addf : (⟨S50000x128, .f32⟩ : BufTy).Contents (Elt F) → (⟨S50000x128, .f32⟩ : BufTy).Contents (Elt F) → (⟨S50000x128, .f32⟩ : BufTy).Contents (Elt F)),
    StableHlo.TRef.nullary main_call7.cst (constant S_ .f32 0x00000000#32),
    StableHlo.TRef.unary main_call7.cst main_call7.v0 (broadcastInDim S50000x128 ![] bcast_S_S50000x128),
    StableHlo.TRef.binary (.of main_v186 : StableHlo.TRef sig ⟨S50000x128, .f32⟩) main_call7.v0 main_call7.v1 maximumf,
    StableHlo.unary main_arg3 main_v188 ((extractStridedSlice S1x1 ![1, 0] · slices_S6x3_S1x1_1_0) : (⟨S6x3, .f32⟩ : BufTy).Contents (Elt F) → (⟨S1x1, .f32⟩ : BufTy).Contents (Elt F)),
    StableHlo.reshape main_v188 main_v189 rfl shapeCasts_S1x1_S_,
    StableHlo.unary main_v189 main_v190 (broadcastInDim S50000x128 ![] bcast_S_S50000x128 : (⟨S_, .f32⟩ : BufTy).Contents (Elt F) → (⟨S50000x128, .f32⟩ : BufTy).Contents (Elt F)),
    StableHlo.binary main_v190 main_v187 main_v191 (mulf : (⟨S50000x128, .f32⟩ : BufTy).Contents (Elt F) → (⟨S50000x128, .f32⟩ : BufTy).Contents (Elt F) → (⟨S50000x128, .f32⟩ : BufTy).Contents (Elt F)),
    StableHlo.binary main_v154 main_v191 main_v192 (addf : (⟨S50000x128, .f32⟩ : BufTy).Contents (Elt F) → (⟨S50000x128, .f32⟩ : BufTy).Contents (Elt F) → (⟨S50000x128, .f32⟩ : BufTy).Contents (Elt F)),
    StableHlo.unary main_arg4 main_v193 ((extractStridedSlice S1x1x128x128 ![1, 1, 0, 0] · slices_S6x3x128x128_S1x1x128x128_1_1_0_0) : (⟨S6x3x128x128, .f32⟩ : BufTy).Contents (Elt F) → (⟨S1x1x128x128, .f32⟩ : BufTy).Contents (Elt F)),
    StableHlo.reshape main_v193 main_v194 rfl shapeCasts_S1x1x128x128_S128x128,
    StableHlo.unary main_v194 main_v195 ((transpose S128x128 [1, 0] · transposes_S128x128_S128x128_1_0) : (⟨S128x128, .f32⟩ : BufTy).Contents (Elt F) → (⟨S128x128, .f32⟩ : BufTy).Contents (Elt F)),
    StableHlo.binary main_arg1 main_v195 main_v196 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg5 main_v197 ((extractStridedSlice S1x1x128 ![1, 1, 0] · slices_S6x3x128_S1x1x128_1_1_0) : (⟨S6x3x128, .f32⟩ : BufTy).Contents (Elt F) → (⟨S1x1x128, .f32⟩ : BufTy).Contents (Elt F)),
    StableHlo.reshape main_v197 main_v198 rfl shapeCasts_S1x1x128_S128,
    StableHlo.unary main_v198 main_v199 (broadcastInDim S1x128 ![1] bcast_S128_S1x128_1 : (⟨S128, .f32⟩ : BufTy).Contents (Elt F) → (⟨S1x128, .f32⟩ : BufTy).Contents (Elt F)),
    StableHlo.unary main_v199 main_v200 (broadcastInDim S50000x128 ![0, 1] bcast_S1x128_S50000x128_0_1 : (⟨S1x128, .f32⟩ : BufTy).Contents (Elt F) → (⟨S50000x128, .f32⟩ : BufTy).Contents (Elt F)),
    StableHlo.binary main_v196 main_v200 main_v201 (addf : (⟨S50000x128, .f32⟩ : BufTy).Contents (Elt F) → (⟨S50000x128, .f32⟩ : BufTy).Contents (Elt F) → (⟨S50000x128, .f32⟩ : BufTy).Contents (Elt F)),
    StableHlo.unary main_arg6 main_v202 ((extractStridedSlice S1x1x128 ![1, 1, 0] · slices_S6x3x128_S1x1x128_1_1_0) : (⟨S6x3x128, .f32⟩ : BufTy).Contents (Elt F) → (⟨S1x1x128, .f32⟩ : BufTy).Contents (Elt F)),
    StableHlo.reshape main_v202 main_v203 rfl shapeCasts_S1x1x128_S128,
    StableHlo.unary main_arg7 main_v204 ((extractStridedSlice S1x1x128 ![1, 1, 0] · slices_S6x3x128_S1x1x128_1_1_0) : (⟨S6x3x128, .f32⟩ : BufTy).Contents (Elt F) → (⟨S1x1x128, .f32⟩ : BufTy).Contents (Elt F)),
    StableHlo.reshape main_v204 main_v205 rfl shapeCasts_S1x1x128_S128,
    StableHlo.nullary main_cst_27 (constant S_ .f32 0x00000000#32),
    StableHlo.binary main_v201 main_cst_27 main_v206 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_28 (constant S_ .f32 0x47435000#32),
    StableHlo.unary main_cst_28 main_v207 (broadcastInDim S128 ![] bcast_S_S128 : (⟨S_, .f32⟩ : BufTy).Contents (Elt F) → (⟨S128, .f32⟩ : BufTy).Contents (Elt F)),
    StableHlo.binary main_v206 main_v207 main_v208 (Host.divf : (⟨S128, .f32⟩ : BufTy).Contents (Elt F) → (⟨S128, .f32⟩ : BufTy).Contents (Elt F) → (⟨S128, .f32⟩ : BufTy).Contents (Elt F)) ]

set_option maxHeartbeats 40000000 in
set_option maxRecDepth 8192 in
/-- Window 3 is the straight line of its operations. -/
theorem main_part3_eq (c : Dev nD) : main_part3 (F := F) c = seq ops3 := by
  chain_rfl

set_option maxHeartbeats 40000000 in
set_option maxRecDepth 8192 in
/-- Each operation touches TensorCore references only. -/
theorem ops3_sub : (ops3 : List (HloOp τ sig (Elt F))).Forall fun op => op.bufs ⊆ tcRefs τ sig :=
  ⟨StableHlo.unary_bufs_sub .., StableHlo.reshape_bufs_sub .., StableHlo.unary_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.unary_bufs_sub .., StableHlo.binary_bufs_sub .., StableHlo.binary_bufs_sub .., StableHlo.unary_bufs_sub .., StableHlo.reshape_bufs_sub .., StableHlo.unary_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub ..⟩

set_option maxHeartbeats 40000000 in
set_option maxRecDepth 8192 in
/-- Each operation determines what it writes. -/
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references the window's operations write, in order. -/
abbrev ops3_W : List (Ref sig .tc) :=
  [main_v155, main_v156, main_v157, main_v158, main_v159, main_v160, main_v161, main_v162, main_v163, main_v164, main_v165, main_v166, main_v167, main_cst_23, main_v168, main_cst_24, main_v169, main_v170, main_c_25, main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v171, main_v172, main_v173, main_v174, main_cst_26, main_v175, main_v176, main_v177, main_v178, main_v179, main_v180, main_v181, main_v182, main_v183, main_v184, main_v185, main_v186, main_call7_cst, main_call7_v0, main_v187, main_v188, main_v189, main_v190, main_v191, main_v192, main_v193, main_v194, main_v195, main_v196, main_v197, main_v198, main_v199, main_v200, main_v201, main_v202, main_v203, main_v204, main_v205, main_cst_27, main_v206, main_cst_28, main_v207, main_v208]

set_option maxHeartbeats 40000000 in
set_option maxRecDepth 8192 in
/-- Each operation writes its own result reference, the one listed at its place. -/
theorem ops3_writes : (ops3 : List (HloOp τ sig (Elt F))).Forall fun op => op.writes ⊆ (ops3_W.map (Proc.devRef (τ := τ) .tc)).toFinset :=
  ⟨(Finset.singleton_subset_iff (a := Proc.devRef (τ := τ) .tc main_v155)).mpr (List.mem_toFinset.mpr (List.mem_map_of_mem (by decide))),
   (Finset.singleton_subset_iff (a := Proc.devRef (τ := τ) .tc main_v156)).mpr (List.mem_toFinset.mpr (List.mem_map_of_mem (by decide))),
   (Finset.singleton_subset_iff (a := Proc.devRef (τ := τ) .tc main_v157)).mpr (List.mem_toFinset.mpr (List.mem_map_of_mem (by decide))),
   (Finset.singleton_subset_iff (a := Proc.devRef (τ := τ) .tc main_v158)).mpr (List.mem_toFinset.mpr (List.mem_map_of_mem (by decide))),
   (Finset.singleton_subset_iff (a := Proc.devRef (τ := τ) .tc main_v159)).mpr (List.mem_toFinset.mpr (List.mem_map_of_mem (by decide))),
   (Finset.singleton_subset_iff (a := Proc.devRef (τ := τ) .tc main_v160)).mpr (List.mem_toFinset.mpr (List.mem_map_of_mem (by decide))),
   (Finset.singleton_subset_iff (a := Proc.devRef (τ := τ) .tc main_v161)).mpr (List.mem_toFinset.mpr (List.mem_map_of_mem (by decide))),
   (Finset.singleton_subset_iff (a := Proc.devRef (τ := τ) .tc main_v162)).mpr (List.mem_toFinset.mpr (List.mem_map_of_mem (by decide))),
   (Finset.singleton_subset_iff (a := Proc.devRef (τ := τ) .tc main_v163)).mpr (List.mem_toFinset.mpr (List.mem_map_of_mem (by decide))),
   (Finset.singleton_subset_iff (a := Proc.devRef (τ := τ) .tc main_v164)).mpr (List.mem_toFinset.mpr (List.mem_map_of_mem (by decide))),
   (Finset.singleton_subset_iff (a := Proc.devRef (τ := τ) .tc main_v165)).mpr (List.mem_toFinset.mpr (List.mem_map_of_mem (by decide))),
   (Finset.singleton_subset_iff (a := Proc.devRef (τ := τ) .tc main_v166)).mpr (List.mem_toFinset.mpr (List.mem_map_of_mem (by decide))),
   (Finset.singleton_subset_iff (a := Proc.devRef (τ := τ) .tc main_v167)).mpr (List.mem_toFinset.mpr (List.mem_map_of_mem (by decide))),
   (Finset.singleton_subset_iff (a := Proc.devRef (τ := τ) .tc main_cst_23)).mpr (List.mem_toFinset.mpr (List.mem_map_of_mem (by decide))),
   (Finset.singleton_subset_iff (a := Proc.devRef (τ := τ) .tc main_v168)).mpr (List.mem_toFinset.mpr (List.mem_map_of_mem (by decide))),
   (Finset.singleton_subset_iff (a := Proc.devRef (τ := τ) .tc main_cst_24)).mpr (List.mem_toFinset.mpr (List.mem_map_of_mem (by decide))),
   (Finset.singleton_subset_iff (a := Proc.devRef (τ := τ) .tc main_v169)).mpr (List.mem_toFinset.mpr (List.mem_map_of_mem (by decide))),
   (Finset.singleton_subset_iff (a := Proc.devRef (τ := τ) .tc main_v170)).mpr (List.mem_toFinset.mpr (List.mem_map_of_mem (by decide))),
   (Finset.singleton_subset_iff (a := Proc.devRef (τ := τ) .tc main_c_25)).mpr (List.mem_toFinset.mpr (List.mem_map_of_mem (by decide))),
   (Finset.singleton_subset_iff (a := Proc.devRef (τ := τ) .tc main_call6_cst)).mpr (List.mem_toFinset.mpr (List.mem_map_of_mem (by decide))),
   (Finset.singleton_subset_iff (a := Proc.devRef (τ := τ) .tc main_call6_v0)).mpr (List.mem_toFinset.mpr (List.mem_map_of_mem (by decide))),
   (Finset.singleton_subset_iff (a := Proc.devRef (τ := τ) .tc main_call6_v1)).mpr (List.mem_toFinset.mpr (List.mem_map_of_mem (by decide))),
   (Finset.singleton_subset_iff (a := Proc.devRef (τ := τ) .tc main_call6_cst_0)).mpr (List.mem_toFinset.mpr (List.mem_map_of_mem (by decide))),
   (Finset.singleton_subset_iff (a := Proc.devRef (τ := τ) .tc main_call6_v2)).mpr (List.mem_toFinset.mpr (List.mem_map_of_mem (by decide))),
   (Finset.singleton_subset_iff (a := Proc.devRef (τ := τ) .tc main_call6_v3)).mpr (List.mem_toFinset.mpr (List.mem_map_of_mem (by decide))),
   (Finset.singleton_subset_iff (a := Proc.devRef (τ := τ) .tc main_call6_v4)).mpr (List.mem_toFinset.mpr (List.mem_map_of_mem (by decide))),
   (Finset.singleton_subset_iff (a := Proc.devRef (τ := τ) .tc main_call6_v5)).mpr (List.mem_toFinset.mpr (List.mem_map_of_mem (by decide))),
   (Finset.singleton_subset_iff (a := Proc.devRef (τ := τ) .tc main_call6_v6)).mpr (List.mem_toFinset.mpr (List.mem_map_of_mem (by decide))),
   (Finset.singleton_subset_iff (a := Proc.devRef (τ := τ) .tc main_call6_v7)).mpr (List.mem_toFinset.mpr (List.mem_map_of_mem (by decide))),
   (Finset.singleton_subset_iff (a := Proc.devRef (τ := τ) .tc main_call6_cst_1)).mpr (List.mem_toFinset.mpr (List.mem_map_of_mem (by decide))),
   (Finset.singleton_subset_iff (a := Proc.devRef (τ := τ) .tc main_call6_v8)).mpr (List.mem_toFinset.mpr (List.mem_map_of_mem (by decide))),
   (Finset.singleton_subset_iff (a := Proc.devRef (τ := τ) .tc main_call6_cst_2)).mpr (List.mem_toFinset.mpr (List.mem_map_of_mem (by decide))),
   (Finset.singleton_subset_iff (a := Proc.devRef (τ := τ) .tc main_call6_v9)).mpr (List.mem_toFinset.mpr (List.mem_map_of_mem (by decide))),
   (Finset.singleton_subset_iff (a := Proc.devRef (τ := τ) .tc main_call6_v10)).mpr (List.mem_toFinset.mpr (List.mem_map_of_mem (by decide))),
   (Finset.singleton_subset_iff (a := Proc.devRef (τ := τ) .tc main_call6_v11)).mpr (List.mem_toFinset.mpr (List.mem_map_of_mem (by decide))),
   (Finset.singleton_subset_iff (a := Proc.devRef (τ := τ) .tc main_call6_cst_3)).mpr (List.mem_toFinset.mpr (List.mem_map_of_mem (by decide))),
   (Finset.singleton_subset_iff (a := Proc.devRef (τ := τ) .tc main_call6_v12)).mpr (List.mem_toFinset.mpr (List.mem_map_of_mem (by decide))),
   (Finset.singleton_subset_iff (a := Proc.devRef (τ := τ) .tc main_call6_cst_4)).mpr (List.mem_toFinset.mpr (List.mem_map_of_mem (by decide))),
   (Finset.singleton_subset_iff (a := Proc.devRef (τ := τ) .tc main_call6_call0_v0)).mpr (List.mem_toFinset.mpr (List.mem_map_of_mem (by decide))),
   (Finset.singleton_subset_iff (a := Proc.devRef (τ := τ) .tc main_call6_call0_v1)).mpr (List.mem_toFinset.mpr (List.mem_map_of_mem (by decide))),
   (Finset.singleton_subset_iff (a := Proc.devRef (τ := τ) .tc main_v171)).mpr (List.mem_toFinset.mpr (List.mem_map_of_mem (by decide))),
   (Finset.singleton_subset_iff (a := Proc.devRef (τ := τ) .tc main_v172)).mpr (List.mem_toFinset.mpr (List.mem_map_of_mem (by decide))),
   (Finset.singleton_subset_iff (a := Proc.devRef (τ := τ) .tc main_v173)).mpr (List.mem_toFinset.mpr (List.mem_map_of_mem (by decide))),
   (Finset.singleton_subset_iff (a := Proc.devRef (τ := τ) .tc main_v174)).mpr (List.mem_toFinset.mpr (List.mem_map_of_mem (by decide))),
   (Finset.singleton_subset_iff (a := Proc.devRef (τ := τ) .tc main_cst_26)).mpr (List.mem_toFinset.mpr (List.mem_map_of_mem (by decide))),
   (Finset.singleton_subset_iff (a := Proc.devRef (τ := τ) .tc main_v175)).mpr (List.mem_toFinset.mpr (List.mem_map_of_mem (by decide))),
   (Finset.singleton_subset_iff (a := Proc.devRef (τ := τ) .tc main_v176)).mpr (List.mem_toFinset.mpr (List.mem_map_of_mem (by decide))),
   (Finset.singleton_subset_iff (a := Proc.devRef (τ := τ) .tc main_v177)).mpr (List.mem_toFinset.mpr (List.mem_map_of_mem (by decide))),
   (Finset.singleton_subset_iff (a := Proc.devRef (τ := τ) .tc main_v178)).mpr (List.mem_toFinset.mpr (List.mem_map_of_mem (by decide))),
   (Finset.singleton_subset_iff (a := Proc.devRef (τ := τ) .tc main_v179)).mpr (List.mem_toFinset.mpr (List.mem_map_of_mem (by decide))),
   (Finset.singleton_subset_iff (a := Proc.devRef (τ := τ) .tc main_v180)).mpr (List.mem_toFinset.mpr (List.mem_map_of_mem (by decide))),
   (Finset.singleton_subset_iff (a := Proc.devRef (τ := τ) .tc main_v181)).mpr (List.mem_toFinset.mpr (List.mem_map_of_mem (by decide))),
   (Finset.singleton_subset_iff (a := Proc.devRef (τ := τ) .tc main_v182)).mpr (List.mem_toFinset.mpr (List.mem_map_of_mem (by decide))),
   (Finset.singleton_subset_iff (a := Proc.devRef (τ := τ) .tc main_v183)).mpr (List.mem_toFinset.mpr (List.mem_map_of_mem (by decide))),
   (Finset.singleton_subset_iff (a := Proc.devRef (τ := τ) .tc main_v184)).mpr (List.mem_toFinset.mpr (List.mem_map_of_mem (by decide))),
   (Finset.singleton_subset_iff (a := Proc.devRef (τ := τ) .tc main_v185)).mpr (List.mem_toFinset.mpr (List.mem_map_of_mem (by decide))),
   (Finset.singleton_subset_iff (a := Proc.devRef (τ := τ) .tc main_v186)).mpr (List.mem_toFinset.mpr (List.mem_map_of_mem (by decide))),
   (Finset.singleton_subset_iff (a := Proc.devRef (τ := τ) .tc main_call7_cst)).mpr (List.mem_toFinset.mpr (List.mem_map_of_mem (by decide))),
   (Finset.singleton_subset_iff (a := Proc.devRef (τ := τ) .tc main_call7_v0)).mpr (List.mem_toFinset.mpr (List.mem_map_of_mem (by decide))),
   (Finset.singleton_subset_iff (a := Proc.devRef (τ := τ) .tc main_v187)).mpr (List.mem_toFinset.mpr (List.mem_map_of_mem (by decide))),
   (Finset.singleton_subset_iff (a := Proc.devRef (τ := τ) .tc main_v188)).mpr (List.mem_toFinset.mpr (List.mem_map_of_mem (by decide))),
   (Finset.singleton_subset_iff (a := Proc.devRef (τ := τ) .tc main_v189)).mpr (List.mem_toFinset.mpr (List.mem_map_of_mem (by decide))),
   (Finset.singleton_subset_iff (a := Proc.devRef (τ := τ) .tc main_v190)).mpr (List.mem_toFinset.mpr (List.mem_map_of_mem (by decide))),
   (Finset.singleton_subset_iff (a := Proc.devRef (τ := τ) .tc main_v191)).mpr (List.mem_toFinset.mpr (List.mem_map_of_mem (by decide))),
   (Finset.singleton_subset_iff (a := Proc.devRef (τ := τ) .tc main_v192)).mpr (List.mem_toFinset.mpr (List.mem_map_of_mem (by decide))),
   (Finset.singleton_subset_iff (a := Proc.devRef (τ := τ) .tc main_v193)).mpr (List.mem_toFinset.mpr (List.mem_map_of_mem (by decide))),
   (Finset.singleton_subset_iff (a := Proc.devRef (τ := τ) .tc main_v194)).mpr (List.mem_toFinset.mpr (List.mem_map_of_mem (by decide))),
   (Finset.singleton_subset_iff (a := Proc.devRef (τ := τ) .tc main_v195)).mpr (List.mem_toFinset.mpr (List.mem_map_of_mem (by decide))),
   (Finset.singleton_subset_iff (a := Proc.devRef (τ := τ) .tc main_v196)).mpr (List.mem_toFinset.mpr (List.mem_map_of_mem (by decide))),
   (Finset.singleton_subset_iff (a := Proc.devRef (τ := τ) .tc main_v197)).mpr (List.mem_toFinset.mpr (List.mem_map_of_mem (by decide))),
   (Finset.singleton_subset_iff (a := Proc.devRef (τ := τ) .tc main_v198)).mpr (List.mem_toFinset.mpr (List.mem_map_of_mem (by decide))),
   (Finset.singleton_subset_iff (a := Proc.devRef (τ := τ) .tc main_v199)).mpr (List.mem_toFinset.mpr (List.mem_map_of_mem (by decide))),
   (Finset.singleton_subset_iff (a := Proc.devRef (τ := τ) .tc main_v200)).mpr (List.mem_toFinset.mpr (List.mem_map_of_mem (by decide))),
   (Finset.singleton_subset_iff (a := Proc.devRef (τ := τ) .tc main_v201)).mpr (List.mem_toFinset.mpr (List.mem_map_of_mem (by decide))),
   (Finset.singleton_subset_iff (a := Proc.devRef (τ := τ) .tc main_v202)).mpr (List.mem_toFinset.mpr (List.mem_map_of_mem (by decide))),
   (Finset.singleton_subset_iff (a := Proc.devRef (τ := τ) .tc main_v203)).mpr (List.mem_toFinset.mpr (List.mem_map_of_mem (by decide))),
   (Finset.singleton_subset_iff (a := Proc.devRef (τ := τ) .tc main_v204)).mpr (List.mem_toFinset.mpr (List.mem_map_of_mem (by decide))),
   (Finset.singleton_subset_iff (a := Proc.devRef (τ := τ) .tc main_v205)).mpr (List.mem_toFinset.mpr (List.mem_map_of_mem (by decide))),
   (Finset.singleton_subset_iff (a := Proc.devRef (τ := τ) .tc main_cst_27)).mpr (List.mem_toFinset.mpr (List.mem_map_of_mem (by decide))),
   (Finset.singleton_subset_iff (a := Proc.devRef (τ := τ) .tc main_v206)).mpr (List.mem_toFinset.mpr (List.mem_map_of_mem (by decide))),
   (Finset.singleton_subset_iff (a := Proc.devRef (τ := τ) .tc main_cst_28)).mpr (List.mem_toFinset.mpr (List.mem_map_of_mem (by decide))),
   (Finset.singleton_subset_iff (a := Proc.devRef (τ := τ) .tc main_v207)).mpr (List.mem_toFinset.mpr (List.mem_map_of_mem (by decide))),
   (Finset.singleton_subset_iff (a := Proc.devRef (τ := τ) .tc main_v208)).mpr (List.mem_toFinset.mpr (List.mem_map_of_mem (by decide)))⟩

/-- A reference the window does not write keeps its contents through it. -/
theorem ops3_keep (V : Valuation τ sig (Elt F)) (r : Ref sig .tc) (h : r ∉ ops3_W) :
    after ops3 V (Proc.devRef .tc r) = V (Proc.devRef .tc r) :=
  after_of_writes_sub ops3 V ops3_writes h

end Cert.ReferenceIdeal.Hand

end
-- ==== Proof.Ref.Ops4.lean ====
import proofs.«414290_j6631429505478_3_alg».proof.Proof.Gen.ReferenceIdeal
import Idealize.ShloMosaic.Lib.StableHlo.Run
import Idealize.ShloMosaic.Lib.Pipeline.Frame

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
set_option maxRecDepth 8192 in
/-- The 104 operations of window 4 of @main, in order, a called function's operations in its call's place. -/
abbrev ops4 : List (HloOp τ sig (Elt F)) :=
  [ StableHlo.nullary main_c_29 (constantI S_ 32 0#32),
    StableHlo.TRef.nullary main_call8.cst (constant S_ .f32 0x00000000#32),
    StableHlo.TRef.binary (.of main_v201 : StableHlo.TRef sig ⟨S50000x128, .f32⟩) main_call8.cst main_call8.v0 (fun x v => Host.reduceAdd x v reducesTo_S50000x128_S128_d0 h_S_),
    StableHlo.TRef.unary main_call8.v0 main_call8.v1 (broadcastInDim S1x128 ![1] bcast_S128_S1x128_1),
    StableHlo.TRef.nullary main_call8.cst_0 (constant S_ .f32 0x47435000#32),
    StableHlo.TRef.unary main_call8.cst_0 main_call8.v2 (broadcastInDim S1x128 ![] bcast_S_S1x128),
    StableHlo.TRef.binary main_call8.v1 main_call8.v2 main_call8.v3 Host.divf,
    StableHlo.TRef.unary main_call8.v3 main_call8.v4 (broadcastInDim S50000x128 ![0, 1] bcast_S1x128_S50000x128_0_1),
    StableHlo.TRef.binary (.of main_v201 : StableHlo.TRef sig ⟨S50000x128, .f32⟩) main_call8.v4 main_call8.v5 subf,
    StableHlo.TRef.binary main_call8.v5 main_call8.v5 main_call8.v6 mulf,
    StableHlo.TRef.unary (.of main_c_29 : StableHlo.TRef sig ⟨S_, .i32⟩) main_call8.v7 (sitofp .f32),
    StableHlo.TRef.nullary main_call8.cst_1 (constant S_ .f32 0x47435000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S50000x128_S128_d0 h_S_),
    StableHlo.TRef.unary main_call8.v8 main_call8.v10 (broadcastInDim S128 ![] bcast_S_S128),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S128 ![] bcast_S_S128),
    StableHlo.TRef.ternary main_call8.v12 main_call8.v11 main_call8.call0.v1 main_call8.call0.v2 (fun p a b => select (broadcastInDim S128 ![] bcast_S_S128 p) a b),
    StableHlo.unary main_v208 main_v210 (broadcastInDim S1x128 ![1] bcast_S128_S1x128_1 : (⟨S128, .f32⟩ : BufTy).Contents (Elt F) → (⟨S1x128, .f32⟩ : BufTy).Contents (Elt F)),
    StableHlo.unary main_v210 main_v211 (broadcastInDim S50000x128 ![0, 1] bcast_S1x128_S50000x128_0_1 : (⟨S1x128, .f32⟩ : BufTy).Contents (Elt F) → (⟨S50000x128, .f32⟩ : BufTy).Contents (Elt F)),
    StableHlo.binary main_v201 main_v211 main_v212 (subf : (⟨S50000x128, .f32⟩ : BufTy).Contents (Elt F) → (⟨S50000x128, .f32⟩ : BufTy).Contents (Elt F) → (⟨S50000x128, .f32⟩ : BufTy).Contents (Elt F)),
    StableHlo.nullary main_cst_30 (constant S_ .f32 0x3727C5AC#32),
    StableHlo.unary main_cst_30 main_v213 (broadcastInDim S128 ![] bcast_S_S128 : (⟨S_, .f32⟩ : BufTy).Contents (Elt F) → (⟨S128, .f32⟩ : BufTy).Contents (Elt F)),
    StableHlo.binary main_v209 main_v213 main_v214 (addf : (⟨S128, .f32⟩ : BufTy).Contents (Elt F) → (⟨S128, .f32⟩ : BufTy).Contents (Elt F) → (⟨S128, .f32⟩ : BufTy).Contents (Elt F)),
    StableHlo.unary main_v214 main_v215 (Host.rsqrt : (⟨S128, .f32⟩ : BufTy).Contents (Elt F) → (⟨S128, .f32⟩ : BufTy).Contents (Elt F)),
    StableHlo.unary main_v215 main_v216 (broadcastInDim S1x128 ![1] bcast_S128_S1x128_1 : (⟨S128, .f32⟩ : BufTy).Contents (Elt F) → (⟨S1x128, .f32⟩ : BufTy).Contents (Elt F)),
    StableHlo.unary main_v216 main_v217 (broadcastInDim S50000x128 ![0, 1] bcast_S1x128_S50000x128_0_1 : (⟨S1x128, .f32⟩ : BufTy).Contents (Elt F) → (⟨S50000x128, .f32⟩ : BufTy).Contents (Elt F)),
    StableHlo.binary main_v212 main_v217 main_v218 (mulf : (⟨S50000x128, .f32⟩ : BufTy).Contents (Elt F) → (⟨S50000x128, .f32⟩ : BufTy).Contents (Elt F) → (⟨S50000x128, .f32⟩ : BufTy).Contents (Elt F)),
    StableHlo.unary main_v203 main_v219 (broadcastInDim S1x128 ![1] bcast_S128_S1x128_1 : (⟨S128, .f32⟩ : BufTy).Contents (Elt F) → (⟨S1x128, .f32⟩ : BufTy).Contents (Elt F)),
    StableHlo.unary main_v219 main_v220 (broadcastInDim S50000x128 ![0, 1] bcast_S1x128_S50000x128_0_1 : (⟨S1x128, .f32⟩ : BufTy).Contents (Elt F) → (⟨S50000x128, .f32⟩ : BufTy).Contents (Elt F)),
    StableHlo.binary main_v218 main_v220 main_v221 (mulf : (⟨S50000x128, .f32⟩ : BufTy).Contents (Elt F) → (⟨S50000x128, .f32⟩ : BufTy).Contents (Elt F) → (⟨S50000x128, .f32⟩ : BufTy).Contents (Elt F)),
    StableHlo.unary main_v205 main_v222 (broadcastInDim S1x128 ![1] bcast_S128_S1x128_1 : (⟨S128, .f32⟩ : BufTy).Contents (Elt F) → (⟨S1x128, .f32⟩ : BufTy).Contents (Elt F)),
    StableHlo.unary main_v222 main_v223 (broadcastInDim S50000x128 ![0, 1] bcast_S1x128_S50000x128_0_1 : (⟨S1x128, .f32⟩ : BufTy).Contents (Elt F) → (⟨S50000x128, .f32⟩ : BufTy).Contents (Elt F)),
    StableHlo.binary main_v221 main_v223 main_v224 (addf : (⟨S50000x128, .f32⟩ : BufTy).Contents (Elt F) → (⟨S50000x128, .f32⟩ : BufTy).Contents (Elt F) → (⟨S50000x128, .f32⟩ : BufTy).Contents (Elt F)),
    StableHlo.TRef.nullary main_call9.cst (constant S_ .f32 0x00000000#32),
    StableHlo.TRef.unary main_call9.cst main_call9.v0 (broadcastInDim S50000x128 ![] bcast_S_S50000x128),
    StableHlo.TRef.binary (.of main_v224 : StableHlo.TRef sig ⟨S50000x128, .f32⟩) main_call9.v0 main_call9.v1 maximumf,
    StableHlo.unary main_arg3 main_v226 ((extractStridedSlice S1x1 ![1, 1] · slices_S6x3_S1x1_1_1) : (⟨S6x3, .f32⟩ : BufTy).Contents (Elt F) → (⟨S1x1, .f32⟩ : BufTy).Contents (Elt F)),
    StableHlo.reshape main_v226 main_v227 rfl shapeCasts_S1x1_S_,
    StableHlo.unary main_v227 main_v228 (broadcastInDim S50000x128 ![] bcast_S_S50000x128 : (⟨S_, .f32⟩ : BufTy).Contents (Elt F) → (⟨S50000x128, .f32⟩ : BufTy).Contents (Elt F)),
    StableHlo.binary main_v228 main_v225 main_v229 (mulf : (⟨S50000x128, .f32⟩ : BufTy).Contents (Elt F) → (⟨S50000x128, .f32⟩ : BufTy).Contents (Elt F) → (⟨S50000x128, .f32⟩ : BufTy).Contents (Elt F)),
    StableHlo.binary main_v192 main_v229 main_v230 (addf : (⟨S50000x128, .f32⟩ : BufTy).Contents (Elt F) → (⟨S50000x128, .f32⟩ : BufTy).Contents (Elt F) → (⟨S50000x128, .f32⟩ : BufTy).Contents (Elt F)),
    StableHlo.unary main_arg4 main_v231 ((extractStridedSlice S1x1x128x128 ![1, 2, 0, 0] · slices_S6x3x128x128_S1x1x128x128_1_2_0_0) : (⟨S6x3x128x128, .f32⟩ : BufTy).Contents (Elt F) → (⟨S1x1x128x128, .f32⟩ : BufTy).Contents (Elt F)),
    StableHlo.reshape main_v231 main_v232 rfl shapeCasts_S1x1x128x128_S128x128,
    StableHlo.unary main_v232 main_v233 ((transpose S128x128 [1, 0] · transposes_S128x128_S128x128_1_0) : (⟨S128x128, .f32⟩ : BufTy).Contents (Elt F) → (⟨S128x128, .f32⟩ : BufTy).Contents (Elt F)),
    StableHlo.binary main_arg2 main_v233 main_v234 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg5 main_v235 ((extractStridedSlice S1x1x128 ![1, 2, 0] · slices_S6x3x128_S1x1x128_1_2_0) : (⟨S6x3x128, .f32⟩ : BufTy).Contents (Elt F) → (⟨S1x1x128, .f32⟩ : BufTy).Contents (Elt F)),
    StableHlo.reshape main_v235 main_v236 rfl shapeCasts_S1x1x128_S128,
    StableHlo.unary main_v236 main_v237 (broadcastInDim S1x128 ![1] bcast_S128_S1x128_1 : (⟨S128, .f32⟩ : BufTy).Contents (Elt F) → (⟨S1x128, .f32⟩ : BufTy).Contents (Elt F)),
    StableHlo.unary main_v237 main_v238 (broadcastInDim S50000x128 ![0, 1] bcast_S1x128_S50000x128_0_1 : (⟨S1x128, .f32⟩ : BufTy).Contents (Elt F) → (⟨S50000x128, .f32⟩ : BufTy).Contents (Elt F)),
    StableHlo.binary main_v234 main_v238 main_v239 (addf : (⟨S50000x128, .f32⟩ : BufTy).Contents (Elt F) → (⟨S50000x128, .f32⟩ : BufTy).Contents (Elt F) → (⟨S50000x128, .f32⟩ : BufTy).Contents (Elt F)),
    StableHlo.unary main_arg6 main_v240 ((extractStridedSlice S1x1x128 ![1, 2, 0] · slices_S6x3x128_S1x1x128_1_2_0) : (⟨S6x3x128, .f32⟩ : BufTy).Contents (Elt F) → (⟨S1x1x128, .f32⟩ : BufTy).Contents (Elt F)),
    StableHlo.reshape main_v240 main_v241 rfl shapeCasts_S1x1x128_S128,
    StableHlo.unary main_arg7 main_v242 ((extractStridedSlice S1x1x128 ![1, 2, 0] · slices_S6x3x128_S1x1x128_1_2_0) : (⟨S6x3x128, .f32⟩ : BufTy).Contents (Elt F) → (⟨S1x1x128, .f32⟩ : BufTy).Contents (Elt F)),
    StableHlo.reshape main_v242 main_v243 rfl shapeCasts_S1x1x128_S128,
    StableHlo.nullary main_cst_31 (constant S_ .f32 0x00000000#32),
    StableHlo.binary main_v239 main_cst_31 main_v244 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_32 (constant S_ .f32 0x47435000#32),
    StableHlo.unary main_cst_32 main_v245 (broadcastInDim S128 ![] bcast_S_S128 : (⟨S_, .f32⟩ : BufTy).Contents (Elt F) → (⟨S128, .f32⟩ : BufTy).Contents (Elt F)),
    StableHlo.binary main_v244 main_v245 main_v246 (Host.divf : (⟨S128, .f32⟩ : BufTy).Contents (Elt F) → (⟨S128, .f32⟩ : BufTy).Contents (Elt F) → (⟨S128, .f32⟩ : BufTy).Contents (Elt F)),
    StableHlo.nullary main_c_33 (constantI S_ 32 0#32),
    StableHlo.TRef.nullary main_call10.cst (constant S_ .f32 0x00000000#32),
    StableHlo.TRef.binary (.of main_v239 : StableHlo.TRef sig ⟨S50000x128, .f32⟩) main_call10.cst main_call10.v0 (fun x v => Host.reduceAdd x v reducesTo_S50000x128_S128_d0 h_S_),
    StableHlo.TRef.unary main_call10.v0 main_call10.v1 (broadcastInDim S1x128 ![1] bcast_S128_S1x128_1),
    StableHlo.TRef.nullary main_call10.cst_0 (constant S_ .f32 0x47435000#32),
    StableHlo.TRef.unary main_call10.cst_0 main_call10.v2 (broadcastInDim S1x128 ![] bcast_S_S1x128),
    StableHlo.TRef.binary main_call10.v1 main_call10.v2 main_call10.v3 Host.divf,
    StableHlo.TRef.unary main_call10.v3 main_call10.v4 (broadcastInDim S50000x128 ![0, 1] bcast_S1x128_S50000x128_0_1),
    StableHlo.TRef.binary (.of main_v239 : StableHlo.TRef sig ⟨S50000x128, .f32⟩) main_call10.v4 main_call10.v5 subf,
    StableHlo.TRef.binary main_call10.v5 main_call10.v5 main_call10.v6 mulf,
    StableHlo.TRef.unary (.of main_c_33 : StableHlo.TRef sig ⟨S_, .i32⟩) main_call10.v7 (sitofp .f32),
    StableHlo.TRef.nullary main_call10.cst_1 (constant S_ .f32 0x47435000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S50000x128_S128_d0 h_S_),
    StableHlo.TRef.unary main_call10.v8 main_call10.v10 (broadcastInDim S128 ![] bcast_S_S128),
    StableHlo.TRef.binary main_call10.v9 main_call10.v10 main_call10.v11 Host.divf,
    StableHlo.TRef.nullary main_call10.cst_3 (constant S_ .f32 0x00000000#32),
    StableHlo.TRef.binary main_call10.v8 main_call10.cst_3 main_call10.v12 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S128 ![] bcast_S_S128),
    StableHlo.TRef.ternary main_call10.v12 main_call10.v11 main_call10.call0.v1 main_call10.call0.v2 (fun p a b => select (broadcastInDim S128 ![] bcast_S_S128 p) a b),
    StableHlo.unary main_v246 main_v248 (broadcastInDim S1x128 ![1] bcast_S128_S1x128_1 : (⟨S128, .f32⟩ : BufTy).Contents (Elt F) → (⟨S1x128, .f32⟩ : BufTy).Contents (Elt F)),
    StableHlo.unary main_v248 main_v249 (broadcastInDim S50000x128 ![0, 1] bcast_S1x128_S50000x128_0_1 : (⟨S1x128, .f32⟩ : BufTy).Contents (Elt F) → (⟨S50000x128, .f32⟩ : BufTy).Contents (Elt F)),
    StableHlo.binary main_v239 main_v249 main_v250 (subf : (⟨S50000x128, .f32⟩ : BufTy).Contents (Elt F) → (⟨S50000x128, .f32⟩ : BufTy).Contents (Elt F) → (⟨S50000x128, .f32⟩ : BufTy).Contents (Elt F)),
    StableHlo.nullary main_cst_34 (constant S_ .f32 0x3727C5AC#32),
    StableHlo.unary main_cst_34 main_v251 (broadcastInDim S128 ![] bcast_S_S128 : (⟨S_, .f32⟩ : BufTy).Contents (Elt F) → (⟨S128, .f32⟩ : BufTy).Contents (Elt F)),
    StableHlo.binary main_v247 main_v251 main_v252 (addf : (⟨S128, .f32⟩ : BufTy).Contents (Elt F) → (⟨S128, .f32⟩ : BufTy).Contents (Elt F) → (⟨S128, .f32⟩ : BufTy).Contents (Elt F)),
    StableHlo.unary main_v252 main_v253 (Host.rsqrt : (⟨S128, .f32⟩ : BufTy).Contents (Elt F) → (⟨S128, .f32⟩ : BufTy).Contents (Elt F)),
    StableHlo.unary main_v253 main_v254 (broadcastInDim S1x128 ![1] bcast_S128_S1x128_1 : (⟨S128, .f32⟩ : BufTy).Contents (Elt F) → (⟨S1x128, .f32⟩ : BufTy).Contents (Elt F)),
    StableHlo.unary main_v254 main_v255 (broadcastInDim S50000x128 ![0, 1] bcast_S1x128_S50000x128_0_1 : (⟨S1x128, .f32⟩ : BufTy).Contents (Elt F) → (⟨S50000x128, .f32⟩ : BufTy).Contents (Elt F)),
    StableHlo.binary main_v250 main_v255 main_v256 (mulf : (⟨S50000x128, .f32⟩ : BufTy).Contents (Elt F) → (⟨S50000x128, .f32⟩ : BufTy).Contents (Elt F) → (⟨S50000x128, .f32⟩ : BufTy).Contents (Elt F)),
    StableHlo.unary main_v241 main_v257 (broadcastInDim S1x128 ![1] bcast_S128_S1x128_1 : (⟨S128, .f32⟩ : BufTy).Contents (Elt F) → (⟨S1x128, .f32⟩ : BufTy).Contents (Elt F)),
    StableHlo.unary main_v257 main_v258 (broadcastInDim S50000x128 ![0, 1] bcast_S1x128_S50000x128_0_1 : (⟨S1x128, .f32⟩ : BufTy).Contents (Elt F) → (⟨S50000x128, .f32⟩ : BufTy).Contents (Elt F)),
    StableHlo.binary main_v256 main_v258 main_v259 (mulf : (⟨S50000x128, .f32⟩ : BufTy).Contents (Elt F) → (⟨S50000x128, .f32⟩ : BufTy).Contents (Elt F) → (⟨S50000x128, .f32⟩ : BufTy).Contents (Elt F)),
    StableHlo.unary main_v243 main_v260 (broadcastInDim S1x128 ![1] bcast_S128_S1x128_1 : (⟨S128, .f32⟩ : BufTy).Contents (Elt F) → (⟨S1x128, .f32⟩ : BufTy).Contents (Elt F)),
    StableHlo.unary main_v260 main_v261 (broadcastInDim S50000x128 ![0, 1] bcast_S1x128_S50000x128_0_1 : (⟨S1x128, .f32⟩ : BufTy).Contents (Elt F) → (⟨S50000x128, .f32⟩ : BufTy).Contents (Elt F)),
    StableHlo.binary main_v259 main_v261 main_v262 (addf : (⟨S50000x128, .f32⟩ : BufTy).Contents (Elt F) → (⟨S50000x128, .f32⟩ : BufTy).Contents (Elt F) → (⟨S50000x128, .f32⟩ : BufTy).Contents (Elt F)) ]

set_option maxHeartbeats 40000000 in
set_option maxRecDepth 8192 in
/-- Window 4 is the straight line of its operations. -/
theorem main_part4_eq (c : Dev nD) : main_part4 (F := F) c = seq ops4 := by
  chain_rfl

set_option maxHeartbeats 40000000 in
set_option maxRecDepth 8192 in
/-- Each operation touches TensorCore references only. -/
theorem ops4_sub : (ops4 : List (HloOp τ sig (Elt F))).Forall fun op => op.bufs ⊆ tcRefs τ sig :=
  ⟨StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.unary_bufs_sub .., StableHlo.binary_bufs_sub .., StableHlo.binary_bufs_sub .., StableHlo.unary_bufs_sub .., StableHlo.reshape_bufs_sub .., StableHlo.unary_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩

set_option maxHeartbeats 40000000 in
set_option maxRecDepth 8192 in
/-- Each operation determines what it writes. -/
theorem ops4_fresh : (ops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references the window's operations write, in order. -/
abbrev ops4_W : List (Ref sig .tc) :=
  [main_c_29, main_call8_cst, main_call8_v0, main_call8_v1, main_call8_cst_0, main_call8_v2, main_call8_v3, main_call8_v4, main_call8_v5, main_call8_v6, main_call8_v7, main_call8_cst_1, main_call8_v8, main_call8_cst_2, main_call8_v9, main_call8_v10, main_call8_v11, main_call8_cst_3, main_call8_v12, main_call8_cst_4, main_call8_call0_v0, main_call8_call0_v1, main_v209, main_v210, main_v211, main_v212, main_cst_30, main_v213, main_v214, main_v215, main_v216, main_v217, main_v218, main_v219, main_v220, main_v221, main_v222, main_v223, main_v224, main_call9_cst, main_call9_v0, main_v225, main_v226, main_v227, main_v228, main_v229, main_v230, main_v231, main_v232, main_v233, main_v234, main_v235, main_v236, main_v237, main_v238, main_v239, main_v240, main_v241, main_v242, main_v243, main_cst_31, main_v244, main_cst_32, main_v245, main_v246, main_c_33, main_call10_cst, main_call10_v0, main_call10_v1, main_call10_cst_0, main_call10_v2, main_call10_v3, main_call10_v4, main_call10_v5, main_call10_v6, main_call10_v7, main_call10_cst_1, main_call10_v8, main_call10_cst_2, main_call10_v9, main_call10_v10, main_call10_v11, main_call10_cst_3, main_call10_v12, main_call10_cst_4, main_call10_call0_v0, main_call10_call0_v1, main_v247, main_v248, main_v249, main_v250, main_cst_34, main_v251, main_v252, main_v253, main_v254, main_v255, main_v256, main_v257, main_v258, main_v259, main_v260, main_v261, main_v262]

set_option maxHeartbeats 40000000 in
set_option maxRecDepth 8192 in
/-- Each operation writes its own result reference, the one listed at its place. -/
theorem ops4_writes : (ops4 : List (HloOp τ sig (Elt F))).Forall fun op => op.writes ⊆ (ops4_W.map (Proc.devRef (τ := τ) .tc)).toFinset :=
  ⟨(Finset.singleton_subset_iff (a := Proc.devRef (τ := τ) .tc main_c_29)).mpr (List.mem_toFinset.mpr (List.mem_map_of_mem (by decide))),
   (Finset.singleton_subset_iff (a := Proc.devRef (τ := τ) .tc main_call8_cst)).mpr (List.mem_toFinset.mpr (List.mem_map_of_mem (by decide))),
   (Finset.singleton_subset_iff (a := Proc.devRef (τ := τ) .tc main_call8_v0)).mpr (List.mem_toFinset.mpr (List.mem_map_of_mem (by decide))),
   (Finset.singleton_subset_iff (a := Proc.devRef (τ := τ) .tc main_call8_v1)).mpr (List.mem_toFinset.mpr (List.mem_map_of_mem (by decide))),
   (Finset.singleton_subset_iff (a := Proc.devRef (τ := τ) .tc main_call8_cst_0)).mpr (List.mem_toFinset.mpr (List.mem_map_of_mem (by decide))),
   (Finset.singleton_subset_iff (a := Proc.devRef (τ := τ) .tc main_call8_v2)).mpr (List.mem_toFinset.mpr (List.mem_map_of_mem (by decide))),
   (Finset.singleton_subset_iff (a := Proc.devRef (τ := τ) .tc main_call8_v3)).mpr (List.mem_toFinset.mpr (List.mem_map_of_mem (by decide))),
   (Finset.singleton_subset_iff (a := Proc.devRef (τ := τ) .tc main_call8_v4)).mpr (List.mem_toFinset.mpr (List.mem_map_of_mem (by decide))),
   (Finset.singleton_subset_iff (a := Proc.devRef (τ := τ) .tc main_call8_v5)).mpr (List.mem_toFinset.mpr (List.mem_map_of_mem (by decide))),
   (Finset.singleton_subset_iff (a := Proc.devRef (τ := τ) .tc main_call8_v6)).mpr (List.mem_toFinset.mpr (List.mem_map_of_mem (by decide))),
   (Finset.singleton_subset_iff (a := Proc.devRef (τ := τ) .tc main_call8_v7)).mpr (List.mem_toFinset.mpr (List.mem_map_of_mem (by decide))),
   (Finset.singleton_subset_iff (a := Proc.devRef (τ := τ) .tc main_call8_cst_1)).mpr (List.mem_toFinset.mpr (List.mem_map_of_mem (by decide))),
   (Finset.singleton_subset_iff (a := Proc.devRef (τ := τ) .tc main_call8_v8)).mpr (List.mem_toFinset.mpr (List.mem_map_of_mem (by decide))),
   (Finset.singleton_subset_iff (a := Proc.devRef (τ := τ) .tc main_call8_cst_2)).mpr (List.mem_toFinset.mpr (List.mem_map_of_mem (by decide))),
   (Finset.singleton_subset_iff (a := Proc.devRef (τ := τ) .tc main_call8_v9)).mpr (List.mem_toFinset.mpr (List.mem_map_of_mem (by decide))),
   (Finset.singleton_subset_iff (a := Proc.devRef (τ := τ) .tc main_call8_v10)).mpr (List.mem_toFinset.mpr (List.mem_map_of_mem (by decide))),
   (Finset.singleton_subset_iff (a := Proc.devRef (τ := τ) .tc main_call8_v11)).mpr (List.mem_toFinset.mpr (List.mem_map_of_mem (by decide))),
   (Finset.singleton_subset_iff (a := Proc.devRef (τ := τ) .tc main_call8_cst_3)).mpr (List.mem_toFinset.mpr (List.mem_map_of_mem (by decide))),
   (Finset.singleton_subset_iff (a := Proc.devRef (τ := τ) .tc main_call8_v12)).mpr (List.mem_toFinset.mpr (List.mem_map_of_mem (by decide))),
   (Finset.singleton_subset_iff (a := Proc.devRef (τ := τ) .tc main_call8_cst_4)).mpr (List.mem_toFinset.mpr (List.mem_map_of_mem (by decide))),
   (Finset.singleton_subset_iff (a := Proc.devRef (τ := τ) .tc main_call8_call0_v0)).mpr (List.mem_toFinset.mpr (List.mem_map_of_mem (by decide))),
   (Finset.singleton_subset_iff (a := Proc.devRef (τ := τ) .tc main_call8_call0_v1)).mpr (List.mem_toFinset.mpr (List.mem_map_of_mem (by decide))),
   (Finset.singleton_subset_iff (a := Proc.devRef (τ := τ) .tc main_v209)).mpr (List.mem_toFinset.mpr (List.mem_map_of_mem (by decide))),
   (Finset.singleton_subset_iff (a := Proc.devRef (τ := τ) .tc main_v210)).mpr (List.mem_toFinset.mpr (List.mem_map_of_mem (by decide))),
   (Finset.singleton_subset_iff (a := Proc.devRef (τ := τ) .tc main_v211)).mpr (List.mem_toFinset.mpr (List.mem_map_of_mem (by decide))),
   (Finset.singleton_subset_iff (a := Proc.devRef (τ := τ) .tc main_v212)).mpr (List.mem_toFinset.mpr (List.mem_map_of_mem (by decide))),
   (Finset.singleton_subset_iff (a := Proc.devRef (τ := τ) .tc main_cst_30)).mpr (List.mem_toFinset.mpr (List.mem_map_of_mem (by decide))),
   (Finset.singleton_subset_iff (a := Proc.devRef (τ := τ) .tc main_v213)).mpr (List.mem_toFinset.mpr (List.mem_map_of_mem (by decide))),
   (Finset.singleton_subset_iff (a := Proc.devRef (τ := τ) .tc main_v214)).mpr (List.mem_toFinset.mpr (List.mem_map_of_mem (by decide))),
   (Finset.singleton_subset_iff (a := Proc.devRef (τ := τ) .tc main_v215)).mpr (List.mem_toFinset.mpr (List.mem_map_of_mem (by decide))),
   (Finset.singleton_subset_iff (a := Proc.devRef (τ := τ) .tc main_v216)).mpr (List.mem_toFinset.mpr (List.mem_map_of_mem (by decide))),
   (Finset.singleton_subset_iff (a := Proc.devRef (τ := τ) .tc main_v217)).mpr (List.mem_toFinset.mpr (List.mem_map_of_mem (by decide))),
   (Finset.singleton_subset_iff (a := Proc.devRef (τ := τ) .tc main_v218)).mpr (List.mem_toFinset.mpr (List.mem_map_of_mem (by decide))),
   (Finset.singleton_subset_iff (a := Proc.devRef (τ := τ) .tc main_v219)).mpr (List.mem_toFinset.mpr (List.mem_map_of_mem (by decide))),
   (Finset.singleton_subset_iff (a := Proc.devRef (τ := τ) .tc main_v220)).mpr (List.mem_toFinset.mpr (List.mem_map_of_mem (by decide))),
   (Finset.singleton_subset_iff (a := Proc.devRef (τ := τ) .tc main_v221)).mpr (List.mem_toFinset.mpr (List.mem_map_of_mem (by decide))),
   (Finset.singleton_subset_iff (a := Proc.devRef (τ := τ) .tc main_v222)).mpr (List.mem_toFinset.mpr (List.mem_map_of_mem (by decide))),
   (Finset.singleton_subset_iff (a := Proc.devRef (τ := τ) .tc main_v223)).mpr (List.mem_toFinset.mpr (List.mem_map_of_mem (by decide))),
   (Finset.singleton_subset_iff (a := Proc.devRef (τ := τ) .tc main_v224)).mpr (List.mem_toFinset.mpr (List.mem_map_of_mem (by decide))),
   (Finset.singleton_subset_iff (a := Proc.devRef (τ := τ) .tc main_call9_cst)).mpr (List.mem_toFinset.mpr (List.mem_map_of_mem (by decide))),
   (Finset.singleton_subset_iff (a := Proc.devRef (τ := τ) .tc main_call9_v0)).mpr (List.mem_toFinset.mpr (List.mem_map_of_mem (by decide))),
   (Finset.singleton_subset_iff (a := Proc.devRef (τ := τ) .tc main_v225)).mpr (List.mem_toFinset.mpr (List.mem_map_of_mem (by decide))),
   (Finset.singleton_subset_iff (a := Proc.devRef (τ := τ) .tc main_v226)).mpr (List.mem_toFinset.mpr (List.mem_map_of_mem (by decide))),
   (Finset.singleton_subset_iff (a := Proc.devRef (τ := τ) .tc main_v227)).mpr (List.mem_toFinset.mpr (List.mem_map_of_mem (by decide))),
   (Finset.singleton_subset_iff (a := Proc.devRef (τ := τ) .tc main_v228)).mpr (List.mem_toFinset.mpr (List.mem_map_of_mem (by decide))),
   (Finset.singleton_subset_iff (a := Proc.devRef (τ := τ) .tc main_v229)).mpr (List.mem_toFinset.mpr (List.mem_map_of_mem (by decide))),
   (Finset.singleton_subset_iff (a := Proc.devRef (τ := τ) .tc main_v230)).mpr (List.mem_toFinset.mpr (List.mem_map_of_mem (by decide))),
   (Finset.singleton_subset_iff (a := Proc.devRef (τ := τ) .tc main_v231)).mpr (List.mem_toFinset.mpr (List.mem_map_of_mem (by decide))),
   (Finset.singleton_subset_iff (a := Proc.devRef (τ := τ) .tc main_v232)).mpr (List.mem_toFinset.mpr (List.mem_map_of_mem (by decide))),
   (Finset.singleton_subset_iff (a := Proc.devRef (τ := τ) .tc main_v233)).mpr (List.mem_toFinset.mpr (List.mem_map_of_mem (by decide))),
   (Finset.singleton_subset_iff (a := Proc.devRef (τ := τ) .tc main_v234)).mpr (List.mem_toFinset.mpr (List.mem_map_of_mem (by decide))),
   (Finset.singleton_subset_iff (a := Proc.devRef (τ := τ) .tc main_v235)).mpr (List.mem_toFinset.mpr (List.mem_map_of_mem (by decide))),
   (Finset.singleton_subset_iff (a := Proc.devRef (τ := τ) .tc main_v236)).mpr (List.mem_toFinset.mpr (List.mem_map_of_mem (by decide))),
   (Finset.singleton_subset_iff (a := Proc.devRef (τ := τ) .tc main_v237)).mpr (List.mem_toFinset.mpr (List.mem_map_of_mem (by decide))),
   (Finset.singleton_subset_iff (a := Proc.devRef (τ := τ) .tc main_v238)).mpr (List.mem_toFinset.mpr (List.mem_map_of_mem (by decide))),
   (Finset.singleton_subset_iff (a := Proc.devRef (τ := τ) .tc main_v239)).mpr (List.mem_toFinset.mpr (List.mem_map_of_mem (by decide))),
   (Finset.singleton_subset_iff (a := Proc.devRef (τ := τ) .tc main_v240)).mpr (List.mem_toFinset.mpr (List.mem_map_of_mem (by decide))),
   (Finset.singleton_subset_iff (a := Proc.devRef (τ := τ) .tc main_v241)).mpr (List.mem_toFinset.mpr (List.mem_map_of_mem (by decide))),
   (Finset.singleton_subset_iff (a := Proc.devRef (τ := τ) .tc main_v242)).mpr (List.mem_toFinset.mpr (List.mem_map_of_mem (by decide))),
   (Finset.singleton_subset_iff (a := Proc.devRef (τ := τ) .tc main_v243)).mpr (List.mem_toFinset.mpr (List.mem_map_of_mem (by decide))),
   (Finset.singleton_subset_iff (a := Proc.devRef (τ := τ) .tc main_cst_31)).mpr (List.mem_toFinset.mpr (List.mem_map_of_mem (by decide))),
   (Finset.singleton_subset_iff (a := Proc.devRef (τ := τ) .tc main_v244)).mpr (List.mem_toFinset.mpr (List.mem_map_of_mem (by decide))),
   (Finset.singleton_subset_iff (a := Proc.devRef (τ := τ) .tc main_cst_32)).mpr (List.mem_toFinset.mpr (List.mem_map_of_mem (by decide))),
   (Finset.singleton_subset_iff (a := Proc.devRef (τ := τ) .tc main_v245)).mpr (List.mem_toFinset.mpr (List.mem_map_of_mem (by decide))),
   (Finset.singleton_subset_iff (a := Proc.devRef (τ := τ) .tc main_v246)).mpr (List.mem_toFinset.mpr (List.mem_map_of_mem (by decide))),
   (Finset.singleton_subset_iff (a := Proc.devRef (τ := τ) .tc main_c_33)).mpr (List.mem_toFinset.mpr (List.mem_map_of_mem (by decide))),
   (Finset.singleton_subset_iff (a := Proc.devRef (τ := τ) .tc main_call10_cst)).mpr (List.mem_toFinset.mpr (List.mem_map_of_mem (by decide))),
   (Finset.singleton_subset_iff (a := Proc.devRef (τ := τ) .tc main_call10_v0)).mpr (List.mem_toFinset.mpr (List.mem_map_of_mem (by decide))),
   (Finset.singleton_subset_iff (a := Proc.devRef (τ := τ) .tc main_call10_v1)).mpr (List.mem_toFinset.mpr (List.mem_map_of_mem (by decide))),
   (Finset.singleton_subset_iff (a := Proc.devRef (τ := τ) .tc main_call10_cst_0)).mpr (List.mem_toFinset.mpr (List.mem_map_of_mem (by decide))),
   (Finset.singleton_subset_iff (a := Proc.devRef (τ := τ) .tc main_call10_v2)).mpr (List.mem_toFinset.mpr (List.mem_map_of_mem (by decide))),
   (Finset.singleton_subset_iff (a := Proc.devRef (τ := τ) .tc main_call10_v3)).mpr (List.mem_toFinset.mpr (List.mem_map_of_mem (by decide))),
   (Finset.singleton_subset_iff (a := Proc.devRef (τ := τ) .tc main_call10_v4)).mpr (List.mem_toFinset.mpr (List.mem_map_of_mem (by decide))),
   (Finset.singleton_subset_iff (a := Proc.devRef (τ := τ) .tc main_call10_v5)).mpr (List.mem_toFinset.mpr (List.mem_map_of_mem (by decide))),
   (Finset.singleton_subset_iff (a := Proc.devRef (τ := τ) .tc main_call10_v6)).mpr (List.mem_toFinset.mpr (List.mem_map_of_mem (by decide))),
   (Finset.singleton_subset_iff (a := Proc.devRef (τ := τ) .tc main_call10_v7)).mpr (List.mem_toFinset.mpr (List.mem_map_of_mem (by decide))),
   (Finset.singleton_subset_iff (a := Proc.devRef (τ := τ) .tc main_call10_cst_1)).mpr (List.mem_toFinset.mpr (List.mem_map_of_mem (by decide))),
   (Finset.singleton_subset_iff (a := Proc.devRef (τ := τ) .tc main_call10_v8)).mpr (List.mem_toFinset.mpr (List.mem_map_of_mem (by decide))),
   (Finset.singleton_subset_iff (a := Proc.devRef (τ := τ) .tc main_call10_cst_2)).mpr (List.mem_toFinset.mpr (List.mem_map_of_mem (by decide))),
   (Finset.singleton_subset_iff (a := Proc.devRef (τ := τ) .tc main_call10_v9)).mpr (List.mem_toFinset.mpr (List.mem_map_of_mem (by decide))),
   (Finset.singleton_subset_iff (a := Proc.devRef (τ := τ) .tc main_call10_v10)).mpr (List.mem_toFinset.mpr (List.mem_map_of_mem (by decide))),
   (Finset.singleton_subset_iff (a := Proc.devRef (τ := τ) .tc main_call10_v11)).mpr (List.mem_toFinset.mpr (List.mem_map_of_mem (by decide))),
   (Finset.singleton_subset_iff (a := Proc.devRef (τ := τ) .tc main_call10_cst_3)).mpr (List.mem_toFinset.mpr (List.mem_map_of_mem (by decide))),
   (Finset.singleton_subset_iff (a := Proc.devRef (τ := τ) .tc main_call10_v12)).mpr (List.mem_toFinset.mpr (List.mem_map_of_mem (by decide))),
   (Finset.singleton_subset_iff (a := Proc.devRef (τ := τ) .tc main_call10_cst_4)).mpr (List.mem_toFinset.mpr (List.mem_map_of_mem (by decide))),
   (Finset.singleton_subset_iff (a := Proc.devRef (τ := τ) .tc main_call10_call0_v0)).mpr (List.mem_toFinset.mpr (List.mem_map_of_mem (by decide))),
   (Finset.singleton_subset_iff (a := Proc.devRef (τ := τ) .tc main_call10_call0_v1)).mpr (List.mem_toFinset.mpr (List.mem_map_of_mem (by decide))),
   (Finset.singleton_subset_iff (a := Proc.devRef (τ := τ) .tc main_v247)).mpr (List.mem_toFinset.mpr (List.mem_map_of_mem (by decide))),
   (Finset.singleton_subset_iff (a := Proc.devRef (τ := τ) .tc main_v248)).mpr (List.mem_toFinset.mpr (List.mem_map_of_mem (by decide))),
   (Finset.singleton_subset_iff (a := Proc.devRef (τ := τ) .tc main_v249)).mpr (List.mem_toFinset.mpr (List.mem_map_of_mem (by decide))),
   (Finset.singleton_subset_iff (a := Proc.devRef (τ := τ) .tc main_v250)).mpr (List.mem_toFinset.mpr (List.mem_map_of_mem (by decide))),
   (Finset.singleton_subset_iff (a := Proc.devRef (τ := τ) .tc main_cst_34)).mpr (List.mem_toFinset.mpr (List.mem_map_of_mem (by decide))),
   (Finset.singleton_subset_iff (a := Proc.devRef (τ := τ) .tc main_v251)).mpr (List.mem_toFinset.mpr (List.mem_map_of_mem (by decide))),
   (Finset.singleton_subset_iff (a := Proc.devRef (τ := τ) .tc main_v252)).mpr (List.mem_toFinset.mpr (List.mem_map_of_mem (by decide))),
   (Finset.singleton_subset_iff (a := Proc.devRef (τ := τ) .tc main_v253)).mpr (List.mem_toFinset.mpr (List.mem_map_of_mem (by decide))),
   (Finset.singleton_subset_iff (a := Proc.devRef (τ := τ) .tc main_v254)).mpr (List.mem_toFinset.mpr (List.mem_map_of_mem (by decide))),
   (Finset.singleton_subset_iff (a := Proc.devRef (τ := τ) .tc main_v255)).mpr (List.mem_toFinset.mpr (List.mem_map_of_mem (by decide))),
   (Finset.singleton_subset_iff (a := Proc.devRef (τ := τ) .tc main_v256)).mpr (List.mem_toFinset.mpr (List.mem_map_of_mem (by decide))),
   (Finset.singleton_subset_iff (a := Proc.devRef (τ := τ) .tc main_v257)).mpr (List.mem_toFinset.mpr (List.mem_map_of_mem (by decide))),
   (Finset.singleton_subset_iff (a := Proc.devRef (τ := τ) .tc main_v258)).mpr (List.mem_toFinset.mpr (List.mem_map_of_mem (by decide))),
   (Finset.singleton_subset_iff (a := Proc.devRef (τ := τ) .tc main_v259)).mpr (List.mem_toFinset.mpr (List.mem_map_of_mem (by decide))),
   (Finset.singleton_subset_iff (a := Proc.devRef (τ := τ) .tc main_v260)).mpr (List.mem_toFinset.mpr (List.mem_map_of_mem (by decide))),
   (Finset.singleton_subset_iff (a := Proc.devRef (τ := τ) .tc main_v261)).mpr (List.mem_toFinset.mpr (List.mem_map_of_mem (by decide))),
   (Finset.singleton_subset_iff (a := Proc.devRef (τ := τ) .tc main_v262)).mpr (List.mem_toFinset.mpr (List.mem_map_of_mem (by decide)))⟩

/-- A reference the window does not write keeps its contents through it. -/
theorem ops4_keep (V : Valuation τ sig (Elt F)) (r : Ref sig .tc) (h : r ∉ ops4_W) :
    after ops4 V (Proc.devRef .tc r) = V (Proc.devRef .tc r) :=
  after_of_writes_sub ops4 V ops4_writes h

end Cert.ReferenceIdeal.Hand

end
-- ==== Proof.Ref.Ops5.lean ====
import proofs.«414290_j6631429505478_3_alg».proof.Proof.Gen.ReferenceIdeal
import Idealize.ShloMosaic.Lib.StableHlo.Run
import Idealize.ShloMosaic.Lib.Pipeline.Frame

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
set_option maxRecDepth 8192 in
/-- The 83 operations of window 5 of @main, in order, a called function's operations in its call's place. -/
abbrev ops5 : List (HloOp τ sig (Elt F)) :=
  [ StableHlo.TRef.nullary main_call11.cst (constant S_ .f32 0x00000000#32),
    StableHlo.TRef.unary main_call11.cst main_call11.v0 (broadcastInDim S50000x128 ![] bcast_S_S50000x128),
    StableHlo.TRef.binary (.of main_v262 : StableHlo.TRef sig ⟨S50000x128, .f32⟩) main_call11.v0 main_call11.v1 maximumf,
    StableHlo.unary main_arg3 main_v264 ((extractStridedSlice S1x1 ![1, 2] · slices_S6x3_S1x1_1_2) : (⟨S6x3, .f32⟩ : BufTy).Contents (Elt F) → (⟨S1x1, .f32⟩ : BufTy).Contents (Elt F)),
    StableHlo.reshape main_v264 main_v265 rfl shapeCasts_S1x1_S_,
    StableHlo.unary main_v265 main_v266 (broadcastInDim S50000x128 ![] bcast_S_S50000x128 : (⟨S_, .f32⟩ : BufTy).Contents (Elt F) → (⟨S50000x128, .f32⟩ : BufTy).Contents (Elt F)),
    StableHlo.binary main_v266 main_v263 main_v267 (mulf : (⟨S50000x128, .f32⟩ : BufTy).Contents (Elt F) → (⟨S50000x128, .f32⟩ : BufTy).Contents (Elt F) → (⟨S50000x128, .f32⟩ : BufTy).Contents (Elt F)),
    StableHlo.binary main_v230 main_v267 main_v268 (addf : (⟨S50000x128, .f32⟩ : BufTy).Contents (Elt F) → (⟨S50000x128, .f32⟩ : BufTy).Contents (Elt F) → (⟨S50000x128, .f32⟩ : BufTy).Contents (Elt F)),
    StableHlo.nullary main_cst_35 (constant S_ .f32 0x00000000#32),
    StableHlo.unary main_cst_35 main_v269 (broadcastInDim S50000x128 ![] bcast_S_S50000x128 : (⟨S_, .f32⟩ : BufTy).Contents (Elt F) → (⟨S50000x128, .f32⟩ : BufTy).Contents (Elt F)),
    StableHlo.binary main_v269 main_v268 main_v270 (addf : (⟨S50000x128, .f32⟩ : BufTy).Contents (Elt F) → (⟨S50000x128, .f32⟩ : BufTy).Contents (Elt F) → (⟨S50000x128, .f32⟩ : BufTy).Contents (Elt F)),
    StableHlo.nullary main_c_36 (constantI S_ 32 0#32),
    StableHlo.unary main_c_36 main_v271 (broadcastInDim S800000 ![] bcast_S_S800000 : (⟨S_, .i32⟩ : BufTy).Contents (Elt F) → (⟨S800000, .i32⟩ : BufTy).Contents (Elt F)),
    StableHlo.binary main_v1 main_v271 main_v272 (cmpi .slt : (⟨S800000, .i32⟩ : BufTy).Contents (Elt F) → (⟨S800000, .i32⟩ : BufTy).Contents (Elt F) → (⟨S800000, .i1⟩ : BufTy).Contents (Elt F)),
    StableHlo.nullary main_c_37 (constantI S_ 32 50000#32),
    StableHlo.unary main_c_37 main_v273 (broadcastInDim S800000 ![] bcast_S_S800000 : (⟨S_, .i32⟩ : BufTy).Contents (Elt F) → (⟨S800000, .i32⟩ : BufTy).Contents (Elt F)),
    StableHlo.binary main_v1 main_v273 main_v274 (addi : (⟨S800000, .i32⟩ : BufTy).Contents (Elt F) → (⟨S800000, .i32⟩ : BufTy).Contents (Elt F) → (⟨S800000, .i32⟩ : BufTy).Contents (Elt F)),
    StableHlo.ternary main_v272 main_v274 main_v1 main_v275 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v275 main_v276 (broadcastInDim S800000x1 ![0] bcast_S800000_S800000x1_0 : (⟨S800000, .i32⟩ : BufTy).Contents (Elt F) → (⟨S800000x1, .i32⟩ : BufTy).Contents (Elt F)),
    StableHlo.binary main_v141 main_v276 main_v277 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_38 (constant S_ .f32 0x00000000#32),
    StableHlo.unary main_cst_38 main_v278 (broadcastInDim S50000x128 ![] bcast_S_S50000x128 : (⟨S_, .f32⟩ : BufTy).Contents (Elt F) → (⟨S50000x128, .f32⟩ : BufTy).Contents (Elt F)),
    StableHlo.unary main_v3 main_v279 (broadcastInDim S800000x1 ![0] bcast_S800000_S800000x1_0 : (⟨S800000, .i32⟩ : BufTy).Contents (Elt F) → (⟨S800000x1, .i32⟩ : BufTy).Contents (Elt F)),
    StableHlo.ternary main_v278 main_v279 main_v277 main_v280 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v12 main_v281 (broadcastInDim S50000x128 ![0, 1] bcast_S50000x1_S50000x128_0_1 : (⟨S50000x1, .f32⟩ : BufTy).Contents (Elt F) → (⟨S50000x128, .f32⟩ : BufTy).Contents (Elt F)),
    StableHlo.binary main_v280 main_v281 main_v282 (mulf : (⟨S50000x128, .f32⟩ : BufTy).Contents (Elt F) → (⟨S50000x128, .f32⟩ : BufTy).Contents (Elt F) → (⟨S50000x128, .f32⟩ : BufTy).Contents (Elt F)),
    StableHlo.nullary main_cst_39 (constant S_ .f32 0x00000000#32),
    StableHlo.unary main_cst_39 main_v283 (broadcastInDim S50000x128 ![] bcast_S_S50000x128 : (⟨S_, .f32⟩ : BufTy).Contents (Elt F) → (⟨S50000x128, .f32⟩ : BufTy).Contents (Elt F)),
    StableHlo.unary main_arg4 main_v284 ((extractStridedSlice S1x1x128x128 ![2, 0, 0, 0] · slices_S6x3x128x128_S1x1x128x128_2_0_0_0) : (⟨S6x3x128x128, .f32⟩ : BufTy).Contents (Elt F) → (⟨S1x1x128x128, .f32⟩ : BufTy).Contents (Elt F)),
    StableHlo.reshape main_v284 main_v285 rfl shapeCasts_S1x1x128x128_S128x128,
    StableHlo.unary main_v285 main_v286 ((transpose S128x128 [1, 0] · transposes_S128x128_S128x128_1_0) : (⟨S128x128, .f32⟩ : BufTy).Contents (Elt F) → (⟨S128x128, .f32⟩ : BufTy).Contents (Elt F)),
    StableHlo.binary main_v282 main_v286 main_v287 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg5 main_v288 ((extractStridedSlice S1x1x128 ![2, 0, 0] · slices_S6x3x128_S1x1x128_2_0_0) : (⟨S6x3x128, .f32⟩ : BufTy).Contents (Elt F) → (⟨S1x1x128, .f32⟩ : BufTy).Contents (Elt F)),
    StableHlo.reshape main_v288 main_v289 rfl shapeCasts_S1x1x128_S128,
    StableHlo.unary main_v289 main_v290 (broadcastInDim S1x128 ![1] bcast_S128_S1x128_1 : (⟨S128, .f32⟩ : BufTy).Contents (Elt F) → (⟨S1x128, .f32⟩ : BufTy).Contents (Elt F)),
    StableHlo.unary main_v290 main_v291 (broadcastInDim S50000x128 ![0, 1] bcast_S1x128_S50000x128_0_1 : (⟨S1x128, .f32⟩ : BufTy).Contents (Elt F) → (⟨S50000x128, .f32⟩ : BufTy).Contents (Elt F)),
    StableHlo.binary main_v287 main_v291 main_v292 (addf : (⟨S50000x128, .f32⟩ : BufTy).Contents (Elt F) → (⟨S50000x128, .f32⟩ : BufTy).Contents (Elt F) → (⟨S50000x128, .f32⟩ : BufTy).Contents (Elt F)),
    StableHlo.unary main_arg6 main_v293 ((extractStridedSlice S1x1x128 ![2, 0, 0] · slices_S6x3x128_S1x1x128_2_0_0) : (⟨S6x3x128, .f32⟩ : BufTy).Contents (Elt F) → (⟨S1x1x128, .f32⟩ : BufTy).Contents (Elt F)),
    StableHlo.reshape main_v293 main_v294 rfl shapeCasts_S1x1x128_S128,
    StableHlo.unary main_arg7 main_v295 ((extractStridedSlice S1x1x128 ![2, 0, 0] · slices_S6x3x128_S1x1x128_2_0_0) : (⟨S6x3x128, .f32⟩ : BufTy).Contents (Elt F) → (⟨S1x1x128, .f32⟩ : BufTy).Contents (Elt F)),
    StableHlo.reshape main_v295 main_v296 rfl shapeCasts_S1x1x128_S128,
    StableHlo.nullary main_cst_40 (constant S_ .f32 0x00000000#32),
    StableHlo.binary main_v292 main_cst_40 main_v297 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_41 (constant S_ .f32 0x47435000#32),
    StableHlo.unary main_cst_41 main_v298 (broadcastInDim S128 ![] bcast_S_S128 : (⟨S_, .f32⟩ : BufTy).Contents (Elt F) → (⟨S128, .f32⟩ : BufTy).Contents (Elt F)),
    StableHlo.binary main_v297 main_v298 main_v299 (Host.divf : (⟨S128, .f32⟩ : BufTy).Contents (Elt F) → (⟨S128, .f32⟩ : BufTy).Contents (Elt F) → (⟨S128, .f32⟩ : BufTy).Contents (Elt F)),
    StableHlo.nullary main_c_42 (constantI S_ 32 0#32),
    StableHlo.TRef.nullary main_call12.cst (constant S_ .f32 0x00000000#32),
    StableHlo.TRef.binary (.of main_v292 : StableHlo.TRef sig ⟨S50000x128, .f32⟩) main_call12.cst main_call12.v0 (fun x v => Host.reduceAdd x v reducesTo_S50000x128_S128_d0 h_S_),
    StableHlo.TRef.unary main_call12.v0 main_call12.v1 (broadcastInDim S1x128 ![1] bcast_S128_S1x128_1),
    StableHlo.TRef.nullary main_call12.cst_0 (constant S_ .f32 0x47435000#32),
    StableHlo.TRef.unary main_call12.cst_0 main_call12.v2 (broadcastInDim S1x128 ![] bcast_S_S1x128),
    StableHlo.TRef.binary main_call12.v1 main_call12.v2 main_call12.v3 Host.divf,
    StableHlo.TRef.unary main_call12.v3 main_call12.v4 (broadcastInDim S50000x128 ![0, 1] bcast_S1x128_S50000x128_0_1),
    StableHlo.TRef.binary (.of main_v292 : StableHlo.TRef sig ⟨S50000x128, .f32⟩) main_call12.v4 main_call12.v5 subf,
    StableHlo.TRef.binary main_call12.v5 main_call12.v5 main_call12.v6 mulf,
    StableHlo.TRef.unary (.of main_c_42 : StableHlo.TRef sig ⟨S_, .i32⟩) main_call12.v7 (sitofp .f32),
    StableHlo.TRef.nullary main_call12.cst_1 (constant S_ .f32 0x47435000#32),
    StableHlo.TRef.binary main_call12.cst_1 main_call12.v7 main_call12.v8 subf,
    StableHlo.TRef.nullary main_call12.cst_2 (constant S_ .f32 0x00000000#32),
    StableHlo.TRef.binary main_call12.v6 main_call12.cst_2 main_call12.v9 (fun x v => Host.reduceAdd x v reducesTo_S50000x128_S128_d0 h_S_),
    StableHlo.TRef.unary main_call12.v8 main_call12.v10 (broadcastInDim S128 ![] bcast_S_S128),
    StableHlo.TRef.binary main_call12.v9 main_call12.v10 main_call12.v11 Host.divf,
    StableHlo.TRef.nullary main_call12.cst_3 (constant S_ .f32 0x00000000#32),
    StableHlo.TRef.binary main_call12.v8 main_call12.cst_3 main_call12.v12 (cmpf .ogt),
    StableHlo.TRef.nullary main_call12.cst_4 (constant S_ .f32 0x7FC00000#32),
    StableHlo.TRef.unary main_call12.cst_4 main_call12.call0.v0 id,
    StableHlo.TRef.unary main_call12.call0.v0 main_call12.call0.v1 (broadcastInDim S128 ![] bcast_S_S128),
    StableHlo.TRef.ternary main_call12.v12 main_call12.v11 main_call12.call0.v1 main_call12.call0.v2 (fun p a b => select (broadcastInDim S128 ![] bcast_S_S128 p) a b),
    StableHlo.unary main_v299 main_v301 (broadcastInDim S1x128 ![1] bcast_S128_S1x128_1 : (⟨S128, .f32⟩ : BufTy).Contents (Elt F) → (⟨S1x128, .f32⟩ : BufTy).Contents (Elt F)),
    StableHlo.unary main_v301 main_v302 (broadcastInDim S50000x128 ![0, 1] bcast_S1x128_S50000x128_0_1 : (⟨S1x128, .f32⟩ : BufTy).Contents (Elt F) → (⟨S50000x128, .f32⟩ : BufTy).Contents (Elt F)),
    StableHlo.binary main_v292 main_v302 main_v303 (subf : (⟨S50000x128, .f32⟩ : BufTy).Contents (Elt F) → (⟨S50000x128, .f32⟩ : BufTy).Contents (Elt F) → (⟨S50000x128, .f32⟩ : BufTy).Contents (Elt F)),
    StableHlo.nullary main_cst_43 (constant S_ .f32 0x3727C5AC#32),
    StableHlo.unary main_cst_43 main_v304 (broadcastInDim S128 ![] bcast_S_S128 : (⟨S_, .f32⟩ : BufTy).Contents (Elt F) → (⟨S128, .f32⟩ : BufTy).Contents (Elt F)),
    StableHlo.binary main_v300 main_v304 main_v305 (addf : (⟨S128, .f32⟩ : BufTy).Contents (Elt F) → (⟨S128, .f32⟩ : BufTy).Contents (Elt F) → (⟨S128, .f32⟩ : BufTy).Contents (Elt F)),
    StableHlo.unary main_v305 main_v306 (Host.rsqrt : (⟨S128, .f32⟩ : BufTy).Contents (Elt F) → (⟨S128, .f32⟩ : BufTy).Contents (Elt F)),
    StableHlo.unary main_v306 main_v307 (broadcastInDim S1x128 ![1] bcast_S128_S1x128_1 : (⟨S128, .f32⟩ : BufTy).Contents (Elt F) → (⟨S1x128, .f32⟩ : BufTy).Contents (Elt F)),
    StableHlo.unary main_v307 main_v308 (broadcastInDim S50000x128 ![0, 1] bcast_S1x128_S50000x128_0_1 : (⟨S1x128, .f32⟩ : BufTy).Contents (Elt F) → (⟨S50000x128, .f32⟩ : BufTy).Contents (Elt F)),
    StableHlo.binary main_v303 main_v308 main_v309 (mulf : (⟨S50000x128, .f32⟩ : BufTy).Contents (Elt F) → (⟨S50000x128, .f32⟩ : BufTy).Contents (Elt F) → (⟨S50000x128, .f32⟩ : BufTy).Contents (Elt F)),
    StableHlo.unary main_v294 main_v310 (broadcastInDim S1x128 ![1] bcast_S128_S1x128_1 : (⟨S128, .f32⟩ : BufTy).Contents (Elt F) → (⟨S1x128, .f32⟩ : BufTy).Contents (Elt F)),
    StableHlo.unary main_v310 main_v311 (broadcastInDim S50000x128 ![0, 1] bcast_S1x128_S50000x128_0_1 : (⟨S1x128, .f32⟩ : BufTy).Contents (Elt F) → (⟨S50000x128, .f32⟩ : BufTy).Contents (Elt F)),
    StableHlo.binary main_v309 main_v311 main_v312 (mulf : (⟨S50000x128, .f32⟩ : BufTy).Contents (Elt F) → (⟨S50000x128, .f32⟩ : BufTy).Contents (Elt F) → (⟨S50000x128, .f32⟩ : BufTy).Contents (Elt F)),
    StableHlo.unary main_v296 main_v313 (broadcastInDim S1x128 ![1] bcast_S128_S1x128_1 : (⟨S128, .f32⟩ : BufTy).Contents (Elt F) → (⟨S1x128, .f32⟩ : BufTy).Contents (Elt F)) ]

set_option maxHeartbeats 40000000 in
set_option maxRecDepth 8192 in
/-- Window 5 is the straight line of its operations. -/
theorem main_part5_eq (c : Dev nD) : main_part5 (F := F) c = seq ops5 := by
  chain_rfl

set_option maxHeartbeats 40000000 in
set_option maxRecDepth 8192 in
/-- Each operation touches TensorCore references only. -/
theorem ops5_sub : (ops5 : List (HloOp τ sig (Elt F))).Forall fun op => op.bufs ⊆ tcRefs τ sig :=
  ⟨StableHlo.nullary_bufs_sub .., StableHlo.unary_bufs_sub .., StableHlo.binary_bufs_sub .., StableHlo.unary_bufs_sub .., StableHlo.reshape_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.binary_bufs_sub .., StableHlo.nullary_bufs_sub .., StableHlo.unary_bufs_sub .., StableHlo.unary_bufs_sub .., StableHlo.reshape_bufs_sub .., StableHlo.unary_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub ..⟩

set_option maxHeartbeats 40000000 in
set_option maxRecDepth 8192 in
/-- Each operation determines what it writes. -/
theorem ops5_fresh : (ops5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references the window's operations write, in order. -/
abbrev ops5_W : List (Ref sig .tc) :=
  [main_call11_cst, main_call11_v0, main_v263, main_v264, main_v265, main_v266, main_v267, main_v268, main_cst_35, main_v269, main_v270, main_c_36, main_v271, main_v272, main_c_37, main_v273, main_v274, main_v275, main_v276, main_v277, main_cst_38, main_v278, main_v279, main_v280, main_v281, main_v282, main_cst_39, main_v283, main_v284, main_v285, main_v286, main_v287, main_v288, main_v289, main_v290, main_v291, main_v292, main_v293, main_v294, main_v295, main_v296, main_cst_40, main_v297, main_cst_41, main_v298, main_v299, main_c_42, main_call12_cst, main_call12_v0, main_call12_v1, main_call12_cst_0, main_call12_v2, main_call12_v3, main_call12_v4, main_call12_v5, main_call12_v6, main_call12_v7, main_call12_cst_1, main_call12_v8, main_call12_cst_2, main_call12_v9, main_call12_v10, main_call12_v11, main_call12_cst_3, main_call12_v12, main_call12_cst_4, main_call12_call0_v0, main_call12_call0_v1, main_v300, main_v301, main_v302, main_v303, main_cst_43, main_v304, main_v305, main_v306, main_v307, main_v308, main_v309, main_v310, main_v311, main_v312, main_v313]

set_option maxHeartbeats 40000000 in
set_option maxRecDepth 8192 in
/-- Each operation writes its own result reference, the one listed at its place. -/
theorem ops5_writes : (ops5 : List (HloOp τ sig (Elt F))).Forall fun op => op.writes ⊆ (ops5_W.map (Proc.devRef (τ := τ) .tc)).toFinset :=
  ⟨(Finset.singleton_subset_iff (a := Proc.devRef (τ := τ) .tc main_call11_cst)).mpr (List.mem_toFinset.mpr (List.mem_map_of_mem (by decide))),
   (Finset.singleton_subset_iff (a := Proc.devRef (τ := τ) .tc main_call11_v0)).mpr (List.mem_toFinset.mpr (List.mem_map_of_mem (by decide))),
   (Finset.singleton_subset_iff (a := Proc.devRef (τ := τ) .tc main_v263)).mpr (List.mem_toFinset.mpr (List.mem_map_of_mem (by decide))),
   (Finset.singleton_subset_iff (a := Proc.devRef (τ := τ) .tc main_v264)).mpr (List.mem_toFinset.mpr (List.mem_map_of_mem (by decide))),
   (Finset.singleton_subset_iff (a := Proc.devRef (τ := τ) .tc main_v265)).mpr (List.mem_toFinset.mpr (List.mem_map_of_mem (by decide))),
   (Finset.singleton_subset_iff (a := Proc.devRef (τ := τ) .tc main_v266)).mpr (List.mem_toFinset.mpr (List.mem_map_of_mem (by decide))),
   (Finset.singleton_subset_iff (a := Proc.devRef (τ := τ) .tc main_v267)).mpr (List.mem_toFinset.mpr (List.mem_map_of_mem (by decide))),
   (Finset.singleton_subset_iff (a := Proc.devRef (τ := τ) .tc main_v268)).mpr (List.mem_toFinset.mpr (List.mem_map_of_mem (by decide))),
   (Finset.singleton_subset_iff (a := Proc.devRef (τ := τ) .tc main_cst_35)).mpr (List.mem_toFinset.mpr (List.mem_map_of_mem (by decide))),
   (Finset.singleton_subset_iff (a := Proc.devRef (τ := τ) .tc main_v269)).mpr (List.mem_toFinset.mpr (List.mem_map_of_mem (by decide))),
   (Finset.singleton_subset_iff (a := Proc.devRef (τ := τ) .tc main_v270)).mpr (List.mem_toFinset.mpr (List.mem_map_of_mem (by decide))),
   (Finset.singleton_subset_iff (a := Proc.devRef (τ := τ) .tc main_c_36)).mpr (List.mem_toFinset.mpr (List.mem_map_of_mem (by decide))),
   (Finset.singleton_subset_iff (a := Proc.devRef (τ := τ) .tc main_v271)).mpr (List.mem_toFinset.mpr (List.mem_map_of_mem (by decide))),
   (Finset.singleton_subset_iff (a := Proc.devRef (τ := τ) .tc main_v272)).mpr (List.mem_toFinset.mpr (List.mem_map_of_mem (by decide))),
   (Finset.singleton_subset_iff (a := Proc.devRef (τ := τ) .tc main_c_37)).mpr (List.mem_toFinset.mpr (List.mem_map_of_mem (by decide))),
   (Finset.singleton_subset_iff (a := Proc.devRef (τ := τ) .tc main_v273)).mpr (List.mem_toFinset.mpr (List.mem_map_of_mem (by decide))),
   (Finset.singleton_subset_iff (a := Proc.devRef (τ := τ) .tc main_v274)).mpr (List.mem_toFinset.mpr (List.mem_map_of_mem (by decide))),
   (Finset.singleton_subset_iff (a := Proc.devRef (τ := τ) .tc main_v275)).mpr (List.mem_toFinset.mpr (List.mem_map_of_mem (by decide))),
   (Finset.singleton_subset_iff (a := Proc.devRef (τ := τ) .tc main_v276)).mpr (List.mem_toFinset.mpr (List.mem_map_of_mem (by decide))),
   (Finset.singleton_subset_iff (a := Proc.devRef (τ := τ) .tc main_v277)).mpr (List.mem_toFinset.mpr (List.mem_map_of_mem (by decide))),
   (Finset.singleton_subset_iff (a := Proc.devRef (τ := τ) .tc main_cst_38)).mpr (List.mem_toFinset.mpr (List.mem_map_of_mem (by decide))),
   (Finset.singleton_subset_iff (a := Proc.devRef (τ := τ) .tc main_v278)).mpr (List.mem_toFinset.mpr (List.mem_map_of_mem (by decide))),
   (Finset.singleton_subset_iff (a := Proc.devRef (τ := τ) .tc main_v279)).mpr (List.mem_toFinset.mpr (List.mem_map_of_mem (by decide))),
   (Finset.singleton_subset_iff (a := Proc.devRef (τ := τ) .tc main_v280)).mpr (List.mem_toFinset.mpr (List.mem_map_of_mem (by decide))),
   (Finset.singleton_subset_iff (a := Proc.devRef (τ := τ) .tc main_v281)).mpr (List.mem_toFinset.mpr (List.mem_map_of_mem (by decide))),
   (Finset.singleton_subset_iff (a := Proc.devRef (τ := τ) .tc main_v282)).mpr (List.mem_toFinset.mpr (List.mem_map_of_mem (by decide))),
   (Finset.singleton_subset_iff (a := Proc.devRef (τ := τ) .tc main_cst_39)).mpr (List.mem_toFinset.mpr (List.mem_map_of_mem (by decide))),
   (Finset.singleton_subset_iff (a := Proc.devRef (τ := τ) .tc main_v283)).mpr (List.mem_toFinset.mpr (List.mem_map_of_mem (by decide))),
   (Finset.singleton_subset_iff (a := Proc.devRef (τ := τ) .tc main_v284)).mpr (List.mem_toFinset.mpr (List.mem_map_of_mem (by decide))),
   (Finset.singleton_subset_iff (a := Proc.devRef (τ := τ) .tc main_v285)).mpr (List.mem_toFinset.mpr (List.mem_map_of_mem (by decide))),
   (Finset.singleton_subset_iff (a := Proc.devRef (τ := τ) .tc main_v286)).mpr (List.mem_toFinset.mpr (List.mem_map_of_mem (by decide))),
   (Finset.singleton_subset_iff (a := Proc.devRef (τ := τ) .tc main_v287)).mpr (List.mem_toFinset.mpr (List.mem_map_of_mem (by decide))),
   (Finset.singleton_subset_iff (a := Proc.devRef (τ := τ) .tc main_v288)).mpr (List.mem_toFinset.mpr (List.mem_map_of_mem (by decide))),
   (Finset.singleton_subset_iff (a := Proc.devRef (τ := τ) .tc main_v289)).mpr (List.mem_toFinset.mpr (List.mem_map_of_mem (by decide))),
   (Finset.singleton_subset_iff (a := Proc.devRef (τ := τ) .tc main_v290)).mpr (List.mem_toFinset.mpr (List.mem_map_of_mem (by decide))),
   (Finset.singleton_subset_iff (a := Proc.devRef (τ := τ) .tc main_v291)).mpr (List.mem_toFinset.mpr (List.mem_map_of_mem (by decide))),
   (Finset.singleton_subset_iff (a := Proc.devRef (τ := τ) .tc main_v292)).mpr (List.mem_toFinset.mpr (List.mem_map_of_mem (by decide))),
   (Finset.singleton_subset_iff (a := Proc.devRef (τ := τ) .tc main_v293)).mpr (List.mem_toFinset.mpr (List.mem_map_of_mem (by decide))),
   (Finset.singleton_subset_iff (a := Proc.devRef (τ := τ) .tc main_v294)).mpr (List.mem_toFinset.mpr (List.mem_map_of_mem (by decide))),
   (Finset.singleton_subset_iff (a := Proc.devRef (τ := τ) .tc main_v295)).mpr (List.mem_toFinset.mpr (List.mem_map_of_mem (by decide))),
   (Finset.singleton_subset_iff (a := Proc.devRef (τ := τ) .tc main_v296)).mpr (List.mem_toFinset.mpr (List.mem_map_of_mem (by decide))),
   (Finset.singleton_subset_iff (a := Proc.devRef (τ := τ) .tc main_cst_40)).mpr (List.mem_toFinset.mpr (List.mem_map_of_mem (by decide))),
   (Finset.singleton_subset_iff (a := Proc.devRef (τ := τ) .tc main_v297)).mpr (List.mem_toFinset.mpr (List.mem_map_of_mem (by decide))),
   (Finset.singleton_subset_iff (a := Proc.devRef (τ := τ) .tc main_cst_41)).mpr (List.mem_toFinset.mpr (List.mem_map_of_mem (by decide))),
   (Finset.singleton_subset_iff (a := Proc.devRef (τ := τ) .tc main_v298)).mpr (List.mem_toFinset.mpr (List.mem_map_of_mem (by decide))),
   (Finset.singleton_subset_iff (a := Proc.devRef (τ := τ) .tc main_v299)).mpr (List.mem_toFinset.mpr (List.mem_map_of_mem (by decide))),
   (Finset.singleton_subset_iff (a := Proc.devRef (τ := τ) .tc main_c_42)).mpr (List.mem_toFinset.mpr (List.mem_map_of_mem (by decide))),
   (Finset.singleton_subset_iff (a := Proc.devRef (τ := τ) .tc main_call12_cst)).mpr (List.mem_toFinset.mpr (List.mem_map_of_mem (by decide))),
   (Finset.singleton_subset_iff (a := Proc.devRef (τ := τ) .tc main_call12_v0)).mpr (List.mem_toFinset.mpr (List.mem_map_of_mem (by decide))),
   (Finset.singleton_subset_iff (a := Proc.devRef (τ := τ) .tc main_call12_v1)).mpr (List.mem_toFinset.mpr (List.mem_map_of_mem (by decide))),
   (Finset.singleton_subset_iff (a := Proc.devRef (τ := τ) .tc main_call12_cst_0)).mpr (List.mem_toFinset.mpr (List.mem_map_of_mem (by decide))),
   (Finset.singleton_subset_iff (a := Proc.devRef (τ := τ) .tc main_call12_v2)).mpr (List.mem_toFinset.mpr (List.mem_map_of_mem (by decide))),
   (Finset.singleton_subset_iff (a := Proc.devRef (τ := τ) .tc main_call12_v3)).mpr (List.mem_toFinset.mpr (List.mem_map_of_mem (by decide))),
   (Finset.singleton_subset_iff (a := Proc.devRef (τ := τ) .tc main_call12_v4)).mpr (List.mem_toFinset.mpr (List.mem_map_of_mem (by decide))),
   (Finset.singleton_subset_iff (a := Proc.devRef (τ := τ) .tc main_call12_v5)).mpr (List.mem_toFinset.mpr (List.mem_map_of_mem (by decide))),
   (Finset.singleton_subset_iff (a := Proc.devRef (τ := τ) .tc main_call12_v6)).mpr (List.mem_toFinset.mpr (List.mem_map_of_mem (by decide))),
   (Finset.singleton_subset_iff (a := Proc.devRef (τ := τ) .tc main_call12_v7)).mpr (List.mem_toFinset.mpr (List.mem_map_of_mem (by decide))),
   (Finset.singleton_subset_iff (a := Proc.devRef (τ := τ) .tc main_call12_cst_1)).mpr (List.mem_toFinset.mpr (List.mem_map_of_mem (by decide))),
   (Finset.singleton_subset_iff (a := Proc.devRef (τ := τ) .tc main_call12_v8)).mpr (List.mem_toFinset.mpr (List.mem_map_of_mem (by decide))),
   (Finset.singleton_subset_iff (a := Proc.devRef (τ := τ) .tc main_call12_cst_2)).mpr (List.mem_toFinset.mpr (List.mem_map_of_mem (by decide))),
   (Finset.singleton_subset_iff (a := Proc.devRef (τ := τ) .tc main_call12_v9)).mpr (List.mem_toFinset.mpr (List.mem_map_of_mem (by decide))),
   (Finset.singleton_subset_iff (a := Proc.devRef (τ := τ) .tc main_call12_v10)).mpr (List.mem_toFinset.mpr (List.mem_map_of_mem (by decide))),
   (Finset.singleton_subset_iff (a := Proc.devRef (τ := τ) .tc main_call12_v11)).mpr (List.mem_toFinset.mpr (List.mem_map_of_mem (by decide))),
   (Finset.singleton_subset_iff (a := Proc.devRef (τ := τ) .tc main_call12_cst_3)).mpr (List.mem_toFinset.mpr (List.mem_map_of_mem (by decide))),
   (Finset.singleton_subset_iff (a := Proc.devRef (τ := τ) .tc main_call12_v12)).mpr (List.mem_toFinset.mpr (List.mem_map_of_mem (by decide))),
   (Finset.singleton_subset_iff (a := Proc.devRef (τ := τ) .tc main_call12_cst_4)).mpr (List.mem_toFinset.mpr (List.mem_map_of_mem (by decide))),
   (Finset.singleton_subset_iff (a := Proc.devRef (τ := τ) .tc main_call12_call0_v0)).mpr (List.mem_toFinset.mpr (List.mem_map_of_mem (by decide))),
   (Finset.singleton_subset_iff (a := Proc.devRef (τ := τ) .tc main_call12_call0_v1)).mpr (List.mem_toFinset.mpr (List.mem_map_of_mem (by decide))),
   (Finset.singleton_subset_iff (a := Proc.devRef (τ := τ) .tc main_v300)).mpr (List.mem_toFinset.mpr (List.mem_map_of_mem (by decide))),
   (Finset.singleton_subset_iff (a := Proc.devRef (τ := τ) .tc main_v301)).mpr (List.mem_toFinset.mpr (List.mem_map_of_mem (by decide))),
   (Finset.singleton_subset_iff (a := Proc.devRef (τ := τ) .tc main_v302)).mpr (List.mem_toFinset.mpr (List.mem_map_of_mem (by decide))),
   (Finset.singleton_subset_iff (a := Proc.devRef (τ := τ) .tc main_v303)).mpr (List.mem_toFinset.mpr (List.mem_map_of_mem (by decide))),
   (Finset.singleton_subset_iff (a := Proc.devRef (τ := τ) .tc main_cst_43)).mpr (List.mem_toFinset.mpr (List.mem_map_of_mem (by decide))),
   (Finset.singleton_subset_iff (a := Proc.devRef (τ := τ) .tc main_v304)).mpr (List.mem_toFinset.mpr (List.mem_map_of_mem (by decide))),
   (Finset.singleton_subset_iff (a := Proc.devRef (τ := τ) .tc main_v305)).mpr (List.mem_toFinset.mpr (List.mem_map_of_mem (by decide))),
   (Finset.singleton_subset_iff (a := Proc.devRef (τ := τ) .tc main_v306)).mpr (List.mem_toFinset.mpr (List.mem_map_of_mem (by decide))),
   (Finset.singleton_subset_iff (a := Proc.devRef (τ := τ) .tc main_v307)).mpr (List.mem_toFinset.mpr (List.mem_map_of_mem (by decide))),
   (Finset.singleton_subset_iff (a := Proc.devRef (τ := τ) .tc main_v308)).mpr (List.mem_toFinset.mpr (List.mem_map_of_mem (by decide))),
   (Finset.singleton_subset_iff (a := Proc.devRef (τ := τ) .tc main_v309)).mpr (List.mem_toFinset.mpr (List.mem_map_of_mem (by decide))),
   (Finset.singleton_subset_iff (a := Proc.devRef (τ := τ) .tc main_v310)).mpr (List.mem_toFinset.mpr (List.mem_map_of_mem (by decide))),
   (Finset.singleton_subset_iff (a := Proc.devRef (τ := τ) .tc main_v311)).mpr (List.mem_toFinset.mpr (List.mem_map_of_mem (by decide))),
   (Finset.singleton_subset_iff (a := Proc.devRef (τ := τ) .tc main_v312)).mpr (List.mem_toFinset.mpr (List.mem_map_of_mem (by decide))),
   (Finset.singleton_subset_iff (a := Proc.devRef (τ := τ) .tc main_v313)).mpr (List.mem_toFinset.mpr (List.mem_map_of_mem (by decide)))⟩

/-- A reference the window does not write keeps its contents through it. -/
theorem ops5_keep (V : Valuation τ sig (Elt F)) (r : Ref sig .tc) (h : r ∉ ops5_W) :
    after ops5 V (Proc.devRef .tc r) = V (Proc.devRef .tc r) :=
  after_of_writes_sub ops5 V ops5_writes h

end Cert.ReferenceIdeal.Hand

end
-- ==== Proof.Ref.Ops6.lean ====
import proofs.«414290_j6631429505478_3_alg».proof.Proof.Gen.ReferenceIdeal
import Idealize.ShloMosaic.Lib.StableHlo.Run
import Idealize.ShloMosaic.Lib.Pipeline.Frame

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
set_option maxRecDepth 8192 in
/-- The 85 operations of window 6 of @main, in order, a called function's operations in its call's place. -/
abbrev ops6 : List (HloOp τ sig (Elt F)) :=
  [ StableHlo.unary main_v313 main_v314 (broadcastInDim S50000x128 ![0, 1] bcast_S1x128_S50000x128_0_1 : (⟨S1x128, .f32⟩ : BufTy).Contents (Elt F) → (⟨S50000x128, .f32⟩ : BufTy).Contents (Elt F)),
    StableHlo.binary main_v312 main_v314 main_v315 (addf : (⟨S50000x128, .f32⟩ : BufTy).Contents (Elt F) → (⟨S50000x128, .f32⟩ : BufTy).Contents (Elt F) → (⟨S50000x128, .f32⟩ : BufTy).Contents (Elt F)),
    StableHlo.TRef.nullary main_call13.cst (constant S_ .f32 0x00000000#32),
    StableHlo.TRef.unary main_call13.cst main_call13.v0 (broadcastInDim S50000x128 ![] bcast_S_S50000x128),
    StableHlo.TRef.binary (.of main_v315 : StableHlo.TRef sig ⟨S50000x128, .f32⟩) main_call13.v0 main_call13.v1 maximumf,
    StableHlo.unary main_arg3 main_v317 ((extractStridedSlice S1x1 ![2, 0] · slices_S6x3_S1x1_2_0) : (⟨S6x3, .f32⟩ : BufTy).Contents (Elt F) → (⟨S1x1, .f32⟩ : BufTy).Contents (Elt F)),
    StableHlo.reshape main_v317 main_v318 rfl shapeCasts_S1x1_S_,
    StableHlo.unary main_v318 main_v319 (broadcastInDim S50000x128 ![] bcast_S_S50000x128 : (⟨S_, .f32⟩ : BufTy).Contents (Elt F) → (⟨S50000x128, .f32⟩ : BufTy).Contents (Elt F)),
    StableHlo.binary main_v319 main_v316 main_v320 (mulf : (⟨S50000x128, .f32⟩ : BufTy).Contents (Elt F) → (⟨S50000x128, .f32⟩ : BufTy).Contents (Elt F) → (⟨S50000x128, .f32⟩ : BufTy).Contents (Elt F)),
    StableHlo.binary main_v283 main_v320 main_v321 (addf : (⟨S50000x128, .f32⟩ : BufTy).Contents (Elt F) → (⟨S50000x128, .f32⟩ : BufTy).Contents (Elt F) → (⟨S50000x128, .f32⟩ : BufTy).Contents (Elt F)),
    StableHlo.unary main_arg4 main_v322 ((extractStridedSlice S1x1x128x128 ![2, 1, 0, 0] · slices_S6x3x128x128_S1x1x128x128_2_1_0_0) : (⟨S6x3x128x128, .f32⟩ : BufTy).Contents (Elt F) → (⟨S1x1x128x128, .f32⟩ : BufTy).Contents (Elt F)),
    StableHlo.reshape main_v322 main_v323 rfl shapeCasts_S1x1x128x128_S128x128,
    StableHlo.unary main_v323 main_v324 ((transpose S128x128 [1, 0] · transposes_S128x128_S128x128_1_0) : (⟨S128x128, .f32⟩ : BufTy).Contents (Elt F) → (⟨S128x128, .f32⟩ : BufTy).Contents (Elt F)),
    StableHlo.binary main_v141 main_v324 main_v325 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg5 main_v326 ((extractStridedSlice S1x1x128 ![2, 1, 0] · slices_S6x3x128_S1x1x128_2_1_0) : (⟨S6x3x128, .f32⟩ : BufTy).Contents (Elt F) → (⟨S1x1x128, .f32⟩ : BufTy).Contents (Elt F)),
    StableHlo.reshape main_v326 main_v327 rfl shapeCasts_S1x1x128_S128,
    StableHlo.unary main_v327 main_v328 (broadcastInDim S1x128 ![1] bcast_S128_S1x128_1 : (⟨S128, .f32⟩ : BufTy).Contents (Elt F) → (⟨S1x128, .f32⟩ : BufTy).Contents (Elt F)),
    StableHlo.unary main_v328 main_v329 (broadcastInDim S50000x128 ![0, 1] bcast_S1x128_S50000x128_0_1 : (⟨S1x128, .f32⟩ : BufTy).Contents (Elt F) → (⟨S50000x128, .f32⟩ : BufTy).Contents (Elt F)),
    StableHlo.binary main_v325 main_v329 main_v330 (addf : (⟨S50000x128, .f32⟩ : BufTy).Contents (Elt F) → (⟨S50000x128, .f32⟩ : BufTy).Contents (Elt F) → (⟨S50000x128, .f32⟩ : BufTy).Contents (Elt F)),
    StableHlo.unary main_arg6 main_v331 ((extractStridedSlice S1x1x128 ![2, 1, 0] · slices_S6x3x128_S1x1x128_2_1_0) : (⟨S6x3x128, .f32⟩ : BufTy).Contents (Elt F) → (⟨S1x1x128, .f32⟩ : BufTy).Contents (Elt F)),
    StableHlo.reshape main_v331 main_v332 rfl shapeCasts_S1x1x128_S128,
    StableHlo.unary main_arg7 main_v333 ((extractStridedSlice S1x1x128 ![2, 1, 0] · slices_S6x3x128_S1x1x128_2_1_0) : (⟨S6x3x128, .f32⟩ : BufTy).Contents (Elt F) → (⟨S1x1x128, .f32⟩ : BufTy).Contents (Elt F)),
    StableHlo.reshape main_v333 main_v334 rfl shapeCasts_S1x1x128_S128,
    StableHlo.nullary main_cst_44 (constant S_ .f32 0x00000000#32),
    StableHlo.binary main_v330 main_cst_44 main_v335 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_45 (constant S_ .f32 0x47435000#32),
    StableHlo.unary main_cst_45 main_v336 (broadcastInDim S128 ![] bcast_S_S128 : (⟨S_, .f32⟩ : BufTy).Contents (Elt F) → (⟨S128, .f32⟩ : BufTy).Contents (Elt F)),
    StableHlo.binary main_v335 main_v336 main_v337 (Host.divf : (⟨S128, .f32⟩ : BufTy).Contents (Elt F) → (⟨S128, .f32⟩ : BufTy).Contents (Elt F) → (⟨S128, .f32⟩ : BufTy).Contents (Elt F)),
    StableHlo.nullary main_c_46 (constantI S_ 32 0#32),
    StableHlo.TRef.nullary main_call14.cst (constant S_ .f32 0x00000000#32),
    StableHlo.TRef.binary (.of main_v330 : StableHlo.TRef sig ⟨S50000x128, .f32⟩) main_call14.cst main_call14.v0 (fun x v => Host.reduceAdd x v reducesTo_S50000x128_S128_d0 h_S_),
    StableHlo.TRef.unary main_call14.v0 main_call14.v1 (broadcastInDim S1x128 ![1] bcast_S128_S1x128_1),
    StableHlo.TRef.nullary main_call14.cst_0 (constant S_ .f32 0x47435000#32),
    StableHlo.TRef.unary main_call14.cst_0 main_call14.v2 (broadcastInDim S1x128 ![] bcast_S_S1x128),
    StableHlo.TRef.binary main_call14.v1 main_call14.v2 main_call14.v3 Host.divf,
    StableHlo.TRef.unary main_call14.v3 main_call14.v4 (broadcastInDim S50000x128 ![0, 1] bcast_S1x128_S50000x128_0_1),
    StableHlo.TRef.binary (.of main_v330 : StableHlo.TRef sig ⟨S50000x128, .f32⟩) main_call14.v4 main_call14.v5 subf,
    StableHlo.TRef.binary main_call14.v5 main_call14.v5 main_call14.v6 mulf,
    StableHlo.TRef.unary (.of main_c_46 : StableHlo.TRef sig ⟨S_, .i32⟩) main_call14.v7 (sitofp .f32),
    StableHlo.TRef.nullary main_call14.cst_1 (constant S_ .f32 0x47435000#32),
    StableHlo.TRef.binary main_call14.cst_1 main_call14.v7 main_call14.v8 subf,
    StableHlo.TRef.nullary main_call14.cst_2 (constant S_ .f32 0x00000000#32),
    StableHlo.TRef.binary main_call14.v6 main_call14.cst_2 main_call14.v9 (fun x v => Host.reduceAdd x v reducesTo_S50000x128_S128_d0 h_S_),
    StableHlo.TRef.unary main_call14.v8 main_call14.v10 (broadcastInDim S128 ![] bcast_S_S128),
    StableHlo.TRef.binary main_call14.v9 main_call14.v10 main_call14.v11 Host.divf,
    StableHlo.TRef.nullary main_call14.cst_3 (constant S_ .f32 0x00000000#32),
    StableHlo.TRef.binary main_call14.v8 main_call14.cst_3 main_call14.v12 (cmpf .ogt),
    StableHlo.TRef.nullary main_call14.cst_4 (constant S_ .f32 0x7FC00000#32),
    StableHlo.TRef.unary main_call14.cst_4 main_call14.call0.v0 id,
    StableHlo.TRef.unary main_call14.call0.v0 main_call14.call0.v1 (broadcastInDim S128 ![] bcast_S_S128),
    StableHlo.TRef.ternary main_call14.v12 main_call14.v11 main_call14.call0.v1 main_call14.call0.v2 (fun p a b => select (broadcastInDim S128 ![] bcast_S_S128 p) a b),
    StableHlo.unary main_v337 main_v339 (broadcastInDim S1x128 ![1] bcast_S128_S1x128_1 : (⟨S128, .f32⟩ : BufTy).Contents (Elt F) → (⟨S1x128, .f32⟩ : BufTy).Contents (Elt F)),
    StableHlo.unary main_v339 main_v340 (broadcastInDim S50000x128 ![0, 1] bcast_S1x128_S50000x128_0_1 : (⟨S1x128, .f32⟩ : BufTy).Contents (Elt F) → (⟨S50000x128, .f32⟩ : BufTy).Contents (Elt F)),
    StableHlo.binary main_v330 main_v340 main_v341 (subf : (⟨S50000x128, .f32⟩ : BufTy).Contents (Elt F) → (⟨S50000x128, .f32⟩ : BufTy).Contents (Elt F) → (⟨S50000x128, .f32⟩ : BufTy).Contents (Elt F)),
    StableHlo.nullary main_cst_47 (constant S_ .f32 0x3727C5AC#32),
    StableHlo.unary main_cst_47 main_v342 (broadcastInDim S128 ![] bcast_S_S128 : (⟨S_, .f32⟩ : BufTy).Contents (Elt F) → (⟨S128, .f32⟩ : BufTy).Contents (Elt F)),
    StableHlo.binary main_v338 main_v342 main_v343 (addf : (⟨S128, .f32⟩ : BufTy).Contents (Elt F) → (⟨S128, .f32⟩ : BufTy).Contents (Elt F) → (⟨S128, .f32⟩ : BufTy).Contents (Elt F)),
    StableHlo.unary main_v343 main_v344 (Host.rsqrt : (⟨S128, .f32⟩ : BufTy).Contents (Elt F) → (⟨S128, .f32⟩ : BufTy).Contents (Elt F)),
    StableHlo.unary main_v344 main_v345 (broadcastInDim S1x128 ![1] bcast_S128_S1x128_1 : (⟨S128, .f32⟩ : BufTy).Contents (Elt F) → (⟨S1x128, .f32⟩ : BufTy).Contents (Elt F)),
    StableHlo.unary main_v345 main_v346 (broadcastInDim S50000x128 ![0, 1] bcast_S1x128_S50000x128_0_1 : (⟨S1x128, .f32⟩ : BufTy).Contents (Elt F) → (⟨S50000x128, .f32⟩ : BufTy).Contents (Elt F)),
    StableHlo.binary main_v341 main_v346 main_v347 (mulf : (⟨S50000x128, .f32⟩ : BufTy).Contents (Elt F) → (⟨S50000x128, .f32⟩ : BufTy).Contents (Elt F) → (⟨S50000x128, .f32⟩ : BufTy).Contents (Elt F)),
    StableHlo.unary main_v332 main_v348 (broadcastInDim S1x128 ![1] bcast_S128_S1x128_1 : (⟨S128, .f32⟩ : BufTy).Contents (Elt F) → (⟨S1x128, .f32⟩ : BufTy).Contents (Elt F)),
    StableHlo.unary main_v348 main_v349 (broadcastInDim S50000x128 ![0, 1] bcast_S1x128_S50000x128_0_1 : (⟨S1x128, .f32⟩ : BufTy).Contents (Elt F) → (⟨S50000x128, .f32⟩ : BufTy).Contents (Elt F)),
    StableHlo.binary main_v347 main_v349 main_v350 (mulf : (⟨S50000x128, .f32⟩ : BufTy).Contents (Elt F) → (⟨S50000x128, .f32⟩ : BufTy).Contents (Elt F) → (⟨S50000x128, .f32⟩ : BufTy).Contents (Elt F)),
    StableHlo.unary main_v334 main_v351 (broadcastInDim S1x128 ![1] bcast_S128_S1x128_1 : (⟨S128, .f32⟩ : BufTy).Contents (Elt F) → (⟨S1x128, .f32⟩ : BufTy).Contents (Elt F)),
    StableHlo.unary main_v351 main_v352 (broadcastInDim S50000x128 ![0, 1] bcast_S1x128_S50000x128_0_1 : (⟨S1x128, .f32⟩ : BufTy).Contents (Elt F) → (⟨S50000x128, .f32⟩ : BufTy).Contents (Elt F)),
    StableHlo.binary main_v350 main_v352 main_v353 (addf : (⟨S50000x128, .f32⟩ : BufTy).Contents (Elt F) → (⟨S50000x128, .f32⟩ : BufTy).Contents (Elt F) → (⟨S50000x128, .f32⟩ : BufTy).Contents (Elt F)),
    StableHlo.TRef.nullary main_call15.cst (constant S_ .f32 0x00000000#32),
    StableHlo.TRef.unary main_call15.cst main_call15.v0 (broadcastInDim S50000x128 ![] bcast_S_S50000x128),
    StableHlo.TRef.binary (.of main_v353 : StableHlo.TRef sig ⟨S50000x128, .f32⟩) main_call15.v0 main_call15.v1 maximumf,
    StableHlo.unary main_arg3 main_v355 ((extractStridedSlice S1x1 ![2, 1] · slices_S6x3_S1x1_2_1) : (⟨S6x3, .f32⟩ : BufTy).Contents (Elt F) → (⟨S1x1, .f32⟩ : BufTy).Contents (Elt F)),
    StableHlo.reshape main_v355 main_v356 rfl shapeCasts_S1x1_S_,
    StableHlo.unary main_v356 main_v357 (broadcastInDim S50000x128 ![] bcast_S_S50000x128 : (⟨S_, .f32⟩ : BufTy).Contents (Elt F) → (⟨S50000x128, .f32⟩ : BufTy).Contents (Elt F)),
    StableHlo.binary main_v357 main_v354 main_v358 (mulf : (⟨S50000x128, .f32⟩ : BufTy).Contents (Elt F) → (⟨S50000x128, .f32⟩ : BufTy).Contents (Elt F) → (⟨S50000x128, .f32⟩ : BufTy).Contents (Elt F)),
    StableHlo.binary main_v321 main_v358 main_v359 (addf : (⟨S50000x128, .f32⟩ : BufTy).Contents (Elt F) → (⟨S50000x128, .f32⟩ : BufTy).Contents (Elt F) → (⟨S50000x128, .f32⟩ : BufTy).Contents (Elt F)),
    StableHlo.unary main_arg4 main_v360 ((extractStridedSlice S1x1x128x128 ![2, 2, 0, 0] · slices_S6x3x128x128_S1x1x128x128_2_2_0_0) : (⟨S6x3x128x128, .f32⟩ : BufTy).Contents (Elt F) → (⟨S1x1x128x128, .f32⟩ : BufTy).Contents (Elt F)),
    StableHlo.reshape main_v360 main_v361 rfl shapeCasts_S1x1x128x128_S128x128,
    StableHlo.unary main_v361 main_v362 ((transpose S128x128 [1, 0] · transposes_S128x128_S128x128_1_0) : (⟨S128x128, .f32⟩ : BufTy).Contents (Elt F) → (⟨S128x128, .f32⟩ : BufTy).Contents (Elt F)),
    StableHlo.binary main_arg2 main_v362 main_v363 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg5 main_v364 ((extractStridedSlice S1x1x128 ![2, 2, 0] · slices_S6x3x128_S1x1x128_2_2_0) : (⟨S6x3x128, .f32⟩ : BufTy).Contents (Elt F) → (⟨S1x1x128, .f32⟩ : BufTy).Contents (Elt F)),
    StableHlo.reshape main_v364 main_v365 rfl shapeCasts_S1x1x128_S128,
    StableHlo.unary main_v365 main_v366 (broadcastInDim S1x128 ![1] bcast_S128_S1x128_1 : (⟨S128, .f32⟩ : BufTy).Contents (Elt F) → (⟨S1x128, .f32⟩ : BufTy).Contents (Elt F)),
    StableHlo.unary main_v366 main_v367 (broadcastInDim S50000x128 ![0, 1] bcast_S1x128_S50000x128_0_1 : (⟨S1x128, .f32⟩ : BufTy).Contents (Elt F) → (⟨S50000x128, .f32⟩ : BufTy).Contents (Elt F)),
    StableHlo.binary main_v363 main_v367 main_v368 (addf : (⟨S50000x128, .f32⟩ : BufTy).Contents (Elt F) → (⟨S50000x128, .f32⟩ : BufTy).Contents (Elt F) → (⟨S50000x128, .f32⟩ : BufTy).Contents (Elt F)),
    StableHlo.unary main_arg6 main_v369 ((extractStridedSlice S1x1x128 ![2, 2, 0] · slices_S6x3x128_S1x1x128_2_2_0) : (⟨S6x3x128, .f32⟩ : BufTy).Contents (Elt F) → (⟨S1x1x128, .f32⟩ : BufTy).Contents (Elt F)) ]

set_option maxHeartbeats 40000000 in
set_option maxRecDepth 8192 in
/-- Window 6 is the straight line of its operations. -/
theorem main_part6_eq (c : Dev nD) : main_part6 (F := F) c = seq ops6 := by
  chain_rfl

set_option maxHeartbeats 40000000 in
set_option maxRecDepth 8192 in
/-- Each operation touches TensorCore references only. -/
theorem ops6_sub : (ops6 : List (HloOp τ sig (Elt F))).Forall fun op => op.bufs ⊆ tcRefs τ sig :=
  ⟨StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.unary_bufs_sub .., StableHlo.binary_bufs_sub .., StableHlo.binary_bufs_sub .., StableHlo.unary_bufs_sub .., StableHlo.reshape_bufs_sub .., StableHlo.unary_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.unary_bufs_sub .., StableHlo.binary_bufs_sub .., StableHlo.binary_bufs_sub .., StableHlo.unary_bufs_sub .., StableHlo.reshape_bufs_sub .., StableHlo.unary_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub ..⟩

set_option maxHeartbeats 40000000 in
set_option maxRecDepth 8192 in
/-- Each operation determines what it writes. -/
theorem ops6_fresh : (ops6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references the window's operations write, in order. -/
abbrev ops6_W : List (Ref sig .tc) :=
  [main_v314, main_v315, main_call13_cst, main_call13_v0, main_v316, main_v317, main_v318, main_v319, main_v320, main_v321, main_v322, main_v323, main_v324, main_v325, main_v326, main_v327, main_v328, main_v329, main_v330, main_v331, main_v332, main_v333, main_v334, main_cst_44, main_v335, main_cst_45, main_v336, main_v337, main_c_46, main_call14_cst, main_call14_v0, main_call14_v1, main_call14_cst_0, main_call14_v2, main_call14_v3, main_call14_v4, main_call14_v5, main_call14_v6, main_call14_v7, main_call14_cst_1, main_call14_v8, main_call14_cst_2, main_call14_v9, main_call14_v10, main_call14_v11, main_call14_cst_3, main_call14_v12, main_call14_cst_4, main_call14_call0_v0, main_call14_call0_v1, main_v338, main_v339, main_v340, main_v341, main_cst_47, main_v342, main_v343, main_v344, main_v345, main_v346, main_v347, main_v348, main_v349, main_v350, main_v351, main_v352, main_v353, main_call15_cst, main_call15_v0, main_v354, main_v355, main_v356, main_v357, main_v358, main_v359, main_v360, main_v361, main_v362, main_v363, main_v364, main_v365, main_v366, main_v367, main_v368, main_v369]

set_option maxHeartbeats 40000000 in
set_option maxRecDepth 8192 in
/-- Each operation writes its own result reference, the one listed at its place. -/
theorem ops6_writes : (ops6 : List (HloOp τ sig (Elt F))).Forall fun op => op.writes ⊆ (ops6_W.map (Proc.devRef (τ := τ) .tc)).toFinset :=
  ⟨(Finset.singleton_subset_iff (a := Proc.devRef (τ := τ) .tc main_v314)).mpr (List.mem_toFinset.mpr (List.mem_map_of_mem (by decide))),
   (Finset.singleton_subset_iff (a := Proc.devRef (τ := τ) .tc main_v315)).mpr (List.mem_toFinset.mpr (List.mem_map_of_mem (by decide))),
   (Finset.singleton_subset_iff (a := Proc.devRef (τ := τ) .tc main_call13_cst)).mpr (List.mem_toFinset.mpr (List.mem_map_of_mem (by decide))),
   (Finset.singleton_subset_iff (a := Proc.devRef (τ := τ) .tc main_call13_v0)).mpr (List.mem_toFinset.mpr (List.mem_map_of_mem (by decide))),
   (Finset.singleton_subset_iff (a := Proc.devRef (τ := τ) .tc main_v316)).mpr (List.mem_toFinset.mpr (List.mem_map_of_mem (by decide))),
   (Finset.singleton_subset_iff (a := Proc.devRef (τ := τ) .tc main_v317)).mpr (List.mem_toFinset.mpr (List.mem_map_of_mem (by decide))),
   (Finset.singleton_subset_iff (a := Proc.devRef (τ := τ) .tc main_v318)).mpr (List.mem_toFinset.mpr (List.mem_map_of_mem (by decide))),
   (Finset.singleton_subset_iff (a := Proc.devRef (τ := τ) .tc main_v319)).mpr (List.mem_toFinset.mpr (List.mem_map_of_mem (by decide))),
   (Finset.singleton_subset_iff (a := Proc.devRef (τ := τ) .tc main_v320)).mpr (List.mem_toFinset.mpr (List.mem_map_of_mem (by decide))),
   (Finset.singleton_subset_iff (a := Proc.devRef (τ := τ) .tc main_v321)).mpr (List.mem_toFinset.mpr (List.mem_map_of_mem (by decide))),
   (Finset.singleton_subset_iff (a := Proc.devRef (τ := τ) .tc main_v322)).mpr (List.mem_toFinset.mpr (List.mem_map_of_mem (by decide))),
   (Finset.singleton_subset_iff (a := Proc.devRef (τ := τ) .tc main_v323)).mpr (List.mem_toFinset.mpr (List.mem_map_of_mem (by decide))),
   (Finset.singleton_subset_iff (a := Proc.devRef (τ := τ) .tc main_v324)).mpr (List.mem_toFinset.mpr (List.mem_map_of_mem (by decide))),
   (Finset.singleton_subset_iff (a := Proc.devRef (τ := τ) .tc main_v325)).mpr (List.mem_toFinset.mpr (List.mem_map_of_mem (by decide))),
   (Finset.singleton_subset_iff (a := Proc.devRef (τ := τ) .tc main_v326)).mpr (List.mem_toFinset.mpr (List.mem_map_of_mem (by decide))),
   (Finset.singleton_subset_iff (a := Proc.devRef (τ := τ) .tc main_v327)).mpr (List.mem_toFinset.mpr (List.mem_map_of_mem (by decide))),
   (Finset.singleton_subset_iff (a := Proc.devRef (τ := τ) .tc main_v328)).mpr (List.mem_toFinset.mpr (List.mem_map_of_mem (by decide))),
   (Finset.singleton_subset_iff (a := Proc.devRef (τ := τ) .tc main_v329)).mpr (List.mem_toFinset.mpr (List.mem_map_of_mem (by decide))),
   (Finset.singleton_subset_iff (a := Proc.devRef (τ := τ) .tc main_v330)).mpr (List.mem_toFinset.mpr (List.mem_map_of_mem (by decide))),
   (Finset.singleton_subset_iff (a := Proc.devRef (τ := τ) .tc main_v331)).mpr (List.mem_toFinset.mpr (List.mem_map_of_mem (by decide))),
   (Finset.singleton_subset_iff (a := Proc.devRef (τ := τ) .tc main_v332)).mpr (List.mem_toFinset.mpr (List.mem_map_of_mem (by decide))),
   (Finset.singleton_subset_iff (a := Proc.devRef (τ := τ) .tc main_v333)).mpr (List.mem_toFinset.mpr (List.mem_map_of_mem (by decide))),
   (Finset.singleton_subset_iff (a := Proc.devRef (τ := τ) .tc main_v334)).mpr (List.mem_toFinset.mpr (List.mem_map_of_mem (by decide))),
   (Finset.singleton_subset_iff (a := Proc.devRef (τ := τ) .tc main_cst_44)).mpr (List.mem_toFinset.mpr (List.mem_map_of_mem (by decide))),
   (Finset.singleton_subset_iff (a := Proc.devRef (τ := τ) .tc main_v335)).mpr (List.mem_toFinset.mpr (List.mem_map_of_mem (by decide))),
   (Finset.singleton_subset_iff (a := Proc.devRef (τ := τ) .tc main_cst_45)).mpr (List.mem_toFinset.mpr (List.mem_map_of_mem (by decide))),
   (Finset.singleton_subset_iff (a := Proc.devRef (τ := τ) .tc main_v336)).mpr (List.mem_toFinset.mpr (List.mem_map_of_mem (by decide))),
   (Finset.singleton_subset_iff (a := Proc.devRef (τ := τ) .tc main_v337)).mpr (List.mem_toFinset.mpr (List.mem_map_of_mem (by decide))),
   (Finset.singleton_subset_iff (a := Proc.devRef (τ := τ) .tc main_c_46)).mpr (List.mem_toFinset.mpr (List.mem_map_of_mem (by decide))),
   (Finset.singleton_subset_iff (a := Proc.devRef (τ := τ) .tc main_call14_cst)).mpr (List.mem_toFinset.mpr (List.mem_map_of_mem (by decide))),
   (Finset.singleton_subset_iff (a := Proc.devRef (τ := τ) .tc main_call14_v0)).mpr (List.mem_toFinset.mpr (List.mem_map_of_mem (by decide))),
   (Finset.singleton_subset_iff (a := Proc.devRef (τ := τ) .tc main_call14_v1)).mpr (List.mem_toFinset.mpr (List.mem_map_of_mem (by decide))),
   (Finset.singleton_subset_iff (a := Proc.devRef (τ := τ) .tc main_call14_cst_0)).mpr (List.mem_toFinset.mpr (List.mem_map_of_mem (by decide))),
   (Finset.singleton_subset_iff (a := Proc.devRef (τ := τ) .tc main_call14_v2)).mpr (List.mem_toFinset.mpr (List.mem_map_of_mem (by decide))),
   (Finset.singleton_subset_iff (a := Proc.devRef (τ := τ) .tc main_call14_v3)).mpr (List.mem_toFinset.mpr (List.mem_map_of_mem (by decide))),
   (Finset.singleton_subset_iff (a := Proc.devRef (τ := τ) .tc main_call14_v4)).mpr (List.mem_toFinset.mpr (List.mem_map_of_mem (by decide))),
   (Finset.singleton_subset_iff (a := Proc.devRef (τ := τ) .tc main_call14_v5)).mpr (List.mem_toFinset.mpr (List.mem_map_of_mem (by decide))),
   (Finset.singleton_subset_iff (a := Proc.devRef (τ := τ) .tc main_call14_v6)).mpr (List.mem_toFinset.mpr (List.mem_map_of_mem (by decide))),
   (Finset.singleton_subset_iff (a := Proc.devRef (τ := τ) .tc main_call14_v7)).mpr (List.mem_toFinset.mpr (List.mem_map_of_mem (by decide))),
   (Finset.singleton_subset_iff (a := Proc.devRef (τ := τ) .tc main_call14_cst_1)).mpr (List.mem_toFinset.mpr (List.mem_map_of_mem (by decide))),
   (Finset.singleton_subset_iff (a := Proc.devRef (τ := τ) .tc main_call14_v8)).mpr (List.mem_toFinset.mpr (List.mem_map_of_mem (by decide))),
   (Finset.singleton_subset_iff (a := Proc.devRef (τ := τ) .tc main_call14_cst_2)).mpr (List.mem_toFinset.mpr (List.mem_map_of_mem (by decide))),
   (Finset.singleton_subset_iff (a := Proc.devRef (τ := τ) .tc main_call14_v9)).mpr (List.mem_toFinset.mpr (List.mem_map_of_mem (by decide))),
   (Finset.singleton_subset_iff (a := Proc.devRef (τ := τ) .tc main_call14_v10)).mpr (List.mem_toFinset.mpr (List.mem_map_of_mem (by decide))),
   (Finset.singleton_subset_iff (a := Proc.devRef (τ := τ) .tc main_call14_v11)).mpr (List.mem_toFinset.mpr (List.mem_map_of_mem (by decide))),
   (Finset.singleton_subset_iff (a := Proc.devRef (τ := τ) .tc main_call14_cst_3)).mpr (List.mem_toFinset.mpr (List.mem_map_of_mem (by decide))),
   (Finset.singleton_subset_iff (a := Proc.devRef (τ := τ) .tc main_call14_v12)).mpr (List.mem_toFinset.mpr (List.mem_map_of_mem (by decide))),
   (Finset.singleton_subset_iff (a := Proc.devRef (τ := τ) .tc main_call14_cst_4)).mpr (List.mem_toFinset.mpr (List.mem_map_of_mem (by decide))),
   (Finset.singleton_subset_iff (a := Proc.devRef (τ := τ) .tc main_call14_call0_v0)).mpr (List.mem_toFinset.mpr (List.mem_map_of_mem (by decide))),
   (Finset.singleton_subset_iff (a := Proc.devRef (τ := τ) .tc main_call14_call0_v1)).mpr (List.mem_toFinset.mpr (List.mem_map_of_mem (by decide))),
   (Finset.singleton_subset_iff (a := Proc.devRef (τ := τ) .tc main_v338)).mpr (List.mem_toFinset.mpr (List.mem_map_of_mem (by decide))),
   (Finset.singleton_subset_iff (a := Proc.devRef (τ := τ) .tc main_v339)).mpr (List.mem_toFinset.mpr (List.mem_map_of_mem (by decide))),
   (Finset.singleton_subset_iff (a := Proc.devRef (τ := τ) .tc main_v340)).mpr (List.mem_toFinset.mpr (List.mem_map_of_mem (by decide))),
   (Finset.singleton_subset_iff (a := Proc.devRef (τ := τ) .tc main_v341)).mpr (List.mem_toFinset.mpr (List.mem_map_of_mem (by decide))),
   (Finset.singleton_subset_iff (a := Proc.devRef (τ := τ) .tc main_cst_47)).mpr (List.mem_toFinset.mpr (List.mem_map_of_mem (by decide))),
   (Finset.singleton_subset_iff (a := Proc.devRef (τ := τ) .tc main_v342)).mpr (List.mem_toFinset.mpr (List.mem_map_of_mem (by decide))),
   (Finset.singleton_subset_iff (a := Proc.devRef (τ := τ) .tc main_v343)).mpr (List.mem_toFinset.mpr (List.mem_map_of_mem (by decide))),
   (Finset.singleton_subset_iff (a := Proc.devRef (τ := τ) .tc main_v344)).mpr (List.mem_toFinset.mpr (List.mem_map_of_mem (by decide))),
   (Finset.singleton_subset_iff (a := Proc.devRef (τ := τ) .tc main_v345)).mpr (List.mem_toFinset.mpr (List.mem_map_of_mem (by decide))),
   (Finset.singleton_subset_iff (a := Proc.devRef (τ := τ) .tc main_v346)).mpr (List.mem_toFinset.mpr (List.mem_map_of_mem (by decide))),
   (Finset.singleton_subset_iff (a := Proc.devRef (τ := τ) .tc main_v347)).mpr (List.mem_toFinset.mpr (List.mem_map_of_mem (by decide))),
   (Finset.singleton_subset_iff (a := Proc.devRef (τ := τ) .tc main_v348)).mpr (List.mem_toFinset.mpr (List.mem_map_of_mem (by decide))),
   (Finset.singleton_subset_iff (a := Proc.devRef (τ := τ) .tc main_v349)).mpr (List.mem_toFinset.mpr (List.mem_map_of_mem (by decide))),
   (Finset.singleton_subset_iff (a := Proc.devRef (τ := τ) .tc main_v350)).mpr (List.mem_toFinset.mpr (List.mem_map_of_mem (by decide))),
   (Finset.singleton_subset_iff (a := Proc.devRef (τ := τ) .tc main_v351)).mpr (List.mem_toFinset.mpr (List.mem_map_of_mem (by decide))),
   (Finset.singleton_subset_iff (a := Proc.devRef (τ := τ) .tc main_v352)).mpr (List.mem_toFinset.mpr (List.mem_map_of_mem (by decide))),
   (Finset.singleton_subset_iff (a := Proc.devRef (τ := τ) .tc main_v353)).mpr (List.mem_toFinset.mpr (List.mem_map_of_mem (by decide))),
   (Finset.singleton_subset_iff (a := Proc.devRef (τ := τ) .tc main_call15_cst)).mpr (List.mem_toFinset.mpr (List.mem_map_of_mem (by decide))),
   (Finset.singleton_subset_iff (a := Proc.devRef (τ := τ) .tc main_call15_v0)).mpr (List.mem_toFinset.mpr (List.mem_map_of_mem (by decide))),
   (Finset.singleton_subset_iff (a := Proc.devRef (τ := τ) .tc main_v354)).mpr (List.mem_toFinset.mpr (List.mem_map_of_mem (by decide))),
   (Finset.singleton_subset_iff (a := Proc.devRef (τ := τ) .tc main_v355)).mpr (List.mem_toFinset.mpr (List.mem_map_of_mem (by decide))),
   (Finset.singleton_subset_iff (a := Proc.devRef (τ := τ) .tc main_v356)).mpr (List.mem_toFinset.mpr (List.mem_map_of_mem (by decide))),
   (Finset.singleton_subset_iff (a := Proc.devRef (τ := τ) .tc main_v357)).mpr (List.mem_toFinset.mpr (List.mem_map_of_mem (by decide))),
   (Finset.singleton_subset_iff (a := Proc.devRef (τ := τ) .tc main_v358)).mpr (List.mem_toFinset.mpr (List.mem_map_of_mem (by decide))),
   (Finset.singleton_subset_iff (a := Proc.devRef (τ := τ) .tc main_v359)).mpr (List.mem_toFinset.mpr (List.mem_map_of_mem (by decide))),
   (Finset.singleton_subset_iff (a := Proc.devRef (τ := τ) .tc main_v360)).mpr (List.mem_toFinset.mpr (List.mem_map_of_mem (by decide))),
   (Finset.singleton_subset_iff (a := Proc.devRef (τ := τ) .tc main_v361)).mpr (List.mem_toFinset.mpr (List.mem_map_of_mem (by decide))),
   (Finset.singleton_subset_iff (a := Proc.devRef (τ := τ) .tc main_v362)).mpr (List.mem_toFinset.mpr (List.mem_map_of_mem (by decide))),
   (Finset.singleton_subset_iff (a := Proc.devRef (τ := τ) .tc main_v363)).mpr (List.mem_toFinset.mpr (List.mem_map_of_mem (by decide))),
   (Finset.singleton_subset_iff (a := Proc.devRef (τ := τ) .tc main_v364)).mpr (List.mem_toFinset.mpr (List.mem_map_of_mem (by decide))),
   (Finset.singleton_subset_iff (a := Proc.devRef (τ := τ) .tc main_v365)).mpr (List.mem_toFinset.mpr (List.mem_map_of_mem (by decide))),
   (Finset.singleton_subset_iff (a := Proc.devRef (τ := τ) .tc main_v366)).mpr (List.mem_toFinset.mpr (List.mem_map_of_mem (by decide))),
   (Finset.singleton_subset_iff (a := Proc.devRef (τ := τ) .tc main_v367)).mpr (List.mem_toFinset.mpr (List.mem_map_of_mem (by decide))),
   (Finset.singleton_subset_iff (a := Proc.devRef (τ := τ) .tc main_v368)).mpr (List.mem_toFinset.mpr (List.mem_map_of_mem (by decide))),
   (Finset.singleton_subset_iff (a := Proc.devRef (τ := τ) .tc main_v369)).mpr (List.mem_toFinset.mpr (List.mem_map_of_mem (by decide)))⟩

/-- A reference the window does not write keeps its contents through it. -/
theorem ops6_keep (V : Valuation τ sig (Elt F)) (r : Ref sig .tc) (h : r ∉ ops6_W) :
    after ops6 V (Proc.devRef .tc r) = V (Proc.devRef .tc r) :=
  after_of_writes_sub ops6 V ops6_writes h

end Cert.ReferenceIdeal.Hand

end
-- ==== Proof.Ref.Ops7.lean ====
import proofs.«414290_j6631429505478_3_alg».proof.Proof.Gen.ReferenceIdeal
import Idealize.ShloMosaic.Lib.StableHlo.Run
import Idealize.ShloMosaic.Lib.Pipeline.Frame

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
set_option maxRecDepth 8192 in
/-- The 83 operations of window 7 of @main, in order, a called function's operations in its call's place. -/
abbrev ops7 : List (HloOp τ sig (Elt F)) :=
  [ StableHlo.reshape main_v369 main_v370 rfl shapeCasts_S1x1x128_S128,
    StableHlo.unary main_arg7 main_v371 ((extractStridedSlice S1x1x128 ![2, 2, 0] · slices_S6x3x128_S1x1x128_2_2_0) : (⟨S6x3x128, .f32⟩ : BufTy).Contents (Elt F) → (⟨S1x1x128, .f32⟩ : BufTy).Contents (Elt F)),
    StableHlo.reshape main_v371 main_v372 rfl shapeCasts_S1x1x128_S128,
    StableHlo.nullary main_cst_48 (constant S_ .f32 0x00000000#32),
    StableHlo.binary main_v368 main_cst_48 main_v373 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_49 (constant S_ .f32 0x47435000#32),
    StableHlo.unary main_cst_49 main_v374 (broadcastInDim S128 ![] bcast_S_S128 : (⟨S_, .f32⟩ : BufTy).Contents (Elt F) → (⟨S128, .f32⟩ : BufTy).Contents (Elt F)),
    StableHlo.binary main_v373 main_v374 main_v375 (Host.divf : (⟨S128, .f32⟩ : BufTy).Contents (Elt F) → (⟨S128, .f32⟩ : BufTy).Contents (Elt F) → (⟨S128, .f32⟩ : BufTy).Contents (Elt F)),
    StableHlo.nullary main_c_50 (constantI S_ 32 0#32),
    StableHlo.TRef.nullary main_call16.cst (constant S_ .f32 0x00000000#32),
    StableHlo.TRef.binary (.of main_v368 : StableHlo.TRef sig ⟨S50000x128, .f32⟩) main_call16.cst main_call16.v0 (fun x v => Host.reduceAdd x v reducesTo_S50000x128_S128_d0 h_S_),
    StableHlo.TRef.unary main_call16.v0 main_call16.v1 (broadcastInDim S1x128 ![1] bcast_S128_S1x128_1),
    StableHlo.TRef.nullary main_call16.cst_0 (constant S_ .f32 0x47435000#32),
    StableHlo.TRef.unary main_call16.cst_0 main_call16.v2 (broadcastInDim S1x128 ![] bcast_S_S1x128),
    StableHlo.TRef.binary main_call16.v1 main_call16.v2 main_call16.v3 Host.divf,
    StableHlo.TRef.unary main_call16.v3 main_call16.v4 (broadcastInDim S50000x128 ![0, 1] bcast_S1x128_S50000x128_0_1),
    StableHlo.TRef.binary (.of main_v368 : StableHlo.TRef sig ⟨S50000x128, .f32⟩) main_call16.v4 main_call16.v5 subf,
    StableHlo.TRef.binary main_call16.v5 main_call16.v5 main_call16.v6 mulf,
    StableHlo.TRef.unary (.of main_c_50 : StableHlo.TRef sig ⟨S_, .i32⟩) main_call16.v7 (sitofp .f32),
    StableHlo.TRef.nullary main_call16.cst_1 (constant S_ .f32 0x47435000#32),
    StableHlo.TRef.binary main_call16.cst_1 main_call16.v7 main_call16.v8 subf,
    StableHlo.TRef.nullary main_call16.cst_2 (constant S_ .f32 0x00000000#32),
    StableHlo.TRef.binary main_call16.v6 main_call16.cst_2 main_call16.v9 (fun x v => Host.reduceAdd x v reducesTo_S50000x128_S128_d0 h_S_),
    StableHlo.TRef.unary main_call16.v8 main_call16.v10 (broadcastInDim S128 ![] bcast_S_S128),
    StableHlo.TRef.binary main_call16.v9 main_call16.v10 main_call16.v11 Host.divf,
    StableHlo.TRef.nullary main_call16.cst_3 (constant S_ .f32 0x00000000#32),
    StableHlo.TRef.binary main_call16.v8 main_call16.cst_3 main_call16.v12 (cmpf .ogt),
    StableHlo.TRef.nullary main_call16.cst_4 (constant S_ .f32 0x7FC00000#32),
    StableHlo.TRef.unary main_call16.cst_4 main_call16.call0.v0 id,
    StableHlo.TRef.unary main_call16.call0.v0 main_call16.call0.v1 (broadcastInDim S128 ![] bcast_S_S128),
    StableHlo.TRef.ternary main_call16.v12 main_call16.v11 main_call16.call0.v1 main_call16.call0.v2 (fun p a b => select (broadcastInDim S128 ![] bcast_S_S128 p) a b),
    StableHlo.unary main_v375 main_v377 (broadcastInDim S1x128 ![1] bcast_S128_S1x128_1 : (⟨S128, .f32⟩ : BufTy).Contents (Elt F) → (⟨S1x128, .f32⟩ : BufTy).Contents (Elt F)),
    StableHlo.unary main_v377 main_v378 (broadcastInDim S50000x128 ![0, 1] bcast_S1x128_S50000x128_0_1 : (⟨S1x128, .f32⟩ : BufTy).Contents (Elt F) → (⟨S50000x128, .f32⟩ : BufTy).Contents (Elt F)),
    StableHlo.binary main_v368 main_v378 main_v379 (subf : (⟨S50000x128, .f32⟩ : BufTy).Contents (Elt F) → (⟨S50000x128, .f32⟩ : BufTy).Contents (Elt F) → (⟨S50000x128, .f32⟩ : BufTy).Contents (Elt F)),
    StableHlo.nullary main_cst_51 (constant S_ .f32 0x3727C5AC#32),
    StableHlo.unary main_cst_51 main_v380 (broadcastInDim S128 ![] bcast_S_S128 : (⟨S_, .f32⟩ : BufTy).Contents (Elt F) → (⟨S128, .f32⟩ : BufTy).Contents (Elt F)),
    StableHlo.binary main_v376 main_v380 main_v381 (addf : (⟨S128, .f32⟩ : BufTy).Contents (Elt F) → (⟨S128, .f32⟩ : BufTy).Contents (Elt F) → (⟨S128, .f32⟩ : BufTy).Contents (Elt F)),
    StableHlo.unary main_v381 main_v382 (Host.rsqrt : (⟨S128, .f32⟩ : BufTy).Contents (Elt F) → (⟨S128, .f32⟩ : BufTy).Contents (Elt F)),
    StableHlo.unary main_v382 main_v383 (broadcastInDim S1x128 ![1] bcast_S128_S1x128_1 : (⟨S128, .f32⟩ : BufTy).Contents (Elt F) → (⟨S1x128, .f32⟩ : BufTy).Contents (Elt F)),
    StableHlo.unary main_v383 main_v384 (broadcastInDim S50000x128 ![0, 1] bcast_S1x128_S50000x128_0_1 : (⟨S1x128, .f32⟩ : BufTy).Contents (Elt F) → (⟨S50000x128, .f32⟩ : BufTy).Contents (Elt F)),
    StableHlo.binary main_v379 main_v384 main_v385 (mulf : (⟨S50000x128, .f32⟩ : BufTy).Contents (Elt F) → (⟨S50000x128, .f32⟩ : BufTy).Contents (Elt F) → (⟨S50000x128, .f32⟩ : BufTy).Contents (Elt F)),
    StableHlo.unary main_v370 main_v386 (broadcastInDim S1x128 ![1] bcast_S128_S1x128_1 : (⟨S128, .f32⟩ : BufTy).Contents (Elt F) → (⟨S1x128, .f32⟩ : BufTy).Contents (Elt F)),
    StableHlo.unary main_v386 main_v387 (broadcastInDim S50000x128 ![0, 1] bcast_S1x128_S50000x128_0_1 : (⟨S1x128, .f32⟩ : BufTy).Contents (Elt F) → (⟨S50000x128, .f32⟩ : BufTy).Contents (Elt F)),
    StableHlo.binary main_v385 main_v387 main_v388 (mulf : (⟨S50000x128, .f32⟩ : BufTy).Contents (Elt F) → (⟨S50000x128, .f32⟩ : BufTy).Contents (Elt F) → (⟨S50000x128, .f32⟩ : BufTy).Contents (Elt F)),
    StableHlo.unary main_v372 main_v389 (broadcastInDim S1x128 ![1] bcast_S128_S1x128_1 : (⟨S128, .f32⟩ : BufTy).Contents (Elt F) → (⟨S1x128, .f32⟩ : BufTy).Contents (Elt F)),
    StableHlo.unary main_v389 main_v390 (broadcastInDim S50000x128 ![0, 1] bcast_S1x128_S50000x128_0_1 : (⟨S1x128, .f32⟩ : BufTy).Contents (Elt F) → (⟨S50000x128, .f32⟩ : BufTy).Contents (Elt F)),
    StableHlo.binary main_v388 main_v390 main_v391 (addf : (⟨S50000x128, .f32⟩ : BufTy).Contents (Elt F) → (⟨S50000x128, .f32⟩ : BufTy).Contents (Elt F) → (⟨S50000x128, .f32⟩ : BufTy).Contents (Elt F)),
    StableHlo.TRef.nullary main_call17.cst (constant S_ .f32 0x00000000#32),
    StableHlo.TRef.unary main_call17.cst main_call17.v0 (broadcastInDim S50000x128 ![] bcast_S_S50000x128),
    StableHlo.TRef.binary (.of main_v391 : StableHlo.TRef sig ⟨S50000x128, .f32⟩) main_call17.v0 main_call17.v1 maximumf,
    StableHlo.unary main_arg3 main_v393 ((extractStridedSlice S1x1 ![2, 2] · slices_S6x3_S1x1_2_2) : (⟨S6x3, .f32⟩ : BufTy).Contents (Elt F) → (⟨S1x1, .f32⟩ : BufTy).Contents (Elt F)),
    StableHlo.reshape main_v393 main_v394 rfl shapeCasts_S1x1_S_,
    StableHlo.unary main_v394 main_v395 (broadcastInDim S50000x128 ![] bcast_S_S50000x128 : (⟨S_, .f32⟩ : BufTy).Contents (Elt F) → (⟨S50000x128, .f32⟩ : BufTy).Contents (Elt F)),
    StableHlo.binary main_v395 main_v392 main_v396 (mulf : (⟨S50000x128, .f32⟩ : BufTy).Contents (Elt F) → (⟨S50000x128, .f32⟩ : BufTy).Contents (Elt F) → (⟨S50000x128, .f32⟩ : BufTy).Contents (Elt F)),
    StableHlo.binary main_v359 main_v396 main_v397 (addf : (⟨S50000x128, .f32⟩ : BufTy).Contents (Elt F) → (⟨S50000x128, .f32⟩ : BufTy).Contents (Elt F) → (⟨S50000x128, .f32⟩ : BufTy).Contents (Elt F)),
    StableHlo.binary main_v270 main_v397 main_v398 (addf : (⟨S50000x128, .f32⟩ : BufTy).Contents (Elt F) → (⟨S50000x128, .f32⟩ : BufTy).Contents (Elt F) → (⟨S50000x128, .f32⟩ : BufTy).Contents (Elt F)),
    StableHlo.nullary main_c_52 (constantI S_ 32 0#32),
    StableHlo.unary main_c_52 main_v399 (broadcastInDim S800000 ![] bcast_S_S800000 : (⟨S_, .i32⟩ : BufTy).Contents (Elt F) → (⟨S800000, .i32⟩ : BufTy).Contents (Elt F)),
    StableHlo.binary main_v1 main_v399 main_v400 (cmpi .slt : (⟨S800000, .i32⟩ : BufTy).Contents (Elt F) → (⟨S800000, .i32⟩ : BufTy).Contents (Elt F) → (⟨S800000, .i1⟩ : BufTy).Contents (Elt F)),
    StableHlo.nullary main_c_53 (constantI S_ 32 50000#32),
    StableHlo.unary main_c_53 main_v401 (broadcastInDim S800000 ![] bcast_S_S800000 : (⟨S_, .i32⟩ : BufTy).Contents (Elt F) → (⟨S800000, .i32⟩ : BufTy).Contents (Elt F)),
    StableHlo.binary main_v1 main_v401 main_v402 (addi : (⟨S800000, .i32⟩ : BufTy).Contents (Elt F) → (⟨S800000, .i32⟩ : BufTy).Contents (Elt F) → (⟨S800000, .i32⟩ : BufTy).Contents (Elt F)),
    StableHlo.ternary main_v400 main_v402 main_v1 main_v403 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v403 main_v404 (broadcastInDim S800000x1 ![0] bcast_S800000_S800000x1_0 : (⟨S800000, .i32⟩ : BufTy).Contents (Elt F) → (⟨S800000x1, .i32⟩ : BufTy).Contents (Elt F)),
    StableHlo.binary main_arg1 main_v404 main_v405 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_54 (constant S_ .f32 0x00000000#32),
    StableHlo.unary main_cst_54 main_v406 (broadcastInDim S50000x128 ![] bcast_S_S50000x128 : (⟨S_, .f32⟩ : BufTy).Contents (Elt F) → (⟨S50000x128, .f32⟩ : BufTy).Contents (Elt F)),
    StableHlo.unary main_v3 main_v407 (broadcastInDim S800000x1 ![0] bcast_S800000_S800000x1_0 : (⟨S800000, .i32⟩ : BufTy).Contents (Elt F) → (⟨S800000x1, .i32⟩ : BufTy).Contents (Elt F)),
    StableHlo.ternary main_v406 main_v407 main_v405 main_v408 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v12 main_v409 (broadcastInDim S50000x128 ![0, 1] bcast_S50000x1_S50000x128_0_1 : (⟨S50000x1, .f32⟩ : BufTy).Contents (Elt F) → (⟨S50000x128, .f32⟩ : BufTy).Contents (Elt F)),
    StableHlo.binary main_v408 main_v409 main_v410 (mulf : (⟨S50000x128, .f32⟩ : BufTy).Contents (Elt F) → (⟨S50000x128, .f32⟩ : BufTy).Contents (Elt F) → (⟨S50000x128, .f32⟩ : BufTy).Contents (Elt F)),
    StableHlo.nullary main_cst_55 (constant S_ .f32 0x00000000#32),
    StableHlo.unary main_cst_55 main_v411 (broadcastInDim S50000x128 ![] bcast_S_S50000x128 : (⟨S_, .f32⟩ : BufTy).Contents (Elt F) → (⟨S50000x128, .f32⟩ : BufTy).Contents (Elt F)),
    StableHlo.unary main_arg4 main_v412 ((extractStridedSlice S1x1x128x128 ![3, 0, 0, 0] · slices_S6x3x128x128_S1x1x128x128_3_0_0_0) : (⟨S6x3x128x128, .f32⟩ : BufTy).Contents (Elt F) → (⟨S1x1x128x128, .f32⟩ : BufTy).Contents (Elt F)),
    StableHlo.reshape main_v412 main_v413 rfl shapeCasts_S1x1x128x128_S128x128,
    StableHlo.unary main_v413 main_v414 ((transpose S128x128 [1, 0] · transposes_S128x128_S128x128_1_0) : (⟨S128x128, .f32⟩ : BufTy).Contents (Elt F) → (⟨S128x128, .f32⟩ : BufTy).Contents (Elt F)),
    StableHlo.binary main_v410 main_v414 main_v415 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg5 main_v416 ((extractStridedSlice S1x1x128 ![3, 0, 0] · slices_S6x3x128_S1x1x128_3_0_0) : (⟨S6x3x128, .f32⟩ : BufTy).Contents (Elt F) → (⟨S1x1x128, .f32⟩ : BufTy).Contents (Elt F)),
    StableHlo.reshape main_v416 main_v417 rfl shapeCasts_S1x1x128_S128,
    StableHlo.unary main_v417 main_v418 (broadcastInDim S1x128 ![1] bcast_S128_S1x128_1 : (⟨S128, .f32⟩ : BufTy).Contents (Elt F) → (⟨S1x128, .f32⟩ : BufTy).Contents (Elt F)),
    StableHlo.unary main_v418 main_v419 (broadcastInDim S50000x128 ![0, 1] bcast_S1x128_S50000x128_0_1 : (⟨S1x128, .f32⟩ : BufTy).Contents (Elt F) → (⟨S50000x128, .f32⟩ : BufTy).Contents (Elt F)),
    StableHlo.binary main_v415 main_v419 main_v420 (addf : (⟨S50000x128, .f32⟩ : BufTy).Contents (Elt F) → (⟨S50000x128, .f32⟩ : BufTy).Contents (Elt F) → (⟨S50000x128, .f32⟩ : BufTy).Contents (Elt F)),
    StableHlo.unary main_arg6 main_v421 ((extractStridedSlice S1x1x128 ![3, 0, 0] · slices_S6x3x128_S1x1x128_3_0_0) : (⟨S6x3x128, .f32⟩ : BufTy).Contents (Elt F) → (⟨S1x1x128, .f32⟩ : BufTy).Contents (Elt F)) ]

set_option maxHeartbeats 40000000 in
set_option maxRecDepth 8192 in
/-- Window 7 is the straight line of its operations. -/
theorem main_part7_eq (c : Dev nD) : main_part7 (F := F) c = seq ops7 := by
  chain_rfl

set_option maxHeartbeats 40000000 in
set_option maxRecDepth 8192 in
/-- Each operation touches TensorCore references only. -/
theorem ops7_sub : (ops7 : List (HloOp τ sig (Elt F))).Forall fun op => op.bufs ⊆ tcRefs τ sig :=
  ⟨StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.binary_bufs_sub .., StableHlo.nullary_bufs_sub .., StableHlo.unary_bufs_sub .., StableHlo.unary_bufs_sub .., StableHlo.reshape_bufs_sub .., StableHlo.unary_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub ..⟩

set_option maxHeartbeats 40000000 in
set_option maxRecDepth 8192 in
/-- Each operation determines what it writes. -/
theorem ops7_fresh : (ops7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references the window's operations write, in order. -/
abbrev ops7_W : List (Ref sig .tc) :=
  [main_v370, main_v371, main_v372, main_cst_48, main_v373, main_cst_49, main_v374, main_v375, main_c_50, main_call16_cst, main_call16_v0, main_call16_v1, main_call16_cst_0, main_call16_v2, main_call16_v3, main_call16_v4, main_call16_v5, main_call16_v6, main_call16_v7, main_call16_cst_1, main_call16_v8, main_call16_cst_2, main_call16_v9, main_call16_v10, main_call16_v11, main_call16_cst_3, main_call16_v12, main_call16_cst_4, main_call16_call0_v0, main_call16_call0_v1, main_v376, main_v377, main_v378, main_v379, main_cst_51, main_v380, main_v381, main_v382, main_v383, main_v384, main_v385, main_v386, main_v387, main_v388, main_v389, main_v390, main_v391, main_call17_cst, main_call17_v0, main_v392, main_v393, main_v394, main_v395, main_v396, main_v397, main_v398, main_c_52, main_v399, main_v400, main_c_53, main_v401, main_v402, main_v403, main_v404, main_v405, main_cst_54, main_v406, main_v407, main_v408, main_v409, main_v410, main_cst_55, main_v411, main_v412, main_v413, main_v414, main_v415, main_v416, main_v417, main_v418, main_v419, main_v420, main_v421]

set_option maxHeartbeats 40000000 in
set_option maxRecDepth 8192 in
/-- Each operation writes its own result reference, the one listed at its place. -/
theorem ops7_writes : (ops7 : List (HloOp τ sig (Elt F))).Forall fun op => op.writes ⊆ (ops7_W.map (Proc.devRef (τ := τ) .tc)).toFinset :=
  ⟨(Finset.singleton_subset_iff (a := Proc.devRef (τ := τ) .tc main_v370)).mpr (List.mem_toFinset.mpr (List.mem_map_of_mem (by decide))),
   (Finset.singleton_subset_iff (a := Proc.devRef (τ := τ) .tc main_v371)).mpr (List.mem_toFinset.mpr (List.mem_map_of_mem (by decide))),
   (Finset.singleton_subset_iff (a := Proc.devRef (τ := τ) .tc main_v372)).mpr (List.mem_toFinset.mpr (List.mem_map_of_mem (by decide))),
   (Finset.singleton_subset_iff (a := Proc.devRef (τ := τ) .tc main_cst_48)).mpr (List.mem_toFinset.mpr (List.mem_map_of_mem (by decide))),
   (Finset.singleton_subset_iff (a := Proc.devRef (τ := τ) .tc main_v373)).mpr (List.mem_toFinset.mpr (List.mem_map_of_mem (by decide))),
   (Finset.singleton_subset_iff (a := Proc.devRef (τ := τ) .tc main_cst_49)).mpr (List.mem_toFinset.mpr (List.mem_map_of_mem (by decide))),
   (Finset.singleton_subset_iff (a := Proc.devRef (τ := τ) .tc main_v374)).mpr (List.mem_toFinset.mpr (List.mem_map_of_mem (by decide))),
   (Finset.singleton_subset_iff (a := Proc.devRef (τ := τ) .tc main_v375)).mpr (List.mem_toFinset.mpr (List.mem_map_of_mem (by decide))),
   (Finset.singleton_subset_iff (a := Proc.devRef (τ := τ) .tc main_c_50)).mpr (List.mem_toFinset.mpr (List.mem_map_of_mem (by decide))),
   (Finset.singleton_subset_iff (a := Proc.devRef (τ := τ) .tc main_call16_cst)).mpr (List.mem_toFinset.mpr (List.mem_map_of_mem (by decide))),
   (Finset.singleton_subset_iff (a := Proc.devRef (τ := τ) .tc main_call16_v0)).mpr (List.mem_toFinset.mpr (List.mem_map_of_mem (by decide))),
   (Finset.singleton_subset_iff (a := Proc.devRef (τ := τ) .tc main_call16_v1)).mpr (List.mem_toFinset.mpr (List.mem_map_of_mem (by decide))),
   (Finset.singleton_subset_iff (a := Proc.devRef (τ := τ) .tc main_call16_cst_0)).mpr (List.mem_toFinset.mpr (List.mem_map_of_mem (by decide))),
   (Finset.singleton_subset_iff (a := Proc.devRef (τ := τ) .tc main_call16_v2)).mpr (List.mem_toFinset.mpr (List.mem_map_of_mem (by decide))),
   (Finset.singleton_subset_iff (a := Proc.devRef (τ := τ) .tc main_call16_v3)).mpr (List.mem_toFinset.mpr (List.mem_map_of_mem (by decide))),
   (Finset.singleton_subset_iff (a := Proc.devRef (τ := τ) .tc main_call16_v4)).mpr (List.mem_toFinset.mpr (List.mem_map_of_mem (by decide))),
   (Finset.singleton_subset_iff (a := Proc.devRef (τ := τ) .tc main_call16_v5)).mpr (List.mem_toFinset.mpr (List.mem_map_of_mem (by decide))),
   (Finset.singleton_subset_iff (a := Proc.devRef (τ := τ) .tc main_call16_v6)).mpr (List.mem_toFinset.mpr (List.mem_map_of_mem (by decide))),
   (Finset.singleton_subset_iff (a := Proc.devRef (τ := τ) .tc main_call16_v7)).mpr (List.mem_toFinset.mpr (List.mem_map_of_mem (by decide))),
   (Finset.singleton_subset_iff (a := Proc.devRef (τ := τ) .tc main_call16_cst_1)).mpr (List.mem_toFinset.mpr (List.mem_map_of_mem (by decide))),
   (Finset.singleton_subset_iff (a := Proc.devRef (τ := τ) .tc main_call16_v8)).mpr (List.mem_toFinset.mpr (List.mem_map_of_mem (by decide))),
   (Finset.singleton_subset_iff (a := Proc.devRef (τ := τ) .tc main_call16_cst_2)).mpr (List.mem_toFinset.mpr (List.mem_map_of_mem (by decide))),
   (Finset.singleton_subset_iff (a := Proc.devRef (τ := τ) .tc main_call16_v9)).mpr (List.mem_toFinset.mpr (List.mem_map_of_mem (by decide))),
   (Finset.singleton_subset_iff (a := Proc.devRef (τ := τ) .tc main_call16_v10)).mpr (List.mem_toFinset.mpr (List.mem_map_of_mem (by decide))),
   (Finset.singleton_subset_iff (a := Proc.devRef (τ := τ) .tc main_call16_v11)).mpr (List.mem_toFinset.mpr (List.mem_map_of_mem (by decide))),
   (Finset.singleton_subset_iff (a := Proc.devRef (τ := τ) .tc main_call16_cst_3)).mpr (List.mem_toFinset.mpr (List.mem_map_of_mem (by decide))),
   (Finset.singleton_subset_iff (a := Proc.devRef (τ := τ) .tc main_call16_v12)).mpr (List.mem_toFinset.mpr (List.mem_map_of_mem (by decide))),
   (Finset.singleton_subset_iff (a := Proc.devRef (τ := τ) .tc main_call16_cst_4)).mpr (List.mem_toFinset.mpr (List.mem_map_of_mem (by decide))),
   (Finset.singleton_subset_iff (a := Proc.devRef (τ := τ) .tc main_call16_call0_v0)).mpr (List.mem_toFinset.mpr (List.mem_map_of_mem (by decide))),
   (Finset.singleton_subset_iff (a := Proc.devRef (τ := τ) .tc main_call16_call0_v1)).mpr (List.mem_toFinset.mpr (List.mem_map_of_mem (by decide))),
   (Finset.singleton_subset_iff (a := Proc.devRef (τ := τ) .tc main_v376)).mpr (List.mem_toFinset.mpr (List.mem_map_of_mem (by decide))),
   (Finset.singleton_subset_iff (a := Proc.devRef (τ := τ) .tc main_v377)).mpr (List.mem_toFinset.mpr (List.mem_map_of_mem (by decide))),
   (Finset.singleton_subset_iff (a := Proc.devRef (τ := τ) .tc main_v378)).mpr (List.mem_toFinset.mpr (List.mem_map_of_mem (by decide))),
   (Finset.singleton_subset_iff (a := Proc.devRef (τ := τ) .tc main_v379)).mpr (List.mem_toFinset.mpr (List.mem_map_of_mem (by decide))),
   (Finset.singleton_subset_iff (a := Proc.devRef (τ := τ) .tc main_cst_51)).mpr (List.mem_toFinset.mpr (List.mem_map_of_mem (by decide))),
   (Finset.singleton_subset_iff (a := Proc.devRef (τ := τ) .tc main_v380)).mpr (List.mem_toFinset.mpr (List.mem_map_of_mem (by decide))),
   (Finset.singleton_subset_iff (a := Proc.devRef (τ := τ) .tc main_v381)).mpr (List.mem_toFinset.mpr (List.mem_map_of_mem (by decide))),
   (Finset.singleton_subset_iff (a := Proc.devRef (τ := τ) .tc main_v382)).mpr (List.mem_toFinset.mpr (List.mem_map_of_mem (by decide))),
   (Finset.singleton_subset_iff (a := Proc.devRef (τ := τ) .tc main_v383)).mpr (List.mem_toFinset.mpr (List.mem_map_of_mem (by decide))),
   (Finset.singleton_subset_iff (a := Proc.devRef (τ := τ) .tc main_v384)).mpr (List.mem_toFinset.mpr (List.mem_map_of_mem (by decide))),
   (Finset.singleton_subset_iff (a := Proc.devRef (τ := τ) .tc main_v385)).mpr (List.mem_toFinset.mpr (List.mem_map_of_mem (by decide))),
   (Finset.singleton_subset_iff (a := Proc.devRef (τ := τ) .tc main_v386)).mpr (List.mem_toFinset.mpr (List.mem_map_of_mem (by decide))),
   (Finset.singleton_subset_iff (a := Proc.devRef (τ := τ) .tc main_v387)).mpr (List.mem_toFinset.mpr (List.mem_map_of_mem (by decide))),
   (Finset.singleton_subset_iff (a := Proc.devRef (τ := τ) .tc main_v388)).mpr (List.mem_toFinset.mpr (List.mem_map_of_mem (by decide))),
   (Finset.singleton_subset_iff (a := Proc.devRef (τ := τ) .tc main_v389)).mpr (List.mem_toFinset.mpr (List.mem_map_of_mem (by decide))),
   (Finset.singleton_subset_iff (a := Proc.devRef (τ := τ) .tc main_v390)).mpr (List.mem_toFinset.mpr (List.mem_map_of_mem (by decide))),
   (Finset.singleton_subset_iff (a := Proc.devRef (τ := τ) .tc main_v391)).mpr (List.mem_toFinset.mpr (List.mem_map_of_mem (by decide))),
   (Finset.singleton_subset_iff (a := Proc.devRef (τ := τ) .tc main_call17_cst)).mpr (List.mem_toFinset.mpr (List.mem_map_of_mem (by decide))),
   (Finset.singleton_subset_iff (a := Proc.devRef (τ := τ) .tc main_call17_v0)).mpr (List.mem_toFinset.mpr (List.mem_map_of_mem (by decide))),
   (Finset.singleton_subset_iff (a := Proc.devRef (τ := τ) .tc main_v392)).mpr (List.mem_toFinset.mpr (List.mem_map_of_mem (by decide))),
   (Finset.singleton_subset_iff (a := Proc.devRef (τ := τ) .tc main_v393)).mpr (List.mem_toFinset.mpr (List.mem_map_of_mem (by decide))),
   (Finset.singleton_subset_iff (a := Proc.devRef (τ := τ) .tc main_v394)).mpr (List.mem_toFinset.mpr (List.mem_map_of_mem (by decide))),
   (Finset.singleton_subset_iff (a := Proc.devRef (τ := τ) .tc main_v395)).mpr (List.mem_toFinset.mpr (List.mem_map_of_mem (by decide))),
   (Finset.singleton_subset_iff (a := Proc.devRef (τ := τ) .tc main_v396)).mpr (List.mem_toFinset.mpr (List.mem_map_of_mem (by decide))),
   (Finset.singleton_subset_iff (a := Proc.devRef (τ := τ) .tc main_v397)).mpr (List.mem_toFinset.mpr (List.mem_map_of_mem (by decide))),
   (Finset.singleton_subset_iff (a := Proc.devRef (τ := τ) .tc main_v398)).mpr (List.mem_toFinset.mpr (List.mem_map_of_mem (by decide))),
   (Finset.singleton_subset_iff (a := Proc.devRef (τ := τ) .tc main_c_52)).mpr (List.mem_toFinset.mpr (List.mem_map_of_mem (by decide))),
   (Finset.singleton_subset_iff (a := Proc.devRef (τ := τ) .tc main_v399)).mpr (List.mem_toFinset.mpr (List.mem_map_of_mem (by decide))),
   (Finset.singleton_subset_iff (a := Proc.devRef (τ := τ) .tc main_v400)).mpr (List.mem_toFinset.mpr (List.mem_map_of_mem (by decide))),
   (Finset.singleton_subset_iff (a := Proc.devRef (τ := τ) .tc main_c_53)).mpr (List.mem_toFinset.mpr (List.mem_map_of_mem (by decide))),
   (Finset.singleton_subset_iff (a := Proc.devRef (τ := τ) .tc main_v401)).mpr (List.mem_toFinset.mpr (List.mem_map_of_mem (by decide))),
   (Finset.singleton_subset_iff (a := Proc.devRef (τ := τ) .tc main_v402)).mpr (List.mem_toFinset.mpr (List.mem_map_of_mem (by decide))),
   (Finset.singleton_subset_iff (a := Proc.devRef (τ := τ) .tc main_v403)).mpr (List.mem_toFinset.mpr (List.mem_map_of_mem (by decide))),
   (Finset.singleton_subset_iff (a := Proc.devRef (τ := τ) .tc main_v404)).mpr (List.mem_toFinset.mpr (List.mem_map_of_mem (by decide))),
   (Finset.singleton_subset_iff (a := Proc.devRef (τ := τ) .tc main_v405)).mpr (List.mem_toFinset.mpr (List.mem_map_of_mem (by decide))),
   (Finset.singleton_subset_iff (a := Proc.devRef (τ := τ) .tc main_cst_54)).mpr (List.mem_toFinset.mpr (List.mem_map_of_mem (by decide))),
   (Finset.singleton_subset_iff (a := Proc.devRef (τ := τ) .tc main_v406)).mpr (List.mem_toFinset.mpr (List.mem_map_of_mem (by decide))),
   (Finset.singleton_subset_iff (a := Proc.devRef (τ := τ) .tc main_v407)).mpr (List.mem_toFinset.mpr (List.mem_map_of_mem (by decide))),
   (Finset.singleton_subset_iff (a := Proc.devRef (τ := τ) .tc main_v408)).mpr (List.mem_toFinset.mpr (List.mem_map_of_mem (by decide))),
   (Finset.singleton_subset_iff (a := Proc.devRef (τ := τ) .tc main_v409)).mpr (List.mem_toFinset.mpr (List.mem_map_of_mem (by decide))),
   (Finset.singleton_subset_iff (a := Proc.devRef (τ := τ) .tc main_v410)).mpr (List.mem_toFinset.mpr (List.mem_map_of_mem (by decide))),
   (Finset.singleton_subset_iff (a := Proc.devRef (τ := τ) .tc main_cst_55)).mpr (List.mem_toFinset.mpr (List.mem_map_of_mem (by decide))),
   (Finset.singleton_subset_iff (a := Proc.devRef (τ := τ) .tc main_v411)).mpr (List.mem_toFinset.mpr (List.mem_map_of_mem (by decide))),
   (Finset.singleton_subset_iff (a := Proc.devRef (τ := τ) .tc main_v412)).mpr (List.mem_toFinset.mpr (List.mem_map_of_mem (by decide))),
   (Finset.singleton_subset_iff (a := Proc.devRef (τ := τ) .tc main_v413)).mpr (List.mem_toFinset.mpr (List.mem_map_of_mem (by decide))),
   (Finset.singleton_subset_iff (a := Proc.devRef (τ := τ) .tc main_v414)).mpr (List.mem_toFinset.mpr (List.mem_map_of_mem (by decide))),
   (Finset.singleton_subset_iff (a := Proc.devRef (τ := τ) .tc main_v415)).mpr (List.mem_toFinset.mpr (List.mem_map_of_mem (by decide))),
   (Finset.singleton_subset_iff (a := Proc.devRef (τ := τ) .tc main_v416)).mpr (List.mem_toFinset.mpr (List.mem_map_of_mem (by decide))),
   (Finset.singleton_subset_iff (a := Proc.devRef (τ := τ) .tc main_v417)).mpr (List.mem_toFinset.mpr (List.mem_map_of_mem (by decide))),
   (Finset.singleton_subset_iff (a := Proc.devRef (τ := τ) .tc main_v418)).mpr (List.mem_toFinset.mpr (List.mem_map_of_mem (by decide))),
   (Finset.singleton_subset_iff (a := Proc.devRef (τ := τ) .tc main_v419)).mpr (List.mem_toFinset.mpr (List.mem_map_of_mem (by decide))),
   (Finset.singleton_subset_iff (a := Proc.devRef (τ := τ) .tc main_v420)).mpr (List.mem_toFinset.mpr (List.mem_map_of_mem (by decide))),
   (Finset.singleton_subset_iff (a := Proc.devRef (τ := τ) .tc main_v421)).mpr (List.mem_toFinset.mpr (List.mem_map_of_mem (by decide)))⟩

/-- A reference the window does not write keeps its contents through it. -/
theorem ops7_keep (V : Valuation τ sig (Elt F)) (r : Ref sig .tc) (h : r ∉ ops7_W) :
    after ops7 V (Proc.devRef .tc r) = V (Proc.devRef .tc r) :=
  after_of_writes_sub ops7 V ops7_writes h

end Cert.ReferenceIdeal.Hand

end
-- ==== Proof.Ref.Ops8.lean ====
import proofs.«414290_j6631429505478_3_alg».proof.Proof.Gen.ReferenceIdeal
import Idealize.ShloMosaic.Lib.StableHlo.Run
import Idealize.ShloMosaic.Lib.Pipeline.Frame

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
set_option maxRecDepth 8192 in
/-- The 104 operations of window 8 of @main, in order, a called function's operations in its call's place. -/
abbrev ops8 : List (HloOp τ sig (Elt F)) :=
  [ StableHlo.reshape main_v421 main_v422 rfl shapeCasts_S1x1x128_S128,
    StableHlo.unary main_arg7 main_v423 ((extractStridedSlice S1x1x128 ![3, 0, 0] · slices_S6x3x128_S1x1x128_3_0_0) : (⟨S6x3x128, .f32⟩ : BufTy).Contents (Elt F) → (⟨S1x1x128, .f32⟩ : BufTy).Contents (Elt F)),
    StableHlo.reshape main_v423 main_v424 rfl shapeCasts_S1x1x128_S128,
    StableHlo.nullary main_cst_56 (constant S_ .f32 0x00000000#32),
    StableHlo.binary main_v420 main_cst_56 main_v425 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_57 (constant S_ .f32 0x47435000#32),
    StableHlo.unary main_cst_57 main_v426 (broadcastInDim S128 ![] bcast_S_S128 : (⟨S_, .f32⟩ : BufTy).Contents (Elt F) → (⟨S128, .f32⟩ : BufTy).Contents (Elt F)),
    StableHlo.binary main_v425 main_v426 main_v427 (Host.divf : (⟨S128, .f32⟩ : BufTy).Contents (Elt F) → (⟨S128, .f32⟩ : BufTy).Contents (Elt F) → (⟨S128, .f32⟩ : BufTy).Contents (Elt F)),
    StableHlo.nullary main_c_58 (constantI S_ 32 0#32),
    StableHlo.TRef.nullary main_call18.cst (constant S_ .f32 0x00000000#32),
    StableHlo.TRef.binary (.of main_v420 : StableHlo.TRef sig ⟨S50000x128, .f32⟩) main_call18.cst main_call18.v0 (fun x v => Host.reduceAdd x v reducesTo_S50000x128_S128_d0 h_S_),
    StableHlo.TRef.unary main_call18.v0 main_call18.v1 (broadcastInDim S1x128 ![1] bcast_S128_S1x128_1),
    StableHlo.TRef.nullary main_call18.cst_0 (constant S_ .f32 0x47435000#32),
    StableHlo.TRef.unary main_call18.cst_0 main_call18.v2 (broadcastInDim S1x128 ![] bcast_S_S1x128),
    StableHlo.TRef.binary main_call18.v1 main_call18.v2 main_call18.v3 Host.divf,
    StableHlo.TRef.unary main_call18.v3 main_call18.v4 (broadcastInDim S50000x128 ![0, 1] bcast_S1x128_S50000x128_0_1),
    StableHlo.TRef.binary (.of main_v420 : StableHlo.TRef sig ⟨S50000x128, .f32⟩) main_call18.v4 main_call18.v5 subf,
    StableHlo.TRef.binary main_call18.v5 main_call18.v5 main_call18.v6 mulf,
    StableHlo.TRef.unary (.of main_c_58 : StableHlo.TRef sig ⟨S_, .i32⟩) main_call18.v7 (sitofp .f32),
    StableHlo.TRef.nullary main_call18.cst_1 (constant S_ .f32 0x47435000#32),
    StableHlo.TRef.binary main_call18.cst_1 main_call18.v7 main_call18.v8 subf,
    StableHlo.TRef.nullary main_call18.cst_2 (constant S_ .f32 0x00000000#32),
    StableHlo.TRef.binary main_call18.v6 main_call18.cst_2 main_call18.v9 (fun x v => Host.reduceAdd x v reducesTo_S50000x128_S128_d0 h_S_),
    StableHlo.TRef.unary main_call18.v8 main_call18.v10 (broadcastInDim S128 ![] bcast_S_S128),
    StableHlo.TRef.binary main_call18.v9 main_call18.v10 main_call18.v11 Host.divf,
    StableHlo.TRef.nullary main_call18.cst_3 (constant S_ .f32 0x00000000#32),
    StableHlo.TRef.binary main_call18.v8 main_call18.cst_3 main_call18.v12 (cmpf .ogt),
    StableHlo.TRef.nullary main_call18.cst_4 (constant S_ .f32 0x7FC00000#32),
    StableHlo.TRef.unary main_call18.cst_4 main_call18.call0.v0 id,
    StableHlo.TRef.unary main_call18.call0.v0 main_call18.call0.v1 (broadcastInDim S128 ![] bcast_S_S128),
    StableHlo.TRef.ternary main_call18.v12 main_call18.v11 main_call18.call0.v1 main_call18.call0.v2 (fun p a b => select (broadcastInDim S128 ![] bcast_S_S128 p) a b),
    StableHlo.unary main_v427 main_v429 (broadcastInDim S1x128 ![1] bcast_S128_S1x128_1 : (⟨S128, .f32⟩ : BufTy).Contents (Elt F) → (⟨S1x128, .f32⟩ : BufTy).Contents (Elt F)),
    StableHlo.unary main_v429 main_v430 (broadcastInDim S50000x128 ![0, 1] bcast_S1x128_S50000x128_0_1 : (⟨S1x128, .f32⟩ : BufTy).Contents (Elt F) → (⟨S50000x128, .f32⟩ : BufTy).Contents (Elt F)),
    StableHlo.binary main_v420 main_v430 main_v431 (subf : (⟨S50000x128, .f32⟩ : BufTy).Contents (Elt F) → (⟨S50000x128, .f32⟩ : BufTy).Contents (Elt F) → (⟨S50000x128, .f32⟩ : BufTy).Contents (Elt F)),
    StableHlo.nullary main_cst_59 (constant S_ .f32 0x3727C5AC#32),
    StableHlo.unary main_cst_59 main_v432 (broadcastInDim S128 ![] bcast_S_S128 : (⟨S_, .f32⟩ : BufTy).Contents (Elt F) → (⟨S128, .f32⟩ : BufTy).Contents (Elt F)),
    StableHlo.binary main_v428 main_v432 main_v433 (addf : (⟨S128, .f32⟩ : BufTy).Contents (Elt F) → (⟨S128, .f32⟩ : BufTy).Contents (Elt F) → (⟨S128, .f32⟩ : BufTy).Contents (Elt F)),
    StableHlo.unary main_v433 main_v434 (Host.rsqrt : (⟨S128, .f32⟩ : BufTy).Contents (Elt F) → (⟨S128, .f32⟩ : BufTy).Contents (Elt F)),
    StableHlo.unary main_v434 main_v435 (broadcastInDim S1x128 ![1] bcast_S128_S1x128_1 : (⟨S128, .f32⟩ : BufTy).Contents (Elt F) → (⟨S1x128, .f32⟩ : BufTy).Contents (Elt F)),
    StableHlo.unary main_v435 main_v436 (broadcastInDim S50000x128 ![0, 1] bcast_S1x128_S50000x128_0_1 : (⟨S1x128, .f32⟩ : BufTy).Contents (Elt F) → (⟨S50000x128, .f32⟩ : BufTy).Contents (Elt F)),
    StableHlo.binary main_v431 main_v436 main_v437 (mulf : (⟨S50000x128, .f32⟩ : BufTy).Contents (Elt F) → (⟨S50000x128, .f32⟩ : BufTy).Contents (Elt F) → (⟨S50000x128, .f32⟩ : BufTy).Contents (Elt F)),
    StableHlo.unary main_v422 main_v438 (broadcastInDim S1x128 ![1] bcast_S128_S1x128_1 : (⟨S128, .f32⟩ : BufTy).Contents (Elt F) → (⟨S1x128, .f32⟩ : BufTy).Contents (Elt F)),
    StableHlo.unary main_v438 main_v439 (broadcastInDim S50000x128 ![0, 1] bcast_S1x128_S50000x128_0_1 : (⟨S1x128, .f32⟩ : BufTy).Contents (Elt F) → (⟨S50000x128, .f32⟩ : BufTy).Contents (Elt F)),
    StableHlo.binary main_v437 main_v439 main_v440 (mulf : (⟨S50000x128, .f32⟩ : BufTy).Contents (Elt F) → (⟨S50000x128, .f32⟩ : BufTy).Contents (Elt F) → (⟨S50000x128, .f32⟩ : BufTy).Contents (Elt F)),
    StableHlo.unary main_v424 main_v441 (broadcastInDim S1x128 ![1] bcast_S128_S1x128_1 : (⟨S128, .f32⟩ : BufTy).Contents (Elt F) → (⟨S1x128, .f32⟩ : BufTy).Contents (Elt F)),
    StableHlo.unary main_v441 main_v442 (broadcastInDim S50000x128 ![0, 1] bcast_S1x128_S50000x128_0_1 : (⟨S1x128, .f32⟩ : BufTy).Contents (Elt F) → (⟨S50000x128, .f32⟩ : BufTy).Contents (Elt F)),
    StableHlo.binary main_v440 main_v442 main_v443 (addf : (⟨S50000x128, .f32⟩ : BufTy).Contents (Elt F) → (⟨S50000x128, .f32⟩ : BufTy).Contents (Elt F) → (⟨S50000x128, .f32⟩ : BufTy).Contents (Elt F)),
    StableHlo.TRef.nullary main_call19.cst (constant S_ .f32 0x00000000#32),
    StableHlo.TRef.unary main_call19.cst main_call19.v0 (broadcastInDim S50000x128 ![] bcast_S_S50000x128),
    StableHlo.TRef.binary (.of main_v443 : StableHlo.TRef sig ⟨S50000x128, .f32⟩) main_call19.v0 main_call19.v1 maximumf,
    StableHlo.unary main_arg3 main_v445 ((extractStridedSlice S1x1 ![3, 0] · slices_S6x3_S1x1_3_0) : (⟨S6x3, .f32⟩ : BufTy).Contents (Elt F) → (⟨S1x1, .f32⟩ : BufTy).Contents (Elt F)),
    StableHlo.reshape main_v445 main_v446 rfl shapeCasts_S1x1_S_,
    StableHlo.unary main_v446 main_v447 (broadcastInDim S50000x128 ![] bcast_S_S50000x128 : (⟨S_, .f32⟩ : BufTy).Contents (Elt F) → (⟨S50000x128, .f32⟩ : BufTy).Contents (Elt F)),
    StableHlo.binary main_v447 main_v444 main_v448 (mulf : (⟨S50000x128, .f32⟩ : BufTy).Contents (Elt F) → (⟨S50000x128, .f32⟩ : BufTy).Contents (Elt F) → (⟨S50000x128, .f32⟩ : BufTy).Contents (Elt F)),
    StableHlo.binary main_v411 main_v448 main_v449 (addf : (⟨S50000x128, .f32⟩ : BufTy).Contents (Elt F) → (⟨S50000x128, .f32⟩ : BufTy).Contents (Elt F) → (⟨S50000x128, .f32⟩ : BufTy).Contents (Elt F)),
    StableHlo.unary main_arg4 main_v450 ((extractStridedSlice S1x1x128x128 ![3, 1, 0, 0] · slices_S6x3x128x128_S1x1x128x128_3_1_0_0) : (⟨S6x3x128x128, .f32⟩ : BufTy).Contents (Elt F) → (⟨S1x1x128x128, .f32⟩ : BufTy).Contents (Elt F)),
    StableHlo.reshape main_v450 main_v451 rfl shapeCasts_S1x1x128x128_S128x128,
    StableHlo.unary main_v451 main_v452 ((transpose S128x128 [1, 0] · transposes_S128x128_S128x128_1_0) : (⟨S128x128, .f32⟩ : BufTy).Contents (Elt F) → (⟨S128x128, .f32⟩ : BufTy).Contents (Elt F)),
    StableHlo.binary main_arg1 main_v452 main_v453 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg5 main_v454 ((extractStridedSlice S1x1x128 ![3, 1, 0] · slices_S6x3x128_S1x1x128_3_1_0) : (⟨S6x3x128, .f32⟩ : BufTy).Contents (Elt F) → (⟨S1x1x128, .f32⟩ : BufTy).Contents (Elt F)),
    StableHlo.reshape main_v454 main_v455 rfl shapeCasts_S1x1x128_S128,
    StableHlo.unary main_v455 main_v456 (broadcastInDim S1x128 ![1] bcast_S128_S1x128_1 : (⟨S128, .f32⟩ : BufTy).Contents (Elt F) → (⟨S1x128, .f32⟩ : BufTy).Contents (Elt F)),
    StableHlo.unary main_v456 main_v457 (broadcastInDim S50000x128 ![0, 1] bcast_S1x128_S50000x128_0_1 : (⟨S1x128, .f32⟩ : BufTy).Contents (Elt F) → (⟨S50000x128, .f32⟩ : BufTy).Contents (Elt F)),
    StableHlo.binary main_v453 main_v457 main_v458 (addf : (⟨S50000x128, .f32⟩ : BufTy).Contents (Elt F) → (⟨S50000x128, .f32⟩ : BufTy).Contents (Elt F) → (⟨S50000x128, .f32⟩ : BufTy).Contents (Elt F)),
    StableHlo.unary main_arg6 main_v459 ((extractStridedSlice S1x1x128 ![3, 1, 0] · slices_S6x3x128_S1x1x128_3_1_0) : (⟨S6x3x128, .f32⟩ : BufTy).Contents (Elt F) → (⟨S1x1x128, .f32⟩ : BufTy).Contents (Elt F)),
    StableHlo.reshape main_v459 main_v460 rfl shapeCasts_S1x1x128_S128,
    StableHlo.unary main_arg7 main_v461 ((extractStridedSlice S1x1x128 ![3, 1, 0] · slices_S6x3x128_S1x1x128_3_1_0) : (⟨S6x3x128, .f32⟩ : BufTy).Contents (Elt F) → (⟨S1x1x128, .f32⟩ : BufTy).Contents (Elt F)),
    StableHlo.reshape main_v461 main_v462 rfl shapeCasts_S1x1x128_S128,
    StableHlo.nullary main_cst_60 (constant S_ .f32 0x00000000#32),
    StableHlo.binary main_v458 main_cst_60 main_v463 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_61 (constant S_ .f32 0x47435000#32),
    StableHlo.unary main_cst_61 main_v464 (broadcastInDim S128 ![] bcast_S_S128 : (⟨S_, .f32⟩ : BufTy).Contents (Elt F) → (⟨S128, .f32⟩ : BufTy).Contents (Elt F)),
    StableHlo.binary main_v463 main_v464 main_v465 (Host.divf : (⟨S128, .f32⟩ : BufTy).Contents (Elt F) → (⟨S128, .f32⟩ : BufTy).Contents (Elt F) → (⟨S128, .f32⟩ : BufTy).Contents (Elt F)),
    StableHlo.nullary main_c_62 (constantI S_ 32 0#32),
    StableHlo.TRef.nullary main_call20.cst (constant S_ .f32 0x00000000#32),
    StableHlo.TRef.binary (.of main_v458 : StableHlo.TRef sig ⟨S50000x128, .f32⟩) main_call20.cst main_call20.v0 (fun x v => Host.reduceAdd x v reducesTo_S50000x128_S128_d0 h_S_),
    StableHlo.TRef.unary main_call20.v0 main_call20.v1 (broadcastInDim S1x128 ![1] bcast_S128_S1x128_1),
    StableHlo.TRef.nullary main_call20.cst_0 (constant S_ .f32 0x47435000#32),
    StableHlo.TRef.unary main_call20.cst_0 main_call20.v2 (broadcastInDim S1x128 ![] bcast_S_S1x128),
    StableHlo.TRef.binary main_call20.v1 main_call20.v2 main_call20.v3 Host.divf,
    StableHlo.TRef.unary main_call20.v3 main_call20.v4 (broadcastInDim S50000x128 ![0, 1] bcast_S1x128_S50000x128_0_1),
    StableHlo.TRef.binary (.of main_v458 : StableHlo.TRef sig ⟨S50000x128, .f32⟩) main_call20.v4 main_call20.v5 subf,
    StableHlo.TRef.binary main_call20.v5 main_call20.v5 main_call20.v6 mulf,
    StableHlo.TRef.unary (.of main_c_62 : StableHlo.TRef sig ⟨S_, .i32⟩) main_call20.v7 (sitofp .f32),
    StableHlo.TRef.nullary main_call20.cst_1 (constant S_ .f32 0x47435000#32),
    StableHlo.TRef.binary main_call20.cst_1 main_call20.v7 main_call20.v8 subf,
    StableHlo.TRef.nullary main_call20.cst_2 (constant S_ .f32 0x00000000#32),
    StableHlo.TRef.binary main_call20.v6 main_call20.cst_2 main_call20.v9 (fun x v => Host.reduceAdd x v reducesTo_S50000x128_S128_d0 h_S_),
    StableHlo.TRef.unary main_call20.v8 main_call20.v10 (broadcastInDim S128 ![] bcast_S_S128),
    StableHlo.TRef.binary main_call20.v9 main_call20.v10 main_call20.v11 Host.divf,
    StableHlo.TRef.nullary main_call20.cst_3 (constant S_ .f32 0x00000000#32),
    StableHlo.TRef.binary main_call20.v8 main_call20.cst_3 main_call20.v12 (cmpf .ogt),
    StableHlo.TRef.nullary main_call20.cst_4 (constant S_ .f32 0x7FC00000#32),
    StableHlo.TRef.unary main_call20.cst_4 main_call20.call0.v0 id,
    StableHlo.TRef.unary main_call20.call0.v0 main_call20.call0.v1 (broadcastInDim S128 ![] bcast_S_S128),
    StableHlo.TRef.ternary main_call20.v12 main_call20.v11 main_call20.call0.v1 main_call20.call0.v2 (fun p a b => select (broadcastInDim S128 ![] bcast_S_S128 p) a b),
    StableHlo.unary main_v465 main_v467 (broadcastInDim S1x128 ![1] bcast_S128_S1x128_1 : (⟨S128, .f32⟩ : BufTy).Contents (Elt F) → (⟨S1x128, .f32⟩ : BufTy).Contents (Elt F)),
    StableHlo.unary main_v467 main_v468 (broadcastInDim S50000x128 ![0, 1] bcast_S1x128_S50000x128_0_1 : (⟨S1x128, .f32⟩ : BufTy).Contents (Elt F) → (⟨S50000x128, .f32⟩ : BufTy).Contents (Elt F)),
    StableHlo.binary main_v458 main_v468 main_v469 (subf : (⟨S50000x128, .f32⟩ : BufTy).Contents (Elt F) → (⟨S50000x128, .f32⟩ : BufTy).Contents (Elt F) → (⟨S50000x128, .f32⟩ : BufTy).Contents (Elt F)),
    StableHlo.nullary main_cst_63 (constant S_ .f32 0x3727C5AC#32),
    StableHlo.unary main_cst_63 main_v470 (broadcastInDim S128 ![] bcast_S_S128 : (⟨S_, .f32⟩ : BufTy).Contents (Elt F) → (⟨S128, .f32⟩ : BufTy).Contents (Elt F)),
    StableHlo.binary main_v466 main_v470 main_v471 (addf : (⟨S128, .f32⟩ : BufTy).Contents (Elt F) → (⟨S128, .f32⟩ : BufTy).Contents (Elt F) → (⟨S128, .f32⟩ : BufTy).Contents (Elt F)),
    StableHlo.unary main_v471 main_v472 (Host.rsqrt : (⟨S128, .f32⟩ : BufTy).Contents (Elt F) → (⟨S128, .f32⟩ : BufTy).Contents (Elt F)),
    StableHlo.unary main_v472 main_v473 (broadcastInDim S1x128 ![1] bcast_S128_S1x128_1 : (⟨S128, .f32⟩ : BufTy).Contents (Elt F) → (⟨S1x128, .f32⟩ : BufTy).Contents (Elt F)) ]

set_option maxHeartbeats 40000000 in
set_option maxRecDepth 8192 in
/-- Window 8 is the straight line of its operations. -/
theorem main_part8_eq (c : Dev nD) : main_part8 (F := F) c = seq ops8 := by
  chain_rfl

set_option maxHeartbeats 40000000 in
set_option maxRecDepth 8192 in
/-- Each operation touches TensorCore references only. -/
theorem ops8_sub : (ops8 : List (HloOp τ sig (Elt F))).Forall fun op => op.bufs ⊆ tcRefs τ sig :=
  ⟨StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.unary_bufs_sub .., StableHlo.binary_bufs_sub .., StableHlo.binary_bufs_sub .., StableHlo.unary_bufs_sub .., StableHlo.reshape_bufs_sub .., StableHlo.unary_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub ..⟩

set_option maxHeartbeats 40000000 in
set_option maxRecDepth 8192 in
/-- Each operation determines what it writes. -/
theorem ops8_fresh : (ops8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references the window's operations write, in order. -/
abbrev ops8_W : List (Ref sig .tc) :=
  [main_v422, main_v423, main_v424, main_cst_56, main_v425, main_cst_57, main_v426, main_v427, main_c_58, main_call18_cst, main_call18_v0, main_call18_v1, main_call18_cst_0, main_call18_v2, main_call18_v3, main_call18_v4, main_call18_v5, main_call18_v6, main_call18_v7, main_call18_cst_1, main_call18_v8, main_call18_cst_2, main_call18_v9, main_call18_v10, main_call18_v11, main_call18_cst_3, main_call18_v12, main_call18_cst_4, main_call18_call0_v0, main_call18_call0_v1, main_v428, main_v429, main_v430, main_v431, main_cst_59, main_v432, main_v433, main_v434, main_v435, main_v436, main_v437, main_v438, main_v439, main_v440, main_v441, main_v442, main_v443, main_call19_cst, main_call19_v0, main_v444, main_v445, main_v446, main_v447, main_v448, main_v449, main_v450, main_v451, main_v452, main_v453, main_v454, main_v455, main_v456, main_v457, main_v458, main_v459, main_v460, main_v461, main_v462, main_cst_60, main_v463, main_cst_61, main_v464, main_v465, main_c_62, main_call20_cst, main_call20_v0, main_call20_v1, main_call20_cst_0, main_call20_v2, main_call20_v3, main_call20_v4, main_call20_v5, main_call20_v6, main_call20_v7, main_call20_cst_1, main_call20_v8, main_call20_cst_2, main_call20_v9, main_call20_v10, main_call20_v11, main_call20_cst_3, main_call20_v12, main_call20_cst_4, main_call20_call0_v0, main_call20_call0_v1, main_v466, main_v467, main_v468, main_v469, main_cst_63, main_v470, main_v471, main_v472, main_v473]

set_option maxHeartbeats 40000000 in
set_option maxRecDepth 8192 in
/-- Each operation writes its own result reference, the one listed at its place. -/
theorem ops8_writes : (ops8 : List (HloOp τ sig (Elt F))).Forall fun op => op.writes ⊆ (ops8_W.map (Proc.devRef (τ := τ) .tc)).toFinset :=
  ⟨(Finset.singleton_subset_iff (a := Proc.devRef (τ := τ) .tc main_v422)).mpr (List.mem_toFinset.mpr (List.mem_map_of_mem (by decide))),
   (Finset.singleton_subset_iff (a := Proc.devRef (τ := τ) .tc main_v423)).mpr (List.mem_toFinset.mpr (List.mem_map_of_mem (by decide))),
   (Finset.singleton_subset_iff (a := Proc.devRef (τ := τ) .tc main_v424)).mpr (List.mem_toFinset.mpr (List.mem_map_of_mem (by decide))),
   (Finset.singleton_subset_iff (a := Proc.devRef (τ := τ) .tc main_cst_56)).mpr (List.mem_toFinset.mpr (List.mem_map_of_mem (by decide))),
   (Finset.singleton_subset_iff (a := Proc.devRef (τ := τ) .tc main_v425)).mpr (List.mem_toFinset.mpr (List.mem_map_of_mem (by decide))),
   (Finset.singleton_subset_iff (a := Proc.devRef (τ := τ) .tc main_cst_57)).mpr (List.mem_toFinset.mpr (List.mem_map_of_mem (by decide))),
   (Finset.singleton_subset_iff (a := Proc.devRef (τ := τ) .tc main_v426)).mpr (List.mem_toFinset.mpr (List.mem_map_of_mem (by decide))),
   (Finset.singleton_subset_iff (a := Proc.devRef (τ := τ) .tc main_v427)).mpr (List.mem_toFinset.mpr (List.mem_map_of_mem (by decide))),
   (Finset.singleton_subset_iff (a := Proc.devRef (τ := τ) .tc main_c_58)).mpr (List.mem_toFinset.mpr (List.mem_map_of_mem (by decide))),
   (Finset.singleton_subset_iff (a := Proc.devRef (τ := τ) .tc main_call18_cst)).mpr (List.mem_toFinset.mpr (List.mem_map_of_mem (by decide))),
   (Finset.singleton_subset_iff (a := Proc.devRef (τ := τ) .tc main_call18_v0)).mpr (List.mem_toFinset.mpr (List.mem_map_of_mem (by decide))),
   (Finset.singleton_subset_iff (a := Proc.devRef (τ := τ) .tc main_call18_v1)).mpr (List.mem_toFinset.mpr (List.mem_map_of_mem (by decide))),
   (Finset.singleton_subset_iff (a := Proc.devRef (τ := τ) .tc main_call18_cst_0)).mpr (List.mem_toFinset.mpr (List.mem_map_of_mem (by decide))),
   (Finset.singleton_subset_iff (a := Proc.devRef (τ := τ) .tc main_call18_v2)).mpr (List.mem_toFinset.mpr (List.mem_map_of_mem (by decide))),
   (Finset.singleton_subset_iff (a := Proc.devRef (τ := τ) .tc main_call18_v3)).mpr (List.mem_toFinset.mpr (List.mem_map_of_mem (by decide))),
   (Finset.singleton_subset_iff (a := Proc.devRef (τ := τ) .tc main_call18_v4)).mpr (List.mem_toFinset.mpr (List.mem_map_of_mem (by decide))),
   (Finset.singleton_subset_iff (a := Proc.devRef (τ := τ) .tc main_call18_v5)).mpr (List.mem_toFinset.mpr (List.mem_map_of_mem (by decide))),
   (Finset.singleton_subset_iff (a := Proc.devRef (τ := τ) .tc main_call18_v6)).mpr (List.mem_toFinset.mpr (List.mem_map_of_mem (by decide))),
   (Finset.singleton_subset_iff (a := Proc.devRef (τ := τ) .tc main_call18_v7)).mpr (List.mem_toFinset.mpr (List.mem_map_of_mem (by decide))),
   (Finset.singleton_subset_iff (a := Proc.devRef (τ := τ) .tc main_call18_cst_1)).mpr (List.mem_toFinset.mpr (List.mem_map_of_mem (by decide))),
   (Finset.singleton_subset_iff (a := Proc.devRef (τ := τ) .tc main_call18_v8)).mpr (List.mem_toFinset.mpr (List.mem_map_of_mem (by decide))),
   (Finset.singleton_subset_iff (a := Proc.devRef (τ := τ) .tc main_call18_cst_2)).mpr (List.mem_toFinset.mpr (List.mem_map_of_mem (by decide))),
   (Finset.singleton_subset_iff (a := Proc.devRef (τ := τ) .tc main_call18_v9)).mpr (List.mem_toFinset.mpr (List.mem_map_of_mem (by decide))),
   (Finset.singleton_subset_iff (a := Proc.devRef (τ := τ) .tc main_call18_v10)).mpr (List.mem_toFinset.mpr (List.mem_map_of_mem (by decide))),
   (Finset.singleton_subset_iff (a := Proc.devRef (τ := τ) .tc main_call18_v11)).mpr (List.mem_toFinset.mpr (List.mem_map_of_mem (by decide))),
   (Finset.singleton_subset_iff (a := Proc.devRef (τ := τ) .tc main_call18_cst_3)).mpr (List.mem_toFinset.mpr (List.mem_map_of_mem (by decide))),
   (Finset.singleton_subset_iff (a := Proc.devRef (τ := τ) .tc main_call18_v12)).mpr (List.mem_toFinset.mpr (List.mem_map_of_mem (by decide))),
   (Finset.singleton_subset_iff (a := Proc.devRef (τ := τ) .tc main_call18_cst_4)).mpr (List.mem_toFinset.mpr (List.mem_map_of_mem (by decide))),
   (Finset.singleton_subset_iff (a := Proc.devRef (τ := τ) .tc main_call18_call0_v0)).mpr (List.mem_toFinset.mpr (List.mem_map_of_mem (by decide))),
   (Finset.singleton_subset_iff (a := Proc.devRef (τ := τ) .tc main_call18_call0_v1)).mpr (List.mem_toFinset.mpr (List.mem_map_of_mem (by decide))),
   (Finset.singleton_subset_iff (a := Proc.devRef (τ := τ) .tc main_v428)).mpr (List.mem_toFinset.mpr (List.mem_map_of_mem (by decide))),
   (Finset.singleton_subset_iff (a := Proc.devRef (τ := τ) .tc main_v429)).mpr (List.mem_toFinset.mpr (List.mem_map_of_mem (by decide))),
   (Finset.singleton_subset_iff (a := Proc.devRef (τ := τ) .tc main_v430)).mpr (List.mem_toFinset.mpr (List.mem_map_of_mem (by decide))),
   (Finset.singleton_subset_iff (a := Proc.devRef (τ := τ) .tc main_v431)).mpr (List.mem_toFinset.mpr (List.mem_map_of_mem (by decide))),
   (Finset.singleton_subset_iff (a := Proc.devRef (τ := τ) .tc main_cst_59)).mpr (List.mem_toFinset.mpr (List.mem_map_of_mem (by decide))),
   (Finset.singleton_subset_iff (a := Proc.devRef (τ := τ) .tc main_v432)).mpr (List.mem_toFinset.mpr (List.mem_map_of_mem (by decide))),
   (Finset.singleton_subset_iff (a := Proc.devRef (τ := τ) .tc main_v433)).mpr (List.mem_toFinset.mpr (List.mem_map_of_mem (by decide))),
   (Finset.singleton_subset_iff (a := Proc.devRef (τ := τ) .tc main_v434)).mpr (List.mem_toFinset.mpr (List.mem_map_of_mem (by decide))),
   (Finset.singleton_subset_iff (a := Proc.devRef (τ := τ) .tc main_v435)).mpr (List.mem_toFinset.mpr (List.mem_map_of_mem (by decide))),
   (Finset.singleton_subset_iff (a := Proc.devRef (τ := τ) .tc main_v436)).mpr (List.mem_toFinset.mpr (List.mem_map_of_mem (by decide))),
   (Finset.singleton_subset_iff (a := Proc.devRef (τ := τ) .tc main_v437)).mpr (List.mem_toFinset.mpr (List.mem_map_of_mem (by decide))),
   (Finset.singleton_subset_iff (a := Proc.devRef (τ := τ) .tc main_v438)).mpr (List.mem_toFinset.mpr (List.mem_map_of_mem (by decide))),
   (Finset.singleton_subset_iff (a := Proc.devRef (τ := τ) .tc main_v439)).mpr (List.mem_toFinset.mpr (List.mem_map_of_mem (by decide))),
   (Finset.singleton_subset_iff (a := Proc.devRef (τ := τ) .tc main_v440)).mpr (List.mem_toFinset.mpr (List.mem_map_of_mem (by decide))),
   (Finset.singleton_subset_iff (a := Proc.devRef (τ := τ) .tc main_v441)).mpr (List.mem_toFinset.mpr (List.mem_map_of_mem (by decide))),
   (Finset.singleton_subset_iff (a := Proc.devRef (τ := τ) .tc main_v442)).mpr (List.mem_toFinset.mpr (List.mem_map_of_mem (by decide))),
   (Finset.singleton_subset_iff (a := Proc.devRef (τ := τ) .tc main_v443)).mpr (List.mem_toFinset.mpr (List.mem_map_of_mem (by decide))),
   (Finset.singleton_subset_iff (a := Proc.devRef (τ := τ) .tc main_call19_cst)).mpr (List.mem_toFinset.mpr (List.mem_map_of_mem (by decide))),
   (Finset.singleton_subset_iff (a := Proc.devRef (τ := τ) .tc main_call19_v0)).mpr (List.mem_toFinset.mpr (List.mem_map_of_mem (by decide))),
   (Finset.singleton_subset_iff (a := Proc.devRef (τ := τ) .tc main_v444)).mpr (List.mem_toFinset.mpr (List.mem_map_of_mem (by decide))),
   (Finset.singleton_subset_iff (a := Proc.devRef (τ := τ) .tc main_v445)).mpr (List.mem_toFinset.mpr (List.mem_map_of_mem (by decide))),
   (Finset.singleton_subset_iff (a := Proc.devRef (τ := τ) .tc main_v446)).mpr (List.mem_toFinset.mpr (List.mem_map_of_mem (by decide))),
   (Finset.singleton_subset_iff (a := Proc.devRef (τ := τ) .tc main_v447)).mpr (List.mem_toFinset.mpr (List.mem_map_of_mem (by decide))),
   (Finset.singleton_subset_iff (a := Proc.devRef (τ := τ) .tc main_v448)).mpr (List.mem_toFinset.mpr (List.mem_map_of_mem (by decide))),
   (Finset.singleton_subset_iff (a := Proc.devRef (τ := τ) .tc main_v449)).mpr (List.mem_toFinset.mpr (List.mem_map_of_mem (by decide))),
   (Finset.singleton_subset_iff (a := Proc.devRef (τ := τ) .tc main_v450)).mpr (List.mem_toFinset.mpr (List.mem_map_of_mem (by decide))),
   (Finset.singleton_subset_iff (a := Proc.devRef (τ := τ) .tc main_v451)).mpr (List.mem_toFinset.mpr (List.mem_map_of_mem (by decide))),
   (Finset.singleton_subset_iff (a := Proc.devRef (τ := τ) .tc main_v452)).mpr (List.mem_toFinset.mpr (List.mem_map_of_mem (by decide))),
   (Finset.singleton_subset_iff (a := Proc.devRef (τ := τ) .tc main_v453)).mpr (List.mem_toFinset.mpr (List.mem_map_of_mem (by decide))),
   (Finset.singleton_subset_iff (a := Proc.devRef (τ := τ) .tc main_v454)).mpr (List.mem_toFinset.mpr (List.mem_map_of_mem (by decide))),
   (Finset.singleton_subset_iff (a := Proc.devRef (τ := τ) .tc main_v455)).mpr (List.mem_toFinset.mpr (List.mem_map_of_mem (by decide))),
   (Finset.singleton_subset_iff (a := Proc.devRef (τ := τ) .tc main_v456)).mpr (List.mem_toFinset.mpr (List.mem_map_of_mem (by decide))),
   (Finset.singleton_subset_iff (a := Proc.devRef (τ := τ) .tc main_v457)).mpr (List.mem_toFinset.mpr (List.mem_map_of_mem (by decide))),
   (Finset.singleton_subset_iff (a := Proc.devRef (τ := τ) .tc main_v458)).mpr (List.mem_toFinset.mpr (List.mem_map_of_mem (by decide))),
   (Finset.singleton_subset_iff (a := Proc.devRef (τ := τ) .tc main_v459)).mpr (List.mem_toFinset.mpr (List.mem_map_of_mem (by decide))),
   (Finset.singleton_subset_iff (a := Proc.devRef (τ := τ) .tc main_v460)).mpr (List.mem_toFinset.mpr (List.mem_map_of_mem (by decide))),
   (Finset.singleton_subset_iff (a := Proc.devRef (τ := τ) .tc main_v461)).mpr (List.mem_toFinset.mpr (List.mem_map_of_mem (by decide))),
   (Finset.singleton_subset_iff (a := Proc.devRef (τ := τ) .tc main_v462)).mpr (List.mem_toFinset.mpr (List.mem_map_of_mem (by decide))),
   (Finset.singleton_subset_iff (a := Proc.devRef (τ := τ) .tc main_cst_60)).mpr (List.mem_toFinset.mpr (List.mem_map_of_mem (by decide))),
   (Finset.singleton_subset_iff (a := Proc.devRef (τ := τ) .tc main_v463)).mpr (List.mem_toFinset.mpr (List.mem_map_of_mem (by decide))),
   (Finset.singleton_subset_iff (a := Proc.devRef (τ := τ) .tc main_cst_61)).mpr (List.mem_toFinset.mpr (List.mem_map_of_mem (by decide))),
   (Finset.singleton_subset_iff (a := Proc.devRef (τ := τ) .tc main_v464)).mpr (List.mem_toFinset.mpr (List.mem_map_of_mem (by decide))),
   (Finset.singleton_subset_iff (a := Proc.devRef (τ := τ) .tc main_v465)).mpr (List.mem_toFinset.mpr (List.mem_map_of_mem (by decide))),
   (Finset.singleton_subset_iff (a := Proc.devRef (τ := τ) .tc main_c_62)).mpr (List.mem_toFinset.mpr (List.mem_map_of_mem (by decide))),
   (Finset.singleton_subset_iff (a := Proc.devRef (τ := τ) .tc main_call20_cst)).mpr (List.mem_toFinset.mpr (List.mem_map_of_mem (by decide))),
   (Finset.singleton_subset_iff (a := Proc.devRef (τ := τ) .tc main_call20_v0)).mpr (List.mem_toFinset.mpr (List.mem_map_of_mem (by decide))),
   (Finset.singleton_subset_iff (a := Proc.devRef (τ := τ) .tc main_call20_v1)).mpr (List.mem_toFinset.mpr (List.mem_map_of_mem (by decide))),
   (Finset.singleton_subset_iff (a := Proc.devRef (τ := τ) .tc main_call20_cst_0)).mpr (List.mem_toFinset.mpr (List.mem_map_of_mem (by decide))),
   (Finset.singleton_subset_iff (a := Proc.devRef (τ := τ) .tc main_call20_v2)).mpr (List.mem_toFinset.mpr (List.mem_map_of_mem (by decide))),
   (Finset.singleton_subset_iff (a := Proc.devRef (τ := τ) .tc main_call20_v3)).mpr (List.mem_toFinset.mpr (List.mem_map_of_mem (by decide))),
   (Finset.singleton_subset_iff (a := Proc.devRef (τ := τ) .tc main_call20_v4)).mpr (List.mem_toFinset.mpr (List.mem_map_of_mem (by decide))),
   (Finset.singleton_subset_iff (a := Proc.devRef (τ := τ) .tc main_call20_v5)).mpr (List.mem_toFinset.mpr (List.mem_map_of_mem (by decide))),
   (Finset.singleton_subset_iff (a := Proc.devRef (τ := τ) .tc main_call20_v6)).mpr (List.mem_toFinset.mpr (List.mem_map_of_mem (by decide))),
   (Finset.singleton_subset_iff (a := Proc.devRef (τ := τ) .tc main_call20_v7)).mpr (List.mem_toFinset.mpr (List.mem_map_of_mem (by decide))),
   (Finset.singleton_subset_iff (a := Proc.devRef (τ := τ) .tc main_call20_cst_1)).mpr (List.mem_toFinset.mpr (List.mem_map_of_mem (by decide))),
   (Finset.singleton_subset_iff (a := Proc.devRef (τ := τ) .tc main_call20_v8)).mpr (List.mem_toFinset.mpr (List.mem_map_of_mem (by decide))),
   (Finset.singleton_subset_iff (a := Proc.devRef (τ := τ) .tc main_call20_cst_2)).mpr (List.mem_toFinset.mpr (List.mem_map_of_mem (by decide))),
   (Finset.singleton_subset_iff (a := Proc.devRef (τ := τ) .tc main_call20_v9)).mpr (List.mem_toFinset.mpr (List.mem_map_of_mem (by decide))),
   (Finset.singleton_subset_iff (a := Proc.devRef (τ := τ) .tc main_call20_v10)).mpr (List.mem_toFinset.mpr (List.mem_map_of_mem (by decide))),
   (Finset.singleton_subset_iff (a := Proc.devRef (τ := τ) .tc main_call20_v11)).mpr (List.mem_toFinset.mpr (List.mem_map_of_mem (by decide))),
   (Finset.singleton_subset_iff (a := Proc.devRef (τ := τ) .tc main_call20_cst_3)).mpr (List.mem_toFinset.mpr (List.mem_map_of_mem (by decide))),
   (Finset.singleton_subset_iff (a := Proc.devRef (τ := τ) .tc main_call20_v12)).mpr (List.mem_toFinset.mpr (List.mem_map_of_mem (by decide))),
   (Finset.singleton_subset_iff (a := Proc.devRef (τ := τ) .tc main_call20_cst_4)).mpr (List.mem_toFinset.mpr (List.mem_map_of_mem (by decide))),
   (Finset.singleton_subset_iff (a := Proc.devRef (τ := τ) .tc main_call20_call0_v0)).mpr (List.mem_toFinset.mpr (List.mem_map_of_mem (by decide))),
   (Finset.singleton_subset_iff (a := Proc.devRef (τ := τ) .tc main_call20_call0_v1)).mpr (List.mem_toFinset.mpr (List.mem_map_of_mem (by decide))),
   (Finset.singleton_subset_iff (a := Proc.devRef (τ := τ) .tc main_v466)).mpr (List.mem_toFinset.mpr (List.mem_map_of_mem (by decide))),
   (Finset.singleton_subset_iff (a := Proc.devRef (τ := τ) .tc main_v467)).mpr (List.mem_toFinset.mpr (List.mem_map_of_mem (by decide))),
   (Finset.singleton_subset_iff (a := Proc.devRef (τ := τ) .tc main_v468)).mpr (List.mem_toFinset.mpr (List.mem_map_of_mem (by decide))),
   (Finset.singleton_subset_iff (a := Proc.devRef (τ := τ) .tc main_v469)).mpr (List.mem_toFinset.mpr (List.mem_map_of_mem (by decide))),
   (Finset.singleton_subset_iff (a := Proc.devRef (τ := τ) .tc main_cst_63)).mpr (List.mem_toFinset.mpr (List.mem_map_of_mem (by decide))),
   (Finset.singleton_subset_iff (a := Proc.devRef (τ := τ) .tc main_v470)).mpr (List.mem_toFinset.mpr (List.mem_map_of_mem (by decide))),
   (Finset.singleton_subset_iff (a := Proc.devRef (τ := τ) .tc main_v471)).mpr (List.mem_toFinset.mpr (List.mem_map_of_mem (by decide))),
   (Finset.singleton_subset_iff (a := Proc.devRef (τ := τ) .tc main_v472)).mpr (List.mem_toFinset.mpr (List.mem_map_of_mem (by decide))),
   (Finset.singleton_subset_iff (a := Proc.devRef (τ := τ) .tc main_v473)).mpr (List.mem_toFinset.mpr (List.mem_map_of_mem (by decide)))⟩

/-- A reference the window does not write keeps its contents through it. -/
theorem ops8_keep (V : Valuation τ sig (Elt F)) (r : Ref sig .tc) (h : r ∉ ops8_W) :
    after ops8 V (Proc.devRef .tc r) = V (Proc.devRef .tc r) :=
  after_of_writes_sub ops8 V ops8_writes h

end Cert.ReferenceIdeal.Hand

end
-- ==== Proof.Ref.Ops9.lean ====
import proofs.«414290_j6631429505478_3_alg».proof.Proof.Gen.ReferenceIdeal
import Idealize.ShloMosaic.Lib.StableHlo.Run
import Idealize.ShloMosaic.Lib.Pipeline.Frame

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
set_option maxRecDepth 8192 in
/-- The 85 operations of window 9 of @main, in order, a called function's operations in its call's place. -/
abbrev ops9 : List (HloOp τ sig (Elt F)) :=
  [ StableHlo.unary main_v473 main_v474 (broadcastInDim S50000x128 ![0, 1] bcast_S1x128_S50000x128_0_1 : (⟨S1x128, .f32⟩ : BufTy).Contents (Elt F) → (⟨S50000x128, .f32⟩ : BufTy).Contents (Elt F)),
    StableHlo.binary main_v469 main_v474 main_v475 (mulf : (⟨S50000x128, .f32⟩ : BufTy).Contents (Elt F) → (⟨S50000x128, .f32⟩ : BufTy).Contents (Elt F) → (⟨S50000x128, .f32⟩ : BufTy).Contents (Elt F)),
    StableHlo.unary main_v460 main_v476 (broadcastInDim S1x128 ![1] bcast_S128_S1x128_1 : (⟨S128, .f32⟩ : BufTy).Contents (Elt F) → (⟨S1x128, .f32⟩ : BufTy).Contents (Elt F)),
    StableHlo.unary main_v476 main_v477 (broadcastInDim S50000x128 ![0, 1] bcast_S1x128_S50000x128_0_1 : (⟨S1x128, .f32⟩ : BufTy).Contents (Elt F) → (⟨S50000x128, .f32⟩ : BufTy).Contents (Elt F)),
    StableHlo.binary main_v475 main_v477 main_v478 (mulf : (⟨S50000x128, .f32⟩ : BufTy).Contents (Elt F) → (⟨S50000x128, .f32⟩ : BufTy).Contents (Elt F) → (⟨S50000x128, .f32⟩ : BufTy).Contents (Elt F)),
    StableHlo.unary main_v462 main_v479 (broadcastInDim S1x128 ![1] bcast_S128_S1x128_1 : (⟨S128, .f32⟩ : BufTy).Contents (Elt F) → (⟨S1x128, .f32⟩ : BufTy).Contents (Elt F)),
    StableHlo.unary main_v479 main_v480 (broadcastInDim S50000x128 ![0, 1] bcast_S1x128_S50000x128_0_1 : (⟨S1x128, .f32⟩ : BufTy).Contents (Elt F) → (⟨S50000x128, .f32⟩ : BufTy).Contents (Elt F)),
    StableHlo.binary main_v478 main_v480 main_v481 (addf : (⟨S50000x128, .f32⟩ : BufTy).Contents (Elt F) → (⟨S50000x128, .f32⟩ : BufTy).Contents (Elt F) → (⟨S50000x128, .f32⟩ : BufTy).Contents (Elt F)),
    StableHlo.TRef.nullary main_call21.cst (constant S_ .f32 0x00000000#32),
    StableHlo.TRef.unary main_call21.cst main_call21.v0 (broadcastInDim S50000x128 ![] bcast_S_S50000x128),
    StableHlo.TRef.binary (.of main_v481 : StableHlo.TRef sig ⟨S50000x128, .f32⟩) main_call21.v0 main_call21.v1 maximumf,
    StableHlo.unary main_arg3 main_v483 ((extractStridedSlice S1x1 ![3, 1] · slices_S6x3_S1x1_3_1) : (⟨S6x3, .f32⟩ : BufTy).Contents (Elt F) → (⟨S1x1, .f32⟩ : BufTy).Contents (Elt F)),
    StableHlo.reshape main_v483 main_v484 rfl shapeCasts_S1x1_S_,
    StableHlo.unary main_v484 main_v485 (broadcastInDim S50000x128 ![] bcast_S_S50000x128 : (⟨S_, .f32⟩ : BufTy).Contents (Elt F) → (⟨S50000x128, .f32⟩ : BufTy).Contents (Elt F)),
    StableHlo.binary main_v485 main_v482 main_v486 (mulf : (⟨S50000x128, .f32⟩ : BufTy).Contents (Elt F) → (⟨S50000x128, .f32⟩ : BufTy).Contents (Elt F) → (⟨S50000x128, .f32⟩ : BufTy).Contents (Elt F)),
    StableHlo.binary main_v449 main_v486 main_v487 (addf : (⟨S50000x128, .f32⟩ : BufTy).Contents (Elt F) → (⟨S50000x128, .f32⟩ : BufTy).Contents (Elt F) → (⟨S50000x128, .f32⟩ : BufTy).Contents (Elt F)),
    StableHlo.unary main_arg4 main_v488 ((extractStridedSlice S1x1x128x128 ![3, 2, 0, 0] · slices_S6x3x128x128_S1x1x128x128_3_2_0_0) : (⟨S6x3x128x128, .f32⟩ : BufTy).Contents (Elt F) → (⟨S1x1x128x128, .f32⟩ : BufTy).Contents (Elt F)),
    StableHlo.reshape main_v488 main_v489 rfl shapeCasts_S1x1x128x128_S128x128,
    StableHlo.unary main_v489 main_v490 ((transpose S128x128 [1, 0] · transposes_S128x128_S128x128_1_0) : (⟨S128x128, .f32⟩ : BufTy).Contents (Elt F) → (⟨S128x128, .f32⟩ : BufTy).Contents (Elt F)),
    StableHlo.binary main_arg2 main_v490 main_v491 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg5 main_v492 ((extractStridedSlice S1x1x128 ![3, 2, 0] · slices_S6x3x128_S1x1x128_3_2_0) : (⟨S6x3x128, .f32⟩ : BufTy).Contents (Elt F) → (⟨S1x1x128, .f32⟩ : BufTy).Contents (Elt F)),
    StableHlo.reshape main_v492 main_v493 rfl shapeCasts_S1x1x128_S128,
    StableHlo.unary main_v493 main_v494 (broadcastInDim S1x128 ![1] bcast_S128_S1x128_1 : (⟨S128, .f32⟩ : BufTy).Contents (Elt F) → (⟨S1x128, .f32⟩ : BufTy).Contents (Elt F)),
    StableHlo.unary main_v494 main_v495 (broadcastInDim S50000x128 ![0, 1] bcast_S1x128_S50000x128_0_1 : (⟨S1x128, .f32⟩ : BufTy).Contents (Elt F) → (⟨S50000x128, .f32⟩ : BufTy).Contents (Elt F)),
    StableHlo.binary main_v491 main_v495 main_v496 (addf : (⟨S50000x128, .f32⟩ : BufTy).Contents (Elt F) → (⟨S50000x128, .f32⟩ : BufTy).Contents (Elt F) → (⟨S50000x128, .f32⟩ : BufTy).Contents (Elt F)),
    StableHlo.unary main_arg6 main_v497 ((extractStridedSlice S1x1x128 ![3, 2, 0] · slices_S6x3x128_S1x1x128_3_2_0) : (⟨S6x3x128, .f32⟩ : BufTy).Contents (Elt F) → (⟨S1x1x128, .f32⟩ : BufTy).Contents (Elt F)),
    StableHlo.reshape main_v497 main_v498 rfl shapeCasts_S1x1x128_S128,
    StableHlo.unary main_arg7 main_v499 ((extractStridedSlice S1x1x128 ![3, 2, 0] · slices_S6x3x128_S1x1x128_3_2_0) : (⟨S6x3x128, .f32⟩ : BufTy).Contents (Elt F) → (⟨S1x1x128, .f32⟩ : BufTy).Contents (Elt F)),
    StableHlo.reshape main_v499 main_v500 rfl shapeCasts_S1x1x128_S128,
    StableHlo.nullary main_cst_64 (constant S_ .f32 0x00000000#32),
    StableHlo.binary main_v496 main_cst_64 main_v501 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_65 (constant S_ .f32 0x47435000#32),
    StableHlo.unary main_cst_65 main_v502 (broadcastInDim S128 ![] bcast_S_S128 : (⟨S_, .f32⟩ : BufTy).Contents (Elt F) → (⟨S128, .f32⟩ : BufTy).Contents (Elt F)),
    StableHlo.binary main_v501 main_v502 main_v503 (Host.divf : (⟨S128, .f32⟩ : BufTy).Contents (Elt F) → (⟨S128, .f32⟩ : BufTy).Contents (Elt F) → (⟨S128, .f32⟩ : BufTy).Contents (Elt F)),
    StableHlo.nullary main_c_66 (constantI S_ 32 0#32),
    StableHlo.TRef.nullary main_call22.cst (constant S_ .f32 0x00000000#32),
    StableHlo.TRef.binary (.of main_v496 : StableHlo.TRef sig ⟨S50000x128, .f32⟩) main_call22.cst main_call22.v0 (fun x v => Host.reduceAdd x v reducesTo_S50000x128_S128_d0 h_S_),
    StableHlo.TRef.unary main_call22.v0 main_call22.v1 (broadcastInDim S1x128 ![1] bcast_S128_S1x128_1),
    StableHlo.TRef.nullary main_call22.cst_0 (constant S_ .f32 0x47435000#32),
    StableHlo.TRef.unary main_call22.cst_0 main_call22.v2 (broadcastInDim S1x128 ![] bcast_S_S1x128),
    StableHlo.TRef.binary main_call22.v1 main_call22.v2 main_call22.v3 Host.divf,
    StableHlo.TRef.unary main_call22.v3 main_call22.v4 (broadcastInDim S50000x128 ![0, 1] bcast_S1x128_S50000x128_0_1),
    StableHlo.TRef.binary (.of main_v496 : StableHlo.TRef sig ⟨S50000x128, .f32⟩) main_call22.v4 main_call22.v5 subf,
    StableHlo.TRef.binary main_call22.v5 main_call22.v5 main_call22.v6 mulf,
    StableHlo.TRef.unary (.of main_c_66 : StableHlo.TRef sig ⟨S_, .i32⟩) main_call22.v7 (sitofp .f32),
    StableHlo.TRef.nullary main_call22.cst_1 (constant S_ .f32 0x47435000#32),
    StableHlo.TRef.binary main_call22.cst_1 main_call22.v7 main_call22.v8 subf,
    StableHlo.TRef.nullary main_call22.cst_2 (constant S_ .f32 0x00000000#32),
    StableHlo.TRef.binary main_call22.v6 main_call22.cst_2 main_call22.v9 (fun x v => Host.reduceAdd x v reducesTo_S50000x128_S128_d0 h_S_),
    StableHlo.TRef.unary main_call22.v8 main_call22.v10 (broadcastInDim S128 ![] bcast_S_S128),
    StableHlo.TRef.binary main_call22.v9 main_call22.v10 main_call22.v11 Host.divf,
    StableHlo.TRef.nullary main_call22.cst_3 (constant S_ .f32 0x00000000#32),
    StableHlo.TRef.binary main_call22.v8 main_call22.cst_3 main_call22.v12 (cmpf .ogt),
    StableHlo.TRef.nullary main_call22.cst_4 (constant S_ .f32 0x7FC00000#32),
    StableHlo.TRef.unary main_call22.cst_4 main_call22.call0.v0 id,
    StableHlo.TRef.unary main_call22.call0.v0 main_call22.call0.v1 (broadcastInDim S128 ![] bcast_S_S128),
    StableHlo.TRef.ternary main_call22.v12 main_call22.v11 main_call22.call0.v1 main_call22.call0.v2 (fun p a b => select (broadcastInDim S128 ![] bcast_S_S128 p) a b),
    StableHlo.unary main_v503 main_v505 (broadcastInDim S1x128 ![1] bcast_S128_S1x128_1 : (⟨S128, .f32⟩ : BufTy).Contents (Elt F) → (⟨S1x128, .f32⟩ : BufTy).Contents (Elt F)),
    StableHlo.unary main_v505 main_v506 (broadcastInDim S50000x128 ![0, 1] bcast_S1x128_S50000x128_0_1 : (⟨S1x128, .f32⟩ : BufTy).Contents (Elt F) → (⟨S50000x128, .f32⟩ : BufTy).Contents (Elt F)),
    StableHlo.binary main_v496 main_v506 main_v507 (subf : (⟨S50000x128, .f32⟩ : BufTy).Contents (Elt F) → (⟨S50000x128, .f32⟩ : BufTy).Contents (Elt F) → (⟨S50000x128, .f32⟩ : BufTy).Contents (Elt F)),
    StableHlo.nullary main_cst_67 (constant S_ .f32 0x3727C5AC#32),
    StableHlo.unary main_cst_67 main_v508 (broadcastInDim S128 ![] bcast_S_S128 : (⟨S_, .f32⟩ : BufTy).Contents (Elt F) → (⟨S128, .f32⟩ : BufTy).Contents (Elt F)),
    StableHlo.binary main_v504 main_v508 main_v509 (addf : (⟨S128, .f32⟩ : BufTy).Contents (Elt F) → (⟨S128, .f32⟩ : BufTy).Contents (Elt F) → (⟨S128, .f32⟩ : BufTy).Contents (Elt F)),
    StableHlo.unary main_v509 main_v510 (Host.rsqrt : (⟨S128, .f32⟩ : BufTy).Contents (Elt F) → (⟨S128, .f32⟩ : BufTy).Contents (Elt F)),
    StableHlo.unary main_v510 main_v511 (broadcastInDim S1x128 ![1] bcast_S128_S1x128_1 : (⟨S128, .f32⟩ : BufTy).Contents (Elt F) → (⟨S1x128, .f32⟩ : BufTy).Contents (Elt F)),
    StableHlo.unary main_v511 main_v512 (broadcastInDim S50000x128 ![0, 1] bcast_S1x128_S50000x128_0_1 : (⟨S1x128, .f32⟩ : BufTy).Contents (Elt F) → (⟨S50000x128, .f32⟩ : BufTy).Contents (Elt F)),
    StableHlo.binary main_v507 main_v512 main_v513 (mulf : (⟨S50000x128, .f32⟩ : BufTy).Contents (Elt F) → (⟨S50000x128, .f32⟩ : BufTy).Contents (Elt F) → (⟨S50000x128, .f32⟩ : BufTy).Contents (Elt F)),
    StableHlo.unary main_v498 main_v514 (broadcastInDim S1x128 ![1] bcast_S128_S1x128_1 : (⟨S128, .f32⟩ : BufTy).Contents (Elt F) → (⟨S1x128, .f32⟩ : BufTy).Contents (Elt F)),
    StableHlo.unary main_v514 main_v515 (broadcastInDim S50000x128 ![0, 1] bcast_S1x128_S50000x128_0_1 : (⟨S1x128, .f32⟩ : BufTy).Contents (Elt F) → (⟨S50000x128, .f32⟩ : BufTy).Contents (Elt F)),
    StableHlo.binary main_v513 main_v515 main_v516 (mulf : (⟨S50000x128, .f32⟩ : BufTy).Contents (Elt F) → (⟨S50000x128, .f32⟩ : BufTy).Contents (Elt F) → (⟨S50000x128, .f32⟩ : BufTy).Contents (Elt F)),
    StableHlo.unary main_v500 main_v517 (broadcastInDim S1x128 ![1] bcast_S128_S1x128_1 : (⟨S128, .f32⟩ : BufTy).Contents (Elt F) → (⟨S1x128, .f32⟩ : BufTy).Contents (Elt F)),
    StableHlo.unary main_v517 main_v518 (broadcastInDim S50000x128 ![0, 1] bcast_S1x128_S50000x128_0_1 : (⟨S1x128, .f32⟩ : BufTy).Contents (Elt F) → (⟨S50000x128, .f32⟩ : BufTy).Contents (Elt F)),
    StableHlo.binary main_v516 main_v518 main_v519 (addf : (⟨S50000x128, .f32⟩ : BufTy).Contents (Elt F) → (⟨S50000x128, .f32⟩ : BufTy).Contents (Elt F) → (⟨S50000x128, .f32⟩ : BufTy).Contents (Elt F)),
    StableHlo.TRef.nullary main_call23.cst (constant S_ .f32 0x00000000#32),
    StableHlo.TRef.unary main_call23.cst main_call23.v0 (broadcastInDim S50000x128 ![] bcast_S_S50000x128),
    StableHlo.TRef.binary (.of main_v519 : StableHlo.TRef sig ⟨S50000x128, .f32⟩) main_call23.v0 main_call23.v1 maximumf,
    StableHlo.unary main_arg3 main_v521 ((extractStridedSlice S1x1 ![3, 2] · slices_S6x3_S1x1_3_2) : (⟨S6x3, .f32⟩ : BufTy).Contents (Elt F) → (⟨S1x1, .f32⟩ : BufTy).Contents (Elt F)),
    StableHlo.reshape main_v521 main_v522 rfl shapeCasts_S1x1_S_,
    StableHlo.unary main_v522 main_v523 (broadcastInDim S50000x128 ![] bcast_S_S50000x128 : (⟨S_, .f32⟩ : BufTy).Contents (Elt F) → (⟨S50000x128, .f32⟩ : BufTy).Contents (Elt F)),
    StableHlo.binary main_v523 main_v520 main_v524 (mulf : (⟨S50000x128, .f32⟩ : BufTy).Contents (Elt F) → (⟨S50000x128, .f32⟩ : BufTy).Contents (Elt F) → (⟨S50000x128, .f32⟩ : BufTy).Contents (Elt F)),
    StableHlo.binary main_v487 main_v524 main_v525 (addf : (⟨S50000x128, .f32⟩ : BufTy).Contents (Elt F) → (⟨S50000x128, .f32⟩ : BufTy).Contents (Elt F) → (⟨S50000x128, .f32⟩ : BufTy).Contents (Elt F)),
    StableHlo.nullary main_cst_68 (constant S_ .f32 0x00000000#32),
    StableHlo.unary main_cst_68 main_v526 (broadcastInDim S50000x128 ![] bcast_S_S50000x128 : (⟨S_, .f32⟩ : BufTy).Contents (Elt F) → (⟨S50000x128, .f32⟩ : BufTy).Contents (Elt F)),
    StableHlo.binary main_v526 main_v525 main_v527 (addf : (⟨S50000x128, .f32⟩ : BufTy).Contents (Elt F) → (⟨S50000x128, .f32⟩ : BufTy).Contents (Elt F) → (⟨S50000x128, .f32⟩ : BufTy).Contents (Elt F)),
    StableHlo.nullary main_c_69 (constantI S_ 32 0#32) ]

set_option maxHeartbeats 40000000 in
set_option maxRecDepth 8192 in
/-- Window 9 is the straight line of its operations. -/
theorem main_part9_eq (c : Dev nD) : main_part9 (F := F) c = seq ops9 := by
  chain_rfl

set_option maxHeartbeats 40000000 in
set_option maxRecDepth 8192 in
/-- Each operation touches TensorCore references only. -/
theorem ops9_sub : (ops9 : List (HloOp τ sig (Elt F))).Forall fun op => op.bufs ⊆ tcRefs τ sig :=
  ⟨StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.unary_bufs_sub .., StableHlo.binary_bufs_sub .., StableHlo.binary_bufs_sub .., StableHlo.unary_bufs_sub .., StableHlo.reshape_bufs_sub .., StableHlo.unary_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub ..⟩

set_option maxHeartbeats 40000000 in
set_option maxRecDepth 8192 in
/-- Each operation determines what it writes. -/
theorem ops9_fresh : (ops9 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references the window's operations write, in order. -/
abbrev ops9_W : List (Ref sig .tc) :=
  [main_v474, main_v475, main_v476, main_v477, main_v478, main_v479, main_v480, main_v481, main_call21_cst, main_call21_v0, main_v482, main_v483, main_v484, main_v485, main_v486, main_v487, main_v488, main_v489, main_v490, main_v491, main_v492, main_v493, main_v494, main_v495, main_v496, main_v497, main_v498, main_v499, main_v500, main_cst_64, main_v501, main_cst_65, main_v502, main_v503, main_c_66, main_call22_cst, main_call22_v0, main_call22_v1, main_call22_cst_0, main_call22_v2, main_call22_v3, main_call22_v4, main_call22_v5, main_call22_v6, main_call22_v7, main_call22_cst_1, main_call22_v8, main_call22_cst_2, main_call22_v9, main_call22_v10, main_call22_v11, main_call22_cst_3, main_call22_v12, main_call22_cst_4, main_call22_call0_v0, main_call22_call0_v1, main_v504, main_v505, main_v506, main_v507, main_cst_67, main_v508, main_v509, main_v510, main_v511, main_v512, main_v513, main_v514, main_v515, main_v516, main_v517, main_v518, main_v519, main_call23_cst, main_call23_v0, main_v520, main_v521, main_v522, main_v523, main_v524, main_v525, main_cst_68, main_v526, main_v527, main_c_69]

set_option maxHeartbeats 40000000 in
set_option maxRecDepth 8192 in
/-- Each operation writes its own result reference, the one listed at its place. -/
theorem ops9_writes : (ops9 : List (HloOp τ sig (Elt F))).Forall fun op => op.writes ⊆ (ops9_W.map (Proc.devRef (τ := τ) .tc)).toFinset :=
  ⟨(Finset.singleton_subset_iff (a := Proc.devRef (τ := τ) .tc main_v474)).mpr (List.mem_toFinset.mpr (List.mem_map_of_mem (by decide))),
   (Finset.singleton_subset_iff (a := Proc.devRef (τ := τ) .tc main_v475)).mpr (List.mem_toFinset.mpr (List.mem_map_of_mem (by decide))),
   (Finset.singleton_subset_iff (a := Proc.devRef (τ := τ) .tc main_v476)).mpr (List.mem_toFinset.mpr (List.mem_map_of_mem (by decide))),
   (Finset.singleton_subset_iff (a := Proc.devRef (τ := τ) .tc main_v477)).mpr (List.mem_toFinset.mpr (List.mem_map_of_mem (by decide))),
   (Finset.singleton_subset_iff (a := Proc.devRef (τ := τ) .tc main_v478)).mpr (List.mem_toFinset.mpr (List.mem_map_of_mem (by decide))),
   (Finset.singleton_subset_iff (a := Proc.devRef (τ := τ) .tc main_v479)).mpr (List.mem_toFinset.mpr (List.mem_map_of_mem (by decide))),
   (Finset.singleton_subset_iff (a := Proc.devRef (τ := τ) .tc main_v480)).mpr (List.mem_toFinset.mpr (List.mem_map_of_mem (by decide))),
   (Finset.singleton_subset_iff (a := Proc.devRef (τ := τ) .tc main_v481)).mpr (List.mem_toFinset.mpr (List.mem_map_of_mem (by decide))),
   (Finset.singleton_subset_iff (a := Proc.devRef (τ := τ) .tc main_call21_cst)).mpr (List.mem_toFinset.mpr (List.mem_map_of_mem (by decide))),
   (Finset.singleton_subset_iff (a := Proc.devRef (τ := τ) .tc main_call21_v0)).mpr (List.mem_toFinset.mpr (List.mem_map_of_mem (by decide))),
   (Finset.singleton_subset_iff (a := Proc.devRef (τ := τ) .tc main_v482)).mpr (List.mem_toFinset.mpr (List.mem_map_of_mem (by decide))),
   (Finset.singleton_subset_iff (a := Proc.devRef (τ := τ) .tc main_v483)).mpr (List.mem_toFinset.mpr (List.mem_map_of_mem (by decide))),
   (Finset.singleton_subset_iff (a := Proc.devRef (τ := τ) .tc main_v484)).mpr (List.mem_toFinset.mpr (List.mem_map_of_mem (by decide))),
   (Finset.singleton_subset_iff (a := Proc.devRef (τ := τ) .tc main_v485)).mpr (List.mem_toFinset.mpr (List.mem_map_of_mem (by decide))),
   (Finset.singleton_subset_iff (a := Proc.devRef (τ := τ) .tc main_v486)).mpr (List.mem_toFinset.mpr (List.mem_map_of_mem (by decide))),
   (Finset.singleton_subset_iff (a := Proc.devRef (τ := τ) .tc main_v487)).mpr (List.mem_toFinset.mpr (List.mem_map_of_mem (by decide))),
   (Finset.singleton_subset_iff (a := Proc.devRef (τ := τ) .tc main_v488)).mpr (List.mem_toFinset.mpr (List.mem_map_of_mem (by decide))),
   (Finset.singleton_subset_iff (a := Proc.devRef (τ := τ) .tc main_v489)).mpr (List.mem_toFinset.mpr (List.mem_map_of_mem (by decide))),
   (Finset.singleton_subset_iff (a := Proc.devRef (τ := τ) .tc main_v490)).mpr (List.mem_toFinset.mpr (List.mem_map_of_mem (by decide))),
   (Finset.singleton_subset_iff (a := Proc.devRef (τ := τ) .tc main_v491)).mpr (List.mem_toFinset.mpr (List.mem_map_of_mem (by decide))),
   (Finset.singleton_subset_iff (a := Proc.devRef (τ := τ) .tc main_v492)).mpr (List.mem_toFinset.mpr (List.mem_map_of_mem (by decide))),
   (Finset.singleton_subset_iff (a := Proc.devRef (τ := τ) .tc main_v493)).mpr (List.mem_toFinset.mpr (List.mem_map_of_mem (by decide))),
   (Finset.singleton_subset_iff (a := Proc.devRef (τ := τ) .tc main_v494)).mpr (List.mem_toFinset.mpr (List.mem_map_of_mem (by decide))),
   (Finset.singleton_subset_iff (a := Proc.devRef (τ := τ) .tc main_v495)).mpr (List.mem_toFinset.mpr (List.mem_map_of_mem (by decide))),
   (Finset.singleton_subset_iff (a := Proc.devRef (τ := τ) .tc main_v496)).mpr (List.mem_toFinset.mpr (List.mem_map_of_mem (by decide))),
   (Finset.singleton_subset_iff (a := Proc.devRef (τ := τ) .tc main_v497)).mpr (List.mem_toFinset.mpr (List.mem_map_of_mem (by decide))),
   (Finset.singleton_subset_iff (a := Proc.devRef (τ := τ) .tc main_v498)).mpr (List.mem_toFinset.mpr (List.mem_map_of_mem (by decide))),
   (Finset.singleton_subset_iff (a := Proc.devRef (τ := τ) .tc main_v499)).mpr (List.mem_toFinset.mpr (List.mem_map_of_mem (by decide))),
   (Finset.singleton_subset_iff (a := Proc.devRef (τ := τ) .tc main_v500)).mpr (List.mem_toFinset.mpr (List.mem_map_of_mem (by decide))),
   (Finset.singleton_subset_iff (a := Proc.devRef (τ := τ) .tc main_cst_64)).mpr (List.mem_toFinset.mpr (List.mem_map_of_mem (by decide))),
   (Finset.singleton_subset_iff (a := Proc.devRef (τ := τ) .tc main_v501)).mpr (List.mem_toFinset.mpr (List.mem_map_of_mem (by decide))),
   (Finset.singleton_subset_iff (a := Proc.devRef (τ := τ) .tc main_cst_65)).mpr (List.mem_toFinset.mpr (List.mem_map_of_mem (by decide))),
   (Finset.singleton_subset_iff (a := Proc.devRef (τ := τ) .tc main_v502)).mpr (List.mem_toFinset.mpr (List.mem_map_of_mem (by decide))),
   (Finset.singleton_subset_iff (a := Proc.devRef (τ := τ) .tc main_v503)).mpr (List.mem_toFinset.mpr (List.mem_map_of_mem (by decide))),
   (Finset.singleton_subset_iff (a := Proc.devRef (τ := τ) .tc main_c_66)).mpr (List.mem_toFinset.mpr (List.mem_map_of_mem (by decide))),
   (Finset.singleton_subset_iff (a := Proc.devRef (τ := τ) .tc main_call22_cst)).mpr (List.mem_toFinset.mpr (List.mem_map_of_mem (by decide))),
   (Finset.singleton_subset_iff (a := Proc.devRef (τ := τ) .tc main_call22_v0)).mpr (List.mem_toFinset.mpr (List.mem_map_of_mem (by decide))),
   (Finset.singleton_subset_iff (a := Proc.devRef (τ := τ) .tc main_call22_v1)).mpr (List.mem_toFinset.mpr (List.mem_map_of_mem (by decide))),
   (Finset.singleton_subset_iff (a := Proc.devRef (τ := τ) .tc main_call22_cst_0)).mpr (List.mem_toFinset.mpr (List.mem_map_of_mem (by decide))),
   (Finset.singleton_subset_iff (a := Proc.devRef (τ := τ) .tc main_call22_v2)).mpr (List.mem_toFinset.mpr (List.mem_map_of_mem (by decide))),
   (Finset.singleton_subset_iff (a := Proc.devRef (τ := τ) .tc main_call22_v3)).mpr (List.mem_toFinset.mpr (List.mem_map_of_mem (by decide))),
   (Finset.singleton_subset_iff (a := Proc.devRef (τ := τ) .tc main_call22_v4)).mpr (List.mem_toFinset.mpr (List.mem_map_of_mem (by decide))),
   (Finset.singleton_subset_iff (a := Proc.devRef (τ := τ) .tc main_call22_v5)).mpr (List.mem_toFinset.mpr (List.mem_map_of_mem (by decide))),
   (Finset.singleton_subset_iff (a := Proc.devRef (τ := τ) .tc main_call22_v6)).mpr (List.mem_toFinset.mpr (List.mem_map_of_mem (by decide))),
   (Finset.singleton_subset_iff (a := Proc.devRef (τ := τ) .tc main_call22_v7)).mpr (List.mem_toFinset.mpr (List.mem_map_of_mem (by decide))),
   (Finset.singleton_subset_iff (a := Proc.devRef (τ := τ) .tc main_call22_cst_1)).mpr (List.mem_toFinset.mpr (List.mem_map_of_mem (by decide))),
   (Finset.singleton_subset_iff (a := Proc.devRef (τ := τ) .tc main_call22_v8)).mpr (List.mem_toFinset.mpr (List.mem_map_of_mem (by decide))),
   (Finset.singleton_subset_iff (a := Proc.devRef (τ := τ) .tc main_call22_cst_2)).mpr (List.mem_toFinset.mpr (List.mem_map_of_mem (by decide))),
   (Finset.singleton_subset_iff (a := Proc.devRef (τ := τ) .tc main_call22_v9)).mpr (List.mem_toFinset.mpr (List.mem_map_of_mem (by decide))),
   (Finset.singleton_subset_iff (a := Proc.devRef (τ := τ) .tc main_call22_v10)).mpr (List.mem_toFinset.mpr (List.mem_map_of_mem (by decide))),
   (Finset.singleton_subset_iff (a := Proc.devRef (τ := τ) .tc main_call22_v11)).mpr (List.mem_toFinset.mpr (List.mem_map_of_mem (by decide))),
   (Finset.singleton_subset_iff (a := Proc.devRef (τ := τ) .tc main_call22_cst_3)).mpr (List.mem_toFinset.mpr (List.mem_map_of_mem (by decide))),
   (Finset.singleton_subset_iff (a := Proc.devRef (τ := τ) .tc main_call22_v12)).mpr (List.mem_toFinset.mpr (List.mem_map_of_mem (by decide))),
   (Finset.singleton_subset_iff (a := Proc.devRef (τ := τ) .tc main_call22_cst_4)).mpr (List.mem_toFinset.mpr (List.mem_map_of_mem (by decide))),
   (Finset.singleton_subset_iff (a := Proc.devRef (τ := τ) .tc main_call22_call0_v0)).mpr (List.mem_toFinset.mpr (List.mem_map_of_mem (by decide))),
   (Finset.singleton_subset_iff (a := Proc.devRef (τ := τ) .tc main_call22_call0_v1)).mpr (List.mem_toFinset.mpr (List.mem_map_of_mem (by decide))),
   (Finset.singleton_subset_iff (a := Proc.devRef (τ := τ) .tc main_v504)).mpr (List.mem_toFinset.mpr (List.mem_map_of_mem (by decide))),
   (Finset.singleton_subset_iff (a := Proc.devRef (τ := τ) .tc main_v505)).mpr (List.mem_toFinset.mpr (List.mem_map_of_mem (by decide))),
   (Finset.singleton_subset_iff (a := Proc.devRef (τ := τ) .tc main_v506)).mpr (List.mem_toFinset.mpr (List.mem_map_of_mem (by decide))),
   (Finset.singleton_subset_iff (a := Proc.devRef (τ := τ) .tc main_v507)).mpr (List.mem_toFinset.mpr (List.mem_map_of_mem (by decide))),
   (Finset.singleton_subset_iff (a := Proc.devRef (τ := τ) .tc main_cst_67)).mpr (List.mem_toFinset.mpr (List.mem_map_of_mem (by decide))),
   (Finset.singleton_subset_iff (a := Proc.devRef (τ := τ) .tc main_v508)).mpr (List.mem_toFinset.mpr (List.mem_map_of_mem (by decide))),
   (Finset.singleton_subset_iff (a := Proc.devRef (τ := τ) .tc main_v509)).mpr (List.mem_toFinset.mpr (List.mem_map_of_mem (by decide))),
   (Finset.singleton_subset_iff (a := Proc.devRef (τ := τ) .tc main_v510)).mpr (List.mem_toFinset.mpr (List.mem_map_of_mem (by decide))),
   (Finset.singleton_subset_iff (a := Proc.devRef (τ := τ) .tc main_v511)).mpr (List.mem_toFinset.mpr (List.mem_map_of_mem (by decide))),
   (Finset.singleton_subset_iff (a := Proc.devRef (τ := τ) .tc main_v512)).mpr (List.mem_toFinset.mpr (List.mem_map_of_mem (by decide))),
   (Finset.singleton_subset_iff (a := Proc.devRef (τ := τ) .tc main_v513)).mpr (List.mem_toFinset.mpr (List.mem_map_of_mem (by decide))),
   (Finset.singleton_subset_iff (a := Proc.devRef (τ := τ) .tc main_v514)).mpr (List.mem_toFinset.mpr (List.mem_map_of_mem (by decide))),
   (Finset.singleton_subset_iff (a := Proc.devRef (τ := τ) .tc main_v515)).mpr (List.mem_toFinset.mpr (List.mem_map_of_mem (by decide))),
   (Finset.singleton_subset_iff (a := Proc.devRef (τ := τ) .tc main_v516)).mpr (List.mem_toFinset.mpr (List.mem_map_of_mem (by decide))),
   (Finset.singleton_subset_iff (a := Proc.devRef (τ := τ) .tc main_v517)).mpr (List.mem_toFinset.mpr (List.mem_map_of_mem (by decide))),
   (Finset.singleton_subset_iff (a := Proc.devRef (τ := τ) .tc main_v518)).mpr (List.mem_toFinset.mpr (List.mem_map_of_mem (by decide))),
   (Finset.singleton_subset_iff (a := Proc.devRef (τ := τ) .tc main_v519)).mpr (List.mem_toFinset.mpr (List.mem_map_of_mem (by decide))),
   (Finset.singleton_subset_iff (a := Proc.devRef (τ := τ) .tc main_call23_cst)).mpr (List.mem_toFinset.mpr (List.mem_map_of_mem (by decide))),
   (Finset.singleton_subset_iff (a := Proc.devRef (τ := τ) .tc main_call23_v0)).mpr (List.mem_toFinset.mpr (List.mem_map_of_mem (by decide))),
   (Finset.singleton_subset_iff (a := Proc.devRef (τ := τ) .tc main_v520)).mpr (List.mem_toFinset.mpr (List.mem_map_of_mem (by decide))),
   (Finset.singleton_subset_iff (a := Proc.devRef (τ := τ) .tc main_v521)).mpr (List.mem_toFinset.mpr (List.mem_map_of_mem (by decide))),
   (Finset.singleton_subset_iff (a := Proc.devRef (τ := τ) .tc main_v522)).mpr (List.mem_toFinset.mpr (List.mem_map_of_mem (by decide))),
   (Finset.singleton_subset_iff (a := Proc.devRef (τ := τ) .tc main_v523)).mpr (List.mem_toFinset.mpr (List.mem_map_of_mem (by decide))),
   (Finset.singleton_subset_iff (a := Proc.devRef (τ := τ) .tc main_v524)).mpr (List.mem_toFinset.mpr (List.mem_map_of_mem (by decide))),
   (Finset.singleton_subset_iff (a := Proc.devRef (τ := τ) .tc main_v525)).mpr (List.mem_toFinset.mpr (List.mem_map_of_mem (by decide))),
   (Finset.singleton_subset_iff (a := Proc.devRef (τ := τ) .tc main_cst_68)).mpr (List.mem_toFinset.mpr (List.mem_map_of_mem (by decide))),
   (Finset.singleton_subset_iff (a := Proc.devRef (τ := τ) .tc main_v526)).mpr (List.mem_toFinset.mpr (List.mem_map_of_mem (by decide))),
   (Finset.singleton_subset_iff (a := Proc.devRef (τ := τ) .tc main_v527)).mpr (List.mem_toFinset.mpr (List.mem_map_of_mem (by decide))),
   (Finset.singleton_subset_iff (a := Proc.devRef (τ := τ) .tc main_c_69)).mpr (List.mem_toFinset.mpr (List.mem_map_of_mem (by decide)))⟩

/-- A reference the window does not write keeps its contents through it. -/
theorem ops9_keep (V : Valuation τ sig (Elt F)) (r : Ref sig .tc) (h : r ∉ ops9_W) :
    after ops9 V (Proc.devRef .tc r) = V (Proc.devRef .tc r) :=
  after_of_writes_sub ops9 V ops9_writes h

end Cert.ReferenceIdeal.Hand

end
-- ==== Proof.Ref.Ops10.lean ====
import proofs.«414290_j6631429505478_3_alg».proof.Proof.Gen.ReferenceIdeal
import Idealize.ShloMosaic.Lib.StableHlo.Run
import Idealize.ShloMosaic.Lib.Pipeline.Frame

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
set_option maxRecDepth 8192 in
/-- The 83 operations of window 10 of @main, in order, a called function's operations in its call's place. -/
abbrev ops10 : List (HloOp τ sig (Elt F)) :=
  [ StableHlo.unary main_c_69 main_v528 (broadcastInDim S800000 ![] bcast_S_S800000 : (⟨S_, .i32⟩ : BufTy).Contents (Elt F) → (⟨S800000, .i32⟩ : BufTy).Contents (Elt F)),
    StableHlo.binary main_v1 main_v528 main_v529 (cmpi .slt : (⟨S800000, .i32⟩ : BufTy).Contents (Elt F) → (⟨S800000, .i32⟩ : BufTy).Contents (Elt F) → (⟨S800000, .i1⟩ : BufTy).Contents (Elt F)),
    StableHlo.nullary main_c_70 (constantI S_ 32 50000#32),
    StableHlo.unary main_c_70 main_v530 (broadcastInDim S800000 ![] bcast_S_S800000 : (⟨S_, .i32⟩ : BufTy).Contents (Elt F) → (⟨S800000, .i32⟩ : BufTy).Contents (Elt F)),
    StableHlo.binary main_v1 main_v530 main_v531 (addi : (⟨S800000, .i32⟩ : BufTy).Contents (Elt F) → (⟨S800000, .i32⟩ : BufTy).Contents (Elt F) → (⟨S800000, .i32⟩ : BufTy).Contents (Elt F)),
    StableHlo.ternary main_v529 main_v531 main_v1 main_v532 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v532 main_v533 (broadcastInDim S800000x1 ![0] bcast_S800000_S800000x1_0 : (⟨S800000, .i32⟩ : BufTy).Contents (Elt F) → (⟨S800000x1, .i32⟩ : BufTy).Contents (Elt F)),
    StableHlo.binary main_v141 main_v533 main_v534 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_71 (constant S_ .f32 0x00000000#32),
    StableHlo.unary main_cst_71 main_v535 (broadcastInDim S50000x128 ![] bcast_S_S50000x128 : (⟨S_, .f32⟩ : BufTy).Contents (Elt F) → (⟨S50000x128, .f32⟩ : BufTy).Contents (Elt F)),
    StableHlo.unary main_v3 main_v536 (broadcastInDim S800000x1 ![0] bcast_S800000_S800000x1_0 : (⟨S800000, .i32⟩ : BufTy).Contents (Elt F) → (⟨S800000x1, .i32⟩ : BufTy).Contents (Elt F)),
    StableHlo.ternary main_v535 main_v536 main_v534 main_v537 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v12 main_v538 (broadcastInDim S50000x128 ![0, 1] bcast_S50000x1_S50000x128_0_1 : (⟨S50000x1, .f32⟩ : BufTy).Contents (Elt F) → (⟨S50000x128, .f32⟩ : BufTy).Contents (Elt F)),
    StableHlo.binary main_v537 main_v538 main_v539 (mulf : (⟨S50000x128, .f32⟩ : BufTy).Contents (Elt F) → (⟨S50000x128, .f32⟩ : BufTy).Contents (Elt F) → (⟨S50000x128, .f32⟩ : BufTy).Contents (Elt F)),
    StableHlo.nullary main_cst_72 (constant S_ .f32 0x00000000#32),
    StableHlo.unary main_cst_72 main_v540 (broadcastInDim S50000x128 ![] bcast_S_S50000x128 : (⟨S_, .f32⟩ : BufTy).Contents (Elt F) → (⟨S50000x128, .f32⟩ : BufTy).Contents (Elt F)),
    StableHlo.unary main_arg4 main_v541 ((extractStridedSlice S1x1x128x128 ![4, 0, 0, 0] · slices_S6x3x128x128_S1x1x128x128_4_0_0_0) : (⟨S6x3x128x128, .f32⟩ : BufTy).Contents (Elt F) → (⟨S1x1x128x128, .f32⟩ : BufTy).Contents (Elt F)),
    StableHlo.reshape main_v541 main_v542 rfl shapeCasts_S1x1x128x128_S128x128,
    StableHlo.unary main_v542 main_v543 ((transpose S128x128 [1, 0] · transposes_S128x128_S128x128_1_0) : (⟨S128x128, .f32⟩ : BufTy).Contents (Elt F) → (⟨S128x128, .f32⟩ : BufTy).Contents (Elt F)),
    StableHlo.binary main_v539 main_v543 main_v544 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg5 main_v545 ((extractStridedSlice S1x1x128 ![4, 0, 0] · slices_S6x3x128_S1x1x128_4_0_0) : (⟨S6x3x128, .f32⟩ : BufTy).Contents (Elt F) → (⟨S1x1x128, .f32⟩ : BufTy).Contents (Elt F)),
    StableHlo.reshape main_v545 main_v546 rfl shapeCasts_S1x1x128_S128,
    StableHlo.unary main_v546 main_v547 (broadcastInDim S1x128 ![1] bcast_S128_S1x128_1 : (⟨S128, .f32⟩ : BufTy).Contents (Elt F) → (⟨S1x128, .f32⟩ : BufTy).Contents (Elt F)),
    StableHlo.unary main_v547 main_v548 (broadcastInDim S50000x128 ![0, 1] bcast_S1x128_S50000x128_0_1 : (⟨S1x128, .f32⟩ : BufTy).Contents (Elt F) → (⟨S50000x128, .f32⟩ : BufTy).Contents (Elt F)),
    StableHlo.binary main_v544 main_v548 main_v549 (addf : (⟨S50000x128, .f32⟩ : BufTy).Contents (Elt F) → (⟨S50000x128, .f32⟩ : BufTy).Contents (Elt F) → (⟨S50000x128, .f32⟩ : BufTy).Contents (Elt F)),
    StableHlo.unary main_arg6 main_v550 ((extractStridedSlice S1x1x128 ![4, 0, 0] · slices_S6x3x128_S1x1x128_4_0_0) : (⟨S6x3x128, .f32⟩ : BufTy).Contents (Elt F) → (⟨S1x1x128, .f32⟩ : BufTy).Contents (Elt F)),
    StableHlo.reshape main_v550 main_v551 rfl shapeCasts_S1x1x128_S128,
    StableHlo.unary main_arg7 main_v552 ((extractStridedSlice S1x1x128 ![4, 0, 0] · slices_S6x3x128_S1x1x128_4_0_0) : (⟨S6x3x128, .f32⟩ : BufTy).Contents (Elt F) → (⟨S1x1x128, .f32⟩ : BufTy).Contents (Elt F)),
    StableHlo.reshape main_v552 main_v553 rfl shapeCasts_S1x1x128_S128,
    StableHlo.nullary main_cst_73 (constant S_ .f32 0x00000000#32),
    StableHlo.binary main_v549 main_cst_73 main_v554 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_74 (constant S_ .f32 0x47435000#32),
    StableHlo.unary main_cst_74 main_v555 (broadcastInDim S128 ![] bcast_S_S128 : (⟨S_, .f32⟩ : BufTy).Contents (Elt F) → (⟨S128, .f32⟩ : BufTy).Contents (Elt F)),
    StableHlo.binary main_v554 main_v555 main_v556 (Host.divf : (⟨S128, .f32⟩ : BufTy).Contents (Elt F) → (⟨S128, .f32⟩ : BufTy).Contents (Elt F) → (⟨S128, .f32⟩ : BufTy).Contents (Elt F)),
    StableHlo.nullary main_c_75 (constantI S_ 32 0#32),
    StableHlo.TRef.nullary main_call24.cst (constant S_ .f32 0x00000000#32),
    StableHlo.TRef.binary (.of main_v549 : StableHlo.TRef sig ⟨S50000x128, .f32⟩) main_call24.cst main_call24.v0 (fun x v => Host.reduceAdd x v reducesTo_S50000x128_S128_d0 h_S_),
    StableHlo.TRef.unary main_call24.v0 main_call24.v1 (broadcastInDim S1x128 ![1] bcast_S128_S1x128_1),
    StableHlo.TRef.nullary main_call24.cst_0 (constant S_ .f32 0x47435000#32),
    StableHlo.TRef.unary main_call24.cst_0 main_call24.v2 (broadcastInDim S1x128 ![] bcast_S_S1x128),
    StableHlo.TRef.binary main_call24.v1 main_call24.v2 main_call24.v3 Host.divf,
    StableHlo.TRef.unary main_call24.v3 main_call24.v4 (broadcastInDim S50000x128 ![0, 1] bcast_S1x128_S50000x128_0_1),
    StableHlo.TRef.binary (.of main_v549 : StableHlo.TRef sig ⟨S50000x128, .f32⟩) main_call24.v4 main_call24.v5 subf,
    StableHlo.TRef.binary main_call24.v5 main_call24.v5 main_call24.v6 mulf,
    StableHlo.TRef.unary (.of main_c_75 : StableHlo.TRef sig ⟨S_, .i32⟩) main_call24.v7 (sitofp .f32),
    StableHlo.TRef.nullary main_call24.cst_1 (constant S_ .f32 0x47435000#32),
    StableHlo.TRef.binary main_call24.cst_1 main_call24.v7 main_call24.v8 subf,
    StableHlo.TRef.nullary main_call24.cst_2 (constant S_ .f32 0x00000000#32),
    StableHlo.TRef.binary main_call24.v6 main_call24.cst_2 main_call24.v9 (fun x v => Host.reduceAdd x v reducesTo_S50000x128_S128_d0 h_S_),
    StableHlo.TRef.unary main_call24.v8 main_call24.v10 (broadcastInDim S128 ![] bcast_S_S128),
    StableHlo.TRef.binary main_call24.v9 main_call24.v10 main_call24.v11 Host.divf,
    StableHlo.TRef.nullary main_call24.cst_3 (constant S_ .f32 0x00000000#32),
    StableHlo.TRef.binary main_call24.v8 main_call24.cst_3 main_call24.v12 (cmpf .ogt),
    StableHlo.TRef.nullary main_call24.cst_4 (constant S_ .f32 0x7FC00000#32),
    StableHlo.TRef.unary main_call24.cst_4 main_call24.call0.v0 id,
    StableHlo.TRef.unary main_call24.call0.v0 main_call24.call0.v1 (broadcastInDim S128 ![] bcast_S_S128),
    StableHlo.TRef.ternary main_call24.v12 main_call24.v11 main_call24.call0.v1 main_call24.call0.v2 (fun p a b => select (broadcastInDim S128 ![] bcast_S_S128 p) a b),
    StableHlo.unary main_v556 main_v558 (broadcastInDim S1x128 ![1] bcast_S128_S1x128_1 : (⟨S128, .f32⟩ : BufTy).Contents (Elt F) → (⟨S1x128, .f32⟩ : BufTy).Contents (Elt F)),
    StableHlo.unary main_v558 main_v559 (broadcastInDim S50000x128 ![0, 1] bcast_S1x128_S50000x128_0_1 : (⟨S1x128, .f32⟩ : BufTy).Contents (Elt F) → (⟨S50000x128, .f32⟩ : BufTy).Contents (Elt F)),
    StableHlo.binary main_v549 main_v559 main_v560 (subf : (⟨S50000x128, .f32⟩ : BufTy).Contents (Elt F) → (⟨S50000x128, .f32⟩ : BufTy).Contents (Elt F) → (⟨S50000x128, .f32⟩ : BufTy).Contents (Elt F)),
    StableHlo.nullary main_cst_76 (constant S_ .f32 0x3727C5AC#32),
    StableHlo.unary main_cst_76 main_v561 (broadcastInDim S128 ![] bcast_S_S128 : (⟨S_, .f32⟩ : BufTy).Contents (Elt F) → (⟨S128, .f32⟩ : BufTy).Contents (Elt F)),
    StableHlo.binary main_v557 main_v561 main_v562 (addf : (⟨S128, .f32⟩ : BufTy).Contents (Elt F) → (⟨S128, .f32⟩ : BufTy).Contents (Elt F) → (⟨S128, .f32⟩ : BufTy).Contents (Elt F)),
    StableHlo.unary main_v562 main_v563 (Host.rsqrt : (⟨S128, .f32⟩ : BufTy).Contents (Elt F) → (⟨S128, .f32⟩ : BufTy).Contents (Elt F)),
    StableHlo.unary main_v563 main_v564 (broadcastInDim S1x128 ![1] bcast_S128_S1x128_1 : (⟨S128, .f32⟩ : BufTy).Contents (Elt F) → (⟨S1x128, .f32⟩ : BufTy).Contents (Elt F)),
    StableHlo.unary main_v564 main_v565 (broadcastInDim S50000x128 ![0, 1] bcast_S1x128_S50000x128_0_1 : (⟨S1x128, .f32⟩ : BufTy).Contents (Elt F) → (⟨S50000x128, .f32⟩ : BufTy).Contents (Elt F)),
    StableHlo.binary main_v560 main_v565 main_v566 (mulf : (⟨S50000x128, .f32⟩ : BufTy).Contents (Elt F) → (⟨S50000x128, .f32⟩ : BufTy).Contents (Elt F) → (⟨S50000x128, .f32⟩ : BufTy).Contents (Elt F)),
    StableHlo.unary main_v551 main_v567 (broadcastInDim S1x128 ![1] bcast_S128_S1x128_1 : (⟨S128, .f32⟩ : BufTy).Contents (Elt F) → (⟨S1x128, .f32⟩ : BufTy).Contents (Elt F)),
    StableHlo.unary main_v567 main_v568 (broadcastInDim S50000x128 ![0, 1] bcast_S1x128_S50000x128_0_1 : (⟨S1x128, .f32⟩ : BufTy).Contents (Elt F) → (⟨S50000x128, .f32⟩ : BufTy).Contents (Elt F)),
    StableHlo.binary main_v566 main_v568 main_v569 (mulf : (⟨S50000x128, .f32⟩ : BufTy).Contents (Elt F) → (⟨S50000x128, .f32⟩ : BufTy).Contents (Elt F) → (⟨S50000x128, .f32⟩ : BufTy).Contents (Elt F)),
    StableHlo.unary main_v553 main_v570 (broadcastInDim S1x128 ![1] bcast_S128_S1x128_1 : (⟨S128, .f32⟩ : BufTy).Contents (Elt F) → (⟨S1x128, .f32⟩ : BufTy).Contents (Elt F)),
    StableHlo.unary main_v570 main_v571 (broadcastInDim S50000x128 ![0, 1] bcast_S1x128_S50000x128_0_1 : (⟨S1x128, .f32⟩ : BufTy).Contents (Elt F) → (⟨S50000x128, .f32⟩ : BufTy).Contents (Elt F)),
    StableHlo.binary main_v569 main_v571 main_v572 (addf : (⟨S50000x128, .f32⟩ : BufTy).Contents (Elt F) → (⟨S50000x128, .f32⟩ : BufTy).Contents (Elt F) → (⟨S50000x128, .f32⟩ : BufTy).Contents (Elt F)),
    StableHlo.TRef.nullary main_call25.cst (constant S_ .f32 0x00000000#32),
    StableHlo.TRef.unary main_call25.cst main_call25.v0 (broadcastInDim S50000x128 ![] bcast_S_S50000x128),
    StableHlo.TRef.binary (.of main_v572 : StableHlo.TRef sig ⟨S50000x128, .f32⟩) main_call25.v0 main_call25.v1 maximumf,
    StableHlo.unary main_arg3 main_v574 ((extractStridedSlice S1x1 ![4, 0] · slices_S6x3_S1x1_4_0) : (⟨S6x3, .f32⟩ : BufTy).Contents (Elt F) → (⟨S1x1, .f32⟩ : BufTy).Contents (Elt F)),
    StableHlo.reshape main_v574 main_v575 rfl shapeCasts_S1x1_S_,
    StableHlo.unary main_v575 main_v576 (broadcastInDim S50000x128 ![] bcast_S_S50000x128 : (⟨S_, .f32⟩ : BufTy).Contents (Elt F) → (⟨S50000x128, .f32⟩ : BufTy).Contents (Elt F)),
    StableHlo.binary main_v576 main_v573 main_v577 (mulf : (⟨S50000x128, .f32⟩ : BufTy).Contents (Elt F) → (⟨S50000x128, .f32⟩ : BufTy).Contents (Elt F) → (⟨S50000x128, .f32⟩ : BufTy).Contents (Elt F)),
    StableHlo.binary main_v540 main_v577 main_v578 (addf : (⟨S50000x128, .f32⟩ : BufTy).Contents (Elt F) → (⟨S50000x128, .f32⟩ : BufTy).Contents (Elt F) → (⟨S50000x128, .f32⟩ : BufTy).Contents (Elt F)),
    StableHlo.unary main_arg4 main_v579 ((extractStridedSlice S1x1x128x128 ![4, 1, 0, 0] · slices_S6x3x128x128_S1x1x128x128_4_1_0_0) : (⟨S6x3x128x128, .f32⟩ : BufTy).Contents (Elt F) → (⟨S1x1x128x128, .f32⟩ : BufTy).Contents (Elt F)),
    StableHlo.reshape main_v579 main_v580 rfl shapeCasts_S1x1x128x128_S128x128 ]

set_option maxHeartbeats 40000000 in
set_option maxRecDepth 8192 in
/-- Window 10 is the straight line of its operations. -/
theorem main_part10_eq (c : Dev nD) : main_part10 (F := F) c = seq ops10 := by
  chain_rfl

set_option maxHeartbeats 40000000 in
set_option maxRecDepth 8192 in
/-- Each operation touches TensorCore references only. -/
theorem ops10_sub : (ops10 : List (HloOp τ sig (Elt F))).Forall fun op => op.bufs ⊆ tcRefs τ sig :=
  ⟨StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.binary_bufs_sub .., StableHlo.nullary_bufs_sub .., StableHlo.unary_bufs_sub .., StableHlo.unary_bufs_sub .., StableHlo.reshape_bufs_sub .., StableHlo.unary_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.unary_bufs_sub .., StableHlo.binary_bufs_sub .., StableHlo.binary_bufs_sub .., StableHlo.unary_bufs_sub .., StableHlo.reshape_bufs_sub ..⟩

set_option maxHeartbeats 40000000 in
set_option maxRecDepth 8192 in
/-- Each operation determines what it writes. -/
theorem ops10_fresh : (ops10 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references the window's operations write, in order. -/
abbrev ops10_W : List (Ref sig .tc) :=
  [main_v528, main_v529, main_c_70, main_v530, main_v531, main_v532, main_v533, main_v534, main_cst_71, main_v535, main_v536, main_v537, main_v538, main_v539, main_cst_72, main_v540, main_v541, main_v542, main_v543, main_v544, main_v545, main_v546, main_v547, main_v548, main_v549, main_v550, main_v551, main_v552, main_v553, main_cst_73, main_v554, main_cst_74, main_v555, main_v556, main_c_75, main_call24_cst, main_call24_v0, main_call24_v1, main_call24_cst_0, main_call24_v2, main_call24_v3, main_call24_v4, main_call24_v5, main_call24_v6, main_call24_v7, main_call24_cst_1, main_call24_v8, main_call24_cst_2, main_call24_v9, main_call24_v10, main_call24_v11, main_call24_cst_3, main_call24_v12, main_call24_cst_4, main_call24_call0_v0, main_call24_call0_v1, main_v557, main_v558, main_v559, main_v560, main_cst_76, main_v561, main_v562, main_v563, main_v564, main_v565, main_v566, main_v567, main_v568, main_v569, main_v570, main_v571, main_v572, main_call25_cst, main_call25_v0, main_v573, main_v574, main_v575, main_v576, main_v577, main_v578, main_v579, main_v580]

set_option maxHeartbeats 40000000 in
set_option maxRecDepth 8192 in
/-- Each operation writes its own result reference, the one listed at its place. -/
theorem ops10_writes : (ops10 : List (HloOp τ sig (Elt F))).Forall fun op => op.writes ⊆ (ops10_W.map (Proc.devRef (τ := τ) .tc)).toFinset :=
  ⟨(Finset.singleton_subset_iff (a := Proc.devRef (τ := τ) .tc main_v528)).mpr (List.mem_toFinset.mpr (List.mem_map_of_mem (by decide))),
   (Finset.singleton_subset_iff (a := Proc.devRef (τ := τ) .tc main_v529)).mpr (List.mem_toFinset.mpr (List.mem_map_of_mem (by decide))),
   (Finset.singleton_subset_iff (a := Proc.devRef (τ := τ) .tc main_c_70)).mpr (List.mem_toFinset.mpr (List.mem_map_of_mem (by decide))),
   (Finset.singleton_subset_iff (a := Proc.devRef (τ := τ) .tc main_v530)).mpr (List.mem_toFinset.mpr (List.mem_map_of_mem (by decide))),
   (Finset.singleton_subset_iff (a := Proc.devRef (τ := τ) .tc main_v531)).mpr (List.mem_toFinset.mpr (List.mem_map_of_mem (by decide))),
   (Finset.singleton_subset_iff (a := Proc.devRef (τ := τ) .tc main_v532)).mpr (List.mem_toFinset.mpr (List.mem_map_of_mem (by decide))),
   (Finset.singleton_subset_iff (a := Proc.devRef (τ := τ) .tc main_v533)).mpr (List.mem_toFinset.mpr (List.mem_map_of_mem (by decide))),
   (Finset.singleton_subset_iff (a := Proc.devRef (τ := τ) .tc main_v534)).mpr (List.mem_toFinset.mpr (List.mem_map_of_mem (by decide))),
   (Finset.singleton_subset_iff (a := Proc.devRef (τ := τ) .tc main_cst_71)).mpr (List.mem_toFinset.mpr (List.mem_map_of_mem (by decide))),
   (Finset.singleton_subset_iff (a := Proc.devRef (τ := τ) .tc main_v535)).mpr (List.mem_toFinset.mpr (List.mem_map_of_mem (by decide))),
   (Finset.singleton_subset_iff (a := Proc.devRef (τ := τ) .tc main_v536)).mpr (List.mem_toFinset.mpr (List.mem_map_of_mem (by decide))),
   (Finset.singleton_subset_iff (a := Proc.devRef (τ := τ) .tc main_v537)).mpr (List.mem_toFinset.mpr (List.mem_map_of_mem (by decide))),
   (Finset.singleton_subset_iff (a := Proc.devRef (τ := τ) .tc main_v538)).mpr (List.mem_toFinset.mpr (List.mem_map_of_mem (by decide))),
   (Finset.singleton_subset_iff (a := Proc.devRef (τ := τ) .tc main_v539)).mpr (List.mem_toFinset.mpr (List.mem_map_of_mem (by decide))),
   (Finset.singleton_subset_iff (a := Proc.devRef (τ := τ) .tc main_cst_72)).mpr (List.mem_toFinset.mpr (List.mem_map_of_mem (by decide))),
   (Finset.singleton_subset_iff (a := Proc.devRef (τ := τ) .tc main_v540)).mpr (List.mem_toFinset.mpr (List.mem_map_of_mem (by decide))),
   (Finset.singleton_subset_iff (a := Proc.devRef (τ := τ) .tc main_v541)).mpr (List.mem_toFinset.mpr (List.mem_map_of_mem (by decide))),
   (Finset.singleton_subset_iff (a := Proc.devRef (τ := τ) .tc main_v542)).mpr (List.mem_toFinset.mpr (List.mem_map_of_mem (by decide))),
   (Finset.singleton_subset_iff (a := Proc.devRef (τ := τ) .tc main_v543)).mpr (List.mem_toFinset.mpr (List.mem_map_of_mem (by decide))),
   (Finset.singleton_subset_iff (a := Proc.devRef (τ := τ) .tc main_v544)).mpr (List.mem_toFinset.mpr (List.mem_map_of_mem (by decide))),
   (Finset.singleton_subset_iff (a := Proc.devRef (τ := τ) .tc main_v545)).mpr (List.mem_toFinset.mpr (List.mem_map_of_mem (by decide))),
   (Finset.singleton_subset_iff (a := Proc.devRef (τ := τ) .tc main_v546)).mpr (List.mem_toFinset.mpr (List.mem_map_of_mem (by decide))),
   (Finset.singleton_subset_iff (a := Proc.devRef (τ := τ) .tc main_v547)).mpr (List.mem_toFinset.mpr (List.mem_map_of_mem (by decide))),
   (Finset.singleton_subset_iff (a := Proc.devRef (τ := τ) .tc main_v548)).mpr (List.mem_toFinset.mpr (List.mem_map_of_mem (by decide))),
   (Finset.singleton_subset_iff (a := Proc.devRef (τ := τ) .tc main_v549)).mpr (List.mem_toFinset.mpr (List.mem_map_of_mem (by decide))),
   (Finset.singleton_subset_iff (a := Proc.devRef (τ := τ) .tc main_v550)).mpr (List.mem_toFinset.mpr (List.mem_map_of_mem (by decide))),
   (Finset.singleton_subset_iff (a := Proc.devRef (τ := τ) .tc main_v551)).mpr (List.mem_toFinset.mpr (List.mem_map_of_mem (by decide))),
   (Finset.singleton_subset_iff (a := Proc.devRef (τ := τ) .tc main_v552)).mpr (List.mem_toFinset.mpr (List.mem_map_of_mem (by decide))),
   (Finset.singleton_subset_iff (a := Proc.devRef (τ := τ) .tc main_v553)).mpr (List.mem_toFinset.mpr (List.mem_map_of_mem (by decide))),
   (Finset.singleton_subset_iff (a := Proc.devRef (τ := τ) .tc main_cst_73)).mpr (List.mem_toFinset.mpr (List.mem_map_of_mem (by decide))),
   (Finset.singleton_subset_iff (a := Proc.devRef (τ := τ) .tc main_v554)).mpr (List.mem_toFinset.mpr (List.mem_map_of_mem (by decide))),
   (Finset.singleton_subset_iff (a := Proc.devRef (τ := τ) .tc main_cst_74)).mpr (List.mem_toFinset.mpr (List.mem_map_of_mem (by decide))),
   (Finset.singleton_subset_iff (a := Proc.devRef (τ := τ) .tc main_v555)).mpr (List.mem_toFinset.mpr (List.mem_map_of_mem (by decide))),
   (Finset.singleton_subset_iff (a := Proc.devRef (τ := τ) .tc main_v556)).mpr (List.mem_toFinset.mpr (List.mem_map_of_mem (by decide))),
   (Finset.singleton_subset_iff (a := Proc.devRef (τ := τ) .tc main_c_75)).mpr (List.mem_toFinset.mpr (List.mem_map_of_mem (by decide))),
   (Finset.singleton_subset_iff (a := Proc.devRef (τ := τ) .tc main_call24_cst)).mpr (List.mem_toFinset.mpr (List.mem_map_of_mem (by decide))),
   (Finset.singleton_subset_iff (a := Proc.devRef (τ := τ) .tc main_call24_v0)).mpr (List.mem_toFinset.mpr (List.mem_map_of_mem (by decide))),
   (Finset.singleton_subset_iff (a := Proc.devRef (τ := τ) .tc main_call24_v1)).mpr (List.mem_toFinset.mpr (List.mem_map_of_mem (by decide))),
   (Finset.singleton_subset_iff (a := Proc.devRef (τ := τ) .tc main_call24_cst_0)).mpr (List.mem_toFinset.mpr (List.mem_map_of_mem (by decide))),
   (Finset.singleton_subset_iff (a := Proc.devRef (τ := τ) .tc main_call24_v2)).mpr (List.mem_toFinset.mpr (List.mem_map_of_mem (by decide))),
   (Finset.singleton_subset_iff (a := Proc.devRef (τ := τ) .tc main_call24_v3)).mpr (List.mem_toFinset.mpr (List.mem_map_of_mem (by decide))),
   (Finset.singleton_subset_iff (a := Proc.devRef (τ := τ) .tc main_call24_v4)).mpr (List.mem_toFinset.mpr (List.mem_map_of_mem (by decide))),
   (Finset.singleton_subset_iff (a := Proc.devRef (τ := τ) .tc main_call24_v5)).mpr (List.mem_toFinset.mpr (List.mem_map_of_mem (by decide))),
   (Finset.singleton_subset_iff (a := Proc.devRef (τ := τ) .tc main_call24_v6)).mpr (List.mem_toFinset.mpr (List.mem_map_of_mem (by decide))),
   (Finset.singleton_subset_iff (a := Proc.devRef (τ := τ) .tc main_call24_v7)).mpr (List.mem_toFinset.mpr (List.mem_map_of_mem (by decide))),
   (Finset.singleton_subset_iff (a := Proc.devRef (τ := τ) .tc main_call24_cst_1)).mpr (List.mem_toFinset.mpr (List.mem_map_of_mem (by decide))),
   (Finset.singleton_subset_iff (a := Proc.devRef (τ := τ) .tc main_call24_v8)).mpr (List.mem_toFinset.mpr (List.mem_map_of_mem (by decide))),
   (Finset.singleton_subset_iff (a := Proc.devRef (τ := τ) .tc main_call24_cst_2)).mpr (List.mem_toFinset.mpr (List.mem_map_of_mem (by decide))),
   (Finset.singleton_subset_iff (a := Proc.devRef (τ := τ) .tc main_call24_v9)).mpr (List.mem_toFinset.mpr (List.mem_map_of_mem (by decide))),
   (Finset.singleton_subset_iff (a := Proc.devRef (τ := τ) .tc main_call24_v10)).mpr (List.mem_toFinset.mpr (List.mem_map_of_mem (by decide))),
   (Finset.singleton_subset_iff (a := Proc.devRef (τ := τ) .tc main_call24_v11)).mpr (List.mem_toFinset.mpr (List.mem_map_of_mem (by decide))),
   (Finset.singleton_subset_iff (a := Proc.devRef (τ := τ) .tc main_call24_cst_3)).mpr (List.mem_toFinset.mpr (List.mem_map_of_mem (by decide))),
   (Finset.singleton_subset_iff (a := Proc.devRef (τ := τ) .tc main_call24_v12)).mpr (List.mem_toFinset.mpr (List.mem_map_of_mem (by decide))),
   (Finset.singleton_subset_iff (a := Proc.devRef (τ := τ) .tc main_call24_cst_4)).mpr (List.mem_toFinset.mpr (List.mem_map_of_mem (by decide))),
   (Finset.singleton_subset_iff (a := Proc.devRef (τ := τ) .tc main_call24_call0_v0)).mpr (List.mem_toFinset.mpr (List.mem_map_of_mem (by decide))),
   (Finset.singleton_subset_iff (a := Proc.devRef (τ := τ) .tc main_call24_call0_v1)).mpr (List.mem_toFinset.mpr (List.mem_map_of_mem (by decide))),
   (Finset.singleton_subset_iff (a := Proc.devRef (τ := τ) .tc main_v557)).mpr (List.mem_toFinset.mpr (List.mem_map_of_mem (by decide))),
   (Finset.singleton_subset_iff (a := Proc.devRef (τ := τ) .tc main_v558)).mpr (List.mem_toFinset.mpr (List.mem_map_of_mem (by decide))),
   (Finset.singleton_subset_iff (a := Proc.devRef (τ := τ) .tc main_v559)).mpr (List.mem_toFinset.mpr (List.mem_map_of_mem (by decide))),
   (Finset.singleton_subset_iff (a := Proc.devRef (τ := τ) .tc main_v560)).mpr (List.mem_toFinset.mpr (List.mem_map_of_mem (by decide))),
   (Finset.singleton_subset_iff (a := Proc.devRef (τ := τ) .tc main_cst_76)).mpr (List.mem_toFinset.mpr (List.mem_map_of_mem (by decide))),
   (Finset.singleton_subset_iff (a := Proc.devRef (τ := τ) .tc main_v561)).mpr (List.mem_toFinset.mpr (List.mem_map_of_mem (by decide))),
   (Finset.singleton_subset_iff (a := Proc.devRef (τ := τ) .tc main_v562)).mpr (List.mem_toFinset.mpr (List.mem_map_of_mem (by decide))),
   (Finset.singleton_subset_iff (a := Proc.devRef (τ := τ) .tc main_v563)).mpr (List.mem_toFinset.mpr (List.mem_map_of_mem (by decide))),
   (Finset.singleton_subset_iff (a := Proc.devRef (τ := τ) .tc main_v564)).mpr (List.mem_toFinset.mpr (List.mem_map_of_mem (by decide))),
   (Finset.singleton_subset_iff (a := Proc.devRef (τ := τ) .tc main_v565)).mpr (List.mem_toFinset.mpr (List.mem_map_of_mem (by decide))),
   (Finset.singleton_subset_iff (a := Proc.devRef (τ := τ) .tc main_v566)).mpr (List.mem_toFinset.mpr (List.mem_map_of_mem (by decide))),
   (Finset.singleton_subset_iff (a := Proc.devRef (τ := τ) .tc main_v567)).mpr (List.mem_toFinset.mpr (List.mem_map_of_mem (by decide))),
   (Finset.singleton_subset_iff (a := Proc.devRef (τ := τ) .tc main_v568)).mpr (List.mem_toFinset.mpr (List.mem_map_of_mem (by decide))),
   (Finset.singleton_subset_iff (a := Proc.devRef (τ := τ) .tc main_v569)).mpr (List.mem_toFinset.mpr (List.mem_map_of_mem (by decide))),
   (Finset.singleton_subset_iff (a := Proc.devRef (τ := τ) .tc main_v570)).mpr (List.mem_toFinset.mpr (List.mem_map_of_mem (by decide))),
   (Finset.singleton_subset_iff (a := Proc.devRef (τ := τ) .tc main_v571)).mpr (List.mem_toFinset.mpr (List.mem_map_of_mem (by decide))),
   (Finset.singleton_subset_iff (a := Proc.devRef (τ := τ) .tc main_v572)).mpr (List.mem_toFinset.mpr (List.mem_map_of_mem (by decide))),
   (Finset.singleton_subset_iff (a := Proc.devRef (τ := τ) .tc main_call25_cst)).mpr (List.mem_toFinset.mpr (List.mem_map_of_mem (by decide))),
   (Finset.singleton_subset_iff (a := Proc.devRef (τ := τ) .tc main_call25_v0)).mpr (List.mem_toFinset.mpr (List.mem_map_of_mem (by decide))),
   (Finset.singleton_subset_iff (a := Proc.devRef (τ := τ) .tc main_v573)).mpr (List.mem_toFinset.mpr (List.mem_map_of_mem (by decide))),
   (Finset.singleton_subset_iff (a := Proc.devRef (τ := τ) .tc main_v574)).mpr (List.mem_toFinset.mpr (List.mem_map_of_mem (by decide))),
   (Finset.singleton_subset_iff (a := Proc.devRef (τ := τ) .tc main_v575)).mpr (List.mem_toFinset.mpr (List.mem_map_of_mem (by decide))),
   (Finset.singleton_subset_iff (a := Proc.devRef (τ := τ) .tc main_v576)).mpr (List.mem_toFinset.mpr (List.mem_map_of_mem (by decide))),
   (Finset.singleton_subset_iff (a := Proc.devRef (τ := τ) .tc main_v577)).mpr (List.mem_toFinset.mpr (List.mem_map_of_mem (by decide))),
   (Finset.singleton_subset_iff (a := Proc.devRef (τ := τ) .tc main_v578)).mpr (List.mem_toFinset.mpr (List.mem_map_of_mem (by decide))),
   (Finset.singleton_subset_iff (a := Proc.devRef (τ := τ) .tc main_v579)).mpr (List.mem_toFinset.mpr (List.mem_map_of_mem (by decide))),
   (Finset.singleton_subset_iff (a := Proc.devRef (τ := τ) .tc main_v580)).mpr (List.mem_toFinset.mpr (List.mem_map_of_mem (by decide)))⟩

/-- A reference the window does not write keeps its contents through it. -/
theorem ops10_keep (V : Valuation τ sig (Elt F)) (r : Ref sig .tc) (h : r ∉ ops10_W) :
    after ops10 V (Proc.devRef .tc r) = V (Proc.devRef .tc r) :=
  after_of_writes_sub ops10 V ops10_writes h

end Cert.ReferenceIdeal.Hand

end
-- ==== Proof.Ref.Ops11.lean ====
import proofs.«414290_j6631429505478_3_alg».proof.Proof.Gen.ReferenceIdeal
import Idealize.ShloMosaic.Lib.StableHlo.Run
import Idealize.ShloMosaic.Lib.Pipeline.Frame

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
set_option maxRecDepth 8192 in
/-- The 104 operations of window 11 of @main, in order, a called function's operations in its call's place. -/
abbrev ops11 : List (HloOp τ sig (Elt F)) :=
  [ StableHlo.unary main_v580 main_v581 ((transpose S128x128 [1, 0] · transposes_S128x128_S128x128_1_0) : (⟨S128x128, .f32⟩ : BufTy).Contents (Elt F) → (⟨S128x128, .f32⟩ : BufTy).Contents (Elt F)),
    StableHlo.binary main_v141 main_v581 main_v582 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg5 main_v583 ((extractStridedSlice S1x1x128 ![4, 1, 0] · slices_S6x3x128_S1x1x128_4_1_0) : (⟨S6x3x128, .f32⟩ : BufTy).Contents (Elt F) → (⟨S1x1x128, .f32⟩ : BufTy).Contents (Elt F)),
    StableHlo.reshape main_v583 main_v584 rfl shapeCasts_S1x1x128_S128,
    StableHlo.unary main_v584 main_v585 (broadcastInDim S1x128 ![1] bcast_S128_S1x128_1 : (⟨S128, .f32⟩ : BufTy).Contents (Elt F) → (⟨S1x128, .f32⟩ : BufTy).Contents (Elt F)),
    StableHlo.unary main_v585 main_v586 (broadcastInDim S50000x128 ![0, 1] bcast_S1x128_S50000x128_0_1 : (⟨S1x128, .f32⟩ : BufTy).Contents (Elt F) → (⟨S50000x128, .f32⟩ : BufTy).Contents (Elt F)),
    StableHlo.binary main_v582 main_v586 main_v587 (addf : (⟨S50000x128, .f32⟩ : BufTy).Contents (Elt F) → (⟨S50000x128, .f32⟩ : BufTy).Contents (Elt F) → (⟨S50000x128, .f32⟩ : BufTy).Contents (Elt F)),
    StableHlo.unary main_arg6 main_v588 ((extractStridedSlice S1x1x128 ![4, 1, 0] · slices_S6x3x128_S1x1x128_4_1_0) : (⟨S6x3x128, .f32⟩ : BufTy).Contents (Elt F) → (⟨S1x1x128, .f32⟩ : BufTy).Contents (Elt F)),
    StableHlo.reshape main_v588 main_v589 rfl shapeCasts_S1x1x128_S128,
    StableHlo.unary main_arg7 main_v590 ((extractStridedSlice S1x1x128 ![4, 1, 0] · slices_S6x3x128_S1x1x128_4_1_0) : (⟨S6x3x128, .f32⟩ : BufTy).Contents (Elt F) → (⟨S1x1x128, .f32⟩ : BufTy).Contents (Elt F)),
    StableHlo.reshape main_v590 main_v591 rfl shapeCasts_S1x1x128_S128,
    StableHlo.nullary main_cst_77 (constant S_ .f32 0x00000000#32),
    StableHlo.binary main_v587 main_cst_77 main_v592 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_78 (constant S_ .f32 0x47435000#32),
    StableHlo.unary main_cst_78 main_v593 (broadcastInDim S128 ![] bcast_S_S128 : (⟨S_, .f32⟩ : BufTy).Contents (Elt F) → (⟨S128, .f32⟩ : BufTy).Contents (Elt F)),
    StableHlo.binary main_v592 main_v593 main_v594 (Host.divf : (⟨S128, .f32⟩ : BufTy).Contents (Elt F) → (⟨S128, .f32⟩ : BufTy).Contents (Elt F) → (⟨S128, .f32⟩ : BufTy).Contents (Elt F)),
    StableHlo.nullary main_c_79 (constantI S_ 32 0#32),
    StableHlo.TRef.nullary main_call26.cst (constant S_ .f32 0x00000000#32),
    StableHlo.TRef.binary (.of main_v587 : StableHlo.TRef sig ⟨S50000x128, .f32⟩) main_call26.cst main_call26.v0 (fun x v => Host.reduceAdd x v reducesTo_S50000x128_S128_d0 h_S_),
    StableHlo.TRef.unary main_call26.v0 main_call26.v1 (broadcastInDim S1x128 ![1] bcast_S128_S1x128_1),
    StableHlo.TRef.nullary main_call26.cst_0 (constant S_ .f32 0x47435000#32),
    StableHlo.TRef.unary main_call26.cst_0 main_call26.v2 (broadcastInDim S1x128 ![] bcast_S_S1x128),
    StableHlo.TRef.binary main_call26.v1 main_call26.v2 main_call26.v3 Host.divf,
    StableHlo.TRef.unary main_call26.v3 main_call26.v4 (broadcastInDim S50000x128 ![0, 1] bcast_S1x128_S50000x128_0_1),
    StableHlo.TRef.binary (.of main_v587 : StableHlo.TRef sig ⟨S50000x128, .f32⟩) main_call26.v4 main_call26.v5 subf,
    StableHlo.TRef.binary main_call26.v5 main_call26.v5 main_call26.v6 mulf,
    StableHlo.TRef.unary (.of main_c_79 : StableHlo.TRef sig ⟨S_, .i32⟩) main_call26.v7 (sitofp .f32),
    StableHlo.TRef.nullary main_call26.cst_1 (constant S_ .f32 0x47435000#32),
    StableHlo.TRef.binary main_call26.cst_1 main_call26.v7 main_call26.v8 subf,
    StableHlo.TRef.nullary main_call26.cst_2 (constant S_ .f32 0x00000000#32),
    StableHlo.TRef.binary main_call26.v6 main_call26.cst_2 main_call26.v9 (fun x v => Host.reduceAdd x v reducesTo_S50000x128_S128_d0 h_S_),
    StableHlo.TRef.unary main_call26.v8 main_call26.v10 (broadcastInDim S128 ![] bcast_S_S128),
    StableHlo.TRef.binary main_call26.v9 main_call26.v10 main_call26.v11 Host.divf,
    StableHlo.TRef.nullary main_call26.cst_3 (constant S_ .f32 0x00000000#32),
    StableHlo.TRef.binary main_call26.v8 main_call26.cst_3 main_call26.v12 (cmpf .ogt),
    StableHlo.TRef.nullary main_call26.cst_4 (constant S_ .f32 0x7FC00000#32),
    StableHlo.TRef.unary main_call26.cst_4 main_call26.call0.v0 id,
    StableHlo.TRef.unary main_call26.call0.v0 main_call26.call0.v1 (broadcastInDim S128 ![] bcast_S_S128),
    StableHlo.TRef.ternary main_call26.v12 main_call26.v11 main_call26.call0.v1 main_call26.call0.v2 (fun p a b => select (broadcastInDim S128 ![] bcast_S_S128 p) a b),
    StableHlo.unary main_v594 main_v596 (broadcastInDim S1x128 ![1] bcast_S128_S1x128_1 : (⟨S128, .f32⟩ : BufTy).Contents (Elt F) → (⟨S1x128, .f32⟩ : BufTy).Contents (Elt F)),
    StableHlo.unary main_v596 main_v597 (broadcastInDim S50000x128 ![0, 1] bcast_S1x128_S50000x128_0_1 : (⟨S1x128, .f32⟩ : BufTy).Contents (Elt F) → (⟨S50000x128, .f32⟩ : BufTy).Contents (Elt F)),
    StableHlo.binary main_v587 main_v597 main_v598 (subf : (⟨S50000x128, .f32⟩ : BufTy).Contents (Elt F) → (⟨S50000x128, .f32⟩ : BufTy).Contents (Elt F) → (⟨S50000x128, .f32⟩ : BufTy).Contents (Elt F)),
    StableHlo.nullary main_cst_80 (constant S_ .f32 0x3727C5AC#32),
    StableHlo.unary main_cst_80 main_v599 (broadcastInDim S128 ![] bcast_S_S128 : (⟨S_, .f32⟩ : BufTy).Contents (Elt F) → (⟨S128, .f32⟩ : BufTy).Contents (Elt F)),
    StableHlo.binary main_v595 main_v599 main_v600 (addf : (⟨S128, .f32⟩ : BufTy).Contents (Elt F) → (⟨S128, .f32⟩ : BufTy).Contents (Elt F) → (⟨S128, .f32⟩ : BufTy).Contents (Elt F)),
    StableHlo.unary main_v600 main_v601 (Host.rsqrt : (⟨S128, .f32⟩ : BufTy).Contents (Elt F) → (⟨S128, .f32⟩ : BufTy).Contents (Elt F)),
    StableHlo.unary main_v601 main_v602 (broadcastInDim S1x128 ![1] bcast_S128_S1x128_1 : (⟨S128, .f32⟩ : BufTy).Contents (Elt F) → (⟨S1x128, .f32⟩ : BufTy).Contents (Elt F)),
    StableHlo.unary main_v602 main_v603 (broadcastInDim S50000x128 ![0, 1] bcast_S1x128_S50000x128_0_1 : (⟨S1x128, .f32⟩ : BufTy).Contents (Elt F) → (⟨S50000x128, .f32⟩ : BufTy).Contents (Elt F)),
    StableHlo.binary main_v598 main_v603 main_v604 (mulf : (⟨S50000x128, .f32⟩ : BufTy).Contents (Elt F) → (⟨S50000x128, .f32⟩ : BufTy).Contents (Elt F) → (⟨S50000x128, .f32⟩ : BufTy).Contents (Elt F)),
    StableHlo.unary main_v589 main_v605 (broadcastInDim S1x128 ![1] bcast_S128_S1x128_1 : (⟨S128, .f32⟩ : BufTy).Contents (Elt F) → (⟨S1x128, .f32⟩ : BufTy).Contents (Elt F)),
    StableHlo.unary main_v605 main_v606 (broadcastInDim S50000x128 ![0, 1] bcast_S1x128_S50000x128_0_1 : (⟨S1x128, .f32⟩ : BufTy).Contents (Elt F) → (⟨S50000x128, .f32⟩ : BufTy).Contents (Elt F)),
    StableHlo.binary main_v604 main_v606 main_v607 (mulf : (⟨S50000x128, .f32⟩ : BufTy).Contents (Elt F) → (⟨S50000x128, .f32⟩ : BufTy).Contents (Elt F) → (⟨S50000x128, .f32⟩ : BufTy).Contents (Elt F)),
    StableHlo.unary main_v591 main_v608 (broadcastInDim S1x128 ![1] bcast_S128_S1x128_1 : (⟨S128, .f32⟩ : BufTy).Contents (Elt F) → (⟨S1x128, .f32⟩ : BufTy).Contents (Elt F)),
    StableHlo.unary main_v608 main_v609 (broadcastInDim S50000x128 ![0, 1] bcast_S1x128_S50000x128_0_1 : (⟨S1x128, .f32⟩ : BufTy).Contents (Elt F) → (⟨S50000x128, .f32⟩ : BufTy).Contents (Elt F)),
    StableHlo.binary main_v607 main_v609 main_v610 (addf : (⟨S50000x128, .f32⟩ : BufTy).Contents (Elt F) → (⟨S50000x128, .f32⟩ : BufTy).Contents (Elt F) → (⟨S50000x128, .f32⟩ : BufTy).Contents (Elt F)),
    StableHlo.TRef.nullary main_call27.cst (constant S_ .f32 0x00000000#32),
    StableHlo.TRef.unary main_call27.cst main_call27.v0 (broadcastInDim S50000x128 ![] bcast_S_S50000x128),
    StableHlo.TRef.binary (.of main_v610 : StableHlo.TRef sig ⟨S50000x128, .f32⟩) main_call27.v0 main_call27.v1 maximumf,
    StableHlo.unary main_arg3 main_v612 ((extractStridedSlice S1x1 ![4, 1] · slices_S6x3_S1x1_4_1) : (⟨S6x3, .f32⟩ : BufTy).Contents (Elt F) → (⟨S1x1, .f32⟩ : BufTy).Contents (Elt F)),
    StableHlo.reshape main_v612 main_v613 rfl shapeCasts_S1x1_S_,
    StableHlo.unary main_v613 main_v614 (broadcastInDim S50000x128 ![] bcast_S_S50000x128 : (⟨S_, .f32⟩ : BufTy).Contents (Elt F) → (⟨S50000x128, .f32⟩ : BufTy).Contents (Elt F)),
    StableHlo.binary main_v614 main_v611 main_v615 (mulf : (⟨S50000x128, .f32⟩ : BufTy).Contents (Elt F) → (⟨S50000x128, .f32⟩ : BufTy).Contents (Elt F) → (⟨S50000x128, .f32⟩ : BufTy).Contents (Elt F)),
    StableHlo.binary main_v578 main_v615 main_v616 (addf : (⟨S50000x128, .f32⟩ : BufTy).Contents (Elt F) → (⟨S50000x128, .f32⟩ : BufTy).Contents (Elt F) → (⟨S50000x128, .f32⟩ : BufTy).Contents (Elt F)),
    StableHlo.unary main_arg4 main_v617 ((extractStridedSlice S1x1x128x128 ![4, 2, 0, 0] · slices_S6x3x128x128_S1x1x128x128_4_2_0_0) : (⟨S6x3x128x128, .f32⟩ : BufTy).Contents (Elt F) → (⟨S1x1x128x128, .f32⟩ : BufTy).Contents (Elt F)),
    StableHlo.reshape main_v617 main_v618 rfl shapeCasts_S1x1x128x128_S128x128,
    StableHlo.unary main_v618 main_v619 ((transpose S128x128 [1, 0] · transposes_S128x128_S128x128_1_0) : (⟨S128x128, .f32⟩ : BufTy).Contents (Elt F) → (⟨S128x128, .f32⟩ : BufTy).Contents (Elt F)),
    StableHlo.binary main_arg2 main_v619 main_v620 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg5 main_v621 ((extractStridedSlice S1x1x128 ![4, 2, 0] · slices_S6x3x128_S1x1x128_4_2_0) : (⟨S6x3x128, .f32⟩ : BufTy).Contents (Elt F) → (⟨S1x1x128, .f32⟩ : BufTy).Contents (Elt F)),
    StableHlo.reshape main_v621 main_v622 rfl shapeCasts_S1x1x128_S128,
    StableHlo.unary main_v622 main_v623 (broadcastInDim S1x128 ![1] bcast_S128_S1x128_1 : (⟨S128, .f32⟩ : BufTy).Contents (Elt F) → (⟨S1x128, .f32⟩ : BufTy).Contents (Elt F)),
    StableHlo.unary main_v623 main_v624 (broadcastInDim S50000x128 ![0, 1] bcast_S1x128_S50000x128_0_1 : (⟨S1x128, .f32⟩ : BufTy).Contents (Elt F) → (⟨S50000x128, .f32⟩ : BufTy).Contents (Elt F)),
    StableHlo.binary main_v620 main_v624 main_v625 (addf : (⟨S50000x128, .f32⟩ : BufTy).Contents (Elt F) → (⟨S50000x128, .f32⟩ : BufTy).Contents (Elt F) → (⟨S50000x128, .f32⟩ : BufTy).Contents (Elt F)),
    StableHlo.unary main_arg6 main_v626 ((extractStridedSlice S1x1x128 ![4, 2, 0] · slices_S6x3x128_S1x1x128_4_2_0) : (⟨S6x3x128, .f32⟩ : BufTy).Contents (Elt F) → (⟨S1x1x128, .f32⟩ : BufTy).Contents (Elt F)),
    StableHlo.reshape main_v626 main_v627 rfl shapeCasts_S1x1x128_S128,
    StableHlo.unary main_arg7 main_v628 ((extractStridedSlice S1x1x128 ![4, 2, 0] · slices_S6x3x128_S1x1x128_4_2_0) : (⟨S6x3x128, .f32⟩ : BufTy).Contents (Elt F) → (⟨S1x1x128, .f32⟩ : BufTy).Contents (Elt F)),
    StableHlo.reshape main_v628 main_v629 rfl shapeCasts_S1x1x128_S128,
    StableHlo.nullary main_cst_81 (constant S_ .f32 0x00000000#32),
    StableHlo.binary main_v625 main_cst_81 main_v630 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_82 (constant S_ .f32 0x47435000#32),
    StableHlo.unary main_cst_82 main_v631 (broadcastInDim S128 ![] bcast_S_S128 : (⟨S_, .f32⟩ : BufTy).Contents (Elt F) → (⟨S128, .f32⟩ : BufTy).Contents (Elt F)),
    StableHlo.binary main_v630 main_v631 main_v632 (Host.divf : (⟨S128, .f32⟩ : BufTy).Contents (Elt F) → (⟨S128, .f32⟩ : BufTy).Contents (Elt F) → (⟨S128, .f32⟩ : BufTy).Contents (Elt F)),
    StableHlo.nullary main_c_83 (constantI S_ 32 0#32),
    StableHlo.TRef.nullary main_call28.cst (constant S_ .f32 0x00000000#32),
    StableHlo.TRef.binary (.of main_v625 : StableHlo.TRef sig ⟨S50000x128, .f32⟩) main_call28.cst main_call28.v0 (fun x v => Host.reduceAdd x v reducesTo_S50000x128_S128_d0 h_S_),
    StableHlo.TRef.unary main_call28.v0 main_call28.v1 (broadcastInDim S1x128 ![1] bcast_S128_S1x128_1),
    StableHlo.TRef.nullary main_call28.cst_0 (constant S_ .f32 0x47435000#32),
    StableHlo.TRef.unary main_call28.cst_0 main_call28.v2 (broadcastInDim S1x128 ![] bcast_S_S1x128),
    StableHlo.TRef.binary main_call28.v1 main_call28.v2 main_call28.v3 Host.divf,
    StableHlo.TRef.unary main_call28.v3 main_call28.v4 (broadcastInDim S50000x128 ![0, 1] bcast_S1x128_S50000x128_0_1),
    StableHlo.TRef.binary (.of main_v625 : StableHlo.TRef sig ⟨S50000x128, .f32⟩) main_call28.v4 main_call28.v5 subf,
    StableHlo.TRef.binary main_call28.v5 main_call28.v5 main_call28.v6 mulf,
    StableHlo.TRef.unary (.of main_c_83 : StableHlo.TRef sig ⟨S_, .i32⟩) main_call28.v7 (sitofp .f32),
    StableHlo.TRef.nullary main_call28.cst_1 (constant S_ .f32 0x47435000#32),
    StableHlo.TRef.binary main_call28.cst_1 main_call28.v7 main_call28.v8 subf,
    StableHlo.TRef.nullary main_call28.cst_2 (constant S_ .f32 0x00000000#32),
    StableHlo.TRef.binary main_call28.v6 main_call28.cst_2 main_call28.v9 (fun x v => Host.reduceAdd x v reducesTo_S50000x128_S128_d0 h_S_),
    StableHlo.TRef.unary main_call28.v8 main_call28.v10 (broadcastInDim S128 ![] bcast_S_S128),
    StableHlo.TRef.binary main_call28.v9 main_call28.v10 main_call28.v11 Host.divf,
    StableHlo.TRef.nullary main_call28.cst_3 (constant S_ .f32 0x00000000#32),
    StableHlo.TRef.binary main_call28.v8 main_call28.cst_3 main_call28.v12 (cmpf .ogt),
    StableHlo.TRef.nullary main_call28.cst_4 (constant S_ .f32 0x7FC00000#32),
    StableHlo.TRef.unary main_call28.cst_4 main_call28.call0.v0 id,
    StableHlo.TRef.unary main_call28.call0.v0 main_call28.call0.v1 (broadcastInDim S128 ![] bcast_S_S128),
    StableHlo.TRef.ternary main_call28.v12 main_call28.v11 main_call28.call0.v1 main_call28.call0.v2 (fun p a b => select (broadcastInDim S128 ![] bcast_S_S128 p) a b) ]

set_option maxHeartbeats 40000000 in
set_option maxRecDepth 8192 in
/-- Window 11 is the straight line of its operations. -/
theorem main_part11_eq (c : Dev nD) : main_part11 (F := F) c = seq ops11 := by
  chain_rfl

set_option maxHeartbeats 40000000 in
set_option maxRecDepth 8192 in
/-- Each operation touches TensorCore references only. -/
theorem ops11_sub : (ops11 : List (HloOp τ sig (Elt F))).Forall fun op => op.bufs ⊆ tcRefs τ sig :=
  ⟨StableHlo.unary_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.unary_bufs_sub .., StableHlo.binary_bufs_sub .., StableHlo.binary_bufs_sub .., StableHlo.unary_bufs_sub .., StableHlo.reshape_bufs_sub .., StableHlo.unary_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩

set_option maxHeartbeats 40000000 in
set_option maxRecDepth 8192 in
/-- Each operation determines what it writes. -/
theorem ops11_fresh : (ops11 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references the window's operations write, in order. -/
abbrev ops11_W : List (Ref sig .tc) :=
  [main_v581, main_v582, main_v583, main_v584, main_v585, main_v586, main_v587, main_v588, main_v589, main_v590, main_v591, main_cst_77, main_v592, main_cst_78, main_v593, main_v594, main_c_79, main_call26_cst, main_call26_v0, main_call26_v1, main_call26_cst_0, main_call26_v2, main_call26_v3, main_call26_v4, main_call26_v5, main_call26_v6, main_call26_v7, main_call26_cst_1, main_call26_v8, main_call26_cst_2, main_call26_v9, main_call26_v10, main_call26_v11, main_call26_cst_3, main_call26_v12, main_call26_cst_4, main_call26_call0_v0, main_call26_call0_v1, main_v595, main_v596, main_v597, main_v598, main_cst_80, main_v599, main_v600, main_v601, main_v602, main_v603, main_v604, main_v605, main_v606, main_v607, main_v608, main_v609, main_v610, main_call27_cst, main_call27_v0, main_v611, main_v612, main_v613, main_v614, main_v615, main_v616, main_v617, main_v618, main_v619, main_v620, main_v621, main_v622, main_v623, main_v624, main_v625, main_v626, main_v627, main_v628, main_v629, main_cst_81, main_v630, main_cst_82, main_v631, main_v632, main_c_83, main_call28_cst, main_call28_v0, main_call28_v1, main_call28_cst_0, main_call28_v2, main_call28_v3, main_call28_v4, main_call28_v5, main_call28_v6, main_call28_v7, main_call28_cst_1, main_call28_v8, main_call28_cst_2, main_call28_v9, main_call28_v10, main_call28_v11, main_call28_cst_3, main_call28_v12, main_call28_cst_4, main_call28_call0_v0, main_call28_call0_v1, main_v633]

set_option maxHeartbeats 40000000 in
set_option maxRecDepth 8192 in
/-- Each operation writes its own result reference, the one listed at its place. -/
theorem ops11_writes : (ops11 : List (HloOp τ sig (Elt F))).Forall fun op => op.writes ⊆ (ops11_W.map (Proc.devRef (τ := τ) .tc)).toFinset :=
  ⟨(Finset.singleton_subset_iff (a := Proc.devRef (τ := τ) .tc main_v581)).mpr (List.mem_toFinset.mpr (List.mem_map_of_mem (by decide))),
   (Finset.singleton_subset_iff (a := Proc.devRef (τ := τ) .tc main_v582)).mpr (List.mem_toFinset.mpr (List.mem_map_of_mem (by decide))),
   (Finset.singleton_subset_iff (a := Proc.devRef (τ := τ) .tc main_v583)).mpr (List.mem_toFinset.mpr (List.mem_map_of_mem (by decide))),
   (Finset.singleton_subset_iff (a := Proc.devRef (τ := τ) .tc main_v584)).mpr (List.mem_toFinset.mpr (List.mem_map_of_mem (by decide))),
   (Finset.singleton_subset_iff (a := Proc.devRef (τ := τ) .tc main_v585)).mpr (List.mem_toFinset.mpr (List.mem_map_of_mem (by decide))),
   (Finset.singleton_subset_iff (a := Proc.devRef (τ := τ) .tc main_v586)).mpr (List.mem_toFinset.mpr (List.mem_map_of_mem (by decide))),
   (Finset.singleton_subset_iff (a := Proc.devRef (τ := τ) .tc main_v587)).mpr (List.mem_toFinset.mpr (List.mem_map_of_mem (by decide))),
   (Finset.singleton_subset_iff (a := Proc.devRef (τ := τ) .tc main_v588)).mpr (List.mem_toFinset.mpr (List.mem_map_of_mem (by decide))),
   (Finset.singleton_subset_iff (a := Proc.devRef (τ := τ) .tc main_v589)).mpr (List.mem_toFinset.mpr (List.mem_map_of_mem (by decide))),
   (Finset.singleton_subset_iff (a := Proc.devRef (τ := τ) .tc main_v590)).mpr (List.mem_toFinset.mpr (List.mem_map_of_mem (by decide))),
   (Finset.singleton_subset_iff (a := Proc.devRef (τ := τ) .tc main_v591)).mpr (List.mem_toFinset.mpr (List.mem_map_of_mem (by decide))),
   (Finset.singleton_subset_iff (a := Proc.devRef (τ := τ) .tc main_cst_77)).mpr (List.mem_toFinset.mpr (List.mem_map_of_mem (by decide))),
   (Finset.singleton_subset_iff (a := Proc.devRef (τ := τ) .tc main_v592)).mpr (List.mem_toFinset.mpr (List.mem_map_of_mem (by decide))),
   (Finset.singleton_subset_iff (a := Proc.devRef (τ := τ) .tc main_cst_78)).mpr (List.mem_toFinset.mpr (List.mem_map_of_mem (by decide))),
   (Finset.singleton_subset_iff (a := Proc.devRef (τ := τ) .tc main_v593)).mpr (List.mem_toFinset.mpr (List.mem_map_of_mem (by decide))),
   (Finset.singleton_subset_iff (a := Proc.devRef (τ := τ) .tc main_v594)).mpr (List.mem_toFinset.mpr (List.mem_map_of_mem (by decide))),
   (Finset.singleton_subset_iff (a := Proc.devRef (τ := τ) .tc main_c_79)).mpr (List.mem_toFinset.mpr (List.mem_map_of_mem (by decide))),
   (Finset.singleton_subset_iff (a := Proc.devRef (τ := τ) .tc main_call26_cst)).mpr (List.mem_toFinset.mpr (List.mem_map_of_mem (by decide))),
   (Finset.singleton_subset_iff (a := Proc.devRef (τ := τ) .tc main_call26_v0)).mpr (List.mem_toFinset.mpr (List.mem_map_of_mem (by decide))),
   (Finset.singleton_subset_iff (a := Proc.devRef (τ := τ) .tc main_call26_v1)).mpr (List.mem_toFinset.mpr (List.mem_map_of_mem (by decide))),
   (Finset.singleton_subset_iff (a := Proc.devRef (τ := τ) .tc main_call26_cst_0)).mpr (List.mem_toFinset.mpr (List.mem_map_of_mem (by decide))),
   (Finset.singleton_subset_iff (a := Proc.devRef (τ := τ) .tc main_call26_v2)).mpr (List.mem_toFinset.mpr (List.mem_map_of_mem (by decide))),
   (Finset.singleton_subset_iff (a := Proc.devRef (τ := τ) .tc main_call26_v3)).mpr (List.mem_toFinset.mpr (List.mem_map_of_mem (by decide))),
   (Finset.singleton_subset_iff (a := Proc.devRef (τ := τ) .tc main_call26_v4)).mpr (List.mem_toFinset.mpr (List.mem_map_of_mem (by decide))),
   (Finset.singleton_subset_iff (a := Proc.devRef (τ := τ) .tc main_call26_v5)).mpr (List.mem_toFinset.mpr (List.mem_map_of_mem (by decide))),
   (Finset.singleton_subset_iff (a := Proc.devRef (τ := τ) .tc main_call26_v6)).mpr (List.mem_toFinset.mpr (List.mem_map_of_mem (by decide))),
   (Finset.singleton_subset_iff (a := Proc.devRef (τ := τ) .tc main_call26_v7)).mpr (List.mem_toFinset.mpr (List.mem_map_of_mem (by decide))),
   (Finset.singleton_subset_iff (a := Proc.devRef (τ := τ) .tc main_call26_cst_1)).mpr (List.mem_toFinset.mpr (List.mem_map_of_mem (by decide))),
   (Finset.singleton_subset_iff (a := Proc.devRef (τ := τ) .tc main_call26_v8)).mpr (List.mem_toFinset.mpr (List.mem_map_of_mem (by decide))),
   (Finset.singleton_subset_iff (a := Proc.devRef (τ := τ) .tc main_call26_cst_2)).mpr (List.mem_toFinset.mpr (List.mem_map_of_mem (by decide))),
   (Finset.singleton_subset_iff (a := Proc.devRef (τ := τ) .tc main_call26_v9)).mpr (List.mem_toFinset.mpr (List.mem_map_of_mem (by decide))),
   (Finset.singleton_subset_iff (a := Proc.devRef (τ := τ) .tc main_call26_v10)).mpr (List.mem_toFinset.mpr (List.mem_map_of_mem (by decide))),
   (Finset.singleton_subset_iff (a := Proc.devRef (τ := τ) .tc main_call26_v11)).mpr (List.mem_toFinset.mpr (List.mem_map_of_mem (by decide))),
   (Finset.singleton_subset_iff (a := Proc.devRef (τ := τ) .tc main_call26_cst_3)).mpr (List.mem_toFinset.mpr (List.mem_map_of_mem (by decide))),
   (Finset.singleton_subset_iff (a := Proc.devRef (τ := τ) .tc main_call26_v12)).mpr (List.mem_toFinset.mpr (List.mem_map_of_mem (by decide))),
   (Finset.singleton_subset_iff (a := Proc.devRef (τ := τ) .tc main_call26_cst_4)).mpr (List.mem_toFinset.mpr (List.mem_map_of_mem (by decide))),
   (Finset.singleton_subset_iff (a := Proc.devRef (τ := τ) .tc main_call26_call0_v0)).mpr (List.mem_toFinset.mpr (List.mem_map_of_mem (by decide))),
   (Finset.singleton_subset_iff (a := Proc.devRef (τ := τ) .tc main_call26_call0_v1)).mpr (List.mem_toFinset.mpr (List.mem_map_of_mem (by decide))),
   (Finset.singleton_subset_iff (a := Proc.devRef (τ := τ) .tc main_v595)).mpr (List.mem_toFinset.mpr (List.mem_map_of_mem (by decide))),
   (Finset.singleton_subset_iff (a := Proc.devRef (τ := τ) .tc main_v596)).mpr (List.mem_toFinset.mpr (List.mem_map_of_mem (by decide))),
   (Finset.singleton_subset_iff (a := Proc.devRef (τ := τ) .tc main_v597)).mpr (List.mem_toFinset.mpr (List.mem_map_of_mem (by decide))),
   (Finset.singleton_subset_iff (a := Proc.devRef (τ := τ) .tc main_v598)).mpr (List.mem_toFinset.mpr (List.mem_map_of_mem (by decide))),
   (Finset.singleton_subset_iff (a := Proc.devRef (τ := τ) .tc main_cst_80)).mpr (List.mem_toFinset.mpr (List.mem_map_of_mem (by decide))),
   (Finset.singleton_subset_iff (a := Proc.devRef (τ := τ) .tc main_v599)).mpr (List.mem_toFinset.mpr (List.mem_map_of_mem (by decide))),
   (Finset.singleton_subset_iff (a := Proc.devRef (τ := τ) .tc main_v600)).mpr (List.mem_toFinset.mpr (List.mem_map_of_mem (by decide))),
   (Finset.singleton_subset_iff (a := Proc.devRef (τ := τ) .tc main_v601)).mpr (List.mem_toFinset.mpr (List.mem_map_of_mem (by decide))),
   (Finset.singleton_subset_iff (a := Proc.devRef (τ := τ) .tc main_v602)).mpr (List.mem_toFinset.mpr (List.mem_map_of_mem (by decide))),
   (Finset.singleton_subset_iff (a := Proc.devRef (τ := τ) .tc main_v603)).mpr (List.mem_toFinset.mpr (List.mem_map_of_mem (by decide))),
   (Finset.singleton_subset_iff (a := Proc.devRef (τ := τ) .tc main_v604)).mpr (List.mem_toFinset.mpr (List.mem_map_of_mem (by decide))),
   (Finset.singleton_subset_iff (a := Proc.devRef (τ := τ) .tc main_v605)).mpr (List.mem_toFinset.mpr (List.mem_map_of_mem (by decide))),
   (Finset.singleton_subset_iff (a := Proc.devRef (τ := τ) .tc main_v606)).mpr (List.mem_toFinset.mpr (List.mem_map_of_mem (by decide))),
   (Finset.singleton_subset_iff (a := Proc.devRef (τ := τ) .tc main_v607)).mpr (List.mem_toFinset.mpr (List.mem_map_of_mem (by decide))),
   (Finset.singleton_subset_iff (a := Proc.devRef (τ := τ) .tc main_v608)).mpr (List.mem_toFinset.mpr (List.mem_map_of_mem (by decide))),
   (Finset.singleton_subset_iff (a := Proc.devRef (τ := τ) .tc main_v609)).mpr (List.mem_toFinset.mpr (List.mem_map_of_mem (by decide))),
   (Finset.singleton_subset_iff (a := Proc.devRef (τ := τ) .tc main_v610)).mpr (List.mem_toFinset.mpr (List.mem_map_of_mem (by decide))),
   (Finset.singleton_subset_iff (a := Proc.devRef (τ := τ) .tc main_call27_cst)).mpr (List.mem_toFinset.mpr (List.mem_map_of_mem (by decide))),
   (Finset.singleton_subset_iff (a := Proc.devRef (τ := τ) .tc main_call27_v0)).mpr (List.mem_toFinset.mpr (List.mem_map_of_mem (by decide))),
   (Finset.singleton_subset_iff (a := Proc.devRef (τ := τ) .tc main_v611)).mpr (List.mem_toFinset.mpr (List.mem_map_of_mem (by decide))),
   (Finset.singleton_subset_iff (a := Proc.devRef (τ := τ) .tc main_v612)).mpr (List.mem_toFinset.mpr (List.mem_map_of_mem (by decide))),
   (Finset.singleton_subset_iff (a := Proc.devRef (τ := τ) .tc main_v613)).mpr (List.mem_toFinset.mpr (List.mem_map_of_mem (by decide))),
   (Finset.singleton_subset_iff (a := Proc.devRef (τ := τ) .tc main_v614)).mpr (List.mem_toFinset.mpr (List.mem_map_of_mem (by decide))),
   (Finset.singleton_subset_iff (a := Proc.devRef (τ := τ) .tc main_v615)).mpr (List.mem_toFinset.mpr (List.mem_map_of_mem (by decide))),
   (Finset.singleton_subset_iff (a := Proc.devRef (τ := τ) .tc main_v616)).mpr (List.mem_toFinset.mpr (List.mem_map_of_mem (by decide))),
   (Finset.singleton_subset_iff (a := Proc.devRef (τ := τ) .tc main_v617)).mpr (List.mem_toFinset.mpr (List.mem_map_of_mem (by decide))),
   (Finset.singleton_subset_iff (a := Proc.devRef (τ := τ) .tc main_v618)).mpr (List.mem_toFinset.mpr (List.mem_map_of_mem (by decide))),
   (Finset.singleton_subset_iff (a := Proc.devRef (τ := τ) .tc main_v619)).mpr (List.mem_toFinset.mpr (List.mem_map_of_mem (by decide))),
   (Finset.singleton_subset_iff (a := Proc.devRef (τ := τ) .tc main_v620)).mpr (List.mem_toFinset.mpr (List.mem_map_of_mem (by decide))),
   (Finset.singleton_subset_iff (a := Proc.devRef (τ := τ) .tc main_v621)).mpr (List.mem_toFinset.mpr (List.mem_map_of_mem (by decide))),
   (Finset.singleton_subset_iff (a := Proc.devRef (τ := τ) .tc main_v622)).mpr (List.mem_toFinset.mpr (List.mem_map_of_mem (by decide))),
   (Finset.singleton_subset_iff (a := Proc.devRef (τ := τ) .tc main_v623)).mpr (List.mem_toFinset.mpr (List.mem_map_of_mem (by decide))),
   (Finset.singleton_subset_iff (a := Proc.devRef (τ := τ) .tc main_v624)).mpr (List.mem_toFinset.mpr (List.mem_map_of_mem (by decide))),
   (Finset.singleton_subset_iff (a := Proc.devRef (τ := τ) .tc main_v625)).mpr (List.mem_toFinset.mpr (List.mem_map_of_mem (by decide))),
   (Finset.singleton_subset_iff (a := Proc.devRef (τ := τ) .tc main_v626)).mpr (List.mem_toFinset.mpr (List.mem_map_of_mem (by decide))),
   (Finset.singleton_subset_iff (a := Proc.devRef (τ := τ) .tc main_v627)).mpr (List.mem_toFinset.mpr (List.mem_map_of_mem (by decide))),
   (Finset.singleton_subset_iff (a := Proc.devRef (τ := τ) .tc main_v628)).mpr (List.mem_toFinset.mpr (List.mem_map_of_mem (by decide))),
   (Finset.singleton_subset_iff (a := Proc.devRef (τ := τ) .tc main_v629)).mpr (List.mem_toFinset.mpr (List.mem_map_of_mem (by decide))),
   (Finset.singleton_subset_iff (a := Proc.devRef (τ := τ) .tc main_cst_81)).mpr (List.mem_toFinset.mpr (List.mem_map_of_mem (by decide))),
   (Finset.singleton_subset_iff (a := Proc.devRef (τ := τ) .tc main_v630)).mpr (List.mem_toFinset.mpr (List.mem_map_of_mem (by decide))),
   (Finset.singleton_subset_iff (a := Proc.devRef (τ := τ) .tc main_cst_82)).mpr (List.mem_toFinset.mpr (List.mem_map_of_mem (by decide))),
   (Finset.singleton_subset_iff (a := Proc.devRef (τ := τ) .tc main_v631)).mpr (List.mem_toFinset.mpr (List.mem_map_of_mem (by decide))),
   (Finset.singleton_subset_iff (a := Proc.devRef (τ := τ) .tc main_v632)).mpr (List.mem_toFinset.mpr (List.mem_map_of_mem (by decide))),
   (Finset.singleton_subset_iff (a := Proc.devRef (τ := τ) .tc main_c_83)).mpr (List.mem_toFinset.mpr (List.mem_map_of_mem (by decide))),
   (Finset.singleton_subset_iff (a := Proc.devRef (τ := τ) .tc main_call28_cst)).mpr (List.mem_toFinset.mpr (List.mem_map_of_mem (by decide))),
   (Finset.singleton_subset_iff (a := Proc.devRef (τ := τ) .tc main_call28_v0)).mpr (List.mem_toFinset.mpr (List.mem_map_of_mem (by decide))),
   (Finset.singleton_subset_iff (a := Proc.devRef (τ := τ) .tc main_call28_v1)).mpr (List.mem_toFinset.mpr (List.mem_map_of_mem (by decide))),
   (Finset.singleton_subset_iff (a := Proc.devRef (τ := τ) .tc main_call28_cst_0)).mpr (List.mem_toFinset.mpr (List.mem_map_of_mem (by decide))),
   (Finset.singleton_subset_iff (a := Proc.devRef (τ := τ) .tc main_call28_v2)).mpr (List.mem_toFinset.mpr (List.mem_map_of_mem (by decide))),
   (Finset.singleton_subset_iff (a := Proc.devRef (τ := τ) .tc main_call28_v3)).mpr (List.mem_toFinset.mpr (List.mem_map_of_mem (by decide))),
   (Finset.singleton_subset_iff (a := Proc.devRef (τ := τ) .tc main_call28_v4)).mpr (List.mem_toFinset.mpr (List.mem_map_of_mem (by decide))),
   (Finset.singleton_subset_iff (a := Proc.devRef (τ := τ) .tc main_call28_v5)).mpr (List.mem_toFinset.mpr (List.mem_map_of_mem (by decide))),
   (Finset.singleton_subset_iff (a := Proc.devRef (τ := τ) .tc main_call28_v6)).mpr (List.mem_toFinset.mpr (List.mem_map_of_mem (by decide))),
   (Finset.singleton_subset_iff (a := Proc.devRef (τ := τ) .tc main_call28_v7)).mpr (List.mem_toFinset.mpr (List.mem_map_of_mem (by decide))),
   (Finset.singleton_subset_iff (a := Proc.devRef (τ := τ) .tc main_call28_cst_1)).mpr (List.mem_toFinset.mpr (List.mem_map_of_mem (by decide))),
   (Finset.singleton_subset_iff (a := Proc.devRef (τ := τ) .tc main_call28_v8)).mpr (List.mem_toFinset.mpr (List.mem_map_of_mem (by decide))),
   (Finset.singleton_subset_iff (a := Proc.devRef (τ := τ) .tc main_call28_cst_2)).mpr (List.mem_toFinset.mpr (List.mem_map_of_mem (by decide))),
   (Finset.singleton_subset_iff (a := Proc.devRef (τ := τ) .tc main_call28_v9)).mpr (List.mem_toFinset.mpr (List.mem_map_of_mem (by decide))),
   (Finset.singleton_subset_iff (a := Proc.devRef (τ := τ) .tc main_call28_v10)).mpr (List.mem_toFinset.mpr (List.mem_map_of_mem (by decide))),
   (Finset.singleton_subset_iff (a := Proc.devRef (τ := τ) .tc main_call28_v11)).mpr (List.mem_toFinset.mpr (List.mem_map_of_mem (by decide))),
   (Finset.singleton_subset_iff (a := Proc.devRef (τ := τ) .tc main_call28_cst_3)).mpr (List.mem_toFinset.mpr (List.mem_map_of_mem (by decide))),
   (Finset.singleton_subset_iff (a := Proc.devRef (τ := τ) .tc main_call28_v12)).mpr (List.mem_toFinset.mpr (List.mem_map_of_mem (by decide))),
   (Finset.singleton_subset_iff (a := Proc.devRef (τ := τ) .tc main_call28_cst_4)).mpr (List.mem_toFinset.mpr (List.mem_map_of_mem (by decide))),
   (Finset.singleton_subset_iff (a := Proc.devRef (τ := τ) .tc main_call28_call0_v0)).mpr (List.mem_toFinset.mpr (List.mem_map_of_mem (by decide))),
   (Finset.singleton_subset_iff (a := Proc.devRef (τ := τ) .tc main_call28_call0_v1)).mpr (List.mem_toFinset.mpr (List.mem_map_of_mem (by decide))),
   (Finset.singleton_subset_iff (a := Proc.devRef (τ := τ) .tc main_v633)).mpr (List.mem_toFinset.mpr (List.mem_map_of_mem (by decide)))⟩

/-- A reference the window does not write keeps its contents through it. -/
theorem ops11_keep (V : Valuation τ sig (Elt F)) (r : Ref sig .tc) (h : r ∉ ops11_W) :
    after ops11 V (Proc.devRef .tc r) = V (Proc.devRef .tc r) :=
  after_of_writes_sub ops11 V ops11_writes h

end Cert.ReferenceIdeal.Hand

end
-- ==== Proof.Ref.Ops12.lean ====
import proofs.«414290_j6631429505478_3_alg».proof.Proof.Gen.ReferenceIdeal
import Idealize.ShloMosaic.Lib.StableHlo.Run
import Idealize.ShloMosaic.Lib.Pipeline.Frame

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
set_option maxRecDepth 8192 in
/-- The 83 operations of window 12 of @main, in order, a called function's operations in its call's place. -/
abbrev ops12 : List (HloOp τ sig (Elt F)) :=
  [ StableHlo.unary main_v632 main_v634 (broadcastInDim S1x128 ![1] bcast_S128_S1x128_1 : (⟨S128, .f32⟩ : BufTy).Contents (Elt F) → (⟨S1x128, .f32⟩ : BufTy).Contents (Elt F)),
    StableHlo.unary main_v634 main_v635 (broadcastInDim S50000x128 ![0, 1] bcast_S1x128_S50000x128_0_1 : (⟨S1x128, .f32⟩ : BufTy).Contents (Elt F) → (⟨S50000x128, .f32⟩ : BufTy).Contents (Elt F)),
    StableHlo.binary main_v625 main_v635 main_v636 (subf : (⟨S50000x128, .f32⟩ : BufTy).Contents (Elt F) → (⟨S50000x128, .f32⟩ : BufTy).Contents (Elt F) → (⟨S50000x128, .f32⟩ : BufTy).Contents (Elt F)),
    StableHlo.nullary main_cst_84 (constant S_ .f32 0x3727C5AC#32),
    StableHlo.unary main_cst_84 main_v637 (broadcastInDim S128 ![] bcast_S_S128 : (⟨S_, .f32⟩ : BufTy).Contents (Elt F) → (⟨S128, .f32⟩ : BufTy).Contents (Elt F)),
    StableHlo.binary main_v633 main_v637 main_v638 (addf : (⟨S128, .f32⟩ : BufTy).Contents (Elt F) → (⟨S128, .f32⟩ : BufTy).Contents (Elt F) → (⟨S128, .f32⟩ : BufTy).Contents (Elt F)),
    StableHlo.unary main_v638 main_v639 (Host.rsqrt : (⟨S128, .f32⟩ : BufTy).Contents (Elt F) → (⟨S128, .f32⟩ : BufTy).Contents (Elt F)),
    StableHlo.unary main_v639 main_v640 (broadcastInDim S1x128 ![1] bcast_S128_S1x128_1 : (⟨S128, .f32⟩ : BufTy).Contents (Elt F) → (⟨S1x128, .f32⟩ : BufTy).Contents (Elt F)),
    StableHlo.unary main_v640 main_v641 (broadcastInDim S50000x128 ![0, 1] bcast_S1x128_S50000x128_0_1 : (⟨S1x128, .f32⟩ : BufTy).Contents (Elt F) → (⟨S50000x128, .f32⟩ : BufTy).Contents (Elt F)),
    StableHlo.binary main_v636 main_v641 main_v642 (mulf : (⟨S50000x128, .f32⟩ : BufTy).Contents (Elt F) → (⟨S50000x128, .f32⟩ : BufTy).Contents (Elt F) → (⟨S50000x128, .f32⟩ : BufTy).Contents (Elt F)),
    StableHlo.unary main_v627 main_v643 (broadcastInDim S1x128 ![1] bcast_S128_S1x128_1 : (⟨S128, .f32⟩ : BufTy).Contents (Elt F) → (⟨S1x128, .f32⟩ : BufTy).Contents (Elt F)),
    StableHlo.unary main_v643 main_v644 (broadcastInDim S50000x128 ![0, 1] bcast_S1x128_S50000x128_0_1 : (⟨S1x128, .f32⟩ : BufTy).Contents (Elt F) → (⟨S50000x128, .f32⟩ : BufTy).Contents (Elt F)),
    StableHlo.binary main_v642 main_v644 main_v645 (mulf : (⟨S50000x128, .f32⟩ : BufTy).Contents (Elt F) → (⟨S50000x128, .f32⟩ : BufTy).Contents (Elt F) → (⟨S50000x128, .f32⟩ : BufTy).Contents (Elt F)),
    StableHlo.unary main_v629 main_v646 (broadcastInDim S1x128 ![1] bcast_S128_S1x128_1 : (⟨S128, .f32⟩ : BufTy).Contents (Elt F) → (⟨S1x128, .f32⟩ : BufTy).Contents (Elt F)),
    StableHlo.unary main_v646 main_v647 (broadcastInDim S50000x128 ![0, 1] bcast_S1x128_S50000x128_0_1 : (⟨S1x128, .f32⟩ : BufTy).Contents (Elt F) → (⟨S50000x128, .f32⟩ : BufTy).Contents (Elt F)),
    StableHlo.binary main_v645 main_v647 main_v648 (addf : (⟨S50000x128, .f32⟩ : BufTy).Contents (Elt F) → (⟨S50000x128, .f32⟩ : BufTy).Contents (Elt F) → (⟨S50000x128, .f32⟩ : BufTy).Contents (Elt F)),
    StableHlo.TRef.nullary main_call29.cst (constant S_ .f32 0x00000000#32),
    StableHlo.TRef.unary main_call29.cst main_call29.v0 (broadcastInDim S50000x128 ![] bcast_S_S50000x128),
    StableHlo.TRef.binary (.of main_v648 : StableHlo.TRef sig ⟨S50000x128, .f32⟩) main_call29.v0 main_call29.v1 maximumf,
    StableHlo.unary main_arg3 main_v650 ((extractStridedSlice S1x1 ![4, 2] · slices_S6x3_S1x1_4_2) : (⟨S6x3, .f32⟩ : BufTy).Contents (Elt F) → (⟨S1x1, .f32⟩ : BufTy).Contents (Elt F)),
    StableHlo.reshape main_v650 main_v651 rfl shapeCasts_S1x1_S_,
    StableHlo.unary main_v651 main_v652 (broadcastInDim S50000x128 ![] bcast_S_S50000x128 : (⟨S_, .f32⟩ : BufTy).Contents (Elt F) → (⟨S50000x128, .f32⟩ : BufTy).Contents (Elt F)),
    StableHlo.binary main_v652 main_v649 main_v653 (mulf : (⟨S50000x128, .f32⟩ : BufTy).Contents (Elt F) → (⟨S50000x128, .f32⟩ : BufTy).Contents (Elt F) → (⟨S50000x128, .f32⟩ : BufTy).Contents (Elt F)),
    StableHlo.binary main_v616 main_v653 main_v654 (addf : (⟨S50000x128, .f32⟩ : BufTy).Contents (Elt F) → (⟨S50000x128, .f32⟩ : BufTy).Contents (Elt F) → (⟨S50000x128, .f32⟩ : BufTy).Contents (Elt F)),
    StableHlo.binary main_v527 main_v654 main_v655 (addf : (⟨S50000x128, .f32⟩ : BufTy).Contents (Elt F) → (⟨S50000x128, .f32⟩ : BufTy).Contents (Elt F) → (⟨S50000x128, .f32⟩ : BufTy).Contents (Elt F)),
    StableHlo.nullary main_c_85 (constantI S_ 32 0#32),
    StableHlo.unary main_c_85 main_v656 (broadcastInDim S800000 ![] bcast_S_S800000 : (⟨S_, .i32⟩ : BufTy).Contents (Elt F) → (⟨S800000, .i32⟩ : BufTy).Contents (Elt F)),
    StableHlo.binary main_v1 main_v656 main_v657 (cmpi .slt : (⟨S800000, .i32⟩ : BufTy).Contents (Elt F) → (⟨S800000, .i32⟩ : BufTy).Contents (Elt F) → (⟨S800000, .i1⟩ : BufTy).Contents (Elt F)),
    StableHlo.nullary main_c_86 (constantI S_ 32 50000#32),
    StableHlo.unary main_c_86 main_v658 (broadcastInDim S800000 ![] bcast_S_S800000 : (⟨S_, .i32⟩ : BufTy).Contents (Elt F) → (⟨S800000, .i32⟩ : BufTy).Contents (Elt F)),
    StableHlo.binary main_v1 main_v658 main_v659 (addi : (⟨S800000, .i32⟩ : BufTy).Contents (Elt F) → (⟨S800000, .i32⟩ : BufTy).Contents (Elt F) → (⟨S800000, .i32⟩ : BufTy).Contents (Elt F)),
    StableHlo.ternary main_v657 main_v659 main_v1 main_v660 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v660 main_v661 (broadcastInDim S800000x1 ![0] bcast_S800000_S800000x1_0 : (⟨S800000, .i32⟩ : BufTy).Contents (Elt F) → (⟨S800000x1, .i32⟩ : BufTy).Contents (Elt F)),
    StableHlo.binary main_v398 main_v661 main_v662 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_87 (constant S_ .f32 0x00000000#32),
    StableHlo.unary main_cst_87 main_v663 (broadcastInDim S50000x128 ![] bcast_S_S50000x128 : (⟨S_, .f32⟩ : BufTy).Contents (Elt F) → (⟨S50000x128, .f32⟩ : BufTy).Contents (Elt F)),
    StableHlo.unary main_v3 main_v664 (broadcastInDim S800000x1 ![0] bcast_S800000_S800000x1_0 : (⟨S800000, .i32⟩ : BufTy).Contents (Elt F) → (⟨S800000x1, .i32⟩ : BufTy).Contents (Elt F)),
    StableHlo.ternary main_v663 main_v664 main_v662 main_v665 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v12 main_v666 (broadcastInDim S50000x128 ![0, 1] bcast_S50000x1_S50000x128_0_1 : (⟨S50000x1, .f32⟩ : BufTy).Contents (Elt F) → (⟨S50000x128, .f32⟩ : BufTy).Contents (Elt F)),
    StableHlo.binary main_v665 main_v666 main_v667 (mulf : (⟨S50000x128, .f32⟩ : BufTy).Contents (Elt F) → (⟨S50000x128, .f32⟩ : BufTy).Contents (Elt F) → (⟨S50000x128, .f32⟩ : BufTy).Contents (Elt F)),
    StableHlo.nullary main_cst_88 (constant S_ .f32 0x00000000#32),
    StableHlo.unary main_cst_88 main_v668 (broadcastInDim S50000x128 ![] bcast_S_S50000x128 : (⟨S_, .f32⟩ : BufTy).Contents (Elt F) → (⟨S50000x128, .f32⟩ : BufTy).Contents (Elt F)),
    StableHlo.unary main_arg4 main_v669 ((extractStridedSlice S1x1x128x128 ![5, 0, 0, 0] · slices_S6x3x128x128_S1x1x128x128_5_0_0_0) : (⟨S6x3x128x128, .f32⟩ : BufTy).Contents (Elt F) → (⟨S1x1x128x128, .f32⟩ : BufTy).Contents (Elt F)),
    StableHlo.reshape main_v669 main_v670 rfl shapeCasts_S1x1x128x128_S128x128,
    StableHlo.unary main_v670 main_v671 ((transpose S128x128 [1, 0] · transposes_S128x128_S128x128_1_0) : (⟨S128x128, .f32⟩ : BufTy).Contents (Elt F) → (⟨S128x128, .f32⟩ : BufTy).Contents (Elt F)),
    StableHlo.binary main_v667 main_v671 main_v672 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg5 main_v673 ((extractStridedSlice S1x1x128 ![5, 0, 0] · slices_S6x3x128_S1x1x128_5_0_0) : (⟨S6x3x128, .f32⟩ : BufTy).Contents (Elt F) → (⟨S1x1x128, .f32⟩ : BufTy).Contents (Elt F)),
    StableHlo.reshape main_v673 main_v674 rfl shapeCasts_S1x1x128_S128,
    StableHlo.unary main_v674 main_v675 (broadcastInDim S1x128 ![1] bcast_S128_S1x128_1 : (⟨S128, .f32⟩ : BufTy).Contents (Elt F) → (⟨S1x128, .f32⟩ : BufTy).Contents (Elt F)),
    StableHlo.unary main_v675 main_v676 (broadcastInDim S50000x128 ![0, 1] bcast_S1x128_S50000x128_0_1 : (⟨S1x128, .f32⟩ : BufTy).Contents (Elt F) → (⟨S50000x128, .f32⟩ : BufTy).Contents (Elt F)),
    StableHlo.binary main_v672 main_v676 main_v677 (addf : (⟨S50000x128, .f32⟩ : BufTy).Contents (Elt F) → (⟨S50000x128, .f32⟩ : BufTy).Contents (Elt F) → (⟨S50000x128, .f32⟩ : BufTy).Contents (Elt F)),
    StableHlo.unary main_arg6 main_v678 ((extractStridedSlice S1x1x128 ![5, 0, 0] · slices_S6x3x128_S1x1x128_5_0_0) : (⟨S6x3x128, .f32⟩ : BufTy).Contents (Elt F) → (⟨S1x1x128, .f32⟩ : BufTy).Contents (Elt F)),
    StableHlo.reshape main_v678 main_v679 rfl shapeCasts_S1x1x128_S128,
    StableHlo.unary main_arg7 main_v680 ((extractStridedSlice S1x1x128 ![5, 0, 0] · slices_S6x3x128_S1x1x128_5_0_0) : (⟨S6x3x128, .f32⟩ : BufTy).Contents (Elt F) → (⟨S1x1x128, .f32⟩ : BufTy).Contents (Elt F)),
    StableHlo.reshape main_v680 main_v681 rfl shapeCasts_S1x1x128_S128,
    StableHlo.nullary main_cst_89 (constant S_ .f32 0x00000000#32),
    StableHlo.binary main_v677 main_cst_89 main_v682 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_90 (constant S_ .f32 0x47435000#32),
    StableHlo.unary main_cst_90 main_v683 (broadcastInDim S128 ![] bcast_S_S128 : (⟨S_, .f32⟩ : BufTy).Contents (Elt F) → (⟨S128, .f32⟩ : BufTy).Contents (Elt F)),
    StableHlo.binary main_v682 main_v683 main_v684 (Host.divf : (⟨S128, .f32⟩ : BufTy).Contents (Elt F) → (⟨S128, .f32⟩ : BufTy).Contents (Elt F) → (⟨S128, .f32⟩ : BufTy).Contents (Elt F)),
    StableHlo.nullary main_c_91 (constantI S_ 32 0#32),
    StableHlo.TRef.nullary main_call30.cst (constant S_ .f32 0x00000000#32),
    StableHlo.TRef.binary (.of main_v677 : StableHlo.TRef sig ⟨S50000x128, .f32⟩) main_call30.cst main_call30.v0 (fun x v => Host.reduceAdd x v reducesTo_S50000x128_S128_d0 h_S_),
    StableHlo.TRef.unary main_call30.v0 main_call30.v1 (broadcastInDim S1x128 ![1] bcast_S128_S1x128_1),
    StableHlo.TRef.nullary main_call30.cst_0 (constant S_ .f32 0x47435000#32),
    StableHlo.TRef.unary main_call30.cst_0 main_call30.v2 (broadcastInDim S1x128 ![] bcast_S_S1x128),
    StableHlo.TRef.binary main_call30.v1 main_call30.v2 main_call30.v3 Host.divf,
    StableHlo.TRef.unary main_call30.v3 main_call30.v4 (broadcastInDim S50000x128 ![0, 1] bcast_S1x128_S50000x128_0_1),
    StableHlo.TRef.binary (.of main_v677 : StableHlo.TRef sig ⟨S50000x128, .f32⟩) main_call30.v4 main_call30.v5 subf,
    StableHlo.TRef.binary main_call30.v5 main_call30.v5 main_call30.v6 mulf,
    StableHlo.TRef.unary (.of main_c_91 : StableHlo.TRef sig ⟨S_, .i32⟩) main_call30.v7 (sitofp .f32),
    StableHlo.TRef.nullary main_call30.cst_1 (constant S_ .f32 0x47435000#32),
    StableHlo.TRef.binary main_call30.cst_1 main_call30.v7 main_call30.v8 subf,
    StableHlo.TRef.nullary main_call30.cst_2 (constant S_ .f32 0x00000000#32),
    StableHlo.TRef.binary main_call30.v6 main_call30.cst_2 main_call30.v9 (fun x v => Host.reduceAdd x v reducesTo_S50000x128_S128_d0 h_S_),
    StableHlo.TRef.unary main_call30.v8 main_call30.v10 (broadcastInDim S128 ![] bcast_S_S128),
    StableHlo.TRef.binary main_call30.v9 main_call30.v10 main_call30.v11 Host.divf,
    StableHlo.TRef.nullary main_call30.cst_3 (constant S_ .f32 0x00000000#32),
    StableHlo.TRef.binary main_call30.v8 main_call30.cst_3 main_call30.v12 (cmpf .ogt),
    StableHlo.TRef.nullary main_call30.cst_4 (constant S_ .f32 0x7FC00000#32),
    StableHlo.TRef.unary main_call30.cst_4 main_call30.call0.v0 id,
    StableHlo.TRef.unary main_call30.call0.v0 main_call30.call0.v1 (broadcastInDim S128 ![] bcast_S_S128),
    StableHlo.TRef.ternary main_call30.v12 main_call30.v11 main_call30.call0.v1 main_call30.call0.v2 (fun p a b => select (broadcastInDim S128 ![] bcast_S_S128 p) a b) ]

set_option maxHeartbeats 40000000 in
set_option maxRecDepth 8192 in
/-- Window 12 is the straight line of its operations. -/
theorem main_part12_eq (c : Dev nD) : main_part12 (F := F) c = seq ops12 := by
  chain_rfl

set_option maxHeartbeats 40000000 in
set_option maxRecDepth 8192 in
/-- Each operation touches TensorCore references only. -/
theorem ops12_sub : (ops12 : List (HloOp τ sig (Elt F))).Forall fun op => op.bufs ⊆ tcRefs τ sig :=
  ⟨StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.binary_bufs_sub .., StableHlo.nullary_bufs_sub .., StableHlo.unary_bufs_sub .., StableHlo.unary_bufs_sub .., StableHlo.reshape_bufs_sub .., StableHlo.unary_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩

set_option maxHeartbeats 40000000 in
set_option maxRecDepth 8192 in
/-- Each operation determines what it writes. -/
theorem ops12_fresh : (ops12 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references the window's operations write, in order. -/
abbrev ops12_W : List (Ref sig .tc) :=
  [main_v634, main_v635, main_v636, main_cst_84, main_v637, main_v638, main_v639, main_v640, main_v641, main_v642, main_v643, main_v644, main_v645, main_v646, main_v647, main_v648, main_call29_cst, main_call29_v0, main_v649, main_v650, main_v651, main_v652, main_v653, main_v654, main_v655, main_c_85, main_v656, main_v657, main_c_86, main_v658, main_v659, main_v660, main_v661, main_v662, main_cst_87, main_v663, main_v664, main_v665, main_v666, main_v667, main_cst_88, main_v668, main_v669, main_v670, main_v671, main_v672, main_v673, main_v674, main_v675, main_v676, main_v677, main_v678, main_v679, main_v680, main_v681, main_cst_89, main_v682, main_cst_90, main_v683, main_v684, main_c_91, main_call30_cst, main_call30_v0, main_call30_v1, main_call30_cst_0, main_call30_v2, main_call30_v3, main_call30_v4, main_call30_v5, main_call30_v6, main_call30_v7, main_call30_cst_1, main_call30_v8, main_call30_cst_2, main_call30_v9, main_call30_v10, main_call30_v11, main_call30_cst_3, main_call30_v12, main_call30_cst_4, main_call30_call0_v0, main_call30_call0_v1, main_v685]

set_option maxHeartbeats 40000000 in
set_option maxRecDepth 8192 in
/-- Each operation writes its own result reference, the one listed at its place. -/
theorem ops12_writes : (ops12 : List (HloOp τ sig (Elt F))).Forall fun op => op.writes ⊆ (ops12_W.map (Proc.devRef (τ := τ) .tc)).toFinset :=
  ⟨(Finset.singleton_subset_iff (a := Proc.devRef (τ := τ) .tc main_v634)).mpr (List.mem_toFinset.mpr (List.mem_map_of_mem (by decide))),
   (Finset.singleton_subset_iff (a := Proc.devRef (τ := τ) .tc main_v635)).mpr (List.mem_toFinset.mpr (List.mem_map_of_mem (by decide))),
   (Finset.singleton_subset_iff (a := Proc.devRef (τ := τ) .tc main_v636)).mpr (List.mem_toFinset.mpr (List.mem_map_of_mem (by decide))),
   (Finset.singleton_subset_iff (a := Proc.devRef (τ := τ) .tc main_cst_84)).mpr (List.mem_toFinset.mpr (List.mem_map_of_mem (by decide))),
   (Finset.singleton_subset_iff (a := Proc.devRef (τ := τ) .tc main_v637)).mpr (List.mem_toFinset.mpr (List.mem_map_of_mem (by decide))),
   (Finset.singleton_subset_iff (a := Proc.devRef (τ := τ) .tc main_v638)).mpr (List.mem_toFinset.mpr (List.mem_map_of_mem (by decide))),
   (Finset.singleton_subset_iff (a := Proc.devRef (τ := τ) .tc main_v639)).mpr (List.mem_toFinset.mpr (List.mem_map_of_mem (by decide))),
   (Finset.singleton_subset_iff (a := Proc.devRef (τ := τ) .tc main_v640)).mpr (List.mem_toFinset.mpr (List.mem_map_of_mem (by decide))),
   (Finset.singleton_subset_iff (a := Proc.devRef (τ := τ) .tc main_v641)).mpr (List.mem_toFinset.mpr (List.mem_map_of_mem (by decide))),
   (Finset.singleton_subset_iff (a := Proc.devRef (τ := τ) .tc main_v642)).mpr (List.mem_toFinset.mpr (List.mem_map_of_mem (by decide))),
   (Finset.singleton_subset_iff (a := Proc.devRef (τ := τ) .tc main_v643)).mpr (List.mem_toFinset.mpr (List.mem_map_of_mem (by decide))),
   (Finset.singleton_subset_iff (a := Proc.devRef (τ := τ) .tc main_v644)).mpr (List.mem_toFinset.mpr (List.mem_map_of_mem (by decide))),
   (Finset.singleton_subset_iff (a := Proc.devRef (τ := τ) .tc main_v645)).mpr (List.mem_toFinset.mpr (List.mem_map_of_mem (by decide))),
   (Finset.singleton_subset_iff (a := Proc.devRef (τ := τ) .tc main_v646)).mpr (List.mem_toFinset.mpr (List.mem_map_of_mem (by decide))),
   (Finset.singleton_subset_iff (a := Proc.devRef (τ := τ) .tc main_v647)).mpr (List.mem_toFinset.mpr (List.mem_map_of_mem (by decide))),
   (Finset.singleton_subset_iff (a := Proc.devRef (τ := τ) .tc main_v648)).mpr (List.mem_toFinset.mpr (List.mem_map_of_mem (by decide))),
   (Finset.singleton_subset_iff (a := Proc.devRef (τ := τ) .tc main_call29_cst)).mpr (List.mem_toFinset.mpr (List.mem_map_of_mem (by decide))),
   (Finset.singleton_subset_iff (a := Proc.devRef (τ := τ) .tc main_call29_v0)).mpr (List.mem_toFinset.mpr (List.mem_map_of_mem (by decide))),
   (Finset.singleton_subset_iff (a := Proc.devRef (τ := τ) .tc main_v649)).mpr (List.mem_toFinset.mpr (List.mem_map_of_mem (by decide))),
   (Finset.singleton_subset_iff (a := Proc.devRef (τ := τ) .tc main_v650)).mpr (List.mem_toFinset.mpr (List.mem_map_of_mem (by decide))),
   (Finset.singleton_subset_iff (a := Proc.devRef (τ := τ) .tc main_v651)).mpr (List.mem_toFinset.mpr (List.mem_map_of_mem (by decide))),
   (Finset.singleton_subset_iff (a := Proc.devRef (τ := τ) .tc main_v652)).mpr (List.mem_toFinset.mpr (List.mem_map_of_mem (by decide))),
   (Finset.singleton_subset_iff (a := Proc.devRef (τ := τ) .tc main_v653)).mpr (List.mem_toFinset.mpr (List.mem_map_of_mem (by decide))),
   (Finset.singleton_subset_iff (a := Proc.devRef (τ := τ) .tc main_v654)).mpr (List.mem_toFinset.mpr (List.mem_map_of_mem (by decide))),
   (Finset.singleton_subset_iff (a := Proc.devRef (τ := τ) .tc main_v655)).mpr (List.mem_toFinset.mpr (List.mem_map_of_mem (by decide))),
   (Finset.singleton_subset_iff (a := Proc.devRef (τ := τ) .tc main_c_85)).mpr (List.mem_toFinset.mpr (List.mem_map_of_mem (by decide))),
   (Finset.singleton_subset_iff (a := Proc.devRef (τ := τ) .tc main_v656)).mpr (List.mem_toFinset.mpr (List.mem_map_of_mem (by decide))),
   (Finset.singleton_subset_iff (a := Proc.devRef (τ := τ) .tc main_v657)).mpr (List.mem_toFinset.mpr (List.mem_map_of_mem (by decide))),
   (Finset.singleton_subset_iff (a := Proc.devRef (τ := τ) .tc main_c_86)).mpr (List.mem_toFinset.mpr (List.mem_map_of_mem (by decide))),
   (Finset.singleton_subset_iff (a := Proc.devRef (τ := τ) .tc main_v658)).mpr (List.mem_toFinset.mpr (List.mem_map_of_mem (by decide))),
   (Finset.singleton_subset_iff (a := Proc.devRef (τ := τ) .tc main_v659)).mpr (List.mem_toFinset.mpr (List.mem_map_of_mem (by decide))),
   (Finset.singleton_subset_iff (a := Proc.devRef (τ := τ) .tc main_v660)).mpr (List.mem_toFinset.mpr (List.mem_map_of_mem (by decide))),
   (Finset.singleton_subset_iff (a := Proc.devRef (τ := τ) .tc main_v661)).mpr (List.mem_toFinset.mpr (List.mem_map_of_mem (by decide))),
   (Finset.singleton_subset_iff (a := Proc.devRef (τ := τ) .tc main_v662)).mpr (List.mem_toFinset.mpr (List.mem_map_of_mem (by decide))),
   (Finset.singleton_subset_iff (a := Proc.devRef (τ := τ) .tc main_cst_87)).mpr (List.mem_toFinset.mpr (List.mem_map_of_mem (by decide))),
   (Finset.singleton_subset_iff (a := Proc.devRef (τ := τ) .tc main_v663)).mpr (List.mem_toFinset.mpr (List.mem_map_of_mem (by decide))),
   (Finset.singleton_subset_iff (a := Proc.devRef (τ := τ) .tc main_v664)).mpr (List.mem_toFinset.mpr (List.mem_map_of_mem (by decide))),
   (Finset.singleton_subset_iff (a := Proc.devRef (τ := τ) .tc main_v665)).mpr (List.mem_toFinset.mpr (List.mem_map_of_mem (by decide))),
   (Finset.singleton_subset_iff (a := Proc.devRef (τ := τ) .tc main_v666)).mpr (List.mem_toFinset.mpr (List.mem_map_of_mem (by decide))),
   (Finset.singleton_subset_iff (a := Proc.devRef (τ := τ) .tc main_v667)).mpr (List.mem_toFinset.mpr (List.mem_map_of_mem (by decide))),
   (Finset.singleton_subset_iff (a := Proc.devRef (τ := τ) .tc main_cst_88)).mpr (List.mem_toFinset.mpr (List.mem_map_of_mem (by decide))),
   (Finset.singleton_subset_iff (a := Proc.devRef (τ := τ) .tc main_v668)).mpr (List.mem_toFinset.mpr (List.mem_map_of_mem (by decide))),
   (Finset.singleton_subset_iff (a := Proc.devRef (τ := τ) .tc main_v669)).mpr (List.mem_toFinset.mpr (List.mem_map_of_mem (by decide))),
   (Finset.singleton_subset_iff (a := Proc.devRef (τ := τ) .tc main_v670)).mpr (List.mem_toFinset.mpr (List.mem_map_of_mem (by decide))),
   (Finset.singleton_subset_iff (a := Proc.devRef (τ := τ) .tc main_v671)).mpr (List.mem_toFinset.mpr (List.mem_map_of_mem (by decide))),
   (Finset.singleton_subset_iff (a := Proc.devRef (τ := τ) .tc main_v672)).mpr (List.mem_toFinset.mpr (List.mem_map_of_mem (by decide))),
   (Finset.singleton_subset_iff (a := Proc.devRef (τ := τ) .tc main_v673)).mpr (List.mem_toFinset.mpr (List.mem_map_of_mem (by decide))),
   (Finset.singleton_subset_iff (a := Proc.devRef (τ := τ) .tc main_v674)).mpr (List.mem_toFinset.mpr (List.mem_map_of_mem (by decide))),
   (Finset.singleton_subset_iff (a := Proc.devRef (τ := τ) .tc main_v675)).mpr (List.mem_toFinset.mpr (List.mem_map_of_mem (by decide))),
   (Finset.singleton_subset_iff (a := Proc.devRef (τ := τ) .tc main_v676)).mpr (List.mem_toFinset.mpr (List.mem_map_of_mem (by decide))),
   (Finset.singleton_subset_iff (a := Proc.devRef (τ := τ) .tc main_v677)).mpr (List.mem_toFinset.mpr (List.mem_map_of_mem (by decide))),
   (Finset.singleton_subset_iff (a := Proc.devRef (τ := τ) .tc main_v678)).mpr (List.mem_toFinset.mpr (List.mem_map_of_mem (by decide))),
   (Finset.singleton_subset_iff (a := Proc.devRef (τ := τ) .tc main_v679)).mpr (List.mem_toFinset.mpr (List.mem_map_of_mem (by decide))),
   (Finset.singleton_subset_iff (a := Proc.devRef (τ := τ) .tc main_v680)).mpr (List.mem_toFinset.mpr (List.mem_map_of_mem (by decide))),
   (Finset.singleton_subset_iff (a := Proc.devRef (τ := τ) .tc main_v681)).mpr (List.mem_toFinset.mpr (List.mem_map_of_mem (by decide))),
   (Finset.singleton_subset_iff (a := Proc.devRef (τ := τ) .tc main_cst_89)).mpr (List.mem_toFinset.mpr (List.mem_map_of_mem (by decide))),
   (Finset.singleton_subset_iff (a := Proc.devRef (τ := τ) .tc main_v682)).mpr (List.mem_toFinset.mpr (List.mem_map_of_mem (by decide))),
   (Finset.singleton_subset_iff (a := Proc.devRef (τ := τ) .tc main_cst_90)).mpr (List.mem_toFinset.mpr (List.mem_map_of_mem (by decide))),
   (Finset.singleton_subset_iff (a := Proc.devRef (τ := τ) .tc main_v683)).mpr (List.mem_toFinset.mpr (List.mem_map_of_mem (by decide))),
   (Finset.singleton_subset_iff (a := Proc.devRef (τ := τ) .tc main_v684)).mpr (List.mem_toFinset.mpr (List.mem_map_of_mem (by decide))),
   (Finset.singleton_subset_iff (a := Proc.devRef (τ := τ) .tc main_c_91)).mpr (List.mem_toFinset.mpr (List.mem_map_of_mem (by decide))),
   (Finset.singleton_subset_iff (a := Proc.devRef (τ := τ) .tc main_call30_cst)).mpr (List.mem_toFinset.mpr (List.mem_map_of_mem (by decide))),
   (Finset.singleton_subset_iff (a := Proc.devRef (τ := τ) .tc main_call30_v0)).mpr (List.mem_toFinset.mpr (List.mem_map_of_mem (by decide))),
   (Finset.singleton_subset_iff (a := Proc.devRef (τ := τ) .tc main_call30_v1)).mpr (List.mem_toFinset.mpr (List.mem_map_of_mem (by decide))),
   (Finset.singleton_subset_iff (a := Proc.devRef (τ := τ) .tc main_call30_cst_0)).mpr (List.mem_toFinset.mpr (List.mem_map_of_mem (by decide))),
   (Finset.singleton_subset_iff (a := Proc.devRef (τ := τ) .tc main_call30_v2)).mpr (List.mem_toFinset.mpr (List.mem_map_of_mem (by decide))),
   (Finset.singleton_subset_iff (a := Proc.devRef (τ := τ) .tc main_call30_v3)).mpr (List.mem_toFinset.mpr (List.mem_map_of_mem (by decide))),
   (Finset.singleton_subset_iff (a := Proc.devRef (τ := τ) .tc main_call30_v4)).mpr (List.mem_toFinset.mpr (List.mem_map_of_mem (by decide))),
   (Finset.singleton_subset_iff (a := Proc.devRef (τ := τ) .tc main_call30_v5)).mpr (List.mem_toFinset.mpr (List.mem_map_of_mem (by decide))),
   (Finset.singleton_subset_iff (a := Proc.devRef (τ := τ) .tc main_call30_v6)).mpr (List.mem_toFinset.mpr (List.mem_map_of_mem (by decide))),
   (Finset.singleton_subset_iff (a := Proc.devRef (τ := τ) .tc main_call30_v7)).mpr (List.mem_toFinset.mpr (List.mem_map_of_mem (by decide))),
   (Finset.singleton_subset_iff (a := Proc.devRef (τ := τ) .tc main_call30_cst_1)).mpr (List.mem_toFinset.mpr (List.mem_map_of_mem (by decide))),
   (Finset.singleton_subset_iff (a := Proc.devRef (τ := τ) .tc main_call30_v8)).mpr (List.mem_toFinset.mpr (List.mem_map_of_mem (by decide))),
   (Finset.singleton_subset_iff (a := Proc.devRef (τ := τ) .tc main_call30_cst_2)).mpr (List.mem_toFinset.mpr (List.mem_map_of_mem (by decide))),
   (Finset.singleton_subset_iff (a := Proc.devRef (τ := τ) .tc main_call30_v9)).mpr (List.mem_toFinset.mpr (List.mem_map_of_mem (by decide))),
   (Finset.singleton_subset_iff (a := Proc.devRef (τ := τ) .tc main_call30_v10)).mpr (List.mem_toFinset.mpr (List.mem_map_of_mem (by decide))),
   (Finset.singleton_subset_iff (a := Proc.devRef (τ := τ) .tc main_call30_v11)).mpr (List.mem_toFinset.mpr (List.mem_map_of_mem (by decide))),
   (Finset.singleton_subset_iff (a := Proc.devRef (τ := τ) .tc main_call30_cst_3)).mpr (List.mem_toFinset.mpr (List.mem_map_of_mem (by decide))),
   (Finset.singleton_subset_iff (a := Proc.devRef (τ := τ) .tc main_call30_v12)).mpr (List.mem_toFinset.mpr (List.mem_map_of_mem (by decide))),
   (Finset.singleton_subset_iff (a := Proc.devRef (τ := τ) .tc main_call30_cst_4)).mpr (List.mem_toFinset.mpr (List.mem_map_of_mem (by decide))),
   (Finset.singleton_subset_iff (a := Proc.devRef (τ := τ) .tc main_call30_call0_v0)).mpr (List.mem_toFinset.mpr (List.mem_map_of_mem (by decide))),
   (Finset.singleton_subset_iff (a := Proc.devRef (τ := τ) .tc main_call30_call0_v1)).mpr (List.mem_toFinset.mpr (List.mem_map_of_mem (by decide))),
   (Finset.singleton_subset_iff (a := Proc.devRef (τ := τ) .tc main_v685)).mpr (List.mem_toFinset.mpr (List.mem_map_of_mem (by decide)))⟩

/-- A reference the window does not write keeps its contents through it. -/
theorem ops12_keep (V : Valuation τ sig (Elt F)) (r : Ref sig .tc) (h : r ∉ ops12_W) :
    after ops12 V (Proc.devRef .tc r) = V (Proc.devRef .tc r) :=
  after_of_writes_sub ops12 V ops12_writes h

end Cert.ReferenceIdeal.Hand

end
-- ==== Proof.Ref.Ops13.lean ====
import proofs.«414290_j6631429505478_3_alg».proof.Proof.Gen.ReferenceIdeal
import Idealize.ShloMosaic.Lib.StableHlo.Run
import Idealize.ShloMosaic.Lib.Pipeline.Frame

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
set_option maxRecDepth 8192 in
/-- The 85 operations of window 13 of @main, in order, a called function's operations in its call's place. -/
abbrev ops13 : List (HloOp τ sig (Elt F)) :=
  [ StableHlo.unary main_v684 main_v686 (broadcastInDim S1x128 ![1] bcast_S128_S1x128_1 : (⟨S128, .f32⟩ : BufTy).Contents (Elt F) → (⟨S1x128, .f32⟩ : BufTy).Contents (Elt F)),
    StableHlo.unary main_v686 main_v687 (broadcastInDim S50000x128 ![0, 1] bcast_S1x128_S50000x128_0_1 : (⟨S1x128, .f32⟩ : BufTy).Contents (Elt F) → (⟨S50000x128, .f32⟩ : BufTy).Contents (Elt F)),
    StableHlo.binary main_v677 main_v687 main_v688 (subf : (⟨S50000x128, .f32⟩ : BufTy).Contents (Elt F) → (⟨S50000x128, .f32⟩ : BufTy).Contents (Elt F) → (⟨S50000x128, .f32⟩ : BufTy).Contents (Elt F)),
    StableHlo.nullary main_cst_92 (constant S_ .f32 0x3727C5AC#32),
    StableHlo.unary main_cst_92 main_v689 (broadcastInDim S128 ![] bcast_S_S128 : (⟨S_, .f32⟩ : BufTy).Contents (Elt F) → (⟨S128, .f32⟩ : BufTy).Contents (Elt F)),
    StableHlo.binary main_v685 main_v689 main_v690 (addf : (⟨S128, .f32⟩ : BufTy).Contents (Elt F) → (⟨S128, .f32⟩ : BufTy).Contents (Elt F) → (⟨S128, .f32⟩ : BufTy).Contents (Elt F)),
    StableHlo.unary main_v690 main_v691 (Host.rsqrt : (⟨S128, .f32⟩ : BufTy).Contents (Elt F) → (⟨S128, .f32⟩ : BufTy).Contents (Elt F)),
    StableHlo.unary main_v691 main_v692 (broadcastInDim S1x128 ![1] bcast_S128_S1x128_1 : (⟨S128, .f32⟩ : BufTy).Contents (Elt F) → (⟨S1x128, .f32⟩ : BufTy).Contents (Elt F)),
    StableHlo.unary main_v692 main_v693 (broadcastInDim S50000x128 ![0, 1] bcast_S1x128_S50000x128_0_1 : (⟨S1x128, .f32⟩ : BufTy).Contents (Elt F) → (⟨S50000x128, .f32⟩ : BufTy).Contents (Elt F)),
    StableHlo.binary main_v688 main_v693 main_v694 (mulf : (⟨S50000x128, .f32⟩ : BufTy).Contents (Elt F) → (⟨S50000x128, .f32⟩ : BufTy).Contents (Elt F) → (⟨S50000x128, .f32⟩ : BufTy).Contents (Elt F)),
    StableHlo.unary main_v679 main_v695 (broadcastInDim S1x128 ![1] bcast_S128_S1x128_1 : (⟨S128, .f32⟩ : BufTy).Contents (Elt F) → (⟨S1x128, .f32⟩ : BufTy).Contents (Elt F)),
    StableHlo.unary main_v695 main_v696 (broadcastInDim S50000x128 ![0, 1] bcast_S1x128_S50000x128_0_1 : (⟨S1x128, .f32⟩ : BufTy).Contents (Elt F) → (⟨S50000x128, .f32⟩ : BufTy).Contents (Elt F)),
    StableHlo.binary main_v694 main_v696 main_v697 (mulf : (⟨S50000x128, .f32⟩ : BufTy).Contents (Elt F) → (⟨S50000x128, .f32⟩ : BufTy).Contents (Elt F) → (⟨S50000x128, .f32⟩ : BufTy).Contents (Elt F)),
    StableHlo.unary main_v681 main_v698 (broadcastInDim S1x128 ![1] bcast_S128_S1x128_1 : (⟨S128, .f32⟩ : BufTy).Contents (Elt F) → (⟨S1x128, .f32⟩ : BufTy).Contents (Elt F)),
    StableHlo.unary main_v698 main_v699 (broadcastInDim S50000x128 ![0, 1] bcast_S1x128_S50000x128_0_1 : (⟨S1x128, .f32⟩ : BufTy).Contents (Elt F) → (⟨S50000x128, .f32⟩ : BufTy).Contents (Elt F)),
    StableHlo.binary main_v697 main_v699 main_v700 (addf : (⟨S50000x128, .f32⟩ : BufTy).Contents (Elt F) → (⟨S50000x128, .f32⟩ : BufTy).Contents (Elt F) → (⟨S50000x128, .f32⟩ : BufTy).Contents (Elt F)),
    StableHlo.TRef.nullary main_call31.cst (constant S_ .f32 0x00000000#32),
    StableHlo.TRef.unary main_call31.cst main_call31.v0 (broadcastInDim S50000x128 ![] bcast_S_S50000x128),
    StableHlo.TRef.binary (.of main_v700 : StableHlo.TRef sig ⟨S50000x128, .f32⟩) main_call31.v0 main_call31.v1 maximumf,
    StableHlo.unary main_arg3 main_v702 ((extractStridedSlice S1x1 ![5, 0] · slices_S6x3_S1x1_5_0) : (⟨S6x3, .f32⟩ : BufTy).Contents (Elt F) → (⟨S1x1, .f32⟩ : BufTy).Contents (Elt F)),
    StableHlo.reshape main_v702 main_v703 rfl shapeCasts_S1x1_S_,
    StableHlo.unary main_v703 main_v704 (broadcastInDim S50000x128 ![] bcast_S_S50000x128 : (⟨S_, .f32⟩ : BufTy).Contents (Elt F) → (⟨S50000x128, .f32⟩ : BufTy).Contents (Elt F)),
    StableHlo.binary main_v704 main_v701 main_v705 (mulf : (⟨S50000x128, .f32⟩ : BufTy).Contents (Elt F) → (⟨S50000x128, .f32⟩ : BufTy).Contents (Elt F) → (⟨S50000x128, .f32⟩ : BufTy).Contents (Elt F)),
    StableHlo.binary main_v668 main_v705 main_v706 (addf : (⟨S50000x128, .f32⟩ : BufTy).Contents (Elt F) → (⟨S50000x128, .f32⟩ : BufTy).Contents (Elt F) → (⟨S50000x128, .f32⟩ : BufTy).Contents (Elt F)),
    StableHlo.unary main_arg4 main_v707 ((extractStridedSlice S1x1x128x128 ![5, 1, 0, 0] · slices_S6x3x128x128_S1x1x128x128_5_1_0_0) : (⟨S6x3x128x128, .f32⟩ : BufTy).Contents (Elt F) → (⟨S1x1x128x128, .f32⟩ : BufTy).Contents (Elt F)),
    StableHlo.reshape main_v707 main_v708 rfl shapeCasts_S1x1x128x128_S128x128,
    StableHlo.unary main_v708 main_v709 ((transpose S128x128 [1, 0] · transposes_S128x128_S128x128_1_0) : (⟨S128x128, .f32⟩ : BufTy).Contents (Elt F) → (⟨S128x128, .f32⟩ : BufTy).Contents (Elt F)),
    StableHlo.binary main_v398 main_v709 main_v710 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg5 main_v711 ((extractStridedSlice S1x1x128 ![5, 1, 0] · slices_S6x3x128_S1x1x128_5_1_0) : (⟨S6x3x128, .f32⟩ : BufTy).Contents (Elt F) → (⟨S1x1x128, .f32⟩ : BufTy).Contents (Elt F)),
    StableHlo.reshape main_v711 main_v712 rfl shapeCasts_S1x1x128_S128,
    StableHlo.unary main_v712 main_v713 (broadcastInDim S1x128 ![1] bcast_S128_S1x128_1 : (⟨S128, .f32⟩ : BufTy).Contents (Elt F) → (⟨S1x128, .f32⟩ : BufTy).Contents (Elt F)),
    StableHlo.unary main_v713 main_v714 (broadcastInDim S50000x128 ![0, 1] bcast_S1x128_S50000x128_0_1 : (⟨S1x128, .f32⟩ : BufTy).Contents (Elt F) → (⟨S50000x128, .f32⟩ : BufTy).Contents (Elt F)),
    StableHlo.binary main_v710 main_v714 main_v715 (addf : (⟨S50000x128, .f32⟩ : BufTy).Contents (Elt F) → (⟨S50000x128, .f32⟩ : BufTy).Contents (Elt F) → (⟨S50000x128, .f32⟩ : BufTy).Contents (Elt F)),
    StableHlo.unary main_arg6 main_v716 ((extractStridedSlice S1x1x128 ![5, 1, 0] · slices_S6x3x128_S1x1x128_5_1_0) : (⟨S6x3x128, .f32⟩ : BufTy).Contents (Elt F) → (⟨S1x1x128, .f32⟩ : BufTy).Contents (Elt F)),
    StableHlo.reshape main_v716 main_v717 rfl shapeCasts_S1x1x128_S128,
    StableHlo.unary main_arg7 main_v718 ((extractStridedSlice S1x1x128 ![5, 1, 0] · slices_S6x3x128_S1x1x128_5_1_0) : (⟨S6x3x128, .f32⟩ : BufTy).Contents (Elt F) → (⟨S1x1x128, .f32⟩ : BufTy).Contents (Elt F)),
    StableHlo.reshape main_v718 main_v719 rfl shapeCasts_S1x1x128_S128,
    StableHlo.nullary main_cst_93 (constant S_ .f32 0x00000000#32),
    StableHlo.binary main_v715 main_cst_93 main_v720 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_94 (constant S_ .f32 0x47435000#32),
    StableHlo.unary main_cst_94 main_v721 (broadcastInDim S128 ![] bcast_S_S128 : (⟨S_, .f32⟩ : BufTy).Contents (Elt F) → (⟨S128, .f32⟩ : BufTy).Contents (Elt F)),
    StableHlo.binary main_v720 main_v721 main_v722 (Host.divf : (⟨S128, .f32⟩ : BufTy).Contents (Elt F) → (⟨S128, .f32⟩ : BufTy).Contents (Elt F) → (⟨S128, .f32⟩ : BufTy).Contents (Elt F)),
    StableHlo.nullary main_c_95 (constantI S_ 32 0#32),
    StableHlo.TRef.nullary main_call32.cst (constant S_ .f32 0x00000000#32),
    StableHlo.TRef.binary (.of main_v715 : StableHlo.TRef sig ⟨S50000x128, .f32⟩) main_call32.cst main_call32.v0 (fun x v => Host.reduceAdd x v reducesTo_S50000x128_S128_d0 h_S_),
    StableHlo.TRef.unary main_call32.v0 main_call32.v1 (broadcastInDim S1x128 ![1] bcast_S128_S1x128_1),
    StableHlo.TRef.nullary main_call32.cst_0 (constant S_ .f32 0x47435000#32),
    StableHlo.TRef.unary main_call32.cst_0 main_call32.v2 (broadcastInDim S1x128 ![] bcast_S_S1x128),
    StableHlo.TRef.binary main_call32.v1 main_call32.v2 main_call32.v3 Host.divf,
    StableHlo.TRef.unary main_call32.v3 main_call32.v4 (broadcastInDim S50000x128 ![0, 1] bcast_S1x128_S50000x128_0_1),
    StableHlo.TRef.binary (.of main_v715 : StableHlo.TRef sig ⟨S50000x128, .f32⟩) main_call32.v4 main_call32.v5 subf,
    StableHlo.TRef.binary main_call32.v5 main_call32.v5 main_call32.v6 mulf,
    StableHlo.TRef.unary (.of main_c_95 : StableHlo.TRef sig ⟨S_, .i32⟩) main_call32.v7 (sitofp .f32),
    StableHlo.TRef.nullary main_call32.cst_1 (constant S_ .f32 0x47435000#32),
    StableHlo.TRef.binary main_call32.cst_1 main_call32.v7 main_call32.v8 subf,
    StableHlo.TRef.nullary main_call32.cst_2 (constant S_ .f32 0x00000000#32),
    StableHlo.TRef.binary main_call32.v6 main_call32.cst_2 main_call32.v9 (fun x v => Host.reduceAdd x v reducesTo_S50000x128_S128_d0 h_S_),
    StableHlo.TRef.unary main_call32.v8 main_call32.v10 (broadcastInDim S128 ![] bcast_S_S128),
    StableHlo.TRef.binary main_call32.v9 main_call32.v10 main_call32.v11 Host.divf,
    StableHlo.TRef.nullary main_call32.cst_3 (constant S_ .f32 0x00000000#32),
    StableHlo.TRef.binary main_call32.v8 main_call32.cst_3 main_call32.v12 (cmpf .ogt),
    StableHlo.TRef.nullary main_call32.cst_4 (constant S_ .f32 0x7FC00000#32),
    StableHlo.TRef.unary main_call32.cst_4 main_call32.call0.v0 id,
    StableHlo.TRef.unary main_call32.call0.v0 main_call32.call0.v1 (broadcastInDim S128 ![] bcast_S_S128),
    StableHlo.TRef.ternary main_call32.v12 main_call32.v11 main_call32.call0.v1 main_call32.call0.v2 (fun p a b => select (broadcastInDim S128 ![] bcast_S_S128 p) a b),
    StableHlo.unary main_v722 main_v724 (broadcastInDim S1x128 ![1] bcast_S128_S1x128_1 : (⟨S128, .f32⟩ : BufTy).Contents (Elt F) → (⟨S1x128, .f32⟩ : BufTy).Contents (Elt F)),
    StableHlo.unary main_v724 main_v725 (broadcastInDim S50000x128 ![0, 1] bcast_S1x128_S50000x128_0_1 : (⟨S1x128, .f32⟩ : BufTy).Contents (Elt F) → (⟨S50000x128, .f32⟩ : BufTy).Contents (Elt F)),
    StableHlo.binary main_v715 main_v725 main_v726 (subf : (⟨S50000x128, .f32⟩ : BufTy).Contents (Elt F) → (⟨S50000x128, .f32⟩ : BufTy).Contents (Elt F) → (⟨S50000x128, .f32⟩ : BufTy).Contents (Elt F)),
    StableHlo.nullary main_cst_96 (constant S_ .f32 0x3727C5AC#32),
    StableHlo.unary main_cst_96 main_v727 (broadcastInDim S128 ![] bcast_S_S128 : (⟨S_, .f32⟩ : BufTy).Contents (Elt F) → (⟨S128, .f32⟩ : BufTy).Contents (Elt F)),
    StableHlo.binary main_v723 main_v727 main_v728 (addf : (⟨S128, .f32⟩ : BufTy).Contents (Elt F) → (⟨S128, .f32⟩ : BufTy).Contents (Elt F) → (⟨S128, .f32⟩ : BufTy).Contents (Elt F)),
    StableHlo.unary main_v728 main_v729 (Host.rsqrt : (⟨S128, .f32⟩ : BufTy).Contents (Elt F) → (⟨S128, .f32⟩ : BufTy).Contents (Elt F)),
    StableHlo.unary main_v729 main_v730 (broadcastInDim S1x128 ![1] bcast_S128_S1x128_1 : (⟨S128, .f32⟩ : BufTy).Contents (Elt F) → (⟨S1x128, .f32⟩ : BufTy).Contents (Elt F)),
    StableHlo.unary main_v730 main_v731 (broadcastInDim S50000x128 ![0, 1] bcast_S1x128_S50000x128_0_1 : (⟨S1x128, .f32⟩ : BufTy).Contents (Elt F) → (⟨S50000x128, .f32⟩ : BufTy).Contents (Elt F)),
    StableHlo.binary main_v726 main_v731 main_v732 (mulf : (⟨S50000x128, .f32⟩ : BufTy).Contents (Elt F) → (⟨S50000x128, .f32⟩ : BufTy).Contents (Elt F) → (⟨S50000x128, .f32⟩ : BufTy).Contents (Elt F)),
    StableHlo.unary main_v717 main_v733 (broadcastInDim S1x128 ![1] bcast_S128_S1x128_1 : (⟨S128, .f32⟩ : BufTy).Contents (Elt F) → (⟨S1x128, .f32⟩ : BufTy).Contents (Elt F)),
    StableHlo.unary main_v733 main_v734 (broadcastInDim S50000x128 ![0, 1] bcast_S1x128_S50000x128_0_1 : (⟨S1x128, .f32⟩ : BufTy).Contents (Elt F) → (⟨S50000x128, .f32⟩ : BufTy).Contents (Elt F)),
    StableHlo.binary main_v732 main_v734 main_v735 (mulf : (⟨S50000x128, .f32⟩ : BufTy).Contents (Elt F) → (⟨S50000x128, .f32⟩ : BufTy).Contents (Elt F) → (⟨S50000x128, .f32⟩ : BufTy).Contents (Elt F)),
    StableHlo.unary main_v719 main_v736 (broadcastInDim S1x128 ![1] bcast_S128_S1x128_1 : (⟨S128, .f32⟩ : BufTy).Contents (Elt F) → (⟨S1x128, .f32⟩ : BufTy).Contents (Elt F)),
    StableHlo.unary main_v736 main_v737 (broadcastInDim S50000x128 ![0, 1] bcast_S1x128_S50000x128_0_1 : (⟨S1x128, .f32⟩ : BufTy).Contents (Elt F) → (⟨S50000x128, .f32⟩ : BufTy).Contents (Elt F)),
    StableHlo.binary main_v735 main_v737 main_v738 (addf : (⟨S50000x128, .f32⟩ : BufTy).Contents (Elt F) → (⟨S50000x128, .f32⟩ : BufTy).Contents (Elt F) → (⟨S50000x128, .f32⟩ : BufTy).Contents (Elt F)),
    StableHlo.TRef.nullary main_call33.cst (constant S_ .f32 0x00000000#32),
    StableHlo.TRef.unary main_call33.cst main_call33.v0 (broadcastInDim S50000x128 ![] bcast_S_S50000x128),
    StableHlo.TRef.binary (.of main_v738 : StableHlo.TRef sig ⟨S50000x128, .f32⟩) main_call33.v0 main_call33.v1 maximumf,
    StableHlo.unary main_arg3 main_v740 ((extractStridedSlice S1x1 ![5, 1] · slices_S6x3_S1x1_5_1) : (⟨S6x3, .f32⟩ : BufTy).Contents (Elt F) → (⟨S1x1, .f32⟩ : BufTy).Contents (Elt F)) ]

set_option maxHeartbeats 40000000 in
set_option maxRecDepth 8192 in
/-- Window 13 is the straight line of its operations. -/
theorem main_part13_eq (c : Dev nD) : main_part13 (F := F) c = seq ops13 := by
  chain_rfl

set_option maxHeartbeats 40000000 in
set_option maxRecDepth 8192 in
/-- Each operation touches TensorCore references only. -/
theorem ops13_sub : (ops13 : List (HloOp τ sig (Elt F))).Forall fun op => op.bufs ⊆ tcRefs τ sig :=
  ⟨StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.unary_bufs_sub .., StableHlo.binary_bufs_sub .., StableHlo.binary_bufs_sub .., StableHlo.unary_bufs_sub .., StableHlo.reshape_bufs_sub .., StableHlo.unary_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub ..⟩

set_option maxHeartbeats 40000000 in
set_option maxRecDepth 8192 in
/-- Each operation determines what it writes. -/
theorem ops13_fresh : (ops13 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references the window's operations write, in order. -/
abbrev ops13_W : List (Ref sig .tc) :=
  [main_v686, main_v687, main_v688, main_cst_92, main_v689, main_v690, main_v691, main_v692, main_v693, main_v694, main_v695, main_v696, main_v697, main_v698, main_v699, main_v700, main_call31_cst, main_call31_v0, main_v701, main_v702, main_v703, main_v704, main_v705, main_v706, main_v707, main_v708, main_v709, main_v710, main_v711, main_v712, main_v713, main_v714, main_v715, main_v716, main_v717, main_v718, main_v719, main_cst_93, main_v720, main_cst_94, main_v721, main_v722, main_c_95, main_call32_cst, main_call32_v0, main_call32_v1, main_call32_cst_0, main_call32_v2, main_call32_v3, main_call32_v4, main_call32_v5, main_call32_v6, main_call32_v7, main_call32_cst_1, main_call32_v8, main_call32_cst_2, main_call32_v9, main_call32_v10, main_call32_v11, main_call32_cst_3, main_call32_v12, main_call32_cst_4, main_call32_call0_v0, main_call32_call0_v1, main_v723, main_v724, main_v725, main_v726, main_cst_96, main_v727, main_v728, main_v729, main_v730, main_v731, main_v732, main_v733, main_v734, main_v735, main_v736, main_v737, main_v738, main_call33_cst, main_call33_v0, main_v739, main_v740]

set_option maxHeartbeats 40000000 in
set_option maxRecDepth 8192 in
/-- Each operation writes its own result reference, the one listed at its place. -/
theorem ops13_writes : (ops13 : List (HloOp τ sig (Elt F))).Forall fun op => op.writes ⊆ (ops13_W.map (Proc.devRef (τ := τ) .tc)).toFinset :=
  ⟨(Finset.singleton_subset_iff (a := Proc.devRef (τ := τ) .tc main_v686)).mpr (List.mem_toFinset.mpr (List.mem_map_of_mem (by decide))),
   (Finset.singleton_subset_iff (a := Proc.devRef (τ := τ) .tc main_v687)).mpr (List.mem_toFinset.mpr (List.mem_map_of_mem (by decide))),
   (Finset.singleton_subset_iff (a := Proc.devRef (τ := τ) .tc main_v688)).mpr (List.mem_toFinset.mpr (List.mem_map_of_mem (by decide))),
   (Finset.singleton_subset_iff (a := Proc.devRef (τ := τ) .tc main_cst_92)).mpr (List.mem_toFinset.mpr (List.mem_map_of_mem (by decide))),
   (Finset.singleton_subset_iff (a := Proc.devRef (τ := τ) .tc main_v689)).mpr (List.mem_toFinset.mpr (List.mem_map_of_mem (by decide))),
   (Finset.singleton_subset_iff (a := Proc.devRef (τ := τ) .tc main_v690)).mpr (List.mem_toFinset.mpr (List.mem_map_of_mem (by decide))),
   (Finset.singleton_subset_iff (a := Proc.devRef (τ := τ) .tc main_v691)).mpr (List.mem_toFinset.mpr (List.mem_map_of_mem (by decide))),
   (Finset.singleton_subset_iff (a := Proc.devRef (τ := τ) .tc main_v692)).mpr (List.mem_toFinset.mpr (List.mem_map_of_mem (by decide))),
   (Finset.singleton_subset_iff (a := Proc.devRef (τ := τ) .tc main_v693)).mpr (List.mem_toFinset.mpr (List.mem_map_of_mem (by decide))),
   (Finset.singleton_subset_iff (a := Proc.devRef (τ := τ) .tc main_v694)).mpr (List.mem_toFinset.mpr (List.mem_map_of_mem (by decide))),
   (Finset.singleton_subset_iff (a := Proc.devRef (τ := τ) .tc main_v695)).mpr (List.mem_toFinset.mpr (List.mem_map_of_mem (by decide))),
   (Finset.singleton_subset_iff (a := Proc.devRef (τ := τ) .tc main_v696)).mpr (List.mem_toFinset.mpr (List.mem_map_of_mem (by decide))),
   (Finset.singleton_subset_iff (a := Proc.devRef (τ := τ) .tc main_v697)).mpr (List.mem_toFinset.mpr (List.mem_map_of_mem (by decide))),
   (Finset.singleton_subset_iff (a := Proc.devRef (τ := τ) .tc main_v698)).mpr (List.mem_toFinset.mpr (List.mem_map_of_mem (by decide))),
   (Finset.singleton_subset_iff (a := Proc.devRef (τ := τ) .tc main_v699)).mpr (List.mem_toFinset.mpr (List.mem_map_of_mem (by decide))),
   (Finset.singleton_subset_iff (a := Proc.devRef (τ := τ) .tc main_v700)).mpr (List.mem_toFinset.mpr (List.mem_map_of_mem (by decide))),
   (Finset.singleton_subset_iff (a := Proc.devRef (τ := τ) .tc main_call31_cst)).mpr (List.mem_toFinset.mpr (List.mem_map_of_mem (by decide))),
   (Finset.singleton_subset_iff (a := Proc.devRef (τ := τ) .tc main_call31_v0)).mpr (List.mem_toFinset.mpr (List.mem_map_of_mem (by decide))),
   (Finset.singleton_subset_iff (a := Proc.devRef (τ := τ) .tc main_v701)).mpr (List.mem_toFinset.mpr (List.mem_map_of_mem (by decide))),
   (Finset.singleton_subset_iff (a := Proc.devRef (τ := τ) .tc main_v702)).mpr (List.mem_toFinset.mpr (List.mem_map_of_mem (by decide))),
   (Finset.singleton_subset_iff (a := Proc.devRef (τ := τ) .tc main_v703)).mpr (List.mem_toFinset.mpr (List.mem_map_of_mem (by decide))),
   (Finset.singleton_subset_iff (a := Proc.devRef (τ := τ) .tc main_v704)).mpr (List.mem_toFinset.mpr (List.mem_map_of_mem (by decide))),
   (Finset.singleton_subset_iff (a := Proc.devRef (τ := τ) .tc main_v705)).mpr (List.mem_toFinset.mpr (List.mem_map_of_mem (by decide))),
   (Finset.singleton_subset_iff (a := Proc.devRef (τ := τ) .tc main_v706)).mpr (List.mem_toFinset.mpr (List.mem_map_of_mem (by decide))),
   (Finset.singleton_subset_iff (a := Proc.devRef (τ := τ) .tc main_v707)).mpr (List.mem_toFinset.mpr (List.mem_map_of_mem (by decide))),
   (Finset.singleton_subset_iff (a := Proc.devRef (τ := τ) .tc main_v708)).mpr (List.mem_toFinset.mpr (List.mem_map_of_mem (by decide))),
   (Finset.singleton_subset_iff (a := Proc.devRef (τ := τ) .tc main_v709)).mpr (List.mem_toFinset.mpr (List.mem_map_of_mem (by decide))),
   (Finset.singleton_subset_iff (a := Proc.devRef (τ := τ) .tc main_v710)).mpr (List.mem_toFinset.mpr (List.mem_map_of_mem (by decide))),
   (Finset.singleton_subset_iff (a := Proc.devRef (τ := τ) .tc main_v711)).mpr (List.mem_toFinset.mpr (List.mem_map_of_mem (by decide))),
   (Finset.singleton_subset_iff (a := Proc.devRef (τ := τ) .tc main_v712)).mpr (List.mem_toFinset.mpr (List.mem_map_of_mem (by decide))),
   (Finset.singleton_subset_iff (a := Proc.devRef (τ := τ) .tc main_v713)).mpr (List.mem_toFinset.mpr (List.mem_map_of_mem (by decide))),
   (Finset.singleton_subset_iff (a := Proc.devRef (τ := τ) .tc main_v714)).mpr (List.mem_toFinset.mpr (List.mem_map_of_mem (by decide))),
   (Finset.singleton_subset_iff (a := Proc.devRef (τ := τ) .tc main_v715)).mpr (List.mem_toFinset.mpr (List.mem_map_of_mem (by decide))),
   (Finset.singleton_subset_iff (a := Proc.devRef (τ := τ) .tc main_v716)).mpr (List.mem_toFinset.mpr (List.mem_map_of_mem (by decide))),
   (Finset.singleton_subset_iff (a := Proc.devRef (τ := τ) .tc main_v717)).mpr (List.mem_toFinset.mpr (List.mem_map_of_mem (by decide))),
   (Finset.singleton_subset_iff (a := Proc.devRef (τ := τ) .tc main_v718)).mpr (List.mem_toFinset.mpr (List.mem_map_of_mem (by decide))),
   (Finset.singleton_subset_iff (a := Proc.devRef (τ := τ) .tc main_v719)).mpr (List.mem_toFinset.mpr (List.mem_map_of_mem (by decide))),
   (Finset.singleton_subset_iff (a := Proc.devRef (τ := τ) .tc main_cst_93)).mpr (List.mem_toFinset.mpr (List.mem_map_of_mem (by decide))),
   (Finset.singleton_subset_iff (a := Proc.devRef (τ := τ) .tc main_v720)).mpr (List.mem_toFinset.mpr (List.mem_map_of_mem (by decide))),
   (Finset.singleton_subset_iff (a := Proc.devRef (τ := τ) .tc main_cst_94)).mpr (List.mem_toFinset.mpr (List.mem_map_of_mem (by decide))),
   (Finset.singleton_subset_iff (a := Proc.devRef (τ := τ) .tc main_v721)).mpr (List.mem_toFinset.mpr (List.mem_map_of_mem (by decide))),
   (Finset.singleton_subset_iff (a := Proc.devRef (τ := τ) .tc main_v722)).mpr (List.mem_toFinset.mpr (List.mem_map_of_mem (by decide))),
   (Finset.singleton_subset_iff (a := Proc.devRef (τ := τ) .tc main_c_95)).mpr (List.mem_toFinset.mpr (List.mem_map_of_mem (by decide))),
   (Finset.singleton_subset_iff (a := Proc.devRef (τ := τ) .tc main_call32_cst)).mpr (List.mem_toFinset.mpr (List.mem_map_of_mem (by decide))),
   (Finset.singleton_subset_iff (a := Proc.devRef (τ := τ) .tc main_call32_v0)).mpr (List.mem_toFinset.mpr (List.mem_map_of_mem (by decide))),
   (Finset.singleton_subset_iff (a := Proc.devRef (τ := τ) .tc main_call32_v1)).mpr (List.mem_toFinset.mpr (List.mem_map_of_mem (by decide))),
   (Finset.singleton_subset_iff (a := Proc.devRef (τ := τ) .tc main_call32_cst_0)).mpr (List.mem_toFinset.mpr (List.mem_map_of_mem (by decide))),
   (Finset.singleton_subset_iff (a := Proc.devRef (τ := τ) .tc main_call32_v2)).mpr (List.mem_toFinset.mpr (List.mem_map_of_mem (by decide))),
   (Finset.singleton_subset_iff (a := Proc.devRef (τ := τ) .tc main_call32_v3)).mpr (List.mem_toFinset.mpr (List.mem_map_of_mem (by decide))),
   (Finset.singleton_subset_iff (a := Proc.devRef (τ := τ) .tc main_call32_v4)).mpr (List.mem_toFinset.mpr (List.mem_map_of_mem (by decide))),
   (Finset.singleton_subset_iff (a := Proc.devRef (τ := τ) .tc main_call32_v5)).mpr (List.mem_toFinset.mpr (List.mem_map_of_mem (by decide))),
   (Finset.singleton_subset_iff (a := Proc.devRef (τ := τ) .tc main_call32_v6)).mpr (List.mem_toFinset.mpr (List.mem_map_of_mem (by decide))),
   (Finset.singleton_subset_iff (a := Proc.devRef (τ := τ) .tc main_call32_v7)).mpr (List.mem_toFinset.mpr (List.mem_map_of_mem (by decide))),
   (Finset.singleton_subset_iff (a := Proc.devRef (τ := τ) .tc main_call32_cst_1)).mpr (List.mem_toFinset.mpr (List.mem_map_of_mem (by decide))),
   (Finset.singleton_subset_iff (a := Proc.devRef (τ := τ) .tc main_call32_v8)).mpr (List.mem_toFinset.mpr (List.mem_map_of_mem (by decide))),
   (Finset.singleton_subset_iff (a := Proc.devRef (τ := τ) .tc main_call32_cst_2)).mpr (List.mem_toFinset.mpr (List.mem_map_of_mem (by decide))),
   (Finset.singleton_subset_iff (a := Proc.devRef (τ := τ) .tc main_call32_v9)).mpr (List.mem_toFinset.mpr (List.mem_map_of_mem (by decide))),
   (Finset.singleton_subset_iff (a := Proc.devRef (τ := τ) .tc main_call32_v10)).mpr (List.mem_toFinset.mpr (List.mem_map_of_mem (by decide))),
   (Finset.singleton_subset_iff (a := Proc.devRef (τ := τ) .tc main_call32_v11)).mpr (List.mem_toFinset.mpr (List.mem_map_of_mem (by decide))),
   (Finset.singleton_subset_iff (a := Proc.devRef (τ := τ) .tc main_call32_cst_3)).mpr (List.mem_toFinset.mpr (List.mem_map_of_mem (by decide))),
   (Finset.singleton_subset_iff (a := Proc.devRef (τ := τ) .tc main_call32_v12)).mpr (List.mem_toFinset.mpr (List.mem_map_of_mem (by decide))),
   (Finset.singleton_subset_iff (a := Proc.devRef (τ := τ) .tc main_call32_cst_4)).mpr (List.mem_toFinset.mpr (List.mem_map_of_mem (by decide))),
   (Finset.singleton_subset_iff (a := Proc.devRef (τ := τ) .tc main_call32_call0_v0)).mpr (List.mem_toFinset.mpr (List.mem_map_of_mem (by decide))),
   (Finset.singleton_subset_iff (a := Proc.devRef (τ := τ) .tc main_call32_call0_v1)).mpr (List.mem_toFinset.mpr (List.mem_map_of_mem (by decide))),
   (Finset.singleton_subset_iff (a := Proc.devRef (τ := τ) .tc main_v723)).mpr (List.mem_toFinset.mpr (List.mem_map_of_mem (by decide))),
   (Finset.singleton_subset_iff (a := Proc.devRef (τ := τ) .tc main_v724)).mpr (List.mem_toFinset.mpr (List.mem_map_of_mem (by decide))),
   (Finset.singleton_subset_iff (a := Proc.devRef (τ := τ) .tc main_v725)).mpr (List.mem_toFinset.mpr (List.mem_map_of_mem (by decide))),
   (Finset.singleton_subset_iff (a := Proc.devRef (τ := τ) .tc main_v726)).mpr (List.mem_toFinset.mpr (List.mem_map_of_mem (by decide))),
   (Finset.singleton_subset_iff (a := Proc.devRef (τ := τ) .tc main_cst_96)).mpr (List.mem_toFinset.mpr (List.mem_map_of_mem (by decide))),
   (Finset.singleton_subset_iff (a := Proc.devRef (τ := τ) .tc main_v727)).mpr (List.mem_toFinset.mpr (List.mem_map_of_mem (by decide))),
   (Finset.singleton_subset_iff (a := Proc.devRef (τ := τ) .tc main_v728)).mpr (List.mem_toFinset.mpr (List.mem_map_of_mem (by decide))),
   (Finset.singleton_subset_iff (a := Proc.devRef (τ := τ) .tc main_v729)).mpr (List.mem_toFinset.mpr (List.mem_map_of_mem (by decide))),
   (Finset.singleton_subset_iff (a := Proc.devRef (τ := τ) .tc main_v730)).mpr (List.mem_toFinset.mpr (List.mem_map_of_mem (by decide))),
   (Finset.singleton_subset_iff (a := Proc.devRef (τ := τ) .tc main_v731)).mpr (List.mem_toFinset.mpr (List.mem_map_of_mem (by decide))),
   (Finset.singleton_subset_iff (a := Proc.devRef (τ := τ) .tc main_v732)).mpr (List.mem_toFinset.mpr (List.mem_map_of_mem (by decide))),
   (Finset.singleton_subset_iff (a := Proc.devRef (τ := τ) .tc main_v733)).mpr (List.mem_toFinset.mpr (List.mem_map_of_mem (by decide))),
   (Finset.singleton_subset_iff (a := Proc.devRef (τ := τ) .tc main_v734)).mpr (List.mem_toFinset.mpr (List.mem_map_of_mem (by decide))),
   (Finset.singleton_subset_iff (a := Proc.devRef (τ := τ) .tc main_v735)).mpr (List.mem_toFinset.mpr (List.mem_map_of_mem (by decide))),
   (Finset.singleton_subset_iff (a := Proc.devRef (τ := τ) .tc main_v736)).mpr (List.mem_toFinset.mpr (List.mem_map_of_mem (by decide))),
   (Finset.singleton_subset_iff (a := Proc.devRef (τ := τ) .tc main_v737)).mpr (List.mem_toFinset.mpr (List.mem_map_of_mem (by decide))),
   (Finset.singleton_subset_iff (a := Proc.devRef (τ := τ) .tc main_v738)).mpr (List.mem_toFinset.mpr (List.mem_map_of_mem (by decide))),
   (Finset.singleton_subset_iff (a := Proc.devRef (τ := τ) .tc main_call33_cst)).mpr (List.mem_toFinset.mpr (List.mem_map_of_mem (by decide))),
   (Finset.singleton_subset_iff (a := Proc.devRef (τ := τ) .tc main_call33_v0)).mpr (List.mem_toFinset.mpr (List.mem_map_of_mem (by decide))),
   (Finset.singleton_subset_iff (a := Proc.devRef (τ := τ) .tc main_v739)).mpr (List.mem_toFinset.mpr (List.mem_map_of_mem (by decide))),
   (Finset.singleton_subset_iff (a := Proc.devRef (τ := τ) .tc main_v740)).mpr (List.mem_toFinset.mpr (List.mem_map_of_mem (by decide)))⟩

/-- A reference the window does not write keeps its contents through it. -/
theorem ops13_keep (V : Valuation τ sig (Elt F)) (r : Ref sig .tc) (h : r ∉ ops13_W) :
    after ops13 V (Proc.devRef .tc r) = V (Proc.devRef .tc r) :=
  after_of_writes_sub ops13 V ops13_writes h

end Cert.ReferenceIdeal.Hand

end
-- ==== Proof.Ref.Ops14.lean ====
import proofs.«414290_j6631429505478_3_alg».proof.Proof.Gen.ReferenceIdeal
import Idealize.ShloMosaic.Lib.StableHlo.Run
import Idealize.ShloMosaic.Lib.Pipeline.Frame

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
set_option maxRecDepth 8192 in
/-- The 74 operations of window 14 of @main, in order, a called function's operations in its call's place. -/
abbrev ops14 : List (HloOp τ sig (Elt F)) :=
  [ StableHlo.reshape main_v740 main_v741 rfl shapeCasts_S1x1_S_,
    StableHlo.unary main_v741 main_v742 (broadcastInDim S50000x128 ![] bcast_S_S50000x128 : (⟨S_, .f32⟩ : BufTy).Contents (Elt F) → (⟨S50000x128, .f32⟩ : BufTy).Contents (Elt F)),
    StableHlo.binary main_v742 main_v739 main_v743 (mulf : (⟨S50000x128, .f32⟩ : BufTy).Contents (Elt F) → (⟨S50000x128, .f32⟩ : BufTy).Contents (Elt F) → (⟨S50000x128, .f32⟩ : BufTy).Contents (Elt F)),
    StableHlo.binary main_v706 main_v743 main_v744 (addf : (⟨S50000x128, .f32⟩ : BufTy).Contents (Elt F) → (⟨S50000x128, .f32⟩ : BufTy).Contents (Elt F) → (⟨S50000x128, .f32⟩ : BufTy).Contents (Elt F)),
    StableHlo.unary main_arg4 main_v745 ((extractStridedSlice S1x1x128x128 ![5, 2, 0, 0] · slices_S6x3x128x128_S1x1x128x128_5_2_0_0) : (⟨S6x3x128x128, .f32⟩ : BufTy).Contents (Elt F) → (⟨S1x1x128x128, .f32⟩ : BufTy).Contents (Elt F)),
    StableHlo.reshape main_v745 main_v746 rfl shapeCasts_S1x1x128x128_S128x128,
    StableHlo.unary main_v746 main_v747 ((transpose S128x128 [1, 0] · transposes_S128x128_S128x128_1_0) : (⟨S128x128, .f32⟩ : BufTy).Contents (Elt F) → (⟨S128x128, .f32⟩ : BufTy).Contents (Elt F)),
    StableHlo.binary main_arg2 main_v747 main_v748 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg5 main_v749 ((extractStridedSlice S1x1x128 ![5, 2, 0] · slices_S6x3x128_S1x1x128_5_2_0) : (⟨S6x3x128, .f32⟩ : BufTy).Contents (Elt F) → (⟨S1x1x128, .f32⟩ : BufTy).Contents (Elt F)),
    StableHlo.reshape main_v749 main_v750 rfl shapeCasts_S1x1x128_S128,
    StableHlo.unary main_v750 main_v751 (broadcastInDim S1x128 ![1] bcast_S128_S1x128_1 : (⟨S128, .f32⟩ : BufTy).Contents (Elt F) → (⟨S1x128, .f32⟩ : BufTy).Contents (Elt F)),
    StableHlo.unary main_v751 main_v752 (broadcastInDim S50000x128 ![0, 1] bcast_S1x128_S50000x128_0_1 : (⟨S1x128, .f32⟩ : BufTy).Contents (Elt F) → (⟨S50000x128, .f32⟩ : BufTy).Contents (Elt F)),
    StableHlo.binary main_v748 main_v752 main_v753 (addf : (⟨S50000x128, .f32⟩ : BufTy).Contents (Elt F) → (⟨S50000x128, .f32⟩ : BufTy).Contents (Elt F) → (⟨S50000x128, .f32⟩ : BufTy).Contents (Elt F)),
    StableHlo.unary main_arg6 main_v754 ((extractStridedSlice S1x1x128 ![5, 2, 0] · slices_S6x3x128_S1x1x128_5_2_0) : (⟨S6x3x128, .f32⟩ : BufTy).Contents (Elt F) → (⟨S1x1x128, .f32⟩ : BufTy).Contents (Elt F)),
    StableHlo.reshape main_v754 main_v755 rfl shapeCasts_S1x1x128_S128,
    StableHlo.unary main_arg7 main_v756 ((extractStridedSlice S1x1x128 ![5, 2, 0] · slices_S6x3x128_S1x1x128_5_2_0) : (⟨S6x3x128, .f32⟩ : BufTy).Contents (Elt F) → (⟨S1x1x128, .f32⟩ : BufTy).Contents (Elt F)),
    StableHlo.reshape main_v756 main_v757 rfl shapeCasts_S1x1x128_S128,
    StableHlo.nullary main_cst_97 (constant S_ .f32 0x00000000#32),
    StableHlo.binary main_v753 main_cst_97 main_v758 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_98 (constant S_ .f32 0x47435000#32),
    StableHlo.unary main_cst_98 main_v759 (broadcastInDim S128 ![] bcast_S_S128 : (⟨S_, .f32⟩ : BufTy).Contents (Elt F) → (⟨S128, .f32⟩ : BufTy).Contents (Elt F)),
    StableHlo.binary main_v758 main_v759 main_v760 (Host.divf : (⟨S128, .f32⟩ : BufTy).Contents (Elt F) → (⟨S128, .f32⟩ : BufTy).Contents (Elt F) → (⟨S128, .f32⟩ : BufTy).Contents (Elt F)),
    StableHlo.nullary main_c_99 (constantI S_ 32 0#32),
    StableHlo.TRef.nullary main_call34.cst (constant S_ .f32 0x00000000#32),
    StableHlo.TRef.binary (.of main_v753 : StableHlo.TRef sig ⟨S50000x128, .f32⟩) main_call34.cst main_call34.v0 (fun x v => Host.reduceAdd x v reducesTo_S50000x128_S128_d0 h_S_),
    StableHlo.TRef.unary main_call34.v0 main_call34.v1 (broadcastInDim S1x128 ![1] bcast_S128_S1x128_1),
    StableHlo.TRef.nullary main_call34.cst_0 (constant S_ .f32 0x47435000#32),
    StableHlo.TRef.unary main_call34.cst_0 main_call34.v2 (broadcastInDim S1x128 ![] bcast_S_S1x128),
    StableHlo.TRef.binary main_call34.v1 main_call34.v2 main_call34.v3 Host.divf,
    StableHlo.TRef.unary main_call34.v3 main_call34.v4 (broadcastInDim S50000x128 ![0, 1] bcast_S1x128_S50000x128_0_1),
    StableHlo.TRef.binary (.of main_v753 : StableHlo.TRef sig ⟨S50000x128, .f32⟩) main_call34.v4 main_call34.v5 subf,
    StableHlo.TRef.binary main_call34.v5 main_call34.v5 main_call34.v6 mulf,
    StableHlo.TRef.unary (.of main_c_99 : StableHlo.TRef sig ⟨S_, .i32⟩) main_call34.v7 (sitofp .f32),
    StableHlo.TRef.nullary main_call34.cst_1 (constant S_ .f32 0x47435000#32),
    StableHlo.TRef.binary main_call34.cst_1 main_call34.v7 main_call34.v8 subf,
    StableHlo.TRef.nullary main_call34.cst_2 (constant S_ .f32 0x00000000#32),
    StableHlo.TRef.binary main_call34.v6 main_call34.cst_2 main_call34.v9 (fun x v => Host.reduceAdd x v reducesTo_S50000x128_S128_d0 h_S_),
    StableHlo.TRef.unary main_call34.v8 main_call34.v10 (broadcastInDim S128 ![] bcast_S_S128),
    StableHlo.TRef.binary main_call34.v9 main_call34.v10 main_call34.v11 Host.divf,
    StableHlo.TRef.nullary main_call34.cst_3 (constant S_ .f32 0x00000000#32),
    StableHlo.TRef.binary main_call34.v8 main_call34.cst_3 main_call34.v12 (cmpf .ogt),
    StableHlo.TRef.nullary main_call34.cst_4 (constant S_ .f32 0x7FC00000#32),
    StableHlo.TRef.unary main_call34.cst_4 main_call34.call0.v0 id,
    StableHlo.TRef.unary main_call34.call0.v0 main_call34.call0.v1 (broadcastInDim S128 ![] bcast_S_S128),
    StableHlo.TRef.ternary main_call34.v12 main_call34.v11 main_call34.call0.v1 main_call34.call0.v2 (fun p a b => select (broadcastInDim S128 ![] bcast_S_S128 p) a b),
    StableHlo.unary main_v760 main_v762 (broadcastInDim S1x128 ![1] bcast_S128_S1x128_1 : (⟨S128, .f32⟩ : BufTy).Contents (Elt F) → (⟨S1x128, .f32⟩ : BufTy).Contents (Elt F)),
    StableHlo.unary main_v762 main_v763 (broadcastInDim S50000x128 ![0, 1] bcast_S1x128_S50000x128_0_1 : (⟨S1x128, .f32⟩ : BufTy).Contents (Elt F) → (⟨S50000x128, .f32⟩ : BufTy).Contents (Elt F)),
    StableHlo.binary main_v753 main_v763 main_v764 (subf : (⟨S50000x128, .f32⟩ : BufTy).Contents (Elt F) → (⟨S50000x128, .f32⟩ : BufTy).Contents (Elt F) → (⟨S50000x128, .f32⟩ : BufTy).Contents (Elt F)),
    StableHlo.nullary main_cst_100 (constant S_ .f32 0x3727C5AC#32),
    StableHlo.unary main_cst_100 main_v765 (broadcastInDim S128 ![] bcast_S_S128 : (⟨S_, .f32⟩ : BufTy).Contents (Elt F) → (⟨S128, .f32⟩ : BufTy).Contents (Elt F)),
    StableHlo.binary main_v761 main_v765 main_v766 (addf : (⟨S128, .f32⟩ : BufTy).Contents (Elt F) → (⟨S128, .f32⟩ : BufTy).Contents (Elt F) → (⟨S128, .f32⟩ : BufTy).Contents (Elt F)),
    StableHlo.unary main_v766 main_v767 (Host.rsqrt : (⟨S128, .f32⟩ : BufTy).Contents (Elt F) → (⟨S128, .f32⟩ : BufTy).Contents (Elt F)),
    StableHlo.unary main_v767 main_v768 (broadcastInDim S1x128 ![1] bcast_S128_S1x128_1 : (⟨S128, .f32⟩ : BufTy).Contents (Elt F) → (⟨S1x128, .f32⟩ : BufTy).Contents (Elt F)),
    StableHlo.unary main_v768 main_v769 (broadcastInDim S50000x128 ![0, 1] bcast_S1x128_S50000x128_0_1 : (⟨S1x128, .f32⟩ : BufTy).Contents (Elt F) → (⟨S50000x128, .f32⟩ : BufTy).Contents (Elt F)),
    StableHlo.binary main_v764 main_v769 main_v770 (mulf : (⟨S50000x128, .f32⟩ : BufTy).Contents (Elt F) → (⟨S50000x128, .f32⟩ : BufTy).Contents (Elt F) → (⟨S50000x128, .f32⟩ : BufTy).Contents (Elt F)),
    StableHlo.unary main_v755 main_v771 (broadcastInDim S1x128 ![1] bcast_S128_S1x128_1 : (⟨S128, .f32⟩ : BufTy).Contents (Elt F) → (⟨S1x128, .f32⟩ : BufTy).Contents (Elt F)),
    StableHlo.unary main_v771 main_v772 (broadcastInDim S50000x128 ![0, 1] bcast_S1x128_S50000x128_0_1 : (⟨S1x128, .f32⟩ : BufTy).Contents (Elt F) → (⟨S50000x128, .f32⟩ : BufTy).Contents (Elt F)),
    StableHlo.binary main_v770 main_v772 main_v773 (mulf : (⟨S50000x128, .f32⟩ : BufTy).Contents (Elt F) → (⟨S50000x128, .f32⟩ : BufTy).Contents (Elt F) → (⟨S50000x128, .f32⟩ : BufTy).Contents (Elt F)),
    StableHlo.unary main_v757 main_v774 (broadcastInDim S1x128 ![1] bcast_S128_S1x128_1 : (⟨S128, .f32⟩ : BufTy).Contents (Elt F) → (⟨S1x128, .f32⟩ : BufTy).Contents (Elt F)),
    StableHlo.unary main_v774 main_v775 (broadcastInDim S50000x128 ![0, 1] bcast_S1x128_S50000x128_0_1 : (⟨S1x128, .f32⟩ : BufTy).Contents (Elt F) → (⟨S50000x128, .f32⟩ : BufTy).Contents (Elt F)),
    StableHlo.binary main_v773 main_v775 main_v776 (addf : (⟨S50000x128, .f32⟩ : BufTy).Contents (Elt F) → (⟨S50000x128, .f32⟩ : BufTy).Contents (Elt F) → (⟨S50000x128, .f32⟩ : BufTy).Contents (Elt F)),
    StableHlo.TRef.nullary main_call35.cst (constant S_ .f32 0x00000000#32),
    StableHlo.TRef.unary main_call35.cst main_call35.v0 (broadcastInDim S50000x128 ![] bcast_S_S50000x128),
    StableHlo.TRef.binary (.of main_v776 : StableHlo.TRef sig ⟨S50000x128, .f32⟩) main_call35.v0 main_call35.v1 maximumf,
    StableHlo.unary main_arg3 main_v778 ((extractStridedSlice S1x1 ![5, 2] · slices_S6x3_S1x1_5_2) : (⟨S6x3, .f32⟩ : BufTy).Contents (Elt F) → (⟨S1x1, .f32⟩ : BufTy).Contents (Elt F)),
    StableHlo.reshape main_v778 main_v779 rfl shapeCasts_S1x1_S_,
    StableHlo.unary main_v779 main_v780 (broadcastInDim S50000x128 ![] bcast_S_S50000x128 : (⟨S_, .f32⟩ : BufTy).Contents (Elt F) → (⟨S50000x128, .f32⟩ : BufTy).Contents (Elt F)),
    StableHlo.binary main_v780 main_v777 main_v781 (mulf : (⟨S50000x128, .f32⟩ : BufTy).Contents (Elt F) → (⟨S50000x128, .f32⟩ : BufTy).Contents (Elt F) → (⟨S50000x128, .f32⟩ : BufTy).Contents (Elt F)),
    StableHlo.binary main_v744 main_v781 main_v782 (addf : (⟨S50000x128, .f32⟩ : BufTy).Contents (Elt F) → (⟨S50000x128, .f32⟩ : BufTy).Contents (Elt F) → (⟨S50000x128, .f32⟩ : BufTy).Contents (Elt F)),
    StableHlo.binary main_v655 main_v782 main_v783 (addf : (⟨S50000x128, .f32⟩ : BufTy).Contents (Elt F) → (⟨S50000x128, .f32⟩ : BufTy).Contents (Elt F) → (⟨S50000x128, .f32⟩ : BufTy).Contents (Elt F)),
    StableHlo.unary main_v141 main_v784 (broadcastInDim S1x50000x128 ![1, 2] bcast_S50000x128_S1x50000x128_1_2 : (⟨S50000x128, .f32⟩ : BufTy).Contents (Elt F) → (⟨S1x50000x128, .f32⟩ : BufTy).Contents (Elt F)),
    StableHlo.unary main_v398 main_v785 (broadcastInDim S1x50000x128 ![1, 2] bcast_S50000x128_S1x50000x128_1_2 : (⟨S50000x128, .f32⟩ : BufTy).Contents (Elt F) → (⟨S1x50000x128, .f32⟩ : BufTy).Contents (Elt F)),
    StableHlo.unary main_v783 main_v786 (broadcastInDim S1x50000x128 ![1, 2] bcast_S50000x128_S1x50000x128_1_2 : (⟨S50000x128, .f32⟩ : BufTy).Contents (Elt F) → (⟨S1x50000x128, .f32⟩ : BufTy).Contents (Elt F)),
    StableHlo.nary ![main_v784, main_v785, main_v786] main_v787 (fun u => concatenate S3x50000x128 0 [⟨S1x50000x128, u 0⟩, ⟨S1x50000x128, u 1⟩, ⟨S1x50000x128, u 2⟩] concatenates_S1x50000x128_S1x50000x128_S1x50000x128_S3x50000x128_d0) ]

set_option maxHeartbeats 40000000 in
set_option maxRecDepth 8192 in
/-- Window 14 is the straight line of its operations. -/
theorem main_part14_eq (c : Dev nD) : main_part14 (F := F) c = seq ops14 := by
  chain_rfl

set_option maxHeartbeats 40000000 in
set_option maxRecDepth 8192 in
/-- Each operation touches TensorCore references only. -/
theorem ops14_sub : (ops14 : List (HloOp τ sig (Elt F))).Forall fun op => op.bufs ⊆ tcRefs τ sig :=
  ⟨StableHlo.reshape_bufs_sub .., StableHlo.unary_bufs_sub .., StableHlo.binary_bufs_sub .., StableHlo.binary_bufs_sub .., StableHlo.unary_bufs_sub .., StableHlo.reshape_bufs_sub .., StableHlo.unary_bufs_sub .., StableHlo.binary_bufs_sub .., StableHlo.unary_bufs_sub .., StableHlo.reshape_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.unary_bufs_sub .., StableHlo.binary_bufs_sub .., StableHlo.binary_bufs_sub .., StableHlo.binary_bufs_sub .., StableHlo.unary_bufs_sub .., StableHlo.unary_bufs_sub .., StableHlo.unary_bufs_sub .., StableHlo.nary_bufs_sub ..⟩

set_option maxHeartbeats 40000000 in
set_option maxRecDepth 8192 in
/-- Each operation determines what it writes. -/
theorem ops14_fresh : (ops14 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references the window's operations write, in order. -/
abbrev ops14_W : List (Ref sig .tc) :=
  [main_v741, main_v742, main_v743, main_v744, main_v745, main_v746, main_v747, main_v748, main_v749, main_v750, main_v751, main_v752, main_v753, main_v754, main_v755, main_v756, main_v757, main_cst_97, main_v758, main_cst_98, main_v759, main_v760, main_c_99, main_call34_cst, main_call34_v0, main_call34_v1, main_call34_cst_0, main_call34_v2, main_call34_v3, main_call34_v4, main_call34_v5, main_call34_v6, main_call34_v7, main_call34_cst_1, main_call34_v8, main_call34_cst_2, main_call34_v9, main_call34_v10, main_call34_v11, main_call34_cst_3, main_call34_v12, main_call34_cst_4, main_call34_call0_v0, main_call34_call0_v1, main_v761, main_v762, main_v763, main_v764, main_cst_100, main_v765, main_v766, main_v767, main_v768, main_v769, main_v770, main_v771, main_v772, main_v773, main_v774, main_v775, main_v776, main_call35_cst, main_call35_v0, main_v777, main_v778, main_v779, main_v780, main_v781, main_v782, main_v783, main_v784, main_v785, main_v786, main_v787]

set_option maxHeartbeats 40000000 in
set_option maxRecDepth 8192 in
/-- Each operation writes its own result reference, the one listed at its place. -/
theorem ops14_writes : (ops14 : List (HloOp τ sig (Elt F))).Forall fun op => op.writes ⊆ (ops14_W.map (Proc.devRef (τ := τ) .tc)).toFinset :=
  ⟨(Finset.singleton_subset_iff (a := Proc.devRef (τ := τ) .tc main_v741)).mpr (List.mem_toFinset.mpr (List.mem_map_of_mem (by decide))),
   (Finset.singleton_subset_iff (a := Proc.devRef (τ := τ) .tc main_v742)).mpr (List.mem_toFinset.mpr (List.mem_map_of_mem (by decide))),
   (Finset.singleton_subset_iff (a := Proc.devRef (τ := τ) .tc main_v743)).mpr (List.mem_toFinset.mpr (List.mem_map_of_mem (by decide))),
   (Finset.singleton_subset_iff (a := Proc.devRef (τ := τ) .tc main_v744)).mpr (List.mem_toFinset.mpr (List.mem_map_of_mem (by decide))),
   (Finset.singleton_subset_iff (a := Proc.devRef (τ := τ) .tc main_v745)).mpr (List.mem_toFinset.mpr (List.mem_map_of_mem (by decide))),
   (Finset.singleton_subset_iff (a := Proc.devRef (τ := τ) .tc main_v746)).mpr (List.mem_toFinset.mpr (List.mem_map_of_mem (by decide))),
   (Finset.singleton_subset_iff (a := Proc.devRef (τ := τ) .tc main_v747)).mpr (List.mem_toFinset.mpr (List.mem_map_of_mem (by decide))),
   (Finset.singleton_subset_iff (a := Proc.devRef (τ := τ) .tc main_v748)).mpr (List.mem_toFinset.mpr (List.mem_map_of_mem (by decide))),
   (Finset.singleton_subset_iff (a := Proc.devRef (τ := τ) .tc main_v749)).mpr (List.mem_toFinset.mpr (List.mem_map_of_mem (by decide))),
   (Finset.singleton_subset_iff (a := Proc.devRef (τ := τ) .tc main_v750)).mpr (List.mem_toFinset.mpr (List.mem_map_of_mem (by decide))),
   (Finset.singleton_subset_iff (a := Proc.devRef (τ := τ) .tc main_v751)).mpr (List.mem_toFinset.mpr (List.mem_map_of_mem (by decide))),
   (Finset.singleton_subset_iff (a := Proc.devRef (τ := τ) .tc main_v752)).mpr (List.mem_toFinset.mpr (List.mem_map_of_mem (by decide))),
   (Finset.singleton_subset_iff (a := Proc.devRef (τ := τ) .tc main_v753)).mpr (List.mem_toFinset.mpr (List.mem_map_of_mem (by decide))),
   (Finset.singleton_subset_iff (a := Proc.devRef (τ := τ) .tc main_v754)).mpr (List.mem_toFinset.mpr (List.mem_map_of_mem (by decide))),
   (Finset.singleton_subset_iff (a := Proc.devRef (τ := τ) .tc main_v755)).mpr (List.mem_toFinset.mpr (List.mem_map_of_mem (by decide))),
   (Finset.singleton_subset_iff (a := Proc.devRef (τ := τ) .tc main_v756)).mpr (List.mem_toFinset.mpr (List.mem_map_of_mem (by decide))),
   (Finset.singleton_subset_iff (a := Proc.devRef (τ := τ) .tc main_v757)).mpr (List.mem_toFinset.mpr (List.mem_map_of_mem (by decide))),
   (Finset.singleton_subset_iff (a := Proc.devRef (τ := τ) .tc main_cst_97)).mpr (List.mem_toFinset.mpr (List.mem_map_of_mem (by decide))),
   (Finset.singleton_subset_iff (a := Proc.devRef (τ := τ) .tc main_v758)).mpr (List.mem_toFinset.mpr (List.mem_map_of_mem (by decide))),
   (Finset.singleton_subset_iff (a := Proc.devRef (τ := τ) .tc main_cst_98)).mpr (List.mem_toFinset.mpr (List.mem_map_of_mem (by decide))),
   (Finset.singleton_subset_iff (a := Proc.devRef (τ := τ) .tc main_v759)).mpr (List.mem_toFinset.mpr (List.mem_map_of_mem (by decide))),
   (Finset.singleton_subset_iff (a := Proc.devRef (τ := τ) .tc main_v760)).mpr (List.mem_toFinset.mpr (List.mem_map_of_mem (by decide))),
   (Finset.singleton_subset_iff (a := Proc.devRef (τ := τ) .tc main_c_99)).mpr (List.mem_toFinset.mpr (List.mem_map_of_mem (by decide))),
   (Finset.singleton_subset_iff (a := Proc.devRef (τ := τ) .tc main_call34_cst)).mpr (List.mem_toFinset.mpr (List.mem_map_of_mem (by decide))),
   (Finset.singleton_subset_iff (a := Proc.devRef (τ := τ) .tc main_call34_v0)).mpr (List.mem_toFinset.mpr (List.mem_map_of_mem (by decide))),
   (Finset.singleton_subset_iff (a := Proc.devRef (τ := τ) .tc main_call34_v1)).mpr (List.mem_toFinset.mpr (List.mem_map_of_mem (by decide))),
   (Finset.singleton_subset_iff (a := Proc.devRef (τ := τ) .tc main_call34_cst_0)).mpr (List.mem_toFinset.mpr (List.mem_map_of_mem (by decide))),
   (Finset.singleton_subset_iff (a := Proc.devRef (τ := τ) .tc main_call34_v2)).mpr (List.mem_toFinset.mpr (List.mem_map_of_mem (by decide))),
   (Finset.singleton_subset_iff (a := Proc.devRef (τ := τ) .tc main_call34_v3)).mpr (List.mem_toFinset.mpr (List.mem_map_of_mem (by decide))),
   (Finset.singleton_subset_iff (a := Proc.devRef (τ := τ) .tc main_call34_v4)).mpr (List.mem_toFinset.mpr (List.mem_map_of_mem (by decide))),
   (Finset.singleton_subset_iff (a := Proc.devRef (τ := τ) .tc main_call34_v5)).mpr (List.mem_toFinset.mpr (List.mem_map_of_mem (by decide))),
   (Finset.singleton_subset_iff (a := Proc.devRef (τ := τ) .tc main_call34_v6)).mpr (List.mem_toFinset.mpr (List.mem_map_of_mem (by decide))),
   (Finset.singleton_subset_iff (a := Proc.devRef (τ := τ) .tc main_call34_v7)).mpr (List.mem_toFinset.mpr (List.mem_map_of_mem (by decide))),
   (Finset.singleton_subset_iff (a := Proc.devRef (τ := τ) .tc main_call34_cst_1)).mpr (List.mem_toFinset.mpr (List.mem_map_of_mem (by decide))),
   (Finset.singleton_subset_iff (a := Proc.devRef (τ := τ) .tc main_call34_v8)).mpr (List.mem_toFinset.mpr (List.mem_map_of_mem (by decide))),
   (Finset.singleton_subset_iff (a := Proc.devRef (τ := τ) .tc main_call34_cst_2)).mpr (List.mem_toFinset.mpr (List.mem_map_of_mem (by decide))),
   (Finset.singleton_subset_iff (a := Proc.devRef (τ := τ) .tc main_call34_v9)).mpr (List.mem_toFinset.mpr (List.mem_map_of_mem (by decide))),
   (Finset.singleton_subset_iff (a := Proc.devRef (τ := τ) .tc main_call34_v10)).mpr (List.mem_toFinset.mpr (List.mem_map_of_mem (by decide))),
   (Finset.singleton_subset_iff (a := Proc.devRef (τ := τ) .tc main_call34_v11)).mpr (List.mem_toFinset.mpr (List.mem_map_of_mem (by decide))),
   (Finset.singleton_subset_iff (a := Proc.devRef (τ := τ) .tc main_call34_cst_3)).mpr (List.mem_toFinset.mpr (List.mem_map_of_mem (by decide))),
   (Finset.singleton_subset_iff (a := Proc.devRef (τ := τ) .tc main_call34_v12)).mpr (List.mem_toFinset.mpr (List.mem_map_of_mem (by decide))),
   (Finset.singleton_subset_iff (a := Proc.devRef (τ := τ) .tc main_call34_cst_4)).mpr (List.mem_toFinset.mpr (List.mem_map_of_mem (by decide))),
   (Finset.singleton_subset_iff (a := Proc.devRef (τ := τ) .tc main_call34_call0_v0)).mpr (List.mem_toFinset.mpr (List.mem_map_of_mem (by decide))),
   (Finset.singleton_subset_iff (a := Proc.devRef (τ := τ) .tc main_call34_call0_v1)).mpr (List.mem_toFinset.mpr (List.mem_map_of_mem (by decide))),
   (Finset.singleton_subset_iff (a := Proc.devRef (τ := τ) .tc main_v761)).mpr (List.mem_toFinset.mpr (List.mem_map_of_mem (by decide))),
   (Finset.singleton_subset_iff (a := Proc.devRef (τ := τ) .tc main_v762)).mpr (List.mem_toFinset.mpr (List.mem_map_of_mem (by decide))),
   (Finset.singleton_subset_iff (a := Proc.devRef (τ := τ) .tc main_v763)).mpr (List.mem_toFinset.mpr (List.mem_map_of_mem (by decide))),
   (Finset.singleton_subset_iff (a := Proc.devRef (τ := τ) .tc main_v764)).mpr (List.mem_toFinset.mpr (List.mem_map_of_mem (by decide))),
   (Finset.singleton_subset_iff (a := Proc.devRef (τ := τ) .tc main_cst_100)).mpr (List.mem_toFinset.mpr (List.mem_map_of_mem (by decide))),
   (Finset.singleton_subset_iff (a := Proc.devRef (τ := τ) .tc main_v765)).mpr (List.mem_toFinset.mpr (List.mem_map_of_mem (by decide))),
   (Finset.singleton_subset_iff (a := Proc.devRef (τ := τ) .tc main_v766)).mpr (List.mem_toFinset.mpr (List.mem_map_of_mem (by decide))),
   (Finset.singleton_subset_iff (a := Proc.devRef (τ := τ) .tc main_v767)).mpr (List.mem_toFinset.mpr (List.mem_map_of_mem (by decide))),
   (Finset.singleton_subset_iff (a := Proc.devRef (τ := τ) .tc main_v768)).mpr (List.mem_toFinset.mpr (List.mem_map_of_mem (by decide))),
   (Finset.singleton_subset_iff (a := Proc.devRef (τ := τ) .tc main_v769)).mpr (List.mem_toFinset.mpr (List.mem_map_of_mem (by decide))),
   (Finset.singleton_subset_iff (a := Proc.devRef (τ := τ) .tc main_v770)).mpr (List.mem_toFinset.mpr (List.mem_map_of_mem (by decide))),
   (Finset.singleton_subset_iff (a := Proc.devRef (τ := τ) .tc main_v771)).mpr (List.mem_toFinset.mpr (List.mem_map_of_mem (by decide))),
   (Finset.singleton_subset_iff (a := Proc.devRef (τ := τ) .tc main_v772)).mpr (List.mem_toFinset.mpr (List.mem_map_of_mem (by decide))),
   (Finset.singleton_subset_iff (a := Proc.devRef (τ := τ) .tc main_v773)).mpr (List.mem_toFinset.mpr (List.mem_map_of_mem (by decide))),
   (Finset.singleton_subset_iff (a := Proc.devRef (τ := τ) .tc main_v774)).mpr (List.mem_toFinset.mpr (List.mem_map_of_mem (by decide))),
   (Finset.singleton_subset_iff (a := Proc.devRef (τ := τ) .tc main_v775)).mpr (List.mem_toFinset.mpr (List.mem_map_of_mem (by decide))),
   (Finset.singleton_subset_iff (a := Proc.devRef (τ := τ) .tc main_v776)).mpr (List.mem_toFinset.mpr (List.mem_map_of_mem (by decide))),
   (Finset.singleton_subset_iff (a := Proc.devRef (τ := τ) .tc main_call35_cst)).mpr (List.mem_toFinset.mpr (List.mem_map_of_mem (by decide))),
   (Finset.singleton_subset_iff (a := Proc.devRef (τ := τ) .tc main_call35_v0)).mpr (List.mem_toFinset.mpr (List.mem_map_of_mem (by decide))),
   (Finset.singleton_subset_iff (a := Proc.devRef (τ := τ) .tc main_v777)).mpr (List.mem_toFinset.mpr (List.mem_map_of_mem (by decide))),
   (Finset.singleton_subset_iff (a := Proc.devRef (τ := τ) .tc main_v778)).mpr (List.mem_toFinset.mpr (List.mem_map_of_mem (by decide))),
   (Finset.singleton_subset_iff (a := Proc.devRef (τ := τ) .tc main_v779)).mpr (List.mem_toFinset.mpr (List.mem_map_of_mem (by decide))),
   (Finset.singleton_subset_iff (a := Proc.devRef (τ := τ) .tc main_v780)).mpr (List.mem_toFinset.mpr (List.mem_map_of_mem (by decide))),
   (Finset.singleton_subset_iff (a := Proc.devRef (τ := τ) .tc main_v781)).mpr (List.mem_toFinset.mpr (List.mem_map_of_mem (by decide))),
   (Finset.singleton_subset_iff (a := Proc.devRef (τ := τ) .tc main_v782)).mpr (List.mem_toFinset.mpr (List.mem_map_of_mem (by decide))),
   (Finset.singleton_subset_iff (a := Proc.devRef (τ := τ) .tc main_v783)).mpr (List.mem_toFinset.mpr (List.mem_map_of_mem (by decide))),
   (Finset.singleton_subset_iff (a := Proc.devRef (τ := τ) .tc main_v784)).mpr (List.mem_toFinset.mpr (List.mem_map_of_mem (by decide))),
   (Finset.singleton_subset_iff (a := Proc.devRef (τ := τ) .tc main_v785)).mpr (List.mem_toFinset.mpr (List.mem_map_of_mem (by decide))),
   (Finset.singleton_subset_iff (a := Proc.devRef (τ := τ) .tc main_v786)).mpr (List.mem_toFinset.mpr (List.mem_map_of_mem (by decide))),
   (Finset.singleton_subset_iff (a := Proc.devRef (τ := τ) .tc main_v787)).mpr (List.mem_toFinset.mpr (List.mem_map_of_mem (by decide)))⟩

/-- A reference the window does not write keeps its contents through it. -/
theorem ops14_keep (V : Valuation τ sig (Elt F)) (r : Ref sig .tc) (h : r ∉ ops14_W) :
    after ops14 V (Proc.devRef .tc r) = V (Proc.devRef .tc r) :=
  after_of_writes_sub ops14 V ops14_writes h

end Cert.ReferenceIdeal.Hand

end
-- ==== Proof.Ref.Run.lean ====
import proofs.«414290_j6631429505478_3_alg».proof.Proof.Ref.Ops0
import proofs.«414290_j6631429505478_3_alg».proof.Proof.Ref.Ops1
import proofs.«414290_j6631429505478_3_alg».proof.Proof.Ref.Ops2
import proofs.«414290_j6631429505478_3_alg».proof.Proof.Ref.Ops3
import proofs.«414290_j6631429505478_3_alg».proof.Proof.Ref.Ops4
import proofs.«414290_j6631429505478_3_alg».proof.Proof.Ref.Ops5
import proofs.«414290_j6631429505478_3_alg».proof.Proof.Ref.Ops6
import proofs.«414290_j6631429505478_3_alg».proof.Proof.Ref.Ops7
import proofs.«414290_j6631429505478_3_alg».proof.Proof.Ref.Ops8
import proofs.«414290_j6631429505478_3_alg».proof.Proof.Ref.Ops9
import proofs.«414290_j6631429505478_3_alg».proof.Proof.Ref.Ops10
import proofs.«414290_j6631429505478_3_alg».proof.Proof.Ref.Ops11
import proofs.«414290_j6631429505478_3_alg».proof.Proof.Ref.Ops12
import proofs.«414290_j6631429505478_3_alg».proof.Proof.Ref.Ops13
import proofs.«414290_j6631429505478_3_alg».proof.Proof.Ref.Ops14
import Idealize.ShloMosaic.Lib.StableHlo.Run
import Idealize.ShloMosaic.Lib.Pipeline.Frame
import Idealize.ShloMosaic.PureOps.Ideal

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- A property of every element of two lists holds of every element of their concatenation. -/
theorem forall_append {α : Type} {p : α → Prop} {l₁ l₂ : List α} (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)

/-- @main's 1305 operations, in order: the fifteen windows' lists one after the other. -/
abbrev ops : List (HloOp τ sig (Elt F)) :=
  ops0 ++ (ops1 ++ (ops2 ++ (ops3 ++ (ops4 ++ (ops5 ++ (ops6 ++ (ops7 ++ (ops8 ++ (ops9 ++ (ops10 ++ (ops11 ++ (ops12 ++ (ops13 ++ (ops14))))))))))))))

/-- @main is the straight line of its operations: each window is the line of its own, and a line after a line is
    the line of the concatenation. -/
theorem main_eq (c : Dev nD) : main (F := F) c = seq ops := by
  show (main_part0 (F := F) c >>= fun _ => main_part1 (F := F) c >>= fun _ => main_part2 (F := F) c >>= fun _ => main_part3 (F := F) c >>= fun _ => main_part4 (F := F) c >>= fun _ => main_part5 (F := F) c >>= fun _ => main_part6 (F := F) c >>= fun _ => main_part7 (F := F) c >>= fun _ => main_part8 (F := F) c >>= fun _ => main_part9 (F := F) c >>= fun _ => main_part10 (F := F) c >>= fun _ => main_part11 (F := F) c >>= fun _ => main_part12 (F := F) c >>= fun _ => main_part13 (F := F) c >>= fun _ => main_part14 (F := F) c) = _
  rewrite [main_part0_eq, main_part1_eq, main_part2_eq, main_part3_eq, main_part4_eq, main_part5_eq, main_part6_eq, main_part7_eq, main_part8_eq, main_part9_eq, main_part10_eq, main_part11_eq, main_part12_eq, main_part13_eq, main_part14_eq]
  simp only [ops, seq_append]

/-- No TensorCore buffer is scoped. -/
theorem scopedRefs_eq : (Finset.univ.filter fun b : Ref sig .tc => b.isScoped) = ∅ := by decide
/-- No semaphore is scoped. -/
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  forall_append ops0_sub (forall_append ops1_sub (forall_append ops2_sub (forall_append ops3_sub (forall_append ops4_sub (forall_append ops5_sub (forall_append ops6_sub (forall_append ops7_sub (forall_append ops8_sub (forall_append ops9_sub (forall_append ops10_sub (forall_append ops11_sub (forall_append ops12_sub (forall_append ops13_sub (ops14_sub))))))))))))))

/-- Every operation determines what it writes. -/
theorem ops_fresh : ∀ op ∈ (ops : List (HloOp τ sig (Elt F))), op.fresh = ∅ :=
  List.forall_iff_forall_mem.mp (forall_append ops0_fresh (forall_append ops1_fresh (forall_append ops2_fresh (forall_append ops3_fresh (forall_append ops4_fresh (forall_append ops5_fresh (forall_append ops6_fresh (forall_append ops7_fresh (forall_append ops8_fresh (forall_append ops9_fresh (forall_append ops10_fresh (forall_append ops11_fresh (forall_append ops12_fresh (forall_append ops13_fresh (ops14_fresh)))))))))))))))

/-- From any memory with zero counters, every weakly fair execution of @main terminates, and every TensorCore buffer
    ends at the fold of the operations' results over the launch contents. -/
theorem run_all (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

/-- The fold over all the operations is the windows' folds one after the other. -/
theorem after_ops (V : Valuation τ sig (Elt F)) :
    after ops V = after ops14 (after ops13 (after ops12 (after ops11 (after ops10 (after ops9 (after ops8 (after ops7 (after ops6 (after ops5 (after ops4 (after ops3 (after ops2 (after ops1 (after ops0 (V))))))))))))))) := by
  simp only [ops, after_append]

/-- A reference no window writes keeps its contents through @main. -/
theorem after_ops_keep (V : Valuation τ sig (Elt F)) (r : Ref sig .tc)
    (h0 : r ∉ ops0_W) (h1 : r ∉ ops1_W) (h2 : r ∉ ops2_W) (h3 : r ∉ ops3_W) (h4 : r ∉ ops4_W) (h5 : r ∉ ops5_W) (h6 : r ∉ ops6_W) (h7 : r ∉ ops7_W) (h8 : r ∉ ops8_W) (h9 : r ∉ ops9_W) (h10 : r ∉ ops10_W) (h11 : r ∉ ops11_W) (h12 : r ∉ ops12_W) (h13 : r ∉ ops13_W) (h14 : r ∉ ops14_W) :
    after ops V (Proc.devRef .tc r) = V (Proc.devRef .tc r) := by
  rw [after_ops, ops14_keep _ r h14, ops13_keep _ r h13, ops12_keep _ r h12, ops11_keep _ r h11, ops10_keep _ r h10, ops9_keep _ r h9, ops8_keep _ r h8, ops7_keep _ r h7, ops6_keep _ r h6, ops5_keep _ r h5, ops4_keep _ r h4, ops3_keep _ r h3, ops2_keep _ r h2, ops1_keep _ r h1, ops0_keep _ r h0]

/-- No operation writes argument 0: the fold there is the launch contents. -/
theorem after_main_arg0 (V : Valuation τ sig (Elt F)) :
    after ops V (Proc.devRef .tc main_arg0) = V (Proc.devRef .tc main_arg0) :=
  after_ops_keep V main_arg0 (by decide) (by decide) (by decide) (by decide) (by decide) (by decide) (by decide) (by decide) (by decide) (by decide) (by decide) (by decide) (by decide) (by decide) (by decide)

/-- No operation writes argument 1: the fold there is the launch contents. -/
theorem after_main_arg1 (V : Valuation τ sig (Elt F)) :
    after ops V (Proc.devRef .tc main_arg1) = V (Proc.devRef .tc main_arg1) :=
  after_ops_keep V main_arg1 (by decide) (by decide) (by decide) (by decide) (by decide) (by decide) (by decide) (by decide) (by decide) (by decide) (by decide) (by decide) (by decide) (by decide) (by decide)

/-- No operation writes argument 2: the fold there is the launch contents. -/
theorem after_main_arg2 (V : Valuation τ sig (Elt F)) :
    after ops V (Proc.devRef .tc main_arg2) = V (Proc.devRef .tc main_arg2) :=
  after_ops_keep V main_arg2 (by decide) (by decide) (by decide) (by decide) (by decide) (by decide) (by decide) (by decide) (by decide) (by decide) (by decide) (by decide) (by decide) (by decide) (by decide)

/-- No operation writes argument 3: the fold there is the launch contents. -/
theorem after_main_arg3 (V : Valuation τ sig (Elt F)) :
    after ops V (Proc.devRef .tc main_arg3) = V (Proc.devRef .tc main_arg3) :=
  after_ops_keep V main_arg3 (by decide) (by decide) (by decide) (by decide) (by decide) (by decide) (by decide) (by decide) (by decide) (by decide) (by decide) (by decide) (by decide) (by decide) (by decide)

/-- No operation writes argument 4: the fold there is the launch contents. -/
theorem after_main_arg4 (V : Valuation τ sig (Elt F)) :
    after ops V (Proc.devRef .tc main_arg4) = V (Proc.devRef .tc main_arg4) :=
  after_ops_keep V main_arg4 (by decide) (by decide) (by decide) (by decide) (by decide) (by decide) (by decide) (by decide) (by decide) (by decide) (by decide) (by decide) (by decide) (by decide) (by decide)

/-- No operation writes argument 5: the fold there is the launch contents. -/
theorem after_main_arg5 (V : Valuation τ sig (Elt F)) :
    after ops V (Proc.devRef .tc main_arg5) = V (Proc.devRef .tc main_arg5) :=
  after_ops_keep V main_arg5 (by decide) (by decide) (by decide) (by decide) (by decide) (by decide) (by decide) (by decide) (by decide) (by decide) (by decide) (by decide) (by decide) (by decide) (by decide)

/-- No operation writes argument 6: the fold there is the launch contents. -/
theorem after_main_arg6 (V : Valuation τ sig (Elt F)) :
    after ops V (Proc.devRef .tc main_arg6) = V (Proc.devRef .tc main_arg6) :=
  after_ops_keep V main_arg6 (by decide) (by decide) (by decide) (by decide) (by decide) (by decide) (by decide) (by decide) (by decide) (by decide) (by decide) (by decide) (by decide) (by decide) (by decide)

/-- No operation writes argument 7: the fold there is the launch contents. -/
theorem after_main_arg7 (V : Valuation τ sig (Elt F)) :
    after ops V (Proc.devRef .tc main_arg7) = V (Proc.devRef .tc main_arg7) :=
  after_ops_keep V main_arg7 (by decide) (by decide) (by decide) (by decide) (by decide) (by decide) (by decide) (by decide) (by decide) (by decide) (by decide) (by decide) (by decide) (by decide) (by decide)

/-- @main runs and leaves its eight arguments unchanged, for any float values. -/
theorem frame_all (m : (ℓ : Loc nD τ sig) → Buf (Elt F) ℓ) (g : Dev nD → PrngReg) :
    θ_run (defs (F := F)) (onTc (τ := τ) (main (F := F))) ⟨m, fun _ => 0, g⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c main_arg0).trans (after_main_arg0 _),
      (h c main_arg1).trans (after_main_arg1 _),
      (h c main_arg2).trans (after_main_arg2 _),
      (h c main_arg3).trans (after_main_arg3 _),
      (h c main_arg4).trans (after_main_arg4 _),
      (h c main_arg5).trans (after_main_arg5 _),
      (h c main_arg6).trans (after_main_arg6 _),
      (h c main_arg7).trans (after_main_arg7 _)⟩)
    (run_all m g)

/-- The same at the ideal instance: the frame claim's statement, for every launch memory. -/
theorem frame_ri (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_all m g

end Cert.ReferenceIdeal.Hand

end
-- ==== Proof.Spec.Branch.lean ====
/- The specification of one batch-normalised branch of the cell, as plain functions of
   extended reals at an index: the linear layer, the batch mean, the two spellings of the batch variance
   (the centred one and the one by the mean of squares, clamped at zero), and the weighted, rectified,
   normalised branch built on each. No program is read here. -/
import Idealize.ShloMosaic.PureOps.Ideal
import Mathlib.Algebra.BigOperators.Group.Finset.Basic

noncomputable section

namespace Cert.Spec

open Idealize.ShloMosaic
open scoped BigOperators

/-- The pattern of `50000.0`, the number of rows, as both programs spell it. -/
abbrev N50000 : EReal := Ideal.ofBits .f32 0x47435000#32

/-- The pattern of `f32 (1e-5)`, the normalisation's `eps`, as both programs spell it. -/
abbrev eps : EReal := Ideal.ofBits .f32 0x3727C5AC#32

/-! ## Over any finite row type `ι`, contracted type `κ`, and column type `δ` -/

section Generic

variable {ι κ δ : Type*} [Fintype ι] [Fintype κ]

/-- The linear layer: `z n d = (∑ k, x n k * W d k) + b d` (`W` is `[out, in]`). -/
def lin (x : ι → κ → EReal) (W : δ → κ → EReal) (b : δ → EReal) (n : ι) (d : δ) : EReal :=
  (∑ k, x n k * W d k) + b d

/-- The column mean over the rows, divided by the spelled count `N`. -/
def mean (N : EReal) (z : ι → δ → EReal) (d : δ) : EReal :=
  Ideal.div (∑ n, z n d) N

/-- The centred variance: the mean of the squared deviations. -/
def varRef (N : EReal) (z : ι → δ → EReal) (d : δ) : EReal :=
  Ideal.div (∑ n, (z n d - mean N z d) * (z n d - mean N z d)) N

/-- The variance by the mean of squares minus the squared mean, clamped at zero. -/
def varKer (N : EReal) (z : ι → δ → EReal) (d : δ) : EReal :=
  max (Ideal.div (∑ n, z n d * z n d) N - mean N z d * mean N z d) 0

/-- The weighted rectified normalisation of `z` by a mean `μ` and a variance `v`. -/
def branchOf (e : EReal) (z : ι → δ → EReal) (μ v g be : δ → EReal) (w : EReal) (n : ι) (d : δ) : EReal :=
  w * max (((z n d - μ d) * Ideal.rsqrt (v d + e)) * g d + be d) 0

end Generic

/-! ## At the program's sizes: 50000 rows, 128 contracted, 128 columns -/

/-- The linear layer's output. -/
def z (x : Fin 50000 → Fin 128 → EReal) (W : Fin 128 → Fin 128 → EReal) (b : Fin 128 → EReal)
    (n : Fin 50000) (d : Fin 128) : EReal :=
  (∑ k, x n k * W d k) + b d

/-- The batch mean of a column. -/
def μ (x : Fin 50000 → Fin 128 → EReal) (W : Fin 128 → Fin 128 → EReal) (b : Fin 128 → EReal)
    (d : Fin 128) : EReal :=
  Ideal.div (∑ n, z x W b n d) N50000

/-- The reference's batch variance: centred. -/
def varR (x : Fin 50000 → Fin 128 → EReal) (W : Fin 128 → Fin 128 → EReal) (b : Fin 128 → EReal)
    (d : Fin 128) : EReal :=
  Ideal.div (∑ n, (z x W b n d - μ x W b d) * (z x W b n d - μ x W b d)) N50000

/-- The kernel's batch variance: mean of squares minus squared mean, clamped at zero. -/
def varK (x : Fin 50000 → Fin 128 → EReal) (W : Fin 128 → Fin 128 → EReal) (b : Fin 128 → EReal)
    (d : Fin 128) : EReal :=
  max (Ideal.div (∑ n, z x W b n d * z x W b n d) N50000 - μ x W b d * μ x W b d) 0

/-- The reference's branch: `w * relu (BN (x Wᵀ + b; g, be))` with the centred variance. -/
def refBranch (x : Fin 50000 → Fin 128 → EReal) (W : Fin 128 → Fin 128 → EReal) (b g be : Fin 128 → EReal)
    (w : EReal) (n : Fin 50000) (d : Fin 128) : EReal :=
  w * max (((z x W b n d - μ x W b d) * Ideal.rsqrt (varR x W b d + eps)) * g d + be d) 0

/-- The kernel's branch: the same with the variance by the mean of squares. -/
def kerBranch (x : Fin 50000 → Fin 128 → EReal) (W : Fin 128 → Fin 128 → EReal) (b g be : Fin 128 → EReal)
    (w : EReal) (n : Fin 50000) (d : Fin 128) : EReal :=
  w * max (((z x W b n d - μ x W b d) * Ideal.rsqrt (varK x W b d + eps)) * g d + be d) 0

/-! ## The sized definitions are the generic ones -/

theorem z_eq_lin (x : Fin 50000 → Fin 128 → EReal) (W : Fin 128 → Fin 128 → EReal) (b : Fin 128 → EReal) :
    z x W b = lin x W b := rfl

theorem μ_eq_mean (x : Fin 50000 → Fin 128 → EReal) (W : Fin 128 → Fin 128 → EReal) (b : Fin 128 → EReal) :
    μ x W b = mean N50000 (z x W b) := rfl

theorem varR_eq_varRef (x : Fin 50000 → Fin 128 → EReal) (W : Fin 128 → Fin 128 → EReal) (b : Fin 128 → EReal) :
    varR x W b = varRef N50000 (z x W b) := rfl

theorem varK_eq_varKer (x : Fin 50000 → Fin 128 → EReal) (W : Fin 128 → Fin 128 → EReal) (b : Fin 128 → EReal) :
    varK x W b = varKer N50000 (z x W b) := rfl

theorem refBranch_eq_branchOf (x : Fin 50000 → Fin 128 → EReal) (W : Fin 128 → Fin 128 → EReal)
    (b g be : Fin 128 → EReal) (w : EReal) :
    refBranch x W b g be w = branchOf eps (z x W b) (μ x W b) (varR x W b) g be w := rfl

theorem kerBranch_eq_branchOf (x : Fin 50000 → Fin 128 → EReal) (W : Fin 128 → Fin 128 → EReal)
    (b g be : Fin 128 → EReal) (w : EReal) :
    kerBranch x W b g be w = branchOf eps (z x W b) (μ x W b) (varK x W b) g be w := rfl

end Cert.Spec

end
-- ==== Proof.Spec.Real.lean ====
/- Extended reals that are reals: the predicate, its closure under the field operations, the
   maximum, finite sums and products, the division and the reciprocal square root of this instance; the
   coercion of a finite real sum; and the two float constants of the normalisation as the reals their
   patterns denote. No program is read here. -/
import proofs.«414290_j6631429505478_3_alg».proof.Proof.Spec.Branch
import Mathlib.Data.EReal.Inv
import Mathlib.Algebra.BigOperators.Group.Finset.Basic
import Mathlib.Analysis.SpecialFunctions.Pow.Real

noncomputable section

namespace Cert.Spec

open Idealize.ShloMosaic
open scoped BigOperators

/-- An extended real that is (the coercion of) a real. -/
def IsReal (a : EReal) : Prop := ∃ r : ℝ, a = (r : EReal)

theorem isReal_coe (r : ℝ) : IsReal (r : EReal) := ⟨r, rfl⟩

theorem isReal_zero : IsReal 0 := ⟨0, rfl⟩

theorem isReal_one : IsReal 1 := ⟨1, rfl⟩

theorem IsReal.ne_top {a : EReal} (h : IsReal a) : a ≠ ⊤ := by
  obtain ⟨r, rfl⟩ := h; exact EReal.coe_ne_top r

theorem IsReal.ne_bot {a : EReal} (h : IsReal a) : a ≠ ⊥ := by
  obtain ⟨r, rfl⟩ := h; exact EReal.coe_ne_bot r

theorem isReal_iff {a : EReal} : IsReal a ↔ a ≠ ⊥ ∧ a ≠ ⊤ := by
  constructor
  · intro h; exact ⟨h.ne_bot, h.ne_top⟩
  · rintro ⟨h₁, h₂⟩
    induction a using EReal.rec with
    | bot => exact absurd rfl h₁
    | coe r => exact ⟨r, rfl⟩
    | top => exact absurd rfl h₂

theorem IsReal.add {a b : EReal} (ha : IsReal a) (hb : IsReal b) : IsReal (a + b) := by
  obtain ⟨r, rfl⟩ := ha; obtain ⟨s, rfl⟩ := hb; exact ⟨r + s, (EReal.coe_add r s).symm⟩

theorem IsReal.neg {a : EReal} (ha : IsReal a) : IsReal (-a) := by
  obtain ⟨r, rfl⟩ := ha; exact ⟨-r, (EReal.coe_neg r).symm⟩

theorem IsReal.sub {a b : EReal} (ha : IsReal a) (hb : IsReal b) : IsReal (a - b) := by
  obtain ⟨r, rfl⟩ := ha; obtain ⟨s, rfl⟩ := hb; exact ⟨r - s, (EReal.coe_sub r s).symm⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

theorem IsReal.max {a b : EReal} (ha : IsReal a) (hb : IsReal b) : IsReal (max a b) := by
  rcases le_total a b with h | h
  · rw [max_eq_right h]; exact hb
  · rw [max_eq_left h]; exact ha

theorem IsReal.min {a b : EReal} (ha : IsReal a) (hb : IsReal b) : IsReal (min a b) := by
  rcases le_total a b with h | h
  · rw [min_eq_left h]; exact ha
  · rw [min_eq_right h]; exact hb

/-- The coercion of a finite real sum is the sum of the coercions. -/
theorem coe_sum {α : Type*} (s : Finset α) (f : α → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of a finite real product is the product of the coercions. -/
theorem coe_prod {α : Type*} (s : Finset α) (f : α → ℝ) :
    ((∏ i ∈ s, f i : ℝ) : EReal) = ∏ i ∈ s, (f i : EReal) := by
  classical
  induction s using Finset.induction_on with
  | empty => simp
  | insert a s ha ih => rw [Finset.prod_insert ha, Finset.prod_insert ha, EReal.coe_mul, ih]

/-- A finite sum of reals is a real. -/
theorem isReal_sum {α : Type*} (s : Finset α) (f : α → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- A finite product of reals is a real. -/
theorem isReal_prod {α : Type*} (s : Finset α) (f : α → EReal) (h : ∀ i ∈ s, IsReal (f i)) :
    IsReal (∏ i ∈ s, f i) := by
  classical
  induction s using Finset.induction_on with
  | empty => simpa using isReal_one
  | insert a s ha ih =>
    rw [Finset.prod_insert ha]
    exact (h a (Finset.mem_insert_self a s)).mul (ih fun i hi => h i (Finset.mem_insert_of_mem hi))

/-- A sum over a whole finite type of reals is a real. -/
theorem isReal_sum_univ {α : Type*} [Fintype α] (f : α → EReal) (h : ∀ i, IsReal (f i)) :
    IsReal (∑ i, f i) :=
  isReal_sum _ f fun i _ => h i

/-- A finite sum of reals, times a real, is a real (a segment sum times a reciprocal degree). -/
theorem isReal_sum_mul {α : Type*} (s : Finset α) (f : α → EReal) (c : EReal)
    (h : ∀ i ∈ s, IsReal (f i)) (hc : IsReal c) : IsReal ((∑ i ∈ s, f i) * c) :=
  (isReal_sum s f h).mul hc

/-- The quotient of a real by a nonzero real is a real. -/
theorem IsReal.div {a b : EReal} (ha : IsReal a) (hb : IsReal b) (h0 : b ≠ 0) : IsReal (Ideal.div a b) := by
  obtain ⟨s, rfl⟩ := hb
  have hs : s ≠ 0 := fun h => h0 (by rw [h]; rfl)
  rw [Ideal.div_coe hs]
  exact ha.mul (isReal_coe _)

/-- The reciprocal square root of a positive real is a real. -/
theorem isReal_rsqrt {a : EReal} (ha : IsReal a) (hpos : 0 < a) : IsReal (Ideal.rsqrt a) := by
  obtain ⟨r, rfl⟩ := ha
  have hr : 0 < r := EReal.coe_pos.mp hpos
  rw [Ideal.rsqrt_coe, if_neg (not_lt.mpr hr.le), if_neg hr.ne']
  exact isReal_coe _

/-! ## The two constants -/

/-- `50000.0` denotes the real `50000`. -/
theorem N50000_eq : N50000 = ((50000 : ℝ) : EReal) := by
  simp [N50000, Ideal.ofBits, Ideal.ieee, -EReal.coe_mul]; norm_num

/-- `f32 (1e-5)` denotes the real `10995116 · 2⁻⁴⁰`. -/
theorem eps_eq : eps = ((10995116 * (2 : ℝ) ^ (-40 : ℤ) : ℝ) : EReal) := by
  simp [eps, Ideal.ofBits, Ideal.ieee, -EReal.coe_mul]

theorem isReal_N50000 : IsReal N50000 := ⟨_, N50000_eq⟩

theorem N50000_ne_zero : N50000 ≠ 0 := by
  rw [N50000_eq]; exact EReal.coe_ne_zero.mpr (by norm_num)

theorem isReal_eps : IsReal eps := ⟨_, eps_eq⟩

theorem eps_pos : 0 < eps := by
  rw [eps_eq]; exact EReal.coe_pos.mpr (by positivity)

/-- `50000.0 - 0.0`, the normaliser a variance with no degrees-of-freedom correction spells, is `50000.0`. -/
theorem N50000_sub_zero : N50000 - Ideal.ofBits .f32 0x00000000#32 = N50000 := by
  have h0 : Ideal.ofBits .f32 0x00000000#32 = 0 := by simp [Ideal.ofBits, Ideal.ieee]
  rw [h0, sub_zero]

/-! ## The linear layer of reals is real -/

/-- The linear layer's output is a real when its inputs, weights and bias are. -/
theorem isReal_lin {ι κ δ : Type*} [Fintype κ] (x : ι → κ → EReal) (W : δ → κ → EReal) (b : δ → EReal)
    (hx : ∀ n k, IsReal (x n k)) (hW : ∀ d k, IsReal (W d k)) (hb : ∀ d, IsReal (b d)) (n : ι) (d : δ) :
    IsReal (lin x W b n d) :=
  (isReal_sum_univ _ fun k => (hx n k).mul (hW d k)).add (hb d)

/-- The same at the program's sizes. -/
theorem isReal_z (x : Fin 50000 → Fin 128 → EReal) (W : Fin 128 → Fin 128 → EReal) (b : Fin 128 → EReal)
    (hx : ∀ n k, IsReal (x n k)) (hW : ∀ d k, IsReal (W d k)) (hb : ∀ d, IsReal (b d))
    (n : Fin 50000) (d : Fin 128) : IsReal (z x W b n d) :=
  isReal_lin x W b hx hW hb n d

end Cert.Spec

end
-- ==== Proof.Br.Pre.lean ====
/- The precondition read back at the extended reals: the printed predicate "every float argument is
   finite" (for each of the seven float arguments, |x| < +∞ at every entry, all conjoined) gives that every entry of
   every float argument is a real. The integer argument is not constrained. -/
import proofs.«414290_j6631429505478_3_alg».proof.Pre_finite_inputs
import proofs.«414290_j6631429505478_3_alg».proof.Proof.Gen.Pre_finite_inputs
import proofs.«414290_j6631429505478_3_alg».proof.Proof.Spec.Real
import Idealize.ShloMosaic.Lib.ReduceAll
import Idealize.ShloMosaic.Lib.ValueIdx

noncomputable section

namespace Cert.Bridge

open Idealize.ShloMosaic Cert.Pre_finite_inputs Cert.Spec

/-- The rank-0 shape has one index. -/
instance subsingleton_S_Idx : Subsingleton S_.Idx := ⟨fun a b => funext fun d => d.elim0⟩

/-- The pattern `0x7F800000` denotes `+∞`. -/
theorem inf_eq_top : Ideal.ofBits .f32 0x7F800000#32 = (⊤ : EReal) := by simp [Ideal.ofBits, Ideal.ieee]

/-- An extended real whose absolute value `max x (-x)` compares below `+∞` is a real. -/
theorem isReal_of_abs_lt_inf (x : EReal)
    (h : Ideal.cmp .olt (max x (-x)) (Ideal.ofBits .f32 0x7F800000#32) = 1#1) : IsReal x := by
  rw [inf_eq_top] at h
  induction x using EReal.rec with
  | bot => simp [Ideal.cmp] at h
  | coe r => exact ⟨r, rfl⟩
  | top => simp [Ideal.cmp] at h

/-- A conjunction of two `i1` arrays that is 1 at an index: both are 1 there. -/
theorem andi_apply_eq_one {s : Shape} (x y : IVec s 1) (i : s.Idx) (h : andi x y i = 1#1) :
    x i = 1#1 ∧ y i = 1#1 :=
  IntOp.andi_eq_one.1 h

/-- One argument's test: "all entries have |x| < +∞" being 1 gives every entry a real. -/
theorem isReal_of_all {s : Shape} {axes : List (Fin s.rank)} (a : FVec Ideal s .f32)
    (bc : S_.BroadcastsInDim s (![] : Fin 0 → Fin s.rank)) (red : s.ReducesTo axes S_) (hu : 0 < S_.numel)
    (h : Host.reduce IntOp.andi
        (cmpf .olt (Host.absf a) (broadcastInDim s ![] bc (constant (F := Ideal) S_ .f32 0x7F800000#32)))
        (constantI S_ 1 1#1) red hu ValueIdx.ix0 = 1#1) (i : s.Idx) : IsReal (a i) :=
  isReal_of_abs_lt_inf (a i) (Host.reduce_andi_all _ _ red hu _ h i)

/-- The precondition decoded: every entry of each of the seven float arguments is a real. -/
theorem finite_of_pre [Facts] (a0 : IVec S2x800000 32) (a1 a2 : FVec Ideal S50000x128 .f32) (a3 : FVec Ideal S6x3 .f32)
    (a4 : FVec Ideal S6x3x128x128 .f32) (a5 a6 a7 : FVec Ideal S6x3x128 .f32)
    (h : Cert.Pre_finite_inputs.fn (F := Ideal) a0 a1 a2 a3 a4 a5 a6 a7 = fun _ => 1#1) :
    (∀ i, IsReal (a1 i)) ∧ (∀ i, IsReal (a2 i)) ∧ (∀ i, IsReal (a3 i)) ∧ (∀ i, IsReal (a4 i))
      ∧ (∀ i, IsReal (a5 i)) ∧ (∀ i, IsReal (a6 i)) ∧ (∀ i, IsReal (a7 i)) := by
  have h0 := congrFun h ValueIdx.ix0
  dsimp only [Cert.Pre_finite_inputs.fn, Cert.Pre_finite_inputs.fn_part1] at h0
  obtain ⟨h0, h7⟩ := andi_apply_eq_one _ _ _ h0
  obtain ⟨h0, h6⟩ := andi_apply_eq_one _ _ _ h0
  obtain ⟨h0, h5⟩ := andi_apply_eq_one _ _ _ h0
  obtain ⟨h0, h4⟩ := andi_apply_eq_one _ _ _ h0
  obtain ⟨h0, h3⟩ := andi_apply_eq_one _ _ _ h0
  obtain ⟨h1, h2⟩ := andi_apply_eq_one _ _ _ h0
  exact ⟨isReal_of_all a1 _ _ _ h1, isReal_of_all a2 _ _ _ h2, isReal_of_all a3 _ _ _ h3, isReal_of_all a4 _ _ _ h4,
    isReal_of_all a5 _ _ _ h5, isReal_of_all a6 _ _ _ h6, isReal_of_all a7 _ _ _ h7⟩

end Cert.Bridge

end
-- ==== Proof.Br.PreClaim.lean ====
/- The claim's precondition on the kernel's argument arrays (the printed predicate all ones on every device),
   read at one device: every entry of each of the seven float argument arrays there is a real. -/
import proofs.«414290_j6631429505478_3_alg».proof.Defs
import proofs.«414290_j6631429505478_3_alg».proof.Proof.Br.Pre

noncomputable section

namespace Cert.Bridge

open Idealize.ShloMosaic Idealize.SL.Sem Cert.Spec

/-- Under the claim's precondition, at a device, every entry of each float argument array is a real. -/
theorem finite_of_Pre_KernelIdeal [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, IsReal ((m ((c.tc : Thread Cert.KernelIdeal.nD Cert.KernelIdeal.τ).loc Cert.KernelIdeal.main_arg1) : FVec Ideal Cert.Pre_finite_inputs.S50000x128 .f32) i))
    ∧ (∀ i, IsReal ((m ((c.tc : Thread Cert.KernelIdeal.nD Cert.KernelIdeal.τ).loc Cert.KernelIdeal.main_arg2) : FVec Ideal Cert.Pre_finite_inputs.S50000x128 .f32) i))
    ∧ (∀ i, IsReal ((m ((c.tc : Thread Cert.KernelIdeal.nD Cert.KernelIdeal.τ).loc Cert.KernelIdeal.main_arg3) : FVec Ideal Cert.Pre_finite_inputs.S6x3 .f32) i))
    ∧ (∀ i, IsReal ((m ((c.tc : Thread Cert.KernelIdeal.nD Cert.KernelIdeal.τ).loc Cert.KernelIdeal.main_arg4) : FVec Ideal Cert.Pre_finite_inputs.S6x3x128x128 .f32) i))
    ∧ (∀ i, IsReal ((m ((c.tc : Thread Cert.KernelIdeal.nD Cert.KernelIdeal.τ).loc Cert.KernelIdeal.main_arg5) : FVec Ideal Cert.Pre_finite_inputs.S6x3x128 .f32) i))
    ∧ (∀ i, IsReal ((m ((c.tc : Thread Cert.KernelIdeal.nD Cert.KernelIdeal.τ).loc Cert.KernelIdeal.main_arg6) : FVec Ideal Cert.Pre_finite_inputs.S6x3x128 .f32) i))
    ∧ (∀ i, IsReal ((m ((c.tc : Thread Cert.KernelIdeal.nD Cert.KernelIdeal.τ).loc Cert.KernelIdeal.main_arg7) : FVec Ideal Cert.Pre_finite_inputs.S6x3x128 .f32) i)) :=
  finite_of_pre _ _ _ _ _ _ _ _ (hpre c)

end Cert.Bridge

end
-- ==== Proof.Spec.Net.lean ====
import proofs.«414290_j6631429505478_3_alg».proof.Proof.Spec.Branch

/-!
# The cell as one function of its inputs

Three states are produced from the input features `h` and `hin`. A mixed operation `m` applied to a state `hx`
is the sum over the three candidates of the weighted, batch-normalised, rectified linear image of the candidate's
input: the neighbour aggregate of `hx`, `hx` itself, and `hin`. The first state is operation 0 of `h`; the
second is operation 1 of `h` plus operation 2 of the first state; the third is operation 3 of `h` plus operation 4 of
the first state plus operation 5 of the second. The two arrangements below differ in the variance formula inside a
branch and in the order in which the summands are added.
-/

noncomputable section

namespace Cert.Spec

open Idealize.ShloMosaic

/-- A feature array: rows by channels. -/
abbrev Feat : Type := Fin 50000 → Fin 128 → EReal

/-- The parameters of the six mixed operations, three candidates each. -/
structure Params where
  W : Fin 6 → Fin 3 → Fin 128 → Fin 128 → EReal
  b : Fin 6 → Fin 3 → Fin 128 → EReal
  g : Fin 6 → Fin 3 → Fin 128 → EReal
  be : Fin 6 → Fin 3 → Fin 128 → EReal
  w : Fin 6 → Fin 3 → EReal

variable (P : Params) (agg : Feat → Feat) (h hin : Feat)

/-- One candidate of operation `m`, with the variance as the mean of squared deviations. -/
def candR (m : Fin 6) (cc : Fin 3) (x : Feat) : Feat :=
  refBranch x (P.W m cc) (P.b m cc) (P.g m cc) (P.be m cc) (P.w m cc)

/-- One candidate of operation `m`, with the variance as mean of squares minus squared mean, clipped at zero. -/
def candK (m : Fin 6) (cc : Fin 3) (x : Feat) : Feat :=
  kerBranch x (P.W m cc) (P.b m cc) (P.g m cc) (P.be m cc) (P.w m cc)

/-- Operation `m` of state `hx`, summed from zero, candidate by candidate. -/
def mixedR (m : Fin 6) (hx : Feat) : Feat := fun n d =>
  ((0 + candR P m 0 (agg hx) n d) + candR P m 1 hx n d) + candR P m 2 hin n d

/-- Operation `m` of state `hx`, the three candidates added left to right. -/
def mixedK (m : Fin 6) (hx : Feat) : Feat := fun n d =>
  (candK P m 0 (agg hx) n d + candK P m 1 hx n d) + candK P m 2 hin n d

def r1 : Feat := fun n d => 0 + mixedR P agg hin 0 h n d
def r2 : Feat := fun n d => (0 + mixedR P agg hin 1 h n d) + mixedR P agg hin 2 (r1 P agg h hin) n d
def r3 : Feat := fun n d =>
  ((0 + mixedR P agg hin 3 h n d) + mixedR P agg hin 4 (r1 P agg h hin) n d) + mixedR P agg hin 5 (r2 P agg h hin) n d

def k1 : Feat := mixedK P agg hin 0 h
def k2 : Feat := fun n d => mixedK P agg hin 2 (k1 P agg h hin) n d + mixedK P agg hin 1 h n d
def k3 : Feat := fun n d =>
  mixedK P agg hin 5 (k2 P agg h hin) n d + (mixedK P agg hin 3 h n d + mixedK P agg hin 4 (k1 P agg h hin) n d)

end Cert.Spec

end
-- ==== Proof.Spec.Law.lean ====
/- The law of the two variances: over reals, the mean of the squared deviations from the mean
   is the mean of the squares minus the squared mean, and it is not negative, so clamping it at zero changes
   nothing. Hence the branch built on either variance is one function when the inputs are reals.
   No program is read here. -/
import proofs.«414290_j6631429505478_3_alg».proof.Proof.Spec.Real
import Mathlib.Tactic.Ring
import Mathlib.Tactic.FieldSimp
import Mathlib.Tactic.Positivity

noncomputable section

namespace Cert.Spec

open Idealize.ShloMosaic
open scoped BigOperators

section Generic

variable {ι δ : Type*} [Fintype ι]

/-! ## Over the reals -/

/-- The sum of the squared deviations from any `m`, expanded. -/
theorem real_centred_sum (a : ι → ℝ) (S m c : ℝ) (hS : ∑ n, a n = S) (hcard : (Fintype.card ι : ℝ) = c) :
    ∑ n, (a n - m) * (a n - m) = (∑ n, a n * a n) - 2 * m * S + c * (m * m) := by
  have h : ∀ n, (a n - m) * (a n - m) = a n * a n - 2 * m * a n + m * m := fun n => by ring
  simp only [h, Finset.sum_add_distrib, Finset.sum_sub_distrib, ← Finset.mul_sum, hS, Finset.sum_const,
    Finset.card_univ, nsmul_eq_mul, hcard]
  ring

/-- `Σ (a - μ)² / c = Σ a² / c - μ²` with `μ = Σ a / c` and `c` the number of terms. -/
theorem real_var_identity (a : ι → ℝ) (c : ℝ) (hc : c ≠ 0) (hcard : (Fintype.card ι : ℝ) = c) :
    (∑ n, (a n - (∑ n, a n) * (1 / c)) * (a n - (∑ n, a n) * (1 / c))) * (1 / c)
      = (∑ n, a n * a n) * (1 / c) - ((∑ n, a n) * (1 / c)) * ((∑ n, a n) * (1 / c)) := by
  rw [real_centred_sum a (∑ n, a n) ((∑ n, a n) * (1 / c)) c rfl hcard]
  field_simp
  ring

/-- The centred variance of reals over a positive count is not negative. -/
theorem real_var_nonneg (a : ι → ℝ) (m c : ℝ) (hc : 0 < c) :
    0 ≤ (∑ n, (a n - m) * (a n - m)) * (1 / c) :=
  mul_nonneg (Finset.sum_nonneg fun n _ => mul_self_nonneg _) (by positivity)

/-! ## The extended-real definitions at reals -/

/-- The mean of reals, as a real. -/
theorem mean_coe (a : ι → δ → ℝ) (c : ℝ) (hc : c ≠ 0) (d : δ) :
    mean (c : EReal) (fun n d => (a n d : EReal)) d = (((∑ n, a n d) * (1 / c) : ℝ) : EReal) := by
  simp only [mean]
  rw [Ideal.div_coe hc, ← coe_sum, ← EReal.coe_mul]

/-- The centred variance of reals, as a real. -/
theorem varRef_coe (a : ι → δ → ℝ) (c : ℝ) (hc : c ≠ 0) (d : δ) :
    varRef (c : EReal) (fun n d => (a n d : EReal)) d
      = (((∑ n, (a n d - (∑ n, a n d) * (1 / c)) * (a n d - (∑ n, a n d) * (1 / c))) * (1 / c) : ℝ) : EReal) := by
  simp only [varRef, mean_coe a c hc, ← EReal.coe_sub, ← EReal.coe_mul]
  rw [Ideal.div_coe hc, ← coe_sum, ← EReal.coe_mul]

/-- The mean of squares minus the squared mean of reals, as a real, before the clamp. -/
theorem varKer_coe (a : ι → δ → ℝ) (c : ℝ) (hc : c ≠ 0) (d : δ) :
    varKer (c : EReal) (fun n d => (a n d : EReal)) d
      = max (((∑ n, a n d * a n d) * (1 / c) - ((∑ n, a n d) * (1 / c)) * ((∑ n, a n d) * (1 / c)) : ℝ) : EReal) 0 := by
  simp only [varKer, mean_coe a c hc, ← EReal.coe_mul]
  rw [Ideal.div_coe hc, ← coe_sum, ← EReal.coe_mul, ← EReal.coe_sub]

/-- THE LAW, at any finite nonempty row type: on reals the two variances are one. -/
theorem varKer_eq_varRef (N : EReal) (c : ℝ) (hN : N = (c : EReal)) (hc : 0 < c)
    (hcard : (Fintype.card ι : ℝ) = c) (z : ι → δ → EReal) (hz : ∀ n d, IsReal (z n d)) :
    varKer N z = varRef N z := by
  choose a ha using hz
  have hza : z = fun n d => (a n d : EReal) := funext fun n => funext fun d => ha n d
  subst hza
  subst hN
  funext d
  rw [varKer_coe a c hc.ne', varRef_coe a c hc.ne', ← real_var_identity (fun n => a n d) c hc.ne' hcard]
  exact max_eq_left (EReal.coe_nonneg.mpr (real_var_nonneg (fun n => a n d) _ c hc))

/-- The centred variance of reals is a real that is not negative. -/
theorem varRef_nonneg (N : EReal) (c : ℝ) (hN : N = (c : EReal)) (hc : 0 < c)
    (z : ι → δ → EReal) (hz : ∀ n d, IsReal (z n d)) (d : δ) :
    IsReal (varRef N z d) ∧ 0 ≤ varRef N z d := by
  choose a ha using hz
  have hza : z = fun n d => (a n d : EReal) := funext fun n => funext fun d => ha n d
  subst hza
  subst hN
  rw [varRef_coe a c hc.ne']
  exact ⟨isReal_coe _, EReal.coe_nonneg.mpr (real_var_nonneg (fun n => a n d) _ c hc)⟩

end Generic

/-! ## At the program's sizes -/

theorem card_rows : ((Fintype.card (Fin 50000) : ℕ) : ℝ) = 50000 := by
  rw [Fintype.card_fin]; norm_num

/-- THE LAW: the kernel's variance is the reference's when every input, weight and bias is a real. -/
theorem varK_eq_varR (x : Fin 50000 → Fin 128 → EReal) (W : Fin 128 → Fin 128 → EReal) (b : Fin 128 → EReal)
    (hx : ∀ n k, IsReal (x n k)) (hW : ∀ d k, IsReal (W d k)) (hb : ∀ d, IsReal (b d)) :
    varK x W b = varR x W b := by
  rw [varK_eq_varKer, varR_eq_varRef]
  exact varKer_eq_varRef N50000 50000 N50000_eq (by norm_num) card_rows (z x W b) (isReal_z x W b hx hW hb)

/-- Hence the kernel's branch is the reference's branch. -/
theorem kerBranch_eq_refBranch (x : Fin 50000 → Fin 128 → EReal) (W : Fin 128 → Fin 128 → EReal)
    (b g be : Fin 128 → EReal) (w : EReal)
    (hx : ∀ n k, IsReal (x n k)) (hW : ∀ d k, IsReal (W d k)) (hb : ∀ d, IsReal (b d)) :
    kerBranch x W b g be w = refBranch x W b g be w := by
  rw [kerBranch_eq_branchOf, refBranch_eq_branchOf, varK_eq_varR x W b hx hW hb]

/-- The reference's variance of reals is a real that is not negative. -/
theorem varR_nonneg (x : Fin 50000 → Fin 128 → EReal) (W : Fin 128 → Fin 128 → EReal) (b : Fin 128 → EReal)
    (hx : ∀ n k, IsReal (x n k)) (hW : ∀ d k, IsReal (W d k)) (hb : ∀ d, IsReal (b d)) (d : Fin 128) :
    IsReal (varR x W b d) ∧ 0 ≤ varR x W b d := by
  rw [varR_eq_varRef]
  exact varRef_nonneg N50000 50000 N50000_eq (by norm_num) (z x W b) (isReal_z x W b hx hW hb) d

end Cert.Spec

end
-- ==== Proof.Spec.Finite.lean ====
/- Finiteness closure of the branch: on real inputs, weights, bias, scale, shift and mixing
   weight, the batch mean, both variances and both branches are reals. No program is read here. -/
import proofs.«414290_j6631429505478_3_alg».proof.Proof.Spec.Law

noncomputable section

namespace Cert.Spec

open Idealize.ShloMosaic
open scoped BigOperators

/-- The reciprocal square root of a nonnegative real plus `eps` is a real. -/
theorem isReal_rsqrt_add_eps {v : EReal} (hv : IsReal v) (h0 : 0 ≤ v) : IsReal (Ideal.rsqrt (v + eps)) := by
  obtain ⟨r, rfl⟩ := hv
  have hr : 0 ≤ r := EReal.coe_nonneg.mp h0
  rw [eps_eq, ← EReal.coe_add]
  exact isReal_rsqrt (isReal_coe _) (EReal.coe_pos.mpr (add_pos_of_nonneg_of_pos hr (by positivity)))

/-- The weighted rectified normalisation of reals by a real mean and a nonnegative real variance is real. -/
theorem isReal_branchOf {ι δ : Type*} (z : ι → δ → EReal) (μ v g be : δ → EReal) (w : EReal) (n : ι) (d : δ)
    (hz : IsReal (z n d)) (hμ : IsReal (μ d)) (hv : IsReal (v d)) (hv0 : 0 ≤ v d)
    (hg : IsReal (g d)) (hbe : IsReal (be d)) (hw : IsReal w) :
    IsReal (branchOf eps z μ v g be w n d) :=
  hw.mul (((((hz.sub hμ).mul (isReal_rsqrt_add_eps hv hv0)).mul hg).add hbe).max isReal_zero)

section Sized

variable (x : Fin 50000 → Fin 128 → EReal) (W : Fin 128 → Fin 128 → EReal) (b g be : Fin 128 → EReal) (w : EReal)

/-- The batch mean of reals is a real. -/
theorem isReal_μ (hx : ∀ n k, IsReal (x n k)) (hW : ∀ d k, IsReal (W d k)) (hb : ∀ d, IsReal (b d))
    (d : Fin 128) : IsReal (μ x W b d) :=
  (isReal_sum_univ _ fun n => isReal_z x W b hx hW hb n d).div isReal_N50000 N50000_ne_zero

/-- The reference's variance of reals is a real. -/
theorem isReal_varR (hx : ∀ n k, IsReal (x n k)) (hW : ∀ d k, IsReal (W d k)) (hb : ∀ d, IsReal (b d))
    (d : Fin 128) : IsReal (varR x W b d) :=
  (varR_nonneg x W b hx hW hb d).1

/-- The kernel's variance of reals is a real. -/
theorem isReal_varK (hx : ∀ n k, IsReal (x n k)) (hW : ∀ d k, IsReal (W d k)) (hb : ∀ d, IsReal (b d))
    (d : Fin 128) : IsReal (varK x W b d) := by
  rw [varK_eq_varR x W b hx hW hb]; exact isReal_varR x W b hx hW hb d

/-- The reference's branch of reals is a real. -/
theorem isReal_refBranch (hx : ∀ n k, IsReal (x n k)) (hW : ∀ d k, IsReal (W d k)) (hb : ∀ d, IsReal (b d))
    (hg : ∀ d, IsReal (g d)) (hbe : ∀ d, IsReal (be d)) (hw : IsReal w) (n : Fin 50000) (d : Fin 128) :
    IsReal (refBranch x W b g be w n d) := by
  rw [refBranch_eq_branchOf]
  exact isReal_branchOf _ _ _ _ _ _ n d (isReal_z x W b hx hW hb n d) (isReal_μ x W b hx hW hb d)
    (varR_nonneg x W b hx hW hb d).1 (varR_nonneg x W b hx hW hb d).2 (hg d) (hbe d) hw

/-- The kernel's branch of reals is a real. -/
theorem isReal_kerBranch (hx : ∀ n k, IsReal (x n k)) (hW : ∀ d k, IsReal (W d k)) (hb : ∀ d, IsReal (b d))
    (hg : ∀ d, IsReal (g d)) (hbe : ∀ d, IsReal (be d)) (hw : IsReal w) (n : Fin 50000) (d : Fin 128) :
    IsReal (kerBranch x W b g be w n d) := by
  rw [kerBranch_eq_refBranch x W b g be w hx hW hb]
  exact isReal_refBranch x W b g be w hx hW hb hg hbe hw n d

end Sized

end Cert.Spec

end
-- ==== Proof.Spec.NetEq.lean ====
/- The two arrangements of the cell are one function on real inputs: a candidate built on either
   variance is the same (the law of the two variances), every state is again real (so the next layer's
   candidates meet the law's hypotheses), and the summands are added in another order in a commutative monoid.
   No program is read here. -/
import proofs.«414290_j6631429505478_3_alg».proof.Proof.Spec.Net
import proofs.«414290_j6631429505478_3_alg».proof.Proof.Spec.Finite

noncomputable section

namespace Cert.Spec

open Idealize.ShloMosaic

/-- Every parameter of the six operations is a real. -/
structure RealParams (P : Params) : Prop where
  W : ∀ m cc d k, IsReal (P.W m cc d k)
  b : ∀ m cc d, IsReal (P.b m cc d)
  g : ∀ m cc d, IsReal (P.g m cc d)
  be : ∀ m cc d, IsReal (P.be m cc d)
  w : ∀ m cc, IsReal (P.w m cc)

/-- A feature array of reals. -/
def RealFeat (x : Feat) : Prop := ∀ n d, IsReal (x n d)

section

variable {P : Params} {agg : Feat → Feat} {h hin : Feat}

theorem candK_eq_candR (hP : RealParams P) (m : Fin 6) (cc : Fin 3) {x : Feat} (hx : RealFeat x) :
    candK P m cc x = candR P m cc x :=
  kerBranch_eq_refBranch x (P.W m cc) (P.b m cc) (P.g m cc) (P.be m cc) (P.w m cc) hx (hP.W m cc) (hP.b m cc)

theorem realFeat_candR (hP : RealParams P) (m : Fin 6) (cc : Fin 3) {x : Feat} (hx : RealFeat x) :
    RealFeat (candR P m cc x) := fun n d =>
  isReal_refBranch x (P.W m cc) (P.b m cc) (P.g m cc) (P.be m cc) (P.w m cc) hx (hP.W m cc) (hP.b m cc)
    (hP.g m cc) (hP.be m cc) (hP.w m cc) n d

theorem mixedK_eq_mixedR (hP : RealParams P) (hagg : ∀ x : Feat, RealFeat x → RealFeat (agg x))
    (hhin : RealFeat hin) (m : Fin 6) {hx : Feat} (hhx : RealFeat hx) :
    mixedK P agg hin m hx = mixedR P agg hin m hx := by
  funext n d
  simp only [mixedK, mixedR, candK_eq_candR hP m _ (hagg hx hhx), candK_eq_candR hP m _ hhx,
    candK_eq_candR hP m _ hhin, zero_add]

theorem realFeat_mixedR (hP : RealParams P) (hagg : ∀ x : Feat, RealFeat x → RealFeat (agg x))
    (hhin : RealFeat hin) (m : Fin 6) {hx : Feat} (hhx : RealFeat hx) :
    RealFeat (mixedR P agg hin m hx) := fun n d =>
  (((isReal_zero.add (realFeat_candR hP m 0 (hagg hx hhx) n d)).add (realFeat_candR hP m 1 hhx n d)).add
    (realFeat_candR hP m 2 hhin n d))

theorem realFeat_r1 (hP : RealParams P) (hagg : ∀ x : Feat, RealFeat x → RealFeat (agg x))
    (hh : RealFeat h) (hhin : RealFeat hin) : RealFeat (r1 P agg h hin) := fun n d =>
  isReal_zero.add (realFeat_mixedR hP hagg hhin 0 hh n d)

theorem realFeat_r2 (hP : RealParams P) (hagg : ∀ x : Feat, RealFeat x → RealFeat (agg x))
    (hh : RealFeat h) (hhin : RealFeat hin) : RealFeat (r2 P agg h hin) := fun n d =>
  (isReal_zero.add (realFeat_mixedR hP hagg hhin 1 hh n d)).add
    (realFeat_mixedR hP hagg hhin 2 (realFeat_r1 hP hagg hh hhin) n d)

theorem realFeat_r3 (hP : RealParams P) (hagg : ∀ x : Feat, RealFeat x → RealFeat (agg x))
    (hh : RealFeat h) (hhin : RealFeat hin) : RealFeat (r3 P agg h hin) := fun n d =>
  ((isReal_zero.add (realFeat_mixedR hP hagg hhin 3 hh n d)).add
    (realFeat_mixedR hP hagg hhin 4 (realFeat_r1 hP hagg hh hhin) n d)).add
    (realFeat_mixedR hP hagg hhin 5 (realFeat_r2 hP hagg hh hhin) n d)

theorem k1_eq_r1 (hP : RealParams P) (hagg : ∀ x : Feat, RealFeat x → RealFeat (agg x))
    (hh : RealFeat h) (hhin : RealFeat hin) : k1 P agg h hin = r1 P agg h hin := by
  funext n d
  simp only [k1, r1, mixedK_eq_mixedR hP hagg hhin 0 hh, zero_add]

theorem k2_eq_r2 (hP : RealParams P) (hagg : ∀ x : Feat, RealFeat x → RealFeat (agg x))
    (hh : RealFeat h) (hhin : RealFeat hin) : k2 P agg h hin = r2 P agg h hin := by
  funext n d
  simp only [k2, r2, k1_eq_r1 hP hagg hh hhin, mixedK_eq_mixedR hP hagg hhin 1 hh,
    mixedK_eq_mixedR hP hagg hhin 2 (realFeat_r1 hP hagg hh hhin), zero_add]
  exact add_comm _ _

theorem k3_eq_r3 (hP : RealParams P) (hagg : ∀ x : Feat, RealFeat x → RealFeat (agg x))
    (hh : RealFeat h) (hhin : RealFeat hin) : k3 P agg h hin = r3 P agg h hin := by
  funext n d
  simp only [k3, r3, k2_eq_r2 hP hagg hh hhin, k1_eq_r1 hP hagg hh hhin, mixedK_eq_mixedR hP hagg hhin 3 hh,
    mixedK_eq_mixedR hP hagg hhin 4 (realFeat_r1 hP hagg hh hhin),
    mixedK_eq_mixedR hP hagg hhin 5 (realFeat_r2 hP hagg hh hhin), zero_add]
  exact add_comm _ _

end

/-- The kernel's arrangement of the cell is the reference's, state by state, on real inputs and parameters
    and an aggregation that keeps reals real. -/
theorem net_eq (P : Params) (agg : Feat → Feat) (h hin : Feat)
    (hagg : ∀ x : Feat, (∀ n d, IsReal (x n d)) → ∀ n d, IsReal (agg x n d))
    (hW : ∀ m cc d k, IsReal (P.W m cc d k)) (hb : ∀ m cc d, IsReal (P.b m cc d))
    (hg : ∀ m cc d, IsReal (P.g m cc d)) (hbe : ∀ m cc d, IsReal (P.be m cc d))
    (hw : ∀ m cc, IsReal (P.w m cc)) (hh : ∀ n d, IsReal (h n d)) (hhin : ∀ n d, IsReal (hin n d)) :
    k1 P agg h hin = r1 P agg h hin ∧ k2 P agg h hin = r2 P agg h hin ∧ k3 P agg h hin = r3 P agg h hin :=
  have hP : RealParams P := ⟨hW, hb, hg, hbe, hw⟩
  ⟨k1_eq_r1 hP hagg hh hhin, k2_eq_r2 hP hagg hh hhin, k3_eq_r3 hP hagg hh hhin⟩

end Cert.Spec

end
-- ==== Proof.Br.Agg.lean ====
/- The neighbour aggregation both programs compute, as ONE function of the edge-index array and the
   node-feature array: the mean over each node's incoming edges of the source nodes' rows,
   agg(x)[v] = (Σ_{edges j with dst j = v} x[src' j]) · 1 / max(deg v, 1),  deg v = the number of edges with dst j = v,
   src' j = src j + 50000 where src j < 0. The two programs spell it with the same host operations over their own
   (equal) shape and dimension records; the two composed terms are one function. -/
import proofs.«414290_j6631429505478_3_alg».proof.KernelIdeal
import proofs.«414290_j6631429505478_3_alg».proof.ReferenceIdeal
import Idealize.ShloMosaic.PureOps.Ideal

noncomputable section

namespace Cert.Bridge

open Idealize.ShloMosaic

/-! ## The kernel program's term -/

section Kernel
open Cert.KernelIdeal Cert.KernelIdeal.Facts₀
variable [Cert.KernelIdeal.Facts₀]

/-- Row 0 of the edge index: the source node of each edge. -/
def srcK (e : (⟨S2x800000, .i32⟩ : BufTy).Contents (Elt Ideal)) : (⟨S800000, .i32⟩ : BufTy).Contents (Elt Ideal) :=
  shapeCast S800000 (extractStridedSlice S1x800000 ![0, 0] e slices_S2x800000_S1x800000_0_0) shapeCasts_S1x800000_S800000

/-- Row 1 of the edge index: the destination node of each edge. -/
def dstK (e : (⟨S2x800000, .i32⟩ : BufTy).Contents (Elt Ideal)) : (⟨S800000, .i32⟩ : BufTy).Contents (Elt Ideal) :=
  shapeCast S800000 (extractStridedSlice S1x800000 ![1, 0] e slices_S2x800000_S1x800000_1_0) shapeCasts_S1x800000_S800000

/-- The in-degree of each node: ones scattered onto zeros at the destinations. -/
def degK (e : (⟨S2x800000, .i32⟩ : BufTy).Contents (Elt Ideal)) : (⟨S50000, .f32⟩ : BufTy).Contents (Elt Ideal) :=
  Host.scatterAdd (F := Ideal) scatter_S50000_S800000x1_S800000_n_0_0_1
    (broadcastInDim S50000 ![] bcast_S_S50000 (constant (F := Ideal) S_ .f32 0x00000000#32))
    (broadcastInDim S800000x1 ![0] bcast_S800000_S800000x1_0 (dstK e))
    (broadcastInDim S800000 ![] bcast_S_S800000 (constant (F := Ideal) S_ .f32 0x3F800000#32))

/-- `1 / max(deg, 1)`, as a column. -/
def invDegK (e : (⟨S2x800000, .i32⟩ : BufTy).Contents (Elt Ideal)) : (⟨S50000x1, .f32⟩ : BufTy).Contents (Elt Ideal) :=
  broadcastInDim S50000x1 ![0] bcast_S50000_S50000x1_0
    (Host.divf (F := Ideal) (broadcastInDim S50000 ![] bcast_S_S50000 (constant (F := Ideal) S_ .f32 0x3F800000#32))
      (maximumf (F := Ideal) (degK e) (broadcastInDim S50000 ![] bcast_S_S50000 (constant (F := Ideal) S_ .f32 0x3F800000#32))))

/-- The gather's start indices: the sources, a negative one wrapped by the node count. -/
def srcWrapK (e : (⟨S2x800000, .i32⟩ : BufTy).Contents (Elt Ideal)) : (⟨S800000x1, .i32⟩ : BufTy).Contents (Elt Ideal) :=
  broadcastInDim S800000x1 ![0] bcast_S800000_S800000x1_0
    (select (cmpi .slt (srcK e) (broadcastInDim S800000 ![] bcast_S_S800000 (constantI S_ 32 0#32)))
      (addi (srcK e) (broadcastInDim S800000 ![] bcast_S_S800000 (constantI S_ 32 50000#32)))
      (srcK e))

/-- The aggregation of `x` over the edges `e`, as the kernel program composes it. -/
def aggK (e : (⟨S2x800000, .i32⟩ : BufTy).Contents (Elt Ideal)) (x : (⟨S50000x128, .f32⟩ : BufTy).Contents (Elt Ideal)) :
    (⟨S50000x128, .f32⟩ : BufTy).Contents (Elt Ideal) :=
  mulf (F := Ideal)
    (Host.scatterAdd (F := Ideal) scatter_S50000x128_S800000x1_S800000x128_1_0_0_1
      (broadcastInDim S50000x128 ![] bcast_S_S50000x128 (constant (F := Ideal) S_ .f32 0x00000000#32))
      (broadcastInDim S800000x1 ![0] bcast_S800000_S800000x1_0 (dstK e))
      (Host.gather gather_S50000x128_S800000x1_S800000x128_1_0_n_n_0_1_1128 x (srcWrapK e)))
    (broadcastInDim S50000x128 ![0, 1] bcast_S50000x1_S50000x128_0_1 (invDegK e))

end Kernel

/-! ## The reference program's term -/

section Reference
open Cert.ReferenceIdeal Cert.ReferenceIdeal.Facts₀
variable [Cert.ReferenceIdeal.Facts₀]

/-- Row 0 of the edge index: the source node of each edge. -/
def srcR (e : (⟨S2x800000, .i32⟩ : BufTy).Contents (Elt Ideal)) : (⟨S800000, .i32⟩ : BufTy).Contents (Elt Ideal) :=
  shapeCast S800000 (extractStridedSlice S1x800000 ![0, 0] e slices_S2x800000_S1x800000_0_0) shapeCasts_S1x800000_S800000

/-- Row 1 of the edge index: the destination node of each edge. -/
def dstR (e : (⟨S2x800000, .i32⟩ : BufTy).Contents (Elt Ideal)) : (⟨S800000, .i32⟩ : BufTy).Contents (Elt Ideal) :=
  shapeCast S800000 (extractStridedSlice S1x800000 ![1, 0] e slices_S2x800000_S1x800000_1_0) shapeCasts_S1x800000_S800000

/-- The in-degree of each node: ones scattered onto zeros at the destinations. -/
def degR (e : (⟨S2x800000, .i32⟩ : BufTy).Contents (Elt Ideal)) : (⟨S50000, .f32⟩ : BufTy).Contents (Elt Ideal) :=
  Host.scatterAdd (F := Ideal) scatter_S50000_S800000x1_S800000_n_0_0_1
    (broadcastInDim S50000 ![] bcast_S_S50000 (constant (F := Ideal) S_ .f32 0x00000000#32))
    (broadcastInDim S800000x1 ![0] bcast_S800000_S800000x1_0 (dstR e))
    (broadcastInDim S800000 ![] bcast_S_S800000 (constant (F := Ideal) S_ .f32 0x3F800000#32))

/-- `1 / max(deg, 1)`, as a column. -/
def invDegR (e : (⟨S2x800000, .i32⟩ : BufTy).Contents (Elt Ideal)) : (⟨S50000x1, .f32⟩ : BufTy).Contents (Elt Ideal) :=
  broadcastInDim S50000x1 ![0] bcast_S50000_S50000x1_0
    (Host.divf (F := Ideal) (broadcastInDim S50000 ![] bcast_S_S50000 (constant (F := Ideal) S_ .f32 0x3F800000#32))
      (maximumf (F := Ideal) (degR e) (broadcastInDim S50000 ![] bcast_S_S50000 (constant (F := Ideal) S_ .f32 0x3F800000#32))))

/-- The gather's start indices: the sources, a negative one wrapped by the node count. -/
def srcWrapR (e : (⟨S2x800000, .i32⟩ : BufTy).Contents (Elt Ideal)) : (⟨S800000x1, .i32⟩ : BufTy).Contents (Elt Ideal) :=
  broadcastInDim S800000x1 ![0] bcast_S800000_S800000x1_0
    (select (cmpi .slt (srcR e) (broadcastInDim S800000 ![] bcast_S_S800000 (constantI S_ 32 0#32)))
      (addi (srcR e) (broadcastInDim S800000 ![] bcast_S_S800000 (constantI S_ 32 50000#32)))
      (srcR e))

/-- The aggregation of `x` over the edges `e`, as the reference program composes it. -/
def aggR (e : (⟨S2x800000, .i32⟩ : BufTy).Contents (Elt Ideal)) (x : (⟨S50000x128, .f32⟩ : BufTy).Contents (Elt Ideal)) :
    (⟨S50000x128, .f32⟩ : BufTy).Contents (Elt Ideal) :=
  mulf (F := Ideal)
    (Host.scatterAdd (F := Ideal) scatter_S50000x128_S800000x1_S800000x128_1_0_0_1
      (broadcastInDim S50000x128 ![] bcast_S_S50000x128 (constant (F := Ideal) S_ .f32 0x00000000#32))
      (broadcastInDim S800000x1 ![0] bcast_S800000_S800000x1_0 (dstR e))
      (Host.gather gather_S50000x128_S800000x1_S800000x128_1_0_n_n_0_1_1128 x (srcWrapR e)))
    (broadcastInDim S50000x128 ![0, 1] bcast_S50000x1_S50000x128_0_1 (invDegR e))

end Reference

/-! ## One function -/

section Same
variable [Cert.KernelIdeal.Facts₀] [Cert.ReferenceIdeal.Facts₀]

/-- The two programs' shape names and dimension records have equal bodies, so the two composed terms are the same
    function of the same arguments. -/
theorem aggK_eq_aggR : aggK = aggR := rfl

end Same

end Cert.Bridge

end
-- ==== Proof.Br.NetArgs.lean ====
/- The cell's inputs read off the programs' argument arrays: the feature arrays by row and channel, the
   parameters of the six operations by operation, candidate and channel, and the aggregation as a map of feature arrays. -/
import proofs.«414290_j6631429505478_3_alg».proof.Proof.Spec.Net
import proofs.«414290_j6631429505478_3_alg».proof.Proof.Br.Agg
import Idealize.ShloMosaic.Lib.ValueIdx

noncomputable section

namespace Cert.Bridge

open Idealize.ShloMosaic Idealize.ShloMosaic.ValueIdx Cert.Spec

/-- A feature array read by row and channel. -/
def featOf (a : FVec Ideal Cert.KernelIdeal.S50000x128 .f32) : Feat := fun n d => a (ix2 n d)

/-- A feature array from its rows and channels. -/
def arrOf (x : Feat) : FVec Ideal Cert.KernelIdeal.S50000x128 .f32 := fun idx => x (idx 0) (idx 1)

theorem featOf_arrOf (x : Feat) : featOf (arrOf x) = x := rfl

theorem arrOf_featOf (a : FVec Ideal Cert.KernelIdeal.S50000x128 .f32) : arrOf (featOf a) = a := by
  funext idx
  exact congrArg a (eq_ix2 idx).symm

/-- The parameters of the six operations read off the weight-scale, matrix, bias, scale and shift arrays. -/
def paramsOf (a3 : FVec Ideal Cert.KernelIdeal.S6x3 .f32) (a4 : FVec Ideal Cert.KernelIdeal.S6x3x128x128 .f32)
    (a5 a6 a7 : FVec Ideal Cert.KernelIdeal.S6x3x128 .f32) : Params where
  W mm cc dd kk := a4 (ix4 mm cc dd kk)
  b mm cc dd := a5 (ix3 mm cc dd)
  g mm cc dd := a6 (ix3 mm cc dd)
  be mm cc dd := a7 (ix3 mm cc dd)
  w mm cc := a3 (ix2 mm cc)

/-- The aggregation over the edges `e` as a map of feature arrays, in the kernel program's spelling. -/
def aggOfK [Cert.KernelIdeal.Facts₀] (e : IVec Cert.KernelIdeal.S2x800000 32) : Feat → Feat :=
  fun x n d => aggK e (fun idx => x (idx 0) (idx 1)) (ix2 n d)

/-- The same in the reference program's spelling. -/
def aggOfR [Cert.ReferenceIdeal.Facts₀] (e : IVec Cert.ReferenceIdeal.S2x800000 32) : Feat → Feat :=
  fun x n d => aggR e (fun idx => x (idx 0) (idx 1)) (ix2 n d)

/-- The two spellings are one map. -/
theorem aggOfK_eq_aggOfR [Cert.KernelIdeal.Facts₀] [Cert.ReferenceIdeal.Facts₀] : aggOfK = aggOfR := rfl

end Cert.Bridge

end
-- ==== Proof.Br.AggFinite.lean ====
/- The neighbour aggregation of reals is real, for EVERY edge-index array (indices outside the node range
   included): a gathered element is one of the operand's elements; a scatter-add's element is an operand element plus
   a finite sum of update elements; the in-degree is therefore a real, `max(deg, 1) ≥ 1` is a nonzero real and its
   reciprocal is a real; a product of two reals is a real. -/
import proofs.«414290_j6631429505478_3_alg».proof.Proof.Br.Agg
import proofs.«414290_j6631429505478_3_alg».proof.Proof.Spec.Real
import Idealize.ShloMosaic.PureOps.Ideal.Laws

noncomputable section

namespace Cert.Bridge

open Idealize.ShloMosaic Cert.Spec
open scoped BigOperators

/-! ## The operations, element by element -/

/-- The f32 constant `1.0` denotes the real `1`. -/
theorem ofBits_one_f32 : Ideal.ofBits .f32 0x3F800000#32 = 1 := by
  simp [Ideal.ofBits, Ideal.ieee, -EReal.coe_mul]; norm_num

theorem isReal_constant_zero (s : Shape) (i : s.Idx) : IsReal (constant (F := Ideal) s .f32 0x00000000#32 i) := by
  show IsReal (Ideal.ofBits .f32 0x00000000#32)
  rw [Ideal.ofBits_zero_f32]; exact isReal_zero

theorem isReal_constant_one (s : Shape) (i : s.Idx) : IsReal (constant (F := Ideal) s .f32 0x3F800000#32 i) := by
  show IsReal (Ideal.ofBits .f32 0x3F800000#32)
  rw [ofBits_one_f32]; exact isReal_one

/-- A broadcast's element is one of the operand's elements. -/
theorem isReal_broadcastInDim {s : Shape} (t : Shape) (dims : Fin s.rank → Fin t.rank) (h : s.BroadcastsInDim t dims)
    (x : s.Idx → EReal) (hx : ∀ i, IsReal (x i)) (j : t.Idx) : IsReal (broadcastInDim t dims h x j) := hx _

/-- A gather's element is one of the operand's elements, whatever the start indices. -/
theorem isReal_gather {s si t : Shape} {w : Nat} (d : GatherDims s si t) (x : s.Idx → EReal) (idx : IVec si w)
    (hx : ∀ i, IsReal (x i)) (j : t.Idx) : IsReal (Host.gather d x idx j) := hx _

/-- A scatter-add's element is the operand's element plus a finite sum of update elements, whatever the indices. -/
theorem isReal_scatterAdd {s si su : Shape} {w : Nat} (d : ScatterDims s si su) (x : FVec Ideal s .f32) (idx : IVec si w)
    (upd : FVec Ideal su .f32) (hx : ∀ i, IsReal (x i)) (hu : ∀ j, IsReal (upd j)) (i : s.Idx) :
    IsReal (Host.scatterAdd (F := Ideal) d x idx upd i) := by
  show IsReal (x i + ∑ j ∈ Finset.univ.filter (fun j => d.resultIdx? j idx = some i), upd j)
  exact (hx i).add (isReal_sum _ _ fun j _ => hu j)

/-- The reciprocal of `max(a, 1)` is a real when `a` is. -/
theorem isReal_inv_max_one {a : EReal} (ha : IsReal a) : IsReal (Ideal.div 1 (max a 1)) :=
  isReal_one.div (ha.max isReal_one) (ne_of_gt (lt_of_lt_of_le zero_lt_one (le_max_right a 1)))

/-- A product of real elements is real. -/
theorem isReal_mulf {s : Shape} (a b : FVec Ideal s .f32) (i : s.Idx) (ha : IsReal (a i)) (hb : IsReal (b i)) :
    IsReal (mulf (F := Ideal) a b i) := ha.mul hb

/-- `1 / max(d, 1)`, element by element, is real where `d` is. -/
theorem isReal_divf_one_max_one {s : Shape} (u v d : FVec Ideal s .f32) (k : s.Idx) (hu : u k = 1) (hv : v k = 1)
    (hd : IsReal (d k)) : IsReal (Host.divf (F := Ideal) u (maximumf (F := Ideal) d v) k) := by
  show IsReal (Ideal.div (u k) (max (d k) (v k)))
  rw [hu, hv]; exact isReal_inv_max_one hd

/-- A broadcast scalar constant, at an index. -/
theorem broadcastInDim_constant_apply {s : Shape} (t : Shape) (dims : Fin s.rank → Fin t.rank) (h : s.BroadcastsInDim t dims)
    (b : BitVec 32) (j : t.Idx) : broadcastInDim t dims h (constant (F := Ideal) s .f32 b) j = Ideal.ofBits .f32 b := rfl

/-! ## The kernel program's term -/

section Kernel
open Cert.KernelIdeal
variable [Cert.KernelIdeal.Facts₀]

/-- The in-degree is a real. -/
theorem isReal_degK (e : (⟨S2x800000, .i32⟩ : BufTy).Contents (Elt Ideal)) (i : S50000.Idx) : IsReal (degK e i) := by
  unfold degK
  exact isReal_scatterAdd _ _ _ _ (isReal_broadcastInDim _ _ _ _ (isReal_constant_zero _))
    (isReal_broadcastInDim _ _ _ _ (isReal_constant_one _)) i

/-- `1 / max(deg, 1)` is a real. -/
theorem isReal_invDegK (e : (⟨S2x800000, .i32⟩ : BufTy).Contents (Elt Ideal)) (i : S50000x1.Idx) : IsReal (invDegK e i) := by
  unfold invDegK
  apply isReal_broadcastInDim
  intro k
  apply isReal_divf_one_max_one
  · rw [broadcastInDim_constant_apply, ofBits_one_f32]
  · rw [broadcastInDim_constant_apply, ofBits_one_f32]
  · exact isReal_degK e k

/-- The aggregation of reals is real, for every edge-index array. -/
theorem isReal_aggK (e : (⟨S2x800000, .i32⟩ : BufTy).Contents (Elt Ideal)) (x : (⟨S50000x128, .f32⟩ : BufTy).Contents (Elt Ideal))
    (hx : ∀ i, IsReal (x i)) (i : S50000x128.Idx) : IsReal (aggK e x i) := by
  unfold aggK
  apply isReal_mulf
  · apply isReal_scatterAdd
    · exact isReal_broadcastInDim _ _ _ _ (isReal_constant_zero _)
    · exact isReal_gather _ _ _ hx
  · exact isReal_broadcastInDim _ _ _ _ (isReal_invDegK e) i

end Kernel

/-! ## The reference program's term -/

section Reference
variable [Cert.KernelIdeal.Facts₀] [Cert.ReferenceIdeal.Facts₀]

/-- The same for the reference's term: it is the same function. -/
theorem isReal_aggR (e : (⟨Cert.ReferenceIdeal.S2x800000, .i32⟩ : BufTy).Contents (Elt Ideal))
    (x : (⟨Cert.ReferenceIdeal.S50000x128, .f32⟩ : BufTy).Contents (Elt Ideal))
    (hx : ∀ i, IsReal (x i)) (i : Cert.ReferenceIdeal.S50000x128.Idx) : IsReal (aggR e x i) :=
  (congrFun (congrFun (congrFun aggK_eq_aggR e) x) i) ▸ isReal_aggK e x hx i

end Reference

end Cert.Bridge

end
-- ==== Proof.Br.NetArrays.lean ====
/- On real argument arrays the cell in the kernel's arrangement is the cell in the reference's arrangement:
   the aggregation keeps real feature arrays real, the two spellings of the aggregation are one map, and the law of the
   two arrangements applies. No program's run is read here. -/
import proofs.«414290_j6631429505478_3_alg».proof.Proof.Spec.NetEq
import proofs.«414290_j6631429505478_3_alg».proof.Proof.Br.NetArgs
import proofs.«414290_j6631429505478_3_alg».proof.Proof.Br.AggFinite

noncomputable section

namespace Cert.Bridge

open Idealize.ShloMosaic Idealize.ShloMosaic.ValueIdx Cert.Spec

variable [Cert.KernelIdeal.Facts₀] [Cert.ReferenceIdeal.Facts₀]

/-- The aggregation map keeps real feature arrays real, for every edge-index array. -/
theorem realFeat_aggOfK (a0 : IVec Cert.KernelIdeal.S2x800000 32) (x : Feat) (hx : ∀ n d, IsReal (x n d)) (n : Fin 50000)
    (d : Fin 128) : IsReal (aggOfK a0 x n d) :=
  isReal_aggK a0 (fun idx => x (idx 0) (idx 1)) (fun i => hx (i 0) (i 1)) (ix2 n d)

/-- The cell of real argument arrays: the kernel's arrangement is the reference's, state by state. -/
theorem net_arrays_eq (a0 : IVec Cert.KernelIdeal.S2x800000 32) (a1 a2 : FVec Ideal Cert.KernelIdeal.S50000x128 .f32)
    (a3 : FVec Ideal Cert.KernelIdeal.S6x3 .f32) (a4 : FVec Ideal Cert.KernelIdeal.S6x3x128x128 .f32)
    (a5 a6 a7 : FVec Ideal Cert.KernelIdeal.S6x3x128 .f32)
    (h1 : ∀ i, IsReal (a1 i)) (h2 : ∀ i, IsReal (a2 i)) (h3 : ∀ i, IsReal (a3 i)) (h4 : ∀ i, IsReal (a4 i))
    (h5 : ∀ i, IsReal (a5 i)) (h6 : ∀ i, IsReal (a6 i)) (h7 : ∀ i, IsReal (a7 i)) :
    k1 (paramsOf a3 a4 a5 a6 a7) (aggOfK a0) (featOf a1) (featOf a2)
        = r1 (paramsOf a3 a4 a5 a6 a7) (aggOfR a0) (featOf a1) (featOf a2)
      ∧ k2 (paramsOf a3 a4 a5 a6 a7) (aggOfK a0) (featOf a1) (featOf a2)
        = r2 (paramsOf a3 a4 a5 a6 a7) (aggOfR a0) (featOf a1) (featOf a2)
      ∧ k3 (paramsOf a3 a4 a5 a6 a7) (aggOfK a0) (featOf a1) (featOf a2)
        = r3 (paramsOf a3 a4 a5 a6 a7) (aggOfR a0) (featOf a1) (featOf a2) := by
  rw [← aggOfK_eq_aggOfR]
  exact net_eq (paramsOf a3 a4 a5 a6 a7) (aggOfK a0) (featOf a1) (featOf a2) (realFeat_aggOfK a0)
    (fun mm cc dd kk => h4 _) (fun mm cc dd => h5 _) (fun mm cc dd => h6 _) (fun mm cc dd => h7 _) (fun mm cc => h3 _)
    (fun n d => h1 _) (fun n d => h2 _)

/-- Equal argument arrays give equal parameters. -/
theorem paramsOf_congr {a3 b3 : FVec Ideal Cert.KernelIdeal.S6x3 .f32} {a4 b4 : FVec Ideal Cert.KernelIdeal.S6x3x128x128 .f32}
    {a5 b5 a6 b6 a7 b7 : FVec Ideal Cert.KernelIdeal.S6x3x128 .f32} (e3 : a3 = b3) (e4 : a4 = b4) (e5 : a5 = b5)
    (e6 : a6 = b6) (e7 : a7 = b7) : paramsOf a3 a4 a5 a6 a7 = paramsOf b3 b4 b5 b6 b7 := by
  subst e3 e4 e5 e6 e7; rfl

end Cert.Bridge

end
-- ==== Proof.KV.Inputs.lean ====
import proofs.«414290_j6631429505478_3_alg».proof.Proof.Gen.KernelIdeal.Launch
import proofs.«414290_j6631429505478_3_alg».proof.Proof.Spec.Net
import proofs.«414290_j6631429505478_3_alg».proof.Proof.Br.Agg
import Idealize.ShloMosaic.Lib.ValueIdx

noncomputable section

namespace Cert.KernelIdeal.HandV

open Cert.KernelIdeal Cert.KernelIdeal.Gen
open Idealize.ShloMosaic Idealize.ShloMosaic.TcCoe
open Idealize.ShloMosaic.ValueIdx

/-! # The cell's inputs, read off the launch memory

The eight arguments of the program, as the functions of plain indices the specification takes: the two feature
arrays, the parameters of the six mixed operations, and the neighbour aggregation over the edge array. -/

variable (m : (ℓ : Loc nD τ sig) → Buf (Elt Ideal) ℓ) (c : Dev nD)

/-- The node features: argument 1 at row `n`, channel `d`. -/
def hF : Cert.Spec.Feat := fun n d =>
  (m ((c : Thread nD τ).loc main_arg1) : FVec Ideal S50000x128 .f32) (ix2 n d)

/-- The cell's second input: argument 2 at row `n`, channel `d`. -/
def hinF : Cert.Spec.Feat := fun n d =>
  (m ((c : Thread nD τ).loc main_arg2) : FVec Ideal S50000x128 .f32) (ix2 n d)

/-- The parameters: argument 4 the linear layers' matrices (`[operation, candidate, out, in]`), 5 their biases,
    6 and 7 the normalisation's scale and shift, 3 the mixing weights. -/
def P : Cert.Spec.Params where
  W := fun mm cc dd kk => (m ((c : Thread nD τ).loc main_arg4) : FVec Ideal S6x3x128x128 .f32) (ix4 mm cc dd kk)
  b := fun mm cc dd => (m ((c : Thread nD τ).loc main_arg5) : FVec Ideal S6x3x128 .f32) (ix3 mm cc dd)
  g := fun mm cc dd => (m ((c : Thread nD τ).loc main_arg6) : FVec Ideal S6x3x128 .f32) (ix3 mm cc dd)
  be := fun mm cc dd => (m ((c : Thread nD τ).loc main_arg7) : FVec Ideal S6x3x128 .f32) (ix3 mm cc dd)
  w := fun mm cc => (m ((c : Thread nD τ).loc main_arg3) : FVec Ideal S6x3 .f32) (ix2 mm cc)

/-- A feature array as an array over rank-2 indices. -/
def featArr (x : Cert.Spec.Feat) : FVec Ideal S50000x128 .f32 := fun idx => x (idx 0) (idx 1)

/-- The neighbour aggregation over the edge array, argument 0. -/
def aggF (x : Cert.Spec.Feat) : Cert.Spec.Feat := fun n d =>
  Cert.Bridge.aggK (m ((c : Thread nD τ).loc main_arg0)) (featArr x) (ix2 n d)

end Cert.KernelIdeal.HandV

end
-- ==== Proof.RV.Inputs.lean ====
import proofs.«414290_j6631429505478_3_alg».proof.Proof.Gen.ReferenceIdeal
import proofs.«414290_j6631429505478_3_alg».proof.Proof.Spec.Net
import proofs.«414290_j6631429505478_3_alg».proof.Proof.Br.Agg
import Idealize.ShloMosaic.Lib.ValueIdx

noncomputable section

namespace Cert.ReferenceIdeal.HandV

open Cert.ReferenceIdeal Cert.ReferenceIdeal.Gen
open Idealize.ShloMosaic Idealize.ShloMosaic.TcCoe
open Idealize.ShloMosaic.ValueIdx

/-! # The cell's inputs, read off the launch memory

The eight arguments of the program, as the functions of plain indices the specification takes: the two feature
arrays, the parameters of the six mixed operations, and the neighbour aggregation over the edge array. -/

variable (m : (ℓ : Loc nD τ sig) → Buf (Elt Ideal) ℓ) (c : Dev nD)

/-- The node features: argument 1 at row `n`, channel `d`. -/
def hF : Cert.Spec.Feat := fun n d =>
  (m ((c : Thread nD τ).loc main_arg1) : FVec Ideal S50000x128 .f32) (ix2 n d)

/-- The cell's second input: argument 2 at row `n`, channel `d`. -/
def hinF : Cert.Spec.Feat := fun n d =>
  (m ((c : Thread nD τ).loc main_arg2) : FVec Ideal S50000x128 .f32) (ix2 n d)

/-- The parameters: argument 4 the linear layers' matrices (`[operation, candidate, out, in]`), 5 their biases,
    6 and 7 the normalisation's scale and shift, 3 the mixing weights. -/
def P : Cert.Spec.Params where
  W := fun mm cc dd kk => (m ((c : Thread nD τ).loc main_arg4) : FVec Ideal S6x3x128x128 .f32) (ix4 mm cc dd kk)
  b := fun mm cc dd => (m ((c : Thread nD τ).loc main_arg5) : FVec Ideal S6x3x128 .f32) (ix3 mm cc dd)
  g := fun mm cc dd => (m ((c : Thread nD τ).loc main_arg6) : FVec Ideal S6x3x128 .f32) (ix3 mm cc dd)
  be := fun mm cc dd => (m ((c : Thread nD τ).loc main_arg7) : FVec Ideal S6x3x128 .f32) (ix3 mm cc dd)
  w := fun mm cc => (m ((c : Thread nD τ).loc main_arg3) : FVec Ideal S6x3 .f32) (ix2 mm cc)

/-- A feature array as an array over rank-2 indices. -/
def featArr (x : Cert.Spec.Feat) : FVec Ideal S50000x128 .f32 := fun idx => x (idx 0) (idx 1)

/-- The neighbour aggregation over the edge array, argument 0. -/
def aggF (x : Cert.Spec.Feat) : Cert.Spec.Feat := fun n d =>
  Cert.Bridge.aggR (m ((c : Thread nD τ).loc main_arg0)) (featArr x) (ix2 n d)

end Cert.ReferenceIdeal.HandV

end
-- ==== Proof.Br.Value.lean ====
/- The two programs' results are one array: index by index the reference's result is the cell in the
   reference's arrangement and the kernel's result the cell in the kernel's arrangement, of argument arrays that agree;
   the precondition makes every float argument a real, and on reals the two arrangements are one function. -/
import proofs.«414290_j6631429505478_3_alg».proof.Defs
import proofs.«414290_j6631429505478_3_alg».proof.Proof.KI.Fold
import proofs.«414290_j6631429505478_3_alg».proof.Proof.Ref.Run
import proofs.«414290_j6631429505478_3_alg».proof.Proof.Br.PreClaim
import proofs.«414290_j6631429505478_3_alg».proof.Proof.Br.NetArrays
import proofs.«414290_j6631429505478_3_alg».proof.Proof.KV.Inputs
import proofs.«414290_j6631429505478_3_alg».proof.Proof.RV.Inputs

noncomputable section

namespace Cert.Bridge

open Idealize.ShloMosaic Idealize.ShloMosaic.ValueIdx Idealize.SL.Sem Cert.Spec

/-- The kernel program's launch memory. -/
abbrev KMem : Type := (ℓ : Loc Cert.KernelIdeal.nD Cert.KernelIdeal.τ Cert.KernelIdeal.sig) → Buf (Elt Ideal) ℓ
/-- The reference program's launch memory. -/
abbrev RMem : Type := (ℓ : Loc Cert.ReferenceIdeal.nD Cert.ReferenceIdeal.τ Cert.ReferenceIdeal.sig) → Buf (Elt Ideal) ℓ

/-! ## The cell's inputs read off a launch memory are the readings of its argument arrays -/

section Readings
variable (m : KMem) (m' : RMem) (c : Dev Cert.KernelIdeal.nD)

theorem P_K : Cert.KernelIdeal.HandV.P m c = paramsOf (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) := rfl
theorem hF_K : Cert.KernelIdeal.HandV.hF m c = featOf (m ((c.tc : Thread Cert.KernelIdeal.nD Cert.KernelIdeal.τ).loc Cert.KernelIdeal.main_arg1)) := rfl
theorem hinF_K : Cert.KernelIdeal.HandV.hinF m c = featOf (m ((c.tc : Thread Cert.KernelIdeal.nD Cert.KernelIdeal.τ).loc Cert.KernelIdeal.main_arg2)) := rfl
theorem aggF_K : Cert.KernelIdeal.HandV.aggF m c = aggOfK (m ((c.tc : Thread Cert.KernelIdeal.nD Cert.KernelIdeal.τ).loc Cert.KernelIdeal.main_arg0)) := rfl

theorem P_R : Cert.ReferenceIdeal.HandV.P m' c = paramsOf (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) := rfl
theorem hF_R : Cert.ReferenceIdeal.HandV.hF m' c = featOf (m' ((c.tc : Thread Cert.ReferenceIdeal.nD Cert.ReferenceIdeal.τ).loc Cert.ReferenceIdeal.main_arg1)) := rfl
theorem hinF_R : Cert.ReferenceIdeal.HandV.hinF m' c = featOf (m' ((c.tc : Thread Cert.ReferenceIdeal.nD Cert.ReferenceIdeal.τ).loc Cert.ReferenceIdeal.main_arg2)) := rfl
theorem aggF_R : Cert.ReferenceIdeal.HandV.aggF m' c = aggOfR (m' ((c.tc : Thread Cert.ReferenceIdeal.nD Cert.ReferenceIdeal.τ).loc Cert.ReferenceIdeal.main_arg0)) := rfl

end Readings

/-! ## The two results -/

/-- From the two value readings (the kernel's result is the cell in the kernel's arrangement of the kernel's
    arguments, the reference's result the cell in the reference's arrangement of its own), the precondition and the
    agreement of the arguments: the two result arrays are equal. -/
theorem value_eq_of (m : KMem) (ρ : Dev Cert.KernelIdeal.nD → PrngReg) (m' : RMem)
    (hpre : Cert.Pre_KernelIdeal m)
    (hagree : (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)))
    (c : Dev Cert.KernelIdeal.nD)
    (hKv : ∀ (n : Fin 50000) (d : Fin 128),
      (Cert.KernelIdeal.Hand.W13 (F := Ideal) m ρ c (Proc.devRef .tc Cert.KernelIdeal.main_v407) : FVec Ideal Cert.KernelIdeal.S3x50000x128 .f32) (ix3 0 n d) = k1 (Cert.KernelIdeal.HandV.P m c) (Cert.KernelIdeal.HandV.aggF m c) (Cert.KernelIdeal.HandV.hF m c) (Cert.KernelIdeal.HandV.hinF m c) n d
      ∧ (Cert.KernelIdeal.Hand.W13 (F := Ideal) m ρ c (Proc.devRef .tc Cert.KernelIdeal.main_v407) : FVec Ideal Cert.KernelIdeal.S3x50000x128 .f32) (ix3 1 n d) = k2 (Cert.KernelIdeal.HandV.P m c) (Cert.KernelIdeal.HandV.aggF m c) (Cert.KernelIdeal.HandV.hF m c) (Cert.KernelIdeal.HandV.hinF m c) n d
      ∧ (Cert.KernelIdeal.Hand.W13 (F := Ideal) m ρ c (Proc.devRef .tc Cert.KernelIdeal.main_v407) : FVec Ideal Cert.KernelIdeal.S3x50000x128 .f32) (ix3 2 n d) = k3 (Cert.KernelIdeal.HandV.P m c) (Cert.KernelIdeal.HandV.aggF m c) (Cert.KernelIdeal.HandV.hF m c) (Cert.KernelIdeal.HandV.hinF m c) n d)
    (hRv : ∀ (n : Fin 50000) (d : Fin 128),
      (StableHlo.after (Cert.ReferenceIdeal.Hand.ops (F := Ideal)) (StableHlo.launchContents m' c) (Proc.devRef .tc Cert.ReferenceIdeal.main_v787) : FVec Ideal Cert.KernelIdeal.S3x50000x128 .f32) (ix3 0 n d) = r1 (Cert.ReferenceIdeal.HandV.P m' c) (Cert.ReferenceIdeal.HandV.aggF m' c) (Cert.ReferenceIdeal.HandV.hF m' c) (Cert.ReferenceIdeal.HandV.hinF m' c) n d
      ∧ (StableHlo.after (Cert.ReferenceIdeal.Hand.ops (F := Ideal)) (StableHlo.launchContents m' c) (Proc.devRef .tc Cert.ReferenceIdeal.main_v787) : FVec Ideal Cert.KernelIdeal.S3x50000x128 .f32) (ix3 1 n d) = r2 (Cert.ReferenceIdeal.HandV.P m' c) (Cert.ReferenceIdeal.HandV.aggF m' c) (Cert.ReferenceIdeal.HandV.hF m' c) (Cert.ReferenceIdeal.HandV.hinF m' c) n d
      ∧ (StableHlo.after (Cert.ReferenceIdeal.Hand.ops (F := Ideal)) (StableHlo.launchContents m' c) (Proc.devRef .tc Cert.ReferenceIdeal.main_v787) : FVec Ideal Cert.KernelIdeal.S3x50000x128 .f32) (ix3 2 n d) = r3 (Cert.ReferenceIdeal.HandV.P m' c) (Cert.ReferenceIdeal.HandV.aggF m' c) (Cert.ReferenceIdeal.HandV.hF m' c) (Cert.ReferenceIdeal.HandV.hinF m' c) n d) :
    StableHlo.after (Cert.ReferenceIdeal.Hand.ops (F := Ideal)) (StableHlo.launchContents m' c) (Proc.devRef .tc Cert.ReferenceIdeal.main_v787)
      = Cert.KernelIdeal.Hand.W13 (F := Ideal) m ρ c (Proc.devRef .tc Cert.KernelIdeal.main_v407) := by
  obtain ⟨e0, e1, e2, e3, e4, e5, e6, e7⟩ := hagree c
  obtain ⟨f1, f2, f3, f4, f5, f6, f7⟩ := finite_of_Pre_KernelIdeal m hpre c
  obtain ⟨n1, n2, n3⟩ := net_arrays_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
    (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) f1 f2 f3 f4 f5 f6 f7
  have hP : Cert.ReferenceIdeal.HandV.P m' c = Cert.KernelIdeal.HandV.P m c := (P_R m' c).trans ((paramsOf_congr e3 e4 e5 e6 e7).trans (P_K m c).symm)
  have hA : Cert.ReferenceIdeal.HandV.aggF m' c = aggOfR (m ((c.tc : Thread Cert.KernelIdeal.nD Cert.KernelIdeal.τ).loc Cert.KernelIdeal.main_arg0)) := (aggF_R m' c).trans (congrArg aggOfR e0)
  have hH : Cert.ReferenceIdeal.HandV.hF m' c = Cert.KernelIdeal.HandV.hF m c := (hF_R m' c).trans ((congrArg featOf e1).trans (hF_K m c).symm)
  have hHin : Cert.ReferenceIdeal.HandV.hinF m' c = Cert.KernelIdeal.HandV.hinF m c := (hinF_R m' c).trans ((congrArg featOf e2).trans (hinF_K m c).symm)
  rw [← P_K m c, ← hF_K m c, ← hinF_K m c, ← aggF_K m c] at n1 n2 n3
  show (StableHlo.after (Cert.ReferenceIdeal.Hand.ops (F := Ideal)) (StableHlo.launchContents m' c) (Proc.devRef .tc Cert.ReferenceIdeal.main_v787) : FVec Ideal Cert.KernelIdeal.S3x50000x128 .f32) = (Cert.KernelIdeal.Hand.W13 (F := Ideal) m ρ c (Proc.devRef .tc Cert.KernelIdeal.main_v407) : FVec Ideal Cert.KernelIdeal.S3x50000x128 .f32)
  refine funext fun j => ?_
  obtain ⟨s, n, d, rfl⟩ : ∃ (s : Fin 3) (n : Fin 50000) (d : Fin 128), j = ix3 s n d := ⟨_, _, _, eq_ix3 j⟩
  match s with
  | ⟨0, _⟩ =>
    refine ((hRv n d).1.trans ?_).trans (hKv n d).1.symm
    rw [hP, hA, hH, hHin]; exact (congrFun (congrFun n1 n) d).symm
  | ⟨1, _⟩ =>
    refine ((hRv n d).2.1.trans ?_).trans (hKv n d).2.1.symm
    rw [hP, hA, hH, hHin]; exact (congrFun (congrFun n2 n) d).symm
  | ⟨2, _⟩ =>
    refine ((hRv n d).2.2.trans ?_).trans (hKv n d).2.2.symm
    rw [hP, hA, hH, hHin]; exact (congrFun (congrFun n3 n) d).symm

end Cert.Bridge

end
-- ==== Proof.KV.Carry.lean ====
import proofs.«414290_j6631429505478_3_alg».proof.Proof.KI.Fold
import Idealize.ShloMosaic.Lib.Pipeline.Cells

set_option maxRecDepth 16384

noncomputable section

namespace Cert.KernelIdeal.HandV

open Cert.KernelIdeal Cert.KernelIdeal.Gen Cert.KernelIdeal.Hand
open Idealize.ShloMosaic Idealize.ShloMosaic.TcCoe
open Idealize.ShloMosaic.Pipeline (Dat Cfg Window cellOf)

variable {F : FTy → Type} [FloatOps F]
variable (m : (ℓ : Loc nD τ sig) → Buf (Elt F) ℓ) (ρ : Dev nD → PrngReg)

/-! # Buffers across the boundaries

A region changes only the arrays it writes back; a host stretch changes only its operations' results. A buffer
that is neither holds at a later boundary what it held at an earlier one. -/

/-! ## One region: an array it only reads, and any buffer that is not one of its outputs -/

theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) := by
  rw [W2_arr, Pipeline.Dat.arrAt_in _ w hin, A_eq0]

theorem W4_in (c : Dev nD) (w : Fin cfg1.W) (hin : (cfg1.win w).isOut = false) :
    W4 m ρ c (Proc.devRef .tc (Pipeline.arrRef spec1 w)) = W3 m ρ c (Proc.devRef .tc (Pipeline.arrRef spec1 w)) := by
  rw [W4_arr, Pipeline.Dat.arrAt_in _ w hin, A_eq1]

theorem W6_in (c : Dev nD) (w : Fin cfg2.W) (hin : (cfg2.win w).isOut = false) :
    W6 m ρ c (Proc.devRef .tc (Pipeline.arrRef spec2 w)) = W5 m ρ c (Proc.devRef .tc (Pipeline.arrRef spec2 w)) := by
  rw [W6_arr, Pipeline.Dat.arrAt_in _ w hin, A_eq2]

theorem W8_in (c : Dev nD) (w : Fin cfg3.W) (hin : (cfg3.win w).isOut = false) :
    W8 m ρ c (Proc.devRef .tc (Pipeline.arrRef spec3 w)) = W7 m ρ c (Proc.devRef .tc (Pipeline.arrRef spec3 w)) := by
  rw [W8_arr, Pipeline.Dat.arrAt_in _ w hin, A_eq3]

theorem W10_in (c : Dev nD) (w : Fin cfg4.W) (hin : (cfg4.win w).isOut = false) :
    W10 m ρ c (Proc.devRef .tc (Pipeline.arrRef spec4 w)) = W9 m ρ c (Proc.devRef .tc (Pipeline.arrRef spec4 w)) := by
  rw [W10_arr, Pipeline.Dat.arrAt_in _ w hin, A_eq4]

theorem W12_in (c : Dev nD) (w : Fin cfg5.W) (hin : (cfg5.win w).isOut = false) :
    W12 m ρ c (Proc.devRef .tc (Pipeline.arrRef spec5 w)) = W11 m ρ c (Proc.devRef .tc (Pipeline.arrRef spec5 w)) := by
  rw [W12_arr, Pipeline.Dat.arrAt_in _ w hin, A_eq5]

/-- A buffer that is no output array of region 0 holds at its exit what it held at its entry. -/
theorem W2_keep (c : Dev nD) (r : Ref sig .tc)
    (h : ∀ w : Fin cfg0.W, (cfg0.win w).isOut = true → Pipeline.arrRef spec0 w ≠ r) :
    W2 m ρ c (Proc.devRef .tc r) = W1 m ρ c (Proc.devRef .tc r) := by
  by_cases hw : ∃ w, Pipeline.arrRef spec0 w = r
  · obtain ⟨w, rfl⟩ := hw
    refine W2_in m ρ c w ?_
    cases hb : (cfg0.win w).isOut with
    | false => rfl
    | true => exact absurd rfl (h w hb)
  · exact W2_of_ne m ρ c r fun w e => hw ⟨w, e⟩

theorem W4_keep (c : Dev nD) (r : Ref sig .tc)
    (h : ∀ w : Fin cfg1.W, (cfg1.win w).isOut = true → Pipeline.arrRef spec1 w ≠ r) :
    W4 m ρ c (Proc.devRef .tc r) = W3 m ρ c (Proc.devRef .tc r) := by
  by_cases hw : ∃ w, Pipeline.arrRef spec1 w = r
  · obtain ⟨w, rfl⟩ := hw
    refine W4_in m ρ c w ?_
    cases hb : (cfg1.win w).isOut with
    | false => rfl
    | true => exact absurd rfl (h w hb)
  · exact W4_of_ne m ρ c r fun w e => hw ⟨w, e⟩

theorem W6_keep (c : Dev nD) (r : Ref sig .tc)
    (h : ∀ w : Fin cfg2.W, (cfg2.win w).isOut = true → Pipeline.arrRef spec2 w ≠ r) :
    W6 m ρ c (Proc.devRef .tc r) = W5 m ρ c (Proc.devRef .tc r) := by
  by_cases hw : ∃ w, Pipeline.arrRef spec2 w = r
  · obtain ⟨w, rfl⟩ := hw
    refine W6_in m ρ c w ?_
    cases hb : (cfg2.win w).isOut with
    | false => rfl
    | true => exact absurd rfl (h w hb)
  · exact W6_of_ne m ρ c r fun w e => hw ⟨w, e⟩

theorem W8_keep (c : Dev nD) (r : Ref sig .tc)
    (h : ∀ w : Fin cfg3.W, (cfg3.win w).isOut = true → Pipeline.arrRef spec3 w ≠ r) :
    W8 m ρ c (Proc.devRef .tc r) = W7 m ρ c (Proc.devRef .tc r) := by
  by_cases hw : ∃ w, Pipeline.arrRef spec3 w = r
  · obtain ⟨w, rfl⟩ := hw
    refine W8_in m ρ c w ?_
    cases hb : (cfg3.win w).isOut with
    | false => rfl
    | true => exact absurd rfl (h w hb)
  · exact W8_of_ne m ρ c r fun w e => hw ⟨w, e⟩

theorem W10_keep (c : Dev nD) (r : Ref sig .tc)
    (h : ∀ w : Fin cfg4.W, (cfg4.win w).isOut = true → Pipeline.arrRef spec4 w ≠ r) :
    W10 m ρ c (Proc.devRef .tc r) = W9 m ρ c (Proc.devRef .tc r) := by
  by_cases hw : ∃ w, Pipeline.arrRef spec4 w = r
  · obtain ⟨w, rfl⟩ := hw
    refine W10_in m ρ c w ?_
    cases hb : (cfg4.win w).isOut with
    | false => rfl
    | true => exact absurd rfl (h w hb)
  · exact W10_of_ne m ρ c r fun w e => hw ⟨w, e⟩

theorem W12_keep (c : Dev nD) (r : Ref sig .tc)
    (h : ∀ w : Fin cfg5.W, (cfg5.win w).isOut = true → Pipeline.arrRef spec5 w ≠ r) :
    W12 m ρ c (Proc.devRef .tc r) = W11 m ρ c (Proc.devRef .tc r) := by
  by_cases hw : ∃ w, Pipeline.arrRef spec5 w = r
  · obtain ⟨w, rfl⟩ := hw
    refine W12_in m ρ c w ?_
    cases hb : (cfg5.win w).isOut with
    | false => rfl
    | true => exact absurd rfl (h w hb)
  · exact W12_of_ne m ρ c r fun w e => hw ⟨w, e⟩

/-! ## The conditions, as one decidable statement per item -/

/-- `r` is no output array of region `K`. -/
abbrev NoOut0 (r : Ref sig .tc) : Prop := ∀ w : Fin cfg0.W, (cfg0.win w).isOut = true → Pipeline.arrRef spec0 w ≠ r
abbrev NoOut1 (r : Ref sig .tc) : Prop := ∀ w : Fin cfg1.W, (cfg1.win w).isOut = true → Pipeline.arrRef spec1 w ≠ r
abbrev NoOut2 (r : Ref sig .tc) : Prop := ∀ w : Fin cfg2.W, (cfg2.win w).isOut = true → Pipeline.arrRef spec2 w ≠ r
abbrev NoOut3 (r : Ref sig .tc) : Prop := ∀ w : Fin cfg3.W, (cfg3.win w).isOut = true → Pipeline.arrRef spec3 w ≠ r
abbrev NoOut4 (r : Ref sig .tc) : Prop := ∀ w : Fin cfg4.W, (cfg4.win w).isOut = true → Pipeline.arrRef spec4 w ≠ r
abbrev NoOut5 (r : Ref sig .tc) : Prop := ∀ w : Fin cfg5.W, (cfg5.win w).isOut = true → Pipeline.arrRef spec5 w ≠ r

/-! ## Spans -/

variable (c : Dev nD) (r : Ref sig .tc)

theorem keep_0_1 (h : r ∉ hostOps0_W) : W1 m ρ c (Proc.devRef .tc r) = m ((c : Thread nD τ).loc r) :=
  W1_of_nw m ρ c r h

theorem keep_1_2 (h : NoOut0 r) : W2 m ρ c (Proc.devRef .tc r) = W1 m ρ c (Proc.devRef .tc r) := W2_keep m ρ c r h

theorem keep_1_3 (h : NoOut0 r ∧ r ∉ hostOps1_W) : W3 m ρ c (Proc.devRef .tc r) = W1 m ρ c (Proc.devRef .tc r) :=
  (W3_of_nw m ρ c r h.2).trans (W2_keep m ρ c r h.1)

theorem keep_1_4 (h : NoOut0 r ∧ r ∉ hostOps1_W ∧ NoOut1 r) :
    W4 m ρ c (Proc.devRef .tc r) = W1 m ρ c (Proc.devRef .tc r) :=
  (W4_keep m ρ c r h.2.2).trans (keep_1_3 m ρ c r ⟨h.1, h.2.1⟩)

theorem keep_1_5 (h : NoOut0 r ∧ r ∉ hostOps1_W ∧ NoOut1 r ∧ r ∉ hostOps2_W) :
    W5 m ρ c (Proc.devRef .tc r) = W1 m ρ c (Proc.devRef .tc r) :=
  (W5_of_nw m ρ c r h.2.2.2).trans (keep_1_4 m ρ c r ⟨h.1, h.2.1, h.2.2.1⟩)

theorem keep_0_4 (h : r ∉ hostOps0_W ∧ NoOut0 r ∧ r ∉ hostOps1_W ∧ NoOut1 r) :
    W4 m ρ c (Proc.devRef .tc r) = m ((c : Thread nD τ).loc r) :=
  (keep_1_4 m ρ c r h.2).trans (keep_0_1 m ρ c r h.1)

theorem keep_5_6 (h : NoOut2 r) : W6 m ρ c (Proc.devRef .tc r) = W5 m ρ c (Proc.devRef .tc r) := W6_keep m ρ c r h

theorem keep_5_7 (h : NoOut2 r ∧ r ∉ hostOps3_W) : W7 m ρ c (Proc.devRef .tc r) = W5 m ρ c (Proc.devRef .tc r) :=
  (W7_of_nw m ρ c r h.2).trans (W6_keep m ρ c r h.1)

theorem keep_5_8 (h : NoOut2 r ∧ r ∉ hostOps3_W ∧ NoOut3 r) :
    W8 m ρ c (Proc.devRef .tc r) = W5 m ρ c (Proc.devRef .tc r) :=
  (W8_keep m ρ c r h.2.2).trans (keep_5_7 m ρ c r ⟨h.1, h.2.1⟩)

theorem keep_5_9 (h : NoOut2 r ∧ r ∉ hostOps3_W ∧ NoOut3 r ∧ r ∉ hostOps4_W) :
    W9 m ρ c (Proc.devRef .tc r) = W5 m ρ c (Proc.devRef .tc r) :=
  (W9_of_nw m ρ c r h.2.2.2).trans (keep_5_8 m ρ c r ⟨h.1, h.2.1, h.2.2.1⟩)

theorem keep_4_5 (h : r ∉ hostOps2_W) : W5 m ρ c (Proc.devRef .tc r) = W4 m ρ c (Proc.devRef .tc r) := W5_of_nw m ρ c r h

theorem keep_4_8 (h : r ∉ hostOps2_W ∧ NoOut2 r ∧ r ∉ hostOps3_W ∧ NoOut3 r) :
    W8 m ρ c (Proc.devRef .tc r) = W4 m ρ c (Proc.devRef .tc r) :=
  (keep_5_8 m ρ c r h.2).trans (W5_of_nw m ρ c r h.1)

theorem keep_1_8 (h : (NoOut0 r ∧ r ∉ hostOps1_W ∧ NoOut1 r) ∧ r ∉ hostOps2_W ∧ NoOut2 r ∧ r ∉ hostOps3_W ∧ NoOut3 r) :
    W8 m ρ c (Proc.devRef .tc r) = W1 m ρ c (Proc.devRef .tc r) :=
  (keep_4_8 m ρ c r h.2).trans (keep_1_4 m ρ c r h.1)

theorem keep_0_8 (h : r ∉ hostOps0_W ∧ (NoOut0 r ∧ r ∉ hostOps1_W ∧ NoOut1 r) ∧ r ∉ hostOps2_W ∧ NoOut2 r ∧ r ∉ hostOps3_W ∧ NoOut3 r) :
    W8 m ρ c (Proc.devRef .tc r) = m ((c : Thread nD τ).loc r) :=
  (keep_1_8 m ρ c r h.2).trans (keep_0_1 m ρ c r h.1)

theorem keep_1_9 (h : ((NoOut0 r ∧ r ∉ hostOps1_W ∧ NoOut1 r) ∧ r ∉ hostOps2_W ∧ NoOut2 r ∧ r ∉ hostOps3_W ∧ NoOut3 r) ∧ r ∉ hostOps4_W) :
    W9 m ρ c (Proc.devRef .tc r) = W1 m ρ c (Proc.devRef .tc r) :=
  (W9_of_nw m ρ c r h.2).trans (keep_1_8 m ρ c r h.1)

theorem keep_9_10 (h : NoOut4 r) : W10 m ρ c (Proc.devRef .tc r) = W9 m ρ c (Proc.devRef .tc r) := W10_keep m ρ c r h

theorem keep_9_11 (h : NoOut4 r ∧ r ∉ hostOps5_W) : W11 m ρ c (Proc.devRef .tc r) = W9 m ρ c (Proc.devRef .tc r) :=
  (W11_of_nw m ρ c r h.2).trans (W10_keep m ρ c r h.1)

theorem keep_9_12 (h : NoOut4 r ∧ r ∉ hostOps5_W ∧ NoOut5 r) :
    W12 m ρ c (Proc.devRef .tc r) = W9 m ρ c (Proc.devRef .tc r) :=
  (W12_keep m ρ c r h.2.2).trans (keep_9_11 m ρ c r ⟨h.1, h.2.1⟩)

theorem keep_5_12 (h : (NoOut2 r ∧ r ∉ hostOps3_W ∧ NoOut3 r ∧ r ∉ hostOps4_W) ∧ NoOut4 r ∧ r ∉ hostOps5_W ∧ NoOut5 r) :
    W12 m ρ c (Proc.devRef .tc r) = W5 m ρ c (Proc.devRef .tc r) :=
  (keep_9_12 m ρ c r h.2).trans (keep_5_9 m ρ c r h.1)

theorem keep_1_11 (h : (((NoOut0 r ∧ r ∉ hostOps1_W ∧ NoOut1 r) ∧ r ∉ hostOps2_W ∧ NoOut2 r ∧ r ∉ hostOps3_W ∧ NoOut3 r) ∧ r ∉ hostOps4_W) ∧ NoOut4 r ∧ r ∉ hostOps5_W) :
    W11 m ρ c (Proc.devRef .tc r) = W1 m ρ c (Proc.devRef .tc r) :=
  (keep_9_11 m ρ c r h.2).trans (keep_1_9 m ρ c r h.1)

theorem keep_1_7 (h : (NoOut0 r ∧ r ∉ hostOps1_W ∧ NoOut1 r ∧ r ∉ hostOps2_W) ∧ NoOut2 r ∧ r ∉ hostOps3_W) :
    W7 m ρ c (Proc.devRef .tc r) = W1 m ρ c (Proc.devRef .tc r) :=
  (keep_5_7 m ρ c r h.2).trans (keep_1_5 m ρ c r h.1)

/-! ## Spot checks of the conditions by evaluation -/

example : W3 m ρ c (Proc.devRef .tc main_v169) = W1 m ρ c (Proc.devRef .tc main_v169) := keep_1_3 m ρ c _ (by decide)
example : W11 m ρ c (Proc.devRef .tc main_v13) = W1 m ρ c (Proc.devRef .tc main_v13) := keep_1_11 m ρ c _ (by decide)
example : W8 m ρ c (Proc.devRef .tc main_arg4) = m ((c : Thread nD τ).loc main_arg4) := keep_0_8 m ρ c _ (by decide)
example : W12 m ρ c (Proc.devRef .tc main_v183) = W5 m ρ c (Proc.devRef .tc main_v183) := keep_5_12 m ρ c _ (by decide)

end Cert.KernelIdeal.HandV

end
-- ==== Proof.Spec.Sums.lean ====
/- Re-indexing of finite sums by tiles: a flat index `k < m * n` is uniquely `i * n + j` with
   `i < m`, `j < n`; a sum over the flat index is the iterated sum over tile and offset; a left fold that adds
   one partial sum per step is the sum of the partial sums. Stated in any additive commutative monoid: no
   finiteness is needed. No program is read here. -/
import Mathlib.Algebra.BigOperators.Fin
import Mathlib.Data.Fintype.BigOperators
import Mathlib.Logic.Equiv.Fin.Basic

namespace Cert.Spec

open scoped BigOperators

/-! ## Tile and offset of a flat index -/

/-- Offset `j` of tile `i` is a flat index below `m * n`. -/
theorem tile_lt {m n i j : ℕ} (hi : i < m) (hj : j < n) : i * n + j < m * n :=
  calc i * n + j < i * n + n := Nat.add_lt_add_left hj _
    _ = (i + 1) * n := (Nat.succ_mul i n).symm
    _ ≤ m * n := Nat.mul_le_mul_right n hi

/-- The same against a spelled product. -/
theorem tile_lt' {m n N i j : ℕ} (hN : m * n = N) (hi : i < m) (hj : j < n) : i * n + j < N :=
  lt_of_lt_of_eq (tile_lt hi hj) hN

/-- The tile of `i * n + j` is `i`. -/
theorem tile_div {n : ℕ} (i j : ℕ) (hj : j < n) : (i * n + j) / n = i := by
  have hn : 0 < n := Nat.lt_of_le_of_lt (Nat.zero_le j) hj
  rw [Nat.add_comm, Nat.add_mul_div_right _ _ hn, Nat.div_eq_of_lt hj, Nat.zero_add]

/-- The offset of `i * n + j` is `j`. -/
theorem tile_mod {n : ℕ} (i j : ℕ) (hj : j < n) : (i * n + j) % n = j := by
  rw [Nat.add_comm, Nat.add_mul_mod_self_right, Nat.mod_eq_of_lt hj]

/-- A flat index is its tile times the width plus its offset. -/
theorem div_mul_add_mod (k n : ℕ) : k / n * n + k % n = k := Nat.div_add_mod' k n

/-- The tile of a flat index below `m * n` is below `m`. -/
theorem div_lt_of_lt_tiles {m n N k : ℕ} (hN : m * n = N) (hk : k < N) : k / n < m :=
  Nat.div_lt_of_lt_mul (by rw [Nat.mul_comm, hN]; exact hk)

/-- The offset of a flat index below a positive multiple of `n` is below `n`. -/
theorem mod_lt_of_lt_tiles {m n N k : ℕ} (hN : m * n = N) (hk : k < N) : k % n < n :=
  Nat.mod_lt _ (Nat.pos_of_ne_zero fun h => by subst h; rw [Nat.mul_zero] at hN; subst hN; exact Nat.not_lt_zero _ hk)

/-- Tile and offset, as an equivalence `Fin m × Fin n ≃ Fin N` for `m * n = N`: `(i, j) ↦ i * n + j`,
    with inverse `k ↦ (k / n, k % n)`. -/
def tileEquiv (m n N : ℕ) (hN : m * n = N) : Fin m × Fin n ≃ Fin N where
  toFun p := ⟨p.1 * n + p.2, tile_lt' hN p.1.2 p.2.2⟩
  invFun k := (⟨k / n, div_lt_of_lt_tiles hN k.2⟩, ⟨k % n, mod_lt_of_lt_tiles hN k.2⟩)
  left_inv p := Prod.ext (Fin.ext (tile_div p.1 p.2 p.2.2)) (Fin.ext (tile_mod p.1 p.2 p.2.2))
  right_inv k := Fin.ext (div_mul_add_mod k n)

@[simp] theorem tileEquiv_apply_val (m n N : ℕ) (hN : m * n = N) (p : Fin m × Fin n) :
    (tileEquiv m n N hN p : ℕ) = p.1 * n + p.2 := rfl

@[simp] theorem tileEquiv_symm_fst_val (m n N : ℕ) (hN : m * n = N) (k : Fin N) :
    (((tileEquiv m n N hN).symm k).1 : ℕ) = k / n := rfl

@[simp] theorem tileEquiv_symm_snd_val (m n N : ℕ) (hN : m * n = N) (k : Fin N) :
    (((tileEquiv m n N hN).symm k).2 : ℕ) = k % n := rfl

/-- Every flat index is `i * n + j` for exactly one tile `i` and offset `j`. -/
theorem exists_unique_tile (m n N : ℕ) (hN : m * n = N) (k : Fin N) :
    ∃! p : Fin m × Fin n, (p.1 : ℕ) * n + p.2 = k := by
  refine ⟨(tileEquiv m n N hN).symm k, div_mul_add_mod k n, ?_⟩
  intro p hp
  have : tileEquiv m n N hN p = k := Fin.ext hp
  rw [← this, Equiv.symm_apply_apply]

/-! ## A sum over the flat index is the iterated sum over tile and offset -/

section Sum

variable {M : Type*} [AddCommMonoid M]

/-- `∑ i < m, ∑ j < n, f (i * n + j) = ∑ k < N, f k` for `m * n = N`. -/
theorem sum_tiles (m n N : ℕ) (hN : m * n = N) (f : Fin N → M) :
    ∑ i : Fin m, ∑ j : Fin n, f ⟨i * n + j, tile_lt' hN i.2 j.2⟩ = ∑ k : Fin N, f k :=
  calc ∑ i : Fin m, ∑ j : Fin n, f ⟨i * n + j, tile_lt' hN i.2 j.2⟩
      = ∑ p : Fin m × Fin n, f (tileEquiv m n N hN p) :=
        (Fintype.sum_prod_type' fun (i : Fin m) (j : Fin n) => f ⟨i * n + j, tile_lt' hN i.2 j.2⟩).symm
    _ = ∑ k : Fin N, f k := (tileEquiv m n N hN).sum_comp f

/-- The same with any proof of the bound inside. -/
theorem sum_tiles' (m n N : ℕ) (hN : m * n = N) (f : Fin N → M)
    (h : ∀ (i : Fin m) (j : Fin n), (i : ℕ) * n + j < N) :
    ∑ i : Fin m, ∑ j : Fin n, f ⟨i * n + j, h i j⟩ = ∑ k : Fin N, f k :=
  sum_tiles m n N hN f

/-- Three levels: `∑ c < a, ∑ i < m, ∑ r < n, f ((c * m + i) * n + r) = ∑ k < N, f k` for `a * m * n = N`. -/
theorem sum_tiles₃ (a m n N : ℕ) (hN : a * m * n = N) (f : Fin N → M) :
    ∑ c : Fin a, ∑ i : Fin m, ∑ r : Fin n,
        f ⟨((c : ℕ) * m + i) * n + r, tile_lt' hN (tile_lt c.2 i.2) r.2⟩ = ∑ k : Fin N, f k :=
  (sum_tiles a m (a * m) rfl
      (fun t : Fin (a * m) => ∑ r : Fin n, f ⟨(t : ℕ) * n + r, tile_lt' hN t.2 r.2⟩)).trans
    (sum_tiles (a * m) n N hN f)

/-- The rows in the order the statistics pass visits them: two cores, 25 tiles each, 1000 rows a tile. -/
theorem sum_core_tile_row (f : Fin 50000 → M) :
    ∑ c : Fin 2, ∑ i : Fin 25, ∑ r : Fin 1000,
        f ⟨((c : ℕ) * 25 + i) * 1000 + r, tile_lt' (rfl : 2 * 25 * 1000 = 50000) (tile_lt c.2 i.2) r.2⟩ = ∑ k : Fin 50000, f k :=
  sum_tiles₃ 2 25 1000 50000 rfl f

/-- The rows in the order the combining pass visits them: 25 tiles of 2000 rows. -/
theorem sum_tile2000_row (f : Fin 50000 → M) :
    ∑ t : Fin 25, ∑ r : Fin 2000, f ⟨(t : ℕ) * 2000 + r, tile_lt' (rfl : 25 * 2000 = 50000) t.2 r.2⟩ = ∑ k : Fin 50000, f k :=
  sum_tiles 25 2000 50000 rfl f

/-! ## A left fold that adds one partial sum per step -/

/-- A sequence that starts at zero and adds `p i` at step `i` is the running sum. -/
theorem acc_eq_sum_range (p acc : ℕ → M) (K : ℕ) (h0 : acc 0 = 0)
    (hs : ∀ i, i < K → acc (i + 1) = acc i + p i) (k : ℕ) (hk : k ≤ K) :
    acc k = ∑ i ∈ Finset.range k, p i := by
  induction k with
  | zero => rw [h0, Finset.range_zero, Finset.sum_empty]
  | succ k ih => rw [hs k hk, ih (Nat.le_of_succ_le hk), Finset.sum_range_succ]

/-- The same, read over `Fin k`. -/
theorem acc_eq_sum_fin (p acc : ℕ → M) (K : ℕ) (h0 : acc 0 = 0)
    (hs : ∀ i, i < K → acc (i + 1) = acc i + p i) (k : ℕ) (hk : k ≤ K) :
    acc k = ∑ i : Fin k, p i := by
  rw [acc_eq_sum_range p acc K h0 hs k hk, Finset.sum_range]

/-- The left fold over `Fin n` that adds `p i` at step `i`, from any start. -/
theorem foldl_add_eq_add_sum (n : ℕ) (p : Fin n → M) (x : M) :
    Fin.foldl n (fun acc i => acc + p i) x = x + ∑ i : Fin n, p i := by
  induction n with
  | zero => simp
  | succ n ih =>
    rw [Fin.foldl_succ_last, ih (fun i => p i.castSucc), Fin.sum_univ_castSucc, add_assoc]

/-- The left fold over `Fin n` from zero is the sum. -/
theorem foldl_add_eq_sum (n : ℕ) (p : Fin n → M) :
    Fin.foldl n (fun acc i => acc + p i) 0 = ∑ i : Fin n, p i := by
  rw [foldl_add_eq_add_sum, zero_add]

/-- The left fold over a list that adds `p i` at each entry, from any start. -/
theorem list_foldl_add_eq_add_sum {α : Type*} (l : List α) (p : α → M) (x : M) :
    l.foldl (fun acc i => acc + p i) x = x + (l.map p).sum := by
  induction l generalizing x with
  | nil => simp
  | cons a l ih => rw [List.foldl_cons, ih, List.map_cons, List.sum_cons, add_assoc]

/-- The two cores' partial sums, added to zero from the left, are the sum over the cores. -/
theorem zero_add_two (a : Fin 2 → M) : (0 + a 0) + a 1 = ∑ c : Fin 2, a c := by
  rw [zero_add, Fin.sum_univ_two]

end Sum

/-! ## Columns of the group-widened arrays: `j = g * 128 + d` -/

/-- The group of a column. -/
def colGroup {G : ℕ} (j : Fin (G * 128)) : Fin G := ⟨j / 128, div_lt_of_lt_tiles rfl j.2⟩

/-- The channel of a column. -/
def colChan {G : ℕ} (j : Fin (G * 128)) : Fin 128 := ⟨j % 128, Nat.mod_lt _ (by decide)⟩

/-- Column `g * 128 + d`. -/
def colOf {G : ℕ} (g : Fin G) (d : Fin 128) : Fin (G * 128) := ⟨g * 128 + d, tile_lt g.2 d.2⟩

theorem colOf_val {G : ℕ} (g : Fin G) (d : Fin 128) : (colOf g d : ℕ) = g * 128 + d := rfl

theorem colGroup_val {G : ℕ} (j : Fin (G * 128)) : (colGroup j : ℕ) = j / 128 := rfl

theorem colChan_val {G : ℕ} (j : Fin (G * 128)) : (colChan j : ℕ) = j % 128 := rfl

@[simp] theorem colGroup_colOf {G : ℕ} (g : Fin G) (d : Fin 128) : colGroup (colOf g d) = g :=
  Fin.ext (tile_div g d d.2)

@[simp] theorem colChan_colOf {G : ℕ} (g : Fin G) (d : Fin 128) : colChan (colOf g d) = d :=
  Fin.ext (tile_mod g d d.2)

@[simp] theorem colOf_group_chan {G : ℕ} (j : Fin (G * 128)) : colOf (colGroup j) (colChan j) = j :=
  Fin.ext (div_mul_add_mod j 128)

/-- `(g * 128 + d) / 128 = g` and `(g * 128 + d) % 128 = d` on naturals, for `d < 128`. -/
theorem col_div (g d : ℕ) (hd : d < 128) : (g * 128 + d) / 128 = g := tile_div g d hd

theorem col_mod (g d : ℕ) (hd : d < 128) : (g * 128 + d) % 128 = d := tile_mod g d hd

/-- A column's group and channel determine it: `j = g * 128 + d` iff `j / 128 = g` and `j % 128 = d`. -/
theorem col_eq_iff (j g d : ℕ) (hd : d < 128) : j = g * 128 + d ↔ j / 128 = g ∧ j % 128 = d := by
  constructor
  · rintro rfl; exact ⟨col_div g d hd, col_mod g d hd⟩
  · rintro ⟨rfl, rfl⟩; exact (div_mul_add_mod j 128).symm

end Cert.Spec
-- ==== Proof.KV.GroupMath.lean ====
import proofs.«414290_j6631429505478_3_alg».proof.Proof.Spec.Net
import proofs.«414290_j6631429505478_3_alg».proof.Proof.Spec.Sums

/-!
# One group of mixed operations, along its widened columns

The operations of a group share their three inputs. Their parameters are laid side by side along `G * 128`
columns: column `j` belongs to operation `ops (j / 128)` at channel `j % 128`. The sums of the linear layer's
outputs and of their squares are taken per core (25 tiles of 1000 rows each), the two cores' sums are added, and the
normalised, rectified, weighted candidates are added left to right. At column `j` the result is the mixed
operation `ops (j / 128)` at channel `j % 128`. No program is read here.
-/

noncomputable section

namespace Cert.KernelIdeal.HandV

open Idealize.ShloMosaic Cert.Spec
open scoped BigOperators

/-- The sum of `f` over the rows one core visits: 25 tiles of 1000 rows, tile `core * 25 + i`. -/
def coreSum (f : Fin 50000 → EReal) (core : Fin 2) : EReal :=
  ∑ i : Fin 25, ∑ r : Fin 1000,
    f ⟨((core : ℕ) * 25 + i) * 1000 + r, tile_lt' (rfl : 2 * 25 * 1000 = 50000) (tile_lt core.2 i.2) r.2⟩

/-- The two cores between them visit every row once. -/
theorem coreSum_add (f : Fin 50000 → EReal) : coreSum f 0 + coreSum f 1 = ∑ n : Fin 50000, f n := by
  rw [← sum_core_tile_row f, Fin.sum_univ_two]
  rfl

/-- A group's parameters along its columns: the transposed matrices `[candidate, in, column]` and the four
    per-column vectors `[candidate, column]`. -/
structure GroupArrays (G : ℕ) where
  WT : Fin 3 → Fin 128 → Fin (G * 128) → EReal
  b : Fin 3 → Fin (G * 128) → EReal
  g : Fin 3 → Fin (G * 128) → EReal
  be : Fin 3 → Fin (G * 128) → EReal
  w : Fin 3 → Fin (G * 128) → EReal

/-- The arrays hold the parameters of the operations `ops`, operation `ops g` in columns `g * 128 ..`. -/
structure GroupArrays.Of {G : ℕ} (A : GroupArrays G) (ops : Fin G → Fin 6) (P : Params) : Prop where
  WT : ∀ cc k j, A.WT cc k j = P.W (ops (colGroup j)) cc (colChan j) k
  b : ∀ cc j, A.b cc j = P.b (ops (colGroup j)) cc (colChan j)
  g : ∀ cc j, A.g cc j = P.g (ops (colGroup j)) cc (colChan j)
  be : ∀ cc j, A.be cc j = P.be (ops (colGroup j)) cc (colChan j)
  w : ∀ cc j, A.w cc j = P.w (ops (colGroup j)) cc

section Group

variable {G : ℕ} (A : GroupArrays G) (X : Fin 3 → Feat)

/-- Candidate `cc`'s linear layer at row `n`, column `j`. -/
def zG (cc : Fin 3) (n : Fin 50000) (j : Fin (G * 128)) : EReal :=
  (∑ k : Fin 128, X cc n k * A.WT cc k j) + A.b cc j

/-- The column mean from the two cores' sums. -/
def meanG (cc : Fin 3) (j : Fin (G * 128)) : EReal :=
  Ideal.div (coreSum (fun n => zG A X cc n j) 0 + coreSum (fun n => zG A X cc n j) 1) N50000

/-- The column variance from the two cores' sums of squares: mean of squares minus squared mean, clamped at zero. -/
def varG (cc : Fin 3) (j : Fin (G * 128)) : EReal :=
  max (Ideal.div (coreSum (fun n => zG A X cc n j * zG A X cc n j) 0
          + coreSum (fun n => zG A X cc n j * zG A X cc n j) 1) N50000
        - meanG A X cc j * meanG A X cc j) 0

/-- One candidate's weighted, rectified, normalised term. -/
def termG (cc : Fin 3) (n : Fin 50000) (j : Fin (G * 128)) : EReal :=
  A.w cc j * max ((((zG A X cc n j - meanG A X cc j) * Ideal.rsqrt (varG A X cc j + eps)) * A.g cc j) + A.be cc j) 0

/-- The three candidates added left to right. -/
def outG (n : Fin 50000) (j : Fin (G * 128)) : EReal :=
  (termG A X 0 n j + termG A X 1 n j) + termG A X 2 n j

variable {A} {ops : Fin G → Fin 6} {P : Params}

theorem zG_eq (hA : A.Of ops P) (cc : Fin 3) (n : Fin 50000) (j : Fin (G * 128)) :
    zG A X cc n j = z (X cc) (P.W (ops (colGroup j)) cc) (P.b (ops (colGroup j)) cc) n (colChan j) := by
  unfold zG z
  rw [hA.b]
  congr 1
  exact Finset.sum_congr rfl fun k _ => by rw [hA.WT]

theorem meanG_eq (hA : A.Of ops P) (cc : Fin 3) (j : Fin (G * 128)) :
    meanG A X cc j = μ (X cc) (P.W (ops (colGroup j)) cc) (P.b (ops (colGroup j)) cc) (colChan j) := by
  unfold meanG μ
  rw [coreSum_add]
  simp only [zG_eq X hA]

theorem varG_eq (hA : A.Of ops P) (cc : Fin 3) (j : Fin (G * 128)) :
    varG A X cc j = varK (X cc) (P.W (ops (colGroup j)) cc) (P.b (ops (colGroup j)) cc) (colChan j) := by
  unfold varG varK
  rw [coreSum_add, meanG_eq X hA]
  simp only [zG_eq X hA]

theorem termG_eq (hA : A.Of ops P) (cc : Fin 3) (n : Fin 50000) (j : Fin (G * 128)) :
    termG A X cc n j = candK P (ops (colGroup j)) cc (X cc) n (colChan j) := by
  unfold termG candK kerBranch
  rw [zG_eq X hA, meanG_eq X hA, varG_eq X hA, hA.w, hA.g, hA.be]

/-- At column `j` the group's result is the mixed operation `ops (j / 128)` of the state, at channel `j % 128`. -/
theorem outG_eq (hA : A.Of ops P) (agg : Feat → Feat) (hin hx : Feat)
    (h0 : X 0 = agg hx) (h1 : X 1 = hx) (h2 : X 2 = hin) (n : Fin 50000) (j : Fin (G * 128)) :
    outG A X n j = mixedK P agg hin (ops (colGroup j)) hx n (colChan j) := by
  unfold outG mixedK
  rw [termG_eq X hA, termG_eq X hA, termG_eq X hA, h0, h1, h2]

/-- The pass as the program runs it: per-core sums `S`, `Q` of the linear layer's outputs and their squares, the mean
    `Mu` and clamped variance `Va` made of the two cores' sums, and the weighted candidates added left to right. -/
theorem outG_of (S Q : Fin 2 → Fin 3 → Fin (G * 128) → EReal) (Mu Va : Fin 3 → Fin (G * 128) → EReal)
    (out : Fin 50000 → Fin (G * 128) → EReal)
    (hS : ∀ core cc j, S core cc j = coreSum (fun n => zG A X cc n j) core)
    (hQ : ∀ core cc j, Q core cc j = coreSum (fun n => zG A X cc n j * zG A X cc n j) core)
    (hMu : ∀ cc j, Mu cc j = Ideal.div (S 0 cc j + S 1 cc j) N50000)
    (hVa : ∀ cc j, Va cc j = max (Ideal.div (Q 0 cc j + Q 1 cc j) N50000
        - Ideal.div (S 0 cc j + S 1 cc j) N50000 * Ideal.div (S 0 cc j + S 1 cc j) N50000) 0)
    (hout : ∀ n j, out n j =
      (A.w 0 j * max ((((zG A X 0 n j - Mu 0 j) * Ideal.rsqrt (Va 0 j + eps)) * A.g 0 j) + A.be 0 j) 0
        + A.w 1 j * max ((((zG A X 1 n j - Mu 1 j) * Ideal.rsqrt (Va 1 j + eps)) * A.g 1 j) + A.be 1 j) 0)
        + A.w 2 j * max ((((zG A X 2 n j - Mu 2 j) * Ideal.rsqrt (Va 2 j + eps)) * A.g 2 j) + A.be 2 j) 0)
    (n : Fin 50000) (j : Fin (G * 128)) : out n j = outG A X n j := by
  have eMu : ∀ cc j, Mu cc j = meanG A X cc j := fun cc j => by
    rw [hMu, hS, hS]; rfl
  have eVa : ∀ cc j, Va cc j = varG A X cc j := fun cc j => by
    rw [hVa, hQ, hQ, hS, hS]; rfl
  rw [hout, eMu, eMu, eMu, eVa, eVa, eVa]
  rfl

end Group

end Cert.KernelIdeal.HandV

end
-- ==== Proof.KV.CombDefs.lean ====
/- The combine kernels' arithmetic at one entry, as plain functions of extended reals: the linear
   layer (the 128-term product sum plus the bias) and one branch's weighted, rectified, normalised term, in the
   order of operations the kernels' bodies use. No program is read here. -/
import Idealize.ShloMosaic.PureOps.Ideal
import Mathlib.Algebra.BigOperators.Group.Finset.Basic

noncomputable section

namespace Cert.KernelIdeal.HandV

open Idealize.ShloMosaic
open scoped BigOperators

/-- The linear layer at one entry: the sum over the 128 contracted positions of the products, plus the bias. -/
def linK (x w : Fin 128 → EReal) (b : EReal) : EReal := (∑ k : Fin 128, x k * w k) + b

/-- One branch's term at one entry: the mixing weight times the rectified normalisation
    `max ((((z - μ) * rsqrt (v + eps)) * g) + be) 0`, `eps` the pattern of `f32 (1e-5)`. -/
def termK (wt z μ v g be : EReal) : EReal :=
  wt * max ((((z - μ) * Ideal.rsqrt (v + Ideal.ofBits .f32 0x3727C5AC#32)) * g) + be) 0

/-- The three branches' terms summed in the kernels' order: `(t0 + t1) + t2`. -/
def sum3K (t0 t1 t2 : EReal) : EReal := (t0 + t1) + t2

end Cert.KernelIdeal.HandV

end
-- ==== Proof.KV.CombArr.lean ====
/- The combine kernels' result arrays as functions of their input arrays, entry by entry: the three
   branches (the aggregated rows, the state rows, the input rows) each through the linear layer of its slab of the
   stacked weights, normalised by its row of the stacked means and variances, scaled, shifted, rectified, weighted
   by its row of the mixing weights, and summed in the kernels' order. No program is read here. -/
import proofs.«414290_j6631429505478_3_alg».proof.Proof.KV.CombDefs
import Idealize.ShloMosaic.Lib.ValueIdx

noncomputable section

namespace Cert.KernelIdeal.HandV

open Idealize.ShloMosaic Idealize.ShloMosaic.ValueIdx
open scoped BigOperators

variable {GW : ℕ}

/-- Branch `c`'s term at entry (n, j): `X` the branch's [50000,128] rows, `Wt` the stacked [3,128,GW] weights, and
    `B G Be Wts Mu Va` the stacked [3,GW] bias, gamma, beta, mixing weights, means and variances. -/
def branchAt (X : (⟨2, ![50000, 128]⟩ : Shape).Idx → EReal) (Wt : (⟨3, ![3, 128, GW]⟩ : Shape).Idx → EReal)
    (B G Be Wts Mu Va : (⟨2, ![3, GW]⟩ : Shape).Idx → EReal) (c : Fin 3) (n : Fin 50000) (j : Fin GW) : EReal :=
  termK (Wts (ix2 c j)) (linK (fun k => X (ix2 n k)) (fun k => Wt (ix3 c k j)) (B (ix2 c j)))
    (Mu (ix2 c j)) (Va (ix2 c j)) (G (ix2 c j)) (Be (ix2 c j))

/-- The three branches' terms at entry (n, j), summed `(t0 + t1) + t2`. -/
def combAt (X0 X1 X2 : (⟨2, ![50000, 128]⟩ : Shape).Idx → EReal) (Wt : (⟨3, ![3, 128, GW]⟩ : Shape).Idx → EReal)
    (B G Be Wts Mu Va : (⟨2, ![3, GW]⟩ : Shape).Idx → EReal) (n : Fin 50000) (j : Fin GW) : EReal :=
  sum3K (branchAt X0 Wt B G Be Wts Mu Va 0 n j) (branchAt X1 Wt B G Be Wts Mu Va 1 n j) (branchAt X2 Wt B G Be Wts Mu Va 2 n j)

end Cert.KernelIdeal.HandV

end
-- ==== Proof.KV.GroupComb.lean ====
import proofs.«414290_j6631429505478_3_alg».proof.Proof.KV.GroupMath
import proofs.«414290_j6631429505478_3_alg».proof.Proof.KV.CombArr

/-!
# The combining pass over arrays, as a group's result

The combining pass reads its inputs and parameters as arrays over shape indices. Read entry by entry they are a
group's parameters along its columns and its three inputs; with the means and variances made of the two cores' sums
the pass's result is the group's. No program is read here.
-/

noncomputable section

namespace Cert.KernelIdeal.HandV

open Idealize.ShloMosaic Idealize.ShloMosaic.ValueIdx Cert.Spec
open scoped BigOperators

variable {G : ℕ}

/-- The stacked parameter arrays of a group, read entry by entry. -/
def arraysOf (Wt : (⟨3, ![3, 128, G * 128]⟩ : Shape).Idx → EReal)
    (B Gm Be Wts : (⟨2, ![3, G * 128]⟩ : Shape).Idx → EReal) : GroupArrays G where
  WT := fun cc k j => Wt (ix3 cc k j)
  b := fun cc j => B (ix2 cc j)
  g := fun cc j => Gm (ix2 cc j)
  be := fun cc j => Be (ix2 cc j)
  w := fun cc j => Wts (ix2 cc j)

/-- The three input arrays of a group, read entry by entry. -/
def rowsOf (X0 X1 X2 : (⟨2, ![50000, 128]⟩ : Shape).Idx → EReal) : Fin 3 → Feat
  | 0 => fun n k => X0 (ix2 n k)
  | 1 => fun n k => X1 (ix2 n k)
  | 2 => fun n k => X2 (ix2 n k)

/-- The combining pass's entry (n, j), with its means and variances made of the two cores' sums `S`, `Q` of the
    linear layer's outputs and their squares, is the group's result there. -/
theorem combAt_eq_outG (X0 X1 X2 : (⟨2, ![50000, 128]⟩ : Shape).Idx → EReal)
    (Wt : (⟨3, ![3, 128, G * 128]⟩ : Shape).Idx → EReal)
    (B Gm Be Wts Mu Va : (⟨2, ![3, G * 128]⟩ : Shape).Idx → EReal)
    (S Q : (⟨3, ![2, 3, G * 128]⟩ : Shape).Idx → EReal)
    (hS : ∀ (core : Fin 2) (cc : Fin 3) (j : Fin (G * 128)), S (ix3 core cc j)
        = coreSum (fun n => zG (arraysOf Wt B Gm Be Wts) (rowsOf X0 X1 X2) cc n j) core)
    (hQ : ∀ (core : Fin 2) (cc : Fin 3) (j : Fin (G * 128)), Q (ix3 core cc j)
        = coreSum (fun n => zG (arraysOf Wt B Gm Be Wts) (rowsOf X0 X1 X2) cc n j
            * zG (arraysOf Wt B Gm Be Wts) (rowsOf X0 X1 X2) cc n j) core)
    (hMu : ∀ (cc : Fin 3) (j : Fin (G * 128)), Mu (ix2 cc j)
        = Ideal.div (S (ix3 (0 : Fin 2) cc j) + S (ix3 (1 : Fin 2) cc j)) N50000)
    (hVa : ∀ (cc : Fin 3) (j : Fin (G * 128)), Va (ix2 cc j)
        = max (Ideal.div (Q (ix3 (0 : Fin 2) cc j) + Q (ix3 (1 : Fin 2) cc j)) N50000
            - Ideal.div (S (ix3 (0 : Fin 2) cc j) + S (ix3 (1 : Fin 2) cc j)) N50000
              * Ideal.div (S (ix3 (0 : Fin 2) cc j) + S (ix3 (1 : Fin 2) cc j)) N50000) 0)
    (n : Fin 50000) (j : Fin (G * 128)) :
    combAt X0 X1 X2 Wt B Gm Be Wts Mu Va n j = outG (arraysOf Wt B Gm Be Wts) (rowsOf X0 X1 X2) n j :=
  outG_of (rowsOf X0 X1 X2) (fun core cc j => S (ix3 core cc j)) (fun core cc j => Q (ix3 core cc j))
    (fun cc j => Mu (ix2 cc j)) (fun cc j => Va (ix2 cc j))
    (fun n j => combAt X0 X1 X2 Wt B Gm Be Wts Mu Va n j) hS hQ hMu hVa (fun _ _ => rfl) n j

/-- The group's result at column `g * 128 + d`: operation `ops g` at channel `d`. -/
theorem outG_eq_colOf {A : GroupArrays G} {ops : Fin G → Fin 6} {P : Params} (X : Fin 3 → Feat) (hA : A.Of ops P)
    (agg : Feat → Feat) (hin hx : Feat) (h0 : X 0 = agg hx) (h1 : X 1 = hx) (h2 : X 2 = hin)
    (n : Fin 50000) (g : Fin G) (d : Fin 128) :
    outG A X n (colOf g d) = mixedK P agg hin (ops g) hx n d := by
  rw [outG_eq X hA agg hin hx h0 h1 h2, colGroup_colOf, colChan_colOf]

/-- The combining pass's entry depends only on its arrays. -/
theorem combAt_congr {GW : ℕ} {X0 X1 X2 X0' X1' X2' : (⟨2, ![50000, 128]⟩ : Shape).Idx → EReal}
    {Wt Wt' : (⟨3, ![3, 128, GW]⟩ : Shape).Idx → EReal}
    {B Gm Be Wts Mu Va B' Gm' Be' Wts' Mu' Va' : (⟨2, ![3, GW]⟩ : Shape).Idx → EReal}
    (h0 : X0 = X0') (h1 : X1 = X1') (h2 : X2 = X2') (h3 : Wt = Wt') (h4 : B = B') (h5 : Gm = Gm') (h6 : Be = Be')
    (h7 : Wts = Wts') (h8 : Mu = Mu') (h9 : Va = Va') (n : Fin 50000) (j : Fin GW) :
    combAt X0 X1 X2 Wt B Gm Be Wts Mu Va n j = combAt X0' X1' X2' Wt' B' Gm' Be' Wts' Mu' Va' n j := by
  subst h0 h1 h2 h3 h4 h5 h6 h7 h8 h9
  rfl

/-- The sum of two extended reals, with both summands' types given. -/
abbrev addE (a b : EReal) : EReal := a + b

/-! ## Columns by their offsets -/

theorem col3_0 (d : Fin 128) (h : d.val < 3 * 128) : (⟨d.val, h⟩ : Fin (3 * 128)) = colOf (0 : Fin 3) d :=
  Fin.ext (by rw [colOf_val]; show d.val = 0 * 128 + d.val; omega)
theorem col3_1 (d : Fin 128) (h : 128 + d.val < 3 * 128) : (⟨128 + d.val, h⟩ : Fin (3 * 128)) = colOf (1 : Fin 3) d :=
  Fin.ext (by rw [colOf_val]; show 128 + d.val = 1 * 128 + d.val; omega)
theorem col3_2 (d : Fin 128) (h : 256 + d.val < 3 * 128) : (⟨256 + d.val, h⟩ : Fin (3 * 128)) = colOf (2 : Fin 3) d :=
  Fin.ext (by rw [colOf_val]; show 256 + d.val = 2 * 128 + d.val; omega)
theorem col2_0 (d : Fin 128) (h : d.val < 2 * 128) : (⟨d.val, h⟩ : Fin (2 * 128)) = colOf (0 : Fin 2) d :=
  Fin.ext (by rw [colOf_val]; show d.val = 0 * 128 + d.val; omega)
theorem col2_1 (d : Fin 128) (h : 128 + d.val < 2 * 128) : (⟨128 + d.val, h⟩ : Fin (2 * 128)) = colOf (1 : Fin 2) d :=
  Fin.ext (by rw [colOf_val]; show 128 + d.val = 1 * 128 + d.val; omega)
theorem col1_0 (d : Fin 128) (h : d.val < 1 * 128) : (⟨d.val, h⟩ : Fin (1 * 128)) = colOf (0 : Fin 1) d :=
  Fin.ext (by rw [colOf_val]; show d.val = 0 * 128 + d.val; omega)

end Cert.KernelIdeal.HandV

end
-- ==== Proof.KV.HostStats5.lean ====
import proofs.«414290_j6631429505478_3_alg».proof.Proof.Gen.KernelIdeal.Launch
import Idealize.ShloMosaic.Lib.StableHlo.Run
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.KernelIdeal.HandV

open Cert.KernelIdeal Cert.KernelIdeal.Gen
open Idealize.ShloMosaic Idealize.ShloMosaic.TcCoe
open Idealize.ShloMosaic.ValueIdx

/-! # The host stretch between a statistics call and its combine call, read at an index

The two partial sums over the two cores are added, the sum is divided by the number of rows, and the
variance is the mean of squares minus the squared mean, clamped below at zero. -/

/-- The sum over the leading axis (the two cores) of a [2, 3, G] array at (c, j). -/
private theorem reduce2_apply {G : Nat} (h' : (⟨3, ![2, 3, G]⟩ : Shape).ReducesTo [0] ⟨2, ![3, G]⟩)
    (h : (⟨3, ![2, 3, G]⟩ : Shape).Reduces [0] ⟨2, ![3, G]⟩)
    (x : (⟨3, ![2, 3, G]⟩ : Shape).Idx → EReal) (init : EReal) (i : (⟨2, ![3, G]⟩ : Shape).Idx) :
    Ideal.hostReduceAdd h' x init i = init + (x (ix3 0 (i 0) (i 1)) + x (ix3 1 (i 0) (i 1))) := by
  rw [Ideal.hostReduceAdd_single h' h]
  have e0 : h.lift i (0 : Fin 2) = ix3 0 (i 0) (i 1) := by
    funext a; match a with | ⟨0, _⟩ => rfl | ⟨1, _⟩ => rfl | ⟨2, _⟩ => rfl
  have e1 : h.lift i (1 : Fin 2) = ix3 1 (i 0) (i 1) := by
    funext a; match a with | ⟨0, _⟩ => rfl | ⟨1, _⟩ => rfl | ⟨2, _⟩ => rfl
  show init + ∑ k : Fin 2, x (h.lift i k) = _
  rw [Fin.sum_univ_two, e0, e1]
  rfl

/-- A [2, 3, G] array summed over the two cores from zero and divided by a broadcast scalar, at (c, j). -/
private theorem meanOf_apply {G : Nat} (h' : (⟨3, ![2, 3, G]⟩ : Shape).ReducesTo [0] ⟨2, ![3, G]⟩)
    (h : (⟨3, ![2, 3, G]⟩ : Shape).Reduces [0] ⟨2, ![3, G]⟩) (hb : S_.BroadcastsInDim ⟨2, ![3, G]⟩ ![])
    (x : FVec Ideal ⟨3, ![2, 3, G]⟩ .f32) (n : BitVec 32) (i : (⟨2, ![3, G]⟩ : Shape).Idx) :
    Host.divf (Host.reduceAdd x (constant (F := Ideal) S_ .f32 0x00000000#32) h' h_S_)
        (broadcastInDim ⟨2, ![3, G]⟩ ![] hb (constant (F := Ideal) S_ .f32 n)) i
      = Ideal.div (x (ix3 0 (i 0) (i 1)) + x (ix3 1 (i 0) (i 1))) (Ideal.ofBits .f32 n) := by
  rw [hostDivf_apply, hostReduceAdd_apply, broadcastInDim_scalar_apply, constant_apply, constant_apply,
    reduce2_apply h' h, Ideal.ofBits_zero_f32, zero_add]

/-- The mean at (c, j): the two cores' sums added, over the number of rows. -/
theorem host5_mean (X : Valuation τ sig (Elt Ideal)) (s : FVec Ideal S2x3x128 .f32)
    (hs : X (Proc.devRef .tc main_v392_0) = s) (i : S3x128.Idx) :
    (StableHlo.after (hostOps5 (F := Ideal)) X (Proc.devRef .tc main_v396) : FVec Ideal S3x128 .f32) i
      = Ideal.div (s (ix3 0 (i 0) (i 1)) + s (ix3 1 (i 0) (i 1))) (Ideal.ofBits .f32 0x47435000#32) := by
  subst hs
  have e : (StableHlo.after (hostOps5 (F := Ideal)) X (Proc.devRef .tc main_v396) : FVec Ideal S3x128 .f32)
      = Host.divf (Host.reduceAdd (X (Proc.devRef .tc main_v392_0)) (constant (F := Ideal) S_ .f32 0x00000000#32) reducesTo_S2x3x128_S3x128_d0 h_S_)
          (broadcastInDim S3x128 ![] bcast_S_S3x128 (constant (F := Ideal) S_ .f32 0x47435000#32)) := by
    after_results
  rw [e, meanOf_apply _ (by decide)]

/-- The variance at (c, j): the mean of squares minus the squared mean, clamped below at zero. -/
theorem host5_var (X : Valuation τ sig (Elt Ideal)) (s q : FVec Ideal S2x3x128 .f32)
    (hs : X (Proc.devRef .tc main_v392_0) = s) (hq : X (Proc.devRef .tc main_v392_1) = q) (i : S3x128.Idx) :
    (StableHlo.after (hostOps5 (F := Ideal)) X (Proc.devRef .tc main_v402) : FVec Ideal S3x128 .f32) i
      = max (Ideal.div (q (ix3 0 (i 0) (i 1)) + q (ix3 1 (i 0) (i 1))) (Ideal.ofBits .f32 0x47435000#32)
              - Ideal.div (s (ix3 0 (i 0) (i 1)) + s (ix3 1 (i 0) (i 1))) (Ideal.ofBits .f32 0x47435000#32)
                * Ideal.div (s (ix3 0 (i 0) (i 1)) + s (ix3 1 (i 0) (i 1))) (Ideal.ofBits .f32 0x47435000#32)) 0 := by
  subst hs; subst hq
  have e : (StableHlo.after (hostOps5 (F := Ideal)) X (Proc.devRef .tc main_v402) : FVec Ideal S3x128 .f32)
      = maximumf
          (subf
            (Host.divf (Host.reduceAdd (X (Proc.devRef .tc main_v392_1)) (constant (F := Ideal) S_ .f32 0x00000000#32) reducesTo_S2x3x128_S3x128_d0 h_S_)
              (broadcastInDim S3x128 ![] bcast_S_S3x128 (constant (F := Ideal) S_ .f32 0x47435000#32)))
            (mulf
              (Host.divf (Host.reduceAdd (X (Proc.devRef .tc main_v392_0)) (constant (F := Ideal) S_ .f32 0x00000000#32) reducesTo_S2x3x128_S3x128_d0 h_S_)
                (broadcastInDim S3x128 ![] bcast_S_S3x128 (constant (F := Ideal) S_ .f32 0x47435000#32)))
              (Host.divf (Host.reduceAdd (X (Proc.devRef .tc main_v392_0)) (constant (F := Ideal) S_ .f32 0x00000000#32) reducesTo_S2x3x128_S3x128_d0 h_S_)
                (broadcastInDim S3x128 ![] bcast_S_S3x128 (constant (F := Ideal) S_ .f32 0x47435000#32)))))
          (broadcastInDim S3x128 ![] bcast_S_S3x128 (constant (F := Ideal) S_ .f32 0x00000000#32)) := by
    after_results
  rw [e, maximumf_apply, subf_apply, mulf_apply, meanOf_apply _ (by decide), meanOf_apply _ (by decide),
    broadcastInDim_scalar_apply, constant_apply, Ideal.ofBits_zero_f32]

end Cert.KernelIdeal.HandV
end
-- ==== Proof.KV.StatsPay4.lean ====
import proofs.«414290_j6631429505478_3_alg».proof.Proof.Gen.KernelIdeal.Skeleton
import Idealize.ShloMosaic.Lib.ValueLayout
import Idealize.ShloMosaic.PureOps.Ideal.Laws

noncomputable section

namespace Cert.KernelIdeal.HandV.Stats4

open Idealize.ShloMosaic Idealize.ShloMosaic.ValueIdx Idealize.SL.Sem
open Cert.KernelIdeal Cert.KernelIdeal.Gen

/-! ## The statistics kernel (128 columns) read at an index, at the ideal values

A tile is 1000 rows of a branch's activations `x` (1000 × 128). With the branch's weight matrix `w` (128 × 128, held with
a leading unit axis) and bias row `b` (1 × 128), the pre-normalisation value at row `r`, column `j` is
`z r j = (∑ k, x (r, k) * w (0, k, j)) + b (0, j)`. The kernel adds to its two output buffers, at `(0, cc, j)`, the column
sums `∑ r, z r j` and `∑ r, z r j * z r j` of branch `cc`. -/

/-- The value `z` of one branch at row `r` and column `j` of a tile. -/
def zT (x : FVec Ideal S1000x128 .bf16) (w : FVec Ideal S1x128x128 .f32) (b : FVec Ideal S1x128 .f32)
    (r : Fin 1000) (j : Fin 128) : EReal :=
  (∑ k : Fin 128, x (ix2 r k) * w (ix3 (0 : Fin 1) k j)) + b (ix2 (0 : Fin 1) j)

/-- One of three, by the branch's number. -/
def pick3 {α : Type} (cc : Fin 3) (a0 a1 a2 : α) : α :=
  match cc with | ⟨0, _⟩ => a0 | ⟨1, _⟩ => a1 | ⟨2, _⟩ => a2

/-- The 1000 × 128 by 128 × 128 product into a zero accumulator, at `(r, j)`: the sum over the contracted coordinate. -/
theorem matmul0_apply (x : FVec Ideal S1000x128 .bf16) (w : FVec Ideal S128x128 .bf16) (r : Fin 1000) (j : Fin 128) :
    matmul dot_S1000x128_S128x128_S1000x128_1_0_0_1_n_n none x w (constant (F := Ideal) S1000x128 .f32 0x00000000#32) (ix2 r j)
      = ∑ k : Fin 128, x (ix2 r k) * w (ix2 k j) := by
  show FloatOps.matmul _ none x w _ (ix2 r j) = _
  rw [Ideal.matmul_constant_zero_apply,
    ← Equiv.sum_comp (contrEquiv1 dot_S1000x128_S128x128_S1000x128_1_0_0_1_n_n 128 rfl rfl).symm]
  refine Finset.sum_congr rfl fun c _ => ?_
  have c2 := contrEquiv1_symm_val dot_S1000x128_S128x128_S1000x128_1_0_0_1_n_n 128 rfl rfl c
  have l2 : dot_S1000x128_S128x128_S1000x128_1_0_0_1_n_n.lhsIdx (ix2 r j) ((contrEquiv1 _ 128 rfl rfl).symm c) = ix2 r c := by
    funext ax; apply Fin.ext
    match ax with
    | ⟨0, _⟩ => simp [DotDims.lhsIdx, dot_S1000x128_S128x128_S1000x128_1_0_0_1_n_n]; rfl
    | ⟨1, _⟩ => simp [DotDims.lhsIdx, dot_S1000x128_S128x128_S1000x128_1_0_0_1_n_n]; exact c2
  have r2 : dot_S1000x128_S128x128_S1000x128_1_0_0_1_n_n.rhsIdx (ix2 r j) ((contrEquiv1 _ 128 rfl rfl).symm c) = ix2 c j := by
    funext ax; apply Fin.ext
    match ax with
    | ⟨0, _⟩ => simp [DotDims.rhsIdx, dot_S1000x128_S128x128_S1000x128_1_0_0_1_n_n]; exact c2
    | ⟨1, _⟩ => simp [DotDims.rhsIdx, dot_S1000x128_S128x128_S1000x128_1_0_0_1_n_n]; rfl
  rw [l2, r2]

/-- The weight matrix as the product reads it (leading unit axis dropped, format changed): the matrix itself. -/
theorem wcast_apply (w : FVec Ideal S1x128x128 .f32) (k : Fin 128) (j : Fin 128) :
    (truncf .bf16 (shapeCast S128x128 w shapeCasts_S1x128x128_S128x128) bitsLt_bf16_f32 : FVec Ideal S128x128 .bf16) (ix2 k j)
      = w (ix3 (0 : Fin 1) k j) :=
  shapeCast_1ab_ab_apply w shapeCasts_S1x128x128_S128x128 k j

/-- The bias row broadcast down the 1000 rows, at `(r, j)`: the bias at `j`. -/
theorem bcast_apply (b : FVec Ideal S1x128 .f32) (r : Fin 1000) (j : Fin 128) :
    broadcastTo S1000x128 (shapeCast S1x128 (shapeCast S128 b shapeCasts_S1x128_S128) shapeCasts_S128_S1x128)
        broadcasts_S1x128_S1000x128 (ix2 r j) = b (ix2 (0 : Fin 1) j) :=
  (broadcastTo_1b_ab_apply _ broadcasts_S1x128_S1000x128 r j).trans
    ((shapeCast_a_1a_apply _ shapeCasts_S128_S1x128 (0 : Fin 1) j).trans
      (shapeCast_1a_a_apply b shapeCasts_S1x128_S128 j))

/-- Branch 2's `z` (the tile already cast). -/
theorem pay1_apply (x : FVec Ideal S1000x128 .bf16) (w : FVec Ideal S1x128x128 .f32) (b : FVec Ideal S1x128 .f32)
    (r : Fin 1000) (j : Fin 128) : k4_pay1 x w b (ix2 r j) = zT x w b r j := by
  unfold k4_pay1 zT
  refine congrArg₂ (· + ·) ?_ (bcast_apply b r j)
  refine (matmul0_apply x _ r j).trans ?_
  exact Finset.sum_congr rfl fun k _ => congrArg (x (ix2 r k) * ·) (wcast_apply w k j)

/-- Branch 0's `z`. -/
theorem pay7_apply (x : FVec Ideal S1000x128 .bf16) (w : FVec Ideal S1x128x128 .f32) (b : FVec Ideal S1x128 .f32)
    (r : Fin 1000) (j : Fin 128) : k4_pay7 (F := Ideal) x w b (ix2 r j) = zT x w b r j := by
  unfold k4_pay7 zT
  refine congrArg₂ (· + ·) ?_ (bcast_apply b r j)
  refine (matmul0_apply _ _ r j).trans ?_
  refine Finset.sum_congr rfl fun k _ => ?_
  refine congrArg₂ (· * ·) ?_ (wcast_apply w k j)
  exact congrFun (shapeCast_self x shapeCasts_S1000x128_S1000x128) (ix2 r k)

/-- Branch 1's `z`. -/
theorem pay10_apply (x : FVec Ideal S1000x128 .bf16) (w : FVec Ideal S1x128x128 .f32) (b : FVec Ideal S1x128 .f32)
    (r : Fin 1000) (j : Fin 128) : k4_pay10 (F := Ideal) x w b (ix2 r j) = zT x w b r j := by
  unfold k4_pay10 zT
  refine congrArg₂ (· + ·) ?_ (bcast_apply b r j)
  refine (matmul0_apply _ _ r j).trans ?_
  refine Finset.sum_congr rfl fun k _ => ?_
  refine congrArg₂ (· * ·) ?_ (wcast_apply w k j)
  exact congrFun (shapeCast_self x shapeCasts_S1000x128_S1000x128) (ix2 r k)

/-- A sum down the 1000 rows of a 1000 × 128 vector, at column `j`. -/
theorem colsum_apply (v : FVec Ideal S1000x128 .f32) (j : Fin 128) :
    multiReduction (F := Ideal) .add [0] S128 v 0x00000000#32 reduces_S1000x128_S128 (.inl rfl) rfl (ix1 j)
      = ∑ r : Fin 1000, v (ix2 r j) := by
  refine (Ideal.multiReduction_add_single v 0x00000000#32 reduces_S1000x128_S128 (.inl rfl) rfl (ix1 j)).trans ?_
  refine Finset.sum_congr rfl fun r _ => congrArg v ?_
  funext a
  match a with
  | ⟨0, _⟩ => rfl
  | ⟨1, _⟩ => rfl

/-- Branch 0's column sums of `z` … -/
theorem pay8_apply (x : FVec Ideal S1000x128 .bf16) (w : FVec Ideal S1x128x128 .f32) (b : FVec Ideal S1x128 .f32) (j : Fin 128) :
    k4_pay8 (F := Ideal) x w b (ix1 j) = ∑ r : Fin 1000, zT x w b r j := by
  unfold k4_pay8
  refine (colsum_apply _ j).trans ?_
  exact Finset.sum_congr rfl fun r _ => pay7_apply x w b r j

/-- … and of `z * z`. -/
theorem pay9_apply (x : FVec Ideal S1000x128 .bf16) (w : FVec Ideal S1x128x128 .f32) (b : FVec Ideal S1x128 .f32) (j : Fin 128) :
    k4_pay9 (F := Ideal) x w b (ix1 j) = ∑ r : Fin 1000, zT x w b r j * zT x w b r j := by
  unfold k4_pay9
  refine (colsum_apply _ j).trans ?_
  exact Finset.sum_congr rfl fun r _ => congrArg₂ (· * ·) (pay7_apply x w b r j) (pay7_apply x w b r j)

/-- Branch 1's column sums of `z` … -/
theorem pay11_apply (x : FVec Ideal S1000x128 .bf16) (w : FVec Ideal S1x128x128 .f32) (b : FVec Ideal S1x128 .f32) (j : Fin 128) :
    k4_pay11 (F := Ideal) x w b (ix1 j) = ∑ r : Fin 1000, zT x w b r j := by
  unfold k4_pay11
  refine (colsum_apply _ j).trans ?_
  exact Finset.sum_congr rfl fun r _ => pay10_apply x w b r j

/-- … and of `z * z`. -/
theorem pay12_apply (x : FVec Ideal S1000x128 .bf16) (w : FVec Ideal S1x128x128 .f32) (b : FVec Ideal S1x128 .f32) (j : Fin 128) :
    k4_pay12 (F := Ideal) x w b (ix1 j) = ∑ r : Fin 1000, zT x w b r j * zT x w b r j := by
  unfold k4_pay12
  refine (colsum_apply _ j).trans ?_
  exact Finset.sum_congr rfl fun r _ => congrArg₂ (· * ·) (pay10_apply x w b r j) (pay10_apply x w b r j)

/-- The cast in front of branch 2's tile changes nothing. -/
theorem pay6_eq (x : FVec Ideal S1000x128 .bf16) : k4_pay6 (F := Ideal) x = x := by
  unfold k4_pay6
  exact shapeCast_self x shapeCasts_S1000x128_S1000x128

/-- Three rows stacked: row `cc` of the stack is the `cc`-th row. -/
theorem concat3_apply (v0 v1 v2 : FVec Ideal S1x128 .f32) (cc : Fin 3) (j : Fin 128) :
    concatenate S3x128 0 [⟨S1x128, v0⟩, ⟨S1x128, v1⟩, ⟨S1x128, v2⟩] concatenates_S1x128_S1x128_S1x128_S3x128_d0 (ix2 cc j)
      = pick3 cc v0 v1 v2 (ix2 (0 : Fin 1) j) := by
  have hi : ∀ (c : Fin 3) (b : Fin S1x128.rank), b.cast (rfl : S1x128.rank = S3x128.rank) ≠ (0 : Fin S3x128.rank) →
      ((ix2 (0 : Fin 1) j : S1x128.Idx) b).val = ((ix2 c j : S3x128.Idx) (b.cast rfl)).val := fun c b hb => by
    match b with
    | ⟨0, _⟩ => exact absurd rfl hb
    | ⟨1, _⟩ => rfl
  match cc with
  | ⟨0, _⟩ =>
    exact concatenate_apply_piece (0 : Fin S3x128.rank) [⟨S1x128, v0⟩, ⟨S1x128, v1⟩, ⟨S1x128, v2⟩]
      concatenates_S1x128_S1x128_S1x128_S3x128_d0 (ix2 _ j) 0 (by show (0 : Nat) < 3; decide)
      S1x128 v0 rfl rfl 0 rfl (ix2 (0 : Fin 1) j) (hi _) rfl
  | ⟨1, _⟩ =>
    exact concatenate_apply_piece (0 : Fin S3x128.rank) [⟨S1x128, v0⟩, ⟨S1x128, v1⟩, ⟨S1x128, v2⟩]
      concatenates_S1x128_S1x128_S1x128_S3x128_d0 (ix2 _ j) 1 (by show (1 : Nat) < 3; decide)
      S1x128 v1 rfl rfl 1 rfl (ix2 (0 : Fin 1) j) (hi _) rfl
  | ⟨2, _⟩ =>
    exact concatenate_apply_piece (0 : Fin S3x128.rank) [⟨S1x128, v0⟩, ⟨S1x128, v1⟩, ⟨S1x128, v2⟩]
      concatenates_S1x128_S1x128_S1x128_S3x128_d0 (ix2 _ j) 2 (by show (2 : Nat) < 3; decide)
      S1x128 v2 rfl rfl 2 rfl (ix2 (0 : Fin 1) j) (hi _) rfl

/-- What is stored into the buffer of sums, at `(0, cc, j)`: the old entry plus the `cc`-th of the three column sums
    (the first two handed in, the third taken here from branch 2's `z`). -/
theorem pay2_apply (x : FVec Ideal S1000x128 .bf16) (s0 s1 : FVec Ideal S128 .f32) (w : FVec Ideal S1x128x128 .f32)
    (b : FVec Ideal S1x128 .f32) (old : FVec Ideal S1x3x128 .f32) (cc : Fin 3) (j : Fin 128) :
    k4_pay2 x s0 s1 w b old (ix3 (0 : Fin 1) cc j)
      = old (ix3 (0 : Fin 1) cc j) + pick3 cc (s0 (ix1 j)) (s1 (ix1 j)) (∑ r : Fin 1000, zT x w b r j) := by
  unfold k4_pay2
  refine (shapeCast_ab_1ab_apply _ shapeCasts_S3x128_S1x3x128 (0 : Fin 1) cc j).trans ?_
  refine congrArg₂ (· + ·) (shapeCast_1ab_ab_apply old shapeCasts_S1x3x128_S3x128 cc j) ?_
  refine (concat3_apply _ _ _ cc j).trans ?_
  match cc with
  | ⟨0, _⟩ => exact shapeCast_a_1a_apply s0 shapeCasts_S128_S1x128 (0 : Fin 1) j
  | ⟨1, _⟩ => exact shapeCast_a_1a_apply s1 shapeCasts_S128_S1x128 (0 : Fin 1) j
  | ⟨2, _⟩ =>
    exact (shapeCast_a_1a_apply _ shapeCasts_S128_S1x128 (0 : Fin 1) j).trans
      ((colsum_apply _ j).trans (Finset.sum_congr rfl fun r _ => pay1_apply x w b r j))

/-- What is stored into the buffer of sums of squares, likewise. -/
theorem pay3_apply (x : FVec Ideal S1000x128 .bf16) (q0 q1 : FVec Ideal S128 .f32) (w : FVec Ideal S1x128x128 .f32)
    (b : FVec Ideal S1x128 .f32) (old : FVec Ideal S1x3x128 .f32) (cc : Fin 3) (j : Fin 128) :
    k4_pay3 x q0 q1 w b old (ix3 (0 : Fin 1) cc j)
      = old (ix3 (0 : Fin 1) cc j) + pick3 cc (q0 (ix1 j)) (q1 (ix1 j)) (∑ r : Fin 1000, zT x w b r j * zT x w b r j) := by
  unfold k4_pay3
  refine (shapeCast_ab_1ab_apply _ shapeCasts_S3x128_S1x3x128 (0 : Fin 1) cc j).trans ?_
  refine congrArg₂ (· + ·) (shapeCast_1ab_ab_apply old shapeCasts_S1x3x128_S3x128 cc j) ?_
  refine (concat3_apply _ _ _ cc j).trans ?_
  match cc with
  | ⟨0, _⟩ => exact shapeCast_a_1a_apply q0 shapeCasts_S128_S1x128 (0 : Fin 1) j
  | ⟨1, _⟩ => exact shapeCast_a_1a_apply q1 shapeCasts_S128_S1x128 (0 : Fin 1) j
  | ⟨2, _⟩ =>
    exact (shapeCast_a_1a_apply _ shapeCasts_S128_S1x128 (0 : Fin 1) j).trans
      ((colsum_apply _ j).trans (Finset.sum_congr rfl fun r _ =>
        congrArg₂ (· * ·) (pay1_apply x w b r j) (pay1_apply x w b r j)))

/-- ONE POINT'S STEP, sums: with the three tiles `x0 x1 x2`, the three weight matrices and bias rows as loaded, the
    body stores `old + ∑ r, z_cc r j` at `(0, cc, j)`. -/
theorem step_sum_apply (x0 x1 x2 : FVec Ideal S1000x128 .bf16) (w0 w1 w2 : FVec Ideal S1x128x128 .f32)
    (b0 b1 b2 : FVec Ideal S1x128 .f32) (old : FVec Ideal S1x3x128 .f32) (cc : Fin 3) (j : Fin 128) :
    k4_pay2 (k4_pay6 (F := Ideal) x2) (k4_pay8 (F := Ideal) x0 w0 b0) (k4_pay11 (F := Ideal) x1 w1 b1) w2 b2 old
        (ix3 (0 : Fin 1) cc j)
      = old (ix3 (0 : Fin 1) cc j)
        + ∑ r : Fin 1000, zT (pick3 cc x0 x1 x2) (pick3 cc w0 w1 w2) (pick3 cc b0 b1 b2) r j := by
  refine (pay2_apply _ _ _ w2 b2 old cc j).trans (congrArg (old (ix3 (0 : Fin 1) cc j) + ·) ?_)
  match cc with
  | ⟨0, _⟩ => exact pay8_apply x0 w0 b0 j
  | ⟨1, _⟩ => exact pay11_apply x1 w1 b1 j
  | ⟨2, _⟩ => exact congrArg (fun x => ∑ r : Fin 1000, zT x w2 b2 r j) (pay6_eq x2)

/-- ONE POINT'S STEP, sums of squares. -/
theorem step_sq_apply (x0 x1 x2 : FVec Ideal S1000x128 .bf16) (w0 w1 w2 : FVec Ideal S1x128x128 .f32)
    (b0 b1 b2 : FVec Ideal S1x128 .f32) (old : FVec Ideal S1x3x128 .f32) (cc : Fin 3) (j : Fin 128) :
    k4_pay3 (k4_pay6 (F := Ideal) x2) (k4_pay9 (F := Ideal) x0 w0 b0) (k4_pay12 (F := Ideal) x1 w1 b1) w2 b2 old
        (ix3 (0 : Fin 1) cc j)
      = old (ix3 (0 : Fin 1) cc j)
        + ∑ r : Fin 1000, zT (pick3 cc x0 x1 x2) (pick3 cc w0 w1 w2) (pick3 cc b0 b1 b2) r j
            * zT (pick3 cc x0 x1 x2) (pick3 cc w0 w1 w2) (pick3 cc b0 b1 b2) r j := by
  refine (pay3_apply _ _ _ w2 b2 old cc j).trans (congrArg (old (ix3 (0 : Fin 1) cc j) + ·) ?_)
  match cc with
  | ⟨0, _⟩ => exact pay9_apply x0 w0 b0 j
  | ⟨1, _⟩ => exact pay12_apply x1 w1 b1 j
  | ⟨2, _⟩ => exact congrArg (fun x => ∑ r : Fin 1000, zT x w2 b2 r j * zT x w2 b2 r j) (pay6_eq x2)

/-- The reset's payloads: zero everywhere. -/
theorem pay4_apply (u : Fin 1) (cc : Fin 3) (j : Fin 128) : k4_pay4 (F := Ideal) (ix3 u cc j) = 0 := by
  unfold k4_pay4
  exact (shapeCast_ab_1ab_apply _ shapeCasts_S3x128_S1x3x128 u cc j).trans Ideal.ofBits_zero_f32

theorem pay5_apply (u : Fin 1) (cc : Fin 3) (j : Fin 128) : k4_pay5 (F := Ideal) (ix3 u cc j) = 0 := by
  unfold k4_pay5
  exact (shapeCast_ab_1ab_apply _ shapeCasts_S3x128_S1x3x128 u cc j).trans Ideal.ofBits_zero_f32

end Cert.KernelIdeal.HandV.Stats4

end
-- ==== Proof.KV.StatsAcc4.lean ====
import proofs.«414290_j6631429505478_3_alg».proof.Proof.KI.Stats4
import proofs.«414290_j6631429505478_3_alg».proof.Proof.KV.StatsPay4
import Idealize.ShloMosaic.Lib.Pipeline.Value
import Idealize.ShloMosaic.Lib.ValueLayout
import Idealize.ShloMosaic.PureOps.Ideal.Laws

set_option maxRecDepth 16128

noncomputable section

namespace Cert.KernelIdeal.HandV.Stats4

open Idealize.ShloMosaic Idealize.ShloMosaic.TcCoe Idealize.ShloMosaic.ValueIdx Idealize.ShloMosaic.Tactic Idealize.SL.Sem
open Cert.KernelIdeal Cert.KernelIdeal.Gen Cert.KernelIdeal.Hand
open Idealize.ShloMosaic.Pipeline (Dat)

variable {F : FTy → Type} [FloatOps F]

theorem hz3 : (![0, 0, 0] : Fin 3 → Nat) = fun _ => 0 := funext fun a => by fin_cases a <;> rfl

/-! # The statistics kernel (128 columns): what its two output arrays end holding, at the ideal values

The grid is 2 cores × 25 points; point `t` reads rows `1000 t … 1000 t + 999` of the three branches' activations and the
whole weight and bias arrays. Both output buffers are zeroed at a core's first point, receive at every point the tile's
column sums of `z` (of `z * z`), and are written back at the core's last point into row `core` of the output arrays.
So entry `(core, cc, j)` of the array of sums is the sum of branch `cc`'s `z` at column `j` over the core's 25000 rows. -/

theorem hz2 : (![0, 0] : Fin 2 → Nat) = fun _ => 0 := funext fun a => by fin_cases a <;> rfl

/-- Case A (a row's first point) leaves in the buffer of sums the step over the zero block; -/
theorem out_A_5 (c : Dev nD) (i : grid4.Coords) (arg2 : Memref sig .tc .vmem S1000x128 .bf16) (harg2 : arg2.IsWhole) (arg3 : Memref sig .tc .vmem S1000x128 .bf16) (harg3 : arg3.IsWhole) (arg4 : Memref sig .tc .vmem S1000x128 .bf16) (harg4 : arg4.IsWhole) (arg5 : Memref sig .tc .vmem S3x128x128 .f32) (harg5 : arg5.IsWhole) (arg6 : Memref sig .tc .vmem S3x128 .f32) (harg6 : arg6.IsWhole) (arg7 : Memref sig .tc .vmem S1x3x128 .f32) (harg7 : arg7.IsWhole) (arg8 : Memref sig .tc .vmem S1x3x128 .f32) (harg8 : arg8.IsWhole) (hc0 : cond4_0 i) (x0 x1 x2 : Vec F S1000x128 .bf16) (x3 : Vec F S3x128x128 .f32) (x4 : Vec F S3x128 .f32) :
    out4_A_5 c i arg2 harg2 arg3 harg3 arg4 harg4 arg5 harg5 arg6 harg6 arg7 harg7 arg8 harg8 hc0 x0 x1 x2 x3 x4
      = k4_pay2 (k4_pay6 x2) (k4_pay8 x0 (View.ld x3 (Rect.unit (s := S3x128x128) ![0, 0, 0] S1x128x128.size inb_S3x128x128_S1x128x128_0_0_0)) (View.ld x4 (Rect.unit (s := S3x128) ![0, 0] S1x128.size inb_S3x128_S1x128_0_0)))
        (k4_pay11 x1 (View.ld x3 (Rect.unit (s := S3x128x128) ![1, 0, 0] S1x128x128.size inb_S3x128x128_S1x128x128_1_0_0)) (View.ld x4 (Rect.unit (s := S3x128) ![1, 0] S1x128.size inb_S3x128_S1x128_1_0)))
        (View.ld x3 (Rect.unit (s := S3x128x128) ![2, 0, 0] S1x128x128.size inb_S3x128x128_S1x128x128_2_0_0)) (View.ld x4 (Rect.unit (s := S3x128) ![2, 0] S1x128.size inb_S3x128_S1x128_2_0)) (k4_pay4 (F := F)) := by
  unfold out4_A_5
  rw [View.read_writes_eq_canon _ _ _ (cover4_A_5 c i arg2 harg2 arg3 harg3 arg4 harg4 arg5 harg5 arg6 harg6 arg7 harg7 arg8 harg8 hc0 x0 x1 x2 x3 x4)]
  unfold kernelRun4_A
  dsimp only
  sl_unfold_words
  rw [View.canon_cons_unit_zero (S := S1x3x128) hz3, View.readCov_unit_zero (S := S1x3x128) _ hz3]
  simp only [View.readAt_eq_ld, harg2.read_unread, harg3.read_unread, harg4.read_unread, harg5.read_unread,
    harg6.read_unread, View.ld_unit_zero (S := S1000x128) hz2]

/-- and in the buffer of sums of squares likewise. -/
theorem out_A_6 (c : Dev nD) (i : grid4.Coords) (arg2 : Memref sig .tc .vmem S1000x128 .bf16) (harg2 : arg2.IsWhole) (arg3 : Memref sig .tc .vmem S1000x128 .bf16) (harg3 : arg3.IsWhole) (arg4 : Memref sig .tc .vmem S1000x128 .bf16) (harg4 : arg4.IsWhole) (arg5 : Memref sig .tc .vmem S3x128x128 .f32) (harg5 : arg5.IsWhole) (arg6 : Memref sig .tc .vmem S3x128 .f32) (harg6 : arg6.IsWhole) (arg7 : Memref sig .tc .vmem S1x3x128 .f32) (harg7 : arg7.IsWhole) (arg8 : Memref sig .tc .vmem S1x3x128 .f32) (harg8 : arg8.IsWhole) (hc0 : cond4_0 i) (x0 x1 x2 : Vec F S1000x128 .bf16) (x3 : Vec F S3x128x128 .f32) (x4 : Vec F S3x128 .f32) :
    out4_A_6 c i arg2 harg2 arg3 harg3 arg4 harg4 arg5 harg5 arg6 harg6 arg7 harg7 arg8 harg8 hc0 x0 x1 x2 x3 x4
      = k4_pay3 (k4_pay6 x2) (k4_pay9 x0 (View.ld x3 (Rect.unit (s := S3x128x128) ![0, 0, 0] S1x128x128.size inb_S3x128x128_S1x128x128_0_0_0)) (View.ld x4 (Rect.unit (s := S3x128) ![0, 0] S1x128.size inb_S3x128_S1x128_0_0)))
        (k4_pay12 x1 (View.ld x3 (Rect.unit (s := S3x128x128) ![1, 0, 0] S1x128x128.size inb_S3x128x128_S1x128x128_1_0_0)) (View.ld x4 (Rect.unit (s := S3x128) ![1, 0] S1x128.size inb_S3x128_S1x128_1_0)))
        (View.ld x3 (Rect.unit (s := S3x128x128) ![2, 0, 0] S1x128x128.size inb_S3x128x128_S1x128x128_2_0_0)) (View.ld x4 (Rect.unit (s := S3x128) ![2, 0] S1x128.size inb_S3x128_S1x128_2_0)) (k4_pay5 (F := F)) := by
  unfold out4_A_6
  rw [View.read_writes_eq_canon _ _ _ (cover4_A_6 c i arg2 harg2 arg3 harg3 arg4 harg4 arg5 harg5 arg6 harg6 arg7 harg7 arg8 harg8 hc0 x0 x1 x2 x3 x4)]
  unfold kernelRun4_A
  dsimp only
  sl_unfold_words
  rw [View.canon_cons_unit_zero (S := S1x3x128) hz3, View.readCov_unit_zero (S := S1x3x128) _ hz3]
  simp only [View.readAt_eq_ld, harg2.read_unread, harg3.read_unread, harg4.read_unread, harg5.read_unread,
    harg6.read_unread, View.ld_unit_zero (S := S1000x128) hz2]

/-- Case B (any other point) leaves the step over what the buffer held; -/
theorem out_B_5 (c : Dev nD) (i : grid4.Coords) (arg2 : Memref sig .tc .vmem S1000x128 .bf16) (harg2 : arg2.IsWhole) (arg3 : Memref sig .tc .vmem S1000x128 .bf16) (harg3 : arg3.IsWhole) (arg4 : Memref sig .tc .vmem S1000x128 .bf16) (harg4 : arg4.IsWhole) (arg5 : Memref sig .tc .vmem S3x128x128 .f32) (harg5 : arg5.IsWhole) (arg6 : Memref sig .tc .vmem S3x128 .f32) (harg6 : arg6.IsWhole) (arg7 : Memref sig .tc .vmem S1x3x128 .f32) (harg7 : arg7.IsWhole) (arg8 : Memref sig .tc .vmem S1x3x128 .f32) (harg8 : arg8.IsWhole) (hc0 : ¬cond4_0 i) (x0 x1 x2 : Vec F S1000x128 .bf16) (x3 : Vec F S3x128x128 .f32) (x4 : Vec F S3x128 .f32) (xo5 xo6 : Vec F S1x3x128 .f32) :
    out4_B_5 c i arg2 harg2 arg3 harg3 arg4 harg4 arg5 harg5 arg6 harg6 arg7 harg7 arg8 harg8 hc0 x0 x1 x2 x3 x4 xo5 xo6
      = k4_pay2 (k4_pay6 x2) (k4_pay8 x0 (View.ld x3 (Rect.unit (s := S3x128x128) ![0, 0, 0] S1x128x128.size inb_S3x128x128_S1x128x128_0_0_0)) (View.ld x4 (Rect.unit (s := S3x128) ![0, 0] S1x128.size inb_S3x128_S1x128_0_0)))
        (k4_pay11 x1 (View.ld x3 (Rect.unit (s := S3x128x128) ![1, 0, 0] S1x128x128.size inb_S3x128x128_S1x128x128_1_0_0)) (View.ld x4 (Rect.unit (s := S3x128) ![1, 0] S1x128.size inb_S3x128_S1x128_1_0)))
        (View.ld x3 (Rect.unit (s := S3x128x128) ![2, 0, 0] S1x128x128.size inb_S3x128x128_S1x128x128_2_0_0)) (View.ld x4 (Rect.unit (s := S3x128) ![2, 0] S1x128.size inb_S3x128_S1x128_2_0)) xo5 := by
  unfold out4_B_5
  rw [View.read_writes_eq_canon _ _ _ (cover4_B_5 c i arg2 harg2 arg3 harg3 arg4 harg4 arg5 harg5 arg6 harg6 arg7 harg7 arg8 harg8 hc0 x0 x1 x2 x3 x4 xo5 xo6)]
  unfold kernelRun4_B
  dsimp only
  sl_unfold_words
  rw [View.canon_unit_zero (S := S1x3x128) hz3]
  simp only [View.readAt_eq_ld, harg2.read_unread, harg3.read_unread, harg4.read_unread, harg5.read_unread,
    harg6.read_unread, harg7.read_unread, harg8.read_unread, View.ld_unit_zero (S := S1000x128) hz2,
    View.ld_unit_zero (S := S1x3x128) hz3]

theorem out_B_6 (c : Dev nD) (i : grid4.Coords) (arg2 : Memref sig .tc .vmem S1000x128 .bf16) (harg2 : arg2.IsWhole) (arg3 : Memref sig .tc .vmem S1000x128 .bf16) (harg3 : arg3.IsWhole) (arg4 : Memref sig .tc .vmem S1000x128 .bf16) (harg4 : arg4.IsWhole) (arg5 : Memref sig .tc .vmem S3x128x128 .f32) (harg5 : arg5.IsWhole) (arg6 : Memref sig .tc .vmem S3x128 .f32) (harg6 : arg6.IsWhole) (arg7 : Memref sig .tc .vmem S1x3x128 .f32) (harg7 : arg7.IsWhole) (arg8 : Memref sig .tc .vmem S1x3x128 .f32) (harg8 : arg8.IsWhole) (hc0 : ¬cond4_0 i) (x0 x1 x2 : Vec F S1000x128 .bf16) (x3 : Vec F S3x128x128 .f32) (x4 : Vec F S3x128 .f32) (xo5 xo6 : Vec F S1x3x128 .f32) :
    out4_B_6 c i arg2 harg2 arg3 harg3 arg4 harg4 arg5 harg5 arg6 harg6 arg7 harg7 arg8 harg8 hc0 x0 x1 x2 x3 x4 xo5 xo6
      = k4_pay3 (k4_pay6 x2) (k4_pay9 x0 (View.ld x3 (Rect.unit (s := S3x128x128) ![0, 0, 0] S1x128x128.size inb_S3x128x128_S1x128x128_0_0_0)) (View.ld x4 (Rect.unit (s := S3x128) ![0, 0] S1x128.size inb_S3x128_S1x128_0_0)))
        (k4_pay12 x1 (View.ld x3 (Rect.unit (s := S3x128x128) ![1, 0, 0] S1x128x128.size inb_S3x128x128_S1x128x128_1_0_0)) (View.ld x4 (Rect.unit (s := S3x128) ![1, 0] S1x128.size inb_S3x128_S1x128_1_0)))
        (View.ld x3 (Rect.unit (s := S3x128x128) ![2, 0, 0] S1x128x128.size inb_S3x128x128_S1x128x128_2_0_0)) (View.ld x4 (Rect.unit (s := S3x128) ![2, 0] S1x128.size inb_S3x128_S1x128_2_0)) xo6 := by
  unfold out4_B_6
  rw [View.read_writes_eq_canon _ _ _ (cover4_B_6 c i arg2 harg2 arg3 harg3 arg4 harg4 arg5 harg5 arg6 harg6 arg7 harg7 arg8 harg8 hc0 x0 x1 x2 x3 x4 xo5 xo6)]
  unfold kernelRun4_B
  dsimp only
  sl_unfold_words
  rw [View.canon_unit_zero (S := S1x3x128) hz3]
  simp only [View.readAt_eq_ld, harg2.read_unread, harg3.read_unread, harg4.read_unread, harg5.read_unread,
    harg6.read_unread, harg7.read_unread, harg8.read_unread, View.ld_unit_zero (S := S1000x128) hz2,
    View.ld_unit_zero (S := S1x3x128) hz3]

/-! ## The accumulation over the points, at the ideal values -/

section Acc

variable (V : (c : Dev nD) → (b : Ref sig .tc) → Buf (Elt Ideal) ((c : Thread nD τ).loc b))

/-- The value `z` of branch `cc` at row `R` of the whole arrays: activations `X` (50000 × 128), the three weight
    matrices `Wt` (3 × 128 × 128) and bias rows `B` (3 × 128). -/
def zArr (X : FVec Ideal S50000x128 .bf16) (Wt : FVec Ideal S3x128x128 .f32) (B : FVec Ideal S3x128 .f32)
    (cc : Fin 3) (R : Fin 50000) (j : Fin 128) : EReal :=
  (∑ k : Fin 128, X (ix2 R k) * Wt (ix3 cc k j)) + B (ix2 cc j)

/-- The arrays as the region finds them: the three branches' activations, the weights, the biases. -/
abbrev xarr (c : Dev nD) (cc : Fin 3) : FVec Ideal S50000x128 .bf16 :=
  pick3 cc (V c (Pipeline.arrRef spec4 0)) (V c (Pipeline.arrRef spec4 1)) (V c (Pipeline.arrRef spec4 2))
abbrev warr (c : Dev nD) : FVec Ideal S3x128x128 .f32 := V c (Pipeline.arrRef spec4 3)
abbrev barr (c : Dev nD) : FVec Ideal S3x128 .f32 := V c (Pipeline.arrRef spec4 4)

/-- The blocks the body finds at point `t`, at their literal types. -/
abbrev xb0 (c : Dev nD) (t : Fin cfg4.N) : FVec Ideal S1000x128 .bf16 := iblk4 V c 0 t
abbrev xb1 (c : Dev nD) (t : Fin cfg4.N) : FVec Ideal S1000x128 .bf16 := iblk4 V c 1 t
abbrev xb2 (c : Dev nD) (t : Fin cfg4.N) : FVec Ideal S1000x128 .bf16 := iblk4 V c 2 t
abbrev wb (c : Dev nD) (t : Fin cfg4.N) : Vec Ideal S3x128x128 .f32 := iblk4 V c 3 t
abbrev bb (c : Dev nD) (t : Fin cfg4.N) : Vec Ideal S3x128 .f32 := iblk4 V c 4 t

/-- The printed index maps, decided over the grid: the activations' blocks move with the point (block `t` of 50 row
    blocks), the weights' and biases' block is the whole array, the outputs' block is the core's (`t / 25`). -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 3) = 0 ∧ win4_3.index t (1 : Fin 3) = 0 ∧ win4_3.index t (2 : Fin 3) = 0
    ∧ win4_4.index t (0 : Fin 2) = 0 ∧ win4_4.index t (1 : Fin 2) = 0
    ∧ win4_5.index t (0 : Fin 3) = t.val / 25 ∧ win4_5.index t (1 : Fin 3) = 0 ∧ win4_5.index t (2 : Fin 3) = 0
    ∧ win4_6.index t (0 : Fin 3) = t.val / 25 ∧ win4_6.index t (1 : Fin 3) = 0 ∧ win4_6.index t (2 : Fin 3) = 0 :=
  (by decide +kernel : ∀ t : Fin grid4.N, _)

theorem row_lt (t : Fin cfg4.N) (r : Fin 1000) : t.val * 1000 + r.val < 50000 := by
  have h : t.val < 50 := lt_of_lt_of_eq t.isLt (show cfg4.N = 50 from N_4)
  have := r.isLt; omega

theorem rowOf_lt (core : Fin 2) (i : Fin 25) (r : Fin 1000) : (core.val * 25 + i.val) * 1000 + r.val < 50000 := by
  have := core.isLt; have := i.isLt; have := r.isLt; omega

/-- Row `r` of the activations' block at point `t` is row `1000 t + r` of the array. -/
theorem xb0_apply (c : Dev nD) (t : Fin cfg4.N) (r : Fin 1000) (k : Fin 128) :
    xb0 V c t (ix2 r k) = xarr V c 0 (ix2 ⟨t.val * 1000 + r.val, row_lt t r⟩ k) := by
  obtain ⟨e0, e1, -⟩ := idx_facts t
  unfold xb0 iblk4
  rw [View.read_apply]
  show V c (Pipeline.arrRef spec4 0) _ = V c (Pipeline.arrRef spec4 0) _
  congr 1
  funext a
  apply Fin.ext
  match a with
  | ⟨0, _⟩ => show win4_0.index t (0 : Fin 2) * 1000 + 1 * r.val = t.val * 1000 + r.val; rw [e0]; omega
  | ⟨1, _⟩ => show win4_0.index t (1 : Fin 2) * 128 + 1 * k.val = k.val; rw [e1]; omega

theorem xb1_apply (c : Dev nD) (t : Fin cfg4.N) (r : Fin 1000) (k : Fin 128) :
    xb1 V c t (ix2 r k) = xarr V c 1 (ix2 ⟨t.val * 1000 + r.val, row_lt t r⟩ k) := by
  obtain ⟨-, -, e0, e1, -⟩ := idx_facts t
  unfold xb1 iblk4
  rw [View.read_apply]
  show V c (Pipeline.arrRef spec4 1) _ = V c (Pipeline.arrRef spec4 1) _
  congr 1
  funext a
  apply Fin.ext
  match a with
  | ⟨0, _⟩ => show win4_1.index t (0 : Fin 2) * 1000 + 1 * r.val = t.val * 1000 + r.val; rw [e0]; omega
  | ⟨1, _⟩ => show win4_1.index t (1 : Fin 2) * 128 + 1 * k.val = k.val; rw [e1]; omega

theorem xb2_apply (c : Dev nD) (t : Fin cfg4.N) (r : Fin 1000) (k : Fin 128) :
    xb2 V c t (ix2 r k) = xarr V c 2 (ix2 ⟨t.val * 1000 + r.val, row_lt t r⟩ k) := by
  obtain ⟨-, -, -, -, e0, e1, -⟩ := idx_facts t
  unfold xb2 iblk4
  rw [View.read_apply]
  show V c (Pipeline.arrRef spec4 2) _ = V c (Pipeline.arrRef spec4 2) _
  congr 1
  funext a
  apply Fin.ext
  match a with
  | ⟨0, _⟩ => show win4_2.index t (0 : Fin 2) * 1000 + 1 * r.val = t.val * 1000 + r.val; rw [e0]; omega
  | ⟨1, _⟩ => show win4_2.index t (1 : Fin 2) * 128 + 1 * k.val = k.val; rw [e1]; omega

/-- The weights' block is the whole array, and the body's load of matrix `n` reads matrix `n`. -/
theorem wb_apply (c : Dev nD) (t : Fin cfg4.N) (n : Fin 3) (off : Fin 3 → Nat) (hoff : off = ![n.val, 0, 0])
    (inb : ∀ a, off a + S1x128x128.size a ≤ S3x128x128.size a) (k : Fin 128) (j : Fin 128) :
    (View.ld (Val := Elt Ideal) (wb V c t) (Rect.unit (s := S3x128x128) off S1x128x128.size inb) : FVec Ideal S1x128x128 .f32)
        (ix3 (0 : Fin 1) k j) = warr V c (ix3 n k j) := by
  subst hoff
  obtain ⟨-, -, -, -, -, -, e0, e1, e2, -⟩ := idx_facts t
  unfold wb iblk4
  show ((cfg4.win 3).blk t).view.read (Elt Ideal) (V c (Pipeline.arrRef spec4 3)) _ = _
  rw [View.read_apply]
  show V c (Pipeline.arrRef spec4 3) _ = V c (Pipeline.arrRef spec4 3) _
  congr 1
  funext a
  apply Fin.ext
  match a with
  | ⟨0, _⟩ => show win4_3.index t (0 : Fin 3) * 3 + 1 * (n.val + 1 * 0) = n.val; rw [e0]; omega
  | ⟨1, _⟩ => show win4_3.index t (1 : Fin 3) * 128 + 1 * (0 + 1 * k.val) = k.val; rw [e1]; omega
  | ⟨2, _⟩ => show win4_3.index t (2 : Fin 3) * 128 + 1 * (0 + 1 * j.val) = j.val; rw [e2]; omega

/-- The biases' block is the whole array, and the body's load of row `n` reads row `n`. -/
theorem bb_apply (c : Dev nD) (t : Fin cfg4.N) (n : Fin 3) (off : Fin 2 → Nat) (hoff : off = ![n.val, 0])
    (inb : ∀ a, off a + S1x128.size a ≤ S3x128.size a) (j : Fin 128) :
    (View.ld (Val := Elt Ideal) (bb V c t) (Rect.unit (s := S3x128) off S1x128.size inb) : FVec Ideal S1x128 .f32)
        (ix2 (0 : Fin 1) j) = barr V c (ix2 n j) := by
  subst hoff
  obtain ⟨-, -, -, -, -, -, -, -, -, e0, e1, -⟩ := idx_facts t
  unfold bb iblk4
  show ((cfg4.win 4).blk t).view.read (Elt Ideal) (V c (Pipeline.arrRef spec4 4)) _ = _
  rw [View.read_apply]
  show V c (Pipeline.arrRef spec4 4) _ = V c (Pipeline.arrRef spec4 4) _
  congr 1
  funext a
  apply Fin.ext
  match a with
  | ⟨0, _⟩ => show win4_4.index t (0 : Fin 2) * 3 + 1 * (n.val + 1 * 0) = n.val; rw [e0]; omega
  | ⟨1, _⟩ => show win4_4.index t (1 : Fin 2) * 128 + 1 * (0 + 1 * j.val) = j.val; rw [e1]; omega

/-- The weights and biases the body loads at point `t`, by branch. -/
abbrev wl (c : Dev nD) (t : Fin cfg4.N) (cc : Fin 3) : FVec Ideal S1x128x128 .f32 :=
  pick3 cc (View.ld (Val := Elt Ideal) (wb V c t) (Rect.unit (s := S3x128x128) ![0, 0, 0] S1x128x128.size inb_S3x128x128_S1x128x128_0_0_0)) (View.ld (Val := Elt Ideal) (wb V c t) (Rect.unit (s := S3x128x128) ![1, 0, 0] S1x128x128.size inb_S3x128x128_S1x128x128_1_0_0)) (View.ld (Val := Elt Ideal) (wb V c t) (Rect.unit (s := S3x128x128) ![2, 0, 0] S1x128x128.size inb_S3x128x128_S1x128x128_2_0_0))
abbrev bl (c : Dev nD) (t : Fin cfg4.N) (cc : Fin 3) : FVec Ideal S1x128 .f32 :=
  pick3 cc (View.ld (Val := Elt Ideal) (bb V c t) (Rect.unit (s := S3x128) ![0, 0] S1x128.size inb_S3x128_S1x128_0_0)) (View.ld (Val := Elt Ideal) (bb V c t) (Rect.unit (s := S3x128) ![1, 0] S1x128.size inb_S3x128_S1x128_1_0)) (View.ld (Val := Elt Ideal) (bb V c t) (Rect.unit (s := S3x128) ![2, 0] S1x128.size inb_S3x128_S1x128_2_0))

/-- One tile's `z` is the arrays' `z` at the tile's rows. -/
theorem zT_blocks (c : Dev nD) (t : Fin cfg4.N) (cc : Fin 3) (r : Fin 1000) (j : Fin 128) :
    zT (pick3 cc (xb0 V c t) (xb1 V c t) (xb2 V c t)) (wl V c t cc) (bl V c t cc) r j
      = zArr (xarr V c cc) (warr V c) (barr V c) cc ⟨t.val * 1000 + r.val, row_lt t r⟩ j := by
  unfold zT zArr
  match cc with
  | ⟨0, _⟩ =>
    exact congrArg₂ (· + ·) (Finset.sum_congr rfl fun k _ =>
      congrArg₂ (· * ·) (xb0_apply V c t r k) (wb_apply V c t 0 _ rfl _ k j)) (bb_apply V c t 0 _ rfl _ j)
  | ⟨1, _⟩ =>
    exact congrArg₂ (· + ·) (Finset.sum_congr rfl fun k _ =>
      congrArg₂ (· * ·) (xb1_apply V c t r k) (wb_apply V c t 1 _ rfl _ k j)) (bb_apply V c t 1 _ rfl _ j)
  | ⟨2, _⟩ =>
    exact congrArg₂ (· + ·) (Finset.sum_congr rfl fun k _ =>
      congrArg₂ (· * ·) (xb2_apply V c t r k) (wb_apply V c t 2 _ rfl _ k j)) (bb_apply V c t 2 _ rfl _ j)

/-- The sum over one tile's rows, and of the squares. -/
def tileSum (c : Dev nD) (cc : Fin 3) (j : Fin 128) (t : Fin cfg4.N) : EReal :=
  ∑ r : Fin 1000, zArr (xarr V c cc) (warr V c) (barr V c) cc ⟨t.val * 1000 + r.val, row_lt t r⟩ j
def tileSq (c : Dev nD) (cc : Fin 3) (j : Fin 128) (t : Fin cfg4.N) : EReal :=
  ∑ r : Fin 1000, zArr (xarr V c cc) (warr V c) (barr V c) cc ⟨t.val * 1000 + r.val, row_lt t r⟩ j
    * zArr (xarr V c cc) (warr V c) (barr V c) cc ⟨t.val * 1000 + r.val, row_lt t r⟩ j

/-- What the two buffers hold after point `n`, at their literal type. -/
abbrev acc5 (c : Dev nD) (n : ℕ) (h : n < cfg4.N) : FVec Ideal S1x3x128 .f32 := (outsAt4 V c n h).1
abbrev acc6 (c : Dev nD) (n : ℕ) (h : n < cfg4.N) : FVec Ideal S1x3x128 .f32 := (outsAt4 V c n h).2

/-- At a row's first point the buffer of sums holds that tile's sums; -/
theorem acc5_A (c : Dev nD) (t : Fin cfg4.N) (h0 : t.val % 25 = 0) (cc : Fin 3) (j : Fin 128) :
    acc5 V c t.val t.isLt (ix3 (0 : Fin 1) cc j) = tileSum V c cc j t := by
  unfold acc5
  rw [outsAt4_A V c t h0]
  dsimp only
  refine (congrFun (out_A_5 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) ((hcond4_0 t).mpr h0)
    (iblk4 V c 0 t) (iblk4 V c 1 t) (iblk4 V c 2 t) (iblk4 V c 3 t) (iblk4 V c 4 t)) (ix3 (0 : Fin 1) cc j)).trans ?_
  refine (step_sum_apply (xb0 V c t) (xb1 V c t) (xb2 V c t) (wl V c t 0) (wl V c t 1) (wl V c t 2)
    (bl V c t 0) (bl V c t 1) (bl V c t 2) (k4_pay4 (F := Ideal)) cc j).trans ?_
  refine ((congrArg (· + _) (pay4_apply (0 : Fin 1) cc j)).trans (zero_add _)).trans ?_
  refine Finset.sum_congr rfl fun r _ => ?_
  refine Eq.trans ?_ (zT_blocks V c t cc r j)
  match cc with
  | ⟨0, _⟩ => rfl
  | ⟨1, _⟩ => rfl
  | ⟨2, _⟩ => rfl

/-- at any other point what it held plus that tile's sums. -/
theorem acc5_B (c : Dev nD) (t : Fin cfg4.N) (h0 : ¬t.val % 25 = 0) (cc : Fin 3) (j : Fin 128) :
    acc5 V c t.val t.isLt (ix3 (0 : Fin 1) cc j)
      = acc5 V c (t.val - 1) (Nat.lt_of_le_of_lt (Nat.sub_le _ _) t.isLt) (ix3 (0 : Fin 1) cc j) + tileSum V c cc j t := by
  unfold acc5
  rw [outsAt4_B V c t h0]
  dsimp only
  refine (congrFun (out_B_5 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (fun h => h0 ((hcond4_0 t).mp h))
    (iblk4 V c 0 t) (iblk4 V c 1 t) (iblk4 V c 2 t) (iblk4 V c 3 t) (iblk4 V c 4 t)
    (outsAt4 V c (t.val - 1) (Nat.lt_of_le_of_lt (Nat.sub_le _ _) t.isLt)).1
    (outsAt4 V c (t.val - 1) (Nat.lt_of_le_of_lt (Nat.sub_le _ _) t.isLt)).2) (ix3 (0 : Fin 1) cc j)).trans ?_
  refine (step_sum_apply (xb0 V c t) (xb1 V c t) (xb2 V c t) (wl V c t 0) (wl V c t 1) (wl V c t 2)
    (bl V c t 0) (bl V c t 1) (bl V c t 2) (acc5 V c (t.val - 1) (Nat.lt_of_le_of_lt (Nat.sub_le _ _) t.isLt)) cc j).trans ?_
  refine congrArg (_ + ·) ?_
  refine Finset.sum_congr rfl fun r _ => ?_
  refine Eq.trans ?_ (zT_blocks V c t cc r j)
  match cc with
  | ⟨0, _⟩ => rfl
  | ⟨1, _⟩ => rfl
  | ⟨2, _⟩ => rfl

end Acc

section Acc6

variable (V : (c : Dev nD) → (b : Ref sig .tc) → Buf (Elt Ideal) ((c : Thread nD τ).loc b))

/-- The same for the buffer of sums of squares. -/
theorem acc6_A (c : Dev nD) (t : Fin cfg4.N) (h0 : t.val % 25 = 0) (cc : Fin 3) (j : Fin 128) :
    acc6 V c t.val t.isLt (ix3 (0 : Fin 1) cc j) = tileSq V c cc j t := by
  unfold acc6
  rw [outsAt4_A V c t h0]
  dsimp only
  refine (congrFun (out_A_6 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) ((hcond4_0 t).mpr h0)
    (iblk4 V c 0 t) (iblk4 V c 1 t) (iblk4 V c 2 t) (iblk4 V c 3 t) (iblk4 V c 4 t)) (ix3 (0 : Fin 1) cc j)).trans ?_
  refine (step_sq_apply (xb0 V c t) (xb1 V c t) (xb2 V c t) (wl V c t 0) (wl V c t 1) (wl V c t 2)
    (bl V c t 0) (bl V c t 1) (bl V c t 2) (k4_pay5 (F := Ideal)) cc j).trans ?_
  refine ((congrArg (· + _) (pay5_apply (0 : Fin 1) cc j)).trans (zero_add _)).trans ?_
  refine Finset.sum_congr rfl fun r _ => ?_
  refine Eq.trans ?_ (congrArg₂ (· * ·) (zT_blocks V c t cc r j) (zT_blocks V c t cc r j))
  match cc with
  | ⟨0, _⟩ => rfl
  | ⟨1, _⟩ => rfl
  | ⟨2, _⟩ => rfl

theorem acc6_B (c : Dev nD) (t : Fin cfg4.N) (h0 : ¬t.val % 25 = 0) (cc : Fin 3) (j : Fin 128) :
    acc6 V c t.val t.isLt (ix3 (0 : Fin 1) cc j)
      = acc6 V c (t.val - 1) (Nat.lt_of_le_of_lt (Nat.sub_le _ _) t.isLt) (ix3 (0 : Fin 1) cc j) + tileSq V c cc j t := by
  unfold acc6
  rw [outsAt4_B V c t h0]
  dsimp only
  refine (congrFun (out_B_6 (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (fun h => h0 ((hcond4_0 t).mp h))
    (iblk4 V c 0 t) (iblk4 V c 1 t) (iblk4 V c 2 t) (iblk4 V c 3 t) (iblk4 V c 4 t)
    (outsAt4 V c (t.val - 1) (Nat.lt_of_le_of_lt (Nat.sub_le _ _) t.isLt)).1
    (outsAt4 V c (t.val - 1) (Nat.lt_of_le_of_lt (Nat.sub_le _ _) t.isLt)).2) (ix3 (0 : Fin 1) cc j)).trans ?_
  refine (step_sq_apply (xb0 V c t) (xb1 V c t) (xb2 V c t) (wl V c t 0) (wl V c t 1) (wl V c t 2)
    (bl V c t 0) (bl V c t 1) (bl V c t 2) (acc6 V c (t.val - 1) (Nat.lt_of_le_of_lt (Nat.sub_le _ _) t.isLt)) cc j).trans ?_
  refine congrArg (_ + ·) ?_
  refine Finset.sum_congr rfl fun r _ => ?_
  refine Eq.trans ?_ (congrArg₂ (· * ·) (zT_blocks V c t cc r j) (zT_blocks V c t cc r j))
  match cc with
  | ⟨0, _⟩ => rfl
  | ⟨1, _⟩ => rfl
  | ⟨2, _⟩ => rfl

end Acc6

/-! ## From the points to the arrays -/

/-- A quantity reset at every 25th point and added to at the others is, after point `n`, the sum of the row's steps
    so far (the steps past the grid counted as zero). -/
def padN {N : ℕ} (tile : Fin N → EReal) (m : ℕ) : EReal := if hm : m < N then tile ⟨m, hm⟩ else 0

theorem padN_of_lt {N : ℕ} (tile : Fin N → EReal) (m : ℕ) (hm : m < N) : padN tile m = tile ⟨m, hm⟩ := dif_pos hm

theorem acc_eq_sum {N : ℕ} (acc : (n : ℕ) → n < N → EReal) (tile : Fin N → EReal)
    (hA : ∀ t : Fin N, t.val % 25 = 0 → acc t.val t.isLt = tile t)
    (hB : ∀ t : Fin N, ¬t.val % 25 = 0 →
      acc t.val t.isLt = acc (t.val - 1) (Nat.lt_of_le_of_lt (Nat.sub_le _ _) t.isLt) + tile t) :
    ∀ (n : ℕ) (h : n < N), acc n h = ∑ i ∈ Finset.range (n % 25 + 1), padN tile (n - n % 25 + i)
  | 0, h => by
    refine (hA ⟨0, h⟩ rfl).trans ?_
    rw [Finset.sum_range_one]
    exact (padN_of_lt tile 0 h).symm.trans (congrArg (padN tile) (by omega))
  | n + 1, h => by
    by_cases h0 : (n + 1) % 25 = 0
    · refine (hA ⟨n + 1, h⟩ h0).trans ?_
      rw [h0, Finset.sum_range_one]
      exact (padN_of_lt tile (n + 1) h).symm.trans (congrArg (padN tile) (by omega))
    · refine (hB ⟨n + 1, h⟩ h0).trans ?_
      have ih := acc_eq_sum acc tile hA hB n (Nat.lt_of_succ_lt h)
      show acc n _ + tile ⟨n + 1, h⟩ = _
      rw [ih]
      have e1 : (n + 1) % 25 = n % 25 + 1 := by omega
      have e2 : n + 1 - (n % 25 + 1) = n - n % 25 := by omega
      have e3 : n - n % 25 + (n % 25 + 1) = n + 1 := by omega
      rw [e1, e2, Finset.sum_range_succ (fun i => padN tile (n - n % 25 + i)) (n % 25 + 1), e3]
      exact congrArg (_ + ·) (padN_of_lt tile (n + 1) h).symm

section Final

variable (V : (c : Dev nD) → (b : Ref sig .tc) → Buf (Elt Ideal) ((c : Thread nD τ).loc b))

/-- A core's sum over its 25 tiles of 1000 rows, and of the squares. -/
def gsum (c : Dev nD) (core : Fin 2) (cc : Fin 3) (j : Fin 128) : EReal :=
  ∑ i : Fin 25, ∑ r : Fin 1000,
    zArr (xarr V c cc) (warr V c) (barr V c) cc ⟨(core.val * 25 + i.val) * 1000 + r.val, rowOf_lt core i r⟩ j
def gsq (c : Dev nD) (core : Fin 2) (cc : Fin 3) (j : Fin 128) : EReal :=
  ∑ i : Fin 25, ∑ r : Fin 1000,
    zArr (xarr V c cc) (warr V c) (barr V c) cc ⟨(core.val * 25 + i.val) * 1000 + r.val, rowOf_lt core i r⟩ j
      * zArr (xarr V c cc) (warr V c) (barr V c) cc ⟨(core.val * 25 + i.val) * 1000 + r.val, rowOf_lt core i r⟩ j

/-- What the two output arrays end holding. -/
def G5 (c : Dev nD) : FVec Ideal S2x3x128 .f32 := fun i => gsum V c (i 0) (i 1) (i 2)
def G6 (c : Dev nD) : FVec Ideal S2x3x128 .f32 := fun i => gsq V c (i 0) (i 1) (i 2)

theorem core_lt (t : Fin cfg4.N) : t.val / 25 < 2 := by
  have h : t.val < 50 := lt_of_lt_of_eq t.isLt (show cfg4.N = 50 from N_4)
  omega

/-- At a row's last point the buffer of sums holds the core's sums. -/
theorem acc5_flush (c : Dev nD) (t : Fin cfg4.N) (h24 : t.val % 25 = 24) (cc : Fin 3) (j : Fin 128) :
    acc5 V c t.val t.isLt (ix3 (0 : Fin 1) cc j) = gsum V c ⟨t.val / 25, core_lt t⟩ cc j := by
  have hN : cfg4.N = 50 := N_4
  have ht : t.val < 50 := lt_of_lt_of_eq t.isLt hN
  refine (acc_eq_sum (fun n h => acc5 V c n h (ix3 (0 : Fin 1) cc j)) (tileSum V c cc j)
    (fun t h0 => acc5_A V c t h0 cc j) (fun t h0 => acc5_B V c t h0 cc j) t.val t.isLt).trans ?_
  rw [h24, Finset.sum_range]
  unfold gsum
  refine Finset.sum_congr rfl fun i _ => ?_
  have hi : t.val - 24 + i.val < cfg4.N := lt_of_lt_of_eq (by have := i.isLt; omega) hN.symm
  refine (padN_of_lt _ _ hi).trans ?_
  unfold tileSum
  refine Finset.sum_congr rfl fun r _ => congrArg (fun R => zArr (xarr V c cc) (warr V c) (barr V c) cc R j) (Fin.ext ?_)
  show (t.val - 24 + i.val) * 1000 + r.val = (t.val / 25 * 25 + i.val) * 1000 + r.val
  omega

theorem acc6_flush (c : Dev nD) (t : Fin cfg4.N) (h24 : t.val % 25 = 24) (cc : Fin 3) (j : Fin 128) :
    acc6 V c t.val t.isLt (ix3 (0 : Fin 1) cc j) = gsq V c ⟨t.val / 25, core_lt t⟩ cc j := by
  have hN : cfg4.N = 50 := N_4
  have ht : t.val < 50 := lt_of_lt_of_eq t.isLt hN
  refine (acc_eq_sum (fun n h => acc6 V c n h (ix3 (0 : Fin 1) cc j)) (tileSq V c cc j)
    (fun t h0 => acc6_A V c t h0 cc j) (fun t h0 => acc6_B V c t h0 cc j) t.val t.isLt).trans ?_
  rw [h24, Finset.sum_range]
  unfold gsq
  refine Finset.sum_congr rfl fun i _ => ?_
  have hi : t.val - 24 + i.val < cfg4.N := lt_of_lt_of_eq (by have := i.isLt; omega) hN.symm
  refine (padN_of_lt _ _ hi).trans ?_
  unfold tileSq
  have hR : ∀ r : Fin 1000, (⟨(⟨t.val - 24 + i.val, hi⟩ : Fin cfg4.N).val * 1000 + r.val, row_lt _ r⟩ : Fin 50000)
      = ⟨((⟨t.val / 25, core_lt t⟩ : Fin 2).val * 25 + i.val) * 1000 + r.val, rowOf_lt _ i r⟩ := fun r => Fin.ext (by
    show (t.val - 24 + i.val) * 1000 + r.val = (t.val / 25 * 25 + i.val) * 1000 + r.val
    omega)
  exact Finset.sum_congr rfl fun r _ => by rw [hR r]

/-- The block a flushing point writes back, element by element: the array's entry at the core's row. -/
theorem flushed5_pt (c : Dev nD) (t : Fin cfg4.N) (h24 : t.val % 25 = 24) (y : S1x3x128.Idx) (i : S2x3x128.Idx)
    (h0 : (i 0).val = t.val / 25) (h1 : (i 1).val = (y 1).val) (h2 : (i 2).val = (y 2).val) :
    acc5 V c t.val t.isLt y = G5 V c i := by
  obtain ⟨u, cc, j, rfl⟩ : ∃ (u : Fin 1) (cc : Fin 3) (j : Fin 128), y = ix3 u cc j := ⟨y 0, y 1, y 2, eq_ix3 y⟩
  obtain ⟨core, cc', j', rfl⟩ : ∃ (core : Fin 2) (cc' : Fin 3) (j' : Fin 128), i = ix3 core cc' j' := ⟨i 0, i 1, i 2, eq_ix3 i⟩
  obtain rfl : u = 0 := Subsingleton.elim _ _
  obtain rfl : cc' = cc := Fin.ext h1
  obtain rfl : j' = j := Fin.ext h2
  obtain rfl : core = ⟨t.val / 25, core_lt t⟩ := Fin.ext h0
  exact acc5_flush V c t h24 cc' j'

theorem flushed6_pt (c : Dev nD) (t : Fin cfg4.N) (h24 : t.val % 25 = 24) (y : S1x3x128.Idx) (i : S2x3x128.Idx)
    (h0 : (i 0).val = t.val / 25) (h1 : (i 1).val = (y 1).val) (h2 : (i 2).val = (y 2).val) :
    acc6 V c t.val t.isLt y = G6 V c i := by
  obtain ⟨u, cc, j, rfl⟩ : ∃ (u : Fin 1) (cc : Fin 3) (j : Fin 128), y = ix3 u cc j := ⟨y 0, y 1, y 2, eq_ix3 y⟩
  obtain ⟨core, cc', j', rfl⟩ : ∃ (core : Fin 2) (cc' : Fin 3) (j' : Fin 128), i = ix3 core cc' j' := ⟨i 0, i 1, i 2, eq_ix3 i⟩
  obtain rfl : u = 0 := Subsingleton.elim _ _
  obtain rfl : cc' = cc := Fin.ext h1
  obtain rfl : j' = j := Fin.ext h2
  obtain rfl : core = ⟨t.val / 25, core_lt t⟩ := Fin.ext h0
  exact acc6_flush V c t h24 cc' j'

/-- WHAT A FLUSHING POINT WRITES BACK is its block of `G5`. -/
theorem flushed5_eq (c : Dev nD) (t : Fin cfg4.N) (hf : (cfg4.win 5).flush t = true) :
    (dat4 V c).flushed 5 t = ((cfg4.win 5).blk t).view.read (Elt Ideal) (G5 V c) := by
  have h24 : t.val % 25 = 24 := (flush4_5 t).mp hf
  obtain ⟨-, -, -, -, -, -, -, -, -, -, -, e0, e1, e2, -⟩ := idx_facts t
  show (cfg4.win 5).cut (grid4.coords t) ((dat4 V c).after 5 t) = _
  rw [after4_5]
  funext y
  rw [View.read_apply]
  show _ = G5 V c (((cfg4.win 5).blk t).view.emb y)
  refine flushed5_pt V c t h24 _ _ ?_ ?_ ?_
  · show win4_5.index t (0 : Fin 3) * 1 + 1 * (y 0).val = t.val / 25
    have : (y 0).val < 1 := (y 0).isLt
    rw [e0]; omega
  · show win4_5.index t (1 : Fin 3) * 3 + 1 * (y 1).val = (y 1).val
    rw [e1]; omega
  · show win4_5.index t (2 : Fin 3) * 128 + 1 * (y 2).val = (y 2).val
    rw [e2]; omega

theorem flushed6_eq (c : Dev nD) (t : Fin cfg4.N) (hf : (cfg4.win 6).flush t = true) :
    (dat4 V c).flushed 6 t = ((cfg4.win 6).blk t).view.read (Elt Ideal) (G6 V c) := by
  have h24 : t.val % 25 = 24 := (flush4_6 t).mp hf
  obtain ⟨-, -, -, -, -, -, -, -, -, -, -, -, -, -, e0, e1, e2⟩ := idx_facts t
  show (cfg4.win 6).cut (grid4.coords t) ((dat4 V c).after 6 t) = _
  rw [after4_6]
  funext y
  rw [View.read_apply]
  show _ = G6 V c (((cfg4.win 6).blk t).view.emb y)
  refine flushed6_pt V c t h24 _ _ ?_ ?_ ?_
  · show win4_6.index t (0 : Fin 3) * 1 + 1 * (y 0).val = t.val / 25
    have : (y 0).val < 1 := (y 0).isLt
    rw [e0]; omega
  · show win4_6.index t (1 : Fin 3) * 3 + 1 * (y 1).val = (y 1).val
    rw [e1]; omega
  · show win4_6.index t (2 : Fin 3) * 128 + 1 * (y 2).val = (y 2).val
    rw [e2]; omega

/-- An index of an output array is in point `t`'s block iff each coordinate is in the block's range on its axis. -/
theorem mem_blk5 (t : Fin cfg4.N) (i : S2x3x128.Idx) :
    i ∈ ((cfg4.win 5).blk t).view.set ↔ ∀ a : Fin 3, win4_5.index t a * S1x3x128.size a ≤ (i a).val ∧ (i a).val < win4_5.index t a * S1x3x128.size a + S1x3x128.size a := by
  show i ∈ ((View.whole main_v392_0).slice (win4_5.rect t)).set ↔ _
  rw [View.set_slice_whole, Rect.mem_set_unit]
  exact Iff.rfl
theorem mem_blk6 (t : Fin cfg4.N) (i : S2x3x128.Idx) :
    i ∈ ((cfg4.win 6).blk t).view.set ↔ ∀ a : Fin 3, win4_6.index t a * S1x3x128.size a ≤ (i a).val ∧ (i a).val < win4_6.index t a * S1x3x128.size a + S1x3x128.size a := by
  show i ∈ ((View.whole main_v392_1).slice (win4_6.rect t)).set ↔ _
  rw [View.set_slice_whole, Rect.mem_set_unit]
  exact Iff.rfl

theorem last_lt (i : S2x3x128.Idx) : (i 0).val * 25 + 24 < cfg4.N := by
  have h : (i 0).val < 2 := (i 0).isLt
  rw [show cfg4.N = 50 from N_4]; omega

/-- Core `k`'s row of an output array is the block of the core's last point (24, 49). -/
theorem cover5 (i : S2x3x128.Idx) : ∃ t : Fin cfg4.N, (cfg4.win 5).flush t = true ∧ i ∈ ((cfg4.win 5).blk t).view.set := by
  have h0 : (i 0).val < 2 := (i 0).isLt
  have h1 : (i 1).val < 3 := (i 1).isLt
  have h2 : (i 2).val < 128 := (i 2).isLt
  refine ⟨⟨(i 0).val * 25 + 24, last_lt i⟩, (flush4_5 _).mpr (by show ((i 0).val * 25 + 24) % 25 = 24; omega), ?_⟩
  obtain ⟨-, -, -, -, -, -, -, -, -, -, -, e0, e1, e2, -⟩ := idx_facts ⟨(i 0).val * 25 + 24, last_lt i⟩
  have e0' : win4_5.index ⟨(i 0).val * 25 + 24, last_lt i⟩ (0 : Fin 3) = (i 0).val := by
    rw [e0]; show ((i 0).val * 25 + 24) / 25 = (i 0).val; omega
  rw [mem_blk5]
  intro a
  match a with
  | ⟨0, _⟩ => show win4_5.index _ (0 : Fin 3) * 1 ≤ (i 0).val ∧ (i 0).val < win4_5.index _ (0 : Fin 3) * 1 + 1; rw [e0']; omega
  | ⟨1, _⟩ => show win4_5.index _ (1 : Fin 3) * 3 ≤ (i 1).val ∧ (i 1).val < win4_5.index _ (1 : Fin 3) * 3 + 3; rw [e1]; omega
  | ⟨2, _⟩ => show win4_5.index _ (2 : Fin 3) * 128 ≤ (i 2).val ∧ (i 2).val < win4_5.index _ (2 : Fin 3) * 128 + 128; rw [e2]; omega

theorem cover6 (i : S2x3x128.Idx) : ∃ t : Fin cfg4.N, (cfg4.win 6).flush t = true ∧ i ∈ ((cfg4.win 6).blk t).view.set := by
  have h0 : (i 0).val < 2 := (i 0).isLt
  have h1 : (i 1).val < 3 := (i 1).isLt
  have h2 : (i 2).val < 128 := (i 2).isLt
  refine ⟨⟨(i 0).val * 25 + 24, last_lt i⟩, (flush4_6 _).mpr (by show ((i 0).val * 25 + 24) % 25 = 24; omega), ?_⟩
  obtain ⟨-, -, -, -, -, -, -, -, -, -, -, -, -, -, e0, e1, e2⟩ := idx_facts ⟨(i 0).val * 25 + 24, last_lt i⟩
  have e0' : win4_6.index ⟨(i 0).val * 25 + 24, last_lt i⟩ (0 : Fin 3) = (i 0).val := by
    rw [e0]; show ((i 0).val * 25 + 24) / 25 = (i 0).val; omega
  rw [mem_blk6]
  intro a
  match a with
  | ⟨0, _⟩ => show win4_6.index _ (0 : Fin 3) * 1 ≤ (i 0).val ∧ (i 0).val < win4_6.index _ (0 : Fin 3) * 1 + 1; rw [e0']; omega
  | ⟨1, _⟩ => show win4_6.index _ (1 : Fin 3) * 3 ≤ (i 1).val ∧ (i 1).val < win4_6.index _ (1 : Fin 3) * 3 + 3; rw [e1]; omega
  | ⟨2, _⟩ => show win4_6.index _ (2 : Fin 3) * 128 ≤ (i 2).val ∧ (i 2).val < win4_6.index _ (2 : Fin 3) * 128 + 128; rw [e2]; omega

/-- THE OUTPUT ARRAYS after the run. -/
theorem final5 (c : Dev nD) : (dat4 V c).arrAt 5 cfg4.N = G5 V c :=
  (dat4 V c).arrAt_eq_of_cover 5 (G5 V c) (flushed5_eq V c) cover5
theorem final6 (c : Dev nD) : (dat4 V c).arrAt 6 cfg4.N = G6 V c :=
  (dat4 V c).arrAt_eq_of_cover 6 (G6 V c) (flushed6_eq V c) cover6

/-- The array of sums at `(core, cc, j)`: the sum over the core's 25 tiles of 1000 rows of branch `cc`'s `z`; -/
theorem arr5_apply (c : Dev nD) (core : Fin 2) (cc : Fin 3) (j : Fin 128) :
    ((dat4 V c).arrAt 5 cfg4.N : FVec Ideal S2x3x128 .f32) (ix3 core cc j)
      = ∑ i : Fin 25, ∑ r : Fin 1000,
          zArr (xarr V c cc) (warr V c) (barr V c) cc ⟨(core.val * 25 + i.val) * 1000 + r.val, rowOf_lt core i r⟩ j :=
  congrFun (final5 V c) (ix3 core cc j)

/-- the array of sums of squares likewise. -/
theorem arr6_apply (c : Dev nD) (core : Fin 2) (cc : Fin 3) (j : Fin 128) :
    ((dat4 V c).arrAt 6 cfg4.N : FVec Ideal S2x3x128 .f32) (ix3 core cc j)
      = ∑ i : Fin 25, ∑ r : Fin 1000,
          zArr (xarr V c cc) (warr V c) (barr V c) cc ⟨(core.val * 25 + i.val) * 1000 + r.val, rowOf_lt core i r⟩ j
            * zArr (xarr V c cc) (warr V c) (barr V c) cc ⟨(core.val * 25 + i.val) * 1000 + r.val, rowOf_lt core i r⟩ j :=
  congrFun (final6 V c) (ix3 core cc j)

end Final

end Cert.KernelIdeal.HandV.Stats4
end
-- ==== Proof.KV.MatMul.lean ====
/- The combine kernels' matrix products read at an entry, at the ideal values: the
   [2000,128] × [128,GW] product into the zero accumulator is, at (r, j), the sum over the 128 contracted
   positions k of x (r, k) * w (k, j), for GW = 384, 256, 128. -/
import proofs.«414290_j6631429505478_3_alg».proof.Proof.Gen.KernelIdeal
import Idealize.ShloMosaic.Lib.ValueLayout
import Idealize.ShloMosaic.PureOps.Ideal.Laws

noncomputable section

namespace Cert.KernelIdeal.HandV

open Idealize.ShloMosaic Idealize.ShloMosaic.ValueIdx Idealize.SL.Sem
open Cert.KernelIdeal Cert.KernelIdeal.Gen
open scoped BigOperators

/-! ## The product into 384 columns -/

/-- The row coordinate of the left operand's index is the result's row. -/
theorem lhs_mm384_0 (i : S2000x384.Idx) (q : dot_S2000x128_S128x384_S2000x384_1_0_0_1_n_n.contr.Idx) :
    (dot_S2000x128_S128x384_S2000x384_1_0_0_1_n_n.lhsIdx i q 0).val = (i 0).val := by
  unfold DotDims.lhsIdx
  rw [dif_neg (show ¬(0 : Fin S2000x128.rank) ∈ dot_S2000x128_S128x384_S2000x384_1_0_0_1_n_n.lhsBatch by decide), dif_pos (show (0 : Fin S2000x128.rank) ∈ dot_S2000x128_S128x384_S2000x384_1_0_0_1_n_n.lhsNonContracting by decide)]
  rfl
/-- The column coordinate of the left operand's index is the contracted coordinate. -/
theorem lhs_mm384_1 (i : S2000x384.Idx) (q : dot_S2000x128_S128x384_S2000x384_1_0_0_1_n_n.contr.Idx) :
    (dot_S2000x128_S128x384_S2000x384_1_0_0_1_n_n.lhsIdx i q 1).val = (q ⟨0, by decide⟩).val :=
  dot_S2000x128_S128x384_S2000x384_1_0_0_1_n_n.lhsIdx_val_of_single rfl i q
/-- The row coordinate of the right operand's index is the contracted coordinate. -/
theorem rhs_mm384_0 (i : S2000x384.Idx) (q : dot_S2000x128_S128x384_S2000x384_1_0_0_1_n_n.contr.Idx) :
    (dot_S2000x128_S128x384_S2000x384_1_0_0_1_n_n.rhsIdx i q 0).val = (q ⟨0, by decide⟩).val :=
  dot_S2000x128_S128x384_S2000x384_1_0_0_1_n_n.rhsIdx_val_of_single rfl i q
/-- The column coordinate of the right operand's index is the result's column. -/
theorem rhs_mm384_1 (i : S2000x384.Idx) (q : dot_S2000x128_S128x384_S2000x384_1_0_0_1_n_n.contr.Idx) :
    (dot_S2000x128_S128x384_S2000x384_1_0_0_1_n_n.rhsIdx i q 1).val = (i 1).val := by
  unfold DotDims.rhsIdx
  rw [dif_neg (show ¬(1 : Fin S128x384.rank) ∈ dot_S2000x128_S128x384_S2000x384_1_0_0_1_n_n.rhsBatch by decide), dif_pos (show (1 : Fin S128x384.rank) ∈ dot_S2000x128_S128x384_S2000x384_1_0_0_1_n_n.rhsNonContracting by decide)]
  rfl

/-- The [2000,128] × [128,384] product into the zero splat, at entry (r, j): the sum over the 128 contracted
    positions of the operands' products. -/
theorem mm384_apply (x : FVec Ideal S2000x128 .bf16) (w : FVec Ideal S128x384 .bf16) (r : Fin 2000) (j : Fin 384) :
    matmul dot_S2000x128_S128x384_S2000x384_1_0_0_1_n_n none x w (constant (F := Ideal) S2000x384 .f32 0x00000000#32) (ix2 r j)
      = ∑ k : Fin 128, x (ix2 r k) * w (ix2 k j) := by
  simp only [matmul]
  rw [Ideal.matmul_constant_zero_apply, ← Equiv.sum_comp (contrEquiv1 dot_S2000x128_S128x384_S2000x384_1_0_0_1_n_n 128 rfl rfl).symm]
  refine Finset.sum_congr rfl fun k _ => ?_
  have hk := contrEquiv1_symm_val dot_S2000x128_S128x384_S2000x384_1_0_0_1_n_n 128 rfl rfl k
  have el : dot_S2000x128_S128x384_S2000x384_1_0_0_1_n_n.lhsIdx (ix2 r j) ((contrEquiv1 dot_S2000x128_S128x384_S2000x384_1_0_0_1_n_n 128 rfl rfl).symm k) = ix2 r k := funext fun a => Fin.ext (by
    match a with
    | ⟨0, _⟩ => exact lhs_mm384_0 _ _
    | ⟨1, _⟩ => exact (lhs_mm384_1 _ _).trans hk)
  have er : dot_S2000x128_S128x384_S2000x384_1_0_0_1_n_n.rhsIdx (ix2 r j) ((contrEquiv1 dot_S2000x128_S128x384_S2000x384_1_0_0_1_n_n 128 rfl rfl).symm k) = ix2 k j := funext fun a => Fin.ext (by
    match a with
    | ⟨0, _⟩ => exact (rhs_mm384_0 _ _).trans hk
    | ⟨1, _⟩ => exact rhs_mm384_1 _ _)
  rw [el, er]

/-! ## The product into 256 columns -/

/-- The row coordinate of the left operand's index is the result's row. -/
theorem lhs_mm256_0 (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
/-- The column coordinate of the left operand's index is the contracted coordinate. -/
theorem lhs_mm256_1 (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
/-- The row coordinate of the right operand's index is the contracted coordinate. -/
theorem rhs_mm256_0 (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
/-- The column coordinate of the right operand's index is the result's column. -/
theorem rhs_mm256_1 (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- The [2000,128] × [128,256] product into the zero splat, at entry (r, j): the sum over the 128 contracted
    positions of the operands' products. -/
theorem mm256_apply (x : FVec Ideal S2000x128 .bf16) (w : FVec Ideal S128x256 .bf16) (r : Fin 2000) (j : Fin 256) :
    matmul dot_S2000x128_S128x256_S2000x256_1_0_0_1_n_n none x w (constant (F := Ideal) S2000x256 .f32 0x00000000#32) (ix2 r j)
      = ∑ k : Fin 128, x (ix2 r k) * w (ix2 k j) := by
  simp only [matmul]
  rw [Ideal.matmul_constant_zero_apply, ← Equiv.sum_comp (contrEquiv1 dot_S2000x128_S128x256_S2000x256_1_0_0_1_n_n 128 rfl rfl).symm]
  refine Finset.sum_congr rfl fun k _ => ?_
  have hk := contrEquiv1_symm_val dot_S2000x128_S128x256_S2000x256_1_0_0_1_n_n 128 rfl rfl k
  have el : dot_S2000x128_S128x256_S2000x256_1_0_0_1_n_n.lhsIdx (ix2 r j) ((contrEquiv1 dot_S2000x128_S128x256_S2000x256_1_0_0_1_n_n 128 rfl rfl).symm k) = ix2 r k := funext fun a => Fin.ext (by
    match a with
    | ⟨0, _⟩ => exact lhs_mm256_0 _ _
    | ⟨1, _⟩ => exact (lhs_mm256_1 _ _).trans hk)
  have er : dot_S2000x128_S128x256_S2000x256_1_0_0_1_n_n.rhsIdx (ix2 r j) ((contrEquiv1 dot_S2000x128_S128x256_S2000x256_1_0_0_1_n_n 128 rfl rfl).symm k) = ix2 k j := funext fun a => Fin.ext (by
    match a with
    | ⟨0, _⟩ => exact (rhs_mm256_0 _ _).trans hk
    | ⟨1, _⟩ => exact rhs_mm256_1 _ _)
  rw [el, er]

/-! ## The product into 128 columns -/

/-- The row coordinate of the left operand's index is the result's row. -/
theorem lhs_mm128_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- The column coordinate of the left operand's index is the contracted coordinate. -/
theorem lhs_mm128_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- The row coordinate of the right operand's index is the contracted coordinate. -/
theorem rhs_mm128_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- The column coordinate of the right operand's index is the result's column. -/
theorem rhs_mm128_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The [2000,128] × [128,128] product into the zero splat, at entry (r, j): the sum over the 128 contracted
    positions of the operands' products. -/
theorem mm128_apply (x : FVec Ideal S2000x128 .bf16) (w : FVec Ideal S128x128 .bf16) (r : Fin 2000) (j : Fin 128) :
    matmul dot_S2000x128_S128x128_S2000x128_1_0_0_1_n_n none x w (constant (F := Ideal) S2000x128 .f32 0x00000000#32) (ix2 r j)
      = ∑ k : Fin 128, x (ix2 r k) * w (ix2 k j) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 r j) ((contrEquiv1 dot_S2000x128_S128x128_S2000x128_1_0_0_1_n_n 128 rfl rfl).symm k) = ix2 r k := funext fun a => Fin.ext (by
    match a with
    | ⟨0, _⟩ => exact lhs_mm128_0 _ _
    | ⟨1, _⟩ => exact (lhs_mm128_1 _ _).trans hk)
  have er : dot_S2000x128_S128x128_S2000x128_1_0_0_1_n_n.rhsIdx (ix2 r j) ((contrEquiv1 dot_S2000x128_S128x128_S2000x128_1_0_0_1_n_n 128 rfl rfl).symm k) = ix2 k j := funext fun a => Fin.ext (by
    match a with
    | ⟨0, _⟩ => exact (rhs_mm128_0 _ _).trans hk
    | ⟨1, _⟩ => exact rhs_mm128_1 _ _)
  rw [el, er]

end Cert.KernelIdeal.HandV

end
-- ==== Proof.KV.Pay5.lean ====
/- The payloads of the combine kernel of 128 columns read at one entry (r, j) of a row block, at the
   ideal values: each branch's pre-activation is the linear layer normalised, scaled and shifted; the rectified
   branches are weighted by their mixing weights and summed in the order (t0 + t1) + t2; the value stored is
   that sum plus the addend's entry. -/
import proofs.«414290_j6631429505478_3_alg».proof.Proof.Gen.KernelIdeal.Skeleton
import proofs.«414290_j6631429505478_3_alg».proof.Proof.KV.MatMul
import proofs.«414290_j6631429505478_3_alg».proof.Proof.KV.CombDefs

noncomputable section

namespace Cert.KernelIdeal.HandV

open Idealize.ShloMosaic Idealize.ShloMosaic.ValueIdx Idealize.SL.Sem
open Cert.KernelIdeal Cert.KernelIdeal.Gen
open scoped BigOperators

/-- The second and third row blocks pass through a cast to their own shape. -/
theorem k5_pay2_eq (v : FVec Ideal S2000x128 .bf16) : k5_pay2 (F := Ideal) v = v := by
  unfold k5_pay2
  exact shapeCast_self _ _
theorem k5_pay3_eq (v : FVec Ideal S2000x128 .bf16) : k5_pay3 (F := Ideal) v = v := by
  unfold k5_pay3
  exact shapeCast_self _ _

/-- Branch 0 before rectification: the linear layer of the row block and the branch's weight slab, minus the mean,
    times the reciprocal root of the variance plus eps, times gamma, plus beta. -/
theorem k5_pay4_apply (x : FVec Ideal S2000x128 .bf16) (w : FVec Ideal S1x128x128 .f32) (b mu va g be : FVec Ideal S1x128 .f32)
    (r : Fin 2000) (j : Fin 128) :
    k5_pay4 (F := Ideal) x w b mu va g be (ix2 r j) = (((((linK (fun k => x (ix2 r k)) (fun k => w (ix3 (0 : Fin 1) k j)) (b (ix2 (0 : Fin 1) j))) - mu (ix2 (0 : Fin 1) j)) * Ideal.rsqrt (va (ix2 (0 : Fin 1) j) + Ideal.ofBits .f32 0x3727C5AC#32)) * g (ix2 (0 : Fin 1) j)) + be (ix2 (0 : Fin 1) j) : EReal) := by
  unfold k5_pay4 linK
  simp only [shapeCast_shapeCast, shapeCast_self]
  rw [addf_apply, mulf_apply, mulf_apply, subf_apply, addf_apply, mm128_apply]
  simp only [broadcastTo_1b_ab_apply, truncf_apply, shapeCast_1ab_ab_apply]
  rfl

/-- Branch 0's term: its mixing weight times the rectified pre-activation. -/
theorem k5_pay5_apply (p : FVec Ideal S2000x128 .f32) (wt : FVec Ideal S1x128 .f32) (r : Fin 2000) (j : Fin 128) :
    k5_pay5 (F := Ideal) p wt (ix2 r j) = (wt (ix2 (0 : Fin 1) j) * max (p (ix2 r j)) 0 : EReal) := by
  unfold k5_pay5
  simp only [shapeCast_shapeCast]
  rw [mulf_apply, maximumf_apply, broadcastTo_1b_ab_apply, broadcast_apply]
  show (wt (ix2 (0 : Fin 1) j) * max (p (ix2 r j)) (Ideal.ofBits .f32 0x00000000#32) : EReal) = _
  rw [Ideal.ofBits_zero_f32]

/-- Branch 1 rectified. -/
theorem k5_pay6_apply (x : FVec Ideal S2000x128 .bf16) (w : FVec Ideal S1x128x128 .f32) (b mu va g be : FVec Ideal S1x128 .f32)
    (r : Fin 2000) (j : Fin 128) :
    k5_pay6 (F := Ideal) x w b mu va g be (ix2 r j) = (max (((((linK (fun k => x (ix2 r k)) (fun k => w (ix3 (0 : Fin 1) k j)) (b (ix2 (0 : Fin 1) j))) - mu (ix2 (0 : Fin 1) j)) * Ideal.rsqrt (va (ix2 (0 : Fin 1) j) + Ideal.ofBits .f32 0x3727C5AC#32)) * g (ix2 (0 : Fin 1) j)) + be (ix2 (0 : Fin 1) j) : EReal) 0 : EReal) := by
  unfold k5_pay6 linK
  simp only [shapeCast_shapeCast, shapeCast_self]
  rw [maximumf_apply, broadcast_apply, addf_apply, mulf_apply, mulf_apply, subf_apply, addf_apply, mm128_apply]
  simp only [broadcastTo_1b_ab_apply, truncf_apply, shapeCast_1ab_ab_apply]
  show (max _ (Ideal.ofBits .f32 0x00000000#32) : EReal) = _
  rw [Ideal.ofBits_zero_f32]
  rfl

/-- Branch 2 rectified. -/
theorem k5_pay8_apply (x : FVec Ideal S2000x128 .bf16) (w : FVec Ideal S1x128x128 .f32) (b mu va g be : FVec Ideal S1x128 .f32)
    (r : Fin 2000) (j : Fin 128) :
    k5_pay8 (F := Ideal) x w b mu va g be (ix2 r j) = (max (((((linK (fun k => x (ix2 r k)) (fun k => w (ix3 (0 : Fin 1) k j)) (b (ix2 (0 : Fin 1) j))) - mu (ix2 (0 : Fin 1) j)) * Ideal.rsqrt (va (ix2 (0 : Fin 1) j) + Ideal.ofBits .f32 0x3727C5AC#32)) * g (ix2 (0 : Fin 1) j)) + be (ix2 (0 : Fin 1) j) : EReal) 0 : EReal) := by
  unfold k5_pay8 linK
  simp only [shapeCast_shapeCast, shapeCast_self]
  rw [maximumf_apply, broadcast_apply, addf_apply, mulf_apply, mulf_apply, subf_apply, addf_apply, mm128_apply]
  simp only [broadcastTo_1b_ab_apply, truncf_apply, shapeCast_1ab_ab_apply]
  show (max _ (Ideal.ofBits .f32 0x00000000#32) : EReal) = _
  rw [Ideal.ofBits_zero_f32]
  rfl

/-- The running sum after branch 1: the sum so far plus the branch's weight times its rectified value. -/
theorem k5_pay7_apply (s p : FVec Ideal S2000x128 .f32) (wt : FVec Ideal S1x128 .f32) (r : Fin 2000) (j : Fin 128) :
    k5_pay7 (F := Ideal) s p wt (ix2 r j) = (s (ix2 r j) + wt (ix2 (0 : Fin 1) j) * p (ix2 r j) : EReal) := by
  unfold k5_pay7
  simp only [shapeCast_shapeCast]
  rw [addf_apply, mulf_apply, broadcastTo_1b_ab_apply]

/-- The running sum after branch 2, plus the addend's entry. -/
theorem k5_pay1_apply (s p : FVec Ideal S2000x128 .f32) (wt : FVec Ideal S1x128 .f32) (ad : FVec Ideal S2000x128 .f32) (r : Fin 2000) (j : Fin 128) :
    k5_pay1 (F := Ideal) s p wt ad (ix2 r j) = ((s (ix2 r j) + wt (ix2 (0 : Fin 1) j) * p (ix2 r j)) + ad (ix2 r j) : EReal) := by
  unfold k5_pay1
  simp only [shapeCast_shapeCast, shapeCast_self]
  rw [addf_apply, addf_apply, mulf_apply, broadcastTo_1b_ab_apply]

/-- THE STORED VALUE at (r, j), from the loaded pieces (x_c the three row blocks, w_c the weight slabs, per branch the
    bias, mean, variance, gamma, beta and mixing-weight rows, and the addend's row block): the three branches' terms,
    (t0 + t1) + t2, plus the addend's entry. -/
theorem cc5_store_apply (x0 x1 x2 : FVec Ideal S2000x128 .bf16) (w0 w1 w2 : FVec Ideal S1x128x128 .f32)
    (b0 b1 b2 mu0 mu1 mu2 va0 va1 va2 g0 g1 g2 be0 be1 be2 wt0 wt1 wt2 : FVec Ideal S1x128 .f32)
    (ad : FVec Ideal S2000x128 .f32) (r : Fin 2000) (j : Fin 128) :
    k5_pay1 (F := Ideal) (k5_pay7 (F := Ideal) (k5_pay5 (k5_pay4 x0 w0 b0 mu0 va0 g0 be0) wt0) (k5_pay6 (k5_pay2 x1) w1 b1 mu1 va1 g1 be1) wt1)
        (k5_pay8 (F := Ideal) (k5_pay3 x2) w2 b2 mu2 va2 g2 be2) wt2 ad (ix2 r j)
      = (sum3K (termK (wt0 (ix2 (0 : Fin 1) j)) (linK (fun k => x0 (ix2 r k)) (fun k => w0 (ix3 (0 : Fin 1) k j)) (b0 (ix2 (0 : Fin 1) j))) (mu0 (ix2 (0 : Fin 1) j)) (va0 (ix2 (0 : Fin 1) j)) (g0 (ix2 (0 : Fin 1) j)) (be0 (ix2 (0 : Fin 1) j)))
          (termK (wt1 (ix2 (0 : Fin 1) j)) (linK (fun k => x1 (ix2 r k)) (fun k => w1 (ix3 (0 : Fin 1) k j)) (b1 (ix2 (0 : Fin 1) j))) (mu1 (ix2 (0 : Fin 1) j)) (va1 (ix2 (0 : Fin 1) j)) (g1 (ix2 (0 : Fin 1) j)) (be1 (ix2 (0 : Fin 1) j)))
          (termK (wt2 (ix2 (0 : Fin 1) j)) (linK (fun k => x2 (ix2 r k)) (fun k => w2 (ix3 (0 : Fin 1) k j)) (b2 (ix2 (0 : Fin 1) j))) (mu2 (ix2 (0 : Fin 1) j)) (va2 (ix2 (0 : Fin 1) j)) (g2 (ix2 (0 : Fin 1) j)) (be2 (ix2 (0 : Fin 1) j))) + ad (ix2 r j) : EReal) := by
  rw [k5_pay1_apply, k5_pay7_apply, k5_pay5_apply, k5_pay4_apply, k5_pay6_apply, k5_pay8_apply, k5_pay2_eq, k5_pay3_eq]
  rfl

end Cert.KernelIdeal.HandV

end
-- ==== Proof.KV.Arr5.lean ====
/- Region 5 (the combine kernel of 128 columns, with addend) from blocks to the array, at the ideal
   values: what the body leaves in the output block at a point is, entry by entry, the three-branch combination of the
   input arrays' rows 2000 t … 2000 t + 1999 plus the addend's entry; point t writes back rows 2000 t … of the result;
   the 25 points cover every row; so the result array is that combination of the whole input arrays plus the addend. -/
import proofs.«414290_j6631429505478_3_alg».proof.Proof.KI.Comb5
import proofs.«414290_j6631429505478_3_alg».proof.Proof.KV.Pay5
import proofs.«414290_j6631429505478_3_alg».proof.Proof.KV.CombArr
import Idealize.ShloMosaic.Lib.Pipeline.Value

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-! ## The slabs and rows the body loads from the whole parameter windows -/

theorem hz5_2 : (![0, 0] : Fin 2 → Nat) = fun _ => 0 := funext fun a => by fin_cases a <;> rfl

/-- Slab `o` of the stacked weights, loaded as a [1,128,128] piece, at (0, k, j) is the stack at (o, k, j). -/
theorem ld_slab5 (X : Vec Ideal S3x128x128 .f32) (o : ℕ) (ho : o < 3)
    (h : ∀ a, (![o, 0, 0] : Fin 3 → Nat) a + S1x128x128.size a ≤ S3x128x128.size a) (k : Fin 128) (j : Fin 128) :
    View.ld X (Rect.unit (s := S3x128x128) ![o, 0, 0] S1x128x128.size h) (ix3 (0 : Fin 1) k j) = X (ix3 (⟨o, ho⟩ : Fin 3) k j) := by
  refine congrArg X (funext fun a => Fin.ext ?_)
  match a with
  | ⟨0, _⟩ => show o + 1 * 0 = o; omega
  | ⟨1, _⟩ => show 0 + 1 * k.val = k.val; omega
  | ⟨2, _⟩ => show 0 + 1 * j.val = j.val; omega

/-- Row `o` of a stacked [3,128] parameter, loaded as a [1,128] piece, at (0, j) is the stack at (o, j). -/
theorem ld_row5 (X : Vec Ideal S3x128 .f32) (o : ℕ) (ho : o < 3)
    (h : ∀ a, (![o, 0] : Fin 2 → Nat) a + S1x128.size a ≤ S3x128.size a) (j : Fin 128) :
    View.ld X (Rect.unit (s := S3x128) ![o, 0] S1x128.size h) (ix2 (0 : Fin 1) j) = X (ix2 (⟨o, ho⟩ : Fin 3) j) := by
  refine congrArg X (funext fun a => Fin.ext ?_)
  match a with
  | ⟨0, _⟩ => show o + 1 * 0 = o; omega
  | ⟨1, _⟩ => show 0 + 1 * j.val = j.val; omega

/-! ## The output block from the input blocks, at an entry -/

/-- What the body leaves in the output block at (r, j), from the windows' blocks (x0 x1 x2 the row blocks; x3 the
    stacked weights; x4 … x9 the stacked bias, gamma, beta, mixing weights, means, variances; x10 the addend's row
    block): the three branches' terms summed, plus the addend's entry. -/
theorem out5_11_apply (x0 x1 x2 : Vec Ideal S2000x128 .bf16) (x3 : Vec Ideal S3x128x128 .f32)
    (x4 x5 x6 x7 x8 x9 : Vec Ideal S3x128 .f32) (x10 : Vec Ideal S2000x128 .f32) (r : Fin 2000) (j : Fin 128) :
    out5_11 (F := Ideal) x0 x1 x2 x3 x4 x5 x6 x7 x8 x9 x10 (ix2 r j)
      = (sum3K
          (termK (x7 (ix2 (0 : Fin 3) j)) (linK (fun k => x0 (ix2 r k)) (fun k => x3 (ix3 (0 : Fin 3) k j)) (x4 (ix2 (0 : Fin 3) j)))
            (x8 (ix2 (0 : Fin 3) j)) (x9 (ix2 (0 : Fin 3) j)) (x5 (ix2 (0 : Fin 3) j)) (x6 (ix2 (0 : Fin 3) j)))
          (termK (x7 (ix2 (1 : Fin 3) j)) (linK (fun k => x1 (ix2 r k)) (fun k => x3 (ix3 (1 : Fin 3) k j)) (x4 (ix2 (1 : Fin 3) j)))
            (x8 (ix2 (1 : Fin 3) j)) (x9 (ix2 (1 : Fin 3) j)) (x5 (ix2 (1 : Fin 3) j)) (x6 (ix2 (1 : Fin 3) j)))
          (termK (x7 (ix2 (2 : Fin 3) j)) (linK (fun k => x2 (ix2 r k)) (fun k => x3 (ix3 (2 : Fin 3) k j)) (x4 (ix2 (2 : Fin 3) j)))
            (x8 (ix2 (2 : Fin 3) j)) (x9 (ix2 (2 : Fin 3) j)) (x5 (ix2 (2 : Fin 3) j)) (x6 (ix2 (2 : Fin 3) j)))
          + x10 (ix2 r j) : EReal) := by
  unfold out5_11
  rw [View.canon_unit_zero hz5_2]
  simp only [View.ld_unit_zero (S := S2000x128) hz5_2]
  rw [cc5_store_apply]
  simp only [ld_slab5 x3 0 (by decide), ld_slab5 x3 1 (by decide), ld_slab5 x3 2 (by decide),
    ld_row5 x4 0 (by decide), ld_row5 x4 1 (by decide), ld_row5 x4 2 (by decide), ld_row5 x5 0 (by decide), ld_row5 x5 1 (by decide), ld_row5 x5 2 (by decide), ld_row5 x6 0 (by decide), ld_row5 x6 1 (by decide), ld_row5 x6 2 (by decide), ld_row5 x7 0 (by decide), ld_row5 x7 1 (by decide), ld_row5 x7 2 (by decide), ld_row5 x8 0 (by decide), ld_row5 x8 1 (by decide), ld_row5 x8 2 (by decide), ld_row5 x9 0 (by decide), ld_row5 x9 1 (by decide), ld_row5 x9 2 (by decide)]
  rfl

/-! ## The windows' blocks as rows of the arrays -/

/-- The index maps, decided over the 25 points: the three row windows, the addend's window and the output window move
    with the point … -/
theorem idx5_0 : ∀ t : Fin cfg5.N, win5_0.index t (0 : Fin 2) = t.val ∧ win5_0.index t (1 : Fin 2) = 0 :=
  (by decide +kernel : ∀ t : Fin grid5.N, _)
theorem idx5_1 : ∀ t : Fin cfg5.N, win5_1.index t (0 : Fin 2) = t.val ∧ win5_1.index t (1 : Fin 2) = 0 :=
  (by decide +kernel : ∀ t : Fin grid5.N, _)
theorem idx5_2 : ∀ t : Fin cfg5.N, win5_2.index t (0 : Fin 2) = t.val ∧ win5_2.index t (1 : Fin 2) = 0 :=
  (by decide +kernel : ∀ t : Fin grid5.N, _)
theorem idx5_10 : ∀ t : Fin cfg5.N, win5_10.index t (0 : Fin 2) = t.val ∧ win5_10.index t (1 : Fin 2) = 0 :=
  (by decide +kernel : ∀ t : Fin grid5.N, _)
theorem idx5_11 : ∀ t : Fin cfg5.N, win5_11.index t (0 : Fin 2) = t.val ∧ win5_11.index t (1 : Fin 2) = 0 :=
  (by decide +kernel : ∀ t : Fin grid5.N, _)
/-- … and the seven parameter windows stay at block zero. -/
theorem idx5_3 : ∀ t : Fin cfg5.N, win5_3.index t (0 : Fin 3) = 0 ∧ win5_3.index t (1 : Fin 3) = 0 ∧ win5_3.index t (2 : Fin 3) = 0 :=
  (by decide +kernel : ∀ t : Fin grid5.N, _)
theorem idx5_4 : ∀ t : Fin cfg5.N, win5_4.index t (0 : Fin 2) = 0 ∧ win5_4.index t (1 : Fin 2) = 0 :=
  (by decide +kernel : ∀ t : Fin grid5.N, _)
theorem idx5_5 : ∀ t : Fin cfg5.N, win5_5.index t (0 : Fin 2) = 0 ∧ win5_5.index t (1 : Fin 2) = 0 :=
  (by decide +kernel : ∀ t : Fin grid5.N, _)
theorem idx5_6 : ∀ t : Fin cfg5.N, win5_6.index t (0 : Fin 2) = 0 ∧ win5_6.index t (1 : Fin 2) = 0 :=
  (by decide +kernel : ∀ t : Fin grid5.N, _)
theorem idx5_7 : ∀ t : Fin cfg5.N, win5_7.index t (0 : Fin 2) = 0 ∧ win5_7.index t (1 : Fin 2) = 0 :=
  (by decide +kernel : ∀ t : Fin grid5.N, _)
theorem idx5_8 : ∀ t : Fin cfg5.N, win5_8.index t (0 : Fin 2) = 0 ∧ win5_8.index t (1 : Fin 2) = 0 :=
  (by decide +kernel : ∀ t : Fin grid5.N, _)
theorem idx5_9 : ∀ t : Fin cfg5.N, win5_9.index t (0 : Fin 2) = 0 ∧ win5_9.index t (1 : Fin 2) = 0 :=
  (by decide +kernel : ∀ t : Fin grid5.N, _)

/-- Row window 0's block at point `t` is rows `2000 t … 2000 t + 1999` of its array. -/
theorem iblk5_row0 (c : Dev nD) (t : Fin cfg5.N) (r : Fin 2000) (n : Fin 50000) (hn : n.val = 2000 * t.val + r.val) (k : Fin 128) :
    (iblk5 V c 0 t : Vec Ideal S2000x128 .bf16) (ix2 r k)
      = (V c (Pipeline.arrRef spec5 0) : S50000x128.Idx → Elt Ideal .bf16) (ix2 n k) := by
  obtain ⟨h0, h1⟩ := idx5_0 t
  unfold iblk5
  rw [View.read_apply]
  refine congrArg (V c (Pipeline.arrRef spec5 0)) (funext fun a => Fin.ext ?_)
  match a with
  | ⟨0, _⟩ => show win5_0.index t (0 : Fin 2) * 2000 + 1 * r.val = n.val; rw [h0, hn]; omega
  | ⟨1, _⟩ => show win5_0.index t (1 : Fin 2) * 128 + 1 * k.val = k.val; rw [h1]; omega
/-- Row window 1's block at point `t` is rows `2000 t … 2000 t + 1999` of its array. -/
theorem iblk5_row1 (c : Dev nD) (t : Fin cfg5.N) (r : Fin 2000) (n : Fin 50000) (hn : n.val = 2000 * t.val + r.val) (k : Fin 128) :
    (iblk5 V c 1 t : Vec Ideal S2000x128 .bf16) (ix2 r k)
      = (V c (Pipeline.arrRef spec5 1) : S50000x128.Idx → Elt Ideal .bf16) (ix2 n k) := by
  obtain ⟨h0, h1⟩ := idx5_1 t
  unfold iblk5
  rw [View.read_apply]
  refine congrArg (V c (Pipeline.arrRef spec5 1)) (funext fun a => Fin.ext ?_)
  match a with
  | ⟨0, _⟩ => show win5_1.index t (0 : Fin 2) * 2000 + 1 * r.val = n.val; rw [h0, hn]; omega
  | ⟨1, _⟩ => show win5_1.index t (1 : Fin 2) * 128 + 1 * k.val = k.val; rw [h1]; omega
/-- Row window 2's block at point `t` is rows `2000 t … 2000 t + 1999` of its array. -/
theorem iblk5_row2 (c : Dev nD) (t : Fin cfg5.N) (r : Fin 2000) (n : Fin 50000) (hn : n.val = 2000 * t.val + r.val) (k : Fin 128) :
    (iblk5 V c 2 t : Vec Ideal S2000x128 .bf16) (ix2 r k)
      = (V c (Pipeline.arrRef spec5 2) : S50000x128.Idx → Elt Ideal .bf16) (ix2 n k) := by
  obtain ⟨h0, h1⟩ := idx5_2 t
  unfold iblk5
  rw [View.read_apply]
  refine congrArg (V c (Pipeline.arrRef spec5 2)) (funext fun a => Fin.ext ?_)
  match a with
  | ⟨0, _⟩ => show win5_2.index t (0 : Fin 2) * 2000 + 1 * r.val = n.val; rw [h0, hn]; omega
  | ⟨1, _⟩ => show win5_2.index t (1 : Fin 2) * 128 + 1 * k.val = k.val; rw [h1]; omega
/-- The addend's window's block at point `t` is rows `2000 t … 2000 t + 1999` of its array. -/
theorem iblk5_row10 (c : Dev nD) (t : Fin cfg5.N) (r : Fin 2000) (n : Fin 50000) (hn : n.val = 2000 * t.val + r.val) (k : Fin 128) :
    (iblk5 V c 10 t : Vec Ideal S2000x128 .f32) (ix2 r k)
      = (V c (Pipeline.arrRef spec5 10) : S50000x128.Idx → Elt Ideal .f32) (ix2 n k) := by
  obtain ⟨h0, h1⟩ := idx5_10 t
  unfold iblk5
  rw [View.read_apply]
  refine congrArg (V c (Pipeline.arrRef spec5 10)) (funext fun a => Fin.ext ?_)
  match a with
  | ⟨0, _⟩ => show win5_10.index t (0 : Fin 2) * 2000 + 1 * r.val = n.val; rw [h0, hn]; omega
  | ⟨1, _⟩ => show win5_10.index t (1 : Fin 2) * 128 + 1 * k.val = k.val; rw [h1]; omega

/-- The weights' window holds the whole stacked array at every point. -/
theorem iblk5_w3 (c : Dev nD) (t : Fin cfg5.N) : (iblk5 V c 3 t : Vec Ideal S3x128x128 .f32) = V c (Pipeline.arrRef spec5 3) := by
  obtain ⟨h0, h1, h2⟩ := idx5_3 t
  funext x
  unfold iblk5
  rw [View.read_apply]
  refine congrArg (V c (Pipeline.arrRef spec5 3)) (funext fun a => Fin.ext ?_)
  match a with
  | ⟨0, _⟩ => show win5_3.index t (0 : Fin 3) * 3 + 1 * (x 0).val = (x 0).val; rw [h0]; omega
  | ⟨1, _⟩ => show win5_3.index t (1 : Fin 3) * 128 + 1 * (x 1).val = (x 1).val; rw [h1]; omega
  | ⟨2, _⟩ => show win5_3.index t (2 : Fin 3) * 128 + 1 * (x 2).val = (x 2).val; rw [h2]; omega
/-- Parameter window 4 holds its whole stacked array at every point. -/
theorem iblk5_w4 (c : Dev nD) (t : Fin cfg5.N) : (iblk5 V c 4 t : Vec Ideal S3x128 .f32) = V c (Pipeline.arrRef spec5 4) := by
  obtain ⟨h0, h1⟩ := idx5_4 t
  funext x
  unfold iblk5
  rw [View.read_apply]
  refine congrArg (V c (Pipeline.arrRef spec5 4)) (funext fun a => Fin.ext ?_)
  match a with
  | ⟨0, _⟩ => show win5_4.index t (0 : Fin 2) * 3 + 1 * (x 0).val = (x 0).val; rw [h0]; omega
  | ⟨1, _⟩ => show win5_4.index t (1 : Fin 2) * 128 + 1 * (x 1).val = (x 1).val; rw [h1]; omega
/-- Parameter window 5 holds its whole stacked array at every point. -/
theorem iblk5_w5 (c : Dev nD) (t : Fin cfg5.N) : (iblk5 V c 5 t : Vec Ideal S3x128 .f32) = V c (Pipeline.arrRef spec5 5) := by
  obtain ⟨h0, h1⟩ := idx5_5 t
  funext x
  unfold iblk5
  rw [View.read_apply]
  refine congrArg (V c (Pipeline.arrRef spec5 5)) (funext fun a => Fin.ext ?_)
  match a with
  | ⟨0, _⟩ => show win5_5.index t (0 : Fin 2) * 3 + 1 * (x 0).val = (x 0).val; rw [h0]; omega
  | ⟨1, _⟩ => show win5_5.index t (1 : Fin 2) * 128 + 1 * (x 1).val = (x 1).val; rw [h1]; omega
/-- Parameter window 6 holds its whole stacked array at every point. -/
theorem iblk5_w6 (c : Dev nD) (t : Fin cfg5.N) : (iblk5 V c 6 t : Vec Ideal S3x128 .f32) = V c (Pipeline.arrRef spec5 6) := by
  obtain ⟨h0, h1⟩ := idx5_6 t
  funext x
  unfold iblk5
  rw [View.read_apply]
  refine congrArg (V c (Pipeline.arrRef spec5 6)) (funext fun a => Fin.ext ?_)
  match a with
  | ⟨0, _⟩ => show win5_6.index t (0 : Fin 2) * 3 + 1 * (x 0).val = (x 0).val; rw [h0]; omega
  | ⟨1, _⟩ => show win5_6.index t (1 : Fin 2) * 128 + 1 * (x 1).val = (x 1).val; rw [h1]; omega
/-- Parameter window 7 holds its whole stacked array at every point. -/
theorem iblk5_w7 (c : Dev nD) (t : Fin cfg5.N) : (iblk5 V c 7 t : Vec Ideal S3x128 .f32) = V c (Pipeline.arrRef spec5 7) := by
  obtain ⟨h0, h1⟩ := idx5_7 t
  funext x
  unfold iblk5
  rw [View.read_apply]
  refine congrArg (V c (Pipeline.arrRef spec5 7)) (funext fun a => Fin.ext ?_)
  match a with
  | ⟨0, _⟩ => show win5_7.index t (0 : Fin 2) * 3 + 1 * (x 0).val = (x 0).val; rw [h0]; omega
  | ⟨1, _⟩ => show win5_7.index t (1 : Fin 2) * 128 + 1 * (x 1).val = (x 1).val; rw [h1]; omega
/-- Parameter window 8 holds its whole stacked array at every point. -/
theorem iblk5_w8 (c : Dev nD) (t : Fin cfg5.N) : (iblk5 V c 8 t : Vec Ideal S3x128 .f32) = V c (Pipeline.arrRef spec5 8) := by
  obtain ⟨h0, h1⟩ := idx5_8 t
  funext x
  unfold iblk5
  rw [View.read_apply]
  refine congrArg (V c (Pipeline.arrRef spec5 8)) (funext fun a => Fin.ext ?_)
  match a with
  | ⟨0, _⟩ => show win5_8.index t (0 : Fin 2) * 3 + 1 * (x 0).val = (x 0).val; rw [h0]; omega
  | ⟨1, _⟩ => show win5_8.index t (1 : Fin 2) * 128 + 1 * (x 1).val = (x 1).val; rw [h1]; omega
/-- Parameter window 9 holds its whole stacked array at every point. -/
theorem iblk5_w9 (c : Dev nD) (t : Fin cfg5.N) : (iblk5 V c 9 t : Vec Ideal S3x128 .f32) = V c (Pipeline.arrRef spec5 9) := by
  obtain ⟨h0, h1⟩ := idx5_9 t
  funext x
  unfold iblk5
  rw [View.read_apply]
  refine congrArg (V c (Pipeline.arrRef spec5 9)) (funext fun a => Fin.ext ?_)
  match a with
  | ⟨0, _⟩ => show win5_9.index t (0 : Fin 2) * 3 + 1 * (x 0).val = (x 0).val; rw [h0]; omega
  | ⟨1, _⟩ => show win5_9.index t (1 : Fin 2) * 128 + 1 * (x 1).val = (x 1).val; rw [h1]; omega

/-! ## The result array -/

/-- The result array as one function of the input arrays as the region finds them: the three-branch combination plus
    the addend, entry by entry. -/
def arr5 (c : Dev nD) : S50000x128.Idx → Elt Ideal .f32 := fun i =>
  (combAt (GW := 128) (V c (Pipeline.arrRef spec5 0)) (V c (Pipeline.arrRef spec5 1)) (V c (Pipeline.arrRef spec5 2)) (V c (Pipeline.arrRef spec5 3))
    (V c (Pipeline.arrRef spec5 4)) (V c (Pipeline.arrRef spec5 5)) (V c (Pipeline.arrRef spec5 6)) (V c (Pipeline.arrRef spec5 7))
    (V c (Pipeline.arrRef spec5 8)) (V c (Pipeline.arrRef spec5 9)) (i 0) (i 1)
    + (V c (Pipeline.arrRef spec5 10) : S50000x128.Idx → Elt Ideal .f32) i : EReal)

/-- What the body leaves at entry (r, j) of the output block at point `t` is the combination at row `2000 t + r` plus the
    addend there. -/
theorem point5 (c : Dev nD) (t : Fin cfg5.N) (r : Fin 2000) (j : Fin 128) (n : Fin 50000) (hn : n.val = 2000 * t.val + r.val) :
    out5_11 (F := Ideal) (iblk5 V c 0 t) (iblk5 V c 1 t) (iblk5 V c 2 t) (iblk5 V c 3 t) (iblk5 V c 4 t) (iblk5 V c 5 t)
        (iblk5 V c 6 t) (iblk5 V c 7 t) (iblk5 V c 8 t) (iblk5 V c 9 t) (iblk5 V c 10 t) (ix2 r j)
      = arr5 V c (ix2 n j) := by
  rw [out5_11_apply (iblk5 V c 0 t) (iblk5 V c 1 t) (iblk5 V c 2 t) (iblk5 V c 3 t) (iblk5 V c 4 t) (iblk5 V c 5 t)
    (iblk5 V c 6 t) (iblk5 V c 7 t) (iblk5 V c 8 t) (iblk5 V c 9 t) (iblk5 V c 10 t) r j]
  rw [iblk5_w3, iblk5_w4, iblk5_w5, iblk5_w6, iblk5_w7, iblk5_w8, iblk5_w9]
  simp only [iblk5_row0 V c t r n hn, iblk5_row1 V c t r n hn, iblk5_row2 V c t r n hn, iblk5_row10 V c t r n hn]
  rfl

/-- Two functions on a [2000,128] block that agree at every (r, j) are equal. -/
theorem ext5_2000x128 {α : Type} (P Q : S2000x128.Idx → α) (h : ∀ (r : Fin 2000) (j : Fin 128), P (ix2 r j) = Q (ix2 r j)) : P = Q :=
  funext fun i => by rw [eq_ix2 i]; exact h _ _

/-- WHAT POINT `t` WRITES BACK is block `t` of `arr5`. -/
theorem flushed5_eq (c : Dev nD) (t : Fin cfg5.N) :
    (dat5 V c).flushed 11 t = ((cfg5.win 11).blk t).view.read (Elt Ideal) (arr5 V c) := by
  show (cfg5.win 11).cut (grid5.coords t) ((dat5 V c).after 11 t) = _
  rw [after5_11]
  obtain ⟨h0, h1⟩ := idx5_11 t
  have hN : cfg5.N = 25 := N_5
  have ht := t.isLt
  refine ext5_2000x128 _ _ fun r j => ?_
  have hr := r.isLt
  show out5_11 (F := Ideal) (iblk5 V c 0 t) (iblk5 V c 1 t) (iblk5 V c 2 t) (iblk5 V c 3 t) (iblk5 V c 4 t) (iblk5 V c 5 t)
      (iblk5 V c 6 t) (iblk5 V c 7 t) (iblk5 V c 8 t) (iblk5 V c 9 t) (iblk5 V c 10 t) (ix2 r j) = arr5 V c (((cfg5.win 11).blk t).view.emb (ix2 r j))
  rw [point5 V c t r j ⟨2000 * t.val + r.val, by omega⟩ rfl]
  refine congrArg (arr5 V c) (funext fun a => Fin.ext ?_)
  match a with
  | ⟨0, _⟩ => show 2000 * t.val + r.val = win5_11.index t (0 : Fin 2) * 2000 + 1 * r.val; rw [h0]; omega
  | ⟨1, _⟩ => show j.val = win5_11.index t (1 : Fin 2) * 128 + 1 * j.val; rw [h1]; omega

/-- An index of the array is in point `t`'s block iff each coordinate is in the block's range on its axis. -/
theorem mem_blk5 (t : Fin cfg5.N) (i : S50000x128.Idx) :
    i ∈ ((cfg5.win 11).blk t).view.set ↔ ∀ a : Fin 2, win5_11.index t a * S2000x128.size a ≤ (i a).val ∧ (i a).val < win5_11.index t a * S2000x128.size a + S2000x128.size a := by
  show i ∈ ((View.whole main_v403).slice (win5_11.rect t)).set ↔ _
  rw [View.set_slice_whole, Rect.mem_set_unit]
  exact Iff.rfl

/-- Every row is covered: row `n` by point `n / 2000`. -/
theorem cover5 (i : S50000x128.Idx) : ∃ t : Fin cfg5.N, (cfg5.win 11).flush t = true ∧ i ∈ ((cfg5.win 11).blk t).view.set := by
  have hi0 : (i 0).val < 50000 := (i 0).isLt
  have hi1 : (i 1).val < 128 := (i 1).isLt
  have hN : cfg5.N = 25 := N_5
  refine ⟨⟨(i 0).val / 2000, by rw [hN]; omega⟩, flush5_11 _, ?_⟩
  rw [mem_blk5]
  obtain ⟨h0, h1⟩ := idx5_11 ⟨(i 0).val / 2000, by rw [hN]; omega⟩
  intro a
  match a with
  | ⟨0, _⟩ =>
    show win5_11.index _ (0 : Fin 2) * 2000 ≤ (i 0).val ∧ (i 0).val < win5_11.index _ (0 : Fin 2) * 2000 + 2000
    rw [h0]; show (i 0).val / 2000 * 2000 ≤ (i 0).val ∧ (i 0).val < (i 0).val / 2000 * 2000 + 2000; omega
  | ⟨1, _⟩ =>
    show win5_11.index _ (1 : Fin 2) * 128 ≤ (i 1).val ∧ (i 1).val < win5_11.index _ (1 : Fin 2) * 128 + 128
    rw [h1]; omega

/-- THE RESULT ARRAY after the region: `arr5` of the input arrays. -/
theorem arr5_eq (c : Dev nD) : (dat5 V c).arrAt 11 cfg5.N = arr5 V c :=
  (dat5 V c).arrAt_eq_of_cover 11 (arr5 V c) (fun t _ => flushed5_eq V c t) cover5

/-- … entry by entry. -/
theorem arr5_apply (c : Dev nD) (n : Fin 50000) (j : Fin 128) :
    (dat5 V c).arrAt 11 cfg5.N (ix2 n j)
      = (combAt (GW := 128) (V c (Pipeline.arrRef spec5 0)) (V c (Pipeline.arrRef spec5 1)) (V c (Pipeline.arrRef spec5 2)) (V c (Pipeline.arrRef spec5 3))
          (V c (Pipeline.arrRef spec5 4)) (V c (Pipeline.arrRef spec5 5)) (V c (Pipeline.arrRef spec5 6)) (V c (Pipeline.arrRef spec5 7))
          (V c (Pipeline.arrRef spec5 8)) (V c (Pipeline.arrRef spec5 9)) n j
          + (V c (Pipeline.arrRef spec5 10) : S50000x128.Idx → Elt Ideal .f32) (ix2 n j) : EReal) := by
  rw [arr5_eq]; rfl

end Cert.KernelIdeal.HandV

end
-- ==== Proof.KV.GroupC.lean ====
import proofs.«414290_j6631429505478_3_alg».proof.Proof.KV.Carry
import proofs.«414290_j6631429505478_3_alg».proof.Proof.KV.Inputs
import proofs.«414290_j6631429505478_3_alg».proof.Proof.KV.GroupComb
import proofs.«414290_j6631429505478_3_alg».proof.Proof.KV.HostStats5
import proofs.«414290_j6631429505478_3_alg».proof.Proof.KV.StatsAcc4
import proofs.«414290_j6631429505478_3_alg».proof.Proof.KV.Arr5

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx
open Idealize.ShloMosaic.Pipeline (Dat)
open Cert.Spec
open scoped BigOperators

variable (m : (ℓ : Loc nD τ sig) → Buf (Elt Ideal) ℓ) (ρ : Dev nD → PrngReg) (c : Dev nD)

/-! # Group C: the statistics call 4, the host stretch 5 and the combining call 5

The fifth stretch leaves the group's three inputs, its stacked parameters and the addend; call 4 sums per core; the
stretch between makes the means and variances; call 5 combines and adds the addend. -/

/-- The group's inputs as the fifth stretch leaves them. -/
abbrev xC0 : FVec Ideal S50000x128 .bf16 := W9 m ρ c (Proc.devRef .tc main_v390)
abbrev xC1 : FVec Ideal S50000x128 .bf16 := W9 m ρ c (Proc.devRef .tc main_v391)
abbrev xC2 : FVec Ideal S50000x128 .bf16 := W9 m ρ c (Proc.devRef .tc main_v13)
/-- The group's stacked parameters as the fifth stretch leaves them. -/
abbrev wtC : FVec Ideal S3x128x128 .f32 := W9 m ρ c (Proc.devRef .tc main_v373)
abbrev bC : FVec Ideal S3x128 .f32 := W9 m ρ c (Proc.devRef .tc main_v377)
abbrev gC : FVec Ideal S3x128 .f32 := W9 m ρ c (Proc.devRef .tc main_v381)
abbrev beC : FVec Ideal S3x128 .f32 := W9 m ρ c (Proc.devRef .tc main_v385)
abbrev wC : FVec Ideal S3x128 .f32 := W9 m ρ c (Proc.devRef .tc main_v389)
/-- The addend as the fifth stretch leaves it. -/
abbrev addC : FVec Ideal S50000x128 .f32 := W9 m ρ c (Proc.devRef .tc main_v321)

/-- The group's arrays and inputs in the specification's terms. -/
abbrev arrsC : GroupArrays 1 := arraysOf (G := 1) (wtC m ρ c) (bC m ρ c) (gC m ρ c) (beC m ρ c) (wC m ρ c)
abbrev rowsC : Fin 3 → Feat := rowsOf (xC0 m ρ c) (xC1 m ρ c) (xC2 m ρ c)

/-- Call 4's linear layer at a row of the whole arrays is the group's. -/
theorem zArrC (cc : Fin 3) (R : Fin 50000) (j : Fin 128) :
    Stats4.zArr (Stats4.xarr (V9 m ρ) c cc) (Stats4.warr (V9 m ρ) c) (Stats4.barr (V9 m ρ) c) cc R j
      = zG (arrsC m ρ c) (rowsC m ρ c) cc R j := by
  match cc with
  | ⟨0, _⟩ => rfl
  | ⟨1, _⟩ => rfl
  | ⟨2, _⟩ => rfl

/-- Call 4's sums, per core. -/
theorem sumC (core : Fin 2) (cc : Fin 3) (j : Fin 128) :
    (W10 m ρ c (Proc.devRef .tc main_v392_0) : FVec Ideal S2x3x128 .f32) (ix3 core cc j)
      = coreSum (fun n => zG (arrsC m ρ c) (rowsC m ρ c) cc n j) core := by
  have h := W10_arr m ρ c (5 : Fin cfg4.W)
  rw [show W10 m ρ c (Proc.devRef .tc main_v392_0) = _ from h, Stats4.arr5_apply (V9 m ρ) c core cc j]
  unfold coreSum
  show (_ : EReal) = _
  exact Finset.sum_congr rfl fun i _ => Finset.sum_congr rfl fun r _ => zArrC m ρ c cc _ j

/-- Call 4's sums of squares, per core. -/
theorem sqC (core : Fin 2) (cc : Fin 3) (j : Fin 128) :
    (W10 m ρ c (Proc.devRef .tc main_v392_1) : FVec Ideal S2x3x128 .f32) (ix3 core cc j)
      = coreSum (fun n => zG (arrsC m ρ c) (rowsC m ρ c) cc n j * zG (arrsC m ρ c) (rowsC m ρ c) cc n j) core := by
  have h := W10_arr m ρ c (6 : Fin cfg4.W)
  rw [show W10 m ρ c (Proc.devRef .tc main_v392_1) = _ from h, Stats4.arr6_apply (V9 m ρ) c core cc j]
  unfold coreSum
  show (_ : EReal) = _
  exact Finset.sum_congr rfl fun i _ => Finset.sum_congr rfl fun r _ => by rw [zArrC m ρ c cc _ j]

/-- The means the stretch between the calls leaves, of call 4's sums `s`. -/
theorem meanC (s : FVec Ideal S2x3x128 .f32) (hs : W10 m ρ c (Proc.devRef .tc main_v392_0) = s) (cc : Fin 3) (j : Fin 128) :
    (W11 m ρ c (Proc.devRef .tc main_v396) : FVec Ideal S3x128 .f32) (ix2 cc j)
      = Ideal.div (s (ix3 (0 : Fin 2) cc j) + s (ix3 (1 : Fin 2) cc j)) N50000 := by
  rw [W11_eq]
  exact host5_mean (W10 m ρ c) s hs (ix2 cc j)

/-- The variances the stretch between the calls leaves, of call 4's sums `s` and sums of squares `q`. -/
theorem varC (s q : FVec Ideal S2x3x128 .f32) (hs : W10 m ρ c (Proc.devRef .tc main_v392_0) = s)
    (hq : W10 m ρ c (Proc.devRef .tc main_v392_1) = q) (cc : Fin 3) (j : Fin 128) :
    (W11 m ρ c (Proc.devRef .tc main_v402) : FVec Ideal S3x128 .f32) (ix2 cc j)
      = max (Ideal.div (q (ix3 (0 : Fin 2) cc j) + q (ix3 (1 : Fin 2) cc j)) N50000
          - Ideal.div (s (ix3 (0 : Fin 2) cc j) + s (ix3 (1 : Fin 2) cc j)) N50000
            * Ideal.div (s (ix3 (0 : Fin 2) cc j) + s (ix3 (1 : Fin 2) cc j)) N50000) 0 := by
  rw [W11_eq]
  exact host5_var (W10 m ρ c) s q hs hq (ix2 cc j)

/-- Call 5's arrays at its entry are what the fifth stretch left. -/
theorem entryC :
    V11 m ρ c (Pipeline.arrRef spec5 0) = xC0 m ρ c ∧ V11 m ρ c (Pipeline.arrRef spec5 1) = xC1 m ρ c
      ∧ V11 m ρ c (Pipeline.arrRef spec5 2) = xC2 m ρ c ∧ V11 m ρ c (Pipeline.arrRef spec5 3) = wtC m ρ c
      ∧ V11 m ρ c (Pipeline.arrRef spec5 4) = bC m ρ c ∧ V11 m ρ c (Pipeline.arrRef spec5 5) = gC m ρ c
      ∧ V11 m ρ c (Pipeline.arrRef spec5 6) = beC m ρ c ∧ V11 m ρ c (Pipeline.arrRef spec5 7) = wC m ρ c
      ∧ V11 m ρ c (Pipeline.arrRef spec5 10) = addC m ρ c :=
  ⟨keep_9_11 m ρ c main_v390 (by decide), keep_9_11 m ρ c main_v391 (by decide), keep_9_11 m ρ c main_v13 (by decide),
    keep_9_11 m ρ c main_v373 (by decide), keep_9_11 m ρ c main_v377 (by decide), keep_9_11 m ρ c main_v381 (by decide),
    keep_9_11 m ρ c main_v385 (by decide), keep_9_11 m ρ c main_v389 (by decide), keep_9_11 m ρ c main_v321 (by decide)⟩

/-- Call 5's combination at (n, j): the group's result over what the fifth stretch left. -/
theorem combC (n : Fin 50000) (j : Fin 128) :
    combAt (GW := 128) (xC0 m ρ c) (xC1 m ρ c) (xC2 m ρ c) (wtC m ρ c) (bC m ρ c) (gC m ρ c) (beC m ρ c) (wC m ρ c)
        (V11 m ρ c (Pipeline.arrRef spec5 8)) (V11 m ρ c (Pipeline.arrRef spec5 9)) n j
      = outG (arrsC m ρ c) (rowsC m ρ c) n j :=
  combAt_eq_outG (G := 1) _ _ _ _ _ _ _ _ _ _
    (W10 m ρ c (Proc.devRef .tc main_v392_0)) (W10 m ρ c (Proc.devRef .tc main_v392_1))
    (sumC m ρ c) (sqC m ρ c) (meanC m ρ c _ rfl) (varC m ρ c _ _ rfl rfl) n j

/-- Call 5's result: the group's result plus the addend. -/
theorem outC (n : Fin 50000) (d : Fin 128) :
    (W12 m ρ c (Proc.devRef .tc main_v403) : FVec Ideal S50000x128 .f32) (ix2 n d)
      = addE (outG (arrsC m ρ c) (rowsC m ρ c) n d) (addC m ρ c (ix2 n d)) := by
  have h := W12_arr m ρ c (11 : Fin cfg5.W)
  obtain ⟨e0, e1, e2, e3, e4, e5, e6, e7, e10⟩ := entryC m ρ c
  rw [show W12 m ρ c (Proc.devRef .tc main_v403) = _ from h]
  refine (arr5_apply (V11 m ρ) c n d).trans ?_
  exact congrArg₂ addE ((combAt_congr e0 e1 e2 e3 e4 e5 e6 e7 rfl rfl n d).trans (combC m ρ c n d))
    (congrFun e10 (ix2 n d))

end Cert.KernelIdeal.HandV

end
-- ==== Proof.KV.HostStats3.lean ====
import proofs.«414290_j6631429505478_3_alg».proof.Proof.Gen.KernelIdeal.Launch
import Idealize.ShloMosaic.Lib.StableHlo.Run
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.KernelIdeal.HandV

open Cert.KernelIdeal Cert.KernelIdeal.Gen
open Idealize.ShloMosaic Idealize.ShloMosaic.TcCoe
open Idealize.ShloMosaic.ValueIdx

/-! # The host stretch between a statistics call and its combine call, read at an index

The two partial sums over the two cores are added, the sum is divided by the number of rows, and the
variance is the mean of squares minus the squared mean, clamped below at zero. -/

/-- The sum over the leading axis (the two cores) of a [2, 3, G] array at (c, j). -/
private theorem reduce2_apply {G : Nat} (h' : (⟨3, ![2, 3, G]⟩ : Shape).ReducesTo [0] ⟨2, ![3, G]⟩)
    (h : (⟨3, ![2, 3, G]⟩ : Shape).Reduces [0] ⟨2, ![3, G]⟩)
    (x : (⟨3, ![2, 3, G]⟩ : Shape).Idx → EReal) (init : EReal) (i : (⟨2, ![3, G]⟩ : Shape).Idx) :
    Ideal.hostReduceAdd h' x init i = init + (x (ix3 0 (i 0) (i 1)) + x (ix3 1 (i 0) (i 1))) := by
  rw [Ideal.hostReduceAdd_single h' h]
  have e0 : h.lift i (0 : Fin 2) = ix3 0 (i 0) (i 1) := by
    funext a; match a with | ⟨0, _⟩ => rfl | ⟨1, _⟩ => rfl | ⟨2, _⟩ => rfl
  have e1 : h.lift i (1 : Fin 2) = ix3 1 (i 0) (i 1) := by
    funext a; match a with | ⟨0, _⟩ => rfl | ⟨1, _⟩ => rfl | ⟨2, _⟩ => rfl
  show init + ∑ k : Fin 2, x (h.lift i k) = _
  rw [Fin.sum_univ_two, e0, e1]
  rfl

/-- A [2, 3, G] array summed over the two cores from zero and divided by a broadcast scalar, at (c, j). -/
private theorem meanOf_apply {G : Nat} (h' : (⟨3, ![2, 3, G]⟩ : Shape).ReducesTo [0] ⟨2, ![3, G]⟩)
    (h : (⟨3, ![2, 3, G]⟩ : Shape).Reduces [0] ⟨2, ![3, G]⟩) (hb : S_.BroadcastsInDim ⟨2, ![3, G]⟩ ![])
    (x : FVec Ideal ⟨3, ![2, 3, G]⟩ .f32) (n : BitVec 32) (i : (⟨2, ![3, G]⟩ : Shape).Idx) :
    Host.divf (Host.reduceAdd x (constant (F := Ideal) S_ .f32 0x00000000#32) h' h_S_)
        (broadcastInDim ⟨2, ![3, G]⟩ ![] hb (constant (F := Ideal) S_ .f32 n)) i
      = Ideal.div (x (ix3 0 (i 0) (i 1)) + x (ix3 1 (i 0) (i 1))) (Ideal.ofBits .f32 n) := by
  rw [hostDivf_apply, hostReduceAdd_apply, broadcastInDim_scalar_apply, constant_apply, constant_apply,
    reduce2_apply h' h, Ideal.ofBits_zero_f32, zero_add]

/-- The mean at (c, j): the two cores' sums added, over the number of rows. -/
theorem host3_mean (X : Valuation τ sig (Elt Ideal)) (s : FVec Ideal S2x3x256 .f32)
    (hs : X (Proc.devRef .tc main_v306_0) = s) (i : S3x256.Idx) :
    (StableHlo.after (hostOps3 (F := Ideal)) X (Proc.devRef .tc main_v310) : FVec Ideal S3x256 .f32) i
      = Ideal.div (s (ix3 0 (i 0) (i 1)) + s (ix3 1 (i 0) (i 1))) (Ideal.ofBits .f32 0x47435000#32) := by
  subst hs
  have e : (StableHlo.after (hostOps3 (F := Ideal)) X (Proc.devRef .tc main_v310) : FVec Ideal S3x256 .f32)
      = Host.divf (Host.reduceAdd (X (Proc.devRef .tc main_v306_0)) (constant (F := Ideal) S_ .f32 0x00000000#32) reducesTo_S2x3x256_S3x256_d0 h_S_)
          (broadcastInDim S3x256 ![] bcast_S_S3x256 (constant (F := Ideal) S_ .f32 0x47435000#32)) := by
    after_results
  rw [e, meanOf_apply _ (by decide)]

/-- The variance at (c, j): the mean of squares minus the squared mean, clamped below at zero. -/
theorem host3_var (X : Valuation τ sig (Elt Ideal)) (s q : FVec Ideal S2x3x256 .f32)
    (hs : X (Proc.devRef .tc main_v306_0) = s) (hq : X (Proc.devRef .tc main_v306_1) = q) (i : S3x256.Idx) :
    (StableHlo.after (hostOps3 (F := Ideal)) X (Proc.devRef .tc main_v316) : FVec Ideal S3x256 .f32) i
      = max (Ideal.div (q (ix3 0 (i 0) (i 1)) + q (ix3 1 (i 0) (i 1))) (Ideal.ofBits .f32 0x47435000#32)
              - Ideal.div (s (ix3 0 (i 0) (i 1)) + s (ix3 1 (i 0) (i 1))) (Ideal.ofBits .f32 0x47435000#32)
                * Ideal.div (s (ix3 0 (i 0) (i 1)) + s (ix3 1 (i 0) (i 1))) (Ideal.ofBits .f32 0x47435000#32)) 0 := by
  subst hs; subst hq
  have e : (StableHlo.after (hostOps3 (F := Ideal)) X (Proc.devRef .tc main_v316) : FVec Ideal S3x256 .f32)
      = maximumf
          (subf
            (Host.divf (Host.reduceAdd (X (Proc.devRef .tc main_v306_1)) (constant (F := Ideal) S_ .f32 0x00000000#32) reducesTo_S2x3x256_S3x256_d0 h_S_)
              (broadcastInDim S3x256 ![] bcast_S_S3x256 (constant (F := Ideal) S_ .f32 0x47435000#32)))
            (mulf
              (Host.divf (Host.reduceAdd (X (Proc.devRef .tc main_v306_0)) (constant (F := Ideal) S_ .f32 0x00000000#32) reducesTo_S2x3x256_S3x256_d0 h_S_)
                (broadcastInDim S3x256 ![] bcast_S_S3x256 (constant (F := Ideal) S_ .f32 0x47435000#32)))
              (Host.divf (Host.reduceAdd (X (Proc.devRef .tc main_v306_0)) (constant (F := Ideal) S_ .f32 0x00000000#32) reducesTo_S2x3x256_S3x256_d0 h_S_)
                (broadcastInDim S3x256 ![] bcast_S_S3x256 (constant (F := Ideal) S_ .f32 0x47435000#32)))))
          (broadcastInDim S3x256 ![] bcast_S_S3x256 (constant (F := Ideal) S_ .f32 0x00000000#32)) := by
    after_results
  rw [e, maximumf_apply, subf_apply, mulf_apply, meanOf_apply _ (by decide), meanOf_apply _ (by decide),
    broadcastInDim_scalar_apply, constant_apply, Ideal.ofBits_zero_f32]

end Cert.KernelIdeal.HandV
end
-- ==== Proof.KV.StatsPay2.lean ====
import proofs.«414290_j6631429505478_3_alg».proof.Proof.Gen.KernelIdeal.Skeleton
import Idealize.ShloMosaic.Lib.ValueLayout
import Idealize.ShloMosaic.PureOps.Ideal.Laws

noncomputable section

namespace Cert.KernelIdeal.HandV.Stats2

open Idealize.ShloMosaic Idealize.ShloMosaic.ValueIdx Idealize.SL.Sem
open Cert.KernelIdeal Cert.KernelIdeal.Gen

/-! ## The statistics kernel (256 columns) read at an index, at the ideal values

A tile is 1000 rows of a branch's activations `x` (1000 × 128). With the branch's weight matrix `w` (128 × 256, held with
a leading unit axis) and bias row `b` (1 × 256), the pre-normalisation value at row `r`, column `j` is
`z r j = (∑ k, x (r, k) * w (0, k, j)) + b (0, j)`. The kernel adds to its two output buffers, at `(0, cc, j)`, the column
sums `∑ r, z r j` and `∑ r, z r j * z r j` of branch `cc`. -/

/-- The value `z` of one branch at row `r` and column `j` of a tile. -/
def zT (x : FVec Ideal S1000x128 .bf16) (w : FVec Ideal S1x128x256 .f32) (b : FVec Ideal S1x256 .f32)
    (r : Fin 1000) (j : Fin 256) : EReal :=
  (∑ k : Fin 128, x (ix2 r k) * w (ix3 (0 : Fin 1) k j)) + b (ix2 (0 : Fin 1) j)

/-- One of three, by the branch's number. -/
def pick3 {α : Type} (cc : Fin 3) (a0 a1 a2 : α) : α :=
  match cc with | ⟨0, _⟩ => a0 | ⟨1, _⟩ => a1 | ⟨2, _⟩ => a2

/-- The 1000 × 128 by 128 × 256 product into a zero accumulator, at `(r, j)`: the sum over the contracted coordinate. -/
theorem matmul0_apply (x : FVec Ideal S1000x128 .bf16) (w : FVec Ideal S128x256 .bf16) (r : Fin 1000) (j : Fin 256) :
    matmul dot_S1000x128_S128x256_S1000x256_1_0_0_1_n_n none x w (constant (F := Ideal) S1000x256 .f32 0x00000000#32) (ix2 r j)
      = ∑ k : Fin 128, x (ix2 r k) * w (ix2 k j) := by
  show FloatOps.matmul _ none x w _ (ix2 r j) = _
  rw [Ideal.matmul_constant_zero_apply,
    ← Equiv.sum_comp (contrEquiv1 dot_S1000x128_S128x256_S1000x256_1_0_0_1_n_n 128 rfl rfl).symm]
  refine Finset.sum_congr rfl fun c _ => ?_
  have c2 := contrEquiv1_symm_val dot_S1000x128_S128x256_S1000x256_1_0_0_1_n_n 128 rfl rfl c
  have l2 : dot_S1000x128_S128x256_S1000x256_1_0_0_1_n_n.lhsIdx (ix2 r j) ((contrEquiv1 _ 128 rfl rfl).symm c) = ix2 r c := by
    funext ax; apply Fin.ext
    match ax with
    | ⟨0, _⟩ => simp [DotDims.lhsIdx, dot_S1000x128_S128x256_S1000x256_1_0_0_1_n_n]; rfl
    | ⟨1, _⟩ => simp [DotDims.lhsIdx, dot_S1000x128_S128x256_S1000x256_1_0_0_1_n_n]; exact c2
  have r2 : dot_S1000x128_S128x256_S1000x256_1_0_0_1_n_n.rhsIdx (ix2 r j) ((contrEquiv1 _ 128 rfl rfl).symm c) = ix2 c j := by
    funext ax; apply Fin.ext
    match ax with
    | ⟨0, _⟩ => simp [DotDims.rhsIdx, dot_S1000x128_S128x256_S1000x256_1_0_0_1_n_n]; exact c2
    | ⟨1, _⟩ => simp [DotDims.rhsIdx, dot_S1000x128_S128x256_S1000x256_1_0_0_1_n_n]; rfl
  rw [l2, r2]

/-- The weight matrix as the product reads it (leading unit axis dropped, format changed): the matrix itself. -/
theorem wcast_apply (w : FVec Ideal S1x128x256 .f32) (k : Fin 128) (j : Fin 256) :
    (truncf .bf16 (shapeCast S128x256 w shapeCasts_S1x128x256_S128x256) bitsLt_bf16_f32 : FVec Ideal S128x256 .bf16) (ix2 k j)
      = w (ix3 (0 : Fin 1) k j) :=
  shapeCast_1ab_ab_apply w shapeCasts_S1x128x256_S128x256 k j

/-- The bias row broadcast down the 1000 rows, at `(r, j)`: the bias at `j`. -/
theorem bcast_apply (b : FVec Ideal S1x256 .f32) (r : Fin 1000) (j : Fin 256) :
    broadcastTo S1000x256 (shapeCast S1x256 (shapeCast S256 b shapeCasts_S1x256_S256) shapeCasts_S256_S1x256)
        broadcasts_S1x256_S1000x256 (ix2 r j) = b (ix2 (0 : Fin 1) j) :=
  (broadcastTo_1b_ab_apply _ broadcasts_S1x256_S1000x256 r j).trans
    ((shapeCast_a_1a_apply _ shapeCasts_S256_S1x256 (0 : Fin 1) j).trans
      (shapeCast_1a_a_apply b shapeCasts_S1x256_S256 j))

/-- Branch 2's `z` (the tile already cast). -/
theorem pay1_apply (x : FVec Ideal S1000x128 .bf16) (w : FVec Ideal S1x128x256 .f32) (b : FVec Ideal S1x256 .f32)
    (r : Fin 1000) (j : Fin 256) : k2_pay1 x w b (ix2 r j) = zT x w b r j := by
  unfold k2_pay1 zT
  refine congrArg₂ (· + ·) ?_ (bcast_apply b r j)
  refine (matmul0_apply x _ r j).trans ?_
  exact Finset.sum_congr rfl fun k _ => congrArg (x (ix2 r k) * ·) (wcast_apply w k j)

/-- Branch 0's `z`. -/
theorem pay7_apply (x : FVec Ideal S1000x128 .bf16) (w : FVec Ideal S1x128x256 .f32) (b : FVec Ideal S1x256 .f32)
    (r : Fin 1000) (j : Fin 256) : k2_pay7 (F := Ideal) x w b (ix2 r j) = zT x w b r j := by
  unfold k2_pay7 zT
  refine congrArg₂ (· + ·) ?_ (bcast_apply b r j)
  refine (matmul0_apply _ _ r j).trans ?_
  refine Finset.sum_congr rfl fun k _ => ?_
  refine congrArg₂ (· * ·) ?_ (wcast_apply w k j)
  exact congrFun (shapeCast_self x shapeCasts_S1000x128_S1000x128) (ix2 r k)

/-- Branch 1's `z`. -/
theorem pay10_apply (x : FVec Ideal S1000x128 .bf16) (w : FVec Ideal S1x128x256 .f32) (b : FVec Ideal S1x256 .f32)
    (r : Fin 1000) (j : Fin 256) : k2_pay10 (F := Ideal) x w b (ix2 r j) = zT x w b r j := by
  unfold k2_pay10 zT
  refine congrArg₂ (· + ·) ?_ (bcast_apply b r j)
  refine (matmul0_apply _ _ r j).trans ?_
  refine Finset.sum_congr rfl fun k _ => ?_
  refine congrArg₂ (· * ·) ?_ (wcast_apply w k j)
  exact congrFun (shapeCast_self x shapeCasts_S1000x128_S1000x128) (ix2 r k)

/-- A sum down the 1000 rows of a 1000 × 256 vector, at column `j`. -/
theorem colsum_apply (v : FVec Ideal S1000x256 .f32) (j : Fin 256) :
    multiReduction (F := Ideal) .add [0] S256 v 0x00000000#32 reduces_S1000x256_S256 (.inl rfl) rfl (ix1 j)
      = ∑ r : Fin 1000, v (ix2 r j) := by
  refine (Ideal.multiReduction_add_single v 0x00000000#32 reduces_S1000x256_S256 (.inl rfl) rfl (ix1 j)).trans ?_
  refine Finset.sum_congr rfl fun r _ => congrArg v ?_
  funext a
  match a with
  | ⟨0, _⟩ => rfl
  | ⟨1, _⟩ => rfl

/-- Branch 0's column sums of `z` … -/
theorem pay8_apply (x : FVec Ideal S1000x128 .bf16) (w : FVec Ideal S1x128x256 .f32) (b : FVec Ideal S1x256 .f32) (j : Fin 256) :
    k2_pay8 (F := Ideal) x w b (ix1 j) = ∑ r : Fin 1000, zT x w b r j := by
  unfold k2_pay8
  refine (colsum_apply _ j).trans ?_
  exact Finset.sum_congr rfl fun r _ => pay7_apply x w b r j

/-- … and of `z * z`. -/
theorem pay9_apply (x : FVec Ideal S1000x128 .bf16) (w : FVec Ideal S1x128x256 .f32) (b : FVec Ideal S1x256 .f32) (j : Fin 256) :
    k2_pay9 (F := Ideal) x w b (ix1 j) = ∑ r : Fin 1000, zT x w b r j * zT x w b r j := by
  unfold k2_pay9
  refine (colsum_apply _ j).trans ?_
  exact Finset.sum_congr rfl fun r _ => congrArg₂ (· * ·) (pay7_apply x w b r j) (pay7_apply x w b r j)

/-- Branch 1's column sums of `z` … -/
theorem pay11_apply (x : FVec Ideal S1000x128 .bf16) (w : FVec Ideal S1x128x256 .f32) (b : FVec Ideal S1x256 .f32) (j : Fin 256) :
    k2_pay11 (F := Ideal) x w b (ix1 j) = ∑ r : Fin 1000, zT x w b r j := by
  unfold k2_pay11
  refine (colsum_apply _ j).trans ?_
  exact Finset.sum_congr rfl fun r _ => pay10_apply x w b r j

/-- … and of `z * z`. -/
theorem pay12_apply (x : FVec Ideal S1000x128 .bf16) (w : FVec Ideal S1x128x256 .f32) (b : FVec Ideal S1x256 .f32) (j : Fin 256) :
    k2_pay12 (F := Ideal) x w b (ix1 j) = ∑ r : Fin 1000, zT x w b r j * zT x w b r j := by
  unfold k2_pay12
  refine (colsum_apply _ j).trans ?_
  exact Finset.sum_congr rfl fun r _ => congrArg₂ (· * ·) (pay10_apply x w b r j) (pay10_apply x w b r j)

/-- The cast in front of branch 2's tile changes nothing. -/
theorem pay6_eq (x : FVec Ideal S1000x128 .bf16) : k2_pay6 (F := Ideal) x = x := by
  unfold k2_pay6
  exact shapeCast_self x shapeCasts_S1000x128_S1000x128

/-- Three rows stacked: row `cc` of the stack is the `cc`-th row. -/
theorem concat3_apply (v0 v1 v2 : FVec Ideal S1x256 .f32) (cc : Fin 3) (j : Fin 256) :
    concatenate S3x256 0 [⟨S1x256, v0⟩, ⟨S1x256, v1⟩, ⟨S1x256, v2⟩] concatenates_S1x256_S1x256_S1x256_S3x256_d0 (ix2 cc j)
      = pick3 cc v0 v1 v2 (ix2 (0 : Fin 1) j) := by
  have hi : ∀ (c : Fin 3) (b : Fin S1x256.rank), b.cast (rfl : S1x256.rank = S3x256.rank) ≠ (0 : Fin S3x256.rank) →
      ((ix2 (0 : Fin 1) j : S1x256.Idx) b).val = ((ix2 c j : S3x256.Idx) (b.cast rfl)).val := fun c b hb => by
    match b with
    | ⟨0, _⟩ => exact absurd rfl hb
    | ⟨1, _⟩ => rfl
  match cc with
  | ⟨0, _⟩ =>
    exact concatenate_apply_piece (0 : Fin S3x256.rank) [⟨S1x256, v0⟩, ⟨S1x256, v1⟩, ⟨S1x256, v2⟩]
      concatenates_S1x256_S1x256_S1x256_S3x256_d0 (ix2 _ j) 0 (by show (0 : Nat) < 3; decide)
      S1x256 v0 rfl rfl 0 rfl (ix2 (0 : Fin 1) j) (hi _) rfl
  | ⟨1, _⟩ =>
    exact concatenate_apply_piece (0 : Fin S3x256.rank) [⟨S1x256, v0⟩, ⟨S1x256, v1⟩, ⟨S1x256, v2⟩]
      concatenates_S1x256_S1x256_S1x256_S3x256_d0 (ix2 _ j) 1 (by show (1 : Nat) < 3; decide)
      S1x256 v1 rfl rfl 1 rfl (ix2 (0 : Fin 1) j) (hi _) rfl
  | ⟨2, _⟩ =>
    exact concatenate_apply_piece (0 : Fin S3x256.rank) [⟨S1x256, v0⟩, ⟨S1x256, v1⟩, ⟨S1x256, v2⟩]
      concatenates_S1x256_S1x256_S1x256_S3x256_d0 (ix2 _ j) 2 (by show (2 : Nat) < 3; decide)
      S1x256 v2 rfl rfl 2 rfl (ix2 (0 : Fin 1) j) (hi _) rfl

/-- What is stored into the buffer of sums, at `(0, cc, j)`: the old entry plus the `cc`-th of the three column sums
    (the first two handed in, the third taken here from branch 2's `z`). -/
theorem pay2_apply (x : FVec Ideal S1000x128 .bf16) (s0 s1 : FVec Ideal S256 .f32) (w : FVec Ideal S1x128x256 .f32)
    (b : FVec Ideal S1x256 .f32) (old : FVec Ideal S1x3x256 .f32) (cc : Fin 3) (j : Fin 256) :
    k2_pay2 x s0 s1 w b old (ix3 (0 : Fin 1) cc j)
      = old (ix3 (0 : Fin 1) cc j) + pick3 cc (s0 (ix1 j)) (s1 (ix1 j)) (∑ r : Fin 1000, zT x w b r j) := by
  unfold k2_pay2
  refine (shapeCast_ab_1ab_apply _ shapeCasts_S3x256_S1x3x256 (0 : Fin 1) cc j).trans ?_
  refine congrArg₂ (· + ·) (shapeCast_1ab_ab_apply old shapeCasts_S1x3x256_S3x256 cc j) ?_
  refine (concat3_apply _ _ _ cc j).trans ?_
  match cc with
  | ⟨0, _⟩ => exact shapeCast_a_1a_apply s0 shapeCasts_S256_S1x256 (0 : Fin 1) j
  | ⟨1, _⟩ => exact shapeCast_a_1a_apply s1 shapeCasts_S256_S1x256 (0 : Fin 1) j
  | ⟨2, _⟩ =>
    exact (shapeCast_a_1a_apply _ shapeCasts_S256_S1x256 (0 : Fin 1) j).trans
      ((colsum_apply _ j).trans (Finset.sum_congr rfl fun r _ => pay1_apply x w b r j))

/-- What is stored into the buffer of sums of squares, likewise. -/
theorem pay3_apply (x : FVec Ideal S1000x128 .bf16) (q0 q1 : FVec Ideal S256 .f32) (w : FVec Ideal S1x128x256 .f32)
    (b : FVec Ideal S1x256 .f32) (old : FVec Ideal S1x3x256 .f32) (cc : Fin 3) (j : Fin 256) :
    k2_pay3 x q0 q1 w b old (ix3 (0 : Fin 1) cc j)
      = old (ix3 (0 : Fin 1) cc j) + pick3 cc (q0 (ix1 j)) (q1 (ix1 j)) (∑ r : Fin 1000, zT x w b r j * zT x w b r j) := by
  unfold k2_pay3
  refine (shapeCast_ab_1ab_apply _ shapeCasts_S3x256_S1x3x256 (0 : Fin 1) cc j).trans ?_
  refine congrArg₂ (· + ·) (shapeCast_1ab_ab_apply old shapeCasts_S1x3x256_S3x256 cc j) ?_
  refine (concat3_apply _ _ _ cc j).trans ?_
  match cc with
  | ⟨0, _⟩ => exact shapeCast_a_1a_apply q0 shapeCasts_S256_S1x256 (0 : Fin 1) j
  | ⟨1, _⟩ => exact shapeCast_a_1a_apply q1 shapeCasts_S256_S1x256 (0 : Fin 1) j
  | ⟨2, _⟩ =>
    exact (shapeCast_a_1a_apply _ shapeCasts_S256_S1x256 (0 : Fin 1) j).trans
      ((colsum_apply _ j).trans (Finset.sum_congr rfl fun r _ =>
        congrArg₂ (· * ·) (pay1_apply x w b r j) (pay1_apply x w b r j)))

/-- ONE POINT'S STEP, sums: with the three tiles `x0 x1 x2`, the three weight matrices and bias rows as loaded, the
    body stores `old + ∑ r, z_cc r j` at `(0, cc, j)`. -/
theorem step_sum_apply (x0 x1 x2 : FVec Ideal S1000x128 .bf16) (w0 w1 w2 : FVec Ideal S1x128x256 .f32)
    (b0 b1 b2 : FVec Ideal S1x256 .f32) (old : FVec Ideal S1x3x256 .f32) (cc : Fin 3) (j : Fin 256) :
    k2_pay2 (k2_pay6 (F := Ideal) x2) (k2_pay8 (F := Ideal) x0 w0 b0) (k2_pay11 (F := Ideal) x1 w1 b1) w2 b2 old
        (ix3 (0 : Fin 1) cc j)
      = old (ix3 (0 : Fin 1) cc j)
        + ∑ r : Fin 1000, zT (pick3 cc x0 x1 x2) (pick3 cc w0 w1 w2) (pick3 cc b0 b1 b2) r j := by
  refine (pay2_apply _ _ _ w2 b2 old cc j).trans (congrArg (old (ix3 (0 : Fin 1) cc j) + ·) ?_)
  match cc with
  | ⟨0, _⟩ => exact pay8_apply x0 w0 b0 j
  | ⟨1, _⟩ => exact pay11_apply x1 w1 b1 j
  | ⟨2, _⟩ => exact congrArg (fun x => ∑ r : Fin 1000, zT x w2 b2 r j) (pay6_eq x2)

/-- ONE POINT'S STEP, sums of squares. -/
theorem step_sq_apply (x0 x1 x2 : FVec Ideal S1000x128 .bf16) (w0 w1 w2 : FVec Ideal S1x128x256 .f32)
    (b0 b1 b2 : FVec Ideal S1x256 .f32) (old : FVec Ideal S1x3x256 .f32) (cc : Fin 3) (j : Fin 256) :
    k2_pay3 (k2_pay6 (F := Ideal) x2) (k2_pay9 (F := Ideal) x0 w0 b0) (k2_pay12 (F := Ideal) x1 w1 b1) w2 b2 old
        (ix3 (0 : Fin 1) cc j)
      = old (ix3 (0 : Fin 1) cc j)
        + ∑ r : Fin 1000, zT (pick3 cc x0 x1 x2) (pick3 cc w0 w1 w2) (pick3 cc b0 b1 b2) r j
            * zT (pick3 cc x0 x1 x2) (pick3 cc w0 w1 w2) (pick3 cc b0 b1 b2) r j := by
  refine (pay3_apply _ _ _ w2 b2 old cc j).trans (congrArg (old (ix3 (0 : Fin 1) cc j) + ·) ?_)
  match cc with
  | ⟨0, _⟩ => exact pay9_apply x0 w0 b0 j
  | ⟨1, _⟩ => exact pay12_apply x1 w1 b1 j
  | ⟨2, _⟩ => exact congrArg (fun x => ∑ r : Fin 1000, zT x w2 b2 r j * zT x w2 b2 r j) (pay6_eq x2)

/-- The reset's payloads: zero everywhere. -/
theorem pay4_apply (u : Fin 1) (cc : Fin 3) (j : Fin 256) : k2_pay4 (F := Ideal) (ix3 u cc j) = 0 := by
  unfold k2_pay4
  exact (shapeCast_ab_1ab_apply _ shapeCasts_S3x256_S1x3x256 u cc j).trans Ideal.ofBits_zero_f32

theorem pay5_apply (u : Fin 1) (cc : Fin 3) (j : Fin 256) : k2_pay5 (F := Ideal) (ix3 u cc j) = 0 := by
  unfold k2_pay5
  exact (shapeCast_ab_1ab_apply _ shapeCasts_S3x256_S1x3x256 u cc j).trans Ideal.ofBits_zero_f32

end Cert.KernelIdeal.HandV.Stats2

end
-- ==== Proof.KV.StatsAcc2.lean ====
import proofs.«414290_j6631429505478_3_alg».proof.Proof.KI.Stats2
import proofs.«414290_j6631429505478_3_alg».proof.Proof.KV.StatsPay2
import Idealize.ShloMosaic.Lib.Pipeline.Value
import Idealize.ShloMosaic.Lib.ValueLayout
import Idealize.ShloMosaic.PureOps.Ideal.Laws

set_option maxRecDepth 16256

noncomputable section

namespace Cert.KernelIdeal.HandV.Stats2

open Idealize.ShloMosaic Idealize.ShloMosaic.TcCoe Idealize.ShloMosaic.ValueIdx Idealize.ShloMosaic.Tactic Idealize.SL.Sem
open Cert.KernelIdeal Cert.KernelIdeal.Gen Cert.KernelIdeal.Hand
open Idealize.ShloMosaic.Pipeline (Dat)

variable {F : FTy → Type} [FloatOps F]

theorem hz3 : (![0, 0, 0] : Fin 3 → Nat) = fun _ => 0 := funext fun a => by fin_cases a <;> rfl

/-! # The statistics kernel (256 columns): what its two output arrays end holding, at the ideal values

The grid is 2 cores × 25 points; point `t` reads rows `1000 t … 1000 t + 999` of the three branches' activations and the
whole weight and bias arrays. Both output buffers are zeroed at a core's first point, receive at every point the tile's
column sums of `z` (of `z * z`), and are written back at the core's last point into row `core` of the output arrays.
So entry `(core, cc, j)` of the array of sums is the sum of branch `cc`'s `z` at column `j` over the core's 25000 rows. -/

theorem hz2 : (![0, 0] : Fin 2 → Nat) = fun _ => 0 := funext fun a => by fin_cases a <;> rfl

/-- Case A (a row's first point) leaves in the buffer of sums the step over the zero block; -/
theorem out_A_5 (c : Dev nD) (i : grid2.Coords) (arg2 : Memref sig .tc .vmem S1000x128 .bf16) (harg2 : arg2.IsWhole) (arg3 : Memref sig .tc .vmem S1000x128 .bf16) (harg3 : arg3.IsWhole) (arg4 : Memref sig .tc .vmem S1000x128 .bf16) (harg4 : arg4.IsWhole) (arg5 : Memref sig .tc .vmem S3x128x256 .f32) (harg5 : arg5.IsWhole) (arg6 : Memref sig .tc .vmem S3x256 .f32) (harg6 : arg6.IsWhole) (arg7 : Memref sig .tc .vmem S1x3x256 .f32) (harg7 : arg7.IsWhole) (arg8 : Memref sig .tc .vmem S1x3x256 .f32) (harg8 : arg8.IsWhole) (hc0 : cond2_0 i) (x0 x1 x2 : Vec F S1000x128 .bf16) (x3 : Vec F S3x128x256 .f32) (x4 : Vec F S3x256 .f32) :
    out2_A_5 c i arg2 harg2 arg3 harg3 arg4 harg4 arg5 harg5 arg6 harg6 arg7 harg7 arg8 harg8 hc0 x0 x1 x2 x3 x4
      = k2_pay2 (k2_pay6 x2) (k2_pay8 x0 (View.ld x3 (Rect.unit (s := S3x128x256) ![0, 0, 0] S1x128x256.size inb_S3x128x256_S1x128x256_0_0_0)) (View.ld x4 (Rect.unit (s := S3x256) ![0, 0] S1x256.size inb_S3x256_S1x256_0_0)))
        (k2_pay11 x1 (View.ld x3 (Rect.unit (s := S3x128x256) ![1, 0, 0] S1x128x256.size inb_S3x128x256_S1x128x256_1_0_0)) (View.ld x4 (Rect.unit (s := S3x256) ![1, 0] S1x256.size inb_S3x256_S1x256_1_0)))
        (View.ld x3 (Rect.unit (s := S3x128x256) ![2, 0, 0] S1x128x256.size inb_S3x128x256_S1x128x256_2_0_0)) (View.ld x4 (Rect.unit (s := S3x256) ![2, 0] S1x256.size inb_S3x256_S1x256_2_0)) (k2_pay4 (F := F)) := by
  unfold out2_A_5
  rw [View.read_writes_eq_canon _ _ _ (cover2_A_5 c i arg2 harg2 arg3 harg3 arg4 harg4 arg5 harg5 arg6 harg6 arg7 harg7 arg8 harg8 hc0 x0 x1 x2 x3 x4)]
  unfold kernelRun2_A
  dsimp only
  sl_unfold_words
  rw [View.canon_cons_unit_zero (S := S1x3x256) hz3, View.readCov_unit_zero (S := S1x3x256) _ hz3]
  simp only [View.readAt_eq_ld, harg2.read_unread, harg3.read_unread, harg4.read_unread, harg5.read_unread,
    harg6.read_unread, View.ld_unit_zero (S := S1000x128) hz2]

/-- and in the buffer of sums of squares likewise. -/
theorem out_A_6 (c : Dev nD) (i : grid2.Coords) (arg2 : Memref sig .tc .vmem S1000x128 .bf16) (harg2 : arg2.IsWhole) (arg3 : Memref sig .tc .vmem S1000x128 .bf16) (harg3 : arg3.IsWhole) (arg4 : Memref sig .tc .vmem S1000x128 .bf16) (harg4 : arg4.IsWhole) (arg5 : Memref sig .tc .vmem S3x128x256 .f32) (harg5 : arg5.IsWhole) (arg6 : Memref sig .tc .vmem S3x256 .f32) (harg6 : arg6.IsWhole) (arg7 : Memref sig .tc .vmem S1x3x256 .f32) (harg7 : arg7.IsWhole) (arg8 : Memref sig .tc .vmem S1x3x256 .f32) (harg8 : arg8.IsWhole) (hc0 : cond2_0 i) (x0 x1 x2 : Vec F S1000x128 .bf16) (x3 : Vec F S3x128x256 .f32) (x4 : Vec F S3x256 .f32) :
    out2_A_6 c i arg2 harg2 arg3 harg3 arg4 harg4 arg5 harg5 arg6 harg6 arg7 harg7 arg8 harg8 hc0 x0 x1 x2 x3 x4
      = k2_pay3 (k2_pay6 x2) (k2_pay9 x0 (View.ld x3 (Rect.unit (s := S3x128x256) ![0, 0, 0] S1x128x256.size inb_S3x128x256_S1x128x256_0_0_0)) (View.ld x4 (Rect.unit (s := S3x256) ![0, 0] S1x256.size inb_S3x256_S1x256_0_0)))
        (k2_pay12 x1 (View.ld x3 (Rect.unit (s := S3x128x256) ![1, 0, 0] S1x128x256.size inb_S3x128x256_S1x128x256_1_0_0)) (View.ld x4 (Rect.unit (s := S3x256) ![1, 0] S1x256.size inb_S3x256_S1x256_1_0)))
        (View.ld x3 (Rect.unit (s := S3x128x256) ![2, 0, 0] S1x128x256.size inb_S3x128x256_S1x128x256_2_0_0)) (View.ld x4 (Rect.unit (s := S3x256) ![2, 0] S1x256.size inb_S3x256_S1x256_2_0)) (k2_pay5 (F := F)) := by
  unfold out2_A_6
  rw [View.read_writes_eq_canon _ _ _ (cover2_A_6 c i arg2 harg2 arg3 harg3 arg4 harg4 arg5 harg5 arg6 harg6 arg7 harg7 arg8 harg8 hc0 x0 x1 x2 x3 x4)]
  unfold kernelRun2_A
  dsimp only
  sl_unfold_words
  rw [View.canon_cons_unit_zero (S := S1x3x256) hz3, View.readCov_unit_zero (S := S1x3x256) _ hz3]
  simp only [View.readAt_eq_ld, harg2.read_unread, harg3.read_unread, harg4.read_unread, harg5.read_unread,
    harg6.read_unread, View.ld_unit_zero (S := S1000x128) hz2]

/-- Case B (any other point) leaves the step over what the buffer held; -/
theorem out_B_5 (c : Dev nD) (i : grid2.Coords) (arg2 : Memref sig .tc .vmem S1000x128 .bf16) (harg2 : arg2.IsWhole) (arg3 : Memref sig .tc .vmem S1000x128 .bf16) (harg3 : arg3.IsWhole) (arg4 : Memref sig .tc .vmem S1000x128 .bf16) (harg4 : arg4.IsWhole) (arg5 : Memref sig .tc .vmem S3x128x256 .f32) (harg5 : arg5.IsWhole) (arg6 : Memref sig .tc .vmem S3x256 .f32) (harg6 : arg6.IsWhole) (arg7 : Memref sig .tc .vmem S1x3x256 .f32) (harg7 : arg7.IsWhole) (arg8 : Memref sig .tc .vmem S1x3x256 .f32) (harg8 : arg8.IsWhole) (hc0 : ¬cond2_0 i) (x0 x1 x2 : Vec F S1000x128 .bf16) (x3 : Vec F S3x128x256 .f32) (x4 : Vec F S3x256 .f32) (xo5 xo6 : Vec F S1x3x256 .f32) :
    out2_B_5 c i arg2 harg2 arg3 harg3 arg4 harg4 arg5 harg5 arg6 harg6 arg7 harg7 arg8 harg8 hc0 x0 x1 x2 x3 x4 xo5 xo6
      = k2_pay2 (k2_pay6 x2) (k2_pay8 x0 (View.ld x3 (Rect.unit (s := S3x128x256) ![0, 0, 0] S1x128x256.size inb_S3x128x256_S1x128x256_0_0_0)) (View.ld x4 (Rect.unit (s := S3x256) ![0, 0] S1x256.size inb_S3x256_S1x256_0_0)))
        (k2_pay11 x1 (View.ld x3 (Rect.unit (s := S3x128x256) ![1, 0, 0] S1x128x256.size inb_S3x128x256_S1x128x256_1_0_0)) (View.ld x4 (Rect.unit (s := S3x256) ![1, 0] S1x256.size inb_S3x256_S1x256_1_0)))
        (View.ld x3 (Rect.unit (s := S3x128x256) ![2, 0, 0] S1x128x256.size inb_S3x128x256_S1x128x256_2_0_0)) (View.ld x4 (Rect.unit (s := S3x256) ![2, 0] S1x256.size inb_S3x256_S1x256_2_0)) xo5 := by
  unfold out2_B_5
  rw [View.read_writes_eq_canon _ _ _ (cover2_B_5 c i arg2 harg2 arg3 harg3 arg4 harg4 arg5 harg5 arg6 harg6 arg7 harg7 arg8 harg8 hc0 x0 x1 x2 x3 x4 xo5 xo6)]
  unfold kernelRun2_B
  dsimp only
  sl_unfold_words
  rw [View.canon_unit_zero (S := S1x3x256) hz3]
  simp only [View.readAt_eq_ld, harg2.read_unread, harg3.read_unread, harg4.read_unread, harg5.read_unread,
    harg6.read_unread, harg7.read_unread, harg8.read_unread, View.ld_unit_zero (S := S1000x128) hz2,
    View.ld_unit_zero (S := S1x3x256) hz3]

theorem out_B_6 (c : Dev nD) (i : grid2.Coords) (arg2 : Memref sig .tc .vmem S1000x128 .bf16) (harg2 : arg2.IsWhole) (arg3 : Memref sig .tc .vmem S1000x128 .bf16) (harg3 : arg3.IsWhole) (arg4 : Memref sig .tc .vmem S1000x128 .bf16) (harg4 : arg4.IsWhole) (arg5 : Memref sig .tc .vmem S3x128x256 .f32) (harg5 : arg5.IsWhole) (arg6 : Memref sig .tc .vmem S3x256 .f32) (harg6 : arg6.IsWhole) (arg7 : Memref sig .tc .vmem S1x3x256 .f32) (harg7 : arg7.IsWhole) (arg8 : Memref sig .tc .vmem S1x3x256 .f32) (harg8 : arg8.IsWhole) (hc0 : ¬cond2_0 i) (x0 x1 x2 : Vec F S1000x128 .bf16) (x3 : Vec F S3x128x256 .f32) (x4 : Vec F S3x256 .f32) (xo5 xo6 : Vec F S1x3x256 .f32) :
    out2_B_6 c i arg2 harg2 arg3 harg3 arg4 harg4 arg5 harg5 arg6 harg6 arg7 harg7 arg8 harg8 hc0 x0 x1 x2 x3 x4 xo5 xo6
      = k2_pay3 (k2_pay6 x2) (k2_pay9 x0 (View.ld x3 (Rect.unit (s := S3x128x256) ![0, 0, 0] S1x128x256.size inb_S3x128x256_S1x128x256_0_0_0)) (View.ld x4 (Rect.unit (s := S3x256) ![0, 0] S1x256.size inb_S3x256_S1x256_0_0)))
        (k2_pay12 x1 (View.ld x3 (Rect.unit (s := S3x128x256) ![1, 0, 0] S1x128x256.size inb_S3x128x256_S1x128x256_1_0_0)) (View.ld x4 (Rect.unit (s := S3x256) ![1, 0] S1x256.size inb_S3x256_S1x256_1_0)))
        (View.ld x3 (Rect.unit (s := S3x128x256) ![2, 0, 0] S1x128x256.size inb_S3x128x256_S1x128x256_2_0_0)) (View.ld x4 (Rect.unit (s := S3x256) ![2, 0] S1x256.size inb_S3x256_S1x256_2_0)) xo6 := by
  unfold out2_B_6
  rw [View.read_writes_eq_canon _ _ _ (cover2_B_6 c i arg2 harg2 arg3 harg3 arg4 harg4 arg5 harg5 arg6 harg6 arg7 harg7 arg8 harg8 hc0 x0 x1 x2 x3 x4 xo5 xo6)]
  unfold kernelRun2_B
  dsimp only
  sl_unfold_words
  rw [View.canon_unit_zero (S := S1x3x256) hz3]
  simp only [View.readAt_eq_ld, harg2.read_unread, harg3.read_unread, harg4.read_unread, harg5.read_unread,
    harg6.read_unread, harg7.read_unread, harg8.read_unread, View.ld_unit_zero (S := S1000x128) hz2,
    View.ld_unit_zero (S := S1x3x256) hz3]

/-! ## The accumulation over the points, at the ideal values -/

section Acc

variable (V : (c : Dev nD) → (b : Ref sig .tc) → Buf (Elt Ideal) ((c : Thread nD τ).loc b))

/-- The value `z` of branch `cc` at row `R` of the whole arrays: activations `X` (50000 × 128), the three weight
    matrices `Wt` (3 × 128 × 256) and bias rows `B` (3 × 256). -/
def zArr (X : FVec Ideal S50000x128 .bf16) (Wt : FVec Ideal S3x128x256 .f32) (B : FVec Ideal S3x256 .f32)
    (cc : Fin 3) (R : Fin 50000) (j : Fin 256) : EReal :=
  (∑ k : Fin 128, X (ix2 R k) * Wt (ix3 cc k j)) + B (ix2 cc j)

/-- The arrays as the region finds them: the three branches' activations, the weights, the biases. -/
abbrev xarr (c : Dev nD) (cc : Fin 3) : FVec Ideal S50000x128 .bf16 :=
  pick3 cc (V c (Pipeline.arrRef spec2 0)) (V c (Pipeline.arrRef spec2 1)) (V c (Pipeline.arrRef spec2 2))
abbrev warr (c : Dev nD) : FVec Ideal S3x128x256 .f32 := V c (Pipeline.arrRef spec2 3)
abbrev barr (c : Dev nD) : FVec Ideal S3x256 .f32 := V c (Pipeline.arrRef spec2 4)

/-- The blocks the body finds at point `t`, at their literal types. -/
abbrev xb0 (c : Dev nD) (t : Fin cfg2.N) : FVec Ideal S1000x128 .bf16 := iblk2 V c 0 t
abbrev xb1 (c : Dev nD) (t : Fin cfg2.N) : FVec Ideal S1000x128 .bf16 := iblk2 V c 1 t
abbrev xb2 (c : Dev nD) (t : Fin cfg2.N) : FVec Ideal S1000x128 .bf16 := iblk2 V c 2 t
abbrev wb (c : Dev nD) (t : Fin cfg2.N) : Vec Ideal S3x128x256 .f32 := iblk2 V c 3 t
abbrev bb (c : Dev nD) (t : Fin cfg2.N) : Vec Ideal S3x256 .f32 := iblk2 V c 4 t

/-- The printed index maps, decided over the grid: the activations' blocks move with the point (block `t` of 50 row
    blocks), the weights' and biases' block is the whole array, the outputs' block is the core's (`t / 25`). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 3) = 0 ∧ win2_3.index t (1 : Fin 3) = 0 ∧ win2_3.index t (2 : Fin 3) = 0
    ∧ win2_4.index t (0 : Fin 2) = 0 ∧ win2_4.index t (1 : Fin 2) = 0
    ∧ win2_5.index t (0 : Fin 3) = t.val / 25 ∧ win2_5.index t (1 : Fin 3) = 0 ∧ win2_5.index t (2 : Fin 3) = 0
    ∧ win2_6.index t (0 : Fin 3) = t.val / 25 ∧ win2_6.index t (1 : Fin 3) = 0 ∧ win2_6.index t (2 : Fin 3) = 0 :=
  (by decide +kernel : ∀ t : Fin grid2.N, _)

theorem row_lt (t : Fin cfg2.N) (r : Fin 1000) : t.val * 1000 + r.val < 50000 := by
  have h : t.val < 50 := lt_of_lt_of_eq t.isLt (show cfg2.N = 50 from N_2)
  have := r.isLt; omega

theorem rowOf_lt (core : Fin 2) (i : Fin 25) (r : Fin 1000) : (core.val * 25 + i.val) * 1000 + r.val < 50000 := by
  have := core.isLt; have := i.isLt; have := r.isLt; omega

/-- Row `r` of the activations' block at point `t` is row `1000 t + r` of the array. -/
theorem xb0_apply (c : Dev nD) (t : Fin cfg2.N) (r : Fin 1000) (k : Fin 128) :
    xb0 V c t (ix2 r k) = xarr V c 0 (ix2 ⟨t.val * 1000 + r.val, row_lt t r⟩ k) := by
  obtain ⟨e0, e1, -⟩ := idx_facts t
  unfold xb0 iblk2
  rw [View.read_apply]
  show V c (Pipeline.arrRef spec2 0) _ = V c (Pipeline.arrRef spec2 0) _
  congr 1
  funext a
  apply Fin.ext
  match a with
  | ⟨0, _⟩ => show win2_0.index t (0 : Fin 2) * 1000 + 1 * r.val = t.val * 1000 + r.val; rw [e0]; omega
  | ⟨1, _⟩ => show win2_0.index t (1 : Fin 2) * 128 + 1 * k.val = k.val; rw [e1]; omega

theorem xb1_apply (c : Dev nD) (t : Fin cfg2.N) (r : Fin 1000) (k : Fin 128) :
    xb1 V c t (ix2 r k) = xarr V c 1 (ix2 ⟨t.val * 1000 + r.val, row_lt t r⟩ k) := by
  obtain ⟨-, -, e0, e1, -⟩ := idx_facts t
  unfold xb1 iblk2
  rw [View.read_apply]
  show V c (Pipeline.arrRef spec2 1) _ = V c (Pipeline.arrRef spec2 1) _
  congr 1
  funext a
  apply Fin.ext
  match a with
  | ⟨0, _⟩ => show win2_1.index t (0 : Fin 2) * 1000 + 1 * r.val = t.val * 1000 + r.val; rw [e0]; omega
  | ⟨1, _⟩ => show win2_1.index t (1 : Fin 2) * 128 + 1 * k.val = k.val; rw [e1]; omega

theorem xb2_apply (c : Dev nD) (t : Fin cfg2.N) (r : Fin 1000) (k : Fin 128) :
    xb2 V c t (ix2 r k) = xarr V c 2 (ix2 ⟨t.val * 1000 + r.val, row_lt t r⟩ k) := by
  obtain ⟨-, -, -, -, e0, e1, -⟩ := idx_facts t
  unfold xb2 iblk2
  rw [View.read_apply]
  show V c (Pipeline.arrRef spec2 2) _ = V c (Pipeline.arrRef spec2 2) _
  congr 1
  funext a
  apply Fin.ext
  match a with
  | ⟨0, _⟩ => show win2_2.index t (0 : Fin 2) * 1000 + 1 * r.val = t.val * 1000 + r.val; rw [e0]; omega
  | ⟨1, _⟩ => show win2_2.index t (1 : Fin 2) * 128 + 1 * k.val = k.val; rw [e1]; omega

/-- The weights' block is the whole array, and the body's load of matrix `n` reads matrix `n`. -/
theorem wb_apply (c : Dev nD) (t : Fin cfg2.N) (n : Fin 3) (off : Fin 3 → Nat) (hoff : off = ![n.val, 0, 0])
    (inb : ∀ a, off a + S1x128x256.size a ≤ S3x128x256.size a) (k : Fin 128) (j : Fin 256) :
    (View.ld (Val := Elt Ideal) (wb V c t) (Rect.unit (s := S3x128x256) off S1x128x256.size inb) : FVec Ideal S1x128x256 .f32)
        (ix3 (0 : Fin 1) k j) = warr V c (ix3 n k j) := by
  subst hoff
  obtain ⟨-, -, -, -, -, -, e0, e1, e2, -⟩ := idx_facts t
  unfold wb iblk2
  show ((cfg2.win 3).blk t).view.read (Elt Ideal) (V c (Pipeline.arrRef spec2 3)) _ = _
  rw [View.read_apply]
  show V c (Pipeline.arrRef spec2 3) _ = V c (Pipeline.arrRef spec2 3) _
  congr 1
  funext a
  apply Fin.ext
  match a with
  | ⟨0, _⟩ => show win2_3.index t (0 : Fin 3) * 3 + 1 * (n.val + 1 * 0) = n.val; rw [e0]; omega
  | ⟨1, _⟩ => show win2_3.index t (1 : Fin 3) * 128 + 1 * (0 + 1 * k.val) = k.val; rw [e1]; omega
  | ⟨2, _⟩ => show win2_3.index t (2 : Fin 3) * 256 + 1 * (0 + 1 * j.val) = j.val; rw [e2]; omega

/-- The biases' block is the whole array, and the body's load of row `n` reads row `n`. -/
theorem bb_apply (c : Dev nD) (t : Fin cfg2.N) (n : Fin 3) (off : Fin 2 → Nat) (hoff : off = ![n.val, 0])
    (inb : ∀ a, off a + S1x256.size a ≤ S3x256.size a) (j : Fin 256) :
    (View.ld (Val := Elt Ideal) (bb V c t) (Rect.unit (s := S3x256) off S1x256.size inb) : FVec Ideal S1x256 .f32)
        (ix2 (0 : Fin 1) j) = barr V c (ix2 n j) := by
  subst hoff
  obtain ⟨-, -, -, -, -, -, -, -, -, e0, e1, -⟩ := idx_facts t
  unfold bb iblk2
  show ((cfg2.win 4).blk t).view.read (Elt Ideal) (V c (Pipeline.arrRef spec2 4)) _ = _
  rw [View.read_apply]
  show V c (Pipeline.arrRef spec2 4) _ = V c (Pipeline.arrRef spec2 4) _
  congr 1
  funext a
  apply Fin.ext
  match a with
  | ⟨0, _⟩ => show win2_4.index t (0 : Fin 2) * 3 + 1 * (n.val + 1 * 0) = n.val; rw [e0]; omega
  | ⟨1, _⟩ => show win2_4.index t (1 : Fin 2) * 256 + 1 * (0 + 1 * j.val) = j.val; rw [e1]; omega

/-- The weights and biases the body loads at point `t`, by branch. -/
abbrev wl (c : Dev nD) (t : Fin cfg2.N) (cc : Fin 3) : FVec Ideal S1x128x256 .f32 :=
  pick3 cc (View.ld (Val := Elt Ideal) (wb V c t) (Rect.unit (s := S3x128x256) ![0, 0, 0] S1x128x256.size inb_S3x128x256_S1x128x256_0_0_0)) (View.ld (Val := Elt Ideal) (wb V c t) (Rect.unit (s := S3x128x256) ![1, 0, 0] S1x128x256.size inb_S3x128x256_S1x128x256_1_0_0)) (View.ld (Val := Elt Ideal) (wb V c t) (Rect.unit (s := S3x128x256) ![2, 0, 0] S1x128x256.size inb_S3x128x256_S1x128x256_2_0_0))
abbrev bl (c : Dev nD) (t : Fin cfg2.N) (cc : Fin 3) : FVec Ideal S1x256 .f32 :=
  pick3 cc (View.ld (Val := Elt Ideal) (bb V c t) (Rect.unit (s := S3x256) ![0, 0] S1x256.size inb_S3x256_S1x256_0_0)) (View.ld (Val := Elt Ideal) (bb V c t) (Rect.unit (s := S3x256) ![1, 0] S1x256.size inb_S3x256_S1x256_1_0)) (View.ld (Val := Elt Ideal) (bb V c t) (Rect.unit (s := S3x256) ![2, 0] S1x256.size inb_S3x256_S1x256_2_0))

/-- One tile's `z` is the arrays' `z` at the tile's rows. -/
theorem zT_blocks (c : Dev nD) (t : Fin cfg2.N) (cc : Fin 3) (r : Fin 1000) (j : Fin 256) :
    zT (pick3 cc (xb0 V c t) (xb1 V c t) (xb2 V c t)) (wl V c t cc) (bl V c t cc) r j
      = zArr (xarr V c cc) (warr V c) (barr V c) cc ⟨t.val * 1000 + r.val, row_lt t r⟩ j := by
  unfold zT zArr
  match cc with
  | ⟨0, _⟩ =>
    exact congrArg₂ (· + ·) (Finset.sum_congr rfl fun k _ =>
      congrArg₂ (· * ·) (xb0_apply V c t r k) (wb_apply V c t 0 _ rfl _ k j)) (bb_apply V c t 0 _ rfl _ j)
  | ⟨1, _⟩ =>
    exact congrArg₂ (· + ·) (Finset.sum_congr rfl fun k _ =>
      congrArg₂ (· * ·) (xb1_apply V c t r k) (wb_apply V c t 1 _ rfl _ k j)) (bb_apply V c t 1 _ rfl _ j)
  | ⟨2, _⟩ =>
    exact congrArg₂ (· + ·) (Finset.sum_congr rfl fun k _ =>
      congrArg₂ (· * ·) (xb2_apply V c t r k) (wb_apply V c t 2 _ rfl _ k j)) (bb_apply V c t 2 _ rfl _ j)

/-- The sum over one tile's rows, and of the squares. -/
def tileSum (c : Dev nD) (cc : Fin 3) (j : Fin 256) (t : Fin cfg2.N) : EReal :=
  ∑ r : Fin 1000, zArr (xarr V c cc) (warr V c) (barr V c) cc ⟨t.val * 1000 + r.val, row_lt t r⟩ j
def tileSq (c : Dev nD) (cc : Fin 3) (j : Fin 256) (t : Fin cfg2.N) : EReal :=
  ∑ r : Fin 1000, zArr (xarr V c cc) (warr V c) (barr V c) cc ⟨t.val * 1000 + r.val, row_lt t r⟩ j
    * zArr (xarr V c cc) (warr V c) (barr V c) cc ⟨t.val * 1000 + r.val, row_lt t r⟩ j

/-- What the two buffers hold after point `n`, at their literal type. -/
abbrev acc5 (c : Dev nD) (n : ℕ) (h : n < cfg2.N) : FVec Ideal S1x3x256 .f32 := (outsAt2 V c n h).1
abbrev acc6 (c : Dev nD) (n : ℕ) (h : n < cfg2.N) : FVec Ideal S1x3x256 .f32 := (outsAt2 V c n h).2

/-- At a row's first point the buffer of sums holds that tile's sums; -/
theorem acc5_A (c : Dev nD) (t : Fin cfg2.N) (h0 : t.val % 25 = 0) (cc : Fin 3) (j : Fin 256) :
    acc5 V c t.val t.isLt (ix3 (0 : Fin 1) cc j) = tileSum V c cc j t := by
  unfold acc5
  rw [outsAt2_A V c t h0]
  dsimp only
  refine (congrFun (out_A_5 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) ((hcond2_0 t).mpr h0)
    (iblk2 V c 0 t) (iblk2 V c 1 t) (iblk2 V c 2 t) (iblk2 V c 3 t) (iblk2 V c 4 t)) (ix3 (0 : Fin 1) cc j)).trans ?_
  refine (step_sum_apply (xb0 V c t) (xb1 V c t) (xb2 V c t) (wl V c t 0) (wl V c t 1) (wl V c t 2)
    (bl V c t 0) (bl V c t 1) (bl V c t 2) (k2_pay4 (F := Ideal)) cc j).trans ?_
  refine ((congrArg (· + _) (pay4_apply (0 : Fin 1) cc j)).trans (zero_add _)).trans ?_
  refine Finset.sum_congr rfl fun r _ => ?_
  refine Eq.trans ?_ (zT_blocks V c t cc r j)
  match cc with
  | ⟨0, _⟩ => rfl
  | ⟨1, _⟩ => rfl
  | ⟨2, _⟩ => rfl

/-- at any other point what it held plus that tile's sums. -/
theorem acc5_B (c : Dev nD) (t : Fin cfg2.N) (h0 : ¬t.val % 25 = 0) (cc : Fin 3) (j : Fin 256) :
    acc5 V c t.val t.isLt (ix3 (0 : Fin 1) cc j)
      = acc5 V c (t.val - 1) (Nat.lt_of_le_of_lt (Nat.sub_le _ _) t.isLt) (ix3 (0 : Fin 1) cc j) + tileSum V c cc j t := by
  unfold acc5
  rw [outsAt2_B V c t h0]
  dsimp only
  refine (congrFun (out_B_5 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (fun h => h0 ((hcond2_0 t).mp h))
    (iblk2 V c 0 t) (iblk2 V c 1 t) (iblk2 V c 2 t) (iblk2 V c 3 t) (iblk2 V c 4 t)
    (outsAt2 V c (t.val - 1) (Nat.lt_of_le_of_lt (Nat.sub_le _ _) t.isLt)).1
    (outsAt2 V c (t.val - 1) (Nat.lt_of_le_of_lt (Nat.sub_le _ _) t.isLt)).2) (ix3 (0 : Fin 1) cc j)).trans ?_
  refine (step_sum_apply (xb0 V c t) (xb1 V c t) (xb2 V c t) (wl V c t 0) (wl V c t 1) (wl V c t 2)
    (bl V c t 0) (bl V c t 1) (bl V c t 2) (acc5 V c (t.val - 1) (Nat.lt_of_le_of_lt (Nat.sub_le _ _) t.isLt)) cc j).trans ?_
  refine congrArg (_ + ·) ?_
  refine Finset.sum_congr rfl fun r _ => ?_
  refine Eq.trans ?_ (zT_blocks V c t cc r j)
  match cc with
  | ⟨0, _⟩ => rfl
  | ⟨1, _⟩ => rfl
  | ⟨2, _⟩ => rfl

end Acc

section Acc6

variable (V : (c : Dev nD) → (b : Ref sig .tc) → Buf (Elt Ideal) ((c : Thread nD τ).loc b))

/-- The same for the buffer of sums of squares. -/
theorem acc6_A (c : Dev nD) (t : Fin cfg2.N) (h0 : t.val % 25 = 0) (cc : Fin 3) (j : Fin 256) :
    acc6 V c t.val t.isLt (ix3 (0 : Fin 1) cc j) = tileSq V c cc j t := by
  unfold acc6
  rw [outsAt2_A V c t h0]
  dsimp only
  refine (congrFun (out_A_6 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) ((hcond2_0 t).mpr h0)
    (iblk2 V c 0 t) (iblk2 V c 1 t) (iblk2 V c 2 t) (iblk2 V c 3 t) (iblk2 V c 4 t)) (ix3 (0 : Fin 1) cc j)).trans ?_
  refine (step_sq_apply (xb0 V c t) (xb1 V c t) (xb2 V c t) (wl V c t 0) (wl V c t 1) (wl V c t 2)
    (bl V c t 0) (bl V c t 1) (bl V c t 2) (k2_pay5 (F := Ideal)) cc j).trans ?_
  refine ((congrArg (· + _) (pay5_apply (0 : Fin 1) cc j)).trans (zero_add _)).trans ?_
  refine Finset.sum_congr rfl fun r _ => ?_
  refine Eq.trans ?_ (congrArg₂ (· * ·) (zT_blocks V c t cc r j) (zT_blocks V c t cc r j))
  match cc with
  | ⟨0, _⟩ => rfl
  | ⟨1, _⟩ => rfl
  | ⟨2, _⟩ => rfl

theorem acc6_B (c : Dev nD) (t : Fin cfg2.N) (h0 : ¬t.val % 25 = 0) (cc : Fin 3) (j : Fin 256) :
    acc6 V c t.val t.isLt (ix3 (0 : Fin 1) cc j)
      = acc6 V c (t.val - 1) (Nat.lt_of_le_of_lt (Nat.sub_le _ _) t.isLt) (ix3 (0 : Fin 1) cc j) + tileSq V c cc j t := by
  unfold acc6
  rw [outsAt2_B V c t h0]
  dsimp only
  refine (congrFun (out_B_6 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (fun h => h0 ((hcond2_0 t).mp h))
    (iblk2 V c 0 t) (iblk2 V c 1 t) (iblk2 V c 2 t) (iblk2 V c 3 t) (iblk2 V c 4 t)
    (outsAt2 V c (t.val - 1) (Nat.lt_of_le_of_lt (Nat.sub_le _ _) t.isLt)).1
    (outsAt2 V c (t.val - 1) (Nat.lt_of_le_of_lt (Nat.sub_le _ _) t.isLt)).2) (ix3 (0 : Fin 1) cc j)).trans ?_
  refine (step_sq_apply (xb0 V c t) (xb1 V c t) (xb2 V c t) (wl V c t 0) (wl V c t 1) (wl V c t 2)
    (bl V c t 0) (bl V c t 1) (bl V c t 2) (acc6 V c (t.val - 1) (Nat.lt_of_le_of_lt (Nat.sub_le _ _) t.isLt)) cc j).trans ?_
  refine congrArg (_ + ·) ?_
  refine Finset.sum_congr rfl fun r _ => ?_
  refine Eq.trans ?_ (congrArg₂ (· * ·) (zT_blocks V c t cc r j) (zT_blocks V c t cc r j))
  match cc with
  | ⟨0, _⟩ => rfl
  | ⟨1, _⟩ => rfl
  | ⟨2, _⟩ => rfl

end Acc6

/-! ## From the points to the arrays -/

/-- A quantity reset at every 25th point and added to at the others is, after point `n`, the sum of the row's steps
    so far (the steps past the grid counted as zero). -/
def padN {N : ℕ} (tile : Fin N → EReal) (m : ℕ) : EReal := if hm : m < N then tile ⟨m, hm⟩ else 0

theorem padN_of_lt {N : ℕ} (tile : Fin N → EReal) (m : ℕ) (hm : m < N) : padN tile m = tile ⟨m, hm⟩ := dif_pos hm

theorem acc_eq_sum {N : ℕ} (acc : (n : ℕ) → n < N → EReal) (tile : Fin N → EReal)
    (hA : ∀ t : Fin N, t.val % 25 = 0 → acc t.val t.isLt = tile t)
    (hB : ∀ t : Fin N, ¬t.val % 25 = 0 →
      acc t.val t.isLt = acc (t.val - 1) (Nat.lt_of_le_of_lt (Nat.sub_le _ _) t.isLt) + tile t) :
    ∀ (n : ℕ) (h : n < N), acc n h = ∑ i ∈ Finset.range (n % 25 + 1), padN tile (n - n % 25 + i)
  | 0, h => by
    refine (hA ⟨0, h⟩ rfl).trans ?_
    rw [Finset.sum_range_one]
    exact (padN_of_lt tile 0 h).symm.trans (congrArg (padN tile) (by omega))
  | n + 1, h => by
    by_cases h0 : (n + 1) % 25 = 0
    · refine (hA ⟨n + 1, h⟩ h0).trans ?_
      rw [h0, Finset.sum_range_one]
      exact (padN_of_lt tile (n + 1) h).symm.trans (congrArg (padN tile) (by omega))
    · refine (hB ⟨n + 1, h⟩ h0).trans ?_
      have ih := acc_eq_sum acc tile hA hB n (Nat.lt_of_succ_lt h)
      show acc n _ + tile ⟨n + 1, h⟩ = _
      rw [ih]
      have e1 : (n + 1) % 25 = n % 25 + 1 := by omega
      have e2 : n + 1 - (n % 25 + 1) = n - n % 25 := by omega
      have e3 : n - n % 25 + (n % 25 + 1) = n + 1 := by omega
      rw [e1, e2, Finset.sum_range_succ (fun i => padN tile (n - n % 25 + i)) (n % 25 + 1), e3]
      exact congrArg (_ + ·) (padN_of_lt tile (n + 1) h).symm

section Final

variable (V : (c : Dev nD) → (b : Ref sig .tc) → Buf (Elt Ideal) ((c : Thread nD τ).loc b))

/-- A core's sum over its 25 tiles of 1000 rows, and of the squares. -/
def gsum (c : Dev nD) (core : Fin 2) (cc : Fin 3) (j : Fin 256) : EReal :=
  ∑ i : Fin 25, ∑ r : Fin 1000,
    zArr (xarr V c cc) (warr V c) (barr V c) cc ⟨(core.val * 25 + i.val) * 1000 + r.val, rowOf_lt core i r⟩ j
def gsq (c : Dev nD) (core : Fin 2) (cc : Fin 3) (j : Fin 256) : EReal :=
  ∑ i : Fin 25, ∑ r : Fin 1000,
    zArr (xarr V c cc) (warr V c) (barr V c) cc ⟨(core.val * 25 + i.val) * 1000 + r.val, rowOf_lt core i r⟩ j
      * zArr (xarr V c cc) (warr V c) (barr V c) cc ⟨(core.val * 25 + i.val) * 1000 + r.val, rowOf_lt core i r⟩ j

/-- What the two output arrays end holding. -/
def G5 (c : Dev nD) : FVec Ideal S2x3x256 .f32 := fun i => gsum V c (i 0) (i 1) (i 2)
def G6 (c : Dev nD) : FVec Ideal S2x3x256 .f32 := fun i => gsq V c (i 0) (i 1) (i 2)

theorem core_lt (t : Fin cfg2.N) : t.val / 25 < 2 := by
  have h : t.val < 50 := lt_of_lt_of_eq t.isLt (show cfg2.N = 50 from N_2)
  omega

/-- At a row's last point the buffer of sums holds the core's sums. -/
theorem acc5_flush (c : Dev nD) (t : Fin cfg2.N) (h24 : t.val % 25 = 24) (cc : Fin 3) (j : Fin 256) :
    acc5 V c t.val t.isLt (ix3 (0 : Fin 1) cc j) = gsum V c ⟨t.val / 25, core_lt t⟩ cc j := by
  have hN : cfg2.N = 50 := N_2
  have ht : t.val < 50 := lt_of_lt_of_eq t.isLt hN
  refine (acc_eq_sum (fun n h => acc5 V c n h (ix3 (0 : Fin 1) cc j)) (tileSum V c cc j)
    (fun t h0 => acc5_A V c t h0 cc j) (fun t h0 => acc5_B V c t h0 cc j) t.val t.isLt).trans ?_
  rw [h24, Finset.sum_range]
  unfold gsum
  refine Finset.sum_congr rfl fun i _ => ?_
  have hi : t.val - 24 + i.val < cfg2.N := lt_of_lt_of_eq (by have := i.isLt; omega) hN.symm
  refine (padN_of_lt _ _ hi).trans ?_
  unfold tileSum
  refine Finset.sum_congr rfl fun r _ => congrArg (fun R => zArr (xarr V c cc) (warr V c) (barr V c) cc R j) (Fin.ext ?_)
  show (t.val - 24 + i.val) * 1000 + r.val = (t.val / 25 * 25 + i.val) * 1000 + r.val
  omega

theorem acc6_flush (c : Dev nD) (t : Fin cfg2.N) (h24 : t.val % 25 = 24) (cc : Fin 3) (j : Fin 256) :
    acc6 V c t.val t.isLt (ix3 (0 : Fin 1) cc j) = gsq V c ⟨t.val / 25, core_lt t⟩ cc j := by
  have hN : cfg2.N = 50 := N_2
  have ht : t.val < 50 := lt_of_lt_of_eq t.isLt hN
  refine (acc_eq_sum (fun n h => acc6 V c n h (ix3 (0 : Fin 1) cc j)) (tileSq V c cc j)
    (fun t h0 => acc6_A V c t h0 cc j) (fun t h0 => acc6_B V c t h0 cc j) t.val t.isLt).trans ?_
  rw [h24, Finset.sum_range]
  unfold gsq
  refine Finset.sum_congr rfl fun i _ => ?_
  have hi : t.val - 24 + i.val < cfg2.N := lt_of_lt_of_eq (by have := i.isLt; omega) hN.symm
  refine (padN_of_lt _ _ hi).trans ?_
  unfold tileSq
  have hR : ∀ r : Fin 1000, (⟨(⟨t.val - 24 + i.val, hi⟩ : Fin cfg2.N).val * 1000 + r.val, row_lt _ r⟩ : Fin 50000)
      = ⟨((⟨t.val / 25, core_lt t⟩ : Fin 2).val * 25 + i.val) * 1000 + r.val, rowOf_lt _ i r⟩ := fun r => Fin.ext (by
    show (t.val - 24 + i.val) * 1000 + r.val = (t.val / 25 * 25 + i.val) * 1000 + r.val
    omega)
  exact Finset.sum_congr rfl fun r _ => by rw [hR r]

/-- The block a flushing point writes back, element by element: the array's entry at the core's row. -/
theorem flushed5_pt (c : Dev nD) (t : Fin cfg2.N) (h24 : t.val % 25 = 24) (y : S1x3x256.Idx) (i : S2x3x256.Idx)
    (h0 : (i 0).val = t.val / 25) (h1 : (i 1).val = (y 1).val) (h2 : (i 2).val = (y 2).val) :
    acc5 V c t.val t.isLt y = G5 V c i := by
  obtain ⟨u, cc, j, rfl⟩ : ∃ (u : Fin 1) (cc : Fin 3) (j : Fin 256), y = ix3 u cc j := ⟨y 0, y 1, y 2, eq_ix3 y⟩
  obtain ⟨core, cc', j', rfl⟩ : ∃ (core : Fin 2) (cc' : Fin 3) (j' : Fin 256), i = ix3 core cc' j' := ⟨i 0, i 1, i 2, eq_ix3 i⟩
  obtain rfl : u = 0 := Subsingleton.elim _ _
  obtain rfl : cc' = cc := Fin.ext h1
  obtain rfl : j' = j := Fin.ext h2
  obtain rfl : core = ⟨t.val / 25, core_lt t⟩ := Fin.ext h0
  exact acc5_flush V c t h24 cc' j'

theorem flushed6_pt (c : Dev nD) (t : Fin cfg2.N) (h24 : t.val % 25 = 24) (y : S1x3x256.Idx) (i : S2x3x256.Idx)
    (h0 : (i 0).val = t.val / 25) (h1 : (i 1).val = (y 1).val) (h2 : (i 2).val = (y 2).val) :
    acc6 V c t.val t.isLt y = G6 V c i := by
  obtain ⟨u, cc, j, rfl⟩ : ∃ (u : Fin 1) (cc : Fin 3) (j : Fin 256), y = ix3 u cc j := ⟨y 0, y 1, y 2, eq_ix3 y⟩
  obtain ⟨core, cc', j', rfl⟩ : ∃ (core : Fin 2) (cc' : Fin 3) (j' : Fin 256), i = ix3 core cc' j' := ⟨i 0, i 1, i 2, eq_ix3 i⟩
  obtain rfl : u = 0 := Subsingleton.elim _ _
  obtain rfl : cc' = cc := Fin.ext h1
  obtain rfl : j' = j := Fin.ext h2
  obtain rfl : core = ⟨t.val / 25, core_lt t⟩ := Fin.ext h0
  exact acc6_flush V c t h24 cc' j'

/-- WHAT A FLUSHING POINT WRITES BACK is its block of `G5`. -/
theorem flushed5_eq (c : Dev nD) (t : Fin cfg2.N) (hf : (cfg2.win 5).flush t = true) :
    (dat2 V c).flushed 5 t = ((cfg2.win 5).blk t).view.read (Elt Ideal) (G5 V c) := by
  have h24 : t.val % 25 = 24 := (flush2_5 t).mp hf
  obtain ⟨-, -, -, -, -, -, -, -, -, -, -, e0, e1, e2, -⟩ := idx_facts t
  show (cfg2.win 5).cut (grid2.coords t) ((dat2 V c).after 5 t) = _
  rw [after2_5]
  funext y
  rw [View.read_apply]
  show _ = G5 V c (((cfg2.win 5).blk t).view.emb y)
  refine flushed5_pt V c t h24 _ _ ?_ ?_ ?_
  · show win2_5.index t (0 : Fin 3) * 1 + 1 * (y 0).val = t.val / 25
    have : (y 0).val < 1 := (y 0).isLt
    rw [e0]; omega
  · show win2_5.index t (1 : Fin 3) * 3 + 1 * (y 1).val = (y 1).val
    rw [e1]; omega
  · show win2_5.index t (2 : Fin 3) * 256 + 1 * (y 2).val = (y 2).val
    rw [e2]; omega

theorem flushed6_eq (c : Dev nD) (t : Fin cfg2.N) (hf : (cfg2.win 6).flush t = true) :
    (dat2 V c).flushed 6 t = ((cfg2.win 6).blk t).view.read (Elt Ideal) (G6 V c) := by
  have h24 : t.val % 25 = 24 := (flush2_6 t).mp hf
  obtain ⟨-, -, -, -, -, -, -, -, -, -, -, -, -, -, e0, e1, e2⟩ := idx_facts t
  show (cfg2.win 6).cut (grid2.coords t) ((dat2 V c).after 6 t) = _
  rw [after2_6]
  funext y
  rw [View.read_apply]
  show _ = G6 V c (((cfg2.win 6).blk t).view.emb y)
  refine flushed6_pt V c t h24 _ _ ?_ ?_ ?_
  · show win2_6.index t (0 : Fin 3) * 1 + 1 * (y 0).val = t.val / 25
    have : (y 0).val < 1 := (y 0).isLt
    rw [e0]; omega
  · show win2_6.index t (1 : Fin 3) * 3 + 1 * (y 1).val = (y 1).val
    rw [e1]; omega
  · show win2_6.index t (2 : Fin 3) * 256 + 1 * (y 2).val = (y 2).val
    rw [e2]; omega

/-- An index of an output array is in point `t`'s block iff each coordinate is in the block's range on its axis. -/
theorem mem_blk5 (t : Fin cfg2.N) (i : S2x3x256.Idx) :
    i ∈ ((cfg2.win 5).blk t).view.set ↔ ∀ a : Fin 3, win2_5.index t a * S1x3x256.size a ≤ (i a).val ∧ (i a).val < win2_5.index t a * S1x3x256.size a + S1x3x256.size a := by
  show i ∈ ((View.whole main_v306_0).slice (win2_5.rect t)).set ↔ _
  rw [View.set_slice_whole, Rect.mem_set_unit]
  exact Iff.rfl
theorem mem_blk6 (t : Fin cfg2.N) (i : S2x3x256.Idx) :
    i ∈ ((cfg2.win 6).blk t).view.set ↔ ∀ a : Fin 3, win2_6.index t a * S1x3x256.size a ≤ (i a).val ∧ (i a).val < win2_6.index t a * S1x3x256.size a + S1x3x256.size a := by
  show i ∈ ((View.whole main_v306_1).slice (win2_6.rect t)).set ↔ _
  rw [View.set_slice_whole, Rect.mem_set_unit]
  exact Iff.rfl

theorem last_lt (i : S2x3x256.Idx) : (i 0).val * 25 + 24 < cfg2.N := by
  have h : (i 0).val < 2 := (i 0).isLt
  rw [show cfg2.N = 50 from N_2]; omega

/-- Core `k`'s row of an output array is the block of the core's last point (24, 49). -/
theorem cover5 (i : S2x3x256.Idx) : ∃ t : Fin cfg2.N, (cfg2.win 5).flush t = true ∧ i ∈ ((cfg2.win 5).blk t).view.set := by
  have h0 : (i 0).val < 2 := (i 0).isLt
  have h1 : (i 1).val < 3 := (i 1).isLt
  have h2 : (i 2).val < 256 := (i 2).isLt
  refine ⟨⟨(i 0).val * 25 + 24, last_lt i⟩, (flush2_5 _).mpr (by show ((i 0).val * 25 + 24) % 25 = 24; omega), ?_⟩
  obtain ⟨-, -, -, -, -, -, -, -, -, -, -, e0, e1, e2, -⟩ := idx_facts ⟨(i 0).val * 25 + 24, last_lt i⟩
  have e0' : win2_5.index ⟨(i 0).val * 25 + 24, last_lt i⟩ (0 : Fin 3) = (i 0).val := by
    rw [e0]; show ((i 0).val * 25 + 24) / 25 = (i 0).val; omega
  rw [mem_blk5]
  intro a
  match a with
  | ⟨0, _⟩ => show win2_5.index _ (0 : Fin 3) * 1 ≤ (i 0).val ∧ (i 0).val < win2_5.index _ (0 : Fin 3) * 1 + 1; rw [e0']; omega
  | ⟨1, _⟩ => show win2_5.index _ (1 : Fin 3) * 3 ≤ (i 1).val ∧ (i 1).val < win2_5.index _ (1 : Fin 3) * 3 + 3; rw [e1]; omega
  | ⟨2, _⟩ => show win2_5.index _ (2 : Fin 3) * 256 ≤ (i 2).val ∧ (i 2).val < win2_5.index _ (2 : Fin 3) * 256 + 256; rw [e2]; omega

theorem cover6 (i : S2x3x256.Idx) : ∃ t : Fin cfg2.N, (cfg2.win 6).flush t = true ∧ i ∈ ((cfg2.win 6).blk t).view.set := by
  have h0 : (i 0).val < 2 := (i 0).isLt
  have h1 : (i 1).val < 3 := (i 1).isLt
  have h2 : (i 2).val < 256 := (i 2).isLt
  refine ⟨⟨(i 0).val * 25 + 24, last_lt i⟩, (flush2_6 _).mpr (by show ((i 0).val * 25 + 24) % 25 = 24; omega), ?_⟩
  obtain ⟨-, -, -, -, -, -, -, -, -, -, -, -, -, -, e0, e1, e2⟩ := idx_facts ⟨(i 0).val * 25 + 24, last_lt i⟩
  have e0' : win2_6.index ⟨(i 0).val * 25 + 24, last_lt i⟩ (0 : Fin 3) = (i 0).val := by
    rw [e0]; show ((i 0).val * 25 + 24) / 25 = (i 0).val; omega
  rw [mem_blk6]
  intro a
  match a with
  | ⟨0, _⟩ => show win2_6.index _ (0 : Fin 3) * 1 ≤ (i 0).val ∧ (i 0).val < win2_6.index _ (0 : Fin 3) * 1 + 1; rw [e0']; omega
  | ⟨1, _⟩ => show win2_6.index _ (1 : Fin 3) * 3 ≤ (i 1).val ∧ (i 1).val < win2_6.index _ (1 : Fin 3) * 3 + 3; rw [e1]; omega
  | ⟨2, _⟩ => show win2_6.index _ (2 : Fin 3) * 256 ≤ (i 2).val ∧ (i 2).val < win2_6.index _ (2 : Fin 3) * 256 + 256; rw [e2]; omega

/-- THE OUTPUT ARRAYS after the run. -/
theorem final5 (c : Dev nD) : (dat2 V c).arrAt 5 cfg2.N = G5 V c :=
  (dat2 V c).arrAt_eq_of_cover 5 (G5 V c) (flushed5_eq V c) cover5
theorem final6 (c : Dev nD) : (dat2 V c).arrAt 6 cfg2.N = G6 V c :=
  (dat2 V c).arrAt_eq_of_cover 6 (G6 V c) (flushed6_eq V c) cover6

/-- The array of sums at `(core, cc, j)`: the sum over the core's 25 tiles of 1000 rows of branch `cc`'s `z`; -/
theorem arr5_apply (c : Dev nD) (core : Fin 2) (cc : Fin 3) (j : Fin 256) :
    ((dat2 V c).arrAt 5 cfg2.N : FVec Ideal S2x3x256 .f32) (ix3 core cc j)
      = ∑ i : Fin 25, ∑ r : Fin 1000,
          zArr (xarr V c cc) (warr V c) (barr V c) cc ⟨(core.val * 25 + i.val) * 1000 + r.val, rowOf_lt core i r⟩ j :=
  congrFun (final5 V c) (ix3 core cc j)

/-- the array of sums of squares likewise. -/
theorem arr6_apply (c : Dev nD) (core : Fin 2) (cc : Fin 3) (j : Fin 256) :
    ((dat2 V c).arrAt 6 cfg2.N : FVec Ideal S2x3x256 .f32) (ix3 core cc j)
      = ∑ i : Fin 25, ∑ r : Fin 1000,
          zArr (xarr V c cc) (warr V c) (barr V c) cc ⟨(core.val * 25 + i.val) * 1000 + r.val, rowOf_lt core i r⟩ j
            * zArr (xarr V c cc) (warr V c) (barr V c) cc ⟨(core.val * 25 + i.val) * 1000 + r.val, rowOf_lt core i r⟩ j :=
  congrFun (final6 V c) (ix3 core cc j)

end Final

end Cert.KernelIdeal.HandV.Stats2
end
-- ==== Proof.KV.Pay3.lean ====
/- The payloads of the combine kernel of 256 columns read at one entry (r, j) of a row block, at the
   ideal values: each branch's pre-activation is the linear layer normalised, scaled and shifted; the rectified
   branches are weighted by their mixing weights and summed in the order (t0 + t1) + t2; the value stored is
   that sum (plus the addend's entry on the first 128 columns). -/
import proofs.«414290_j6631429505478_3_alg».proof.Proof.Gen.KernelIdeal.Skeleton
import proofs.«414290_j6631429505478_3_alg».proof.Proof.KV.MatMul
import proofs.«414290_j6631429505478_3_alg».proof.Proof.KV.CombDefs

noncomputable section

namespace Cert.KernelIdeal.HandV

open Idealize.ShloMosaic Idealize.ShloMosaic.ValueIdx Idealize.SL.Sem
open Cert.KernelIdeal Cert.KernelIdeal.Gen
open scoped BigOperators

/-- The second and third row blocks pass through a cast to their own shape. -/
theorem k3_pay4_eq (v : FVec Ideal S2000x128 .bf16) : k3_pay4 (F := Ideal) v = v := by
  unfold k3_pay4
  exact shapeCast_self _ _
theorem k3_pay5_eq (v : FVec Ideal S2000x128 .bf16) : k3_pay5 (F := Ideal) v = v := by
  unfold k3_pay5
  exact shapeCast_self _ _

/-- Branch 0 before rectification: the linear layer of the row block and the branch's weight slab, minus the mean,
    times the reciprocal root of the variance plus eps, times gamma, plus beta. -/
theorem k3_pay6_apply (x : FVec Ideal S2000x128 .bf16) (w : FVec Ideal S1x128x256 .f32) (b mu va g be : FVec Ideal S1x256 .f32)
    (r : Fin 2000) (j : Fin 256) :
    k3_pay6 (F := Ideal) x w b mu va g be (ix2 r j) = (((((linK (fun k => x (ix2 r k)) (fun k => w (ix3 (0 : Fin 1) k j)) (b (ix2 (0 : Fin 1) j))) - mu (ix2 (0 : Fin 1) j)) * Ideal.rsqrt (va (ix2 (0 : Fin 1) j) + Ideal.ofBits .f32 0x3727C5AC#32)) * g (ix2 (0 : Fin 1) j)) + be (ix2 (0 : Fin 1) j) : EReal) := by
  unfold k3_pay6 linK
  simp only [shapeCast_shapeCast, shapeCast_self]
  rw [addf_apply, mulf_apply, mulf_apply, subf_apply, addf_apply, mm256_apply]
  simp only [broadcastTo_1b_ab_apply, truncf_apply, shapeCast_1ab_ab_apply]
  rfl

/-- Branch 0's term: its mixing weight times the rectified pre-activation. -/
theorem k3_pay7_apply (p : FVec Ideal S2000x256 .f32) (wt : FVec Ideal S1x256 .f32) (r : Fin 2000) (j : Fin 256) :
    k3_pay7 (F := Ideal) p wt (ix2 r j) = (wt (ix2 (0 : Fin 1) j) * max (p (ix2 r j)) 0 : EReal) := by
  unfold k3_pay7
  simp only [shapeCast_shapeCast]
  rw [mulf_apply, maximumf_apply, broadcastTo_1b_ab_apply, broadcast_apply]
  show (wt (ix2 (0 : Fin 1) j) * max (p (ix2 r j)) (Ideal.ofBits .f32 0x00000000#32) : EReal) = _
  rw [Ideal.ofBits_zero_f32]

/-- Branch 1 rectified. -/
theorem k3_pay8_apply (x : FVec Ideal S2000x128 .bf16) (w : FVec Ideal S1x128x256 .f32) (b mu va g be : FVec Ideal S1x256 .f32)
    (r : Fin 2000) (j : Fin 256) :
    k3_pay8 (F := Ideal) x w b mu va g be (ix2 r j) = (max (((((linK (fun k => x (ix2 r k)) (fun k => w (ix3 (0 : Fin 1) k j)) (b (ix2 (0 : Fin 1) j))) - mu (ix2 (0 : Fin 1) j)) * Ideal.rsqrt (va (ix2 (0 : Fin 1) j) + Ideal.ofBits .f32 0x3727C5AC#32)) * g (ix2 (0 : Fin 1) j)) + be (ix2 (0 : Fin 1) j) : EReal) 0 : EReal) := by
  unfold k3_pay8 linK
  simp only [shapeCast_shapeCast, shapeCast_self]
  rw [maximumf_apply, broadcast_apply, addf_apply, mulf_apply, mulf_apply, subf_apply, addf_apply, mm256_apply]
  simp only [broadcastTo_1b_ab_apply, truncf_apply, shapeCast_1ab_ab_apply]
  show (max _ (Ideal.ofBits .f32 0x00000000#32) : EReal) = _
  rw [Ideal.ofBits_zero_f32]
  rfl

/-- Branch 2 rectified. -/
theorem k3_pay10_apply (x : FVec Ideal S2000x128 .bf16) (w : FVec Ideal S1x128x256 .f32) (b mu va g be : FVec Ideal S1x256 .f32)
    (r : Fin 2000) (j : Fin 256) :
    k3_pay10 (F := Ideal) x w b mu va g be (ix2 r j) = (max (((((linK (fun k => x (ix2 r k)) (fun k => w (ix3 (0 : Fin 1) k j)) (b (ix2 (0 : Fin 1) j))) - mu (ix2 (0 : Fin 1) j)) * Ideal.rsqrt (va (ix2 (0 : Fin 1) j) + Ideal.ofBits .f32 0x3727C5AC#32)) * g (ix2 (0 : Fin 1) j)) + be (ix2 (0 : Fin 1) j) : EReal) 0 : EReal) := by
  unfold k3_pay10 linK
  simp only [shapeCast_shapeCast, shapeCast_self]
  rw [maximumf_apply, broadcast_apply, addf_apply, mulf_apply, mulf_apply, subf_apply, addf_apply, mm256_apply]
  simp only [broadcastTo_1b_ab_apply, truncf_apply, shapeCast_1ab_ab_apply]
  show (max _ (Ideal.ofBits .f32 0x00000000#32) : EReal) = _
  rw [Ideal.ofBits_zero_f32]
  rfl

/-- The running sum after branch 1: the sum so far plus the branch's weight times its rectified value. -/
theorem k3_pay9_apply (s p : FVec Ideal S2000x256 .f32) (wt : FVec Ideal S1x256 .f32) (r : Fin 2000) (j : Fin 256) :
    k3_pay9 (F := Ideal) s p wt (ix2 r j) = (s (ix2 r j) + wt (ix2 (0 : Fin 1) j) * p (ix2 r j) : EReal) := by
  unfold k3_pay9
  simp only [shapeCast_shapeCast]
  rw [addf_apply, mulf_apply, broadcastTo_1b_ab_apply]

/-- The running sum after branch 2. -/
theorem k3_pay1_apply (s p : FVec Ideal S2000x256 .f32) (wt : FVec Ideal S1x256 .f32) (r : Fin 2000) (j : Fin 256) :
    k3_pay1 (F := Ideal) s p wt (ix2 r j) = (s (ix2 r j) + wt (ix2 (0 : Fin 1) j) * p (ix2 r j) : EReal) := by
  unfold k3_pay1
  simp only [shapeCast_shapeCast]
  rw [addf_apply, mulf_apply, broadcastTo_1b_ab_apply]

/-- The three branches' sum at (r, j) of the 256-column block, from the loaded pieces. -/
theorem cc3_sum_apply (x0 x1 x2 : FVec Ideal S2000x128 .bf16) (w0 w1 w2 : FVec Ideal S1x128x256 .f32)
    (b0 b1 b2 mu0 mu1 mu2 va0 va1 va2 g0 g1 g2 be0 be1 be2 wt0 wt1 wt2 : FVec Ideal S1x256 .f32)
    (r : Fin 2000) (j : Fin 256) :
    k3_pay1 (F := Ideal) (k3_pay9 (F := Ideal) (k3_pay7 (k3_pay6 x0 w0 b0 mu0 va0 g0 be0) wt0) (k3_pay8 (k3_pay4 x1) w1 b1 mu1 va1 g1 be1) wt1)
        (k3_pay10 (F := Ideal) (k3_pay5 x2) w2 b2 mu2 va2 g2 be2) wt2 (ix2 r j)
      = (sum3K (termK (wt0 (ix2 (0 : Fin 1) j)) (linK (fun k => x0 (ix2 r k)) (fun k => w0 (ix3 (0 : Fin 1) k j)) (b0 (ix2 (0 : Fin 1) j))) (mu0 (ix2 (0 : Fin 1) j)) (va0 (ix2 (0 : Fin 1) j)) (g0 (ix2 (0 : Fin 1) j)) (be0 (ix2 (0 : Fin 1) j)))
          (termK (wt1 (ix2 (0 : Fin 1) j)) (linK (fun k => x1 (ix2 r k)) (fun k => w1 (ix3 (0 : Fin 1) k j)) (b1 (ix2 (0 : Fin 1) j))) (mu1 (ix2 (0 : Fin 1) j)) (va1 (ix2 (0 : Fin 1) j)) (g1 (ix2 (0 : Fin 1) j)) (be1 (ix2 (0 : Fin 1) j)))
          (termK (wt2 (ix2 (0 : Fin 1) j)) (linK (fun k => x2 (ix2 r k)) (fun k => w2 (ix3 (0 : Fin 1) k j)) (b2 (ix2 (0 : Fin 1) j))) (mu2 (ix2 (0 : Fin 1) j)) (va2 (ix2 (0 : Fin 1) j)) (g2 (ix2 (0 : Fin 1) j)) (be2 (ix2 (0 : Fin 1) j))) : EReal) := by
  rw [k3_pay1_apply, k3_pay9_apply, k3_pay7_apply, k3_pay6_apply, k3_pay8_apply, k3_pay10_apply, k3_pay4_eq, k3_pay5_eq]
  rfl

/-- THE FIRST STORE (columns 0 … 127) at (r, j): the three branches' sum at column j plus the addend's entry. -/
theorem cc3_store_lo_apply (x0 x1 x2 : FVec Ideal S2000x128 .bf16) (w0 w1 w2 : FVec Ideal S1x128x256 .f32)
    (b0 b1 b2 mu0 mu1 mu2 va0 va1 va2 g0 g1 g2 be0 be1 be2 wt0 wt1 wt2 : FVec Ideal S1x256 .f32)
    (ad : FVec Ideal S2000x128 .f32) (r : Fin 2000) (j : Fin 128) (j' : Fin 256) (hj : j'.val = 0 + j.val) :
    k3_pay2 (F := Ideal) (k3_pay9 (F := Ideal) (k3_pay7 (k3_pay6 x0 w0 b0 mu0 va0 g0 be0) wt0) (k3_pay8 (k3_pay4 x1) w1 b1 mu1 va1 g1 be1) wt1)
        (k3_pay10 (F := Ideal) (k3_pay5 x2) w2 b2 mu2 va2 g2 be2) wt2 ad (ix2 r j)
      = ((fun j : Fin 256 => sum3K (termK (wt0 (ix2 (0 : Fin 1) j)) (linK (fun k => x0 (ix2 r k)) (fun k => w0 (ix3 (0 : Fin 1) k j)) (b0 (ix2 (0 : Fin 1) j))) (mu0 (ix2 (0 : Fin 1) j)) (va0 (ix2 (0 : Fin 1) j)) (g0 (ix2 (0 : Fin 1) j)) (be0 (ix2 (0 : Fin 1) j)))
          (termK (wt1 (ix2 (0 : Fin 1) j)) (linK (fun k => x1 (ix2 r k)) (fun k => w1 (ix3 (0 : Fin 1) k j)) (b1 (ix2 (0 : Fin 1) j))) (mu1 (ix2 (0 : Fin 1) j)) (va1 (ix2 (0 : Fin 1) j)) (g1 (ix2 (0 : Fin 1) j)) (be1 (ix2 (0 : Fin 1) j)))
          (termK (wt2 (ix2 (0 : Fin 1) j)) (linK (fun k => x2 (ix2 r k)) (fun k => w2 (ix3 (0 : Fin 1) k j)) (b2 (ix2 (0 : Fin 1) j))) (mu2 (ix2 (0 : Fin 1) j)) (va2 (ix2 (0 : Fin 1) j)) (g2 (ix2 (0 : Fin 1) j)) (be2 (ix2 (0 : Fin 1) j)))) j' + ad (ix2 r j) : EReal) := by
  unfold k3_pay2
  simp only [shapeCast_self]
  rw [addf_apply, slice2_axis1_apply 0 _ _ r j j' hj, cc3_sum_apply]

/-- THE SECOND STORE (columns 128 … 255) at (r, j): the three branches' sum at column 128 + j. -/
theorem cc3_store_hi_apply (x0 x1 x2 : FVec Ideal S2000x128 .bf16) (w0 w1 w2 : FVec Ideal S1x128x256 .f32)
    (b0 b1 b2 mu0 mu1 mu2 va0 va1 va2 g0 g1 g2 be0 be1 be2 wt0 wt1 wt2 : FVec Ideal S1x256 .f32)
    (r : Fin 2000) (j : Fin 128) (j' : Fin 256) (hj : j'.val = 128 + j.val) :
    k3_pay3 (F := Ideal) (k3_pay9 (F := Ideal) (k3_pay7 (k3_pay6 x0 w0 b0 mu0 va0 g0 be0) wt0) (k3_pay8 (k3_pay4 x1) w1 b1 mu1 va1 g1 be1) wt1)
        (k3_pay10 (F := Ideal) (k3_pay5 x2) w2 b2 mu2 va2 g2 be2) wt2 (ix2 r j)
      = ((fun j : Fin 256 => sum3K (termK (wt0 (ix2 (0 : Fin 1) j)) (linK (fun k => x0 (ix2 r k)) (fun k => w0 (ix3 (0 : Fin 1) k j)) (b0 (ix2 (0 : Fin 1) j))) (mu0 (ix2 (0 : Fin 1) j)) (va0 (ix2 (0 : Fin 1) j)) (g0 (ix2 (0 : Fin 1) j)) (be0 (ix2 (0 : Fin 1) j)))
          (termK (wt1 (ix2 (0 : Fin 1) j)) (linK (fun k => x1 (ix2 r k)) (fun k => w1 (ix3 (0 : Fin 1) k j)) (b1 (ix2 (0 : Fin 1) j))) (mu1 (ix2 (0 : Fin 1) j)) (va1 (ix2 (0 : Fin 1) j)) (g1 (ix2 (0 : Fin 1) j)) (be1 (ix2 (0 : Fin 1) j)))
          (termK (wt2 (ix2 (0 : Fin 1) j)) (linK (fun k => x2 (ix2 r k)) (fun k => w2 (ix3 (0 : Fin 1) k j)) (b2 (ix2 (0 : Fin 1) j))) (mu2 (ix2 (0 : Fin 1) j)) (va2 (ix2 (0 : Fin 1) j)) (g2 (ix2 (0 : Fin 1) j)) (be2 (ix2 (0 : Fin 1) j)))) j' : EReal) := by
  unfold k3_pay3
  rw [slice2_axis1_apply 128 _ _ r j j' hj, cc3_sum_apply]

end Cert.KernelIdeal.HandV

end
-- ==== Proof.KV.Arr3.lean ====
/- Region 3 (the combine kernel of 256 columns with the addend on its first 128 columns) from blocks to
   the array, at the ideal values: what the body's two stores leave in the output block at a point is, entry by entry,
   the three-branch combination of the input arrays' rows 2000 t … 2000 t + 1999, plus the addend's entry on columns
   0 … 127; point t writes back rows 2000 t … of the result; the 25 points cover every row. -/
import proofs.«414290_j6631429505478_3_alg».proof.Proof.KI.Comb3
import proofs.«414290_j6631429505478_3_alg».proof.Proof.KV.Pay3
import proofs.«414290_j6631429505478_3_alg».proof.Proof.KV.CombArr
import Idealize.ShloMosaic.Lib.Pipeline.Value

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-! ## The slabs and rows the body loads from the whole parameter windows -/

theorem hz3_2 : (![0, 0] : Fin 2 → Nat) = fun _ => 0 := funext fun a => by fin_cases a <;> rfl

/-- Slab `o` of the stacked weights, loaded as a [1,128,256] piece, at (0, k, j) is the stack at (o, k, j). -/
theorem ld_slab3 (X : Vec Ideal S3x128x256 .f32) (o : ℕ) (ho : o < 3)
    (h : ∀ a, (![o, 0, 0] : Fin 3 → Nat) a + S1x128x256.size a ≤ S3x128x256.size a) (k : Fin 128) (j : Fin 256) :
    View.ld X (Rect.unit (s := S3x128x256) ![o, 0, 0] S1x128x256.size h) (ix3 (0 : Fin 1) k j) = X (ix3 (⟨o, ho⟩ : Fin 3) k j) := by
  refine congrArg X (funext fun a => Fin.ext ?_)
  match a with
  | ⟨0, _⟩ => show o + 1 * 0 = o; omega
  | ⟨1, _⟩ => show 0 + 1 * k.val = k.val; omega
  | ⟨2, _⟩ => show 0 + 1 * j.val = j.val; omega

/-- Row `o` of a stacked [3,256] parameter, loaded as a [1,256] piece, at (0, j) is the stack at (o, j). -/
theorem ld_row3 (X : Vec Ideal S3x256 .f32) (o : ℕ) (ho : o < 3)
    (h : ∀ a, (![o, 0] : Fin 2 → Nat) a + S1x256.size a ≤ S3x256.size a) (j : Fin 256) :
    View.ld X (Rect.unit (s := S3x256) ![o, 0] S1x256.size h) (ix2 (0 : Fin 1) j) = X (ix2 (⟨o, ho⟩ : Fin 3) j) := by
  refine congrArg X (funext fun a => Fin.ext ?_)
  match a with
  | ⟨0, _⟩ => show o + 1 * 0 = o; omega
  | ⟨1, _⟩ => show 0 + 1 * j.val = j.val; omega

/-! ## The output block from the input blocks, at an entry -/

/-- The three branches' sum at (r, j) from the windows' blocks (x0 x1 x2 the row blocks; x3 the stacked weights;
    x4 … x9 the stacked bias, gamma, beta, mixing weights, means, variances). -/
def blkSum3 (x0 x1 x2 : Vec Ideal S2000x128 .bf16) (x3 : Vec Ideal S3x128x256 .f32)
    (x4 x5 x6 x7 x8 x9 : Vec Ideal S3x256 .f32) (r : Fin 2000) (j : Fin 256) : EReal :=
  sum3K
          (termK (x7 (ix2 (0 : Fin 3) j)) (linK (fun k => x0 (ix2 r k)) (fun k => x3 (ix3 (0 : Fin 3) k j)) (x4 (ix2 (0 : Fin 3) j)))
            (x8 (ix2 (0 : Fin 3) j)) (x9 (ix2 (0 : Fin 3) j)) (x5 (ix2 (0 : Fin 3) j)) (x6 (ix2 (0 : Fin 3) j)))
          (termK (x7 (ix2 (1 : Fin 3) j)) (linK (fun k => x1 (ix2 r k)) (fun k => x3 (ix3 (1 : Fin 3) k j)) (x4 (ix2 (1 : Fin 3) j)))
            (x8 (ix2 (1 : Fin 3) j)) (x9 (ix2 (1 : Fin 3) j)) (x5 (ix2 (1 : Fin 3) j)) (x6 (ix2 (1 : Fin 3) j)))
          (termK (x7 (ix2 (2 : Fin 3) j)) (linK (fun k => x2 (ix2 r k)) (fun k => x3 (ix3 (2 : Fin 3) k j)) (x4 (ix2 (2 : Fin 3) j)))
            (x8 (ix2 (2 : Fin 3) j)) (x9 (ix2 (2 : Fin 3) j)) (x5 (ix2 (2 : Fin 3) j)) (x6 (ix2 (2 : Fin 3) j)))

/-- What the two stores leave in the output block, as one function of the block index: the sum, plus the addend's
    entry on the first 128 columns. -/
def blk3 (x0 x1 x2 : Vec Ideal S2000x128 .bf16) (x3 : Vec Ideal S3x128x256 .f32)
    (x4 x5 x6 x7 x8 x9 : Vec Ideal S3x256 .f32) (x10 : Vec Ideal S2000x128 .f32) : S2000x256.Idx → Elt Ideal .f32 := fun y =>
  if h : (y 1).val < 128 then blkSum3 x0 x1 x2 x3 x4 x5 x6 x7 x8 x9 (y 0) (y 1) + x10 (ix2 (y 0) ⟨(y 1).val, h⟩)
  else blkSum3 x0 x1 x2 x3 x4 x5 x6 x7 x8 x9 (y 0) (y 1)

/-- The composed sum payload's entry, with the loads read off the stacked arrays. -/
theorem sum3_blk (x0 x1 x2 : Vec Ideal S2000x128 .bf16) (x3 : Vec Ideal S3x128x256 .f32)
    (x4 x5 x6 x7 x8 x9 : Vec Ideal S3x256 .f32) (r : Fin 2000) (j : Fin 256) :
    (fun j : Fin 256 => sum3K
        (termK (View.ld x7 r3_4 (ix2 (0 : Fin 1) j)) (linK (fun k => x0 (ix2 r k)) (fun k => View.ld x3 r3_1 (ix3 (0 : Fin 1) k j)) (View.ld x4 r3_4 (ix2 (0 : Fin 1) j)))
          (View.ld x8 r3_4 (ix2 (0 : Fin 1) j)) (View.ld x9 r3_4 (ix2 (0 : Fin 1) j)) (View.ld x5 r3_4 (ix2 (0 : Fin 1) j)) (View.ld x6 r3_4 (ix2 (0 : Fin 1) j)))
        (termK (View.ld x7 r3_5 (ix2 (0 : Fin 1) j)) (linK (fun k => x1 (ix2 r k)) (fun k => View.ld x3 r3_2 (ix3 (0 : Fin 1) k j)) (View.ld x4 r3_5 (ix2 (0 : Fin 1) j)))
          (View.ld x8 r3_5 (ix2 (0 : Fin 1) j)) (View.ld x9 r3_5 (ix2 (0 : Fin 1) j)) (View.ld x5 r3_5 (ix2 (0 : Fin 1) j)) (View.ld x6 r3_5 (ix2 (0 : Fin 1) j)))
        (termK (View.ld x7 r3_6 (ix2 (0 : Fin 1) j)) (linK (fun k => x2 (ix2 r k)) (fun k => View.ld x3 r3_3 (ix3 (0 : Fin 1) k j)) (View.ld x4 r3_6 (ix2 (0 : Fin 1) j)))
          (View.ld x8 r3_6 (ix2 (0 : Fin 1) j)) (View.ld x9 r3_6 (ix2 (0 : Fin 1) j)) (View.ld x5 r3_6 (ix2 (0 : Fin 1) j)) (View.ld x6 r3_6 (ix2 (0 : Fin 1) j)))) j
      = blkSum3 x0 x1 x2 x3 x4 x5 x6 x7 x8 x9 r j := by
  unfold blkSum3
  simp only [ld_slab3 x3 0 (by decide), ld_slab3 x3 1 (by decide), ld_slab3 x3 2 (by decide),
    ld_row3 x4 0 (by decide), ld_row3 x4 1 (by decide), ld_row3 x4 2 (by decide), ld_row3 x5 0 (by decide), ld_row3 x5 1 (by decide), ld_row3 x5 2 (by decide), ld_row3 x6 0 (by decide), ld_row3 x6 1 (by decide), ld_row3 x6 2 (by decide), ld_row3 x7 0 (by decide), ld_row3 x7 1 (by decide), ld_row3 x7 2 (by decide), ld_row3 x8 0 (by decide), ld_row3 x8 1 (by decide), ld_row3 x8 2 (by decide), ld_row3 x9 0 (by decide), ld_row3 x9 1 (by decide), ld_row3 x9 2 (by decide)]
  rfl

/-- What the body leaves in the output block, from the windows' blocks: each store's payload is the tile of
    `blk3` its rectangle names, and the two tiles cover the block. -/
theorem out3_11_eq (x0 x1 x2 : Vec Ideal S2000x128 .bf16) (x3 : Vec Ideal S3x128x256 .f32)
    (x4 x5 x6 x7 x8 x9 : Vec Ideal S3x256 .f32) (x10 : Vec Ideal S2000x128 .f32) :
    out3_11 (F := Ideal) x0 x1 x2 x3 x4 x5 x6 x7 x8 x9 x10 = blk3 x0 x1 x2 x3 x4 x5 x6 x7 x8 x9 x10 := by
  funext y
  unfold out3_11
  refine View.canon_apply_of_pieces (blk3 x0 x1 x2 x3 x4 x5 x6 x7 x8 x9 x10) _ ?_ y (cover3_11 _ _ y)
  intro p hp x
  simp only [List.mem_cons, List.mem_singleton, List.not_mem_nil, or_false] at hp
  rcases hp with rfl | rfl
  · obtain ⟨r, j, rfl⟩ : ∃ (r : Fin 2000) (j : Fin 128), x = ix2 r j := ⟨x 0, x 1, eq_ix2 x⟩
    have hj := j.isLt
    show k3_pay3 (F := Ideal) _ _ _ (ix2 r j) = _
    simp only [View.ld_unit_zero (S := S2000x128) hz3_2]
    rw [cc3_store_hi_apply _ _ _ _ _ _ _ _ _ _ _ _ _ _ _ _ _ _ _ _ _ _ _ _ r j ⟨128 + j.val, by omega⟩ rfl, sum3_blk]
    have e : r3_8.emb (ix2 r j) = ix2 r (⟨128 + j.val, by omega⟩ : Fin 256) := funext fun a => Fin.ext (by
      match a with
      | ⟨0, _⟩ => show 0 + 1 * r.val = r.val; omega
      | ⟨1, _⟩ => show 128 + 1 * j.val = 128 + j.val; omega)
    rw [e]
    unfold blk3
    rw [dif_neg (by show ¬(128 + j.val < 128); omega)]
  · obtain ⟨r, j, rfl⟩ : ∃ (r : Fin 2000) (j : Fin 128), x = ix2 r j := ⟨x 0, x 1, eq_ix2 x⟩
    have hj := j.isLt
    show k3_pay2 (F := Ideal) _ _ _ _ (ix2 r j) = _
    simp only [View.ld_unit_zero (S := S2000x128) hz3_2]
    rw [cc3_store_lo_apply _ _ _ _ _ _ _ _ _ _ _ _ _ _ _ _ _ _ _ _ _ _ _ _ _ r j ⟨j.val, by omega⟩ (by show j.val = 0 + j.val; omega), sum3_blk]
    have e : r3_7.emb (ix2 r j) = ix2 r (⟨j.val, by omega⟩ : Fin 256) := funext fun a => Fin.ext (by
      match a with
      | ⟨0, _⟩ => show 0 + 1 * r.val = r.val; omega
      | ⟨1, _⟩ => show 0 + 1 * j.val = j.val; omega)
    rw [e]
    unfold blk3
    rw [dif_pos (by show j.val < 128; exact hj)]

/-! ## The windows' blocks as rows of the arrays -/

/-- The index maps, decided over the 25 points: the row windows (the three branches', the addend's, the output's)
    move with the point … -/
theorem idx3_0 : ∀ t : Fin cfg3.N, win3_0.index t (0 : Fin 2) = t.val ∧ win3_0.index t (1 : Fin 2) = 0 :=
  (by decide +kernel : ∀ t : Fin grid3.N, _)
theorem idx3_1 : ∀ t : Fin cfg3.N, win3_1.index t (0 : Fin 2) = t.val ∧ win3_1.index t (1 : Fin 2) = 0 :=
  (by decide +kernel : ∀ t : Fin grid3.N, _)
theorem idx3_2 : ∀ t : Fin cfg3.N, win3_2.index t (0 : Fin 2) = t.val ∧ win3_2.index t (1 : Fin 2) = 0 :=
  (by decide +kernel : ∀ t : Fin grid3.N, _)
theorem idx3_10 : ∀ t : Fin cfg3.N, win3_10.index t (0 : Fin 2) = t.val ∧ win3_10.index t (1 : Fin 2) = 0 :=
  (by decide +kernel : ∀ t : Fin grid3.N, _)
theorem idx3_11 : ∀ t : Fin cfg3.N, win3_11.index t (0 : Fin 2) = t.val ∧ win3_11.index t (1 : Fin 2) = 0 :=
  (by decide +kernel : ∀ t : Fin grid3.N, _)
/-- … and the seven parameter windows stay at block zero. -/
theorem idx3_3 : ∀ t : Fin cfg3.N, win3_3.index t (0 : Fin 3) = 0 ∧ win3_3.index t (1 : Fin 3) = 0 ∧ win3_3.index t (2 : Fin 3) = 0 :=
  (by decide +kernel : ∀ t : Fin grid3.N, _)
theorem idx3_4 : ∀ t : Fin cfg3.N, win3_4.index t (0 : Fin 2) = 0 ∧ win3_4.index t (1 : Fin 2) = 0 :=
  (by decide +kernel : ∀ t : Fin grid3.N, _)
theorem idx3_5 : ∀ t : Fin cfg3.N, win3_5.index t (0 : Fin 2) = 0 ∧ win3_5.index t (1 : Fin 2) = 0 :=
  (by decide +kernel : ∀ t : Fin grid3.N, _)
theorem idx3_6 : ∀ t : Fin cfg3.N, win3_6.index t (0 : Fin 2) = 0 ∧ win3_6.index t (1 : Fin 2) = 0 :=
  (by decide +kernel : ∀ t : Fin grid3.N, _)
theorem idx3_7 : ∀ t : Fin cfg3.N, win3_7.index t (0 : Fin 2) = 0 ∧ win3_7.index t (1 : Fin 2) = 0 :=
  (by decide +kernel : ∀ t : Fin grid3.N, _)
theorem idx3_8 : ∀ t : Fin cfg3.N, win3_8.index t (0 : Fin 2) = 0 ∧ win3_8.index t (1 : Fin 2) = 0 :=
  (by decide +kernel : ∀ t : Fin grid3.N, _)
theorem idx3_9 : ∀ t : Fin cfg3.N, win3_9.index t (0 : Fin 2) = 0 ∧ win3_9.index t (1 : Fin 2) = 0 :=
  (by decide +kernel : ∀ t : Fin grid3.N, _)

/-- Row window 0's block at point `t` is rows `2000 t … 2000 t + 1999` of its array. -/
theorem iblk3_row0 (c : Dev nD) (t : Fin cfg3.N) (r : Fin 2000) (n : Fin 50000) (hn : n.val = 2000 * t.val + r.val) (k : Fin 128) :
    (iblk3 V c 0 t : Vec Ideal S2000x128 .bf16) (ix2 r k)
      = (V c (Pipeline.arrRef spec3 0) : S50000x128.Idx → Elt Ideal .bf16) (ix2 n k) := by
  obtain ⟨h0, h1⟩ := idx3_0 t
  unfold iblk3
  rw [View.read_apply]
  refine congrArg (V c (Pipeline.arrRef spec3 0)) (funext fun a => Fin.ext ?_)
  match a with
  | ⟨0, _⟩ => show win3_0.index t (0 : Fin 2) * 2000 + 1 * r.val = n.val; rw [h0, hn]; omega
  | ⟨1, _⟩ => show win3_0.index t (1 : Fin 2) * 128 + 1 * k.val = k.val; rw [h1]; omega
/-- Row window 1's block at point `t` is rows `2000 t … 2000 t + 1999` of its array. -/
theorem iblk3_row1 (c : Dev nD) (t : Fin cfg3.N) (r : Fin 2000) (n : Fin 50000) (hn : n.val = 2000 * t.val + r.val) (k : Fin 128) :
    (iblk3 V c 1 t : Vec Ideal S2000x128 .bf16) (ix2 r k)
      = (V c (Pipeline.arrRef spec3 1) : S50000x128.Idx → Elt Ideal .bf16) (ix2 n k) := by
  obtain ⟨h0, h1⟩ := idx3_1 t
  unfold iblk3
  rw [View.read_apply]
  refine congrArg (V c (Pipeline.arrRef spec3 1)) (funext fun a => Fin.ext ?_)
  match a with
  | ⟨0, _⟩ => show win3_1.index t (0 : Fin 2) * 2000 + 1 * r.val = n.val; rw [h0, hn]; omega
  | ⟨1, _⟩ => show win3_1.index t (1 : Fin 2) * 128 + 1 * k.val = k.val; rw [h1]; omega
/-- Row window 2's block at point `t` is rows `2000 t … 2000 t + 1999` of its array. -/
theorem iblk3_row2 (c : Dev nD) (t : Fin cfg3.N) (r : Fin 2000) (n : Fin 50000) (hn : n.val = 2000 * t.val + r.val) (k : Fin 128) :
    (iblk3 V c 2 t : Vec Ideal S2000x128 .bf16) (ix2 r k)
      = (V c (Pipeline.arrRef spec3 2) : S50000x128.Idx → Elt Ideal .bf16) (ix2 n k) := by
  obtain ⟨h0, h1⟩ := idx3_2 t
  unfold iblk3
  rw [View.read_apply]
  refine congrArg (V c (Pipeline.arrRef spec3 2)) (funext fun a => Fin.ext ?_)
  match a with
  | ⟨0, _⟩ => show win3_2.index t (0 : Fin 2) * 2000 + 1 * r.val = n.val; rw [h0, hn]; omega
  | ⟨1, _⟩ => show win3_2.index t (1 : Fin 2) * 128 + 1 * k.val = k.val; rw [h1]; omega
/-- Row window 10's block at point `t` is rows `2000 t … 2000 t + 1999` of its array. -/
theorem iblk3_row10 (c : Dev nD) (t : Fin cfg3.N) (r : Fin 2000) (n : Fin 50000) (hn : n.val = 2000 * t.val + r.val) (k : Fin 128) :
    (iblk3 V c 10 t : Vec Ideal S2000x128 .f32) (ix2 r k)
      = (V c (Pipeline.arrRef spec3 10) : S50000x128.Idx → Elt Ideal .f32) (ix2 n k) := by
  obtain ⟨h0, h1⟩ := idx3_10 t
  unfold iblk3
  rw [View.read_apply]
  refine congrArg (V c (Pipeline.arrRef spec3 10)) (funext fun a => Fin.ext ?_)
  match a with
  | ⟨0, _⟩ => show win3_10.index t (0 : Fin 2) * 2000 + 1 * r.val = n.val; rw [h0, hn]; omega
  | ⟨1, _⟩ => show win3_10.index t (1 : Fin 2) * 128 + 1 * k.val = k.val; rw [h1]; omega

/-- The weights' window holds the whole stacked array at every point. -/
theorem iblk3_w3 (c : Dev nD) (t : Fin cfg3.N) : (iblk3 V c 3 t : Vec Ideal S3x128x256 .f32) = V c (Pipeline.arrRef spec3 3) := by
  obtain ⟨h0, h1, h2⟩ := idx3_3 t
  funext x
  unfold iblk3
  rw [View.read_apply]
  refine congrArg (V c (Pipeline.arrRef spec3 3)) (funext fun a => Fin.ext ?_)
  match a with
  | ⟨0, _⟩ => show win3_3.index t (0 : Fin 3) * 3 + 1 * (x 0).val = (x 0).val; rw [h0]; omega
  | ⟨1, _⟩ => show win3_3.index t (1 : Fin 3) * 128 + 1 * (x 1).val = (x 1).val; rw [h1]; omega
  | ⟨2, _⟩ => show win3_3.index t (2 : Fin 3) * 256 + 1 * (x 2).val = (x 2).val; rw [h2]; omega
/-- Parameter window 4 holds its whole stacked array at every point. -/
theorem iblk3_w4 (c : Dev nD) (t : Fin cfg3.N) : (iblk3 V c 4 t : Vec Ideal S3x256 .f32) = V c (Pipeline.arrRef spec3 4) := by
  obtain ⟨h0, h1⟩ := idx3_4 t
  funext x
  unfold iblk3
  rw [View.read_apply]
  refine congrArg (V c (Pipeline.arrRef spec3 4)) (funext fun a => Fin.ext ?_)
  match a with
  | ⟨0, _⟩ => show win3_4.index t (0 : Fin 2) * 3 + 1 * (x 0).val = (x 0).val; rw [h0]; omega
  | ⟨1, _⟩ => show win3_4.index t (1 : Fin 2) * 256 + 1 * (x 1).val = (x 1).val; rw [h1]; omega
/-- Parameter window 5 holds its whole stacked array at every point. -/
theorem iblk3_w5 (c : Dev nD) (t : Fin cfg3.N) : (iblk3 V c 5 t : Vec Ideal S3x256 .f32) = V c (Pipeline.arrRef spec3 5) := by
  obtain ⟨h0, h1⟩ := idx3_5 t
  funext x
  unfold iblk3
  rw [View.read_apply]
  refine congrArg (V c (Pipeline.arrRef spec3 5)) (funext fun a => Fin.ext ?_)
  match a with
  | ⟨0, _⟩ => show win3_5.index t (0 : Fin 2) * 3 + 1 * (x 0).val = (x 0).val; rw [h0]; omega
  | ⟨1, _⟩ => show win3_5.index t (1 : Fin 2) * 256 + 1 * (x 1).val = (x 1).val; rw [h1]; omega
/-- Parameter window 6 holds its whole stacked array at every point. -/
theorem iblk3_w6 (c : Dev nD) (t : Fin cfg3.N) : (iblk3 V c 6 t : Vec Ideal S3x256 .f32) = V c (Pipeline.arrRef spec3 6) := by
  obtain ⟨h0, h1⟩ := idx3_6 t
  funext x
  unfold iblk3
  rw [View.read_apply]
  refine congrArg (V c (Pipeline.arrRef spec3 6)) (funext fun a => Fin.ext ?_)
  match a with
  | ⟨0, _⟩ => show win3_6.index t (0 : Fin 2) * 3 + 1 * (x 0).val = (x 0).val; rw [h0]; omega
  | ⟨1, _⟩ => show win3_6.index t (1 : Fin 2) * 256 + 1 * (x 1).val = (x 1).val; rw [h1]; omega
/-- Parameter window 7 holds its whole stacked array at every point. -/
theorem iblk3_w7 (c : Dev nD) (t : Fin cfg3.N) : (iblk3 V c 7 t : Vec Ideal S3x256 .f32) = V c (Pipeline.arrRef spec3 7) := by
  obtain ⟨h0, h1⟩ := idx3_7 t
  funext x
  unfold iblk3
  rw [View.read_apply]
  refine congrArg (V c (Pipeline.arrRef spec3 7)) (funext fun a => Fin.ext ?_)
  match a with
  | ⟨0, _⟩ => show win3_7.index t (0 : Fin 2) * 3 + 1 * (x 0).val = (x 0).val; rw [h0]; omega
  | ⟨1, _⟩ => show win3_7.index t (1 : Fin 2) * 256 + 1 * (x 1).val = (x 1).val; rw [h1]; omega
/-- Parameter window 8 holds its whole stacked array at every point. -/
theorem iblk3_w8 (c : Dev nD) (t : Fin cfg3.N) : (iblk3 V c 8 t : Vec Ideal S3x256 .f32) = V c (Pipeline.arrRef spec3 8) := by
  obtain ⟨h0, h1⟩ := idx3_8 t
  funext x
  unfold iblk3
  rw [View.read_apply]
  refine congrArg (V c (Pipeline.arrRef spec3 8)) (funext fun a => Fin.ext ?_)
  match a with
  | ⟨0, _⟩ => show win3_8.index t (0 : Fin 2) * 3 + 1 * (x 0).val = (x 0).val; rw [h0]; omega
  | ⟨1, _⟩ => show win3_8.index t (1 : Fin 2) * 256 + 1 * (x 1).val = (x 1).val; rw [h1]; omega
/-- Parameter window 9 holds its whole stacked array at every point. -/
theorem iblk3_w9 (c : Dev nD) (t : Fin cfg3.N) : (iblk3 V c 9 t : Vec Ideal S3x256 .f32) = V c (Pipeline.arrRef spec3 9) := by
  obtain ⟨h0, h1⟩ := idx3_9 t
  funext x
  unfold iblk3
  rw [View.read_apply]
  refine congrArg (V c (Pipeline.arrRef spec3 9)) (funext fun a => Fin.ext ?_)
  match a with
  | ⟨0, _⟩ => show win3_9.index t (0 : Fin 2) * 3 + 1 * (x 0).val = (x 0).val; rw [h0]; omega
  | ⟨1, _⟩ => show win3_9.index t (1 : Fin 2) * 256 + 1 * (x 1).val = (x 1).val; rw [h1]; omega

/-! ## The result array -/

/-- The result array as one function of the input arrays as the region finds them: the three-branch combination,
    plus the addend's entry on the first 128 columns. -/
def arr3 (c : Dev nD) : S50000x256.Idx → Elt Ideal .f32 := fun i =>
  if h : (i 1).val < 128 then
    combAt (GW := 256) (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8)) (V c (Pipeline.arrRef spec3 9)) (i 0) (i 1)
      + (V c (Pipeline.arrRef spec3 10) : S50000x128.Idx → Elt Ideal .f32) (ix2 (i 0) ⟨(i 1).val, h⟩)
  else combAt (GW := 256) (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8)) (V c (Pipeline.arrRef spec3 9)) (i 0) (i 1)

/-- What the body leaves at entry (r, j) of the output block at point `t` is the result at row `2000 t + r`. -/
theorem point3 (c : Dev nD) (t : Fin cfg3.N) (r : Fin 2000) (j : Fin 256) (n : Fin 50000) (hn : n.val = 2000 * t.val + r.val) :
    out3_11 (F := Ideal) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (ix2 r j)
      = arr3 V c (ix2 n j) := by
  rw [out3_11_eq (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t)]
  unfold blk3 blkSum3
  rw [iblk3_w3, iblk3_w4, iblk3_w5, iblk3_w6, iblk3_w7, iblk3_w8, iblk3_w9]
  simp only [iblk3_row0 V c t r n hn, iblk3_row1 V c t r n hn, iblk3_row2 V c t r n hn, iblk3_row10 V c t r n hn]
  rfl

/-- Two functions on a [2000,256] block that agree at every (r, j) are equal. -/
theorem ext_2000x256 {α : Type} (P Q : S2000x256.Idx → α) (h : ∀ (r : Fin 2000) (j : Fin 256), P (ix2 r j) = Q (ix2 r j)) : P = Q :=
  funext fun i => by rw [eq_ix2 i]; exact h _ _

/-- WHAT POINT `t` WRITES BACK is block `t` of `arr3`. -/
theorem flushed3_eq (c : Dev nD) (t : Fin cfg3.N) :
    (dat3 V c).flushed 11 t = ((cfg3.win 11).blk t).view.read (Elt Ideal) (arr3 V c) := by
  show (cfg3.win 11).cut (grid3.coords t) ((dat3 V c).after 11 t) = _
  rw [after3_11]
  obtain ⟨h0, h1⟩ := idx3_11 t
  have hN : cfg3.N = 25 := N_3
  have ht := t.isLt
  refine ext_2000x256 _ _ fun r j => ?_
  have hr := r.isLt
  show out3_11 (F := Ideal) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (ix2 r j) = arr3 V c (((cfg3.win 11).blk t).view.emb (ix2 r j))
  rw [point3 V c t r j ⟨2000 * t.val + r.val, by omega⟩ rfl]
  refine congrArg (arr3 V c) (funext fun a => Fin.ext ?_)
  match a with
  | ⟨0, _⟩ => show 2000 * t.val + r.val = win3_11.index t (0 : Fin 2) * 2000 + 1 * r.val; rw [h0]; omega
  | ⟨1, _⟩ => show j.val = win3_11.index t (1 : Fin 2) * 256 + 1 * j.val; rw [h1]; omega

/-- An index of the array is in point `t`'s block iff each coordinate is in the block's range on its axis. -/
theorem mem_blk3 (t : Fin cfg3.N) (i : S50000x256.Idx) :
    i ∈ ((cfg3.win 11).blk t).view.set ↔ ∀ a : Fin 2, win3_11.index t a * S2000x256.size a ≤ (i a).val ∧ (i a).val < win3_11.index t a * S2000x256.size a + S2000x256.size a := by
  show i ∈ ((View.whole main_v317).slice (win3_11.rect t)).set ↔ _
  rw [View.set_slice_whole, Rect.mem_set_unit]
  exact Iff.rfl

/-- Every row is covered: row `n` by point `n / 2000`. -/
theorem cover3 (i : S50000x256.Idx) : ∃ t : Fin cfg3.N, (cfg3.win 11).flush t = true ∧ i ∈ ((cfg3.win 11).blk t).view.set := by
  have hi0 : (i 0).val < 50000 := (i 0).isLt
  have hi1 : (i 1).val < 256 := (i 1).isLt
  have hN : cfg3.N = 25 := N_3
  refine ⟨⟨(i 0).val / 2000, by rw [hN]; omega⟩, flush3_11 _, ?_⟩
  rw [mem_blk3]
  obtain ⟨h0, h1⟩ := idx3_11 ⟨(i 0).val / 2000, by rw [hN]; omega⟩
  intro a
  match a with
  | ⟨0, _⟩ =>
    show win3_11.index _ (0 : Fin 2) * 2000 ≤ (i 0).val ∧ (i 0).val < win3_11.index _ (0 : Fin 2) * 2000 + 2000
    rw [h0]; show (i 0).val / 2000 * 2000 ≤ (i 0).val ∧ (i 0).val < (i 0).val / 2000 * 2000 + 2000; omega
  | ⟨1, _⟩ =>
    show win3_11.index _ (1 : Fin 2) * 256 ≤ (i 1).val ∧ (i 1).val < win3_11.index _ (1 : Fin 2) * 256 + 256
    rw [h1]; omega

/-- THE RESULT ARRAY after the region: `arr3` of the input arrays. -/
theorem arr3_eq (c : Dev nD) : (dat3 V c).arrAt 11 cfg3.N = arr3 V c :=
  (dat3 V c).arrAt_eq_of_cover 11 (arr3 V c) (fun t _ => flushed3_eq V c t) cover3

/-- … entry by entry: on the first 128 columns the combination plus the addend's entry, … -/
theorem arr3_lo_apply (c : Dev nD) (n : Fin 50000) (j : Fin 128) :
    (dat3 V c).arrAt 11 cfg3.N (ix2 n (⟨j.val, by omega⟩ : Fin 256))
      = combAt (GW := 256) (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8)) (V c (Pipeline.arrRef spec3 9)) n (⟨j.val, by omega⟩ : Fin 256)
        + (V c (Pipeline.arrRef spec3 10) : S50000x128.Idx → Elt Ideal .f32) (ix2 n j) := by
  rw [arr3_eq]
  unfold arr3
  rw [dif_pos (by show j.val < 128; exact j.isLt)]

/-- … on the last 128 the combination alone. -/
theorem arr3_hi_apply (c : Dev nD) (n : Fin 50000) (j : Fin 128) :
    (dat3 V c).arrAt 11 cfg3.N (ix2 n (⟨128 + j.val, by omega⟩ : Fin 256))
      = combAt (GW := 256) (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8)) (V c (Pipeline.arrRef spec3 9)) n (⟨128 + j.val, by omega⟩ : Fin 256) := by
  rw [arr3_eq]
  unfold arr3
  rw [dif_neg (by show ¬(128 + j.val < 128); omega)]

end Cert.KernelIdeal.HandV

end
-- ==== Proof.KV.GroupB.lean ====
import proofs.«414290_j6631429505478_3_alg».proof.Proof.KV.Carry
import proofs.«414290_j6631429505478_3_alg».proof.Proof.KV.Inputs
import proofs.«414290_j6631429505478_3_alg».proof.Proof.KV.GroupComb
import proofs.«414290_j6631429505478_3_alg».proof.Proof.KV.HostStats3
import proofs.«414290_j6631429505478_3_alg».proof.Proof.KV.StatsAcc2
import proofs.«414290_j6631429505478_3_alg».proof.Proof.KV.Arr3

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx
open Idealize.ShloMosaic.Pipeline (Dat)
open Cert.Spec
open scoped BigOperators

variable (m : (ℓ : Loc nD τ sig) → Buf (Elt Ideal) ℓ) (ρ : Dev nD → PrngReg) (c : Dev nD)

/-! # Group B: the statistics call 2, the host stretch 3 and the combining call 3

The third stretch leaves the group's three inputs, its stacked parameters and the addend; call 2 sums per core; the
stretch between makes the means and variances; call 3 combines and adds the addend to the first 128 columns. -/

/-- The group's inputs as the third stretch leaves them. -/
abbrev xB0 : FVec Ideal S50000x128 .bf16 := W5 m ρ c (Proc.devRef .tc main_v304)
abbrev xB1 : FVec Ideal S50000x128 .bf16 := W5 m ρ c (Proc.devRef .tc main_v305)
abbrev xB2 : FVec Ideal S50000x128 .bf16 := W5 m ρ c (Proc.devRef .tc main_v13)
/-- The group's stacked parameters as the third stretch leaves them. -/
abbrev wtB : FVec Ideal S3x128x256 .f32 := W5 m ρ c (Proc.devRef .tc main_v287)
abbrev bB : FVec Ideal S3x256 .f32 := W5 m ρ c (Proc.devRef .tc main_v291)
abbrev gB : FVec Ideal S3x256 .f32 := W5 m ρ c (Proc.devRef .tc main_v295)
abbrev beB : FVec Ideal S3x256 .f32 := W5 m ρ c (Proc.devRef .tc main_v299)
abbrev wB : FVec Ideal S3x256 .f32 := W5 m ρ c (Proc.devRef .tc main_v303)
/-- The addend as the third stretch leaves it. -/
abbrev addB : FVec Ideal S50000x128 .f32 := W5 m ρ c (Proc.devRef .tc main_v196)

/-- The group's arrays and inputs in the specification's terms. -/
abbrev arrsB : GroupArrays 2 := arraysOf (G := 2) (wtB m ρ c) (bB m ρ c) (gB m ρ c) (beB m ρ c) (wB m ρ c)
abbrev rowsB : Fin 3 → Feat := rowsOf (xB0 m ρ c) (xB1 m ρ c) (xB2 m ρ c)

/-- Call 2's linear layer at a row of the whole arrays is the group's. -/
theorem zArrB (cc : Fin 3) (R : Fin 50000) (j : Fin 256) :
    Stats2.zArr (Stats2.xarr (V5 m ρ) c cc) (Stats2.warr (V5 m ρ) c) (Stats2.barr (V5 m ρ) c) cc R j
      = zG (arrsB m ρ c) (rowsB m ρ c) cc R j := by
  match cc with
  | ⟨0, _⟩ => rfl
  | ⟨1, _⟩ => rfl
  | ⟨2, _⟩ => rfl

/-- Call 2's sums, per core. -/
theorem sumB (core : Fin 2) (cc : Fin 3) (j : Fin 256) :
    (W6 m ρ c (Proc.devRef .tc main_v306_0) : FVec Ideal S2x3x256 .f32) (ix3 core cc j)
      = coreSum (fun n => zG (arrsB m ρ c) (rowsB m ρ c) cc n j) core := by
  have h := W6_arr m ρ c (5 : Fin cfg2.W)
  rw [show W6 m ρ c (Proc.devRef .tc main_v306_0) = _ from h, Stats2.arr5_apply (V5 m ρ) c core cc j]
  unfold coreSum
  show (_ : EReal) = _
  exact Finset.sum_congr rfl fun i _ => Finset.sum_congr rfl fun r _ => zArrB m ρ c cc _ j

/-- Call 2's sums of squares, per core. -/
theorem sqB (core : Fin 2) (cc : Fin 3) (j : Fin 256) :
    (W6 m ρ c (Proc.devRef .tc main_v306_1) : FVec Ideal S2x3x256 .f32) (ix3 core cc j)
      = coreSum (fun n => zG (arrsB m ρ c) (rowsB m ρ c) cc n j * zG (arrsB m ρ c) (rowsB m ρ c) cc n j) core := by
  have h := W6_arr m ρ c (6 : Fin cfg2.W)
  rw [show W6 m ρ c (Proc.devRef .tc main_v306_1) = _ from h, Stats2.arr6_apply (V5 m ρ) c core cc j]
  unfold coreSum
  show (_ : EReal) = _
  exact Finset.sum_congr rfl fun i _ => Finset.sum_congr rfl fun r _ => by rw [zArrB m ρ c cc _ j]

/-- The means the stretch between the calls leaves, of call 2's sums `s`. -/
theorem meanB (s : FVec Ideal S2x3x256 .f32) (hs : W6 m ρ c (Proc.devRef .tc main_v306_0) = s) (cc : Fin 3) (j : Fin 256) :
    (W7 m ρ c (Proc.devRef .tc main_v310) : FVec Ideal S3x256 .f32) (ix2 cc j)
      = Ideal.div (s (ix3 (0 : Fin 2) cc j) + s (ix3 (1 : Fin 2) cc j)) N50000 := by
  rw [W7_eq]
  exact host3_mean (W6 m ρ c) s hs (ix2 cc j)

/-- The variances the stretch between the calls leaves, of call 2's sums `s` and sums of squares `q`. -/
theorem varB (s q : FVec Ideal S2x3x256 .f32) (hs : W6 m ρ c (Proc.devRef .tc main_v306_0) = s)
    (hq : W6 m ρ c (Proc.devRef .tc main_v306_1) = q) (cc : Fin 3) (j : Fin 256) :
    (W7 m ρ c (Proc.devRef .tc main_v316) : FVec Ideal S3x256 .f32) (ix2 cc j)
      = max (Ideal.div (q (ix3 (0 : Fin 2) cc j) + q (ix3 (1 : Fin 2) cc j)) N50000
          - Ideal.div (s (ix3 (0 : Fin 2) cc j) + s (ix3 (1 : Fin 2) cc j)) N50000
            * Ideal.div (s (ix3 (0 : Fin 2) cc j) + s (ix3 (1 : Fin 2) cc j)) N50000) 0 := by
  rw [W7_eq]
  exact host3_var (W6 m ρ c) s q hs hq (ix2 cc j)

/-- Call 3's arrays at its entry are what the third stretch left. -/
theorem entryB :
    V7 m ρ c (Pipeline.arrRef spec3 0) = xB0 m ρ c ∧ V7 m ρ c (Pipeline.arrRef spec3 1) = xB1 m ρ c
      ∧ V7 m ρ c (Pipeline.arrRef spec3 2) = xB2 m ρ c ∧ V7 m ρ c (Pipeline.arrRef spec3 3) = wtB m ρ c
      ∧ V7 m ρ c (Pipeline.arrRef spec3 4) = bB m ρ c ∧ V7 m ρ c (Pipeline.arrRef spec3 5) = gB m ρ c
      ∧ V7 m ρ c (Pipeline.arrRef spec3 6) = beB m ρ c ∧ V7 m ρ c (Pipeline.arrRef spec3 7) = wB m ρ c
      ∧ V7 m ρ c (Pipeline.arrRef spec3 10) = addB m ρ c :=
  ⟨keep_5_7 m ρ c main_v304 (by decide), keep_5_7 m ρ c main_v305 (by decide), keep_5_7 m ρ c main_v13 (by decide),
    keep_5_7 m ρ c main_v287 (by decide), keep_5_7 m ρ c main_v291 (by decide), keep_5_7 m ρ c main_v295 (by decide),
    keep_5_7 m ρ c main_v299 (by decide), keep_5_7 m ρ c main_v303 (by decide), keep_5_7 m ρ c main_v196 (by decide)⟩

/-- Call 3's combination at (n, j): the group's result over what the third stretch left. -/
theorem combB (n : Fin 50000) (j : Fin 256) :
    combAt (GW := 256) (xB0 m ρ c) (xB1 m ρ c) (xB2 m ρ c) (wtB m ρ c) (bB m ρ c) (gB m ρ c) (beB m ρ c) (wB m ρ c)
        (V7 m ρ c (Pipeline.arrRef spec3 8)) (V7 m ρ c (Pipeline.arrRef spec3 9)) n j
      = outG (arrsB m ρ c) (rowsB m ρ c) n j :=
  combAt_eq_outG (G := 2) _ _ _ _ _ _ _ _ _ _
    (W6 m ρ c (Proc.devRef .tc main_v306_0)) (W6 m ρ c (Proc.devRef .tc main_v306_1))
    (sumB m ρ c) (sqB m ρ c) (meanB m ρ c _ rfl) (varB m ρ c _ _ rfl rfl) n j

/-- Call 3's result in its first 128 columns: the group's result plus the addend. -/
theorem outB_lo (n : Fin 50000) (d : Fin 128) (hd : d.val < 256) :
    (W8 m ρ c (Proc.devRef .tc main_v317) : FVec Ideal S50000x256 .f32) (ix2 n (⟨d.val, hd⟩ : Fin 256))
      = addE (outG (arrsB m ρ c) (rowsB m ρ c) n ⟨d.val, hd⟩) (addB m ρ c (ix2 n d)) := by
  have h := W8_arr m ρ c (11 : Fin cfg3.W)
  obtain ⟨e0, e1, e2, e3, e4, e5, e6, e7, e10⟩ := entryB m ρ c
  rw [show W8 m ρ c (Proc.devRef .tc main_v317) = _ from h]
  refine (arr3_lo_apply (V7 m ρ) c n d).trans ?_
  exact congrArg₂ addE ((combAt_congr e0 e1 e2 e3 e4 e5 e6 e7 rfl rfl n ⟨d.val, hd⟩).trans (combB m ρ c n ⟨d.val, hd⟩))
    (congrFun e10 (ix2 n d))

/-- Call 3's result in its last 128 columns: the group's result. -/
theorem outB_hi (n : Fin 50000) (d : Fin 128) (hd : 128 + d.val < 256) :
    (W8 m ρ c (Proc.devRef .tc main_v317) : FVec Ideal S50000x256 .f32) (ix2 n (⟨128 + d.val, hd⟩ : Fin 256))
      = outG (arrsB m ρ c) (rowsB m ρ c) n ⟨128 + d.val, hd⟩ := by
  have h := W8_arr m ρ c (11 : Fin cfg3.W)
  obtain ⟨e0, e1, e2, e3, e4, e5, e6, e7, e10⟩ := entryB m ρ c
  rw [show W8 m ρ c (Proc.devRef .tc main_v317) = _ from h]
  refine (arr3_hi_apply (V7 m ρ) c n d).trans ?_
  exact (combAt_congr e0 e1 e2 e3 e4 e5 e6 e7 rfl rfl n ⟨128 + d.val, hd⟩).trans (combB m ρ c n ⟨128 + d.val, hd⟩)

end Cert.KernelIdeal.HandV

end
-- ==== Proof.KV.HostStats1.lean ====
import proofs.«414290_j6631429505478_3_alg».proof.Proof.Gen.KernelIdeal.Launch
import Idealize.ShloMosaic.Lib.StableHlo.Run
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.KernelIdeal.HandV

open Cert.KernelIdeal Cert.KernelIdeal.Gen
open Idealize.ShloMosaic Idealize.ShloMosaic.TcCoe
open Idealize.ShloMosaic.ValueIdx

/-! # The host stretch between a statistics call and its combine call, read at an index

The two partial sums over the two cores are added, the sum is divided by the number of rows, and the
variance is the mean of squares minus the squared mean, clamped below at zero. -/

/-- The sum over the leading axis (the two cores) of a [2, 3, G] array at (c, j). -/
private theorem reduce2_apply {G : Nat} (h' : (⟨3, ![2, 3, G]⟩ : Shape).ReducesTo [0] ⟨2, ![3, G]⟩)
    (h : (⟨3, ![2, 3, G]⟩ : Shape).Reduces [0] ⟨2, ![3, G]⟩)
    (x : (⟨3, ![2, 3, G]⟩ : Shape).Idx → EReal) (init : EReal) (i : (⟨2, ![3, G]⟩ : Shape).Idx) :
    Ideal.hostReduceAdd h' x init i = init + (x (ix3 0 (i 0) (i 1)) + x (ix3 1 (i 0) (i 1))) := by
  rw [Ideal.hostReduceAdd_single h' h]
  have e0 : h.lift i (0 : Fin 2) = ix3 0 (i 0) (i 1) := by
    funext a; match a with | ⟨0, _⟩ => rfl | ⟨1, _⟩ => rfl | ⟨2, _⟩ => rfl
  have e1 : h.lift i (1 : Fin 2) = ix3 1 (i 0) (i 1) := by
    funext a; match a with | ⟨0, _⟩ => rfl | ⟨1, _⟩ => rfl | ⟨2, _⟩ => rfl
  show init + ∑ k : Fin 2, x (h.lift i k) = _
  rw [Fin.sum_univ_two, e0, e1]
  rfl

/-- A [2, 3, G] array summed over the two cores from zero and divided by a broadcast scalar, at (c, j). -/
private theorem meanOf_apply {G : Nat} (h' : (⟨3, ![2, 3, G]⟩ : Shape).ReducesTo [0] ⟨2, ![3, G]⟩)
    (h : (⟨3, ![2, 3, G]⟩ : Shape).Reduces [0] ⟨2, ![3, G]⟩) (hb : S_.BroadcastsInDim ⟨2, ![3, G]⟩ ![])
    (x : FVec Ideal ⟨3, ![2, 3, G]⟩ .f32) (n : BitVec 32) (i : (⟨2, ![3, G]⟩ : Shape).Idx) :
    Host.divf (Host.reduceAdd x (constant (F := Ideal) S_ .f32 0x00000000#32) h' h_S_)
        (broadcastInDim ⟨2, ![3, G]⟩ ![] hb (constant (F := Ideal) S_ .f32 n)) i
      = Ideal.div (x (ix3 0 (i 0) (i 1)) + x (ix3 1 (i 0) (i 1))) (Ideal.ofBits .f32 n) := by
  rw [hostDivf_apply, hostReduceAdd_apply, broadcastInDim_scalar_apply, constant_apply, constant_apply,
    reduce2_apply h' h, Ideal.ofBits_zero_f32, zero_add]

/-- The mean at (c, j): the two cores' sums added, over the number of rows. -/
theorem host1_mean (X : Valuation τ sig (Elt Ideal)) (s : FVec Ideal S2x3x384 .f32)
    (hs : X (Proc.devRef .tc main_v171_0) = s) (i : S3x384.Idx) :
    (StableHlo.after (hostOps1 (F := Ideal)) X (Proc.devRef .tc main_v175) : FVec Ideal S3x384 .f32) i
      = Ideal.div (s (ix3 0 (i 0) (i 1)) + s (ix3 1 (i 0) (i 1))) (Ideal.ofBits .f32 0x47435000#32) := by
  subst hs
  have e : (StableHlo.after (hostOps1 (F := Ideal)) X (Proc.devRef .tc main_v175) : FVec Ideal S3x384 .f32)
      = Host.divf (Host.reduceAdd (X (Proc.devRef .tc main_v171_0)) (constant (F := Ideal) S_ .f32 0x00000000#32) reducesTo_S2x3x384_S3x384_d0 h_S_)
          (broadcastInDim S3x384 ![] bcast_S_S3x384 (constant (F := Ideal) S_ .f32 0x47435000#32)) := by
    after_results
  rw [e, meanOf_apply _ (by decide)]

/-- The variance at (c, j): the mean of squares minus the squared mean, clamped below at zero. -/
theorem host1_var (X : Valuation τ sig (Elt Ideal)) (s q : FVec Ideal S2x3x384 .f32)
    (hs : X (Proc.devRef .tc main_v171_0) = s) (hq : X (Proc.devRef .tc main_v171_1) = q) (i : S3x384.Idx) :
    (StableHlo.after (hostOps1 (F := Ideal)) X (Proc.devRef .tc main_v181) : FVec Ideal S3x384 .f32) i
      = max (Ideal.div (q (ix3 0 (i 0) (i 1)) + q (ix3 1 (i 0) (i 1))) (Ideal.ofBits .f32 0x47435000#32)
              - Ideal.div (s (ix3 0 (i 0) (i 1)) + s (ix3 1 (i 0) (i 1))) (Ideal.ofBits .f32 0x47435000#32)
                * Ideal.div (s (ix3 0 (i 0) (i 1)) + s (ix3 1 (i 0) (i 1))) (Ideal.ofBits .f32 0x47435000#32)) 0 := by
  subst hs; subst hq
  have e : (StableHlo.after (hostOps1 (F := Ideal)) X (Proc.devRef .tc main_v181) : FVec Ideal S3x384 .f32)
      = maximumf
          (subf
            (Host.divf (Host.reduceAdd (X (Proc.devRef .tc main_v171_1)) (constant (F := Ideal) S_ .f32 0x00000000#32) reducesTo_S2x3x384_S3x384_d0 h_S_)
              (broadcastInDim S3x384 ![] bcast_S_S3x384 (constant (F := Ideal) S_ .f32 0x47435000#32)))
            (mulf
              (Host.divf (Host.reduceAdd (X (Proc.devRef .tc main_v171_0)) (constant (F := Ideal) S_ .f32 0x00000000#32) reducesTo_S2x3x384_S3x384_d0 h_S_)
                (broadcastInDim S3x384 ![] bcast_S_S3x384 (constant (F := Ideal) S_ .f32 0x47435000#32)))
              (Host.divf (Host.reduceAdd (X (Proc.devRef .tc main_v171_0)) (constant (F := Ideal) S_ .f32 0x00000000#32) reducesTo_S2x3x384_S3x384_d0 h_S_)
                (broadcastInDim S3x384 ![] bcast_S_S3x384 (constant (F := Ideal) S_ .f32 0x47435000#32)))))
          (broadcastInDim S3x384 ![] bcast_S_S3x384 (constant (F := Ideal) S_ .f32 0x00000000#32)) := by
    after_results
  rw [e, maximumf_apply, subf_apply, mulf_apply, meanOf_apply _ (by decide), meanOf_apply _ (by decide),
    broadcastInDim_scalar_apply, constant_apply, Ideal.ofBits_zero_f32]

end Cert.KernelIdeal.HandV
end
-- ==== Proof.KV.StatsPay0.lean ====
import proofs.«414290_j6631429505478_3_alg».proof.Proof.Gen.KernelIdeal.Skeleton
import Idealize.ShloMosaic.Lib.ValueLayout
import Idealize.ShloMosaic.PureOps.Ideal.Laws

noncomputable section

namespace Cert.KernelIdeal.HandV.Stats0

open Idealize.ShloMosaic Idealize.ShloMosaic.ValueIdx Idealize.SL.Sem
open Cert.KernelIdeal Cert.KernelIdeal.Gen

/-! ## The statistics kernel (384 columns) read at an index, at the ideal values

A tile is 1000 rows of a branch's activations `x` (1000 × 128). With the branch's weight matrix `w` (128 × 384, held with
a leading unit axis) and bias row `b` (1 × 384), the pre-normalisation value at row `r`, column `j` is
`z r j = (∑ k, x (r, k) * w (0, k, j)) + b (0, j)`. The kernel adds to its two output buffers, at `(0, cc, j)`, the column
sums `∑ r, z r j` and `∑ r, z r j * z r j` of branch `cc`. -/

/-- The value `z` of one branch at row `r` and column `j` of a tile. -/
def zT (x : FVec Ideal S1000x128 .bf16) (w : FVec Ideal S1x128x384 .f32) (b : FVec Ideal S1x384 .f32)
    (r : Fin 1000) (j : Fin 384) : EReal :=
  (∑ k : Fin 128, x (ix2 r k) * w (ix3 (0 : Fin 1) k j)) + b (ix2 (0 : Fin 1) j)

/-- One of three, by the branch's number. -/
def pick3 {α : Type} (cc : Fin 3) (a0 a1 a2 : α) : α :=
  match cc with | ⟨0, _⟩ => a0 | ⟨1, _⟩ => a1 | ⟨2, _⟩ => a2

/-- The 1000 × 128 by 128 × 384 product into a zero accumulator, at `(r, j)`: the sum over the contracted coordinate. -/
theorem matmul0_apply (x : FVec Ideal S1000x128 .bf16) (w : FVec Ideal S128x384 .bf16) (r : Fin 1000) (j : Fin 384) :
    matmul dot_S1000x128_S128x384_S1000x384_1_0_0_1_n_n none x w (constant (F := Ideal) S1000x384 .f32 0x00000000#32) (ix2 r j)
      = ∑ k : Fin 128, x (ix2 r k) * w (ix2 k j) := by
  show FloatOps.matmul _ none x w _ (ix2 r j) = _
  rw [Ideal.matmul_constant_zero_apply,
    ← Equiv.sum_comp (contrEquiv1 dot_S1000x128_S128x384_S1000x384_1_0_0_1_n_n 128 rfl rfl).symm]
  refine Finset.sum_congr rfl fun c _ => ?_
  have c2 := contrEquiv1_symm_val dot_S1000x128_S128x384_S1000x384_1_0_0_1_n_n 128 rfl rfl c
  have l2 : dot_S1000x128_S128x384_S1000x384_1_0_0_1_n_n.lhsIdx (ix2 r j) ((contrEquiv1 _ 128 rfl rfl).symm c) = ix2 r c := by
    funext ax; apply Fin.ext
    match ax with
    | ⟨0, _⟩ => simp [DotDims.lhsIdx, dot_S1000x128_S128x384_S1000x384_1_0_0_1_n_n]; rfl
    | ⟨1, _⟩ => simp [DotDims.lhsIdx, dot_S1000x128_S128x384_S1000x384_1_0_0_1_n_n]; exact c2
  have r2 : dot_S1000x128_S128x384_S1000x384_1_0_0_1_n_n.rhsIdx (ix2 r j) ((contrEquiv1 _ 128 rfl rfl).symm c) = ix2 c j := by
    funext ax; apply Fin.ext
    match ax with
    | ⟨0, _⟩ => simp [DotDims.rhsIdx, dot_S1000x128_S128x384_S1000x384_1_0_0_1_n_n]; exact c2
    | ⟨1, _⟩ => simp [DotDims.rhsIdx, dot_S1000x128_S128x384_S1000x384_1_0_0_1_n_n]; rfl
  rw [l2, r2]

/-- The weight matrix as the product reads it (leading unit axis dropped, format changed): the matrix itself. -/
theorem wcast_apply (w : FVec Ideal S1x128x384 .f32) (k : Fin 128) (j : Fin 384) :
    (truncf .bf16 (shapeCast S128x384 w shapeCasts_S1x128x384_S128x384) bitsLt_bf16_f32 : FVec Ideal S128x384 .bf16) (ix2 k j)
      = w (ix3 (0 : Fin 1) k j) :=
  shapeCast_1ab_ab_apply w shapeCasts_S1x128x384_S128x384 k j

/-- The bias row broadcast down the 1000 rows, at `(r, j)`: the bias at `j`. -/
theorem bcast_apply (b : FVec Ideal S1x384 .f32) (r : Fin 1000) (j : Fin 384) :
    broadcastTo S1000x384 (shapeCast S1x384 (shapeCast S384 b shapeCasts_S1x384_S384) shapeCasts_S384_S1x384)
        broadcasts_S1x384_S1000x384 (ix2 r j) = b (ix2 (0 : Fin 1) j) :=
  (broadcastTo_1b_ab_apply _ broadcasts_S1x384_S1000x384 r j).trans
    ((shapeCast_a_1a_apply _ shapeCasts_S384_S1x384 (0 : Fin 1) j).trans
      (shapeCast_1a_a_apply b shapeCasts_S1x384_S384 j))

/-- Branch 2's `z` (the tile already cast). -/
theorem pay1_apply (x : FVec Ideal S1000x128 .bf16) (w : FVec Ideal S1x128x384 .f32) (b : FVec Ideal S1x384 .f32)
    (r : Fin 1000) (j : Fin 384) : k0_pay1 x w b (ix2 r j) = zT x w b r j := by
  unfold k0_pay1 zT
  refine congrArg₂ (· + ·) ?_ (bcast_apply b r j)
  refine (matmul0_apply x _ r j).trans ?_
  exact Finset.sum_congr rfl fun k _ => congrArg (x (ix2 r k) * ·) (wcast_apply w k j)

/-- Branch 0's `z`. -/
theorem pay7_apply (x : FVec Ideal S1000x128 .bf16) (w : FVec Ideal S1x128x384 .f32) (b : FVec Ideal S1x384 .f32)
    (r : Fin 1000) (j : Fin 384) : k0_pay7 (F := Ideal) x w b (ix2 r j) = zT x w b r j := by
  unfold k0_pay7 zT
  refine congrArg₂ (· + ·) ?_ (bcast_apply b r j)
  refine (matmul0_apply _ _ r j).trans ?_
  refine Finset.sum_congr rfl fun k _ => ?_
  refine congrArg₂ (· * ·) ?_ (wcast_apply w k j)
  exact congrFun (shapeCast_self x shapeCasts_S1000x128_S1000x128) (ix2 r k)

/-- Branch 1's `z`. -/
theorem pay10_apply (x : FVec Ideal S1000x128 .bf16) (w : FVec Ideal S1x128x384 .f32) (b : FVec Ideal S1x384 .f32)
    (r : Fin 1000) (j : Fin 384) : k0_pay10 (F := Ideal) x w b (ix2 r j) = zT x w b r j := by
  unfold k0_pay10 zT
  refine congrArg₂ (· + ·) ?_ (bcast_apply b r j)
  refine (matmul0_apply _ _ r j).trans ?_
  refine Finset.sum_congr rfl fun k _ => ?_
  refine congrArg₂ (· * ·) ?_ (wcast_apply w k j)
  exact congrFun (shapeCast_self x shapeCasts_S1000x128_S1000x128) (ix2 r k)

/-- A sum down the 1000 rows of a 1000 × 384 vector, at column `j`. -/
theorem colsum_apply (v : FVec Ideal S1000x384 .f32) (j : Fin 384) :
    multiReduction (F := Ideal) .add [0] S384 v 0x00000000#32 reduces_S1000x384_S384 (.inl rfl) rfl (ix1 j)
      = ∑ r : Fin 1000, v (ix2 r j) := by
  refine (Ideal.multiReduction_add_single v 0x00000000#32 reduces_S1000x384_S384 (.inl rfl) rfl (ix1 j)).trans ?_
  refine Finset.sum_congr rfl fun r _ => congrArg v ?_
  funext a
  match a with
  | ⟨0, _⟩ => rfl
  | ⟨1, _⟩ => rfl

/-- Branch 0's column sums of `z` … -/
theorem pay8_apply (x : FVec Ideal S1000x128 .bf16) (w : FVec Ideal S1x128x384 .f32) (b : FVec Ideal S1x384 .f32) (j : Fin 384) :
    k0_pay8 (F := Ideal) x w b (ix1 j) = ∑ r : Fin 1000, zT x w b r j := by
  unfold k0_pay8
  refine (colsum_apply _ j).trans ?_
  exact Finset.sum_congr rfl fun r _ => pay7_apply x w b r j

/-- … and of `z * z`. -/
theorem pay9_apply (x : FVec Ideal S1000x128 .bf16) (w : FVec Ideal S1x128x384 .f32) (b : FVec Ideal S1x384 .f32) (j : Fin 384) :
    k0_pay9 (F := Ideal) x w b (ix1 j) = ∑ r : Fin 1000, zT x w b r j * zT x w b r j := by
  unfold k0_pay9
  refine (colsum_apply _ j).trans ?_
  exact Finset.sum_congr rfl fun r _ => congrArg₂ (· * ·) (pay7_apply x w b r j) (pay7_apply x w b r j)

/-- Branch 1's column sums of `z` … -/
theorem pay11_apply (x : FVec Ideal S1000x128 .bf16) (w : FVec Ideal S1x128x384 .f32) (b : FVec Ideal S1x384 .f32) (j : Fin 384) :
    k0_pay11 (F := Ideal) x w b (ix1 j) = ∑ r : Fin 1000, zT x w b r j := by
  unfold k0_pay11
  refine (colsum_apply _ j).trans ?_
  exact Finset.sum_congr rfl fun r _ => pay10_apply x w b r j

/-- … and of `z * z`. -/
theorem pay12_apply (x : FVec Ideal S1000x128 .bf16) (w : FVec Ideal S1x128x384 .f32) (b : FVec Ideal S1x384 .f32) (j : Fin 384) :
    k0_pay12 (F := Ideal) x w b (ix1 j) = ∑ r : Fin 1000, zT x w b r j * zT x w b r j := by
  unfold k0_pay12
  refine (colsum_apply _ j).trans ?_
  exact Finset.sum_congr rfl fun r _ => congrArg₂ (· * ·) (pay10_apply x w b r j) (pay10_apply x w b r j)

/-- The cast in front of branch 2's tile changes nothing. -/
theorem pay6_eq (x : FVec Ideal S1000x128 .bf16) : k0_pay6 (F := Ideal) x = x := by
  unfold k0_pay6
  exact shapeCast_self x shapeCasts_S1000x128_S1000x128

/-- Three rows stacked: row `cc` of the stack is the `cc`-th row. -/
theorem concat3_apply (v0 v1 v2 : FVec Ideal S1x384 .f32) (cc : Fin 3) (j : Fin 384) :
    concatenate S3x384 0 [⟨S1x384, v0⟩, ⟨S1x384, v1⟩, ⟨S1x384, v2⟩] concatenates_S1x384_S1x384_S1x384_S3x384_d0 (ix2 cc j)
      = pick3 cc v0 v1 v2 (ix2 (0 : Fin 1) j) := by
  have hi : ∀ (c : Fin 3) (b : Fin S1x384.rank), b.cast (rfl : S1x384.rank = S3x384.rank) ≠ (0 : Fin S3x384.rank) →
      ((ix2 (0 : Fin 1) j : S1x384.Idx) b).val = ((ix2 c j : S3x384.Idx) (b.cast rfl)).val := fun c b hb => by
    match b with
    | ⟨0, _⟩ => exact absurd rfl hb
    | ⟨1, _⟩ => rfl
  match cc with
  | ⟨0, _⟩ =>
    exact concatenate_apply_piece (0 : Fin S3x384.rank) [⟨S1x384, v0⟩, ⟨S1x384, v1⟩, ⟨S1x384, v2⟩]
      concatenates_S1x384_S1x384_S1x384_S3x384_d0 (ix2 _ j) 0 (by show (0 : Nat) < 3; decide)
      S1x384 v0 rfl rfl 0 rfl (ix2 (0 : Fin 1) j) (hi _) rfl
  | ⟨1, _⟩ =>
    exact concatenate_apply_piece (0 : Fin S3x384.rank) [⟨S1x384, v0⟩, ⟨S1x384, v1⟩, ⟨S1x384, v2⟩]
      concatenates_S1x384_S1x384_S1x384_S3x384_d0 (ix2 _ j) 1 (by show (1 : Nat) < 3; decide)
      S1x384 v1 rfl rfl 1 rfl (ix2 (0 : Fin 1) j) (hi _) rfl
  | ⟨2, _⟩ =>
    exact concatenate_apply_piece (0 : Fin S3x384.rank) [⟨S1x384, v0⟩, ⟨S1x384, v1⟩, ⟨S1x384, v2⟩]
      concatenates_S1x384_S1x384_S1x384_S3x384_d0 (ix2 _ j) 2 (by show (2 : Nat) < 3; decide)
      S1x384 v2 rfl rfl 2 rfl (ix2 (0 : Fin 1) j) (hi _) rfl

/-- What is stored into the buffer of sums, at `(0, cc, j)`: the old entry plus the `cc`-th of the three column sums
    (the first two handed in, the third taken here from branch 2's `z`). -/
theorem pay2_apply (x : FVec Ideal S1000x128 .bf16) (s0 s1 : FVec Ideal S384 .f32) (w : FVec Ideal S1x128x384 .f32)
    (b : FVec Ideal S1x384 .f32) (old : FVec Ideal S1x3x384 .f32) (cc : Fin 3) (j : Fin 384) :
    k0_pay2 x s0 s1 w b old (ix3 (0 : Fin 1) cc j)
      = old (ix3 (0 : Fin 1) cc j) + pick3 cc (s0 (ix1 j)) (s1 (ix1 j)) (∑ r : Fin 1000, zT x w b r j) := by
  unfold k0_pay2
  refine (shapeCast_ab_1ab_apply _ shapeCasts_S3x384_S1x3x384 (0 : Fin 1) cc j).trans ?_
  refine congrArg₂ (· + ·) (shapeCast_1ab_ab_apply old shapeCasts_S1x3x384_S3x384 cc j) ?_
  refine (concat3_apply _ _ _ cc j).trans ?_
  match cc with
  | ⟨0, _⟩ => exact shapeCast_a_1a_apply s0 shapeCasts_S384_S1x384 (0 : Fin 1) j
  | ⟨1, _⟩ => exact shapeCast_a_1a_apply s1 shapeCasts_S384_S1x384 (0 : Fin 1) j
  | ⟨2, _⟩ =>
    exact (shapeCast_a_1a_apply _ shapeCasts_S384_S1x384 (0 : Fin 1) j).trans
      ((colsum_apply _ j).trans (Finset.sum_congr rfl fun r _ => pay1_apply x w b r j))

/-- What is stored into the buffer of sums of squares, likewise. -/
theorem pay3_apply (x : FVec Ideal S1000x128 .bf16) (q0 q1 : FVec Ideal S384 .f32) (w : FVec Ideal S1x128x384 .f32)
    (b : FVec Ideal S1x384 .f32) (old : FVec Ideal S1x3x384 .f32) (cc : Fin 3) (j : Fin 384) :
    k0_pay3 x q0 q1 w b old (ix3 (0 : Fin 1) cc j)
      = old (ix3 (0 : Fin 1) cc j) + pick3 cc (q0 (ix1 j)) (q1 (ix1 j)) (∑ r : Fin 1000, zT x w b r j * zT x w b r j) := by
  unfold k0_pay3
  refine (shapeCast_ab_1ab_apply _ shapeCasts_S3x384_S1x3x384 (0 : Fin 1) cc j).trans ?_
  refine congrArg₂ (· + ·) (shapeCast_1ab_ab_apply old shapeCasts_S1x3x384_S3x384 cc j) ?_
  refine (concat3_apply _ _ _ cc j).trans ?_
  match cc with
  | ⟨0, _⟩ => exact shapeCast_a_1a_apply q0 shapeCasts_S384_S1x384 (0 : Fin 1) j
  | ⟨1, _⟩ => exact shapeCast_a_1a_apply q1 shapeCasts_S384_S1x384 (0 : Fin 1) j
  | ⟨2, _⟩ =>
    exact (shapeCast_a_1a_apply _ shapeCasts_S384_S1x384 (0 : Fin 1) j).trans
      ((colsum_apply _ j).trans (Finset.sum_congr rfl fun r _ =>
        congrArg₂ (· * ·) (pay1_apply x w b r j) (pay1_apply x w b r j)))

/-- ONE POINT'S STEP, sums: with the three tiles `x0 x1 x2`, the three weight matrices and bias rows as loaded, the
    body stores `old + ∑ r, z_cc r j` at `(0, cc, j)`. -/
theorem step_sum_apply (x0 x1 x2 : FVec Ideal S1000x128 .bf16) (w0 w1 w2 : FVec Ideal S1x128x384 .f32)
    (b0 b1 b2 : FVec Ideal S1x384 .f32) (old : FVec Ideal S1x3x384 .f32) (cc : Fin 3) (j : Fin 384) :
    k0_pay2 (k0_pay6 (F := Ideal) x2) (k0_pay8 (F := Ideal) x0 w0 b0) (k0_pay11 (F := Ideal) x1 w1 b1) w2 b2 old
        (ix3 (0 : Fin 1) cc j)
      = old (ix3 (0 : Fin 1) cc j)
        + ∑ r : Fin 1000, zT (pick3 cc x0 x1 x2) (pick3 cc w0 w1 w2) (pick3 cc b0 b1 b2) r j := by
  refine (pay2_apply _ _ _ w2 b2 old cc j).trans (congrArg (old (ix3 (0 : Fin 1) cc j) + ·) ?_)
  match cc with
  | ⟨0, _⟩ => exact pay8_apply x0 w0 b0 j
  | ⟨1, _⟩ => exact pay11_apply x1 w1 b1 j
  | ⟨2, _⟩ => exact congrArg (fun x => ∑ r : Fin 1000, zT x w2 b2 r j) (pay6_eq x2)

/-- ONE POINT'S STEP, sums of squares. -/
theorem step_sq_apply (x0 x1 x2 : FVec Ideal S1000x128 .bf16) (w0 w1 w2 : FVec Ideal S1x128x384 .f32)
    (b0 b1 b2 : FVec Ideal S1x384 .f32) (old : FVec Ideal S1x3x384 .f32) (cc : Fin 3) (j : Fin 384) :
    k0_pay3 (k0_pay6 (F := Ideal) x2) (k0_pay9 (F := Ideal) x0 w0 b0) (k0_pay12 (F := Ideal) x1 w1 b1) w2 b2 old
        (ix3 (0 : Fin 1) cc j)
      = old (ix3 (0 : Fin 1) cc j)
        + ∑ r : Fin 1000, zT (pick3 cc x0 x1 x2) (pick3 cc w0 w1 w2) (pick3 cc b0 b1 b2) r j
            * zT (pick3 cc x0 x1 x2) (pick3 cc w0 w1 w2) (pick3 cc b0 b1 b2) r j := by
  refine (pay3_apply _ _ _ w2 b2 old cc j).trans (congrArg (old (ix3 (0 : Fin 1) cc j) + ·) ?_)
  match cc with
  | ⟨0, _⟩ => exact pay9_apply x0 w0 b0 j
  | ⟨1, _⟩ => exact pay12_apply x1 w1 b1 j
  | ⟨2, _⟩ => exact congrArg (fun x => ∑ r : Fin 1000, zT x w2 b2 r j * zT x w2 b2 r j) (pay6_eq x2)

/-- The reset's payloads: zero everywhere. -/
theorem pay4_apply (u : Fin 1) (cc : Fin 3) (j : Fin 384) : k0_pay4 (F := Ideal) (ix3 u cc j) = 0 := by
  unfold k0_pay4
  exact (shapeCast_ab_1ab_apply _ shapeCasts_S3x384_S1x3x384 u cc j).trans Ideal.ofBits_zero_f32

theorem pay5_apply (u : Fin 1) (cc : Fin 3) (j : Fin 384) : k0_pay5 (F := Ideal) (ix3 u cc j) = 0 := by
  unfold k0_pay5
  exact (shapeCast_ab_1ab_apply _ shapeCasts_S3x384_S1x3x384 u cc j).trans Ideal.ofBits_zero_f32

end Cert.KernelIdeal.HandV.Stats0

end
-- ==== Proof.KV.StatsAcc0.lean ====
import proofs.«414290_j6631429505478_3_alg».proof.Proof.KI.Stats0
import proofs.«414290_j6631429505478_3_alg».proof.Proof.KV.StatsPay0
import Idealize.ShloMosaic.Lib.Pipeline.Value
import Idealize.ShloMosaic.Lib.ValueLayout
import Idealize.ShloMosaic.PureOps.Ideal.Laws

set_option maxRecDepth 16384

noncomputable section

namespace Cert.KernelIdeal.HandV.Stats0

open Idealize.ShloMosaic Idealize.ShloMosaic.TcCoe Idealize.ShloMosaic.ValueIdx Idealize.ShloMosaic.Tactic Idealize.SL.Sem
open Cert.KernelIdeal Cert.KernelIdeal.Gen Cert.KernelIdeal.Hand
open Idealize.ShloMosaic.Pipeline (Dat)

variable {F : FTy → Type} [FloatOps F]

theorem hz3 : (![0, 0, 0] : Fin 3 → Nat) = fun _ => 0 := funext fun a => by fin_cases a <;> rfl

/-! # The statistics kernel (384 columns): what its two output arrays end holding, at the ideal values

The grid is 2 cores × 25 points; point `t` reads rows `1000 t … 1000 t + 999` of the three branches' activations and the
whole weight and bias arrays. Both output buffers are zeroed at a core's first point, receive at every point the tile's
column sums of `z` (of `z * z`), and are written back at the core's last point into row `core` of the output arrays.
So entry `(core, cc, j)` of the array of sums is the sum of branch `cc`'s `z` at column `j` over the core's 25000 rows. -/

theorem hz2 : (![0, 0] : Fin 2 → Nat) = fun _ => 0 := funext fun a => by fin_cases a <;> rfl

/-- Case A (a row's first point) leaves in the buffer of sums the step over the zero block; -/
theorem out_A_5 (c : Dev nD) (i : grid0.Coords) (arg2 : Memref sig .tc .vmem S1000x128 .bf16) (harg2 : arg2.IsWhole) (arg3 : Memref sig .tc .vmem S1000x128 .bf16) (harg3 : arg3.IsWhole) (arg4 : Memref sig .tc .vmem S1000x128 .bf16) (harg4 : arg4.IsWhole) (arg5 : Memref sig .tc .vmem S3x128x384 .f32) (harg5 : arg5.IsWhole) (arg6 : Memref sig .tc .vmem S3x384 .f32) (harg6 : arg6.IsWhole) (arg7 : Memref sig .tc .vmem S1x3x384 .f32) (harg7 : arg7.IsWhole) (arg8 : Memref sig .tc .vmem S1x3x384 .f32) (harg8 : arg8.IsWhole) (hc0 : cond0_0 i) (x0 x1 x2 : Vec F S1000x128 .bf16) (x3 : Vec F S3x128x384 .f32) (x4 : Vec F S3x384 .f32) :
    out0_A_5 c i arg2 harg2 arg3 harg3 arg4 harg4 arg5 harg5 arg6 harg6 arg7 harg7 arg8 harg8 hc0 x0 x1 x2 x3 x4
      = k0_pay2 (k0_pay6 x2) (k0_pay8 x0 (View.ld x3 (Rect.unit (s := S3x128x384) ![0, 0, 0] S1x128x384.size inb_S3x128x384_S1x128x384_0_0_0)) (View.ld x4 (Rect.unit (s := S3x384) ![0, 0] S1x384.size inb_S3x384_S1x384_0_0)))
        (k0_pay11 x1 (View.ld x3 (Rect.unit (s := S3x128x384) ![1, 0, 0] S1x128x384.size inb_S3x128x384_S1x128x384_1_0_0)) (View.ld x4 (Rect.unit (s := S3x384) ![1, 0] S1x384.size inb_S3x384_S1x384_1_0)))
        (View.ld x3 (Rect.unit (s := S3x128x384) ![2, 0, 0] S1x128x384.size inb_S3x128x384_S1x128x384_2_0_0)) (View.ld x4 (Rect.unit (s := S3x384) ![2, 0] S1x384.size inb_S3x384_S1x384_2_0)) (k0_pay4 (F := F)) := by
  unfold out0_A_5
  rw [View.read_writes_eq_canon _ _ _ (cover0_A_5 c i arg2 harg2 arg3 harg3 arg4 harg4 arg5 harg5 arg6 harg6 arg7 harg7 arg8 harg8 hc0 x0 x1 x2 x3 x4)]
  unfold kernelRun0_A
  dsimp only
  sl_unfold_words
  rw [View.canon_cons_unit_zero (S := S1x3x384) hz3, View.readCov_unit_zero (S := S1x3x384) _ hz3]
  simp only [View.readAt_eq_ld, harg2.read_unread, harg3.read_unread, harg4.read_unread, harg5.read_unread,
    harg6.read_unread, View.ld_unit_zero (S := S1000x128) hz2]

/-- and in the buffer of sums of squares likewise. -/
theorem out_A_6 (c : Dev nD) (i : grid0.Coords) (arg2 : Memref sig .tc .vmem S1000x128 .bf16) (harg2 : arg2.IsWhole) (arg3 : Memref sig .tc .vmem S1000x128 .bf16) (harg3 : arg3.IsWhole) (arg4 : Memref sig .tc .vmem S1000x128 .bf16) (harg4 : arg4.IsWhole) (arg5 : Memref sig .tc .vmem S3x128x384 .f32) (harg5 : arg5.IsWhole) (arg6 : Memref sig .tc .vmem S3x384 .f32) (harg6 : arg6.IsWhole) (arg7 : Memref sig .tc .vmem S1x3x384 .f32) (harg7 : arg7.IsWhole) (arg8 : Memref sig .tc .vmem S1x3x384 .f32) (harg8 : arg8.IsWhole) (hc0 : cond0_0 i) (x0 x1 x2 : Vec F S1000x128 .bf16) (x3 : Vec F S3x128x384 .f32) (x4 : Vec F S3x384 .f32) :
    out0_A_6 c i arg2 harg2 arg3 harg3 arg4 harg4 arg5 harg5 arg6 harg6 arg7 harg7 arg8 harg8 hc0 x0 x1 x2 x3 x4
      = k0_pay3 (k0_pay6 x2) (k0_pay9 x0 (View.ld x3 (Rect.unit (s := S3x128x384) ![0, 0, 0] S1x128x384.size inb_S3x128x384_S1x128x384_0_0_0)) (View.ld x4 (Rect.unit (s := S3x384) ![0, 0] S1x384.size inb_S3x384_S1x384_0_0)))
        (k0_pay12 x1 (View.ld x3 (Rect.unit (s := S3x128x384) ![1, 0, 0] S1x128x384.size inb_S3x128x384_S1x128x384_1_0_0)) (View.ld x4 (Rect.unit (s := S3x384) ![1, 0] S1x384.size inb_S3x384_S1x384_1_0)))
        (View.ld x3 (Rect.unit (s := S3x128x384) ![2, 0, 0] S1x128x384.size inb_S3x128x384_S1x128x384_2_0_0)) (View.ld x4 (Rect.unit (s := S3x384) ![2, 0] S1x384.size inb_S3x384_S1x384_2_0)) (k0_pay5 (F := F)) := by
  unfold out0_A_6
  rw [View.read_writes_eq_canon _ _ _ (cover0_A_6 c i arg2 harg2 arg3 harg3 arg4 harg4 arg5 harg5 arg6 harg6 arg7 harg7 arg8 harg8 hc0 x0 x1 x2 x3 x4)]
  unfold kernelRun0_A
  dsimp only
  sl_unfold_words
  rw [View.canon_cons_unit_zero (S := S1x3x384) hz3, View.readCov_unit_zero (S := S1x3x384) _ hz3]
  simp only [View.readAt_eq_ld, harg2.read_unread, harg3.read_unread, harg4.read_unread, harg5.read_unread,
    harg6.read_unread, View.ld_unit_zero (S := S1000x128) hz2]

/-- Case B (any other point) leaves the step over what the buffer held; -/
theorem out_B_5 (c : Dev nD) (i : grid0.Coords) (arg2 : Memref sig .tc .vmem S1000x128 .bf16) (harg2 : arg2.IsWhole) (arg3 : Memref sig .tc .vmem S1000x128 .bf16) (harg3 : arg3.IsWhole) (arg4 : Memref sig .tc .vmem S1000x128 .bf16) (harg4 : arg4.IsWhole) (arg5 : Memref sig .tc .vmem S3x128x384 .f32) (harg5 : arg5.IsWhole) (arg6 : Memref sig .tc .vmem S3x384 .f32) (harg6 : arg6.IsWhole) (arg7 : Memref sig .tc .vmem S1x3x384 .f32) (harg7 : arg7.IsWhole) (arg8 : Memref sig .tc .vmem S1x3x384 .f32) (harg8 : arg8.IsWhole) (hc0 : ¬cond0_0 i) (x0 x1 x2 : Vec F S1000x128 .bf16) (x3 : Vec F S3x128x384 .f32) (x4 : Vec F S3x384 .f32) (xo5 xo6 : Vec F S1x3x384 .f32) :
    out0_B_5 c i arg2 harg2 arg3 harg3 arg4 harg4 arg5 harg5 arg6 harg6 arg7 harg7 arg8 harg8 hc0 x0 x1 x2 x3 x4 xo5 xo6
      = k0_pay2 (k0_pay6 x2) (k0_pay8 x0 (View.ld x3 (Rect.unit (s := S3x128x384) ![0, 0, 0] S1x128x384.size inb_S3x128x384_S1x128x384_0_0_0)) (View.ld x4 (Rect.unit (s := S3x384) ![0, 0] S1x384.size inb_S3x384_S1x384_0_0)))
        (k0_pay11 x1 (View.ld x3 (Rect.unit (s := S3x128x384) ![1, 0, 0] S1x128x384.size inb_S3x128x384_S1x128x384_1_0_0)) (View.ld x4 (Rect.unit (s := S3x384) ![1, 0] S1x384.size inb_S3x384_S1x384_1_0)))
        (View.ld x3 (Rect.unit (s := S3x128x384) ![2, 0, 0] S1x128x384.size inb_S3x128x384_S1x128x384_2_0_0)) (View.ld x4 (Rect.unit (s := S3x384) ![2, 0] S1x384.size inb_S3x384_S1x384_2_0)) xo5 := by
  unfold out0_B_5
  rw [View.read_writes_eq_canon _ _ _ (cover0_B_5 c i arg2 harg2 arg3 harg3 arg4 harg4 arg5 harg5 arg6 harg6 arg7 harg7 arg8 harg8 hc0 x0 x1 x2 x3 x4 xo5 xo6)]
  unfold kernelRun0_B
  dsimp only
  sl_unfold_words
  rw [View.canon_unit_zero (S := S1x3x384) hz3]
  simp only [View.readAt_eq_ld, harg2.read_unread, harg3.read_unread, harg4.read_unread, harg5.read_unread,
    harg6.read_unread, harg7.read_unread, harg8.read_unread, View.ld_unit_zero (S := S1000x128) hz2,
    View.ld_unit_zero (S := S1x3x384) hz3]

theorem out_B_6 (c : Dev nD) (i : grid0.Coords) (arg2 : Memref sig .tc .vmem S1000x128 .bf16) (harg2 : arg2.IsWhole) (arg3 : Memref sig .tc .vmem S1000x128 .bf16) (harg3 : arg3.IsWhole) (arg4 : Memref sig .tc .vmem S1000x128 .bf16) (harg4 : arg4.IsWhole) (arg5 : Memref sig .tc .vmem S3x128x384 .f32) (harg5 : arg5.IsWhole) (arg6 : Memref sig .tc .vmem S3x384 .f32) (harg6 : arg6.IsWhole) (arg7 : Memref sig .tc .vmem S1x3x384 .f32) (harg7 : arg7.IsWhole) (arg8 : Memref sig .tc .vmem S1x3x384 .f32) (harg8 : arg8.IsWhole) (hc0 : ¬cond0_0 i) (x0 x1 x2 : Vec F S1000x128 .bf16) (x3 : Vec F S3x128x384 .f32) (x4 : Vec F S3x384 .f32) (xo5 xo6 : Vec F S1x3x384 .f32) :
    out0_B_6 c i arg2 harg2 arg3 harg3 arg4 harg4 arg5 harg5 arg6 harg6 arg7 harg7 arg8 harg8 hc0 x0 x1 x2 x3 x4 xo5 xo6
      = k0_pay3 (k0_pay6 x2) (k0_pay9 x0 (View.ld x3 (Rect.unit (s := S3x128x384) ![0, 0, 0] S1x128x384.size inb_S3x128x384_S1x128x384_0_0_0)) (View.ld x4 (Rect.unit (s := S3x384) ![0, 0] S1x384.size inb_S3x384_S1x384_0_0)))
        (k0_pay12 x1 (View.ld x3 (Rect.unit (s := S3x128x384) ![1, 0, 0] S1x128x384.size inb_S3x128x384_S1x128x384_1_0_0)) (View.ld x4 (Rect.unit (s := S3x384) ![1, 0] S1x384.size inb_S3x384_S1x384_1_0)))
        (View.ld x3 (Rect.unit (s := S3x128x384) ![2, 0, 0] S1x128x384.size inb_S3x128x384_S1x128x384_2_0_0)) (View.ld x4 (Rect.unit (s := S3x384) ![2, 0] S1x384.size inb_S3x384_S1x384_2_0)) xo6 := by
  unfold out0_B_6
  rw [View.read_writes_eq_canon _ _ _ (cover0_B_6 c i arg2 harg2 arg3 harg3 arg4 harg4 arg5 harg5 arg6 harg6 arg7 harg7 arg8 harg8 hc0 x0 x1 x2 x3 x4 xo5 xo6)]
  unfold kernelRun0_B
  dsimp only
  sl_unfold_words
  rw [View.canon_unit_zero (S := S1x3x384) hz3]
  simp only [View.readAt_eq_ld, harg2.read_unread, harg3.read_unread, harg4.read_unread, harg5.read_unread,
    harg6.read_unread, harg7.read_unread, harg8.read_unread, View.ld_unit_zero (S := S1000x128) hz2,
    View.ld_unit_zero (S := S1x3x384) hz3]

/-! ## The accumulation over the points, at the ideal values -/

section Acc

variable (V : (c : Dev nD) → (b : Ref sig .tc) → Buf (Elt Ideal) ((c : Thread nD τ).loc b))

/-- The value `z` of branch `cc` at row `R` of the whole arrays: activations `X` (50000 × 128), the three weight
    matrices `Wt` (3 × 128 × 384) and bias rows `B` (3 × 384). -/
def zArr (X : FVec Ideal S50000x128 .bf16) (Wt : FVec Ideal S3x128x384 .f32) (B : FVec Ideal S3x384 .f32)
    (cc : Fin 3) (R : Fin 50000) (j : Fin 384) : EReal :=
  (∑ k : Fin 128, X (ix2 R k) * Wt (ix3 cc k j)) + B (ix2 cc j)

/-- The arrays as the region finds them: the three branches' activations, the weights, the biases. -/
abbrev xarr (c : Dev nD) (cc : Fin 3) : FVec Ideal S50000x128 .bf16 :=
  pick3 cc (V c (Pipeline.arrRef spec0 0)) (V c (Pipeline.arrRef spec0 1)) (V c (Pipeline.arrRef spec0 2))
abbrev warr (c : Dev nD) : FVec Ideal S3x128x384 .f32 := V c (Pipeline.arrRef spec0 3)
abbrev barr (c : Dev nD) : FVec Ideal S3x384 .f32 := V c (Pipeline.arrRef spec0 4)

/-- The blocks the body finds at point `t`, at their literal types. -/
abbrev xb0 (c : Dev nD) (t : Fin cfg0.N) : FVec Ideal S1000x128 .bf16 := iblk0 V c 0 t
abbrev xb1 (c : Dev nD) (t : Fin cfg0.N) : FVec Ideal S1000x128 .bf16 := iblk0 V c 1 t
abbrev xb2 (c : Dev nD) (t : Fin cfg0.N) : FVec Ideal S1000x128 .bf16 := iblk0 V c 2 t
abbrev wb (c : Dev nD) (t : Fin cfg0.N) : Vec Ideal S3x128x384 .f32 := iblk0 V c 3 t
abbrev bb (c : Dev nD) (t : Fin cfg0.N) : Vec Ideal S3x384 .f32 := iblk0 V c 4 t

/-- The printed index maps, decided over the grid: the activations' blocks move with the point (block `t` of 50 row
    blocks), the weights' and biases' block is the whole array, the outputs' block is the core's (`t / 25`). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0
    ∧ win0_5.index t (0 : Fin 3) = t.val / 25 ∧ win0_5.index t (1 : Fin 3) = 0 ∧ win0_5.index t (2 : Fin 3) = 0
    ∧ win0_6.index t (0 : Fin 3) = t.val / 25 ∧ win0_6.index t (1 : Fin 3) = 0 ∧ win0_6.index t (2 : Fin 3) = 0 :=
  (by decide +kernel : ∀ t : Fin grid0.N, _)

theorem row_lt (t : Fin cfg0.N) (r : Fin 1000) : t.val * 1000 + r.val < 50000 := by
  have h : t.val < 50 := lt_of_lt_of_eq t.isLt (show cfg0.N = 50 from N_0)
  have := r.isLt; omega

theorem rowOf_lt (core : Fin 2) (i : Fin 25) (r : Fin 1000) : (core.val * 25 + i.val) * 1000 + r.val < 50000 := by
  have := core.isLt; have := i.isLt; have := r.isLt; omega

/-- Row `r` of the activations' block at point `t` is row `1000 t + r` of the array. -/
theorem xb0_apply (c : Dev nD) (t : Fin cfg0.N) (r : Fin 1000) (k : Fin 128) :
    xb0 V c t (ix2 r k) = xarr V c 0 (ix2 ⟨t.val * 1000 + r.val, row_lt t r⟩ k) := by
  obtain ⟨e0, e1, -⟩ := idx_facts t
  unfold xb0 iblk0
  rw [View.read_apply]
  show V c (Pipeline.arrRef spec0 0) _ = V c (Pipeline.arrRef spec0 0) _
  congr 1
  funext a
  apply Fin.ext
  match a with
  | ⟨0, _⟩ => show win0_0.index t (0 : Fin 2) * 1000 + 1 * r.val = t.val * 1000 + r.val; rw [e0]; omega
  | ⟨1, _⟩ => show win0_0.index t (1 : Fin 2) * 128 + 1 * k.val = k.val; rw [e1]; omega

theorem xb1_apply (c : Dev nD) (t : Fin cfg0.N) (r : Fin 1000) (k : Fin 128) :
    xb1 V c t (ix2 r k) = xarr V c 1 (ix2 ⟨t.val * 1000 + r.val, row_lt t r⟩ k) := by
  obtain ⟨-, -, e0, e1, -⟩ := idx_facts t
  unfold xb1 iblk0
  rw [View.read_apply]
  show V c (Pipeline.arrRef spec0 1) _ = V c (Pipeline.arrRef spec0 1) _
  congr 1
  funext a
  apply Fin.ext
  match a with
  | ⟨0, _⟩ => show win0_1.index t (0 : Fin 2) * 1000 + 1 * r.val = t.val * 1000 + r.val; rw [e0]; omega
  | ⟨1, _⟩ => show win0_1.index t (1 : Fin 2) * 128 + 1 * k.val = k.val; rw [e1]; omega

theorem xb2_apply (c : Dev nD) (t : Fin cfg0.N) (r : Fin 1000) (k : Fin 128) :
    xb2 V c t (ix2 r k) = xarr V c 2 (ix2 ⟨t.val * 1000 + r.val, row_lt t r⟩ k) := by
  obtain ⟨-, -, -, -, e0, e1, -⟩ := idx_facts t
  unfold xb2 iblk0
  rw [View.read_apply]
  show V c (Pipeline.arrRef spec0 2) _ = V c (Pipeline.arrRef spec0 2) _
  congr 1
  funext a
  apply Fin.ext
  match a with
  | ⟨0, _⟩ => show win0_2.index t (0 : Fin 2) * 1000 + 1 * r.val = t.val * 1000 + r.val; rw [e0]; omega
  | ⟨1, _⟩ => show win0_2.index t (1 : Fin 2) * 128 + 1 * k.val = k.val; rw [e1]; omega

/-- The weights' block is the whole array, and the body's load of matrix `n` reads matrix `n`. -/
theorem wb_apply (c : Dev nD) (t : Fin cfg0.N) (n : Fin 3) (off : Fin 3 → Nat) (hoff : off = ![n.val, 0, 0])
    (inb : ∀ a, off a + S1x128x384.size a ≤ S3x128x384.size a) (k : Fin 128) (j : Fin 384) :
    (View.ld (Val := Elt Ideal) (wb V c t) (Rect.unit (s := S3x128x384) off S1x128x384.size inb) : FVec Ideal S1x128x384 .f32)
        (ix3 (0 : Fin 1) k j) = warr V c (ix3 n k j) := by
  subst hoff
  obtain ⟨-, -, -, -, -, -, e0, e1, e2, -⟩ := idx_facts t
  unfold wb iblk0
  show ((cfg0.win 3).blk t).view.read (Elt Ideal) (V c (Pipeline.arrRef spec0 3)) _ = _
  rw [View.read_apply]
  show V c (Pipeline.arrRef spec0 3) _ = V c (Pipeline.arrRef spec0 3) _
  congr 1
  funext a
  apply Fin.ext
  match a with
  | ⟨0, _⟩ => show win0_3.index t (0 : Fin 3) * 3 + 1 * (n.val + 1 * 0) = n.val; rw [e0]; omega
  | ⟨1, _⟩ => show win0_3.index t (1 : Fin 3) * 128 + 1 * (0 + 1 * k.val) = k.val; rw [e1]; omega
  | ⟨2, _⟩ => show win0_3.index t (2 : Fin 3) * 384 + 1 * (0 + 1 * j.val) = j.val; rw [e2]; omega

/-- The biases' block is the whole array, and the body's load of row `n` reads row `n`. -/
theorem bb_apply (c : Dev nD) (t : Fin cfg0.N) (n : Fin 3) (off : Fin 2 → Nat) (hoff : off = ![n.val, 0])
    (inb : ∀ a, off a + S1x384.size a ≤ S3x384.size a) (j : Fin 384) :
    (View.ld (Val := Elt Ideal) (bb V c t) (Rect.unit (s := S3x384) off S1x384.size inb) : FVec Ideal S1x384 .f32)
        (ix2 (0 : Fin 1) j) = barr V c (ix2 n j) := by
  subst hoff
  obtain ⟨-, -, -, -, -, -, -, -, -, e0, e1, -⟩ := idx_facts t
  unfold bb iblk0
  show ((cfg0.win 4).blk t).view.read (Elt Ideal) (V c (Pipeline.arrRef spec0 4)) _ = _
  rw [View.read_apply]
  show V c (Pipeline.arrRef spec0 4) _ = V c (Pipeline.arrRef spec0 4) _
  congr 1
  funext a
  apply Fin.ext
  match a with
  | ⟨0, _⟩ => show win0_4.index t (0 : Fin 2) * 3 + 1 * (n.val + 1 * 0) = n.val; rw [e0]; omega
  | ⟨1, _⟩ => show win0_4.index t (1 : Fin 2) * 384 + 1 * (0 + 1 * j.val) = j.val; rw [e1]; omega

/-- The weights and biases the body loads at point `t`, by branch. -/
abbrev wl (c : Dev nD) (t : Fin cfg0.N) (cc : Fin 3) : FVec Ideal S1x128x384 .f32 :=
  pick3 cc (View.ld (Val := Elt Ideal) (wb V c t) (Rect.unit (s := S3x128x384) ![0, 0, 0] S1x128x384.size inb_S3x128x384_S1x128x384_0_0_0)) (View.ld (Val := Elt Ideal) (wb V c t) (Rect.unit (s := S3x128x384) ![1, 0, 0] S1x128x384.size inb_S3x128x384_S1x128x384_1_0_0)) (View.ld (Val := Elt Ideal) (wb V c t) (Rect.unit (s := S3x128x384) ![2, 0, 0] S1x128x384.size inb_S3x128x384_S1x128x384_2_0_0))
abbrev bl (c : Dev nD) (t : Fin cfg0.N) (cc : Fin 3) : FVec Ideal S1x384 .f32 :=
  pick3 cc (View.ld (Val := Elt Ideal) (bb V c t) (Rect.unit (s := S3x384) ![0, 0] S1x384.size inb_S3x384_S1x384_0_0)) (View.ld (Val := Elt Ideal) (bb V c t) (Rect.unit (s := S3x384) ![1, 0] S1x384.size inb_S3x384_S1x384_1_0)) (View.ld (Val := Elt Ideal) (bb V c t) (Rect.unit (s := S3x384) ![2, 0] S1x384.size inb_S3x384_S1x384_2_0))

/-- One tile's `z` is the arrays' `z` at the tile's rows. -/
theorem zT_blocks (c : Dev nD) (t : Fin cfg0.N) (cc : Fin 3) (r : Fin 1000) (j : Fin 384) :
    zT (pick3 cc (xb0 V c t) (xb1 V c t) (xb2 V c t)) (wl V c t cc) (bl V c t cc) r j
      = zArr (xarr V c cc) (warr V c) (barr V c) cc ⟨t.val * 1000 + r.val, row_lt t r⟩ j := by
  unfold zT zArr
  match cc with
  | ⟨0, _⟩ =>
    exact congrArg₂ (· + ·) (Finset.sum_congr rfl fun k _ =>
      congrArg₂ (· * ·) (xb0_apply V c t r k) (wb_apply V c t 0 _ rfl _ k j)) (bb_apply V c t 0 _ rfl _ j)
  | ⟨1, _⟩ =>
    exact congrArg₂ (· + ·) (Finset.sum_congr rfl fun k _ =>
      congrArg₂ (· * ·) (xb1_apply V c t r k) (wb_apply V c t 1 _ rfl _ k j)) (bb_apply V c t 1 _ rfl _ j)
  | ⟨2, _⟩ =>
    exact congrArg₂ (· + ·) (Finset.sum_congr rfl fun k _ =>
      congrArg₂ (· * ·) (xb2_apply V c t r k) (wb_apply V c t 2 _ rfl _ k j)) (bb_apply V c t 2 _ rfl _ j)

/-- The sum over one tile's rows, and of the squares. -/
def tileSum (c : Dev nD) (cc : Fin 3) (j : Fin 384) (t : Fin cfg0.N) : EReal :=
  ∑ r : Fin 1000, zArr (xarr V c cc) (warr V c) (barr V c) cc ⟨t.val * 1000 + r.val, row_lt t r⟩ j
def tileSq (c : Dev nD) (cc : Fin 3) (j : Fin 384) (t : Fin cfg0.N) : EReal :=
  ∑ r : Fin 1000, zArr (xarr V c cc) (warr V c) (barr V c) cc ⟨t.val * 1000 + r.val, row_lt t r⟩ j
    * zArr (xarr V c cc) (warr V c) (barr V c) cc ⟨t.val * 1000 + r.val, row_lt t r⟩ j

/-- What the two buffers hold after point `n`, at their literal type. -/
abbrev acc5 (c : Dev nD) (n : ℕ) (h : n < cfg0.N) : FVec Ideal S1x3x384 .f32 := (outsAt0 V c n h).1
abbrev acc6 (c : Dev nD) (n : ℕ) (h : n < cfg0.N) : FVec Ideal S1x3x384 .f32 := (outsAt0 V c n h).2

/-- At a row's first point the buffer of sums holds that tile's sums; -/
theorem acc5_A (c : Dev nD) (t : Fin cfg0.N) (h0 : t.val % 25 = 0) (cc : Fin 3) (j : Fin 384) :
    acc5 V c t.val t.isLt (ix3 (0 : Fin 1) cc j) = tileSum V c cc j t := by
  unfold acc5
  rw [outsAt0_A V c t h0]
  dsimp only
  refine (congrFun (out_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0)
    (iblk0 V c 0 t) (iblk0 V c 1 t) (iblk0 V c 2 t) (iblk0 V c 3 t) (iblk0 V c 4 t)) (ix3 (0 : Fin 1) cc j)).trans ?_
  refine (step_sum_apply (xb0 V c t) (xb1 V c t) (xb2 V c t) (wl V c t 0) (wl V c t 1) (wl V c t 2)
    (bl V c t 0) (bl V c t 1) (bl V c t 2) (k0_pay4 (F := Ideal)) cc j).trans ?_
  refine ((congrArg (· + _) (pay4_apply (0 : Fin 1) cc j)).trans (zero_add _)).trans ?_
  refine Finset.sum_congr rfl fun r _ => ?_
  refine Eq.trans ?_ (zT_blocks V c t cc r j)
  match cc with
  | ⟨0, _⟩ => rfl
  | ⟨1, _⟩ => rfl
  | ⟨2, _⟩ => rfl

/-- at any other point what it held plus that tile's sums. -/
theorem acc5_B (c : Dev nD) (t : Fin cfg0.N) (h0 : ¬t.val % 25 = 0) (cc : Fin 3) (j : Fin 384) :
    acc5 V c t.val t.isLt (ix3 (0 : Fin 1) cc j)
      = acc5 V c (t.val - 1) (Nat.lt_of_le_of_lt (Nat.sub_le _ _) t.isLt) (ix3 (0 : Fin 1) cc j) + tileSum V c cc j t := by
  unfold acc5
  rw [outsAt0_B V c t h0]
  dsimp only
  refine (congrFun (out_B_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h))
    (iblk0 V c 0 t) (iblk0 V c 1 t) (iblk0 V c 2 t) (iblk0 V c 3 t) (iblk0 V c 4 t)
    (outsAt0 V c (t.val - 1) (Nat.lt_of_le_of_lt (Nat.sub_le _ _) t.isLt)).1
    (outsAt0 V c (t.val - 1) (Nat.lt_of_le_of_lt (Nat.sub_le _ _) t.isLt)).2) (ix3 (0 : Fin 1) cc j)).trans ?_
  refine (step_sum_apply (xb0 V c t) (xb1 V c t) (xb2 V c t) (wl V c t 0) (wl V c t 1) (wl V c t 2)
    (bl V c t 0) (bl V c t 1) (bl V c t 2) (acc5 V c (t.val - 1) (Nat.lt_of_le_of_lt (Nat.sub_le _ _) t.isLt)) cc j).trans ?_
  refine congrArg (_ + ·) ?_
  refine Finset.sum_congr rfl fun r _ => ?_
  refine Eq.trans ?_ (zT_blocks V c t cc r j)
  match cc with
  | ⟨0, _⟩ => rfl
  | ⟨1, _⟩ => rfl
  | ⟨2, _⟩ => rfl

end Acc

section Acc6

variable (V : (c : Dev nD) → (b : Ref sig .tc) → Buf (Elt Ideal) ((c : Thread nD τ).loc b))

/-- The same for the buffer of sums of squares. -/
theorem acc6_A (c : Dev nD) (t : Fin cfg0.N) (h0 : t.val % 25 = 0) (cc : Fin 3) (j : Fin 384) :
    acc6 V c t.val t.isLt (ix3 (0 : Fin 1) cc j) = tileSq V c cc j t := by
  unfold acc6
  rw [outsAt0_A V c t h0]
  dsimp only
  refine (congrFun (out_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0)
    (iblk0 V c 0 t) (iblk0 V c 1 t) (iblk0 V c 2 t) (iblk0 V c 3 t) (iblk0 V c 4 t)) (ix3 (0 : Fin 1) cc j)).trans ?_
  refine (step_sq_apply (xb0 V c t) (xb1 V c t) (xb2 V c t) (wl V c t 0) (wl V c t 1) (wl V c t 2)
    (bl V c t 0) (bl V c t 1) (bl V c t 2) (k0_pay5 (F := Ideal)) cc j).trans ?_
  refine ((congrArg (· + _) (pay5_apply (0 : Fin 1) cc j)).trans (zero_add _)).trans ?_
  refine Finset.sum_congr rfl fun r _ => ?_
  refine Eq.trans ?_ (congrArg₂ (· * ·) (zT_blocks V c t cc r j) (zT_blocks V c t cc r j))
  match cc with
  | ⟨0, _⟩ => rfl
  | ⟨1, _⟩ => rfl
  | ⟨2, _⟩ => rfl

theorem acc6_B (c : Dev nD) (t : Fin cfg0.N) (h0 : ¬t.val % 25 = 0) (cc : Fin 3) (j : Fin 384) :
    acc6 V c t.val t.isLt (ix3 (0 : Fin 1) cc j)
      = acc6 V c (t.val - 1) (Nat.lt_of_le_of_lt (Nat.sub_le _ _) t.isLt) (ix3 (0 : Fin 1) cc j) + tileSq V c cc j t := by
  unfold acc6
  rw [outsAt0_B V c t h0]
  dsimp only
  refine (congrFun (out_B_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h))
    (iblk0 V c 0 t) (iblk0 V c 1 t) (iblk0 V c 2 t) (iblk0 V c 3 t) (iblk0 V c 4 t)
    (outsAt0 V c (t.val - 1) (Nat.lt_of_le_of_lt (Nat.sub_le _ _) t.isLt)).1
    (outsAt0 V c (t.val - 1) (Nat.lt_of_le_of_lt (Nat.sub_le _ _) t.isLt)).2) (ix3 (0 : Fin 1) cc j)).trans ?_
  refine (step_sq_apply (xb0 V c t) (xb1 V c t) (xb2 V c t) (wl V c t 0) (wl V c t 1) (wl V c t 2)
    (bl V c t 0) (bl V c t 1) (bl V c t 2) (acc6 V c (t.val - 1) (Nat.lt_of_le_of_lt (Nat.sub_le _ _) t.isLt)) cc j).trans ?_
  refine congrArg (_ + ·) ?_
  refine Finset.sum_congr rfl fun r _ => ?_
  refine Eq.trans ?_ (congrArg₂ (· * ·) (zT_blocks V c t cc r j) (zT_blocks V c t cc r j))
  match cc with
  | ⟨0, _⟩ => rfl
  | ⟨1, _⟩ => rfl
  | ⟨2, _⟩ => rfl

end Acc6

/-! ## From the points to the arrays -/

/-- A quantity reset at every 25th point and added to at the others is, after point `n`, the sum of the row's steps
    so far (the steps past the grid counted as zero). -/
def padN {N : ℕ} (tile : Fin N → EReal) (m : ℕ) : EReal := if hm : m < N then tile ⟨m, hm⟩ else 0

theorem padN_of_lt {N : ℕ} (tile : Fin N → EReal) (m : ℕ) (hm : m < N) : padN tile m = tile ⟨m, hm⟩ := dif_pos hm

theorem acc_eq_sum {N : ℕ} (acc : (n : ℕ) → n < N → EReal) (tile : Fin N → EReal)
    (hA : ∀ t : Fin N, t.val % 25 = 0 → acc t.val t.isLt = tile t)
    (hB : ∀ t : Fin N, ¬t.val % 25 = 0 →
      acc t.val t.isLt = acc (t.val - 1) (Nat.lt_of_le_of_lt (Nat.sub_le _ _) t.isLt) + tile t) :
    ∀ (n : ℕ) (h : n < N), acc n h = ∑ i ∈ Finset.range (n % 25 + 1), padN tile (n - n % 25 + i)
  | 0, h => by
    refine (hA ⟨0, h⟩ rfl).trans ?_
    rw [Finset.sum_range_one]
    exact (padN_of_lt tile 0 h).symm.trans (congrArg (padN tile) (by omega))
  | n + 1, h => by
    by_cases h0 : (n + 1) % 25 = 0
    · refine (hA ⟨n + 1, h⟩ h0).trans ?_
      rw [h0, Finset.sum_range_one]
      exact (padN_of_lt tile (n + 1) h).symm.trans (congrArg (padN tile) (by omega))
    · refine (hB ⟨n + 1, h⟩ h0).trans ?_
      have ih := acc_eq_sum acc tile hA hB n (Nat.lt_of_succ_lt h)
      show acc n _ + tile ⟨n + 1, h⟩ = _
      rw [ih]
      have e1 : (n + 1) % 25 = n % 25 + 1 := by omega
      have e2 : n + 1 - (n % 25 + 1) = n - n % 25 := by omega
      have e3 : n - n % 25 + (n % 25 + 1) = n + 1 := by omega
      rw [e1, e2, Finset.sum_range_succ (fun i => padN tile (n - n % 25 + i)) (n % 25 + 1), e3]
      exact congrArg (_ + ·) (padN_of_lt tile (n + 1) h).symm

section Final

variable (V : (c : Dev nD) → (b : Ref sig .tc) → Buf (Elt Ideal) ((c : Thread nD τ).loc b))

/-- A core's sum over its 25 tiles of 1000 rows, and of the squares. -/
def gsum (c : Dev nD) (core : Fin 2) (cc : Fin 3) (j : Fin 384) : EReal :=
  ∑ i : Fin 25, ∑ r : Fin 1000,
    zArr (xarr V c cc) (warr V c) (barr V c) cc ⟨(core.val * 25 + i.val) * 1000 + r.val, rowOf_lt core i r⟩ j
def gsq (c : Dev nD) (core : Fin 2) (cc : Fin 3) (j : Fin 384) : EReal :=
  ∑ i : Fin 25, ∑ r : Fin 1000,
    zArr (xarr V c cc) (warr V c) (barr V c) cc ⟨(core.val * 25 + i.val) * 1000 + r.val, rowOf_lt core i r⟩ j
      * zArr (xarr V c cc) (warr V c) (barr V c) cc ⟨(core.val * 25 + i.val) * 1000 + r.val, rowOf_lt core i r⟩ j

/-- What the two output arrays end holding. -/
def G5 (c : Dev nD) : FVec Ideal S2x3x384 .f32 := fun i => gsum V c (i 0) (i 1) (i 2)
def G6 (c : Dev nD) : FVec Ideal S2x3x384 .f32 := fun i => gsq V c (i 0) (i 1) (i 2)

theorem core_lt (t : Fin cfg0.N) : t.val / 25 < 2 := by
  have h : t.val < 50 := lt_of_lt_of_eq t.isLt (show cfg0.N = 50 from N_0)
  omega

/-- At a row's last point the buffer of sums holds the core's sums. -/
theorem acc5_flush (c : Dev nD) (t : Fin cfg0.N) (h24 : t.val % 25 = 24) (cc : Fin 3) (j : Fin 384) :
    acc5 V c t.val t.isLt (ix3 (0 : Fin 1) cc j) = gsum V c ⟨t.val / 25, core_lt t⟩ cc j := by
  have hN : cfg0.N = 50 := N_0
  have ht : t.val < 50 := lt_of_lt_of_eq t.isLt hN
  refine (acc_eq_sum (fun n h => acc5 V c n h (ix3 (0 : Fin 1) cc j)) (tileSum V c cc j)
    (fun t h0 => acc5_A V c t h0 cc j) (fun t h0 => acc5_B V c t h0 cc j) t.val t.isLt).trans ?_
  rw [h24, Finset.sum_range]
  unfold gsum
  refine Finset.sum_congr rfl fun i _ => ?_
  have hi : t.val - 24 + i.val < cfg0.N := lt_of_lt_of_eq (by have := i.isLt; omega) hN.symm
  refine (padN_of_lt _ _ hi).trans ?_
  unfold tileSum
  refine Finset.sum_congr rfl fun r _ => congrArg (fun R => zArr (xarr V c cc) (warr V c) (barr V c) cc R j) (Fin.ext ?_)
  show (t.val - 24 + i.val) * 1000 + r.val = (t.val / 25 * 25 + i.val) * 1000 + r.val
  omega

theorem acc6_flush (c : Dev nD) (t : Fin cfg0.N) (h24 : t.val % 25 = 24) (cc : Fin 3) (j : Fin 384) :
    acc6 V c t.val t.isLt (ix3 (0 : Fin 1) cc j) = gsq V c ⟨t.val / 25, core_lt t⟩ cc j := by
  have hN : cfg0.N = 50 := N_0
  have ht : t.val < 50 := lt_of_lt_of_eq t.isLt hN
  refine (acc_eq_sum (fun n h => acc6 V c n h (ix3 (0 : Fin 1) cc j)) (tileSq V c cc j)
    (fun t h0 => acc6_A V c t h0 cc j) (fun t h0 => acc6_B V c t h0 cc j) t.val t.isLt).trans ?_
  rw [h24, Finset.sum_range]
  unfold gsq
  refine Finset.sum_congr rfl fun i _ => ?_
  have hi : t.val - 24 + i.val < cfg0.N := lt_of_lt_of_eq (by have := i.isLt; omega) hN.symm
  refine (padN_of_lt _ _ hi).trans ?_
  unfold tileSq
  have hR : ∀ r : Fin 1000, (⟨(⟨t.val - 24 + i.val, hi⟩ : Fin cfg0.N).val * 1000 + r.val, row_lt _ r⟩ : Fin 50000)
      = ⟨((⟨t.val / 25, core_lt t⟩ : Fin 2).val * 25 + i.val) * 1000 + r.val, rowOf_lt _ i r⟩ := fun r => Fin.ext (by
    show (t.val - 24 + i.val) * 1000 + r.val = (t.val / 25 * 25 + i.val) * 1000 + r.val
    omega)
  exact Finset.sum_congr rfl fun r _ => by rw [hR r]

/-- The block a flushing point writes back, element by element: the array's entry at the core's row. -/
theorem flushed5_pt (c : Dev nD) (t : Fin cfg0.N) (h24 : t.val % 25 = 24) (y : S1x3x384.Idx) (i : S2x3x384.Idx)
    (h0 : (i 0).val = t.val / 25) (h1 : (i 1).val = (y 1).val) (h2 : (i 2).val = (y 2).val) :
    acc5 V c t.val t.isLt y = G5 V c i := by
  obtain ⟨u, cc, j, rfl⟩ : ∃ (u : Fin 1) (cc : Fin 3) (j : Fin 384), y = ix3 u cc j := ⟨y 0, y 1, y 2, eq_ix3 y⟩
  obtain ⟨core, cc', j', rfl⟩ : ∃ (core : Fin 2) (cc' : Fin 3) (j' : Fin 384), i = ix3 core cc' j' := ⟨i 0, i 1, i 2, eq_ix3 i⟩
  obtain rfl : u = 0 := Subsingleton.elim _ _
  obtain rfl : cc' = cc := Fin.ext h1
  obtain rfl : j' = j := Fin.ext h2
  obtain rfl : core = ⟨t.val / 25, core_lt t⟩ := Fin.ext h0
  exact acc5_flush V c t h24 cc' j'

theorem flushed6_pt (c : Dev nD) (t : Fin cfg0.N) (h24 : t.val % 25 = 24) (y : S1x3x384.Idx) (i : S2x3x384.Idx)
    (h0 : (i 0).val = t.val / 25) (h1 : (i 1).val = (y 1).val) (h2 : (i 2).val = (y 2).val) :
    acc6 V c t.val t.isLt y = G6 V c i := by
  obtain ⟨u, cc, j, rfl⟩ : ∃ (u : Fin 1) (cc : Fin 3) (j : Fin 384), y = ix3 u cc j := ⟨y 0, y 1, y 2, eq_ix3 y⟩
  obtain ⟨core, cc', j', rfl⟩ : ∃ (core : Fin 2) (cc' : Fin 3) (j' : Fin 384), i = ix3 core cc' j' := ⟨i 0, i 1, i 2, eq_ix3 i⟩
  obtain rfl : u = 0 := Subsingleton.elim _ _
  obtain rfl : cc' = cc := Fin.ext h1
  obtain rfl : j' = j := Fin.ext h2
  obtain rfl : core = ⟨t.val / 25, core_lt t⟩ := Fin.ext h0
  exact acc6_flush V c t h24 cc' j'

/-- WHAT A FLUSHING POINT WRITES BACK is its block of `G5`. -/
theorem flushed5_eq (c : Dev nD) (t : Fin cfg0.N) (hf : (cfg0.win 5).flush t = true) :
    (dat0 V c).flushed 5 t = ((cfg0.win 5).blk t).view.read (Elt Ideal) (G5 V c) := by
  have h24 : t.val % 25 = 24 := (flush0_5 t).mp hf
  obtain ⟨-, -, -, -, -, -, -, -, -, -, -, e0, e1, e2, -⟩ := idx_facts t
  show (cfg0.win 5).cut (grid0.coords t) ((dat0 V c).after 5 t) = _
  rw [after0_5]
  funext y
  rw [View.read_apply]
  show _ = G5 V c (((cfg0.win 5).blk t).view.emb y)
  refine flushed5_pt V c t h24 _ _ ?_ ?_ ?_
  · show win0_5.index t (0 : Fin 3) * 1 + 1 * (y 0).val = t.val / 25
    have : (y 0).val < 1 := (y 0).isLt
    rw [e0]; omega
  · show win0_5.index t (1 : Fin 3) * 3 + 1 * (y 1).val = (y 1).val
    rw [e1]; omega
  · show win0_5.index t (2 : Fin 3) * 384 + 1 * (y 2).val = (y 2).val
    rw [e2]; omega

theorem flushed6_eq (c : Dev nD) (t : Fin cfg0.N) (hf : (cfg0.win 6).flush t = true) :
    (dat0 V c).flushed 6 t = ((cfg0.win 6).blk t).view.read (Elt Ideal) (G6 V c) := by
  have h24 : t.val % 25 = 24 := (flush0_6 t).mp hf
  obtain ⟨-, -, -, -, -, -, -, -, -, -, -, -, -, -, e0, e1, e2⟩ := idx_facts t
  show (cfg0.win 6).cut (grid0.coords t) ((dat0 V c).after 6 t) = _
  rw [after0_6]
  funext y
  rw [View.read_apply]
  show _ = G6 V c (((cfg0.win 6).blk t).view.emb y)
  refine flushed6_pt V c t h24 _ _ ?_ ?_ ?_
  · show win0_6.index t (0 : Fin 3) * 1 + 1 * (y 0).val = t.val / 25
    have : (y 0).val < 1 := (y 0).isLt
    rw [e0]; omega
  · show win0_6.index t (1 : Fin 3) * 3 + 1 * (y 1).val = (y 1).val
    rw [e1]; omega
  · show win0_6.index t (2 : Fin 3) * 384 + 1 * (y 2).val = (y 2).val
    rw [e2]; omega

/-- An index of an output array is in point `t`'s block iff each coordinate is in the block's range on its axis. -/
theorem mem_blk5 (t : Fin cfg0.N) (i : S2x3x384.Idx) :
    i ∈ ((cfg0.win 5).blk t).view.set ↔ ∀ a : Fin 3, win0_5.index t a * S1x3x384.size a ≤ (i a).val ∧ (i a).val < win0_5.index t a * S1x3x384.size a + S1x3x384.size a := by
  show i ∈ ((View.whole main_v171_0).slice (win0_5.rect t)).set ↔ _
  rw [View.set_slice_whole, Rect.mem_set_unit]
  exact Iff.rfl
theorem mem_blk6 (t : Fin cfg0.N) (i : S2x3x384.Idx) :
    i ∈ ((cfg0.win 6).blk t).view.set ↔ ∀ a : Fin 3, win0_6.index t a * S1x3x384.size a ≤ (i a).val ∧ (i a).val < win0_6.index t a * S1x3x384.size a + S1x3x384.size a := by
  show i ∈ ((View.whole main_v171_1).slice (win0_6.rect t)).set ↔ _
  rw [View.set_slice_whole, Rect.mem_set_unit]
  exact Iff.rfl

theorem last_lt (i : S2x3x384.Idx) : (i 0).val * 25 + 24 < cfg0.N := by
  have h : (i 0).val < 2 := (i 0).isLt
  rw [show cfg0.N = 50 from N_0]; omega

/-- Core `k`'s row of an output array is the block of the core's last point (24, 49). -/
theorem cover5 (i : S2x3x384.Idx) : ∃ t : Fin cfg0.N, (cfg0.win 5).flush t = true ∧ i ∈ ((cfg0.win 5).blk t).view.set := by
  have h0 : (i 0).val < 2 := (i 0).isLt
  have h1 : (i 1).val < 3 := (i 1).isLt
  have h2 : (i 2).val < 384 := (i 2).isLt
  refine ⟨⟨(i 0).val * 25 + 24, last_lt i⟩, (flush0_5 _).mpr (by show ((i 0).val * 25 + 24) % 25 = 24; omega), ?_⟩
  obtain ⟨-, -, -, -, -, -, -, -, -, -, -, e0, e1, e2, -⟩ := idx_facts ⟨(i 0).val * 25 + 24, last_lt i⟩
  have e0' : win0_5.index ⟨(i 0).val * 25 + 24, last_lt i⟩ (0 : Fin 3) = (i 0).val := by
    rw [e0]; show ((i 0).val * 25 + 24) / 25 = (i 0).val; omega
  rw [mem_blk5]
  intro a
  match a with
  | ⟨0, _⟩ => show win0_5.index _ (0 : Fin 3) * 1 ≤ (i 0).val ∧ (i 0).val < win0_5.index _ (0 : Fin 3) * 1 + 1; rw [e0']; omega
  | ⟨1, _⟩ => show win0_5.index _ (1 : Fin 3) * 3 ≤ (i 1).val ∧ (i 1).val < win0_5.index _ (1 : Fin 3) * 3 + 3; rw [e1]; omega
  | ⟨2, _⟩ => show win0_5.index _ (2 : Fin 3) * 384 ≤ (i 2).val ∧ (i 2).val < win0_5.index _ (2 : Fin 3) * 384 + 384; rw [e2]; omega

theorem cover6 (i : S2x3x384.Idx) : ∃ t : Fin cfg0.N, (cfg0.win 6).flush t = true ∧ i ∈ ((cfg0.win 6).blk t).view.set := by
  have h0 : (i 0).val < 2 := (i 0).isLt
  have h1 : (i 1).val < 3 := (i 1).isLt
  have h2 : (i 2).val < 384 := (i 2).isLt
  refine ⟨⟨(i 0).val * 25 + 24, last_lt i⟩, (flush0_6 _).mpr (by show ((i 0).val * 25 + 24) % 25 = 24; omega), ?_⟩
  obtain ⟨-, -, -, -, -, -, -, -, -, -, -, -, -, -, e0, e1, e2⟩ := idx_facts ⟨(i 0).val * 25 + 24, last_lt i⟩
  have e0' : win0_6.index ⟨(i 0).val * 25 + 24, last_lt i⟩ (0 : Fin 3) = (i 0).val := by
    rw [e0]; show ((i 0).val * 25 + 24) / 25 = (i 0).val; omega
  rw [mem_blk6]
  intro a
  match a with
  | ⟨0, _⟩ => show win0_6.index _ (0 : Fin 3) * 1 ≤ (i 0).val ∧ (i 0).val < win0_6.index _ (0 : Fin 3) * 1 + 1; rw [e0']; omega
  | ⟨1, _⟩ => show win0_6.index _ (1 : Fin 3) * 3 ≤ (i 1).val ∧ (i 1).val < win0_6.index _ (1 : Fin 3) * 3 + 3; rw [e1]; omega
  | ⟨2, _⟩ => show win0_6.index _ (2 : Fin 3) * 384 ≤ (i 2).val ∧ (i 2).val < win0_6.index _ (2 : Fin 3) * 384 + 384; rw [e2]; omega

/-- THE OUTPUT ARRAYS after the run. -/
theorem final5 (c : Dev nD) : (dat0 V c).arrAt 5 cfg0.N = G5 V c :=
  (dat0 V c).arrAt_eq_of_cover 5 (G5 V c) (flushed5_eq V c) cover5
theorem final6 (c : Dev nD) : (dat0 V c).arrAt 6 cfg0.N = G6 V c :=
  (dat0 V c).arrAt_eq_of_cover 6 (G6 V c) (flushed6_eq V c) cover6

/-- The array of sums at `(core, cc, j)`: the sum over the core's 25 tiles of 1000 rows of branch `cc`'s `z`; -/
theorem arr5_apply (c : Dev nD) (core : Fin 2) (cc : Fin 3) (j : Fin 384) :
    ((dat0 V c).arrAt 5 cfg0.N : FVec Ideal S2x3x384 .f32) (ix3 core cc j)
      = ∑ i : Fin 25, ∑ r : Fin 1000,
          zArr (xarr V c cc) (warr V c) (barr V c) cc ⟨(core.val * 25 + i.val) * 1000 + r.val, rowOf_lt core i r⟩ j :=
  congrFun (final5 V c) (ix3 core cc j)

/-- the array of sums of squares likewise. -/
theorem arr6_apply (c : Dev nD) (core : Fin 2) (cc : Fin 3) (j : Fin 384) :
    ((dat0 V c).arrAt 6 cfg0.N : FVec Ideal S2x3x384 .f32) (ix3 core cc j)
      = ∑ i : Fin 25, ∑ r : Fin 1000,
          zArr (xarr V c cc) (warr V c) (barr V c) cc ⟨(core.val * 25 + i.val) * 1000 + r.val, rowOf_lt core i r⟩ j
            * zArr (xarr V c cc) (warr V c) (barr V c) cc ⟨(core.val * 25 + i.val) * 1000 + r.val, rowOf_lt core i r⟩ j :=
  congrFun (final6 V c) (ix3 core cc j)

end Final

end Cert.KernelIdeal.HandV.Stats0
end
-- ==== Proof.KV.Pay1.lean ====
/- The payloads of the combine kernel of 384 columns read at one entry (r, j) of a row block, at the
   ideal values: each branch's pre-activation is the linear layer normalised, scaled and shifted; the rectified
   branches are weighted by their mixing weights and summed in the order (t0 + t1) + t2; the value stored is
   that sum. -/
import proofs.«414290_j6631429505478_3_alg».proof.Proof.Gen.KernelIdeal.Skeleton
import proofs.«414290_j6631429505478_3_alg».proof.Proof.KV.MatMul
import proofs.«414290_j6631429505478_3_alg».proof.Proof.KV.CombDefs

noncomputable section

namespace Cert.KernelIdeal.HandV

open Idealize.ShloMosaic Idealize.ShloMosaic.ValueIdx Idealize.SL.Sem
open Cert.KernelIdeal Cert.KernelIdeal.Gen
open scoped BigOperators

/-- The second and third row blocks pass through a cast to their own shape. -/
theorem k1_pay2_eq (v : FVec Ideal S2000x128 .bf16) : k1_pay2 (F := Ideal) v = v := by
  unfold k1_pay2
  exact shapeCast_self _ _
theorem k1_pay3_eq (v : FVec Ideal S2000x128 .bf16) : k1_pay3 (F := Ideal) v = v := by
  unfold k1_pay3
  exact shapeCast_self _ _

/-- Branch 0 before rectification: the linear layer of the row block and the branch's weight slab, minus the mean,
    times the reciprocal root of the variance plus eps, times gamma, plus beta. -/
theorem k1_pay4_apply (x : FVec Ideal S2000x128 .bf16) (w : FVec Ideal S1x128x384 .f32) (b mu va g be : FVec Ideal S1x384 .f32)
    (r : Fin 2000) (j : Fin 384) :
    k1_pay4 (F := Ideal) x w b mu va g be (ix2 r j) = (((((linK (fun k => x (ix2 r k)) (fun k => w (ix3 (0 : Fin 1) k j)) (b (ix2 (0 : Fin 1) j))) - mu (ix2 (0 : Fin 1) j)) * Ideal.rsqrt (va (ix2 (0 : Fin 1) j) + Ideal.ofBits .f32 0x3727C5AC#32)) * g (ix2 (0 : Fin 1) j)) + be (ix2 (0 : Fin 1) j) : EReal) := by
  unfold k1_pay4 linK
  simp only [shapeCast_shapeCast, shapeCast_self]
  rw [addf_apply, mulf_apply, mulf_apply, subf_apply, addf_apply, mm384_apply]
  simp only [broadcastTo_1b_ab_apply, truncf_apply, shapeCast_1ab_ab_apply]
  rfl

/-- Branch 0's term: its mixing weight times the rectified pre-activation. -/
theorem k1_pay5_apply (p : FVec Ideal S2000x384 .f32) (wt : FVec Ideal S1x384 .f32) (r : Fin 2000) (j : Fin 384) :
    k1_pay5 (F := Ideal) p wt (ix2 r j) = (wt (ix2 (0 : Fin 1) j) * max (p (ix2 r j)) 0 : EReal) := by
  unfold k1_pay5
  simp only [shapeCast_shapeCast]
  rw [mulf_apply, maximumf_apply, broadcastTo_1b_ab_apply, broadcast_apply]
  show (wt (ix2 (0 : Fin 1) j) * max (p (ix2 r j)) (Ideal.ofBits .f32 0x00000000#32) : EReal) = _
  rw [Ideal.ofBits_zero_f32]

/-- Branch 1 rectified. -/
theorem k1_pay6_apply (x : FVec Ideal S2000x128 .bf16) (w : FVec Ideal S1x128x384 .f32) (b mu va g be : FVec Ideal S1x384 .f32)
    (r : Fin 2000) (j : Fin 384) :
    k1_pay6 (F := Ideal) x w b mu va g be (ix2 r j) = (max (((((linK (fun k => x (ix2 r k)) (fun k => w (ix3 (0 : Fin 1) k j)) (b (ix2 (0 : Fin 1) j))) - mu (ix2 (0 : Fin 1) j)) * Ideal.rsqrt (va (ix2 (0 : Fin 1) j) + Ideal.ofBits .f32 0x3727C5AC#32)) * g (ix2 (0 : Fin 1) j)) + be (ix2 (0 : Fin 1) j) : EReal) 0 : EReal) := by
  unfold k1_pay6 linK
  simp only [shapeCast_shapeCast, shapeCast_self]
  rw [maximumf_apply, broadcast_apply, addf_apply, mulf_apply, mulf_apply, subf_apply, addf_apply, mm384_apply]
  simp only [broadcastTo_1b_ab_apply, truncf_apply, shapeCast_1ab_ab_apply]
  show (max _ (Ideal.ofBits .f32 0x00000000#32) : EReal) = _
  rw [Ideal.ofBits_zero_f32]
  rfl

/-- Branch 2 rectified. -/
theorem k1_pay8_apply (x : FVec Ideal S2000x128 .bf16) (w : FVec Ideal S1x128x384 .f32) (b mu va g be : FVec Ideal S1x384 .f32)
    (r : Fin 2000) (j : Fin 384) :
    k1_pay8 (F := Ideal) x w b mu va g be (ix2 r j) = (max (((((linK (fun k => x (ix2 r k)) (fun k => w (ix3 (0 : Fin 1) k j)) (b (ix2 (0 : Fin 1) j))) - mu (ix2 (0 : Fin 1) j)) * Ideal.rsqrt (va (ix2 (0 : Fin 1) j) + Ideal.ofBits .f32 0x3727C5AC#32)) * g (ix2 (0 : Fin 1) j)) + be (ix2 (0 : Fin 1) j) : EReal) 0 : EReal) := by
  unfold k1_pay8 linK
  simp only [shapeCast_shapeCast, shapeCast_self]
  rw [maximumf_apply, broadcast_apply, addf_apply, mulf_apply, mulf_apply, subf_apply, addf_apply, mm384_apply]
  simp only [broadcastTo_1b_ab_apply, truncf_apply, shapeCast_1ab_ab_apply]
  show (max _ (Ideal.ofBits .f32 0x00000000#32) : EReal) = _
  rw [Ideal.ofBits_zero_f32]
  rfl

/-- The running sum after branch 1: the sum so far plus the branch's weight times its rectified value. -/
theorem k1_pay7_apply (s p : FVec Ideal S2000x384 .f32) (wt : FVec Ideal S1x384 .f32) (r : Fin 2000) (j : Fin 384) :
    k1_pay7 (F := Ideal) s p wt (ix2 r j) = (s (ix2 r j) + wt (ix2 (0 : Fin 1) j) * p (ix2 r j) : EReal) := by
  unfold k1_pay7
  simp only [shapeCast_shapeCast]
  rw [addf_apply, mulf_apply, broadcastTo_1b_ab_apply]

/-- The running sum after branch 2. -/
theorem k1_pay1_apply (s p : FVec Ideal S2000x384 .f32) (wt : FVec Ideal S1x384 .f32) (r : Fin 2000) (j : Fin 384) :
    k1_pay1 (F := Ideal) s p wt (ix2 r j) = (s (ix2 r j) + wt (ix2 (0 : Fin 1) j) * p (ix2 r j) : EReal) := by
  unfold k1_pay1
  simp only [shapeCast_shapeCast]
  rw [addf_apply, mulf_apply, broadcastTo_1b_ab_apply]

/-- THE STORED VALUE at (r, j), from the loaded pieces (x_c the three row blocks, w_c the weight slabs, and per branch
    the bias, mean, variance, gamma, beta and mixing-weight rows): the three branches' terms, (t0 + t1) + t2. -/
theorem cc1_store_apply (x0 x1 x2 : FVec Ideal S2000x128 .bf16) (w0 w1 w2 : FVec Ideal S1x128x384 .f32)
    (b0 b1 b2 mu0 mu1 mu2 va0 va1 va2 g0 g1 g2 be0 be1 be2 wt0 wt1 wt2 : FVec Ideal S1x384 .f32)
    (r : Fin 2000) (j : Fin 384) :
    k1_pay1 (F := Ideal) (k1_pay7 (F := Ideal) (k1_pay5 (k1_pay4 x0 w0 b0 mu0 va0 g0 be0) wt0) (k1_pay6 (k1_pay2 x1) w1 b1 mu1 va1 g1 be1) wt1)
        (k1_pay8 (F := Ideal) (k1_pay3 x2) w2 b2 mu2 va2 g2 be2) wt2 (ix2 r j)
      = (sum3K (termK (wt0 (ix2 (0 : Fin 1) j)) (linK (fun k => x0 (ix2 r k)) (fun k => w0 (ix3 (0 : Fin 1) k j)) (b0 (ix2 (0 : Fin 1) j))) (mu0 (ix2 (0 : Fin 1) j)) (va0 (ix2 (0 : Fin 1) j)) (g0 (ix2 (0 : Fin 1) j)) (be0 (ix2 (0 : Fin 1) j)))
          (termK (wt1 (ix2 (0 : Fin 1) j)) (linK (fun k => x1 (ix2 r k)) (fun k => w1 (ix3 (0 : Fin 1) k j)) (b1 (ix2 (0 : Fin 1) j))) (mu1 (ix2 (0 : Fin 1) j)) (va1 (ix2 (0 : Fin 1) j)) (g1 (ix2 (0 : Fin 1) j)) (be1 (ix2 (0 : Fin 1) j)))
          (termK (wt2 (ix2 (0 : Fin 1) j)) (linK (fun k => x2 (ix2 r k)) (fun k => w2 (ix3 (0 : Fin 1) k j)) (b2 (ix2 (0 : Fin 1) j))) (mu2 (ix2 (0 : Fin 1) j)) (va2 (ix2 (0 : Fin 1) j)) (g2 (ix2 (0 : Fin 1) j)) (be2 (ix2 (0 : Fin 1) j))) : EReal) := by
  rw [k1_pay1_apply, k1_pay7_apply, k1_pay5_apply, k1_pay4_apply, k1_pay6_apply, k1_pay8_apply, k1_pay2_eq, k1_pay3_eq]
  rfl

end Cert.KernelIdeal.HandV

end
-- ==== Proof.KV.Arr1.lean ====
/- Region 1 (the combine kernel of 384 columns, no addend) from blocks to the array, at the ideal
   values: what the body leaves in the output block at a point is, entry by entry, the three-branch combination of the
   input arrays' rows 2000 t … 2000 t + 1999; point t writes back rows 2000 t … of the result; the 25 points cover
   every row; so the result array is that combination of the whole input arrays. -/
import proofs.«414290_j6631429505478_3_alg».proof.Proof.KI.Comb1
import proofs.«414290_j6631429505478_3_alg».proof.Proof.KV.Pay1
import proofs.«414290_j6631429505478_3_alg».proof.Proof.KV.CombArr
import Idealize.ShloMosaic.Lib.Pipeline.Value

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-! ## The slabs and rows the body loads from the whole parameter windows -/

theorem hz1_2 : (![0, 0] : Fin 2 → Nat) = fun _ => 0 := funext fun a => by fin_cases a <;> rfl

/-- Slab `o` of the stacked weights, loaded as a [1,128,384] piece, at (0, k, j) is the stack at (o, k, j). -/
theorem ld_slab1 (X : Vec Ideal S3x128x384 .f32) (o : ℕ) (ho : o < 3)
    (h : ∀ a, (![o, 0, 0] : Fin 3 → Nat) a + S1x128x384.size a ≤ S3x128x384.size a) (k : Fin 128) (j : Fin 384) :
    View.ld X (Rect.unit (s := S3x128x384) ![o, 0, 0] S1x128x384.size h) (ix3 (0 : Fin 1) k j) = X (ix3 (⟨o, ho⟩ : Fin 3) k j) := by
  refine congrArg X (funext fun a => Fin.ext ?_)
  match a with
  | ⟨0, _⟩ => show o + 1 * 0 = o; omega
  | ⟨1, _⟩ => show 0 + 1 * k.val = k.val; omega
  | ⟨2, _⟩ => show 0 + 1 * j.val = j.val; omega

/-- Row `o` of a stacked [3,384] parameter, loaded as a [1,384] piece, at (0, j) is the stack at (o, j). -/
theorem ld_row1 (X : Vec Ideal S3x384 .f32) (o : ℕ) (ho : o < 3)
    (h : ∀ a, (![o, 0] : Fin 2 → Nat) a + S1x384.size a ≤ S3x384.size a) (j : Fin 384) :
    View.ld X (Rect.unit (s := S3x384) ![o, 0] S1x384.size h) (ix2 (0 : Fin 1) j) = X (ix2 (⟨o, ho⟩ : Fin 3) j) := by
  refine congrArg X (funext fun a => Fin.ext ?_)
  match a with
  | ⟨0, _⟩ => show o + 1 * 0 = o; omega
  | ⟨1, _⟩ => show 0 + 1 * j.val = j.val; omega

/-! ## The output block from the input blocks, at an entry -/

/-- What the body leaves in the output block at (r, j), from the windows' blocks (x0 x1 x2 the row blocks; x3 the
    stacked weights; x4 … x9 the stacked bias, gamma, beta, mixing weights, means, variances). -/
theorem out1_10_apply (x0 x1 x2 : Vec Ideal S2000x128 .bf16) (x3 : Vec Ideal S3x128x384 .f32)
    (x4 x5 x6 x7 x8 x9 : Vec Ideal S3x384 .f32) (r : Fin 2000) (j : Fin 384) :
    out1_10 (F := Ideal) x0 x1 x2 x3 x4 x5 x6 x7 x8 x9 (ix2 r j)
      = sum3K
          (termK (x7 (ix2 (0 : Fin 3) j)) (linK (fun k => x0 (ix2 r k)) (fun k => x3 (ix3 (0 : Fin 3) k j)) (x4 (ix2 (0 : Fin 3) j)))
            (x8 (ix2 (0 : Fin 3) j)) (x9 (ix2 (0 : Fin 3) j)) (x5 (ix2 (0 : Fin 3) j)) (x6 (ix2 (0 : Fin 3) j)))
          (termK (x7 (ix2 (1 : Fin 3) j)) (linK (fun k => x1 (ix2 r k)) (fun k => x3 (ix3 (1 : Fin 3) k j)) (x4 (ix2 (1 : Fin 3) j)))
            (x8 (ix2 (1 : Fin 3) j)) (x9 (ix2 (1 : Fin 3) j)) (x5 (ix2 (1 : Fin 3) j)) (x6 (ix2 (1 : Fin 3) j)))
          (termK (x7 (ix2 (2 : Fin 3) j)) (linK (fun k => x2 (ix2 r k)) (fun k => x3 (ix3 (2 : Fin 3) k j)) (x4 (ix2 (2 : Fin 3) j)))
            (x8 (ix2 (2 : Fin 3) j)) (x9 (ix2 (2 : Fin 3) j)) (x5 (ix2 (2 : Fin 3) j)) (x6 (ix2 (2 : Fin 3) j))) := by
  unfold out1_10
  rw [View.canon_unit_zero hz1_2]
  simp only [View.ld_unit_zero (S := S2000x128) hz1_2]
  rw [cc1_store_apply]
  simp only [ld_slab1 x3 0 (by decide), ld_slab1 x3 1 (by decide), ld_slab1 x3 2 (by decide),
    ld_row1 x4 0 (by decide), ld_row1 x4 1 (by decide), ld_row1 x4 2 (by decide), ld_row1 x5 0 (by decide), ld_row1 x5 1 (by decide), ld_row1 x5 2 (by decide), ld_row1 x6 0 (by decide), ld_row1 x6 1 (by decide), ld_row1 x6 2 (by decide), ld_row1 x7 0 (by decide), ld_row1 x7 1 (by decide), ld_row1 x7 2 (by decide), ld_row1 x8 0 (by decide), ld_row1 x8 1 (by decide), ld_row1 x8 2 (by decide), ld_row1 x9 0 (by decide), ld_row1 x9 1 (by decide), ld_row1 x9 2 (by decide)]
  rfl

/-! ## The windows' blocks as rows of the arrays -/

/-- The index maps, decided over the 25 points: the three row windows and the output window move with the point … -/
theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = t.val ∧ win1_1.index t (1 : Fin 2) = 0 :=
  (by decide +kernel : ∀ t : Fin grid1.N, _)
theorem idx1_2 : ∀ t : Fin cfg1.N, win1_2.index t (0 : Fin 2) = t.val ∧ win1_2.index t (1 : Fin 2) = 0 :=
  (by decide +kernel : ∀ t : Fin grid1.N, _)
theorem idx1_10 : ∀ t : Fin cfg1.N, win1_10.index t (0 : Fin 2) = t.val ∧ win1_10.index t (1 : Fin 2) = 0 :=
  (by decide +kernel : ∀ t : Fin grid1.N, _)
/-- … and the seven parameter windows stay at block zero. -/
theorem idx1_3 : ∀ t : Fin cfg1.N, win1_3.index t (0 : Fin 3) = 0 ∧ win1_3.index t (1 : Fin 3) = 0 ∧ win1_3.index t (2 : Fin 3) = 0 :=
  (by decide +kernel : ∀ t : Fin grid1.N, _)
theorem idx1_4 : ∀ t : Fin cfg1.N, win1_4.index t (0 : Fin 2) = 0 ∧ win1_4.index t (1 : Fin 2) = 0 :=
  (by decide +kernel : ∀ t : Fin grid1.N, _)
theorem idx1_5 : ∀ t : Fin cfg1.N, win1_5.index t (0 : Fin 2) = 0 ∧ win1_5.index t (1 : Fin 2) = 0 :=
  (by decide +kernel : ∀ t : Fin grid1.N, _)
theorem idx1_6 : ∀ t : Fin cfg1.N, win1_6.index t (0 : Fin 2) = 0 ∧ win1_6.index t (1 : Fin 2) = 0 :=
  (by decide +kernel : ∀ t : Fin grid1.N, _)
theorem idx1_7 : ∀ t : Fin cfg1.N, win1_7.index t (0 : Fin 2) = 0 ∧ win1_7.index t (1 : Fin 2) = 0 :=
  (by decide +kernel : ∀ t : Fin grid1.N, _)
theorem idx1_8 : ∀ t : Fin cfg1.N, win1_8.index t (0 : Fin 2) = 0 ∧ win1_8.index t (1 : Fin 2) = 0 :=
  (by decide +kernel : ∀ t : Fin grid1.N, _)
theorem idx1_9 : ∀ t : Fin cfg1.N, win1_9.index t (0 : Fin 2) = 0 ∧ win1_9.index t (1 : Fin 2) = 0 :=
  (by decide +kernel : ∀ t : Fin grid1.N, _)

/-- Row window 0's block at point `t` is rows `2000 t … 2000 t + 1999` of its array. -/
theorem iblk1_row0 (c : Dev nD) (t : Fin cfg1.N) (r : Fin 2000) (n : Fin 50000) (hn : n.val = 2000 * t.val + r.val) (k : Fin 128) :
    (iblk1 V c 0 t : Vec Ideal S2000x128 .bf16) (ix2 r k)
      = (V c (Pipeline.arrRef spec1 0) : S50000x128.Idx → Elt Ideal .bf16) (ix2 n k) := by
  obtain ⟨h0, h1⟩ := idx1_0 t
  unfold iblk1
  rw [View.read_apply]
  refine congrArg (V c (Pipeline.arrRef spec1 0)) (funext fun a => Fin.ext ?_)
  match a with
  | ⟨0, _⟩ => show win1_0.index t (0 : Fin 2) * 2000 + 1 * r.val = n.val; rw [h0, hn]; omega
  | ⟨1, _⟩ => show win1_0.index t (1 : Fin 2) * 128 + 1 * k.val = k.val; rw [h1]; omega
/-- Row window 1's block at point `t` is rows `2000 t … 2000 t + 1999` of its array. -/
theorem iblk1_row1 (c : Dev nD) (t : Fin cfg1.N) (r : Fin 2000) (n : Fin 50000) (hn : n.val = 2000 * t.val + r.val) (k : Fin 128) :
    (iblk1 V c 1 t : Vec Ideal S2000x128 .bf16) (ix2 r k)
      = (V c (Pipeline.arrRef spec1 1) : S50000x128.Idx → Elt Ideal .bf16) (ix2 n k) := by
  obtain ⟨h0, h1⟩ := idx1_1 t
  unfold iblk1
  rw [View.read_apply]
  refine congrArg (V c (Pipeline.arrRef spec1 1)) (funext fun a => Fin.ext ?_)
  match a with
  | ⟨0, _⟩ => show win1_1.index t (0 : Fin 2) * 2000 + 1 * r.val = n.val; rw [h0, hn]; omega
  | ⟨1, _⟩ => show win1_1.index t (1 : Fin 2) * 128 + 1 * k.val = k.val; rw [h1]; omega
/-- Row window 2's block at point `t` is rows `2000 t … 2000 t + 1999` of its array. -/
theorem iblk1_row2 (c : Dev nD) (t : Fin cfg1.N) (r : Fin 2000) (n : Fin 50000) (hn : n.val = 2000 * t.val + r.val) (k : Fin 128) :
    (iblk1 V c 2 t : Vec Ideal S2000x128 .bf16) (ix2 r k)
      = (V c (Pipeline.arrRef spec1 2) : S50000x128.Idx → Elt Ideal .bf16) (ix2 n k) := by
  obtain ⟨h0, h1⟩ := idx1_2 t
  unfold iblk1
  rw [View.read_apply]
  refine congrArg (V c (Pipeline.arrRef spec1 2)) (funext fun a => Fin.ext ?_)
  match a with
  | ⟨0, _⟩ => show win1_2.index t (0 : Fin 2) * 2000 + 1 * r.val = n.val; rw [h0, hn]; omega
  | ⟨1, _⟩ => show win1_2.index t (1 : Fin 2) * 128 + 1 * k.val = k.val; rw [h1]; omega

/-- The weights' window holds the whole stacked array at every point. -/
theorem iblk1_w3 (c : Dev nD) (t : Fin cfg1.N) : (iblk1 V c 3 t : Vec Ideal S3x128x384 .f32) = V c (Pipeline.arrRef spec1 3) := by
  obtain ⟨h0, h1, h2⟩ := idx1_3 t
  funext x
  unfold iblk1
  rw [View.read_apply]
  refine congrArg (V c (Pipeline.arrRef spec1 3)) (funext fun a => Fin.ext ?_)
  match a with
  | ⟨0, _⟩ => show win1_3.index t (0 : Fin 3) * 3 + 1 * (x 0).val = (x 0).val; rw [h0]; omega
  | ⟨1, _⟩ => show win1_3.index t (1 : Fin 3) * 128 + 1 * (x 1).val = (x 1).val; rw [h1]; omega
  | ⟨2, _⟩ => show win1_3.index t (2 : Fin 3) * 384 + 1 * (x 2).val = (x 2).val; rw [h2]; omega
/-- Parameter window 4 holds its whole stacked array at every point. -/
theorem iblk1_w4 (c : Dev nD) (t : Fin cfg1.N) : (iblk1 V c 4 t : Vec Ideal S3x384 .f32) = V c (Pipeline.arrRef spec1 4) := by
  obtain ⟨h0, h1⟩ := idx1_4 t
  funext x
  unfold iblk1
  rw [View.read_apply]
  refine congrArg (V c (Pipeline.arrRef spec1 4)) (funext fun a => Fin.ext ?_)
  match a with
  | ⟨0, _⟩ => show win1_4.index t (0 : Fin 2) * 3 + 1 * (x 0).val = (x 0).val; rw [h0]; omega
  | ⟨1, _⟩ => show win1_4.index t (1 : Fin 2) * 384 + 1 * (x 1).val = (x 1).val; rw [h1]; omega
/-- Parameter window 5 holds its whole stacked array at every point. -/
theorem iblk1_w5 (c : Dev nD) (t : Fin cfg1.N) : (iblk1 V c 5 t : Vec Ideal S3x384 .f32) = V c (Pipeline.arrRef spec1 5) := by
  obtain ⟨h0, h1⟩ := idx1_5 t
  funext x
  unfold iblk1
  rw [View.read_apply]
  refine congrArg (V c (Pipeline.arrRef spec1 5)) (funext fun a => Fin.ext ?_)
  match a with
  | ⟨0, _⟩ => show win1_5.index t (0 : Fin 2) * 3 + 1 * (x 0).val = (x 0).val; rw [h0]; omega
  | ⟨1, _⟩ => show win1_5.index t (1 : Fin 2) * 384 + 1 * (x 1).val = (x 1).val; rw [h1]; omega
/-- Parameter window 6 holds its whole stacked array at every point. -/
theorem iblk1_w6 (c : Dev nD) (t : Fin cfg1.N) : (iblk1 V c 6 t : Vec Ideal S3x384 .f32) = V c (Pipeline.arrRef spec1 6) := by
  obtain ⟨h0, h1⟩ := idx1_6 t
  funext x
  unfold iblk1
  rw [View.read_apply]
  refine congrArg (V c (Pipeline.arrRef spec1 6)) (funext fun a => Fin.ext ?_)
  match a with
  | ⟨0, _⟩ => show win1_6.index t (0 : Fin 2) * 3 + 1 * (x 0).val = (x 0).val; rw [h0]; omega
  | ⟨1, _⟩ => show win1_6.index t (1 : Fin 2) * 384 + 1 * (x 1).val = (x 1).val; rw [h1]; omega
/-- Parameter window 7 holds its whole stacked array at every point. -/
theorem iblk1_w7 (c : Dev nD) (t : Fin cfg1.N) : (iblk1 V c 7 t : Vec Ideal S3x384 .f32) = V c (Pipeline.arrRef spec1 7) := by
  obtain ⟨h0, h1⟩ := idx1_7 t
  funext x
  unfold iblk1
  rw [View.read_apply]
  refine congrArg (V c (Pipeline.arrRef spec1 7)) (funext fun a => Fin.ext ?_)
  match a with
  | ⟨0, _⟩ => show win1_7.index t (0 : Fin 2) * 3 + 1 * (x 0).val = (x 0).val; rw [h0]; omega
  | ⟨1, _⟩ => show win1_7.index t (1 : Fin 2) * 384 + 1 * (x 1).val = (x 1).val; rw [h1]; omega
/-- Parameter window 8 holds its whole stacked array at every point. -/
theorem iblk1_w8 (c : Dev nD) (t : Fin cfg1.N) : (iblk1 V c 8 t : Vec Ideal S3x384 .f32) = V c (Pipeline.arrRef spec1 8) := by
  obtain ⟨h0, h1⟩ := idx1_8 t
  funext x
  unfold iblk1
  rw [View.read_apply]
  refine congrArg (V c (Pipeline.arrRef spec1 8)) (funext fun a => Fin.ext ?_)
  match a with
  | ⟨0, _⟩ => show win1_8.index t (0 : Fin 2) * 3 + 1 * (x 0).val = (x 0).val; rw [h0]; omega
  | ⟨1, _⟩ => show win1_8.index t (1 : Fin 2) * 384 + 1 * (x 1).val = (x 1).val; rw [h1]; omega
/-- Parameter window 9 holds its whole stacked array at every point. -/
theorem iblk1_w9 (c : Dev nD) (t : Fin cfg1.N) : (iblk1 V c 9 t : Vec Ideal S3x384 .f32) = V c (Pipeline.arrRef spec1 9) := by
  obtain ⟨h0, h1⟩ := idx1_9 t
  funext x
  unfold iblk1
  rw [View.read_apply]
  refine congrArg (V c (Pipeline.arrRef spec1 9)) (funext fun a => Fin.ext ?_)
  match a with
  | ⟨0, _⟩ => show win1_9.index t (0 : Fin 2) * 3 + 1 * (x 0).val = (x 0).val; rw [h0]; omega
  | ⟨1, _⟩ => show win1_9.index t (1 : Fin 2) * 384 + 1 * (x 1).val = (x 1).val; rw [h1]; omega

/-! ## The result array -/

/-- The result array as one function of the input arrays as the region finds them. -/
def arr1 (c : Dev nD) : S50000x384.Idx → Elt Ideal .f32 := fun i =>
  combAt (GW := 384) (V c (Pipeline.arrRef spec1 0)) (V c (Pipeline.arrRef spec1 1)) (V c (Pipeline.arrRef spec1 2)) (V c (Pipeline.arrRef spec1 3))
    (V c (Pipeline.arrRef spec1 4)) (V c (Pipeline.arrRef spec1 5)) (V c (Pipeline.arrRef spec1 6)) (V c (Pipeline.arrRef spec1 7))
    (V c (Pipeline.arrRef spec1 8)) (V c (Pipeline.arrRef spec1 9)) (i 0) (i 1)

/-- What the body leaves at entry (r, j) of the output block at point `t` is the combination at row `2000 t + r`. -/
theorem point1 (c : Dev nD) (t : Fin cfg1.N) (r : Fin 2000) (j : Fin 384) (n : Fin 50000) (hn : n.val = 2000 * t.val + r.val) :
    out1_10 (F := Ideal) (iblk1 V c 0 t) (iblk1 V c 1 t) (iblk1 V c 2 t) (iblk1 V c 3 t) (iblk1 V c 4 t) (iblk1 V c 5 t)
        (iblk1 V c 6 t) (iblk1 V c 7 t) (iblk1 V c 8 t) (iblk1 V c 9 t) (ix2 r j)
      = arr1 V c (ix2 n j) := by
  rw [out1_10_apply (iblk1 V c 0 t) (iblk1 V c 1 t) (iblk1 V c 2 t) (iblk1 V c 3 t) (iblk1 V c 4 t) (iblk1 V c 5 t)
    (iblk1 V c 6 t) (iblk1 V c 7 t) (iblk1 V c 8 t) (iblk1 V c 9 t) r j]
  rw [iblk1_w3, iblk1_w4, iblk1_w5, iblk1_w6, iblk1_w7, iblk1_w8, iblk1_w9]
  simp only [iblk1_row0 V c t r n hn, iblk1_row1 V c t r n hn, iblk1_row2 V c t r n hn]
  rfl

/-- Two functions on a [2000,384] block that agree at every (r, j) are equal. -/
theorem ext_2000x384 {α : Type} (P Q : S2000x384.Idx → α) (h : ∀ (r : Fin 2000) (j : Fin 384), P (ix2 r j) = Q (ix2 r j)) : P = Q :=
  funext fun i => by rw [eq_ix2 i]; exact h _ _

/-- WHAT POINT `t` WRITES BACK is block `t` of `arr1`. -/
theorem flushed1_eq (c : Dev nD) (t : Fin cfg1.N) :
    (dat1 V c).flushed 10 t = ((cfg1.win 10).blk t).view.read (Elt Ideal) (arr1 V c) := by
  show (cfg1.win 10).cut (grid1.coords t) ((dat1 V c).after 10 t) = _
  rw [after1_10]
  obtain ⟨h0, h1⟩ := idx1_10 t
  have hN : cfg1.N = 25 := N_1
  have ht := t.isLt
  refine ext_2000x384 _ _ fun r j => ?_
  have hr := r.isLt
  show out1_10 (F := Ideal) (iblk1 V c 0 t) (iblk1 V c 1 t) (iblk1 V c 2 t) (iblk1 V c 3 t) (iblk1 V c 4 t) (iblk1 V c 5 t)
      (iblk1 V c 6 t) (iblk1 V c 7 t) (iblk1 V c 8 t) (iblk1 V c 9 t) (ix2 r j) = arr1 V c (((cfg1.win 10).blk t).view.emb (ix2 r j))
  rw [point1 V c t r j ⟨2000 * t.val + r.val, by omega⟩ rfl]
  refine congrArg (arr1 V c) (funext fun a => Fin.ext ?_)
  match a with
  | ⟨0, _⟩ => show 2000 * t.val + r.val = win1_10.index t (0 : Fin 2) * 2000 + 1 * r.val; rw [h0]; omega
  | ⟨1, _⟩ => show j.val = win1_10.index t (1 : Fin 2) * 384 + 1 * j.val; rw [h1]; omega

/-- An index of the array is in point `t`'s block iff each coordinate is in the block's range on its axis. -/
theorem mem_blk1 (t : Fin cfg1.N) (i : S50000x384.Idx) :
    i ∈ ((cfg1.win 10).blk t).view.set ↔ ∀ a : Fin 2, win1_10.index t a * S2000x384.size a ≤ (i a).val ∧ (i a).val < win1_10.index t a * S2000x384.size a + S2000x384.size a := by
  show i ∈ ((View.whole main_v182).slice (win1_10.rect t)).set ↔ _
  rw [View.set_slice_whole, Rect.mem_set_unit]
  exact Iff.rfl

/-- Every row is covered: row `n` by point `n / 2000`. -/
theorem cover1 (i : S50000x384.Idx) : ∃ t : Fin cfg1.N, (cfg1.win 10).flush t = true ∧ i ∈ ((cfg1.win 10).blk t).view.set := by
  have hi0 : (i 0).val < 50000 := (i 0).isLt
  have hi1 : (i 1).val < 384 := (i 1).isLt
  have hN : cfg1.N = 25 := N_1
  refine ⟨⟨(i 0).val / 2000, by rw [hN]; omega⟩, flush1_10 _, ?_⟩
  rw [mem_blk1]
  obtain ⟨h0, h1⟩ := idx1_10 ⟨(i 0).val / 2000, by rw [hN]; omega⟩
  intro a
  match a with
  | ⟨0, _⟩ =>
    show win1_10.index _ (0 : Fin 2) * 2000 ≤ (i 0).val ∧ (i 0).val < win1_10.index _ (0 : Fin 2) * 2000 + 2000
    rw [h0]; show (i 0).val / 2000 * 2000 ≤ (i 0).val ∧ (i 0).val < (i 0).val / 2000 * 2000 + 2000; omega
  | ⟨1, _⟩ =>
    show win1_10.index _ (1 : Fin 2) * 384 ≤ (i 1).val ∧ (i 1).val < win1_10.index _ (1 : Fin 2) * 384 + 384
    rw [h1]; omega

/-- THE RESULT ARRAY after the region: `arr1` of the input arrays. -/
theorem arr1_eq (c : Dev nD) : (dat1 V c).arrAt 10 cfg1.N = arr1 V c :=
  (dat1 V c).arrAt_eq_of_cover 10 (arr1 V c) (fun t _ => flushed1_eq V c t) cover1

/-- … entry by entry. -/
theorem arr1_apply (c : Dev nD) (n : Fin 50000) (j : Fin 384) :
    (dat1 V c).arrAt 10 cfg1.N (ix2 n j)
      = combAt (GW := 384) (V c (Pipeline.arrRef spec1 0)) (V c (Pipeline.arrRef spec1 1)) (V c (Pipeline.arrRef spec1 2)) (V c (Pipeline.arrRef spec1 3))
          (V c (Pipeline.arrRef spec1 4)) (V c (Pipeline.arrRef spec1 5)) (V c (Pipeline.arrRef spec1 6)) (V c (Pipeline.arrRef spec1 7))
          (V c (Pipeline.arrRef spec1 8)) (V c (Pipeline.arrRef spec1 9)) n j := by
  rw [arr1_eq]; rfl

end Cert.KernelIdeal.HandV

end
-- ==== Proof.KV.GroupA.lean ====
import proofs.«414290_j6631429505478_3_alg».proof.Proof.KV.Carry
import proofs.«414290_j6631429505478_3_alg».proof.Proof.KV.Inputs
import proofs.«414290_j6631429505478_3_alg».proof.Proof.KV.GroupComb
import proofs.«414290_j6631429505478_3_alg».proof.Proof.KV.HostStats1
import proofs.«414290_j6631429505478_3_alg».proof.Proof.KV.StatsAcc0
import proofs.«414290_j6631429505478_3_alg».proof.Proof.KV.Arr1

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx
open Idealize.ShloMosaic.Pipeline (Dat)
open Cert.Spec
open scoped BigOperators

variable (m : (ℓ : Loc nD τ sig) → Buf (Elt Ideal) ℓ) (ρ : Dev nD → PrngReg) (c : Dev nD)

/-! # Group A: the statistics call 0, the host stretch 1 and the combining call 1

The first stretch leaves the group's three inputs and its stacked parameters; call 0 sums the linear layers'
outputs and their squares per core; the stretch between makes the means and variances; call 1 combines. Its
result, 384 columns wide, is the group's result over what the first stretch left. -/

/-- The group's inputs as the first stretch leaves them. -/
abbrev xA0 : FVec Ideal S50000x128 .bf16 := W1 m ρ c (Proc.devRef .tc main_v169)
abbrev xA1 : FVec Ideal S50000x128 .bf16 := W1 m ρ c (Proc.devRef .tc main_v170)
abbrev xA2 : FVec Ideal S50000x128 .bf16 := W1 m ρ c (Proc.devRef .tc main_v13)
/-- The group's stacked parameters as the first stretch leaves them. -/
abbrev wtA : FVec Ideal S3x128x384 .f32 := W1 m ρ c (Proc.devRef .tc main_v152)
abbrev bA : FVec Ideal S3x384 .f32 := W1 m ρ c (Proc.devRef .tc main_v156)
abbrev gA : FVec Ideal S3x384 .f32 := W1 m ρ c (Proc.devRef .tc main_v160)
abbrev beA : FVec Ideal S3x384 .f32 := W1 m ρ c (Proc.devRef .tc main_v164)
abbrev wA : FVec Ideal S3x384 .f32 := W1 m ρ c (Proc.devRef .tc main_v168)

/-- The group's arrays and inputs in the specification's terms. -/
abbrev arrsA : GroupArrays 3 := arraysOf (G := 3) (wtA m ρ c) (bA m ρ c) (gA m ρ c) (beA m ρ c) (wA m ρ c)
abbrev rowsA : Fin 3 → Feat := rowsOf (xA0 m ρ c) (xA1 m ρ c) (xA2 m ρ c)

/-- Call 0's linear layer at a row of the whole arrays is the group's. -/
theorem zArrA (cc : Fin 3) (R : Fin 50000) (j : Fin 384) :
    Stats0.zArr (Stats0.xarr (V1 m ρ) c cc) (Stats0.warr (V1 m ρ) c) (Stats0.barr (V1 m ρ) c) cc R j
      = zG (arrsA m ρ c) (rowsA m ρ c) cc R j := by
  match cc with
  | ⟨0, _⟩ => rfl
  | ⟨1, _⟩ => rfl
  | ⟨2, _⟩ => rfl

/-- Call 0's sums, per core. -/
theorem sumA (core : Fin 2) (cc : Fin 3) (j : Fin 384) :
    (W2 m ρ c (Proc.devRef .tc main_v171_0) : FVec Ideal S2x3x384 .f32) (ix3 core cc j)
      = coreSum (fun n => zG (arrsA m ρ c) (rowsA m ρ c) cc n j) core := by
  have h := W2_arr m ρ c (5 : Fin cfg0.W)
  rw [show W2 m ρ c (Proc.devRef .tc main_v171_0) = _ from h, Stats0.arr5_apply (V1 m ρ) c core cc j]
  unfold coreSum
  show (_ : EReal) = _
  exact Finset.sum_congr rfl fun i _ => Finset.sum_congr rfl fun r _ => zArrA m ρ c cc _ j

/-- Call 0's sums of squares, per core. -/
theorem sqA (core : Fin 2) (cc : Fin 3) (j : Fin 384) :
    (W2 m ρ c (Proc.devRef .tc main_v171_1) : FVec Ideal S2x3x384 .f32) (ix3 core cc j)
      = coreSum (fun n => zG (arrsA m ρ c) (rowsA m ρ c) cc n j * zG (arrsA m ρ c) (rowsA m ρ c) cc n j) core := by
  have h := W2_arr m ρ c (6 : Fin cfg0.W)
  rw [show W2 m ρ c (Proc.devRef .tc main_v171_1) = _ from h, Stats0.arr6_apply (V1 m ρ) c core cc j]
  unfold coreSum
  show (_ : EReal) = _
  exact Finset.sum_congr rfl fun i _ => Finset.sum_congr rfl fun r _ => by rw [zArrA m ρ c cc _ j]

/-- The means the stretch between the calls leaves, of call 0's sums `s`. -/
theorem meanA (s : FVec Ideal S2x3x384 .f32) (hs : W2 m ρ c (Proc.devRef .tc main_v171_0) = s) (cc : Fin 3) (j : Fin 384) :
    (W3 m ρ c (Proc.devRef .tc main_v175) : FVec Ideal S3x384 .f32) (ix2 cc j)
      = Ideal.div (s (ix3 (0 : Fin 2) cc j) + s (ix3 (1 : Fin 2) cc j)) N50000 := by
  rw [W3_eq]
  exact host1_mean (W2 m ρ c) s hs (ix2 cc j)

/-- The variances the stretch between the calls leaves, of call 0's sums `s` and sums of squares `q`. -/
theorem varA (s q : FVec Ideal S2x3x384 .f32) (hs : W2 m ρ c (Proc.devRef .tc main_v171_0) = s)
    (hq : W2 m ρ c (Proc.devRef .tc main_v171_1) = q) (cc : Fin 3) (j : Fin 384) :
    (W3 m ρ c (Proc.devRef .tc main_v181) : FVec Ideal S3x384 .f32) (ix2 cc j)
      = max (Ideal.div (q (ix3 (0 : Fin 2) cc j) + q (ix3 (1 : Fin 2) cc j)) N50000
          - Ideal.div (s (ix3 (0 : Fin 2) cc j) + s (ix3 (1 : Fin 2) cc j)) N50000
            * Ideal.div (s (ix3 (0 : Fin 2) cc j) + s (ix3 (1 : Fin 2) cc j)) N50000) 0 := by
  rw [W3_eq]
  exact host1_var (W2 m ρ c) s q hs hq (ix2 cc j)

/-- Call 1's arrays at its entry are what the first stretch left. -/
theorem entryA :
    V3 m ρ c (Pipeline.arrRef spec1 0) = xA0 m ρ c ∧ V3 m ρ c (Pipeline.arrRef spec1 1) = xA1 m ρ c
      ∧ V3 m ρ c (Pipeline.arrRef spec1 2) = xA2 m ρ c ∧ V3 m ρ c (Pipeline.arrRef spec1 3) = wtA m ρ c
      ∧ V3 m ρ c (Pipeline.arrRef spec1 4) = bA m ρ c ∧ V3 m ρ c (Pipeline.arrRef spec1 5) = gA m ρ c
      ∧ V3 m ρ c (Pipeline.arrRef spec1 6) = beA m ρ c ∧ V3 m ρ c (Pipeline.arrRef spec1 7) = wA m ρ c :=
  ⟨keep_1_3 m ρ c main_v169 (by decide), keep_1_3 m ρ c main_v170 (by decide), keep_1_3 m ρ c main_v13 (by decide),
    keep_1_3 m ρ c main_v152 (by decide), keep_1_3 m ρ c main_v156 (by decide), keep_1_3 m ρ c main_v160 (by decide),
    keep_1_3 m ρ c main_v164 (by decide), keep_1_3 m ρ c main_v168 (by decide)⟩

/-- Call 1's combination at (n, j): the group's result over what the first stretch left. -/
theorem combA (n : Fin 50000) (j : Fin 384) :
    combAt (GW := 384) (xA0 m ρ c) (xA1 m ρ c) (xA2 m ρ c) (wtA m ρ c) (bA m ρ c) (gA m ρ c) (beA m ρ c) (wA m ρ c)
        (V3 m ρ c (Pipeline.arrRef spec1 8)) (V3 m ρ c (Pipeline.arrRef spec1 9)) n j
      = outG (arrsA m ρ c) (rowsA m ρ c) n j :=
  combAt_eq_outG (G := 3) _ _ _ _ _ _ _ _ _ _
    (W2 m ρ c (Proc.devRef .tc main_v171_0)) (W2 m ρ c (Proc.devRef .tc main_v171_1))
    (sumA m ρ c) (sqA m ρ c) (meanA m ρ c _ rfl) (varA m ρ c _ _ rfl rfl) n j

/-- Call 1's result at (n, j): the group's result over what the first stretch left. -/
theorem outA (n : Fin 50000) (j : Fin 384) :
    (W4 m ρ c (Proc.devRef .tc main_v182) : FVec Ideal S50000x384 .f32) (ix2 n j)
      = outG (arrsA m ρ c) (rowsA m ρ c) n j := by
  have h := W4_arr m ρ c (10 : Fin cfg1.W)
  obtain ⟨e0, e1, e2, e3, e4, e5, e6, e7⟩ := entryA m ρ c
  rw [show W4 m ρ c (Proc.devRef .tc main_v182) = _ from h]
  refine (arr1_apply (V3 m ρ) c n j).trans ?_
  exact (combAt_congr e0 e1 e2 e3 e4 e5 e6 e7 rfl rfl n j).trans (combA m ρ c n j)

end Cert.KernelIdeal.HandV

end
-- ==== Proof.KV.HostState0.lean ====
/- The kernel program's first host stretch, the state side, at the ideal values: the source and
   destination rows of the edge index, the reciprocal clamped in-degree, and the three arrays the first call reads:
   the aggregation of the node features over the edges and the two feature arrays themselves (a narrowing convert is
   the identity at the ideal values). -/
import proofs.«414290_j6631429505478_3_alg».proof.Proof.Gen.KernelIdeal.Launch
import proofs.«414290_j6631429505478_3_alg».proof.Proof.Br.Agg
import Idealize.ShloMosaic.Lib.StableHlo.Run
import Idealize.ShloMosaic.Lib.ValueIdx

set_option maxRecDepth 16384

noncomputable section

namespace Cert.KernelIdeal.HandV

open Cert.KernelIdeal Cert.KernelIdeal.Gen Cert.Bridge
open Idealize.ShloMosaic Idealize.ShloMosaic.TcCoe
open Idealize.ShloMosaic.ValueIdx

/-- The source node of each edge: row 0 of the edge index. -/
theorem host0_src (X : Valuation τ sig (Elt Ideal)) :
    (StableHlo.after (hostOps0 (F := Ideal)) X (Proc.devRef .tc main_v1) : IVec S800000 32)
      = srcK (X (Proc.devRef .tc main_arg0)) := by
  after_results_simp
  rfl

/-- The destination node of each edge: row 1 of the edge index. -/
theorem host0_dst (X : Valuation τ sig (Elt Ideal)) :
    (StableHlo.after (hostOps0 (F := Ideal)) X (Proc.devRef .tc main_v3) : IVec S800000 32)
      = dstK (X (Proc.devRef .tc main_arg0)) := by
  after_results_simp
  rfl

/-- The reciprocal of the in-degree clamped below at one, as a column. -/
theorem host0_invDeg (X : Valuation τ sig (Elt Ideal)) :
    (StableHlo.after (hostOps0 (F := Ideal)) X (Proc.devRef .tc main_v12) : FVec Ideal S50000x1 .f32)
      = invDegK (X (Proc.devRef .tc main_arg0)) := by
  after_results_simp
  rfl

/-- The aggregation of the node features over the edges. -/
theorem host0_agg (X : Valuation τ sig (Elt Ideal)) :
    (StableHlo.after (hostOps0 (F := Ideal)) X (Proc.devRef .tc main_v25) : FVec Ideal S50000x128 .f32)
      = aggK (X (Proc.devRef .tc main_arg0)) (X (Proc.devRef .tc main_arg1)) := by
  after_results_simp
  rfl

/-- What the first call reads first: the aggregation of the node features (the narrowing convert is the identity). -/
theorem host0_v169 (X : Valuation τ sig (Elt Ideal)) (i : S50000x128.Idx) :
    (StableHlo.after (hostOps0 (F := Ideal)) X (Proc.devRef .tc main_v169) : FVec Ideal S50000x128 .bf16) i
      = aggK (X (Proc.devRef .tc main_arg0)) (X (Proc.devRef .tc main_arg1)) i := by
  after_results_simp
  rfl

/-- What the first call reads second: the node features. -/
theorem host0_v170 (X : Valuation τ sig (Elt Ideal)) (i : S50000x128.Idx) :
    (StableHlo.after (hostOps0 (F := Ideal)) X (Proc.devRef .tc main_v170) : FVec Ideal S50000x128 .bf16) i
      = (X (Proc.devRef .tc main_arg1) : FVec Ideal S50000x128 .f32) i := by
  after_results_simp
  rfl

/-- What every call reads third: the input features. -/
theorem host0_v13 (X : Valuation τ sig (Elt Ideal)) (i : S50000x128.Idx) :
    (StableHlo.after (hostOps0 (F := Ideal)) X (Proc.devRef .tc main_v13) : FVec Ideal S50000x128 .bf16) i
      = (X (Proc.devRef .tc main_arg2) : FVec Ideal S50000x128 .f32) i := by
  after_results_simp
  rfl

end Cert.KernelIdeal.HandV

end
-- ==== Proof.KV.HostState2.lean ====
/- The kernel program's third host stretch, the state side, at the ideal values: the first state is
   the first 128 columns of the first combine call's result, the carried addend its next 128 columns; the second call
   reads the aggregation of the first state over the edges and the first state itself (a narrowing convert is the
   identity at the ideal values). The edge rows and the reciprocal in-degree are read from the valuation: they are the
   first stretch's results. -/
import proofs.«414290_j6631429505478_3_alg».proof.Proof.Gen.KernelIdeal.Launch
import proofs.«414290_j6631429505478_3_alg».proof.Proof.Br.Agg
import Idealize.ShloMosaic.Lib.StableHlo.Run
import Idealize.ShloMosaic.Lib.ValueIdx
import Idealize.ShloMosaic.Lib.Pipeline.Value
import Idealize.ShloMosaic.PureOps.Ideal.Laws

set_option maxRecDepth 16384

noncomputable section

namespace Cert.KernelIdeal.HandV

open Cert.KernelIdeal Cert.KernelIdeal.Gen Cert.Bridge
open Idealize.ShloMosaic Idealize.ShloMosaic.TcCoe
open Idealize.ShloMosaic.ValueIdx

/-- The first state: columns 0 … 127 of the first combine call's result. -/
theorem host2_v183 (X : Valuation τ sig (Elt Ideal)) :
    (StableHlo.after (hostOps2 (F := Ideal)) X (Proc.devRef .tc main_v183) : FVec Ideal S50000x128 .f32)
      = extractStridedSlice S50000x128 ![0, 0] (X (Proc.devRef .tc main_v182)) slices_S50000x384_S50000x128_0_0 := by
  after_results_simp

/-- The first state at (n, d) is the call's result at (n, d). -/
theorem host2_v183_apply (X : Valuation τ sig (Elt Ideal)) (n : Fin 50000) (d : Fin 128) :
    (StableHlo.after (hostOps2 (F := Ideal)) X (Proc.devRef .tc main_v183) : FVec Ideal S50000x128 .f32) (ix2 n d)
      = (X (Proc.devRef .tc main_v182) : FVec Ideal S50000x384 .f32) (ix2 n ⟨d.val, by omega⟩) := by
  rw [host2_v183]
  exact extractStridedSlice_apply _ _ slices_S50000x384_S50000x128_0_0 (ix2 n d) (ix2 n ⟨d.val, by omega⟩) (by
    intro a
    match a with
    | ⟨0, _⟩ => show n.val = 0 + n.val; omega
    | ⟨1, _⟩ => show d.val = 0 + d.val; omega)

/-- The carried addend at (n, d) is the call's result at (n, 128 + d). -/
theorem host2_v196_apply (X : Valuation τ sig (Elt Ideal)) (n : Fin 50000) (d : Fin 128) :
    (StableHlo.after (hostOps2 (F := Ideal)) X (Proc.devRef .tc main_v196) : FVec Ideal S50000x128 .f32) (ix2 n d)
      = (X (Proc.devRef .tc main_v182) : FVec Ideal S50000x384 .f32) (ix2 n ⟨128 + d.val, by omega⟩) := by
  have e : (StableHlo.after (hostOps2 (F := Ideal)) X (Proc.devRef .tc main_v196) : FVec Ideal S50000x128 .f32)
      = extractStridedSlice S50000x128 ![0, 128] (X (Proc.devRef .tc main_v182)) slices_S50000x384_S50000x128_0_128 := by
    after_results_simp
  rw [e]
  exact extractStridedSlice_apply _ _ slices_S50000x384_S50000x128_0_128 (ix2 n d) (ix2 n ⟨128 + d.val, by omega⟩) (by
    intro a
    match a with
    | ⟨0, _⟩ => show n.val = 0 + n.val; omega
    | ⟨1, _⟩ => show 128 + d.val = 128 + d.val; rfl)

/-- The aggregation of the first state over the edges, the edge rows and the reciprocal in-degree being the first
    stretch's. -/
theorem host2_agg (X : Valuation τ sig (Elt Ideal)) (e : (⟨S2x800000, .i32⟩ : BufTy).Contents (Elt Ideal))
    (h1 : X (Proc.devRef .tc main_v1) = srcK e) (h3 : X (Proc.devRef .tc main_v3) = dstK e)
    (h12 : X (Proc.devRef .tc main_v12) = invDegK e) :
    (StableHlo.after (hostOps2 (F := Ideal)) X (Proc.devRef .tc main_v195) : FVec Ideal S50000x128 .f32)
      = aggK e (StableHlo.after (hostOps2 (F := Ideal)) X (Proc.devRef .tc main_v183)) := by
  rw [host2_v183]
  after_results_simp
  rw [h1, h3, h12]
  rfl

/-- What the second call reads first: the aggregation of the first state. -/
theorem host2_v304 (X : Valuation τ sig (Elt Ideal)) (e : (⟨S2x800000, .i32⟩ : BufTy).Contents (Elt Ideal))
    (h1 : X (Proc.devRef .tc main_v1) = srcK e) (h3 : X (Proc.devRef .tc main_v3) = dstK e)
    (h12 : X (Proc.devRef .tc main_v12) = invDegK e) (i : S50000x128.Idx) :
    (StableHlo.after (hostOps2 (F := Ideal)) X (Proc.devRef .tc main_v304) : FVec Ideal S50000x128 .bf16) i
      = aggK e (StableHlo.after (hostOps2 (F := Ideal)) X (Proc.devRef .tc main_v183)) i := by
  have e304 : (StableHlo.after (hostOps2 (F := Ideal)) X (Proc.devRef .tc main_v304) : FVec Ideal S50000x128 .bf16) i
      = (StableHlo.after (hostOps2 (F := Ideal)) X (Proc.devRef .tc main_v195) : FVec Ideal S50000x128 .f32) i := by
    after_results_simp
    rfl
  rw [e304, host2_agg X e h1 h3 h12]

/-- What the second call reads second: the first state. -/
theorem host2_v305 (X : Valuation τ sig (Elt Ideal)) (i : S50000x128.Idx) :
    (StableHlo.after (hostOps2 (F := Ideal)) X (Proc.devRef .tc main_v305) : FVec Ideal S50000x128 .bf16) i
      = (StableHlo.after (hostOps2 (F := Ideal)) X (Proc.devRef .tc main_v183) : FVec Ideal S50000x128 .f32) i := by
  after_results_simp
  rfl

end Cert.KernelIdeal.HandV

end
-- ==== Proof.KV.HostState4.lean ====
/- The kernel program's fifth host stretch, the state side, at the ideal values: the second state is
   the first 128 columns of the second combine call's result; the carried addend is the last 128 columns of the first
   combine call's result plus the last 128 columns of the second's; the third call reads the aggregation of the second
   state over the edges and the second state itself (a narrowing convert is the identity at the ideal values). The
   edge rows and the reciprocal in-degree are read from the valuation: they are the first stretch's results. -/
import proofs.«414290_j6631429505478_3_alg».proof.Proof.Gen.KernelIdeal.Launch
import proofs.«414290_j6631429505478_3_alg».proof.Proof.Br.Agg
import Idealize.ShloMosaic.Lib.StableHlo.Run
import Idealize.ShloMosaic.Lib.ValueIdx
import Idealize.ShloMosaic.Lib.Pipeline.Value
import Idealize.ShloMosaic.PureOps.Ideal.Laws

set_option maxRecDepth 16384

noncomputable section

namespace Cert.KernelIdeal.HandV

open Cert.KernelIdeal Cert.KernelIdeal.Gen Cert.Bridge
open Idealize.ShloMosaic Idealize.ShloMosaic.TcCoe
open Idealize.ShloMosaic.ValueIdx

/-- The second state: columns 0 … 127 of the second combine call's result. -/
theorem host4_v318 (X : Valuation τ sig (Elt Ideal)) :
    (StableHlo.after (hostOps4 (F := Ideal)) X (Proc.devRef .tc main_v318) : FVec Ideal S50000x128 .f32)
      = extractStridedSlice S50000x128 ![0, 0] (X (Proc.devRef .tc main_v317)) slices_S50000x256_S50000x128_0_0 := by
  after_results_simp

/-- The second state at (n, d) is the call's result at (n, d). -/
theorem host4_v318_apply (X : Valuation τ sig (Elt Ideal)) (n : Fin 50000) (d : Fin 128) :
    (StableHlo.after (hostOps4 (F := Ideal)) X (Proc.devRef .tc main_v318) : FVec Ideal S50000x128 .f32) (ix2 n d)
      = (X (Proc.devRef .tc main_v317) : FVec Ideal S50000x256 .f32) (ix2 n ⟨d.val, by omega⟩) := by
  rw [host4_v318]
  exact extractStridedSlice_apply _ _ slices_S50000x256_S50000x128_0_0 (ix2 n d) (ix2 n ⟨d.val, by omega⟩) (by
    intro a
    match a with
    | ⟨0, _⟩ => show n.val = 0 + n.val; omega
    | ⟨1, _⟩ => show d.val = 0 + d.val; omega)

/-- The carried addend at (n, d): the first call's result at (n, 256 + d) plus the second's at (n, 128 + d). -/
theorem host4_v321_apply (X : Valuation τ sig (Elt Ideal)) (u : FVec Ideal S50000x384 .f32) (v : FVec Ideal S50000x256 .f32)
    (hu : X (Proc.devRef .tc main_v182) = u) (hv : X (Proc.devRef .tc main_v317) = v) (n : Fin 50000) (d : Fin 128) :
    (StableHlo.after (hostOps4 (F := Ideal)) X (Proc.devRef .tc main_v321) : FVec Ideal S50000x128 .f32) (ix2 n d)
      = u (ix2 n ⟨256 + d.val, by omega⟩) + v (ix2 n ⟨128 + d.val, by omega⟩) := by
  have e : (StableHlo.after (hostOps4 (F := Ideal)) X (Proc.devRef .tc main_v321) : FVec Ideal S50000x128 .f32)
      = addf (F := Ideal) (φ := .f32)
          (extractStridedSlice S50000x128 ![0, 256] u slices_S50000x384_S50000x128_0_256)
          (extractStridedSlice S50000x128 ![0, 128] v slices_S50000x256_S50000x128_0_128) := by
    subst hu; subst hv
    after_results_simp
  rw [e]
  show extractStridedSlice S50000x128 ![0, 256] u slices_S50000x384_S50000x128_0_256 (ix2 n d)
      + extractStridedSlice S50000x128 ![0, 128] v slices_S50000x256_S50000x128_0_128 (ix2 n d) = _
  rw [extractStridedSlice_apply _ _ slices_S50000x384_S50000x128_0_256 (ix2 n d) (ix2 n ⟨256 + d.val, by omega⟩) (by
      intro a
      match a with
      | ⟨0, _⟩ => show n.val = 0 + n.val; omega
      | ⟨1, _⟩ => show 256 + d.val = 256 + d.val; rfl),
    extractStridedSlice_apply _ _ slices_S50000x256_S50000x128_0_128 (ix2 n d) (ix2 n ⟨128 + d.val, by omega⟩) (by
      intro a
      match a with
      | ⟨0, _⟩ => show n.val = 0 + n.val; omega
      | ⟨1, _⟩ => show 128 + d.val = 128 + d.val; rfl)]

/-- The aggregation of the second state over the edges, the edge rows and the reciprocal in-degree being the first
    stretch's. -/
theorem host4_agg (X : Valuation τ sig (Elt Ideal)) (e : (⟨S2x800000, .i32⟩ : BufTy).Contents (Elt Ideal))
    (h1 : X (Proc.devRef .tc main_v1) = srcK e) (h3 : X (Proc.devRef .tc main_v3) = dstK e)
    (h12 : X (Proc.devRef .tc main_v12) = invDegK e) :
    (StableHlo.after (hostOps4 (F := Ideal)) X (Proc.devRef .tc main_v333) : FVec Ideal S50000x128 .f32)
      = aggK e (StableHlo.after (hostOps4 (F := Ideal)) X (Proc.devRef .tc main_v318)) := by
  rw [host4_v318]
  after_results_simp
  rw [h1, h3, h12]
  rfl

/-- What the third call reads first: the aggregation of the second state. -/
theorem host4_v390 (X : Valuation τ sig (Elt Ideal)) (e : (⟨S2x800000, .i32⟩ : BufTy).Contents (Elt Ideal))
    (h1 : X (Proc.devRef .tc main_v1) = srcK e) (h3 : X (Proc.devRef .tc main_v3) = dstK e)
    (h12 : X (Proc.devRef .tc main_v12) = invDegK e) (i : S50000x128.Idx) :
    (StableHlo.after (hostOps4 (F := Ideal)) X (Proc.devRef .tc main_v390) : FVec Ideal S50000x128 .bf16) i
      = aggK e (StableHlo.after (hostOps4 (F := Ideal)) X (Proc.devRef .tc main_v318)) i := by
  have e390 : (StableHlo.after (hostOps4 (F := Ideal)) X (Proc.devRef .tc main_v390) : FVec Ideal S50000x128 .bf16) i
      = (StableHlo.after (hostOps4 (F := Ideal)) X (Proc.devRef .tc main_v333) : FVec Ideal S50000x128 .f32) i := by
    after_results_simp
    rfl
  rw [e390, host4_agg X e h1 h3 h12]

/-- What the third call reads second: the second state. -/
theorem host4_v391 (X : Valuation τ sig (Elt Ideal)) (i : S50000x128.Idx) :
    (StableHlo.after (hostOps4 (F := Ideal)) X (Proc.devRef .tc main_v391) : FVec Ideal S50000x128 .bf16) i
      = (StableHlo.after (hostOps4 (F := Ideal)) X (Proc.devRef .tc main_v318) : FVec Ideal S50000x128 .f32) i := by
  after_results_simp
  rfl

end Cert.KernelIdeal.HandV

end
-- ==== Proof.KV.HostLayout.lean ====
import proofs.«414290_j6631429505478_3_alg».proof.Proof.Gen.KernelIdeal.Launch
import Idealize.ShloMosaic.Lib.StableHlo.Run
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.KernelIdeal.HandV

open Cert.KernelIdeal Cert.KernelIdeal.Gen
open Idealize.ShloMosaic Idealize.ShloMosaic.TcCoe
open Idealize.ShloMosaic.ValueIdx

/-! # Layout facts for the host stretches that build a group's parameter arrays

Every parameter array a call reads is built the same way: pieces cut out of one argument (a slice, the
unit axes dropped, a weight matrix transposed, a scalar spread along a row), the group's pieces laid side
by side along the column axis, and the three branches stacked along a new leading axis. -/

section Vec3
variable {α : Type}
theorem vec3_0 (a b c : α) : (![a, b, c] : Fin 3 → α) 0 = a := rfl
theorem vec3_1 (a b c : α) : (![a, b, c] : Fin 3 → α) 1 = b := rfl
theorem vec3_2 (a b c : α) : (![a, b, c] : Fin 3 → α) 2 = c := rfl
theorem vec3_mk0 (a b c : α) (h : 0 < 3) : (![a, b, c] : Fin 3 → α) ⟨0, h⟩ = a := rfl
theorem vec3_mk1 (a b c : α) (h : 1 < 3) : (![a, b, c] : Fin 3 → α) ⟨1, h⟩ = b := rfl
theorem vec3_mk2 (a b c : α) (h : 2 < 3) : (![a, b, c] : Fin 3 → α) ⟨2, h⟩ = c := rfl
theorem vec2_mk0 (a b : α) (h : 0 < 2) : (![a, b] : Fin 2 → α) ⟨0, h⟩ = a := rfl
theorem vec2_mk1 (a b : α) (h : 1 < 2) : (![a, b] : Fin 2 → α) ⟨1, h⟩ = b := rfl
end Vec3

/-- The operations whose columns a group's calls hold side by side: 0, 1, 3 in the first group, 2, 4 in the second
    (the third group is operation 5 alone). -/
abbrev mA : Fin 3 → Fin 6 := ![0, 1, 3]
abbrev mB : Fin 2 → Fin 6 := ![2, 4]

/-- One rewriting pass over the results of a printed operation list: each operation's result at its own
    buffer is its function's value, at another buffer what was there; a three-operand concatenate's operand
    buffers are read off their literal family. -/
macro "results_pass" : tactic =>
  `(tactic| (simp (disch := decide) only [StableHlo.after_cons, StableHlo.after_nil,
      StableHlo.nullary_result', StableHlo.unary_result', StableHlo.binary_result', StableHlo.ternary_result',
      StableHlo.quaternary_result', StableHlo.reshape_result', StableHlo.nary_result',
      StableHlo.nullary_result_ne', StableHlo.unary_result_ne', StableHlo.binary_result_ne', StableHlo.ternary_result_ne',
      StableHlo.quaternary_result_ne', StableHlo.reshape_result_ne', StableHlo.nary_result_ne',
      vec3_0, vec3_1, vec3_2, ↓vec3_mk0, ↓vec3_mk1, ↓vec3_mk2, ↓vec2_mk0, ↓vec2_mk1]))

section Layout
variable {α : Type}

/-- An [R, C] array given a leading unit axis, at (0, r, c). -/
theorem addLead2_apply {R C : Nat} (u : (⟨2, ![R, C]⟩ : Shape).Idx → α)
    (hb : (⟨2, ![R, C]⟩ : Shape).BroadcastsInDim ⟨3, ![1, R, C]⟩ ![1, 2]) (j : (⟨3, ![1, R, C]⟩ : Shape).Idx) :
    broadcastInDim ⟨3, ![1, R, C]⟩ ![1, 2] hb u j = u (ix2 (j 1) (j 2)) := by
  refine Idealize.ShloMosaic.broadcastInDim_apply _ hb u j _ fun a => ?_
  match a with
  | ⟨0, _⟩ =>
    show (j 1).val = if R = 1 then 0 else (j 1).val
    split
    · next h => have : (j 1).val < R := (j 1).isLt; omega
    · rfl
  | ⟨1, _⟩ =>
    show (j 2).val = if C = 1 then 0 else (j 2).val
    split
    · next h => have : (j 2).val < C := (j 2).isLt; omega
    · rfl

/-- A length-G vector given a leading unit axis, at (0, c). -/
theorem addLead1_apply {G : Nat} (u : (⟨1, ![G]⟩ : Shape).Idx → α)
    (hb : (⟨1, ![G]⟩ : Shape).BroadcastsInDim ⟨2, ![1, G]⟩ ![1]) (j : (⟨2, ![1, G]⟩ : Shape).Idx) :
    broadcastInDim ⟨2, ![1, G]⟩ ![1] hb u j = u (ix1 (j 1)) := by
  refine Idealize.ShloMosaic.broadcastInDim_apply _ hb u j _ fun a => ?_
  match a with
  | ⟨0, _⟩ =>
    show (j 1).val = if G = 1 then 0 else (j 1).val
    split
    · next h => have : (j 1).val < G := (j 1).isLt; omega
    · rfl

/-- Three [R, C] arrays stacked along a new leading axis, at (k, r, c). -/
theorem stack3_apply {R C : Nat} (u0 u1 u2 : (⟨2, ![R, C]⟩ : Shape).Idx → α)
    (hb : (⟨2, ![R, C]⟩ : Shape).BroadcastsInDim ⟨3, ![1, R, C]⟩ ![1, 2])
    (hc : Shape.Concatenates [⟨3, ![1, R, C]⟩, ⟨3, ![1, R, C]⟩, ⟨3, ![1, R, C]⟩] ⟨3, ![3, R, C]⟩ 0)
    (i : (⟨3, ![3, R, C]⟩ : Shape).Idx) :
    concatenate ⟨3, ![3, R, C]⟩ 0
        [⟨⟨3, ![1, R, C]⟩, broadcastInDim ⟨3, ![1, R, C]⟩ ![1, 2] hb u0⟩,
         ⟨⟨3, ![1, R, C]⟩, broadcastInDim ⟨3, ![1, R, C]⟩ ![1, 2] hb u1⟩,
         ⟨⟨3, ![1, R, C]⟩, broadcastInDim ⟨3, ![1, R, C]⟩ ![1, 2] hb u2⟩] hc i
      = (![u0, u1, u2] : Fin 3 → (⟨2, ![R, C]⟩ : Shape).Idx → α) (i 0) (ix2 (i 1) (i 2)) := by
  have hoff : ∀ b : Fin 3, b.cast (rfl : (3 : Nat) = 3) ≠ (0 : Fin 3) →
      ((ix3 (0 : Fin 1) (i 1) (i 2) : (⟨3, ![1, R, C]⟩ : Shape).Idx) b).val = (i (b.cast rfl)).val := by
    intro b hb'
    match b with
    | ⟨0, _⟩ => exact absurd rfl hb'
    | ⟨1, _⟩ => rfl
    | ⟨2, _⟩ => rfl
  rcases h0 : i 0 with ⟨k, hk⟩
  have hv : (i 0).val = k := by rw [h0]
  match k, hk with
  | 0, _ =>
    refine (Idealize.ShloMosaic.concatenate_apply_piece (t := ⟨3, ![3, R, C]⟩) (0 : Fin 3)
      [⟨⟨3, ![1, R, C]⟩, broadcastInDim ⟨3, ![1, R, C]⟩ ![1, 2] hb u0⟩,
       ⟨⟨3, ![1, R, C]⟩, broadcastInDim ⟨3, ![1, R, C]⟩ ![1, 2] hb u1⟩,
       ⟨⟨3, ![1, R, C]⟩, broadcastInDim ⟨3, ![1, R, C]⟩ ![1, 2] hb u2⟩] hc i 0 (by simp)
      ⟨3, ![1, R, C]⟩ (broadcastInDim ⟨3, ![1, R, C]⟩ ![1, 2] hb u0) rfl rfl 0 rfl
      (ix3 (0 : Fin 1) (i 1) (i 2)) hoff ?_).trans (addLead2_apply u0 hb _)
    show 0 + 0 = (i 0).val
    omega
  | 1, _ =>
    refine (Idealize.ShloMosaic.concatenate_apply_piece (t := ⟨3, ![3, R, C]⟩) (0 : Fin 3)
      [⟨⟨3, ![1, R, C]⟩, broadcastInDim ⟨3, ![1, R, C]⟩ ![1, 2] hb u0⟩,
       ⟨⟨3, ![1, R, C]⟩, broadcastInDim ⟨3, ![1, R, C]⟩ ![1, 2] hb u1⟩,
       ⟨⟨3, ![1, R, C]⟩, broadcastInDim ⟨3, ![1, R, C]⟩ ![1, 2] hb u2⟩] hc i 1 (by simp)
      ⟨3, ![1, R, C]⟩ (broadcastInDim ⟨3, ![1, R, C]⟩ ![1, 2] hb u1) rfl rfl 1 rfl
      (ix3 (0 : Fin 1) (i 1) (i 2)) hoff ?_).trans (addLead2_apply u1 hb _)
    show 1 + 0 = (i 0).val
    omega
  | 2, _ =>
    refine (Idealize.ShloMosaic.concatenate_apply_piece (t := ⟨3, ![3, R, C]⟩) (0 : Fin 3)
      [⟨⟨3, ![1, R, C]⟩, broadcastInDim ⟨3, ![1, R, C]⟩ ![1, 2] hb u0⟩,
       ⟨⟨3, ![1, R, C]⟩, broadcastInDim ⟨3, ![1, R, C]⟩ ![1, 2] hb u1⟩,
       ⟨⟨3, ![1, R, C]⟩, broadcastInDim ⟨3, ![1, R, C]⟩ ![1, 2] hb u2⟩] hc i 2 (by simp)
      ⟨3, ![1, R, C]⟩ (broadcastInDim ⟨3, ![1, R, C]⟩ ![1, 2] hb u2) rfl rfl 2 rfl
      (ix3 (0 : Fin 1) (i 1) (i 2)) hoff ?_).trans (addLead2_apply u2 hb _)
    show 2 + 0 = (i 0).val
    omega

/-- Three length-G vectors stacked along a new leading axis, at (k, c). -/
theorem stack3v_apply {G : Nat} (u0 u1 u2 : (⟨1, ![G]⟩ : Shape).Idx → α)
    (hb : (⟨1, ![G]⟩ : Shape).BroadcastsInDim ⟨2, ![1, G]⟩ ![1])
    (hc : Shape.Concatenates [⟨2, ![1, G]⟩, ⟨2, ![1, G]⟩, ⟨2, ![1, G]⟩] ⟨2, ![3, G]⟩ 0)
    (i : (⟨2, ![3, G]⟩ : Shape).Idx) :
    concatenate ⟨2, ![3, G]⟩ 0
        [⟨⟨2, ![1, G]⟩, broadcastInDim ⟨2, ![1, G]⟩ ![1] hb u0⟩,
         ⟨⟨2, ![1, G]⟩, broadcastInDim ⟨2, ![1, G]⟩ ![1] hb u1⟩,
         ⟨⟨2, ![1, G]⟩, broadcastInDim ⟨2, ![1, G]⟩ ![1] hb u2⟩] hc i
      = (![u0, u1, u2] : Fin 3 → (⟨1, ![G]⟩ : Shape).Idx → α) (i 0) (ix1 (i 1)) := by
  have hoff : ∀ b : Fin 2, b.cast (rfl : (2 : Nat) = 2) ≠ (0 : Fin 2) →
      ((ix2 (0 : Fin 1) (i 1) : (⟨2, ![1, G]⟩ : Shape).Idx) b).val = (i (b.cast rfl)).val := by
    intro b hb'
    match b with
    | ⟨0, _⟩ => exact absurd rfl hb'
    | ⟨1, _⟩ => rfl
  rcases h0 : i 0 with ⟨k, hk⟩
  have hv : (i 0).val = k := by rw [h0]
  match k, hk with
  | 0, _ =>
    refine (Idealize.ShloMosaic.concatenate_apply_piece (t := ⟨2, ![3, G]⟩) (0 : Fin 2)
      [⟨⟨2, ![1, G]⟩, broadcastInDim ⟨2, ![1, G]⟩ ![1] hb u0⟩,
       ⟨⟨2, ![1, G]⟩, broadcastInDim ⟨2, ![1, G]⟩ ![1] hb u1⟩,
       ⟨⟨2, ![1, G]⟩, broadcastInDim ⟨2, ![1, G]⟩ ![1] hb u2⟩] hc i 0 (by simp)
      ⟨2, ![1, G]⟩ (broadcastInDim ⟨2, ![1, G]⟩ ![1] hb u0) rfl rfl 0 rfl
      (ix2 (0 : Fin 1) (i 1)) hoff ?_).trans (addLead1_apply u0 hb _)
    show 0 + 0 = (i 0).val
    omega
  | 1, _ =>
    refine (Idealize.ShloMosaic.concatenate_apply_piece (t := ⟨2, ![3, G]⟩) (0 : Fin 2)
      [⟨⟨2, ![1, G]⟩, broadcastInDim ⟨2, ![1, G]⟩ ![1] hb u0⟩,
       ⟨⟨2, ![1, G]⟩, broadcastInDim ⟨2, ![1, G]⟩ ![1] hb u1⟩,
       ⟨⟨2, ![1, G]⟩, broadcastInDim ⟨2, ![1, G]⟩ ![1] hb u2⟩] hc i 1 (by simp)
      ⟨2, ![1, G]⟩ (broadcastInDim ⟨2, ![1, G]⟩ ![1] hb u1) rfl rfl 1 rfl
      (ix2 (0 : Fin 1) (i 1)) hoff ?_).trans (addLead1_apply u1 hb _)
    show 1 + 0 = (i 0).val
    omega
  | 2, _ =>
    refine (Idealize.ShloMosaic.concatenate_apply_piece (t := ⟨2, ![3, G]⟩) (0 : Fin 2)
      [⟨⟨2, ![1, G]⟩, broadcastInDim ⟨2, ![1, G]⟩ ![1] hb u0⟩,
       ⟨⟨2, ![1, G]⟩, broadcastInDim ⟨2, ![1, G]⟩ ![1] hb u1⟩,
       ⟨⟨2, ![1, G]⟩, broadcastInDim ⟨2, ![1, G]⟩ ![1] hb u2⟩] hc i 2 (by simp)
      ⟨2, ![1, G]⟩ (broadcastInDim ⟨2, ![1, G]⟩ ![1] hb u2) rfl rfl 2 rfl
      (ix2 (0 : Fin 1) (i 1)) hoff ?_).trans (addLead1_apply u2 hb _)
    show 2 + 0 = (i 0).val
    omega

/-- Three length-n vectors laid end to end, at g·n + d. -/
theorem cat3v_apply {n N : Nat} (u0 u1 u2 : (⟨1, ![n]⟩ : Shape).Idx → α)
    (hc : Shape.Concatenates [⟨1, ![n]⟩, ⟨1, ![n]⟩, ⟨1, ![n]⟩] ⟨1, ![N]⟩ 0)
    (j : (⟨1, ![N]⟩ : Shape).Idx) (g : Fin 3) (d : Fin n) (hj : (j 0).val = g.val * n + d.val) :
    concatenate ⟨1, ![N]⟩ 0 [⟨⟨1, ![n]⟩, u0⟩, ⟨⟨1, ![n]⟩, u1⟩, ⟨⟨1, ![n]⟩, u2⟩] hc j
      = (![u0, u1, u2] : Fin 3 → (⟨1, ![n]⟩ : Shape).Idx → α) g (ix1 d) := by
  have hoff : ∀ b : Fin 1, b.cast (rfl : (1 : Nat) = 1) ≠ (0 : Fin 1) →
      ((ix1 d : (⟨1, ![n]⟩ : Shape).Idx) b).val = (j (b.cast rfl)).val := by
    intro b hb'
    match b with
    | ⟨0, _⟩ => exact absurd rfl hb'
  match g, hj with
  | ⟨0, _⟩, hj =>
    have hj' : (j 0).val = 0 * n + d.val := hj
    refine Idealize.ShloMosaic.concatenate_apply_piece (t := ⟨1, ![N]⟩) (0 : Fin 1)
      [⟨⟨1, ![n]⟩, u0⟩, ⟨⟨1, ![n]⟩, u1⟩, ⟨⟨1, ![n]⟩, u2⟩] hc j 0 (by simp) ⟨1, ![n]⟩ u0 rfl rfl 0 rfl (ix1 d) hoff ?_
    show 0 + d.val = (j 0).val
    omega
  | ⟨1, _⟩, hj =>
    have hj' : (j 0).val = 1 * n + d.val := hj
    refine Idealize.ShloMosaic.concatenate_apply_piece (t := ⟨1, ![N]⟩) (0 : Fin 1)
      [⟨⟨1, ![n]⟩, u0⟩, ⟨⟨1, ![n]⟩, u1⟩, ⟨⟨1, ![n]⟩, u2⟩] hc j 1 (by simp) ⟨1, ![n]⟩ u1 rfl rfl n rfl (ix1 d) hoff ?_
    show n + d.val = (j 0).val
    omega
  | ⟨2, _⟩, hj =>
    have hj' : (j 0).val = 2 * n + d.val := hj
    refine Idealize.ShloMosaic.concatenate_apply_piece (t := ⟨1, ![N]⟩) (0 : Fin 1)
      [⟨⟨1, ![n]⟩, u0⟩, ⟨⟨1, ![n]⟩, u1⟩, ⟨⟨1, ![n]⟩, u2⟩] hc j 2 (by simp) ⟨1, ![n]⟩ u2 rfl rfl (n + n) rfl (ix1 d) hoff ?_
    show n + n + d.val = (j 0).val
    omega

/-- Two length-n vectors laid end to end, at g·n + d. -/
theorem cat2v_apply {n N : Nat} (u0 u1 : (⟨1, ![n]⟩ : Shape).Idx → α)
    (hc : Shape.Concatenates [⟨1, ![n]⟩, ⟨1, ![n]⟩] ⟨1, ![N]⟩ 0)
    (j : (⟨1, ![N]⟩ : Shape).Idx) (g : Fin 2) (d : Fin n) (hj : (j 0).val = g.val * n + d.val) :
    concatenate ⟨1, ![N]⟩ 0 [⟨⟨1, ![n]⟩, u0⟩, ⟨⟨1, ![n]⟩, u1⟩] hc j
      = (![u0, u1] : Fin 2 → (⟨1, ![n]⟩ : Shape).Idx → α) g (ix1 d) := by
  have hoff : ∀ b : Fin 1, b.cast (rfl : (1 : Nat) = 1) ≠ (0 : Fin 1) →
      ((ix1 d : (⟨1, ![n]⟩ : Shape).Idx) b).val = (j (b.cast rfl)).val := by
    intro b hb'
    match b with
    | ⟨0, _⟩ => exact absurd rfl hb'
  match g, hj with
  | ⟨0, _⟩, hj =>
    have hj' : (j 0).val = 0 * n + d.val := hj
    refine Idealize.ShloMosaic.concatenate_apply_piece (t := ⟨1, ![N]⟩) (0 : Fin 1)
      [⟨⟨1, ![n]⟩, u0⟩, ⟨⟨1, ![n]⟩, u1⟩] hc j 0 (by simp) ⟨1, ![n]⟩ u0 rfl rfl 0 rfl (ix1 d) hoff ?_
    show 0 + d.val = (j 0).val
    omega
  | ⟨1, _⟩, hj =>
    have hj' : (j 0).val = 1 * n + d.val := hj
    refine Idealize.ShloMosaic.concatenate_apply_piece (t := ⟨1, ![N]⟩) (0 : Fin 1)
      [⟨⟨1, ![n]⟩, u0⟩, ⟨⟨1, ![n]⟩, u1⟩] hc j 1 (by simp) ⟨1, ![n]⟩ u1 rfl rfl n rfl (ix1 d) hoff ?_
    show n + d.val = (j 0).val
    omega

/-- Three [r, n] matrices laid side by side along the columns, at (k, g·n + d). -/
theorem cat3m_apply {r n N : Nat} (u0 u1 u2 : (⟨2, ![r, n]⟩ : Shape).Idx → α)
    (hc : Shape.Concatenates [⟨2, ![r, n]⟩, ⟨2, ![r, n]⟩, ⟨2, ![r, n]⟩] ⟨2, ![r, N]⟩ 1)
    (j : (⟨2, ![r, N]⟩ : Shape).Idx) (g : Fin 3) (d : Fin n) (hj : (j 1).val = g.val * n + d.val) :
    concatenate ⟨2, ![r, N]⟩ 1 [⟨⟨2, ![r, n]⟩, u0⟩, ⟨⟨2, ![r, n]⟩, u1⟩, ⟨⟨2, ![r, n]⟩, u2⟩] hc j
      = (![u0, u1, u2] : Fin 3 → (⟨2, ![r, n]⟩ : Shape).Idx → α) g (ix2 (j 0) d) := by
  have hoff : ∀ b : Fin 2, b.cast (rfl : (2 : Nat) = 2) ≠ (1 : Fin 2) →
      ((ix2 (j 0) d : (⟨2, ![r, n]⟩ : Shape).Idx) b).val = (j (b.cast rfl)).val := by
    intro b hb'
    match b with
    | ⟨0, _⟩ => rfl
    | ⟨1, _⟩ => exact absurd rfl hb'
  match g, hj with
  | ⟨0, _⟩, hj =>
    have hj' : (j 1).val = 0 * n + d.val := hj
    refine Idealize.ShloMosaic.concatenate_apply_piece (t := ⟨2, ![r, N]⟩) (1 : Fin 2)
      [⟨⟨2, ![r, n]⟩, u0⟩, ⟨⟨2, ![r, n]⟩, u1⟩, ⟨⟨2, ![r, n]⟩, u2⟩] hc j 0 (by simp) ⟨2, ![r, n]⟩ u0 rfl rfl 0 rfl
      (ix2 (j 0) d) hoff ?_
    show 0 + d.val = (j 1).val
    omega
  | ⟨1, _⟩, hj =>
    have hj' : (j 1).val = 1 * n + d.val := hj
    refine Idealize.ShloMosaic.concatenate_apply_piece (t := ⟨2, ![r, N]⟩) (1 : Fin 2)
      [⟨⟨2, ![r, n]⟩, u0⟩, ⟨⟨2, ![r, n]⟩, u1⟩, ⟨⟨2, ![r, n]⟩, u2⟩] hc j 1 (by simp) ⟨2, ![r, n]⟩ u1 rfl rfl n rfl
      (ix2 (j 0) d) hoff ?_
    show n + d.val = (j 1).val
    omega
  | ⟨2, _⟩, hj =>
    have hj' : (j 1).val = 2 * n + d.val := hj
    refine Idealize.ShloMosaic.concatenate_apply_piece (t := ⟨2, ![r, N]⟩) (1 : Fin 2)
      [⟨⟨2, ![r, n]⟩, u0⟩, ⟨⟨2, ![r, n]⟩, u1⟩, ⟨⟨2, ![r, n]⟩, u2⟩] hc j 2 (by simp) ⟨2, ![r, n]⟩ u2 rfl rfl (n + n) rfl
      (ix2 (j 0) d) hoff ?_
    show n + n + d.val = (j 1).val
    omega

/-- Two [r, n] matrices laid side by side along the columns, at (k, g·n + d). -/
theorem cat2m_apply {r n N : Nat} (u0 u1 : (⟨2, ![r, n]⟩ : Shape).Idx → α)
    (hc : Shape.Concatenates [⟨2, ![r, n]⟩, ⟨2, ![r, n]⟩] ⟨2, ![r, N]⟩ 1)
    (j : (⟨2, ![r, N]⟩ : Shape).Idx) (g : Fin 2) (d : Fin n) (hj : (j 1).val = g.val * n + d.val) :
    concatenate ⟨2, ![r, N]⟩ 1 [⟨⟨2, ![r, n]⟩, u0⟩, ⟨⟨2, ![r, n]⟩, u1⟩] hc j
      = (![u0, u1] : Fin 2 → (⟨2, ![r, n]⟩ : Shape).Idx → α) g (ix2 (j 0) d) := by
  have hoff : ∀ b : Fin 2, b.cast (rfl : (2 : Nat) = 2) ≠ (1 : Fin 2) →
      ((ix2 (j 0) d : (⟨2, ![r, n]⟩ : Shape).Idx) b).val = (j (b.cast rfl)).val := by
    intro b hb'
    match b with
    | ⟨0, _⟩ => rfl
    | ⟨1, _⟩ => exact absurd rfl hb'
  match g, hj with
  | ⟨0, _⟩, hj =>
    have hj' : (j 1).val = 0 * n + d.val := hj
    refine Idealize.ShloMosaic.concatenate_apply_piece (t := ⟨2, ![r, N]⟩) (1 : Fin 2)
      [⟨⟨2, ![r, n]⟩, u0⟩, ⟨⟨2, ![r, n]⟩, u1⟩] hc j 0 (by simp) ⟨2, ![r, n]⟩ u0 rfl rfl 0 rfl (ix2 (j 0) d) hoff ?_
    show 0 + d.val = (j 1).val
    omega
  | ⟨1, _⟩, hj =>
    have hj' : (j 1).val = 1 * n + d.val := hj
    refine Idealize.ShloMosaic.concatenate_apply_piece (t := ⟨2, ![r, N]⟩) (1 : Fin 2)
      [⟨⟨2, ![r, n]⟩, u0⟩, ⟨⟨2, ![r, n]⟩, u1⟩] hc j 1 (by simp) ⟨2, ![r, n]⟩ u1 rfl rfl n rfl (ix2 (j 0) d) hoff ?_
    show n + d.val = (j 1).val
    omega

/-- Row (m, c) of a [6, 3, 128] argument cut out and its unit axes dropped, at d. -/
theorem vecPiece_apply (P : (⟨3, ![6, 3, 128]⟩ : Shape).Idx → α) (m c : Nat) (hm : m < 6) (hc : c < 3)
    (hs : (⟨3, ![6, 3, 128]⟩ : Shape).Slices ![m, c, 0] ⟨3, ![1, 1, 128]⟩)
    (hcast : (⟨3, ![1, 1, 128]⟩ : Shape).ShapeCasts ⟨1, ![128]⟩) (d : (⟨1, ![128]⟩ : Shape).Idx) :
    shapeCast ⟨1, ![128]⟩ (extractStridedSlice ⟨3, ![1, 1, 128]⟩ ![m, c, 0] P hs) hcast d
      = P (ix3 ⟨m, hm⟩ ⟨c, hc⟩ (d 0)) := by
  refine (Idealize.ShloMosaic.shapeCast_apply _ hcast d (ix3 (0 : Fin 1) (0 : Fin 1) (d 0)) ?_).trans ?_
  · rw [Shape.rowMajor_val_three, Shape.rowMajor_val_one]
    show (0 * 1 + 0) * 128 + (d 0).val = (d 0).val
    omega
  · refine Idealize.ShloMosaic.extractStridedSlice_apply _ P hs _ (ix3 ⟨m, hm⟩ ⟨c, hc⟩ (d 0)) fun a => ?_
    match a with
    | ⟨0, _⟩ => show m = m + 0; rfl
    | ⟨1, _⟩ => show c = c + 0; rfl
    | ⟨2, _⟩ => show (d 0).val = 0 + (d 0).val; omega

/-- Matrix (m, c) of a [6, 3, 128, 128] argument cut out, its unit axes dropped, transposed, at (k, d). -/
theorem matPiece_apply (W : (⟨4, ![6, 3, 128, 128]⟩ : Shape).Idx → α) (m c : Nat) (hm : m < 6) (hc : c < 3)
    (hs : (⟨4, ![6, 3, 128, 128]⟩ : Shape).Slices ![m, c, 0, 0] ⟨4, ![1, 1, 128, 128]⟩)
    (hcast : (⟨4, ![1, 1, 128, 128]⟩ : Shape).ShapeCasts ⟨2, ![128, 128]⟩)
    (ht : (⟨2, ![128, 128]⟩ : Shape).Transposes [1, 0] ⟨2, ![128, 128]⟩) (j : (⟨2, ![128, 128]⟩ : Shape).Idx) :
    transpose ⟨2, ![128, 128]⟩ [1, 0]
        (shapeCast ⟨2, ![128, 128]⟩ (extractStridedSlice ⟨4, ![1, 1, 128, 128]⟩ ![m, c, 0, 0] W hs) hcast) ht j
      = W (ix4 ⟨m, hm⟩ ⟨c, hc⟩ (j 1) (j 0)) := by
  refine (Idealize.ShloMosaic.transpose_apply _ _ ht j (ix2 (j 1) (j 0)) fun b => ?_).trans ?_
  · match b with
    | ⟨0, _⟩ => rfl
    | ⟨1, _⟩ => rfl
  refine (Idealize.ShloMosaic.shapeCast_apply _ hcast (ix2 (j 1) (j 0)) (ix4 (0 : Fin 1) (0 : Fin 1) (j 1) (j 0)) ?_).trans ?_
  · rw [Shape.rowMajor_val_four, Shape.rowMajor_val_two]
    show ((0 * 1 + 0) * 128 + (j 1).val) * 128 + (j 0).val = (j 1).val * 128 + (j 0).val
    omega
  · refine Idealize.ShloMosaic.extractStridedSlice_apply _ W hs _ (ix4 ⟨m, hm⟩ ⟨c, hc⟩ (j 1) (j 0)) fun a => ?_
    match a with
    | ⟨0, _⟩ => show m = m + 0; rfl
    | ⟨1, _⟩ => show c = c + 0; rfl
    | ⟨2, _⟩ => show (j 1).val = 0 + (j 1).val; omega
    | ⟨3, _⟩ => show (j 0).val = 0 + (j 0).val; omega

/-- Entry (m, c) of a [6, 3] argument cut out, made a scalar, spread along a length-128 vector. -/
theorem scalPiece_apply (w : (⟨2, ![6, 3]⟩ : Shape).Idx → α) (m c : Nat) (hm : m < 6) (hc : c < 3)
    (hs : (⟨2, ![6, 3]⟩ : Shape).Slices ![m, c] ⟨2, ![1, 1]⟩)
    (hcast : (⟨2, ![1, 1]⟩ : Shape).ShapeCasts ⟨0, ![]⟩)
    (hb : (⟨0, ![]⟩ : Shape).BroadcastsInDim ⟨1, ![128]⟩ ![]) (d : (⟨1, ![128]⟩ : Shape).Idx) :
    broadcastInDim ⟨1, ![128]⟩ ![] hb (shapeCast ⟨0, ![]⟩ (extractStridedSlice ⟨2, ![1, 1]⟩ ![m, c] w hs) hcast) d
      = w (ix2 ⟨m, hm⟩ ⟨c, hc⟩) := by
  rw [broadcastInDim_scalar_apply]
  refine (Idealize.ShloMosaic.shapeCast_apply _ hcast ix0 (ix2 (0 : Fin 1) (0 : Fin 1)) ?_).trans ?_
  · rw [Shape.rowMajor_val_two]
    show 0 * 1 + 0 = ((⟨0, ![]⟩ : Shape).rowMajor ix0).val
    have : ((⟨0, ![]⟩ : Shape).rowMajor ix0).val = 0 := Shape.rowMajorPi_zero _ _
    omega
  · refine Idealize.ShloMosaic.extractStridedSlice_apply _ w hs _ (ix2 ⟨m, hm⟩ ⟨c, hc⟩) fun a => ?_
    match a with
    | ⟨0, _⟩ => show m = m + 0; rfl
    | ⟨1, _⟩ => show c = c + 0; rfl

end Layout

end Cert.KernelIdeal.HandV
end
-- ==== Proof.KV.HostState6.lean ====
/- The kernel program's last host stretch at the ideal values: the result stacks the first state, the
   second state and the third combine call's result along a new leading axis. -/
import proofs.«414290_j6631429505478_3_alg».proof.Proof.Gen.KernelIdeal.Launch
import proofs.«414290_j6631429505478_3_alg».proof.Proof.Br.Agg
import proofs.«414290_j6631429505478_3_alg».proof.Proof.KV.HostLayout
import Idealize.ShloMosaic.Lib.StableHlo.Run
import Idealize.ShloMosaic.Lib.ValueIdx
import Idealize.ShloMosaic.Lib.Pipeline.Value
import Idealize.ShloMosaic.PureOps.Ideal.Laws

set_option maxRecDepth 16384

noncomputable section

namespace Cert.KernelIdeal.HandV

open Cert.KernelIdeal Cert.KernelIdeal.Gen Cert.Bridge
open Idealize.ShloMosaic Idealize.ShloMosaic.TcCoe
open Idealize.ShloMosaic.ValueIdx

/-- The result read at an index: the stack of the three states there. -/
theorem host6_v407 (X : Valuation τ sig (Elt Ideal)) (i : S3x50000x128.Idx) :
    (StableHlo.after (hostOps6 (F := Ideal)) X (Proc.devRef .tc main_v407) : FVec Ideal S3x50000x128 .f32) i
      = concatenate S3x50000x128 0
          [⟨S1x50000x128, broadcastInDim S1x50000x128 ![1, 2] bcast_S50000x128_S1x50000x128_1_2 (X (Proc.devRef .tc main_v183))⟩,
           ⟨S1x50000x128, broadcastInDim S1x50000x128 ![1, 2] bcast_S50000x128_S1x50000x128_1_2 (X (Proc.devRef .tc main_v318))⟩,
           ⟨S1x50000x128, broadcastInDim S1x50000x128 ![1, 2] bcast_S50000x128_S1x50000x128_1_2 (X (Proc.devRef .tc main_v403))⟩]
          concatenates_S1x50000x128_S1x50000x128_S1x50000x128_S3x50000x128_d0 i := by
  results_pass

/-- The result at (s, n, d): state `s` at (n, d). -/
theorem host6_v407_apply (X : Valuation τ sig (Elt Ideal)) (s : Fin 3) (n : Fin 50000) (d : Fin 128) :
    (StableHlo.after (hostOps6 (F := Ideal)) X (Proc.devRef .tc main_v407) : FVec Ideal S3x50000x128 .f32) (ix3 s n d)
      = (![(X (Proc.devRef .tc main_v183) : FVec Ideal S50000x128 .f32), X (Proc.devRef .tc main_v318),
            X (Proc.devRef .tc main_v403)] : Fin 3 → FVec Ideal S50000x128 .f32) s (ix2 n d) := by
  rw [host6_v407]
  exact stack3_apply _ _ _ _ _ (ix3 s n d)

theorem host6_v407_0 (X : Valuation τ sig (Elt Ideal)) (n : Fin 50000) (d : Fin 128) :
    (StableHlo.after (hostOps6 (F := Ideal)) X (Proc.devRef .tc main_v407) : FVec Ideal S3x50000x128 .f32) (ix3 0 n d)
      = (X (Proc.devRef .tc main_v183) : FVec Ideal S50000x128 .f32) (ix2 n d) := host6_v407_apply X 0 n d

theorem host6_v407_1 (X : Valuation τ sig (Elt Ideal)) (n : Fin 50000) (d : Fin 128) :
    (StableHlo.after (hostOps6 (F := Ideal)) X (Proc.devRef .tc main_v407) : FVec Ideal S3x50000x128 .f32) (ix3 1 n d)
      = (X (Proc.devRef .tc main_v318) : FVec Ideal S50000x128 .f32) (ix2 n d) := host6_v407_apply X 1 n d

theorem host6_v407_2 (X : Valuation τ sig (Elt Ideal)) (n : Fin 50000) (d : Fin 128) :
    (StableHlo.after (hostOps6 (F := Ideal)) X (Proc.devRef .tc main_v407) : FVec Ideal S3x50000x128 .f32) (ix3 2 n d)
      = (X (Proc.devRef .tc main_v403) : FVec Ideal S50000x128 .f32) (ix2 n d) := host6_v407_apply X 2 n d

end Cert.KernelIdeal.HandV

end
-- ==== Proof.KV.HostAtS.lean ====
import proofs.«414290_j6631429505478_3_alg».proof.Proof.KV.Carry
import proofs.«414290_j6631429505478_3_alg».proof.Proof.KV.Inputs
import proofs.«414290_j6631429505478_3_alg».proof.Proof.KV.HostState0
import proofs.«414290_j6631429505478_3_alg».proof.Proof.KV.HostState2
import proofs.«414290_j6631429505478_3_alg».proof.Proof.KV.HostState4
import proofs.«414290_j6631429505478_3_alg».proof.Proof.KV.HostState6

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx
open Cert.Spec

variable (m : (ℓ : Loc nD τ sig) → Buf (Elt Ideal) ℓ) (ρ : Dev nD → PrngReg) (c : Dev nD)

/-! # What the host stretches leave of the states, boundary by boundary

Each statement reads one result of a host stretch at the boundary after it, in terms of the program's arguments and
of the buffers at the boundary before it: the three inputs of each group, the edge arrays, the slices of the
combining calls' results, and the final stack. -/

theorem w1_x0 (i : S50000x128.Idx) :
    (W1 m ρ c (Proc.devRef .tc main_v169) : FVec Ideal S50000x128 .bf16) i
      = Cert.Bridge.aggK (m ((c : Thread nD τ).loc main_arg0)) (m ((c : Thread nD τ).loc main_arg1)) i := by
  rw [W1_eq]
  exact host0_v169 (W0 m ρ c) i

theorem w1_x1 (i : S50000x128.Idx) :
    (W1 m ρ c (Proc.devRef .tc main_v170) : FVec Ideal S50000x128 .bf16) i
      = (m ((c : Thread nD τ).loc main_arg1) : FVec Ideal S50000x128 .f32) i := by
  rw [W1_eq]
  exact host0_v170 (W0 m ρ c) i

theorem w1_x2 (i : S50000x128.Idx) :
    (W1 m ρ c (Proc.devRef .tc main_v13) : FVec Ideal S50000x128 .bf16) i
      = (m ((c : Thread nD τ).loc main_arg2) : FVec Ideal S50000x128 .f32) i := by
  rw [W1_eq]
  exact host0_v13 (W0 m ρ c) i

theorem w1_src : W1 m ρ c (Proc.devRef .tc main_v1) = Cert.Bridge.srcK (m ((c : Thread nD τ).loc main_arg0)) := by
  rw [W1_eq]
  exact host0_src (W0 m ρ c)

theorem w1_dst : W1 m ρ c (Proc.devRef .tc main_v3) = Cert.Bridge.dstK (m ((c : Thread nD τ).loc main_arg0)) := by
  rw [W1_eq]
  exact host0_dst (W0 m ρ c)

theorem w1_inv : W1 m ρ c (Proc.devRef .tc main_v12) = Cert.Bridge.invDegK (m ((c : Thread nD τ).loc main_arg0)) := by
  rw [W1_eq]
  exact host0_invDeg (W0 m ρ c)

theorem w5_s1 (n : Fin 50000) (d : Fin 128) (hd : d.val < 384) :
    (W5 m ρ c (Proc.devRef .tc main_v183) : FVec Ideal S50000x128 .f32) (ix2 n d)
      = (W4 m ρ c (Proc.devRef .tc main_v182) : FVec Ideal S50000x384 .f32) (ix2 n (⟨d.val, hd⟩ : Fin 384)) := by
  rw [W5_eq]
  exact host2_v183_apply (W4 m ρ c) n d

theorem w5_add (n : Fin 50000) (d : Fin 128) (hd : 128 + d.val < 384) :
    (W5 m ρ c (Proc.devRef .tc main_v196) : FVec Ideal S50000x128 .f32) (ix2 n d)
      = (W4 m ρ c (Proc.devRef .tc main_v182) : FVec Ideal S50000x384 .f32) (ix2 n (⟨128 + d.val, hd⟩ : Fin 384)) := by
  rw [W5_eq]
  exact host2_v196_apply (W4 m ρ c) n d

theorem w5_x0 (i : S50000x128.Idx) :
    (W5 m ρ c (Proc.devRef .tc main_v304) : FVec Ideal S50000x128 .bf16) i
      = Cert.Bridge.aggK (m ((c : Thread nD τ).loc main_arg0)) (W5 m ρ c (Proc.devRef .tc main_v183)) i := by
  rw [W5_eq]
  exact host2_v304 (W4 m ρ c) (m ((c : Thread nD τ).loc main_arg0))
    ((keep_1_4 m ρ c main_v1 (by decide)).trans (w1_src m ρ c))
    ((keep_1_4 m ρ c main_v3 (by decide)).trans (w1_dst m ρ c))
    ((keep_1_4 m ρ c main_v12 (by decide)).trans (w1_inv m ρ c)) i

theorem w5_x1 (i : S50000x128.Idx) :
    (W5 m ρ c (Proc.devRef .tc main_v305) : FVec Ideal S50000x128 .bf16) i
      = (W5 m ρ c (Proc.devRef .tc main_v183) : FVec Ideal S50000x128 .f32) i := by
  rw [W5_eq]
  exact host2_v305 (W4 m ρ c) i

theorem w5_x2 (i : S50000x128.Idx) :
    (W5 m ρ c (Proc.devRef .tc main_v13) : FVec Ideal S50000x128 .bf16) i
      = (m ((c : Thread nD τ).loc main_arg2) : FVec Ideal S50000x128 .f32) i := by
  rw [keep_1_5 m ρ c main_v13 (by decide)]
  exact w1_x2 m ρ c i

theorem w9_s2 (n : Fin 50000) (d : Fin 128) (hd : d.val < 256) :
    (W9 m ρ c (Proc.devRef .tc main_v318) : FVec Ideal S50000x128 .f32) (ix2 n d)
      = (W8 m ρ c (Proc.devRef .tc main_v317) : FVec Ideal S50000x256 .f32) (ix2 n (⟨d.val, hd⟩ : Fin 256)) := by
  rw [W9_eq]
  exact host4_v318_apply (W8 m ρ c) n d

theorem w9_add (n : Fin 50000) (d : Fin 128) (h1 : 256 + d.val < 384) (h2 : 128 + d.val < 256) :
    (W9 m ρ c (Proc.devRef .tc main_v321) : FVec Ideal S50000x128 .f32) (ix2 n d)
      = @HAdd.hAdd EReal EReal EReal _
          ((W4 m ρ c (Proc.devRef .tc main_v182) : FVec Ideal S50000x384 .f32) (ix2 n (⟨256 + d.val, h1⟩ : Fin 384)))
          ((W8 m ρ c (Proc.devRef .tc main_v317) : FVec Ideal S50000x256 .f32) (ix2 n (⟨128 + d.val, h2⟩ : Fin 256))) := by
  rw [W9_eq]
  exact host4_v321_apply (W8 m ρ c) (W4 m ρ c (Proc.devRef .tc main_v182)) (W8 m ρ c (Proc.devRef .tc main_v317))
    (keep_4_8 m ρ c main_v182 (by decide)) rfl n d

theorem w9_x0 (i : S50000x128.Idx) :
    (W9 m ρ c (Proc.devRef .tc main_v390) : FVec Ideal S50000x128 .bf16) i
      = Cert.Bridge.aggK (m ((c : Thread nD τ).loc main_arg0)) (W9 m ρ c (Proc.devRef .tc main_v318)) i := by
  rw [W9_eq]
  exact host4_v390 (W8 m ρ c) (m ((c : Thread nD τ).loc main_arg0))
    ((keep_1_8 m ρ c main_v1 (by decide)).trans (w1_src m ρ c))
    ((keep_1_8 m ρ c main_v3 (by decide)).trans (w1_dst m ρ c))
    ((keep_1_8 m ρ c main_v12 (by decide)).trans (w1_inv m ρ c)) i

theorem w9_x1 (i : S50000x128.Idx) :
    (W9 m ρ c (Proc.devRef .tc main_v391) : FVec Ideal S50000x128 .bf16) i
      = (W9 m ρ c (Proc.devRef .tc main_v318) : FVec Ideal S50000x128 .f32) i := by
  rw [W9_eq]
  exact host4_v391 (W8 m ρ c) i

theorem w9_x2 (i : S50000x128.Idx) :
    (W9 m ρ c (Proc.devRef .tc main_v13) : FVec Ideal S50000x128 .bf16) i
      = (m ((c : Thread nD τ).loc main_arg2) : FVec Ideal S50000x128 .f32) i := by
  rw [keep_1_9 m ρ c main_v13 (by decide)]
  exact w1_x2 m ρ c i

theorem w13_0 (n : Fin 50000) (d : Fin 128) :
    (W13 m ρ c (Proc.devRef .tc main_v407) : FVec Ideal S3x50000x128 .f32) (ix3 (0 : Fin 3) n d)
      = (W5 m ρ c (Proc.devRef .tc main_v183) : FVec Ideal S50000x128 .f32) (ix2 n d) := by
  rw [W13_eq]
  exact (host6_v407_0 (W12 m ρ c) n d).trans (by rw [keep_5_12 m ρ c main_v183 (by decide)])

theorem w13_1 (n : Fin 50000) (d : Fin 128) :
    (W13 m ρ c (Proc.devRef .tc main_v407) : FVec Ideal S3x50000x128 .f32) (ix3 (1 : Fin 3) n d)
      = (W9 m ρ c (Proc.devRef .tc main_v318) : FVec Ideal S50000x128 .f32) (ix2 n d) := by
  rw [W13_eq]
  exact (host6_v407_1 (W12 m ρ c) n d).trans (by rw [keep_9_12 m ρ c main_v318 (by decide)])

theorem w13_2 (n : Fin 50000) (d : Fin 128) :
    (W13 m ρ c (Proc.devRef .tc main_v407) : FVec Ideal S3x50000x128 .f32) (ix3 (2 : Fin 3) n d)
      = (W12 m ρ c (Proc.devRef .tc main_v403) : FVec Ideal S50000x128 .f32) (ix2 n d) := by
  rw [W13_eq]
  exact host6_v407_2 (W12 m ρ c) n d

end Cert.KernelIdeal.HandV

end
-- ==== Proof.KV.Host0Wt.lean ====
import proofs.«414290_j6631429505478_3_alg».proof.Proof.KV.HostLayout

noncomputable section

namespace Cert.KernelIdeal.HandV

open Cert.KernelIdeal Cert.KernelIdeal.Gen
open Idealize.ShloMosaic Idealize.ShloMosaic.TcCoe
open Idealize.ShloMosaic.ValueIdx

/-! # The first group's weight array, read at an index

Slab c of the array is the transposed weight matrices of operations 0, 1 and 3 for branch c laid side by side
along the columns: each is matrix (m, c) of the weight argument cut out, its unit axes dropped, transposed; the
three slabs are then stacked. -/

set_option maxHeartbeats 4000000 in
/-- The weight array of the first group at (c, k, g·128 + d): the weight of operation `mA g`, branch c, at (d, k). -/
theorem host0_wt (X : Valuation τ sig (Elt Ideal)) (P : FVec Ideal S6x3x128x128 .f32)
    (hP : X (Proc.devRef .tc main_arg4) = P) (i : S3x128x384.Idx) (g : Fin 3) (d : Fin 128)
    (hi : (i 2).val = g.val * 128 + d.val) :
    (StableHlo.after (hostOps0 (F := Ideal)) X (Proc.devRef .tc main_v152) : FVec Ideal S3x128x384 .f32) i
      = P (ix4 (mA g) (i 0) d (i 1)) := by
  subst hP
  results_pass
  refine (stack3_apply _ _ _ bcast_S128x384_S1x128x384_1_2
    concatenates_S1x128x384_S1x128x384_S1x128x384_S3x128x384_d0 i).trans ?_
  rcases h0 : i 0 with ⟨cc, hcc⟩
  match cc, hcc with
  | 0, _ =>
    match g, hi with
    | ⟨0, _⟩, hi =>
      refine (cat3m_apply _ _ _ concatenates_S128x128_S128x128_S128x128_S128x384_d1 (ix2 (i 1) (i 2)) ⟨0, by decide⟩ d hi).trans ?_
      try results_pass
      exact matPiece_apply (X (Proc.devRef .tc main_arg4)) 0 0 (by decide) (by decide)
        slices_S6x3x128x128_S1x1x128x128_0_0_0_0 shapeCasts_S1x1x128x128_S128x128 transposes_S128x128_S128x128_1_0 (ix2 (i 1) d)
    | ⟨1, _⟩, hi =>
      refine (cat3m_apply _ _ _ concatenates_S128x128_S128x128_S128x128_S128x384_d1 (ix2 (i 1) (i 2)) ⟨1, by decide⟩ d hi).trans ?_
      try results_pass
      exact matPiece_apply (X (Proc.devRef .tc main_arg4)) 1 0 (by decide) (by decide)
        slices_S6x3x128x128_S1x1x128x128_1_0_0_0 shapeCasts_S1x1x128x128_S128x128 transposes_S128x128_S128x128_1_0 (ix2 (i 1) d)
    | ⟨2, _⟩, hi =>
      refine (cat3m_apply _ _ _ concatenates_S128x128_S128x128_S128x128_S128x384_d1 (ix2 (i 1) (i 2)) ⟨2, by decide⟩ d hi).trans ?_
      try results_pass
      exact matPiece_apply (X (Proc.devRef .tc main_arg4)) 3 0 (by decide) (by decide)
        slices_S6x3x128x128_S1x1x128x128_3_0_0_0 shapeCasts_S1x1x128x128_S128x128 transposes_S128x128_S128x128_1_0 (ix2 (i 1) d)
  | 1, _ =>
    match g, hi with
    | ⟨0, _⟩, hi =>
      refine (cat3m_apply _ _ _ concatenates_S128x128_S128x128_S128x128_S128x384_d1 (ix2 (i 1) (i 2)) ⟨0, by decide⟩ d hi).trans ?_
      try results_pass
      exact matPiece_apply (X (Proc.devRef .tc main_arg4)) 0 1 (by decide) (by decide)
        slices_S6x3x128x128_S1x1x128x128_0_1_0_0 shapeCasts_S1x1x128x128_S128x128 transposes_S128x128_S128x128_1_0 (ix2 (i 1) d)
    | ⟨1, _⟩, hi =>
      refine (cat3m_apply _ _ _ concatenates_S128x128_S128x128_S128x128_S128x384_d1 (ix2 (i 1) (i 2)) ⟨1, by decide⟩ d hi).trans ?_
      try results_pass
      exact matPiece_apply (X (Proc.devRef .tc main_arg4)) 1 1 (by decide) (by decide)
        slices_S6x3x128x128_S1x1x128x128_1_1_0_0 shapeCasts_S1x1x128x128_S128x128 transposes_S128x128_S128x128_1_0 (ix2 (i 1) d)
    | ⟨2, _⟩, hi =>
      refine (cat3m_apply _ _ _ concatenates_S128x128_S128x128_S128x128_S128x384_d1 (ix2 (i 1) (i 2)) ⟨2, by decide⟩ d hi).trans ?_
      try results_pass
      exact matPiece_apply (X (Proc.devRef .tc main_arg4)) 3 1 (by decide) (by decide)
        slices_S6x3x128x128_S1x1x128x128_3_1_0_0 shapeCasts_S1x1x128x128_S128x128 transposes_S128x128_S128x128_1_0 (ix2 (i 1) d)
  | 2, _ =>
    match g, hi with
    | ⟨0, _⟩, hi =>
      refine (cat3m_apply _ _ _ concatenates_S128x128_S128x128_S128x128_S128x384_d1 (ix2 (i 1) (i 2)) ⟨0, by decide⟩ d hi).trans ?_
      try results_pass
      exact matPiece_apply (X (Proc.devRef .tc main_arg4)) 0 2 (by decide) (by decide)
        slices_S6x3x128x128_S1x1x128x128_0_2_0_0 shapeCasts_S1x1x128x128_S128x128 transposes_S128x128_S128x128_1_0 (ix2 (i 1) d)
    | ⟨1, _⟩, hi =>
      refine (cat3m_apply _ _ _ concatenates_S128x128_S128x128_S128x128_S128x384_d1 (ix2 (i 1) (i 2)) ⟨1, by decide⟩ d hi).trans ?_
      try results_pass
      exact matPiece_apply (X (Proc.devRef .tc main_arg4)) 1 2 (by decide) (by decide)
        slices_S6x3x128x128_S1x1x128x128_1_2_0_0 shapeCasts_S1x1x128x128_S128x128 transposes_S128x128_S128x128_1_0 (ix2 (i 1) d)
    | ⟨2, _⟩, hi =>
      refine (cat3m_apply _ _ _ concatenates_S128x128_S128x128_S128x128_S128x384_d1 (ix2 (i 1) (i 2)) ⟨2, by decide⟩ d hi).trans ?_
      try results_pass
      exact matPiece_apply (X (Proc.devRef .tc main_arg4)) 3 2 (by decide) (by decide)
        slices_S6x3x128x128_S1x1x128x128_3_2_0_0 shapeCasts_S1x1x128x128_S128x128 transposes_S128x128_S128x128_1_0 (ix2 (i 1) d)

end Cert.KernelIdeal.HandV
end
-- ==== Proof.KV.Host0B.lean ====
import proofs.«414290_j6631429505478_3_alg».proof.Proof.KV.HostLayout

noncomputable section

namespace Cert.KernelIdeal.HandV

open Cert.KernelIdeal Cert.KernelIdeal.Gen
open Idealize.ShloMosaic Idealize.ShloMosaic.TcCoe
open Idealize.ShloMosaic.ValueIdx

/-! # The first group's bias array, read at an index

Row c of the array is the biases of operations 0, 1 and 3 for branch c laid end to end: each is row (m, c) of
the bias argument cut out with its unit axes dropped; the three rows are then stacked. -/

set_option maxHeartbeats 4000000 in
/-- The bias array of the first group at (c, g·128 + d): the bias of operation `mA g`, branch c, at d. -/
theorem host0_b (X : Valuation τ sig (Elt Ideal)) (P : FVec Ideal S6x3x128 .f32)
    (hP : X (Proc.devRef .tc main_arg5) = P) (i : S3x384.Idx) (g : Fin 3) (d : Fin 128)
    (hi : (i 1).val = g.val * 128 + d.val) :
    (StableHlo.after (hostOps0 (F := Ideal)) X (Proc.devRef .tc main_v156) : FVec Ideal S3x384 .f32) i
      = P (ix3 (mA g) (i 0) d) := by
  subst hP
  results_pass
  refine (stack3v_apply _ _ _ bcast_S384_S1x384_1 concatenates_S1x384_S1x384_S1x384_S3x384_d0 i).trans ?_
  rcases h0 : i 0 with ⟨cc, hcc⟩
  match cc, hcc with
  | 0, _ =>
    match g, hi with
    | ⟨0, _⟩, hi =>
      refine (cat3v_apply _ _ _ concatenates_S128_S128_S128_S384_d0 (ix1 (i 1)) ⟨0, by decide⟩ d hi).trans ?_
      try results_pass
      exact vecPiece_apply (X (Proc.devRef .tc main_arg5)) 0 0 (by decide) (by decide)
        slices_S6x3x128_S1x1x128_0_0_0 shapeCasts_S1x1x128_S128 (ix1 d)
    | ⟨1, _⟩, hi =>
      refine (cat3v_apply _ _ _ concatenates_S128_S128_S128_S384_d0 (ix1 (i 1)) ⟨1, by decide⟩ d hi).trans ?_
      try results_pass
      exact vecPiece_apply (X (Proc.devRef .tc main_arg5)) 1 0 (by decide) (by decide)
        slices_S6x3x128_S1x1x128_1_0_0 shapeCasts_S1x1x128_S128 (ix1 d)
    | ⟨2, _⟩, hi =>
      refine (cat3v_apply _ _ _ concatenates_S128_S128_S128_S384_d0 (ix1 (i 1)) ⟨2, by decide⟩ d hi).trans ?_
      try results_pass
      exact vecPiece_apply (X (Proc.devRef .tc main_arg5)) 3 0 (by decide) (by decide)
        slices_S6x3x128_S1x1x128_3_0_0 shapeCasts_S1x1x128_S128 (ix1 d)
  | 1, _ =>
    match g, hi with
    | ⟨0, _⟩, hi =>
      refine (cat3v_apply _ _ _ concatenates_S128_S128_S128_S384_d0 (ix1 (i 1)) ⟨0, by decide⟩ d hi).trans ?_
      try results_pass
      exact vecPiece_apply (X (Proc.devRef .tc main_arg5)) 0 1 (by decide) (by decide)
        slices_S6x3x128_S1x1x128_0_1_0 shapeCasts_S1x1x128_S128 (ix1 d)
    | ⟨1, _⟩, hi =>
      refine (cat3v_apply _ _ _ concatenates_S128_S128_S128_S384_d0 (ix1 (i 1)) ⟨1, by decide⟩ d hi).trans ?_
      try results_pass
      exact vecPiece_apply (X (Proc.devRef .tc main_arg5)) 1 1 (by decide) (by decide)
        slices_S6x3x128_S1x1x128_1_1_0 shapeCasts_S1x1x128_S128 (ix1 d)
    | ⟨2, _⟩, hi =>
      refine (cat3v_apply _ _ _ concatenates_S128_S128_S128_S384_d0 (ix1 (i 1)) ⟨2, by decide⟩ d hi).trans ?_
      try results_pass
      exact vecPiece_apply (X (Proc.devRef .tc main_arg5)) 3 1 (by decide) (by decide)
        slices_S6x3x128_S1x1x128_3_1_0 shapeCasts_S1x1x128_S128 (ix1 d)
  | 2, _ =>
    match g, hi with
    | ⟨0, _⟩, hi =>
      refine (cat3v_apply _ _ _ concatenates_S128_S128_S128_S384_d0 (ix1 (i 1)) ⟨0, by decide⟩ d hi).trans ?_
      try results_pass
      exact vecPiece_apply (X (Proc.devRef .tc main_arg5)) 0 2 (by decide) (by decide)
        slices_S6x3x128_S1x1x128_0_2_0 shapeCasts_S1x1x128_S128 (ix1 d)
    | ⟨1, _⟩, hi =>
      refine (cat3v_apply _ _ _ concatenates_S128_S128_S128_S384_d0 (ix1 (i 1)) ⟨1, by decide⟩ d hi).trans ?_
      try results_pass
      exact vecPiece_apply (X (Proc.devRef .tc main_arg5)) 1 2 (by decide) (by decide)
        slices_S6x3x128_S1x1x128_1_2_0 shapeCasts_S1x1x128_S128 (ix1 d)
    | ⟨2, _⟩, hi =>
      refine (cat3v_apply _ _ _ concatenates_S128_S128_S128_S384_d0 (ix1 (i 1)) ⟨2, by decide⟩ d hi).trans ?_
      try results_pass
      exact vecPiece_apply (X (Proc.devRef .tc main_arg5)) 3 2 (by decide) (by decide)
        slices_S6x3x128_S1x1x128_3_2_0 shapeCasts_S1x1x128_S128 (ix1 d)

end Cert.KernelIdeal.HandV
end
-- ==== Proof.KV.Host0G.lean ====
import proofs.«414290_j6631429505478_3_alg».proof.Proof.KV.HostLayout

noncomputable section

namespace Cert.KernelIdeal.HandV

open Cert.KernelIdeal Cert.KernelIdeal.Gen
open Idealize.ShloMosaic Idealize.ShloMosaic.TcCoe
open Idealize.ShloMosaic.ValueIdx

/-! # The first group's scale array, read at an index

Row c of the array is the scales of operations 0, 1 and 3 for branch c laid end to end: each is row (m, c) of
the scale argument cut out with its unit axes dropped; the three rows are then stacked. -/

set_option maxHeartbeats 4000000 in
/-- The scale array of the first group at (c, g·128 + d): the scale of operation `mA g`, branch c, at d. -/
theorem host0_g (X : Valuation τ sig (Elt Ideal)) (P : FVec Ideal S6x3x128 .f32)
    (hP : X (Proc.devRef .tc main_arg6) = P) (i : S3x384.Idx) (g : Fin 3) (d : Fin 128)
    (hi : (i 1).val = g.val * 128 + d.val) :
    (StableHlo.after (hostOps0 (F := Ideal)) X (Proc.devRef .tc main_v160) : FVec Ideal S3x384 .f32) i
      = P (ix3 (mA g) (i 0) d) := by
  subst hP
  results_pass
  refine (stack3v_apply _ _ _ bcast_S384_S1x384_1 concatenates_S1x384_S1x384_S1x384_S3x384_d0 i).trans ?_
  rcases h0 : i 0 with ⟨cc, hcc⟩
  match cc, hcc with
  | 0, _ =>
    match g, hi with
    | ⟨0, _⟩, hi =>
      refine (cat3v_apply _ _ _ concatenates_S128_S128_S128_S384_d0 (ix1 (i 1)) ⟨0, by decide⟩ d hi).trans ?_
      try results_pass
      exact vecPiece_apply (X (Proc.devRef .tc main_arg6)) 0 0 (by decide) (by decide)
        slices_S6x3x128_S1x1x128_0_0_0 shapeCasts_S1x1x128_S128 (ix1 d)
    | ⟨1, _⟩, hi =>
      refine (cat3v_apply _ _ _ concatenates_S128_S128_S128_S384_d0 (ix1 (i 1)) ⟨1, by decide⟩ d hi).trans ?_
      try results_pass
      exact vecPiece_apply (X (Proc.devRef .tc main_arg6)) 1 0 (by decide) (by decide)
        slices_S6x3x128_S1x1x128_1_0_0 shapeCasts_S1x1x128_S128 (ix1 d)
    | ⟨2, _⟩, hi =>
      refine (cat3v_apply _ _ _ concatenates_S128_S128_S128_S384_d0 (ix1 (i 1)) ⟨2, by decide⟩ d hi).trans ?_
      try results_pass
      exact vecPiece_apply (X (Proc.devRef .tc main_arg6)) 3 0 (by decide) (by decide)
        slices_S6x3x128_S1x1x128_3_0_0 shapeCasts_S1x1x128_S128 (ix1 d)
  | 1, _ =>
    match g, hi with
    | ⟨0, _⟩, hi =>
      refine (cat3v_apply _ _ _ concatenates_S128_S128_S128_S384_d0 (ix1 (i 1)) ⟨0, by decide⟩ d hi).trans ?_
      try results_pass
      exact vecPiece_apply (X (Proc.devRef .tc main_arg6)) 0 1 (by decide) (by decide)
        slices_S6x3x128_S1x1x128_0_1_0 shapeCasts_S1x1x128_S128 (ix1 d)
    | ⟨1, _⟩, hi =>
      refine (cat3v_apply _ _ _ concatenates_S128_S128_S128_S384_d0 (ix1 (i 1)) ⟨1, by decide⟩ d hi).trans ?_
      try results_pass
      exact vecPiece_apply (X (Proc.devRef .tc main_arg6)) 1 1 (by decide) (by decide)
        slices_S6x3x128_S1x1x128_1_1_0 shapeCasts_S1x1x128_S128 (ix1 d)
    | ⟨2, _⟩, hi =>
      refine (cat3v_apply _ _ _ concatenates_S128_S128_S128_S384_d0 (ix1 (i 1)) ⟨2, by decide⟩ d hi).trans ?_
      try results_pass
      exact vecPiece_apply (X (Proc.devRef .tc main_arg6)) 3 1 (by decide) (by decide)
        slices_S6x3x128_S1x1x128_3_1_0 shapeCasts_S1x1x128_S128 (ix1 d)
  | 2, _ =>
    match g, hi with
    | ⟨0, _⟩, hi =>
      refine (cat3v_apply _ _ _ concatenates_S128_S128_S128_S384_d0 (ix1 (i 1)) ⟨0, by decide⟩ d hi).trans ?_
      try results_pass
      exact vecPiece_apply (X (Proc.devRef .tc main_arg6)) 0 2 (by decide) (by decide)
        slices_S6x3x128_S1x1x128_0_2_0 shapeCasts_S1x1x128_S128 (ix1 d)
    | ⟨1, _⟩, hi =>
      refine (cat3v_apply _ _ _ concatenates_S128_S128_S128_S384_d0 (ix1 (i 1)) ⟨1, by decide⟩ d hi).trans ?_
      try results_pass
      exact vecPiece_apply (X (Proc.devRef .tc main_arg6)) 1 2 (by decide) (by decide)
        slices_S6x3x128_S1x1x128_1_2_0 shapeCasts_S1x1x128_S128 (ix1 d)
    | ⟨2, _⟩, hi =>
      refine (cat3v_apply _ _ _ concatenates_S128_S128_S128_S384_d0 (ix1 (i 1)) ⟨2, by decide⟩ d hi).trans ?_
      try results_pass
      exact vecPiece_apply (X (Proc.devRef .tc main_arg6)) 3 2 (by decide) (by decide)
        slices_S6x3x128_S1x1x128_3_2_0 shapeCasts_S1x1x128_S128 (ix1 d)

end Cert.KernelIdeal.HandV
end
-- ==== Proof.KV.Host0Be.lean ====
import proofs.«414290_j6631429505478_3_alg».proof.Proof.KV.HostLayout

noncomputable section

namespace Cert.KernelIdeal.HandV

open Cert.KernelIdeal Cert.KernelIdeal.Gen
open Idealize.ShloMosaic Idealize.ShloMosaic.TcCoe
open Idealize.ShloMosaic.ValueIdx

/-! # The first group's shift array, read at an index

Row c of the array is the shifts of operations 0, 1 and 3 for branch c laid end to end: each is row (m, c) of
the shift argument cut out with its unit axes dropped; the three rows are then stacked. -/

set_option maxHeartbeats 4000000 in
/-- The shift array of the first group at (c, g·128 + d): the shift of operation `mA g`, branch c, at d. -/
theorem host0_be (X : Valuation τ sig (Elt Ideal)) (P : FVec Ideal S6x3x128 .f32)
    (hP : X (Proc.devRef .tc main_arg7) = P) (i : S3x384.Idx) (g : Fin 3) (d : Fin 128)
    (hi : (i 1).val = g.val * 128 + d.val) :
    (StableHlo.after (hostOps0 (F := Ideal)) X (Proc.devRef .tc main_v164) : FVec Ideal S3x384 .f32) i
      = P (ix3 (mA g) (i 0) d) := by
  subst hP
  results_pass
  refine (stack3v_apply _ _ _ bcast_S384_S1x384_1 concatenates_S1x384_S1x384_S1x384_S3x384_d0 i).trans ?_
  rcases h0 : i 0 with ⟨cc, hcc⟩
  match cc, hcc with
  | 0, _ =>
    match g, hi with
    | ⟨0, _⟩, hi =>
      refine (cat3v_apply _ _ _ concatenates_S128_S128_S128_S384_d0 (ix1 (i 1)) ⟨0, by decide⟩ d hi).trans ?_
      try results_pass
      exact vecPiece_apply (X (Proc.devRef .tc main_arg7)) 0 0 (by decide) (by decide)
        slices_S6x3x128_S1x1x128_0_0_0 shapeCasts_S1x1x128_S128 (ix1 d)
    | ⟨1, _⟩, hi =>
      refine (cat3v_apply _ _ _ concatenates_S128_S128_S128_S384_d0 (ix1 (i 1)) ⟨1, by decide⟩ d hi).trans ?_
      try results_pass
      exact vecPiece_apply (X (Proc.devRef .tc main_arg7)) 1 0 (by decide) (by decide)
        slices_S6x3x128_S1x1x128_1_0_0 shapeCasts_S1x1x128_S128 (ix1 d)
    | ⟨2, _⟩, hi =>
      refine (cat3v_apply _ _ _ concatenates_S128_S128_S128_S384_d0 (ix1 (i 1)) ⟨2, by decide⟩ d hi).trans ?_
      try results_pass
      exact vecPiece_apply (X (Proc.devRef .tc main_arg7)) 3 0 (by decide) (by decide)
        slices_S6x3x128_S1x1x128_3_0_0 shapeCasts_S1x1x128_S128 (ix1 d)
  | 1, _ =>
    match g, hi with
    | ⟨0, _⟩, hi =>
      refine (cat3v_apply _ _ _ concatenates_S128_S128_S128_S384_d0 (ix1 (i 1)) ⟨0, by decide⟩ d hi).trans ?_
      try results_pass
      exact vecPiece_apply (X (Proc.devRef .tc main_arg7)) 0 1 (by decide) (by decide)
        slices_S6x3x128_S1x1x128_0_1_0 shapeCasts_S1x1x128_S128 (ix1 d)
    | ⟨1, _⟩, hi =>
      refine (cat3v_apply _ _ _ concatenates_S128_S128_S128_S384_d0 (ix1 (i 1)) ⟨1, by decide⟩ d hi).trans ?_
      try results_pass
      exact vecPiece_apply (X (Proc.devRef .tc main_arg7)) 1 1 (by decide) (by decide)
        slices_S6x3x128_S1x1x128_1_1_0 shapeCasts_S1x1x128_S128 (ix1 d)
    | ⟨2, _⟩, hi =>
      refine (cat3v_apply _ _ _ concatenates_S128_S128_S128_S384_d0 (ix1 (i 1)) ⟨2, by decide⟩ d hi).trans ?_
      try results_pass
      exact vecPiece_apply (X (Proc.devRef .tc main_arg7)) 3 1 (by decide) (by decide)
        slices_S6x3x128_S1x1x128_3_1_0 shapeCasts_S1x1x128_S128 (ix1 d)
  | 2, _ =>
    match g, hi with
    | ⟨0, _⟩, hi =>
      refine (cat3v_apply _ _ _ concatenates_S128_S128_S128_S384_d0 (ix1 (i 1)) ⟨0, by decide⟩ d hi).trans ?_
      try results_pass
      exact vecPiece_apply (X (Proc.devRef .tc main_arg7)) 0 2 (by decide) (by decide)
        slices_S6x3x128_S1x1x128_0_2_0 shapeCasts_S1x1x128_S128 (ix1 d)
    | ⟨1, _⟩, hi =>
      refine (cat3v_apply _ _ _ concatenates_S128_S128_S128_S384_d0 (ix1 (i 1)) ⟨1, by decide⟩ d hi).trans ?_
      try results_pass
      exact vecPiece_apply (X (Proc.devRef .tc main_arg7)) 1 2 (by decide) (by decide)
        slices_S6x3x128_S1x1x128_1_2_0 shapeCasts_S1x1x128_S128 (ix1 d)
    | ⟨2, _⟩, hi =>
      refine (cat3v_apply _ _ _ concatenates_S128_S128_S128_S384_d0 (ix1 (i 1)) ⟨2, by decide⟩ d hi).trans ?_
      try results_pass
      exact vecPiece_apply (X (Proc.devRef .tc main_arg7)) 3 2 (by decide) (by decide)
        slices_S6x3x128_S1x1x128_3_2_0 shapeCasts_S1x1x128_S128 (ix1 d)

end Cert.KernelIdeal.HandV
end
-- ==== Proof.KV.Host0W.lean ====
import proofs.«414290_j6631429505478_3_alg».proof.Proof.KV.HostLayout

noncomputable section

namespace Cert.KernelIdeal.HandV

open Cert.KernelIdeal Cert.KernelIdeal.Gen
open Idealize.ShloMosaic Idealize.ShloMosaic.TcCoe
open Idealize.ShloMosaic.ValueIdx

/-! # The first group's mixing-weight array, read at an index

Row c of the array is the mixing weights of operations 0, 1 and 3 for branch c, each spread along its
operation's 128 columns: entry (m, c) of the weight argument cut out, made a scalar, spread; the three rows are
then stacked. -/

set_option maxHeartbeats 4000000 in
/-- The mixing-weight array of the first group at (c, g·128 + d): the weight of operation `mA g`, branch c. -/
theorem host0_w (X : Valuation τ sig (Elt Ideal)) (P : FVec Ideal S6x3 .f32)
    (hP : X (Proc.devRef .tc main_arg3) = P) (i : S3x384.Idx) (g : Fin 3) (d : Fin 128)
    (hi : (i 1).val = g.val * 128 + d.val) :
    (StableHlo.after (hostOps0 (F := Ideal)) X (Proc.devRef .tc main_v168) : FVec Ideal S3x384 .f32) i
      = P (ix2 (mA g) (i 0)) := by
  subst hP
  results_pass
  refine (stack3v_apply _ _ _ bcast_S384_S1x384_1 concatenates_S1x384_S1x384_S1x384_S3x384_d0 i).trans ?_
  rcases h0 : i 0 with ⟨cc, hcc⟩
  match cc, hcc with
  | 0, _ =>
    match g, hi with
    | ⟨0, _⟩, hi =>
      refine (cat3v_apply _ _ _ concatenates_S128_S128_S128_S384_d0 (ix1 (i 1)) ⟨0, by decide⟩ d hi).trans ?_
      try results_pass
      exact scalPiece_apply (X (Proc.devRef .tc main_arg3)) 0 0 (by decide) (by decide)
        slices_S6x3_S1x1_0_0 shapeCasts_S1x1_S_ bcast_S_S128 (ix1 d)
    | ⟨1, _⟩, hi =>
      refine (cat3v_apply _ _ _ concatenates_S128_S128_S128_S384_d0 (ix1 (i 1)) ⟨1, by decide⟩ d hi).trans ?_
      try results_pass
      exact scalPiece_apply (X (Proc.devRef .tc main_arg3)) 1 0 (by decide) (by decide)
        slices_S6x3_S1x1_1_0 shapeCasts_S1x1_S_ bcast_S_S128 (ix1 d)
    | ⟨2, _⟩, hi =>
      refine (cat3v_apply _ _ _ concatenates_S128_S128_S128_S384_d0 (ix1 (i 1)) ⟨2, by decide⟩ d hi).trans ?_
      try results_pass
      exact scalPiece_apply (X (Proc.devRef .tc main_arg3)) 3 0 (by decide) (by decide)
        slices_S6x3_S1x1_3_0 shapeCasts_S1x1_S_ bcast_S_S128 (ix1 d)
  | 1, _ =>
    match g, hi with
    | ⟨0, _⟩, hi =>
      refine (cat3v_apply _ _ _ concatenates_S128_S128_S128_S384_d0 (ix1 (i 1)) ⟨0, by decide⟩ d hi).trans ?_
      try results_pass
      exact scalPiece_apply (X (Proc.devRef .tc main_arg3)) 0 1 (by decide) (by decide)
        slices_S6x3_S1x1_0_1 shapeCasts_S1x1_S_ bcast_S_S128 (ix1 d)
    | ⟨1, _⟩, hi =>
      refine (cat3v_apply _ _ _ concatenates_S128_S128_S128_S384_d0 (ix1 (i 1)) ⟨1, by decide⟩ d hi).trans ?_
      try results_pass
      exact scalPiece_apply (X (Proc.devRef .tc main_arg3)) 1 1 (by decide) (by decide)
        slices_S6x3_S1x1_1_1 shapeCasts_S1x1_S_ bcast_S_S128 (ix1 d)
    | ⟨2, _⟩, hi =>
      refine (cat3v_apply _ _ _ concatenates_S128_S128_S128_S384_d0 (ix1 (i 1)) ⟨2, by decide⟩ d hi).trans ?_
      try results_pass
      exact scalPiece_apply (X (Proc.devRef .tc main_arg3)) 3 1 (by decide) (by decide)
        slices_S6x3_S1x1_3_1 shapeCasts_S1x1_S_ bcast_S_S128 (ix1 d)
  | 2, _ =>
    match g, hi with
    | ⟨0, _⟩, hi =>
      refine (cat3v_apply _ _ _ concatenates_S128_S128_S128_S384_d0 (ix1 (i 1)) ⟨0, by decide⟩ d hi).trans ?_
      try results_pass
      exact scalPiece_apply (X (Proc.devRef .tc main_arg3)) 0 2 (by decide) (by decide)
        slices_S6x3_S1x1_0_2 shapeCasts_S1x1_S_ bcast_S_S128 (ix1 d)
    | ⟨1, _⟩, hi =>
      refine (cat3v_apply _ _ _ concatenates_S128_S128_S128_S384_d0 (ix1 (i 1)) ⟨1, by decide⟩ d hi).trans ?_
      try results_pass
      exact scalPiece_apply (X (Proc.devRef .tc main_arg3)) 1 2 (by decide) (by decide)
        slices_S6x3_S1x1_1_2 shapeCasts_S1x1_S_ bcast_S_S128 (ix1 d)
    | ⟨2, _⟩, hi =>
      refine (cat3v_apply _ _ _ concatenates_S128_S128_S128_S384_d0 (ix1 (i 1)) ⟨2, by decide⟩ d hi).trans ?_
      try results_pass
      exact scalPiece_apply (X (Proc.devRef .tc main_arg3)) 3 2 (by decide) (by decide)
        slices_S6x3_S1x1_3_2 shapeCasts_S1x1_S_ bcast_S_S128 (ix1 d)

end Cert.KernelIdeal.HandV
end
-- ==== Proof.KV.Host2Wt.lean ====
/- The second group's stacked weight array after its host stretch, read at an index: branch c's row
   holds, side by side, the pieces of operations 2 and 4, branch c, cut out of the argument (each matrix transposed). -/
import proofs.«414290_j6631429505478_3_alg».proof.Proof.KV.HostLayout

noncomputable section

namespace Cert.KernelIdeal.HandV

open Cert.KernelIdeal Cert.KernelIdeal.Gen
open Idealize.ShloMosaic Idealize.ShloMosaic.TcCoe
open Idealize.ShloMosaic.ValueIdx

set_option maxHeartbeats 4000000 in
/-- The stacked weight array of the second group at (c, k, g·128 + d): operation `mB g`'s, branch c, at (d, k). -/
theorem host2_wt (X : Valuation τ sig (Elt Ideal)) (P : FVec Ideal S6x3x128x128 .f32)
    (hP : X (Proc.devRef .tc main_arg4) = P) (i : S3x128x256.Idx) (g : Fin 2) (d : Fin 128)
    (hi : (i 2).val = g.val * 128 + d.val) :
    (StableHlo.after (hostOps2 (F := Ideal)) X (Proc.devRef .tc main_v287) : FVec Ideal S3x128x256 .f32) i
      = P (ix4 (mB g) (i 0) d (i 1)) := by
  subst hP
  results_pass
  refine (stack3_apply _ _ _ _ _ i).trans ?_
  rcases h0 : i 0 with ⟨cc, hcc⟩
  match cc, hcc with
  | 0, _ =>
      match g, hi with
      | ⟨0, _⟩, hi =>
        refine (cat2m_apply (r := 128) (n := 128) (N := 256) _ _ concatenates_S128x128_S128x128_S128x256_d1 (ix2 (i 1) (i 2) : S128x256.Idx) ⟨0, by decide⟩ d hi).trans ?_
        try results_pass
        exact matPiece_apply (X (Proc.devRef .tc main_arg4)) 2 0 (by decide) (by decide) slices_S6x3x128x128_S1x1x128x128_2_0_0_0 shapeCasts_S1x1x128x128_S128x128 transposes_S128x128_S128x128_1_0 (ix2 (i 1) d)
      | ⟨1, _⟩, hi =>
        refine (cat2m_apply (r := 128) (n := 128) (N := 256) _ _ concatenates_S128x128_S128x128_S128x256_d1 (ix2 (i 1) (i 2) : S128x256.Idx) ⟨1, by decide⟩ d hi).trans ?_
        try results_pass
        exact matPiece_apply (X (Proc.devRef .tc main_arg4)) 4 0 (by decide) (by decide) slices_S6x3x128x128_S1x1x128x128_4_0_0_0 shapeCasts_S1x1x128x128_S128x128 transposes_S128x128_S128x128_1_0 (ix2 (i 1) d)
  | 1, _ =>
      match g, hi with
      | ⟨0, _⟩, hi =>
        refine (cat2m_apply (r := 128) (n := 128) (N := 256) _ _ concatenates_S128x128_S128x128_S128x256_d1 (ix2 (i 1) (i 2) : S128x256.Idx) ⟨0, by decide⟩ d hi).trans ?_
        try results_pass
        exact matPiece_apply (X (Proc.devRef .tc main_arg4)) 2 1 (by decide) (by decide) slices_S6x3x128x128_S1x1x128x128_2_1_0_0 shapeCasts_S1x1x128x128_S128x128 transposes_S128x128_S128x128_1_0 (ix2 (i 1) d)
      | ⟨1, _⟩, hi =>
        refine (cat2m_apply (r := 128) (n := 128) (N := 256) _ _ concatenates_S128x128_S128x128_S128x256_d1 (ix2 (i 1) (i 2) : S128x256.Idx) ⟨1, by decide⟩ d hi).trans ?_
        try results_pass
        exact matPiece_apply (X (Proc.devRef .tc main_arg4)) 4 1 (by decide) (by decide) slices_S6x3x128x128_S1x1x128x128_4_1_0_0 shapeCasts_S1x1x128x128_S128x128 transposes_S128x128_S128x128_1_0 (ix2 (i 1) d)
  | 2, _ =>
      match g, hi with
      | ⟨0, _⟩, hi =>
        refine (cat2m_apply (r := 128) (n := 128) (N := 256) _ _ concatenates_S128x128_S128x128_S128x256_d1 (ix2 (i 1) (i 2) : S128x256.Idx) ⟨0, by decide⟩ d hi).trans ?_
        try results_pass
        exact matPiece_apply (X (Proc.devRef .tc main_arg4)) 2 2 (by decide) (by decide) slices_S6x3x128x128_S1x1x128x128_2_2_0_0 shapeCasts_S1x1x128x128_S128x128 transposes_S128x128_S128x128_1_0 (ix2 (i 1) d)
      | ⟨1, _⟩, hi =>
        refine (cat2m_apply (r := 128) (n := 128) (N := 256) _ _ concatenates_S128x128_S128x128_S128x256_d1 (ix2 (i 1) (i 2) : S128x256.Idx) ⟨1, by decide⟩ d hi).trans ?_
        try results_pass
        exact matPiece_apply (X (Proc.devRef .tc main_arg4)) 4 2 (by decide) (by decide) slices_S6x3x128x128_S1x1x128x128_4_2_0_0 shapeCasts_S1x1x128x128_S128x128 transposes_S128x128_S128x128_1_0 (ix2 (i 1) d)

end Cert.KernelIdeal.HandV
end
-- ==== Proof.KV.Host2B.lean ====
/- The second group's stacked bias array after its host stretch, read at an index: branch c's row
   holds, side by side, the pieces of operations 2 and 4, branch c, cut out of the argument. -/
import proofs.«414290_j6631429505478_3_alg».proof.Proof.KV.HostLayout

noncomputable section

namespace Cert.KernelIdeal.HandV

open Cert.KernelIdeal Cert.KernelIdeal.Gen
open Idealize.ShloMosaic Idealize.ShloMosaic.TcCoe
open Idealize.ShloMosaic.ValueIdx

set_option maxHeartbeats 4000000 in
/-- The stacked bias array of the second group at (c, g·128 + d): operation `mB g`'s, branch c, at d. -/
theorem host2_b (X : Valuation τ sig (Elt Ideal)) (P : FVec Ideal S6x3x128 .f32)
    (hP : X (Proc.devRef .tc main_arg5) = P) (i : S3x256.Idx) (g : Fin 2) (d : Fin 128)
    (hi : (i 1).val = g.val * 128 + d.val) :
    (StableHlo.after (hostOps2 (F := Ideal)) X (Proc.devRef .tc main_v291) : FVec Ideal S3x256 .f32) i
      = P (ix3 (mB g) (i 0) d) := by
  subst hP
  results_pass
  refine (stack3v_apply _ _ _ _ _ i).trans ?_
  rcases h0 : i 0 with ⟨cc, hcc⟩
  match cc, hcc with
  | 0, _ =>
      match g, hi with
      | ⟨0, _⟩, hi =>
        refine (cat2v_apply (n := 128) (N := 256) _ _ concatenates_S128_S128_S256_d0 (ix1 (i 1) : S256.Idx) ⟨0, by decide⟩ d hi).trans ?_
        try results_pass
        exact vecPiece_apply (X (Proc.devRef .tc main_arg5)) 2 0 (by decide) (by decide) slices_S6x3x128_S1x1x128_2_0_0 shapeCasts_S1x1x128_S128 (ix1 d)
      | ⟨1, _⟩, hi =>
        refine (cat2v_apply (n := 128) (N := 256) _ _ concatenates_S128_S128_S256_d0 (ix1 (i 1) : S256.Idx) ⟨1, by decide⟩ d hi).trans ?_
        try results_pass
        exact vecPiece_apply (X (Proc.devRef .tc main_arg5)) 4 0 (by decide) (by decide) slices_S6x3x128_S1x1x128_4_0_0 shapeCasts_S1x1x128_S128 (ix1 d)
  | 1, _ =>
      match g, hi with
      | ⟨0, _⟩, hi =>
        refine (cat2v_apply (n := 128) (N := 256) _ _ concatenates_S128_S128_S256_d0 (ix1 (i 1) : S256.Idx) ⟨0, by decide⟩ d hi).trans ?_
        try results_pass
        exact vecPiece_apply (X (Proc.devRef .tc main_arg5)) 2 1 (by decide) (by decide) slices_S6x3x128_S1x1x128_2_1_0 shapeCasts_S1x1x128_S128 (ix1 d)
      | ⟨1, _⟩, hi =>
        refine (cat2v_apply (n := 128) (N := 256) _ _ concatenates_S128_S128_S256_d0 (ix1 (i 1) : S256.Idx) ⟨1, by decide⟩ d hi).trans ?_
        try results_pass
        exact vecPiece_apply (X (Proc.devRef .tc main_arg5)) 4 1 (by decide) (by decide) slices_S6x3x128_S1x1x128_4_1_0 shapeCasts_S1x1x128_S128 (ix1 d)
  | 2, _ =>
      match g, hi with
      | ⟨0, _⟩, hi =>
        refine (cat2v_apply (n := 128) (N := 256) _ _ concatenates_S128_S128_S256_d0 (ix1 (i 1) : S256.Idx) ⟨0, by decide⟩ d hi).trans ?_
        try results_pass
        exact vecPiece_apply (X (Proc.devRef .tc main_arg5)) 2 2 (by decide) (by decide) slices_S6x3x128_S1x1x128_2_2_0 shapeCasts_S1x1x128_S128 (ix1 d)
      | ⟨1, _⟩, hi =>
        refine (cat2v_apply (n := 128) (N := 256) _ _ concatenates_S128_S128_S256_d0 (ix1 (i 1) : S256.Idx) ⟨1, by decide⟩ d hi).trans ?_
        try results_pass
        exact vecPiece_apply (X (Proc.devRef .tc main_arg5)) 4 2 (by decide) (by decide) slices_S6x3x128_S1x1x128_4_2_0 shapeCasts_S1x1x128_S128 (ix1 d)

end Cert.KernelIdeal.HandV
end
-- ==== Proof.KV.Host2G.lean ====
/- The second group's stacked scale array after its host stretch, read at an index: branch c's row
   holds, side by side, the pieces of operations 2 and 4, branch c, cut out of the argument. -/
import proofs.«414290_j6631429505478_3_alg».proof.Proof.KV.HostLayout

noncomputable section

namespace Cert.KernelIdeal.HandV

open Cert.KernelIdeal Cert.KernelIdeal.Gen
open Idealize.ShloMosaic Idealize.ShloMosaic.TcCoe
open Idealize.ShloMosaic.ValueIdx

set_option maxHeartbeats 4000000 in
/-- The stacked scale array of the second group at (c, g·128 + d): operation `mB g`'s, branch c, at d. -/
theorem host2_g (X : Valuation τ sig (Elt Ideal)) (P : FVec Ideal S6x3x128 .f32)
    (hP : X (Proc.devRef .tc main_arg6) = P) (i : S3x256.Idx) (g : Fin 2) (d : Fin 128)
    (hi : (i 1).val = g.val * 128 + d.val) :
    (StableHlo.after (hostOps2 (F := Ideal)) X (Proc.devRef .tc main_v295) : FVec Ideal S3x256 .f32) i
      = P (ix3 (mB g) (i 0) d) := by
  subst hP
  results_pass
  refine (stack3v_apply _ _ _ _ _ i).trans ?_
  rcases h0 : i 0 with ⟨cc, hcc⟩
  match cc, hcc with
  | 0, _ =>
      match g, hi with
      | ⟨0, _⟩, hi =>
        refine (cat2v_apply (n := 128) (N := 256) _ _ concatenates_S128_S128_S256_d0 (ix1 (i 1) : S256.Idx) ⟨0, by decide⟩ d hi).trans ?_
        try results_pass
        exact vecPiece_apply (X (Proc.devRef .tc main_arg6)) 2 0 (by decide) (by decide) slices_S6x3x128_S1x1x128_2_0_0 shapeCasts_S1x1x128_S128 (ix1 d)
      | ⟨1, _⟩, hi =>
        refine (cat2v_apply (n := 128) (N := 256) _ _ concatenates_S128_S128_S256_d0 (ix1 (i 1) : S256.Idx) ⟨1, by decide⟩ d hi).trans ?_
        try results_pass
        exact vecPiece_apply (X (Proc.devRef .tc main_arg6)) 4 0 (by decide) (by decide) slices_S6x3x128_S1x1x128_4_0_0 shapeCasts_S1x1x128_S128 (ix1 d)
  | 1, _ =>
      match g, hi with
      | ⟨0, _⟩, hi =>
        refine (cat2v_apply (n := 128) (N := 256) _ _ concatenates_S128_S128_S256_d0 (ix1 (i 1) : S256.Idx) ⟨0, by decide⟩ d hi).trans ?_
        try results_pass
        exact vecPiece_apply (X (Proc.devRef .tc main_arg6)) 2 1 (by decide) (by decide) slices_S6x3x128_S1x1x128_2_1_0 shapeCasts_S1x1x128_S128 (ix1 d)
      | ⟨1, _⟩, hi =>
        refine (cat2v_apply (n := 128) (N := 256) _ _ concatenates_S128_S128_S256_d0 (ix1 (i 1) : S256.Idx) ⟨1, by decide⟩ d hi).trans ?_
        try results_pass
        exact vecPiece_apply (X (Proc.devRef .tc main_arg6)) 4 1 (by decide) (by decide) slices_S6x3x128_S1x1x128_4_1_0 shapeCasts_S1x1x128_S128 (ix1 d)
  | 2, _ =>
      match g, hi with
      | ⟨0, _⟩, hi =>
        refine (cat2v_apply (n := 128) (N := 256) _ _ concatenates_S128_S128_S256_d0 (ix1 (i 1) : S256.Idx) ⟨0, by decide⟩ d hi).trans ?_
        try results_pass
        exact vecPiece_apply (X (Proc.devRef .tc main_arg6)) 2 2 (by decide) (by decide) slices_S6x3x128_S1x1x128_2_2_0 shapeCasts_S1x1x128_S128 (ix1 d)
      | ⟨1, _⟩, hi =>
        refine (cat2v_apply (n := 128) (N := 256) _ _ concatenates_S128_S128_S256_d0 (ix1 (i 1) : S256.Idx) ⟨1, by decide⟩ d hi).trans ?_
        try results_pass
        exact vecPiece_apply (X (Proc.devRef .tc main_arg6)) 4 2 (by decide) (by decide) slices_S6x3x128_S1x1x128_4_2_0 shapeCasts_S1x1x128_S128 (ix1 d)

end Cert.KernelIdeal.HandV
end
-- ==== Proof.KV.Host2Be.lean ====
/- The second group's stacked shift array after its host stretch, read at an index: branch c's row
   holds, side by side, the pieces of operations 2 and 4, branch c, cut out of the argument. -/
import proofs.«414290_j6631429505478_3_alg».proof.Proof.KV.HostLayout

noncomputable section

namespace Cert.KernelIdeal.HandV

open Cert.KernelIdeal Cert.KernelIdeal.Gen
open Idealize.ShloMosaic Idealize.ShloMosaic.TcCoe
open Idealize.ShloMosaic.ValueIdx

set_option maxHeartbeats 4000000 in
/-- The stacked shift array of the second group at (c, g·128 + d): operation `mB g`'s, branch c, at d. -/
theorem host2_be (X : Valuation τ sig (Elt Ideal)) (P : FVec Ideal S6x3x128 .f32)
    (hP : X (Proc.devRef .tc main_arg7) = P) (i : S3x256.Idx) (g : Fin 2) (d : Fin 128)
    (hi : (i 1).val = g.val * 128 + d.val) :
    (StableHlo.after (hostOps2 (F := Ideal)) X (Proc.devRef .tc main_v299) : FVec Ideal S3x256 .f32) i
      = P (ix3 (mB g) (i 0) d) := by
  subst hP
  results_pass
  refine (stack3v_apply _ _ _ _ _ i).trans ?_
  rcases h0 : i 0 with ⟨cc, hcc⟩
  match cc, hcc with
  | 0, _ =>
      match g, hi with
      | ⟨0, _⟩, hi =>
        refine (cat2v_apply (n := 128) (N := 256) _ _ concatenates_S128_S128_S256_d0 (ix1 (i 1) : S256.Idx) ⟨0, by decide⟩ d hi).trans ?_
        try results_pass
        exact vecPiece_apply (X (Proc.devRef .tc main_arg7)) 2 0 (by decide) (by decide) slices_S6x3x128_S1x1x128_2_0_0 shapeCasts_S1x1x128_S128 (ix1 d)
      | ⟨1, _⟩, hi =>
        refine (cat2v_apply (n := 128) (N := 256) _ _ concatenates_S128_S128_S256_d0 (ix1 (i 1) : S256.Idx) ⟨1, by decide⟩ d hi).trans ?_
        try results_pass
        exact vecPiece_apply (X (Proc.devRef .tc main_arg7)) 4 0 (by decide) (by decide) slices_S6x3x128_S1x1x128_4_0_0 shapeCasts_S1x1x128_S128 (ix1 d)
  | 1, _ =>
      match g, hi with
      | ⟨0, _⟩, hi =>
        refine (cat2v_apply (n := 128) (N := 256) _ _ concatenates_S128_S128_S256_d0 (ix1 (i 1) : S256.Idx) ⟨0, by decide⟩ d hi).trans ?_
        try results_pass
        exact vecPiece_apply (X (Proc.devRef .tc main_arg7)) 2 1 (by decide) (by decide) slices_S6x3x128_S1x1x128_2_1_0 shapeCasts_S1x1x128_S128 (ix1 d)
      | ⟨1, _⟩, hi =>
        refine (cat2v_apply (n := 128) (N := 256) _ _ concatenates_S128_S128_S256_d0 (ix1 (i 1) : S256.Idx) ⟨1, by decide⟩ d hi).trans ?_
        try results_pass
        exact vecPiece_apply (X (Proc.devRef .tc main_arg7)) 4 1 (by decide) (by decide) slices_S6x3x128_S1x1x128_4_1_0 shapeCasts_S1x1x128_S128 (ix1 d)
  | 2, _ =>
      match g, hi with
      | ⟨0, _⟩, hi =>
        refine (cat2v_apply (n := 128) (N := 256) _ _ concatenates_S128_S128_S256_d0 (ix1 (i 1) : S256.Idx) ⟨0, by decide⟩ d hi).trans ?_
        try results_pass
        exact vecPiece_apply (X (Proc.devRef .tc main_arg7)) 2 2 (by decide) (by decide) slices_S6x3x128_S1x1x128_2_2_0 shapeCasts_S1x1x128_S128 (ix1 d)
      | ⟨1, _⟩, hi =>
        refine (cat2v_apply (n := 128) (N := 256) _ _ concatenates_S128_S128_S256_d0 (ix1 (i 1) : S256.Idx) ⟨1, by decide⟩ d hi).trans ?_
        try results_pass
        exact vecPiece_apply (X (Proc.devRef .tc main_arg7)) 4 2 (by decide) (by decide) slices_S6x3x128_S1x1x128_4_2_0 shapeCasts_S1x1x128_S128 (ix1 d)

end Cert.KernelIdeal.HandV
end
-- ==== Proof.KV.Host2W.lean ====
/- The second group's stacked mixing-weight array after its host stretch, read at an index: branch c's row
   holds, side by side, the pieces of operations 2 and 4, branch c, cut out of the argument (each scalar spread along its 128 columns). -/
import proofs.«414290_j6631429505478_3_alg».proof.Proof.KV.HostLayout

noncomputable section

namespace Cert.KernelIdeal.HandV

open Cert.KernelIdeal Cert.KernelIdeal.Gen
open Idealize.ShloMosaic Idealize.ShloMosaic.TcCoe
open Idealize.ShloMosaic.ValueIdx

set_option maxHeartbeats 4000000 in
/-- The stacked mixing-weight array of the second group at (c, g·128 + d): operation `mB g`'s, branch c. -/
theorem host2_w (X : Valuation τ sig (Elt Ideal)) (P : FVec Ideal S6x3 .f32)
    (hP : X (Proc.devRef .tc main_arg3) = P) (i : S3x256.Idx) (g : Fin 2) (d : Fin 128)
    (hi : (i 1).val = g.val * 128 + d.val) :
    (StableHlo.after (hostOps2 (F := Ideal)) X (Proc.devRef .tc main_v303) : FVec Ideal S3x256 .f32) i
      = P (ix2 (mB g) (i 0)) := by
  subst hP
  results_pass
  refine (stack3v_apply _ _ _ _ _ i).trans ?_
  rcases h0 : i 0 with ⟨cc, hcc⟩
  match cc, hcc with
  | 0, _ =>
      match g, hi with
      | ⟨0, _⟩, hi =>
        refine (cat2v_apply (n := 128) (N := 256) _ _ concatenates_S128_S128_S256_d0 (ix1 (i 1) : S256.Idx) ⟨0, by decide⟩ d hi).trans ?_
        try results_pass
        exact scalPiece_apply (X (Proc.devRef .tc main_arg3)) 2 0 (by decide) (by decide) slices_S6x3_S1x1_2_0 shapeCasts_S1x1_S_ bcast_S_S128 (ix1 d)
      | ⟨1, _⟩, hi =>
        refine (cat2v_apply (n := 128) (N := 256) _ _ concatenates_S128_S128_S256_d0 (ix1 (i 1) : S256.Idx) ⟨1, by decide⟩ d hi).trans ?_
        try results_pass
        exact scalPiece_apply (X (Proc.devRef .tc main_arg3)) 4 0 (by decide) (by decide) slices_S6x3_S1x1_4_0 shapeCasts_S1x1_S_ bcast_S_S128 (ix1 d)
  | 1, _ =>
      match g, hi with
      | ⟨0, _⟩, hi =>
        refine (cat2v_apply (n := 128) (N := 256) _ _ concatenates_S128_S128_S256_d0 (ix1 (i 1) : S256.Idx) ⟨0, by decide⟩ d hi).trans ?_
        try results_pass
        exact scalPiece_apply (X (Proc.devRef .tc main_arg3)) 2 1 (by decide) (by decide) slices_S6x3_S1x1_2_1 shapeCasts_S1x1_S_ bcast_S_S128 (ix1 d)
      | ⟨1, _⟩, hi =>
        refine (cat2v_apply (n := 128) (N := 256) _ _ concatenates_S128_S128_S256_d0 (ix1 (i 1) : S256.Idx) ⟨1, by decide⟩ d hi).trans ?_
        try results_pass
        exact scalPiece_apply (X (Proc.devRef .tc main_arg3)) 4 1 (by decide) (by decide) slices_S6x3_S1x1_4_1 shapeCasts_S1x1_S_ bcast_S_S128 (ix1 d)
  | 2, _ =>
      match g, hi with
      | ⟨0, _⟩, hi =>
        refine (cat2v_apply (n := 128) (N := 256) _ _ concatenates_S128_S128_S256_d0 (ix1 (i 1) : S256.Idx) ⟨0, by decide⟩ d hi).trans ?_
        try results_pass
        exact scalPiece_apply (X (Proc.devRef .tc main_arg3)) 2 2 (by decide) (by decide) slices_S6x3_S1x1_2_2 shapeCasts_S1x1_S_ bcast_S_S128 (ix1 d)
      | ⟨1, _⟩, hi =>
        refine (cat2v_apply (n := 128) (N := 256) _ _ concatenates_S128_S128_S256_d0 (ix1 (i 1) : S256.Idx) ⟨1, by decide⟩ d hi).trans ?_
        try results_pass
        exact scalPiece_apply (X (Proc.devRef .tc main_arg3)) 4 2 (by decide) (by decide) slices_S6x3_S1x1_4_2 shapeCasts_S1x1_S_ bcast_S_S128 (ix1 d)

end Cert.KernelIdeal.HandV
end
-- ==== Proof.KV.Host4Wt.lean ====
/- The third group's stacked weight array after its host stretch, read at an index: branch c's
   row is the piece of operation 5, branch c, cut out of the argument (the matrix transposed). -/
import proofs.«414290_j6631429505478_3_alg».proof.Proof.KV.HostLayout

noncomputable section

namespace Cert.KernelIdeal.HandV

open Cert.KernelIdeal Cert.KernelIdeal.Gen
open Idealize.ShloMosaic Idealize.ShloMosaic.TcCoe
open Idealize.ShloMosaic.ValueIdx

set_option maxHeartbeats 4000000 in
/-- The stacked weight array of the third group at (c, k, d): operation 5's, branch c, at (d, k). -/
theorem host4_wt (X : Valuation τ sig (Elt Ideal)) (P : FVec Ideal S6x3x128x128 .f32)
    (hP : X (Proc.devRef .tc main_arg4) = P) (i : S3x128x128.Idx) :
    (StableHlo.after (hostOps4 (F := Ideal)) X (Proc.devRef .tc main_v373) : FVec Ideal S3x128x128 .f32) i
      = P (ix4 (5 : Fin 6) (i 0) (i 2) (i 1)) := by
  subst hP
  results_pass
  refine (stack3_apply _ _ _ _ _ i).trans ?_
  rcases h0 : i 0 with ⟨cc, hcc⟩
  match cc, hcc with
  | 0, _ =>
    try results_pass
    exact matPiece_apply (X (Proc.devRef .tc main_arg4)) 5 0 (by decide) (by decide) slices_S6x3x128x128_S1x1x128x128_5_0_0_0 shapeCasts_S1x1x128x128_S128x128 transposes_S128x128_S128x128_1_0 (ix2 (i 1) (i 2))
  | 1, _ =>
    try results_pass
    exact matPiece_apply (X (Proc.devRef .tc main_arg4)) 5 1 (by decide) (by decide) slices_S6x3x128x128_S1x1x128x128_5_1_0_0 shapeCasts_S1x1x128x128_S128x128 transposes_S128x128_S128x128_1_0 (ix2 (i 1) (i 2))
  | 2, _ =>
    try results_pass
    exact matPiece_apply (X (Proc.devRef .tc main_arg4)) 5 2 (by decide) (by decide) slices_S6x3x128x128_S1x1x128x128_5_2_0_0 shapeCasts_S1x1x128x128_S128x128 transposes_S128x128_S128x128_1_0 (ix2 (i 1) (i 2))

end Cert.KernelIdeal.HandV
end
-- ==== Proof.KV.Host4B.lean ====
/- The third group's stacked bias array after its host stretch, read at an index: branch c's
   row is the piece of operation 5, branch c, cut out of the argument. -/
import proofs.«414290_j6631429505478_3_alg».proof.Proof.KV.HostLayout

noncomputable section

namespace Cert.KernelIdeal.HandV

open Cert.KernelIdeal Cert.KernelIdeal.Gen
open Idealize.ShloMosaic Idealize.ShloMosaic.TcCoe
open Idealize.ShloMosaic.ValueIdx

set_option maxHeartbeats 4000000 in
/-- The stacked bias array of the third group at (c, d): operation 5's, branch c, at d. -/
theorem host4_b (X : Valuation τ sig (Elt Ideal)) (P : FVec Ideal S6x3x128 .f32)
    (hP : X (Proc.devRef .tc main_arg5) = P) (i : S3x128.Idx) :
    (StableHlo.after (hostOps4 (F := Ideal)) X (Proc.devRef .tc main_v377) : FVec Ideal S3x128 .f32) i
      = P (ix3 (5 : Fin 6) (i 0) (i 1)) := by
  subst hP
  results_pass
  refine (stack3v_apply _ _ _ _ _ i).trans ?_
  rcases h0 : i 0 with ⟨cc, hcc⟩
  match cc, hcc with
  | 0, _ =>
    try results_pass
    exact vecPiece_apply (X (Proc.devRef .tc main_arg5)) 5 0 (by decide) (by decide) slices_S6x3x128_S1x1x128_5_0_0 shapeCasts_S1x1x128_S128 (ix1 (i 1))
  | 1, _ =>
    try results_pass
    exact vecPiece_apply (X (Proc.devRef .tc main_arg5)) 5 1 (by decide) (by decide) slices_S6x3x128_S1x1x128_5_1_0 shapeCasts_S1x1x128_S128 (ix1 (i 1))
  | 2, _ =>
    try results_pass
    exact vecPiece_apply (X (Proc.devRef .tc main_arg5)) 5 2 (by decide) (by decide) slices_S6x3x128_S1x1x128_5_2_0 shapeCasts_S1x1x128_S128 (ix1 (i 1))

end Cert.KernelIdeal.HandV
end
-- ==== Proof.KV.Host4G.lean ====
/- The third group's stacked scale array after its host stretch, read at an index: branch c's
   row is the piece of operation 5, branch c, cut out of the argument. -/
import proofs.«414290_j6631429505478_3_alg».proof.Proof.KV.HostLayout

noncomputable section

namespace Cert.KernelIdeal.HandV

open Cert.KernelIdeal Cert.KernelIdeal.Gen
open Idealize.ShloMosaic Idealize.ShloMosaic.TcCoe
open Idealize.ShloMosaic.ValueIdx

set_option maxHeartbeats 4000000 in
/-- The stacked scale array of the third group at (c, d): operation 5's, branch c, at d. -/
theorem host4_g (X : Valuation τ sig (Elt Ideal)) (P : FVec Ideal S6x3x128 .f32)
    (hP : X (Proc.devRef .tc main_arg6) = P) (i : S3x128.Idx) :
    (StableHlo.after (hostOps4 (F := Ideal)) X (Proc.devRef .tc main_v381) : FVec Ideal S3x128 .f32) i
      = P (ix3 (5 : Fin 6) (i 0) (i 1)) := by
  subst hP
  results_pass
  refine (stack3v_apply _ _ _ _ _ i).trans ?_
  rcases h0 : i 0 with ⟨cc, hcc⟩
  match cc, hcc with
  | 0, _ =>
    try results_pass
    exact vecPiece_apply (X (Proc.devRef .tc main_arg6)) 5 0 (by decide) (by decide) slices_S6x3x128_S1x1x128_5_0_0 shapeCasts_S1x1x128_S128 (ix1 (i 1))
  | 1, _ =>
    try results_pass
    exact vecPiece_apply (X (Proc.devRef .tc main_arg6)) 5 1 (by decide) (by decide) slices_S6x3x128_S1x1x128_5_1_0 shapeCasts_S1x1x128_S128 (ix1 (i 1))
  | 2, _ =>
    try results_pass
    exact vecPiece_apply (X (Proc.devRef .tc main_arg6)) 5 2 (by decide) (by decide) slices_S6x3x128_S1x1x128_5_2_0 shapeCasts_S1x1x128_S128 (ix1 (i 1))

end Cert.KernelIdeal.HandV
end
-- ==== Proof.KV.Host4Be.lean ====
/- The third group's stacked shift array after its host stretch, read at an index: branch c's
   row is the piece of operation 5, branch c, cut out of the argument. -/
import proofs.«414290_j6631429505478_3_alg».proof.Proof.KV.HostLayout

noncomputable section

namespace Cert.KernelIdeal.HandV

open Cert.KernelIdeal Cert.KernelIdeal.Gen
open Idealize.ShloMosaic Idealize.ShloMosaic.TcCoe
open Idealize.ShloMosaic.ValueIdx

set_option maxHeartbeats 4000000 in
/-- The stacked shift array of the third group at (c, d): operation 5's, branch c, at d. -/
theorem host4_be (X : Valuation τ sig (Elt Ideal)) (P : FVec Ideal S6x3x128 .f32)
    (hP : X (Proc.devRef .tc main_arg7) = P) (i : S3x128.Idx) :
    (StableHlo.after (hostOps4 (F := Ideal)) X (Proc.devRef .tc main_v385) : FVec Ideal S3x128 .f32) i
      = P (ix3 (5 : Fin 6) (i 0) (i 1)) := by
  subst hP
  results_pass
  refine (stack3v_apply _ _ _ _ _ i).trans ?_
  rcases h0 : i 0 with ⟨cc, hcc⟩
  match cc, hcc with
  | 0, _ =>
    try results_pass
    exact vecPiece_apply (X (Proc.devRef .tc main_arg7)) 5 0 (by decide) (by decide) slices_S6x3x128_S1x1x128_5_0_0 shapeCasts_S1x1x128_S128 (ix1 (i 1))
  | 1, _ =>
    try results_pass
    exact vecPiece_apply (X (Proc.devRef .tc main_arg7)) 5 1 (by decide) (by decide) slices_S6x3x128_S1x1x128_5_1_0 shapeCasts_S1x1x128_S128 (ix1 (i 1))
  | 2, _ =>
    try results_pass
    exact vecPiece_apply (X (Proc.devRef .tc main_arg7)) 5 2 (by decide) (by decide) slices_S6x3x128_S1x1x128_5_2_0 shapeCasts_S1x1x128_S128 (ix1 (i 1))

end Cert.KernelIdeal.HandV
end
-- ==== Proof.KV.Host4W.lean ====
/- The third group's stacked mixing-weight array after its host stretch, read at an index: branch c's
   row is the piece of operation 5, branch c, cut out of the argument (the scalar spread along the row). -/
import proofs.«414290_j6631429505478_3_alg».proof.Proof.KV.HostLayout

noncomputable section

namespace Cert.KernelIdeal.HandV

open Cert.KernelIdeal Cert.KernelIdeal.Gen
open Idealize.ShloMosaic Idealize.ShloMosaic.TcCoe
open Idealize.ShloMosaic.ValueIdx

set_option maxHeartbeats 4000000 in
/-- The stacked mixing-weight array of the third group at (c, d): operation 5's, branch c. -/
theorem host4_w (X : Valuation τ sig (Elt Ideal)) (P : FVec Ideal S6x3 .f32)
    (hP : X (Proc.devRef .tc main_arg3) = P) (i : S3x128.Idx) :
    (StableHlo.after (hostOps4 (F := Ideal)) X (Proc.devRef .tc main_v389) : FVec Ideal S3x128 .f32) i
      = P (ix2 (5 : Fin 6) (i 0)) := by
  subst hP
  results_pass
  refine (stack3v_apply _ _ _ _ _ i).trans ?_
  rcases h0 : i 0 with ⟨cc, hcc⟩
  match cc, hcc with
  | 0, _ =>
    try results_pass
    exact scalPiece_apply (X (Proc.devRef .tc main_arg3)) 5 0 (by decide) (by decide) slices_S6x3_S1x1_5_0 shapeCasts_S1x1_S_ bcast_S_S128 (ix1 (i 1))
  | 1, _ =>
    try results_pass
    exact scalPiece_apply (X (Proc.devRef .tc main_arg3)) 5 1 (by decide) (by decide) slices_S6x3_S1x1_5_1 shapeCasts_S1x1_S_ bcast_S_S128 (ix1 (i 1))
  | 2, _ =>
    try results_pass
    exact scalPiece_apply (X (Proc.devRef .tc main_arg3)) 5 2 (by decide) (by decide) slices_S6x3_S1x1_5_2 shapeCasts_S1x1_S_ bcast_S_S128 (ix1 (i 1))

end Cert.KernelIdeal.HandV
end
-- ==== Proof.KV.HostAt.lean ====
import proofs.«414290_j6631429505478_3_alg».proof.Proof.KV.HostAtS
import proofs.«414290_j6631429505478_3_alg».proof.Proof.Spec.Sums
import proofs.«414290_j6631429505478_3_alg».proof.Proof.KV.Host0Wt
import proofs.«414290_j6631429505478_3_alg».proof.Proof.KV.Host0B
import proofs.«414290_j6631429505478_3_alg».proof.Proof.KV.Host0G
import proofs.«414290_j6631429505478_3_alg».proof.Proof.KV.Host0Be
import proofs.«414290_j6631429505478_3_alg».proof.Proof.KV.Host0W
import proofs.«414290_j6631429505478_3_alg».proof.Proof.KV.Host2Wt
import proofs.«414290_j6631429505478_3_alg».proof.Proof.KV.Host2B
import proofs.«414290_j6631429505478_3_alg».proof.Proof.KV.Host2G
import proofs.«414290_j6631429505478_3_alg».proof.Proof.KV.Host2Be
import proofs.«414290_j6631429505478_3_alg».proof.Proof.KV.Host2W
import proofs.«414290_j6631429505478_3_alg».proof.Proof.KV.Host4Wt
import proofs.«414290_j6631429505478_3_alg».proof.Proof.KV.Host4B
import proofs.«414290_j6631429505478_3_alg».proof.Proof.KV.Host4G
import proofs.«414290_j6631429505478_3_alg».proof.Proof.KV.Host4Be
import proofs.«414290_j6631429505478_3_alg».proof.Proof.KV.Host4W

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx
open Cert.Spec

/-- The mixed operations each group computes, in the order of its column blocks. -/
def opsA : Fin 3 → Fin 6 := ![0, 1, 3]
def opsB : Fin 2 → Fin 6 := ![2, 4]
def opsC : Fin 1 → Fin 6 := ![5]

variable (m : (ℓ : Loc nD τ sig) → Buf (Elt Ideal) ℓ) (ρ : Dev nD → PrngReg) (c : Dev nD)

/-! # What the host stretches leave of the parameters

Column `j` of a group's stacked arrays holds the parameter of operation `ops (j / 128)` at channel `j % 128`. -/

theorem w1_wt (cc : Fin 3) (k : Fin 128) (j : Fin 384) :
    (W1 m ρ c (Proc.devRef .tc main_v152) : FVec Ideal S3x128x384 .f32) (ix3 cc k j)
      = (P m c).W (opsA (colGroup (G := 3) j)) cc (colChan (G := 3) j) k := by
  rw [W1_eq]
  exact host0_wt (W0 m ρ c) _ rfl (ix3 cc k j) (colGroup (G := 3) j) (colChan (G := 3) j) (by show j.val = j.val / 128 * 128 + j.val % 128; omega)

theorem w1_b (cc : Fin 3) (j : Fin 384) :
    (W1 m ρ c (Proc.devRef .tc main_v156) : FVec Ideal S3x384 .f32) (ix2 cc j)
      = (P m c).b (opsA (colGroup (G := 3) j)) cc (colChan (G := 3) j) := by
  rw [W1_eq]
  exact host0_b (W0 m ρ c) _ rfl (ix2 cc j) (colGroup (G := 3) j) (colChan (G := 3) j) (by show j.val = j.val / 128 * 128 + j.val % 128; omega)

theorem w1_g (cc : Fin 3) (j : Fin 384) :
    (W1 m ρ c (Proc.devRef .tc main_v160) : FVec Ideal S3x384 .f32) (ix2 cc j)
      = (P m c).g (opsA (colGroup (G := 3) j)) cc (colChan (G := 3) j) := by
  rw [W1_eq]
  exact host0_g (W0 m ρ c) _ rfl (ix2 cc j) (colGroup (G := 3) j) (colChan (G := 3) j) (by show j.val = j.val / 128 * 128 + j.val % 128; omega)

theorem w1_be (cc : Fin 3) (j : Fin 384) :
    (W1 m ρ c (Proc.devRef .tc main_v164) : FVec Ideal S3x384 .f32) (ix2 cc j)
      = (P m c).be (opsA (colGroup (G := 3) j)) cc (colChan (G := 3) j) := by
  rw [W1_eq]
  exact host0_be (W0 m ρ c) _ rfl (ix2 cc j) (colGroup (G := 3) j) (colChan (G := 3) j) (by show j.val = j.val / 128 * 128 + j.val % 128; omega)

theorem w1_w (cc : Fin 3) (j : Fin 384) :
    (W1 m ρ c (Proc.devRef .tc main_v168) : FVec Ideal S3x384 .f32) (ix2 cc j)
      = (P m c).w (opsA (colGroup (G := 3) j)) cc := by
  rw [W1_eq]
  exact host0_w (W0 m ρ c) _ rfl (ix2 cc j) (colGroup (G := 3) j) (colChan (G := 3) j) (by show j.val = j.val / 128 * 128 + j.val % 128; omega)

theorem w5_wt (cc : Fin 3) (k : Fin 128) (j : Fin 256) :
    (W5 m ρ c (Proc.devRef .tc main_v287) : FVec Ideal S3x128x256 .f32) (ix3 cc k j)
      = (P m c).W (opsB (colGroup (G := 2) j)) cc (colChan (G := 2) j) k := by
  rw [W5_eq]
  exact host2_wt (W4 m ρ c) _ (keep_0_4 m ρ c main_arg4 (by decide)) (ix3 cc k j) (colGroup (G := 2) j) (colChan (G := 2) j) (by show j.val = j.val / 128 * 128 + j.val % 128; omega)

theorem w5_b (cc : Fin 3) (j : Fin 256) :
    (W5 m ρ c (Proc.devRef .tc main_v291) : FVec Ideal S3x256 .f32) (ix2 cc j)
      = (P m c).b (opsB (colGroup (G := 2) j)) cc (colChan (G := 2) j) := by
  rw [W5_eq]
  exact host2_b (W4 m ρ c) _ (keep_0_4 m ρ c main_arg5 (by decide)) (ix2 cc j) (colGroup (G := 2) j) (colChan (G := 2) j) (by show j.val = j.val / 128 * 128 + j.val % 128; omega)

theorem w5_g (cc : Fin 3) (j : Fin 256) :
    (W5 m ρ c (Proc.devRef .tc main_v295) : FVec Ideal S3x256 .f32) (ix2 cc j)
      = (P m c).g (opsB (colGroup (G := 2) j)) cc (colChan (G := 2) j) := by
  rw [W5_eq]
  exact host2_g (W4 m ρ c) _ (keep_0_4 m ρ c main_arg6 (by decide)) (ix2 cc j) (colGroup (G := 2) j) (colChan (G := 2) j) (by show j.val = j.val / 128 * 128 + j.val % 128; omega)

theorem w5_be (cc : Fin 3) (j : Fin 256) :
    (W5 m ρ c (Proc.devRef .tc main_v299) : FVec Ideal S3x256 .f32) (ix2 cc j)
      = (P m c).be (opsB (colGroup (G := 2) j)) cc (colChan (G := 2) j) := by
  rw [W5_eq]
  exact host2_be (W4 m ρ c) _ (keep_0_4 m ρ c main_arg7 (by decide)) (ix2 cc j) (colGroup (G := 2) j) (colChan (G := 2) j) (by show j.val = j.val / 128 * 128 + j.val % 128; omega)

theorem w5_w (cc : Fin 3) (j : Fin 256) :
    (W5 m ρ c (Proc.devRef .tc main_v303) : FVec Ideal S3x256 .f32) (ix2 cc j)
      = (P m c).w (opsB (colGroup (G := 2) j)) cc := by
  rw [W5_eq]
  exact host2_w (W4 m ρ c) _ (keep_0_4 m ρ c main_arg3 (by decide)) (ix2 cc j) (colGroup (G := 2) j) (colChan (G := 2) j) (by show j.val = j.val / 128 * 128 + j.val % 128; omega)

theorem w9_wt (cc : Fin 3) (k : Fin 128) (j : Fin 128) :
    (W9 m ρ c (Proc.devRef .tc main_v373) : FVec Ideal S3x128x128 .f32) (ix3 cc k j)
      = (P m c).W (opsC (colGroup (G := 1) j)) cc (colChan (G := 1) j) k := by
  have hg : colGroup (G := 1) j = 0 := Fin.ext (by show j.val / 128 = 0; have := j.isLt; omega)
  have hc : colChan (G := 1) j = j := Fin.ext (by show j.val % 128 = j.val; have := j.isLt; omega)
  rw [W9_eq, hg, hc]
  exact host4_wt (W8 m ρ c) _ (keep_0_8 m ρ c main_arg4 (by decide)) (ix3 cc k j)

theorem w9_b (cc : Fin 3) (j : Fin 128) :
    (W9 m ρ c (Proc.devRef .tc main_v377) : FVec Ideal S3x128 .f32) (ix2 cc j)
      = (P m c).b (opsC (colGroup (G := 1) j)) cc (colChan (G := 1) j) := by
  have hg : colGroup (G := 1) j = 0 := Fin.ext (by show j.val / 128 = 0; have := j.isLt; omega)
  have hc : colChan (G := 1) j = j := Fin.ext (by show j.val % 128 = j.val; have := j.isLt; omega)
  rw [W9_eq, hg, hc]
  exact host4_b (W8 m ρ c) _ (keep_0_8 m ρ c main_arg5 (by decide)) (ix2 cc j)

theorem w9_g (cc : Fin 3) (j : Fin 128) :
    (W9 m ρ c (Proc.devRef .tc main_v381) : FVec Ideal S3x128 .f32) (ix2 cc j)
      = (P m c).g (opsC (colGroup (G := 1) j)) cc (colChan (G := 1) j) := by
  have hg : colGroup (G := 1) j = 0 := Fin.ext (by show j.val / 128 = 0; have := j.isLt; omega)
  have hc : colChan (G := 1) j = j := Fin.ext (by show j.val % 128 = j.val; have := j.isLt; omega)
  rw [W9_eq, hg, hc]
  exact host4_g (W8 m ρ c) _ (keep_0_8 m ρ c main_arg6 (by decide)) (ix2 cc j)

theorem w9_be (cc : Fin 3) (j : Fin 128) :
    (W9 m ρ c (Proc.devRef .tc main_v385) : FVec Ideal S3x128 .f32) (ix2 cc j)
      = (P m c).be (opsC (colGroup (G := 1) j)) cc (colChan (G := 1) j) := by
  have hg : colGroup (G := 1) j = 0 := Fin.ext (by show j.val / 128 = 0; have := j.isLt; omega)
  have hc : colChan (G := 1) j = j := Fin.ext (by show j.val % 128 = j.val; have := j.isLt; omega)
  rw [W9_eq, hg, hc]
  exact host4_be (W8 m ρ c) _ (keep_0_8 m ρ c main_arg7 (by decide)) (ix2 cc j)

theorem w9_w (cc : Fin 3) (j : Fin 128) :
    (W9 m ρ c (Proc.devRef .tc main_v389) : FVec Ideal S3x128 .f32) (ix2 cc j)
      = (P m c).w (opsC (colGroup (G := 1) j)) cc := by
  have hg : colGroup (G := 1) j = 0 := Fin.ext (by show j.val / 128 = 0; have := j.isLt; omega)
  rw [W9_eq, hg]
  exact host4_w (W8 m ρ c) _ (keep_0_8 m ρ c main_arg3 (by decide)) (ix2 cc j)

end Cert.KernelIdeal.HandV

end
-- ==== Proof.KV.StateA.lean ====
import proofs.«414290_j6631429505478_3_alg».proof.Proof.KV.GroupA
import proofs.«414290_j6631429505478_3_alg».proof.Proof.KV.HostAt

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx
open Cert.Spec

variable (m : (ℓ : Loc nD τ sig) → Buf (Elt Ideal) ℓ) (ρ : Dev nD → PrngReg) (c : Dev nD)

/-! # The first state

Call 1's three column blocks are the mixed operations 0, 1 and 3 of the node features; the first is the first state. -/
/-- A feature array is the array over indices that holds it entry by entry. -/
theorem featArr_eq (x : Feat) (a : FVec Ideal S50000x128 .f32) (h : ∀ n d, a (ix2 n d) = x n d) : featArr x = a :=
  funext fun idx => ((h (idx 0) (idx 1)).symm.trans (congrArg a (eq_ix2 idx).symm))

theorem hF_arr : featArr (hF m c) = (m ((c : Thread nD τ).loc main_arg1) : FVec Ideal S50000x128 .f32) :=
  featArr_eq _ _ fun _ _ => rfl

/-- The group's first input is the aggregate of the node features, -/
theorem rowsA_0 : rowsA m ρ c 0 = aggF m c (hF m c) := by
  funext n k
  show xA0 m ρ c (ix2 n k) = Cert.Bridge.aggK (m ((c : Thread nD τ).loc main_arg0)) (featArr (hF m c)) (ix2 n k)
  rw [hF_arr]
  exact w1_x0 m ρ c (ix2 n k)

/-- its second the node features, -/
theorem rowsA_1 : rowsA m ρ c 1 = hF m c :=
  funext fun n => funext fun k => w1_x1 m ρ c (ix2 n k)

/-- its third the cell's second input. -/
theorem rowsA_2 : rowsA m ρ c 2 = hinF m c :=
  funext fun n => funext fun k => w1_x2 m ρ c (ix2 n k)

/-- The group's stacked parameters are those of operations 0, 1 and 3. -/
theorem ofA : (arrsA m ρ c).Of opsA (P m c) :=
  ⟨w1_wt m ρ c, w1_b m ρ c, w1_g m ρ c, w1_be m ρ c, w1_w m ρ c⟩

/-- Call 1's result in column block `g`: the mixed operation `opsA g` of the node features. -/
theorem mixA (n : Fin 50000) (g : Fin 3) (d : Fin 128) :
    (W4 m ρ c (Proc.devRef .tc main_v182) : FVec Ideal S50000x384 .f32) (ix2 n (colOf g d : Fin (3 * 128)))
      = mixedK (P m c) (aggF m c) (hinF m c) (opsA g) (hF m c) n d :=
  (outA m ρ c n (colOf g d : Fin (3 * 128))).trans
    (outG_eq_colOf (rowsA m ρ c) (ofA m ρ c) (aggF m c) (hinF m c) (hF m c)
      (rowsA_0 m ρ c) (rowsA_1 m ρ c) (rowsA_2 m ρ c) n g d)

/-- The first state. -/
theorem s1_at (n : Fin 50000) (d : Fin 128) :
    (W5 m ρ c (Proc.devRef .tc main_v183) : FVec Ideal S50000x128 .f32) (ix2 n d)
      = k1 (P m c) (aggF m c) (hF m c) (hinF m c) n d := by
  have hd : d.val < 3 * 128 := by have := d.isLt; omega
  have e : (⟨d.val, hd⟩ : Fin (3 * 128)) = colOf (0 : Fin 3) d := col3_0 d hd
  calc (W5 m ρ c (Proc.devRef .tc main_v183) : FVec Ideal S50000x128 .f32) (ix2 n d)
      = (W4 m ρ c (Proc.devRef .tc main_v182) : FVec Ideal S50000x384 .f32) (ix2 n (⟨d.val, hd⟩ : Fin (3 * 128))) :=
        w5_s1 m ρ c n d hd
    _ = (W4 m ρ c (Proc.devRef .tc main_v182) : FVec Ideal S50000x384 .f32) (ix2 n (colOf (0 : Fin 3) d : Fin (3 * 128))) := by
        rw [e]
    _ = k1 (P m c) (aggF m c) (hF m c) (hinF m c) n d := mixA m ρ c n 0 d

/-- The second block of call 1's result: operation 1 of the node features. -/
theorem a1_at (n : Fin 50000) (d : Fin 128) :
    (W5 m ρ c (Proc.devRef .tc main_v196) : FVec Ideal S50000x128 .f32) (ix2 n d)
      = mixedK (P m c) (aggF m c) (hinF m c) 1 (hF m c) n d := by
  have hd : 128 + d.val < 3 * 128 := by have := d.isLt; omega
  have e : (⟨128 + d.val, hd⟩ : Fin (3 * 128)) = colOf (1 : Fin 3) d := col3_1 d hd
  calc (W5 m ρ c (Proc.devRef .tc main_v196) : FVec Ideal S50000x128 .f32) (ix2 n d)
      = (W4 m ρ c (Proc.devRef .tc main_v182) : FVec Ideal S50000x384 .f32) (ix2 n (⟨128 + d.val, hd⟩ : Fin (3 * 128))) :=
        w5_add m ρ c n d hd
    _ = (W4 m ρ c (Proc.devRef .tc main_v182) : FVec Ideal S50000x384 .f32) (ix2 n (colOf (1 : Fin 3) d : Fin (3 * 128))) := by
        rw [e]
    _ = mixedK (P m c) (aggF m c) (hinF m c) 1 (hF m c) n d := mixA m ρ c n 1 d

/-- The third block of call 1's result: operation 3 of the node features. -/
theorem a3_at (n : Fin 50000) (d : Fin 128) (hd : 256 + d.val < 3 * 128) :
    (W4 m ρ c (Proc.devRef .tc main_v182) : FVec Ideal S50000x384 .f32) (ix2 n (⟨256 + d.val, hd⟩ : Fin (3 * 128)))
      = mixedK (P m c) (aggF m c) (hinF m c) 3 (hF m c) n d := by
  have e : (⟨256 + d.val, hd⟩ : Fin (3 * 128)) = colOf (2 : Fin 3) d := col3_2 d hd
  rw [e]
  exact mixA m ρ c n 2 d

end Cert.KernelIdeal.HandV

end
-- ==== Proof.KV.StateB.lean ====
import proofs.«414290_j6631429505478_3_alg».proof.Proof.KV.GroupB
import proofs.«414290_j6631429505478_3_alg».proof.Proof.KV.StateA

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx
open Cert.Spec

variable (m : (ℓ : Loc nD τ sig) → Buf (Elt Ideal) ℓ) (ρ : Dev nD → PrngReg) (c : Dev nD)

/-! # The second state

Call 3's two column blocks are the mixed operations 2 and 4 of the first state; the first, with operation 1 of the node
features added, is the second state. -/
theorem s1_arr : featArr (k1 (P m c) (aggF m c) (hF m c) (hinF m c)) = (W5 m ρ c (Proc.devRef .tc main_v183) : FVec Ideal S50000x128 .f32) :=
  featArr_eq _ _ (s1_at m ρ c)

/-- The group's first input is the aggregate of the first state, -/
theorem rowsB_0 : rowsB m ρ c 0 = aggF m c (k1 (P m c) (aggF m c) (hF m c) (hinF m c)) := by
  funext n k
  show xB0 m ρ c (ix2 n k)
    = Cert.Bridge.aggK (m ((c : Thread nD τ).loc main_arg0)) (featArr (k1 (P m c) (aggF m c) (hF m c) (hinF m c))) (ix2 n k)
  rw [s1_arr]
  exact w5_x0 m ρ c (ix2 n k)

/-- its second the first state, -/
theorem rowsB_1 : rowsB m ρ c 1 = k1 (P m c) (aggF m c) (hF m c) (hinF m c) :=
  funext fun n => funext fun k => (w5_x1 m ρ c (ix2 n k)).trans (s1_at m ρ c n k)

/-- its third the cell's second input. -/
theorem rowsB_2 : rowsB m ρ c 2 = hinF m c :=
  funext fun n => funext fun k => w5_x2 m ρ c (ix2 n k)

/-- The group's stacked parameters are those of operations 2 and 4. -/
theorem ofB : (arrsB m ρ c).Of opsB (P m c) :=
  ⟨w5_wt m ρ c, w5_b m ρ c, w5_g m ρ c, w5_be m ρ c, w5_w m ρ c⟩

/-- The group's result in column block `g`: the mixed operation `opsB g` of the first state. -/
theorem mixB (n : Fin 50000) (g : Fin 2) (d : Fin 128) :
    outG (arrsB m ρ c) (rowsB m ρ c) n (colOf g d) = mixedK (P m c) (aggF m c) (hinF m c) (opsB g) (k1 (P m c) (aggF m c) (hF m c) (hinF m c)) n d :=
  outG_eq_colOf (rowsB m ρ c) (ofB m ρ c) (aggF m c) (hinF m c) (k1 (P m c) (aggF m c) (hF m c) (hinF m c))
    (rowsB_0 m ρ c) (rowsB_1 m ρ c) (rowsB_2 m ρ c) n g d

/-- Call 3's first block: the second state. -/
theorem s2_lo (n : Fin 50000) (d : Fin 128) (hd : d.val < 2 * 128) :
    (W8 m ρ c (Proc.devRef .tc main_v317) : FVec Ideal S50000x256 .f32) (ix2 n (⟨d.val, hd⟩ : Fin (2 * 128)))
      = k2 (P m c) (aggF m c) (hF m c) (hinF m c) n d := by
  have e : (⟨d.val, hd⟩ : Fin (2 * 128)) = colOf (0 : Fin 2) d := col2_0 d hd
  have h := outB_lo m ρ c n d hd
  rw [e] at h
  rw [e, h, mixB m ρ c n 0 d, show addB m ρ c (ix2 n d) = _ from a1_at m ρ c n d]
  rfl

/-- Call 3's second block: operation 4 of the first state. -/
theorem s2_hi (n : Fin 50000) (d : Fin 128) (hd : 128 + d.val < 2 * 128) :
    (W8 m ρ c (Proc.devRef .tc main_v317) : FVec Ideal S50000x256 .f32) (ix2 n (⟨128 + d.val, hd⟩ : Fin (2 * 128)))
      = mixedK (P m c) (aggF m c) (hinF m c) 4 (k1 (P m c) (aggF m c) (hF m c) (hinF m c)) n d := by
  have e : (⟨128 + d.val, hd⟩ : Fin (2 * 128)) = colOf (1 : Fin 2) d := col2_1 d hd
  have h := outB_hi m ρ c n d hd
  rw [e] at h
  rw [e, h]
  exact mixB m ρ c n 1 d

/-- The second state. -/
theorem s2_at (n : Fin 50000) (d : Fin 128) :
    (W9 m ρ c (Proc.devRef .tc main_v318) : FVec Ideal S50000x128 .f32) (ix2 n d) = k2 (P m c) (aggF m c) (hF m c) (hinF m c) n d :=
  have hd : d.val < 2 * 128 := by have := d.isLt; omega
  (w9_s2 m ρ c n d hd).trans (s2_lo m ρ c n d hd)

end Cert.KernelIdeal.HandV

end
-- ==== Proof.KV.StateC.lean ====
import proofs.«414290_j6631429505478_3_alg».proof.Proof.KV.GroupC
import proofs.«414290_j6631429505478_3_alg».proof.Proof.KV.StateB

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx
open Cert.Spec

variable (m : (ℓ : Loc nD τ sig) → Buf (Elt Ideal) ℓ) (ρ : Dev nD → PrngReg) (c : Dev nD)

/-! # The third state

Call 5's result is the mixed operation 5 of the second state plus its addend, operation 3 of the node features plus
operation 4 of the first state. -/
theorem s2_arr : featArr (k2 (P m c) (aggF m c) (hF m c) (hinF m c)) = (W9 m ρ c (Proc.devRef .tc main_v318) : FVec Ideal S50000x128 .f32) :=
  featArr_eq _ _ (s2_at m ρ c)

/-- The group's first input is the aggregate of the second state, -/
theorem rowsC_0 : rowsC m ρ c 0 = aggF m c (k2 (P m c) (aggF m c) (hF m c) (hinF m c)) := by
  funext n k
  show xC0 m ρ c (ix2 n k)
    = Cert.Bridge.aggK (m ((c : Thread nD τ).loc main_arg0)) (featArr (k2 (P m c) (aggF m c) (hF m c) (hinF m c))) (ix2 n k)
  rw [s2_arr]
  exact w9_x0 m ρ c (ix2 n k)

/-- its second the second state, -/
theorem rowsC_1 : rowsC m ρ c 1 = k2 (P m c) (aggF m c) (hF m c) (hinF m c) :=
  funext fun n => funext fun k => (w9_x1 m ρ c (ix2 n k)).trans (s2_at m ρ c n k)

/-- its third the cell's second input. -/
theorem rowsC_2 : rowsC m ρ c 2 = hinF m c :=
  funext fun n => funext fun k => w9_x2 m ρ c (ix2 n k)

/-- The group's stacked parameters are those of operation 5. -/
theorem ofC : (arrsC m ρ c).Of opsC (P m c) :=
  ⟨w9_wt m ρ c, w9_b m ρ c, w9_g m ρ c, w9_be m ρ c, w9_w m ρ c⟩

/-- The group's result: operation 5 of the second state. -/
theorem mixC (n : Fin 50000) (d : Fin 128) :
    outG (arrsC m ρ c) (rowsC m ρ c) n (colOf (0 : Fin 1) d) = mixedK (P m c) (aggF m c) (hinF m c) 5 (k2 (P m c) (aggF m c) (hF m c) (hinF m c)) n d :=
  outG_eq_colOf (rowsC m ρ c) (ofC m ρ c) (aggF m c) (hinF m c) (k2 (P m c) (aggF m c) (hF m c) (hinF m c))
    (rowsC_0 m ρ c) (rowsC_1 m ρ c) (rowsC_2 m ρ c) n 0 d

/-- The addend of call 5: operation 3 of the node features plus operation 4 of the first state. -/
theorem addC_at (n : Fin 50000) (d : Fin 128) :
    (addC m ρ c (ix2 n d) : EReal) = mixedK (P m c) (aggF m c) (hinF m c) 3 (hF m c) n d + mixedK (P m c) (aggF m c) (hinF m c) 4 (k1 (P m c) (aggF m c) (hF m c) (hinF m c)) n d := by
  have h1 : 256 + d.val < 3 * 128 := by have := d.isLt; omega
  have h2 : 128 + d.val < 2 * 128 := by have := d.isLt; omega
  exact (w9_add m ρ c n d h1 h2).trans (congrArg₂ (· + ·) (a3_at m ρ c n d h1) (s2_hi m ρ c n d h2))

/-- The third state. -/
theorem s3_at (n : Fin 50000) (d : Fin 128) :
    (W12 m ρ c (Proc.devRef .tc main_v403) : FVec Ideal S50000x128 .f32) (ix2 n d) = k3 (P m c) (aggF m c) (hF m c) (hinF m c) n d := by
  have e : colOf (0 : Fin 1) d = (d : Fin (1 * 128)) := (col1_0 d d.isLt).symm
  have hm := mixC m ρ c n d
  rw [e] at hm
  rw [outC m ρ c n d, hm, show addC m ρ c (ix2 n d) = _ from addC_at m ρ c n d]
  rfl

end Cert.KernelIdeal.HandV

end
-- ==== Proof.KV.Result.lean ====
import proofs.«414290_j6631429505478_3_alg».proof.Proof.KV.StateC

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx
open Cert.Spec

variable (m : (ℓ : Loc nD τ sig) → Buf (Elt Ideal) ℓ) (ρ : Dev nD → PrngReg) (c : Dev nD)

/-! # The kernel program's result as the specification's three states -/
/-- **The kernel program's result.** What @main returns with, at (s, n, d), is the specification's state s + 1
    of the program's arguments. -/
theorem kernel_value (n : Fin 50000) (d : Fin 128) :
    (W13 m ρ c (Proc.devRef .tc main_v407) : FVec Ideal S3x50000x128 .f32) (ix3 (0 : Fin 3) n d) = k1 (P m c) (aggF m c) (hF m c) (hinF m c) n d
    ∧ (W13 m ρ c (Proc.devRef .tc main_v407) : FVec Ideal S3x50000x128 .f32) (ix3 (1 : Fin 3) n d) = k2 (P m c) (aggF m c) (hF m c) (hinF m c) n d
    ∧ (W13 m ρ c (Proc.devRef .tc main_v407) : FVec Ideal S3x50000x128 .f32) (ix3 (2 : Fin 3) n d) = k3 (P m c) (aggF m c) (hF m c) (hinF m c) n d :=
  ⟨(w13_0 m ρ c n d).trans (s1_at m ρ c n d), (w13_1 m ρ c n d).trans (s2_at m ρ c n d),
    (w13_2 m ρ c n d).trans (s3_at m ρ c n d)⟩

end Cert.KernelIdeal.HandV

end
-- ==== Proof.RV.Branch.lean ====
/- One branch of the reference's cell at the ideal values, as the pure term of its host
   operations over already-cut operands (the linear layer, the column mean, the column variance through
   the outlined function and its count test, the normalisation, scale, shift, rectification and the
   mixing weight), and that term read at an index: it is the specification's branch of the operands
   read at their indices. The aggregation feeding a branch is an operand here and is never opened. -/
import proofs.«414290_j6631429505478_3_alg».proof.Proof.Gen.ReferenceIdeal
import proofs.«414290_j6631429505478_3_alg».proof.Proof.Spec.Branch
import Idealize.ShloMosaic.Lib.IdealHost
import Idealize.ShloMosaic.Lib.ValueLayout
import Idealize.ShloMosaic.Lib.StackMember
import Idealize.ShloMosaic.Lib.Pipeline.Value

noncomputable section

namespace Cert.ReferenceIdeal.HandV

open Idealize.ShloMosaic Idealize.ShloMosaic.ValueIdx
open Cert.ReferenceIdeal Cert.ReferenceIdeal.Gen
open scoped BigOperators

/-- A vector over the 128 columns repeated on every one of the 50000 rows. -/
abbrev rows (v : FVec Ideal S128 .f32) : FVec Ideal S50000x128 .f32 :=
  broadcastInDim S50000x128 ![0, 1] bcast_S1x128_S50000x128_0_1 (broadcastInDim S1x128 ![1] bcast_S128_S1x128_1 v)

/-- The linear layer: the product of the rows of `x` with `Wt`, plus the bias on every row. -/
def linTerm (x : FVec Ideal S50000x128 .f32) (Wt : FVec Ideal S128x128 .f32) (bv : FVec Ideal S128 .f32) :
    FVec Ideal S50000x128 .f32 :=
  addf (Host.dotGeneral dot_S50000x128_S128x128_S50000x128_1_0_0_1_n_n none x Wt) (rows bv)

/-- The column mean: the sum over the rows from zero, divided by the spelled row count. -/
def meanTerm (z : FVec Ideal S50000x128 .f32) : FVec Ideal S128 .f32 :=
  Host.divf (Host.reduceAdd z (constant (F := Ideal) S_ .f32 0x00000000#32) reducesTo_S50000x128_S128_d0 h_S_)
    (broadcastInDim S128 ![] bcast_S_S128 (constant (F := Ideal) S_ .f32 0x47435000#32))

/-- The column variance as the outlined function spells it, at zero degrees of freedom removed. -/
def varTerm (z : FVec Ideal S50000x128 .f32) : FVec Ideal S128 .f32 :=
  select
    (broadcastInDim S128 ![] bcast_S_S128
      (cmpf .ogt (subf (constant (F := Ideal) S_ .f32 0x47435000#32) (sitofp (F := Ideal) .f32 (constantI S_ 32 0#32))) (constant (F := Ideal) S_ .f32 0x00000000#32)))
    (Host.divf
      (Host.reduceAdd
        (mulf
          (subf z (broadcastInDim S50000x128 ![0, 1] bcast_S1x128_S50000x128_0_1
            (Host.divf (broadcastInDim S1x128 ![1] bcast_S128_S1x128_1
                (Host.reduceAdd z (constant (F := Ideal) S_ .f32 0x00000000#32) reducesTo_S50000x128_S128_d0 h_S_))
              (broadcastInDim S1x128 ![] bcast_S_S1x128 (constant (F := Ideal) S_ .f32 0x47435000#32)))))
          (subf z (broadcastInDim S50000x128 ![0, 1] bcast_S1x128_S50000x128_0_1
            (Host.divf (broadcastInDim S1x128 ![1] bcast_S128_S1x128_1
                (Host.reduceAdd z (constant (F := Ideal) S_ .f32 0x00000000#32) reducesTo_S50000x128_S128_d0 h_S_))
              (broadcastInDim S1x128 ![] bcast_S_S1x128 (constant (F := Ideal) S_ .f32 0x47435000#32))))))
        (constant (F := Ideal) S_ .f32 0x00000000#32) reducesTo_S50000x128_S128_d0 h_S_)
      (broadcastInDim S128 ![] bcast_S_S128
        (subf (constant (F := Ideal) S_ .f32 0x47435000#32) (sitofp (F := Ideal) .f32 (constantI S_ 32 0#32)))))
    (broadcastInDim S128 ![] bcast_S_S128 (id (constant (F := Ideal) S_ .f32 0x7FC00000#32)))

/-- One branch of the cell: the weighted, rectified, batch-normalised linear layer. -/
def branchTerm (x : FVec Ideal S50000x128 .f32) (Wt : FVec Ideal S128x128 .f32) (bv gv bev : FVec Ideal S128 .f32)
    (wv : FVec Ideal S_ .f32) : FVec Ideal S50000x128 .f32 :=
  mulf (broadcastInDim S50000x128 ![] bcast_S_S50000x128 wv)
    (maximumf
      (addf
        (mulf
          (mulf (subf (linTerm x Wt bv) (rows (meanTerm (linTerm x Wt bv))))
            (rows (Host.rsqrt (addf (varTerm (linTerm x Wt bv))
              (broadcastInDim S128 ![] bcast_S_S128 (constant (F := Ideal) S_ .f32 0x3727C5AC#32))))))
          (rows gv))
        (rows bev))
      (broadcastInDim S50000x128 ![] bcast_S_S50000x128 (constant (F := Ideal) S_ .f32 0x00000000#32)))

/-! ## Each operation read at an index -/

/-- A column vector repeated on the rows reads, at row `n` and column `d`, the vector at `d`. -/
theorem rows_apply (v : FVec Ideal S128 .f32) (n : Fin 50000) (d : Fin 128) : rows v (ix2 n d) = v (ix1 d) := by
  have e1 := broadcastInDim_apply ![0, 1] bcast_S1x128_S50000x128_0_1
    (broadcastInDim S1x128 ![1] bcast_S128_S1x128_1 v) (ix2 n d) (ix2 (0 : Fin 1) d) (by
      intro a
      match a with
      | ⟨0, _⟩ => rfl
      | ⟨1, _⟩ => rfl)
  have e2 := broadcastInDim_apply ![1] bcast_S128_S1x128_1 v (ix2 (0 : Fin 1) d) (ix1 d) (by
      intro a
      match a with
      | ⟨0, _⟩ => rfl)
  exact e1.trans e2

/-- A scalar spread over the 128 columns reads the scalar. -/
theorem cols_apply {α : Type} (c : S_.Idx → α) (d : Fin 128) :
    broadcastInDim S128 ![] bcast_S_S128 c (ix1 d) = c ix0 :=
  broadcastInDim_scalar_apply bcast_S_S128 c (ix1 d)

/-- A scalar spread over the whole array reads the scalar. -/
theorem all_apply (c : FVec Ideal S_ .f32) (n : Fin 50000) (d : Fin 128) :
    broadcastInDim S50000x128 ![] bcast_S_S50000x128 c (ix2 n d) = c ix0 :=
  broadcastInDim_scalar_apply bcast_S_S50000x128 c (ix2 n d)

/-- The linear layer at row `n`, column `d`: the sum over the contracted coordinate, plus the bias. -/
theorem linTerm_apply (x : FVec Ideal S50000x128 .f32) (Wt : FVec Ideal S128x128 .f32) (bv : FVec Ideal S128 .f32)
    (n : Fin 50000) (d : Fin 128) :
    linTerm x Wt bv (ix2 n d) = (∑ k : Fin 128, x (ix2 n k) * Wt (ix2 k d)) + bv (ix1 d) := by
  unfold linTerm
  rw [addf_apply, rows_apply]
  exact congrArg (· + bv (ix1 d)) (StackMember.dotGeneral_plain_apply (m := 50000) (n := 128) (k := 128) none x Wt n d)

/-- The host's sum over the rows from the zero word: the plain sum of the column. -/
theorem colSum_apply (z : FVec Ideal S50000x128 .f32) (d : Fin 128) :
    Host.reduceAdd z (constant (F := Ideal) S_ .f32 0x00000000#32) reducesTo_S50000x128_S128_d0 h_S_ (ix1 d)
      = ∑ n : Fin 50000, z (ix2 n d) := by
  have hR : S50000x128.Reduces [0] S128 := by decide
  rw [hostReduceAdd_apply, Ideal.hostReduceAdd_single reducesTo_S50000x128_S128_d0 hR]
  show Ideal.ofBits .f32 0x00000000#32 + _ = _
  rw [Ideal.ofBits_zero_f32, zero_add]
  refine Finset.sum_congr rfl fun n _ => congrArg z (funext fun a => Fin.ext ?_)
  match a with
  | ⟨0, _⟩ => rfl
  | ⟨1, _⟩ => rfl

/-- The spelled row count is the real 50000. -/
theorem N50000_real : Ideal.ofBits .f32 0x47435000#32 = ((50000 : ℝ) : EReal) := by
  simp [Ideal.ofBits, Ideal.ieee, -EReal.coe_mul]; norm_num

/-- The spelled row count is positive. -/
theorem N50000_pos : (0 : EReal) < Cert.Spec.N50000 := by
  show (0 : EReal) < Ideal.ofBits .f32 0x47435000#32
  rw [N50000_real]
  exact EReal.coe_pos.mpr (by norm_num)

/-- The row count less the integer zero converted: the row count. -/
theorem count_apply :
    subf (constant (F := Ideal) S_ .f32 0x47435000#32) (sitofp (F := Ideal) .f32 (constantI S_ 32 0#32)) ix0
      = Cert.Spec.N50000 := by
  show Ideal.ofBits .f32 0x47435000#32 - (((0#32 : BitVec 32).toInt : ℝ) : EReal) = Ideal.ofBits .f32 0x47435000#32
  rw [show (0#32 : BitVec 32).toInt = 0 from rfl, Int.cast_zero, EReal.coe_zero, sub_zero]

/-- The column mean at `d`. -/
theorem meanTerm_apply (z : FVec Ideal S50000x128 .f32) (d : Fin 128) :
    meanTerm z (ix1 d) = Ideal.div (∑ n : Fin 50000, z (ix2 n d)) Cert.Spec.N50000 := by
  unfold meanTerm
  rw [hostDivf_apply, colSum_apply, cols_apply]
  rfl

/-- The mean as the outlined variance spells it (through a one-row array), repeated on the rows. -/
theorem innerMean_apply (z : FVec Ideal S50000x128 .f32) (n : Fin 50000) (d : Fin 128) :
    broadcastInDim S50000x128 ![0, 1] bcast_S1x128_S50000x128_0_1
        (Host.divf (broadcastInDim S1x128 ![1] bcast_S128_S1x128_1
            (Host.reduceAdd z (constant (F := Ideal) S_ .f32 0x00000000#32) reducesTo_S50000x128_S128_d0 h_S_))
          (broadcastInDim S1x128 ![] bcast_S_S1x128 (constant (F := Ideal) S_ .f32 0x47435000#32))) (ix2 n d)
      = Ideal.div (∑ n' : Fin 50000, z (ix2 n' d)) Cert.Spec.N50000 := by
  refine (broadcastInDim_apply ![0, 1] bcast_S1x128_S50000x128_0_1 _ (ix2 n d) (ix2 (0 : Fin 1) d) (by
      intro a
      match a with
      | ⟨0, _⟩ => rfl
      | ⟨1, _⟩ => rfl)).trans ?_
  rw [hostDivf_apply]
  have e2 := broadcastInDim_apply ![1] bcast_S128_S1x128_1
    (Host.reduceAdd z (constant (F := Ideal) S_ .f32 0x00000000#32) reducesTo_S50000x128_S128_d0 h_S_)
    (ix2 (0 : Fin 1) d) (ix1 d) (by
      intro a
      match a with
      | ⟨0, _⟩ => rfl)
  rw [e2, colSum_apply, broadcastInDim_scalar_apply bcast_S_S1x128]
  rfl

/-- The column variance at `d`: the count test holds, so the quotient is selected — the sum of the squared
    deviations from the mean over the row count. -/
theorem varTerm_apply (z : FVec Ideal S50000x128 .f32) (d : Fin 128) :
    varTerm z (ix1 d)
      = Ideal.div (∑ n : Fin 50000,
          (z (ix2 n d) - Ideal.div (∑ n' : Fin 50000, z (ix2 n' d)) Cert.Spec.N50000)
            * (z (ix2 n d) - Ideal.div (∑ n' : Fin 50000, z (ix2 n' d)) Cert.Spec.N50000)) Cert.Spec.N50000 := by
  unfold varTerm
  rw [select_apply, hostDivf_apply, cols_apply, cols_apply, cols_apply, cmpf_apply, count_apply]
  have htest : FloatOps.cmpf (F := Ideal) (φ := .f32) .ogt Cert.Spec.N50000
      (constant (F := Ideal) S_ .f32 0x00000000#32 ix0) = 1#1 := by
    show Ideal.cmp .ogt Cert.Spec.N50000 (Ideal.ofBits .f32 0x00000000#32) = 1#1
    rw [Ideal.ofBits_zero_f32]
    show BitVec.ofBool (decide ((0 : EReal) < Cert.Spec.N50000)) = 1#1
    rw [decide_eq_true N50000_pos]
    rfl
  rw [htest, select_one, colSum_apply]
  refine congrArg (Ideal.div · Cert.Spec.N50000) (Finset.sum_congr rfl fun n _ => ?_)
  rw [mulf_apply, subf_apply, innerMean_apply]

/-- One branch at row `n`, column `d`, is the specification's branch of the operands read at their indices. -/
theorem branchTerm_apply (x : FVec Ideal S50000x128 .f32) (Wt : FVec Ideal S128x128 .f32)
    (bv gv bev : FVec Ideal S128 .f32) (wv : FVec Ideal S_ .f32) (n : Fin 50000) (d : Fin 128) :
    branchTerm x Wt bv gv bev wv (ix2 n d)
      = Cert.Spec.refBranch (fun n k => x (ix2 n k)) (fun d k => Wt (ix2 k d)) (fun d => bv (ix1 d))
          (fun d => gv (ix1 d)) (fun d => bev (ix1 d)) (wv ix0) n d := by
  unfold branchTerm
  rw [mulf_apply, all_apply, maximumf_apply, all_apply, addf_apply, mulf_apply, mulf_apply, subf_apply,
    rows_apply, rows_apply, rows_apply, rows_apply, meanTerm_apply]
  show wv ix0 * max (((linTerm x Wt bv (ix2 n d) - _) * Ideal.rsqrt
      ((addf (varTerm (linTerm x Wt bv)) (broadcastInDim S128 ![] bcast_S_S128
        (constant (F := Ideal) S_ .f32 0x3727C5AC#32))) (ix1 d))) * gv (ix1 d) + bev (ix1 d))
      (Ideal.ofBits .f32 0x00000000#32) = _
  rw [addf_apply, varTerm_apply, cols_apply, Ideal.ofBits_zero_f32]
  simp only [linTerm_apply]
  rfl

end Cert.ReferenceIdeal.HandV
end
-- ==== Proof.RV.Slices.lean ====
/- The reference's per-branch operands at the ideal values: the 128×128 weight of one
   (node-pair, branch) cut out of the stacked weights and transposed, one length-128 row of a stacked
   vector parameter, one mixing weight; each read at an index as the stacked parameter at (m, cc, …). -/
import proofs.«414290_j6631429505478_3_alg».proof.Proof.Gen.ReferenceIdeal
import Idealize.ShloMosaic.Lib.IdealHost
import Idealize.ShloMosaic.Lib.ValueLayout
import Idealize.ShloMosaic.Lib.Pipeline.Value

noncomputable section

namespace Cert.ReferenceIdeal.HandV

open Idealize.ShloMosaic Idealize.ShloMosaic.ValueIdx
open Cert.ReferenceIdeal Cert.ReferenceIdeal.Gen

/-! ## The per-branch operands cut out of the stacked parameters -/

/-- The weight of node-pair `m`, branch `cc`, as the product takes it: one 128×128 block of the stack,
    its two unit axes dropped, transposed. `off` is the block's corner. -/
def sliceW (off : Fin 4 → ℕ) (h : S6x3x128x128.Slices off S1x1x128x128) (W4 : FVec Ideal S6x3x128x128 .f32) :
    FVec Ideal S128x128 .f32 :=
  transpose S128x128 [1, 0]
    (shapeCast S128x128 (extractStridedSlice S1x1x128x128 off W4 h) shapeCasts_S1x1x128x128_S128x128)
    transposes_S128x128_S128x128_1_0

/-- One length-128 row of a stacked vector parameter (bias, scale or shift), its two unit axes dropped. -/
def sliceV (off : Fin 3 → ℕ) (h : S6x3x128.Slices off S1x1x128) (b3 : FVec Ideal S6x3x128 .f32) :
    FVec Ideal S128 .f32 :=
  shapeCast S128 (extractStridedSlice S1x1x128 off b3 h) shapeCasts_S1x1x128_S128

/-- One entry of the mixing weights, as a scalar array. -/
def sliceS (off : Fin 2 → ℕ) (h : S6x3.Slices off S1x1) (w2 : FVec Ideal S6x3 .f32) : FVec Ideal S_ .f32 :=
  shapeCast S_ (extractStridedSlice S1x1 off w2 h) shapeCasts_S1x1_S_

/-- The cut weight at (k, d) is the stack at (m, cc, d, k): the transpose swaps the last two coordinates. -/
theorem sliceW_apply (m : Fin 6) (cc : Fin 3) (h : S6x3x128x128.Slices ![(m : ℕ), (cc : ℕ), 0, 0] S1x1x128x128)
    (W4 : FVec Ideal S6x3x128x128 .f32) (k d : Fin 128) :
    sliceW ![(m : ℕ), (cc : ℕ), 0, 0] h W4 (ix2 k d) = W4 (ix4 m cc d k) := by
  unfold sliceW
  refine (transpose_apply [1, 0] _ transposes_S128x128_S128x128_1_0 (ix2 k d) (ix2 d k) (by
    intro b
    match b with
    | ⟨0, _⟩ => rfl
    | ⟨1, _⟩ => rfl)).trans ?_
  refine (shapeCast_apply _ shapeCasts_S1x1x128x128_S128x128 (ix2 d k)
    (ix4 (0 : Fin 1) (0 : Fin 1) d k) (by
      rw [Shape.rowMajor_val_four, Shape.rowMajor_val_two]
      show ((0 * 1 + 0) * 128 + d.val) * 128 + k.val = d.val * 128 + k.val
      omega)).trans ?_
  exact extractStridedSlice_apply _ W4 h (ix4 (0 : Fin 1) (0 : Fin 1) d k) (ix4 m cc d k) (by
    intro a
    match a with
    | ⟨0, _⟩ => show m.val = m.val + 0; omega
    | ⟨1, _⟩ => show cc.val = cc.val + 0; omega
    | ⟨2, _⟩ => show d.val = 0 + d.val; omega
    | ⟨3, _⟩ => show k.val = 0 + k.val; omega)

/-- The cut vector at `d` is the stack at (m, cc, d). -/
theorem sliceV_apply (m : Fin 6) (cc : Fin 3) (h : S6x3x128.Slices ![(m : ℕ), (cc : ℕ), 0] S1x1x128)
    (b3 : FVec Ideal S6x3x128 .f32) (d : Fin 128) :
    sliceV ![(m : ℕ), (cc : ℕ), 0] h b3 (ix1 d) = b3 (ix3 m cc d) := by
  unfold sliceV
  refine (shapeCast_apply _ shapeCasts_S1x1x128_S128 (ix1 d) (ix3 (0 : Fin 1) (0 : Fin 1) d) (by
      rw [Shape.rowMajor_val_three, Shape.rowMajor_val_one]
      show (0 * 1 + 0) * 128 + d.val = d.val
      omega)).trans ?_
  exact extractStridedSlice_apply _ b3 h (ix3 (0 : Fin 1) (0 : Fin 1) d) (ix3 m cc d) (by
    intro a
    match a with
    | ⟨0, _⟩ => show m.val = m.val + 0; omega
    | ⟨1, _⟩ => show cc.val = cc.val + 0; omega
    | ⟨2, _⟩ => show d.val = 0 + d.val; omega)

/-- The cut scalar is the mixing weight at (m, cc). -/
theorem sliceS_apply (m : Fin 6) (cc : Fin 3) (h : S6x3.Slices ![(m : ℕ), (cc : ℕ)] S1x1)
    (w2 : FVec Ideal S6x3 .f32) :
    sliceS ![(m : ℕ), (cc : ℕ)] h w2 ix0 = w2 (ix2 m cc) := by
  unfold sliceS
  refine (shapeCast_apply _ shapeCasts_S1x1_S_ ix0 (ix2 (0 : Fin 1) (0 : Fin 1)) (by
      rw [Shape.rowMajor_val_two]
      rfl)).trans ?_
  exact extractStridedSlice_apply _ w2 h (ix2 (0 : Fin 1) (0 : Fin 1)) (ix2 m cc) (by
    intro a
    match a with
    | ⟨0, _⟩ => show m.val = m.val + 0; omega
    | ⟨1, _⟩ => show cc.val = cc.val + 0; omega)

end Cert.ReferenceIdeal.HandV
end
-- ==== Proof.RV.TopTerms.lean ====
import proofs.«414290_j6631429505478_3_alg».proof.Proof.RV.Branch
import proofs.«414290_j6631429505478_3_alg».proof.Proof.RV.Slices
import proofs.«414290_j6631429505478_3_alg».proof.Proof.RV.Inputs

noncomputable section

namespace Cert.ReferenceIdeal.HandV

open Idealize.ShloMosaic Idealize.ShloMosaic.ValueIdx
open Cert.ReferenceIdeal Cert.ReferenceIdeal.Gen
open scoped BigOperators

/-! # The three states as arrays, and the arrays read at an index

The program's three states written as whole arrays over its eight arguments, in the order the program adds them; then
each array read at row `n`, column `d` is the specification's state of the arguments read at their indices. -/

/-- The eight arguments, as arrays. -/
structure Args where
  e : (⟨S2x800000, .i32⟩ : BufTy).Contents (Elt Ideal)
  H : FVec Ideal S50000x128 .f32
  Hin : FVec Ideal S50000x128 .f32
  w2 : FVec Ideal S6x3 .f32
  W4 : FVec Ideal S6x3x128x128 .f32
  b3 : FVec Ideal S6x3x128 .f32
  g3 : FVec Ideal S6x3x128 .f32
  be3 : FVec Ideal S6x3x128 .f32

/-- The block of the stacked matrices at operation `m`, candidate `cc`, is inside the stack. -/
theorem slW (m : Fin 6) (cc : Fin 3) : S6x3x128x128.Slices ![(m : ℕ), (cc : ℕ), 0, 0] S1x1x128x128 :=
  ⟨rfl, fun a => by
    match a with
    | ⟨0, _⟩ => show m.val + 1 ≤ 6; omega
    | ⟨1, _⟩ => show cc.val + 1 ≤ 3; omega
    | ⟨2, _⟩ => show 0 + 128 ≤ 128; omega
    | ⟨3, _⟩ => show 0 + 128 ≤ 128; omega⟩

/-- The row of a stacked vector parameter at operation `m`, candidate `cc`, is inside the stack. -/
theorem slV (m : Fin 6) (cc : Fin 3) : S6x3x128.Slices ![(m : ℕ), (cc : ℕ), 0] S1x1x128 :=
  ⟨rfl, fun a => by
    match a with
    | ⟨0, _⟩ => show m.val + 1 ≤ 6; omega
    | ⟨1, _⟩ => show cc.val + 1 ≤ 3; omega
    | ⟨2, _⟩ => show 0 + 128 ≤ 128; omega⟩

/-- The entry of the mixing weights at operation `m`, candidate `cc`, is inside the array. -/
theorem slS (m : Fin 6) (cc : Fin 3) : S6x3.Slices ![(m : ℕ), (cc : ℕ)] S1x1 :=
  ⟨rfl, fun a => by
    match a with
    | ⟨0, _⟩ => show m.val + 1 ≤ 6; omega
    | ⟨1, _⟩ => show cc.val + 1 ≤ 3; omega⟩

/-- The zero array a sum starts from. -/
def Z : FVec Ideal S50000x128 .f32 :=
  broadcastInDim S50000x128 ![] bcast_S_S50000x128 (constant (F := Ideal) S_ .f32 0x00000000#32)

/-- Candidate `cc` of operation `m` on the array `x`. -/
def br (A : Args) (m : Fin 6) (cc : Fin 3) (x : FVec Ideal S50000x128 .f32) : FVec Ideal S50000x128 .f32 :=
  branchTerm x (sliceW ![(m : ℕ), (cc : ℕ), 0, 0] (slW m cc) A.W4) (sliceV ![(m : ℕ), (cc : ℕ), 0] (slV m cc) A.b3)
    (sliceV ![(m : ℕ), (cc : ℕ), 0] (slV m cc) A.g3) (sliceV ![(m : ℕ), (cc : ℕ), 0] (slV m cc) A.be3)
    (sliceS ![(m : ℕ), (cc : ℕ)] (slS m cc) A.w2)

/-- Operation `m` of the state `x`: from zero, the candidate on the aggregate, on the state, on the second input. -/
def mixA (A : Args) (m : Fin 6) (x : FVec Ideal S50000x128 .f32) : FVec Ideal S50000x128 .f32 :=
  addf (addf (addf Z (br A m 0 (Cert.Bridge.aggR A.e x))) (br A m 1 x)) (br A m 2 A.Hin)

/-- The first state. -/
def s1 (A : Args) : FVec Ideal S50000x128 .f32 := addf Z (mixA A 0 A.H)
/-- The second state's first summand. -/
def t1 (A : Args) : FVec Ideal S50000x128 .f32 := addf Z (mixA A 1 A.H)
/-- The second state. -/
def s2 (A : Args) : FVec Ideal S50000x128 .f32 := addf (t1 A) (mixA A 2 (s1 A))
/-- The third state's first summand. -/
def t3 (A : Args) : FVec Ideal S50000x128 .f32 := addf Z (mixA A 3 A.H)
/-- The third state's first two summands. -/
def t4 (A : Args) : FVec Ideal S50000x128 .f32 := addf (t3 A) (mixA A 4 (s1 A))
/-- The third state. -/
def s3 (A : Args) : FVec Ideal S50000x128 .f32 := addf (t4 A) (mixA A 5 (s2 A))

/-! ## Read at an index -/

/-- An array as a function of row and column. -/
def feat (x : FVec Ideal S50000x128 .f32) : Cert.Spec.Feat := fun n d => x (ix2 n d)

/-- The parameters as functions of plain indices. -/
def PA (A : Args) : Cert.Spec.Params where
  W := fun mm cc dd kk => A.W4 (ix4 mm cc dd kk)
  b := fun mm cc dd => A.b3 (ix3 mm cc dd)
  g := fun mm cc dd => A.g3 (ix3 mm cc dd)
  be := fun mm cc dd => A.be3 (ix3 mm cc dd)
  w := fun mm cc => A.w2 (ix2 mm cc)

/-- The aggregation as a function on functions of row and column. -/
def aggA (A : Args) (x : Cert.Spec.Feat) : Cert.Spec.Feat := fun n d =>
  Cert.Bridge.aggR A.e (featArr x) (ix2 n d)

/-- An array is the array of its readings. -/
theorem featArr_feat (x : FVec Ideal S50000x128 .f32) : featArr (feat x) = x :=
  funext fun idx => congrArg x (eq_ix2 idx).symm

/-- The aggregate of an array, read, is the aggregation of the array's readings. -/
theorem feat_agg (A : Args) (x : FVec Ideal S50000x128 .f32) : feat (Cert.Bridge.aggR A.e x) = aggA A (feat x) := by
  unfold aggA
  rw [featArr_feat]
  rfl

/-- The zero array reads zero. -/
theorem Z_apply (n : Fin 50000) (d : Fin 128) : Z (ix2 n d) = 0 := by
  unfold Z
  rw [all_apply, constant_apply, Ideal.ofBits_zero_f32]

/-- A candidate read at row `n`, column `d`. -/
theorem br_apply (A : Args) (m : Fin 6) (cc : Fin 3) (x : FVec Ideal S50000x128 .f32) (n : Fin 50000) (d : Fin 128) :
    br A m cc x (ix2 n d) = Cert.Spec.candR (PA A) m cc (feat x) n d := by
  unfold br Cert.Spec.candR
  rw [branchTerm_apply]
  simp only [sliceW_apply, sliceV_apply, sliceS_apply]
  rfl

/-- An operation read at row `n`, column `d`. -/
theorem mixA_apply (A : Args) (m : Fin 6) (x : FVec Ideal S50000x128 .f32) (n : Fin 50000) (d : Fin 128) :
    mixA A m x (ix2 n d) = Cert.Spec.mixedR (PA A) (aggA A) (feat A.Hin) m (feat x) n d := by
  unfold mixA Cert.Spec.mixedR
  rw [addf_apply, addf_apply, addf_apply, Z_apply, br_apply, br_apply, br_apply, feat_agg]

/-- The first state read at row `n`, column `d`. -/
theorem s1_apply (A : Args) (n : Fin 50000) (d : Fin 128) :
    s1 A (ix2 n d) = Cert.Spec.r1 (PA A) (aggA A) (feat A.H) (feat A.Hin) n d := by
  unfold s1 Cert.Spec.r1
  rw [addf_apply, Z_apply, mixA_apply]

/-- The first state's readings are the specification's first state. -/
theorem feat_s1 (A : Args) : feat (s1 A) = Cert.Spec.r1 (PA A) (aggA A) (feat A.H) (feat A.Hin) :=
  funext fun n => funext fun d => s1_apply A n d

/-- The second state read at row `n`, column `d`. -/
theorem s2_apply (A : Args) (n : Fin 50000) (d : Fin 128) :
    s2 A (ix2 n d) = Cert.Spec.r2 (PA A) (aggA A) (feat A.H) (feat A.Hin) n d := by
  unfold s2 t1 Cert.Spec.r2
  rw [addf_apply, addf_apply, Z_apply, mixA_apply, mixA_apply, feat_s1]

/-- The second state's readings are the specification's second state. -/
theorem feat_s2 (A : Args) : feat (s2 A) = Cert.Spec.r2 (PA A) (aggA A) (feat A.H) (feat A.Hin) :=
  funext fun n => funext fun d => s2_apply A n d

/-- The third state read at row `n`, column `d`. -/
theorem s3_apply (A : Args) (n : Fin 50000) (d : Fin 128) :
    s3 A (ix2 n d) = Cert.Spec.r3 (PA A) (aggA A) (feat A.H) (feat A.Hin) n d := by
  unfold s3 t4 t3 Cert.Spec.r3
  rw [addf_apply, addf_apply, addf_apply, Z_apply, mixA_apply, mixA_apply, mixA_apply, feat_s1, feat_s2]

/-! ## The stack of the three states -/

/-- An array given a leading axis of extent one. -/
abbrev lift (a : FVec Ideal S50000x128 .f32) : FVec Ideal S1x50000x128 .f32 :=
  broadcastInDim S1x50000x128 ![1, 2] bcast_S50000x128_S1x50000x128_1_2 a

/-- The three arrays stacked along a new leading axis. -/
def stackT (a b c : FVec Ideal S50000x128 .f32) : FVec Ideal S3x50000x128 .f32 :=
  concatenate S3x50000x128 0
    [⟨S1x50000x128, lift a⟩, ⟨S1x50000x128, lift b⟩, ⟨S1x50000x128, lift c⟩]
    concatenates_S1x50000x128_S1x50000x128_S1x50000x128_S3x50000x128_d0

/-- The array under its new leading axis reads the array. -/
theorem lift_apply (a : FVec Ideal S50000x128 .f32) (s : Fin 1) (n : Fin 50000) (d : Fin 128) :
    lift a (ix3 s n d) = a (ix2 n d) :=
  broadcastInDim_apply ![1, 2] bcast_S50000x128_S1x50000x128_1_2 a (ix3 s n d) (ix2 n d) (by
    intro k
    match k with
    | ⟨0, _⟩ => rfl
    | ⟨1, _⟩ => rfl)

/-- The stack at leading coordinate 0 is the first array. -/
theorem stackT_apply0 (a b c : FVec Ideal S50000x128 .f32) (n : Fin 50000) (d : Fin 128) :
    stackT a b c (ix3 0 n d) = a (ix2 n d) := by
  unfold stackT
  exact (concatenate_apply_piece (t := S3x50000x128) 0
    [⟨S1x50000x128, lift a⟩, ⟨S1x50000x128, lift b⟩, ⟨S1x50000x128, lift c⟩]
    concatenates_S1x50000x128_S1x50000x128_S1x50000x128_S3x50000x128_d0 (ix3 0 n d) 0 (by simp) S1x50000x128 (lift a)
    rfl rfl 0 rfl (ix3 0 n d) (by
      intro k hk
      match k with
      | ⟨0, _⟩ => exact absurd rfl hk
      | ⟨1, _⟩ => rfl
      | ⟨2, _⟩ => rfl) rfl).trans (lift_apply a 0 n d)

/-- The stack at leading coordinate 1 is the second array. -/
theorem stackT_apply1 (a b c : FVec Ideal S50000x128 .f32) (n : Fin 50000) (d : Fin 128) :
    stackT a b c (ix3 1 n d) = b (ix2 n d) := by
  unfold stackT
  exact (concatenate_apply_piece (t := S3x50000x128) 0
    [⟨S1x50000x128, lift a⟩, ⟨S1x50000x128, lift b⟩, ⟨S1x50000x128, lift c⟩]
    concatenates_S1x50000x128_S1x50000x128_S1x50000x128_S3x50000x128_d0 (ix3 1 n d) 1 (by simp) S1x50000x128 (lift b)
    rfl rfl 1 rfl (ix3 0 n d) (by
      intro k hk
      match k with
      | ⟨0, _⟩ => exact absurd rfl hk
      | ⟨1, _⟩ => rfl
      | ⟨2, _⟩ => rfl) rfl).trans (lift_apply b 0 n d)

/-- The stack at leading coordinate 2 is the third array. -/
theorem stackT_apply2 (a b c : FVec Ideal S50000x128 .f32) (n : Fin 50000) (d : Fin 128) :
    stackT a b c (ix3 2 n d) = c (ix2 n d) := by
  unfold stackT
  exact (concatenate_apply_piece (t := S3x50000x128) 0
    [⟨S1x50000x128, lift a⟩, ⟨S1x50000x128, lift b⟩, ⟨S1x50000x128, lift c⟩]
    concatenates_S1x50000x128_S1x50000x128_S1x50000x128_S3x50000x128_d0 (ix3 2 n d) 2 (by simp) S1x50000x128 (lift c)
    rfl rfl 2 rfl (ix3 0 n d) (by
      intro k hk
      match k with
      | ⟨0, _⟩ => exact absurd rfl hk
      | ⟨1, _⟩ => rfl
      | ⟨2, _⟩ => rfl) rfl).trans (lift_apply c 0 n d)

end Cert.ReferenceIdeal.HandV
end
-- ==== Proof.RV.TopSeg0.lean ====
import proofs.«414290_j6631429505478_3_alg».proof.Proof.Gen.ReferenceIdeal
import Idealize.ShloMosaic.Lib.StableHlo.Run

set_option Elab.async false

noncomputable section

namespace Cert.ReferenceIdeal.HandV

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
set_option maxRecDepth 8192 in
/-- Operations 0 to 31 of @main, in order (32 of them): from the one writing main_v0 to the one writing main_v24. -/
abbrev sg0 : List (HloOp τ sig (Elt F)) :=
  [ StableHlo.unary main_arg0 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg0 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_cst (constant S_ .f32 0x3F800000#32),
    StableHlo.unary main_cst main_v4 (broadcastInDim S800000 ![] bcast_S_S800000 : (⟨S_, .f32⟩ : BufTy).Contents (Elt F) → (⟨S800000, .f32⟩ : BufTy).Contents (Elt F)),
    StableHlo.nullary main_cst_0 (constant S_ .f32 0x00000000#32),
    StableHlo.unary main_cst_0 main_v5 (broadcastInDim S50000 ![] bcast_S_S50000 : (⟨S_, .f32⟩ : BufTy).Contents (Elt F) → (⟨S50000, .f32⟩ : BufTy).Contents (Elt F)),
    StableHlo.unary main_v3 main_v6 (broadcastInDim S800000x1 ![0] bcast_S800000_S800000x1_0 : (⟨S800000, .i32⟩ : BufTy).Contents (Elt F) → (⟨S800000x1, .i32⟩ : BufTy).Contents (Elt F)),
    StableHlo.ternary main_v5 main_v6 main_v4 main_v7 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_1 (constant S_ .f32 0x3F800000#32),
    StableHlo.unary main_cst_1 main_v8 (broadcastInDim S50000 ![] bcast_S_S50000 : (⟨S_, .f32⟩ : BufTy).Contents (Elt F) → (⟨S50000, .f32⟩ : BufTy).Contents (Elt F)),
    StableHlo.binary main_v7 main_v8 main_v9 (maximumf : (⟨S50000, .f32⟩ : BufTy).Contents (Elt F) → (⟨S50000, .f32⟩ : BufTy).Contents (Elt F) → (⟨S50000, .f32⟩ : BufTy).Contents (Elt F)),
    StableHlo.nullary main_cst_2 (constant S_ .f32 0x3F800000#32),
    StableHlo.unary main_cst_2 main_v10 (broadcastInDim S50000 ![] bcast_S_S50000 : (⟨S_, .f32⟩ : BufTy).Contents (Elt F) → (⟨S50000, .f32⟩ : BufTy).Contents (Elt F)),
    StableHlo.binary main_v10 main_v9 main_v11 (Host.divf : (⟨S50000, .f32⟩ : BufTy).Contents (Elt F) → (⟨S50000, .f32⟩ : BufTy).Contents (Elt F) → (⟨S50000, .f32⟩ : BufTy).Contents (Elt F)),
    StableHlo.unary main_v11 main_v12 (broadcastInDim S50000x1 ![0] bcast_S50000_S50000x1_0 : (⟨S50000, .f32⟩ : BufTy).Contents (Elt F) → (⟨S50000x1, .f32⟩ : BufTy).Contents (Elt F)),
    StableHlo.nullary main_c (constantI S_ 32 0#32),
    StableHlo.unary main_c main_v13 (broadcastInDim S800000 ![] bcast_S_S800000 : (⟨S_, .i32⟩ : BufTy).Contents (Elt F) → (⟨S800000, .i32⟩ : BufTy).Contents (Elt F)),
    StableHlo.binary main_v1 main_v13 main_v14 (cmpi .slt : (⟨S800000, .i32⟩ : BufTy).Contents (Elt F) → (⟨S800000, .i32⟩ : BufTy).Contents (Elt F) → (⟨S800000, .i1⟩ : BufTy).Contents (Elt F)),
    StableHlo.nullary main_c_3 (constantI S_ 32 50000#32),
    StableHlo.unary main_c_3 main_v15 (broadcastInDim S800000 ![] bcast_S_S800000 : (⟨S_, .i32⟩ : BufTy).Contents (Elt F) → (⟨S800000, .i32⟩ : BufTy).Contents (Elt F)),
    StableHlo.binary main_v1 main_v15 main_v16 (addi : (⟨S800000, .i32⟩ : BufTy).Contents (Elt F) → (⟨S800000, .i32⟩ : BufTy).Contents (Elt F) → (⟨S800000, .i32⟩ : BufTy).Contents (Elt F)),
    StableHlo.ternary main_v14 main_v16 main_v1 main_v17 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v17 main_v18 (broadcastInDim S800000x1 ![0] bcast_S800000_S800000x1_0 : (⟨S800000, .i32⟩ : BufTy).Contents (Elt F) → (⟨S800000x1, .i32⟩ : BufTy).Contents (Elt F)),
    StableHlo.binary main_arg1 main_v18 main_v19 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_4 (constant S_ .f32 0x00000000#32),
    StableHlo.unary main_cst_4 main_v20 (broadcastInDim S50000x128 ![] bcast_S_S50000x128 : (⟨S_, .f32⟩ : BufTy).Contents (Elt F) → (⟨S50000x128, .f32⟩ : BufTy).Contents (Elt F)),
    StableHlo.unary main_v3 main_v21 (broadcastInDim S800000x1 ![0] bcast_S800000_S800000x1_0 : (⟨S800000, .i32⟩ : BufTy).Contents (Elt F) → (⟨S800000x1, .i32⟩ : BufTy).Contents (Elt F)),
    StableHlo.ternary main_v20 main_v21 main_v19 main_v22 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v12 main_v23 (broadcastInDim S50000x128 ![0, 1] bcast_S50000x1_S50000x128_0_1 : (⟨S50000x1, .f32⟩ : BufTy).Contents (Elt F) → (⟨S50000x128, .f32⟩ : BufTy).Contents (Elt F)),
    StableHlo.binary main_v22 main_v23 main_v24 (mulf : (⟨S50000x128, .f32⟩ : BufTy).Contents (Elt F) → (⟨S50000x128, .f32⟩ : BufTy).Contents (Elt F) → (⟨S50000x128, .f32⟩ : BufTy).Contents (Elt F)) ]

/-- The references these operations write, in order. -/
abbrev sg0_W : List (Ref sig .tc) :=
  [main_v0, main_v1, main_v2, main_v3, main_cst, main_v4, main_cst_0, main_v5, main_v6, main_v7, main_cst_1, main_v8, main_v9, main_cst_2, main_v10, main_v11, main_v12, main_c, main_v13, main_v14, main_c_3, main_v15, main_v16, main_v17, main_v18, main_v19, main_cst_4, main_v20, main_v21, main_v22, main_v23, main_v24]

set_option maxHeartbeats 40000000 in
set_option maxRecDepth 8192 in
/-- Each operation writes its own result reference, the one listed at its place. -/
theorem sg0_writes : (sg0 : List (HloOp τ sig (Elt F))).Forall fun op => op.writes ⊆ (sg0_W.map (Proc.devRef (τ := τ) .tc)).toFinset :=
  ⟨(Finset.singleton_subset_iff (a := Proc.devRef (τ := τ) .tc main_v0)).mpr (List.mem_toFinset.mpr (List.mem_map_of_mem (by decide))),
   (Finset.singleton_subset_iff (a := Proc.devRef (τ := τ) .tc main_v1)).mpr (List.mem_toFinset.mpr (List.mem_map_of_mem (by decide))),
   (Finset.singleton_subset_iff (a := Proc.devRef (τ := τ) .tc main_v2)).mpr (List.mem_toFinset.mpr (List.mem_map_of_mem (by decide))),
   (Finset.singleton_subset_iff (a := Proc.devRef (τ := τ) .tc main_v3)).mpr (List.mem_toFinset.mpr (List.mem_map_of_mem (by decide))),
   (Finset.singleton_subset_iff (a := Proc.devRef (τ := τ) .tc main_cst)).mpr (List.mem_toFinset.mpr (List.mem_map_of_mem (by decide))),
   (Finset.singleton_subset_iff (a := Proc.devRef (τ := τ) .tc main_v4)).mpr (List.mem_toFinset.mpr (List.mem_map_of_mem (by decide))),
   (Finset.singleton_subset_iff (a := Proc.devRef (τ := τ) .tc main_cst_0)).mpr (List.mem_toFinset.mpr (List.mem_map_of_mem (by decide))),
   (Finset.singleton_subset_iff (a := Proc.devRef (τ := τ) .tc main_v5)).mpr (List.mem_toFinset.mpr (List.mem_map_of_mem (by decide))),
   (Finset.singleton_subset_iff (a := Proc.devRef (τ := τ) .tc main_v6)).mpr (List.mem_toFinset.mpr (List.mem_map_of_mem (by decide))),
   (Finset.singleton_subset_iff (a := Proc.devRef (τ := τ) .tc main_v7)).mpr (List.mem_toFinset.mpr (List.mem_map_of_mem (by decide))),
   (Finset.singleton_subset_iff (a := Proc.devRef (τ := τ) .tc main_cst_1)).mpr (List.mem_toFinset.mpr (List.mem_map_of_mem (by decide))),
   (Finset.singleton_subset_iff (a := Proc.devRef (τ := τ) .tc main_v8)).mpr (List.mem_toFinset.mpr (List.mem_map_of_mem (by decide))),
   (Finset.singleton_subset_iff (a := Proc.devRef (τ := τ) .tc main_v9)).mpr (List.mem_toFinset.mpr (List.mem_map_of_mem (by decide))),
   (Finset.singleton_subset_iff (a := Proc.devRef (τ := τ) .tc main_cst_2)).mpr (List.mem_toFinset.mpr (List.mem_map_of_mem (by decide))),
   (Finset.singleton_subset_iff (a := Proc.devRef (τ := τ) .tc main_v10)).mpr (List.mem_toFinset.mpr (List.mem_map_of_mem (by decide))),
   (Finset.singleton_subset_iff (a := Proc.devRef (τ := τ) .tc main_v11)).mpr (List.mem_toFinset.mpr (List.mem_map_of_mem (by decide))),
   (Finset.singleton_subset_iff (a := Proc.devRef (τ := τ) .tc main_v12)).mpr (List.mem_toFinset.mpr (List.mem_map_of_mem (by decide))),
   (Finset.singleton_subset_iff (a := Proc.devRef (τ := τ) .tc main_c)).mpr (List.mem_toFinset.mpr (List.mem_map_of_mem (by decide))),
   (Finset.singleton_subset_iff (a := Proc.devRef (τ := τ) .tc main_v13)).mpr (List.mem_toFinset.mpr (List.mem_map_of_mem (by decide))),
   (Finset.singleton_subset_iff (a := Proc.devRef (τ := τ) .tc main_v14)).mpr (List.mem_toFinset.mpr (List.mem_map_of_mem (by decide))),
   (Finset.singleton_subset_iff (a := Proc.devRef (τ := τ) .tc main_c_3)).mpr (List.mem_toFinset.mpr (List.mem_map_of_mem (by decide))),
   (Finset.singleton_subset_iff (a := Proc.devRef (τ := τ) .tc main_v15)).mpr (List.mem_toFinset.mpr (List.mem_map_of_mem (by decide))),
   (Finset.singleton_subset_iff (a := Proc.devRef (τ := τ) .tc main_v16)).mpr (List.mem_toFinset.mpr (List.mem_map_of_mem (by decide))),
   (Finset.singleton_subset_iff (a := Proc.devRef (τ := τ) .tc main_v17)).mpr (List.mem_toFinset.mpr (List.mem_map_of_mem (by decide))),
   (Finset.singleton_subset_iff (a := Proc.devRef (τ := τ) .tc main_v18)).mpr (List.mem_toFinset.mpr (List.mem_map_of_mem (by decide))),
   (Finset.singleton_subset_iff (a := Proc.devRef (τ := τ) .tc main_v19)).mpr (List.mem_toFinset.mpr (List.mem_map_of_mem (by decide))),
   (Finset.singleton_subset_iff (a := Proc.devRef (τ := τ) .tc main_cst_4)).mpr (List.mem_toFinset.mpr (List.mem_map_of_mem (by decide))),
   (Finset.singleton_subset_iff (a := Proc.devRef (τ := τ) .tc main_v20)).mpr (List.mem_toFinset.mpr (List.mem_map_of_mem (by decide))),
   (Finset.singleton_subset_iff (a := Proc.devRef (τ := τ) .tc main_v21)).mpr (List.mem_toFinset.mpr (List.mem_map_of_mem (by decide))),
   (Finset.singleton_subset_iff (a := Proc.devRef (τ := τ) .tc main_v22)).mpr (List.mem_toFinset.mpr (List.mem_map_of_mem (by decide))),
   (Finset.singleton_subset_iff (a := Proc.devRef (τ := τ) .tc main_v23)).mpr (List.mem_toFinset.mpr (List.mem_map_of_mem (by decide))),
   (Finset.singleton_subset_iff (a := Proc.devRef (τ := τ) .tc main_v24)).mpr (List.mem_toFinset.mpr (List.mem_map_of_mem (by decide)))⟩

/-- A reference these operations do not write keeps its contents through them. -/
theorem sg0_keep (V : Valuation τ sig (Elt F)) (r : Ref sig .tc) (h : r ∉ sg0_W) :
    after sg0 V (Proc.devRef .tc r) = V (Proc.devRef .tc r) :=
  after_of_writes_sub sg0 V sg0_writes h

end Cert.ReferenceIdeal.HandV

end
-- ==== Proof.RV.TopSeg1.lean ====
import proofs.«414290_j6631429505478_3_alg».proof.Proof.Gen.ReferenceIdeal
import Idealize.ShloMosaic.Lib.StableHlo.Run

set_option Elab.async false

noncomputable section

namespace Cert.ReferenceIdeal.HandV

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
set_option maxRecDepth 8192 in
/-- Operations 32 to 98 of @main, in order (67 of them): from the one writing main_cst_5 to the one writing main_v63. -/
abbrev sg1 : List (HloOp τ sig (Elt F)) :=
  [ StableHlo.nullary main_cst_5 (constant S_ .f32 0x00000000#32),
    StableHlo.unary main_cst_5 main_v25 (broadcastInDim S50000x128 ![] bcast_S_S50000x128 : (⟨S_, .f32⟩ : BufTy).Contents (Elt F) → (⟨S50000x128, .f32⟩ : BufTy).Contents (Elt F)),
    StableHlo.unary main_arg4 main_v26 ((extractStridedSlice S1x1x128x128 ![0, 0, 0, 0] · slices_S6x3x128x128_S1x1x128x128_0_0_0_0) : (⟨S6x3x128x128, .f32⟩ : BufTy).Contents (Elt F) → (⟨S1x1x128x128, .f32⟩ : BufTy).Contents (Elt F)),
    StableHlo.reshape main_v26 main_v27 rfl shapeCasts_S1x1x128x128_S128x128,
    StableHlo.unary main_v27 main_v28 ((transpose S128x128 [1, 0] · transposes_S128x128_S128x128_1_0) : (⟨S128x128, .f32⟩ : BufTy).Contents (Elt F) → (⟨S128x128, .f32⟩ : BufTy).Contents (Elt F)),
    StableHlo.binary main_v24 main_v28 main_v29 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg5 main_v30 ((extractStridedSlice S1x1x128 ![0, 0, 0] · slices_S6x3x128_S1x1x128_0_0_0) : (⟨S6x3x128, .f32⟩ : BufTy).Contents (Elt F) → (⟨S1x1x128, .f32⟩ : BufTy).Contents (Elt F)),
    StableHlo.reshape main_v30 main_v31 rfl shapeCasts_S1x1x128_S128,
    StableHlo.unary main_v31 main_v32 (broadcastInDim S1x128 ![1] bcast_S128_S1x128_1 : (⟨S128, .f32⟩ : BufTy).Contents (Elt F) → (⟨S1x128, .f32⟩ : BufTy).Contents (Elt F)),
    StableHlo.unary main_v32 main_v33 (broadcastInDim S50000x128 ![0, 1] bcast_S1x128_S50000x128_0_1 : (⟨S1x128, .f32⟩ : BufTy).Contents (Elt F) → (⟨S50000x128, .f32⟩ : BufTy).Contents (Elt F)),
    StableHlo.binary main_v29 main_v33 main_v34 (addf : (⟨S50000x128, .f32⟩ : BufTy).Contents (Elt F) → (⟨S50000x128, .f32⟩ : BufTy).Contents (Elt F) → (⟨S50000x128, .f32⟩ : BufTy).Contents (Elt F)),
    StableHlo.unary main_arg6 main_v35 ((extractStridedSlice S1x1x128 ![0, 0, 0] · slices_S6x3x128_S1x1x128_0_0_0) : (⟨S6x3x128, .f32⟩ : BufTy).Contents (Elt F) → (⟨S1x1x128, .f32⟩ : BufTy).Contents (Elt F)),
    StableHlo.reshape main_v35 main_v36 rfl shapeCasts_S1x1x128_S128,
    StableHlo.unary main_arg7 main_v37 ((extractStridedSlice S1x1x128 ![0, 0, 0] · slices_S6x3x128_S1x1x128_0_0_0) : (⟨S6x3x128, .f32⟩ : BufTy).Contents (Elt F) → (⟨S1x1x128, .f32⟩ : BufTy).Contents (Elt F)),
    StableHlo.reshape main_v37 main_v38 rfl shapeCasts_S1x1x128_S128,
    StableHlo.nullary main_cst_6 (constant S_ .f32 0x00000000#32),
    StableHlo.binary main_v34 main_cst_6 main_v39 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_7 (constant S_ .f32 0x47435000#32),
    StableHlo.unary main_cst_7 main_v40 (broadcastInDim S128 ![] bcast_S_S128 : (⟨S_, .f32⟩ : BufTy).Contents (Elt F) → (⟨S128, .f32⟩ : BufTy).Contents (Elt F)),
    StableHlo.binary main_v39 main_v40 main_v41 (Host.divf : (⟨S128, .f32⟩ : BufTy).Contents (Elt F) → (⟨S128, .f32⟩ : BufTy).Contents (Elt F) → (⟨S128, .f32⟩ : BufTy).Contents (Elt F)),
    StableHlo.nullary main_c_8 (constantI S_ 32 0#32),
    StableHlo.TRef.nullary main_call0.cst (constant S_ .f32 0x00000000#32),
    StableHlo.TRef.binary (.of main_v34 : StableHlo.TRef sig ⟨S50000x128, .f32⟩) main_call0.cst main_call0.v0 (fun x v => Host.reduceAdd x v reducesTo_S50000x128_S128_d0 h_S_),
    StableHlo.TRef.unary main_call0.v0 main_call0.v1 (broadcastInDim S1x128 ![1] bcast_S128_S1x128_1),
    StableHlo.TRef.nullary main_call0.cst_0 (constant S_ .f32 0x47435000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S50000x128 ![0, 1] bcast_S1x128_S50000x128_0_1),
    StableHlo.TRef.binary (.of main_v34 : StableHlo.TRef sig ⟨S50000x128, .f32⟩) main_call0.v4 main_call0.v5 subf,
    StableHlo.TRef.binary main_call0.v5 main_call0.v5 main_call0.v6 mulf,
    StableHlo.TRef.unary (.of main_c_8 : StableHlo.TRef sig ⟨S_, .i32⟩) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v41 main_v43 (broadcastInDim S1x128 ![1] bcast_S128_S1x128_1 : (⟨S128, .f32⟩ : BufTy).Contents (Elt F) → (⟨S1x128, .f32⟩ : BufTy).Contents (Elt F)),
    StableHlo.unary main_v43 main_v44 (broadcastInDim S50000x128 ![0, 1] bcast_S1x128_S50000x128_0_1 : (⟨S1x128, .f32⟩ : BufTy).Contents (Elt F) → (⟨S50000x128, .f32⟩ : BufTy).Contents (Elt F)),
    StableHlo.binary main_v34 main_v44 main_v45 (subf : (⟨S50000x128, .f32⟩ : BufTy).Contents (Elt F) → (⟨S50000x128, .f32⟩ : BufTy).Contents (Elt F) → (⟨S50000x128, .f32⟩ : BufTy).Contents (Elt F)),
    StableHlo.nullary main_cst_9 (constant S_ .f32 0x3727C5AC#32),
    StableHlo.unary main_cst_9 main_v46 (broadcastInDim S128 ![] bcast_S_S128 : (⟨S_, .f32⟩ : BufTy).Contents (Elt F) → (⟨S128, .f32⟩ : BufTy).Contents (Elt F)),
    StableHlo.binary main_v42 main_v46 main_v47 (addf : (⟨S128, .f32⟩ : BufTy).Contents (Elt F) → (⟨S128, .f32⟩ : BufTy).Contents (Elt F) → (⟨S128, .f32⟩ : BufTy).Contents (Elt F)),
    StableHlo.unary main_v47 main_v48 (Host.rsqrt : (⟨S128, .f32⟩ : BufTy).Contents (Elt F) → (⟨S128, .f32⟩ : BufTy).Contents (Elt F)),
    StableHlo.unary main_v48 main_v49 (broadcastInDim S1x128 ![1] bcast_S128_S1x128_1 : (⟨S128, .f32⟩ : BufTy).Contents (Elt F) → (⟨S1x128, .f32⟩ : BufTy).Contents (Elt F)),
    StableHlo.unary main_v49 main_v50 (broadcastInDim S50000x128 ![0, 1] bcast_S1x128_S50000x128_0_1 : (⟨S1x128, .f32⟩ : BufTy).Contents (Elt F) → (⟨S50000x128, .f32⟩ : BufTy).Contents (Elt F)),
    StableHlo.binary main_v45 main_v50 main_v51 (mulf : (⟨S50000x128, .f32⟩ : BufTy).Contents (Elt F) → (⟨S50000x128, .f32⟩ : BufTy).Contents (Elt F) → (⟨S50000x128, .f32⟩ : BufTy).Contents (Elt F)),
    StableHlo.unary main_v36 main_v52 (broadcastInDim S1x128 ![1] bcast_S128_S1x128_1 : (⟨S128, .f32⟩ : BufTy).Contents (Elt F) → (⟨S1x128, .f32⟩ : BufTy).Contents (Elt F)),
    StableHlo.unary main_v52 main_v53 (broadcastInDim S50000x128 ![0, 1] bcast_S1x128_S50000x128_0_1 : (⟨S1x128, .f32⟩ : BufTy).Contents (Elt F) → (⟨S50000x128, .f32⟩ : BufTy).Contents (Elt F)),
    StableHlo.binary main_v51 main_v53 main_v54 (mulf : (⟨S50000x128, .f32⟩ : BufTy).Contents (Elt F) → (⟨S50000x128, .f32⟩ : BufTy).Contents (Elt F) → (⟨S50000x128, .f32⟩ : BufTy).Contents (Elt F)),
    StableHlo.unary main_v38 main_v55 (broadcastInDim S1x128 ![1] bcast_S128_S1x128_1 : (⟨S128, .f32⟩ : BufTy).Contents (Elt F) → (⟨S1x128, .f32⟩ : BufTy).Contents (Elt F)),
    StableHlo.unary main_v55 main_v56 (broadcastInDim S50000x128 ![0, 1] bcast_S1x128_S50000x128_0_1 : (⟨S1x128, .f32⟩ : BufTy).Contents (Elt F) → (⟨S50000x128, .f32⟩ : BufTy).Contents (Elt F)),
    StableHlo.binary main_v54 main_v56 main_v57 (addf : (⟨S50000x128, .f32⟩ : BufTy).Contents (Elt F) → (⟨S50000x128, .f32⟩ : BufTy).Contents (Elt F) → (⟨S50000x128, .f32⟩ : BufTy).Contents (Elt F)),
    StableHlo.TRef.nullary main_call1.cst (constant S_ .f32 0x00000000#32),
    StableHlo.TRef.unary main_call1.cst main_call1.v0 (broadcastInDim S50000x128 ![] bcast_S_S50000x128),
    StableHlo.TRef.binary (.of main_v57 : StableHlo.TRef sig ⟨S50000x128, .f32⟩) main_call1.v0 main_call1.v1 maximumf,
    StableHlo.unary main_arg3 main_v59 ((extractStridedSlice S1x1 ![0, 0] · slices_S6x3_S1x1_0_0) : (⟨S6x3, .f32⟩ : BufTy).Contents (Elt F) → (⟨S1x1, .f32⟩ : BufTy).Contents (Elt F)),
    StableHlo.reshape main_v59 main_v60 rfl shapeCasts_S1x1_S_,
    StableHlo.unary main_v60 main_v61 (broadcastInDim S50000x128 ![] bcast_S_S50000x128 : (⟨S_, .f32⟩ : BufTy).Contents (Elt F) → (⟨S50000x128, .f32⟩ : BufTy).Contents (Elt F)),
    StableHlo.binary main_v61 main_v58 main_v62 (mulf : (⟨S50000x128, .f32⟩ : BufTy).Contents (Elt F) → (⟨S50000x128, .f32⟩ : BufTy).Contents (Elt F) → (⟨S50000x128, .f32⟩ : BufTy).Contents (Elt F)),
    StableHlo.binary main_v25 main_v62 main_v63 (addf : (⟨S50000x128, .f32⟩ : BufTy).Contents (Elt F) → (⟨S50000x128, .f32⟩ : BufTy).Contents (Elt F) → (⟨S50000x128, .f32⟩ : BufTy).Contents (Elt F)) ]

/-- The references these operations write, in order. -/
abbrev sg1_W : List (Ref sig .tc) :=
  [main_cst_5, main_v25, main_v26, main_v27, main_v28, main_v29, main_v30, main_v31, main_v32, main_v33, main_v34, main_v35, main_v36, main_v37, main_v38, main_cst_6, main_v39, main_cst_7, main_v40, main_v41, main_c_8, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v42, main_v43, main_v44, main_v45, main_cst_9, main_v46, main_v47, main_v48, main_v49, main_v50, main_v51, main_v52, main_v53, main_v54, main_v55, main_v56, main_v57, main_call1_cst, main_call1_v0, main_v58, main_v59, main_v60, main_v61, main_v62, main_v63]

set_option maxHeartbeats 40000000 in
set_option maxRecDepth 8192 in
/-- Each operation writes its own result reference, the one listed at its place. -/
theorem sg1_writes : (sg1 : List (HloOp τ sig (Elt F))).Forall fun op => op.writes ⊆ (sg1_W.map (Proc.devRef (τ := τ) .tc)).toFinset :=
  ⟨(Finset.singleton_subset_iff (a := Proc.devRef (τ := τ) .tc main_cst_5)).mpr (List.mem_toFinset.mpr (List.mem_map_of_mem (by decide))),
   (Finset.singleton_subset_iff (a := Proc.devRef (τ := τ) .tc main_v25)).mpr (List.mem_toFinset.mpr (List.mem_map_of_mem (by decide))),
   (Finset.singleton_subset_iff (a := Proc.devRef (τ := τ) .tc main_v26)).mpr (List.mem_toFinset.mpr (List.mem_map_of_mem (by decide))),
   (Finset.singleton_subset_iff (a := Proc.devRef (τ := τ) .tc main_v27)).mpr (List.mem_toFinset.mpr (List.mem_map_of_mem (by decide))),
   (Finset.singleton_subset_iff (a := Proc.devRef (τ := τ) .tc main_v28)).mpr (List.mem_toFinset.mpr (List.mem_map_of_mem (by decide))),
   (Finset.singleton_subset_iff (a := Proc.devRef (τ := τ) .tc main_v29)).mpr (List.mem_toFinset.mpr (List.mem_map_of_mem (by decide))),
   (Finset.singleton_subset_iff (a := Proc.devRef (τ := τ) .tc main_v30)).mpr (List.mem_toFinset.mpr (List.mem_map_of_mem (by decide))),
   (Finset.singleton_subset_iff (a := Proc.devRef (τ := τ) .tc main_v31)).mpr (List.mem_toFinset.mpr (List.mem_map_of_mem (by decide))),
   (Finset.singleton_subset_iff (a := Proc.devRef (τ := τ) .tc main_v32)).mpr (List.mem_toFinset.mpr (List.mem_map_of_mem (by decide))),
   (Finset.singleton_subset_iff (a := Proc.devRef (τ := τ) .tc main_v33)).mpr (List.mem_toFinset.mpr (List.mem_map_of_mem (by decide))),
   (Finset.singleton_subset_iff (a := Proc.devRef (τ := τ) .tc main_v34)).mpr (List.mem_toFinset.mpr (List.mem_map_of_mem (by decide))),
   (Finset.singleton_subset_iff (a := Proc.devRef (τ := τ) .tc main_v35)).mpr (List.mem_toFinset.mpr (List.mem_map_of_mem (by decide))),
   (Finset.singleton_subset_iff (a := Proc.devRef (τ := τ) .tc main_v36)).mpr (List.mem_toFinset.mpr (List.mem_map_of_mem (by decide))),
   (Finset.singleton_subset_iff (a := Proc.devRef (τ := τ) .tc main_v37)).mpr (List.mem_toFinset.mpr (List.mem_map_of_mem (by decide))),
   (Finset.singleton_subset_iff (a := Proc.devRef (τ := τ) .tc main_v38)).mpr (List.mem_toFinset.mpr (List.mem_map_of_mem (by decide))),
   (Finset.singleton_subset_iff (a := Proc.devRef (τ := τ) .tc main_cst_6)).mpr (List.mem_toFinset.mpr (List.mem_map_of_mem (by decide))),
   (Finset.singleton_subset_iff (a := Proc.devRef (τ := τ) .tc main_v39)).mpr (List.mem_toFinset.mpr (List.mem_map_of_mem (by decide))),
   (Finset.singleton_subset_iff (a := Proc.devRef (τ := τ) .tc main_cst_7)).mpr (List.mem_toFinset.mpr (List.mem_map_of_mem (by decide))),
   (Finset.singleton_subset_iff (a := Proc.devRef (τ := τ) .tc main_v40)).mpr (List.mem_toFinset.mpr (List.mem_map_of_mem (by decide))),
   (Finset.singleton_subset_iff (a := Proc.devRef (τ := τ) .tc main_v41)).mpr (List.mem_toFinset.mpr (List.mem_map_of_mem (by decide))),
   (Finset.singleton_subset_iff (a := Proc.devRef (τ := τ) .tc main_c_8)).mpr (List.mem_toFinset.mpr (List.mem_map_of_mem (by decide))),
   (Finset.singleton_subset_iff (a := Proc.devRef (τ := τ) .tc main_call0_cst)).mpr (List.mem_toFinset.mpr (List.mem_map_of_mem (by decide))),
   (Finset.singleton_subset_iff (a := Proc.devRef (τ := τ) .tc main_call0_v0)).mpr (List.mem_toFinset.mpr (List.mem_map_of_mem (by decide))),
   (Finset.singleton_subset_iff (a := Proc.devRef (τ := τ) .tc main_call0_v1)).mpr (List.mem_toFinset.mpr (List.mem_map_of_mem (by decide))),
   (Finset.singleton_subset_iff (a := Proc.devRef (τ := τ) .tc main_call0_cst_0)).mpr (List.mem_toFinset.mpr (List.mem_map_of_mem (by decide))),
   (Finset.singleton_subset_iff (a := Proc.devRef (τ := τ) .tc main_call0_v2)).mpr (List.mem_toFinset.mpr (List.mem_map_of_mem (by decide))),
   (Finset.singleton_subset_iff (a := Proc.devRef (τ := τ) .tc main_call0_v3)).mpr (List.mem_toFinset.mpr (List.mem_map_of_mem (by decide))),
   (Finset.singleton_subset_iff (a := Proc.devRef (τ := τ) .tc main_call0_v4)).mpr (List.mem_toFinset.mpr (List.mem_map_of_mem (by decide))),
   (Finset.singleton_subset_iff (a := Proc.devRef (τ := τ) .tc main_call0_v5)).mpr (List.mem_toFinset.mpr (List.mem_map_of_mem (by decide))),
   (Finset.singleton_subset_iff (a := Proc.devRef (τ := τ) .tc main_call0_v6)).mpr (List.mem_toFinset.mpr (List.mem_map_of_mem (by decide))),
   (Finset.singleton_subset_iff (a := Proc.devRef (τ := τ) .tc main_call0_v7)).mpr (List.mem_toFinset.mpr (List.mem_map_of_mem (by decide))),
   (Finset.singleton_subset_iff (a := Proc.devRef (τ := τ) .tc main_call0_cst_1)).mpr (List.mem_toFinset.mpr (List.mem_map_of_mem (by decide))),
   (Finset.singleton_subset_iff (a := Proc.devRef (τ := τ) .tc main_call0_v8)).mpr (List.mem_toFinset.mpr (List.mem_map_of_mem (by decide))),
   (Finset.singleton_subset_iff (a := Proc.devRef (τ := τ) .tc main_call0_cst_2)).mpr (List.mem_toFinset.mpr (List.mem_map_of_mem (by decide))),
   (Finset.singleton_subset_iff (a := Proc.devRef (τ := τ) .tc main_call0_v9)).mpr (List.mem_toFinset.mpr (List.mem_map_of_mem (by decide))),
   (Finset.singleton_subset_iff (a := Proc.devRef (τ := τ) .tc main_call0_v10)).mpr (List.mem_toFinset.mpr (List.mem_map_of_mem (by decide))),
   (Finset.singleton_subset_iff (a := Proc.devRef (τ := τ) .tc main_call0_v11)).mpr (List.mem_toFinset.mpr (List.mem_map_of_mem (by decide))),
   (Finset.singleton_subset_iff (a := Proc.devRef (τ := τ) .tc main_call0_cst_3)).mpr (List.mem_toFinset.mpr (List.mem_map_of_mem (by decide))),
   (Finset.singleton_subset_iff (a := Proc.devRef (τ := τ) .tc main_call0_v12)).mpr (List.mem_toFinset.mpr (List.mem_map_of_mem (by decide))),
   (Finset.singleton_subset_iff (a := Proc.devRef (τ := τ) .tc main_call0_cst_4)).mpr (List.mem_toFinset.mpr (List.mem_map_of_mem (by decide))),
   (Finset.singleton_subset_iff (a := Proc.devRef (τ := τ) .tc main_call0_call0_v0)).mpr (List.mem_toFinset.mpr (List.mem_map_of_mem (by decide))),
   (Finset.singleton_subset_iff (a := Proc.devRef (τ := τ) .tc main_call0_call0_v1)).mpr (List.mem_toFinset.mpr (List.mem_map_of_mem (by decide))),
   (Finset.singleton_subset_iff (a := Proc.devRef (τ := τ) .tc main_v42)).mpr (List.mem_toFinset.mpr (List.mem_map_of_mem (by decide))),
   (Finset.singleton_subset_iff (a := Proc.devRef (τ := τ) .tc main_v43)).mpr (List.mem_toFinset.mpr (List.mem_map_of_mem (by decide))),
   (Finset.singleton_subset_iff (a := Proc.devRef (τ := τ) .tc main_v44)).mpr (List.mem_toFinset.mpr (List.mem_map_of_mem (by decide))),
   (Finset.singleton_subset_iff (a := Proc.devRef (τ := τ) .tc main_v45)).mpr (List.mem_toFinset.mpr (List.mem_map_of_mem (by decide))),
   (Finset.singleton_subset_iff (a := Proc.devRef (τ := τ) .tc main_cst_9)).mpr (List.mem_toFinset.mpr (List.mem_map_of_mem (by decide))),
   (Finset.singleton_subset_iff (a := Proc.devRef (τ := τ) .tc main_v46)).mpr (List.mem_toFinset.mpr (List.mem_map_of_mem (by decide))),
   (Finset.singleton_subset_iff (a := Proc.devRef (τ := τ) .tc main_v47)).mpr (List.mem_toFinset.mpr (List.mem_map_of_mem (by decide))),
   (Finset.singleton_subset_iff (a := Proc.devRef (τ := τ) .tc main_v48)).mpr (List.mem_toFinset.mpr (List.mem_map_of_mem (by decide))),
   (Finset.singleton_subset_iff (a := Proc.devRef (τ := τ) .tc main_v49)).mpr (List.mem_toFinset.mpr (List.mem_map_of_mem (by decide))),
   (Finset.singleton_subset_iff (a := Proc.devRef (τ := τ) .tc main_v50)).mpr (List.mem_toFinset.mpr (List.mem_map_of_mem (by decide))),
   (Finset.singleton_subset_iff (a := Proc.devRef (τ := τ) .tc main_v51)).mpr (List.mem_toFinset.mpr (List.mem_map_of_mem (by decide))),
   (Finset.singleton_subset_iff (a := Proc.devRef (τ := τ) .tc main_v52)).mpr (List.mem_toFinset.mpr (List.mem_map_of_mem (by decide))),
   (Finset.singleton_subset_iff (a := Proc.devRef (τ := τ) .tc main_v53)).mpr (List.mem_toFinset.mpr (List.mem_map_of_mem (by decide))),
   (Finset.singleton_subset_iff (a := Proc.devRef (τ := τ) .tc main_v54)).mpr (List.mem_toFinset.mpr (List.mem_map_of_mem (by decide))),
   (Finset.singleton_subset_iff (a := Proc.devRef (τ := τ) .tc main_v55)).mpr (List.mem_toFinset.mpr (List.mem_map_of_mem (by decide))),
   (Finset.singleton_subset_iff (a := Proc.devRef (τ := τ) .tc main_v56)).mpr (List.mem_toFinset.mpr (List.mem_map_of_mem (by decide))),
   (Finset.singleton_subset_iff (a := Proc.devRef (τ := τ) .tc main_v57)).mpr (List.mem_toFinset.mpr (List.mem_map_of_mem (by decide))),
   (Finset.singleton_subset_iff (a := Proc.devRef (τ := τ) .tc main_call1_cst)).mpr (List.mem_toFinset.mpr (List.mem_map_of_mem (by decide))),
   (Finset.singleton_subset_iff (a := Proc.devRef (τ := τ) .tc main_call1_v0)).mpr (List.mem_toFinset.mpr (List.mem_map_of_mem (by decide))),
   (Finset.singleton_subset_iff (a := Proc.devRef (τ := τ) .tc main_v58)).mpr (List.mem_toFinset.mpr (List.mem_map_of_mem (by decide))),
   (Finset.singleton_subset_iff (a := Proc.devRef (τ := τ) .tc main_v59)).mpr (List.mem_toFinset.mpr (List.mem_map_of_mem (by decide))),
   (Finset.singleton_subset_iff (a := Proc.devRef (τ := τ) .tc main_v60)).mpr (List.mem_toFinset.mpr (List.mem_map_of_mem (by decide))),
   (Finset.singleton_subset_iff (a := Proc.devRef (τ := τ) .tc main_v61)).mpr (List.mem_toFinset.mpr (List.mem_map_of_mem (by decide))),
   (Finset.singleton_subset_iff (a := Proc.devRef (τ := τ) .tc main_v62)).mpr (List.mem_toFinset.mpr (List.mem_map_of_mem (by decide))),
   (Finset.singleton_subset_iff (a := Proc.devRef (τ := τ) .tc main_v63)).mpr (List.mem_toFinset.mpr (List.mem_map_of_mem (by decide)))⟩

/-- A reference these operations do not write keeps its contents through them. -/
theorem sg1_keep (V : Valuation τ sig (Elt F)) (r : Ref sig .tc) (h : r ∉ sg1_W) :
    after sg1 V (Proc.devRef .tc r) = V (Proc.devRef .tc r) :=
  after_of_writes_sub sg1 V sg1_writes h

end Cert.ReferenceIdeal.HandV

end
-- ==== Proof.RV.TopSeg2.lean ====
import proofs.«414290_j6631429505478_3_alg».proof.Proof.Gen.ReferenceIdeal
import Idealize.ShloMosaic.Lib.StableHlo.Run

set_option Elab.async false

noncomputable section

namespace Cert.ReferenceIdeal.HandV

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
set_option maxRecDepth 8192 in
/-- Operations 99 to 163 of @main, in order (65 of them): from the one writing main_v64 to the one writing main_v101. -/
abbrev sg2 : List (HloOp τ sig (Elt F)) :=
  [ StableHlo.unary main_arg4 main_v64 ((extractStridedSlice S1x1x128x128 ![0, 1, 0, 0] · slices_S6x3x128x128_S1x1x128x128_0_1_0_0) : (⟨S6x3x128x128, .f32⟩ : BufTy).Contents (Elt F) → (⟨S1x1x128x128, .f32⟩ : BufTy).Contents (Elt F)),
    StableHlo.reshape main_v64 main_v65 rfl shapeCasts_S1x1x128x128_S128x128,
    StableHlo.unary main_v65 main_v66 ((transpose S128x128 [1, 0] · transposes_S128x128_S128x128_1_0) : (⟨S128x128, .f32⟩ : BufTy).Contents (Elt F) → (⟨S128x128, .f32⟩ : BufTy).Contents (Elt F)),
    StableHlo.binary main_arg1 main_v66 main_v67 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg5 main_v68 ((extractStridedSlice S1x1x128 ![0, 1, 0] · slices_S6x3x128_S1x1x128_0_1_0) : (⟨S6x3x128, .f32⟩ : BufTy).Contents (Elt F) → (⟨S1x1x128, .f32⟩ : BufTy).Contents (Elt F)),
    StableHlo.reshape main_v68 main_v69 rfl shapeCasts_S1x1x128_S128,
    StableHlo.unary main_v69 main_v70 (broadcastInDim S1x128 ![1] bcast_S128_S1x128_1 : (⟨S128, .f32⟩ : BufTy).Contents (Elt F) → (⟨S1x128, .f32⟩ : BufTy).Contents (Elt F)),
    StableHlo.unary main_v70 main_v71 (broadcastInDim S50000x128 ![0, 1] bcast_S1x128_S50000x128_0_1 : (⟨S1x128, .f32⟩ : BufTy).Contents (Elt F) → (⟨S50000x128, .f32⟩ : BufTy).Contents (Elt F)),
    StableHlo.binary main_v67 main_v71 main_v72 (addf : (⟨S50000x128, .f32⟩ : BufTy).Contents (Elt F) → (⟨S50000x128, .f32⟩ : BufTy).Contents (Elt F) → (⟨S50000x128, .f32⟩ : BufTy).Contents (Elt F)),
    StableHlo.unary main_arg6 main_v73 ((extractStridedSlice S1x1x128 ![0, 1, 0] · slices_S6x3x128_S1x1x128_0_1_0) : (⟨S6x3x128, .f32⟩ : BufTy).Contents (Elt F) → (⟨S1x1x128, .f32⟩ : BufTy).Contents (Elt F)),
    StableHlo.reshape main_v73 main_v74 rfl shapeCasts_S1x1x128_S128,
    StableHlo.unary main_arg7 main_v75 ((extractStridedSlice S1x1x128 ![0, 1, 0] · slices_S6x3x128_S1x1x128_0_1_0) : (⟨S6x3x128, .f32⟩ : BufTy).Contents (Elt F) → (⟨S1x1x128, .f32⟩ : BufTy).Contents (Elt F)),
    StableHlo.reshape main_v75 main_v76 rfl shapeCasts_S1x1x128_S128,
    StableHlo.nullary main_cst_10 (constant S_ .f32 0x00000000#32),
    StableHlo.binary main_v72 main_cst_10 main_v77 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_11 (constant S_ .f32 0x47435000#32),
    StableHlo.unary main_cst_11 main_v78 (broadcastInDim S128 ![] bcast_S_S128 : (⟨S_, .f32⟩ : BufTy).Contents (Elt F) → (⟨S128, .f32⟩ : BufTy).Contents (Elt F)),
    StableHlo.binary main_v77 main_v78 main_v79 (Host.divf : (⟨S128, .f32⟩ : BufTy).Contents (Elt F) → (⟨S128, .f32⟩ : BufTy).Contents (Elt F) → (⟨S128, .f32⟩ : BufTy).Contents (Elt F)),
    StableHlo.nullary main_c_12 (constantI S_ 32 0#32),
    StableHlo.TRef.nullary main_call2.cst (constant S_ .f32 0x00000000#32),
    StableHlo.TRef.binary (.of main_v72 : StableHlo.TRef sig ⟨S50000x128, .f32⟩) main_call2.cst main_call2.v0 (fun x v => Host.reduceAdd x v reducesTo_S50000x128_S128_d0 h_S_),
    StableHlo.TRef.unary main_call2.v0 main_call2.v1 (broadcastInDim S1x128 ![1] bcast_S128_S1x128_1),
    StableHlo.TRef.nullary main_call2.cst_0 (constant S_ .f32 0x47435000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S50000x128 ![0, 1] bcast_S1x128_S50000x128_0_1),
    StableHlo.TRef.binary (.of main_v72 : StableHlo.TRef sig ⟨S50000x128, .f32⟩) main_call2.v4 main_call2.v5 subf,
    StableHlo.TRef.binary main_call2.v5 main_call2.v5 main_call2.v6 mulf,
    StableHlo.TRef.unary (.of main_c_12 : StableHlo.TRef sig ⟨S_, .i32⟩) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v79 main_v81 (broadcastInDim S1x128 ![1] bcast_S128_S1x128_1 : (⟨S128, .f32⟩ : BufTy).Contents (Elt F) → (⟨S1x128, .f32⟩ : BufTy).Contents (Elt F)),
    StableHlo.unary main_v81 main_v82 (broadcastInDim S50000x128 ![0, 1] bcast_S1x128_S50000x128_0_1 : (⟨S1x128, .f32⟩ : BufTy).Contents (Elt F) → (⟨S50000x128, .f32⟩ : BufTy).Contents (Elt F)),
    StableHlo.binary main_v72 main_v82 main_v83 (subf : (⟨S50000x128, .f32⟩ : BufTy).Contents (Elt F) → (⟨S50000x128, .f32⟩ : BufTy).Contents (Elt F) → (⟨S50000x128, .f32⟩ : BufTy).Contents (Elt F)),
    StableHlo.nullary main_cst_13 (constant S_ .f32 0x3727C5AC#32),
    StableHlo.unary main_cst_13 main_v84 (broadcastInDim S128 ![] bcast_S_S128 : (⟨S_, .f32⟩ : BufTy).Contents (Elt F) → (⟨S128, .f32⟩ : BufTy).Contents (Elt F)),
    StableHlo.binary main_v80 main_v84 main_v85 (addf : (⟨S128, .f32⟩ : BufTy).Contents (Elt F) → (⟨S128, .f32⟩ : BufTy).Contents (Elt F) → (⟨S128, .f32⟩ : BufTy).Contents (Elt F)),
    StableHlo.unary main_v85 main_v86 (Host.rsqrt : (⟨S128, .f32⟩ : BufTy).Contents (Elt F) → (⟨S128, .f32⟩ : BufTy).Contents (Elt F)),
    StableHlo.unary main_v86 main_v87 (broadcastInDim S1x128 ![1] bcast_S128_S1x128_1 : (⟨S128, .f32⟩ : BufTy).Contents (Elt F) → (⟨S1x128, .f32⟩ : BufTy).Contents (Elt F)),
    StableHlo.unary main_v87 main_v88 (broadcastInDim S50000x128 ![0, 1] bcast_S1x128_S50000x128_0_1 : (⟨S1x128, .f32⟩ : BufTy).Contents (Elt F) → (⟨S50000x128, .f32⟩ : BufTy).Contents (Elt F)),
    StableHlo.binary main_v83 main_v88 main_v89 (mulf : (⟨S50000x128, .f32⟩ : BufTy).Contents (Elt F) → (⟨S50000x128, .f32⟩ : BufTy).Contents (Elt F) → (⟨S50000x128, .f32⟩ : BufTy).Contents (Elt F)),
    StableHlo.unary main_v74 main_v90 (broadcastInDim S1x128 ![1] bcast_S128_S1x128_1 : (⟨S128, .f32⟩ : BufTy).Contents (Elt F) → (⟨S1x128, .f32⟩ : BufTy).Contents (Elt F)),
    StableHlo.unary main_v90 main_v91 (broadcastInDim S50000x128 ![0, 1] bcast_S1x128_S50000x128_0_1 : (⟨S1x128, .f32⟩ : BufTy).Contents (Elt F) → (⟨S50000x128, .f32⟩ : BufTy).Contents (Elt F)),
    StableHlo.binary main_v89 main_v91 main_v92 (mulf : (⟨S50000x128, .f32⟩ : BufTy).Contents (Elt F) → (⟨S50000x128, .f32⟩ : BufTy).Contents (Elt F) → (⟨S50000x128, .f32⟩ : BufTy).Contents (Elt F)),
    StableHlo.unary main_v76 main_v93 (broadcastInDim S1x128 ![1] bcast_S128_S1x128_1 : (⟨S128, .f32⟩ : BufTy).Contents (Elt F) → (⟨S1x128, .f32⟩ : BufTy).Contents (Elt F)),
    StableHlo.unary main_v93 main_v94 (broadcastInDim S50000x128 ![0, 1] bcast_S1x128_S50000x128_0_1 : (⟨S1x128, .f32⟩ : BufTy).Contents (Elt F) → (⟨S50000x128, .f32⟩ : BufTy).Contents (Elt F)),
    StableHlo.binary main_v92 main_v94 main_v95 (addf : (⟨S50000x128, .f32⟩ : BufTy).Contents (Elt F) → (⟨S50000x128, .f32⟩ : BufTy).Contents (Elt F) → (⟨S50000x128, .f32⟩ : BufTy).Contents (Elt F)),
    StableHlo.TRef.nullary main_call3.cst (constant S_ .f32 0x00000000#32),
    StableHlo.TRef.unary main_call3.cst main_call3.v0 (broadcastInDim S50000x128 ![] bcast_S_S50000x128),
    StableHlo.TRef.binary (.of main_v95 : StableHlo.TRef sig ⟨S50000x128, .f32⟩) main_call3.v0 main_call3.v1 maximumf,
    StableHlo.unary main_arg3 main_v97 ((extractStridedSlice S1x1 ![0, 1] · slices_S6x3_S1x1_0_1) : (⟨S6x3, .f32⟩ : BufTy).Contents (Elt F) → (⟨S1x1, .f32⟩ : BufTy).Contents (Elt F)),
    StableHlo.reshape main_v97 main_v98 rfl shapeCasts_S1x1_S_,
    StableHlo.unary main_v98 main_v99 (broadcastInDim S50000x128 ![] bcast_S_S50000x128 : (⟨S_, .f32⟩ : BufTy).Contents (Elt F) → (⟨S50000x128, .f32⟩ : BufTy).Contents (Elt F)),
    StableHlo.binary main_v99 main_v96 main_v100 (mulf : (⟨S50000x128, .f32⟩ : BufTy).Contents (Elt F) → (⟨S50000x128, .f32⟩ : BufTy).Contents (Elt F) → (⟨S50000x128, .f32⟩ : BufTy).Contents (Elt F)),
    StableHlo.binary main_v63 main_v100 main_v101 (addf : (⟨S50000x128, .f32⟩ : BufTy).Contents (Elt F) → (⟨S50000x128, .f32⟩ : BufTy).Contents (Elt F) → (⟨S50000x128, .f32⟩ : BufTy).Contents (Elt F)) ]

/-- The references these operations write, in order. -/
abbrev sg2_W : List (Ref sig .tc) :=
  [main_v64, main_v65, main_v66, main_v67, main_v68, main_v69, main_v70, main_v71, main_v72, main_v73, main_v74, main_v75, main_v76, main_cst_10, main_v77, main_cst_11, main_v78, main_v79, main_c_12, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v80, main_v81, main_v82, main_v83, main_cst_13, main_v84, main_v85, main_v86, main_v87, main_v88, main_v89, main_v90, main_v91, main_v92, main_v93, main_v94, main_v95, main_call3_cst, main_call3_v0, main_v96, main_v97, main_v98, main_v99, main_v100, main_v101]

set_option maxHeartbeats 40000000 in
set_option maxRecDepth 8192 in
/-- Each operation writes its own result reference, the one listed at its place. -/
theorem sg2_writes : (sg2 : List (HloOp τ sig (Elt F))).Forall fun op => op.writes ⊆ (sg2_W.map (Proc.devRef (τ := τ) .tc)).toFinset :=
  ⟨(Finset.singleton_subset_iff (a := Proc.devRef (τ := τ) .tc main_v64)).mpr (List.mem_toFinset.mpr (List.mem_map_of_mem (by decide))),
   (Finset.singleton_subset_iff (a := Proc.devRef (τ := τ) .tc main_v65)).mpr (List.mem_toFinset.mpr (List.mem_map_of_mem (by decide))),
   (Finset.singleton_subset_iff (a := Proc.devRef (τ := τ) .tc main_v66)).mpr (List.mem_toFinset.mpr (List.mem_map_of_mem (by decide))),
   (Finset.singleton_subset_iff (a := Proc.devRef (τ := τ) .tc main_v67)).mpr (List.mem_toFinset.mpr (List.mem_map_of_mem (by decide))),
   (Finset.singleton_subset_iff (a := Proc.devRef (τ := τ) .tc main_v68)).mpr (List.mem_toFinset.mpr (List.mem_map_of_mem (by decide))),
   (Finset.singleton_subset_iff (a := Proc.devRef (τ := τ) .tc main_v69)).mpr (List.mem_toFinset.mpr (List.mem_map_of_mem (by decide))),
   (Finset.singleton_subset_iff (a := Proc.devRef (τ := τ) .tc main_v70)).mpr (List.mem_toFinset.mpr (List.mem_map_of_mem (by decide))),
   (Finset.singleton_subset_iff (a := Proc.devRef (τ := τ) .tc main_v71)).mpr (List.mem_toFinset.mpr (List.mem_map_of_mem (by decide))),
   (Finset.singleton_subset_iff (a := Proc.devRef (τ := τ) .tc main_v72)).mpr (List.mem_toFinset.mpr (List.mem_map_of_mem (by decide))),
   (Finset.singleton_subset_iff (a := Proc.devRef (τ := τ) .tc main_v73)).mpr (List.mem_toFinset.mpr (List.mem_map_of_mem (by decide))),
   (Finset.singleton_subset_iff (a := Proc.devRef (τ := τ) .tc main_v74)).mpr (List.mem_toFinset.mpr (List.mem_map_of_mem (by decide))),
   (Finset.singleton_subset_iff (a := Proc.devRef (τ := τ) .tc main_v75)).mpr (List.mem_toFinset.mpr (List.mem_map_of_mem (by decide))),
   (Finset.singleton_subset_iff (a := Proc.devRef (τ := τ) .tc main_v76)).mpr (List.mem_toFinset.mpr (List.mem_map_of_mem (by decide))),
   (Finset.singleton_subset_iff (a := Proc.devRef (τ := τ) .tc main_cst_10)).mpr (List.mem_toFinset.mpr (List.mem_map_of_mem (by decide))),
   (Finset.singleton_subset_iff (a := Proc.devRef (τ := τ) .tc main_v77)).mpr (List.mem_toFinset.mpr (List.mem_map_of_mem (by decide))),
   (Finset.singleton_subset_iff (a := Proc.devRef (τ := τ) .tc main_cst_11)).mpr (List.mem_toFinset.mpr (List.mem_map_of_mem (by decide))),
   (Finset.singleton_subset_iff (a := Proc.devRef (τ := τ) .tc main_v78)).mpr (List.mem_toFinset.mpr (List.mem_map_of_mem (by decide))),
   (Finset.singleton_subset_iff (a := Proc.devRef (τ := τ) .tc main_v79)).mpr (List.mem_toFinset.mpr (List.mem_map_of_mem (by decide))),
   (Finset.singleton_subset_iff (a := Proc.devRef (τ := τ) .tc main_c_12)).mpr (List.mem_toFinset.mpr (List.mem_map_of_mem (by decide))),
   (Finset.singleton_subset_iff (a := Proc.devRef (τ := τ) .tc main_call2_cst)).mpr (List.mem_toFinset.mpr (List.mem_map_of_mem (by decide))),
   (Finset.singleton_subset_iff (a := Proc.devRef (τ := τ) .tc main_call2_v0)).mpr (List.mem_toFinset.mpr (List.mem_map_of_mem (by decide))),
   (Finset.singleton_subset_iff (a := Proc.devRef (τ := τ) .tc main_call2_v1)).mpr (List.mem_toFinset.mpr (List.mem_map_of_mem (by decide))),
   (Finset.singleton_subset_iff (a := Proc.devRef (τ := τ) .tc main_call2_cst_0)).mpr (List.mem_toFinset.mpr (List.mem_map_of_mem (by decide))),
   (Finset.singleton_subset_iff (a := Proc.devRef (τ := τ) .tc main_call2_v2)).mpr (List.mem_toFinset.mpr (List.mem_map_of_mem (by decide))),
   (Finset.singleton_subset_iff (a := Proc.devRef (τ := τ) .tc main_call2_v3)).mpr (List.mem_toFinset.mpr (List.mem_map_of_mem (by decide))),
   (Finset.singleton_subset_iff (a := Proc.devRef (τ := τ) .tc main_call2_v4)).mpr (List.mem_toFinset.mpr (List.mem_map_of_mem (by decide))),
   (Finset.singleton_subset_iff (a := Proc.devRef (τ := τ) .tc main_call2_v5)).mpr (List.mem_toFinset.mpr (List.mem_map_of_mem (by decide))),
   (Finset.singleton_subset_iff (a := Proc.devRef (τ := τ) .tc main_call2_v6)).mpr (List.mem_toFinset.mpr (List.mem_map_of_mem (by decide))),
   (Finset.singleton_subset_iff (a := Proc.devRef (τ := τ) .tc main_call2_v7)).mpr (List.mem_toFinset.mpr (List.mem_map_of_mem (by decide))),
   (Finset.singleton_subset_iff (a := Proc.devRef (τ := τ) .tc main_call2_cst_1)).mpr (List.mem_toFinset.mpr (List.mem_map_of_mem (by decide))),
   (Finset.singleton_subset_iff (a := Proc.devRef (τ := τ) .tc main_call2_v8)).mpr (List.mem_toFinset.mpr (List.mem_map_of_mem (by decide))),
   (Finset.singleton_subset_iff (a := Proc.devRef (τ := τ) .tc main_call2_cst_2)).mpr (List.mem_toFinset.mpr (List.mem_map_of_mem (by decide))),
   (Finset.singleton_subset_iff (a := Proc.devRef (τ := τ) .tc main_call2_v9)).mpr (List.mem_toFinset.mpr (List.mem_map_of_mem (by decide))),
   (Finset.singleton_subset_iff (a := Proc.devRef (τ := τ) .tc main_call2_v10)).mpr (List.mem_toFinset.mpr (List.mem_map_of_mem (by decide))),
   (Finset.singleton_subset_iff (a := Proc.devRef (τ := τ) .tc main_call2_v11)).mpr (List.mem_toFinset.mpr (List.mem_map_of_mem (by decide))),
   (Finset.singleton_subset_iff (a := Proc.devRef (τ := τ) .tc main_call2_cst_3)).mpr (List.mem_toFinset.mpr (List.mem_map_of_mem (by decide))),
   (Finset.singleton_subset_iff (a := Proc.devRef (τ := τ) .tc main_call2_v12)).mpr (List.mem_toFinset.mpr (List.mem_map_of_mem (by decide))),
   (Finset.singleton_subset_iff (a := Proc.devRef (τ := τ) .tc main_call2_cst_4)).mpr (List.mem_toFinset.mpr (List.mem_map_of_mem (by decide))),
   (Finset.singleton_subset_iff (a := Proc.devRef (τ := τ) .tc main_call2_call0_v0)).mpr (List.mem_toFinset.mpr (List.mem_map_of_mem (by decide))),
   (Finset.singleton_subset_iff (a := Proc.devRef (τ := τ) .tc main_call2_call0_v1)).mpr (List.mem_toFinset.mpr (List.mem_map_of_mem (by decide))),
   (Finset.singleton_subset_iff (a := Proc.devRef (τ := τ) .tc main_v80)).mpr (List.mem_toFinset.mpr (List.mem_map_of_mem (by decide))),
   (Finset.singleton_subset_iff (a := Proc.devRef (τ := τ) .tc main_v81)).mpr (List.mem_toFinset.mpr (List.mem_map_of_mem (by decide))),
   (Finset.singleton_subset_iff (a := Proc.devRef (τ := τ) .tc main_v82)).mpr (List.mem_toFinset.mpr (List.mem_map_of_mem (by decide))),
   (Finset.singleton_subset_iff (a := Proc.devRef (τ := τ) .tc main_v83)).mpr (List.mem_toFinset.mpr (List.mem_map_of_mem (by decide))),
   (Finset.singleton_subset_iff (a := Proc.devRef (τ := τ) .tc main_cst_13)).mpr (List.mem_toFinset.mpr (List.mem_map_of_mem (by decide))),
   (Finset.singleton_subset_iff (a := Proc.devRef (τ := τ) .tc main_v84)).mpr (List.mem_toFinset.mpr (List.mem_map_of_mem (by decide))),
   (Finset.singleton_subset_iff (a := Proc.devRef (τ := τ) .tc main_v85)).mpr (List.mem_toFinset.mpr (List.mem_map_of_mem (by decide))),
   (Finset.singleton_subset_iff (a := Proc.devRef (τ := τ) .tc main_v86)).mpr (List.mem_toFinset.mpr (List.mem_map_of_mem (by decide))),
   (Finset.singleton_subset_iff (a := Proc.devRef (τ := τ) .tc main_v87)).mpr (List.mem_toFinset.mpr (List.mem_map_of_mem (by decide))),
   (Finset.singleton_subset_iff (a := Proc.devRef (τ := τ) .tc main_v88)).mpr (List.mem_toFinset.mpr (List.mem_map_of_mem (by decide))),
   (Finset.singleton_subset_iff (a := Proc.devRef (τ := τ) .tc main_v89)).mpr (List.mem_toFinset.mpr (List.mem_map_of_mem (by decide))),
   (Finset.singleton_subset_iff (a := Proc.devRef (τ := τ) .tc main_v90)).mpr (List.mem_toFinset.mpr (List.mem_map_of_mem (by decide))),
   (Finset.singleton_subset_iff (a := Proc.devRef (τ := τ) .tc main_v91)).mpr (List.mem_toFinset.mpr (List.mem_map_of_mem (by decide))),
   (Finset.singleton_subset_iff (a := Proc.devRef (τ := τ) .tc main_v92)).mpr (List.mem_toFinset.mpr (List.mem_map_of_mem (by decide))),
   (Finset.singleton_subset_iff (a := Proc.devRef (τ := τ) .tc main_v93)).mpr (List.mem_toFinset.mpr (List.mem_map_of_mem (by decide))),
   (Finset.singleton_subset_iff (a := Proc.devRef (τ := τ) .tc main_v94)).mpr (List.mem_toFinset.mpr (List.mem_map_of_mem (by decide))),
   (Finset.singleton_subset_iff (a := Proc.devRef (τ := τ) .tc main_v95)).mpr (List.mem_toFinset.mpr (List.mem_map_of_mem (by decide))),
   (Finset.singleton_subset_iff (a := Proc.devRef (τ := τ) .tc main_call3_cst)).mpr (List.mem_toFinset.mpr (List.mem_map_of_mem (by decide))),
   (Finset.singleton_subset_iff (a := Proc.devRef (τ := τ) .tc main_call3_v0)).mpr (List.mem_toFinset.mpr (List.mem_map_of_mem (by decide))),
   (Finset.singleton_subset_iff (a := Proc.devRef (τ := τ) .tc main_v96)).mpr (List.mem_toFinset.mpr (List.mem_map_of_mem (by decide))),
   (Finset.singleton_subset_iff (a := Proc.devRef (τ := τ) .tc main_v97)).mpr (List.mem_toFinset.mpr (List.mem_map_of_mem (by decide))),
   (Finset.singleton_subset_iff (a := Proc.devRef (τ := τ) .tc main_v98)).mpr (List.mem_toFinset.mpr (List.mem_map_of_mem (by decide))),
   (Finset.singleton_subset_iff (a := Proc.devRef (τ := τ) .tc main_v99)).mpr (List.mem_toFinset.mpr (List.mem_map_of_mem (by decide))),
   (Finset.singleton_subset_iff (a := Proc.devRef (τ := τ) .tc main_v100)).mpr (List.mem_toFinset.mpr (List.mem_map_of_mem (by decide))),
   (Finset.singleton_subset_iff (a := Proc.devRef (τ := τ) .tc main_v101)).mpr (List.mem_toFinset.mpr (List.mem_map_of_mem (by decide)))⟩

/-- A reference these operations do not write keeps its contents through them. -/
theorem sg2_keep (V : Valuation τ sig (Elt F)) (r : Ref sig .tc) (h : r ∉ sg2_W) :
    after sg2 V (Proc.devRef .tc r) = V (Proc.devRef .tc r) :=
  after_of_writes_sub sg2 V sg2_writes h

end Cert.ReferenceIdeal.HandV

end
-- ==== Proof.RV.TopSeg3.lean ====
import proofs.«414290_j6631429505478_3_alg».proof.Proof.Gen.ReferenceIdeal
import Idealize.ShloMosaic.Lib.StableHlo.Run

set_option Elab.async false

noncomputable section

namespace Cert.ReferenceIdeal.HandV

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
set_option maxRecDepth 8192 in
/-- Operations 164 to 228 of @main, in order (65 of them): from the one writing main_v102 to the one writing main_v139. -/
abbrev sg3 : List (HloOp τ sig (Elt F)) :=
  [ StableHlo.unary main_arg4 main_v102 ((extractStridedSlice S1x1x128x128 ![0, 2, 0, 0] · slices_S6x3x128x128_S1x1x128x128_0_2_0_0) : (⟨S6x3x128x128, .f32⟩ : BufTy).Contents (Elt F) → (⟨S1x1x128x128, .f32⟩ : BufTy).Contents (Elt F)),
    StableHlo.reshape main_v102 main_v103 rfl shapeCasts_S1x1x128x128_S128x128,
    StableHlo.unary main_v103 main_v104 ((transpose S128x128 [1, 0] · transposes_S128x128_S128x128_1_0) : (⟨S128x128, .f32⟩ : BufTy).Contents (Elt F) → (⟨S128x128, .f32⟩ : BufTy).Contents (Elt F)),
    StableHlo.binary main_arg2 main_v104 main_v105 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg5 main_v106 ((extractStridedSlice S1x1x128 ![0, 2, 0] · slices_S6x3x128_S1x1x128_0_2_0) : (⟨S6x3x128, .f32⟩ : BufTy).Contents (Elt F) → (⟨S1x1x128, .f32⟩ : BufTy).Contents (Elt F)),
    StableHlo.reshape main_v106 main_v107 rfl shapeCasts_S1x1x128_S128,
    StableHlo.unary main_v107 main_v108 (broadcastInDim S1x128 ![1] bcast_S128_S1x128_1 : (⟨S128, .f32⟩ : BufTy).Contents (Elt F) → (⟨S1x128, .f32⟩ : BufTy).Contents (Elt F)),
    StableHlo.unary main_v108 main_v109 (broadcastInDim S50000x128 ![0, 1] bcast_S1x128_S50000x128_0_1 : (⟨S1x128, .f32⟩ : BufTy).Contents (Elt F) → (⟨S50000x128, .f32⟩ : BufTy).Contents (Elt F)),
    StableHlo.binary main_v105 main_v109 main_v110 (addf : (⟨S50000x128, .f32⟩ : BufTy).Contents (Elt F) → (⟨S50000x128, .f32⟩ : BufTy).Contents (Elt F) → (⟨S50000x128, .f32⟩ : BufTy).Contents (Elt F)),
    StableHlo.unary main_arg6 main_v111 ((extractStridedSlice S1x1x128 ![0, 2, 0] · slices_S6x3x128_S1x1x128_0_2_0) : (⟨S6x3x128, .f32⟩ : BufTy).Contents (Elt F) → (⟨S1x1x128, .f32⟩ : BufTy).Contents (Elt F)),
    StableHlo.reshape main_v111 main_v112 rfl shapeCasts_S1x1x128_S128,
    StableHlo.unary main_arg7 main_v113 ((extractStridedSlice S1x1x128 ![0, 2, 0] · slices_S6x3x128_S1x1x128_0_2_0) : (⟨S6x3x128, .f32⟩ : BufTy).Contents (Elt F) → (⟨S1x1x128, .f32⟩ : BufTy).Contents (Elt F)),
    StableHlo.reshape main_v113 main_v114 rfl shapeCasts_S1x1x128_S128,
    StableHlo.nullary main_cst_14 (constant S_ .f32 0x00000000#32),
    StableHlo.binary main_v110 main_cst_14 main_v115 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_15 (constant S_ .f32 0x47435000#32),
    StableHlo.unary main_cst_15 main_v116 (broadcastInDim S128 ![] bcast_S_S128 : (⟨S_, .f32⟩ : BufTy).Contents (Elt F) → (⟨S128, .f32⟩ : BufTy).Contents (Elt F)),
    StableHlo.binary main_v115 main_v116 main_v117 (Host.divf : (⟨S128, .f32⟩ : BufTy).Contents (Elt F) → (⟨S128, .f32⟩ : BufTy).Contents (Elt F) → (⟨S128, .f32⟩ : BufTy).Contents (Elt F)),
    StableHlo.nullary main_c_16 (constantI S_ 32 0#32),
    StableHlo.TRef.nullary main_call4.cst (constant S_ .f32 0x00000000#32),
    StableHlo.TRef.binary (.of main_v110 : StableHlo.TRef sig ⟨S50000x128, .f32⟩) main_call4.cst main_call4.v0 (fun x v => Host.reduceAdd x v reducesTo_S50000x128_S128_d0 h_S_),
    StableHlo.TRef.unary main_call4.v0 main_call4.v1 (broadcastInDim S1x128 ![1] bcast_S128_S1x128_1),
    StableHlo.TRef.nullary main_call4.cst_0 (constant S_ .f32 0x47435000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S50000x128 ![0, 1] bcast_S1x128_S50000x128_0_1),
    StableHlo.TRef.binary (.of main_v110 : StableHlo.TRef sig ⟨S50000x128, .f32⟩) main_call4.v4 main_call4.v5 subf,
    StableHlo.TRef.binary main_call4.v5 main_call4.v5 main_call4.v6 mulf,
    StableHlo.TRef.unary (.of main_c_16 : StableHlo.TRef sig ⟨S_, .i32⟩) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x128_S128_d0 h_S_),
    StableHlo.TRef.unary main_call4.v8 main_call4.v10 (broadcastInDim S128 ![] bcast_S_S128),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S128 ![] bcast_S_S128),
    StableHlo.TRef.ternary main_call4.v12 main_call4.v11 main_call4.call0.v1 main_call4.call0.v2 (fun p a b => select (broadcastInDim S128 ![] bcast_S_S128 p) a b),
    StableHlo.unary main_v117 main_v119 (broadcastInDim S1x128 ![1] bcast_S128_S1x128_1 : (⟨S128, .f32⟩ : BufTy).Contents (Elt F) → (⟨S1x128, .f32⟩ : BufTy).Contents (Elt F)),
    StableHlo.unary main_v119 main_v120 (broadcastInDim S50000x128 ![0, 1] bcast_S1x128_S50000x128_0_1 : (⟨S1x128, .f32⟩ : BufTy).Contents (Elt F) → (⟨S50000x128, .f32⟩ : BufTy).Contents (Elt F)),
    StableHlo.binary main_v110 main_v120 main_v121 (subf : (⟨S50000x128, .f32⟩ : BufTy).Contents (Elt F) → (⟨S50000x128, .f32⟩ : BufTy).Contents (Elt F) → (⟨S50000x128, .f32⟩ : BufTy).Contents (Elt F)),
    StableHlo.nullary main_cst_17 (constant S_ .f32 0x3727C5AC#32),
    StableHlo.unary main_cst_17 main_v122 (broadcastInDim S128 ![] bcast_S_S128 : (⟨S_, .f32⟩ : BufTy).Contents (Elt F) → (⟨S128, .f32⟩ : BufTy).Contents (Elt F)),
    StableHlo.binary main_v118 main_v122 main_v123 (addf : (⟨S128, .f32⟩ : BufTy).Contents (Elt F) → (⟨S128, .f32⟩ : BufTy).Contents (Elt F) → (⟨S128, .f32⟩ : BufTy).Contents (Elt F)),
    StableHlo.unary main_v123 main_v124 (Host.rsqrt : (⟨S128, .f32⟩ : BufTy).Contents (Elt F) → (⟨S128, .f32⟩ : BufTy).Contents (Elt F)),
    StableHlo.unary main_v124 main_v125 (broadcastInDim S1x128 ![1] bcast_S128_S1x128_1 : (⟨S128, .f32⟩ : BufTy).Contents (Elt F) → (⟨S1x128, .f32⟩ : BufTy).Contents (Elt F)),
    StableHlo.unary main_v125 main_v126 (broadcastInDim S50000x128 ![0, 1] bcast_S1x128_S50000x128_0_1 : (⟨S1x128, .f32⟩ : BufTy).Contents (Elt F) → (⟨S50000x128, .f32⟩ : BufTy).Contents (Elt F)),
    StableHlo.binary main_v121 main_v126 main_v127 (mulf : (⟨S50000x128, .f32⟩ : BufTy).Contents (Elt F) → (⟨S50000x128, .f32⟩ : BufTy).Contents (Elt F) → (⟨S50000x128, .f32⟩ : BufTy).Contents (Elt F)),
    StableHlo.unary main_v112 main_v128 (broadcastInDim S1x128 ![1] bcast_S128_S1x128_1 : (⟨S128, .f32⟩ : BufTy).Contents (Elt F) → (⟨S1x128, .f32⟩ : BufTy).Contents (Elt F)),
    StableHlo.unary main_v128 main_v129 (broadcastInDim S50000x128 ![0, 1] bcast_S1x128_S50000x128_0_1 : (⟨S1x128, .f32⟩ : BufTy).Contents (Elt F) → (⟨S50000x128, .f32⟩ : BufTy).Contents (Elt F)),
    StableHlo.binary main_v127 main_v129 main_v130 (mulf : (⟨S50000x128, .f32⟩ : BufTy).Contents (Elt F) → (⟨S50000x128, .f32⟩ : BufTy).Contents (Elt F) → (⟨S50000x128, .f32⟩ : BufTy).Contents (Elt F)),
    StableHlo.unary main_v114 main_v131 (broadcastInDim S1x128 ![1] bcast_S128_S1x128_1 : (⟨S128, .f32⟩ : BufTy).Contents (Elt F) → (⟨S1x128, .f32⟩ : BufTy).Contents (Elt F)),
    StableHlo.unary main_v131 main_v132 (broadcastInDim S50000x128 ![0, 1] bcast_S1x128_S50000x128_0_1 : (⟨S1x128, .f32⟩ : BufTy).Contents (Elt F) → (⟨S50000x128, .f32⟩ : BufTy).Contents (Elt F)),
    StableHlo.binary main_v130 main_v132 main_v133 (addf : (⟨S50000x128, .f32⟩ : BufTy).Contents (Elt F) → (⟨S50000x128, .f32⟩ : BufTy).Contents (Elt F) → (⟨S50000x128, .f32⟩ : BufTy).Contents (Elt F)),
    StableHlo.TRef.nullary main_call5.cst (constant S_ .f32 0x00000000#32),
    StableHlo.TRef.unary main_call5.cst main_call5.v0 (broadcastInDim S50000x128 ![] bcast_S_S50000x128),
    StableHlo.TRef.binary (.of main_v133 : StableHlo.TRef sig ⟨S50000x128, .f32⟩) main_call5.v0 main_call5.v1 maximumf,
    StableHlo.unary main_arg3 main_v135 ((extractStridedSlice S1x1 ![0, 2] · slices_S6x3_S1x1_0_2) : (⟨S6x3, .f32⟩ : BufTy).Contents (Elt F) → (⟨S1x1, .f32⟩ : BufTy).Contents (Elt F)),
    StableHlo.reshape main_v135 main_v136 rfl shapeCasts_S1x1_S_,
    StableHlo.unary main_v136 main_v137 (broadcastInDim S50000x128 ![] bcast_S_S50000x128 : (⟨S_, .f32⟩ : BufTy).Contents (Elt F) → (⟨S50000x128, .f32⟩ : BufTy).Contents (Elt F)),
    StableHlo.binary main_v137 main_v134 main_v138 (mulf : (⟨S50000x128, .f32⟩ : BufTy).Contents (Elt F) → (⟨S50000x128, .f32⟩ : BufTy).Contents (Elt F) → (⟨S50000x128, .f32⟩ : BufTy).Contents (Elt F)),
    StableHlo.binary main_v101 main_v138 main_v139 (addf : (⟨S50000x128, .f32⟩ : BufTy).Contents (Elt F) → (⟨S50000x128, .f32⟩ : BufTy).Contents (Elt F) → (⟨S50000x128, .f32⟩ : BufTy).Contents (Elt F)) ]

/-- The references these operations write, in order. -/
abbrev sg3_W : List (Ref sig .tc) :=
  [main_v102, main_v103, main_v104, main_v105, main_v106, main_v107, main_v108, main_v109, main_v110, main_v111, main_v112, main_v113, main_v114, main_cst_14, main_v115, main_cst_15, main_v116, main_v117, main_c_16, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v118, main_v119, main_v120, main_v121, main_cst_17, main_v122, main_v123, main_v124, main_v125, main_v126, main_v127, main_v128, main_v129, main_v130, main_v131, main_v132, main_v133, main_call5_cst, main_call5_v0, main_v134, main_v135, main_v136, main_v137, main_v138, main_v139]

set_option maxHeartbeats 40000000 in
set_option maxRecDepth 8192 in
/-- Each operation writes its own result reference, the one listed at its place. -/
theorem sg3_writes : (sg3 : List (HloOp τ sig (Elt F))).Forall fun op => op.writes ⊆ (sg3_W.map (Proc.devRef (τ := τ) .tc)).toFinset :=
  ⟨(Finset.singleton_subset_iff (a := Proc.devRef (τ := τ) .tc main_v102)).mpr (List.mem_toFinset.mpr (List.mem_map_of_mem (by decide))),
   (Finset.singleton_subset_iff (a := Proc.devRef (τ := τ) .tc main_v103)).mpr (List.mem_toFinset.mpr (List.mem_map_of_mem (by decide))),
   (Finset.singleton_subset_iff (a := Proc.devRef (τ := τ) .tc main_v104)).mpr (List.mem_toFinset.mpr (List.mem_map_of_mem (by decide))),
   (Finset.singleton_subset_iff (a := Proc.devRef (τ := τ) .tc main_v105)).mpr (List.mem_toFinset.mpr (List.mem_map_of_mem (by decide))),
   (Finset.singleton_subset_iff (a := Proc.devRef (τ := τ) .tc main_v106)).mpr (List.mem_toFinset.mpr (List.mem_map_of_mem (by decide))),
   (Finset.singleton_subset_iff (a := Proc.devRef (τ := τ) .tc main_v107)).mpr (List.mem_toFinset.mpr (List.mem_map_of_mem (by decide))),
   (Finset.singleton_subset_iff (a := Proc.devRef (τ := τ) .tc main_v108)).mpr (List.mem_toFinset.mpr (List.mem_map_of_mem (by decide))),
   (Finset.singleton_subset_iff (a := Proc.devRef (τ := τ) .tc main_v109)).mpr (List.mem_toFinset.mpr (List.mem_map_of_mem (by decide))),
   (Finset.singleton_subset_iff (a := Proc.devRef (τ := τ) .tc main_v110)).mpr (List.mem_toFinset.mpr (List.mem_map_of_mem (by decide))),
   (Finset.singleton_subset_iff (a := Proc.devRef (τ := τ) .tc main_v111)).mpr (List.mem_toFinset.mpr (List.mem_map_of_mem (by decide))),
   (Finset.singleton_subset_iff (a := Proc.devRef (τ := τ) .tc main_v112)).mpr (List.mem_toFinset.mpr (List.mem_map_of_mem (by decide))),
   (Finset.singleton_subset_iff (a := Proc.devRef (τ := τ) .tc main_v113)).mpr (List.mem_toFinset.mpr (List.mem_map_of_mem (by decide))),
   (Finset.singleton_subset_iff (a := Proc.devRef (τ := τ) .tc main_v114)).mpr (List.mem_toFinset.mpr (List.mem_map_of_mem (by decide))),
   (Finset.singleton_subset_iff (a := Proc.devRef (τ := τ) .tc main_cst_14)).mpr (List.mem_toFinset.mpr (List.mem_map_of_mem (by decide))),
   (Finset.singleton_subset_iff (a := Proc.devRef (τ := τ) .tc main_v115)).mpr (List.mem_toFinset.mpr (List.mem_map_of_mem (by decide))),
   (Finset.singleton_subset_iff (a := Proc.devRef (τ := τ) .tc main_cst_15)).mpr (List.mem_toFinset.mpr (List.mem_map_of_mem (by decide))),
   (Finset.singleton_subset_iff (a := Proc.devRef (τ := τ) .tc main_v116)).mpr (List.mem_toFinset.mpr (List.mem_map_of_mem (by decide))),
   (Finset.singleton_subset_iff (a := Proc.devRef (τ := τ) .tc main_v117)).mpr (List.mem_toFinset.mpr (List.mem_map_of_mem (by decide))),
   (Finset.singleton_subset_iff (a := Proc.devRef (τ := τ) .tc main_c_16)).mpr (List.mem_toFinset.mpr (List.mem_map_of_mem (by decide))),
   (Finset.singleton_subset_iff (a := Proc.devRef (τ := τ) .tc main_call4_cst)).mpr (List.mem_toFinset.mpr (List.mem_map_of_mem (by decide))),
   (Finset.singleton_subset_iff (a := Proc.devRef (τ := τ) .tc main_call4_v0)).mpr (List.mem_toFinset.mpr (List.mem_map_of_mem (by decide))),
   (Finset.singleton_subset_iff (a := Proc.devRef (τ := τ) .tc main_call4_v1)).mpr (List.mem_toFinset.mpr (List.mem_map_of_mem (by decide))),
   (Finset.singleton_subset_iff (a := Proc.devRef (τ := τ) .tc main_call4_cst_0)).mpr (List.mem_toFinset.mpr (List.mem_map_of_mem (by decide))),
   (Finset.singleton_subset_iff (a := Proc.devRef (τ := τ) .tc main_call4_v2)).mpr (List.mem_toFinset.mpr (List.mem_map_of_mem (by decide))),
   (Finset.singleton_subset_iff (a := Proc.devRef (τ := τ) .tc main_call4_v3)).mpr (List.mem_toFinset.mpr (List.mem_map_of_mem (by decide))),
   (Finset.singleton_subset_iff (a := Proc.devRef (τ := τ) .tc main_call4_v4)).mpr (List.mem_toFinset.mpr (List.mem_map_of_mem (by decide))),
   (Finset.singleton_subset_iff (a := Proc.devRef (τ := τ) .tc main_call4_v5)).mpr (List.mem_toFinset.mpr (List.mem_map_of_mem (by decide))),
   (Finset.singleton_subset_iff (a := Proc.devRef (τ := τ) .tc main_call4_v6)).mpr (List.mem_toFinset.mpr (List.mem_map_of_mem (by decide))),
   (Finset.singleton_subset_iff (a := Proc.devRef (τ := τ) .tc main_call4_v7)).mpr (List.mem_toFinset.mpr (List.mem_map_of_mem (by decide))),
   (Finset.singleton_subset_iff (a := Proc.devRef (τ := τ) .tc main_call4_cst_1)).mpr (List.mem_toFinset.mpr (List.mem_map_of_mem (by decide))),
   (Finset.singleton_subset_iff (a := Proc.devRef (τ := τ) .tc main_call4_v8)).mpr (List.mem_toFinset.mpr (List.mem_map_of_mem (by decide))),
   (Finset.singleton_subset_iff (a := Proc.devRef (τ := τ) .tc main_call4_cst_2)).mpr (List.mem_toFinset.mpr (List.mem_map_of_mem (by decide))),
   (Finset.singleton_subset_iff (a := Proc.devRef (τ := τ) .tc main_call4_v9)).mpr (List.mem_toFinset.mpr (List.mem_map_of_mem (by decide))),
   (Finset.singleton_subset_iff (a := Proc.devRef (τ := τ) .tc main_call4_v10)).mpr (List.mem_toFinset.mpr (List.mem_map_of_mem (by decide))),
   (Finset.singleton_subset_iff (a := Proc.devRef (τ := τ) .tc main_call4_v11)).mpr (List.mem_toFinset.mpr (List.mem_map_of_mem (by decide))),
   (Finset.singleton_subset_iff (a := Proc.devRef (τ := τ) .tc main_call4_cst_3)).mpr (List.mem_toFinset.mpr (List.mem_map_of_mem (by decide))),
   (Finset.singleton_subset_iff (a := Proc.devRef (τ := τ) .tc main_call4_v12)).mpr (List.mem_toFinset.mpr (List.mem_map_of_mem (by decide))),
   (Finset.singleton_subset_iff (a := Proc.devRef (τ := τ) .tc main_call4_cst_4)).mpr (List.mem_toFinset.mpr (List.mem_map_of_mem (by decide))),
   (Finset.singleton_subset_iff (a := Proc.devRef (τ := τ) .tc main_call4_call0_v0)).mpr (List.mem_toFinset.mpr (List.mem_map_of_mem (by decide))),
   (Finset.singleton_subset_iff (a := Proc.devRef (τ := τ) .tc main_call4_call0_v1)).mpr (List.mem_toFinset.mpr (List.mem_map_of_mem (by decide))),
   (Finset.singleton_subset_iff (a := Proc.devRef (τ := τ) .tc main_v118)).mpr (List.mem_toFinset.mpr (List.mem_map_of_mem (by decide))),
   (Finset.singleton_subset_iff (a := Proc.devRef (τ := τ) .tc main_v119)).mpr (List.mem_toFinset.mpr (List.mem_map_of_mem (by decide))),
   (Finset.singleton_subset_iff (a := Proc.devRef (τ := τ) .tc main_v120)).mpr (List.mem_toFinset.mpr (List.mem_map_of_mem (by decide))),
   (Finset.singleton_subset_iff (a := Proc.devRef (τ := τ) .tc main_v121)).mpr (List.mem_toFinset.mpr (List.mem_map_of_mem (by decide))),
   (Finset.singleton_subset_iff (a := Proc.devRef (τ := τ) .tc main_cst_17)).mpr (List.mem_toFinset.mpr (List.mem_map_of_mem (by decide))),
   (Finset.singleton_subset_iff (a := Proc.devRef (τ := τ) .tc main_v122)).mpr (List.mem_toFinset.mpr (List.mem_map_of_mem (by decide))),
   (Finset.singleton_subset_iff (a := Proc.devRef (τ := τ) .tc main_v123)).mpr (List.mem_toFinset.mpr (List.mem_map_of_mem (by decide))),
   (Finset.singleton_subset_iff (a := Proc.devRef (τ := τ) .tc main_v124)).mpr (List.mem_toFinset.mpr (List.mem_map_of_mem (by decide))),
   (Finset.singleton_subset_iff (a := Proc.devRef (τ := τ) .tc main_v125)).mpr (List.mem_toFinset.mpr (List.mem_map_of_mem (by decide))),
   (Finset.singleton_subset_iff (a := Proc.devRef (τ := τ) .tc main_v126)).mpr (List.mem_toFinset.mpr (List.mem_map_of_mem (by decide))),
   (Finset.singleton_subset_iff (a := Proc.devRef (τ := τ) .tc main_v127)).mpr (List.mem_toFinset.mpr (List.mem_map_of_mem (by decide))),
   (Finset.singleton_subset_iff (a := Proc.devRef (τ := τ) .tc main_v128)).mpr (List.mem_toFinset.mpr (List.mem_map_of_mem (by decide))),
   (Finset.singleton_subset_iff (a := Proc.devRef (τ := τ) .tc main_v129)).mpr (List.mem_toFinset.mpr (List.mem_map_of_mem (by decide))),
   (Finset.singleton_subset_iff (a := Proc.devRef (τ := τ) .tc main_v130)).mpr (List.mem_toFinset.mpr (List.mem_map_of_mem (by decide))),
   (Finset.singleton_subset_iff (a := Proc.devRef (τ := τ) .tc main_v131)).mpr (List.mem_toFinset.mpr (List.mem_map_of_mem (by decide))),
   (Finset.singleton_subset_iff (a := Proc.devRef (τ := τ) .tc main_v132)).mpr (List.mem_toFinset.mpr (List.mem_map_of_mem (by decide))),
   (Finset.singleton_subset_iff (a := Proc.devRef (τ := τ) .tc main_v133)).mpr (List.mem_toFinset.mpr (List.mem_map_of_mem (by decide))),
   (Finset.singleton_subset_iff (a := Proc.devRef (τ := τ) .tc main_call5_cst)).mpr (List.mem_toFinset.mpr (List.mem_map_of_mem (by decide))),
   (Finset.singleton_subset_iff (a := Proc.devRef (τ := τ) .tc main_call5_v0)).mpr (List.mem_toFinset.mpr (List.mem_map_of_mem (by decide))),
   (Finset.singleton_subset_iff (a := Proc.devRef (τ := τ) .tc main_v134)).mpr (List.mem_toFinset.mpr (List.mem_map_of_mem (by decide))),
   (Finset.singleton_subset_iff (a := Proc.devRef (τ := τ) .tc main_v135)).mpr (List.mem_toFinset.mpr (List.mem_map_of_mem (by decide))),
   (Finset.singleton_subset_iff (a := Proc.devRef (τ := τ) .tc main_v136)).mpr (List.mem_toFinset.mpr (List.mem_map_of_mem (by decide))),
   (Finset.singleton_subset_iff (a := Proc.devRef (τ := τ) .tc main_v137)).mpr (List.mem_toFinset.mpr (List.mem_map_of_mem (by decide))),
   (Finset.singleton_subset_iff (a := Proc.devRef (τ := τ) .tc main_v138)).mpr (List.mem_toFinset.mpr (List.mem_map_of_mem (by decide))),
   (Finset.singleton_subset_iff (a := Proc.devRef (τ := τ) .tc main_v139)).mpr (List.mem_toFinset.mpr (List.mem_map_of_mem (by decide)))⟩

/-- A reference these operations do not write keeps its contents through them. -/
theorem sg3_keep (V : Valuation τ sig (Elt F)) (r : Ref sig .tc) (h : r ∉ sg3_W) :
    after sg3 V (Proc.devRef .tc r) = V (Proc.devRef .tc r) :=
  after_of_writes_sub sg3 V sg3_writes h

end Cert.ReferenceIdeal.HandV

end
-- ==== Proof.RV.TopSeg4.lean ====
import proofs.«414290_j6631429505478_3_alg».proof.Proof.Gen.ReferenceIdeal
import Idealize.ShloMosaic.Lib.StableHlo.Run

set_option Elab.async false

noncomputable section

namespace Cert.ReferenceIdeal.HandV

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
set_option maxRecDepth 8192 in
/-- Operations 229 to 231 of @main, in order (3 of them): from the one writing main_cst_18 to the one writing main_v141. -/
abbrev sg4 : List (HloOp τ sig (Elt F)) :=
  [ StableHlo.nullary main_cst_18 (constant S_ .f32 0x00000000#32),
    StableHlo.unary main_cst_18 main_v140 (broadcastInDim S50000x128 ![] bcast_S_S50000x128 : (⟨S_, .f32⟩ : BufTy).Contents (Elt F) → (⟨S50000x128, .f32⟩ : BufTy).Contents (Elt F)),
    StableHlo.binary main_v140 main_v139 main_v141 (addf : (⟨S50000x128, .f32⟩ : BufTy).Contents (Elt F) → (⟨S50000x128, .f32⟩ : BufTy).Contents (Elt F) → (⟨S50000x128, .f32⟩ : BufTy).Contents (Elt F)) ]

/-- The references these operations write, in order. -/
abbrev sg4_W : List (Ref sig .tc) :=
  [main_cst_18, main_v140, main_v141]

set_option maxHeartbeats 40000000 in
set_option maxRecDepth 8192 in
/-- Each operation writes its own result reference, the one listed at its place. -/
theorem sg4_writes : (sg4 : List (HloOp τ sig (Elt F))).Forall fun op => op.writes ⊆ (sg4_W.map (Proc.devRef (τ := τ) .tc)).toFinset :=
  ⟨(Finset.singleton_subset_iff (a := Proc.devRef (τ := τ) .tc main_cst_18)).mpr (List.mem_toFinset.mpr (List.mem_map_of_mem (by decide))),
   (Finset.singleton_subset_iff (a := Proc.devRef (τ := τ) .tc main_v140)).mpr (List.mem_toFinset.mpr (List.mem_map_of_mem (by decide))),
   (Finset.singleton_subset_iff (a := Proc.devRef (τ := τ) .tc main_v141)).mpr (List.mem_toFinset.mpr (List.mem_map_of_mem (by decide)))⟩

/-- A reference these operations do not write keeps its contents through them. -/
theorem sg4_keep (V : Valuation τ sig (Elt F)) (r : Ref sig .tc) (h : r ∉ sg4_W) :
    after sg4 V (Proc.devRef .tc r) = V (Proc.devRef .tc r) :=
  after_of_writes_sub sg4 V sg4_writes h

end Cert.ReferenceIdeal.HandV

end
-- ==== Proof.RV.TopSeg5.lean ====
import proofs.«414290_j6631429505478_3_alg».proof.Proof.Gen.ReferenceIdeal
import Idealize.ShloMosaic.Lib.StableHlo.Run

set_option Elab.async false

noncomputable section

namespace Cert.ReferenceIdeal.HandV

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
set_option maxRecDepth 8192 in
/-- Operations 232 to 246 of @main, in order (15 of them): from the one writing main_c_19 to the one writing main_v153. -/
abbrev sg5 : List (HloOp τ sig (Elt F)) :=
  [ StableHlo.nullary main_c_19 (constantI S_ 32 0#32),
    StableHlo.unary main_c_19 main_v142 (broadcastInDim S800000 ![] bcast_S_S800000 : (⟨S_, .i32⟩ : BufTy).Contents (Elt F) → (⟨S800000, .i32⟩ : BufTy).Contents (Elt F)),
    StableHlo.binary main_v1 main_v142 main_v143 (cmpi .slt : (⟨S800000, .i32⟩ : BufTy).Contents (Elt F) → (⟨S800000, .i32⟩ : BufTy).Contents (Elt F) → (⟨S800000, .i1⟩ : BufTy).Contents (Elt F)),
    StableHlo.nullary main_c_20 (constantI S_ 32 50000#32),
    StableHlo.unary main_c_20 main_v144 (broadcastInDim S800000 ![] bcast_S_S800000 : (⟨S_, .i32⟩ : BufTy).Contents (Elt F) → (⟨S800000, .i32⟩ : BufTy).Contents (Elt F)),
    StableHlo.binary main_v1 main_v144 main_v145 (addi : (⟨S800000, .i32⟩ : BufTy).Contents (Elt F) → (⟨S800000, .i32⟩ : BufTy).Contents (Elt F) → (⟨S800000, .i32⟩ : BufTy).Contents (Elt F)),
    StableHlo.ternary main_v143 main_v145 main_v1 main_v146 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v146 main_v147 (broadcastInDim S800000x1 ![0] bcast_S800000_S800000x1_0 : (⟨S800000, .i32⟩ : BufTy).Contents (Elt F) → (⟨S800000x1, .i32⟩ : BufTy).Contents (Elt F)),
    StableHlo.binary main_arg1 main_v147 main_v148 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_21 (constant S_ .f32 0x00000000#32),
    StableHlo.unary main_cst_21 main_v149 (broadcastInDim S50000x128 ![] bcast_S_S50000x128 : (⟨S_, .f32⟩ : BufTy).Contents (Elt F) → (⟨S50000x128, .f32⟩ : BufTy).Contents (Elt F)),
    StableHlo.unary main_v3 main_v150 (broadcastInDim S800000x1 ![0] bcast_S800000_S800000x1_0 : (⟨S800000, .i32⟩ : BufTy).Contents (Elt F) → (⟨S800000x1, .i32⟩ : BufTy).Contents (Elt F)),
    StableHlo.ternary main_v149 main_v150 main_v148 main_v151 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v12 main_v152 (broadcastInDim S50000x128 ![0, 1] bcast_S50000x1_S50000x128_0_1 : (⟨S50000x1, .f32⟩ : BufTy).Contents (Elt F) → (⟨S50000x128, .f32⟩ : BufTy).Contents (Elt F)),
    StableHlo.binary main_v151 main_v152 main_v153 (mulf : (⟨S50000x128, .f32⟩ : BufTy).Contents (Elt F) → (⟨S50000x128, .f32⟩ : BufTy).Contents (Elt F) → (⟨S50000x128, .f32⟩ : BufTy).Contents (Elt F)) ]

/-- The references these operations write, in order. -/
abbrev sg5_W : List (Ref sig .tc) :=
  [main_c_19, main_v142, main_v143, main_c_20, main_v144, main_v145, main_v146, main_v147, main_v148, main_cst_21, main_v149, main_v150, main_v151, main_v152, main_v153]

set_option maxHeartbeats 40000000 in
set_option maxRecDepth 8192 in
/-- Each operation writes its own result reference, the one listed at its place. -/
theorem sg5_writes : (sg5 : List (HloOp τ sig (Elt F))).Forall fun op => op.writes ⊆ (sg5_W.map (Proc.devRef (τ := τ) .tc)).toFinset :=
  ⟨(Finset.singleton_subset_iff (a := Proc.devRef (τ := τ) .tc main_c_19)).mpr (List.mem_toFinset.mpr (List.mem_map_of_mem (by decide))),
   (Finset.singleton_subset_iff (a := Proc.devRef (τ := τ) .tc main_v142)).mpr (List.mem_toFinset.mpr (List.mem_map_of_mem (by decide))),
   (Finset.singleton_subset_iff (a := Proc.devRef (τ := τ) .tc main_v143)).mpr (List.mem_toFinset.mpr (List.mem_map_of_mem (by decide))),
   (Finset.singleton_subset_iff (a := Proc.devRef (τ := τ) .tc main_c_20)).mpr (List.mem_toFinset.mpr (List.mem_map_of_mem (by decide))),
   (Finset.singleton_subset_iff (a := Proc.devRef (τ := τ) .tc main_v144)).mpr (List.mem_toFinset.mpr (List.mem_map_of_mem (by decide))),
   (Finset.singleton_subset_iff (a := Proc.devRef (τ := τ) .tc main_v145)).mpr (List.mem_toFinset.mpr (List.mem_map_of_mem (by decide))),
   (Finset.singleton_subset_iff (a := Proc.devRef (τ := τ) .tc main_v146)).mpr (List.mem_toFinset.mpr (List.mem_map_of_mem (by decide))),
   (Finset.singleton_subset_iff (a := Proc.devRef (τ := τ) .tc main_v147)).mpr (List.mem_toFinset.mpr (List.mem_map_of_mem (by decide))),
   (Finset.singleton_subset_iff (a := Proc.devRef (τ := τ) .tc main_v148)).mpr (List.mem_toFinset.mpr (List.mem_map_of_mem (by decide))),
   (Finset.singleton_subset_iff (a := Proc.devRef (τ := τ) .tc main_cst_21)).mpr (List.mem_toFinset.mpr (List.mem_map_of_mem (by decide))),
   (Finset.singleton_subset_iff (a := Proc.devRef (τ := τ) .tc main_v149)).mpr (List.mem_toFinset.mpr (List.mem_map_of_mem (by decide))),
   (Finset.singleton_subset_iff (a := Proc.devRef (τ := τ) .tc main_v150)).mpr (List.mem_toFinset.mpr (List.mem_map_of_mem (by decide))),
   (Finset.singleton_subset_iff (a := Proc.devRef (τ := τ) .tc main_v151)).mpr (List.mem_toFinset.mpr (List.mem_map_of_mem (by decide))),
   (Finset.singleton_subset_iff (a := Proc.devRef (τ := τ) .tc main_v152)).mpr (List.mem_toFinset.mpr (List.mem_map_of_mem (by decide))),
   (Finset.singleton_subset_iff (a := Proc.devRef (τ := τ) .tc main_v153)).mpr (List.mem_toFinset.mpr (List.mem_map_of_mem (by decide)))⟩

/-- A reference these operations do not write keeps its contents through them. -/
theorem sg5_keep (V : Valuation τ sig (Elt F)) (r : Ref sig .tc) (h : r ∉ sg5_W) :
    after sg5 V (Proc.devRef .tc r) = V (Proc.devRef .tc r) :=
  after_of_writes_sub sg5 V sg5_writes h

end Cert.ReferenceIdeal.HandV

end
-- ==== Proof.RV.TopSeg6.lean ====
import proofs.«414290_j6631429505478_3_alg».proof.Proof.Gen.ReferenceIdeal
import Idealize.ShloMosaic.Lib.StableHlo.Run

set_option Elab.async false

noncomputable section

namespace Cert.ReferenceIdeal.HandV

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
set_option maxRecDepth 8192 in
/-- Operations 247 to 313 of @main, in order (67 of them): from the one writing main_cst_22 to the one writing main_v192. -/
abbrev sg6 : List (HloOp τ sig (Elt F)) :=
  [ StableHlo.nullary main_cst_22 (constant S_ .f32 0x00000000#32),
    StableHlo.unary main_cst_22 main_v154 (broadcastInDim S50000x128 ![] bcast_S_S50000x128 : (⟨S_, .f32⟩ : BufTy).Contents (Elt F) → (⟨S50000x128, .f32⟩ : BufTy).Contents (Elt F)),
    StableHlo.unary main_arg4 main_v155 ((extractStridedSlice S1x1x128x128 ![1, 0, 0, 0] · slices_S6x3x128x128_S1x1x128x128_1_0_0_0) : (⟨S6x3x128x128, .f32⟩ : BufTy).Contents (Elt F) → (⟨S1x1x128x128, .f32⟩ : BufTy).Contents (Elt F)),
    StableHlo.reshape main_v155 main_v156 rfl shapeCasts_S1x1x128x128_S128x128,
    StableHlo.unary main_v156 main_v157 ((transpose S128x128 [1, 0] · transposes_S128x128_S128x128_1_0) : (⟨S128x128, .f32⟩ : BufTy).Contents (Elt F) → (⟨S128x128, .f32⟩ : BufTy).Contents (Elt F)),
    StableHlo.binary main_v153 main_v157 main_v158 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg5 main_v159 ((extractStridedSlice S1x1x128 ![1, 0, 0] · slices_S6x3x128_S1x1x128_1_0_0) : (⟨S6x3x128, .f32⟩ : BufTy).Contents (Elt F) → (⟨S1x1x128, .f32⟩ : BufTy).Contents (Elt F)),
    StableHlo.reshape main_v159 main_v160 rfl shapeCasts_S1x1x128_S128,
    StableHlo.unary main_v160 main_v161 (broadcastInDim S1x128 ![1] bcast_S128_S1x128_1 : (⟨S128, .f32⟩ : BufTy).Contents (Elt F) → (⟨S1x128, .f32⟩ : BufTy).Contents (Elt F)),
    StableHlo.unary main_v161 main_v162 (broadcastInDim S50000x128 ![0, 1] bcast_S1x128_S50000x128_0_1 : (⟨S1x128, .f32⟩ : BufTy).Contents (Elt F) → (⟨S50000x128, .f32⟩ : BufTy).Contents (Elt F)),
    StableHlo.binary main_v158 main_v162 main_v163 (addf : (⟨S50000x128, .f32⟩ : BufTy).Contents (Elt F) → (⟨S50000x128, .f32⟩ : BufTy).Contents (Elt F) → (⟨S50000x128, .f32⟩ : BufTy).Contents (Elt F)),
    StableHlo.unary main_arg6 main_v164 ((extractStridedSlice S1x1x128 ![1, 0, 0] · slices_S6x3x128_S1x1x128_1_0_0) : (⟨S6x3x128, .f32⟩ : BufTy).Contents (Elt F) → (⟨S1x1x128, .f32⟩ : BufTy).Contents (Elt F)),
    StableHlo.reshape main_v164 main_v165 rfl shapeCasts_S1x1x128_S128,
    StableHlo.unary main_arg7 main_v166 ((extractStridedSlice S1x1x128 ![1, 0, 0] · slices_S6x3x128_S1x1x128_1_0_0) : (⟨S6x3x128, .f32⟩ : BufTy).Contents (Elt F) → (⟨S1x1x128, .f32⟩ : BufTy).Contents (Elt F)),
    StableHlo.reshape main_v166 main_v167 rfl shapeCasts_S1x1x128_S128,
    StableHlo.nullary main_cst_23 (constant S_ .f32 0x00000000#32),
    StableHlo.binary main_v163 main_cst_23 main_v168 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_24 (constant S_ .f32 0x47435000#32),
    StableHlo.unary main_cst_24 main_v169 (broadcastInDim S128 ![] bcast_S_S128 : (⟨S_, .f32⟩ : BufTy).Contents (Elt F) → (⟨S128, .f32⟩ : BufTy).Contents (Elt F)),
    StableHlo.binary main_v168 main_v169 main_v170 (Host.divf : (⟨S128, .f32⟩ : BufTy).Contents (Elt F) → (⟨S128, .f32⟩ : BufTy).Contents (Elt F) → (⟨S128, .f32⟩ : BufTy).Contents (Elt F)),
    StableHlo.nullary main_c_25 (constantI S_ 32 0#32),
    StableHlo.TRef.nullary main_call6.cst (constant S_ .f32 0x00000000#32),
    StableHlo.TRef.binary (.of main_v163 : StableHlo.TRef sig ⟨S50000x128, .f32⟩) main_call6.cst main_call6.v0 (fun x v => Host.reduceAdd x v reducesTo_S50000x128_S128_d0 h_S_),
    StableHlo.TRef.unary main_call6.v0 main_call6.v1 (broadcastInDim S1x128 ![1] bcast_S128_S1x128_1),
    StableHlo.TRef.nullary main_call6.cst_0 (constant S_ .f32 0x47435000#32),
    StableHlo.TRef.unary main_call6.cst_0 main_call6.v2 (broadcastInDim S1x128 ![] bcast_S_S1x128),
    StableHlo.TRef.binary main_call6.v1 main_call6.v2 main_call6.v3 Host.divf,
    StableHlo.TRef.unary main_call6.v3 main_call6.v4 (broadcastInDim S50000x128 ![0, 1] bcast_S1x128_S50000x128_0_1),
    StableHlo.TRef.binary (.of main_v163 : StableHlo.TRef sig ⟨S50000x128, .f32⟩) main_call6.v4 main_call6.v5 subf,
    StableHlo.TRef.binary main_call6.v5 main_call6.v5 main_call6.v6 mulf,
    StableHlo.TRef.unary (.of main_c_25 : StableHlo.TRef sig ⟨S_, .i32⟩) main_call6.v7 (sitofp .f32),
    StableHlo.TRef.nullary main_call6.cst_1 (constant S_ .f32 0x47435000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S50000x128_S128_d0 h_S_),
    StableHlo.TRef.unary main_call6.v8 main_call6.v10 (broadcastInDim S128 ![] bcast_S_S128),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S128 ![] bcast_S_S128),
    StableHlo.TRef.ternary main_call6.v12 main_call6.v11 main_call6.call0.v1 main_call6.call0.v2 (fun p a b => select (broadcastInDim S128 ![] bcast_S_S128 p) a b),
    StableHlo.unary main_v170 main_v172 (broadcastInDim S1x128 ![1] bcast_S128_S1x128_1 : (⟨S128, .f32⟩ : BufTy).Contents (Elt F) → (⟨S1x128, .f32⟩ : BufTy).Contents (Elt F)),
    StableHlo.unary main_v172 main_v173 (broadcastInDim S50000x128 ![0, 1] bcast_S1x128_S50000x128_0_1 : (⟨S1x128, .f32⟩ : BufTy).Contents (Elt F) → (⟨S50000x128, .f32⟩ : BufTy).Contents (Elt F)),
    StableHlo.binary main_v163 main_v173 main_v174 (subf : (⟨S50000x128, .f32⟩ : BufTy).Contents (Elt F) → (⟨S50000x128, .f32⟩ : BufTy).Contents (Elt F) → (⟨S50000x128, .f32⟩ : BufTy).Contents (Elt F)),
    StableHlo.nullary main_cst_26 (constant S_ .f32 0x3727C5AC#32),
    StableHlo.unary main_cst_26 main_v175 (broadcastInDim S128 ![] bcast_S_S128 : (⟨S_, .f32⟩ : BufTy).Contents (Elt F) → (⟨S128, .f32⟩ : BufTy).Contents (Elt F)),
    StableHlo.binary main_v171 main_v175 main_v176 (addf : (⟨S128, .f32⟩ : BufTy).Contents (Elt F) → (⟨S128, .f32⟩ : BufTy).Contents (Elt F) → (⟨S128, .f32⟩ : BufTy).Contents (Elt F)),
    StableHlo.unary main_v176 main_v177 (Host.rsqrt : (⟨S128, .f32⟩ : BufTy).Contents (Elt F) → (⟨S128, .f32⟩ : BufTy).Contents (Elt F)),
    StableHlo.unary main_v177 main_v178 (broadcastInDim S1x128 ![1] bcast_S128_S1x128_1 : (⟨S128, .f32⟩ : BufTy).Contents (Elt F) → (⟨S1x128, .f32⟩ : BufTy).Contents (Elt F)),
    StableHlo.unary main_v178 main_v179 (broadcastInDim S50000x128 ![0, 1] bcast_S1x128_S50000x128_0_1 : (⟨S1x128, .f32⟩ : BufTy).Contents (Elt F) → (⟨S50000x128, .f32⟩ : BufTy).Contents (Elt F)),
    StableHlo.binary main_v174 main_v179 main_v180 (mulf : (⟨S50000x128, .f32⟩ : BufTy).Contents (Elt F) → (⟨S50000x128, .f32⟩ : BufTy).Contents (Elt F) → (⟨S50000x128, .f32⟩ : BufTy).Contents (Elt F)),
    StableHlo.unary main_v165 main_v181 (broadcastInDim S1x128 ![1] bcast_S128_S1x128_1 : (⟨S128, .f32⟩ : BufTy).Contents (Elt F) → (⟨S1x128, .f32⟩ : BufTy).Contents (Elt F)),
    StableHlo.unary main_v181 main_v182 (broadcastInDim S50000x128 ![0, 1] bcast_S1x128_S50000x128_0_1 : (⟨S1x128, .f32⟩ : BufTy).Contents (Elt F) → (⟨S50000x128, .f32⟩ : BufTy).Contents (Elt F)),
    StableHlo.binary main_v180 main_v182 main_v183 (mulf : (⟨S50000x128, .f32⟩ : BufTy).Contents (Elt F) → (⟨S50000x128, .f32⟩ : BufTy).Contents (Elt F) → (⟨S50000x128, .f32⟩ : BufTy).Contents (Elt F)),
    StableHlo.unary main_v167 main_v184 (broadcastInDim S1x128 ![1] bcast_S128_S1x128_1 : (⟨S128, .f32⟩ : BufTy).Contents (Elt F) → (⟨S1x128, .f32⟩ : BufTy).Contents (Elt F)),
    StableHlo.unary main_v184 main_v185 (broadcastInDim S50000x128 ![0, 1] bcast_S1x128_S50000x128_0_1 : (⟨S1x128, .f32⟩ : BufTy).Contents (Elt F) → (⟨S50000x128, .f32⟩ : BufTy).Contents (Elt F)),
    StableHlo.binary main_v183 main_v185 main_v186 (addf : (⟨S50000x128, .f32⟩ : BufTy).Contents (Elt F) → (⟨S50000x128, .f32⟩ : BufTy).Contents (Elt F) → (⟨S50000x128, .f32⟩ : BufTy).Contents (Elt F)),
    StableHlo.TRef.nullary main_call7.cst (constant S_ .f32 0x00000000#32),
    StableHlo.TRef.unary main_call7.cst main_call7.v0 (broadcastInDim S50000x128 ![] bcast_S_S50000x128),
    StableHlo.TRef.binary (.of main_v186 : StableHlo.TRef sig ⟨S50000x128, .f32⟩) main_call7.v0 main_call7.v1 maximumf,
    StableHlo.unary main_arg3 main_v188 ((extractStridedSlice S1x1 ![1, 0] · slices_S6x3_S1x1_1_0) : (⟨S6x3, .f32⟩ : BufTy).Contents (Elt F) → (⟨S1x1, .f32⟩ : BufTy).Contents (Elt F)),
    StableHlo.reshape main_v188 main_v189 rfl shapeCasts_S1x1_S_,
    StableHlo.unary main_v189 main_v190 (broadcastInDim S50000x128 ![] bcast_S_S50000x128 : (⟨S_, .f32⟩ : BufTy).Contents (Elt F) → (⟨S50000x128, .f32⟩ : BufTy).Contents (Elt F)),
    StableHlo.binary main_v190 main_v187 main_v191 (mulf : (⟨S50000x128, .f32⟩ : BufTy).Contents (Elt F) → (⟨S50000x128, .f32⟩ : BufTy).Contents (Elt F) → (⟨S50000x128, .f32⟩ : BufTy).Contents (Elt F)),
    StableHlo.binary main_v154 main_v191 main_v192 (addf : (⟨S50000x128, .f32⟩ : BufTy).Contents (Elt F) → (⟨S50000x128, .f32⟩ : BufTy).Contents (Elt F) → (⟨S50000x128, .f32⟩ : BufTy).Contents (Elt F)) ]

/-- The references these operations write, in order. -/
abbrev sg6_W : List (Ref sig .tc) :=
  [main_cst_22, main_v154, main_v155, main_v156, main_v157, main_v158, main_v159, main_v160, main_v161, main_v162, main_v163, main_v164, main_v165, main_v166, main_v167, main_cst_23, main_v168, main_cst_24, main_v169, main_v170, main_c_25, main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v171, main_v172, main_v173, main_v174, main_cst_26, main_v175, main_v176, main_v177, main_v178, main_v179, main_v180, main_v181, main_v182, main_v183, main_v184, main_v185, main_v186, main_call7_cst, main_call7_v0, main_v187, main_v188, main_v189, main_v190, main_v191, main_v192]

set_option maxHeartbeats 40000000 in
set_option maxRecDepth 8192 in
/-- Each operation writes its own result reference, the one listed at its place. -/
theorem sg6_writes : (sg6 : List (HloOp τ sig (Elt F))).Forall fun op => op.writes ⊆ (sg6_W.map (Proc.devRef (τ := τ) .tc)).toFinset :=
  ⟨(Finset.singleton_subset_iff (a := Proc.devRef (τ := τ) .tc main_cst_22)).mpr (List.mem_toFinset.mpr (List.mem_map_of_mem (by decide))),
   (Finset.singleton_subset_iff (a := Proc.devRef (τ := τ) .tc main_v154)).mpr (List.mem_toFinset.mpr (List.mem_map_of_mem (by decide))),
   (Finset.singleton_subset_iff (a := Proc.devRef (τ := τ) .tc main_v155)).mpr (List.mem_toFinset.mpr (List.mem_map_of_mem (by decide))),
   (Finset.singleton_subset_iff (a := Proc.devRef (τ := τ) .tc main_v156)).mpr (List.mem_toFinset.mpr (List.mem_map_of_mem (by decide))),
   (Finset.singleton_subset_iff (a := Proc.devRef (τ := τ) .tc main_v157)).mpr (List.mem_toFinset.mpr (List.mem_map_of_mem (by decide))),
   (Finset.singleton_subset_iff (a := Proc.devRef (τ := τ) .tc main_v158)).mpr (List.mem_toFinset.mpr (List.mem_map_of_mem (by decide))),
   (Finset.singleton_subset_iff (a := Proc.devRef (τ := τ) .tc main_v159)).mpr (List.mem_toFinset.mpr (List.mem_map_of_mem (by decide))),
   (Finset.singleton_subset_iff (a := Proc.devRef (τ := τ) .tc main_v160)).mpr (List.mem_toFinset.mpr (List.mem_map_of_mem (by decide))),
   (Finset.singleton_subset_iff (a := Proc.devRef (τ := τ) .tc main_v161)).mpr (List.mem_toFinset.mpr (List.mem_map_of_mem (by decide))),
   (Finset.singleton_subset_iff (a := Proc.devRef (τ := τ) .tc main_v162)).mpr (List.mem_toFinset.mpr (List.mem_map_of_mem (by decide))),
   (Finset.singleton_subset_iff (a := Proc.devRef (τ := τ) .tc main_v163)).mpr (List.mem_toFinset.mpr (List.mem_map_of_mem (by decide))),
   (Finset.singleton_subset_iff (a := Proc.devRef (τ := τ) .tc main_v164)).mpr (List.mem_toFinset.mpr (List.mem_map_of_mem (by decide))),
   (Finset.singleton_subset_iff (a := Proc.devRef (τ := τ) .tc main_v165)).mpr (List.mem_toFinset.mpr (List.mem_map_of_mem (by decide))),
   (Finset.singleton_subset_iff (a := Proc.devRef (τ := τ) .tc main_v166)).mpr (List.mem_toFinset.mpr (List.mem_map_of_mem (by decide))),
   (Finset.singleton_subset_iff (a := Proc.devRef (τ := τ) .tc main_v167)).mpr (List.mem_toFinset.mpr (List.mem_map_of_mem (by decide))),
   (Finset.singleton_subset_iff (a := Proc.devRef (τ := τ) .tc main_cst_23)).mpr (List.mem_toFinset.mpr (List.mem_map_of_mem (by decide))),
   (Finset.singleton_subset_iff (a := Proc.devRef (τ := τ) .tc main_v168)).mpr (List.mem_toFinset.mpr (List.mem_map_of_mem (by decide))),
   (Finset.singleton_subset_iff (a := Proc.devRef (τ := τ) .tc main_cst_24)).mpr (List.mem_toFinset.mpr (List.mem_map_of_mem (by decide))),
   (Finset.singleton_subset_iff (a := Proc.devRef (τ := τ) .tc main_v169)).mpr (List.mem_toFinset.mpr (List.mem_map_of_mem (by decide))),
   (Finset.singleton_subset_iff (a := Proc.devRef (τ := τ) .tc main_v170)).mpr (List.mem_toFinset.mpr (List.mem_map_of_mem (by decide))),
   (Finset.singleton_subset_iff (a := Proc.devRef (τ := τ) .tc main_c_25)).mpr (List.mem_toFinset.mpr (List.mem_map_of_mem (by decide))),
   (Finset.singleton_subset_iff (a := Proc.devRef (τ := τ) .tc main_call6_cst)).mpr (List.mem_toFinset.mpr (List.mem_map_of_mem (by decide))),
   (Finset.singleton_subset_iff (a := Proc.devRef (τ := τ) .tc main_call6_v0)).mpr (List.mem_toFinset.mpr (List.mem_map_of_mem (by decide))),
   (Finset.singleton_subset_iff (a := Proc.devRef (τ := τ) .tc main_call6_v1)).mpr (List.mem_toFinset.mpr (List.mem_map_of_mem (by decide))),
   (Finset.singleton_subset_iff (a := Proc.devRef (τ := τ) .tc main_call6_cst_0)).mpr (List.mem_toFinset.mpr (List.mem_map_of_mem (by decide))),
   (Finset.singleton_subset_iff (a := Proc.devRef (τ := τ) .tc main_call6_v2)).mpr (List.mem_toFinset.mpr (List.mem_map_of_mem (by decide))),
   (Finset.singleton_subset_iff (a := Proc.devRef (τ := τ) .tc main_call6_v3)).mpr (List.mem_toFinset.mpr (List.mem_map_of_mem (by decide))),
   (Finset.singleton_subset_iff (a := Proc.devRef (τ := τ) .tc main_call6_v4)).mpr (List.mem_toFinset.mpr (List.mem_map_of_mem (by decide))),
   (Finset.singleton_subset_iff (a := Proc.devRef (τ := τ) .tc main_call6_v5)).mpr (List.mem_toFinset.mpr (List.mem_map_of_mem (by decide))),
   (Finset.singleton_subset_iff (a := Proc.devRef (τ := τ) .tc main_call6_v6)).mpr (List.mem_toFinset.mpr (List.mem_map_of_mem (by decide))),
   (Finset.singleton_subset_iff (a := Proc.devRef (τ := τ) .tc main_call6_v7)).mpr (List.mem_toFinset.mpr (List.mem_map_of_mem (by decide))),
   (Finset.singleton_subset_iff (a := Proc.devRef (τ := τ) .tc main_call6_cst_1)).mpr (List.mem_toFinset.mpr (List.mem_map_of_mem (by decide))),
   (Finset.singleton_subset_iff (a := Proc.devRef (τ := τ) .tc main_call6_v8)).mpr (List.mem_toFinset.mpr (List.mem_map_of_mem (by decide))),
   (Finset.singleton_subset_iff (a := Proc.devRef (τ := τ) .tc main_call6_cst_2)).mpr (List.mem_toFinset.mpr (List.mem_map_of_mem (by decide))),
   (Finset.singleton_subset_iff (a := Proc.devRef (τ := τ) .tc main_call6_v9)).mpr (List.mem_toFinset.mpr (List.mem_map_of_mem (by decide))),
   (Finset.singleton_subset_iff (a := Proc.devRef (τ := τ) .tc main_call6_v10)).mpr (List.mem_toFinset.mpr (List.mem_map_of_mem (by decide))),
   (Finset.singleton_subset_iff (a := Proc.devRef (τ := τ) .tc main_call6_v11)).mpr (List.mem_toFinset.mpr (List.mem_map_of_mem (by decide))),
   (Finset.singleton_subset_iff (a := Proc.devRef (τ := τ) .tc main_call6_cst_3)).mpr (List.mem_toFinset.mpr (List.mem_map_of_mem (by decide))),
   (Finset.singleton_subset_iff (a := Proc.devRef (τ := τ) .tc main_call6_v12)).mpr (List.mem_toFinset.mpr (List.mem_map_of_mem (by decide))),
   (Finset.singleton_subset_iff (a := Proc.devRef (τ := τ) .tc main_call6_cst_4)).mpr (List.mem_toFinset.mpr (List.mem_map_of_mem (by decide))),
   (Finset.singleton_subset_iff (a := Proc.devRef (τ := τ) .tc main_call6_call0_v0)).mpr (List.mem_toFinset.mpr (List.mem_map_of_mem (by decide))),
   (Finset.singleton_subset_iff (a := Proc.devRef (τ := τ) .tc main_call6_call0_v1)).mpr (List.mem_toFinset.mpr (List.mem_map_of_mem (by decide))),
   (Finset.singleton_subset_iff (a := Proc.devRef (τ := τ) .tc main_v171)).mpr (List.mem_toFinset.mpr (List.mem_map_of_mem (by decide))),
   (Finset.singleton_subset_iff (a := Proc.devRef (τ := τ) .tc main_v172)).mpr (List.mem_toFinset.mpr (List.mem_map_of_mem (by decide))),
   (Finset.singleton_subset_iff (a := Proc.devRef (τ := τ) .tc main_v173)).mpr (List.mem_toFinset.mpr (List.mem_map_of_mem (by decide))),
   (Finset.singleton_subset_iff (a := Proc.devRef (τ := τ) .tc main_v174)).mpr (List.mem_toFinset.mpr (List.mem_map_of_mem (by decide))),
   (Finset.singleton_subset_iff (a := Proc.devRef (τ := τ) .tc main_cst_26)).mpr (List.mem_toFinset.mpr (List.mem_map_of_mem (by decide))),
   (Finset.singleton_subset_iff (a := Proc.devRef (τ := τ) .tc main_v175)).mpr (List.mem_toFinset.mpr (List.mem_map_of_mem (by decide))),
   (Finset.singleton_subset_iff (a := Proc.devRef (τ := τ) .tc main_v176)).mpr (List.mem_toFinset.mpr (List.mem_map_of_mem (by decide))),
   (Finset.singleton_subset_iff (a := Proc.devRef (τ := τ) .tc main_v177)).mpr (List.mem_toFinset.mpr (List.mem_map_of_mem (by decide))),
   (Finset.singleton_subset_iff (a := Proc.devRef (τ := τ) .tc main_v178)).mpr (List.mem_toFinset.mpr (List.mem_map_of_mem (by decide))),
   (Finset.singleton_subset_iff (a := Proc.devRef (τ := τ) .tc main_v179)).mpr (List.mem_toFinset.mpr (List.mem_map_of_mem (by decide))),
   (Finset.singleton_subset_iff (a := Proc.devRef (τ := τ) .tc main_v180)).mpr (List.mem_toFinset.mpr (List.mem_map_of_mem (by decide))),
   (Finset.singleton_subset_iff (a := Proc.devRef (τ := τ) .tc main_v181)).mpr (List.mem_toFinset.mpr (List.mem_map_of_mem (by decide))),
   (Finset.singleton_subset_iff (a := Proc.devRef (τ := τ) .tc main_v182)).mpr (List.mem_toFinset.mpr (List.mem_map_of_mem (by decide))),
   (Finset.singleton_subset_iff (a := Proc.devRef (τ := τ) .tc main_v183)).mpr (List.mem_toFinset.mpr (List.mem_map_of_mem (by decide))),
   (Finset.singleton_subset_iff (a := Proc.devRef (τ := τ) .tc main_v184)).mpr (List.mem_toFinset.mpr (List.mem_map_of_mem (by decide))),
   (Finset.singleton_subset_iff (a := Proc.devRef (τ := τ) .tc main_v185)).mpr (List.mem_toFinset.mpr (List.mem_map_of_mem (by decide))),
   (Finset.singleton_subset_iff (a := Proc.devRef (τ := τ) .tc main_v186)).mpr (List.mem_toFinset.mpr (List.mem_map_of_mem (by decide))),
   (Finset.singleton_subset_iff (a := Proc.devRef (τ := τ) .tc main_call7_cst)).mpr (List.mem_toFinset.mpr (List.mem_map_of_mem (by decide))),
   (Finset.singleton_subset_iff (a := Proc.devRef (τ := τ) .tc main_call7_v0)).mpr (List.mem_toFinset.mpr (List.mem_map_of_mem (by decide))),
   (Finset.singleton_subset_iff (a := Proc.devRef (τ := τ) .tc main_v187)).mpr (List.mem_toFinset.mpr (List.mem_map_of_mem (by decide))),
   (Finset.singleton_subset_iff (a := Proc.devRef (τ := τ) .tc main_v188)).mpr (List.mem_toFinset.mpr (List.mem_map_of_mem (by decide))),
   (Finset.singleton_subset_iff (a := Proc.devRef (τ := τ) .tc main_v189)).mpr (List.mem_toFinset.mpr (List.mem_map_of_mem (by decide))),
   (Finset.singleton_subset_iff (a := Proc.devRef (τ := τ) .tc main_v190)).mpr (List.mem_toFinset.mpr (List.mem_map_of_mem (by decide))),
   (Finset.singleton_subset_iff (a := Proc.devRef (τ := τ) .tc main_v191)).mpr (List.mem_toFinset.mpr (List.mem_map_of_mem (by decide))),
   (Finset.singleton_subset_iff (a := Proc.devRef (τ := τ) .tc main_v192)).mpr (List.mem_toFinset.mpr (List.mem_map_of_mem (by decide)))⟩

/-- A reference these operations do not write keeps its contents through them. -/
theorem sg6_keep (V : Valuation τ sig (Elt F)) (r : Ref sig .tc) (h : r ∉ sg6_W) :
    after sg6 V (Proc.devRef .tc r) = V (Proc.devRef .tc r) :=
  after_of_writes_sub sg6 V sg6_writes h

end Cert.ReferenceIdeal.HandV

end
-- ==== Proof.RV.TopSeg7.lean ====
import proofs.«414290_j6631429505478_3_alg».proof.Proof.Gen.ReferenceIdeal
import Idealize.ShloMosaic.Lib.StableHlo.Run

set_option Elab.async false

noncomputable section

namespace Cert.ReferenceIdeal.HandV

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
set_option maxRecDepth 8192 in
/-- Operations 314 to 378 of @main, in order (65 of them): from the one writing main_v193 to the one writing main_v230. -/
abbrev sg7 : List (HloOp τ sig (Elt F)) :=
  [ StableHlo.unary main_arg4 main_v193 ((extractStridedSlice S1x1x128x128 ![1, 1, 0, 0] · slices_S6x3x128x128_S1x1x128x128_1_1_0_0) : (⟨S6x3x128x128, .f32⟩ : BufTy).Contents (Elt F) → (⟨S1x1x128x128, .f32⟩ : BufTy).Contents (Elt F)),
    StableHlo.reshape main_v193 main_v194 rfl shapeCasts_S1x1x128x128_S128x128,
    StableHlo.unary main_v194 main_v195 ((transpose S128x128 [1, 0] · transposes_S128x128_S128x128_1_0) : (⟨S128x128, .f32⟩ : BufTy).Contents (Elt F) → (⟨S128x128, .f32⟩ : BufTy).Contents (Elt F)),
    StableHlo.binary main_arg1 main_v195 main_v196 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg5 main_v197 ((extractStridedSlice S1x1x128 ![1, 1, 0] · slices_S6x3x128_S1x1x128_1_1_0) : (⟨S6x3x128, .f32⟩ : BufTy).Contents (Elt F) → (⟨S1x1x128, .f32⟩ : BufTy).Contents (Elt F)),
    StableHlo.reshape main_v197 main_v198 rfl shapeCasts_S1x1x128_S128,
    StableHlo.unary main_v198 main_v199 (broadcastInDim S1x128 ![1] bcast_S128_S1x128_1 : (⟨S128, .f32⟩ : BufTy).Contents (Elt F) → (⟨S1x128, .f32⟩ : BufTy).Contents (Elt F)),
    StableHlo.unary main_v199 main_v200 (broadcastInDim S50000x128 ![0, 1] bcast_S1x128_S50000x128_0_1 : (⟨S1x128, .f32⟩ : BufTy).Contents (Elt F) → (⟨S50000x128, .f32⟩ : BufTy).Contents (Elt F)),
    StableHlo.binary main_v196 main_v200 main_v201 (addf : (⟨S50000x128, .f32⟩ : BufTy).Contents (Elt F) → (⟨S50000x128, .f32⟩ : BufTy).Contents (Elt F) → (⟨S50000x128, .f32⟩ : BufTy).Contents (Elt F)),
    StableHlo.unary main_arg6 main_v202 ((extractStridedSlice S1x1x128 ![1, 1, 0] · slices_S6x3x128_S1x1x128_1_1_0) : (⟨S6x3x128, .f32⟩ : BufTy).Contents (Elt F) → (⟨S1x1x128, .f32⟩ : BufTy).Contents (Elt F)),
    StableHlo.reshape main_v202 main_v203 rfl shapeCasts_S1x1x128_S128,
    StableHlo.unary main_arg7 main_v204 ((extractStridedSlice S1x1x128 ![1, 1, 0] · slices_S6x3x128_S1x1x128_1_1_0) : (⟨S6x3x128, .f32⟩ : BufTy).Contents (Elt F) → (⟨S1x1x128, .f32⟩ : BufTy).Contents (Elt F)),
    StableHlo.reshape main_v204 main_v205 rfl shapeCasts_S1x1x128_S128,
    StableHlo.nullary main_cst_27 (constant S_ .f32 0x00000000#32),
    StableHlo.binary main_v201 main_cst_27 main_v206 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_28 (constant S_ .f32 0x47435000#32),
    StableHlo.unary main_cst_28 main_v207 (broadcastInDim S128 ![] bcast_S_S128 : (⟨S_, .f32⟩ : BufTy).Contents (Elt F) → (⟨S128, .f32⟩ : BufTy).Contents (Elt F)),
    StableHlo.binary main_v206 main_v207 main_v208 (Host.divf : (⟨S128, .f32⟩ : BufTy).Contents (Elt F) → (⟨S128, .f32⟩ : BufTy).Contents (Elt F) → (⟨S128, .f32⟩ : BufTy).Contents (Elt F)),
    StableHlo.nullary main_c_29 (constantI S_ 32 0#32),
    StableHlo.TRef.nullary main_call8.cst (constant S_ .f32 0x00000000#32),
    StableHlo.TRef.binary (.of main_v201 : StableHlo.TRef sig ⟨S50000x128, .f32⟩) main_call8.cst main_call8.v0 (fun x v => Host.reduceAdd x v reducesTo_S50000x128_S128_d0 h_S_),
    StableHlo.TRef.unary main_call8.v0 main_call8.v1 (broadcastInDim S1x128 ![1] bcast_S128_S1x128_1),
    StableHlo.TRef.nullary main_call8.cst_0 (constant S_ .f32 0x47435000#32),
    StableHlo.TRef.unary main_call8.cst_0 main_call8.v2 (broadcastInDim S1x128 ![] bcast_S_S1x128),
    StableHlo.TRef.binary main_call8.v1 main_call8.v2 main_call8.v3 Host.divf,
    StableHlo.TRef.unary main_call8.v3 main_call8.v4 (broadcastInDim S50000x128 ![0, 1] bcast_S1x128_S50000x128_0_1),
    StableHlo.TRef.binary (.of main_v201 : StableHlo.TRef sig ⟨S50000x128, .f32⟩) main_call8.v4 main_call8.v5 subf,
    StableHlo.TRef.binary main_call8.v5 main_call8.v5 main_call8.v6 mulf,
    StableHlo.TRef.unary (.of main_c_29 : StableHlo.TRef sig ⟨S_, .i32⟩) main_call8.v7 (sitofp .f32),
    StableHlo.TRef.nullary main_call8.cst_1 (constant S_ .f32 0x47435000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S50000x128_S128_d0 h_S_),
    StableHlo.TRef.unary main_call8.v8 main_call8.v10 (broadcastInDim S128 ![] bcast_S_S128),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S128 ![] bcast_S_S128),
    StableHlo.TRef.ternary main_call8.v12 main_call8.v11 main_call8.call0.v1 main_call8.call0.v2 (fun p a b => select (broadcastInDim S128 ![] bcast_S_S128 p) a b),
    StableHlo.unary main_v208 main_v210 (broadcastInDim S1x128 ![1] bcast_S128_S1x128_1 : (⟨S128, .f32⟩ : BufTy).Contents (Elt F) → (⟨S1x128, .f32⟩ : BufTy).Contents (Elt F)),
    StableHlo.unary main_v210 main_v211 (broadcastInDim S50000x128 ![0, 1] bcast_S1x128_S50000x128_0_1 : (⟨S1x128, .f32⟩ : BufTy).Contents (Elt F) → (⟨S50000x128, .f32⟩ : BufTy).Contents (Elt F)),
    StableHlo.binary main_v201 main_v211 main_v212 (subf : (⟨S50000x128, .f32⟩ : BufTy).Contents (Elt F) → (⟨S50000x128, .f32⟩ : BufTy).Contents (Elt F) → (⟨S50000x128, .f32⟩ : BufTy).Contents (Elt F)),
    StableHlo.nullary main_cst_30 (constant S_ .f32 0x3727C5AC#32),
    StableHlo.unary main_cst_30 main_v213 (broadcastInDim S128 ![] bcast_S_S128 : (⟨S_, .f32⟩ : BufTy).Contents (Elt F) → (⟨S128, .f32⟩ : BufTy).Contents (Elt F)),
    StableHlo.binary main_v209 main_v213 main_v214 (addf : (⟨S128, .f32⟩ : BufTy).Contents (Elt F) → (⟨S128, .f32⟩ : BufTy).Contents (Elt F) → (⟨S128, .f32⟩ : BufTy).Contents (Elt F)),
    StableHlo.unary main_v214 main_v215 (Host.rsqrt : (⟨S128, .f32⟩ : BufTy).Contents (Elt F) → (⟨S128, .f32⟩ : BufTy).Contents (Elt F)),
    StableHlo.unary main_v215 main_v216 (broadcastInDim S1x128 ![1] bcast_S128_S1x128_1 : (⟨S128, .f32⟩ : BufTy).Contents (Elt F) → (⟨S1x128, .f32⟩ : BufTy).Contents (Elt F)),
    StableHlo.unary main_v216 main_v217 (broadcastInDim S50000x128 ![0, 1] bcast_S1x128_S50000x128_0_1 : (⟨S1x128, .f32⟩ : BufTy).Contents (Elt F) → (⟨S50000x128, .f32⟩ : BufTy).Contents (Elt F)),
    StableHlo.binary main_v212 main_v217 main_v218 (mulf : (⟨S50000x128, .f32⟩ : BufTy).Contents (Elt F) → (⟨S50000x128, .f32⟩ : BufTy).Contents (Elt F) → (⟨S50000x128, .f32⟩ : BufTy).Contents (Elt F)),
    StableHlo.unary main_v203 main_v219 (broadcastInDim S1x128 ![1] bcast_S128_S1x128_1 : (⟨S128, .f32⟩ : BufTy).Contents (Elt F) → (⟨S1x128, .f32⟩ : BufTy).Contents (Elt F)),
    StableHlo.unary main_v219 main_v220 (broadcastInDim S50000x128 ![0, 1] bcast_S1x128_S50000x128_0_1 : (⟨S1x128, .f32⟩ : BufTy).Contents (Elt F) → (⟨S50000x128, .f32⟩ : BufTy).Contents (Elt F)),
    StableHlo.binary main_v218 main_v220 main_v221 (mulf : (⟨S50000x128, .f32⟩ : BufTy).Contents (Elt F) → (⟨S50000x128, .f32⟩ : BufTy).Contents (Elt F) → (⟨S50000x128, .f32⟩ : BufTy).Contents (Elt F)),
    StableHlo.unary main_v205 main_v222 (broadcastInDim S1x128 ![1] bcast_S128_S1x128_1 : (⟨S128, .f32⟩ : BufTy).Contents (Elt F) → (⟨S1x128, .f32⟩ : BufTy).Contents (Elt F)),
    StableHlo.unary main_v222 main_v223 (broadcastInDim S50000x128 ![0, 1] bcast_S1x128_S50000x128_0_1 : (⟨S1x128, .f32⟩ : BufTy).Contents (Elt F) → (⟨S50000x128, .f32⟩ : BufTy).Contents (Elt F)),
    StableHlo.binary main_v221 main_v223 main_v224 (addf : (⟨S50000x128, .f32⟩ : BufTy).Contents (Elt F) → (⟨S50000x128, .f32⟩ : BufTy).Contents (Elt F) → (⟨S50000x128, .f32⟩ : BufTy).Contents (Elt F)),
    StableHlo.TRef.nullary main_call9.cst (constant S_ .f32 0x00000000#32),
    StableHlo.TRef.unary main_call9.cst main_call9.v0 (broadcastInDim S50000x128 ![] bcast_S_S50000x128),
    StableHlo.TRef.binary (.of main_v224 : StableHlo.TRef sig ⟨S50000x128, .f32⟩) main_call9.v0 main_call9.v1 maximumf,
    StableHlo.unary main_arg3 main_v226 ((extractStridedSlice S1x1 ![1, 1] · slices_S6x3_S1x1_1_1) : (⟨S6x3, .f32⟩ : BufTy).Contents (Elt F) → (⟨S1x1, .f32⟩ : BufTy).Contents (Elt F)),
    StableHlo.reshape main_v226 main_v227 rfl shapeCasts_S1x1_S_,
    StableHlo.unary main_v227 main_v228 (broadcastInDim S50000x128 ![] bcast_S_S50000x128 : (⟨S_, .f32⟩ : BufTy).Contents (Elt F) → (⟨S50000x128, .f32⟩ : BufTy).Contents (Elt F)),
    StableHlo.binary main_v228 main_v225 main_v229 (mulf : (⟨S50000x128, .f32⟩ : BufTy).Contents (Elt F) → (⟨S50000x128, .f32⟩ : BufTy).Contents (Elt F) → (⟨S50000x128, .f32⟩ : BufTy).Contents (Elt F)),
    StableHlo.binary main_v192 main_v229 main_v230 (addf : (⟨S50000x128, .f32⟩ : BufTy).Contents (Elt F) → (⟨S50000x128, .f32⟩ : BufTy).Contents (Elt F) → (⟨S50000x128, .f32⟩ : BufTy).Contents (Elt F)) ]

/-- The references these operations write, in order. -/
abbrev sg7_W : List (Ref sig .tc) :=
  [main_v193, main_v194, main_v195, main_v196, main_v197, main_v198, main_v199, main_v200, main_v201, main_v202, main_v203, main_v204, main_v205, main_cst_27, main_v206, main_cst_28, main_v207, main_v208, main_c_29, main_call8_cst, main_call8_v0, main_call8_v1, main_call8_cst_0, main_call8_v2, main_call8_v3, main_call8_v4, main_call8_v5, main_call8_v6, main_call8_v7, main_call8_cst_1, main_call8_v8, main_call8_cst_2, main_call8_v9, main_call8_v10, main_call8_v11, main_call8_cst_3, main_call8_v12, main_call8_cst_4, main_call8_call0_v0, main_call8_call0_v1, main_v209, main_v210, main_v211, main_v212, main_cst_30, main_v213, main_v214, main_v215, main_v216, main_v217, main_v218, main_v219, main_v220, main_v221, main_v222, main_v223, main_v224, main_call9_cst, main_call9_v0, main_v225, main_v226, main_v227, main_v228, main_v229, main_v230]

set_option maxHeartbeats 40000000 in
set_option maxRecDepth 8192 in
/-- Each operation writes its own result reference, the one listed at its place. -/
theorem sg7_writes : (sg7 : List (HloOp τ sig (Elt F))).Forall fun op => op.writes ⊆ (sg7_W.map (Proc.devRef (τ := τ) .tc)).toFinset :=
  ⟨(Finset.singleton_subset_iff (a := Proc.devRef (τ := τ) .tc main_v193)).mpr (List.mem_toFinset.mpr (List.mem_map_of_mem (by decide))),
   (Finset.singleton_subset_iff (a := Proc.devRef (τ := τ) .tc main_v194)).mpr (List.mem_toFinset.mpr (List.mem_map_of_mem (by decide))),
   (Finset.singleton_subset_iff (a := Proc.devRef (τ := τ) .tc main_v195)).mpr (List.mem_toFinset.mpr (List.mem_map_of_mem (by decide))),
   (Finset.singleton_subset_iff (a := Proc.devRef (τ := τ) .tc main_v196)).mpr (List.mem_toFinset.mpr (List.mem_map_of_mem (by decide))),
   (Finset.singleton_subset_iff (a := Proc.devRef (τ := τ) .tc main_v197)).mpr (List.mem_toFinset.mpr (List.mem_map_of_mem (by decide))),
   (Finset.singleton_subset_iff (a := Proc.devRef (τ := τ) .tc main_v198)).mpr (List.mem_toFinset.mpr (List.mem_map_of_mem (by decide))),
   (Finset.singleton_subset_iff (a := Proc.devRef (τ := τ) .tc main_v199)).mpr (List.mem_toFinset.mpr (List.mem_map_of_mem (by decide))),
   (Finset.singleton_subset_iff (a := Proc.devRef (τ := τ) .tc main_v200)).mpr (List.mem_toFinset.mpr (List.mem_map_of_mem (by decide))),
   (Finset.singleton_subset_iff (a := Proc.devRef (τ := τ) .tc main_v201)).mpr (List.mem_toFinset.mpr (List.mem_map_of_mem (by decide))),
   (Finset.singleton_subset_iff (a := Proc.devRef (τ := τ) .tc main_v202)).mpr (List.mem_toFinset.mpr (List.mem_map_of_mem (by decide))),
   (Finset.singleton_subset_iff (a := Proc.devRef (τ := τ) .tc main_v203)).mpr (List.mem_toFinset.mpr (List.mem_map_of_mem (by decide))),
   (Finset.singleton_subset_iff (a := Proc.devRef (τ := τ) .tc main_v204)).mpr (List.mem_toFinset.mpr (List.mem_map_of_mem (by decide))),
   (Finset.singleton_subset_iff (a := Proc.devRef (τ := τ) .tc main_v205)).mpr (List.mem_toFinset.mpr (List.mem_map_of_mem (by decide))),
   (Finset.singleton_subset_iff (a := Proc.devRef (τ := τ) .tc main_cst_27)).mpr (List.mem_toFinset.mpr (List.mem_map_of_mem (by decide))),
   (Finset.singleton_subset_iff (a := Proc.devRef (τ := τ) .tc main_v206)).mpr (List.mem_toFinset.mpr (List.mem_map_of_mem (by decide))),
   (Finset.singleton_subset_iff (a := Proc.devRef (τ := τ) .tc main_cst_28)).mpr (List.mem_toFinset.mpr (List.mem_map_of_mem (by decide))),
   (Finset.singleton_subset_iff (a := Proc.devRef (τ := τ) .tc main_v207)).mpr (List.mem_toFinset.mpr (List.mem_map_of_mem (by decide))),
   (Finset.singleton_subset_iff (a := Proc.devRef (τ := τ) .tc main_v208)).mpr (List.mem_toFinset.mpr (List.mem_map_of_mem (by decide))),
   (Finset.singleton_subset_iff (a := Proc.devRef (τ := τ) .tc main_c_29)).mpr (List.mem_toFinset.mpr (List.mem_map_of_mem (by decide))),
   (Finset.singleton_subset_iff (a := Proc.devRef (τ := τ) .tc main_call8_cst)).mpr (List.mem_toFinset.mpr (List.mem_map_of_mem (by decide))),
   (Finset.singleton_subset_iff (a := Proc.devRef (τ := τ) .tc main_call8_v0)).mpr (List.mem_toFinset.mpr (List.mem_map_of_mem (by decide))),
   (Finset.singleton_subset_iff (a := Proc.devRef (τ := τ) .tc main_call8_v1)).mpr (List.mem_toFinset.mpr (List.mem_map_of_mem (by decide))),
   (Finset.singleton_subset_iff (a := Proc.devRef (τ := τ) .tc main_call8_cst_0)).mpr (List.mem_toFinset.mpr (List.mem_map_of_mem (by decide))),
   (Finset.singleton_subset_iff (a := Proc.devRef (τ := τ) .tc main_call8_v2)).mpr (List.mem_toFinset.mpr (List.mem_map_of_mem (by decide))),
   (Finset.singleton_subset_iff (a := Proc.devRef (τ := τ) .tc main_call8_v3)).mpr (List.mem_toFinset.mpr (List.mem_map_of_mem (by decide))),
   (Finset.singleton_subset_iff (a := Proc.devRef (τ := τ) .tc main_call8_v4)).mpr (List.mem_toFinset.mpr (List.mem_map_of_mem (by decide))),
   (Finset.singleton_subset_iff (a := Proc.devRef (τ := τ) .tc main_call8_v5)).mpr (List.mem_toFinset.mpr (List.mem_map_of_mem (by decide))),
   (Finset.singleton_subset_iff (a := Proc.devRef (τ := τ) .tc main_call8_v6)).mpr (List.mem_toFinset.mpr (List.mem_map_of_mem (by decide))),
   (Finset.singleton_subset_iff (a := Proc.devRef (τ := τ) .tc main_call8_v7)).mpr (List.mem_toFinset.mpr (List.mem_map_of_mem (by decide))),
   (Finset.singleton_subset_iff (a := Proc.devRef (τ := τ) .tc main_call8_cst_1)).mpr (List.mem_toFinset.mpr (List.mem_map_of_mem (by decide))),
   (Finset.singleton_subset_iff (a := Proc.devRef (τ := τ) .tc main_call8_v8)).mpr (List.mem_toFinset.mpr (List.mem_map_of_mem (by decide))),
   (Finset.singleton_subset_iff (a := Proc.devRef (τ := τ) .tc main_call8_cst_2)).mpr (List.mem_toFinset.mpr (List.mem_map_of_mem (by decide))),
   (Finset.singleton_subset_iff (a := Proc.devRef (τ := τ) .tc main_call8_v9)).mpr (List.mem_toFinset.mpr (List.mem_map_of_mem (by decide))),
   (Finset.singleton_subset_iff (a := Proc.devRef (τ := τ) .tc main_call8_v10)).mpr (List.mem_toFinset.mpr (List.mem_map_of_mem (by decide))),
   (Finset.singleton_subset_iff (a := Proc.devRef (τ := τ) .tc main_call8_v11)).mpr (List.mem_toFinset.mpr (List.mem_map_of_mem (by decide))),
   (Finset.singleton_subset_iff (a := Proc.devRef (τ := τ) .tc main_call8_cst_3)).mpr (List.mem_toFinset.mpr (List.mem_map_of_mem (by decide))),
   (Finset.singleton_subset_iff (a := Proc.devRef (τ := τ) .tc main_call8_v12)).mpr (List.mem_toFinset.mpr (List.mem_map_of_mem (by decide))),
   (Finset.singleton_subset_iff (a := Proc.devRef (τ := τ) .tc main_call8_cst_4)).mpr (List.mem_toFinset.mpr (List.mem_map_of_mem (by decide))),
   (Finset.singleton_subset_iff (a := Proc.devRef (τ := τ) .tc main_call8_call0_v0)).mpr (List.mem_toFinset.mpr (List.mem_map_of_mem (by decide))),
   (Finset.singleton_subset_iff (a := Proc.devRef (τ := τ) .tc main_call8_call0_v1)).mpr (List.mem_toFinset.mpr (List.mem_map_of_mem (by decide))),
   (Finset.singleton_subset_iff (a := Proc.devRef (τ := τ) .tc main_v209)).mpr (List.mem_toFinset.mpr (List.mem_map_of_mem (by decide))),
   (Finset.singleton_subset_iff (a := Proc.devRef (τ := τ) .tc main_v210)).mpr (List.mem_toFinset.mpr (List.mem_map_of_mem (by decide))),
   (Finset.singleton_subset_iff (a := Proc.devRef (τ := τ) .tc main_v211)).mpr (List.mem_toFinset.mpr (List.mem_map_of_mem (by decide))),
   (Finset.singleton_subset_iff (a := Proc.devRef (τ := τ) .tc main_v212)).mpr (List.mem_toFinset.mpr (List.mem_map_of_mem (by decide))),
   (Finset.singleton_subset_iff (a := Proc.devRef (τ := τ) .tc main_cst_30)).mpr (List.mem_toFinset.mpr (List.mem_map_of_mem (by decide))),
   (Finset.singleton_subset_iff (a := Proc.devRef (τ := τ) .tc main_v213)).mpr (List.mem_toFinset.mpr (List.mem_map_of_mem (by decide))),
   (Finset.singleton_subset_iff (a := Proc.devRef (τ := τ) .tc main_v214)).mpr (List.mem_toFinset.mpr (List.mem_map_of_mem (by decide))),
   (Finset.singleton_subset_iff (a := Proc.devRef (τ := τ) .tc main_v215)).mpr (List.mem_toFinset.mpr (List.mem_map_of_mem (by decide))),
   (Finset.singleton_subset_iff (a := Proc.devRef (τ := τ) .tc main_v216)).mpr (List.mem_toFinset.mpr (List.mem_map_of_mem (by decide))),
   (Finset.singleton_subset_iff (a := Proc.devRef (τ := τ) .tc main_v217)).mpr (List.mem_toFinset.mpr (List.mem_map_of_mem (by decide))),
   (Finset.singleton_subset_iff (a := Proc.devRef (τ := τ) .tc main_v218)).mpr (List.mem_toFinset.mpr (List.mem_map_of_mem (by decide))),
   (Finset.singleton_subset_iff (a := Proc.devRef (τ := τ) .tc main_v219)).mpr (List.mem_toFinset.mpr (List.mem_map_of_mem (by decide))),
   (Finset.singleton_subset_iff (a := Proc.devRef (τ := τ) .tc main_v220)).mpr (List.mem_toFinset.mpr (List.mem_map_of_mem (by decide))),
   (Finset.singleton_subset_iff (a := Proc.devRef (τ := τ) .tc main_v221)).mpr (List.mem_toFinset.mpr (List.mem_map_of_mem (by decide))),
   (Finset.singleton_subset_iff (a := Proc.devRef (τ := τ) .tc main_v222)).mpr (List.mem_toFinset.mpr (List.mem_map_of_mem (by decide))),
   (Finset.singleton_subset_iff (a := Proc.devRef (τ := τ) .tc main_v223)).mpr (List.mem_toFinset.mpr (List.mem_map_of_mem (by decide))),
   (Finset.singleton_subset_iff (a := Proc.devRef (τ := τ) .tc main_v224)).mpr (List.mem_toFinset.mpr (List.mem_map_of_mem (by decide))),
   (Finset.singleton_subset_iff (a := Proc.devRef (τ := τ) .tc main_call9_cst)).mpr (List.mem_toFinset.mpr (List.mem_map_of_mem (by decide))),
   (Finset.singleton_subset_iff (a := Proc.devRef (τ := τ) .tc main_call9_v0)).mpr (List.mem_toFinset.mpr (List.mem_map_of_mem (by decide))),
   (Finset.singleton_subset_iff (a := Proc.devRef (τ := τ) .tc main_v225)).mpr (List.mem_toFinset.mpr (List.mem_map_of_mem (by decide))),
   (Finset.singleton_subset_iff (a := Proc.devRef (τ := τ) .tc main_v226)).mpr (List.mem_toFinset.mpr (List.mem_map_of_mem (by decide))),
   (Finset.singleton_subset_iff (a := Proc.devRef (τ := τ) .tc main_v227)).mpr (List.mem_toFinset.mpr (List.mem_map_of_mem (by decide))),
   (Finset.singleton_subset_iff (a := Proc.devRef (τ := τ) .tc main_v228)).mpr (List.mem_toFinset.mpr (List.mem_map_of_mem (by decide))),
   (Finset.singleton_subset_iff (a := Proc.devRef (τ := τ) .tc main_v229)).mpr (List.mem_toFinset.mpr (List.mem_map_of_mem (by decide))),
   (Finset.singleton_subset_iff (a := Proc.devRef (τ := τ) .tc main_v230)).mpr (List.mem_toFinset.mpr (List.mem_map_of_mem (by decide)))⟩

/-- A reference these operations do not write keeps its contents through them. -/
theorem sg7_keep (V : Valuation τ sig (Elt F)) (r : Ref sig .tc) (h : r ∉ sg7_W) :
    after sg7 V (Proc.devRef .tc r) = V (Proc.devRef .tc r) :=
  after_of_writes_sub sg7 V sg7_writes h

end Cert.ReferenceIdeal.HandV

end
-- ==== Proof.RV.TopSeg8.lean ====
import proofs.«414290_j6631429505478_3_alg».proof.Proof.Gen.ReferenceIdeal
import Idealize.ShloMosaic.Lib.StableHlo.Run

set_option Elab.async false

noncomputable section

namespace Cert.ReferenceIdeal.HandV

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
set_option maxRecDepth 8192 in
/-- Operations 379 to 443 of @main, in order (65 of them): from the one writing main_v231 to the one writing main_v268. -/
abbrev sg8 : List (HloOp τ sig (Elt F)) :=
  [ StableHlo.unary main_arg4 main_v231 ((extractStridedSlice S1x1x128x128 ![1, 2, 0, 0] · slices_S6x3x128x128_S1x1x128x128_1_2_0_0) : (⟨S6x3x128x128, .f32⟩ : BufTy).Contents (Elt F) → (⟨S1x1x128x128, .f32⟩ : BufTy).Contents (Elt F)),
    StableHlo.reshape main_v231 main_v232 rfl shapeCasts_S1x1x128x128_S128x128,
    StableHlo.unary main_v232 main_v233 ((transpose S128x128 [1, 0] · transposes_S128x128_S128x128_1_0) : (⟨S128x128, .f32⟩ : BufTy).Contents (Elt F) → (⟨S128x128, .f32⟩ : BufTy).Contents (Elt F)),
    StableHlo.binary main_arg2 main_v233 main_v234 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg5 main_v235 ((extractStridedSlice S1x1x128 ![1, 2, 0] · slices_S6x3x128_S1x1x128_1_2_0) : (⟨S6x3x128, .f32⟩ : BufTy).Contents (Elt F) → (⟨S1x1x128, .f32⟩ : BufTy).Contents (Elt F)),
    StableHlo.reshape main_v235 main_v236 rfl shapeCasts_S1x1x128_S128,
    StableHlo.unary main_v236 main_v237 (broadcastInDim S1x128 ![1] bcast_S128_S1x128_1 : (⟨S128, .f32⟩ : BufTy).Contents (Elt F) → (⟨S1x128, .f32⟩ : BufTy).Contents (Elt F)),
    StableHlo.unary main_v237 main_v238 (broadcastInDim S50000x128 ![0, 1] bcast_S1x128_S50000x128_0_1 : (⟨S1x128, .f32⟩ : BufTy).Contents (Elt F) → (⟨S50000x128, .f32⟩ : BufTy).Contents (Elt F)),
    StableHlo.binary main_v234 main_v238 main_v239 (addf : (⟨S50000x128, .f32⟩ : BufTy).Contents (Elt F) → (⟨S50000x128, .f32⟩ : BufTy).Contents (Elt F) → (⟨S50000x128, .f32⟩ : BufTy).Contents (Elt F)),
    StableHlo.unary main_arg6 main_v240 ((extractStridedSlice S1x1x128 ![1, 2, 0] · slices_S6x3x128_S1x1x128_1_2_0) : (⟨S6x3x128, .f32⟩ : BufTy).Contents (Elt F) → (⟨S1x1x128, .f32⟩ : BufTy).Contents (Elt F)),
    StableHlo.reshape main_v240 main_v241 rfl shapeCasts_S1x1x128_S128,
    StableHlo.unary main_arg7 main_v242 ((extractStridedSlice S1x1x128 ![1, 2, 0] · slices_S6x3x128_S1x1x128_1_2_0) : (⟨S6x3x128, .f32⟩ : BufTy).Contents (Elt F) → (⟨S1x1x128, .f32⟩ : BufTy).Contents (Elt F)),
    StableHlo.reshape main_v242 main_v243 rfl shapeCasts_S1x1x128_S128,
    StableHlo.nullary main_cst_31 (constant S_ .f32 0x00000000#32),
    StableHlo.binary main_v239 main_cst_31 main_v244 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_32 (constant S_ .f32 0x47435000#32),
    StableHlo.unary main_cst_32 main_v245 (broadcastInDim S128 ![] bcast_S_S128 : (⟨S_, .f32⟩ : BufTy).Contents (Elt F) → (⟨S128, .f32⟩ : BufTy).Contents (Elt F)),
    StableHlo.binary main_v244 main_v245 main_v246 (Host.divf : (⟨S128, .f32⟩ : BufTy).Contents (Elt F) → (⟨S128, .f32⟩ : BufTy).Contents (Elt F) → (⟨S128, .f32⟩ : BufTy).Contents (Elt F)),
    StableHlo.nullary main_c_33 (constantI S_ 32 0#32),
    StableHlo.TRef.nullary main_call10.cst (constant S_ .f32 0x00000000#32),
    StableHlo.TRef.binary (.of main_v239 : StableHlo.TRef sig ⟨S50000x128, .f32⟩) main_call10.cst main_call10.v0 (fun x v => Host.reduceAdd x v reducesTo_S50000x128_S128_d0 h_S_),
    StableHlo.TRef.unary main_call10.v0 main_call10.v1 (broadcastInDim S1x128 ![1] bcast_S128_S1x128_1),
    StableHlo.TRef.nullary main_call10.cst_0 (constant S_ .f32 0x47435000#32),
    StableHlo.TRef.unary main_call10.cst_0 main_call10.v2 (broadcastInDim S1x128 ![] bcast_S_S1x128),
    StableHlo.TRef.binary main_call10.v1 main_call10.v2 main_call10.v3 Host.divf,
    StableHlo.TRef.unary main_call10.v3 main_call10.v4 (broadcastInDim S50000x128 ![0, 1] bcast_S1x128_S50000x128_0_1),
    StableHlo.TRef.binary (.of main_v239 : StableHlo.TRef sig ⟨S50000x128, .f32⟩) main_call10.v4 main_call10.v5 subf,
    StableHlo.TRef.binary main_call10.v5 main_call10.v5 main_call10.v6 mulf,
    StableHlo.TRef.unary (.of main_c_33 : StableHlo.TRef sig ⟨S_, .i32⟩) main_call10.v7 (sitofp .f32),
    StableHlo.TRef.nullary main_call10.cst_1 (constant S_ .f32 0x47435000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S50000x128_S128_d0 h_S_),
    StableHlo.TRef.unary main_call10.v8 main_call10.v10 (broadcastInDim S128 ![] bcast_S_S128),
    StableHlo.TRef.binary main_call10.v9 main_call10.v10 main_call10.v11 Host.divf,
    StableHlo.TRef.nullary main_call10.cst_3 (constant S_ .f32 0x00000000#32),
    StableHlo.TRef.binary main_call10.v8 main_call10.cst_3 main_call10.v12 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S128 ![] bcast_S_S128),
    StableHlo.TRef.ternary main_call10.v12 main_call10.v11 main_call10.call0.v1 main_call10.call0.v2 (fun p a b => select (broadcastInDim S128 ![] bcast_S_S128 p) a b),
    StableHlo.unary main_v246 main_v248 (broadcastInDim S1x128 ![1] bcast_S128_S1x128_1 : (⟨S128, .f32⟩ : BufTy).Contents (Elt F) → (⟨S1x128, .f32⟩ : BufTy).Contents (Elt F)),
    StableHlo.unary main_v248 main_v249 (broadcastInDim S50000x128 ![0, 1] bcast_S1x128_S50000x128_0_1 : (⟨S1x128, .f32⟩ : BufTy).Contents (Elt F) → (⟨S50000x128, .f32⟩ : BufTy).Contents (Elt F)),
    StableHlo.binary main_v239 main_v249 main_v250 (subf : (⟨S50000x128, .f32⟩ : BufTy).Contents (Elt F) → (⟨S50000x128, .f32⟩ : BufTy).Contents (Elt F) → (⟨S50000x128, .f32⟩ : BufTy).Contents (Elt F)),
    StableHlo.nullary main_cst_34 (constant S_ .f32 0x3727C5AC#32),
    StableHlo.unary main_cst_34 main_v251 (broadcastInDim S128 ![] bcast_S_S128 : (⟨S_, .f32⟩ : BufTy).Contents (Elt F) → (⟨S128, .f32⟩ : BufTy).Contents (Elt F)),
    StableHlo.binary main_v247 main_v251 main_v252 (addf : (⟨S128, .f32⟩ : BufTy).Contents (Elt F) → (⟨S128, .f32⟩ : BufTy).Contents (Elt F) → (⟨S128, .f32⟩ : BufTy).Contents (Elt F)),
    StableHlo.unary main_v252 main_v253 (Host.rsqrt : (⟨S128, .f32⟩ : BufTy).Contents (Elt F) → (⟨S128, .f32⟩ : BufTy).Contents (Elt F)),
    StableHlo.unary main_v253 main_v254 (broadcastInDim S1x128 ![1] bcast_S128_S1x128_1 : (⟨S128, .f32⟩ : BufTy).Contents (Elt F) → (⟨S1x128, .f32⟩ : BufTy).Contents (Elt F)),
    StableHlo.unary main_v254 main_v255 (broadcastInDim S50000x128 ![0, 1] bcast_S1x128_S50000x128_0_1 : (⟨S1x128, .f32⟩ : BufTy).Contents (Elt F) → (⟨S50000x128, .f32⟩ : BufTy).Contents (Elt F)),
    StableHlo.binary main_v250 main_v255 main_v256 (mulf : (⟨S50000x128, .f32⟩ : BufTy).Contents (Elt F) → (⟨S50000x128, .f32⟩ : BufTy).Contents (Elt F) → (⟨S50000x128, .f32⟩ : BufTy).Contents (Elt F)),
    StableHlo.unary main_v241 main_v257 (broadcastInDim S1x128 ![1] bcast_S128_S1x128_1 : (⟨S128, .f32⟩ : BufTy).Contents (Elt F) → (⟨S1x128, .f32⟩ : BufTy).Contents (Elt F)),
    StableHlo.unary main_v257 main_v258 (broadcastInDim S50000x128 ![0, 1] bcast_S1x128_S50000x128_0_1 : (⟨S1x128, .f32⟩ : BufTy).Contents (Elt F) → (⟨S50000x128, .f32⟩ : BufTy).Contents (Elt F)),
    StableHlo.binary main_v256 main_v258 main_v259 (mulf : (⟨S50000x128, .f32⟩ : BufTy).Contents (Elt F) → (⟨S50000x128, .f32⟩ : BufTy).Contents (Elt F) → (⟨S50000x128, .f32⟩ : BufTy).Contents (Elt F)),
    StableHlo.unary main_v243 main_v260 (broadcastInDim S1x128 ![1] bcast_S128_S1x128_1 : (⟨S128, .f32⟩ : BufTy).Contents (Elt F) → (⟨S1x128, .f32⟩ : BufTy).Contents (Elt F)),
    StableHlo.unary main_v260 main_v261 (broadcastInDim S50000x128 ![0, 1] bcast_S1x128_S50000x128_0_1 : (⟨S1x128, .f32⟩ : BufTy).Contents (Elt F) → (⟨S50000x128, .f32⟩ : BufTy).Contents (Elt F)),
    StableHlo.binary main_v259 main_v261 main_v262 (addf : (⟨S50000x128, .f32⟩ : BufTy).Contents (Elt F) → (⟨S50000x128, .f32⟩ : BufTy).Contents (Elt F) → (⟨S50000x128, .f32⟩ : BufTy).Contents (Elt F)),
    StableHlo.TRef.nullary main_call11.cst (constant S_ .f32 0x00000000#32),
    StableHlo.TRef.unary main_call11.cst main_call11.v0 (broadcastInDim S50000x128 ![] bcast_S_S50000x128),
    StableHlo.TRef.binary (.of main_v262 : StableHlo.TRef sig ⟨S50000x128, .f32⟩) main_call11.v0 main_call11.v1 maximumf,
    StableHlo.unary main_arg3 main_v264 ((extractStridedSlice S1x1 ![1, 2] · slices_S6x3_S1x1_1_2) : (⟨S6x3, .f32⟩ : BufTy).Contents (Elt F) → (⟨S1x1, .f32⟩ : BufTy).Contents (Elt F)),
    StableHlo.reshape main_v264 main_v265 rfl shapeCasts_S1x1_S_,
    StableHlo.unary main_v265 main_v266 (broadcastInDim S50000x128 ![] bcast_S_S50000x128 : (⟨S_, .f32⟩ : BufTy).Contents (Elt F) → (⟨S50000x128, .f32⟩ : BufTy).Contents (Elt F)),
    StableHlo.binary main_v266 main_v263 main_v267 (mulf : (⟨S50000x128, .f32⟩ : BufTy).Contents (Elt F) → (⟨S50000x128, .f32⟩ : BufTy).Contents (Elt F) → (⟨S50000x128, .f32⟩ : BufTy).Contents (Elt F)),
    StableHlo.binary main_v230 main_v267 main_v268 (addf : (⟨S50000x128, .f32⟩ : BufTy).Contents (Elt F) → (⟨S50000x128, .f32⟩ : BufTy).Contents (Elt F) → (⟨S50000x128, .f32⟩ : BufTy).Contents (Elt F)) ]

/-- The references these operations write, in order. -/
abbrev sg8_W : List (Ref sig .tc) :=
  [main_v231, main_v232, main_v233, main_v234, main_v235, main_v236, main_v237, main_v238, main_v239, main_v240, main_v241, main_v242, main_v243, main_cst_31, main_v244, main_cst_32, main_v245, main_v246, main_c_33, main_call10_cst, main_call10_v0, main_call10_v1, main_call10_cst_0, main_call10_v2, main_call10_v3, main_call10_v4, main_call10_v5, main_call10_v6, main_call10_v7, main_call10_cst_1, main_call10_v8, main_call10_cst_2, main_call10_v9, main_call10_v10, main_call10_v11, main_call10_cst_3, main_call10_v12, main_call10_cst_4, main_call10_call0_v0, main_call10_call0_v1, main_v247, main_v248, main_v249, main_v250, main_cst_34, main_v251, main_v252, main_v253, main_v254, main_v255, main_v256, main_v257, main_v258, main_v259, main_v260, main_v261, main_v262, main_call11_cst, main_call11_v0, main_v263, main_v264, main_v265, main_v266, main_v267, main_v268]

set_option maxHeartbeats 40000000 in
set_option maxRecDepth 8192 in
/-- Each operation writes its own result reference, the one listed at its place. -/
theorem sg8_writes : (sg8 : List (HloOp τ sig (Elt F))).Forall fun op => op.writes ⊆ (sg8_W.map (Proc.devRef (τ := τ) .tc)).toFinset :=
  ⟨(Finset.singleton_subset_iff (a := Proc.devRef (τ := τ) .tc main_v231)).mpr (List.mem_toFinset.mpr (List.mem_map_of_mem (by decide))),
   (Finset.singleton_subset_iff (a := Proc.devRef (τ := τ) .tc main_v232)).mpr (List.mem_toFinset.mpr (List.mem_map_of_mem (by decide))),
   (Finset.singleton_subset_iff (a := Proc.devRef (τ := τ) .tc main_v233)).mpr (List.mem_toFinset.mpr (List.mem_map_of_mem (by decide))),
   (Finset.singleton_subset_iff (a := Proc.devRef (τ := τ) .tc main_v234)).mpr (List.mem_toFinset.mpr (List.mem_map_of_mem (by decide))),
   (Finset.singleton_subset_iff (a := Proc.devRef (τ := τ) .tc main_v235)).mpr (List.mem_toFinset.mpr (List.mem_map_of_mem (by decide))),
   (Finset.singleton_subset_iff (a := Proc.devRef (τ := τ) .tc main_v236)).mpr (List.mem_toFinset.mpr (List.mem_map_of_mem (by decide))),
   (Finset.singleton_subset_iff (a := Proc.devRef (τ := τ) .tc main_v237)).mpr (List.mem_toFinset.mpr (List.mem_map_of_mem (by decide))),
   (Finset.singleton_subset_iff (a := Proc.devRef (τ := τ) .tc main_v238)).mpr (List.mem_toFinset.mpr (List.mem_map_of_mem (by decide))),
   (Finset.singleton_subset_iff (a := Proc.devRef (τ := τ) .tc main_v239)).mpr (List.mem_toFinset.mpr (List.mem_map_of_mem (by decide))),
   (Finset.singleton_subset_iff (a := Proc.devRef (τ := τ) .tc main_v240)).mpr (List.mem_toFinset.mpr (List.mem_map_of_mem (by decide))),
   (Finset.singleton_subset_iff (a := Proc.devRef (τ := τ) .tc main_v241)).mpr (List.mem_toFinset.mpr (List.mem_map_of_mem (by decide))),
   (Finset.singleton_subset_iff (a := Proc.devRef (τ := τ) .tc main_v242)).mpr (List.mem_toFinset.mpr (List.mem_map_of_mem (by decide))),
   (Finset.singleton_subset_iff (a := Proc.devRef (τ := τ) .tc main_v243)).mpr (List.mem_toFinset.mpr (List.mem_map_of_mem (by decide))),
   (Finset.singleton_subset_iff (a := Proc.devRef (τ := τ) .tc main_cst_31)).mpr (List.mem_toFinset.mpr (List.mem_map_of_mem (by decide))),
   (Finset.singleton_subset_iff (a := Proc.devRef (τ := τ) .tc main_v244)).mpr (List.mem_toFinset.mpr (List.mem_map_of_mem (by decide))),
   (Finset.singleton_subset_iff (a := Proc.devRef (τ := τ) .tc main_cst_32)).mpr (List.mem_toFinset.mpr (List.mem_map_of_mem (by decide))),
   (Finset.singleton_subset_iff (a := Proc.devRef (τ := τ) .tc main_v245)).mpr (List.mem_toFinset.mpr (List.mem_map_of_mem (by decide))),
   (Finset.singleton_subset_iff (a := Proc.devRef (τ := τ) .tc main_v246)).mpr (List.mem_toFinset.mpr (List.mem_map_of_mem (by decide))),
   (Finset.singleton_subset_iff (a := Proc.devRef (τ := τ) .tc main_c_33)).mpr (List.mem_toFinset.mpr (List.mem_map_of_mem (by decide))),
   (Finset.singleton_subset_iff (a := Proc.devRef (τ := τ) .tc main_call10_cst)).mpr (List.mem_toFinset.mpr (List.mem_map_of_mem (by decide))),
   (Finset.singleton_subset_iff (a := Proc.devRef (τ := τ) .tc main_call10_v0)).mpr (List.mem_toFinset.mpr (List.mem_map_of_mem (by decide))),
   (Finset.singleton_subset_iff (a := Proc.devRef (τ := τ) .tc main_call10_v1)).mpr (List.mem_toFinset.mpr (List.mem_map_of_mem (by decide))),
   (Finset.singleton_subset_iff (a := Proc.devRef (τ := τ) .tc main_call10_cst_0)).mpr (List.mem_toFinset.mpr (List.mem_map_of_mem (by decide))),
   (Finset.singleton_subset_iff (a := Proc.devRef (τ := τ) .tc main_call10_v2)).mpr (List.mem_toFinset.mpr (List.mem_map_of_mem (by decide))),
   (Finset.singleton_subset_iff (a := Proc.devRef (τ := τ) .tc main_call10_v3)).mpr (List.mem_toFinset.mpr (List.mem_map_of_mem (by decide))),
   (Finset.singleton_subset_iff (a := Proc.devRef (τ := τ) .tc main_call10_v4)).mpr (List.mem_toFinset.mpr (List.mem_map_of_mem (by decide))),
   (Finset.singleton_subset_iff (a := Proc.devRef (τ := τ) .tc main_call10_v5)).mpr (List.mem_toFinset.mpr (List.mem_map_of_mem (by decide))),
   (Finset.singleton_subset_iff (a := Proc.devRef (τ := τ) .tc main_call10_v6)).mpr (List.mem_toFinset.mpr (List.mem_map_of_mem (by decide))),
   (Finset.singleton_subset_iff (a := Proc.devRef (τ := τ) .tc main_call10_v7)).mpr (List.mem_toFinset.mpr (List.mem_map_of_mem (by decide))),
   (Finset.singleton_subset_iff (a := Proc.devRef (τ := τ) .tc main_call10_cst_1)).mpr (List.mem_toFinset.mpr (List.mem_map_of_mem (by decide))),
   (Finset.singleton_subset_iff (a := Proc.devRef (τ := τ) .tc main_call10_v8)).mpr (List.mem_toFinset.mpr (List.mem_map_of_mem (by decide))),
   (Finset.singleton_subset_iff (a := Proc.devRef (τ := τ) .tc main_call10_cst_2)).mpr (List.mem_toFinset.mpr (List.mem_map_of_mem (by decide))),
   (Finset.singleton_subset_iff (a := Proc.devRef (τ := τ) .tc main_call10_v9)).mpr (List.mem_toFinset.mpr (List.mem_map_of_mem (by decide))),
   (Finset.singleton_subset_iff (a := Proc.devRef (τ := τ) .tc main_call10_v10)).mpr (List.mem_toFinset.mpr (List.mem_map_of_mem (by decide))),
   (Finset.singleton_subset_iff (a := Proc.devRef (τ := τ) .tc main_call10_v11)).mpr (List.mem_toFinset.mpr (List.mem_map_of_mem (by decide))),
   (Finset.singleton_subset_iff (a := Proc.devRef (τ := τ) .tc main_call10_cst_3)).mpr (List.mem_toFinset.mpr (List.mem_map_of_mem (by decide))),
   (Finset.singleton_subset_iff (a := Proc.devRef (τ := τ) .tc main_call10_v12)).mpr (List.mem_toFinset.mpr (List.mem_map_of_mem (by decide))),
   (Finset.singleton_subset_iff (a := Proc.devRef (τ := τ) .tc main_call10_cst_4)).mpr (List.mem_toFinset.mpr (List.mem_map_of_mem (by decide))),
   (Finset.singleton_subset_iff (a := Proc.devRef (τ := τ) .tc main_call10_call0_v0)).mpr (List.mem_toFinset.mpr (List.mem_map_of_mem (by decide))),
   (Finset.singleton_subset_iff (a := Proc.devRef (τ := τ) .tc main_call10_call0_v1)).mpr (List.mem_toFinset.mpr (List.mem_map_of_mem (by decide))),
   (Finset.singleton_subset_iff (a := Proc.devRef (τ := τ) .tc main_v247)).mpr (List.mem_toFinset.mpr (List.mem_map_of_mem (by decide))),
   (Finset.singleton_subset_iff (a := Proc.devRef (τ := τ) .tc main_v248)).mpr (List.mem_toFinset.mpr (List.mem_map_of_mem (by decide))),
   (Finset.singleton_subset_iff (a := Proc.devRef (τ := τ) .tc main_v249)).mpr (List.mem_toFinset.mpr (List.mem_map_of_mem (by decide))),
   (Finset.singleton_subset_iff (a := Proc.devRef (τ := τ) .tc main_v250)).mpr (List.mem_toFinset.mpr (List.mem_map_of_mem (by decide))),
   (Finset.singleton_subset_iff (a := Proc.devRef (τ := τ) .tc main_cst_34)).mpr (List.mem_toFinset.mpr (List.mem_map_of_mem (by decide))),
   (Finset.singleton_subset_iff (a := Proc.devRef (τ := τ) .tc main_v251)).mpr (List.mem_toFinset.mpr (List.mem_map_of_mem (by decide))),
   (Finset.singleton_subset_iff (a := Proc.devRef (τ := τ) .tc main_v252)).mpr (List.mem_toFinset.mpr (List.mem_map_of_mem (by decide))),
   (Finset.singleton_subset_iff (a := Proc.devRef (τ := τ) .tc main_v253)).mpr (List.mem_toFinset.mpr (List.mem_map_of_mem (by decide))),
   (Finset.singleton_subset_iff (a := Proc.devRef (τ := τ) .tc main_v254)).mpr (List.mem_toFinset.mpr (List.mem_map_of_mem (by decide))),
   (Finset.singleton_subset_iff (a := Proc.devRef (τ := τ) .tc main_v255)).mpr (List.mem_toFinset.mpr (List.mem_map_of_mem (by decide))),
   (Finset.singleton_subset_iff (a := Proc.devRef (τ := τ) .tc main_v256)).mpr (List.mem_toFinset.mpr (List.mem_map_of_mem (by decide))),
   (Finset.singleton_subset_iff (a := Proc.devRef (τ := τ) .tc main_v257)).mpr (List.mem_toFinset.mpr (List.mem_map_of_mem (by decide))),
   (Finset.singleton_subset_iff (a := Proc.devRef (τ := τ) .tc main_v258)).mpr (List.mem_toFinset.mpr (List.mem_map_of_mem (by decide))),
   (Finset.singleton_subset_iff (a := Proc.devRef (τ := τ) .tc main_v259)).mpr (List.mem_toFinset.mpr (List.mem_map_of_mem (by decide))),
   (Finset.singleton_subset_iff (a := Proc.devRef (τ := τ) .tc main_v260)).mpr (List.mem_toFinset.mpr (List.mem_map_of_mem (by decide))),
   (Finset.singleton_subset_iff (a := Proc.devRef (τ := τ) .tc main_v261)).mpr (List.mem_toFinset.mpr (List.mem_map_of_mem (by decide))),
   (Finset.singleton_subset_iff (a := Proc.devRef (τ := τ) .tc main_v262)).mpr (List.mem_toFinset.mpr (List.mem_map_of_mem (by decide))),
   (Finset.singleton_subset_iff (a := Proc.devRef (τ := τ) .tc main_call11_cst)).mpr (List.mem_toFinset.mpr (List.mem_map_of_mem (by decide))),
   (Finset.singleton_subset_iff (a := Proc.devRef (τ := τ) .tc main_call11_v0)).mpr (List.mem_toFinset.mpr (List.mem_map_of_mem (by decide))),
   (Finset.singleton_subset_iff (a := Proc.devRef (τ := τ) .tc main_v263)).mpr (List.mem_toFinset.mpr (List.mem_map_of_mem (by decide))),
   (Finset.singleton_subset_iff (a := Proc.devRef (τ := τ) .tc main_v264)).mpr (List.mem_toFinset.mpr (List.mem_map_of_mem (by decide))),
   (Finset.singleton_subset_iff (a := Proc.devRef (τ := τ) .tc main_v265)).mpr (List.mem_toFinset.mpr (List.mem_map_of_mem (by decide))),
   (Finset.singleton_subset_iff (a := Proc.devRef (τ := τ) .tc main_v266)).mpr (List.mem_toFinset.mpr (List.mem_map_of_mem (by decide))),
   (Finset.singleton_subset_iff (a := Proc.devRef (τ := τ) .tc main_v267)).mpr (List.mem_toFinset.mpr (List.mem_map_of_mem (by decide))),
   (Finset.singleton_subset_iff (a := Proc.devRef (τ := τ) .tc main_v268)).mpr (List.mem_toFinset.mpr (List.mem_map_of_mem (by decide)))⟩

/-- A reference these operations do not write keeps its contents through them. -/
theorem sg8_keep (V : Valuation τ sig (Elt F)) (r : Ref sig .tc) (h : r ∉ sg8_W) :
    after sg8 V (Proc.devRef .tc r) = V (Proc.devRef .tc r) :=
  after_of_writes_sub sg8 V sg8_writes h

end Cert.ReferenceIdeal.HandV

end
-- ==== Proof.RV.TopSeg9.lean ====
import proofs.«414290_j6631429505478_3_alg».proof.Proof.Gen.ReferenceIdeal
import Idealize.ShloMosaic.Lib.StableHlo.Run

set_option Elab.async false

noncomputable section

namespace Cert.ReferenceIdeal.HandV

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
set_option maxRecDepth 8192 in
/-- Operations 444 to 446 of @main, in order (3 of them): from the one writing main_cst_35 to the one writing main_v270. -/
abbrev sg9 : List (HloOp τ sig (Elt F)) :=
  [ StableHlo.nullary main_cst_35 (constant S_ .f32 0x00000000#32),
    StableHlo.unary main_cst_35 main_v269 (broadcastInDim S50000x128 ![] bcast_S_S50000x128 : (⟨S_, .f32⟩ : BufTy).Contents (Elt F) → (⟨S50000x128, .f32⟩ : BufTy).Contents (Elt F)),
    StableHlo.binary main_v269 main_v268 main_v270 (addf : (⟨S50000x128, .f32⟩ : BufTy).Contents (Elt F) → (⟨S50000x128, .f32⟩ : BufTy).Contents (Elt F) → (⟨S50000x128, .f32⟩ : BufTy).Contents (Elt F)) ]

/-- The references these operations write, in order. -/
abbrev sg9_W : List (Ref sig .tc) :=
  [main_cst_35, main_v269, main_v270]

set_option maxHeartbeats 40000000 in
set_option maxRecDepth 8192 in
/-- Each operation writes its own result reference, the one listed at its place. -/
theorem sg9_writes : (sg9 : List (HloOp τ sig (Elt F))).Forall fun op => op.writes ⊆ (sg9_W.map (Proc.devRef (τ := τ) .tc)).toFinset :=
  ⟨(Finset.singleton_subset_iff (a := Proc.devRef (τ := τ) .tc main_cst_35)).mpr (List.mem_toFinset.mpr (List.mem_map_of_mem (by decide))),
   (Finset.singleton_subset_iff (a := Proc.devRef (τ := τ) .tc main_v269)).mpr (List.mem_toFinset.mpr (List.mem_map_of_mem (by decide))),
   (Finset.singleton_subset_iff (a := Proc.devRef (τ := τ) .tc main_v270)).mpr (List.mem_toFinset.mpr (List.mem_map_of_mem (by decide)))⟩

/-- A reference these operations do not write keeps its contents through them. -/
theorem sg9_keep (V : Valuation τ sig (Elt F)) (r : Ref sig .tc) (h : r ∉ sg9_W) :
    after sg9 V (Proc.devRef .tc r) = V (Proc.devRef .tc r) :=
  after_of_writes_sub sg9 V sg9_writes h

end Cert.ReferenceIdeal.HandV

end
-- ==== Proof.RV.TopSeg10.lean ====
import proofs.«414290_j6631429505478_3_alg».proof.Proof.Gen.ReferenceIdeal
import Idealize.ShloMosaic.Lib.StableHlo.Run

set_option Elab.async false

noncomputable section

namespace Cert.ReferenceIdeal.HandV

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
set_option maxRecDepth 8192 in
/-- Operations 447 to 461 of @main, in order (15 of them): from the one writing main_c_36 to the one writing main_v282. -/
abbrev sg10 : List (HloOp τ sig (Elt F)) :=
  [ StableHlo.nullary main_c_36 (constantI S_ 32 0#32),
    StableHlo.unary main_c_36 main_v271 (broadcastInDim S800000 ![] bcast_S_S800000 : (⟨S_, .i32⟩ : BufTy).Contents (Elt F) → (⟨S800000, .i32⟩ : BufTy).Contents (Elt F)),
    StableHlo.binary main_v1 main_v271 main_v272 (cmpi .slt : (⟨S800000, .i32⟩ : BufTy).Contents (Elt F) → (⟨S800000, .i32⟩ : BufTy).Contents (Elt F) → (⟨S800000, .i1⟩ : BufTy).Contents (Elt F)),
    StableHlo.nullary main_c_37 (constantI S_ 32 50000#32),
    StableHlo.unary main_c_37 main_v273 (broadcastInDim S800000 ![] bcast_S_S800000 : (⟨S_, .i32⟩ : BufTy).Contents (Elt F) → (⟨S800000, .i32⟩ : BufTy).Contents (Elt F)),
    StableHlo.binary main_v1 main_v273 main_v274 (addi : (⟨S800000, .i32⟩ : BufTy).Contents (Elt F) → (⟨S800000, .i32⟩ : BufTy).Contents (Elt F) → (⟨S800000, .i32⟩ : BufTy).Contents (Elt F)),
    StableHlo.ternary main_v272 main_v274 main_v1 main_v275 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v275 main_v276 (broadcastInDim S800000x1 ![0] bcast_S800000_S800000x1_0 : (⟨S800000, .i32⟩ : BufTy).Contents (Elt F) → (⟨S800000x1, .i32⟩ : BufTy).Contents (Elt F)),
    StableHlo.binary main_v141 main_v276 main_v277 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_38 (constant S_ .f32 0x00000000#32),
    StableHlo.unary main_cst_38 main_v278 (broadcastInDim S50000x128 ![] bcast_S_S50000x128 : (⟨S_, .f32⟩ : BufTy).Contents (Elt F) → (⟨S50000x128, .f32⟩ : BufTy).Contents (Elt F)),
    StableHlo.unary main_v3 main_v279 (broadcastInDim S800000x1 ![0] bcast_S800000_S800000x1_0 : (⟨S800000, .i32⟩ : BufTy).Contents (Elt F) → (⟨S800000x1, .i32⟩ : BufTy).Contents (Elt F)),
    StableHlo.ternary main_v278 main_v279 main_v277 main_v280 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v12 main_v281 (broadcastInDim S50000x128 ![0, 1] bcast_S50000x1_S50000x128_0_1 : (⟨S50000x1, .f32⟩ : BufTy).Contents (Elt F) → (⟨S50000x128, .f32⟩ : BufTy).Contents (Elt F)),
    StableHlo.binary main_v280 main_v281 main_v282 (mulf : (⟨S50000x128, .f32⟩ : BufTy).Contents (Elt F) → (⟨S50000x128, .f32⟩ : BufTy).Contents (Elt F) → (⟨S50000x128, .f32⟩ : BufTy).Contents (Elt F)) ]

/-- The references these operations write, in order. -/
abbrev sg10_W : List (Ref sig .tc) :=
  [main_c_36, main_v271, main_v272, main_c_37, main_v273, main_v274, main_v275, main_v276, main_v277, main_cst_38, main_v278, main_v279, main_v280, main_v281, main_v282]

set_option maxHeartbeats 40000000 in
set_option maxRecDepth 8192 in
/-- Each operation writes its own result reference, the one listed at its place. -/
theorem sg10_writes : (sg10 : List (HloOp τ sig (Elt F))).Forall fun op => op.writes ⊆ (sg10_W.map (Proc.devRef (τ := τ) .tc)).toFinset :=
  ⟨(Finset.singleton_subset_iff (a := Proc.devRef (τ := τ) .tc main_c_36)).mpr (List.mem_toFinset.mpr (List.mem_map_of_mem (by decide))),
   (Finset.singleton_subset_iff (a := Proc.devRef (τ := τ) .tc main_v271)).mpr (List.mem_toFinset.mpr (List.mem_map_of_mem (by decide))),
   (Finset.singleton_subset_iff (a := Proc.devRef (τ := τ) .tc main_v272)).mpr (List.mem_toFinset.mpr (List.mem_map_of_mem (by decide))),
   (Finset.singleton_subset_iff (a := Proc.devRef (τ := τ) .tc main_c_37)).mpr (List.mem_toFinset.mpr (List.mem_map_of_mem (by decide))),
   (Finset.singleton_subset_iff (a := Proc.devRef (τ := τ) .tc main_v273)).mpr (List.mem_toFinset.mpr (List.mem_map_of_mem (by decide))),
   (Finset.singleton_subset_iff (a := Proc.devRef (τ := τ) .tc main_v274)).mpr (List.mem_toFinset.mpr (List.mem_map_of_mem (by decide))),
   (Finset.singleton_subset_iff (a := Proc.devRef (τ := τ) .tc main_v275)).mpr (List.mem_toFinset.mpr (List.mem_map_of_mem (by decide))),
   (Finset.singleton_subset_iff (a := Proc.devRef (τ := τ) .tc main_v276)).mpr (List.mem_toFinset.mpr (List.mem_map_of_mem (by decide))),
   (Finset.singleton_subset_iff (a := Proc.devRef (τ := τ) .tc main_v277)).mpr (List.mem_toFinset.mpr (List.mem_map_of_mem (by decide))),
   (Finset.singleton_subset_iff (a := Proc.devRef (τ := τ) .tc main_cst_38)).mpr (List.mem_toFinset.mpr (List.mem_map_of_mem (by decide))),
   (Finset.singleton_subset_iff (a := Proc.devRef (τ := τ) .tc main_v278)).mpr (List.mem_toFinset.mpr (List.mem_map_of_mem (by decide))),
   (Finset.singleton_subset_iff (a := Proc.devRef (τ := τ) .tc main_v279)).mpr (List.mem_toFinset.mpr (List.mem_map_of_mem (by decide))),
   (Finset.singleton_subset_iff (a := Proc.devRef (τ := τ) .tc main_v280)).mpr (List.mem_toFinset.mpr (List.mem_map_of_mem (by decide))),
   (Finset.singleton_subset_iff (a := Proc.devRef (τ := τ) .tc main_v281)).mpr (List.mem_toFinset.mpr (List.mem_map_of_mem (by decide))),
   (Finset.singleton_subset_iff (a := Proc.devRef (τ := τ) .tc main_v282)).mpr (List.mem_toFinset.mpr (List.mem_map_of_mem (by decide)))⟩

/-- A reference these operations do not write keeps its contents through them. -/
theorem sg10_keep (V : Valuation τ sig (Elt F)) (r : Ref sig .tc) (h : r ∉ sg10_W) :
    after sg10 V (Proc.devRef .tc r) = V (Proc.devRef .tc r) :=
  after_of_writes_sub sg10 V sg10_writes h

end Cert.ReferenceIdeal.HandV

end
-- ==== Proof.RV.TopSeg11.lean ====
import proofs.«414290_j6631429505478_3_alg».proof.Proof.Gen.ReferenceIdeal
import Idealize.ShloMosaic.Lib.StableHlo.Run

set_option Elab.async false

noncomputable section

namespace Cert.ReferenceIdeal.HandV

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
set_option maxRecDepth 8192 in
/-- Operations 462 to 528 of @main, in order (67 of them): from the one writing main_cst_39 to the one writing main_v321. -/
abbrev sg11 : List (HloOp τ sig (Elt F)) :=
  [ StableHlo.nullary main_cst_39 (constant S_ .f32 0x00000000#32),
    StableHlo.unary main_cst_39 main_v283 (broadcastInDim S50000x128 ![] bcast_S_S50000x128 : (⟨S_, .f32⟩ : BufTy).Contents (Elt F) → (⟨S50000x128, .f32⟩ : BufTy).Contents (Elt F)),
    StableHlo.unary main_arg4 main_v284 ((extractStridedSlice S1x1x128x128 ![2, 0, 0, 0] · slices_S6x3x128x128_S1x1x128x128_2_0_0_0) : (⟨S6x3x128x128, .f32⟩ : BufTy).Contents (Elt F) → (⟨S1x1x128x128, .f32⟩ : BufTy).Contents (Elt F)),
    StableHlo.reshape main_v284 main_v285 rfl shapeCasts_S1x1x128x128_S128x128,
    StableHlo.unary main_v285 main_v286 ((transpose S128x128 [1, 0] · transposes_S128x128_S128x128_1_0) : (⟨S128x128, .f32⟩ : BufTy).Contents (Elt F) → (⟨S128x128, .f32⟩ : BufTy).Contents (Elt F)),
    StableHlo.binary main_v282 main_v286 main_v287 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg5 main_v288 ((extractStridedSlice S1x1x128 ![2, 0, 0] · slices_S6x3x128_S1x1x128_2_0_0) : (⟨S6x3x128, .f32⟩ : BufTy).Contents (Elt F) → (⟨S1x1x128, .f32⟩ : BufTy).Contents (Elt F)),
    StableHlo.reshape main_v288 main_v289 rfl shapeCasts_S1x1x128_S128,
    StableHlo.unary main_v289 main_v290 (broadcastInDim S1x128 ![1] bcast_S128_S1x128_1 : (⟨S128, .f32⟩ : BufTy).Contents (Elt F) → (⟨S1x128, .f32⟩ : BufTy).Contents (Elt F)),
    StableHlo.unary main_v290 main_v291 (broadcastInDim S50000x128 ![0, 1] bcast_S1x128_S50000x128_0_1 : (⟨S1x128, .f32⟩ : BufTy).Contents (Elt F) → (⟨S50000x128, .f32⟩ : BufTy).Contents (Elt F)),
    StableHlo.binary main_v287 main_v291 main_v292 (addf : (⟨S50000x128, .f32⟩ : BufTy).Contents (Elt F) → (⟨S50000x128, .f32⟩ : BufTy).Contents (Elt F) → (⟨S50000x128, .f32⟩ : BufTy).Contents (Elt F)),
    StableHlo.unary main_arg6 main_v293 ((extractStridedSlice S1x1x128 ![2, 0, 0] · slices_S6x3x128_S1x1x128_2_0_0) : (⟨S6x3x128, .f32⟩ : BufTy).Contents (Elt F) → (⟨S1x1x128, .f32⟩ : BufTy).Contents (Elt F)),
    StableHlo.reshape main_v293 main_v294 rfl shapeCasts_S1x1x128_S128,
    StableHlo.unary main_arg7 main_v295 ((extractStridedSlice S1x1x128 ![2, 0, 0] · slices_S6x3x128_S1x1x128_2_0_0) : (⟨S6x3x128, .f32⟩ : BufTy).Contents (Elt F) → (⟨S1x1x128, .f32⟩ : BufTy).Contents (Elt F)),
    StableHlo.reshape main_v295 main_v296 rfl shapeCasts_S1x1x128_S128,
    StableHlo.nullary main_cst_40 (constant S_ .f32 0x00000000#32),
    StableHlo.binary main_v292 main_cst_40 main_v297 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_41 (constant S_ .f32 0x47435000#32),
    StableHlo.unary main_cst_41 main_v298 (broadcastInDim S128 ![] bcast_S_S128 : (⟨S_, .f32⟩ : BufTy).Contents (Elt F) → (⟨S128, .f32⟩ : BufTy).Contents (Elt F)),
    StableHlo.binary main_v297 main_v298 main_v299 (Host.divf : (⟨S128, .f32⟩ : BufTy).Contents (Elt F) → (⟨S128, .f32⟩ : BufTy).Contents (Elt F) → (⟨S128, .f32⟩ : BufTy).Contents (Elt F)),
    StableHlo.nullary main_c_42 (constantI S_ 32 0#32),
    StableHlo.TRef.nullary main_call12.cst (constant S_ .f32 0x00000000#32),
    StableHlo.TRef.binary (.of main_v292 : StableHlo.TRef sig ⟨S50000x128, .f32⟩) main_call12.cst main_call12.v0 (fun x v => Host.reduceAdd x v reducesTo_S50000x128_S128_d0 h_S_),
    StableHlo.TRef.unary main_call12.v0 main_call12.v1 (broadcastInDim S1x128 ![1] bcast_S128_S1x128_1),
    StableHlo.TRef.nullary main_call12.cst_0 (constant S_ .f32 0x47435000#32),
    StableHlo.TRef.unary main_call12.cst_0 main_call12.v2 (broadcastInDim S1x128 ![] bcast_S_S1x128),
    StableHlo.TRef.binary main_call12.v1 main_call12.v2 main_call12.v3 Host.divf,
    StableHlo.TRef.unary main_call12.v3 main_call12.v4 (broadcastInDim S50000x128 ![0, 1] bcast_S1x128_S50000x128_0_1),
    StableHlo.TRef.binary (.of main_v292 : StableHlo.TRef sig ⟨S50000x128, .f32⟩) main_call12.v4 main_call12.v5 subf,
    StableHlo.TRef.binary main_call12.v5 main_call12.v5 main_call12.v6 mulf,
    StableHlo.TRef.unary (.of main_c_42 : StableHlo.TRef sig ⟨S_, .i32⟩) main_call12.v7 (sitofp .f32),
    StableHlo.TRef.nullary main_call12.cst_1 (constant S_ .f32 0x47435000#32),
    StableHlo.TRef.binary main_call12.cst_1 main_call12.v7 main_call12.v8 subf,
    StableHlo.TRef.nullary main_call12.cst_2 (constant S_ .f32 0x00000000#32),
    StableHlo.TRef.binary main_call12.v6 main_call12.cst_2 main_call12.v9 (fun x v => Host.reduceAdd x v reducesTo_S50000x128_S128_d0 h_S_),
    StableHlo.TRef.unary main_call12.v8 main_call12.v10 (broadcastInDim S128 ![] bcast_S_S128),
    StableHlo.TRef.binary main_call12.v9 main_call12.v10 main_call12.v11 Host.divf,
    StableHlo.TRef.nullary main_call12.cst_3 (constant S_ .f32 0x00000000#32),
    StableHlo.TRef.binary main_call12.v8 main_call12.cst_3 main_call12.v12 (cmpf .ogt),
    StableHlo.TRef.nullary main_call12.cst_4 (constant S_ .f32 0x7FC00000#32),
    StableHlo.TRef.unary main_call12.cst_4 main_call12.call0.v0 id,
    StableHlo.TRef.unary main_call12.call0.v0 main_call12.call0.v1 (broadcastInDim S128 ![] bcast_S_S128),
    StableHlo.TRef.ternary main_call12.v12 main_call12.v11 main_call12.call0.v1 main_call12.call0.v2 (fun p a b => select (broadcastInDim S128 ![] bcast_S_S128 p) a b),
    StableHlo.unary main_v299 main_v301 (broadcastInDim S1x128 ![1] bcast_S128_S1x128_1 : (⟨S128, .f32⟩ : BufTy).Contents (Elt F) → (⟨S1x128, .f32⟩ : BufTy).Contents (Elt F)),
    StableHlo.unary main_v301 main_v302 (broadcastInDim S50000x128 ![0, 1] bcast_S1x128_S50000x128_0_1 : (⟨S1x128, .f32⟩ : BufTy).Contents (Elt F) → (⟨S50000x128, .f32⟩ : BufTy).Contents (Elt F)),
    StableHlo.binary main_v292 main_v302 main_v303 (subf : (⟨S50000x128, .f32⟩ : BufTy).Contents (Elt F) → (⟨S50000x128, .f32⟩ : BufTy).Contents (Elt F) → (⟨S50000x128, .f32⟩ : BufTy).Contents (Elt F)),
    StableHlo.nullary main_cst_43 (constant S_ .f32 0x3727C5AC#32),
    StableHlo.unary main_cst_43 main_v304 (broadcastInDim S128 ![] bcast_S_S128 : (⟨S_, .f32⟩ : BufTy).Contents (Elt F) → (⟨S128, .f32⟩ : BufTy).Contents (Elt F)),
    StableHlo.binary main_v300 main_v304 main_v305 (addf : (⟨S128, .f32⟩ : BufTy).Contents (Elt F) → (⟨S128, .f32⟩ : BufTy).Contents (Elt F) → (⟨S128, .f32⟩ : BufTy).Contents (Elt F)),
    StableHlo.unary main_v305 main_v306 (Host.rsqrt : (⟨S128, .f32⟩ : BufTy).Contents (Elt F) → (⟨S128, .f32⟩ : BufTy).Contents (Elt F)),
    StableHlo.unary main_v306 main_v307 (broadcastInDim S1x128 ![1] bcast_S128_S1x128_1 : (⟨S128, .f32⟩ : BufTy).Contents (Elt F) → (⟨S1x128, .f32⟩ : BufTy).Contents (Elt F)),
    StableHlo.unary main_v307 main_v308 (broadcastInDim S50000x128 ![0, 1] bcast_S1x128_S50000x128_0_1 : (⟨S1x128, .f32⟩ : BufTy).Contents (Elt F) → (⟨S50000x128, .f32⟩ : BufTy).Contents (Elt F)),
    StableHlo.binary main_v303 main_v308 main_v309 (mulf : (⟨S50000x128, .f32⟩ : BufTy).Contents (Elt F) → (⟨S50000x128, .f32⟩ : BufTy).Contents (Elt F) → (⟨S50000x128, .f32⟩ : BufTy).Contents (Elt F)),
    StableHlo.unary main_v294 main_v310 (broadcastInDim S1x128 ![1] bcast_S128_S1x128_1 : (⟨S128, .f32⟩ : BufTy).Contents (Elt F) → (⟨S1x128, .f32⟩ : BufTy).Contents (Elt F)),
    StableHlo.unary main_v310 main_v311 (broadcastInDim S50000x128 ![0, 1] bcast_S1x128_S50000x128_0_1 : (⟨S1x128, .f32⟩ : BufTy).Contents (Elt F) → (⟨S50000x128, .f32⟩ : BufTy).Contents (Elt F)),
    StableHlo.binary main_v309 main_v311 main_v312 (mulf : (⟨S50000x128, .f32⟩ : BufTy).Contents (Elt F) → (⟨S50000x128, .f32⟩ : BufTy).Contents (Elt F) → (⟨S50000x128, .f32⟩ : BufTy).Contents (Elt F)),
    StableHlo.unary main_v296 main_v313 (broadcastInDim S1x128 ![1] bcast_S128_S1x128_1 : (⟨S128, .f32⟩ : BufTy).Contents (Elt F) → (⟨S1x128, .f32⟩ : BufTy).Contents (Elt F)),
    StableHlo.unary main_v313 main_v314 (broadcastInDim S50000x128 ![0, 1] bcast_S1x128_S50000x128_0_1 : (⟨S1x128, .f32⟩ : BufTy).Contents (Elt F) → (⟨S50000x128, .f32⟩ : BufTy).Contents (Elt F)),
    StableHlo.binary main_v312 main_v314 main_v315 (addf : (⟨S50000x128, .f32⟩ : BufTy).Contents (Elt F) → (⟨S50000x128, .f32⟩ : BufTy).Contents (Elt F) → (⟨S50000x128, .f32⟩ : BufTy).Contents (Elt F)),
    StableHlo.TRef.nullary main_call13.cst (constant S_ .f32 0x00000000#32),
    StableHlo.TRef.unary main_call13.cst main_call13.v0 (broadcastInDim S50000x128 ![] bcast_S_S50000x128),
    StableHlo.TRef.binary (.of main_v315 : StableHlo.TRef sig ⟨S50000x128, .f32⟩) main_call13.v0 main_call13.v1 maximumf,
    StableHlo.unary main_arg3 main_v317 ((extractStridedSlice S1x1 ![2, 0] · slices_S6x3_S1x1_2_0) : (⟨S6x3, .f32⟩ : BufTy).Contents (Elt F) → (⟨S1x1, .f32⟩ : BufTy).Contents (Elt F)),
    StableHlo.reshape main_v317 main_v318 rfl shapeCasts_S1x1_S_,
    StableHlo.unary main_v318 main_v319 (broadcastInDim S50000x128 ![] bcast_S_S50000x128 : (⟨S_, .f32⟩ : BufTy).Contents (Elt F) → (⟨S50000x128, .f32⟩ : BufTy).Contents (Elt F)),
    StableHlo.binary main_v319 main_v316 main_v320 (mulf : (⟨S50000x128, .f32⟩ : BufTy).Contents (Elt F) → (⟨S50000x128, .f32⟩ : BufTy).Contents (Elt F) → (⟨S50000x128, .f32⟩ : BufTy).Contents (Elt F)),
    StableHlo.binary main_v283 main_v320 main_v321 (addf : (⟨S50000x128, .f32⟩ : BufTy).Contents (Elt F) → (⟨S50000x128, .f32⟩ : BufTy).Contents (Elt F) → (⟨S50000x128, .f32⟩ : BufTy).Contents (Elt F)) ]

/-- The references these operations write, in order. -/
abbrev sg11_W : List (Ref sig .tc) :=
  [main_cst_39, main_v283, main_v284, main_v285, main_v286, main_v287, main_v288, main_v289, main_v290, main_v291, main_v292, main_v293, main_v294, main_v295, main_v296, main_cst_40, main_v297, main_cst_41, main_v298, main_v299, main_c_42, main_call12_cst, main_call12_v0, main_call12_v1, main_call12_cst_0, main_call12_v2, main_call12_v3, main_call12_v4, main_call12_v5, main_call12_v6, main_call12_v7, main_call12_cst_1, main_call12_v8, main_call12_cst_2, main_call12_v9, main_call12_v10, main_call12_v11, main_call12_cst_3, main_call12_v12, main_call12_cst_4, main_call12_call0_v0, main_call12_call0_v1, main_v300, main_v301, main_v302, main_v303, main_cst_43, main_v304, main_v305, main_v306, main_v307, main_v308, main_v309, main_v310, main_v311, main_v312, main_v313, main_v314, main_v315, main_call13_cst, main_call13_v0, main_v316, main_v317, main_v318, main_v319, main_v320, main_v321]

set_option maxHeartbeats 40000000 in
set_option maxRecDepth 8192 in
/-- Each operation writes its own result reference, the one listed at its place. -/
theorem sg11_writes : (sg11 : List (HloOp τ sig (Elt F))).Forall fun op => op.writes ⊆ (sg11_W.map (Proc.devRef (τ := τ) .tc)).toFinset :=
  ⟨(Finset.singleton_subset_iff (a := Proc.devRef (τ := τ) .tc main_cst_39)).mpr (List.mem_toFinset.mpr (List.mem_map_of_mem (by decide))),
   (Finset.singleton_subset_iff (a := Proc.devRef (τ := τ) .tc main_v283)).mpr (List.mem_toFinset.mpr (List.mem_map_of_mem (by decide))),
   (Finset.singleton_subset_iff (a := Proc.devRef (τ := τ) .tc main_v284)).mpr (List.mem_toFinset.mpr (List.mem_map_of_mem (by decide))),
   (Finset.singleton_subset_iff (a := Proc.devRef (τ := τ) .tc main_v285)).mpr (List.mem_toFinset.mpr (List.mem_map_of_mem (by decide))),
   (Finset.singleton_subset_iff (a := Proc.devRef (τ := τ) .tc main_v286)).mpr (List.mem_toFinset.mpr (List.mem_map_of_mem (by decide))),
   (Finset.singleton_subset_iff (a := Proc.devRef (τ := τ) .tc main_v287)).mpr (List.mem_toFinset.mpr (List.mem_map_of_mem (by decide))),
   (Finset.singleton_subset_iff (a := Proc.devRef (τ := τ) .tc main_v288)).mpr (List.mem_toFinset.mpr (List.mem_map_of_mem (by decide))),
   (Finset.singleton_subset_iff (a := Proc.devRef (τ := τ) .tc main_v289)).mpr (List.mem_toFinset.mpr (List.mem_map_of_mem (by decide))),
   (Finset.singleton_subset_iff (a := Proc.devRef (τ := τ) .tc main_v290)).mpr (List.mem_toFinset.mpr (List.mem_map_of_mem (by decide))),
   (Finset.singleton_subset_iff (a := Proc.devRef (τ := τ) .tc main_v291)).mpr (List.mem_toFinset.mpr (List.mem_map_of_mem (by decide))),
   (Finset.singleton_subset_iff (a := Proc.devRef (τ := τ) .tc main_v292)).mpr (List.mem_toFinset.mpr (List.mem_map_of_mem (by decide))),
   (Finset.singleton_subset_iff (a := Proc.devRef (τ := τ) .tc main_v293)).mpr (List.mem_toFinset.mpr (List.mem_map_of_mem (by decide))),
   (Finset.singleton_subset_iff (a := Proc.devRef (τ := τ) .tc main_v294)).mpr (List.mem_toFinset.mpr (List.mem_map_of_mem (by decide))),
   (Finset.singleton_subset_iff (a := Proc.devRef (τ := τ) .tc main_v295)).mpr (List.mem_toFinset.mpr (List.mem_map_of_mem (by decide))),
   (Finset.singleton_subset_iff (a := Proc.devRef (τ := τ) .tc main_v296)).mpr (List.mem_toFinset.mpr (List.mem_map_of_mem (by decide))),
   (Finset.singleton_subset_iff (a := Proc.devRef (τ := τ) .tc main_cst_40)).mpr (List.mem_toFinset.mpr (List.mem_map_of_mem (by decide))),
   (Finset.singleton_subset_iff (a := Proc.devRef (τ := τ) .tc main_v297)).mpr (List.mem_toFinset.mpr (List.mem_map_of_mem (by decide))),
   (Finset.singleton_subset_iff (a := Proc.devRef (τ := τ) .tc main_cst_41)).mpr (List.mem_toFinset.mpr (List.mem_map_of_mem (by decide))),
   (Finset.singleton_subset_iff (a := Proc.devRef (τ := τ) .tc main_v298)).mpr (List.mem_toFinset.mpr (List.mem_map_of_mem (by decide))),
   (Finset.singleton_subset_iff (a := Proc.devRef (τ := τ) .tc main_v299)).mpr (List.mem_toFinset.mpr (List.mem_map_of_mem (by decide))),
   (Finset.singleton_subset_iff (a := Proc.devRef (τ := τ) .tc main_c_42)).mpr (List.mem_toFinset.mpr (List.mem_map_of_mem (by decide))),
   (Finset.singleton_subset_iff (a := Proc.devRef (τ := τ) .tc main_call12_cst)).mpr (List.mem_toFinset.mpr (List.mem_map_of_mem (by decide))),
   (Finset.singleton_subset_iff (a := Proc.devRef (τ := τ) .tc main_call12_v0)).mpr (List.mem_toFinset.mpr (List.mem_map_of_mem (by decide))),
   (Finset.singleton_subset_iff (a := Proc.devRef (τ := τ) .tc main_call12_v1)).mpr (List.mem_toFinset.mpr (List.mem_map_of_mem (by decide))),
   (Finset.singleton_subset_iff (a := Proc.devRef (τ := τ) .tc main_call12_cst_0)).mpr (List.mem_toFinset.mpr (List.mem_map_of_mem (by decide))),
   (Finset.singleton_subset_iff (a := Proc.devRef (τ := τ) .tc main_call12_v2)).mpr (List.mem_toFinset.mpr (List.mem_map_of_mem (by decide))),
   (Finset.singleton_subset_iff (a := Proc.devRef (τ := τ) .tc main_call12_v3)).mpr (List.mem_toFinset.mpr (List.mem_map_of_mem (by decide))),
   (Finset.singleton_subset_iff (a := Proc.devRef (τ := τ) .tc main_call12_v4)).mpr (List.mem_toFinset.mpr (List.mem_map_of_mem (by decide))),
   (Finset.singleton_subset_iff (a := Proc.devRef (τ := τ) .tc main_call12_v5)).mpr (List.mem_toFinset.mpr (List.mem_map_of_mem (by decide))),
   (Finset.singleton_subset_iff (a := Proc.devRef (τ := τ) .tc main_call12_v6)).mpr (List.mem_toFinset.mpr (List.mem_map_of_mem (by decide))),
   (Finset.singleton_subset_iff (a := Proc.devRef (τ := τ) .tc main_call12_v7)).mpr (List.mem_toFinset.mpr (List.mem_map_of_mem (by decide))),
   (Finset.singleton_subset_iff (a := Proc.devRef (τ := τ) .tc main_call12_cst_1)).mpr (List.mem_toFinset.mpr (List.mem_map_of_mem (by decide))),
   (Finset.singleton_subset_iff (a := Proc.devRef (τ := τ) .tc main_call12_v8)).mpr (List.mem_toFinset.mpr (List.mem_map_of_mem (by decide))),
   (Finset.singleton_subset_iff (a := Proc.devRef (τ := τ) .tc main_call12_cst_2)).mpr (List.mem_toFinset.mpr (List.mem_map_of_mem (by decide))),
   (Finset.singleton_subset_iff (a := Proc.devRef (τ := τ) .tc main_call12_v9)).mpr (List.mem_toFinset.mpr (List.mem_map_of_mem (by decide))),
   (Finset.singleton_subset_iff (a := Proc.devRef (τ := τ) .tc main_call12_v10)).mpr (List.mem_toFinset.mpr (List.mem_map_of_mem (by decide))),
   (Finset.singleton_subset_iff (a := Proc.devRef (τ := τ) .tc main_call12_v11)).mpr (List.mem_toFinset.mpr (List.mem_map_of_mem (by decide))),
   (Finset.singleton_subset_iff (a := Proc.devRef (τ := τ) .tc main_call12_cst_3)).mpr (List.mem_toFinset.mpr (List.mem_map_of_mem (by decide))),
   (Finset.singleton_subset_iff (a := Proc.devRef (τ := τ) .tc main_call12_v12)).mpr (List.mem_toFinset.mpr (List.mem_map_of_mem (by decide))),
   (Finset.singleton_subset_iff (a := Proc.devRef (τ := τ) .tc main_call12_cst_4)).mpr (List.mem_toFinset.mpr (List.mem_map_of_mem (by decide))),
   (Finset.singleton_subset_iff (a := Proc.devRef (τ := τ) .tc main_call12_call0_v0)).mpr (List.mem_toFinset.mpr (List.mem_map_of_mem (by decide))),
   (Finset.singleton_subset_iff (a := Proc.devRef (τ := τ) .tc main_call12_call0_v1)).mpr (List.mem_toFinset.mpr (List.mem_map_of_mem (by decide))),
   (Finset.singleton_subset_iff (a := Proc.devRef (τ := τ) .tc main_v300)).mpr (List.mem_toFinset.mpr (List.mem_map_of_mem (by decide))),
   (Finset.singleton_subset_iff (a := Proc.devRef (τ := τ) .tc main_v301)).mpr (List.mem_toFinset.mpr (List.mem_map_of_mem (by decide))),
   (Finset.singleton_subset_iff (a := Proc.devRef (τ := τ) .tc main_v302)).mpr (List.mem_toFinset.mpr (List.mem_map_of_mem (by decide))),
   (Finset.singleton_subset_iff (a := Proc.devRef (τ := τ) .tc main_v303)).mpr (List.mem_toFinset.mpr (List.mem_map_of_mem (by decide))),
   (Finset.singleton_subset_iff (a := Proc.devRef (τ := τ) .tc main_cst_43)).mpr (List.mem_toFinset.mpr (List.mem_map_of_mem (by decide))),
   (Finset.singleton_subset_iff (a := Proc.devRef (τ := τ) .tc main_v304)).mpr (List.mem_toFinset.mpr (List.mem_map_of_mem (by decide))),
   (Finset.singleton_subset_iff (a := Proc.devRef (τ := τ) .tc main_v305)).mpr (List.mem_toFinset.mpr (List.mem_map_of_mem (by decide))),
   (Finset.singleton_subset_iff (a := Proc.devRef (τ := τ) .tc main_v306)).mpr (List.mem_toFinset.mpr (List.mem_map_of_mem (by decide))),
   (Finset.singleton_subset_iff (a := Proc.devRef (τ := τ) .tc main_v307)).mpr (List.mem_toFinset.mpr (List.mem_map_of_mem (by decide))),
   (Finset.singleton_subset_iff (a := Proc.devRef (τ := τ) .tc main_v308)).mpr (List.mem_toFinset.mpr (List.mem_map_of_mem (by decide))),
   (Finset.singleton_subset_iff (a := Proc.devRef (τ := τ) .tc main_v309)).mpr (List.mem_toFinset.mpr (List.mem_map_of_mem (by decide))),
   (Finset.singleton_subset_iff (a := Proc.devRef (τ := τ) .tc main_v310)).mpr (List.mem_toFinset.mpr (List.mem_map_of_mem (by decide))),
   (Finset.singleton_subset_iff (a := Proc.devRef (τ := τ) .tc main_v311)).mpr (List.mem_toFinset.mpr (List.mem_map_of_mem (by decide))),
   (Finset.singleton_subset_iff (a := Proc.devRef (τ := τ) .tc main_v312)).mpr (List.mem_toFinset.mpr (List.mem_map_of_mem (by decide))),
   (Finset.singleton_subset_iff (a := Proc.devRef (τ := τ) .tc main_v313)).mpr (List.mem_toFinset.mpr (List.mem_map_of_mem (by decide))),
   (Finset.singleton_subset_iff (a := Proc.devRef (τ := τ) .tc main_v314)).mpr (List.mem_toFinset.mpr (List.mem_map_of_mem (by decide))),
   (Finset.singleton_subset_iff (a := Proc.devRef (τ := τ) .tc main_v315)).mpr (List.mem_toFinset.mpr (List.mem_map_of_mem (by decide))),
   (Finset.singleton_subset_iff (a := Proc.devRef (τ := τ) .tc main_call13_cst)).mpr (List.mem_toFinset.mpr (List.mem_map_of_mem (by decide))),
   (Finset.singleton_subset_iff (a := Proc.devRef (τ := τ) .tc main_call13_v0)).mpr (List.mem_toFinset.mpr (List.mem_map_of_mem (by decide))),
   (Finset.singleton_subset_iff (a := Proc.devRef (τ := τ) .tc main_v316)).mpr (List.mem_toFinset.mpr (List.mem_map_of_mem (by decide))),
   (Finset.singleton_subset_iff (a := Proc.devRef (τ := τ) .tc main_v317)).mpr (List.mem_toFinset.mpr (List.mem_map_of_mem (by decide))),
   (Finset.singleton_subset_iff (a := Proc.devRef (τ := τ) .tc main_v318)).mpr (List.mem_toFinset.mpr (List.mem_map_of_mem (by decide))),
   (Finset.singleton_subset_iff (a := Proc.devRef (τ := τ) .tc main_v319)).mpr (List.mem_toFinset.mpr (List.mem_map_of_mem (by decide))),
   (Finset.singleton_subset_iff (a := Proc.devRef (τ := τ) .tc main_v320)).mpr (List.mem_toFinset.mpr (List.mem_map_of_mem (by decide))),
   (Finset.singleton_subset_iff (a := Proc.devRef (τ := τ) .tc main_v321)).mpr (List.mem_toFinset.mpr (List.mem_map_of_mem (by decide)))⟩

/-- A reference these operations do not write keeps its contents through them. -/
theorem sg11_keep (V : Valuation τ sig (Elt F)) (r : Ref sig .tc) (h : r ∉ sg11_W) :
    after sg11 V (Proc.devRef .tc r) = V (Proc.devRef .tc r) :=
  after_of_writes_sub sg11 V sg11_writes h

end Cert.ReferenceIdeal.HandV

end
-- ==== Proof.RV.TopSeg12.lean ====
import proofs.«414290_j6631429505478_3_alg».proof.Proof.Gen.ReferenceIdeal
import Idealize.ShloMosaic.Lib.StableHlo.Run

set_option Elab.async false

noncomputable section

namespace Cert.ReferenceIdeal.HandV

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
set_option maxRecDepth 8192 in
/-- Operations 529 to 593 of @main, in order (65 of them): from the one writing main_v322 to the one writing main_v359. -/
abbrev sg12 : List (HloOp τ sig (Elt F)) :=
  [ StableHlo.unary main_arg4 main_v322 ((extractStridedSlice S1x1x128x128 ![2, 1, 0, 0] · slices_S6x3x128x128_S1x1x128x128_2_1_0_0) : (⟨S6x3x128x128, .f32⟩ : BufTy).Contents (Elt F) → (⟨S1x1x128x128, .f32⟩ : BufTy).Contents (Elt F)),
    StableHlo.reshape main_v322 main_v323 rfl shapeCasts_S1x1x128x128_S128x128,
    StableHlo.unary main_v323 main_v324 ((transpose S128x128 [1, 0] · transposes_S128x128_S128x128_1_0) : (⟨S128x128, .f32⟩ : BufTy).Contents (Elt F) → (⟨S128x128, .f32⟩ : BufTy).Contents (Elt F)),
    StableHlo.binary main_v141 main_v324 main_v325 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg5 main_v326 ((extractStridedSlice S1x1x128 ![2, 1, 0] · slices_S6x3x128_S1x1x128_2_1_0) : (⟨S6x3x128, .f32⟩ : BufTy).Contents (Elt F) → (⟨S1x1x128, .f32⟩ : BufTy).Contents (Elt F)),
    StableHlo.reshape main_v326 main_v327 rfl shapeCasts_S1x1x128_S128,
    StableHlo.unary main_v327 main_v328 (broadcastInDim S1x128 ![1] bcast_S128_S1x128_1 : (⟨S128, .f32⟩ : BufTy).Contents (Elt F) → (⟨S1x128, .f32⟩ : BufTy).Contents (Elt F)),
    StableHlo.unary main_v328 main_v329 (broadcastInDim S50000x128 ![0, 1] bcast_S1x128_S50000x128_0_1 : (⟨S1x128, .f32⟩ : BufTy).Contents (Elt F) → (⟨S50000x128, .f32⟩ : BufTy).Contents (Elt F)),
    StableHlo.binary main_v325 main_v329 main_v330 (addf : (⟨S50000x128, .f32⟩ : BufTy).Contents (Elt F) → (⟨S50000x128, .f32⟩ : BufTy).Contents (Elt F) → (⟨S50000x128, .f32⟩ : BufTy).Contents (Elt F)),
    StableHlo.unary main_arg6 main_v331 ((extractStridedSlice S1x1x128 ![2, 1, 0] · slices_S6x3x128_S1x1x128_2_1_0) : (⟨S6x3x128, .f32⟩ : BufTy).Contents (Elt F) → (⟨S1x1x128, .f32⟩ : BufTy).Contents (Elt F)),
    StableHlo.reshape main_v331 main_v332 rfl shapeCasts_S1x1x128_S128,
    StableHlo.unary main_arg7 main_v333 ((extractStridedSlice S1x1x128 ![2, 1, 0] · slices_S6x3x128_S1x1x128_2_1_0) : (⟨S6x3x128, .f32⟩ : BufTy).Contents (Elt F) → (⟨S1x1x128, .f32⟩ : BufTy).Contents (Elt F)),
    StableHlo.reshape main_v333 main_v334 rfl shapeCasts_S1x1x128_S128,
    StableHlo.nullary main_cst_44 (constant S_ .f32 0x00000000#32),
    StableHlo.binary main_v330 main_cst_44 main_v335 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_45 (constant S_ .f32 0x47435000#32),
    StableHlo.unary main_cst_45 main_v336 (broadcastInDim S128 ![] bcast_S_S128 : (⟨S_, .f32⟩ : BufTy).Contents (Elt F) → (⟨S128, .f32⟩ : BufTy).Contents (Elt F)),
    StableHlo.binary main_v335 main_v336 main_v337 (Host.divf : (⟨S128, .f32⟩ : BufTy).Contents (Elt F) → (⟨S128, .f32⟩ : BufTy).Contents (Elt F) → (⟨S128, .f32⟩ : BufTy).Contents (Elt F)),
    StableHlo.nullary main_c_46 (constantI S_ 32 0#32),
    StableHlo.TRef.nullary main_call14.cst (constant S_ .f32 0x00000000#32),
    StableHlo.TRef.binary (.of main_v330 : StableHlo.TRef sig ⟨S50000x128, .f32⟩) main_call14.cst main_call14.v0 (fun x v => Host.reduceAdd x v reducesTo_S50000x128_S128_d0 h_S_),
    StableHlo.TRef.unary main_call14.v0 main_call14.v1 (broadcastInDim S1x128 ![1] bcast_S128_S1x128_1),
    StableHlo.TRef.nullary main_call14.cst_0 (constant S_ .f32 0x47435000#32),
    StableHlo.TRef.unary main_call14.cst_0 main_call14.v2 (broadcastInDim S1x128 ![] bcast_S_S1x128),
    StableHlo.TRef.binary main_call14.v1 main_call14.v2 main_call14.v3 Host.divf,
    StableHlo.TRef.unary main_call14.v3 main_call14.v4 (broadcastInDim S50000x128 ![0, 1] bcast_S1x128_S50000x128_0_1),
    StableHlo.TRef.binary (.of main_v330 : StableHlo.TRef sig ⟨S50000x128, .f32⟩) main_call14.v4 main_call14.v5 subf,
    StableHlo.TRef.binary main_call14.v5 main_call14.v5 main_call14.v6 mulf,
    StableHlo.TRef.unary (.of main_c_46 : StableHlo.TRef sig ⟨S_, .i32⟩) main_call14.v7 (sitofp .f32),
    StableHlo.TRef.nullary main_call14.cst_1 (constant S_ .f32 0x47435000#32),
    StableHlo.TRef.binary main_call14.cst_1 main_call14.v7 main_call14.v8 subf,
    StableHlo.TRef.nullary main_call14.cst_2 (constant S_ .f32 0x00000000#32),
    StableHlo.TRef.binary main_call14.v6 main_call14.cst_2 main_call14.v9 (fun x v => Host.reduceAdd x v reducesTo_S50000x128_S128_d0 h_S_),
    StableHlo.TRef.unary main_call14.v8 main_call14.v10 (broadcastInDim S128 ![] bcast_S_S128),
    StableHlo.TRef.binary main_call14.v9 main_call14.v10 main_call14.v11 Host.divf,
    StableHlo.TRef.nullary main_call14.cst_3 (constant S_ .f32 0x00000000#32),
    StableHlo.TRef.binary main_call14.v8 main_call14.cst_3 main_call14.v12 (cmpf .ogt),
    StableHlo.TRef.nullary main_call14.cst_4 (constant S_ .f32 0x7FC00000#32),
    StableHlo.TRef.unary main_call14.cst_4 main_call14.call0.v0 id,
    StableHlo.TRef.unary main_call14.call0.v0 main_call14.call0.v1 (broadcastInDim S128 ![] bcast_S_S128),
    StableHlo.TRef.ternary main_call14.v12 main_call14.v11 main_call14.call0.v1 main_call14.call0.v2 (fun p a b => select (broadcastInDim S128 ![] bcast_S_S128 p) a b),
    StableHlo.unary main_v337 main_v339 (broadcastInDim S1x128 ![1] bcast_S128_S1x128_1 : (⟨S128, .f32⟩ : BufTy).Contents (Elt F) → (⟨S1x128, .f32⟩ : BufTy).Contents (Elt F)),
    StableHlo.unary main_v339 main_v340 (broadcastInDim S50000x128 ![0, 1] bcast_S1x128_S50000x128_0_1 : (⟨S1x128, .f32⟩ : BufTy).Contents (Elt F) → (⟨S50000x128, .f32⟩ : BufTy).Contents (Elt F)),
    StableHlo.binary main_v330 main_v340 main_v341 (subf : (⟨S50000x128, .f32⟩ : BufTy).Contents (Elt F) → (⟨S50000x128, .f32⟩ : BufTy).Contents (Elt F) → (⟨S50000x128, .f32⟩ : BufTy).Contents (Elt F)),
    StableHlo.nullary main_cst_47 (constant S_ .f32 0x3727C5AC#32),
    StableHlo.unary main_cst_47 main_v342 (broadcastInDim S128 ![] bcast_S_S128 : (⟨S_, .f32⟩ : BufTy).Contents (Elt F) → (⟨S128, .f32⟩ : BufTy).Contents (Elt F)),
    StableHlo.binary main_v338 main_v342 main_v343 (addf : (⟨S128, .f32⟩ : BufTy).Contents (Elt F) → (⟨S128, .f32⟩ : BufTy).Contents (Elt F) → (⟨S128, .f32⟩ : BufTy).Contents (Elt F)),
    StableHlo.unary main_v343 main_v344 (Host.rsqrt : (⟨S128, .f32⟩ : BufTy).Contents (Elt F) → (⟨S128, .f32⟩ : BufTy).Contents (Elt F)),
    StableHlo.unary main_v344 main_v345 (broadcastInDim S1x128 ![1] bcast_S128_S1x128_1 : (⟨S128, .f32⟩ : BufTy).Contents (Elt F) → (⟨S1x128, .f32⟩ : BufTy).Contents (Elt F)),
    StableHlo.unary main_v345 main_v346 (broadcastInDim S50000x128 ![0, 1] bcast_S1x128_S50000x128_0_1 : (⟨S1x128, .f32⟩ : BufTy).Contents (Elt F) → (⟨S50000x128, .f32⟩ : BufTy).Contents (Elt F)),
    StableHlo.binary main_v341 main_v346 main_v347 (mulf : (⟨S50000x128, .f32⟩ : BufTy).Contents (Elt F) → (⟨S50000x128, .f32⟩ : BufTy).Contents (Elt F) → (⟨S50000x128, .f32⟩ : BufTy).Contents (Elt F)),
    StableHlo.unary main_v332 main_v348 (broadcastInDim S1x128 ![1] bcast_S128_S1x128_1 : (⟨S128, .f32⟩ : BufTy).Contents (Elt F) → (⟨S1x128, .f32⟩ : BufTy).Contents (Elt F)),
    StableHlo.unary main_v348 main_v349 (broadcastInDim S50000x128 ![0, 1] bcast_S1x128_S50000x128_0_1 : (⟨S1x128, .f32⟩ : BufTy).Contents (Elt F) → (⟨S50000x128, .f32⟩ : BufTy).Contents (Elt F)),
    StableHlo.binary main_v347 main_v349 main_v350 (mulf : (⟨S50000x128, .f32⟩ : BufTy).Contents (Elt F) → (⟨S50000x128, .f32⟩ : BufTy).Contents (Elt F) → (⟨S50000x128, .f32⟩ : BufTy).Contents (Elt F)),
    StableHlo.unary main_v334 main_v351 (broadcastInDim S1x128 ![1] bcast_S128_S1x128_1 : (⟨S128, .f32⟩ : BufTy).Contents (Elt F) → (⟨S1x128, .f32⟩ : BufTy).Contents (Elt F)),
    StableHlo.unary main_v351 main_v352 (broadcastInDim S50000x128 ![0, 1] bcast_S1x128_S50000x128_0_1 : (⟨S1x128, .f32⟩ : BufTy).Contents (Elt F) → (⟨S50000x128, .f32⟩ : BufTy).Contents (Elt F)),
    StableHlo.binary main_v350 main_v352 main_v353 (addf : (⟨S50000x128, .f32⟩ : BufTy).Contents (Elt F) → (⟨S50000x128, .f32⟩ : BufTy).Contents (Elt F) → (⟨S50000x128, .f32⟩ : BufTy).Contents (Elt F)),
    StableHlo.TRef.nullary main_call15.cst (constant S_ .f32 0x00000000#32),
    StableHlo.TRef.unary main_call15.cst main_call15.v0 (broadcastInDim S50000x128 ![] bcast_S_S50000x128),
    StableHlo.TRef.binary (.of main_v353 : StableHlo.TRef sig ⟨S50000x128, .f32⟩) main_call15.v0 main_call15.v1 maximumf,
    StableHlo.unary main_arg3 main_v355 ((extractStridedSlice S1x1 ![2, 1] · slices_S6x3_S1x1_2_1) : (⟨S6x3, .f32⟩ : BufTy).Contents (Elt F) → (⟨S1x1, .f32⟩ : BufTy).Contents (Elt F)),
    StableHlo.reshape main_v355 main_v356 rfl shapeCasts_S1x1_S_,
    StableHlo.unary main_v356 main_v357 (broadcastInDim S50000x128 ![] bcast_S_S50000x128 : (⟨S_, .f32⟩ : BufTy).Contents (Elt F) → (⟨S50000x128, .f32⟩ : BufTy).Contents (Elt F)),
    StableHlo.binary main_v357 main_v354 main_v358 (mulf : (⟨S50000x128, .f32⟩ : BufTy).Contents (Elt F) → (⟨S50000x128, .f32⟩ : BufTy).Contents (Elt F) → (⟨S50000x128, .f32⟩ : BufTy).Contents (Elt F)),
    StableHlo.binary main_v321 main_v358 main_v359 (addf : (⟨S50000x128, .f32⟩ : BufTy).Contents (Elt F) → (⟨S50000x128, .f32⟩ : BufTy).Contents (Elt F) → (⟨S50000x128, .f32⟩ : BufTy).Contents (Elt F)) ]

/-- The references these operations write, in order. -/
abbrev sg12_W : List (Ref sig .tc) :=
  [main_v322, main_v323, main_v324, main_v325, main_v326, main_v327, main_v328, main_v329, main_v330, main_v331, main_v332, main_v333, main_v334, main_cst_44, main_v335, main_cst_45, main_v336, main_v337, main_c_46, main_call14_cst, main_call14_v0, main_call14_v1, main_call14_cst_0, main_call14_v2, main_call14_v3, main_call14_v4, main_call14_v5, main_call14_v6, main_call14_v7, main_call14_cst_1, main_call14_v8, main_call14_cst_2, main_call14_v9, main_call14_v10, main_call14_v11, main_call14_cst_3, main_call14_v12, main_call14_cst_4, main_call14_call0_v0, main_call14_call0_v1, main_v338, main_v339, main_v340, main_v341, main_cst_47, main_v342, main_v343, main_v344, main_v345, main_v346, main_v347, main_v348, main_v349, main_v350, main_v351, main_v352, main_v353, main_call15_cst, main_call15_v0, main_v354, main_v355, main_v356, main_v357, main_v358, main_v359]

set_option maxHeartbeats 40000000 in
set_option maxRecDepth 8192 in
/-- Each operation writes its own result reference, the one listed at its place. -/
theorem sg12_writes : (sg12 : List (HloOp τ sig (Elt F))).Forall fun op => op.writes ⊆ (sg12_W.map (Proc.devRef (τ := τ) .tc)).toFinset :=
  ⟨(Finset.singleton_subset_iff (a := Proc.devRef (τ := τ) .tc main_v322)).mpr (List.mem_toFinset.mpr (List.mem_map_of_mem (by decide))),
   (Finset.singleton_subset_iff (a := Proc.devRef (τ := τ) .tc main_v323)).mpr (List.mem_toFinset.mpr (List.mem_map_of_mem (by decide))),
   (Finset.singleton_subset_iff (a := Proc.devRef (τ := τ) .tc main_v324)).mpr (List.mem_toFinset.mpr (List.mem_map_of_mem (by decide))),
   (Finset.singleton_subset_iff (a := Proc.devRef (τ := τ) .tc main_v325)).mpr (List.mem_toFinset.mpr (List.mem_map_of_mem (by decide))),
   (Finset.singleton_subset_iff (a := Proc.devRef (τ := τ) .tc main_v326)).mpr (List.mem_toFinset.mpr (List.mem_map_of_mem (by decide))),
   (Finset.singleton_subset_iff (a := Proc.devRef (τ := τ) .tc main_v327)).mpr (List.mem_toFinset.mpr (List.mem_map_of_mem (by decide))),
   (Finset.singleton_subset_iff (a := Proc.devRef (τ := τ) .tc main_v328)).mpr (List.mem_toFinset.mpr (List.mem_map_of_mem (by decide))),
   (Finset.singleton_subset_iff (a := Proc.devRef (τ := τ) .tc main_v329)).mpr (List.mem_toFinset.mpr (List.mem_map_of_mem (by decide))),
   (Finset.singleton_subset_iff (a := Proc.devRef (τ := τ) .tc main_v330)).mpr (List.mem_toFinset.mpr (List.mem_map_of_mem (by decide))),
   (Finset.singleton_subset_iff (a := Proc.devRef (τ := τ) .tc main_v331)).mpr (List.mem_toFinset.mpr (List.mem_map_of_mem (by decide))),
   (Finset.singleton_subset_iff (a := Proc.devRef (τ := τ) .tc main_v332)).mpr (List.mem_toFinset.mpr (List.mem_map_of_mem (by decide))),
   (Finset.singleton_subset_iff (a := Proc.devRef (τ := τ) .tc main_v333)).mpr (List.mem_toFinset.mpr (List.mem_map_of_mem (by decide))),
   (Finset.singleton_subset_iff (a := Proc.devRef (τ := τ) .tc main_v334)).mpr (List.mem_toFinset.mpr (List.mem_map_of_mem (by decide))),
   (Finset.singleton_subset_iff (a := Proc.devRef (τ := τ) .tc main_cst_44)).mpr (List.mem_toFinset.mpr (List.mem_map_of_mem (by decide))),
   (Finset.singleton_subset_iff (a := Proc.devRef (τ := τ) .tc main_v335)).mpr (List.mem_toFinset.mpr (List.mem_map_of_mem (by decide))),
   (Finset.singleton_subset_iff (a := Proc.devRef (τ := τ) .tc main_cst_45)).mpr (List.mem_toFinset.mpr (List.mem_map_of_mem (by decide))),
   (Finset.singleton_subset_iff (a := Proc.devRef (τ := τ) .tc main_v336)).mpr (List.mem_toFinset.mpr (List.mem_map_of_mem (by decide))),
   (Finset.singleton_subset_iff (a := Proc.devRef (τ := τ) .tc main_v337)).mpr (List.mem_toFinset.mpr (List.mem_map_of_mem (by decide))),
   (Finset.singleton_subset_iff (a := Proc.devRef (τ := τ) .tc main_c_46)).mpr (List.mem_toFinset.mpr (List.mem_map_of_mem (by decide))),
   (Finset.singleton_subset_iff (a := Proc.devRef (τ := τ) .tc main_call14_cst)).mpr (List.mem_toFinset.mpr (List.mem_map_of_mem (by decide))),
   (Finset.singleton_subset_iff (a := Proc.devRef (τ := τ) .tc main_call14_v0)).mpr (List.mem_toFinset.mpr (List.mem_map_of_mem (by decide))),
   (Finset.singleton_subset_iff (a := Proc.devRef (τ := τ) .tc main_call14_v1)).mpr (List.mem_toFinset.mpr (List.mem_map_of_mem (by decide))),
   (Finset.singleton_subset_iff (a := Proc.devRef (τ := τ) .tc main_call14_cst_0)).mpr (List.mem_toFinset.mpr (List.mem_map_of_mem (by decide))),
   (Finset.singleton_subset_iff (a := Proc.devRef (τ := τ) .tc main_call14_v2)).mpr (List.mem_toFinset.mpr (List.mem_map_of_mem (by decide))),
   (Finset.singleton_subset_iff (a := Proc.devRef (τ := τ) .tc main_call14_v3)).mpr (List.mem_toFinset.mpr (List.mem_map_of_mem (by decide))),
   (Finset.singleton_subset_iff (a := Proc.devRef (τ := τ) .tc main_call14_v4)).mpr (List.mem_toFinset.mpr (List.mem_map_of_mem (by decide))),
   (Finset.singleton_subset_iff (a := Proc.devRef (τ := τ) .tc main_call14_v5)).mpr (List.mem_toFinset.mpr (List.mem_map_of_mem (by decide))),
   (Finset.singleton_subset_iff (a := Proc.devRef (τ := τ) .tc main_call14_v6)).mpr (List.mem_toFinset.mpr (List.mem_map_of_mem (by decide))),
   (Finset.singleton_subset_iff (a := Proc.devRef (τ := τ) .tc main_call14_v7)).mpr (List.mem_toFinset.mpr (List.mem_map_of_mem (by decide))),
   (Finset.singleton_subset_iff (a := Proc.devRef (τ := τ) .tc main_call14_cst_1)).mpr (List.mem_toFinset.mpr (List.mem_map_of_mem (by decide))),
   (Finset.singleton_subset_iff (a := Proc.devRef (τ := τ) .tc main_call14_v8)).mpr (List.mem_toFinset.mpr (List.mem_map_of_mem (by decide))),
   (Finset.singleton_subset_iff (a := Proc.devRef (τ := τ) .tc main_call14_cst_2)).mpr (List.mem_toFinset.mpr (List.mem_map_of_mem (by decide))),
   (Finset.singleton_subset_iff (a := Proc.devRef (τ := τ) .tc main_call14_v9)).mpr (List.mem_toFinset.mpr (List.mem_map_of_mem (by decide))),
   (Finset.singleton_subset_iff (a := Proc.devRef (τ := τ) .tc main_call14_v10)).mpr (List.mem_toFinset.mpr (List.mem_map_of_mem (by decide))),
   (Finset.singleton_subset_iff (a := Proc.devRef (τ := τ) .tc main_call14_v11)).mpr (List.mem_toFinset.mpr (List.mem_map_of_mem (by decide))),
   (Finset.singleton_subset_iff (a := Proc.devRef (τ := τ) .tc main_call14_cst_3)).mpr (List.mem_toFinset.mpr (List.mem_map_of_mem (by decide))),
   (Finset.singleton_subset_iff (a := Proc.devRef (τ := τ) .tc main_call14_v12)).mpr (List.mem_toFinset.mpr (List.mem_map_of_mem (by decide))),
   (Finset.singleton_subset_iff (a := Proc.devRef (τ := τ) .tc main_call14_cst_4)).mpr (List.mem_toFinset.mpr (List.mem_map_of_mem (by decide))),
   (Finset.singleton_subset_iff (a := Proc.devRef (τ := τ) .tc main_call14_call0_v0)).mpr (List.mem_toFinset.mpr (List.mem_map_of_mem (by decide))),
   (Finset.singleton_subset_iff (a := Proc.devRef (τ := τ) .tc main_call14_call0_v1)).mpr (List.mem_toFinset.mpr (List.mem_map_of_mem (by decide))),
   (Finset.singleton_subset_iff (a := Proc.devRef (τ := τ) .tc main_v338)).mpr (List.mem_toFinset.mpr (List.mem_map_of_mem (by decide))),
   (Finset.singleton_subset_iff (a := Proc.devRef (τ := τ) .tc main_v339)).mpr (List.mem_toFinset.mpr (List.mem_map_of_mem (by decide))),
   (Finset.singleton_subset_iff (a := Proc.devRef (τ := τ) .tc main_v340)).mpr (List.mem_toFinset.mpr (List.mem_map_of_mem (by decide))),
   (Finset.singleton_subset_iff (a := Proc.devRef (τ := τ) .tc main_v341)).mpr (List.mem_toFinset.mpr (List.mem_map_of_mem (by decide))),
   (Finset.singleton_subset_iff (a := Proc.devRef (τ := τ) .tc main_cst_47)).mpr (List.mem_toFinset.mpr (List.mem_map_of_mem (by decide))),
   (Finset.singleton_subset_iff (a := Proc.devRef (τ := τ) .tc main_v342)).mpr (List.mem_toFinset.mpr (List.mem_map_of_mem (by decide))),
   (Finset.singleton_subset_iff (a := Proc.devRef (τ := τ) .tc main_v343)).mpr (List.mem_toFinset.mpr (List.mem_map_of_mem (by decide))),
   (Finset.singleton_subset_iff (a := Proc.devRef (τ := τ) .tc main_v344)).mpr (List.mem_toFinset.mpr (List.mem_map_of_mem (by decide))),
   (Finset.singleton_subset_iff (a := Proc.devRef (τ := τ) .tc main_v345)).mpr (List.mem_toFinset.mpr (List.mem_map_of_mem (by decide))),
   (Finset.singleton_subset_iff (a := Proc.devRef (τ := τ) .tc main_v346)).mpr (List.mem_toFinset.mpr (List.mem_map_of_mem (by decide))),
   (Finset.singleton_subset_iff (a := Proc.devRef (τ := τ) .tc main_v347)).mpr (List.mem_toFinset.mpr (List.mem_map_of_mem (by decide))),
   (Finset.singleton_subset_iff (a := Proc.devRef (τ := τ) .tc main_v348)).mpr (List.mem_toFinset.mpr (List.mem_map_of_mem (by decide))),
   (Finset.singleton_subset_iff (a := Proc.devRef (τ := τ) .tc main_v349)).mpr (List.mem_toFinset.mpr (List.mem_map_of_mem (by decide))),
   (Finset.singleton_subset_iff (a := Proc.devRef (τ := τ) .tc main_v350)).mpr (List.mem_toFinset.mpr (List.mem_map_of_mem (by decide))),
   (Finset.singleton_subset_iff (a := Proc.devRef (τ := τ) .tc main_v351)).mpr (List.mem_toFinset.mpr (List.mem_map_of_mem (by decide))),
   (Finset.singleton_subset_iff (a := Proc.devRef (τ := τ) .tc main_v352)).mpr (List.mem_toFinset.mpr (List.mem_map_of_mem (by decide))),
   (Finset.singleton_subset_iff (a := Proc.devRef (τ := τ) .tc main_v353)).mpr (List.mem_toFinset.mpr (List.mem_map_of_mem (by decide))),
   (Finset.singleton_subset_iff (a := Proc.devRef (τ := τ) .tc main_call15_cst)).mpr (List.mem_toFinset.mpr (List.mem_map_of_mem (by decide))),
   (Finset.singleton_subset_iff (a := Proc.devRef (τ := τ) .tc main_call15_v0)).mpr (List.mem_toFinset.mpr (List.mem_map_of_mem (by decide))),
   (Finset.singleton_subset_iff (a := Proc.devRef (τ := τ) .tc main_v354)).mpr (List.mem_toFinset.mpr (List.mem_map_of_mem (by decide))),
   (Finset.singleton_subset_iff (a := Proc.devRef (τ := τ) .tc main_v355)).mpr (List.mem_toFinset.mpr (List.mem_map_of_mem (by decide))),
   (Finset.singleton_subset_iff (a := Proc.devRef (τ := τ) .tc main_v356)).mpr (List.mem_toFinset.mpr (List.mem_map_of_mem (by decide))),
   (Finset.singleton_subset_iff (a := Proc.devRef (τ := τ) .tc main_v357)).mpr (List.mem_toFinset.mpr (List.mem_map_of_mem (by decide))),
   (Finset.singleton_subset_iff (a := Proc.devRef (τ := τ) .tc main_v358)).mpr (List.mem_toFinset.mpr (List.mem_map_of_mem (by decide))),
   (Finset.singleton_subset_iff (a := Proc.devRef (τ := τ) .tc main_v359)).mpr (List.mem_toFinset.mpr (List.mem_map_of_mem (by decide)))⟩

/-- A reference these operations do not write keeps its contents through them. -/
theorem sg12_keep (V : Valuation τ sig (Elt F)) (r : Ref sig .tc) (h : r ∉ sg12_W) :
    after sg12 V (Proc.devRef .tc r) = V (Proc.devRef .tc r) :=
  after_of_writes_sub sg12 V sg12_writes h

end Cert.ReferenceIdeal.HandV

end
-- ==== Proof.RV.TopSeg13.lean ====
import proofs.«414290_j6631429505478_3_alg».proof.Proof.Gen.ReferenceIdeal
import Idealize.ShloMosaic.Lib.StableHlo.Run

set_option Elab.async false

noncomputable section

namespace Cert.ReferenceIdeal.HandV

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
set_option maxRecDepth 8192 in
/-- Operations 594 to 658 of @main, in order (65 of them): from the one writing main_v360 to the one writing main_v397. -/
abbrev sg13 : List (HloOp τ sig (Elt F)) :=
  [ StableHlo.unary main_arg4 main_v360 ((extractStridedSlice S1x1x128x128 ![2, 2, 0, 0] · slices_S6x3x128x128_S1x1x128x128_2_2_0_0) : (⟨S6x3x128x128, .f32⟩ : BufTy).Contents (Elt F) → (⟨S1x1x128x128, .f32⟩ : BufTy).Contents (Elt F)),
    StableHlo.reshape main_v360 main_v361 rfl shapeCasts_S1x1x128x128_S128x128,
    StableHlo.unary main_v361 main_v362 ((transpose S128x128 [1, 0] · transposes_S128x128_S128x128_1_0) : (⟨S128x128, .f32⟩ : BufTy).Contents (Elt F) → (⟨S128x128, .f32⟩ : BufTy).Contents (Elt F)),
    StableHlo.binary main_arg2 main_v362 main_v363 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg5 main_v364 ((extractStridedSlice S1x1x128 ![2, 2, 0] · slices_S6x3x128_S1x1x128_2_2_0) : (⟨S6x3x128, .f32⟩ : BufTy).Contents (Elt F) → (⟨S1x1x128, .f32⟩ : BufTy).Contents (Elt F)),
    StableHlo.reshape main_v364 main_v365 rfl shapeCasts_S1x1x128_S128,
    StableHlo.unary main_v365 main_v366 (broadcastInDim S1x128 ![1] bcast_S128_S1x128_1 : (⟨S128, .f32⟩ : BufTy).Contents (Elt F) → (⟨S1x128, .f32⟩ : BufTy).Contents (Elt F)),
    StableHlo.unary main_v366 main_v367 (broadcastInDim S50000x128 ![0, 1] bcast_S1x128_S50000x128_0_1 : (⟨S1x128, .f32⟩ : BufTy).Contents (Elt F) → (⟨S50000x128, .f32⟩ : BufTy).Contents (Elt F)),
    StableHlo.binary main_v363 main_v367 main_v368 (addf : (⟨S50000x128, .f32⟩ : BufTy).Contents (Elt F) → (⟨S50000x128, .f32⟩ : BufTy).Contents (Elt F) → (⟨S50000x128, .f32⟩ : BufTy).Contents (Elt F)),
    StableHlo.unary main_arg6 main_v369 ((extractStridedSlice S1x1x128 ![2, 2, 0] · slices_S6x3x128_S1x1x128_2_2_0) : (⟨S6x3x128, .f32⟩ : BufTy).Contents (Elt F) → (⟨S1x1x128, .f32⟩ : BufTy).Contents (Elt F)),
    StableHlo.reshape main_v369 main_v370 rfl shapeCasts_S1x1x128_S128,
    StableHlo.unary main_arg7 main_v371 ((extractStridedSlice S1x1x128 ![2, 2, 0] · slices_S6x3x128_S1x1x128_2_2_0) : (⟨S6x3x128, .f32⟩ : BufTy).Contents (Elt F) → (⟨S1x1x128, .f32⟩ : BufTy).Contents (Elt F)),
    StableHlo.reshape main_v371 main_v372 rfl shapeCasts_S1x1x128_S128,
    StableHlo.nullary main_cst_48 (constant S_ .f32 0x00000000#32),
    StableHlo.binary main_v368 main_cst_48 main_v373 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_49 (constant S_ .f32 0x47435000#32),
    StableHlo.unary main_cst_49 main_v374 (broadcastInDim S128 ![] bcast_S_S128 : (⟨S_, .f32⟩ : BufTy).Contents (Elt F) → (⟨S128, .f32⟩ : BufTy).Contents (Elt F)),
    StableHlo.binary main_v373 main_v374 main_v375 (Host.divf : (⟨S128, .f32⟩ : BufTy).Contents (Elt F) → (⟨S128, .f32⟩ : BufTy).Contents (Elt F) → (⟨S128, .f32⟩ : BufTy).Contents (Elt F)),
    StableHlo.nullary main_c_50 (constantI S_ 32 0#32),
    StableHlo.TRef.nullary main_call16.cst (constant S_ .f32 0x00000000#32),
    StableHlo.TRef.binary (.of main_v368 : StableHlo.TRef sig ⟨S50000x128, .f32⟩) main_call16.cst main_call16.v0 (fun x v => Host.reduceAdd x v reducesTo_S50000x128_S128_d0 h_S_),
    StableHlo.TRef.unary main_call16.v0 main_call16.v1 (broadcastInDim S1x128 ![1] bcast_S128_S1x128_1),
    StableHlo.TRef.nullary main_call16.cst_0 (constant S_ .f32 0x47435000#32),
    StableHlo.TRef.unary main_call16.cst_0 main_call16.v2 (broadcastInDim S1x128 ![] bcast_S_S1x128),
    StableHlo.TRef.binary main_call16.v1 main_call16.v2 main_call16.v3 Host.divf,
    StableHlo.TRef.unary main_call16.v3 main_call16.v4 (broadcastInDim S50000x128 ![0, 1] bcast_S1x128_S50000x128_0_1),
    StableHlo.TRef.binary (.of main_v368 : StableHlo.TRef sig ⟨S50000x128, .f32⟩) main_call16.v4 main_call16.v5 subf,
    StableHlo.TRef.binary main_call16.v5 main_call16.v5 main_call16.v6 mulf,
    StableHlo.TRef.unary (.of main_c_50 : StableHlo.TRef sig ⟨S_, .i32⟩) main_call16.v7 (sitofp .f32),
    StableHlo.TRef.nullary main_call16.cst_1 (constant S_ .f32 0x47435000#32),
    StableHlo.TRef.binary main_call16.cst_1 main_call16.v7 main_call16.v8 subf,
    StableHlo.TRef.nullary main_call16.cst_2 (constant S_ .f32 0x00000000#32),
    StableHlo.TRef.binary main_call16.v6 main_call16.cst_2 main_call16.v9 (fun x v => Host.reduceAdd x v reducesTo_S50000x128_S128_d0 h_S_),
    StableHlo.TRef.unary main_call16.v8 main_call16.v10 (broadcastInDim S128 ![] bcast_S_S128),
    StableHlo.TRef.binary main_call16.v9 main_call16.v10 main_call16.v11 Host.divf,
    StableHlo.TRef.nullary main_call16.cst_3 (constant S_ .f32 0x00000000#32),
    StableHlo.TRef.binary main_call16.v8 main_call16.cst_3 main_call16.v12 (cmpf .ogt),
    StableHlo.TRef.nullary main_call16.cst_4 (constant S_ .f32 0x7FC00000#32),
    StableHlo.TRef.unary main_call16.cst_4 main_call16.call0.v0 id,
    StableHlo.TRef.unary main_call16.call0.v0 main_call16.call0.v1 (broadcastInDim S128 ![] bcast_S_S128),
    StableHlo.TRef.ternary main_call16.v12 main_call16.v11 main_call16.call0.v1 main_call16.call0.v2 (fun p a b => select (broadcastInDim S128 ![] bcast_S_S128 p) a b),
    StableHlo.unary main_v375 main_v377 (broadcastInDim S1x128 ![1] bcast_S128_S1x128_1 : (⟨S128, .f32⟩ : BufTy).Contents (Elt F) → (⟨S1x128, .f32⟩ : BufTy).Contents (Elt F)),
    StableHlo.unary main_v377 main_v378 (broadcastInDim S50000x128 ![0, 1] bcast_S1x128_S50000x128_0_1 : (⟨S1x128, .f32⟩ : BufTy).Contents (Elt F) → (⟨S50000x128, .f32⟩ : BufTy).Contents (Elt F)),
    StableHlo.binary main_v368 main_v378 main_v379 (subf : (⟨S50000x128, .f32⟩ : BufTy).Contents (Elt F) → (⟨S50000x128, .f32⟩ : BufTy).Contents (Elt F) → (⟨S50000x128, .f32⟩ : BufTy).Contents (Elt F)),
    StableHlo.nullary main_cst_51 (constant S_ .f32 0x3727C5AC#32),
    StableHlo.unary main_cst_51 main_v380 (broadcastInDim S128 ![] bcast_S_S128 : (⟨S_, .f32⟩ : BufTy).Contents (Elt F) → (⟨S128, .f32⟩ : BufTy).Contents (Elt F)),
    StableHlo.binary main_v376 main_v380 main_v381 (addf : (⟨S128, .f32⟩ : BufTy).Contents (Elt F) → (⟨S128, .f32⟩ : BufTy).Contents (Elt F) → (⟨S128, .f32⟩ : BufTy).Contents (Elt F)),
    StableHlo.unary main_v381 main_v382 (Host.rsqrt : (⟨S128, .f32⟩ : BufTy).Contents (Elt F) → (⟨S128, .f32⟩ : BufTy).Contents (Elt F)),
    StableHlo.unary main_v382 main_v383 (broadcastInDim S1x128 ![1] bcast_S128_S1x128_1 : (⟨S128, .f32⟩ : BufTy).Contents (Elt F) → (⟨S1x128, .f32⟩ : BufTy).Contents (Elt F)),
    StableHlo.unary main_v383 main_v384 (broadcastInDim S50000x128 ![0, 1] bcast_S1x128_S50000x128_0_1 : (⟨S1x128, .f32⟩ : BufTy).Contents (Elt F) → (⟨S50000x128, .f32⟩ : BufTy).Contents (Elt F)),
    StableHlo.binary main_v379 main_v384 main_v385 (mulf : (⟨S50000x128, .f32⟩ : BufTy).Contents (Elt F) → (⟨S50000x128, .f32⟩ : BufTy).Contents (Elt F) → (⟨S50000x128, .f32⟩ : BufTy).Contents (Elt F)),
    StableHlo.unary main_v370 main_v386 (broadcastInDim S1x128 ![1] bcast_S128_S1x128_1 : (⟨S128, .f32⟩ : BufTy).Contents (Elt F) → (⟨S1x128, .f32⟩ : BufTy).Contents (Elt F)),
    StableHlo.unary main_v386 main_v387 (broadcastInDim S50000x128 ![0, 1] bcast_S1x128_S50000x128_0_1 : (⟨S1x128, .f32⟩ : BufTy).Contents (Elt F) → (⟨S50000x128, .f32⟩ : BufTy).Contents (Elt F)),
    StableHlo.binary main_v385 main_v387 main_v388 (mulf : (⟨S50000x128, .f32⟩ : BufTy).Contents (Elt F) → (⟨S50000x128, .f32⟩ : BufTy).Contents (Elt F) → (⟨S50000x128, .f32⟩ : BufTy).Contents (Elt F)),
    StableHlo.unary main_v372 main_v389 (broadcastInDim S1x128 ![1] bcast_S128_S1x128_1 : (⟨S128, .f32⟩ : BufTy).Contents (Elt F) → (⟨S1x128, .f32⟩ : BufTy).Contents (Elt F)),
    StableHlo.unary main_v389 main_v390 (broadcastInDim S50000x128 ![0, 1] bcast_S1x128_S50000x128_0_1 : (⟨S1x128, .f32⟩ : BufTy).Contents (Elt F) → (⟨S50000x128, .f32⟩ : BufTy).Contents (Elt F)),
    StableHlo.binary main_v388 main_v390 main_v391 (addf : (⟨S50000x128, .f32⟩ : BufTy).Contents (Elt F) → (⟨S50000x128, .f32⟩ : BufTy).Contents (Elt F) → (⟨S50000x128, .f32⟩ : BufTy).Contents (Elt F)),
    StableHlo.TRef.nullary main_call17.cst (constant S_ .f32 0x00000000#32),
    StableHlo.TRef.unary main_call17.cst main_call17.v0 (broadcastInDim S50000x128 ![] bcast_S_S50000x128),
    StableHlo.TRef.binary (.of main_v391 : StableHlo.TRef sig ⟨S50000x128, .f32⟩) main_call17.v0 main_call17.v1 maximumf,
    StableHlo.unary main_arg3 main_v393 ((extractStridedSlice S1x1 ![2, 2] · slices_S6x3_S1x1_2_2) : (⟨S6x3, .f32⟩ : BufTy).Contents (Elt F) → (⟨S1x1, .f32⟩ : BufTy).Contents (Elt F)),
    StableHlo.reshape main_v393 main_v394 rfl shapeCasts_S1x1_S_,
    StableHlo.unary main_v394 main_v395 (broadcastInDim S50000x128 ![] bcast_S_S50000x128 : (⟨S_, .f32⟩ : BufTy).Contents (Elt F) → (⟨S50000x128, .f32⟩ : BufTy).Contents (Elt F)),
    StableHlo.binary main_v395 main_v392 main_v396 (mulf : (⟨S50000x128, .f32⟩ : BufTy).Contents (Elt F) → (⟨S50000x128, .f32⟩ : BufTy).Contents (Elt F) → (⟨S50000x128, .f32⟩ : BufTy).Contents (Elt F)),
    StableHlo.binary main_v359 main_v396 main_v397 (addf : (⟨S50000x128, .f32⟩ : BufTy).Contents (Elt F) → (⟨S50000x128, .f32⟩ : BufTy).Contents (Elt F) → (⟨S50000x128, .f32⟩ : BufTy).Contents (Elt F)) ]

/-- The references these operations write, in order. -/
abbrev sg13_W : List (Ref sig .tc) :=
  [main_v360, main_v361, main_v362, main_v363, main_v364, main_v365, main_v366, main_v367, main_v368, main_v369, main_v370, main_v371, main_v372, main_cst_48, main_v373, main_cst_49, main_v374, main_v375, main_c_50, main_call16_cst, main_call16_v0, main_call16_v1, main_call16_cst_0, main_call16_v2, main_call16_v3, main_call16_v4, main_call16_v5, main_call16_v6, main_call16_v7, main_call16_cst_1, main_call16_v8, main_call16_cst_2, main_call16_v9, main_call16_v10, main_call16_v11, main_call16_cst_3, main_call16_v12, main_call16_cst_4, main_call16_call0_v0, main_call16_call0_v1, main_v376, main_v377, main_v378, main_v379, main_cst_51, main_v380, main_v381, main_v382, main_v383, main_v384, main_v385, main_v386, main_v387, main_v388, main_v389, main_v390, main_v391, main_call17_cst, main_call17_v0, main_v392, main_v393, main_v394, main_v395, main_v396, main_v397]

set_option maxHeartbeats 40000000 in
set_option maxRecDepth 8192 in
/-- Each operation writes its own result reference, the one listed at its place. -/
theorem sg13_writes : (sg13 : List (HloOp τ sig (Elt F))).Forall fun op => op.writes ⊆ (sg13_W.map (Proc.devRef (τ := τ) .tc)).toFinset :=
  ⟨(Finset.singleton_subset_iff (a := Proc.devRef (τ := τ) .tc main_v360)).mpr (List.mem_toFinset.mpr (List.mem_map_of_mem (by decide))),
   (Finset.singleton_subset_iff (a := Proc.devRef (τ := τ) .tc main_v361)).mpr (List.mem_toFinset.mpr (List.mem_map_of_mem (by decide))),
   (Finset.singleton_subset_iff (a := Proc.devRef (τ := τ) .tc main_v362)).mpr (List.mem_toFinset.mpr (List.mem_map_of_mem (by decide))),
   (Finset.singleton_subset_iff (a := Proc.devRef (τ := τ) .tc main_v363)).mpr (List.mem_toFinset.mpr (List.mem_map_of_mem (by decide))),
   (Finset.singleton_subset_iff (a := Proc.devRef (τ := τ) .tc main_v364)).mpr (List.mem_toFinset.mpr (List.mem_map_of_mem (by decide))),
   (Finset.singleton_subset_iff (a := Proc.devRef (τ := τ) .tc main_v365)).mpr (List.mem_toFinset.mpr (List.mem_map_of_mem (by decide))),
   (Finset.singleton_subset_iff (a := Proc.devRef (τ := τ) .tc main_v366)).mpr (List.mem_toFinset.mpr (List.mem_map_of_mem (by decide))),
   (Finset.singleton_subset_iff (a := Proc.devRef (τ := τ) .tc main_v367)).mpr (List.mem_toFinset.mpr (List.mem_map_of_mem (by decide))),
   (Finset.singleton_subset_iff (a := Proc.devRef (τ := τ) .tc main_v368)).mpr (List.mem_toFinset.mpr (List.mem_map_of_mem (by decide))),
   (Finset.singleton_subset_iff (a := Proc.devRef (τ := τ) .tc main_v369)).mpr (List.mem_toFinset.mpr (List.mem_map_of_mem (by decide))),
   (Finset.singleton_subset_iff (a := Proc.devRef (τ := τ) .tc main_v370)).mpr (List.mem_toFinset.mpr (List.mem_map_of_mem (by decide))),
   (Finset.singleton_subset_iff (a := Proc.devRef (τ := τ) .tc main_v371)).mpr (List.mem_toFinset.mpr (List.mem_map_of_mem (by decide))),
   (Finset.singleton_subset_iff (a := Proc.devRef (τ := τ) .tc main_v372)).mpr (List.mem_toFinset.mpr (List.mem_map_of_mem (by decide))),
   (Finset.singleton_subset_iff (a := Proc.devRef (τ := τ) .tc main_cst_48)).mpr (List.mem_toFinset.mpr (List.mem_map_of_mem (by decide))),
   (Finset.singleton_subset_iff (a := Proc.devRef (τ := τ) .tc main_v373)).mpr (List.mem_toFinset.mpr (List.mem_map_of_mem (by decide))),
   (Finset.singleton_subset_iff (a := Proc.devRef (τ := τ) .tc main_cst_49)).mpr (List.mem_toFinset.mpr (List.mem_map_of_mem (by decide))),
   (Finset.singleton_subset_iff (a := Proc.devRef (τ := τ) .tc main_v374)).mpr (List.mem_toFinset.mpr (List.mem_map_of_mem (by decide))),
   (Finset.singleton_subset_iff (a := Proc.devRef (τ := τ) .tc main_v375)).mpr (List.mem_toFinset.mpr (List.mem_map_of_mem (by decide))),
   (Finset.singleton_subset_iff (a := Proc.devRef (τ := τ) .tc main_c_50)).mpr (List.mem_toFinset.mpr (List.mem_map_of_mem (by decide))),
   (Finset.singleton_subset_iff (a := Proc.devRef (τ := τ) .tc main_call16_cst)).mpr (List.mem_toFinset.mpr (List.mem_map_of_mem (by decide))),
   (Finset.singleton_subset_iff (a := Proc.devRef (τ := τ) .tc main_call16_v0)).mpr (List.mem_toFinset.mpr (List.mem_map_of_mem (by decide))),
   (Finset.singleton_subset_iff (a := Proc.devRef (τ := τ) .tc main_call16_v1)).mpr (List.mem_toFinset.mpr (List.mem_map_of_mem (by decide))),
   (Finset.singleton_subset_iff (a := Proc.devRef (τ := τ) .tc main_call16_cst_0)).mpr (List.mem_toFinset.mpr (List.mem_map_of_mem (by decide))),
   (Finset.singleton_subset_iff (a := Proc.devRef (τ := τ) .tc main_call16_v2)).mpr (List.mem_toFinset.mpr (List.mem_map_of_mem (by decide))),
   (Finset.singleton_subset_iff (a := Proc.devRef (τ := τ) .tc main_call16_v3)).mpr (List.mem_toFinset.mpr (List.mem_map_of_mem (by decide))),
   (Finset.singleton_subset_iff (a := Proc.devRef (τ := τ) .tc main_call16_v4)).mpr (List.mem_toFinset.mpr (List.mem_map_of_mem (by decide))),
   (Finset.singleton_subset_iff (a := Proc.devRef (τ := τ) .tc main_call16_v5)).mpr (List.mem_toFinset.mpr (List.mem_map_of_mem (by decide))),
   (Finset.singleton_subset_iff (a := Proc.devRef (τ := τ) .tc main_call16_v6)).mpr (List.mem_toFinset.mpr (List.mem_map_of_mem (by decide))),
   (Finset.singleton_subset_iff (a := Proc.devRef (τ := τ) .tc main_call16_v7)).mpr (List.mem_toFinset.mpr (List.mem_map_of_mem (by decide))),
   (Finset.singleton_subset_iff (a := Proc.devRef (τ := τ) .tc main_call16_cst_1)).mpr (List.mem_toFinset.mpr (List.mem_map_of_mem (by decide))),
   (Finset.singleton_subset_iff (a := Proc.devRef (τ := τ) .tc main_call16_v8)).mpr (List.mem_toFinset.mpr (List.mem_map_of_mem (by decide))),
   (Finset.singleton_subset_iff (a := Proc.devRef (τ := τ) .tc main_call16_cst_2)).mpr (List.mem_toFinset.mpr (List.mem_map_of_mem (by decide))),
   (Finset.singleton_subset_iff (a := Proc.devRef (τ := τ) .tc main_call16_v9)).mpr (List.mem_toFinset.mpr (List.mem_map_of_mem (by decide))),
   (Finset.singleton_subset_iff (a := Proc.devRef (τ := τ) .tc main_call16_v10)).mpr (List.mem_toFinset.mpr (List.mem_map_of_mem (by decide))),
   (Finset.singleton_subset_iff (a := Proc.devRef (τ := τ) .tc main_call16_v11)).mpr (List.mem_toFinset.mpr (List.mem_map_of_mem (by decide))),
   (Finset.singleton_subset_iff (a := Proc.devRef (τ := τ) .tc main_call16_cst_3)).mpr (List.mem_toFinset.mpr (List.mem_map_of_mem (by decide))),
   (Finset.singleton_subset_iff (a := Proc.devRef (τ := τ) .tc main_call16_v12)).mpr (List.mem_toFinset.mpr (List.mem_map_of_mem (by decide))),
   (Finset.singleton_subset_iff (a := Proc.devRef (τ := τ) .tc main_call16_cst_4)).mpr (List.mem_toFinset.mpr (List.mem_map_of_mem (by decide))),
   (Finset.singleton_subset_iff (a := Proc.devRef (τ := τ) .tc main_call16_call0_v0)).mpr (List.mem_toFinset.mpr (List.mem_map_of_mem (by decide))),
   (Finset.singleton_subset_iff (a := Proc.devRef (τ := τ) .tc main_call16_call0_v1)).mpr (List.mem_toFinset.mpr (List.mem_map_of_mem (by decide))),
   (Finset.singleton_subset_iff (a := Proc.devRef (τ := τ) .tc main_v376)).mpr (List.mem_toFinset.mpr (List.mem_map_of_mem (by decide))),
   (Finset.singleton_subset_iff (a := Proc.devRef (τ := τ) .tc main_v377)).mpr (List.mem_toFinset.mpr (List.mem_map_of_mem (by decide))),
   (Finset.singleton_subset_iff (a := Proc.devRef (τ := τ) .tc main_v378)).mpr (List.mem_toFinset.mpr (List.mem_map_of_mem (by decide))),
   (Finset.singleton_subset_iff (a := Proc.devRef (τ := τ) .tc main_v379)).mpr (List.mem_toFinset.mpr (List.mem_map_of_mem (by decide))),
   (Finset.singleton_subset_iff (a := Proc.devRef (τ := τ) .tc main_cst_51)).mpr (List.mem_toFinset.mpr (List.mem_map_of_mem (by decide))),
   (Finset.singleton_subset_iff (a := Proc.devRef (τ := τ) .tc main_v380)).mpr (List.mem_toFinset.mpr (List.mem_map_of_mem (by decide))),
   (Finset.singleton_subset_iff (a := Proc.devRef (τ := τ) .tc main_v381)).mpr (List.mem_toFinset.mpr (List.mem_map_of_mem (by decide))),
   (Finset.singleton_subset_iff (a := Proc.devRef (τ := τ) .tc main_v382)).mpr (List.mem_toFinset.mpr (List.mem_map_of_mem (by decide))),
   (Finset.singleton_subset_iff (a := Proc.devRef (τ := τ) .tc main_v383)).mpr (List.mem_toFinset.mpr (List.mem_map_of_mem (by decide))),
   (Finset.singleton_subset_iff (a := Proc.devRef (τ := τ) .tc main_v384)).mpr (List.mem_toFinset.mpr (List.mem_map_of_mem (by decide))),
   (Finset.singleton_subset_iff (a := Proc.devRef (τ := τ) .tc main_v385)).mpr (List.mem_toFinset.mpr (List.mem_map_of_mem (by decide))),
   (Finset.singleton_subset_iff (a := Proc.devRef (τ := τ) .tc main_v386)).mpr (List.mem_toFinset.mpr (List.mem_map_of_mem (by decide))),
   (Finset.singleton_subset_iff (a := Proc.devRef (τ := τ) .tc main_v387)).mpr (List.mem_toFinset.mpr (List.mem_map_of_mem (by decide))),
   (Finset.singleton_subset_iff (a := Proc.devRef (τ := τ) .tc main_v388)).mpr (List.mem_toFinset.mpr (List.mem_map_of_mem (by decide))),
   (Finset.singleton_subset_iff (a := Proc.devRef (τ := τ) .tc main_v389)).mpr (List.mem_toFinset.mpr (List.mem_map_of_mem (by decide))),
   (Finset.singleton_subset_iff (a := Proc.devRef (τ := τ) .tc main_v390)).mpr (List.mem_toFinset.mpr (List.mem_map_of_mem (by decide))),
   (Finset.singleton_subset_iff (a := Proc.devRef (τ := τ) .tc main_v391)).mpr (List.mem_toFinset.mpr (List.mem_map_of_mem (by decide))),
   (Finset.singleton_subset_iff (a := Proc.devRef (τ := τ) .tc main_call17_cst)).mpr (List.mem_toFinset.mpr (List.mem_map_of_mem (by decide))),
   (Finset.singleton_subset_iff (a := Proc.devRef (τ := τ) .tc main_call17_v0)).mpr (List.mem_toFinset.mpr (List.mem_map_of_mem (by decide))),
   (Finset.singleton_subset_iff (a := Proc.devRef (τ := τ) .tc main_v392)).mpr (List.mem_toFinset.mpr (List.mem_map_of_mem (by decide))),
   (Finset.singleton_subset_iff (a := Proc.devRef (τ := τ) .tc main_v393)).mpr (List.mem_toFinset.mpr (List.mem_map_of_mem (by decide))),
   (Finset.singleton_subset_iff (a := Proc.devRef (τ := τ) .tc main_v394)).mpr (List.mem_toFinset.mpr (List.mem_map_of_mem (by decide))),
   (Finset.singleton_subset_iff (a := Proc.devRef (τ := τ) .tc main_v395)).mpr (List.mem_toFinset.mpr (List.mem_map_of_mem (by decide))),
   (Finset.singleton_subset_iff (a := Proc.devRef (τ := τ) .tc main_v396)).mpr (List.mem_toFinset.mpr (List.mem_map_of_mem (by decide))),
   (Finset.singleton_subset_iff (a := Proc.devRef (τ := τ) .tc main_v397)).mpr (List.mem_toFinset.mpr (List.mem_map_of_mem (by decide)))⟩

/-- A reference these operations do not write keeps its contents through them. -/
theorem sg13_keep (V : Valuation τ sig (Elt F)) (r : Ref sig .tc) (h : r ∉ sg13_W) :
    after sg13 V (Proc.devRef .tc r) = V (Proc.devRef .tc r) :=
  after_of_writes_sub sg13 V sg13_writes h

end Cert.ReferenceIdeal.HandV

end
-- ==== Proof.RV.TopSeg14.lean ====
import proofs.«414290_j6631429505478_3_alg».proof.Proof.Gen.ReferenceIdeal
import Idealize.ShloMosaic.Lib.StableHlo.Run

set_option Elab.async false

noncomputable section

namespace Cert.ReferenceIdeal.HandV

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
set_option maxRecDepth 8192 in
/-- Operations 659 to 659 of @main, in order (1 of them): from the one writing main_v398 to the one writing main_v398. -/
abbrev sg14 : List (HloOp τ sig (Elt F)) :=
  [ StableHlo.binary main_v270 main_v397 main_v398 (addf : (⟨S50000x128, .f32⟩ : BufTy).Contents (Elt F) → (⟨S50000x128, .f32⟩ : BufTy).Contents (Elt F) → (⟨S50000x128, .f32⟩ : BufTy).Contents (Elt F)) ]

/-- The references these operations write, in order. -/
abbrev sg14_W : List (Ref sig .tc) :=
  [main_v398]

set_option maxHeartbeats 40000000 in
set_option maxRecDepth 8192 in
/-- Each operation writes its own result reference, the one listed at its place. -/
theorem sg14_writes : (sg14 : List (HloOp τ sig (Elt F))).Forall fun op => op.writes ⊆ (sg14_W.map (Proc.devRef (τ := τ) .tc)).toFinset :=
  (Finset.singleton_subset_iff (a := Proc.devRef (τ := τ) .tc main_v398)).mpr (List.mem_toFinset.mpr (List.mem_map_of_mem (by decide)))

/-- A reference these operations do not write keeps its contents through them. -/
theorem sg14_keep (V : Valuation τ sig (Elt F)) (r : Ref sig .tc) (h : r ∉ sg14_W) :
    after sg14 V (Proc.devRef .tc r) = V (Proc.devRef .tc r) :=
  after_of_writes_sub sg14 V sg14_writes h

end Cert.ReferenceIdeal.HandV

end
-- ==== Proof.RV.TopSeg15.lean ====
import proofs.«414290_j6631429505478_3_alg».proof.Proof.Gen.ReferenceIdeal
import Idealize.ShloMosaic.Lib.StableHlo.Run

set_option Elab.async false

noncomputable section

namespace Cert.ReferenceIdeal.HandV

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
set_option maxRecDepth 8192 in
/-- Operations 660 to 674 of @main, in order (15 of them): from the one writing main_c_52 to the one writing main_v410. -/
abbrev sg15 : List (HloOp τ sig (Elt F)) :=
  [ StableHlo.nullary main_c_52 (constantI S_ 32 0#32),
    StableHlo.unary main_c_52 main_v399 (broadcastInDim S800000 ![] bcast_S_S800000 : (⟨S_, .i32⟩ : BufTy).Contents (Elt F) → (⟨S800000, .i32⟩ : BufTy).Contents (Elt F)),
    StableHlo.binary main_v1 main_v399 main_v400 (cmpi .slt : (⟨S800000, .i32⟩ : BufTy).Contents (Elt F) → (⟨S800000, .i32⟩ : BufTy).Contents (Elt F) → (⟨S800000, .i1⟩ : BufTy).Contents (Elt F)),
    StableHlo.nullary main_c_53 (constantI S_ 32 50000#32),
    StableHlo.unary main_c_53 main_v401 (broadcastInDim S800000 ![] bcast_S_S800000 : (⟨S_, .i32⟩ : BufTy).Contents (Elt F) → (⟨S800000, .i32⟩ : BufTy).Contents (Elt F)),
    StableHlo.binary main_v1 main_v401 main_v402 (addi : (⟨S800000, .i32⟩ : BufTy).Contents (Elt F) → (⟨S800000, .i32⟩ : BufTy).Contents (Elt F) → (⟨S800000, .i32⟩ : BufTy).Contents (Elt F)),
    StableHlo.ternary main_v400 main_v402 main_v1 main_v403 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v403 main_v404 (broadcastInDim S800000x1 ![0] bcast_S800000_S800000x1_0 : (⟨S800000, .i32⟩ : BufTy).Contents (Elt F) → (⟨S800000x1, .i32⟩ : BufTy).Contents (Elt F)),
    StableHlo.binary main_arg1 main_v404 main_v405 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_54 (constant S_ .f32 0x00000000#32),
    StableHlo.unary main_cst_54 main_v406 (broadcastInDim S50000x128 ![] bcast_S_S50000x128 : (⟨S_, .f32⟩ : BufTy).Contents (Elt F) → (⟨S50000x128, .f32⟩ : BufTy).Contents (Elt F)),
    StableHlo.unary main_v3 main_v407 (broadcastInDim S800000x1 ![0] bcast_S800000_S800000x1_0 : (⟨S800000, .i32⟩ : BufTy).Contents (Elt F) → (⟨S800000x1, .i32⟩ : BufTy).Contents (Elt F)),
    StableHlo.ternary main_v406 main_v407 main_v405 main_v408 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v12 main_v409 (broadcastInDim S50000x128 ![0, 1] bcast_S50000x1_S50000x128_0_1 : (⟨S50000x1, .f32⟩ : BufTy).Contents (Elt F) → (⟨S50000x128, .f32⟩ : BufTy).Contents (Elt F)),
    StableHlo.binary main_v408 main_v409 main_v410 (mulf : (⟨S50000x128, .f32⟩ : BufTy).Contents (Elt F) → (⟨S50000x128, .f32⟩ : BufTy).Contents (Elt F) → (⟨S50000x128, .f32⟩ : BufTy).Contents (Elt F)) ]

/-- The references these operations write, in order. -/
abbrev sg15_W : List (Ref sig .tc) :=
  [main_c_52, main_v399, main_v400, main_c_53, main_v401, main_v402, main_v403, main_v404, main_v405, main_cst_54, main_v406, main_v407, main_v408, main_v409, main_v410]

set_option maxHeartbeats 40000000 in
set_option maxRecDepth 8192 in
/-- Each operation writes its own result reference, the one listed at its place. -/
theorem sg15_writes : (sg15 : List (HloOp τ sig (Elt F))).Forall fun op => op.writes ⊆ (sg15_W.map (Proc.devRef (τ := τ) .tc)).toFinset :=
  ⟨(Finset.singleton_subset_iff (a := Proc.devRef (τ := τ) .tc main_c_52)).mpr (List.mem_toFinset.mpr (List.mem_map_of_mem (by decide))),
   (Finset.singleton_subset_iff (a := Proc.devRef (τ := τ) .tc main_v399)).mpr (List.mem_toFinset.mpr (List.mem_map_of_mem (by decide))),
   (Finset.singleton_subset_iff (a := Proc.devRef (τ := τ) .tc main_v400)).mpr (List.mem_toFinset.mpr (List.mem_map_of_mem (by decide))),
   (Finset.singleton_subset_iff (a := Proc.devRef (τ := τ) .tc main_c_53)).mpr (List.mem_toFinset.mpr (List.mem_map_of_mem (by decide))),
   (Finset.singleton_subset_iff (a := Proc.devRef (τ := τ) .tc main_v401)).mpr (List.mem_toFinset.mpr (List.mem_map_of_mem (by decide))),
   (Finset.singleton_subset_iff (a := Proc.devRef (τ := τ) .tc main_v402)).mpr (List.mem_toFinset.mpr (List.mem_map_of_mem (by decide))),
   (Finset.singleton_subset_iff (a := Proc.devRef (τ := τ) .tc main_v403)).mpr (List.mem_toFinset.mpr (List.mem_map_of_mem (by decide))),
   (Finset.singleton_subset_iff (a := Proc.devRef (τ := τ) .tc main_v404)).mpr (List.mem_toFinset.mpr (List.mem_map_of_mem (by decide))),
   (Finset.singleton_subset_iff (a := Proc.devRef (τ := τ) .tc main_v405)).mpr (List.mem_toFinset.mpr (List.mem_map_of_mem (by decide))),
   (Finset.singleton_subset_iff (a := Proc.devRef (τ := τ) .tc main_cst_54)).mpr (List.mem_toFinset.mpr (List.mem_map_of_mem (by decide))),
   (Finset.singleton_subset_iff (a := Proc.devRef (τ := τ) .tc main_v406)).mpr (List.mem_toFinset.mpr (List.mem_map_of_mem (by decide))),
   (Finset.singleton_subset_iff (a := Proc.devRef (τ := τ) .tc main_v407)).mpr (List.mem_toFinset.mpr (List.mem_map_of_mem (by decide))),
   (Finset.singleton_subset_iff (a := Proc.devRef (τ := τ) .tc main_v408)).mpr (List.mem_toFinset.mpr (List.mem_map_of_mem (by decide))),
   (Finset.singleton_subset_iff (a := Proc.devRef (τ := τ) .tc main_v409)).mpr (List.mem_toFinset.mpr (List.mem_map_of_mem (by decide))),
   (Finset.singleton_subset_iff (a := Proc.devRef (τ := τ) .tc main_v410)).mpr (List.mem_toFinset.mpr (List.mem_map_of_mem (by decide)))⟩

/-- A reference these operations do not write keeps its contents through them. -/
theorem sg15_keep (V : Valuation τ sig (Elt F)) (r : Ref sig .tc) (h : r ∉ sg15_W) :
    after sg15 V (Proc.devRef .tc r) = V (Proc.devRef .tc r) :=
  after_of_writes_sub sg15 V sg15_writes h

end Cert.ReferenceIdeal.HandV

end
-- ==== Proof.RV.TopSeg16.lean ====
import proofs.«414290_j6631429505478_3_alg».proof.Proof.Gen.ReferenceIdeal
import Idealize.ShloMosaic.Lib.StableHlo.Run

set_option Elab.async false

noncomputable section

namespace Cert.ReferenceIdeal.HandV

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
set_option maxRecDepth 8192 in
/-- Operations 675 to 741 of @main, in order (67 of them): from the one writing main_cst_55 to the one writing main_v449. -/
abbrev sg16 : List (HloOp τ sig (Elt F)) :=
  [ StableHlo.nullary main_cst_55 (constant S_ .f32 0x00000000#32),
    StableHlo.unary main_cst_55 main_v411 (broadcastInDim S50000x128 ![] bcast_S_S50000x128 : (⟨S_, .f32⟩ : BufTy).Contents (Elt F) → (⟨S50000x128, .f32⟩ : BufTy).Contents (Elt F)),
    StableHlo.unary main_arg4 main_v412 ((extractStridedSlice S1x1x128x128 ![3, 0, 0, 0] · slices_S6x3x128x128_S1x1x128x128_3_0_0_0) : (⟨S6x3x128x128, .f32⟩ : BufTy).Contents (Elt F) → (⟨S1x1x128x128, .f32⟩ : BufTy).Contents (Elt F)),
    StableHlo.reshape main_v412 main_v413 rfl shapeCasts_S1x1x128x128_S128x128,
    StableHlo.unary main_v413 main_v414 ((transpose S128x128 [1, 0] · transposes_S128x128_S128x128_1_0) : (⟨S128x128, .f32⟩ : BufTy).Contents (Elt F) → (⟨S128x128, .f32⟩ : BufTy).Contents (Elt F)),
    StableHlo.binary main_v410 main_v414 main_v415 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg5 main_v416 ((extractStridedSlice S1x1x128 ![3, 0, 0] · slices_S6x3x128_S1x1x128_3_0_0) : (⟨S6x3x128, .f32⟩ : BufTy).Contents (Elt F) → (⟨S1x1x128, .f32⟩ : BufTy).Contents (Elt F)),
    StableHlo.reshape main_v416 main_v417 rfl shapeCasts_S1x1x128_S128,
    StableHlo.unary main_v417 main_v418 (broadcastInDim S1x128 ![1] bcast_S128_S1x128_1 : (⟨S128, .f32⟩ : BufTy).Contents (Elt F) → (⟨S1x128, .f32⟩ : BufTy).Contents (Elt F)),
    StableHlo.unary main_v418 main_v419 (broadcastInDim S50000x128 ![0, 1] bcast_S1x128_S50000x128_0_1 : (⟨S1x128, .f32⟩ : BufTy).Contents (Elt F) → (⟨S50000x128, .f32⟩ : BufTy).Contents (Elt F)),
    StableHlo.binary main_v415 main_v419 main_v420 (addf : (⟨S50000x128, .f32⟩ : BufTy).Contents (Elt F) → (⟨S50000x128, .f32⟩ : BufTy).Contents (Elt F) → (⟨S50000x128, .f32⟩ : BufTy).Contents (Elt F)),
    StableHlo.unary main_arg6 main_v421 ((extractStridedSlice S1x1x128 ![3, 0, 0] · slices_S6x3x128_S1x1x128_3_0_0) : (⟨S6x3x128, .f32⟩ : BufTy).Contents (Elt F) → (⟨S1x1x128, .f32⟩ : BufTy).Contents (Elt F)),
    StableHlo.reshape main_v421 main_v422 rfl shapeCasts_S1x1x128_S128,
    StableHlo.unary main_arg7 main_v423 ((extractStridedSlice S1x1x128 ![3, 0, 0] · slices_S6x3x128_S1x1x128_3_0_0) : (⟨S6x3x128, .f32⟩ : BufTy).Contents (Elt F) → (⟨S1x1x128, .f32⟩ : BufTy).Contents (Elt F)),
    StableHlo.reshape main_v423 main_v424 rfl shapeCasts_S1x1x128_S128,
    StableHlo.nullary main_cst_56 (constant S_ .f32 0x00000000#32),
    StableHlo.binary main_v420 main_cst_56 main_v425 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_57 (constant S_ .f32 0x47435000#32),
    StableHlo.unary main_cst_57 main_v426 (broadcastInDim S128 ![] bcast_S_S128 : (⟨S_, .f32⟩ : BufTy).Contents (Elt F) → (⟨S128, .f32⟩ : BufTy).Contents (Elt F)),
    StableHlo.binary main_v425 main_v426 main_v427 (Host.divf : (⟨S128, .f32⟩ : BufTy).Contents (Elt F) → (⟨S128, .f32⟩ : BufTy).Contents (Elt F) → (⟨S128, .f32⟩ : BufTy).Contents (Elt F)),
    StableHlo.nullary main_c_58 (constantI S_ 32 0#32),
    StableHlo.TRef.nullary main_call18.cst (constant S_ .f32 0x00000000#32),
    StableHlo.TRef.binary (.of main_v420 : StableHlo.TRef sig ⟨S50000x128, .f32⟩) main_call18.cst main_call18.v0 (fun x v => Host.reduceAdd x v reducesTo_S50000x128_S128_d0 h_S_),
    StableHlo.TRef.unary main_call18.v0 main_call18.v1 (broadcastInDim S1x128 ![1] bcast_S128_S1x128_1),
    StableHlo.TRef.nullary main_call18.cst_0 (constant S_ .f32 0x47435000#32),
    StableHlo.TRef.unary main_call18.cst_0 main_call18.v2 (broadcastInDim S1x128 ![] bcast_S_S1x128),
    StableHlo.TRef.binary main_call18.v1 main_call18.v2 main_call18.v3 Host.divf,
    StableHlo.TRef.unary main_call18.v3 main_call18.v4 (broadcastInDim S50000x128 ![0, 1] bcast_S1x128_S50000x128_0_1),
    StableHlo.TRef.binary (.of main_v420 : StableHlo.TRef sig ⟨S50000x128, .f32⟩) main_call18.v4 main_call18.v5 subf,
    StableHlo.TRef.binary main_call18.v5 main_call18.v5 main_call18.v6 mulf,
    StableHlo.TRef.unary (.of main_c_58 : StableHlo.TRef sig ⟨S_, .i32⟩) main_call18.v7 (sitofp .f32),
    StableHlo.TRef.nullary main_call18.cst_1 (constant S_ .f32 0x47435000#32),
    StableHlo.TRef.binary main_call18.cst_1 main_call18.v7 main_call18.v8 subf,
    StableHlo.TRef.nullary main_call18.cst_2 (constant S_ .f32 0x00000000#32),
    StableHlo.TRef.binary main_call18.v6 main_call18.cst_2 main_call18.v9 (fun x v => Host.reduceAdd x v reducesTo_S50000x128_S128_d0 h_S_),
    StableHlo.TRef.unary main_call18.v8 main_call18.v10 (broadcastInDim S128 ![] bcast_S_S128),
    StableHlo.TRef.binary main_call18.v9 main_call18.v10 main_call18.v11 Host.divf,
    StableHlo.TRef.nullary main_call18.cst_3 (constant S_ .f32 0x00000000#32),
    StableHlo.TRef.binary main_call18.v8 main_call18.cst_3 main_call18.v12 (cmpf .ogt),
    StableHlo.TRef.nullary main_call18.cst_4 (constant S_ .f32 0x7FC00000#32),
    StableHlo.TRef.unary main_call18.cst_4 main_call18.call0.v0 id,
    StableHlo.TRef.unary main_call18.call0.v0 main_call18.call0.v1 (broadcastInDim S128 ![] bcast_S_S128),
    StableHlo.TRef.ternary main_call18.v12 main_call18.v11 main_call18.call0.v1 main_call18.call0.v2 (fun p a b => select (broadcastInDim S128 ![] bcast_S_S128 p) a b),
    StableHlo.unary main_v427 main_v429 (broadcastInDim S1x128 ![1] bcast_S128_S1x128_1 : (⟨S128, .f32⟩ : BufTy).Contents (Elt F) → (⟨S1x128, .f32⟩ : BufTy).Contents (Elt F)),
    StableHlo.unary main_v429 main_v430 (broadcastInDim S50000x128 ![0, 1] bcast_S1x128_S50000x128_0_1 : (⟨S1x128, .f32⟩ : BufTy).Contents (Elt F) → (⟨S50000x128, .f32⟩ : BufTy).Contents (Elt F)),
    StableHlo.binary main_v420 main_v430 main_v431 (subf : (⟨S50000x128, .f32⟩ : BufTy).Contents (Elt F) → (⟨S50000x128, .f32⟩ : BufTy).Contents (Elt F) → (⟨S50000x128, .f32⟩ : BufTy).Contents (Elt F)),
    StableHlo.nullary main_cst_59 (constant S_ .f32 0x3727C5AC#32),
    StableHlo.unary main_cst_59 main_v432 (broadcastInDim S128 ![] bcast_S_S128 : (⟨S_, .f32⟩ : BufTy).Contents (Elt F) → (⟨S128, .f32⟩ : BufTy).Contents (Elt F)),
    StableHlo.binary main_v428 main_v432 main_v433 (addf : (⟨S128, .f32⟩ : BufTy).Contents (Elt F) → (⟨S128, .f32⟩ : BufTy).Contents (Elt F) → (⟨S128, .f32⟩ : BufTy).Contents (Elt F)),
    StableHlo.unary main_v433 main_v434 (Host.rsqrt : (⟨S128, .f32⟩ : BufTy).Contents (Elt F) → (⟨S128, .f32⟩ : BufTy).Contents (Elt F)),
    StableHlo.unary main_v434 main_v435 (broadcastInDim S1x128 ![1] bcast_S128_S1x128_1 : (⟨S128, .f32⟩ : BufTy).Contents (Elt F) → (⟨S1x128, .f32⟩ : BufTy).Contents (Elt F)),
    StableHlo.unary main_v435 main_v436 (broadcastInDim S50000x128 ![0, 1] bcast_S1x128_S50000x128_0_1 : (⟨S1x128, .f32⟩ : BufTy).Contents (Elt F) → (⟨S50000x128, .f32⟩ : BufTy).Contents (Elt F)),
    StableHlo.binary main_v431 main_v436 main_v437 (mulf : (⟨S50000x128, .f32⟩ : BufTy).Contents (Elt F) → (⟨S50000x128, .f32⟩ : BufTy).Contents (Elt F) → (⟨S50000x128, .f32⟩ : BufTy).Contents (Elt F)),
    StableHlo.unary main_v422 main_v438 (broadcastInDim S1x128 ![1] bcast_S128_S1x128_1 : (⟨S128, .f32⟩ : BufTy).Contents (Elt F) → (⟨S1x128, .f32⟩ : BufTy).Contents (Elt F)),
    StableHlo.unary main_v438 main_v439 (broadcastInDim S50000x128 ![0, 1] bcast_S1x128_S50000x128_0_1 : (⟨S1x128, .f32⟩ : BufTy).Contents (Elt F) → (⟨S50000x128, .f32⟩ : BufTy).Contents (Elt F)),
    StableHlo.binary main_v437 main_v439 main_v440 (mulf : (⟨S50000x128, .f32⟩ : BufTy).Contents (Elt F) → (⟨S50000x128, .f32⟩ : BufTy).Contents (Elt F) → (⟨S50000x128, .f32⟩ : BufTy).Contents (Elt F)),
    StableHlo.unary main_v424 main_v441 (broadcastInDim S1x128 ![1] bcast_S128_S1x128_1 : (⟨S128, .f32⟩ : BufTy).Contents (Elt F) → (⟨S1x128, .f32⟩ : BufTy).Contents (Elt F)),
    StableHlo.unary main_v441 main_v442 (broadcastInDim S50000x128 ![0, 1] bcast_S1x128_S50000x128_0_1 : (⟨S1x128, .f32⟩ : BufTy).Contents (Elt F) → (⟨S50000x128, .f32⟩ : BufTy).Contents (Elt F)),
    StableHlo.binary main_v440 main_v442 main_v443 (addf : (⟨S50000x128, .f32⟩ : BufTy).Contents (Elt F) → (⟨S50000x128, .f32⟩ : BufTy).Contents (Elt F) → (⟨S50000x128, .f32⟩ : BufTy).Contents (Elt F)),
    StableHlo.TRef.nullary main_call19.cst (constant S_ .f32 0x00000000#32),
    StableHlo.TRef.unary main_call19.cst main_call19.v0 (broadcastInDim S50000x128 ![] bcast_S_S50000x128),
    StableHlo.TRef.binary (.of main_v443 : StableHlo.TRef sig ⟨S50000x128, .f32⟩) main_call19.v0 main_call19.v1 maximumf,
    StableHlo.unary main_arg3 main_v445 ((extractStridedSlice S1x1 ![3, 0] · slices_S6x3_S1x1_3_0) : (⟨S6x3, .f32⟩ : BufTy).Contents (Elt F) → (⟨S1x1, .f32⟩ : BufTy).Contents (Elt F)),
    StableHlo.reshape main_v445 main_v446 rfl shapeCasts_S1x1_S_,
    StableHlo.unary main_v446 main_v447 (broadcastInDim S50000x128 ![] bcast_S_S50000x128 : (⟨S_, .f32⟩ : BufTy).Contents (Elt F) → (⟨S50000x128, .f32⟩ : BufTy).Contents (Elt F)),
    StableHlo.binary main_v447 main_v444 main_v448 (mulf : (⟨S50000x128, .f32⟩ : BufTy).Contents (Elt F) → (⟨S50000x128, .f32⟩ : BufTy).Contents (Elt F) → (⟨S50000x128, .f32⟩ : BufTy).Contents (Elt F)),
    StableHlo.binary main_v411 main_v448 main_v449 (addf : (⟨S50000x128, .f32⟩ : BufTy).Contents (Elt F) → (⟨S50000x128, .f32⟩ : BufTy).Contents (Elt F) → (⟨S50000x128, .f32⟩ : BufTy).Contents (Elt F)) ]

/-- The references these operations write, in order. -/
abbrev sg16_W : List (Ref sig .tc) :=
  [main_cst_55, main_v411, main_v412, main_v413, main_v414, main_v415, main_v416, main_v417, main_v418, main_v419, main_v420, main_v421, main_v422, main_v423, main_v424, main_cst_56, main_v425, main_cst_57, main_v426, main_v427, main_c_58, main_call18_cst, main_call18_v0, main_call18_v1, main_call18_cst_0, main_call18_v2, main_call18_v3, main_call18_v4, main_call18_v5, main_call18_v6, main_call18_v7, main_call18_cst_1, main_call18_v8, main_call18_cst_2, main_call18_v9, main_call18_v10, main_call18_v11, main_call18_cst_3, main_call18_v12, main_call18_cst_4, main_call18_call0_v0, main_call18_call0_v1, main_v428, main_v429, main_v430, main_v431, main_cst_59, main_v432, main_v433, main_v434, main_v435, main_v436, main_v437, main_v438, main_v439, main_v440, main_v441, main_v442, main_v443, main_call19_cst, main_call19_v0, main_v444, main_v445, main_v446, main_v447, main_v448, main_v449]

set_option maxHeartbeats 40000000 in
set_option maxRecDepth 8192 in
/-- Each operation writes its own result reference, the one listed at its place. -/
theorem sg16_writes : (sg16 : List (HloOp τ sig (Elt F))).Forall fun op => op.writes ⊆ (sg16_W.map (Proc.devRef (τ := τ) .tc)).toFinset :=
  ⟨(Finset.singleton_subset_iff (a := Proc.devRef (τ := τ) .tc main_cst_55)).mpr (List.mem_toFinset.mpr (List.mem_map_of_mem (by decide))),
   (Finset.singleton_subset_iff (a := Proc.devRef (τ := τ) .tc main_v411)).mpr (List.mem_toFinset.mpr (List.mem_map_of_mem (by decide))),
   (Finset.singleton_subset_iff (a := Proc.devRef (τ := τ) .tc main_v412)).mpr (List.mem_toFinset.mpr (List.mem_map_of_mem (by decide))),
   (Finset.singleton_subset_iff (a := Proc.devRef (τ := τ) .tc main_v413)).mpr (List.mem_toFinset.mpr (List.mem_map_of_mem (by decide))),
   (Finset.singleton_subset_iff (a := Proc.devRef (τ := τ) .tc main_v414)).mpr (List.mem_toFinset.mpr (List.mem_map_of_mem (by decide))),
   (Finset.singleton_subset_iff (a := Proc.devRef (τ := τ) .tc main_v415)).mpr (List.mem_toFinset.mpr (List.mem_map_of_mem (by decide))),
   (Finset.singleton_subset_iff (a := Proc.devRef (τ := τ) .tc main_v416)).mpr (List.mem_toFinset.mpr (List.mem_map_of_mem (by decide))),
   (Finset.singleton_subset_iff (a := Proc.devRef (τ := τ) .tc main_v417)).mpr (List.mem_toFinset.mpr (List.mem_map_of_mem (by decide))),
   (Finset.singleton_subset_iff (a := Proc.devRef (τ := τ) .tc main_v418)).mpr (List.mem_toFinset.mpr (List.mem_map_of_mem (by decide))),
   (Finset.singleton_subset_iff (a := Proc.devRef (τ := τ) .tc main_v419)).mpr (List.mem_toFinset.mpr (List.mem_map_of_mem (by decide))),
   (Finset.singleton_subset_iff (a := Proc.devRef (τ := τ) .tc main_v420)).mpr (List.mem_toFinset.mpr (List.mem_map_of_mem (by decide))),
   (Finset.singleton_subset_iff (a := Proc.devRef (τ := τ) .tc main_v421)).mpr (List.mem_toFinset.mpr (List.mem_map_of_mem (by decide))),
   (Finset.singleton_subset_iff (a := Proc.devRef (τ := τ) .tc main_v422)).mpr (List.mem_toFinset.mpr (List.mem_map_of_mem (by decide))),
   (Finset.singleton_subset_iff (a := Proc.devRef (τ := τ) .tc main_v423)).mpr (List.mem_toFinset.mpr (List.mem_map_of_mem (by decide))),
   (Finset.singleton_subset_iff (a := Proc.devRef (τ := τ) .tc main_v424)).mpr (List.mem_toFinset.mpr (List.mem_map_of_mem (by decide))),
   (Finset.singleton_subset_iff (a := Proc.devRef (τ := τ) .tc main_cst_56)).mpr (List.mem_toFinset.mpr (List.mem_map_of_mem (by decide))),
   (Finset.singleton_subset_iff (a := Proc.devRef (τ := τ) .tc main_v425)).mpr (List.mem_toFinset.mpr (List.mem_map_of_mem (by decide))),
   (Finset.singleton_subset_iff (a := Proc.devRef (τ := τ) .tc main_cst_57)).mpr (List.mem_toFinset.mpr (List.mem_map_of_mem (by decide))),
   (Finset.singleton_subset_iff (a := Proc.devRef (τ := τ) .tc main_v426)).mpr (List.mem_toFinset.mpr (List.mem_map_of_mem (by decide))),
   (Finset.singleton_subset_iff (a := Proc.devRef (τ := τ) .tc main_v427)).mpr (List.mem_toFinset.mpr (List.mem_map_of_mem (by decide))),
   (Finset.singleton_subset_iff (a := Proc.devRef (τ := τ) .tc main_c_58)).mpr (List.mem_toFinset.mpr (List.mem_map_of_mem (by decide))),
   (Finset.singleton_subset_iff (a := Proc.devRef (τ := τ) .tc main_call18_cst)).mpr (List.mem_toFinset.mpr (List.mem_map_of_mem (by decide))),
   (Finset.singleton_subset_iff (a := Proc.devRef (τ := τ) .tc main_call18_v0)).mpr (List.mem_toFinset.mpr (List.mem_map_of_mem (by decide))),
   (Finset.singleton_subset_iff (a := Proc.devRef (τ := τ) .tc main_call18_v1)).mpr (List.mem_toFinset.mpr (List.mem_map_of_mem (by decide))),
   (Finset.singleton_subset_iff (a := Proc.devRef (τ := τ) .tc main_call18_cst_0)).mpr (List.mem_toFinset.mpr (List.mem_map_of_mem (by decide))),
   (Finset.singleton_subset_iff (a := Proc.devRef (τ := τ) .tc main_call18_v2)).mpr (List.mem_toFinset.mpr (List.mem_map_of_mem (by decide))),
   (Finset.singleton_subset_iff (a := Proc.devRef (τ := τ) .tc main_call18_v3)).mpr (List.mem_toFinset.mpr (List.mem_map_of_mem (by decide))),
   (Finset.singleton_subset_iff (a := Proc.devRef (τ := τ) .tc main_call18_v4)).mpr (List.mem_toFinset.mpr (List.mem_map_of_mem (by decide))),
   (Finset.singleton_subset_iff (a := Proc.devRef (τ := τ) .tc main_call18_v5)).mpr (List.mem_toFinset.mpr (List.mem_map_of_mem (by decide))),
   (Finset.singleton_subset_iff (a := Proc.devRef (τ := τ) .tc main_call18_v6)).mpr (List.mem_toFinset.mpr (List.mem_map_of_mem (by decide))),
   (Finset.singleton_subset_iff (a := Proc.devRef (τ := τ) .tc main_call18_v7)).mpr (List.mem_toFinset.mpr (List.mem_map_of_mem (by decide))),
   (Finset.singleton_subset_iff (a := Proc.devRef (τ := τ) .tc main_call18_cst_1)).mpr (List.mem_toFinset.mpr (List.mem_map_of_mem (by decide))),
   (Finset.singleton_subset_iff (a := Proc.devRef (τ := τ) .tc main_call18_v8)).mpr (List.mem_toFinset.mpr (List.mem_map_of_mem (by decide))),
   (Finset.singleton_subset_iff (a := Proc.devRef (τ := τ) .tc main_call18_cst_2)).mpr (List.mem_toFinset.mpr (List.mem_map_of_mem (by decide))),
   (Finset.singleton_subset_iff (a := Proc.devRef (τ := τ) .tc main_call18_v9)).mpr (List.mem_toFinset.mpr (List.mem_map_of_mem (by decide))),
   (Finset.singleton_subset_iff (a := Proc.devRef (τ := τ) .tc main_call18_v10)).mpr (List.mem_toFinset.mpr (List.mem_map_of_mem (by decide))),
   (Finset.singleton_subset_iff (a := Proc.devRef (τ := τ) .tc main_call18_v11)).mpr (List.mem_toFinset.mpr (List.mem_map_of_mem (by decide))),
   (Finset.singleton_subset_iff (a := Proc.devRef (τ := τ) .tc main_call18_cst_3)).mpr (List.mem_toFinset.mpr (List.mem_map_of_mem (by decide))),
   (Finset.singleton_subset_iff (a := Proc.devRef (τ := τ) .tc main_call18_v12)).mpr (List.mem_toFinset.mpr (List.mem_map_of_mem (by decide))),
   (Finset.singleton_subset_iff (a := Proc.devRef (τ := τ) .tc main_call18_cst_4)).mpr (List.mem_toFinset.mpr (List.mem_map_of_mem (by decide))),
   (Finset.singleton_subset_iff (a := Proc.devRef (τ := τ) .tc main_call18_call0_v0)).mpr (List.mem_toFinset.mpr (List.mem_map_of_mem (by decide))),
   (Finset.singleton_subset_iff (a := Proc.devRef (τ := τ) .tc main_call18_call0_v1)).mpr (List.mem_toFinset.mpr (List.mem_map_of_mem (by decide))),
   (Finset.singleton_subset_iff (a := Proc.devRef (τ := τ) .tc main_v428)).mpr (List.mem_toFinset.mpr (List.mem_map_of_mem (by decide))),
   (Finset.singleton_subset_iff (a := Proc.devRef (τ := τ) .tc main_v429)).mpr (List.mem_toFinset.mpr (List.mem_map_of_mem (by decide))),
   (Finset.singleton_subset_iff (a := Proc.devRef (τ := τ) .tc main_v430)).mpr (List.mem_toFinset.mpr (List.mem_map_of_mem (by decide))),
   (Finset.singleton_subset_iff (a := Proc.devRef (τ := τ) .tc main_v431)).mpr (List.mem_toFinset.mpr (List.mem_map_of_mem (by decide))),
   (Finset.singleton_subset_iff (a := Proc.devRef (τ := τ) .tc main_cst_59)).mpr (List.mem_toFinset.mpr (List.mem_map_of_mem (by decide))),
   (Finset.singleton_subset_iff (a := Proc.devRef (τ := τ) .tc main_v432)).mpr (List.mem_toFinset.mpr (List.mem_map_of_mem (by decide))),
   (Finset.singleton_subset_iff (a := Proc.devRef (τ := τ) .tc main_v433)).mpr (List.mem_toFinset.mpr (List.mem_map_of_mem (by decide))),
   (Finset.singleton_subset_iff (a := Proc.devRef (τ := τ) .tc main_v434)).mpr (List.mem_toFinset.mpr (List.mem_map_of_mem (by decide))),
   (Finset.singleton_subset_iff (a := Proc.devRef (τ := τ) .tc main_v435)).mpr (List.mem_toFinset.mpr (List.mem_map_of_mem (by decide))),
   (Finset.singleton_subset_iff (a := Proc.devRef (τ := τ) .tc main_v436)).mpr (List.mem_toFinset.mpr (List.mem_map_of_mem (by decide))),
   (Finset.singleton_subset_iff (a := Proc.devRef (τ := τ) .tc main_v437)).mpr (List.mem_toFinset.mpr (List.mem_map_of_mem (by decide))),
   (Finset.singleton_subset_iff (a := Proc.devRef (τ := τ) .tc main_v438)).mpr (List.mem_toFinset.mpr (List.mem_map_of_mem (by decide))),
   (Finset.singleton_subset_iff (a := Proc.devRef (τ := τ) .tc main_v439)).mpr (List.mem_toFinset.mpr (List.mem_map_of_mem (by decide))),
   (Finset.singleton_subset_iff (a := Proc.devRef (τ := τ) .tc main_v440)).mpr (List.mem_toFinset.mpr (List.mem_map_of_mem (by decide))),
   (Finset.singleton_subset_iff (a := Proc.devRef (τ := τ) .tc main_v441)).mpr (List.mem_toFinset.mpr (List.mem_map_of_mem (by decide))),
   (Finset.singleton_subset_iff (a := Proc.devRef (τ := τ) .tc main_v442)).mpr (List.mem_toFinset.mpr (List.mem_map_of_mem (by decide))),
   (Finset.singleton_subset_iff (a := Proc.devRef (τ := τ) .tc main_v443)).mpr (List.mem_toFinset.mpr (List.mem_map_of_mem (by decide))),
   (Finset.singleton_subset_iff (a := Proc.devRef (τ := τ) .tc main_call19_cst)).mpr (List.mem_toFinset.mpr (List.mem_map_of_mem (by decide))),
   (Finset.singleton_subset_iff (a := Proc.devRef (τ := τ) .tc main_call19_v0)).mpr (List.mem_toFinset.mpr (List.mem_map_of_mem (by decide))),
   (Finset.singleton_subset_iff (a := Proc.devRef (τ := τ) .tc main_v444)).mpr (List.mem_toFinset.mpr (List.mem_map_of_mem (by decide))),
   (Finset.singleton_subset_iff (a := Proc.devRef (τ := τ) .tc main_v445)).mpr (List.mem_toFinset.mpr (List.mem_map_of_mem (by decide))),
   (Finset.singleton_subset_iff (a := Proc.devRef (τ := τ) .tc main_v446)).mpr (List.mem_toFinset.mpr (List.mem_map_of_mem (by decide))),
   (Finset.singleton_subset_iff (a := Proc.devRef (τ := τ) .tc main_v447)).mpr (List.mem_toFinset.mpr (List.mem_map_of_mem (by decide))),
   (Finset.singleton_subset_iff (a := Proc.devRef (τ := τ) .tc main_v448)).mpr (List.mem_toFinset.mpr (List.mem_map_of_mem (by decide))),
   (Finset.singleton_subset_iff (a := Proc.devRef (τ := τ) .tc main_v449)).mpr (List.mem_toFinset.mpr (List.mem_map_of_mem (by decide)))⟩

/-- A reference these operations do not write keeps its contents through them. -/
theorem sg16_keep (V : Valuation τ sig (Elt F)) (r : Ref sig .tc) (h : r ∉ sg16_W) :
    after sg16 V (Proc.devRef .tc r) = V (Proc.devRef .tc r) :=
  after_of_writes_sub sg16 V sg16_writes h

end Cert.ReferenceIdeal.HandV

end
-- ==== Proof.RV.TopSeg17.lean ====
import proofs.«414290_j6631429505478_3_alg».proof.Proof.Gen.ReferenceIdeal
import Idealize.ShloMosaic.Lib.StableHlo.Run

set_option Elab.async false

noncomputable section

namespace Cert.ReferenceIdeal.HandV

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
set_option maxRecDepth 8192 in
/-- Operations 742 to 806 of @main, in order (65 of them): from the one writing main_v450 to the one writing main_v487. -/
abbrev sg17 : List (HloOp τ sig (Elt F)) :=
  [ StableHlo.unary main_arg4 main_v450 ((extractStridedSlice S1x1x128x128 ![3, 1, 0, 0] · slices_S6x3x128x128_S1x1x128x128_3_1_0_0) : (⟨S6x3x128x128, .f32⟩ : BufTy).Contents (Elt F) → (⟨S1x1x128x128, .f32⟩ : BufTy).Contents (Elt F)),
    StableHlo.reshape main_v450 main_v451 rfl shapeCasts_S1x1x128x128_S128x128,
    StableHlo.unary main_v451 main_v452 ((transpose S128x128 [1, 0] · transposes_S128x128_S128x128_1_0) : (⟨S128x128, .f32⟩ : BufTy).Contents (Elt F) → (⟨S128x128, .f32⟩ : BufTy).Contents (Elt F)),
    StableHlo.binary main_arg1 main_v452 main_v453 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg5 main_v454 ((extractStridedSlice S1x1x128 ![3, 1, 0] · slices_S6x3x128_S1x1x128_3_1_0) : (⟨S6x3x128, .f32⟩ : BufTy).Contents (Elt F) → (⟨S1x1x128, .f32⟩ : BufTy).Contents (Elt F)),
    StableHlo.reshape main_v454 main_v455 rfl shapeCasts_S1x1x128_S128,
    StableHlo.unary main_v455 main_v456 (broadcastInDim S1x128 ![1] bcast_S128_S1x128_1 : (⟨S128, .f32⟩ : BufTy).Contents (Elt F) → (⟨S1x128, .f32⟩ : BufTy).Contents (Elt F)),
    StableHlo.unary main_v456 main_v457 (broadcastInDim S50000x128 ![0, 1] bcast_S1x128_S50000x128_0_1 : (⟨S1x128, .f32⟩ : BufTy).Contents (Elt F) → (⟨S50000x128, .f32⟩ : BufTy).Contents (Elt F)),
    StableHlo.binary main_v453 main_v457 main_v458 (addf : (⟨S50000x128, .f32⟩ : BufTy).Contents (Elt F) → (⟨S50000x128, .f32⟩ : BufTy).Contents (Elt F) → (⟨S50000x128, .f32⟩ : BufTy).Contents (Elt F)),
    StableHlo.unary main_arg6 main_v459 ((extractStridedSlice S1x1x128 ![3, 1, 0] · slices_S6x3x128_S1x1x128_3_1_0) : (⟨S6x3x128, .f32⟩ : BufTy).Contents (Elt F) → (⟨S1x1x128, .f32⟩ : BufTy).Contents (Elt F)),
    StableHlo.reshape main_v459 main_v460 rfl shapeCasts_S1x1x128_S128,
    StableHlo.unary main_arg7 main_v461 ((extractStridedSlice S1x1x128 ![3, 1, 0] · slices_S6x3x128_S1x1x128_3_1_0) : (⟨S6x3x128, .f32⟩ : BufTy).Contents (Elt F) → (⟨S1x1x128, .f32⟩ : BufTy).Contents (Elt F)),
    StableHlo.reshape main_v461 main_v462 rfl shapeCasts_S1x1x128_S128,
    StableHlo.nullary main_cst_60 (constant S_ .f32 0x00000000#32),
    StableHlo.binary main_v458 main_cst_60 main_v463 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_61 (constant S_ .f32 0x47435000#32),
    StableHlo.unary main_cst_61 main_v464 (broadcastInDim S128 ![] bcast_S_S128 : (⟨S_, .f32⟩ : BufTy).Contents (Elt F) → (⟨S128, .f32⟩ : BufTy).Contents (Elt F)),
    StableHlo.binary main_v463 main_v464 main_v465 (Host.divf : (⟨S128, .f32⟩ : BufTy).Contents (Elt F) → (⟨S128, .f32⟩ : BufTy).Contents (Elt F) → (⟨S128, .f32⟩ : BufTy).Contents (Elt F)),
    StableHlo.nullary main_c_62 (constantI S_ 32 0#32),
    StableHlo.TRef.nullary main_call20.cst (constant S_ .f32 0x00000000#32),
    StableHlo.TRef.binary (.of main_v458 : StableHlo.TRef sig ⟨S50000x128, .f32⟩) main_call20.cst main_call20.v0 (fun x v => Host.reduceAdd x v reducesTo_S50000x128_S128_d0 h_S_),
    StableHlo.TRef.unary main_call20.v0 main_call20.v1 (broadcastInDim S1x128 ![1] bcast_S128_S1x128_1),
    StableHlo.TRef.nullary main_call20.cst_0 (constant S_ .f32 0x47435000#32),
    StableHlo.TRef.unary main_call20.cst_0 main_call20.v2 (broadcastInDim S1x128 ![] bcast_S_S1x128),
    StableHlo.TRef.binary main_call20.v1 main_call20.v2 main_call20.v3 Host.divf,
    StableHlo.TRef.unary main_call20.v3 main_call20.v4 (broadcastInDim S50000x128 ![0, 1] bcast_S1x128_S50000x128_0_1),
    StableHlo.TRef.binary (.of main_v458 : StableHlo.TRef sig ⟨S50000x128, .f32⟩) main_call20.v4 main_call20.v5 subf,
    StableHlo.TRef.binary main_call20.v5 main_call20.v5 main_call20.v6 mulf,
    StableHlo.TRef.unary (.of main_c_62 : StableHlo.TRef sig ⟨S_, .i32⟩) main_call20.v7 (sitofp .f32),
    StableHlo.TRef.nullary main_call20.cst_1 (constant S_ .f32 0x47435000#32),
    StableHlo.TRef.binary main_call20.cst_1 main_call20.v7 main_call20.v8 subf,
    StableHlo.TRef.nullary main_call20.cst_2 (constant S_ .f32 0x00000000#32),
    StableHlo.TRef.binary main_call20.v6 main_call20.cst_2 main_call20.v9 (fun x v => Host.reduceAdd x v reducesTo_S50000x128_S128_d0 h_S_),
    StableHlo.TRef.unary main_call20.v8 main_call20.v10 (broadcastInDim S128 ![] bcast_S_S128),
    StableHlo.TRef.binary main_call20.v9 main_call20.v10 main_call20.v11 Host.divf,
    StableHlo.TRef.nullary main_call20.cst_3 (constant S_ .f32 0x00000000#32),
    StableHlo.TRef.binary main_call20.v8 main_call20.cst_3 main_call20.v12 (cmpf .ogt),
    StableHlo.TRef.nullary main_call20.cst_4 (constant S_ .f32 0x7FC00000#32),
    StableHlo.TRef.unary main_call20.cst_4 main_call20.call0.v0 id,
    StableHlo.TRef.unary main_call20.call0.v0 main_call20.call0.v1 (broadcastInDim S128 ![] bcast_S_S128),
    StableHlo.TRef.ternary main_call20.v12 main_call20.v11 main_call20.call0.v1 main_call20.call0.v2 (fun p a b => select (broadcastInDim S128 ![] bcast_S_S128 p) a b),
    StableHlo.unary main_v465 main_v467 (broadcastInDim S1x128 ![1] bcast_S128_S1x128_1 : (⟨S128, .f32⟩ : BufTy).Contents (Elt F) → (⟨S1x128, .f32⟩ : BufTy).Contents (Elt F)),
    StableHlo.unary main_v467 main_v468 (broadcastInDim S50000x128 ![0, 1] bcast_S1x128_S50000x128_0_1 : (⟨S1x128, .f32⟩ : BufTy).Contents (Elt F) → (⟨S50000x128, .f32⟩ : BufTy).Contents (Elt F)),
    StableHlo.binary main_v458 main_v468 main_v469 (subf : (⟨S50000x128, .f32⟩ : BufTy).Contents (Elt F) → (⟨S50000x128, .f32⟩ : BufTy).Contents (Elt F) → (⟨S50000x128, .f32⟩ : BufTy).Contents (Elt F)),
    StableHlo.nullary main_cst_63 (constant S_ .f32 0x3727C5AC#32),
    StableHlo.unary main_cst_63 main_v470 (broadcastInDim S128 ![] bcast_S_S128 : (⟨S_, .f32⟩ : BufTy).Contents (Elt F) → (⟨S128, .f32⟩ : BufTy).Contents (Elt F)),
    StableHlo.binary main_v466 main_v470 main_v471 (addf : (⟨S128, .f32⟩ : BufTy).Contents (Elt F) → (⟨S128, .f32⟩ : BufTy).Contents (Elt F) → (⟨S128, .f32⟩ : BufTy).Contents (Elt F)),
    StableHlo.unary main_v471 main_v472 (Host.rsqrt : (⟨S128, .f32⟩ : BufTy).Contents (Elt F) → (⟨S128, .f32⟩ : BufTy).Contents (Elt F)),
    StableHlo.unary main_v472 main_v473 (broadcastInDim S1x128 ![1] bcast_S128_S1x128_1 : (⟨S128, .f32⟩ : BufTy).Contents (Elt F) → (⟨S1x128, .f32⟩ : BufTy).Contents (Elt F)),
    StableHlo.unary main_v473 main_v474 (broadcastInDim S50000x128 ![0, 1] bcast_S1x128_S50000x128_0_1 : (⟨S1x128, .f32⟩ : BufTy).Contents (Elt F) → (⟨S50000x128, .f32⟩ : BufTy).Contents (Elt F)),
    StableHlo.binary main_v469 main_v474 main_v475 (mulf : (⟨S50000x128, .f32⟩ : BufTy).Contents (Elt F) → (⟨S50000x128, .f32⟩ : BufTy).Contents (Elt F) → (⟨S50000x128, .f32⟩ : BufTy).Contents (Elt F)),
    StableHlo.unary main_v460 main_v476 (broadcastInDim S1x128 ![1] bcast_S128_S1x128_1 : (⟨S128, .f32⟩ : BufTy).Contents (Elt F) → (⟨S1x128, .f32⟩ : BufTy).Contents (Elt F)),
    StableHlo.unary main_v476 main_v477 (broadcastInDim S50000x128 ![0, 1] bcast_S1x128_S50000x128_0_1 : (⟨S1x128, .f32⟩ : BufTy).Contents (Elt F) → (⟨S50000x128, .f32⟩ : BufTy).Contents (Elt F)),
    StableHlo.binary main_v475 main_v477 main_v478 (mulf : (⟨S50000x128, .f32⟩ : BufTy).Contents (Elt F) → (⟨S50000x128, .f32⟩ : BufTy).Contents (Elt F) → (⟨S50000x128, .f32⟩ : BufTy).Contents (Elt F)),
    StableHlo.unary main_v462 main_v479 (broadcastInDim S1x128 ![1] bcast_S128_S1x128_1 : (⟨S128, .f32⟩ : BufTy).Contents (Elt F) → (⟨S1x128, .f32⟩ : BufTy).Contents (Elt F)),
    StableHlo.unary main_v479 main_v480 (broadcastInDim S50000x128 ![0, 1] bcast_S1x128_S50000x128_0_1 : (⟨S1x128, .f32⟩ : BufTy).Contents (Elt F) → (⟨S50000x128, .f32⟩ : BufTy).Contents (Elt F)),
    StableHlo.binary main_v478 main_v480 main_v481 (addf : (⟨S50000x128, .f32⟩ : BufTy).Contents (Elt F) → (⟨S50000x128, .f32⟩ : BufTy).Contents (Elt F) → (⟨S50000x128, .f32⟩ : BufTy).Contents (Elt F)),
    StableHlo.TRef.nullary main_call21.cst (constant S_ .f32 0x00000000#32),
    StableHlo.TRef.unary main_call21.cst main_call21.v0 (broadcastInDim S50000x128 ![] bcast_S_S50000x128),
    StableHlo.TRef.binary (.of main_v481 : StableHlo.TRef sig ⟨S50000x128, .f32⟩) main_call21.v0 main_call21.v1 maximumf,
    StableHlo.unary main_arg3 main_v483 ((extractStridedSlice S1x1 ![3, 1] · slices_S6x3_S1x1_3_1) : (⟨S6x3, .f32⟩ : BufTy).Contents (Elt F) → (⟨S1x1, .f32⟩ : BufTy).Contents (Elt F)),
    StableHlo.reshape main_v483 main_v484 rfl shapeCasts_S1x1_S_,
    StableHlo.unary main_v484 main_v485 (broadcastInDim S50000x128 ![] bcast_S_S50000x128 : (⟨S_, .f32⟩ : BufTy).Contents (Elt F) → (⟨S50000x128, .f32⟩ : BufTy).Contents (Elt F)),
    StableHlo.binary main_v485 main_v482 main_v486 (mulf : (⟨S50000x128, .f32⟩ : BufTy).Contents (Elt F) → (⟨S50000x128, .f32⟩ : BufTy).Contents (Elt F) → (⟨S50000x128, .f32⟩ : BufTy).Contents (Elt F)),
    StableHlo.binary main_v449 main_v486 main_v487 (addf : (⟨S50000x128, .f32⟩ : BufTy).Contents (Elt F) → (⟨S50000x128, .f32⟩ : BufTy).Contents (Elt F) → (⟨S50000x128, .f32⟩ : BufTy).Contents (Elt F)) ]

/-- The references these operations write, in order. -/
abbrev sg17_W : List (Ref sig .tc) :=
  [main_v450, main_v451, main_v452, main_v453, main_v454, main_v455, main_v456, main_v457, main_v458, main_v459, main_v460, main_v461, main_v462, main_cst_60, main_v463, main_cst_61, main_v464, main_v465, main_c_62, main_call20_cst, main_call20_v0, main_call20_v1, main_call20_cst_0, main_call20_v2, main_call20_v3, main_call20_v4, main_call20_v5, main_call20_v6, main_call20_v7, main_call20_cst_1, main_call20_v8, main_call20_cst_2, main_call20_v9, main_call20_v10, main_call20_v11, main_call20_cst_3, main_call20_v12, main_call20_cst_4, main_call20_call0_v0, main_call20_call0_v1, main_v466, main_v467, main_v468, main_v469, main_cst_63, main_v470, main_v471, main_v472, main_v473, main_v474, main_v475, main_v476, main_v477, main_v478, main_v479, main_v480, main_v481, main_call21_cst, main_call21_v0, main_v482, main_v483, main_v484, main_v485, main_v486, main_v487]

set_option maxHeartbeats 40000000 in
set_option maxRecDepth 8192 in
/-- Each operation writes its own result reference, the one listed at its place. -/
theorem sg17_writes : (sg17 : List (HloOp τ sig (Elt F))).Forall fun op => op.writes ⊆ (sg17_W.map (Proc.devRef (τ := τ) .tc)).toFinset :=
  ⟨(Finset.singleton_subset_iff (a := Proc.devRef (τ := τ) .tc main_v450)).mpr (List.mem_toFinset.mpr (List.mem_map_of_mem (by decide))),
   (Finset.singleton_subset_iff (a := Proc.devRef (τ := τ) .tc main_v451)).mpr (List.mem_toFinset.mpr (List.mem_map_of_mem (by decide))),
   (Finset.singleton_subset_iff (a := Proc.devRef (τ := τ) .tc main_v452)).mpr (List.mem_toFinset.mpr (List.mem_map_of_mem (by decide))),
   (Finset.singleton_subset_iff (a := Proc.devRef (τ := τ) .tc main_v453)).mpr (List.mem_toFinset.mpr (List.mem_map_of_mem (by decide))),
   (Finset.singleton_subset_iff (a := Proc.devRef (τ := τ) .tc main_v454)).mpr (List.mem_toFinset.mpr (List.mem_map_of_mem (by decide))),
   (Finset.singleton_subset_iff (a := Proc.devRef (τ := τ) .tc main_v455)).mpr (List.mem_toFinset.mpr (List.mem_map_of_mem (by decide))),
   (Finset.singleton_subset_iff (a := Proc.devRef (τ := τ) .tc main_v456)).mpr (List.mem_toFinset.mpr (List.mem_map_of_mem (by decide))),
   (Finset.singleton_subset_iff (a := Proc.devRef (τ := τ) .tc main_v457)).mpr (List.mem_toFinset.mpr (List.mem_map_of_mem (by decide))),
   (Finset.singleton_subset_iff (a := Proc.devRef (τ := τ) .tc main_v458)).mpr (List.mem_toFinset.mpr (List.mem_map_of_mem (by decide))),
   (Finset.singleton_subset_iff (a := Proc.devRef (τ := τ) .tc main_v459)).mpr (List.mem_toFinset.mpr (List.mem_map_of_mem (by decide))),
   (Finset.singleton_subset_iff (a := Proc.devRef (τ := τ) .tc main_v460)).mpr (List.mem_toFinset.mpr (List.mem_map_of_mem (by decide))),
   (Finset.singleton_subset_iff (a := Proc.devRef (τ := τ) .tc main_v461)).mpr (List.mem_toFinset.mpr (List.mem_map_of_mem (by decide))),
   (Finset.singleton_subset_iff (a := Proc.devRef (τ := τ) .tc main_v462)).mpr (List.mem_toFinset.mpr (List.mem_map_of_mem (by decide))),
   (Finset.singleton_subset_iff (a := Proc.devRef (τ := τ) .tc main_cst_60)).mpr (List.mem_toFinset.mpr (List.mem_map_of_mem (by decide))),
   (Finset.singleton_subset_iff (a := Proc.devRef (τ := τ) .tc main_v463)).mpr (List.mem_toFinset.mpr (List.mem_map_of_mem (by decide))),
   (Finset.singleton_subset_iff (a := Proc.devRef (τ := τ) .tc main_cst_61)).mpr (List.mem_toFinset.mpr (List.mem_map_of_mem (by decide))),
   (Finset.singleton_subset_iff (a := Proc.devRef (τ := τ) .tc main_v464)).mpr (List.mem_toFinset.mpr (List.mem_map_of_mem (by decide))),
   (Finset.singleton_subset_iff (a := Proc.devRef (τ := τ) .tc main_v465)).mpr (List.mem_toFinset.mpr (List.mem_map_of_mem (by decide))),
   (Finset.singleton_subset_iff (a := Proc.devRef (τ := τ) .tc main_c_62)).mpr (List.mem_toFinset.mpr (List.mem_map_of_mem (by decide))),
   (Finset.singleton_subset_iff (a := Proc.devRef (τ := τ) .tc main_call20_cst)).mpr (List.mem_toFinset.mpr (List.mem_map_of_mem (by decide))),
   (Finset.singleton_subset_iff (a := Proc.devRef (τ := τ) .tc main_call20_v0)).mpr (List.mem_toFinset.mpr (List.mem_map_of_mem (by decide))),
   (Finset.singleton_subset_iff (a := Proc.devRef (τ := τ) .tc main_call20_v1)).mpr (List.mem_toFinset.mpr (List.mem_map_of_mem (by decide))),
   (Finset.singleton_subset_iff (a := Proc.devRef (τ := τ) .tc main_call20_cst_0)).mpr (List.mem_toFinset.mpr (List.mem_map_of_mem (by decide))),
   (Finset.singleton_subset_iff (a := Proc.devRef (τ := τ) .tc main_call20_v2)).mpr (List.mem_toFinset.mpr (List.mem_map_of_mem (by decide))),
   (Finset.singleton_subset_iff (a := Proc.devRef (τ := τ) .tc main_call20_v3)).mpr (List.mem_toFinset.mpr (List.mem_map_of_mem (by decide))),
   (Finset.singleton_subset_iff (a := Proc.devRef (τ := τ) .tc main_call20_v4)).mpr (List.mem_toFinset.mpr (List.mem_map_of_mem (by decide))),
   (Finset.singleton_subset_iff (a := Proc.devRef (τ := τ) .tc main_call20_v5)).mpr (List.mem_toFinset.mpr (List.mem_map_of_mem (by decide))),
   (Finset.singleton_subset_iff (a := Proc.devRef (τ := τ) .tc main_call20_v6)).mpr (List.mem_toFinset.mpr (List.mem_map_of_mem (by decide))),
   (Finset.singleton_subset_iff (a := Proc.devRef (τ := τ) .tc main_call20_v7)).mpr (List.mem_toFinset.mpr (List.mem_map_of_mem (by decide))),
   (Finset.singleton_subset_iff (a := Proc.devRef (τ := τ) .tc main_call20_cst_1)).mpr (List.mem_toFinset.mpr (List.mem_map_of_mem (by decide))),
   (Finset.singleton_subset_iff (a := Proc.devRef (τ := τ) .tc main_call20_v8)).mpr (List.mem_toFinset.mpr (List.mem_map_of_mem (by decide))),
   (Finset.singleton_subset_iff (a := Proc.devRef (τ := τ) .tc main_call20_cst_2)).mpr (List.mem_toFinset.mpr (List.mem_map_of_mem (by decide))),
   (Finset.singleton_subset_iff (a := Proc.devRef (τ := τ) .tc main_call20_v9)).mpr (List.mem_toFinset.mpr (List.mem_map_of_mem (by decide))),
   (Finset.singleton_subset_iff (a := Proc.devRef (τ := τ) .tc main_call20_v10)).mpr (List.mem_toFinset.mpr (List.mem_map_of_mem (by decide))),
   (Finset.singleton_subset_iff (a := Proc.devRef (τ := τ) .tc main_call20_v11)).mpr (List.mem_toFinset.mpr (List.mem_map_of_mem (by decide))),
   (Finset.singleton_subset_iff (a := Proc.devRef (τ := τ) .tc main_call20_cst_3)).mpr (List.mem_toFinset.mpr (List.mem_map_of_mem (by decide))),
   (Finset.singleton_subset_iff (a := Proc.devRef (τ := τ) .tc main_call20_v12)).mpr (List.mem_toFinset.mpr (List.mem_map_of_mem (by decide))),
   (Finset.singleton_subset_iff (a := Proc.devRef (τ := τ) .tc main_call20_cst_4)).mpr (List.mem_toFinset.mpr (List.mem_map_of_mem (by decide))),
   (Finset.singleton_subset_iff (a := Proc.devRef (τ := τ) .tc main_call20_call0_v0)).mpr (List.mem_toFinset.mpr (List.mem_map_of_mem (by decide))),
   (Finset.singleton_subset_iff (a := Proc.devRef (τ := τ) .tc main_call20_call0_v1)).mpr (List.mem_toFinset.mpr (List.mem_map_of_mem (by decide))),
   (Finset.singleton_subset_iff (a := Proc.devRef (τ := τ) .tc main_v466)).mpr (List.mem_toFinset.mpr (List.mem_map_of_mem (by decide))),
   (Finset.singleton_subset_iff (a := Proc.devRef (τ := τ) .tc main_v467)).mpr (List.mem_toFinset.mpr (List.mem_map_of_mem (by decide))),
   (Finset.singleton_subset_iff (a := Proc.devRef (τ := τ) .tc main_v468)).mpr (List.mem_toFinset.mpr (List.mem_map_of_mem (by decide))),
   (Finset.singleton_subset_iff (a := Proc.devRef (τ := τ) .tc main_v469)).mpr (List.mem_toFinset.mpr (List.mem_map_of_mem (by decide))),
   (Finset.singleton_subset_iff (a := Proc.devRef (τ := τ) .tc main_cst_63)).mpr (List.mem_toFinset.mpr (List.mem_map_of_mem (by decide))),
   (Finset.singleton_subset_iff (a := Proc.devRef (τ := τ) .tc main_v470)).mpr (List.mem_toFinset.mpr (List.mem_map_of_mem (by decide))),
   (Finset.singleton_subset_iff (a := Proc.devRef (τ := τ) .tc main_v471)).mpr (List.mem_toFinset.mpr (List.mem_map_of_mem (by decide))),
   (Finset.singleton_subset_iff (a := Proc.devRef (τ := τ) .tc main_v472)).mpr (List.mem_toFinset.mpr (List.mem_map_of_mem (by decide))),
   (Finset.singleton_subset_iff (a := Proc.devRef (τ := τ) .tc main_v473)).mpr (List.mem_toFinset.mpr (List.mem_map_of_mem (by decide))),
   (Finset.singleton_subset_iff (a := Proc.devRef (τ := τ) .tc main_v474)).mpr (List.mem_toFinset.mpr (List.mem_map_of_mem (by decide))),
   (Finset.singleton_subset_iff (a := Proc.devRef (τ := τ) .tc main_v475)).mpr (List.mem_toFinset.mpr (List.mem_map_of_mem (by decide))),
   (Finset.singleton_subset_iff (a := Proc.devRef (τ := τ) .tc main_v476)).mpr (List.mem_toFinset.mpr (List.mem_map_of_mem (by decide))),
   (Finset.singleton_subset_iff (a := Proc.devRef (τ := τ) .tc main_v477)).mpr (List.mem_toFinset.mpr (List.mem_map_of_mem (by decide))),
   (Finset.singleton_subset_iff (a := Proc.devRef (τ := τ) .tc main_v478)).mpr (List.mem_toFinset.mpr (List.mem_map_of_mem (by decide))),
   (Finset.singleton_subset_iff (a := Proc.devRef (τ := τ) .tc main_v479)).mpr (List.mem_toFinset.mpr (List.mem_map_of_mem (by decide))),
   (Finset.singleton_subset_iff (a := Proc.devRef (τ := τ) .tc main_v480)).mpr (List.mem_toFinset.mpr (List.mem_map_of_mem (by decide))),
   (Finset.singleton_subset_iff (a := Proc.devRef (τ := τ) .tc main_v481)).mpr (List.mem_toFinset.mpr (List.mem_map_of_mem (by decide))),
   (Finset.singleton_subset_iff (a := Proc.devRef (τ := τ) .tc main_call21_cst)).mpr (List.mem_toFinset.mpr (List.mem_map_of_mem (by decide))),
   (Finset.singleton_subset_iff (a := Proc.devRef (τ := τ) .tc main_call21_v0)).mpr (List.mem_toFinset.mpr (List.mem_map_of_mem (by decide))),
   (Finset.singleton_subset_iff (a := Proc.devRef (τ := τ) .tc main_v482)).mpr (List.mem_toFinset.mpr (List.mem_map_of_mem (by decide))),
   (Finset.singleton_subset_iff (a := Proc.devRef (τ := τ) .tc main_v483)).mpr (List.mem_toFinset.mpr (List.mem_map_of_mem (by decide))),
   (Finset.singleton_subset_iff (a := Proc.devRef (τ := τ) .tc main_v484)).mpr (List.mem_toFinset.mpr (List.mem_map_of_mem (by decide))),
   (Finset.singleton_subset_iff (a := Proc.devRef (τ := τ) .tc main_v485)).mpr (List.mem_toFinset.mpr (List.mem_map_of_mem (by decide))),
   (Finset.singleton_subset_iff (a := Proc.devRef (τ := τ) .tc main_v486)).mpr (List.mem_toFinset.mpr (List.mem_map_of_mem (by decide))),
   (Finset.singleton_subset_iff (a := Proc.devRef (τ := τ) .tc main_v487)).mpr (List.mem_toFinset.mpr (List.mem_map_of_mem (by decide)))⟩

/-- A reference these operations do not write keeps its contents through them. -/
theorem sg17_keep (V : Valuation τ sig (Elt F)) (r : Ref sig .tc) (h : r ∉ sg17_W) :
    after sg17 V (Proc.devRef .tc r) = V (Proc.devRef .tc r) :=
  after_of_writes_sub sg17 V sg17_writes h

end Cert.ReferenceIdeal.HandV

end
-- ==== Proof.RV.TopSeg18.lean ====
import proofs.«414290_j6631429505478_3_alg».proof.Proof.Gen.ReferenceIdeal
import Idealize.ShloMosaic.Lib.StableHlo.Run

set_option Elab.async false

noncomputable section

namespace Cert.ReferenceIdeal.HandV

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
set_option maxRecDepth 8192 in
/-- Operations 807 to 871 of @main, in order (65 of them): from the one writing main_v488 to the one writing main_v525. -/
abbrev sg18 : List (HloOp τ sig (Elt F)) :=
  [ StableHlo.unary main_arg4 main_v488 ((extractStridedSlice S1x1x128x128 ![3, 2, 0, 0] · slices_S6x3x128x128_S1x1x128x128_3_2_0_0) : (⟨S6x3x128x128, .f32⟩ : BufTy).Contents (Elt F) → (⟨S1x1x128x128, .f32⟩ : BufTy).Contents (Elt F)),
    StableHlo.reshape main_v488 main_v489 rfl shapeCasts_S1x1x128x128_S128x128,
    StableHlo.unary main_v489 main_v490 ((transpose S128x128 [1, 0] · transposes_S128x128_S128x128_1_0) : (⟨S128x128, .f32⟩ : BufTy).Contents (Elt F) → (⟨S128x128, .f32⟩ : BufTy).Contents (Elt F)),
    StableHlo.binary main_arg2 main_v490 main_v491 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg5 main_v492 ((extractStridedSlice S1x1x128 ![3, 2, 0] · slices_S6x3x128_S1x1x128_3_2_0) : (⟨S6x3x128, .f32⟩ : BufTy).Contents (Elt F) → (⟨S1x1x128, .f32⟩ : BufTy).Contents (Elt F)),
    StableHlo.reshape main_v492 main_v493 rfl shapeCasts_S1x1x128_S128,
    StableHlo.unary main_v493 main_v494 (broadcastInDim S1x128 ![1] bcast_S128_S1x128_1 : (⟨S128, .f32⟩ : BufTy).Contents (Elt F) → (⟨S1x128, .f32⟩ : BufTy).Contents (Elt F)),
    StableHlo.unary main_v494 main_v495 (broadcastInDim S50000x128 ![0, 1] bcast_S1x128_S50000x128_0_1 : (⟨S1x128, .f32⟩ : BufTy).Contents (Elt F) → (⟨S50000x128, .f32⟩ : BufTy).Contents (Elt F)),
    StableHlo.binary main_v491 main_v495 main_v496 (addf : (⟨S50000x128, .f32⟩ : BufTy).Contents (Elt F) → (⟨S50000x128, .f32⟩ : BufTy).Contents (Elt F) → (⟨S50000x128, .f32⟩ : BufTy).Contents (Elt F)),
    StableHlo.unary main_arg6 main_v497 ((extractStridedSlice S1x1x128 ![3, 2, 0] · slices_S6x3x128_S1x1x128_3_2_0) : (⟨S6x3x128, .f32⟩ : BufTy).Contents (Elt F) → (⟨S1x1x128, .f32⟩ : BufTy).Contents (Elt F)),
    StableHlo.reshape main_v497 main_v498 rfl shapeCasts_S1x1x128_S128,
    StableHlo.unary main_arg7 main_v499 ((extractStridedSlice S1x1x128 ![3, 2, 0] · slices_S6x3x128_S1x1x128_3_2_0) : (⟨S6x3x128, .f32⟩ : BufTy).Contents (Elt F) → (⟨S1x1x128, .f32⟩ : BufTy).Contents (Elt F)),
    StableHlo.reshape main_v499 main_v500 rfl shapeCasts_S1x1x128_S128,
    StableHlo.nullary main_cst_64 (constant S_ .f32 0x00000000#32),
    StableHlo.binary main_v496 main_cst_64 main_v501 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_65 (constant S_ .f32 0x47435000#32),
    StableHlo.unary main_cst_65 main_v502 (broadcastInDim S128 ![] bcast_S_S128 : (⟨S_, .f32⟩ : BufTy).Contents (Elt F) → (⟨S128, .f32⟩ : BufTy).Contents (Elt F)),
    StableHlo.binary main_v501 main_v502 main_v503 (Host.divf : (⟨S128, .f32⟩ : BufTy).Contents (Elt F) → (⟨S128, .f32⟩ : BufTy).Contents (Elt F) → (⟨S128, .f32⟩ : BufTy).Contents (Elt F)),
    StableHlo.nullary main_c_66 (constantI S_ 32 0#32),
    StableHlo.TRef.nullary main_call22.cst (constant S_ .f32 0x00000000#32),
    StableHlo.TRef.binary (.of main_v496 : StableHlo.TRef sig ⟨S50000x128, .f32⟩) main_call22.cst main_call22.v0 (fun x v => Host.reduceAdd x v reducesTo_S50000x128_S128_d0 h_S_),
    StableHlo.TRef.unary main_call22.v0 main_call22.v1 (broadcastInDim S1x128 ![1] bcast_S128_S1x128_1),
    StableHlo.TRef.nullary main_call22.cst_0 (constant S_ .f32 0x47435000#32),
    StableHlo.TRef.unary main_call22.cst_0 main_call22.v2 (broadcastInDim S1x128 ![] bcast_S_S1x128),
    StableHlo.TRef.binary main_call22.v1 main_call22.v2 main_call22.v3 Host.divf,
    StableHlo.TRef.unary main_call22.v3 main_call22.v4 (broadcastInDim S50000x128 ![0, 1] bcast_S1x128_S50000x128_0_1),
    StableHlo.TRef.binary (.of main_v496 : StableHlo.TRef sig ⟨S50000x128, .f32⟩) main_call22.v4 main_call22.v5 subf,
    StableHlo.TRef.binary main_call22.v5 main_call22.v5 main_call22.v6 mulf,
    StableHlo.TRef.unary (.of main_c_66 : StableHlo.TRef sig ⟨S_, .i32⟩) main_call22.v7 (sitofp .f32),
    StableHlo.TRef.nullary main_call22.cst_1 (constant S_ .f32 0x47435000#32),
    StableHlo.TRef.binary main_call22.cst_1 main_call22.v7 main_call22.v8 subf,
    StableHlo.TRef.nullary main_call22.cst_2 (constant S_ .f32 0x00000000#32),
    StableHlo.TRef.binary main_call22.v6 main_call22.cst_2 main_call22.v9 (fun x v => Host.reduceAdd x v reducesTo_S50000x128_S128_d0 h_S_),
    StableHlo.TRef.unary main_call22.v8 main_call22.v10 (broadcastInDim S128 ![] bcast_S_S128),
    StableHlo.TRef.binary main_call22.v9 main_call22.v10 main_call22.v11 Host.divf,
    StableHlo.TRef.nullary main_call22.cst_3 (constant S_ .f32 0x00000000#32),
    StableHlo.TRef.binary main_call22.v8 main_call22.cst_3 main_call22.v12 (cmpf .ogt),
    StableHlo.TRef.nullary main_call22.cst_4 (constant S_ .f32 0x7FC00000#32),
    StableHlo.TRef.unary main_call22.cst_4 main_call22.call0.v0 id,
    StableHlo.TRef.unary main_call22.call0.v0 main_call22.call0.v1 (broadcastInDim S128 ![] bcast_S_S128),
    StableHlo.TRef.ternary main_call22.v12 main_call22.v11 main_call22.call0.v1 main_call22.call0.v2 (fun p a b => select (broadcastInDim S128 ![] bcast_S_S128 p) a b),
    StableHlo.unary main_v503 main_v505 (broadcastInDim S1x128 ![1] bcast_S128_S1x128_1 : (⟨S128, .f32⟩ : BufTy).Contents (Elt F) → (⟨S1x128, .f32⟩ : BufTy).Contents (Elt F)),
    StableHlo.unary main_v505 main_v506 (broadcastInDim S50000x128 ![0, 1] bcast_S1x128_S50000x128_0_1 : (⟨S1x128, .f32⟩ : BufTy).Contents (Elt F) → (⟨S50000x128, .f32⟩ : BufTy).Contents (Elt F)),
    StableHlo.binary main_v496 main_v506 main_v507 (subf : (⟨S50000x128, .f32⟩ : BufTy).Contents (Elt F) → (⟨S50000x128, .f32⟩ : BufTy).Contents (Elt F) → (⟨S50000x128, .f32⟩ : BufTy).Contents (Elt F)),
    StableHlo.nullary main_cst_67 (constant S_ .f32 0x3727C5AC#32),
    StableHlo.unary main_cst_67 main_v508 (broadcastInDim S128 ![] bcast_S_S128 : (⟨S_, .f32⟩ : BufTy).Contents (Elt F) → (⟨S128, .f32⟩ : BufTy).Contents (Elt F)),
    StableHlo.binary main_v504 main_v508 main_v509 (addf : (⟨S128, .f32⟩ : BufTy).Contents (Elt F) → (⟨S128, .f32⟩ : BufTy).Contents (Elt F) → (⟨S128, .f32⟩ : BufTy).Contents (Elt F)),
    StableHlo.unary main_v509 main_v510 (Host.rsqrt : (⟨S128, .f32⟩ : BufTy).Contents (Elt F) → (⟨S128, .f32⟩ : BufTy).Contents (Elt F)),
    StableHlo.unary main_v510 main_v511 (broadcastInDim S1x128 ![1] bcast_S128_S1x128_1 : (⟨S128, .f32⟩ : BufTy).Contents (Elt F) → (⟨S1x128, .f32⟩ : BufTy).Contents (Elt F)),
    StableHlo.unary main_v511 main_v512 (broadcastInDim S50000x128 ![0, 1] bcast_S1x128_S50000x128_0_1 : (⟨S1x128, .f32⟩ : BufTy).Contents (Elt F) → (⟨S50000x128, .f32⟩ : BufTy).Contents (Elt F)),
    StableHlo.binary main_v507 main_v512 main_v513 (mulf : (⟨S50000x128, .f32⟩ : BufTy).Contents (Elt F) → (⟨S50000x128, .f32⟩ : BufTy).Contents (Elt F) → (⟨S50000x128, .f32⟩ : BufTy).Contents (Elt F)),
    StableHlo.unary main_v498 main_v514 (broadcastInDim S1x128 ![1] bcast_S128_S1x128_1 : (⟨S128, .f32⟩ : BufTy).Contents (Elt F) → (⟨S1x128, .f32⟩ : BufTy).Contents (Elt F)),
    StableHlo.unary main_v514 main_v515 (broadcastInDim S50000x128 ![0, 1] bcast_S1x128_S50000x128_0_1 : (⟨S1x128, .f32⟩ : BufTy).Contents (Elt F) → (⟨S50000x128, .f32⟩ : BufTy).Contents (Elt F)),
    StableHlo.binary main_v513 main_v515 main_v516 (mulf : (⟨S50000x128, .f32⟩ : BufTy).Contents (Elt F) → (⟨S50000x128, .f32⟩ : BufTy).Contents (Elt F) → (⟨S50000x128, .f32⟩ : BufTy).Contents (Elt F)),
    StableHlo.unary main_v500 main_v517 (broadcastInDim S1x128 ![1] bcast_S128_S1x128_1 : (⟨S128, .f32⟩ : BufTy).Contents (Elt F) → (⟨S1x128, .f32⟩ : BufTy).Contents (Elt F)),
    StableHlo.unary main_v517 main_v518 (broadcastInDim S50000x128 ![0, 1] bcast_S1x128_S50000x128_0_1 : (⟨S1x128, .f32⟩ : BufTy).Contents (Elt F) → (⟨S50000x128, .f32⟩ : BufTy).Contents (Elt F)),
    StableHlo.binary main_v516 main_v518 main_v519 (addf : (⟨S50000x128, .f32⟩ : BufTy).Contents (Elt F) → (⟨S50000x128, .f32⟩ : BufTy).Contents (Elt F) → (⟨S50000x128, .f32⟩ : BufTy).Contents (Elt F)),
    StableHlo.TRef.nullary main_call23.cst (constant S_ .f32 0x00000000#32),
    StableHlo.TRef.unary main_call23.cst main_call23.v0 (broadcastInDim S50000x128 ![] bcast_S_S50000x128),
    StableHlo.TRef.binary (.of main_v519 : StableHlo.TRef sig ⟨S50000x128, .f32⟩) main_call23.v0 main_call23.v1 maximumf,
    StableHlo.unary main_arg3 main_v521 ((extractStridedSlice S1x1 ![3, 2] · slices_S6x3_S1x1_3_2) : (⟨S6x3, .f32⟩ : BufTy).Contents (Elt F) → (⟨S1x1, .f32⟩ : BufTy).Contents (Elt F)),
    StableHlo.reshape main_v521 main_v522 rfl shapeCasts_S1x1_S_,
    StableHlo.unary main_v522 main_v523 (broadcastInDim S50000x128 ![] bcast_S_S50000x128 : (⟨S_, .f32⟩ : BufTy).Contents (Elt F) → (⟨S50000x128, .f32⟩ : BufTy).Contents (Elt F)),
    StableHlo.binary main_v523 main_v520 main_v524 (mulf : (⟨S50000x128, .f32⟩ : BufTy).Contents (Elt F) → (⟨S50000x128, .f32⟩ : BufTy).Contents (Elt F) → (⟨S50000x128, .f32⟩ : BufTy).Contents (Elt F)),
    StableHlo.binary main_v487 main_v524 main_v525 (addf : (⟨S50000x128, .f32⟩ : BufTy).Contents (Elt F) → (⟨S50000x128, .f32⟩ : BufTy).Contents (Elt F) → (⟨S50000x128, .f32⟩ : BufTy).Contents (Elt F)) ]

/-- The references these operations write, in order. -/
abbrev sg18_W : List (Ref sig .tc) :=
  [main_v488, main_v489, main_v490, main_v491, main_v492, main_v493, main_v494, main_v495, main_v496, main_v497, main_v498, main_v499, main_v500, main_cst_64, main_v501, main_cst_65, main_v502, main_v503, main_c_66, main_call22_cst, main_call22_v0, main_call22_v1, main_call22_cst_0, main_call22_v2, main_call22_v3, main_call22_v4, main_call22_v5, main_call22_v6, main_call22_v7, main_call22_cst_1, main_call22_v8, main_call22_cst_2, main_call22_v9, main_call22_v10, main_call22_v11, main_call22_cst_3, main_call22_v12, main_call22_cst_4, main_call22_call0_v0, main_call22_call0_v1, main_v504, main_v505, main_v506, main_v507, main_cst_67, main_v508, main_v509, main_v510, main_v511, main_v512, main_v513, main_v514, main_v515, main_v516, main_v517, main_v518, main_v519, main_call23_cst, main_call23_v0, main_v520, main_v521, main_v522, main_v523, main_v524, main_v525]

set_option maxHeartbeats 40000000 in
set_option maxRecDepth 8192 in
/-- Each operation writes its own result reference, the one listed at its place. -/
theorem sg18_writes : (sg18 : List (HloOp τ sig (Elt F))).Forall fun op => op.writes ⊆ (sg18_W.map (Proc.devRef (τ := τ) .tc)).toFinset :=
  ⟨(Finset.singleton_subset_iff (a := Proc.devRef (τ := τ) .tc main_v488)).mpr (List.mem_toFinset.mpr (List.mem_map_of_mem (by decide))),
   (Finset.singleton_subset_iff (a := Proc.devRef (τ := τ) .tc main_v489)).mpr (List.mem_toFinset.mpr (List.mem_map_of_mem (by decide))),
   (Finset.singleton_subset_iff (a := Proc.devRef (τ := τ) .tc main_v490)).mpr (List.mem_toFinset.mpr (List.mem_map_of_mem (by decide))),
   (Finset.singleton_subset_iff (a := Proc.devRef (τ := τ) .tc main_v491)).mpr (List.mem_toFinset.mpr (List.mem_map_of_mem (by decide))),
   (Finset.singleton_subset_iff (a := Proc.devRef (τ := τ) .tc main_v492)).mpr (List.mem_toFinset.mpr (List.mem_map_of_mem (by decide))),
   (Finset.singleton_subset_iff (a := Proc.devRef (τ := τ) .tc main_v493)).mpr (List.mem_toFinset.mpr (List.mem_map_of_mem (by decide))),
   (Finset.singleton_subset_iff (a := Proc.devRef (τ := τ) .tc main_v494)).mpr (List.mem_toFinset.mpr (List.mem_map_of_mem (by decide))),
   (Finset.singleton_subset_iff (a := Proc.devRef (τ := τ) .tc main_v495)).mpr (List.mem_toFinset.mpr (List.mem_map_of_mem (by decide))),
   (Finset.singleton_subset_iff (a := Proc.devRef (τ := τ) .tc main_v496)).mpr (List.mem_toFinset.mpr (List.mem_map_of_mem (by decide))),
   (Finset.singleton_subset_iff (a := Proc.devRef (τ := τ) .tc main_v497)).mpr (List.mem_toFinset.mpr (List.mem_map_of_mem (by decide))),
   (Finset.singleton_subset_iff (a := Proc.devRef (τ := τ) .tc main_v498)).mpr (List.mem_toFinset.mpr (List.mem_map_of_mem (by decide))),
   (Finset.singleton_subset_iff (a := Proc.devRef (τ := τ) .tc main_v499)).mpr (List.mem_toFinset.mpr (List.mem_map_of_mem (by decide))),
   (Finset.singleton_subset_iff (a := Proc.devRef (τ := τ) .tc main_v500)).mpr (List.mem_toFinset.mpr (List.mem_map_of_mem (by decide))),
   (Finset.singleton_subset_iff (a := Proc.devRef (τ := τ) .tc main_cst_64)).mpr (List.mem_toFinset.mpr (List.mem_map_of_mem (by decide))),
   (Finset.singleton_subset_iff (a := Proc.devRef (τ := τ) .tc main_v501)).mpr (List.mem_toFinset.mpr (List.mem_map_of_mem (by decide))),
   (Finset.singleton_subset_iff (a := Proc.devRef (τ := τ) .tc main_cst_65)).mpr (List.mem_toFinset.mpr (List.mem_map_of_mem (by decide))),
   (Finset.singleton_subset_iff (a := Proc.devRef (τ := τ) .tc main_v502)).mpr (List.mem_toFinset.mpr (List.mem_map_of_mem (by decide))),
   (Finset.singleton_subset_iff (a := Proc.devRef (τ := τ) .tc main_v503)).mpr (List.mem_toFinset.mpr (List.mem_map_of_mem (by decide))),
   (Finset.singleton_subset_iff (a := Proc.devRef (τ := τ) .tc main_c_66)).mpr (List.mem_toFinset.mpr (List.mem_map_of_mem (by decide))),
   (Finset.singleton_subset_iff (a := Proc.devRef (τ := τ) .tc main_call22_cst)).mpr (List.mem_toFinset.mpr (List.mem_map_of_mem (by decide))),
   (Finset.singleton_subset_iff (a := Proc.devRef (τ := τ) .tc main_call22_v0)).mpr (List.mem_toFinset.mpr (List.mem_map_of_mem (by decide))),
   (Finset.singleton_subset_iff (a := Proc.devRef (τ := τ) .tc main_call22_v1)).mpr (List.mem_toFinset.mpr (List.mem_map_of_mem (by decide))),
   (Finset.singleton_subset_iff (a := Proc.devRef (τ := τ) .tc main_call22_cst_0)).mpr (List.mem_toFinset.mpr (List.mem_map_of_mem (by decide))),
   (Finset.singleton_subset_iff (a := Proc.devRef (τ := τ) .tc main_call22_v2)).mpr (List.mem_toFinset.mpr (List.mem_map_of_mem (by decide))),
   (Finset.singleton_subset_iff (a := Proc.devRef (τ := τ) .tc main_call22_v3)).mpr (List.mem_toFinset.mpr (List.mem_map_of_mem (by decide))),
   (Finset.singleton_subset_iff (a := Proc.devRef (τ := τ) .tc main_call22_v4)).mpr (List.mem_toFinset.mpr (List.mem_map_of_mem (by decide))),
   (Finset.singleton_subset_iff (a := Proc.devRef (τ := τ) .tc main_call22_v5)).mpr (List.mem_toFinset.mpr (List.mem_map_of_mem (by decide))),
   (Finset.singleton_subset_iff (a := Proc.devRef (τ := τ) .tc main_call22_v6)).mpr (List.mem_toFinset.mpr (List.mem_map_of_mem (by decide))),
   (Finset.singleton_subset_iff (a := Proc.devRef (τ := τ) .tc main_call22_v7)).mpr (List.mem_toFinset.mpr (List.mem_map_of_mem (by decide))),
   (Finset.singleton_subset_iff (a := Proc.devRef (τ := τ) .tc main_call22_cst_1)).mpr (List.mem_toFinset.mpr (List.mem_map_of_mem (by decide))),
   (Finset.singleton_subset_iff (a := Proc.devRef (τ := τ) .tc main_call22_v8)).mpr (List.mem_toFinset.mpr (List.mem_map_of_mem (by decide))),
   (Finset.singleton_subset_iff (a := Proc.devRef (τ := τ) .tc main_call22_cst_2)).mpr (List.mem_toFinset.mpr (List.mem_map_of_mem (by decide))),
   (Finset.singleton_subset_iff (a := Proc.devRef (τ := τ) .tc main_call22_v9)).mpr (List.mem_toFinset.mpr (List.mem_map_of_mem (by decide))),
   (Finset.singleton_subset_iff (a := Proc.devRef (τ := τ) .tc main_call22_v10)).mpr (List.mem_toFinset.mpr (List.mem_map_of_mem (by decide))),
   (Finset.singleton_subset_iff (a := Proc.devRef (τ := τ) .tc main_call22_v11)).mpr (List.mem_toFinset.mpr (List.mem_map_of_mem (by decide))),
   (Finset.singleton_subset_iff (a := Proc.devRef (τ := τ) .tc main_call22_cst_3)).mpr (List.mem_toFinset.mpr (List.mem_map_of_mem (by decide))),
   (Finset.singleton_subset_iff (a := Proc.devRef (τ := τ) .tc main_call22_v12)).mpr (List.mem_toFinset.mpr (List.mem_map_of_mem (by decide))),
   (Finset.singleton_subset_iff (a := Proc.devRef (τ := τ) .tc main_call22_cst_4)).mpr (List.mem_toFinset.mpr (List.mem_map_of_mem (by decide))),
   (Finset.singleton_subset_iff (a := Proc.devRef (τ := τ) .tc main_call22_call0_v0)).mpr (List.mem_toFinset.mpr (List.mem_map_of_mem (by decide))),
   (Finset.singleton_subset_iff (a := Proc.devRef (τ := τ) .tc main_call22_call0_v1)).mpr (List.mem_toFinset.mpr (List.mem_map_of_mem (by decide))),
   (Finset.singleton_subset_iff (a := Proc.devRef (τ := τ) .tc main_v504)).mpr (List.mem_toFinset.mpr (List.mem_map_of_mem (by decide))),
   (Finset.singleton_subset_iff (a := Proc.devRef (τ := τ) .tc main_v505)).mpr (List.mem_toFinset.mpr (List.mem_map_of_mem (by decide))),
   (Finset.singleton_subset_iff (a := Proc.devRef (τ := τ) .tc main_v506)).mpr (List.mem_toFinset.mpr (List.mem_map_of_mem (by decide))),
   (Finset.singleton_subset_iff (a := Proc.devRef (τ := τ) .tc main_v507)).mpr (List.mem_toFinset.mpr (List.mem_map_of_mem (by decide))),
   (Finset.singleton_subset_iff (a := Proc.devRef (τ := τ) .tc main_cst_67)).mpr (List.mem_toFinset.mpr (List.mem_map_of_mem (by decide))),
   (Finset.singleton_subset_iff (a := Proc.devRef (τ := τ) .tc main_v508)).mpr (List.mem_toFinset.mpr (List.mem_map_of_mem (by decide))),
   (Finset.singleton_subset_iff (a := Proc.devRef (τ := τ) .tc main_v509)).mpr (List.mem_toFinset.mpr (List.mem_map_of_mem (by decide))),
   (Finset.singleton_subset_iff (a := Proc.devRef (τ := τ) .tc main_v510)).mpr (List.mem_toFinset.mpr (List.mem_map_of_mem (by decide))),
   (Finset.singleton_subset_iff (a := Proc.devRef (τ := τ) .tc main_v511)).mpr (List.mem_toFinset.mpr (List.mem_map_of_mem (by decide))),
   (Finset.singleton_subset_iff (a := Proc.devRef (τ := τ) .tc main_v512)).mpr (List.mem_toFinset.mpr (List.mem_map_of_mem (by decide))),
   (Finset.singleton_subset_iff (a := Proc.devRef (τ := τ) .tc main_v513)).mpr (List.mem_toFinset.mpr (List.mem_map_of_mem (by decide))),
   (Finset.singleton_subset_iff (a := Proc.devRef (τ := τ) .tc main_v514)).mpr (List.mem_toFinset.mpr (List.mem_map_of_mem (by decide))),
   (Finset.singleton_subset_iff (a := Proc.devRef (τ := τ) .tc main_v515)).mpr (List.mem_toFinset.mpr (List.mem_map_of_mem (by decide))),
   (Finset.singleton_subset_iff (a := Proc.devRef (τ := τ) .tc main_v516)).mpr (List.mem_toFinset.mpr (List.mem_map_of_mem (by decide))),
   (Finset.singleton_subset_iff (a := Proc.devRef (τ := τ) .tc main_v517)).mpr (List.mem_toFinset.mpr (List.mem_map_of_mem (by decide))),
   (Finset.singleton_subset_iff (a := Proc.devRef (τ := τ) .tc main_v518)).mpr (List.mem_toFinset.mpr (List.mem_map_of_mem (by decide))),
   (Finset.singleton_subset_iff (a := Proc.devRef (τ := τ) .tc main_v519)).mpr (List.mem_toFinset.mpr (List.mem_map_of_mem (by decide))),
   (Finset.singleton_subset_iff (a := Proc.devRef (τ := τ) .tc main_call23_cst)).mpr (List.mem_toFinset.mpr (List.mem_map_of_mem (by decide))),
   (Finset.singleton_subset_iff (a := Proc.devRef (τ := τ) .tc main_call23_v0)).mpr (List.mem_toFinset.mpr (List.mem_map_of_mem (by decide))),
   (Finset.singleton_subset_iff (a := Proc.devRef (τ := τ) .tc main_v520)).mpr (List.mem_toFinset.mpr (List.mem_map_of_mem (by decide))),
   (Finset.singleton_subset_iff (a := Proc.devRef (τ := τ) .tc main_v521)).mpr (List.mem_toFinset.mpr (List.mem_map_of_mem (by decide))),
   (Finset.singleton_subset_iff (a := Proc.devRef (τ := τ) .tc main_v522)).mpr (List.mem_toFinset.mpr (List.mem_map_of_mem (by decide))),
   (Finset.singleton_subset_iff (a := Proc.devRef (τ := τ) .tc main_v523)).mpr (List.mem_toFinset.mpr (List.mem_map_of_mem (by decide))),
   (Finset.singleton_subset_iff (a := Proc.devRef (τ := τ) .tc main_v524)).mpr (List.mem_toFinset.mpr (List.mem_map_of_mem (by decide))),
   (Finset.singleton_subset_iff (a := Proc.devRef (τ := τ) .tc main_v525)).mpr (List.mem_toFinset.mpr (List.mem_map_of_mem (by decide)))⟩

/-- A reference these operations do not write keeps its contents through them. -/
theorem sg18_keep (V : Valuation τ sig (Elt F)) (r : Ref sig .tc) (h : r ∉ sg18_W) :
    after sg18 V (Proc.devRef .tc r) = V (Proc.devRef .tc r) :=
  after_of_writes_sub sg18 V sg18_writes h

end Cert.ReferenceIdeal.HandV

end
-- ==== Proof.RV.TopSeg19.lean ====
import proofs.«414290_j6631429505478_3_alg».proof.Proof.Gen.ReferenceIdeal
import Idealize.ShloMosaic.Lib.StableHlo.Run

set_option Elab.async false

noncomputable section

namespace Cert.ReferenceIdeal.HandV

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
set_option maxRecDepth 8192 in
/-- Operations 872 to 874 of @main, in order (3 of them): from the one writing main_cst_68 to the one writing main_v527. -/
abbrev sg19 : List (HloOp τ sig (Elt F)) :=
  [ StableHlo.nullary main_cst_68 (constant S_ .f32 0x00000000#32),
    StableHlo.unary main_cst_68 main_v526 (broadcastInDim S50000x128 ![] bcast_S_S50000x128 : (⟨S_, .f32⟩ : BufTy).Contents (Elt F) → (⟨S50000x128, .f32⟩ : BufTy).Contents (Elt F)),
    StableHlo.binary main_v526 main_v525 main_v527 (addf : (⟨S50000x128, .f32⟩ : BufTy).Contents (Elt F) → (⟨S50000x128, .f32⟩ : BufTy).Contents (Elt F) → (⟨S50000x128, .f32⟩ : BufTy).Contents (Elt F)) ]

/-- The references these operations write, in order. -/
abbrev sg19_W : List (Ref sig .tc) :=
  [main_cst_68, main_v526, main_v527]

set_option maxHeartbeats 40000000 in
set_option maxRecDepth 8192 in
/-- Each operation writes its own result reference, the one listed at its place. -/
theorem sg19_writes : (sg19 : List (HloOp τ sig (Elt F))).Forall fun op => op.writes ⊆ (sg19_W.map (Proc.devRef (τ := τ) .tc)).toFinset :=
  ⟨(Finset.singleton_subset_iff (a := Proc.devRef (τ := τ) .tc main_cst_68)).mpr (List.mem_toFinset.mpr (List.mem_map_of_mem (by decide))),
   (Finset.singleton_subset_iff (a := Proc.devRef (τ := τ) .tc main_v526)).mpr (List.mem_toFinset.mpr (List.mem_map_of_mem (by decide))),
   (Finset.singleton_subset_iff (a := Proc.devRef (τ := τ) .tc main_v527)).mpr (List.mem_toFinset.mpr (List.mem_map_of_mem (by decide)))⟩

/-- A reference these operations do not write keeps its contents through them. -/
theorem sg19_keep (V : Valuation τ sig (Elt F)) (r : Ref sig .tc) (h : r ∉ sg19_W) :
    after sg19 V (Proc.devRef .tc r) = V (Proc.devRef .tc r) :=
  after_of_writes_sub sg19 V sg19_writes h

end Cert.ReferenceIdeal.HandV

end
-- ==== Proof.RV.TopSeg20.lean ====
import proofs.«414290_j6631429505478_3_alg».proof.Proof.Gen.ReferenceIdeal
import Idealize.ShloMosaic.Lib.StableHlo.Run

set_option Elab.async false

noncomputable section

namespace Cert.ReferenceIdeal.HandV

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
set_option maxRecDepth 8192 in
/-- Operations 875 to 889 of @main, in order (15 of them): from the one writing main_c_69 to the one writing main_v539. -/
abbrev sg20 : List (HloOp τ sig (Elt F)) :=
  [ StableHlo.nullary main_c_69 (constantI S_ 32 0#32),
    StableHlo.unary main_c_69 main_v528 (broadcastInDim S800000 ![] bcast_S_S800000 : (⟨S_, .i32⟩ : BufTy).Contents (Elt F) → (⟨S800000, .i32⟩ : BufTy).Contents (Elt F)),
    StableHlo.binary main_v1 main_v528 main_v529 (cmpi .slt : (⟨S800000, .i32⟩ : BufTy).Contents (Elt F) → (⟨S800000, .i32⟩ : BufTy).Contents (Elt F) → (⟨S800000, .i1⟩ : BufTy).Contents (Elt F)),
    StableHlo.nullary main_c_70 (constantI S_ 32 50000#32),
    StableHlo.unary main_c_70 main_v530 (broadcastInDim S800000 ![] bcast_S_S800000 : (⟨S_, .i32⟩ : BufTy).Contents (Elt F) → (⟨S800000, .i32⟩ : BufTy).Contents (Elt F)),
    StableHlo.binary main_v1 main_v530 main_v531 (addi : (⟨S800000, .i32⟩ : BufTy).Contents (Elt F) → (⟨S800000, .i32⟩ : BufTy).Contents (Elt F) → (⟨S800000, .i32⟩ : BufTy).Contents (Elt F)),
    StableHlo.ternary main_v529 main_v531 main_v1 main_v532 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v532 main_v533 (broadcastInDim S800000x1 ![0] bcast_S800000_S800000x1_0 : (⟨S800000, .i32⟩ : BufTy).Contents (Elt F) → (⟨S800000x1, .i32⟩ : BufTy).Contents (Elt F)),
    StableHlo.binary main_v141 main_v533 main_v534 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_71 (constant S_ .f32 0x00000000#32),
    StableHlo.unary main_cst_71 main_v535 (broadcastInDim S50000x128 ![] bcast_S_S50000x128 : (⟨S_, .f32⟩ : BufTy).Contents (Elt F) → (⟨S50000x128, .f32⟩ : BufTy).Contents (Elt F)),
    StableHlo.unary main_v3 main_v536 (broadcastInDim S800000x1 ![0] bcast_S800000_S800000x1_0 : (⟨S800000, .i32⟩ : BufTy).Contents (Elt F) → (⟨S800000x1, .i32⟩ : BufTy).Contents (Elt F)),
    StableHlo.ternary main_v535 main_v536 main_v534 main_v537 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v12 main_v538 (broadcastInDim S50000x128 ![0, 1] bcast_S50000x1_S50000x128_0_1 : (⟨S50000x1, .f32⟩ : BufTy).Contents (Elt F) → (⟨S50000x128, .f32⟩ : BufTy).Contents (Elt F)),
    StableHlo.binary main_v537 main_v538 main_v539 (mulf : (⟨S50000x128, .f32⟩ : BufTy).Contents (Elt F) → (⟨S50000x128, .f32⟩ : BufTy).Contents (Elt F) → (⟨S50000x128, .f32⟩ : BufTy).Contents (Elt F)) ]

/-- The references these operations write, in order. -/
abbrev sg20_W : List (Ref sig .tc) :=
  [main_c_69, main_v528, main_v529, main_c_70, main_v530, main_v531, main_v532, main_v533, main_v534, main_cst_71, main_v535, main_v536, main_v537, main_v538, main_v539]

set_option maxHeartbeats 40000000 in
set_option maxRecDepth 8192 in
/-- Each operation writes its own result reference, the one listed at its place. -/
theorem sg20_writes : (sg20 : List (HloOp τ sig (Elt F))).Forall fun op => op.writes ⊆ (sg20_W.map (Proc.devRef (τ := τ) .tc)).toFinset :=
  ⟨(Finset.singleton_subset_iff (a := Proc.devRef (τ := τ) .tc main_c_69)).mpr (List.mem_toFinset.mpr (List.mem_map_of_mem (by decide))),
   (Finset.singleton_subset_iff (a := Proc.devRef (τ := τ) .tc main_v528)).mpr (List.mem_toFinset.mpr (List.mem_map_of_mem (by decide))),
   (Finset.singleton_subset_iff (a := Proc.devRef (τ := τ) .tc main_v529)).mpr (List.mem_toFinset.mpr (List.mem_map_of_mem (by decide))),
   (Finset.singleton_subset_iff (a := Proc.devRef (τ := τ) .tc main_c_70)).mpr (List.mem_toFinset.mpr (List.mem_map_of_mem (by decide))),
   (Finset.singleton_subset_iff (a := Proc.devRef (τ := τ) .tc main_v530)).mpr (List.mem_toFinset.mpr (List.mem_map_of_mem (by decide))),
   (Finset.singleton_subset_iff (a := Proc.devRef (τ := τ) .tc main_v531)).mpr (List.mem_toFinset.mpr (List.mem_map_of_mem (by decide))),
   (Finset.singleton_subset_iff (a := Proc.devRef (τ := τ) .tc main_v532)).mpr (List.mem_toFinset.mpr (List.mem_map_of_mem (by decide))),
   (Finset.singleton_subset_iff (a := Proc.devRef (τ := τ) .tc main_v533)).mpr (List.mem_toFinset.mpr (List.mem_map_of_mem (by decide))),
   (Finset.singleton_subset_iff (a := Proc.devRef (τ := τ) .tc main_v534)).mpr (List.mem_toFinset.mpr (List.mem_map_of_mem (by decide))),
   (Finset.singleton_subset_iff (a := Proc.devRef (τ := τ) .tc main_cst_71)).mpr (List.mem_toFinset.mpr (List.mem_map_of_mem (by decide))),
   (Finset.singleton_subset_iff (a := Proc.devRef (τ := τ) .tc main_v535)).mpr (List.mem_toFinset.mpr (List.mem_map_of_mem (by decide))),
   (Finset.singleton_subset_iff (a := Proc.devRef (τ := τ) .tc main_v536)).mpr (List.mem_toFinset.mpr (List.mem_map_of_mem (by decide))),
   (Finset.singleton_subset_iff (a := Proc.devRef (τ := τ) .tc main_v537)).mpr (List.mem_toFinset.mpr (List.mem_map_of_mem (by decide))),
   (Finset.singleton_subset_iff (a := Proc.devRef (τ := τ) .tc main_v538)).mpr (List.mem_toFinset.mpr (List.mem_map_of_mem (by decide))),
   (Finset.singleton_subset_iff (a := Proc.devRef (τ := τ) .tc main_v539)).mpr (List.mem_toFinset.mpr (List.mem_map_of_mem (by decide)))⟩

/-- A reference these operations do not write keeps its contents through them. -/
theorem sg20_keep (V : Valuation τ sig (Elt F)) (r : Ref sig .tc) (h : r ∉ sg20_W) :
    after sg20 V (Proc.devRef .tc r) = V (Proc.devRef .tc r) :=
  after_of_writes_sub sg20 V sg20_writes h

end Cert.ReferenceIdeal.HandV

end
-- ==== Proof.RV.TopSeg21.lean ====
import proofs.«414290_j6631429505478_3_alg».proof.Proof.Gen.ReferenceIdeal
import Idealize.ShloMosaic.Lib.StableHlo.Run

set_option Elab.async false

noncomputable section

namespace Cert.ReferenceIdeal.HandV

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
set_option maxRecDepth 8192 in
/-- Operations 890 to 956 of @main, in order (67 of them): from the one writing main_cst_72 to the one writing main_v578. -/
abbrev sg21 : List (HloOp τ sig (Elt F)) :=
  [ StableHlo.nullary main_cst_72 (constant S_ .f32 0x00000000#32),
    StableHlo.unary main_cst_72 main_v540 (broadcastInDim S50000x128 ![] bcast_S_S50000x128 : (⟨S_, .f32⟩ : BufTy).Contents (Elt F) → (⟨S50000x128, .f32⟩ : BufTy).Contents (Elt F)),
    StableHlo.unary main_arg4 main_v541 ((extractStridedSlice S1x1x128x128 ![4, 0, 0, 0] · slices_S6x3x128x128_S1x1x128x128_4_0_0_0) : (⟨S6x3x128x128, .f32⟩ : BufTy).Contents (Elt F) → (⟨S1x1x128x128, .f32⟩ : BufTy).Contents (Elt F)),
    StableHlo.reshape main_v541 main_v542 rfl shapeCasts_S1x1x128x128_S128x128,
    StableHlo.unary main_v542 main_v543 ((transpose S128x128 [1, 0] · transposes_S128x128_S128x128_1_0) : (⟨S128x128, .f32⟩ : BufTy).Contents (Elt F) → (⟨S128x128, .f32⟩ : BufTy).Contents (Elt F)),
    StableHlo.binary main_v539 main_v543 main_v544 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg5 main_v545 ((extractStridedSlice S1x1x128 ![4, 0, 0] · slices_S6x3x128_S1x1x128_4_0_0) : (⟨S6x3x128, .f32⟩ : BufTy).Contents (Elt F) → (⟨S1x1x128, .f32⟩ : BufTy).Contents (Elt F)),
    StableHlo.reshape main_v545 main_v546 rfl shapeCasts_S1x1x128_S128,
    StableHlo.unary main_v546 main_v547 (broadcastInDim S1x128 ![1] bcast_S128_S1x128_1 : (⟨S128, .f32⟩ : BufTy).Contents (Elt F) → (⟨S1x128, .f32⟩ : BufTy).Contents (Elt F)),
    StableHlo.unary main_v547 main_v548 (broadcastInDim S50000x128 ![0, 1] bcast_S1x128_S50000x128_0_1 : (⟨S1x128, .f32⟩ : BufTy).Contents (Elt F) → (⟨S50000x128, .f32⟩ : BufTy).Contents (Elt F)),
    StableHlo.binary main_v544 main_v548 main_v549 (addf : (⟨S50000x128, .f32⟩ : BufTy).Contents (Elt F) → (⟨S50000x128, .f32⟩ : BufTy).Contents (Elt F) → (⟨S50000x128, .f32⟩ : BufTy).Contents (Elt F)),
    StableHlo.unary main_arg6 main_v550 ((extractStridedSlice S1x1x128 ![4, 0, 0] · slices_S6x3x128_S1x1x128_4_0_0) : (⟨S6x3x128, .f32⟩ : BufTy).Contents (Elt F) → (⟨S1x1x128, .f32⟩ : BufTy).Contents (Elt F)),
    StableHlo.reshape main_v550 main_v551 rfl shapeCasts_S1x1x128_S128,
    StableHlo.unary main_arg7 main_v552 ((extractStridedSlice S1x1x128 ![4, 0, 0] · slices_S6x3x128_S1x1x128_4_0_0) : (⟨S6x3x128, .f32⟩ : BufTy).Contents (Elt F) → (⟨S1x1x128, .f32⟩ : BufTy).Contents (Elt F)),
    StableHlo.reshape main_v552 main_v553 rfl shapeCasts_S1x1x128_S128,
    StableHlo.nullary main_cst_73 (constant S_ .f32 0x00000000#32),
    StableHlo.binary main_v549 main_cst_73 main_v554 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_74 (constant S_ .f32 0x47435000#32),
    StableHlo.unary main_cst_74 main_v555 (broadcastInDim S128 ![] bcast_S_S128 : (⟨S_, .f32⟩ : BufTy).Contents (Elt F) → (⟨S128, .f32⟩ : BufTy).Contents (Elt F)),
    StableHlo.binary main_v554 main_v555 main_v556 (Host.divf : (⟨S128, .f32⟩ : BufTy).Contents (Elt F) → (⟨S128, .f32⟩ : BufTy).Contents (Elt F) → (⟨S128, .f32⟩ : BufTy).Contents (Elt F)),
    StableHlo.nullary main_c_75 (constantI S_ 32 0#32),
    StableHlo.TRef.nullary main_call24.cst (constant S_ .f32 0x00000000#32),
    StableHlo.TRef.binary (.of main_v549 : StableHlo.TRef sig ⟨S50000x128, .f32⟩) main_call24.cst main_call24.v0 (fun x v => Host.reduceAdd x v reducesTo_S50000x128_S128_d0 h_S_),
    StableHlo.TRef.unary main_call24.v0 main_call24.v1 (broadcastInDim S1x128 ![1] bcast_S128_S1x128_1),
    StableHlo.TRef.nullary main_call24.cst_0 (constant S_ .f32 0x47435000#32),
    StableHlo.TRef.unary main_call24.cst_0 main_call24.v2 (broadcastInDim S1x128 ![] bcast_S_S1x128),
    StableHlo.TRef.binary main_call24.v1 main_call24.v2 main_call24.v3 Host.divf,
    StableHlo.TRef.unary main_call24.v3 main_call24.v4 (broadcastInDim S50000x128 ![0, 1] bcast_S1x128_S50000x128_0_1),
    StableHlo.TRef.binary (.of main_v549 : StableHlo.TRef sig ⟨S50000x128, .f32⟩) main_call24.v4 main_call24.v5 subf,
    StableHlo.TRef.binary main_call24.v5 main_call24.v5 main_call24.v6 mulf,
    StableHlo.TRef.unary (.of main_c_75 : StableHlo.TRef sig ⟨S_, .i32⟩) main_call24.v7 (sitofp .f32),
    StableHlo.TRef.nullary main_call24.cst_1 (constant S_ .f32 0x47435000#32),
    StableHlo.TRef.binary main_call24.cst_1 main_call24.v7 main_call24.v8 subf,
    StableHlo.TRef.nullary main_call24.cst_2 (constant S_ .f32 0x00000000#32),
    StableHlo.TRef.binary main_call24.v6 main_call24.cst_2 main_call24.v9 (fun x v => Host.reduceAdd x v reducesTo_S50000x128_S128_d0 h_S_),
    StableHlo.TRef.unary main_call24.v8 main_call24.v10 (broadcastInDim S128 ![] bcast_S_S128),
    StableHlo.TRef.binary main_call24.v9 main_call24.v10 main_call24.v11 Host.divf,
    StableHlo.TRef.nullary main_call24.cst_3 (constant S_ .f32 0x00000000#32),
    StableHlo.TRef.binary main_call24.v8 main_call24.cst_3 main_call24.v12 (cmpf .ogt),
    StableHlo.TRef.nullary main_call24.cst_4 (constant S_ .f32 0x7FC00000#32),
    StableHlo.TRef.unary main_call24.cst_4 main_call24.call0.v0 id,
    StableHlo.TRef.unary main_call24.call0.v0 main_call24.call0.v1 (broadcastInDim S128 ![] bcast_S_S128),
    StableHlo.TRef.ternary main_call24.v12 main_call24.v11 main_call24.call0.v1 main_call24.call0.v2 (fun p a b => select (broadcastInDim S128 ![] bcast_S_S128 p) a b),
    StableHlo.unary main_v556 main_v558 (broadcastInDim S1x128 ![1] bcast_S128_S1x128_1 : (⟨S128, .f32⟩ : BufTy).Contents (Elt F) → (⟨S1x128, .f32⟩ : BufTy).Contents (Elt F)),
    StableHlo.unary main_v558 main_v559 (broadcastInDim S50000x128 ![0, 1] bcast_S1x128_S50000x128_0_1 : (⟨S1x128, .f32⟩ : BufTy).Contents (Elt F) → (⟨S50000x128, .f32⟩ : BufTy).Contents (Elt F)),
    StableHlo.binary main_v549 main_v559 main_v560 (subf : (⟨S50000x128, .f32⟩ : BufTy).Contents (Elt F) → (⟨S50000x128, .f32⟩ : BufTy).Contents (Elt F) → (⟨S50000x128, .f32⟩ : BufTy).Contents (Elt F)),
    StableHlo.nullary main_cst_76 (constant S_ .f32 0x3727C5AC#32),
    StableHlo.unary main_cst_76 main_v561 (broadcastInDim S128 ![] bcast_S_S128 : (⟨S_, .f32⟩ : BufTy).Contents (Elt F) → (⟨S128, .f32⟩ : BufTy).Contents (Elt F)),
    StableHlo.binary main_v557 main_v561 main_v562 (addf : (⟨S128, .f32⟩ : BufTy).Contents (Elt F) → (⟨S128, .f32⟩ : BufTy).Contents (Elt F) → (⟨S128, .f32⟩ : BufTy).Contents (Elt F)),
    StableHlo.unary main_v562 main_v563 (Host.rsqrt : (⟨S128, .f32⟩ : BufTy).Contents (Elt F) → (⟨S128, .f32⟩ : BufTy).Contents (Elt F)),
    StableHlo.unary main_v563 main_v564 (broadcastInDim S1x128 ![1] bcast_S128_S1x128_1 : (⟨S128, .f32⟩ : BufTy).Contents (Elt F) → (⟨S1x128, .f32⟩ : BufTy).Contents (Elt F)),
    StableHlo.unary main_v564 main_v565 (broadcastInDim S50000x128 ![0, 1] bcast_S1x128_S50000x128_0_1 : (⟨S1x128, .f32⟩ : BufTy).Contents (Elt F) → (⟨S50000x128, .f32⟩ : BufTy).Contents (Elt F)),
    StableHlo.binary main_v560 main_v565 main_v566 (mulf : (⟨S50000x128, .f32⟩ : BufTy).Contents (Elt F) → (⟨S50000x128, .f32⟩ : BufTy).Contents (Elt F) → (⟨S50000x128, .f32⟩ : BufTy).Contents (Elt F)),
    StableHlo.unary main_v551 main_v567 (broadcastInDim S1x128 ![1] bcast_S128_S1x128_1 : (⟨S128, .f32⟩ : BufTy).Contents (Elt F) → (⟨S1x128, .f32⟩ : BufTy).Contents (Elt F)),
    StableHlo.unary main_v567 main_v568 (broadcastInDim S50000x128 ![0, 1] bcast_S1x128_S50000x128_0_1 : (⟨S1x128, .f32⟩ : BufTy).Contents (Elt F) → (⟨S50000x128, .f32⟩ : BufTy).Contents (Elt F)),
    StableHlo.binary main_v566 main_v568 main_v569 (mulf : (⟨S50000x128, .f32⟩ : BufTy).Contents (Elt F) → (⟨S50000x128, .f32⟩ : BufTy).Contents (Elt F) → (⟨S50000x128, .f32⟩ : BufTy).Contents (Elt F)),
    StableHlo.unary main_v553 main_v570 (broadcastInDim S1x128 ![1] bcast_S128_S1x128_1 : (⟨S128, .f32⟩ : BufTy).Contents (Elt F) → (⟨S1x128, .f32⟩ : BufTy).Contents (Elt F)),
    StableHlo.unary main_v570 main_v571 (broadcastInDim S50000x128 ![0, 1] bcast_S1x128_S50000x128_0_1 : (⟨S1x128, .f32⟩ : BufTy).Contents (Elt F) → (⟨S50000x128, .f32⟩ : BufTy).Contents (Elt F)),
    StableHlo.binary main_v569 main_v571 main_v572 (addf : (⟨S50000x128, .f32⟩ : BufTy).Contents (Elt F) → (⟨S50000x128, .f32⟩ : BufTy).Contents (Elt F) → (⟨S50000x128, .f32⟩ : BufTy).Contents (Elt F)),
    StableHlo.TRef.nullary main_call25.cst (constant S_ .f32 0x00000000#32),
    StableHlo.TRef.unary main_call25.cst main_call25.v0 (broadcastInDim S50000x128 ![] bcast_S_S50000x128),
    StableHlo.TRef.binary (.of main_v572 : StableHlo.TRef sig ⟨S50000x128, .f32⟩) main_call25.v0 main_call25.v1 maximumf,
    StableHlo.unary main_arg3 main_v574 ((extractStridedSlice S1x1 ![4, 0] · slices_S6x3_S1x1_4_0) : (⟨S6x3, .f32⟩ : BufTy).Contents (Elt F) → (⟨S1x1, .f32⟩ : BufTy).Contents (Elt F)),
    StableHlo.reshape main_v574 main_v575 rfl shapeCasts_S1x1_S_,
    StableHlo.unary main_v575 main_v576 (broadcastInDim S50000x128 ![] bcast_S_S50000x128 : (⟨S_, .f32⟩ : BufTy).Contents (Elt F) → (⟨S50000x128, .f32⟩ : BufTy).Contents (Elt F)),
    StableHlo.binary main_v576 main_v573 main_v577 (mulf : (⟨S50000x128, .f32⟩ : BufTy).Contents (Elt F) → (⟨S50000x128, .f32⟩ : BufTy).Contents (Elt F) → (⟨S50000x128, .f32⟩ : BufTy).Contents (Elt F)),
    StableHlo.binary main_v540 main_v577 main_v578 (addf : (⟨S50000x128, .f32⟩ : BufTy).Contents (Elt F) → (⟨S50000x128, .f32⟩ : BufTy).Contents (Elt F) → (⟨S50000x128, .f32⟩ : BufTy).Contents (Elt F)) ]

/-- The references these operations write, in order. -/
abbrev sg21_W : List (Ref sig .tc) :=
  [main_cst_72, main_v540, main_v541, main_v542, main_v543, main_v544, main_v545, main_v546, main_v547, main_v548, main_v549, main_v550, main_v551, main_v552, main_v553, main_cst_73, main_v554, main_cst_74, main_v555, main_v556, main_c_75, main_call24_cst, main_call24_v0, main_call24_v1, main_call24_cst_0, main_call24_v2, main_call24_v3, main_call24_v4, main_call24_v5, main_call24_v6, main_call24_v7, main_call24_cst_1, main_call24_v8, main_call24_cst_2, main_call24_v9, main_call24_v10, main_call24_v11, main_call24_cst_3, main_call24_v12, main_call24_cst_4, main_call24_call0_v0, main_call24_call0_v1, main_v557, main_v558, main_v559, main_v560, main_cst_76, main_v561, main_v562, main_v563, main_v564, main_v565, main_v566, main_v567, main_v568, main_v569, main_v570, main_v571, main_v572, main_call25_cst, main_call25_v0, main_v573, main_v574, main_v575, main_v576, main_v577, main_v578]

set_option maxHeartbeats 40000000 in
set_option maxRecDepth 8192 in
/-- Each operation writes its own result reference, the one listed at its place. -/
theorem sg21_writes : (sg21 : List (HloOp τ sig (Elt F))).Forall fun op => op.writes ⊆ (sg21_W.map (Proc.devRef (τ := τ) .tc)).toFinset :=
  ⟨(Finset.singleton_subset_iff (a := Proc.devRef (τ := τ) .tc main_cst_72)).mpr (List.mem_toFinset.mpr (List.mem_map_of_mem (by decide))),
   (Finset.singleton_subset_iff (a := Proc.devRef (τ := τ) .tc main_v540)).mpr (List.mem_toFinset.mpr (List.mem_map_of_mem (by decide))),
   (Finset.singleton_subset_iff (a := Proc.devRef (τ := τ) .tc main_v541)).mpr (List.mem_toFinset.mpr (List.mem_map_of_mem (by decide))),
   (Finset.singleton_subset_iff (a := Proc.devRef (τ := τ) .tc main_v542)).mpr (List.mem_toFinset.mpr (List.mem_map_of_mem (by decide))),
   (Finset.singleton_subset_iff (a := Proc.devRef (τ := τ) .tc main_v543)).mpr (List.mem_toFinset.mpr (List.mem_map_of_mem (by decide))),
   (Finset.singleton_subset_iff (a := Proc.devRef (τ := τ) .tc main_v544)).mpr (List.mem_toFinset.mpr (List.mem_map_of_mem (by decide))),
   (Finset.singleton_subset_iff (a := Proc.devRef (τ := τ) .tc main_v545)).mpr (List.mem_toFinset.mpr (List.mem_map_of_mem (by decide))),
   (Finset.singleton_subset_iff (a := Proc.devRef (τ := τ) .tc main_v546)).mpr (List.mem_toFinset.mpr (List.mem_map_of_mem (by decide))),
   (Finset.singleton_subset_iff (a := Proc.devRef (τ := τ) .tc main_v547)).mpr (List.mem_toFinset.mpr (List.mem_map_of_mem (by decide))),
   (Finset.singleton_subset_iff (a := Proc.devRef (τ := τ) .tc main_v548)).mpr (List.mem_toFinset.mpr (List.mem_map_of_mem (by decide))),
   (Finset.singleton_subset_iff (a := Proc.devRef (τ := τ) .tc main_v549)).mpr (List.mem_toFinset.mpr (List.mem_map_of_mem (by decide))),
   (Finset.singleton_subset_iff (a := Proc.devRef (τ := τ) .tc main_v550)).mpr (List.mem_toFinset.mpr (List.mem_map_of_mem (by decide))),
   (Finset.singleton_subset_iff (a := Proc.devRef (τ := τ) .tc main_v551)).mpr (List.mem_toFinset.mpr (List.mem_map_of_mem (by decide))),
   (Finset.singleton_subset_iff (a := Proc.devRef (τ := τ) .tc main_v552)).mpr (List.mem_toFinset.mpr (List.mem_map_of_mem (by decide))),
   (Finset.singleton_subset_iff (a := Proc.devRef (τ := τ) .tc main_v553)).mpr (List.mem_toFinset.mpr (List.mem_map_of_mem (by decide))),
   (Finset.singleton_subset_iff (a := Proc.devRef (τ := τ) .tc main_cst_73)).mpr (List.mem_toFinset.mpr (List.mem_map_of_mem (by decide))),
   (Finset.singleton_subset_iff (a := Proc.devRef (τ := τ) .tc main_v554)).mpr (List.mem_toFinset.mpr (List.mem_map_of_mem (by decide))),
   (Finset.singleton_subset_iff (a := Proc.devRef (τ := τ) .tc main_cst_74)).mpr (List.mem_toFinset.mpr (List.mem_map_of_mem (by decide))),
   (Finset.singleton_subset_iff (a := Proc.devRef (τ := τ) .tc main_v555)).mpr (List.mem_toFinset.mpr (List.mem_map_of_mem (by decide))),
   (Finset.singleton_subset_iff (a := Proc.devRef (τ := τ) .tc main_v556)).mpr (List.mem_toFinset.mpr (List.mem_map_of_mem (by decide))),
   (Finset.singleton_subset_iff (a := Proc.devRef (τ := τ) .tc main_c_75)).mpr (List.mem_toFinset.mpr (List.mem_map_of_mem (by decide))),
   (Finset.singleton_subset_iff (a := Proc.devRef (τ := τ) .tc main_call24_cst)).mpr (List.mem_toFinset.mpr (List.mem_map_of_mem (by decide))),
   (Finset.singleton_subset_iff (a := Proc.devRef (τ := τ) .tc main_call24_v0)).mpr (List.mem_toFinset.mpr (List.mem_map_of_mem (by decide))),
   (Finset.singleton_subset_iff (a := Proc.devRef (τ := τ) .tc main_call24_v1)).mpr (List.mem_toFinset.mpr (List.mem_map_of_mem (by decide))),
   (Finset.singleton_subset_iff (a := Proc.devRef (τ := τ) .tc main_call24_cst_0)).mpr (List.mem_toFinset.mpr (List.mem_map_of_mem (by decide))),
   (Finset.singleton_subset_iff (a := Proc.devRef (τ := τ) .tc main_call24_v2)).mpr (List.mem_toFinset.mpr (List.mem_map_of_mem (by decide))),
   (Finset.singleton_subset_iff (a := Proc.devRef (τ := τ) .tc main_call24_v3)).mpr (List.mem_toFinset.mpr (List.mem_map_of_mem (by decide))),
   (Finset.singleton_subset_iff (a := Proc.devRef (τ := τ) .tc main_call24_v4)).mpr (List.mem_toFinset.mpr (List.mem_map_of_mem (by decide))),
   (Finset.singleton_subset_iff (a := Proc.devRef (τ := τ) .tc main_call24_v5)).mpr (List.mem_toFinset.mpr (List.mem_map_of_mem (by decide))),
   (Finset.singleton_subset_iff (a := Proc.devRef (τ := τ) .tc main_call24_v6)).mpr (List.mem_toFinset.mpr (List.mem_map_of_mem (by decide))),
   (Finset.singleton_subset_iff (a := Proc.devRef (τ := τ) .tc main_call24_v7)).mpr (List.mem_toFinset.mpr (List.mem_map_of_mem (by decide))),
   (Finset.singleton_subset_iff (a := Proc.devRef (τ := τ) .tc main_call24_cst_1)).mpr (List.mem_toFinset.mpr (List.mem_map_of_mem (by decide))),
   (Finset.singleton_subset_iff (a := Proc.devRef (τ := τ) .tc main_call24_v8)).mpr (List.mem_toFinset.mpr (List.mem_map_of_mem (by decide))),
   (Finset.singleton_subset_iff (a := Proc.devRef (τ := τ) .tc main_call24_cst_2)).mpr (List.mem_toFinset.mpr (List.mem_map_of_mem (by decide))),
   (Finset.singleton_subset_iff (a := Proc.devRef (τ := τ) .tc main_call24_v9)).mpr (List.mem_toFinset.mpr (List.mem_map_of_mem (by decide))),
   (Finset.singleton_subset_iff (a := Proc.devRef (τ := τ) .tc main_call24_v10)).mpr (List.mem_toFinset.mpr (List.mem_map_of_mem (by decide))),
   (Finset.singleton_subset_iff (a := Proc.devRef (τ := τ) .tc main_call24_v11)).mpr (List.mem_toFinset.mpr (List.mem_map_of_mem (by decide))),
   (Finset.singleton_subset_iff (a := Proc.devRef (τ := τ) .tc main_call24_cst_3)).mpr (List.mem_toFinset.mpr (List.mem_map_of_mem (by decide))),
   (Finset.singleton_subset_iff (a := Proc.devRef (τ := τ) .tc main_call24_v12)).mpr (List.mem_toFinset.mpr (List.mem_map_of_mem (by decide))),
   (Finset.singleton_subset_iff (a := Proc.devRef (τ := τ) .tc main_call24_cst_4)).mpr (List.mem_toFinset.mpr (List.mem_map_of_mem (by decide))),
   (Finset.singleton_subset_iff (a := Proc.devRef (τ := τ) .tc main_call24_call0_v0)).mpr (List.mem_toFinset.mpr (List.mem_map_of_mem (by decide))),
   (Finset.singleton_subset_iff (a := Proc.devRef (τ := τ) .tc main_call24_call0_v1)).mpr (List.mem_toFinset.mpr (List.mem_map_of_mem (by decide))),
   (Finset.singleton_subset_iff (a := Proc.devRef (τ := τ) .tc main_v557)).mpr (List.mem_toFinset.mpr (List.mem_map_of_mem (by decide))),
   (Finset.singleton_subset_iff (a := Proc.devRef (τ := τ) .tc main_v558)).mpr (List.mem_toFinset.mpr (List.mem_map_of_mem (by decide))),
   (Finset.singleton_subset_iff (a := Proc.devRef (τ := τ) .tc main_v559)).mpr (List.mem_toFinset.mpr (List.mem_map_of_mem (by decide))),
   (Finset.singleton_subset_iff (a := Proc.devRef (τ := τ) .tc main_v560)).mpr (List.mem_toFinset.mpr (List.mem_map_of_mem (by decide))),
   (Finset.singleton_subset_iff (a := Proc.devRef (τ := τ) .tc main_cst_76)).mpr (List.mem_toFinset.mpr (List.mem_map_of_mem (by decide))),
   (Finset.singleton_subset_iff (a := Proc.devRef (τ := τ) .tc main_v561)).mpr (List.mem_toFinset.mpr (List.mem_map_of_mem (by decide))),
   (Finset.singleton_subset_iff (a := Proc.devRef (τ := τ) .tc main_v562)).mpr (List.mem_toFinset.mpr (List.mem_map_of_mem (by decide))),
   (Finset.singleton_subset_iff (a := Proc.devRef (τ := τ) .tc main_v563)).mpr (List.mem_toFinset.mpr (List.mem_map_of_mem (by decide))),
   (Finset.singleton_subset_iff (a := Proc.devRef (τ := τ) .tc main_v564)).mpr (List.mem_toFinset.mpr (List.mem_map_of_mem (by decide))),
   (Finset.singleton_subset_iff (a := Proc.devRef (τ := τ) .tc main_v565)).mpr (List.mem_toFinset.mpr (List.mem_map_of_mem (by decide))),
   (Finset.singleton_subset_iff (a := Proc.devRef (τ := τ) .tc main_v566)).mpr (List.mem_toFinset.mpr (List.mem_map_of_mem (by decide))),
   (Finset.singleton_subset_iff (a := Proc.devRef (τ := τ) .tc main_v567)).mpr (List.mem_toFinset.mpr (List.mem_map_of_mem (by decide))),
   (Finset.singleton_subset_iff (a := Proc.devRef (τ := τ) .tc main_v568)).mpr (List.mem_toFinset.mpr (List.mem_map_of_mem (by decide))),
   (Finset.singleton_subset_iff (a := Proc.devRef (τ := τ) .tc main_v569)).mpr (List.mem_toFinset.mpr (List.mem_map_of_mem (by decide))),
   (Finset.singleton_subset_iff (a := Proc.devRef (τ := τ) .tc main_v570)).mpr (List.mem_toFinset.mpr (List.mem_map_of_mem (by decide))),
   (Finset.singleton_subset_iff (a := Proc.devRef (τ := τ) .tc main_v571)).mpr (List.mem_toFinset.mpr (List.mem_map_of_mem (by decide))),
   (Finset.singleton_subset_iff (a := Proc.devRef (τ := τ) .tc main_v572)).mpr (List.mem_toFinset.mpr (List.mem_map_of_mem (by decide))),
   (Finset.singleton_subset_iff (a := Proc.devRef (τ := τ) .tc main_call25_cst)).mpr (List.mem_toFinset.mpr (List.mem_map_of_mem (by decide))),
   (Finset.singleton_subset_iff (a := Proc.devRef (τ := τ) .tc main_call25_v0)).mpr (List.mem_toFinset.mpr (List.mem_map_of_mem (by decide))),
   (Finset.singleton_subset_iff (a := Proc.devRef (τ := τ) .tc main_v573)).mpr (List.mem_toFinset.mpr (List.mem_map_of_mem (by decide))),
   (Finset.singleton_subset_iff (a := Proc.devRef (τ := τ) .tc main_v574)).mpr (List.mem_toFinset.mpr (List.mem_map_of_mem (by decide))),
   (Finset.singleton_subset_iff (a := Proc.devRef (τ := τ) .tc main_v575)).mpr (List.mem_toFinset.mpr (List.mem_map_of_mem (by decide))),
   (Finset.singleton_subset_iff (a := Proc.devRef (τ := τ) .tc main_v576)).mpr (List.mem_toFinset.mpr (List.mem_map_of_mem (by decide))),
   (Finset.singleton_subset_iff (a := Proc.devRef (τ := τ) .tc main_v577)).mpr (List.mem_toFinset.mpr (List.mem_map_of_mem (by decide))),
   (Finset.singleton_subset_iff (a := Proc.devRef (τ := τ) .tc main_v578)).mpr (List.mem_toFinset.mpr (List.mem_map_of_mem (by decide)))⟩

/-- A reference these operations do not write keeps its contents through them. -/
theorem sg21_keep (V : Valuation τ sig (Elt F)) (r : Ref sig .tc) (h : r ∉ sg21_W) :
    after sg21 V (Proc.devRef .tc r) = V (Proc.devRef .tc r) :=
  after_of_writes_sub sg21 V sg21_writes h

end Cert.ReferenceIdeal.HandV

end
-- ==== Proof.RV.TopSeg22.lean ====
import proofs.«414290_j6631429505478_3_alg».proof.Proof.Gen.ReferenceIdeal
import Idealize.ShloMosaic.Lib.StableHlo.Run

set_option Elab.async false

noncomputable section

namespace Cert.ReferenceIdeal.HandV

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
set_option maxRecDepth 8192 in
/-- Operations 957 to 1021 of @main, in order (65 of them): from the one writing main_v579 to the one writing main_v616. -/
abbrev sg22 : List (HloOp τ sig (Elt F)) :=
  [ StableHlo.unary main_arg4 main_v579 ((extractStridedSlice S1x1x128x128 ![4, 1, 0, 0] · slices_S6x3x128x128_S1x1x128x128_4_1_0_0) : (⟨S6x3x128x128, .f32⟩ : BufTy).Contents (Elt F) → (⟨S1x1x128x128, .f32⟩ : BufTy).Contents (Elt F)),
    StableHlo.reshape main_v579 main_v580 rfl shapeCasts_S1x1x128x128_S128x128,
    StableHlo.unary main_v580 main_v581 ((transpose S128x128 [1, 0] · transposes_S128x128_S128x128_1_0) : (⟨S128x128, .f32⟩ : BufTy).Contents (Elt F) → (⟨S128x128, .f32⟩ : BufTy).Contents (Elt F)),
    StableHlo.binary main_v141 main_v581 main_v582 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg5 main_v583 ((extractStridedSlice S1x1x128 ![4, 1, 0] · slices_S6x3x128_S1x1x128_4_1_0) : (⟨S6x3x128, .f32⟩ : BufTy).Contents (Elt F) → (⟨S1x1x128, .f32⟩ : BufTy).Contents (Elt F)),
    StableHlo.reshape main_v583 main_v584 rfl shapeCasts_S1x1x128_S128,
    StableHlo.unary main_v584 main_v585 (broadcastInDim S1x128 ![1] bcast_S128_S1x128_1 : (⟨S128, .f32⟩ : BufTy).Contents (Elt F) → (⟨S1x128, .f32⟩ : BufTy).Contents (Elt F)),
    StableHlo.unary main_v585 main_v586 (broadcastInDim S50000x128 ![0, 1] bcast_S1x128_S50000x128_0_1 : (⟨S1x128, .f32⟩ : BufTy).Contents (Elt F) → (⟨S50000x128, .f32⟩ : BufTy).Contents (Elt F)),
    StableHlo.binary main_v582 main_v586 main_v587 (addf : (⟨S50000x128, .f32⟩ : BufTy).Contents (Elt F) → (⟨S50000x128, .f32⟩ : BufTy).Contents (Elt F) → (⟨S50000x128, .f32⟩ : BufTy).Contents (Elt F)),
    StableHlo.unary main_arg6 main_v588 ((extractStridedSlice S1x1x128 ![4, 1, 0] · slices_S6x3x128_S1x1x128_4_1_0) : (⟨S6x3x128, .f32⟩ : BufTy).Contents (Elt F) → (⟨S1x1x128, .f32⟩ : BufTy).Contents (Elt F)),
    StableHlo.reshape main_v588 main_v589 rfl shapeCasts_S1x1x128_S128,
    StableHlo.unary main_arg7 main_v590 ((extractStridedSlice S1x1x128 ![4, 1, 0] · slices_S6x3x128_S1x1x128_4_1_0) : (⟨S6x3x128, .f32⟩ : BufTy).Contents (Elt F) → (⟨S1x1x128, .f32⟩ : BufTy).Contents (Elt F)),
    StableHlo.reshape main_v590 main_v591 rfl shapeCasts_S1x1x128_S128,
    StableHlo.nullary main_cst_77 (constant S_ .f32 0x00000000#32),
    StableHlo.binary main_v587 main_cst_77 main_v592 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_78 (constant S_ .f32 0x47435000#32),
    StableHlo.unary main_cst_78 main_v593 (broadcastInDim S128 ![] bcast_S_S128 : (⟨S_, .f32⟩ : BufTy).Contents (Elt F) → (⟨S128, .f32⟩ : BufTy).Contents (Elt F)),
    StableHlo.binary main_v592 main_v593 main_v594 (Host.divf : (⟨S128, .f32⟩ : BufTy).Contents (Elt F) → (⟨S128, .f32⟩ : BufTy).Contents (Elt F) → (⟨S128, .f32⟩ : BufTy).Contents (Elt F)),
    StableHlo.nullary main_c_79 (constantI S_ 32 0#32),
    StableHlo.TRef.nullary main_call26.cst (constant S_ .f32 0x00000000#32),
    StableHlo.TRef.binary (.of main_v587 : StableHlo.TRef sig ⟨S50000x128, .f32⟩) main_call26.cst main_call26.v0 (fun x v => Host.reduceAdd x v reducesTo_S50000x128_S128_d0 h_S_),
    StableHlo.TRef.unary main_call26.v0 main_call26.v1 (broadcastInDim S1x128 ![1] bcast_S128_S1x128_1),
    StableHlo.TRef.nullary main_call26.cst_0 (constant S_ .f32 0x47435000#32),
    StableHlo.TRef.unary main_call26.cst_0 main_call26.v2 (broadcastInDim S1x128 ![] bcast_S_S1x128),
    StableHlo.TRef.binary main_call26.v1 main_call26.v2 main_call26.v3 Host.divf,
    StableHlo.TRef.unary main_call26.v3 main_call26.v4 (broadcastInDim S50000x128 ![0, 1] bcast_S1x128_S50000x128_0_1),
    StableHlo.TRef.binary (.of main_v587 : StableHlo.TRef sig ⟨S50000x128, .f32⟩) main_call26.v4 main_call26.v5 subf,
    StableHlo.TRef.binary main_call26.v5 main_call26.v5 main_call26.v6 mulf,
    StableHlo.TRef.unary (.of main_c_79 : StableHlo.TRef sig ⟨S_, .i32⟩) main_call26.v7 (sitofp .f32),
    StableHlo.TRef.nullary main_call26.cst_1 (constant S_ .f32 0x47435000#32),
    StableHlo.TRef.binary main_call26.cst_1 main_call26.v7 main_call26.v8 subf,
    StableHlo.TRef.nullary main_call26.cst_2 (constant S_ .f32 0x00000000#32),
    StableHlo.TRef.binary main_call26.v6 main_call26.cst_2 main_call26.v9 (fun x v => Host.reduceAdd x v reducesTo_S50000x128_S128_d0 h_S_),
    StableHlo.TRef.unary main_call26.v8 main_call26.v10 (broadcastInDim S128 ![] bcast_S_S128),
    StableHlo.TRef.binary main_call26.v9 main_call26.v10 main_call26.v11 Host.divf,
    StableHlo.TRef.nullary main_call26.cst_3 (constant S_ .f32 0x00000000#32),
    StableHlo.TRef.binary main_call26.v8 main_call26.cst_3 main_call26.v12 (cmpf .ogt),
    StableHlo.TRef.nullary main_call26.cst_4 (constant S_ .f32 0x7FC00000#32),
    StableHlo.TRef.unary main_call26.cst_4 main_call26.call0.v0 id,
    StableHlo.TRef.unary main_call26.call0.v0 main_call26.call0.v1 (broadcastInDim S128 ![] bcast_S_S128),
    StableHlo.TRef.ternary main_call26.v12 main_call26.v11 main_call26.call0.v1 main_call26.call0.v2 (fun p a b => select (broadcastInDim S128 ![] bcast_S_S128 p) a b),
    StableHlo.unary main_v594 main_v596 (broadcastInDim S1x128 ![1] bcast_S128_S1x128_1 : (⟨S128, .f32⟩ : BufTy).Contents (Elt F) → (⟨S1x128, .f32⟩ : BufTy).Contents (Elt F)),
    StableHlo.unary main_v596 main_v597 (broadcastInDim S50000x128 ![0, 1] bcast_S1x128_S50000x128_0_1 : (⟨S1x128, .f32⟩ : BufTy).Contents (Elt F) → (⟨S50000x128, .f32⟩ : BufTy).Contents (Elt F)),
    StableHlo.binary main_v587 main_v597 main_v598 (subf : (⟨S50000x128, .f32⟩ : BufTy).Contents (Elt F) → (⟨S50000x128, .f32⟩ : BufTy).Contents (Elt F) → (⟨S50000x128, .f32⟩ : BufTy).Contents (Elt F)),
    StableHlo.nullary main_cst_80 (constant S_ .f32 0x3727C5AC#32),
    StableHlo.unary main_cst_80 main_v599 (broadcastInDim S128 ![] bcast_S_S128 : (⟨S_, .f32⟩ : BufTy).Contents (Elt F) → (⟨S128, .f32⟩ : BufTy).Contents (Elt F)),
    StableHlo.binary main_v595 main_v599 main_v600 (addf : (⟨S128, .f32⟩ : BufTy).Contents (Elt F) → (⟨S128, .f32⟩ : BufTy).Contents (Elt F) → (⟨S128, .f32⟩ : BufTy).Contents (Elt F)),
    StableHlo.unary main_v600 main_v601 (Host.rsqrt : (⟨S128, .f32⟩ : BufTy).Contents (Elt F) → (⟨S128, .f32⟩ : BufTy).Contents (Elt F)),
    StableHlo.unary main_v601 main_v602 (broadcastInDim S1x128 ![1] bcast_S128_S1x128_1 : (⟨S128, .f32⟩ : BufTy).Contents (Elt F) → (⟨S1x128, .f32⟩ : BufTy).Contents (Elt F)),
    StableHlo.unary main_v602 main_v603 (broadcastInDim S50000x128 ![0, 1] bcast_S1x128_S50000x128_0_1 : (⟨S1x128, .f32⟩ : BufTy).Contents (Elt F) → (⟨S50000x128, .f32⟩ : BufTy).Contents (Elt F)),
    StableHlo.binary main_v598 main_v603 main_v604 (mulf : (⟨S50000x128, .f32⟩ : BufTy).Contents (Elt F) → (⟨S50000x128, .f32⟩ : BufTy).Contents (Elt F) → (⟨S50000x128, .f32⟩ : BufTy).Contents (Elt F)),
    StableHlo.unary main_v589 main_v605 (broadcastInDim S1x128 ![1] bcast_S128_S1x128_1 : (⟨S128, .f32⟩ : BufTy).Contents (Elt F) → (⟨S1x128, .f32⟩ : BufTy).Contents (Elt F)),
    StableHlo.unary main_v605 main_v606 (broadcastInDim S50000x128 ![0, 1] bcast_S1x128_S50000x128_0_1 : (⟨S1x128, .f32⟩ : BufTy).Contents (Elt F) → (⟨S50000x128, .f32⟩ : BufTy).Contents (Elt F)),
    StableHlo.binary main_v604 main_v606 main_v607 (mulf : (⟨S50000x128, .f32⟩ : BufTy).Contents (Elt F) → (⟨S50000x128, .f32⟩ : BufTy).Contents (Elt F) → (⟨S50000x128, .f32⟩ : BufTy).Contents (Elt F)),
    StableHlo.unary main_v591 main_v608 (broadcastInDim S1x128 ![1] bcast_S128_S1x128_1 : (⟨S128, .f32⟩ : BufTy).Contents (Elt F) → (⟨S1x128, .f32⟩ : BufTy).Contents (Elt F)),
    StableHlo.unary main_v608 main_v609 (broadcastInDim S50000x128 ![0, 1] bcast_S1x128_S50000x128_0_1 : (⟨S1x128, .f32⟩ : BufTy).Contents (Elt F) → (⟨S50000x128, .f32⟩ : BufTy).Contents (Elt F)),
    StableHlo.binary main_v607 main_v609 main_v610 (addf : (⟨S50000x128, .f32⟩ : BufTy).Contents (Elt F) → (⟨S50000x128, .f32⟩ : BufTy).Contents (Elt F) → (⟨S50000x128, .f32⟩ : BufTy).Contents (Elt F)),
    StableHlo.TRef.nullary main_call27.cst (constant S_ .f32 0x00000000#32),
    StableHlo.TRef.unary main_call27.cst main_call27.v0 (broadcastInDim S50000x128 ![] bcast_S_S50000x128),
    StableHlo.TRef.binary (.of main_v610 : StableHlo.TRef sig ⟨S50000x128, .f32⟩) main_call27.v0 main_call27.v1 maximumf,
    StableHlo.unary main_arg3 main_v612 ((extractStridedSlice S1x1 ![4, 1] · slices_S6x3_S1x1_4_1) : (⟨S6x3, .f32⟩ : BufTy).Contents (Elt F) → (⟨S1x1, .f32⟩ : BufTy).Contents (Elt F)),
    StableHlo.reshape main_v612 main_v613 rfl shapeCasts_S1x1_S_,
    StableHlo.unary main_v613 main_v614 (broadcastInDim S50000x128 ![] bcast_S_S50000x128 : (⟨S_, .f32⟩ : BufTy).Contents (Elt F) → (⟨S50000x128, .f32⟩ : BufTy).Contents (Elt F)),
    StableHlo.binary main_v614 main_v611 main_v615 (mulf : (⟨S50000x128, .f32⟩ : BufTy).Contents (Elt F) → (⟨S50000x128, .f32⟩ : BufTy).Contents (Elt F) → (⟨S50000x128, .f32⟩ : BufTy).Contents (Elt F)),
    StableHlo.binary main_v578 main_v615 main_v616 (addf : (⟨S50000x128, .f32⟩ : BufTy).Contents (Elt F) → (⟨S50000x128, .f32⟩ : BufTy).Contents (Elt F) → (⟨S50000x128, .f32⟩ : BufTy).Contents (Elt F)) ]

/-- The references these operations write, in order. -/
abbrev sg22_W : List (Ref sig .tc) :=
  [main_v579, main_v580, main_v581, main_v582, main_v583, main_v584, main_v585, main_v586, main_v587, main_v588, main_v589, main_v590, main_v591, main_cst_77, main_v592, main_cst_78, main_v593, main_v594, main_c_79, main_call26_cst, main_call26_v0, main_call26_v1, main_call26_cst_0, main_call26_v2, main_call26_v3, main_call26_v4, main_call26_v5, main_call26_v6, main_call26_v7, main_call26_cst_1, main_call26_v8, main_call26_cst_2, main_call26_v9, main_call26_v10, main_call26_v11, main_call26_cst_3, main_call26_v12, main_call26_cst_4, main_call26_call0_v0, main_call26_call0_v1, main_v595, main_v596, main_v597, main_v598, main_cst_80, main_v599, main_v600, main_v601, main_v602, main_v603, main_v604, main_v605, main_v606, main_v607, main_v608, main_v609, main_v610, main_call27_cst, main_call27_v0, main_v611, main_v612, main_v613, main_v614, main_v615, main_v616]

set_option maxHeartbeats 40000000 in
set_option maxRecDepth 8192 in
/-- Each operation writes its own result reference, the one listed at its place. -/
theorem sg22_writes : (sg22 : List (HloOp τ sig (Elt F))).Forall fun op => op.writes ⊆ (sg22_W.map (Proc.devRef (τ := τ) .tc)).toFinset :=
  ⟨(Finset.singleton_subset_iff (a := Proc.devRef (τ := τ) .tc main_v579)).mpr (List.mem_toFinset.mpr (List.mem_map_of_mem (by decide))),
   (Finset.singleton_subset_iff (a := Proc.devRef (τ := τ) .tc main_v580)).mpr (List.mem_toFinset.mpr (List.mem_map_of_mem (by decide))),
   (Finset.singleton_subset_iff (a := Proc.devRef (τ := τ) .tc main_v581)).mpr (List.mem_toFinset.mpr (List.mem_map_of_mem (by decide))),
   (Finset.singleton_subset_iff (a := Proc.devRef (τ := τ) .tc main_v582)).mpr (List.mem_toFinset.mpr (List.mem_map_of_mem (by decide))),
   (Finset.singleton_subset_iff (a := Proc.devRef (τ := τ) .tc main_v583)).mpr (List.mem_toFinset.mpr (List.mem_map_of_mem (by decide))),
   (Finset.singleton_subset_iff (a := Proc.devRef (τ := τ) .tc main_v584)).mpr (List.mem_toFinset.mpr (List.mem_map_of_mem (by decide))),
   (Finset.singleton_subset_iff (a := Proc.devRef (τ := τ) .tc main_v585)).mpr (List.mem_toFinset.mpr (List.mem_map_of_mem (by decide))),
   (Finset.singleton_subset_iff (a := Proc.devRef (τ := τ) .tc main_v586)).mpr (List.mem_toFinset.mpr (List.mem_map_of_mem (by decide))),
   (Finset.singleton_subset_iff (a := Proc.devRef (τ := τ) .tc main_v587)).mpr (List.mem_toFinset.mpr (List.mem_map_of_mem (by decide))),
   (Finset.singleton_subset_iff (a := Proc.devRef (τ := τ) .tc main_v588)).mpr (List.mem_toFinset.mpr (List.mem_map_of_mem (by decide))),
   (Finset.singleton_subset_iff (a := Proc.devRef (τ := τ) .tc main_v589)).mpr (List.mem_toFinset.mpr (List.mem_map_of_mem (by decide))),
   (Finset.singleton_subset_iff (a := Proc.devRef (τ := τ) .tc main_v590)).mpr (List.mem_toFinset.mpr (List.mem_map_of_mem (by decide))),
   (Finset.singleton_subset_iff (a := Proc.devRef (τ := τ) .tc main_v591)).mpr (List.mem_toFinset.mpr (List.mem_map_of_mem (by decide))),
   (Finset.singleton_subset_iff (a := Proc.devRef (τ := τ) .tc main_cst_77)).mpr (List.mem_toFinset.mpr (List.mem_map_of_mem (by decide))),
   (Finset.singleton_subset_iff (a := Proc.devRef (τ := τ) .tc main_v592)).mpr (List.mem_toFinset.mpr (List.mem_map_of_mem (by decide))),
   (Finset.singleton_subset_iff (a := Proc.devRef (τ := τ) .tc main_cst_78)).mpr (List.mem_toFinset.mpr (List.mem_map_of_mem (by decide))),
   (Finset.singleton_subset_iff (a := Proc.devRef (τ := τ) .tc main_v593)).mpr (List.mem_toFinset.mpr (List.mem_map_of_mem (by decide))),
   (Finset.singleton_subset_iff (a := Proc.devRef (τ := τ) .tc main_v594)).mpr (List.mem_toFinset.mpr (List.mem_map_of_mem (by decide))),
   (Finset.singleton_subset_iff (a := Proc.devRef (τ := τ) .tc main_c_79)).mpr (List.mem_toFinset.mpr (List.mem_map_of_mem (by decide))),
   (Finset.singleton_subset_iff (a := Proc.devRef (τ := τ) .tc main_call26_cst)).mpr (List.mem_toFinset.mpr (List.mem_map_of_mem (by decide))),
   (Finset.singleton_subset_iff (a := Proc.devRef (τ := τ) .tc main_call26_v0)).mpr (List.mem_toFinset.mpr (List.mem_map_of_mem (by decide))),
   (Finset.singleton_subset_iff (a := Proc.devRef (τ := τ) .tc main_call26_v1)).mpr (List.mem_toFinset.mpr (List.mem_map_of_mem (by decide))),
   (Finset.singleton_subset_iff (a := Proc.devRef (τ := τ) .tc main_call26_cst_0)).mpr (List.mem_toFinset.mpr (List.mem_map_of_mem (by decide))),
   (Finset.singleton_subset_iff (a := Proc.devRef (τ := τ) .tc main_call26_v2)).mpr (List.mem_toFinset.mpr (List.mem_map_of_mem (by decide))),
   (Finset.singleton_subset_iff (a := Proc.devRef (τ := τ) .tc main_call26_v3)).mpr (List.mem_toFinset.mpr (List.mem_map_of_mem (by decide))),
   (Finset.singleton_subset_iff (a := Proc.devRef (τ := τ) .tc main_call26_v4)).mpr (List.mem_toFinset.mpr (List.mem_map_of_mem (by decide))),
   (Finset.singleton_subset_iff (a := Proc.devRef (τ := τ) .tc main_call26_v5)).mpr (List.mem_toFinset.mpr (List.mem_map_of_mem (by decide))),
   (Finset.singleton_subset_iff (a := Proc.devRef (τ := τ) .tc main_call26_v6)).mpr (List.mem_toFinset.mpr (List.mem_map_of_mem (by decide))),
   (Finset.singleton_subset_iff (a := Proc.devRef (τ := τ) .tc main_call26_v7)).mpr (List.mem_toFinset.mpr (List.mem_map_of_mem (by decide))),
   (Finset.singleton_subset_iff (a := Proc.devRef (τ := τ) .tc main_call26_cst_1)).mpr (List.mem_toFinset.mpr (List.mem_map_of_mem (by decide))),
   (Finset.singleton_subset_iff (a := Proc.devRef (τ := τ) .tc main_call26_v8)).mpr (List.mem_toFinset.mpr (List.mem_map_of_mem (by decide))),
   (Finset.singleton_subset_iff (a := Proc.devRef (τ := τ) .tc main_call26_cst_2)).mpr (List.mem_toFinset.mpr (List.mem_map_of_mem (by decide))),
   (Finset.singleton_subset_iff (a := Proc.devRef (τ := τ) .tc main_call26_v9)).mpr (List.mem_toFinset.mpr (List.mem_map_of_mem (by decide))),
   (Finset.singleton_subset_iff (a := Proc.devRef (τ := τ) .tc main_call26_v10)).mpr (List.mem_toFinset.mpr (List.mem_map_of_mem (by decide))),
   (Finset.singleton_subset_iff (a := Proc.devRef (τ := τ) .tc main_call26_v11)).mpr (List.mem_toFinset.mpr (List.mem_map_of_mem (by decide))),
   (Finset.singleton_subset_iff (a := Proc.devRef (τ := τ) .tc main_call26_cst_3)).mpr (List.mem_toFinset.mpr (List.mem_map_of_mem (by decide))),
   (Finset.singleton_subset_iff (a := Proc.devRef (τ := τ) .tc main_call26_v12)).mpr (List.mem_toFinset.mpr (List.mem_map_of_mem (by decide))),
   (Finset.singleton_subset_iff (a := Proc.devRef (τ := τ) .tc main_call26_cst_4)).mpr (List.mem_toFinset.mpr (List.mem_map_of_mem (by decide))),
   (Finset.singleton_subset_iff (a := Proc.devRef (τ := τ) .tc main_call26_call0_v0)).mpr (List.mem_toFinset.mpr (List.mem_map_of_mem (by decide))),
   (Finset.singleton_subset_iff (a := Proc.devRef (τ := τ) .tc main_call26_call0_v1)).mpr (List.mem_toFinset.mpr (List.mem_map_of_mem (by decide))),
   (Finset.singleton_subset_iff (a := Proc.devRef (τ := τ) .tc main_v595)).mpr (List.mem_toFinset.mpr (List.mem_map_of_mem (by decide))),
   (Finset.singleton_subset_iff (a := Proc.devRef (τ := τ) .tc main_v596)).mpr (List.mem_toFinset.mpr (List.mem_map_of_mem (by decide))),
   (Finset.singleton_subset_iff (a := Proc.devRef (τ := τ) .tc main_v597)).mpr (List.mem_toFinset.mpr (List.mem_map_of_mem (by decide))),
   (Finset.singleton_subset_iff (a := Proc.devRef (τ := τ) .tc main_v598)).mpr (List.mem_toFinset.mpr (List.mem_map_of_mem (by decide))),
   (Finset.singleton_subset_iff (a := Proc.devRef (τ := τ) .tc main_cst_80)).mpr (List.mem_toFinset.mpr (List.mem_map_of_mem (by decide))),
   (Finset.singleton_subset_iff (a := Proc.devRef (τ := τ) .tc main_v599)).mpr (List.mem_toFinset.mpr (List.mem_map_of_mem (by decide))),
   (Finset.singleton_subset_iff (a := Proc.devRef (τ := τ) .tc main_v600)).mpr (List.mem_toFinset.mpr (List.mem_map_of_mem (by decide))),
   (Finset.singleton_subset_iff (a := Proc.devRef (τ := τ) .tc main_v601)).mpr (List.mem_toFinset.mpr (List.mem_map_of_mem (by decide))),
   (Finset.singleton_subset_iff (a := Proc.devRef (τ := τ) .tc main_v602)).mpr (List.mem_toFinset.mpr (List.mem_map_of_mem (by decide))),
   (Finset.singleton_subset_iff (a := Proc.devRef (τ := τ) .tc main_v603)).mpr (List.mem_toFinset.mpr (List.mem_map_of_mem (by decide))),
   (Finset.singleton_subset_iff (a := Proc.devRef (τ := τ) .tc main_v604)).mpr (List.mem_toFinset.mpr (List.mem_map_of_mem (by decide))),
   (Finset.singleton_subset_iff (a := Proc.devRef (τ := τ) .tc main_v605)).mpr (List.mem_toFinset.mpr (List.mem_map_of_mem (by decide))),
   (Finset.singleton_subset_iff (a := Proc.devRef (τ := τ) .tc main_v606)).mpr (List.mem_toFinset.mpr (List.mem_map_of_mem (by decide))),
   (Finset.singleton_subset_iff (a := Proc.devRef (τ := τ) .tc main_v607)).mpr (List.mem_toFinset.mpr (List.mem_map_of_mem (by decide))),
   (Finset.singleton_subset_iff (a := Proc.devRef (τ := τ) .tc main_v608)).mpr (List.mem_toFinset.mpr (List.mem_map_of_mem (by decide))),
   (Finset.singleton_subset_iff (a := Proc.devRef (τ := τ) .tc main_v609)).mpr (List.mem_toFinset.mpr (List.mem_map_of_mem (by decide))),
   (Finset.singleton_subset_iff (a := Proc.devRef (τ := τ) .tc main_v610)).mpr (List.mem_toFinset.mpr (List.mem_map_of_mem (by decide))),
   (Finset.singleton_subset_iff (a := Proc.devRef (τ := τ) .tc main_call27_cst)).mpr (List.mem_toFinset.mpr (List.mem_map_of_mem (by decide))),
   (Finset.singleton_subset_iff (a := Proc.devRef (τ := τ) .tc main_call27_v0)).mpr (List.mem_toFinset.mpr (List.mem_map_of_mem (by decide))),
   (Finset.singleton_subset_iff (a := Proc.devRef (τ := τ) .tc main_v611)).mpr (List.mem_toFinset.mpr (List.mem_map_of_mem (by decide))),
   (Finset.singleton_subset_iff (a := Proc.devRef (τ := τ) .tc main_v612)).mpr (List.mem_toFinset.mpr (List.mem_map_of_mem (by decide))),
   (Finset.singleton_subset_iff (a := Proc.devRef (τ := τ) .tc main_v613)).mpr (List.mem_toFinset.mpr (List.mem_map_of_mem (by decide))),
   (Finset.singleton_subset_iff (a := Proc.devRef (τ := τ) .tc main_v614)).mpr (List.mem_toFinset.mpr (List.mem_map_of_mem (by decide))),
   (Finset.singleton_subset_iff (a := Proc.devRef (τ := τ) .tc main_v615)).mpr (List.mem_toFinset.mpr (List.mem_map_of_mem (by decide))),
   (Finset.singleton_subset_iff (a := Proc.devRef (τ := τ) .tc main_v616)).mpr (List.mem_toFinset.mpr (List.mem_map_of_mem (by decide)))⟩

/-- A reference these operations do not write keeps its contents through them. -/
theorem sg22_keep (V : Valuation τ sig (Elt F)) (r : Ref sig .tc) (h : r ∉ sg22_W) :
    after sg22 V (Proc.devRef .tc r) = V (Proc.devRef .tc r) :=
  after_of_writes_sub sg22 V sg22_writes h

end Cert.ReferenceIdeal.HandV

end
-- ==== Proof.RV.TopSeg23.lean ====
import proofs.«414290_j6631429505478_3_alg».proof.Proof.Gen.ReferenceIdeal
import Idealize.ShloMosaic.Lib.StableHlo.Run

set_option Elab.async false

noncomputable section

namespace Cert.ReferenceIdeal.HandV

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
set_option maxRecDepth 8192 in
/-- Operations 1022 to 1086 of @main, in order (65 of them): from the one writing main_v617 to the one writing main_v654. -/
abbrev sg23 : List (HloOp τ sig (Elt F)) :=
  [ StableHlo.unary main_arg4 main_v617 ((extractStridedSlice S1x1x128x128 ![4, 2, 0, 0] · slices_S6x3x128x128_S1x1x128x128_4_2_0_0) : (⟨S6x3x128x128, .f32⟩ : BufTy).Contents (Elt F) → (⟨S1x1x128x128, .f32⟩ : BufTy).Contents (Elt F)),
    StableHlo.reshape main_v617 main_v618 rfl shapeCasts_S1x1x128x128_S128x128,
    StableHlo.unary main_v618 main_v619 ((transpose S128x128 [1, 0] · transposes_S128x128_S128x128_1_0) : (⟨S128x128, .f32⟩ : BufTy).Contents (Elt F) → (⟨S128x128, .f32⟩ : BufTy).Contents (Elt F)),
    StableHlo.binary main_arg2 main_v619 main_v620 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg5 main_v621 ((extractStridedSlice S1x1x128 ![4, 2, 0] · slices_S6x3x128_S1x1x128_4_2_0) : (⟨S6x3x128, .f32⟩ : BufTy).Contents (Elt F) → (⟨S1x1x128, .f32⟩ : BufTy).Contents (Elt F)),
    StableHlo.reshape main_v621 main_v622 rfl shapeCasts_S1x1x128_S128,
    StableHlo.unary main_v622 main_v623 (broadcastInDim S1x128 ![1] bcast_S128_S1x128_1 : (⟨S128, .f32⟩ : BufTy).Contents (Elt F) → (⟨S1x128, .f32⟩ : BufTy).Contents (Elt F)),
    StableHlo.unary main_v623 main_v624 (broadcastInDim S50000x128 ![0, 1] bcast_S1x128_S50000x128_0_1 : (⟨S1x128, .f32⟩ : BufTy).Contents (Elt F) → (⟨S50000x128, .f32⟩ : BufTy).Contents (Elt F)),
    StableHlo.binary main_v620 main_v624 main_v625 (addf : (⟨S50000x128, .f32⟩ : BufTy).Contents (Elt F) → (⟨S50000x128, .f32⟩ : BufTy).Contents (Elt F) → (⟨S50000x128, .f32⟩ : BufTy).Contents (Elt F)),
    StableHlo.unary main_arg6 main_v626 ((extractStridedSlice S1x1x128 ![4, 2, 0] · slices_S6x3x128_S1x1x128_4_2_0) : (⟨S6x3x128, .f32⟩ : BufTy).Contents (Elt F) → (⟨S1x1x128, .f32⟩ : BufTy).Contents (Elt F)),
    StableHlo.reshape main_v626 main_v627 rfl shapeCasts_S1x1x128_S128,
    StableHlo.unary main_arg7 main_v628 ((extractStridedSlice S1x1x128 ![4, 2, 0] · slices_S6x3x128_S1x1x128_4_2_0) : (⟨S6x3x128, .f32⟩ : BufTy).Contents (Elt F) → (⟨S1x1x128, .f32⟩ : BufTy).Contents (Elt F)),
    StableHlo.reshape main_v628 main_v629 rfl shapeCasts_S1x1x128_S128,
    StableHlo.nullary main_cst_81 (constant S_ .f32 0x00000000#32),
    StableHlo.binary main_v625 main_cst_81 main_v630 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_82 (constant S_ .f32 0x47435000#32),
    StableHlo.unary main_cst_82 main_v631 (broadcastInDim S128 ![] bcast_S_S128 : (⟨S_, .f32⟩ : BufTy).Contents (Elt F) → (⟨S128, .f32⟩ : BufTy).Contents (Elt F)),
    StableHlo.binary main_v630 main_v631 main_v632 (Host.divf : (⟨S128, .f32⟩ : BufTy).Contents (Elt F) → (⟨S128, .f32⟩ : BufTy).Contents (Elt F) → (⟨S128, .f32⟩ : BufTy).Contents (Elt F)),
    StableHlo.nullary main_c_83 (constantI S_ 32 0#32),
    StableHlo.TRef.nullary main_call28.cst (constant S_ .f32 0x00000000#32),
    StableHlo.TRef.binary (.of main_v625 : StableHlo.TRef sig ⟨S50000x128, .f32⟩) main_call28.cst main_call28.v0 (fun x v => Host.reduceAdd x v reducesTo_S50000x128_S128_d0 h_S_),
    StableHlo.TRef.unary main_call28.v0 main_call28.v1 (broadcastInDim S1x128 ![1] bcast_S128_S1x128_1),
    StableHlo.TRef.nullary main_call28.cst_0 (constant S_ .f32 0x47435000#32),
    StableHlo.TRef.unary main_call28.cst_0 main_call28.v2 (broadcastInDim S1x128 ![] bcast_S_S1x128),
    StableHlo.TRef.binary main_call28.v1 main_call28.v2 main_call28.v3 Host.divf,
    StableHlo.TRef.unary main_call28.v3 main_call28.v4 (broadcastInDim S50000x128 ![0, 1] bcast_S1x128_S50000x128_0_1),
    StableHlo.TRef.binary (.of main_v625 : StableHlo.TRef sig ⟨S50000x128, .f32⟩) main_call28.v4 main_call28.v5 subf,
    StableHlo.TRef.binary main_call28.v5 main_call28.v5 main_call28.v6 mulf,
    StableHlo.TRef.unary (.of main_c_83 : StableHlo.TRef sig ⟨S_, .i32⟩) main_call28.v7 (sitofp .f32),
    StableHlo.TRef.nullary main_call28.cst_1 (constant S_ .f32 0x47435000#32),
    StableHlo.TRef.binary main_call28.cst_1 main_call28.v7 main_call28.v8 subf,
    StableHlo.TRef.nullary main_call28.cst_2 (constant S_ .f32 0x00000000#32),
    StableHlo.TRef.binary main_call28.v6 main_call28.cst_2 main_call28.v9 (fun x v => Host.reduceAdd x v reducesTo_S50000x128_S128_d0 h_S_),
    StableHlo.TRef.unary main_call28.v8 main_call28.v10 (broadcastInDim S128 ![] bcast_S_S128),
    StableHlo.TRef.binary main_call28.v9 main_call28.v10 main_call28.v11 Host.divf,
    StableHlo.TRef.nullary main_call28.cst_3 (constant S_ .f32 0x00000000#32),
    StableHlo.TRef.binary main_call28.v8 main_call28.cst_3 main_call28.v12 (cmpf .ogt),
    StableHlo.TRef.nullary main_call28.cst_4 (constant S_ .f32 0x7FC00000#32),
    StableHlo.TRef.unary main_call28.cst_4 main_call28.call0.v0 id,
    StableHlo.TRef.unary main_call28.call0.v0 main_call28.call0.v1 (broadcastInDim S128 ![] bcast_S_S128),
    StableHlo.TRef.ternary main_call28.v12 main_call28.v11 main_call28.call0.v1 main_call28.call0.v2 (fun p a b => select (broadcastInDim S128 ![] bcast_S_S128 p) a b),
    StableHlo.unary main_v632 main_v634 (broadcastInDim S1x128 ![1] bcast_S128_S1x128_1 : (⟨S128, .f32⟩ : BufTy).Contents (Elt F) → (⟨S1x128, .f32⟩ : BufTy).Contents (Elt F)),
    StableHlo.unary main_v634 main_v635 (broadcastInDim S50000x128 ![0, 1] bcast_S1x128_S50000x128_0_1 : (⟨S1x128, .f32⟩ : BufTy).Contents (Elt F) → (⟨S50000x128, .f32⟩ : BufTy).Contents (Elt F)),
    StableHlo.binary main_v625 main_v635 main_v636 (subf : (⟨S50000x128, .f32⟩ : BufTy).Contents (Elt F) → (⟨S50000x128, .f32⟩ : BufTy).Contents (Elt F) → (⟨S50000x128, .f32⟩ : BufTy).Contents (Elt F)),
    StableHlo.nullary main_cst_84 (constant S_ .f32 0x3727C5AC#32),
    StableHlo.unary main_cst_84 main_v637 (broadcastInDim S128 ![] bcast_S_S128 : (⟨S_, .f32⟩ : BufTy).Contents (Elt F) → (⟨S128, .f32⟩ : BufTy).Contents (Elt F)),
    StableHlo.binary main_v633 main_v637 main_v638 (addf : (⟨S128, .f32⟩ : BufTy).Contents (Elt F) → (⟨S128, .f32⟩ : BufTy).Contents (Elt F) → (⟨S128, .f32⟩ : BufTy).Contents (Elt F)),
    StableHlo.unary main_v638 main_v639 (Host.rsqrt : (⟨S128, .f32⟩ : BufTy).Contents (Elt F) → (⟨S128, .f32⟩ : BufTy).Contents (Elt F)),
    StableHlo.unary main_v639 main_v640 (broadcastInDim S1x128 ![1] bcast_S128_S1x128_1 : (⟨S128, .f32⟩ : BufTy).Contents (Elt F) → (⟨S1x128, .f32⟩ : BufTy).Contents (Elt F)),
    StableHlo.unary main_v640 main_v641 (broadcastInDim S50000x128 ![0, 1] bcast_S1x128_S50000x128_0_1 : (⟨S1x128, .f32⟩ : BufTy).Contents (Elt F) → (⟨S50000x128, .f32⟩ : BufTy).Contents (Elt F)),
    StableHlo.binary main_v636 main_v641 main_v642 (mulf : (⟨S50000x128, .f32⟩ : BufTy).Contents (Elt F) → (⟨S50000x128, .f32⟩ : BufTy).Contents (Elt F) → (⟨S50000x128, .f32⟩ : BufTy).Contents (Elt F)),
    StableHlo.unary main_v627 main_v643 (broadcastInDim S1x128 ![1] bcast_S128_S1x128_1 : (⟨S128, .f32⟩ : BufTy).Contents (Elt F) → (⟨S1x128, .f32⟩ : BufTy).Contents (Elt F)),
    StableHlo.unary main_v643 main_v644 (broadcastInDim S50000x128 ![0, 1] bcast_S1x128_S50000x128_0_1 : (⟨S1x128, .f32⟩ : BufTy).Contents (Elt F) → (⟨S50000x128, .f32⟩ : BufTy).Contents (Elt F)),
    StableHlo.binary main_v642 main_v644 main_v645 (mulf : (⟨S50000x128, .f32⟩ : BufTy).Contents (Elt F) → (⟨S50000x128, .f32⟩ : BufTy).Contents (Elt F) → (⟨S50000x128, .f32⟩ : BufTy).Contents (Elt F)),
    StableHlo.unary main_v629 main_v646 (broadcastInDim S1x128 ![1] bcast_S128_S1x128_1 : (⟨S128, .f32⟩ : BufTy).Contents (Elt F) → (⟨S1x128, .f32⟩ : BufTy).Contents (Elt F)),
    StableHlo.unary main_v646 main_v647 (broadcastInDim S50000x128 ![0, 1] bcast_S1x128_S50000x128_0_1 : (⟨S1x128, .f32⟩ : BufTy).Contents (Elt F) → (⟨S50000x128, .f32⟩ : BufTy).Contents (Elt F)),
    StableHlo.binary main_v645 main_v647 main_v648 (addf : (⟨S50000x128, .f32⟩ : BufTy).Contents (Elt F) → (⟨S50000x128, .f32⟩ : BufTy).Contents (Elt F) → (⟨S50000x128, .f32⟩ : BufTy).Contents (Elt F)),
    StableHlo.TRef.nullary main_call29.cst (constant S_ .f32 0x00000000#32),
    StableHlo.TRef.unary main_call29.cst main_call29.v0 (broadcastInDim S50000x128 ![] bcast_S_S50000x128),
    StableHlo.TRef.binary (.of main_v648 : StableHlo.TRef sig ⟨S50000x128, .f32⟩) main_call29.v0 main_call29.v1 maximumf,
    StableHlo.unary main_arg3 main_v650 ((extractStridedSlice S1x1 ![4, 2] · slices_S6x3_S1x1_4_2) : (⟨S6x3, .f32⟩ : BufTy).Contents (Elt F) → (⟨S1x1, .f32⟩ : BufTy).Contents (Elt F)),
    StableHlo.reshape main_v650 main_v651 rfl shapeCasts_S1x1_S_,
    StableHlo.unary main_v651 main_v652 (broadcastInDim S50000x128 ![] bcast_S_S50000x128 : (⟨S_, .f32⟩ : BufTy).Contents (Elt F) → (⟨S50000x128, .f32⟩ : BufTy).Contents (Elt F)),
    StableHlo.binary main_v652 main_v649 main_v653 (mulf : (⟨S50000x128, .f32⟩ : BufTy).Contents (Elt F) → (⟨S50000x128, .f32⟩ : BufTy).Contents (Elt F) → (⟨S50000x128, .f32⟩ : BufTy).Contents (Elt F)),
    StableHlo.binary main_v616 main_v653 main_v654 (addf : (⟨S50000x128, .f32⟩ : BufTy).Contents (Elt F) → (⟨S50000x128, .f32⟩ : BufTy).Contents (Elt F) → (⟨S50000x128, .f32⟩ : BufTy).Contents (Elt F)) ]

/-- The references these operations write, in order. -/
abbrev sg23_W : List (Ref sig .tc) :=
  [main_v617, main_v618, main_v619, main_v620, main_v621, main_v622, main_v623, main_v624, main_v625, main_v626, main_v627, main_v628, main_v629, main_cst_81, main_v630, main_cst_82, main_v631, main_v632, main_c_83, main_call28_cst, main_call28_v0, main_call28_v1, main_call28_cst_0, main_call28_v2, main_call28_v3, main_call28_v4, main_call28_v5, main_call28_v6, main_call28_v7, main_call28_cst_1, main_call28_v8, main_call28_cst_2, main_call28_v9, main_call28_v10, main_call28_v11, main_call28_cst_3, main_call28_v12, main_call28_cst_4, main_call28_call0_v0, main_call28_call0_v1, main_v633, main_v634, main_v635, main_v636, main_cst_84, main_v637, main_v638, main_v639, main_v640, main_v641, main_v642, main_v643, main_v644, main_v645, main_v646, main_v647, main_v648, main_call29_cst, main_call29_v0, main_v649, main_v650, main_v651, main_v652, main_v653, main_v654]

set_option maxHeartbeats 40000000 in
set_option maxRecDepth 8192 in
/-- Each operation writes its own result reference, the one listed at its place. -/
theorem sg23_writes : (sg23 : List (HloOp τ sig (Elt F))).Forall fun op => op.writes ⊆ (sg23_W.map (Proc.devRef (τ := τ) .tc)).toFinset :=
  ⟨(Finset.singleton_subset_iff (a := Proc.devRef (τ := τ) .tc main_v617)).mpr (List.mem_toFinset.mpr (List.mem_map_of_mem (by decide))),
   (Finset.singleton_subset_iff (a := Proc.devRef (τ := τ) .tc main_v618)).mpr (List.mem_toFinset.mpr (List.mem_map_of_mem (by decide))),
   (Finset.singleton_subset_iff (a := Proc.devRef (τ := τ) .tc main_v619)).mpr (List.mem_toFinset.mpr (List.mem_map_of_mem (by decide))),
   (Finset.singleton_subset_iff (a := Proc.devRef (τ := τ) .tc main_v620)).mpr (List.mem_toFinset.mpr (List.mem_map_of_mem (by decide))),
   (Finset.singleton_subset_iff (a := Proc.devRef (τ := τ) .tc main_v621)).mpr (List.mem_toFinset.mpr (List.mem_map_of_mem (by decide))),
   (Finset.singleton_subset_iff (a := Proc.devRef (τ := τ) .tc main_v622)).mpr (List.mem_toFinset.mpr (List.mem_map_of_mem (by decide))),
   (Finset.singleton_subset_iff (a := Proc.devRef (τ := τ) .tc main_v623)).mpr (List.mem_toFinset.mpr (List.mem_map_of_mem (by decide))),
   (Finset.singleton_subset_iff (a := Proc.devRef (τ := τ) .tc main_v624)).mpr (List.mem_toFinset.mpr (List.mem_map_of_mem (by decide))),
   (Finset.singleton_subset_iff (a := Proc.devRef (τ := τ) .tc main_v625)).mpr (List.mem_toFinset.mpr (List.mem_map_of_mem (by decide))),
   (Finset.singleton_subset_iff (a := Proc.devRef (τ := τ) .tc main_v626)).mpr (List.mem_toFinset.mpr (List.mem_map_of_mem (by decide))),
   (Finset.singleton_subset_iff (a := Proc.devRef (τ := τ) .tc main_v627)).mpr (List.mem_toFinset.mpr (List.mem_map_of_mem (by decide))),
   (Finset.singleton_subset_iff (a := Proc.devRef (τ := τ) .tc main_v628)).mpr (List.mem_toFinset.mpr (List.mem_map_of_mem (by decide))),
   (Finset.singleton_subset_iff (a := Proc.devRef (τ := τ) .tc main_v629)).mpr (List.mem_toFinset.mpr (List.mem_map_of_mem (by decide))),
   (Finset.singleton_subset_iff (a := Proc.devRef (τ := τ) .tc main_cst_81)).mpr (List.mem_toFinset.mpr (List.mem_map_of_mem (by decide))),
   (Finset.singleton_subset_iff (a := Proc.devRef (τ := τ) .tc main_v630)).mpr (List.mem_toFinset.mpr (List.mem_map_of_mem (by decide))),
   (Finset.singleton_subset_iff (a := Proc.devRef (τ := τ) .tc main_cst_82)).mpr (List.mem_toFinset.mpr (List.mem_map_of_mem (by decide))),
   (Finset.singleton_subset_iff (a := Proc.devRef (τ := τ) .tc main_v631)).mpr (List.mem_toFinset.mpr (List.mem_map_of_mem (by decide))),
   (Finset.singleton_subset_iff (a := Proc.devRef (τ := τ) .tc main_v632)).mpr (List.mem_toFinset.mpr (List.mem_map_of_mem (by decide))),
   (Finset.singleton_subset_iff (a := Proc.devRef (τ := τ) .tc main_c_83)).mpr (List.mem_toFinset.mpr (List.mem_map_of_mem (by decide))),
   (Finset.singleton_subset_iff (a := Proc.devRef (τ := τ) .tc main_call28_cst)).mpr (List.mem_toFinset.mpr (List.mem_map_of_mem (by decide))),
   (Finset.singleton_subset_iff (a := Proc.devRef (τ := τ) .tc main_call28_v0)).mpr (List.mem_toFinset.mpr (List.mem_map_of_mem (by decide))),
   (Finset.singleton_subset_iff (a := Proc.devRef (τ := τ) .tc main_call28_v1)).mpr (List.mem_toFinset.mpr (List.mem_map_of_mem (by decide))),
   (Finset.singleton_subset_iff (a := Proc.devRef (τ := τ) .tc main_call28_cst_0)).mpr (List.mem_toFinset.mpr (List.mem_map_of_mem (by decide))),
   (Finset.singleton_subset_iff (a := Proc.devRef (τ := τ) .tc main_call28_v2)).mpr (List.mem_toFinset.mpr (List.mem_map_of_mem (by decide))),
   (Finset.singleton_subset_iff (a := Proc.devRef (τ := τ) .tc main_call28_v3)).mpr (List.mem_toFinset.mpr (List.mem_map_of_mem (by decide))),
   (Finset.singleton_subset_iff (a := Proc.devRef (τ := τ) .tc main_call28_v4)).mpr (List.mem_toFinset.mpr (List.mem_map_of_mem (by decide))),
   (Finset.singleton_subset_iff (a := Proc.devRef (τ := τ) .tc main_call28_v5)).mpr (List.mem_toFinset.mpr (List.mem_map_of_mem (by decide))),
   (Finset.singleton_subset_iff (a := Proc.devRef (τ := τ) .tc main_call28_v6)).mpr (List.mem_toFinset.mpr (List.mem_map_of_mem (by decide))),
   (Finset.singleton_subset_iff (a := Proc.devRef (τ := τ) .tc main_call28_v7)).mpr (List.mem_toFinset.mpr (List.mem_map_of_mem (by decide))),
   (Finset.singleton_subset_iff (a := Proc.devRef (τ := τ) .tc main_call28_cst_1)).mpr (List.mem_toFinset.mpr (List.mem_map_of_mem (by decide))),
   (Finset.singleton_subset_iff (a := Proc.devRef (τ := τ) .tc main_call28_v8)).mpr (List.mem_toFinset.mpr (List.mem_map_of_mem (by decide))),
   (Finset.singleton_subset_iff (a := Proc.devRef (τ := τ) .tc main_call28_cst_2)).mpr (List.mem_toFinset.mpr (List.mem_map_of_mem (by decide))),
   (Finset.singleton_subset_iff (a := Proc.devRef (τ := τ) .tc main_call28_v9)).mpr (List.mem_toFinset.mpr (List.mem_map_of_mem (by decide))),
   (Finset.singleton_subset_iff (a := Proc.devRef (τ := τ) .tc main_call28_v10)).mpr (List.mem_toFinset.mpr (List.mem_map_of_mem (by decide))),
   (Finset.singleton_subset_iff (a := Proc.devRef (τ := τ) .tc main_call28_v11)).mpr (List.mem_toFinset.mpr (List.mem_map_of_mem (by decide))),
   (Finset.singleton_subset_iff (a := Proc.devRef (τ := τ) .tc main_call28_cst_3)).mpr (List.mem_toFinset.mpr (List.mem_map_of_mem (by decide))),
   (Finset.singleton_subset_iff (a := Proc.devRef (τ := τ) .tc main_call28_v12)).mpr (List.mem_toFinset.mpr (List.mem_map_of_mem (by decide))),
   (Finset.singleton_subset_iff (a := Proc.devRef (τ := τ) .tc main_call28_cst_4)).mpr (List.mem_toFinset.mpr (List.mem_map_of_mem (by decide))),
   (Finset.singleton_subset_iff (a := Proc.devRef (τ := τ) .tc main_call28_call0_v0)).mpr (List.mem_toFinset.mpr (List.mem_map_of_mem (by decide))),
   (Finset.singleton_subset_iff (a := Proc.devRef (τ := τ) .tc main_call28_call0_v1)).mpr (List.mem_toFinset.mpr (List.mem_map_of_mem (by decide))),
   (Finset.singleton_subset_iff (a := Proc.devRef (τ := τ) .tc main_v633)).mpr (List.mem_toFinset.mpr (List.mem_map_of_mem (by decide))),
   (Finset.singleton_subset_iff (a := Proc.devRef (τ := τ) .tc main_v634)).mpr (List.mem_toFinset.mpr (List.mem_map_of_mem (by decide))),
   (Finset.singleton_subset_iff (a := Proc.devRef (τ := τ) .tc main_v635)).mpr (List.mem_toFinset.mpr (List.mem_map_of_mem (by decide))),
   (Finset.singleton_subset_iff (a := Proc.devRef (τ := τ) .tc main_v636)).mpr (List.mem_toFinset.mpr (List.mem_map_of_mem (by decide))),
   (Finset.singleton_subset_iff (a := Proc.devRef (τ := τ) .tc main_cst_84)).mpr (List.mem_toFinset.mpr (List.mem_map_of_mem (by decide))),
   (Finset.singleton_subset_iff (a := Proc.devRef (τ := τ) .tc main_v637)).mpr (List.mem_toFinset.mpr (List.mem_map_of_mem (by decide))),
   (Finset.singleton_subset_iff (a := Proc.devRef (τ := τ) .tc main_v638)).mpr (List.mem_toFinset.mpr (List.mem_map_of_mem (by decide))),
   (Finset.singleton_subset_iff (a := Proc.devRef (τ := τ) .tc main_v639)).mpr (List.mem_toFinset.mpr (List.mem_map_of_mem (by decide))),
   (Finset.singleton_subset_iff (a := Proc.devRef (τ := τ) .tc main_v640)).mpr (List.mem_toFinset.mpr (List.mem_map_of_mem (by decide))),
   (Finset.singleton_subset_iff (a := Proc.devRef (τ := τ) .tc main_v641)).mpr (List.mem_toFinset.mpr (List.mem_map_of_mem (by decide))),
   (Finset.singleton_subset_iff (a := Proc.devRef (τ := τ) .tc main_v642)).mpr (List.mem_toFinset.mpr (List.mem_map_of_mem (by decide))),
   (Finset.singleton_subset_iff (a := Proc.devRef (τ := τ) .tc main_v643)).mpr (List.mem_toFinset.mpr (List.mem_map_of_mem (by decide))),
   (Finset.singleton_subset_iff (a := Proc.devRef (τ := τ) .tc main_v644)).mpr (List.mem_toFinset.mpr (List.mem_map_of_mem (by decide))),
   (Finset.singleton_subset_iff (a := Proc.devRef (τ := τ) .tc main_v645)).mpr (List.mem_toFinset.mpr (List.mem_map_of_mem (by decide))),
   (Finset.singleton_subset_iff (a := Proc.devRef (τ := τ) .tc main_v646)).mpr (List.mem_toFinset.mpr (List.mem_map_of_mem (by decide))),
   (Finset.singleton_subset_iff (a := Proc.devRef (τ := τ) .tc main_v647)).mpr (List.mem_toFinset.mpr (List.mem_map_of_mem (by decide))),
   (Finset.singleton_subset_iff (a := Proc.devRef (τ := τ) .tc main_v648)).mpr (List.mem_toFinset.mpr (List.mem_map_of_mem (by decide))),
   (Finset.singleton_subset_iff (a := Proc.devRef (τ := τ) .tc main_call29_cst)).mpr (List.mem_toFinset.mpr (List.mem_map_of_mem (by decide))),
   (Finset.singleton_subset_iff (a := Proc.devRef (τ := τ) .tc main_call29_v0)).mpr (List.mem_toFinset.mpr (List.mem_map_of_mem (by decide))),
   (Finset.singleton_subset_iff (a := Proc.devRef (τ := τ) .tc main_v649)).mpr (List.mem_toFinset.mpr (List.mem_map_of_mem (by decide))),
   (Finset.singleton_subset_iff (a := Proc.devRef (τ := τ) .tc main_v650)).mpr (List.mem_toFinset.mpr (List.mem_map_of_mem (by decide))),
   (Finset.singleton_subset_iff (a := Proc.devRef (τ := τ) .tc main_v651)).mpr (List.mem_toFinset.mpr (List.mem_map_of_mem (by decide))),
   (Finset.singleton_subset_iff (a := Proc.devRef (τ := τ) .tc main_v652)).mpr (List.mem_toFinset.mpr (List.mem_map_of_mem (by decide))),
   (Finset.singleton_subset_iff (a := Proc.devRef (τ := τ) .tc main_v653)).mpr (List.mem_toFinset.mpr (List.mem_map_of_mem (by decide))),
   (Finset.singleton_subset_iff (a := Proc.devRef (τ := τ) .tc main_v654)).mpr (List.mem_toFinset.mpr (List.mem_map_of_mem (by decide)))⟩

/-- A reference these operations do not write keeps its contents through them. -/
theorem sg23_keep (V : Valuation τ sig (Elt F)) (r : Ref sig .tc) (h : r ∉ sg23_W) :
    after sg23 V (Proc.devRef .tc r) = V (Proc.devRef .tc r) :=
  after_of_writes_sub sg23 V sg23_writes h

end Cert.ReferenceIdeal.HandV

end
-- ==== Proof.RV.TopSeg24.lean ====
import proofs.«414290_j6631429505478_3_alg».proof.Proof.Gen.ReferenceIdeal
import Idealize.ShloMosaic.Lib.StableHlo.Run

set_option Elab.async false

noncomputable section

namespace Cert.ReferenceIdeal.HandV

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
set_option maxRecDepth 8192 in
/-- Operations 1087 to 1087 of @main, in order (1 of them): from the one writing main_v655 to the one writing main_v655. -/
abbrev sg24 : List (HloOp τ sig (Elt F)) :=
  [ StableHlo.binary main_v527 main_v654 main_v655 (addf : (⟨S50000x128, .f32⟩ : BufTy).Contents (Elt F) → (⟨S50000x128, .f32⟩ : BufTy).Contents (Elt F) → (⟨S50000x128, .f32⟩ : BufTy).Contents (Elt F)) ]

/-- The references these operations write, in order. -/
abbrev sg24_W : List (Ref sig .tc) :=
  [main_v655]

set_option maxHeartbeats 40000000 in
set_option maxRecDepth 8192 in
/-- Each operation writes its own result reference, the one listed at its place. -/
theorem sg24_writes : (sg24 : List (HloOp τ sig (Elt F))).Forall fun op => op.writes ⊆ (sg24_W.map (Proc.devRef (τ := τ) .tc)).toFinset :=
  (Finset.singleton_subset_iff (a := Proc.devRef (τ := τ) .tc main_v655)).mpr (List.mem_toFinset.mpr (List.mem_map_of_mem (by decide)))

/-- A reference these operations do not write keeps its contents through them. -/
theorem sg24_keep (V : Valuation τ sig (Elt F)) (r : Ref sig .tc) (h : r ∉ sg24_W) :
    after sg24 V (Proc.devRef .tc r) = V (Proc.devRef .tc r) :=
  after_of_writes_sub sg24 V sg24_writes h

end Cert.ReferenceIdeal.HandV

end
-- ==== Proof.RV.TopSeg25.lean ====
import proofs.«414290_j6631429505478_3_alg».proof.Proof.Gen.ReferenceIdeal
import Idealize.ShloMosaic.Lib.StableHlo.Run

set_option Elab.async false

noncomputable section

namespace Cert.ReferenceIdeal.HandV

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
set_option maxRecDepth 8192 in
/-- Operations 1088 to 1102 of @main, in order (15 of them): from the one writing main_c_85 to the one writing main_v667. -/
abbrev sg25 : List (HloOp τ sig (Elt F)) :=
  [ StableHlo.nullary main_c_85 (constantI S_ 32 0#32),
    StableHlo.unary main_c_85 main_v656 (broadcastInDim S800000 ![] bcast_S_S800000 : (⟨S_, .i32⟩ : BufTy).Contents (Elt F) → (⟨S800000, .i32⟩ : BufTy).Contents (Elt F)),
    StableHlo.binary main_v1 main_v656 main_v657 (cmpi .slt : (⟨S800000, .i32⟩ : BufTy).Contents (Elt F) → (⟨S800000, .i32⟩ : BufTy).Contents (Elt F) → (⟨S800000, .i1⟩ : BufTy).Contents (Elt F)),
    StableHlo.nullary main_c_86 (constantI S_ 32 50000#32),
    StableHlo.unary main_c_86 main_v658 (broadcastInDim S800000 ![] bcast_S_S800000 : (⟨S_, .i32⟩ : BufTy).Contents (Elt F) → (⟨S800000, .i32⟩ : BufTy).Contents (Elt F)),
    StableHlo.binary main_v1 main_v658 main_v659 (addi : (⟨S800000, .i32⟩ : BufTy).Contents (Elt F) → (⟨S800000, .i32⟩ : BufTy).Contents (Elt F) → (⟨S800000, .i32⟩ : BufTy).Contents (Elt F)),
    StableHlo.ternary main_v657 main_v659 main_v1 main_v660 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v660 main_v661 (broadcastInDim S800000x1 ![0] bcast_S800000_S800000x1_0 : (⟨S800000, .i32⟩ : BufTy).Contents (Elt F) → (⟨S800000x1, .i32⟩ : BufTy).Contents (Elt F)),
    StableHlo.binary main_v398 main_v661 main_v662 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_87 (constant S_ .f32 0x00000000#32),
    StableHlo.unary main_cst_87 main_v663 (broadcastInDim S50000x128 ![] bcast_S_S50000x128 : (⟨S_, .f32⟩ : BufTy).Contents (Elt F) → (⟨S50000x128, .f32⟩ : BufTy).Contents (Elt F)),
    StableHlo.unary main_v3 main_v664 (broadcastInDim S800000x1 ![0] bcast_S800000_S800000x1_0 : (⟨S800000, .i32⟩ : BufTy).Contents (Elt F) → (⟨S800000x1, .i32⟩ : BufTy).Contents (Elt F)),
    StableHlo.ternary main_v663 main_v664 main_v662 main_v665 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v12 main_v666 (broadcastInDim S50000x128 ![0, 1] bcast_S50000x1_S50000x128_0_1 : (⟨S50000x1, .f32⟩ : BufTy).Contents (Elt F) → (⟨S50000x128, .f32⟩ : BufTy).Contents (Elt F)),
    StableHlo.binary main_v665 main_v666 main_v667 (mulf : (⟨S50000x128, .f32⟩ : BufTy).Contents (Elt F) → (⟨S50000x128, .f32⟩ : BufTy).Contents (Elt F) → (⟨S50000x128, .f32⟩ : BufTy).Contents (Elt F)) ]

/-- The references these operations write, in order. -/
abbrev sg25_W : List (Ref sig .tc) :=
  [main_c_85, main_v656, main_v657, main_c_86, main_v658, main_v659, main_v660, main_v661, main_v662, main_cst_87, main_v663, main_v664, main_v665, main_v666, main_v667]

set_option maxHeartbeats 40000000 in
set_option maxRecDepth 8192 in
/-- Each operation writes its own result reference, the one listed at its place. -/
theorem sg25_writes : (sg25 : List (HloOp τ sig (Elt F))).Forall fun op => op.writes ⊆ (sg25_W.map (Proc.devRef (τ := τ) .tc)).toFinset :=
  ⟨(Finset.singleton_subset_iff (a := Proc.devRef (τ := τ) .tc main_c_85)).mpr (List.mem_toFinset.mpr (List.mem_map_of_mem (by decide))),
   (Finset.singleton_subset_iff (a := Proc.devRef (τ := τ) .tc main_v656)).mpr (List.mem_toFinset.mpr (List.mem_map_of_mem (by decide))),
   (Finset.singleton_subset_iff (a := Proc.devRef (τ := τ) .tc main_v657)).mpr (List.mem_toFinset.mpr (List.mem_map_of_mem (by decide))),
   (Finset.singleton_subset_iff (a := Proc.devRef (τ := τ) .tc main_c_86)).mpr (List.mem_toFinset.mpr (List.mem_map_of_mem (by decide))),
   (Finset.singleton_subset_iff (a := Proc.devRef (τ := τ) .tc main_v658)).mpr (List.mem_toFinset.mpr (List.mem_map_of_mem (by decide))),
   (Finset.singleton_subset_iff (a := Proc.devRef (τ := τ) .tc main_v659)).mpr (List.mem_toFinset.mpr (List.mem_map_of_mem (by decide))),
   (Finset.singleton_subset_iff (a := Proc.devRef (τ := τ) .tc main_v660)).mpr (List.mem_toFinset.mpr (List.mem_map_of_mem (by decide))),
   (Finset.singleton_subset_iff (a := Proc.devRef (τ := τ) .tc main_v661)).mpr (List.mem_toFinset.mpr (List.mem_map_of_mem (by decide))),
   (Finset.singleton_subset_iff (a := Proc.devRef (τ := τ) .tc main_v662)).mpr (List.mem_toFinset.mpr (List.mem_map_of_mem (by decide))),
   (Finset.singleton_subset_iff (a := Proc.devRef (τ := τ) .tc main_cst_87)).mpr (List.mem_toFinset.mpr (List.mem_map_of_mem (by decide))),
   (Finset.singleton_subset_iff (a := Proc.devRef (τ := τ) .tc main_v663)).mpr (List.mem_toFinset.mpr (List.mem_map_of_mem (by decide))),
   (Finset.singleton_subset_iff (a := Proc.devRef (τ := τ) .tc main_v664)).mpr (List.mem_toFinset.mpr (List.mem_map_of_mem (by decide))),
   (Finset.singleton_subset_iff (a := Proc.devRef (τ := τ) .tc main_v665)).mpr (List.mem_toFinset.mpr (List.mem_map_of_mem (by decide))),
   (Finset.singleton_subset_iff (a := Proc.devRef (τ := τ) .tc main_v666)).mpr (List.mem_toFinset.mpr (List.mem_map_of_mem (by decide))),
   (Finset.singleton_subset_iff (a := Proc.devRef (τ := τ) .tc main_v667)).mpr (List.mem_toFinset.mpr (List.mem_map_of_mem (by decide)))⟩

/-- A reference these operations do not write keeps its contents through them. -/
theorem sg25_keep (V : Valuation τ sig (Elt F)) (r : Ref sig .tc) (h : r ∉ sg25_W) :
    after sg25 V (Proc.devRef .tc r) = V (Proc.devRef .tc r) :=
  after_of_writes_sub sg25 V sg25_writes h

end Cert.ReferenceIdeal.HandV

end
-- ==== Proof.RV.TopSeg26.lean ====
import proofs.«414290_j6631429505478_3_alg».proof.Proof.Gen.ReferenceIdeal
import Idealize.ShloMosaic.Lib.StableHlo.Run

set_option Elab.async false

noncomputable section

namespace Cert.ReferenceIdeal.HandV

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
set_option maxRecDepth 8192 in
/-- Operations 1103 to 1169 of @main, in order (67 of them): from the one writing main_cst_88 to the one writing main_v706. -/
abbrev sg26 : List (HloOp τ sig (Elt F)) :=
  [ StableHlo.nullary main_cst_88 (constant S_ .f32 0x00000000#32),
    StableHlo.unary main_cst_88 main_v668 (broadcastInDim S50000x128 ![] bcast_S_S50000x128 : (⟨S_, .f32⟩ : BufTy).Contents (Elt F) → (⟨S50000x128, .f32⟩ : BufTy).Contents (Elt F)),
    StableHlo.unary main_arg4 main_v669 ((extractStridedSlice S1x1x128x128 ![5, 0, 0, 0] · slices_S6x3x128x128_S1x1x128x128_5_0_0_0) : (⟨S6x3x128x128, .f32⟩ : BufTy).Contents (Elt F) → (⟨S1x1x128x128, .f32⟩ : BufTy).Contents (Elt F)),
    StableHlo.reshape main_v669 main_v670 rfl shapeCasts_S1x1x128x128_S128x128,
    StableHlo.unary main_v670 main_v671 ((transpose S128x128 [1, 0] · transposes_S128x128_S128x128_1_0) : (⟨S128x128, .f32⟩ : BufTy).Contents (Elt F) → (⟨S128x128, .f32⟩ : BufTy).Contents (Elt F)),
    StableHlo.binary main_v667 main_v671 main_v672 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg5 main_v673 ((extractStridedSlice S1x1x128 ![5, 0, 0] · slices_S6x3x128_S1x1x128_5_0_0) : (⟨S6x3x128, .f32⟩ : BufTy).Contents (Elt F) → (⟨S1x1x128, .f32⟩ : BufTy).Contents (Elt F)),
    StableHlo.reshape main_v673 main_v674 rfl shapeCasts_S1x1x128_S128,
    StableHlo.unary main_v674 main_v675 (broadcastInDim S1x128 ![1] bcast_S128_S1x128_1 : (⟨S128, .f32⟩ : BufTy).Contents (Elt F) → (⟨S1x128, .f32⟩ : BufTy).Contents (Elt F)),
    StableHlo.unary main_v675 main_v676 (broadcastInDim S50000x128 ![0, 1] bcast_S1x128_S50000x128_0_1 : (⟨S1x128, .f32⟩ : BufTy).Contents (Elt F) → (⟨S50000x128, .f32⟩ : BufTy).Contents (Elt F)),
    StableHlo.binary main_v672 main_v676 main_v677 (addf : (⟨S50000x128, .f32⟩ : BufTy).Contents (Elt F) → (⟨S50000x128, .f32⟩ : BufTy).Contents (Elt F) → (⟨S50000x128, .f32⟩ : BufTy).Contents (Elt F)),
    StableHlo.unary main_arg6 main_v678 ((extractStridedSlice S1x1x128 ![5, 0, 0] · slices_S6x3x128_S1x1x128_5_0_0) : (⟨S6x3x128, .f32⟩ : BufTy).Contents (Elt F) → (⟨S1x1x128, .f32⟩ : BufTy).Contents (Elt F)),
    StableHlo.reshape main_v678 main_v679 rfl shapeCasts_S1x1x128_S128,
    StableHlo.unary main_arg7 main_v680 ((extractStridedSlice S1x1x128 ![5, 0, 0] · slices_S6x3x128_S1x1x128_5_0_0) : (⟨S6x3x128, .f32⟩ : BufTy).Contents (Elt F) → (⟨S1x1x128, .f32⟩ : BufTy).Contents (Elt F)),
    StableHlo.reshape main_v680 main_v681 rfl shapeCasts_S1x1x128_S128,
    StableHlo.nullary main_cst_89 (constant S_ .f32 0x00000000#32),
    StableHlo.binary main_v677 main_cst_89 main_v682 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_90 (constant S_ .f32 0x47435000#32),
    StableHlo.unary main_cst_90 main_v683 (broadcastInDim S128 ![] bcast_S_S128 : (⟨S_, .f32⟩ : BufTy).Contents (Elt F) → (⟨S128, .f32⟩ : BufTy).Contents (Elt F)),
    StableHlo.binary main_v682 main_v683 main_v684 (Host.divf : (⟨S128, .f32⟩ : BufTy).Contents (Elt F) → (⟨S128, .f32⟩ : BufTy).Contents (Elt F) → (⟨S128, .f32⟩ : BufTy).Contents (Elt F)),
    StableHlo.nullary main_c_91 (constantI S_ 32 0#32),
    StableHlo.TRef.nullary main_call30.cst (constant S_ .f32 0x00000000#32),
    StableHlo.TRef.binary (.of main_v677 : StableHlo.TRef sig ⟨S50000x128, .f32⟩) main_call30.cst main_call30.v0 (fun x v => Host.reduceAdd x v reducesTo_S50000x128_S128_d0 h_S_),
    StableHlo.TRef.unary main_call30.v0 main_call30.v1 (broadcastInDim S1x128 ![1] bcast_S128_S1x128_1),
    StableHlo.TRef.nullary main_call30.cst_0 (constant S_ .f32 0x47435000#32),
    StableHlo.TRef.unary main_call30.cst_0 main_call30.v2 (broadcastInDim S1x128 ![] bcast_S_S1x128),
    StableHlo.TRef.binary main_call30.v1 main_call30.v2 main_call30.v3 Host.divf,
    StableHlo.TRef.unary main_call30.v3 main_call30.v4 (broadcastInDim S50000x128 ![0, 1] bcast_S1x128_S50000x128_0_1),
    StableHlo.TRef.binary (.of main_v677 : StableHlo.TRef sig ⟨S50000x128, .f32⟩) main_call30.v4 main_call30.v5 subf,
    StableHlo.TRef.binary main_call30.v5 main_call30.v5 main_call30.v6 mulf,
    StableHlo.TRef.unary (.of main_c_91 : StableHlo.TRef sig ⟨S_, .i32⟩) main_call30.v7 (sitofp .f32),
    StableHlo.TRef.nullary main_call30.cst_1 (constant S_ .f32 0x47435000#32),
    StableHlo.TRef.binary main_call30.cst_1 main_call30.v7 main_call30.v8 subf,
    StableHlo.TRef.nullary main_call30.cst_2 (constant S_ .f32 0x00000000#32),
    StableHlo.TRef.binary main_call30.v6 main_call30.cst_2 main_call30.v9 (fun x v => Host.reduceAdd x v reducesTo_S50000x128_S128_d0 h_S_),
    StableHlo.TRef.unary main_call30.v8 main_call30.v10 (broadcastInDim S128 ![] bcast_S_S128),
    StableHlo.TRef.binary main_call30.v9 main_call30.v10 main_call30.v11 Host.divf,
    StableHlo.TRef.nullary main_call30.cst_3 (constant S_ .f32 0x00000000#32),
    StableHlo.TRef.binary main_call30.v8 main_call30.cst_3 main_call30.v12 (cmpf .ogt),
    StableHlo.TRef.nullary main_call30.cst_4 (constant S_ .f32 0x7FC00000#32),
    StableHlo.TRef.unary main_call30.cst_4 main_call30.call0.v0 id,
    StableHlo.TRef.unary main_call30.call0.v0 main_call30.call0.v1 (broadcastInDim S128 ![] bcast_S_S128),
    StableHlo.TRef.ternary main_call30.v12 main_call30.v11 main_call30.call0.v1 main_call30.call0.v2 (fun p a b => select (broadcastInDim S128 ![] bcast_S_S128 p) a b),
    StableHlo.unary main_v684 main_v686 (broadcastInDim S1x128 ![1] bcast_S128_S1x128_1 : (⟨S128, .f32⟩ : BufTy).Contents (Elt F) → (⟨S1x128, .f32⟩ : BufTy).Contents (Elt F)),
    StableHlo.unary main_v686 main_v687 (broadcastInDim S50000x128 ![0, 1] bcast_S1x128_S50000x128_0_1 : (⟨S1x128, .f32⟩ : BufTy).Contents (Elt F) → (⟨S50000x128, .f32⟩ : BufTy).Contents (Elt F)),
    StableHlo.binary main_v677 main_v687 main_v688 (subf : (⟨S50000x128, .f32⟩ : BufTy).Contents (Elt F) → (⟨S50000x128, .f32⟩ : BufTy).Contents (Elt F) → (⟨S50000x128, .f32⟩ : BufTy).Contents (Elt F)),
    StableHlo.nullary main_cst_92 (constant S_ .f32 0x3727C5AC#32),
    StableHlo.unary main_cst_92 main_v689 (broadcastInDim S128 ![] bcast_S_S128 : (⟨S_, .f32⟩ : BufTy).Contents (Elt F) → (⟨S128, .f32⟩ : BufTy).Contents (Elt F)),
    StableHlo.binary main_v685 main_v689 main_v690 (addf : (⟨S128, .f32⟩ : BufTy).Contents (Elt F) → (⟨S128, .f32⟩ : BufTy).Contents (Elt F) → (⟨S128, .f32⟩ : BufTy).Contents (Elt F)),
    StableHlo.unary main_v690 main_v691 (Host.rsqrt : (⟨S128, .f32⟩ : BufTy).Contents (Elt F) → (⟨S128, .f32⟩ : BufTy).Contents (Elt F)),
    StableHlo.unary main_v691 main_v692 (broadcastInDim S1x128 ![1] bcast_S128_S1x128_1 : (⟨S128, .f32⟩ : BufTy).Contents (Elt F) → (⟨S1x128, .f32⟩ : BufTy).Contents (Elt F)),
    StableHlo.unary main_v692 main_v693 (broadcastInDim S50000x128 ![0, 1] bcast_S1x128_S50000x128_0_1 : (⟨S1x128, .f32⟩ : BufTy).Contents (Elt F) → (⟨S50000x128, .f32⟩ : BufTy).Contents (Elt F)),
    StableHlo.binary main_v688 main_v693 main_v694 (mulf : (⟨S50000x128, .f32⟩ : BufTy).Contents (Elt F) → (⟨S50000x128, .f32⟩ : BufTy).Contents (Elt F) → (⟨S50000x128, .f32⟩ : BufTy).Contents (Elt F)),
    StableHlo.unary main_v679 main_v695 (broadcastInDim S1x128 ![1] bcast_S128_S1x128_1 : (⟨S128, .f32⟩ : BufTy).Contents (Elt F) → (⟨S1x128, .f32⟩ : BufTy).Contents (Elt F)),
    StableHlo.unary main_v695 main_v696 (broadcastInDim S50000x128 ![0, 1] bcast_S1x128_S50000x128_0_1 : (⟨S1x128, .f32⟩ : BufTy).Contents (Elt F) → (⟨S50000x128, .f32⟩ : BufTy).Contents (Elt F)),
    StableHlo.binary main_v694 main_v696 main_v697 (mulf : (⟨S50000x128, .f32⟩ : BufTy).Contents (Elt F) → (⟨S50000x128, .f32⟩ : BufTy).Contents (Elt F) → (⟨S50000x128, .f32⟩ : BufTy).Contents (Elt F)),
    StableHlo.unary main_v681 main_v698 (broadcastInDim S1x128 ![1] bcast_S128_S1x128_1 : (⟨S128, .f32⟩ : BufTy).Contents (Elt F) → (⟨S1x128, .f32⟩ : BufTy).Contents (Elt F)),
    StableHlo.unary main_v698 main_v699 (broadcastInDim S50000x128 ![0, 1] bcast_S1x128_S50000x128_0_1 : (⟨S1x128, .f32⟩ : BufTy).Contents (Elt F) → (⟨S50000x128, .f32⟩ : BufTy).Contents (Elt F)),
    StableHlo.binary main_v697 main_v699 main_v700 (addf : (⟨S50000x128, .f32⟩ : BufTy).Contents (Elt F) → (⟨S50000x128, .f32⟩ : BufTy).Contents (Elt F) → (⟨S50000x128, .f32⟩ : BufTy).Contents (Elt F)),
    StableHlo.TRef.nullary main_call31.cst (constant S_ .f32 0x00000000#32),
    StableHlo.TRef.unary main_call31.cst main_call31.v0 (broadcastInDim S50000x128 ![] bcast_S_S50000x128),
    StableHlo.TRef.binary (.of main_v700 : StableHlo.TRef sig ⟨S50000x128, .f32⟩) main_call31.v0 main_call31.v1 maximumf,
    StableHlo.unary main_arg3 main_v702 ((extractStridedSlice S1x1 ![5, 0] · slices_S6x3_S1x1_5_0) : (⟨S6x3, .f32⟩ : BufTy).Contents (Elt F) → (⟨S1x1, .f32⟩ : BufTy).Contents (Elt F)),
    StableHlo.reshape main_v702 main_v703 rfl shapeCasts_S1x1_S_,
    StableHlo.unary main_v703 main_v704 (broadcastInDim S50000x128 ![] bcast_S_S50000x128 : (⟨S_, .f32⟩ : BufTy).Contents (Elt F) → (⟨S50000x128, .f32⟩ : BufTy).Contents (Elt F)),
    StableHlo.binary main_v704 main_v701 main_v705 (mulf : (⟨S50000x128, .f32⟩ : BufTy).Contents (Elt F) → (⟨S50000x128, .f32⟩ : BufTy).Contents (Elt F) → (⟨S50000x128, .f32⟩ : BufTy).Contents (Elt F)),
    StableHlo.binary main_v668 main_v705 main_v706 (addf : (⟨S50000x128, .f32⟩ : BufTy).Contents (Elt F) → (⟨S50000x128, .f32⟩ : BufTy).Contents (Elt F) → (⟨S50000x128, .f32⟩ : BufTy).Contents (Elt F)) ]

/-- The references these operations write, in order. -/
abbrev sg26_W : List (Ref sig .tc) :=
  [main_cst_88, main_v668, main_v669, main_v670, main_v671, main_v672, main_v673, main_v674, main_v675, main_v676, main_v677, main_v678, main_v679, main_v680, main_v681, main_cst_89, main_v682, main_cst_90, main_v683, main_v684, main_c_91, main_call30_cst, main_call30_v0, main_call30_v1, main_call30_cst_0, main_call30_v2, main_call30_v3, main_call30_v4, main_call30_v5, main_call30_v6, main_call30_v7, main_call30_cst_1, main_call30_v8, main_call30_cst_2, main_call30_v9, main_call30_v10, main_call30_v11, main_call30_cst_3, main_call30_v12, main_call30_cst_4, main_call30_call0_v0, main_call30_call0_v1, main_v685, main_v686, main_v687, main_v688, main_cst_92, main_v689, main_v690, main_v691, main_v692, main_v693, main_v694, main_v695, main_v696, main_v697, main_v698, main_v699, main_v700, main_call31_cst, main_call31_v0, main_v701, main_v702, main_v703, main_v704, main_v705, main_v706]

set_option maxHeartbeats 40000000 in
set_option maxRecDepth 8192 in
/-- Each operation writes its own result reference, the one listed at its place. -/
theorem sg26_writes : (sg26 : List (HloOp τ sig (Elt F))).Forall fun op => op.writes ⊆ (sg26_W.map (Proc.devRef (τ := τ) .tc)).toFinset :=
  ⟨(Finset.singleton_subset_iff (a := Proc.devRef (τ := τ) .tc main_cst_88)).mpr (List.mem_toFinset.mpr (List.mem_map_of_mem (by decide))),
   (Finset.singleton_subset_iff (a := Proc.devRef (τ := τ) .tc main_v668)).mpr (List.mem_toFinset.mpr (List.mem_map_of_mem (by decide))),
   (Finset.singleton_subset_iff (a := Proc.devRef (τ := τ) .tc main_v669)).mpr (List.mem_toFinset.mpr (List.mem_map_of_mem (by decide))),
   (Finset.singleton_subset_iff (a := Proc.devRef (τ := τ) .tc main_v670)).mpr (List.mem_toFinset.mpr (List.mem_map_of_mem (by decide))),
   (Finset.singleton_subset_iff (a := Proc.devRef (τ := τ) .tc main_v671)).mpr (List.mem_toFinset.mpr (List.mem_map_of_mem (by decide))),
   (Finset.singleton_subset_iff (a := Proc.devRef (τ := τ) .tc main_v672)).mpr (List.mem_toFinset.mpr (List.mem_map_of_mem (by decide))),
   (Finset.singleton_subset_iff (a := Proc.devRef (τ := τ) .tc main_v673)).mpr (List.mem_toFinset.mpr (List.mem_map_of_mem (by decide))),
   (Finset.singleton_subset_iff (a := Proc.devRef (τ := τ) .tc main_v674)).mpr (List.mem_toFinset.mpr (List.mem_map_of_mem (by decide))),
   (Finset.singleton_subset_iff (a := Proc.devRef (τ := τ) .tc main_v675)).mpr (List.mem_toFinset.mpr (List.mem_map_of_mem (by decide))),
   (Finset.singleton_subset_iff (a := Proc.devRef (τ := τ) .tc main_v676)).mpr (List.mem_toFinset.mpr (List.mem_map_of_mem (by decide))),
   (Finset.singleton_subset_iff (a := Proc.devRef (τ := τ) .tc main_v677)).mpr (List.mem_toFinset.mpr (List.mem_map_of_mem (by decide))),
   (Finset.singleton_subset_iff (a := Proc.devRef (τ := τ) .tc main_v678)).mpr (List.mem_toFinset.mpr (List.mem_map_of_mem (by decide))),
   (Finset.singleton_subset_iff (a := Proc.devRef (τ := τ) .tc main_v679)).mpr (List.mem_toFinset.mpr (List.mem_map_of_mem (by decide))),
   (Finset.singleton_subset_iff (a := Proc.devRef (τ := τ) .tc main_v680)).mpr (List.mem_toFinset.mpr (List.mem_map_of_mem (by decide))),
   (Finset.singleton_subset_iff (a := Proc.devRef (τ := τ) .tc main_v681)).mpr (List.mem_toFinset.mpr (List.mem_map_of_mem (by decide))),
   (Finset.singleton_subset_iff (a := Proc.devRef (τ := τ) .tc main_cst_89)).mpr (List.mem_toFinset.mpr (List.mem_map_of_mem (by decide))),
   (Finset.singleton_subset_iff (a := Proc.devRef (τ := τ) .tc main_v682)).mpr (List.mem_toFinset.mpr (List.mem_map_of_mem (by decide))),
   (Finset.singleton_subset_iff (a := Proc.devRef (τ := τ) .tc main_cst_90)).mpr (List.mem_toFinset.mpr (List.mem_map_of_mem (by decide))),
   (Finset.singleton_subset_iff (a := Proc.devRef (τ := τ) .tc main_v683)).mpr (List.mem_toFinset.mpr (List.mem_map_of_mem (by decide))),
   (Finset.singleton_subset_iff (a := Proc.devRef (τ := τ) .tc main_v684)).mpr (List.mem_toFinset.mpr (List.mem_map_of_mem (by decide))),
   (Finset.singleton_subset_iff (a := Proc.devRef (τ := τ) .tc main_c_91)).mpr (List.mem_toFinset.mpr (List.mem_map_of_mem (by decide))),
   (Finset.singleton_subset_iff (a := Proc.devRef (τ := τ) .tc main_call30_cst)).mpr (List.mem_toFinset.mpr (List.mem_map_of_mem (by decide))),
   (Finset.singleton_subset_iff (a := Proc.devRef (τ := τ) .tc main_call30_v0)).mpr (List.mem_toFinset.mpr (List.mem_map_of_mem (by decide))),
   (Finset.singleton_subset_iff (a := Proc.devRef (τ := τ) .tc main_call30_v1)).mpr (List.mem_toFinset.mpr (List.mem_map_of_mem (by decide))),
   (Finset.singleton_subset_iff (a := Proc.devRef (τ := τ) .tc main_call30_cst_0)).mpr (List.mem_toFinset.mpr (List.mem_map_of_mem (by decide))),
   (Finset.singleton_subset_iff (a := Proc.devRef (τ := τ) .tc main_call30_v2)).mpr (List.mem_toFinset.mpr (List.mem_map_of_mem (by decide))),
   (Finset.singleton_subset_iff (a := Proc.devRef (τ := τ) .tc main_call30_v3)).mpr (List.mem_toFinset.mpr (List.mem_map_of_mem (by decide))),
   (Finset.singleton_subset_iff (a := Proc.devRef (τ := τ) .tc main_call30_v4)).mpr (List.mem_toFinset.mpr (List.mem_map_of_mem (by decide))),
   (Finset.singleton_subset_iff (a := Proc.devRef (τ := τ) .tc main_call30_v5)).mpr (List.mem_toFinset.mpr (List.mem_map_of_mem (by decide))),
   (Finset.singleton_subset_iff (a := Proc.devRef (τ := τ) .tc main_call30_v6)).mpr (List.mem_toFinset.mpr (List.mem_map_of_mem (by decide))),
   (Finset.singleton_subset_iff (a := Proc.devRef (τ := τ) .tc main_call30_v7)).mpr (List.mem_toFinset.mpr (List.mem_map_of_mem (by decide))),
   (Finset.singleton_subset_iff (a := Proc.devRef (τ := τ) .tc main_call30_cst_1)).mpr (List.mem_toFinset.mpr (List.mem_map_of_mem (by decide))),
   (Finset.singleton_subset_iff (a := Proc.devRef (τ := τ) .tc main_call30_v8)).mpr (List.mem_toFinset.mpr (List.mem_map_of_mem (by decide))),
   (Finset.singleton_subset_iff (a := Proc.devRef (τ := τ) .tc main_call30_cst_2)).mpr (List.mem_toFinset.mpr (List.mem_map_of_mem (by decide))),
   (Finset.singleton_subset_iff (a := Proc.devRef (τ := τ) .tc main_call30_v9)).mpr (List.mem_toFinset.mpr (List.mem_map_of_mem (by decide))),
   (Finset.singleton_subset_iff (a := Proc.devRef (τ := τ) .tc main_call30_v10)).mpr (List.mem_toFinset.mpr (List.mem_map_of_mem (by decide))),
   (Finset.singleton_subset_iff (a := Proc.devRef (τ := τ) .tc main_call30_v11)).mpr (List.mem_toFinset.mpr (List.mem_map_of_mem (by decide))),
   (Finset.singleton_subset_iff (a := Proc.devRef (τ := τ) .tc main_call30_cst_3)).mpr (List.mem_toFinset.mpr (List.mem_map_of_mem (by decide))),
   (Finset.singleton_subset_iff (a := Proc.devRef (τ := τ) .tc main_call30_v12)).mpr (List.mem_toFinset.mpr (List.mem_map_of_mem (by decide))),
   (Finset.singleton_subset_iff (a := Proc.devRef (τ := τ) .tc main_call30_cst_4)).mpr (List.mem_toFinset.mpr (List.mem_map_of_mem (by decide))),
   (Finset.singleton_subset_iff (a := Proc.devRef (τ := τ) .tc main_call30_call0_v0)).mpr (List.mem_toFinset.mpr (List.mem_map_of_mem (by decide))),
   (Finset.singleton_subset_iff (a := Proc.devRef (τ := τ) .tc main_call30_call0_v1)).mpr (List.mem_toFinset.mpr (List.mem_map_of_mem (by decide))),
   (Finset.singleton_subset_iff (a := Proc.devRef (τ := τ) .tc main_v685)).mpr (List.mem_toFinset.mpr (List.mem_map_of_mem (by decide))),
   (Finset.singleton_subset_iff (a := Proc.devRef (τ := τ) .tc main_v686)).mpr (List.mem_toFinset.mpr (List.mem_map_of_mem (by decide))),
   (Finset.singleton_subset_iff (a := Proc.devRef (τ := τ) .tc main_v687)).mpr (List.mem_toFinset.mpr (List.mem_map_of_mem (by decide))),
   (Finset.singleton_subset_iff (a := Proc.devRef (τ := τ) .tc main_v688)).mpr (List.mem_toFinset.mpr (List.mem_map_of_mem (by decide))),
   (Finset.singleton_subset_iff (a := Proc.devRef (τ := τ) .tc main_cst_92)).mpr (List.mem_toFinset.mpr (List.mem_map_of_mem (by decide))),
   (Finset.singleton_subset_iff (a := Proc.devRef (τ := τ) .tc main_v689)).mpr (List.mem_toFinset.mpr (List.mem_map_of_mem (by decide))),
   (Finset.singleton_subset_iff (a := Proc.devRef (τ := τ) .tc main_v690)).mpr (List.mem_toFinset.mpr (List.mem_map_of_mem (by decide))),
   (Finset.singleton_subset_iff (a := Proc.devRef (τ := τ) .tc main_v691)).mpr (List.mem_toFinset.mpr (List.mem_map_of_mem (by decide))),
   (Finset.singleton_subset_iff (a := Proc.devRef (τ := τ) .tc main_v692)).mpr (List.mem_toFinset.mpr (List.mem_map_of_mem (by decide))),
   (Finset.singleton_subset_iff (a := Proc.devRef (τ := τ) .tc main_v693)).mpr (List.mem_toFinset.mpr (List.mem_map_of_mem (by decide))),
   (Finset.singleton_subset_iff (a := Proc.devRef (τ := τ) .tc main_v694)).mpr (List.mem_toFinset.mpr (List.mem_map_of_mem (by decide))),
   (Finset.singleton_subset_iff (a := Proc.devRef (τ := τ) .tc main_v695)).mpr (List.mem_toFinset.mpr (List.mem_map_of_mem (by decide))),
   (Finset.singleton_subset_iff (a := Proc.devRef (τ := τ) .tc main_v696)).mpr (List.mem_toFinset.mpr (List.mem_map_of_mem (by decide))),
   (Finset.singleton_subset_iff (a := Proc.devRef (τ := τ) .tc main_v697)).mpr (List.mem_toFinset.mpr (List.mem_map_of_mem (by decide))),
   (Finset.singleton_subset_iff (a := Proc.devRef (τ := τ) .tc main_v698)).mpr (List.mem_toFinset.mpr (List.mem_map_of_mem (by decide))),
   (Finset.singleton_subset_iff (a := Proc.devRef (τ := τ) .tc main_v699)).mpr (List.mem_toFinset.mpr (List.mem_map_of_mem (by decide))),
   (Finset.singleton_subset_iff (a := Proc.devRef (τ := τ) .tc main_v700)).mpr (List.mem_toFinset.mpr (List.mem_map_of_mem (by decide))),
   (Finset.singleton_subset_iff (a := Proc.devRef (τ := τ) .tc main_call31_cst)).mpr (List.mem_toFinset.mpr (List.mem_map_of_mem (by decide))),
   (Finset.singleton_subset_iff (a := Proc.devRef (τ := τ) .tc main_call31_v0)).mpr (List.mem_toFinset.mpr (List.mem_map_of_mem (by decide))),
   (Finset.singleton_subset_iff (a := Proc.devRef (τ := τ) .tc main_v701)).mpr (List.mem_toFinset.mpr (List.mem_map_of_mem (by decide))),
   (Finset.singleton_subset_iff (a := Proc.devRef (τ := τ) .tc main_v702)).mpr (List.mem_toFinset.mpr (List.mem_map_of_mem (by decide))),
   (Finset.singleton_subset_iff (a := Proc.devRef (τ := τ) .tc main_v703)).mpr (List.mem_toFinset.mpr (List.mem_map_of_mem (by decide))),
   (Finset.singleton_subset_iff (a := Proc.devRef (τ := τ) .tc main_v704)).mpr (List.mem_toFinset.mpr (List.mem_map_of_mem (by decide))),
   (Finset.singleton_subset_iff (a := Proc.devRef (τ := τ) .tc main_v705)).mpr (List.mem_toFinset.mpr (List.mem_map_of_mem (by decide))),
   (Finset.singleton_subset_iff (a := Proc.devRef (τ := τ) .tc main_v706)).mpr (List.mem_toFinset.mpr (List.mem_map_of_mem (by decide)))⟩

/-- A reference these operations do not write keeps its contents through them. -/
theorem sg26_keep (V : Valuation τ sig (Elt F)) (r : Ref sig .tc) (h : r ∉ sg26_W) :
    after sg26 V (Proc.devRef .tc r) = V (Proc.devRef .tc r) :=
  after_of_writes_sub sg26 V sg26_writes h

end Cert.ReferenceIdeal.HandV

end
-- ==== Proof.RV.TopSeg27.lean ====
import proofs.«414290_j6631429505478_3_alg».proof.Proof.Gen.ReferenceIdeal
import Idealize.ShloMosaic.Lib.StableHlo.Run

set_option Elab.async false

noncomputable section

namespace Cert.ReferenceIdeal.HandV

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
set_option maxRecDepth 8192 in
/-- Operations 1170 to 1234 of @main, in order (65 of them): from the one writing main_v707 to the one writing main_v744. -/
abbrev sg27 : List (HloOp τ sig (Elt F)) :=
  [ StableHlo.unary main_arg4 main_v707 ((extractStridedSlice S1x1x128x128 ![5, 1, 0, 0] · slices_S6x3x128x128_S1x1x128x128_5_1_0_0) : (⟨S6x3x128x128, .f32⟩ : BufTy).Contents (Elt F) → (⟨S1x1x128x128, .f32⟩ : BufTy).Contents (Elt F)),
    StableHlo.reshape main_v707 main_v708 rfl shapeCasts_S1x1x128x128_S128x128,
    StableHlo.unary main_v708 main_v709 ((transpose S128x128 [1, 0] · transposes_S128x128_S128x128_1_0) : (⟨S128x128, .f32⟩ : BufTy).Contents (Elt F) → (⟨S128x128, .f32⟩ : BufTy).Contents (Elt F)),
    StableHlo.binary main_v398 main_v709 main_v710 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg5 main_v711 ((extractStridedSlice S1x1x128 ![5, 1, 0] · slices_S6x3x128_S1x1x128_5_1_0) : (⟨S6x3x128, .f32⟩ : BufTy).Contents (Elt F) → (⟨S1x1x128, .f32⟩ : BufTy).Contents (Elt F)),
    StableHlo.reshape main_v711 main_v712 rfl shapeCasts_S1x1x128_S128,
    StableHlo.unary main_v712 main_v713 (broadcastInDim S1x128 ![1] bcast_S128_S1x128_1 : (⟨S128, .f32⟩ : BufTy).Contents (Elt F) → (⟨S1x128, .f32⟩ : BufTy).Contents (Elt F)),
    StableHlo.unary main_v713 main_v714 (broadcastInDim S50000x128 ![0, 1] bcast_S1x128_S50000x128_0_1 : (⟨S1x128, .f32⟩ : BufTy).Contents (Elt F) → (⟨S50000x128, .f32⟩ : BufTy).Contents (Elt F)),
    StableHlo.binary main_v710 main_v714 main_v715 (addf : (⟨S50000x128, .f32⟩ : BufTy).Contents (Elt F) → (⟨S50000x128, .f32⟩ : BufTy).Contents (Elt F) → (⟨S50000x128, .f32⟩ : BufTy).Contents (Elt F)),
    StableHlo.unary main_arg6 main_v716 ((extractStridedSlice S1x1x128 ![5, 1, 0] · slices_S6x3x128_S1x1x128_5_1_0) : (⟨S6x3x128, .f32⟩ : BufTy).Contents (Elt F) → (⟨S1x1x128, .f32⟩ : BufTy).Contents (Elt F)),
    StableHlo.reshape main_v716 main_v717 rfl shapeCasts_S1x1x128_S128,
    StableHlo.unary main_arg7 main_v718 ((extractStridedSlice S1x1x128 ![5, 1, 0] · slices_S6x3x128_S1x1x128_5_1_0) : (⟨S6x3x128, .f32⟩ : BufTy).Contents (Elt F) → (⟨S1x1x128, .f32⟩ : BufTy).Contents (Elt F)),
    StableHlo.reshape main_v718 main_v719 rfl shapeCasts_S1x1x128_S128,
    StableHlo.nullary main_cst_93 (constant S_ .f32 0x00000000#32),
    StableHlo.binary main_v715 main_cst_93 main_v720 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_94 (constant S_ .f32 0x47435000#32),
    StableHlo.unary main_cst_94 main_v721 (broadcastInDim S128 ![] bcast_S_S128 : (⟨S_, .f32⟩ : BufTy).Contents (Elt F) → (⟨S128, .f32⟩ : BufTy).Contents (Elt F)),
    StableHlo.binary main_v720 main_v721 main_v722 (Host.divf : (⟨S128, .f32⟩ : BufTy).Contents (Elt F) → (⟨S128, .f32⟩ : BufTy).Contents (Elt F) → (⟨S128, .f32⟩ : BufTy).Contents (Elt F)),
    StableHlo.nullary main_c_95 (constantI S_ 32 0#32),
    StableHlo.TRef.nullary main_call32.cst (constant S_ .f32 0x00000000#32),
    StableHlo.TRef.binary (.of main_v715 : StableHlo.TRef sig ⟨S50000x128, .f32⟩) main_call32.cst main_call32.v0 (fun x v => Host.reduceAdd x v reducesTo_S50000x128_S128_d0 h_S_),
    StableHlo.TRef.unary main_call32.v0 main_call32.v1 (broadcastInDim S1x128 ![1] bcast_S128_S1x128_1),
    StableHlo.TRef.nullary main_call32.cst_0 (constant S_ .f32 0x47435000#32),
    StableHlo.TRef.unary main_call32.cst_0 main_call32.v2 (broadcastInDim S1x128 ![] bcast_S_S1x128),
    StableHlo.TRef.binary main_call32.v1 main_call32.v2 main_call32.v3 Host.divf,
    StableHlo.TRef.unary main_call32.v3 main_call32.v4 (broadcastInDim S50000x128 ![0, 1] bcast_S1x128_S50000x128_0_1),
    StableHlo.TRef.binary (.of main_v715 : StableHlo.TRef sig ⟨S50000x128, .f32⟩) main_call32.v4 main_call32.v5 subf,
    StableHlo.TRef.binary main_call32.v5 main_call32.v5 main_call32.v6 mulf,
    StableHlo.TRef.unary (.of main_c_95 : StableHlo.TRef sig ⟨S_, .i32⟩) main_call32.v7 (sitofp .f32),
    StableHlo.TRef.nullary main_call32.cst_1 (constant S_ .f32 0x47435000#32),
    StableHlo.TRef.binary main_call32.cst_1 main_call32.v7 main_call32.v8 subf,
    StableHlo.TRef.nullary main_call32.cst_2 (constant S_ .f32 0x00000000#32),
    StableHlo.TRef.binary main_call32.v6 main_call32.cst_2 main_call32.v9 (fun x v => Host.reduceAdd x v reducesTo_S50000x128_S128_d0 h_S_),
    StableHlo.TRef.unary main_call32.v8 main_call32.v10 (broadcastInDim S128 ![] bcast_S_S128),
    StableHlo.TRef.binary main_call32.v9 main_call32.v10 main_call32.v11 Host.divf,
    StableHlo.TRef.nullary main_call32.cst_3 (constant S_ .f32 0x00000000#32),
    StableHlo.TRef.binary main_call32.v8 main_call32.cst_3 main_call32.v12 (cmpf .ogt),
    StableHlo.TRef.nullary main_call32.cst_4 (constant S_ .f32 0x7FC00000#32),
    StableHlo.TRef.unary main_call32.cst_4 main_call32.call0.v0 id,
    StableHlo.TRef.unary main_call32.call0.v0 main_call32.call0.v1 (broadcastInDim S128 ![] bcast_S_S128),
    StableHlo.TRef.ternary main_call32.v12 main_call32.v11 main_call32.call0.v1 main_call32.call0.v2 (fun p a b => select (broadcastInDim S128 ![] bcast_S_S128 p) a b),
    StableHlo.unary main_v722 main_v724 (broadcastInDim S1x128 ![1] bcast_S128_S1x128_1 : (⟨S128, .f32⟩ : BufTy).Contents (Elt F) → (⟨S1x128, .f32⟩ : BufTy).Contents (Elt F)),
    StableHlo.unary main_v724 main_v725 (broadcastInDim S50000x128 ![0, 1] bcast_S1x128_S50000x128_0_1 : (⟨S1x128, .f32⟩ : BufTy).Contents (Elt F) → (⟨S50000x128, .f32⟩ : BufTy).Contents (Elt F)),
    StableHlo.binary main_v715 main_v725 main_v726 (subf : (⟨S50000x128, .f32⟩ : BufTy).Contents (Elt F) → (⟨S50000x128, .f32⟩ : BufTy).Contents (Elt F) → (⟨S50000x128, .f32⟩ : BufTy).Contents (Elt F)),
    StableHlo.nullary main_cst_96 (constant S_ .f32 0x3727C5AC#32),
    StableHlo.unary main_cst_96 main_v727 (broadcastInDim S128 ![] bcast_S_S128 : (⟨S_, .f32⟩ : BufTy).Contents (Elt F) → (⟨S128, .f32⟩ : BufTy).Contents (Elt F)),
    StableHlo.binary main_v723 main_v727 main_v728 (addf : (⟨S128, .f32⟩ : BufTy).Contents (Elt F) → (⟨S128, .f32⟩ : BufTy).Contents (Elt F) → (⟨S128, .f32⟩ : BufTy).Contents (Elt F)),
    StableHlo.unary main_v728 main_v729 (Host.rsqrt : (⟨S128, .f32⟩ : BufTy).Contents (Elt F) → (⟨S128, .f32⟩ : BufTy).Contents (Elt F)),
    StableHlo.unary main_v729 main_v730 (broadcastInDim S1x128 ![1] bcast_S128_S1x128_1 : (⟨S128, .f32⟩ : BufTy).Contents (Elt F) → (⟨S1x128, .f32⟩ : BufTy).Contents (Elt F)),
    StableHlo.unary main_v730 main_v731 (broadcastInDim S50000x128 ![0, 1] bcast_S1x128_S50000x128_0_1 : (⟨S1x128, .f32⟩ : BufTy).Contents (Elt F) → (⟨S50000x128, .f32⟩ : BufTy).Contents (Elt F)),
    StableHlo.binary main_v726 main_v731 main_v732 (mulf : (⟨S50000x128, .f32⟩ : BufTy).Contents (Elt F) → (⟨S50000x128, .f32⟩ : BufTy).Contents (Elt F) → (⟨S50000x128, .f32⟩ : BufTy).Contents (Elt F)),
    StableHlo.unary main_v717 main_v733 (broadcastInDim S1x128 ![1] bcast_S128_S1x128_1 : (⟨S128, .f32⟩ : BufTy).Contents (Elt F) → (⟨S1x128, .f32⟩ : BufTy).Contents (Elt F)),
    StableHlo.unary main_v733 main_v734 (broadcastInDim S50000x128 ![0, 1] bcast_S1x128_S50000x128_0_1 : (⟨S1x128, .f32⟩ : BufTy).Contents (Elt F) → (⟨S50000x128, .f32⟩ : BufTy).Contents (Elt F)),
    StableHlo.binary main_v732 main_v734 main_v735 (mulf : (⟨S50000x128, .f32⟩ : BufTy).Contents (Elt F) → (⟨S50000x128, .f32⟩ : BufTy).Contents (Elt F) → (⟨S50000x128, .f32⟩ : BufTy).Contents (Elt F)),
    StableHlo.unary main_v719 main_v736 (broadcastInDim S1x128 ![1] bcast_S128_S1x128_1 : (⟨S128, .f32⟩ : BufTy).Contents (Elt F) → (⟨S1x128, .f32⟩ : BufTy).Contents (Elt F)),
    StableHlo.unary main_v736 main_v737 (broadcastInDim S50000x128 ![0, 1] bcast_S1x128_S50000x128_0_1 : (⟨S1x128, .f32⟩ : BufTy).Contents (Elt F) → (⟨S50000x128, .f32⟩ : BufTy).Contents (Elt F)),
    StableHlo.binary main_v735 main_v737 main_v738 (addf : (⟨S50000x128, .f32⟩ : BufTy).Contents (Elt F) → (⟨S50000x128, .f32⟩ : BufTy).Contents (Elt F) → (⟨S50000x128, .f32⟩ : BufTy).Contents (Elt F)),
    StableHlo.TRef.nullary main_call33.cst (constant S_ .f32 0x00000000#32),
    StableHlo.TRef.unary main_call33.cst main_call33.v0 (broadcastInDim S50000x128 ![] bcast_S_S50000x128),
    StableHlo.TRef.binary (.of main_v738 : StableHlo.TRef sig ⟨S50000x128, .f32⟩) main_call33.v0 main_call33.v1 maximumf,
    StableHlo.unary main_arg3 main_v740 ((extractStridedSlice S1x1 ![5, 1] · slices_S6x3_S1x1_5_1) : (⟨S6x3, .f32⟩ : BufTy).Contents (Elt F) → (⟨S1x1, .f32⟩ : BufTy).Contents (Elt F)),
    StableHlo.reshape main_v740 main_v741 rfl shapeCasts_S1x1_S_,
    StableHlo.unary main_v741 main_v742 (broadcastInDim S50000x128 ![] bcast_S_S50000x128 : (⟨S_, .f32⟩ : BufTy).Contents (Elt F) → (⟨S50000x128, .f32⟩ : BufTy).Contents (Elt F)),
    StableHlo.binary main_v742 main_v739 main_v743 (mulf : (⟨S50000x128, .f32⟩ : BufTy).Contents (Elt F) → (⟨S50000x128, .f32⟩ : BufTy).Contents (Elt F) → (⟨S50000x128, .f32⟩ : BufTy).Contents (Elt F)),
    StableHlo.binary main_v706 main_v743 main_v744 (addf : (⟨S50000x128, .f32⟩ : BufTy).Contents (Elt F) → (⟨S50000x128, .f32⟩ : BufTy).Contents (Elt F) → (⟨S50000x128, .f32⟩ : BufTy).Contents (Elt F)) ]

/-- The references these operations write, in order. -/
abbrev sg27_W : List (Ref sig .tc) :=
  [main_v707, main_v708, main_v709, main_v710, main_v711, main_v712, main_v713, main_v714, main_v715, main_v716, main_v717, main_v718, main_v719, main_cst_93, main_v720, main_cst_94, main_v721, main_v722, main_c_95, main_call32_cst, main_call32_v0, main_call32_v1, main_call32_cst_0, main_call32_v2, main_call32_v3, main_call32_v4, main_call32_v5, main_call32_v6, main_call32_v7, main_call32_cst_1, main_call32_v8, main_call32_cst_2, main_call32_v9, main_call32_v10, main_call32_v11, main_call32_cst_3, main_call32_v12, main_call32_cst_4, main_call32_call0_v0, main_call32_call0_v1, main_v723, main_v724, main_v725, main_v726, main_cst_96, main_v727, main_v728, main_v729, main_v730, main_v731, main_v732, main_v733, main_v734, main_v735, main_v736, main_v737, main_v738, main_call33_cst, main_call33_v0, main_v739, main_v740, main_v741, main_v742, main_v743, main_v744]

set_option maxHeartbeats 40000000 in
set_option maxRecDepth 8192 in
/-- Each operation writes its own result reference, the one listed at its place. -/
theorem sg27_writes : (sg27 : List (HloOp τ sig (Elt F))).Forall fun op => op.writes ⊆ (sg27_W.map (Proc.devRef (τ := τ) .tc)).toFinset :=
  ⟨(Finset.singleton_subset_iff (a := Proc.devRef (τ := τ) .tc main_v707)).mpr (List.mem_toFinset.mpr (List.mem_map_of_mem (by decide))),
   (Finset.singleton_subset_iff (a := Proc.devRef (τ := τ) .tc main_v708)).mpr (List.mem_toFinset.mpr (List.mem_map_of_mem (by decide))),
   (Finset.singleton_subset_iff (a := Proc.devRef (τ := τ) .tc main_v709)).mpr (List.mem_toFinset.mpr (List.mem_map_of_mem (by decide))),
   (Finset.singleton_subset_iff (a := Proc.devRef (τ := τ) .tc main_v710)).mpr (List.mem_toFinset.mpr (List.mem_map_of_mem (by decide))),
   (Finset.singleton_subset_iff (a := Proc.devRef (τ := τ) .tc main_v711)).mpr (List.mem_toFinset.mpr (List.mem_map_of_mem (by decide))),
   (Finset.singleton_subset_iff (a := Proc.devRef (τ := τ) .tc main_v712)).mpr (List.mem_toFinset.mpr (List.mem_map_of_mem (by decide))),
   (Finset.singleton_subset_iff (a := Proc.devRef (τ := τ) .tc main_v713)).mpr (List.mem_toFinset.mpr (List.mem_map_of_mem (by decide))),
   (Finset.singleton_subset_iff (a := Proc.devRef (τ := τ) .tc main_v714)).mpr (List.mem_toFinset.mpr (List.mem_map_of_mem (by decide))),
   (Finset.singleton_subset_iff (a := Proc.devRef (τ := τ) .tc main_v715)).mpr (List.mem_toFinset.mpr (List.mem_map_of_mem (by decide))),
   (Finset.singleton_subset_iff (a := Proc.devRef (τ := τ) .tc main_v716)).mpr (List.mem_toFinset.mpr (List.mem_map_of_mem (by decide))),
   (Finset.singleton_subset_iff (a := Proc.devRef (τ := τ) .tc main_v717)).mpr (List.mem_toFinset.mpr (List.mem_map_of_mem (by decide))),
   (Finset.singleton_subset_iff (a := Proc.devRef (τ := τ) .tc main_v718)).mpr (List.mem_toFinset.mpr (List.mem_map_of_mem (by decide))),
   (Finset.singleton_subset_iff (a := Proc.devRef (τ := τ) .tc main_v719)).mpr (List.mem_toFinset.mpr (List.mem_map_of_mem (by decide))),
   (Finset.singleton_subset_iff (a := Proc.devRef (τ := τ) .tc main_cst_93)).mpr (List.mem_toFinset.mpr (List.mem_map_of_mem (by decide))),
   (Finset.singleton_subset_iff (a := Proc.devRef (τ := τ) .tc main_v720)).mpr (List.mem_toFinset.mpr (List.mem_map_of_mem (by decide))),
   (Finset.singleton_subset_iff (a := Proc.devRef (τ := τ) .tc main_cst_94)).mpr (List.mem_toFinset.mpr (List.mem_map_of_mem (by decide))),
   (Finset.singleton_subset_iff (a := Proc.devRef (τ := τ) .tc main_v721)).mpr (List.mem_toFinset.mpr (List.mem_map_of_mem (by decide))),
   (Finset.singleton_subset_iff (a := Proc.devRef (τ := τ) .tc main_v722)).mpr (List.mem_toFinset.mpr (List.mem_map_of_mem (by decide))),
   (Finset.singleton_subset_iff (a := Proc.devRef (τ := τ) .tc main_c_95)).mpr (List.mem_toFinset.mpr (List.mem_map_of_mem (by decide))),
   (Finset.singleton_subset_iff (a := Proc.devRef (τ := τ) .tc main_call32_cst)).mpr (List.mem_toFinset.mpr (List.mem_map_of_mem (by decide))),
   (Finset.singleton_subset_iff (a := Proc.devRef (τ := τ) .tc main_call32_v0)).mpr (List.mem_toFinset.mpr (List.mem_map_of_mem (by decide))),
   (Finset.singleton_subset_iff (a := Proc.devRef (τ := τ) .tc main_call32_v1)).mpr (List.mem_toFinset.mpr (List.mem_map_of_mem (by decide))),
   (Finset.singleton_subset_iff (a := Proc.devRef (τ := τ) .tc main_call32_cst_0)).mpr (List.mem_toFinset.mpr (List.mem_map_of_mem (by decide))),
   (Finset.singleton_subset_iff (a := Proc.devRef (τ := τ) .tc main_call32_v2)).mpr (List.mem_toFinset.mpr (List.mem_map_of_mem (by decide))),
   (Finset.singleton_subset_iff (a := Proc.devRef (τ := τ) .tc main_call32_v3)).mpr (List.mem_toFinset.mpr (List.mem_map_of_mem (by decide))),
   (Finset.singleton_subset_iff (a := Proc.devRef (τ := τ) .tc main_call32_v4)).mpr (List.mem_toFinset.mpr (List.mem_map_of_mem (by decide))),
   (Finset.singleton_subset_iff (a := Proc.devRef (τ := τ) .tc main_call32_v5)).mpr (List.mem_toFinset.mpr (List.mem_map_of_mem (by decide))),
   (Finset.singleton_subset_iff (a := Proc.devRef (τ := τ) .tc main_call32_v6)).mpr (List.mem_toFinset.mpr (List.mem_map_of_mem (by decide))),
   (Finset.singleton_subset_iff (a := Proc.devRef (τ := τ) .tc main_call32_v7)).mpr (List.mem_toFinset.mpr (List.mem_map_of_mem (by decide))),
   (Finset.singleton_subset_iff (a := Proc.devRef (τ := τ) .tc main_call32_cst_1)).mpr (List.mem_toFinset.mpr (List.mem_map_of_mem (by decide))),
   (Finset.singleton_subset_iff (a := Proc.devRef (τ := τ) .tc main_call32_v8)).mpr (List.mem_toFinset.mpr (List.mem_map_of_mem (by decide))),
   (Finset.singleton_subset_iff (a := Proc.devRef (τ := τ) .tc main_call32_cst_2)).mpr (List.mem_toFinset.mpr (List.mem_map_of_mem (by decide))),
   (Finset.singleton_subset_iff (a := Proc.devRef (τ := τ) .tc main_call32_v9)).mpr (List.mem_toFinset.mpr (List.mem_map_of_mem (by decide))),
   (Finset.singleton_subset_iff (a := Proc.devRef (τ := τ) .tc main_call32_v10)).mpr (List.mem_toFinset.mpr (List.mem_map_of_mem (by decide))),
   (Finset.singleton_subset_iff (a := Proc.devRef (τ := τ) .tc main_call32_v11)).mpr (List.mem_toFinset.mpr (List.mem_map_of_mem (by decide))),
   (Finset.singleton_subset_iff (a := Proc.devRef (τ := τ) .tc main_call32_cst_3)).mpr (List.mem_toFinset.mpr (List.mem_map_of_mem (by decide))),
   (Finset.singleton_subset_iff (a := Proc.devRef (τ := τ) .tc main_call32_v12)).mpr (List.mem_toFinset.mpr (List.mem_map_of_mem (by decide))),
   (Finset.singleton_subset_iff (a := Proc.devRef (τ := τ) .tc main_call32_cst_4)).mpr (List.mem_toFinset.mpr (List.mem_map_of_mem (by decide))),
   (Finset.singleton_subset_iff (a := Proc.devRef (τ := τ) .tc main_call32_call0_v0)).mpr (List.mem_toFinset.mpr (List.mem_map_of_mem (by decide))),
   (Finset.singleton_subset_iff (a := Proc.devRef (τ := τ) .tc main_call32_call0_v1)).mpr (List.mem_toFinset.mpr (List.mem_map_of_mem (by decide))),
   (Finset.singleton_subset_iff (a := Proc.devRef (τ := τ) .tc main_v723)).mpr (List.mem_toFinset.mpr (List.mem_map_of_mem (by decide))),
   (Finset.singleton_subset_iff (a := Proc.devRef (τ := τ) .tc main_v724)).mpr (List.mem_toFinset.mpr (List.mem_map_of_mem (by decide))),
   (Finset.singleton_subset_iff (a := Proc.devRef (τ := τ) .tc main_v725)).mpr (List.mem_toFinset.mpr (List.mem_map_of_mem (by decide))),
   (Finset.singleton_subset_iff (a := Proc.devRef (τ := τ) .tc main_v726)).mpr (List.mem_toFinset.mpr (List.mem_map_of_mem (by decide))),
   (Finset.singleton_subset_iff (a := Proc.devRef (τ := τ) .tc main_cst_96)).mpr (List.mem_toFinset.mpr (List.mem_map_of_mem (by decide))),
   (Finset.singleton_subset_iff (a := Proc.devRef (τ := τ) .tc main_v727)).mpr (List.mem_toFinset.mpr (List.mem_map_of_mem (by decide))),
   (Finset.singleton_subset_iff (a := Proc.devRef (τ := τ) .tc main_v728)).mpr (List.mem_toFinset.mpr (List.mem_map_of_mem (by decide))),
   (Finset.singleton_subset_iff (a := Proc.devRef (τ := τ) .tc main_v729)).mpr (List.mem_toFinset.mpr (List.mem_map_of_mem (by decide))),
   (Finset.singleton_subset_iff (a := Proc.devRef (τ := τ) .tc main_v730)).mpr (List.mem_toFinset.mpr (List.mem_map_of_mem (by decide))),
   (Finset.singleton_subset_iff (a := Proc.devRef (τ := τ) .tc main_v731)).mpr (List.mem_toFinset.mpr (List.mem_map_of_mem (by decide))),
   (Finset.singleton_subset_iff (a := Proc.devRef (τ := τ) .tc main_v732)).mpr (List.mem_toFinset.mpr (List.mem_map_of_mem (by decide))),
   (Finset.singleton_subset_iff (a := Proc.devRef (τ := τ) .tc main_v733)).mpr (List.mem_toFinset.mpr (List.mem_map_of_mem (by decide))),
   (Finset.singleton_subset_iff (a := Proc.devRef (τ := τ) .tc main_v734)).mpr (List.mem_toFinset.mpr (List.mem_map_of_mem (by decide))),
   (Finset.singleton_subset_iff (a := Proc.devRef (τ := τ) .tc main_v735)).mpr (List.mem_toFinset.mpr (List.mem_map_of_mem (by decide))),
   (Finset.singleton_subset_iff (a := Proc.devRef (τ := τ) .tc main_v736)).mpr (List.mem_toFinset.mpr (List.mem_map_of_mem (by decide))),
   (Finset.singleton_subset_iff (a := Proc.devRef (τ := τ) .tc main_v737)).mpr (List.mem_toFinset.mpr (List.mem_map_of_mem (by decide))),
   (Finset.singleton_subset_iff (a := Proc.devRef (τ := τ) .tc main_v738)).mpr (List.mem_toFinset.mpr (List.mem_map_of_mem (by decide))),
   (Finset.singleton_subset_iff (a := Proc.devRef (τ := τ) .tc main_call33_cst)).mpr (List.mem_toFinset.mpr (List.mem_map_of_mem (by decide))),
   (Finset.singleton_subset_iff (a := Proc.devRef (τ := τ) .tc main_call33_v0)).mpr (List.mem_toFinset.mpr (List.mem_map_of_mem (by decide))),
   (Finset.singleton_subset_iff (a := Proc.devRef (τ := τ) .tc main_v739)).mpr (List.mem_toFinset.mpr (List.mem_map_of_mem (by decide))),
   (Finset.singleton_subset_iff (a := Proc.devRef (τ := τ) .tc main_v740)).mpr (List.mem_toFinset.mpr (List.mem_map_of_mem (by decide))),
   (Finset.singleton_subset_iff (a := Proc.devRef (τ := τ) .tc main_v741)).mpr (List.mem_toFinset.mpr (List.mem_map_of_mem (by decide))),
   (Finset.singleton_subset_iff (a := Proc.devRef (τ := τ) .tc main_v742)).mpr (List.mem_toFinset.mpr (List.mem_map_of_mem (by decide))),
   (Finset.singleton_subset_iff (a := Proc.devRef (τ := τ) .tc main_v743)).mpr (List.mem_toFinset.mpr (List.mem_map_of_mem (by decide))),
   (Finset.singleton_subset_iff (a := Proc.devRef (τ := τ) .tc main_v744)).mpr (List.mem_toFinset.mpr (List.mem_map_of_mem (by decide)))⟩

/-- A reference these operations do not write keeps its contents through them. -/
theorem sg27_keep (V : Valuation τ sig (Elt F)) (r : Ref sig .tc) (h : r ∉ sg27_W) :
    after sg27 V (Proc.devRef .tc r) = V (Proc.devRef .tc r) :=
  after_of_writes_sub sg27 V sg27_writes h

end Cert.ReferenceIdeal.HandV

end
-- ==== Proof.RV.TopSeg28.lean ====
import proofs.«414290_j6631429505478_3_alg».proof.Proof.Gen.ReferenceIdeal
import Idealize.ShloMosaic.Lib.StableHlo.Run

set_option Elab.async false

noncomputable section

namespace Cert.ReferenceIdeal.HandV

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
set_option maxRecDepth 8192 in
/-- Operations 1235 to 1299 of @main, in order (65 of them): from the one writing main_v745 to the one writing main_v782. -/
abbrev sg28 : List (HloOp τ sig (Elt F)) :=
  [ StableHlo.unary main_arg4 main_v745 ((extractStridedSlice S1x1x128x128 ![5, 2, 0, 0] · slices_S6x3x128x128_S1x1x128x128_5_2_0_0) : (⟨S6x3x128x128, .f32⟩ : BufTy).Contents (Elt F) → (⟨S1x1x128x128, .f32⟩ : BufTy).Contents (Elt F)),
    StableHlo.reshape main_v745 main_v746 rfl shapeCasts_S1x1x128x128_S128x128,
    StableHlo.unary main_v746 main_v747 ((transpose S128x128 [1, 0] · transposes_S128x128_S128x128_1_0) : (⟨S128x128, .f32⟩ : BufTy).Contents (Elt F) → (⟨S128x128, .f32⟩ : BufTy).Contents (Elt F)),
    StableHlo.binary main_arg2 main_v747 main_v748 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg5 main_v749 ((extractStridedSlice S1x1x128 ![5, 2, 0] · slices_S6x3x128_S1x1x128_5_2_0) : (⟨S6x3x128, .f32⟩ : BufTy).Contents (Elt F) → (⟨S1x1x128, .f32⟩ : BufTy).Contents (Elt F)),
    StableHlo.reshape main_v749 main_v750 rfl shapeCasts_S1x1x128_S128,
    StableHlo.unary main_v750 main_v751 (broadcastInDim S1x128 ![1] bcast_S128_S1x128_1 : (⟨S128, .f32⟩ : BufTy).Contents (Elt F) → (⟨S1x128, .f32⟩ : BufTy).Contents (Elt F)),
    StableHlo.unary main_v751 main_v752 (broadcastInDim S50000x128 ![0, 1] bcast_S1x128_S50000x128_0_1 : (⟨S1x128, .f32⟩ : BufTy).Contents (Elt F) → (⟨S50000x128, .f32⟩ : BufTy).Contents (Elt F)),
    StableHlo.binary main_v748 main_v752 main_v753 (addf : (⟨S50000x128, .f32⟩ : BufTy).Contents (Elt F) → (⟨S50000x128, .f32⟩ : BufTy).Contents (Elt F) → (⟨S50000x128, .f32⟩ : BufTy).Contents (Elt F)),
    StableHlo.unary main_arg6 main_v754 ((extractStridedSlice S1x1x128 ![5, 2, 0] · slices_S6x3x128_S1x1x128_5_2_0) : (⟨S6x3x128, .f32⟩ : BufTy).Contents (Elt F) → (⟨S1x1x128, .f32⟩ : BufTy).Contents (Elt F)),
    StableHlo.reshape main_v754 main_v755 rfl shapeCasts_S1x1x128_S128,
    StableHlo.unary main_arg7 main_v756 ((extractStridedSlice S1x1x128 ![5, 2, 0] · slices_S6x3x128_S1x1x128_5_2_0) : (⟨S6x3x128, .f32⟩ : BufTy).Contents (Elt F) → (⟨S1x1x128, .f32⟩ : BufTy).Contents (Elt F)),
    StableHlo.reshape main_v756 main_v757 rfl shapeCasts_S1x1x128_S128,
    StableHlo.nullary main_cst_97 (constant S_ .f32 0x00000000#32),
    StableHlo.binary main_v753 main_cst_97 main_v758 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_98 (constant S_ .f32 0x47435000#32),
    StableHlo.unary main_cst_98 main_v759 (broadcastInDim S128 ![] bcast_S_S128 : (⟨S_, .f32⟩ : BufTy).Contents (Elt F) → (⟨S128, .f32⟩ : BufTy).Contents (Elt F)),
    StableHlo.binary main_v758 main_v759 main_v760 (Host.divf : (⟨S128, .f32⟩ : BufTy).Contents (Elt F) → (⟨S128, .f32⟩ : BufTy).Contents (Elt F) → (⟨S128, .f32⟩ : BufTy).Contents (Elt F)),
    StableHlo.nullary main_c_99 (constantI S_ 32 0#32),
    StableHlo.TRef.nullary main_call34.cst (constant S_ .f32 0x00000000#32),
    StableHlo.TRef.binary (.of main_v753 : StableHlo.TRef sig ⟨S50000x128, .f32⟩) main_call34.cst main_call34.v0 (fun x v => Host.reduceAdd x v reducesTo_S50000x128_S128_d0 h_S_),
    StableHlo.TRef.unary main_call34.v0 main_call34.v1 (broadcastInDim S1x128 ![1] bcast_S128_S1x128_1),
    StableHlo.TRef.nullary main_call34.cst_0 (constant S_ .f32 0x47435000#32),
    StableHlo.TRef.unary main_call34.cst_0 main_call34.v2 (broadcastInDim S1x128 ![] bcast_S_S1x128),
    StableHlo.TRef.binary main_call34.v1 main_call34.v2 main_call34.v3 Host.divf,
    StableHlo.TRef.unary main_call34.v3 main_call34.v4 (broadcastInDim S50000x128 ![0, 1] bcast_S1x128_S50000x128_0_1),
    StableHlo.TRef.binary (.of main_v753 : StableHlo.TRef sig ⟨S50000x128, .f32⟩) main_call34.v4 main_call34.v5 subf,
    StableHlo.TRef.binary main_call34.v5 main_call34.v5 main_call34.v6 mulf,
    StableHlo.TRef.unary (.of main_c_99 : StableHlo.TRef sig ⟨S_, .i32⟩) main_call34.v7 (sitofp .f32),
    StableHlo.TRef.nullary main_call34.cst_1 (constant S_ .f32 0x47435000#32),
    StableHlo.TRef.binary main_call34.cst_1 main_call34.v7 main_call34.v8 subf,
    StableHlo.TRef.nullary main_call34.cst_2 (constant S_ .f32 0x00000000#32),
    StableHlo.TRef.binary main_call34.v6 main_call34.cst_2 main_call34.v9 (fun x v => Host.reduceAdd x v reducesTo_S50000x128_S128_d0 h_S_),
    StableHlo.TRef.unary main_call34.v8 main_call34.v10 (broadcastInDim S128 ![] bcast_S_S128),
    StableHlo.TRef.binary main_call34.v9 main_call34.v10 main_call34.v11 Host.divf,
    StableHlo.TRef.nullary main_call34.cst_3 (constant S_ .f32 0x00000000#32),
    StableHlo.TRef.binary main_call34.v8 main_call34.cst_3 main_call34.v12 (cmpf .ogt),
    StableHlo.TRef.nullary main_call34.cst_4 (constant S_ .f32 0x7FC00000#32),
    StableHlo.TRef.unary main_call34.cst_4 main_call34.call0.v0 id,
    StableHlo.TRef.unary main_call34.call0.v0 main_call34.call0.v1 (broadcastInDim S128 ![] bcast_S_S128),
    StableHlo.TRef.ternary main_call34.v12 main_call34.v11 main_call34.call0.v1 main_call34.call0.v2 (fun p a b => select (broadcastInDim S128 ![] bcast_S_S128 p) a b),
    StableHlo.unary main_v760 main_v762 (broadcastInDim S1x128 ![1] bcast_S128_S1x128_1 : (⟨S128, .f32⟩ : BufTy).Contents (Elt F) → (⟨S1x128, .f32⟩ : BufTy).Contents (Elt F)),
    StableHlo.unary main_v762 main_v763 (broadcastInDim S50000x128 ![0, 1] bcast_S1x128_S50000x128_0_1 : (⟨S1x128, .f32⟩ : BufTy).Contents (Elt F) → (⟨S50000x128, .f32⟩ : BufTy).Contents (Elt F)),
    StableHlo.binary main_v753 main_v763 main_v764 (subf : (⟨S50000x128, .f32⟩ : BufTy).Contents (Elt F) → (⟨S50000x128, .f32⟩ : BufTy).Contents (Elt F) → (⟨S50000x128, .f32⟩ : BufTy).Contents (Elt F)),
    StableHlo.nullary main_cst_100 (constant S_ .f32 0x3727C5AC#32),
    StableHlo.unary main_cst_100 main_v765 (broadcastInDim S128 ![] bcast_S_S128 : (⟨S_, .f32⟩ : BufTy).Contents (Elt F) → (⟨S128, .f32⟩ : BufTy).Contents (Elt F)),
    StableHlo.binary main_v761 main_v765 main_v766 (addf : (⟨S128, .f32⟩ : BufTy).Contents (Elt F) → (⟨S128, .f32⟩ : BufTy).Contents (Elt F) → (⟨S128, .f32⟩ : BufTy).Contents (Elt F)),
    StableHlo.unary main_v766 main_v767 (Host.rsqrt : (⟨S128, .f32⟩ : BufTy).Contents (Elt F) → (⟨S128, .f32⟩ : BufTy).Contents (Elt F)),
    StableHlo.unary main_v767 main_v768 (broadcastInDim S1x128 ![1] bcast_S128_S1x128_1 : (⟨S128, .f32⟩ : BufTy).Contents (Elt F) → (⟨S1x128, .f32⟩ : BufTy).Contents (Elt F)),
    StableHlo.unary main_v768 main_v769 (broadcastInDim S50000x128 ![0, 1] bcast_S1x128_S50000x128_0_1 : (⟨S1x128, .f32⟩ : BufTy).Contents (Elt F) → (⟨S50000x128, .f32⟩ : BufTy).Contents (Elt F)),
    StableHlo.binary main_v764 main_v769 main_v770 (mulf : (⟨S50000x128, .f32⟩ : BufTy).Contents (Elt F) → (⟨S50000x128, .f32⟩ : BufTy).Contents (Elt F) → (⟨S50000x128, .f32⟩ : BufTy).Contents (Elt F)),
    StableHlo.unary main_v755 main_v771 (broadcastInDim S1x128 ![1] bcast_S128_S1x128_1 : (⟨S128, .f32⟩ : BufTy).Contents (Elt F) → (⟨S1x128, .f32⟩ : BufTy).Contents (Elt F)),
    StableHlo.unary main_v771 main_v772 (broadcastInDim S50000x128 ![0, 1] bcast_S1x128_S50000x128_0_1 : (⟨S1x128, .f32⟩ : BufTy).Contents (Elt F) → (⟨S50000x128, .f32⟩ : BufTy).Contents (Elt F)),
    StableHlo.binary main_v770 main_v772 main_v773 (mulf : (⟨S50000x128, .f32⟩ : BufTy).Contents (Elt F) → (⟨S50000x128, .f32⟩ : BufTy).Contents (Elt F) → (⟨S50000x128, .f32⟩ : BufTy).Contents (Elt F)),
    StableHlo.unary main_v757 main_v774 (broadcastInDim S1x128 ![1] bcast_S128_S1x128_1 : (⟨S128, .f32⟩ : BufTy).Contents (Elt F) → (⟨S1x128, .f32⟩ : BufTy).Contents (Elt F)),
    StableHlo.unary main_v774 main_v775 (broadcastInDim S50000x128 ![0, 1] bcast_S1x128_S50000x128_0_1 : (⟨S1x128, .f32⟩ : BufTy).Contents (Elt F) → (⟨S50000x128, .f32⟩ : BufTy).Contents (Elt F)),
    StableHlo.binary main_v773 main_v775 main_v776 (addf : (⟨S50000x128, .f32⟩ : BufTy).Contents (Elt F) → (⟨S50000x128, .f32⟩ : BufTy).Contents (Elt F) → (⟨S50000x128, .f32⟩ : BufTy).Contents (Elt F)),
    StableHlo.TRef.nullary main_call35.cst (constant S_ .f32 0x00000000#32),
    StableHlo.TRef.unary main_call35.cst main_call35.v0 (broadcastInDim S50000x128 ![] bcast_S_S50000x128),
    StableHlo.TRef.binary (.of main_v776 : StableHlo.TRef sig ⟨S50000x128, .f32⟩) main_call35.v0 main_call35.v1 maximumf,
    StableHlo.unary main_arg3 main_v778 ((extractStridedSlice S1x1 ![5, 2] · slices_S6x3_S1x1_5_2) : (⟨S6x3, .f32⟩ : BufTy).Contents (Elt F) → (⟨S1x1, .f32⟩ : BufTy).Contents (Elt F)),
    StableHlo.reshape main_v778 main_v779 rfl shapeCasts_S1x1_S_,
    StableHlo.unary main_v779 main_v780 (broadcastInDim S50000x128 ![] bcast_S_S50000x128 : (⟨S_, .f32⟩ : BufTy).Contents (Elt F) → (⟨S50000x128, .f32⟩ : BufTy).Contents (Elt F)),
    StableHlo.binary main_v780 main_v777 main_v781 (mulf : (⟨S50000x128, .f32⟩ : BufTy).Contents (Elt F) → (⟨S50000x128, .f32⟩ : BufTy).Contents (Elt F) → (⟨S50000x128, .f32⟩ : BufTy).Contents (Elt F)),
    StableHlo.binary main_v744 main_v781 main_v782 (addf : (⟨S50000x128, .f32⟩ : BufTy).Contents (Elt F) → (⟨S50000x128, .f32⟩ : BufTy).Contents (Elt F) → (⟨S50000x128, .f32⟩ : BufTy).Contents (Elt F)) ]

/-- The references these operations write, in order. -/
abbrev sg28_W : List (Ref sig .tc) :=
  [main_v745, main_v746, main_v747, main_v748, main_v749, main_v750, main_v751, main_v752, main_v753, main_v754, main_v755, main_v756, main_v757, main_cst_97, main_v758, main_cst_98, main_v759, main_v760, main_c_99, main_call34_cst, main_call34_v0, main_call34_v1, main_call34_cst_0, main_call34_v2, main_call34_v3, main_call34_v4, main_call34_v5, main_call34_v6, main_call34_v7, main_call34_cst_1, main_call34_v8, main_call34_cst_2, main_call34_v9, main_call34_v10, main_call34_v11, main_call34_cst_3, main_call34_v12, main_call34_cst_4, main_call34_call0_v0, main_call34_call0_v1, main_v761, main_v762, main_v763, main_v764, main_cst_100, main_v765, main_v766, main_v767, main_v768, main_v769, main_v770, main_v771, main_v772, main_v773, main_v774, main_v775, main_v776, main_call35_cst, main_call35_v0, main_v777, main_v778, main_v779, main_v780, main_v781, main_v782]

set_option maxHeartbeats 40000000 in
set_option maxRecDepth 8192 in
/-- Each operation writes its own result reference, the one listed at its place. -/
theorem sg28_writes : (sg28 : List (HloOp τ sig (Elt F))).Forall fun op => op.writes ⊆ (sg28_W.map (Proc.devRef (τ := τ) .tc)).toFinset :=
  ⟨(Finset.singleton_subset_iff (a := Proc.devRef (τ := τ) .tc main_v745)).mpr (List.mem_toFinset.mpr (List.mem_map_of_mem (by decide))),
   (Finset.singleton_subset_iff (a := Proc.devRef (τ := τ) .tc main_v746)).mpr (List.mem_toFinset.mpr (List.mem_map_of_mem (by decide))),
   (Finset.singleton_subset_iff (a := Proc.devRef (τ := τ) .tc main_v747)).mpr (List.mem_toFinset.mpr (List.mem_map_of_mem (by decide))),
   (Finset.singleton_subset_iff (a := Proc.devRef (τ := τ) .tc main_v748)).mpr (List.mem_toFinset.mpr (List.mem_map_of_mem (by decide))),
   (Finset.singleton_subset_iff (a := Proc.devRef (τ := τ) .tc main_v749)).mpr (List.mem_toFinset.mpr (List.mem_map_of_mem (by decide))),
   (Finset.singleton_subset_iff (a := Proc.devRef (τ := τ) .tc main_v750)).mpr (List.mem_toFinset.mpr (List.mem_map_of_mem (by decide))),
   (Finset.singleton_subset_iff (a := Proc.devRef (τ := τ) .tc main_v751)).mpr (List.mem_toFinset.mpr (List.mem_map_of_mem (by decide))),
   (Finset.singleton_subset_iff (a := Proc.devRef (τ := τ) .tc main_v752)).mpr (List.mem_toFinset.mpr (List.mem_map_of_mem (by decide))),
   (Finset.singleton_subset_iff (a := Proc.devRef (τ := τ) .tc main_v753)).mpr (List.mem_toFinset.mpr (List.mem_map_of_mem (by decide))),
   (Finset.singleton_subset_iff (a := Proc.devRef (τ := τ) .tc main_v754)).mpr (List.mem_toFinset.mpr (List.mem_map_of_mem (by decide))),
   (Finset.singleton_subset_iff (a := Proc.devRef (τ := τ) .tc main_v755)).mpr (List.mem_toFinset.mpr (List.mem_map_of_mem (by decide))),
   (Finset.singleton_subset_iff (a := Proc.devRef (τ := τ) .tc main_v756)).mpr (List.mem_toFinset.mpr (List.mem_map_of_mem (by decide))),
   (Finset.singleton_subset_iff (a := Proc.devRef (τ := τ) .tc main_v757)).mpr (List.mem_toFinset.mpr (List.mem_map_of_mem (by decide))),
   (Finset.singleton_subset_iff (a := Proc.devRef (τ := τ) .tc main_cst_97)).mpr (List.mem_toFinset.mpr (List.mem_map_of_mem (by decide))),
   (Finset.singleton_subset_iff (a := Proc.devRef (τ := τ) .tc main_v758)).mpr (List.mem_toFinset.mpr (List.mem_map_of_mem (by decide))),
   (Finset.singleton_subset_iff (a := Proc.devRef (τ := τ) .tc main_cst_98)).mpr (List.mem_toFinset.mpr (List.mem_map_of_mem (by decide))),
   (Finset.singleton_subset_iff (a := Proc.devRef (τ := τ) .tc main_v759)).mpr (List.mem_toFinset.mpr (List.mem_map_of_mem (by decide))),
   (Finset.singleton_subset_iff (a := Proc.devRef (τ := τ) .tc main_v760)).mpr (List.mem_toFinset.mpr (List.mem_map_of_mem (by decide))),
   (Finset.singleton_subset_iff (a := Proc.devRef (τ := τ) .tc main_c_99)).mpr (List.mem_toFinset.mpr (List.mem_map_of_mem (by decide))),
   (Finset.singleton_subset_iff (a := Proc.devRef (τ := τ) .tc main_call34_cst)).mpr (List.mem_toFinset.mpr (List.mem_map_of_mem (by decide))),
   (Finset.singleton_subset_iff (a := Proc.devRef (τ := τ) .tc main_call34_v0)).mpr (List.mem_toFinset.mpr (List.mem_map_of_mem (by decide))),
   (Finset.singleton_subset_iff (a := Proc.devRef (τ := τ) .tc main_call34_v1)).mpr (List.mem_toFinset.mpr (List.mem_map_of_mem (by decide))),
   (Finset.singleton_subset_iff (a := Proc.devRef (τ := τ) .tc main_call34_cst_0)).mpr (List.mem_toFinset.mpr (List.mem_map_of_mem (by decide))),
   (Finset.singleton_subset_iff (a := Proc.devRef (τ := τ) .tc main_call34_v2)).mpr (List.mem_toFinset.mpr (List.mem_map_of_mem (by decide))),
   (Finset.singleton_subset_iff (a := Proc.devRef (τ := τ) .tc main_call34_v3)).mpr (List.mem_toFinset.mpr (List.mem_map_of_mem (by decide))),
   (Finset.singleton_subset_iff (a := Proc.devRef (τ := τ) .tc main_call34_v4)).mpr (List.mem_toFinset.mpr (List.mem_map_of_mem (by decide))),
   (Finset.singleton_subset_iff (a := Proc.devRef (τ := τ) .tc main_call34_v5)).mpr (List.mem_toFinset.mpr (List.mem_map_of_mem (by decide))),
   (Finset.singleton_subset_iff (a := Proc.devRef (τ := τ) .tc main_call34_v6)).mpr (List.mem_toFinset.mpr (List.mem_map_of_mem (by decide))),
   (Finset.singleton_subset_iff (a := Proc.devRef (τ := τ) .tc main_call34_v7)).mpr (List.mem_toFinset.mpr (List.mem_map_of_mem (by decide))),
   (Finset.singleton_subset_iff (a := Proc.devRef (τ := τ) .tc main_call34_cst_1)).mpr (List.mem_toFinset.mpr (List.mem_map_of_mem (by decide))),
   (Finset.singleton_subset_iff (a := Proc.devRef (τ := τ) .tc main_call34_v8)).mpr (List.mem_toFinset.mpr (List.mem_map_of_mem (by decide))),
   (Finset.singleton_subset_iff (a := Proc.devRef (τ := τ) .tc main_call34_cst_2)).mpr (List.mem_toFinset.mpr (List.mem_map_of_mem (by decide))),
   (Finset.singleton_subset_iff (a := Proc.devRef (τ := τ) .tc main_call34_v9)).mpr (List.mem_toFinset.mpr (List.mem_map_of_mem (by decide))),
   (Finset.singleton_subset_iff (a := Proc.devRef (τ := τ) .tc main_call34_v10)).mpr (List.mem_toFinset.mpr (List.mem_map_of_mem (by decide))),
   (Finset.singleton_subset_iff (a := Proc.devRef (τ := τ) .tc main_call34_v11)).mpr (List.mem_toFinset.mpr (List.mem_map_of_mem (by decide))),
   (Finset.singleton_subset_iff (a := Proc.devRef (τ := τ) .tc main_call34_cst_3)).mpr (List.mem_toFinset.mpr (List.mem_map_of_mem (by decide))),
   (Finset.singleton_subset_iff (a := Proc.devRef (τ := τ) .tc main_call34_v12)).mpr (List.mem_toFinset.mpr (List.mem_map_of_mem (by decide))),
   (Finset.singleton_subset_iff (a := Proc.devRef (τ := τ) .tc main_call34_cst_4)).mpr (List.mem_toFinset.mpr (List.mem_map_of_mem (by decide))),
   (Finset.singleton_subset_iff (a := Proc.devRef (τ := τ) .tc main_call34_call0_v0)).mpr (List.mem_toFinset.mpr (List.mem_map_of_mem (by decide))),
   (Finset.singleton_subset_iff (a := Proc.devRef (τ := τ) .tc main_call34_call0_v1)).mpr (List.mem_toFinset.mpr (List.mem_map_of_mem (by decide))),
   (Finset.singleton_subset_iff (a := Proc.devRef (τ := τ) .tc main_v761)).mpr (List.mem_toFinset.mpr (List.mem_map_of_mem (by decide))),
   (Finset.singleton_subset_iff (a := Proc.devRef (τ := τ) .tc main_v762)).mpr (List.mem_toFinset.mpr (List.mem_map_of_mem (by decide))),
   (Finset.singleton_subset_iff (a := Proc.devRef (τ := τ) .tc main_v763)).mpr (List.mem_toFinset.mpr (List.mem_map_of_mem (by decide))),
   (Finset.singleton_subset_iff (a := Proc.devRef (τ := τ) .tc main_v764)).mpr (List.mem_toFinset.mpr (List.mem_map_of_mem (by decide))),
   (Finset.singleton_subset_iff (a := Proc.devRef (τ := τ) .tc main_cst_100)).mpr (List.mem_toFinset.mpr (List.mem_map_of_mem (by decide))),
   (Finset.singleton_subset_iff (a := Proc.devRef (τ := τ) .tc main_v765)).mpr (List.mem_toFinset.mpr (List.mem_map_of_mem (by decide))),
   (Finset.singleton_subset_iff (a := Proc.devRef (τ := τ) .tc main_v766)).mpr (List.mem_toFinset.mpr (List.mem_map_of_mem (by decide))),
   (Finset.singleton_subset_iff (a := Proc.devRef (τ := τ) .tc main_v767)).mpr (List.mem_toFinset.mpr (List.mem_map_of_mem (by decide))),
   (Finset.singleton_subset_iff (a := Proc.devRef (τ := τ) .tc main_v768)).mpr (List.mem_toFinset.mpr (List.mem_map_of_mem (by decide))),
   (Finset.singleton_subset_iff (a := Proc.devRef (τ := τ) .tc main_v769)).mpr (List.mem_toFinset.mpr (List.mem_map_of_mem (by decide))),
   (Finset.singleton_subset_iff (a := Proc.devRef (τ := τ) .tc main_v770)).mpr (List.mem_toFinset.mpr (List.mem_map_of_mem (by decide))),
   (Finset.singleton_subset_iff (a := Proc.devRef (τ := τ) .tc main_v771)).mpr (List.mem_toFinset.mpr (List.mem_map_of_mem (by decide))),
   (Finset.singleton_subset_iff (a := Proc.devRef (τ := τ) .tc main_v772)).mpr (List.mem_toFinset.mpr (List.mem_map_of_mem (by decide))),
   (Finset.singleton_subset_iff (a := Proc.devRef (τ := τ) .tc main_v773)).mpr (List.mem_toFinset.mpr (List.mem_map_of_mem (by decide))),
   (Finset.singleton_subset_iff (a := Proc.devRef (τ := τ) .tc main_v774)).mpr (List.mem_toFinset.mpr (List.mem_map_of_mem (by decide))),
   (Finset.singleton_subset_iff (a := Proc.devRef (τ := τ) .tc main_v775)).mpr (List.mem_toFinset.mpr (List.mem_map_of_mem (by decide))),
   (Finset.singleton_subset_iff (a := Proc.devRef (τ := τ) .tc main_v776)).mpr (List.mem_toFinset.mpr (List.mem_map_of_mem (by decide))),
   (Finset.singleton_subset_iff (a := Proc.devRef (τ := τ) .tc main_call35_cst)).mpr (List.mem_toFinset.mpr (List.mem_map_of_mem (by decide))),
   (Finset.singleton_subset_iff (a := Proc.devRef (τ := τ) .tc main_call35_v0)).mpr (List.mem_toFinset.mpr (List.mem_map_of_mem (by decide))),
   (Finset.singleton_subset_iff (a := Proc.devRef (τ := τ) .tc main_v777)).mpr (List.mem_toFinset.mpr (List.mem_map_of_mem (by decide))),
   (Finset.singleton_subset_iff (a := Proc.devRef (τ := τ) .tc main_v778)).mpr (List.mem_toFinset.mpr (List.mem_map_of_mem (by decide))),
   (Finset.singleton_subset_iff (a := Proc.devRef (τ := τ) .tc main_v779)).mpr (List.mem_toFinset.mpr (List.mem_map_of_mem (by decide))),
   (Finset.singleton_subset_iff (a := Proc.devRef (τ := τ) .tc main_v780)).mpr (List.mem_toFinset.mpr (List.mem_map_of_mem (by decide))),
   (Finset.singleton_subset_iff (a := Proc.devRef (τ := τ) .tc main_v781)).mpr (List.mem_toFinset.mpr (List.mem_map_of_mem (by decide))),
   (Finset.singleton_subset_iff (a := Proc.devRef (τ := τ) .tc main_v782)).mpr (List.mem_toFinset.mpr (List.mem_map_of_mem (by decide)))⟩

/-- A reference these operations do not write keeps its contents through them. -/
theorem sg28_keep (V : Valuation τ sig (Elt F)) (r : Ref sig .tc) (h : r ∉ sg28_W) :
    after sg28 V (Proc.devRef .tc r) = V (Proc.devRef .tc r) :=
  after_of_writes_sub sg28 V sg28_writes h

end Cert.ReferenceIdeal.HandV

end
-- ==== Proof.RV.TopSeg29.lean ====
import proofs.«414290_j6631429505478_3_alg».proof.Proof.Gen.ReferenceIdeal
import Idealize.ShloMosaic.Lib.StableHlo.Run

set_option Elab.async false

noncomputable section

namespace Cert.ReferenceIdeal.HandV

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
set_option maxRecDepth 8192 in
/-- Operations 1300 to 1304 of @main, in order (5 of them): from the one writing main_v783 to the one writing main_v787. -/
abbrev sg29 : List (HloOp τ sig (Elt F)) :=
  [ StableHlo.binary main_v655 main_v782 main_v783 (addf : (⟨S50000x128, .f32⟩ : BufTy).Contents (Elt F) → (⟨S50000x128, .f32⟩ : BufTy).Contents (Elt F) → (⟨S50000x128, .f32⟩ : BufTy).Contents (Elt F)),
    StableHlo.unary main_v141 main_v784 (broadcastInDim S1x50000x128 ![1, 2] bcast_S50000x128_S1x50000x128_1_2 : (⟨S50000x128, .f32⟩ : BufTy).Contents (Elt F) → (⟨S1x50000x128, .f32⟩ : BufTy).Contents (Elt F)),
    StableHlo.unary main_v398 main_v785 (broadcastInDim S1x50000x128 ![1, 2] bcast_S50000x128_S1x50000x128_1_2 : (⟨S50000x128, .f32⟩ : BufTy).Contents (Elt F) → (⟨S1x50000x128, .f32⟩ : BufTy).Contents (Elt F)),
    StableHlo.unary main_v783 main_v786 (broadcastInDim S1x50000x128 ![1, 2] bcast_S50000x128_S1x50000x128_1_2 : (⟨S50000x128, .f32⟩ : BufTy).Contents (Elt F) → (⟨S1x50000x128, .f32⟩ : BufTy).Contents (Elt F)),
    StableHlo.nary ![main_v784, main_v785, main_v786] main_v787 (fun u => concatenate S3x50000x128 0 [⟨S1x50000x128, u 0⟩, ⟨S1x50000x128, u 1⟩, ⟨S1x50000x128, u 2⟩] concatenates_S1x50000x128_S1x50000x128_S1x50000x128_S3x50000x128_d0) ]

/-- The references these operations write, in order. -/
abbrev sg29_W : List (Ref sig .tc) :=
  [main_v783, main_v784, main_v785, main_v786, main_v787]

set_option maxHeartbeats 40000000 in
set_option maxRecDepth 8192 in
/-- Each operation writes its own result reference, the one listed at its place. -/
theorem sg29_writes : (sg29 : List (HloOp τ sig (Elt F))).Forall fun op => op.writes ⊆ (sg29_W.map (Proc.devRef (τ := τ) .tc)).toFinset :=
  ⟨(Finset.singleton_subset_iff (a := Proc.devRef (τ := τ) .tc main_v783)).mpr (List.mem_toFinset.mpr (List.mem_map_of_mem (by decide))),
   (Finset.singleton_subset_iff (a := Proc.devRef (τ := τ) .tc main_v784)).mpr (List.mem_toFinset.mpr (List.mem_map_of_mem (by decide))),
   (Finset.singleton_subset_iff (a := Proc.devRef (τ := τ) .tc main_v785)).mpr (List.mem_toFinset.mpr (List.mem_map_of_mem (by decide))),
   (Finset.singleton_subset_iff (a := Proc.devRef (τ := τ) .tc main_v786)).mpr (List.mem_toFinset.mpr (List.mem_map_of_mem (by decide))),
   (Finset.singleton_subset_iff (a := Proc.devRef (τ := τ) .tc main_v787)).mpr (List.mem_toFinset.mpr (List.mem_map_of_mem (by decide)))⟩

/-- A reference these operations do not write keeps its contents through them. -/
theorem sg29_keep (V : Valuation τ sig (Elt F)) (r : Ref sig .tc) (h : r ∉ sg29_W) :
    after sg29 V (Proc.devRef .tc r) = V (Proc.devRef .tc r) :=
  after_of_writes_sub sg29 V sg29_writes h

end Cert.ReferenceIdeal.HandV

end
-- ==== Proof.RV.TopVt.lean ====
import proofs.«414290_j6631429505478_3_alg».proof.Proof.RV.TopTerms
import proofs.«414290_j6631429505478_3_alg».proof.Proof.RV.TopSeg0
import proofs.«414290_j6631429505478_3_alg».proof.Proof.RV.TopSeg1
import proofs.«414290_j6631429505478_3_alg».proof.Proof.RV.TopSeg2
import proofs.«414290_j6631429505478_3_alg».proof.Proof.RV.TopSeg3
import proofs.«414290_j6631429505478_3_alg».proof.Proof.RV.TopSeg4
import proofs.«414290_j6631429505478_3_alg».proof.Proof.RV.TopSeg5
import proofs.«414290_j6631429505478_3_alg».proof.Proof.RV.TopSeg6
import proofs.«414290_j6631429505478_3_alg».proof.Proof.RV.TopSeg7
import proofs.«414290_j6631429505478_3_alg».proof.Proof.RV.TopSeg8
import proofs.«414290_j6631429505478_3_alg».proof.Proof.RV.TopSeg9
import proofs.«414290_j6631429505478_3_alg».proof.Proof.RV.TopSeg10
import proofs.«414290_j6631429505478_3_alg».proof.Proof.RV.TopSeg11
import proofs.«414290_j6631429505478_3_alg».proof.Proof.RV.TopSeg12
import proofs.«414290_j6631429505478_3_alg».proof.Proof.RV.TopSeg13
import proofs.«414290_j6631429505478_3_alg».proof.Proof.RV.TopSeg14
import proofs.«414290_j6631429505478_3_alg».proof.Proof.RV.TopSeg15
import proofs.«414290_j6631429505478_3_alg».proof.Proof.RV.TopSeg16
import proofs.«414290_j6631429505478_3_alg».proof.Proof.RV.TopSeg17
import proofs.«414290_j6631429505478_3_alg».proof.Proof.RV.TopSeg18
import proofs.«414290_j6631429505478_3_alg».proof.Proof.RV.TopSeg19
import proofs.«414290_j6631429505478_3_alg».proof.Proof.RV.TopSeg20
import proofs.«414290_j6631429505478_3_alg».proof.Proof.RV.TopSeg21
import proofs.«414290_j6631429505478_3_alg».proof.Proof.RV.TopSeg22
import proofs.«414290_j6631429505478_3_alg».proof.Proof.RV.TopSeg23
import proofs.«414290_j6631429505478_3_alg».proof.Proof.RV.TopSeg24
import proofs.«414290_j6631429505478_3_alg».proof.Proof.RV.TopSeg25
import proofs.«414290_j6631429505478_3_alg».proof.Proof.RV.TopSeg26
import proofs.«414290_j6631429505478_3_alg».proof.Proof.RV.TopSeg27
import proofs.«414290_j6631429505478_3_alg».proof.Proof.RV.TopSeg28
import proofs.«414290_j6631429505478_3_alg».proof.Proof.RV.TopSeg29

noncomputable section

namespace Cert.ReferenceIdeal.HandV

open Cert.ReferenceIdeal Cert.ReferenceIdeal.Gen Idealize.ShloMosaic Idealize.ShloMosaic.TcCoe Idealize.SL.Sem Idealize.ShloMosaic.StableHlo
open Idealize.ShloMosaic.ValueIdx

/-! # The buffers' contents at each cut of the operation list -/

variable (m' : (ℓ : Loc nD τ sig) → Buf (Elt Ideal) ℓ) (c : Dev nD)

/-- The eight arguments at launch, as arrays. -/
def argsOf : Args where
  e := m' ((c : Thread nD τ).loc main_arg0)
  H := m' ((c : Thread nD τ).loc main_arg1)
  Hin := m' ((c : Thread nD τ).loc main_arg2)
  w2 := m' ((c : Thread nD τ).loc main_arg3)
  W4 := m' ((c : Thread nD τ).loc main_arg4)
  b3 := m' ((c : Thread nD τ).loc main_arg5)
  g3 := m' ((c : Thread nD τ).loc main_arg6)
  be3 := m' ((c : Thread nD τ).loc main_arg7)

/-- The contents at launch. -/
def Vt0 : Valuation τ sig (Elt Ideal) := launchContents m' c
/-- The contents after the first 1 pieces. -/
def Vt1 : Valuation τ sig (Elt Ideal) := after (sg0 (F := Ideal)) (Vt0 m' c)
/-- The contents after the first 2 pieces. -/
def Vt2 : Valuation τ sig (Elt Ideal) := after (sg1 (F := Ideal)) (Vt1 m' c)
/-- The contents after the first 3 pieces. -/
def Vt3 : Valuation τ sig (Elt Ideal) := after (sg2 (F := Ideal)) (Vt2 m' c)
/-- The contents after the first 4 pieces. -/
def Vt4 : Valuation τ sig (Elt Ideal) := after (sg3 (F := Ideal)) (Vt3 m' c)
/-- The contents after the first 5 pieces. -/
def Vt5 : Valuation τ sig (Elt Ideal) := after (sg4 (F := Ideal)) (Vt4 m' c)
/-- The contents after the first 6 pieces. -/
def Vt6 : Valuation τ sig (Elt Ideal) := after (sg5 (F := Ideal)) (Vt5 m' c)
/-- The contents after the first 7 pieces. -/
def Vt7 : Valuation τ sig (Elt Ideal) := after (sg6 (F := Ideal)) (Vt6 m' c)
/-- The contents after the first 8 pieces. -/
def Vt8 : Valuation τ sig (Elt Ideal) := after (sg7 (F := Ideal)) (Vt7 m' c)
/-- The contents after the first 9 pieces. -/
def Vt9 : Valuation τ sig (Elt Ideal) := after (sg8 (F := Ideal)) (Vt8 m' c)
/-- The contents after the first 10 pieces. -/
def Vt10 : Valuation τ sig (Elt Ideal) := after (sg9 (F := Ideal)) (Vt9 m' c)
/-- The contents after the first 11 pieces. -/
def Vt11 : Valuation τ sig (Elt Ideal) := after (sg10 (F := Ideal)) (Vt10 m' c)
/-- The contents after the first 12 pieces. -/
def Vt12 : Valuation τ sig (Elt Ideal) := after (sg11 (F := Ideal)) (Vt11 m' c)
/-- The contents after the first 13 pieces. -/
def Vt13 : Valuation τ sig (Elt Ideal) := after (sg12 (F := Ideal)) (Vt12 m' c)
/-- The contents after the first 14 pieces. -/
def Vt14 : Valuation τ sig (Elt Ideal) := after (sg13 (F := Ideal)) (Vt13 m' c)
/-- The contents after the first 15 pieces. -/
def Vt15 : Valuation τ sig (Elt Ideal) := after (sg14 (F := Ideal)) (Vt14 m' c)
/-- The contents after the first 16 pieces. -/
def Vt16 : Valuation τ sig (Elt Ideal) := after (sg15 (F := Ideal)) (Vt15 m' c)
/-- The contents after the first 17 pieces. -/
def Vt17 : Valuation τ sig (Elt Ideal) := after (sg16 (F := Ideal)) (Vt16 m' c)
/-- The contents after the first 18 pieces. -/
def Vt18 : Valuation τ sig (Elt Ideal) := after (sg17 (F := Ideal)) (Vt17 m' c)
/-- The contents after the first 19 pieces. -/
def Vt19 : Valuation τ sig (Elt Ideal) := after (sg18 (F := Ideal)) (Vt18 m' c)
/-- The contents after the first 20 pieces. -/
def Vt20 : Valuation τ sig (Elt Ideal) := after (sg19 (F := Ideal)) (Vt19 m' c)
/-- The contents after the first 21 pieces. -/
def Vt21 : Valuation τ sig (Elt Ideal) := after (sg20 (F := Ideal)) (Vt20 m' c)
/-- The contents after the first 22 pieces. -/
def Vt22 : Valuation τ sig (Elt Ideal) := after (sg21 (F := Ideal)) (Vt21 m' c)
/-- The contents after the first 23 pieces. -/
def Vt23 : Valuation τ sig (Elt Ideal) := after (sg22 (F := Ideal)) (Vt22 m' c)
/-- The contents after the first 24 pieces. -/
def Vt24 : Valuation τ sig (Elt Ideal) := after (sg23 (F := Ideal)) (Vt23 m' c)
/-- The contents after the first 25 pieces. -/
def Vt25 : Valuation τ sig (Elt Ideal) := after (sg24 (F := Ideal)) (Vt24 m' c)
/-- The contents after the first 26 pieces. -/
def Vt26 : Valuation τ sig (Elt Ideal) := after (sg25 (F := Ideal)) (Vt25 m' c)
/-- The contents after the first 27 pieces. -/
def Vt27 : Valuation τ sig (Elt Ideal) := after (sg26 (F := Ideal)) (Vt26 m' c)
/-- The contents after the first 28 pieces. -/
def Vt28 : Valuation τ sig (Elt Ideal) := after (sg27 (F := Ideal)) (Vt27 m' c)
/-- The contents after the first 29 pieces. -/
def Vt29 : Valuation τ sig (Elt Ideal) := after (sg28 (F := Ideal)) (Vt28 m' c)
/-- The contents after the first 30 pieces. -/
def Vt30 : Valuation τ sig (Elt Ideal) := after (sg29 (F := Ideal)) (Vt29 m' c)

end Cert.ReferenceIdeal.HandV
end
-- ==== Proof.RV.TopIdT.lean ====
import proofs.«414290_j6631429505478_3_alg».proof.Proof.RV.TopTerms
import proofs.«414290_j6631429505478_3_alg».proof.Proof.RV.TopSeg4
import proofs.«414290_j6631429505478_3_alg».proof.Proof.RV.TopSeg9
import proofs.«414290_j6631429505478_3_alg».proof.Proof.RV.TopSeg14
import proofs.«414290_j6631429505478_3_alg».proof.Proof.RV.TopSeg19
import proofs.«414290_j6631429505478_3_alg».proof.Proof.RV.TopSeg24
import proofs.«414290_j6631429505478_3_alg».proof.Proof.RV.TopSeg29

noncomputable section

namespace Cert.ReferenceIdeal.HandV

open Cert.ReferenceIdeal Cert.ReferenceIdeal.Gen Idealize.ShloMosaic Idealize.ShloMosaic.TcCoe Idealize.SL.Sem Idealize.ShloMosaic.StableHlo
open Idealize.ShloMosaic.ValueIdx

/-! # The sums of the operations' results into the states, and the stack, as terms over the contents before -/

section
variable {Val : EltTy → Type} {x a b y : Ref sig .tc}
/-- A three-operand operation's result, each operand's contents at its own reference. -/
theorem nary3_result
    (f : ((k : Fin 3) → ((![x, a, b] : Fin 3 → Ref sig .tc) k).ty.Contents Val) → y.ty.Contents Val) (hxs hy)
    (G : Valuation τ sig Val) :
    (nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [nary_result]; congr 1; funext k; fin_cases k <;> rfl
/-- The same, its result reference left out of the index of rewriting rules. -/
theorem nary3_result'
    (f : ((k : Fin 3) → ((![x, a, b] : Fin 3 → Ref sig .tc) k).ty.Contents Val) → y.ty.Contents Val) (hxs hy)
    (G : Valuation τ sig Val) :
    (nary (τ := τ) ![x, a, b] y f hxs hy).result G (no_index (Proc.devRef .tc y))
      = f (Fin.cons (G (Proc.devRef .tc x)) (Fin.cons (G (Proc.devRef .tc a)) (Fin.cons (G (Proc.devRef .tc b)) (fun i => i.elim0)))) :=
  nary3_result f hxs hy G
end

/-- The first state: zero plus operation 0's sum. -/
theorem sg4_sum (X : Valuation τ sig (Elt Ideal)) :
    (after (sg4 (F := Ideal)) X (Proc.devRef .tc main_v141) : FVec Ideal S50000x128 .f32) = addf Z (X (Proc.devRef .tc main_v139)) := by
  after_results
  first | done | rfl

/-- The second state's first summand: zero plus operation 1's sum. -/
theorem sg9_sum (X : Valuation τ sig (Elt Ideal)) :
    (after (sg9 (F := Ideal)) X (Proc.devRef .tc main_v270) : FVec Ideal S50000x128 .f32) = addf Z (X (Proc.devRef .tc main_v268)) := by
  after_results
  first | done | rfl

/-- The second state: the first summand plus operation 2's sum. -/
theorem sg14_sum (X : Valuation τ sig (Elt Ideal)) :
    (after (sg14 (F := Ideal)) X (Proc.devRef .tc main_v398) : FVec Ideal S50000x128 .f32) = (addf (X (Proc.devRef .tc main_v270)) (X (Proc.devRef .tc main_v397)) : FVec Ideal S50000x128 .f32) := by
  after_results
  first | done | rfl

/-- The third state's first summand: zero plus operation 3's sum. -/
theorem sg19_sum (X : Valuation τ sig (Elt Ideal)) :
    (after (sg19 (F := Ideal)) X (Proc.devRef .tc main_v527) : FVec Ideal S50000x128 .f32) = addf Z (X (Proc.devRef .tc main_v525)) := by
  after_results
  first | done | rfl

/-- The third state's first two summands. -/
theorem sg24_sum (X : Valuation τ sig (Elt Ideal)) :
    (after (sg24 (F := Ideal)) X (Proc.devRef .tc main_v655) : FVec Ideal S50000x128 .f32) = (addf (X (Proc.devRef .tc main_v527)) (X (Proc.devRef .tc main_v654)) : FVec Ideal S50000x128 .f32) := by
  after_results
  first | done | rfl

set_option maxHeartbeats 4000000 in
/-- The third state and the stack of the three. -/
theorem sg29_stack (X : Valuation τ sig (Elt Ideal)) :
    (after (sg29 (F := Ideal)) X (Proc.devRef .tc main_v787) : FVec Ideal S3x50000x128 .f32)
      = stackT (X (Proc.devRef .tc main_v141)) (X (Proc.devRef .tc main_v398))
          (addf (X (Proc.devRef .tc main_v655)) (X (Proc.devRef .tc main_v782))) := by
  simp (disch := decide) only [after_cons, after_nil, nary3_result', unary_result', binary_result',
    unary_result_ne', binary_result_ne', nary_result_ne']
  rfl

end Cert.ReferenceIdeal.HandV
end
-- ==== Proof.RV.TopAggT.lean ====
import proofs.«414290_j6631429505478_3_alg».proof.Proof.Gen.ReferenceIdeal
import proofs.«414290_j6631429505478_3_alg».proof.Proof.Br.Agg

noncomputable section

namespace Cert.ReferenceIdeal.HandV

open Idealize.ShloMosaic
open Cert.ReferenceIdeal Cert.ReferenceIdeal.Gen

/-- The aggregation over already-cut operands: the rows of `x` at the wrapped sources, summed at the destinations
    from zero, times the inverse degrees. -/
def aggT (src dst : (⟨S800000, .i32⟩ : BufTy).Contents (Elt Ideal)) (inv : (⟨S50000x1, .f32⟩ : BufTy).Contents (Elt Ideal))
    (x : (⟨S50000x128, .f32⟩ : BufTy).Contents (Elt Ideal)) : (⟨S50000x128, .f32⟩ : BufTy).Contents (Elt Ideal) :=
  mulf (F := Ideal)
    (Host.scatterAdd (F := Ideal) scatter_S50000x128_S800000x1_S800000x128_1_0_0_1
      (broadcastInDim S50000x128 ![] bcast_S_S50000x128 (constant (F := Ideal) S_ .f32 0x00000000#32))
      (broadcastInDim S800000x1 ![0] bcast_S800000_S800000x1_0 dst)
      (Host.gather gather_S50000x128_S800000x1_S800000x128_1_0_n_n_0_1_1128 x
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32)))
            src))))
    (broadcastInDim S50000x128 ![0, 1] bcast_S50000x1_S50000x128_0_1 inv)

/-- The aggregation over the edge array is the one over its two rows and the inverse degrees. -/
theorem aggR_eq_aggT (e : (⟨S2x800000, .i32⟩ : BufTy).Contents (Elt Ideal)) (x : (⟨S50000x128, .f32⟩ : BufTy).Contents (Elt Ideal)) :
    Cert.Bridge.aggR e x = aggT (Cert.Bridge.srcR e) (Cert.Bridge.dstR e) (Cert.Bridge.invDegR e) x := rfl

end Cert.ReferenceIdeal.HandV
end
-- ==== Proof.RV.TopIdA.lean ====
import proofs.«414290_j6631429505478_3_alg».proof.Proof.RV.TopSeg0
import proofs.«414290_j6631429505478_3_alg».proof.Proof.RV.TopSeg5
import proofs.«414290_j6631429505478_3_alg».proof.Proof.RV.TopSeg10
import proofs.«414290_j6631429505478_3_alg».proof.Proof.RV.TopSeg15
import proofs.«414290_j6631429505478_3_alg».proof.Proof.RV.TopSeg20
import proofs.«414290_j6631429505478_3_alg».proof.Proof.RV.TopSeg25
import proofs.«414290_j6631429505478_3_alg».proof.Proof.RV.TopAggT
import Idealize.ShloMosaic.Lib.StableHlo.Run
import Idealize.ShloMosaic.PureOps.Ideal

noncomputable section

namespace Cert.ReferenceIdeal.HandV

open Cert.ReferenceIdeal Cert.ReferenceIdeal.Gen Idealize.ShloMosaic Idealize.ShloMosaic.TcCoe Idealize.SL.Sem Idealize.ShloMosaic.StableHlo

/-! The first piece cuts the edge array into its source and destination rows, counts the in-degrees and forms the
    first neighbour mean; each later aggregation piece forms the neighbour mean of its own operand from those rows
    and inverse degrees. Each fold, read at the buffer named, is the composed term by unfolding the fold. -/

set_option maxHeartbeats 4000000 in
set_option maxRecDepth 8192 in
/-- After the first piece the source row of the edge array is at its buffer. -/
theorem sg0_src (X : Valuation τ sig (Elt Ideal)) :
    (after (sg0 (F := Ideal)) X (Proc.devRef .tc main_v1) : (⟨S800000, .i32⟩ : BufTy).Contents (Elt Ideal))
      = Cert.Bridge.srcR (X (Proc.devRef .tc main_arg0)) := by
  after_results_simp
  rfl

set_option maxHeartbeats 4000000 in
set_option maxRecDepth 8192 in
/-- After the first piece the destination row of the edge array is at its buffer. -/
theorem sg0_dst (X : Valuation τ sig (Elt Ideal)) :
    (after (sg0 (F := Ideal)) X (Proc.devRef .tc main_v3) : (⟨S800000, .i32⟩ : BufTy).Contents (Elt Ideal))
      = Cert.Bridge.dstR (X (Proc.devRef .tc main_arg0)) := by
  after_results_simp
  rfl

set_option maxHeartbeats 4000000 in
set_option maxRecDepth 8192 in
/-- After the first piece the inverse in-degrees, as a column, are at their buffer. -/
theorem sg0_inv (X : Valuation τ sig (Elt Ideal)) :
    (after (sg0 (F := Ideal)) X (Proc.devRef .tc main_v12) : (⟨S50000x1, .f32⟩ : BufTy).Contents (Elt Ideal))
      = Cert.Bridge.invDegR (X (Proc.devRef .tc main_arg0)) := by
  after_results_simp
  rfl

set_option maxHeartbeats 4000000 in
set_option maxRecDepth 8192 in
/-- After the first piece the neighbour mean of the second argument is at its buffer. -/
theorem sg0_agg (X : Valuation τ sig (Elt Ideal)) :
    (after (sg0 (F := Ideal)) X (Proc.devRef .tc main_v24) : (⟨S50000x128, .f32⟩ : BufTy).Contents (Elt Ideal))
      = Cert.Bridge.aggR (X (Proc.devRef .tc main_arg0)) (X (Proc.devRef .tc main_arg1)) := by
  after_results_simp
  rfl

set_option maxHeartbeats 4000000 in
set_option maxRecDepth 8192 in
/-- Piece 5 leaves at its last buffer the neighbour mean of the contents of its operand, over the rows and inverse
    degrees the first piece left. -/
theorem sg5_agg (X : Valuation τ sig (Elt Ideal)) :
    (after (sg5 (F := Ideal)) X (Proc.devRef .tc main_v153) : (⟨S50000x128, .f32⟩ : BufTy).Contents (Elt Ideal))
      = aggT (X (Proc.devRef .tc main_v1)) (X (Proc.devRef .tc main_v3)) (X (Proc.devRef .tc main_v12))
          (X (Proc.devRef .tc main_arg1)) := by
  after_results_simp
  rfl

set_option maxHeartbeats 4000000 in
set_option maxRecDepth 8192 in
/-- Piece 10 leaves at its last buffer the neighbour mean of the contents of its operand, over the rows and inverse
    degrees the first piece left. -/
theorem sg10_agg (X : Valuation τ sig (Elt Ideal)) :
    (after (sg10 (F := Ideal)) X (Proc.devRef .tc main_v282) : (⟨S50000x128, .f32⟩ : BufTy).Contents (Elt Ideal))
      = aggT (X (Proc.devRef .tc main_v1)) (X (Proc.devRef .tc main_v3)) (X (Proc.devRef .tc main_v12))
          (X (Proc.devRef .tc main_v141)) := by
  after_results_simp
  rfl

set_option maxHeartbeats 4000000 in
set_option maxRecDepth 8192 in
/-- Piece 15 leaves at its last buffer the neighbour mean of the contents of its operand, over the rows and inverse
    degrees the first piece left. -/
theorem sg15_agg (X : Valuation τ sig (Elt Ideal)) :
    (after (sg15 (F := Ideal)) X (Proc.devRef .tc main_v410) : (⟨S50000x128, .f32⟩ : BufTy).Contents (Elt Ideal))
      = aggT (X (Proc.devRef .tc main_v1)) (X (Proc.devRef .tc main_v3)) (X (Proc.devRef .tc main_v12))
          (X (Proc.devRef .tc main_arg1)) := by
  after_results_simp
  rfl

set_option maxHeartbeats 4000000 in
set_option maxRecDepth 8192 in
/-- Piece 20 leaves at its last buffer the neighbour mean of the contents of its operand, over the rows and inverse
    degrees the first piece left. -/
theorem sg20_agg (X : Valuation τ sig (Elt Ideal)) :
    (after (sg20 (F := Ideal)) X (Proc.devRef .tc main_v539) : (⟨S50000x128, .f32⟩ : BufTy).Contents (Elt Ideal))
      = aggT (X (Proc.devRef .tc main_v1)) (X (Proc.devRef .tc main_v3)) (X (Proc.devRef .tc main_v12))
          (X (Proc.devRef .tc main_v141)) := by
  after_results_simp
  rfl

set_option maxHeartbeats 4000000 in
set_option maxRecDepth 8192 in
/-- Piece 25 leaves at its last buffer the neighbour mean of the contents of its operand, over the rows and inverse
    degrees the first piece left. -/
theorem sg25_agg (X : Valuation τ sig (Elt Ideal)) :
    (after (sg25 (F := Ideal)) X (Proc.devRef .tc main_v667) : (⟨S50000x128, .f32⟩ : BufTy).Contents (Elt Ideal))
      = aggT (X (Proc.devRef .tc main_v1)) (X (Proc.devRef .tc main_v3)) (X (Proc.devRef .tc main_v12))
          (X (Proc.devRef .tc main_v398)) := by
  after_results_simp
  rfl

end Cert.ReferenceIdeal.HandV

end
-- ==== Proof.RV.Id26.lean ====
/- Branch 0 of node pair 5 of the reference's cell: whatever the buffers hold before its operations,
   after them the product buffer holds the branch term of the contents at the branch's input and at the five stacked
   parameters, each cut at (5, 0), and the accumulator holds the previous accumulator plus that term. The input's own
   contents are an operand and are not opened. -/
import proofs.«414290_j6631429505478_3_alg».proof.Proof.RV.TopSeg26
import proofs.«414290_j6631429505478_3_alg».proof.Proof.RV.Branch
import proofs.«414290_j6631429505478_3_alg».proof.Proof.RV.Slices
import Idealize.ShloMosaic.Lib.StableHlo.Run

noncomputable section

namespace Cert.ReferenceIdeal.HandV

open Cert.ReferenceIdeal Cert.ReferenceIdeal.Gen Idealize.ShloMosaic Idealize.ShloMosaic.TcCoe Idealize.SL.Sem Idealize.ShloMosaic.StableHlo
open Idealize.ShloMosaic.ValueIdx

set_option maxHeartbeats 4000000 in
set_option maxRecDepth 8192 in
/-- The product buffer after the segment: the branch term. -/
theorem sg26_prod (X : Valuation τ sig (Elt Ideal)) :
    (after (sg26 (F := Ideal)) X (Proc.devRef .tc main_v705) : FVec Ideal S50000x128 .f32)
      = branchTerm (X (Proc.devRef .tc main_v667))
          (sliceW ![5, 0, 0, 0] slices_S6x3x128x128_S1x1x128x128_5_0_0_0 (X (Proc.devRef .tc main_arg4)))
          (sliceV ![5, 0, 0] slices_S6x3x128_S1x1x128_5_0_0 (X (Proc.devRef .tc main_arg5)))
          (sliceV ![5, 0, 0] slices_S6x3x128_S1x1x128_5_0_0 (X (Proc.devRef .tc main_arg6)))
          (sliceV ![5, 0, 0] slices_S6x3x128_S1x1x128_5_0_0 (X (Proc.devRef .tc main_arg7)))
          (sliceS ![5, 0] slices_S6x3_S1x1_5_0 (X (Proc.devRef .tc main_arg3))) := by
  after_results_simp
  rfl

set_option maxHeartbeats 4000000 in
set_option maxRecDepth 8192 in
/-- The accumulator after the segment: the previous accumulator plus the branch term. -/
theorem sg26_acc (X : Valuation τ sig (Elt Ideal)) :
    (after (sg26 (F := Ideal)) X (Proc.devRef .tc main_v706) : FVec Ideal S50000x128 .f32)
      = addf (broadcastInDim S50000x128 ![] bcast_S_S50000x128 (constant (F := Ideal) S_ .f32 0x00000000#32))
          (branchTerm (X (Proc.devRef .tc main_v667))
          (sliceW ![5, 0, 0, 0] slices_S6x3x128x128_S1x1x128x128_5_0_0_0 (X (Proc.devRef .tc main_arg4)))
          (sliceV ![5, 0, 0] slices_S6x3x128_S1x1x128_5_0_0 (X (Proc.devRef .tc main_arg5)))
          (sliceV ![5, 0, 0] slices_S6x3x128_S1x1x128_5_0_0 (X (Proc.devRef .tc main_arg6)))
          (sliceV ![5, 0, 0] slices_S6x3x128_S1x1x128_5_0_0 (X (Proc.devRef .tc main_arg7)))
          (sliceS ![5, 0] slices_S6x3_S1x1_5_0 (X (Proc.devRef .tc main_arg3)))) := by
  after_results_simp
  rfl

end Cert.ReferenceIdeal.HandV

end
-- ==== Proof.RV.Id27.lean ====
/- Branch 1 of node pair 5 of the reference's cell: whatever the buffers hold before its operations,
   after them the product buffer holds the branch term of the contents at the branch's input and at the five stacked
   parameters, each cut at (5, 1), and the accumulator holds the previous accumulator plus that term. The input's own
   contents are an operand and are not opened. -/
import proofs.«414290_j6631429505478_3_alg».proof.Proof.RV.TopSeg27
import proofs.«414290_j6631429505478_3_alg».proof.Proof.RV.Branch
import proofs.«414290_j6631429505478_3_alg».proof.Proof.RV.Slices
import Idealize.ShloMosaic.Lib.StableHlo.Run

noncomputable section

namespace Cert.ReferenceIdeal.HandV

open Cert.ReferenceIdeal Cert.ReferenceIdeal.Gen Idealize.ShloMosaic Idealize.ShloMosaic.TcCoe Idealize.SL.Sem Idealize.ShloMosaic.StableHlo
open Idealize.ShloMosaic.ValueIdx

set_option maxHeartbeats 4000000 in
set_option maxRecDepth 8192 in
/-- The product buffer after the segment: the branch term. -/
theorem sg27_prod (X : Valuation τ sig (Elt Ideal)) :
    (after (sg27 (F := Ideal)) X (Proc.devRef .tc main_v743) : FVec Ideal S50000x128 .f32)
      = branchTerm (X (Proc.devRef .tc main_v398))
          (sliceW ![5, 1, 0, 0] slices_S6x3x128x128_S1x1x128x128_5_1_0_0 (X (Proc.devRef .tc main_arg4)))
          (sliceV ![5, 1, 0] slices_S6x3x128_S1x1x128_5_1_0 (X (Proc.devRef .tc main_arg5)))
          (sliceV ![5, 1, 0] slices_S6x3x128_S1x1x128_5_1_0 (X (Proc.devRef .tc main_arg6)))
          (sliceV ![5, 1, 0] slices_S6x3x128_S1x1x128_5_1_0 (X (Proc.devRef .tc main_arg7)))
          (sliceS ![5, 1] slices_S6x3_S1x1_5_1 (X (Proc.devRef .tc main_arg3))) := by
  after_results_simp
  rfl

set_option maxHeartbeats 4000000 in
set_option maxRecDepth 8192 in
/-- The accumulator after the segment: the previous accumulator plus the branch term. -/
theorem sg27_acc (X : Valuation τ sig (Elt Ideal)) :
    (after (sg27 (F := Ideal)) X (Proc.devRef .tc main_v744) : FVec Ideal S50000x128 .f32)
      = addf (X (Proc.devRef .tc main_v706))
          (branchTerm (X (Proc.devRef .tc main_v398))
          (sliceW ![5, 1, 0, 0] slices_S6x3x128x128_S1x1x128x128_5_1_0_0 (X (Proc.devRef .tc main_arg4)))
          (sliceV ![5, 1, 0] slices_S6x3x128_S1x1x128_5_1_0 (X (Proc.devRef .tc main_arg5)))
          (sliceV ![5, 1, 0] slices_S6x3x128_S1x1x128_5_1_0 (X (Proc.devRef .tc main_arg6)))
          (sliceV ![5, 1, 0] slices_S6x3x128_S1x1x128_5_1_0 (X (Proc.devRef .tc main_arg7)))
          (sliceS ![5, 1] slices_S6x3_S1x1_5_1 (X (Proc.devRef .tc main_arg3)))) := by
  after_results_simp
  rfl

end Cert.ReferenceIdeal.HandV

end
-- ==== Proof.RV.Id28.lean ====
/- Branch 2 of node pair 5 of the reference's cell: whatever the buffers hold before its operations,
   after them the product buffer holds the branch term of the contents at the branch's input and at the five stacked
   parameters, each cut at (5, 2), and the accumulator holds the previous accumulator plus that term. The input's own
   contents are an operand and are not opened. -/
import proofs.«414290_j6631429505478_3_alg».proof.Proof.RV.TopSeg28
import proofs.«414290_j6631429505478_3_alg».proof.Proof.RV.Branch
import proofs.«414290_j6631429505478_3_alg».proof.Proof.RV.Slices
import Idealize.ShloMosaic.Lib.StableHlo.Run

noncomputable section

namespace Cert.ReferenceIdeal.HandV

open Cert.ReferenceIdeal Cert.ReferenceIdeal.Gen Idealize.ShloMosaic Idealize.ShloMosaic.TcCoe Idealize.SL.Sem Idealize.ShloMosaic.StableHlo
open Idealize.ShloMosaic.ValueIdx

set_option maxHeartbeats 4000000 in
set_option maxRecDepth 8192 in
/-- The product buffer after the segment: the branch term. -/
theorem sg28_prod (X : Valuation τ sig (Elt Ideal)) :
    (after (sg28 (F := Ideal)) X (Proc.devRef .tc main_v781) : FVec Ideal S50000x128 .f32)
      = branchTerm (X (Proc.devRef .tc main_arg2))
          (sliceW ![5, 2, 0, 0] slices_S6x3x128x128_S1x1x128x128_5_2_0_0 (X (Proc.devRef .tc main_arg4)))
          (sliceV ![5, 2, 0] slices_S6x3x128_S1x1x128_5_2_0 (X (Proc.devRef .tc main_arg5)))
          (sliceV ![5, 2, 0] slices_S6x3x128_S1x1x128_5_2_0 (X (Proc.devRef .tc main_arg6)))
          (sliceV ![5, 2, 0] slices_S6x3x128_S1x1x128_5_2_0 (X (Proc.devRef .tc main_arg7)))
          (sliceS ![5, 2] slices_S6x3_S1x1_5_2 (X (Proc.devRef .tc main_arg3))) := by
  after_results_simp
  rfl

set_option maxHeartbeats 4000000 in
set_option maxRecDepth 8192 in
/-- The accumulator after the segment: the previous accumulator plus the branch term. -/
theorem sg28_acc (X : Valuation τ sig (Elt Ideal)) :
    (after (sg28 (F := Ideal)) X (Proc.devRef .tc main_v782) : FVec Ideal S50000x128 .f32)
      = addf (X (Proc.devRef .tc main_v744))
          (branchTerm (X (Proc.devRef .tc main_arg2))
          (sliceW ![5, 2, 0, 0] slices_S6x3x128x128_S1x1x128x128_5_2_0_0 (X (Proc.devRef .tc main_arg4)))
          (sliceV ![5, 2, 0] slices_S6x3x128_S1x1x128_5_2_0 (X (Proc.devRef .tc main_arg5)))
          (sliceV ![5, 2, 0] slices_S6x3x128_S1x1x128_5_2_0 (X (Proc.devRef .tc main_arg6)))
          (sliceV ![5, 2, 0] slices_S6x3x128_S1x1x128_5_2_0 (X (Proc.devRef .tc main_arg7)))
          (sliceS ![5, 2] slices_S6x3_S1x1_5_2 (X (Proc.devRef .tc main_arg3)))) := by
  after_results_simp
  rfl

end Cert.ReferenceIdeal.HandV

end
-- ==== Proof.RV.Id21.lean ====
/- Branch 0 of node pair 4 of the reference's cell: whatever the buffers hold before its operations,
   after them the product buffer holds the branch term of the contents at the branch's input and at the five stacked
   parameters, each cut at (4, 0), and the accumulator holds the previous accumulator plus that term. The input's own
   contents are an operand and are not opened. -/
import proofs.«414290_j6631429505478_3_alg».proof.Proof.RV.TopSeg21
import proofs.«414290_j6631429505478_3_alg».proof.Proof.RV.Branch
import proofs.«414290_j6631429505478_3_alg».proof.Proof.RV.Slices
import Idealize.ShloMosaic.Lib.StableHlo.Run

noncomputable section

namespace Cert.ReferenceIdeal.HandV

open Cert.ReferenceIdeal Cert.ReferenceIdeal.Gen Idealize.ShloMosaic Idealize.ShloMosaic.TcCoe Idealize.SL.Sem Idealize.ShloMosaic.StableHlo
open Idealize.ShloMosaic.ValueIdx

set_option maxHeartbeats 4000000 in
set_option maxRecDepth 8192 in
/-- The product buffer after the segment: the branch term. -/
theorem sg21_prod (X : Valuation τ sig (Elt Ideal)) :
    (after (sg21 (F := Ideal)) X (Proc.devRef .tc main_v577) : FVec Ideal S50000x128 .f32)
      = branchTerm (X (Proc.devRef .tc main_v539))
          (sliceW ![4, 0, 0, 0] slices_S6x3x128x128_S1x1x128x128_4_0_0_0 (X (Proc.devRef .tc main_arg4)))
          (sliceV ![4, 0, 0] slices_S6x3x128_S1x1x128_4_0_0 (X (Proc.devRef .tc main_arg5)))
          (sliceV ![4, 0, 0] slices_S6x3x128_S1x1x128_4_0_0 (X (Proc.devRef .tc main_arg6)))
          (sliceV ![4, 0, 0] slices_S6x3x128_S1x1x128_4_0_0 (X (Proc.devRef .tc main_arg7)))
          (sliceS ![4, 0] slices_S6x3_S1x1_4_0 (X (Proc.devRef .tc main_arg3))) := by
  after_results_simp
  rfl

set_option maxHeartbeats 4000000 in
set_option maxRecDepth 8192 in
/-- The accumulator after the segment: the previous accumulator plus the branch term. -/
theorem sg21_acc (X : Valuation τ sig (Elt Ideal)) :
    (after (sg21 (F := Ideal)) X (Proc.devRef .tc main_v578) : FVec Ideal S50000x128 .f32)
      = addf (broadcastInDim S50000x128 ![] bcast_S_S50000x128 (constant (F := Ideal) S_ .f32 0x00000000#32))
          (branchTerm (X (Proc.devRef .tc main_v539))
          (sliceW ![4, 0, 0, 0] slices_S6x3x128x128_S1x1x128x128_4_0_0_0 (X (Proc.devRef .tc main_arg4)))
          (sliceV ![4, 0, 0] slices_S6x3x128_S1x1x128_4_0_0 (X (Proc.devRef .tc main_arg5)))
          (sliceV ![4, 0, 0] slices_S6x3x128_S1x1x128_4_0_0 (X (Proc.devRef .tc main_arg6)))
          (sliceV ![4, 0, 0] slices_S6x3x128_S1x1x128_4_0_0 (X (Proc.devRef .tc main_arg7)))
          (sliceS ![4, 0] slices_S6x3_S1x1_4_0 (X (Proc.devRef .tc main_arg3)))) := by
  after_results_simp
  rfl

end Cert.ReferenceIdeal.HandV

end
-- ==== Proof.RV.Id22.lean ====
/- Branch 1 of node pair 4 of the reference's cell: whatever the buffers hold before its operations,
   after them the product buffer holds the branch term of the contents at the branch's input and at the five stacked
   parameters, each cut at (4, 1), and the accumulator holds the previous accumulator plus that term. The input's own
   contents are an operand and are not opened. -/
import proofs.«414290_j6631429505478_3_alg».proof.Proof.RV.TopSeg22
import proofs.«414290_j6631429505478_3_alg».proof.Proof.RV.Branch
import proofs.«414290_j6631429505478_3_alg».proof.Proof.RV.Slices
import Idealize.ShloMosaic.Lib.StableHlo.Run

noncomputable section

namespace Cert.ReferenceIdeal.HandV

open Cert.ReferenceIdeal Cert.ReferenceIdeal.Gen Idealize.ShloMosaic Idealize.ShloMosaic.TcCoe Idealize.SL.Sem Idealize.ShloMosaic.StableHlo
open Idealize.ShloMosaic.ValueIdx

set_option maxHeartbeats 4000000 in
set_option maxRecDepth 8192 in
/-- The product buffer after the segment: the branch term. -/
theorem sg22_prod (X : Valuation τ sig (Elt Ideal)) :
    (after (sg22 (F := Ideal)) X (Proc.devRef .tc main_v615) : FVec Ideal S50000x128 .f32)
      = branchTerm (X (Proc.devRef .tc main_v141))
          (sliceW ![4, 1, 0, 0] slices_S6x3x128x128_S1x1x128x128_4_1_0_0 (X (Proc.devRef .tc main_arg4)))
          (sliceV ![4, 1, 0] slices_S6x3x128_S1x1x128_4_1_0 (X (Proc.devRef .tc main_arg5)))
          (sliceV ![4, 1, 0] slices_S6x3x128_S1x1x128_4_1_0 (X (Proc.devRef .tc main_arg6)))
          (sliceV ![4, 1, 0] slices_S6x3x128_S1x1x128_4_1_0 (X (Proc.devRef .tc main_arg7)))
          (sliceS ![4, 1] slices_S6x3_S1x1_4_1 (X (Proc.devRef .tc main_arg3))) := by
  after_results_simp
  rfl

set_option maxHeartbeats 4000000 in
set_option maxRecDepth 8192 in
/-- The accumulator after the segment: the previous accumulator plus the branch term. -/
theorem sg22_acc (X : Valuation τ sig (Elt Ideal)) :
    (after (sg22 (F := Ideal)) X (Proc.devRef .tc main_v616) : FVec Ideal S50000x128 .f32)
      = addf (X (Proc.devRef .tc main_v578))
          (branchTerm (X (Proc.devRef .tc main_v141))
          (sliceW ![4, 1, 0, 0] slices_S6x3x128x128_S1x1x128x128_4_1_0_0 (X (Proc.devRef .tc main_arg4)))
          (sliceV ![4, 1, 0] slices_S6x3x128_S1x1x128_4_1_0 (X (Proc.devRef .tc main_arg5)))
          (sliceV ![4, 1, 0] slices_S6x3x128_S1x1x128_4_1_0 (X (Proc.devRef .tc main_arg6)))
          (sliceV ![4, 1, 0] slices_S6x3x128_S1x1x128_4_1_0 (X (Proc.devRef .tc main_arg7)))
          (sliceS ![4, 1] slices_S6x3_S1x1_4_1 (X (Proc.devRef .tc main_arg3)))) := by
  after_results_simp
  rfl

end Cert.ReferenceIdeal.HandV

end
-- ==== Proof.RV.Id23.lean ====
/- Branch 2 of node pair 4 of the reference's cell: whatever the buffers hold before its operations,
   after them the product buffer holds the branch term of the contents at the branch's input and at the five stacked
   parameters, each cut at (4, 2), and the accumulator holds the previous accumulator plus that term. The input's own
   contents are an operand and are not opened. -/
import proofs.«414290_j6631429505478_3_alg».proof.Proof.RV.TopSeg23
import proofs.«414290_j6631429505478_3_alg».proof.Proof.RV.Branch
import proofs.«414290_j6631429505478_3_alg».proof.Proof.RV.Slices
import Idealize.ShloMosaic.Lib.StableHlo.Run

noncomputable section

namespace Cert.ReferenceIdeal.HandV

open Cert.ReferenceIdeal Cert.ReferenceIdeal.Gen Idealize.ShloMosaic Idealize.ShloMosaic.TcCoe Idealize.SL.Sem Idealize.ShloMosaic.StableHlo
open Idealize.ShloMosaic.ValueIdx

set_option maxHeartbeats 4000000 in
set_option maxRecDepth 8192 in
/-- The product buffer after the segment: the branch term. -/
theorem sg23_prod (X : Valuation τ sig (Elt Ideal)) :
    (after (sg23 (F := Ideal)) X (Proc.devRef .tc main_v653) : FVec Ideal S50000x128 .f32)
      = branchTerm (X (Proc.devRef .tc main_arg2))
          (sliceW ![4, 2, 0, 0] slices_S6x3x128x128_S1x1x128x128_4_2_0_0 (X (Proc.devRef .tc main_arg4)))
          (sliceV ![4, 2, 0] slices_S6x3x128_S1x1x128_4_2_0 (X (Proc.devRef .tc main_arg5)))
          (sliceV ![4, 2, 0] slices_S6x3x128_S1x1x128_4_2_0 (X (Proc.devRef .tc main_arg6)))
          (sliceV ![4, 2, 0] slices_S6x3x128_S1x1x128_4_2_0 (X (Proc.devRef .tc main_arg7)))
          (sliceS ![4, 2] slices_S6x3_S1x1_4_2 (X (Proc.devRef .tc main_arg3))) := by
  after_results_simp
  rfl

set_option maxHeartbeats 4000000 in
set_option maxRecDepth 8192 in
/-- The accumulator after the segment: the previous accumulator plus the branch term. -/
theorem sg23_acc (X : Valuation τ sig (Elt Ideal)) :
    (after (sg23 (F := Ideal)) X (Proc.devRef .tc main_v654) : FVec Ideal S50000x128 .f32)
      = addf (X (Proc.devRef .tc main_v616))
          (branchTerm (X (Proc.devRef .tc main_arg2))
          (sliceW ![4, 2, 0, 0] slices_S6x3x128x128_S1x1x128x128_4_2_0_0 (X (Proc.devRef .tc main_arg4)))
          (sliceV ![4, 2, 0] slices_S6x3x128_S1x1x128_4_2_0 (X (Proc.devRef .tc main_arg5)))
          (sliceV ![4, 2, 0] slices_S6x3x128_S1x1x128_4_2_0 (X (Proc.devRef .tc main_arg6)))
          (sliceV ![4, 2, 0] slices_S6x3x128_S1x1x128_4_2_0 (X (Proc.devRef .tc main_arg7)))
          (sliceS ![4, 2] slices_S6x3_S1x1_4_2 (X (Proc.devRef .tc main_arg3)))) := by
  after_results_simp
  rfl

end Cert.ReferenceIdeal.HandV

end
-- ==== Proof.RV.Id16.lean ====
/- Branch 0 of node pair 3 of the reference's cell: whatever the buffers hold before its operations,
   after them the product buffer holds the branch term of the contents at the branch's input and at the five stacked
   parameters, each cut at (3, 0), and the accumulator holds the previous accumulator plus that term. The input's own
   contents are an operand and are not opened. -/
import proofs.«414290_j6631429505478_3_alg».proof.Proof.RV.TopSeg16
import proofs.«414290_j6631429505478_3_alg».proof.Proof.RV.Branch
import proofs.«414290_j6631429505478_3_alg».proof.Proof.RV.Slices
import Idealize.ShloMosaic.Lib.StableHlo.Run

noncomputable section

namespace Cert.ReferenceIdeal.HandV

open Cert.ReferenceIdeal Cert.ReferenceIdeal.Gen Idealize.ShloMosaic Idealize.ShloMosaic.TcCoe Idealize.SL.Sem Idealize.ShloMosaic.StableHlo
open Idealize.ShloMosaic.ValueIdx

set_option maxHeartbeats 4000000 in
set_option maxRecDepth 8192 in
/-- The product buffer after the segment: the branch term. -/
theorem sg16_prod (X : Valuation τ sig (Elt Ideal)) :
    (after (sg16 (F := Ideal)) X (Proc.devRef .tc main_v448) : FVec Ideal S50000x128 .f32)
      = branchTerm (X (Proc.devRef .tc main_v410))
          (sliceW ![3, 0, 0, 0] slices_S6x3x128x128_S1x1x128x128_3_0_0_0 (X (Proc.devRef .tc main_arg4)))
          (sliceV ![3, 0, 0] slices_S6x3x128_S1x1x128_3_0_0 (X (Proc.devRef .tc main_arg5)))
          (sliceV ![3, 0, 0] slices_S6x3x128_S1x1x128_3_0_0 (X (Proc.devRef .tc main_arg6)))
          (sliceV ![3, 0, 0] slices_S6x3x128_S1x1x128_3_0_0 (X (Proc.devRef .tc main_arg7)))
          (sliceS ![3, 0] slices_S6x3_S1x1_3_0 (X (Proc.devRef .tc main_arg3))) := by
  after_results_simp
  rfl

set_option maxHeartbeats 4000000 in
set_option maxRecDepth 8192 in
/-- The accumulator after the segment: the previous accumulator plus the branch term. -/
theorem sg16_acc (X : Valuation τ sig (Elt Ideal)) :
    (after (sg16 (F := Ideal)) X (Proc.devRef .tc main_v449) : FVec Ideal S50000x128 .f32)
      = addf (broadcastInDim S50000x128 ![] bcast_S_S50000x128 (constant (F := Ideal) S_ .f32 0x00000000#32))
          (branchTerm (X (Proc.devRef .tc main_v410))
          (sliceW ![3, 0, 0, 0] slices_S6x3x128x128_S1x1x128x128_3_0_0_0 (X (Proc.devRef .tc main_arg4)))
          (sliceV ![3, 0, 0] slices_S6x3x128_S1x1x128_3_0_0 (X (Proc.devRef .tc main_arg5)))
          (sliceV ![3, 0, 0] slices_S6x3x128_S1x1x128_3_0_0 (X (Proc.devRef .tc main_arg6)))
          (sliceV ![3, 0, 0] slices_S6x3x128_S1x1x128_3_0_0 (X (Proc.devRef .tc main_arg7)))
          (sliceS ![3, 0] slices_S6x3_S1x1_3_0 (X (Proc.devRef .tc main_arg3)))) := by
  after_results_simp
  rfl

end Cert.ReferenceIdeal.HandV

end
-- ==== Proof.RV.Id17.lean ====
/- Branch 1 of node pair 3 of the reference's cell: whatever the buffers hold before its operations,
   after them the product buffer holds the branch term of the contents at the branch's input and at the five stacked
   parameters, each cut at (3, 1), and the accumulator holds the previous accumulator plus that term. The input's own
   contents are an operand and are not opened. -/
import proofs.«414290_j6631429505478_3_alg».proof.Proof.RV.TopSeg17
import proofs.«414290_j6631429505478_3_alg».proof.Proof.RV.Branch
import proofs.«414290_j6631429505478_3_alg».proof.Proof.RV.Slices
import Idealize.ShloMosaic.Lib.StableHlo.Run

noncomputable section

namespace Cert.ReferenceIdeal.HandV

open Cert.ReferenceIdeal Cert.ReferenceIdeal.Gen Idealize.ShloMosaic Idealize.ShloMosaic.TcCoe Idealize.SL.Sem Idealize.ShloMosaic.StableHlo
open Idealize.ShloMosaic.ValueIdx

set_option maxHeartbeats 4000000 in
set_option maxRecDepth 8192 in
/-- The product buffer after the segment: the branch term. -/
theorem sg17_prod (X : Valuation τ sig (Elt Ideal)) :
    (after (sg17 (F := Ideal)) X (Proc.devRef .tc main_v486) : FVec Ideal S50000x128 .f32)
      = branchTerm (X (Proc.devRef .tc main_arg1))
          (sliceW ![3, 1, 0, 0] slices_S6x3x128x128_S1x1x128x128_3_1_0_0 (X (Proc.devRef .tc main_arg4)))
          (sliceV ![3, 1, 0] slices_S6x3x128_S1x1x128_3_1_0 (X (Proc.devRef .tc main_arg5)))
          (sliceV ![3, 1, 0] slices_S6x3x128_S1x1x128_3_1_0 (X (Proc.devRef .tc main_arg6)))
          (sliceV ![3, 1, 0] slices_S6x3x128_S1x1x128_3_1_0 (X (Proc.devRef .tc main_arg7)))
          (sliceS ![3, 1] slices_S6x3_S1x1_3_1 (X (Proc.devRef .tc main_arg3))) := by
  after_results_simp
  rfl

set_option maxHeartbeats 4000000 in
set_option maxRecDepth 8192 in
/-- The accumulator after the segment: the previous accumulator plus the branch term. -/
theorem sg17_acc (X : Valuation τ sig (Elt Ideal)) :
    (after (sg17 (F := Ideal)) X (Proc.devRef .tc main_v487) : FVec Ideal S50000x128 .f32)
      = addf (X (Proc.devRef .tc main_v449))
          (branchTerm (X (Proc.devRef .tc main_arg1))
          (sliceW ![3, 1, 0, 0] slices_S6x3x128x128_S1x1x128x128_3_1_0_0 (X (Proc.devRef .tc main_arg4)))
          (sliceV ![3, 1, 0] slices_S6x3x128_S1x1x128_3_1_0 (X (Proc.devRef .tc main_arg5)))
          (sliceV ![3, 1, 0] slices_S6x3x128_S1x1x128_3_1_0 (X (Proc.devRef .tc main_arg6)))
          (sliceV ![3, 1, 0] slices_S6x3x128_S1x1x128_3_1_0 (X (Proc.devRef .tc main_arg7)))
          (sliceS ![3, 1] slices_S6x3_S1x1_3_1 (X (Proc.devRef .tc main_arg3)))) := by
  after_results_simp
  rfl

end Cert.ReferenceIdeal.HandV

end
-- ==== Proof.RV.Id18.lean ====
/- Branch 2 of node pair 3 of the reference's cell: whatever the buffers hold before its operations,
   after them the product buffer holds the branch term of the contents at the branch's input and at the five stacked
   parameters, each cut at (3, 2), and the accumulator holds the previous accumulator plus that term. The input's own
   contents are an operand and are not opened. -/
import proofs.«414290_j6631429505478_3_alg».proof.Proof.RV.TopSeg18
import proofs.«414290_j6631429505478_3_alg».proof.Proof.RV.Branch
import proofs.«414290_j6631429505478_3_alg».proof.Proof.RV.Slices
import Idealize.ShloMosaic.Lib.StableHlo.Run

noncomputable section

namespace Cert.ReferenceIdeal.HandV

open Cert.ReferenceIdeal Cert.ReferenceIdeal.Gen Idealize.ShloMosaic Idealize.ShloMosaic.TcCoe Idealize.SL.Sem Idealize.ShloMosaic.StableHlo
open Idealize.ShloMosaic.ValueIdx

set_option maxHeartbeats 4000000 in
set_option maxRecDepth 8192 in
/-- The product buffer after the segment: the branch term. -/
theorem sg18_prod (X : Valuation τ sig (Elt Ideal)) :
    (after (sg18 (F := Ideal)) X (Proc.devRef .tc main_v524) : FVec Ideal S50000x128 .f32)
      = branchTerm (X (Proc.devRef .tc main_arg2))
          (sliceW ![3, 2, 0, 0] slices_S6x3x128x128_S1x1x128x128_3_2_0_0 (X (Proc.devRef .tc main_arg4)))
          (sliceV ![3, 2, 0] slices_S6x3x128_S1x1x128_3_2_0 (X (Proc.devRef .tc main_arg5)))
          (sliceV ![3, 2, 0] slices_S6x3x128_S1x1x128_3_2_0 (X (Proc.devRef .tc main_arg6)))
          (sliceV ![3, 2, 0] slices_S6x3x128_S1x1x128_3_2_0 (X (Proc.devRef .tc main_arg7)))
          (sliceS ![3, 2] slices_S6x3_S1x1_3_2 (X (Proc.devRef .tc main_arg3))) := by
  after_results_simp
  rfl

set_option maxHeartbeats 4000000 in
set_option maxRecDepth 8192 in
/-- The accumulator after the segment: the previous accumulator plus the branch term. -/
theorem sg18_acc (X : Valuation τ sig (Elt Ideal)) :
    (after (sg18 (F := Ideal)) X (Proc.devRef .tc main_v525) : FVec Ideal S50000x128 .f32)
      = addf (X (Proc.devRef .tc main_v487))
          (branchTerm (X (Proc.devRef .tc main_arg2))
          (sliceW ![3, 2, 0, 0] slices_S6x3x128x128_S1x1x128x128_3_2_0_0 (X (Proc.devRef .tc main_arg4)))
          (sliceV ![3, 2, 0] slices_S6x3x128_S1x1x128_3_2_0 (X (Proc.devRef .tc main_arg5)))
          (sliceV ![3, 2, 0] slices_S6x3x128_S1x1x128_3_2_0 (X (Proc.devRef .tc main_arg6)))
          (sliceV ![3, 2, 0] slices_S6x3x128_S1x1x128_3_2_0 (X (Proc.devRef .tc main_arg7)))
          (sliceS ![3, 2] slices_S6x3_S1x1_3_2 (X (Proc.devRef .tc main_arg3)))) := by
  after_results_simp
  rfl

end Cert.ReferenceIdeal.HandV

end
-- ==== Proof.RV.Id11.lean ====
/- Branch 0 of node pair 2 of the reference's cell: whatever the buffers hold before its operations,
   after them the product buffer holds the branch term of the contents at the branch's input and at the five stacked
   parameters, each cut at (2, 0), and the accumulator holds the previous accumulator plus that term. The input's own
   contents are an operand and are not opened. -/
import proofs.«414290_j6631429505478_3_alg».proof.Proof.RV.TopSeg11
import proofs.«414290_j6631429505478_3_alg».proof.Proof.RV.Branch
import proofs.«414290_j6631429505478_3_alg».proof.Proof.RV.Slices
import Idealize.ShloMosaic.Lib.StableHlo.Run

noncomputable section

namespace Cert.ReferenceIdeal.HandV

open Cert.ReferenceIdeal Cert.ReferenceIdeal.Gen Idealize.ShloMosaic Idealize.ShloMosaic.TcCoe Idealize.SL.Sem Idealize.ShloMosaic.StableHlo
open Idealize.ShloMosaic.ValueIdx

set_option maxHeartbeats 4000000 in
set_option maxRecDepth 8192 in
/-- The product buffer after the segment: the branch term. -/
theorem sg11_prod (X : Valuation τ sig (Elt Ideal)) :
    (after (sg11 (F := Ideal)) X (Proc.devRef .tc main_v320) : FVec Ideal S50000x128 .f32)
      = branchTerm (X (Proc.devRef .tc main_v282))
          (sliceW ![2, 0, 0, 0] slices_S6x3x128x128_S1x1x128x128_2_0_0_0 (X (Proc.devRef .tc main_arg4)))
          (sliceV ![2, 0, 0] slices_S6x3x128_S1x1x128_2_0_0 (X (Proc.devRef .tc main_arg5)))
          (sliceV ![2, 0, 0] slices_S6x3x128_S1x1x128_2_0_0 (X (Proc.devRef .tc main_arg6)))
          (sliceV ![2, 0, 0] slices_S6x3x128_S1x1x128_2_0_0 (X (Proc.devRef .tc main_arg7)))
          (sliceS ![2, 0] slices_S6x3_S1x1_2_0 (X (Proc.devRef .tc main_arg3))) := by
  after_results_simp
  rfl

set_option maxHeartbeats 4000000 in
set_option maxRecDepth 8192 in
/-- The accumulator after the segment: the previous accumulator plus the branch term. -/
theorem sg11_acc (X : Valuation τ sig (Elt Ideal)) :
    (after (sg11 (F := Ideal)) X (Proc.devRef .tc main_v321) : FVec Ideal S50000x128 .f32)
      = addf (broadcastInDim S50000x128 ![] bcast_S_S50000x128 (constant (F := Ideal) S_ .f32 0x00000000#32))
          (branchTerm (X (Proc.devRef .tc main_v282))
          (sliceW ![2, 0, 0, 0] slices_S6x3x128x128_S1x1x128x128_2_0_0_0 (X (Proc.devRef .tc main_arg4)))
          (sliceV ![2, 0, 0] slices_S6x3x128_S1x1x128_2_0_0 (X (Proc.devRef .tc main_arg5)))
          (sliceV ![2, 0, 0] slices_S6x3x128_S1x1x128_2_0_0 (X (Proc.devRef .tc main_arg6)))
          (sliceV ![2, 0, 0] slices_S6x3x128_S1x1x128_2_0_0 (X (Proc.devRef .tc main_arg7)))
          (sliceS ![2, 0] slices_S6x3_S1x1_2_0 (X (Proc.devRef .tc main_arg3)))) := by
  after_results_simp
  rfl

end Cert.ReferenceIdeal.HandV

end
-- ==== Proof.RV.Id12.lean ====
/- Branch 1 of node pair 2 of the reference's cell: whatever the buffers hold before its operations,
   after them the product buffer holds the branch term of the contents at the branch's input and at the five stacked
   parameters, each cut at (2, 1), and the accumulator holds the previous accumulator plus that term. The input's own
   contents are an operand and are not opened. -/
import proofs.«414290_j6631429505478_3_alg».proof.Proof.RV.TopSeg12
import proofs.«414290_j6631429505478_3_alg».proof.Proof.RV.Branch
import proofs.«414290_j6631429505478_3_alg».proof.Proof.RV.Slices
import Idealize.ShloMosaic.Lib.StableHlo.Run

noncomputable section

namespace Cert.ReferenceIdeal.HandV

open Cert.ReferenceIdeal Cert.ReferenceIdeal.Gen Idealize.ShloMosaic Idealize.ShloMosaic.TcCoe Idealize.SL.Sem Idealize.ShloMosaic.StableHlo
open Idealize.ShloMosaic.ValueIdx

set_option maxHeartbeats 4000000 in
set_option maxRecDepth 8192 in
/-- The product buffer after the segment: the branch term. -/
theorem sg12_prod (X : Valuation τ sig (Elt Ideal)) :
    (after (sg12 (F := Ideal)) X (Proc.devRef .tc main_v358) : FVec Ideal S50000x128 .f32)
      = branchTerm (X (Proc.devRef .tc main_v141))
          (sliceW ![2, 1, 0, 0] slices_S6x3x128x128_S1x1x128x128_2_1_0_0 (X (Proc.devRef .tc main_arg4)))
          (sliceV ![2, 1, 0] slices_S6x3x128_S1x1x128_2_1_0 (X (Proc.devRef .tc main_arg5)))
          (sliceV ![2, 1, 0] slices_S6x3x128_S1x1x128_2_1_0 (X (Proc.devRef .tc main_arg6)))
          (sliceV ![2, 1, 0] slices_S6x3x128_S1x1x128_2_1_0 (X (Proc.devRef .tc main_arg7)))
          (sliceS ![2, 1] slices_S6x3_S1x1_2_1 (X (Proc.devRef .tc main_arg3))) := by
  after_results_simp
  rfl

set_option maxHeartbeats 4000000 in
set_option maxRecDepth 8192 in
/-- The accumulator after the segment: the previous accumulator plus the branch term. -/
theorem sg12_acc (X : Valuation τ sig (Elt Ideal)) :
    (after (sg12 (F := Ideal)) X (Proc.devRef .tc main_v359) : FVec Ideal S50000x128 .f32)
      = addf (X (Proc.devRef .tc main_v321))
          (branchTerm (X (Proc.devRef .tc main_v141))
          (sliceW ![2, 1, 0, 0] slices_S6x3x128x128_S1x1x128x128_2_1_0_0 (X (Proc.devRef .tc main_arg4)))
          (sliceV ![2, 1, 0] slices_S6x3x128_S1x1x128_2_1_0 (X (Proc.devRef .tc main_arg5)))
          (sliceV ![2, 1, 0] slices_S6x3x128_S1x1x128_2_1_0 (X (Proc.devRef .tc main_arg6)))
          (sliceV ![2, 1, 0] slices_S6x3x128_S1x1x128_2_1_0 (X (Proc.devRef .tc main_arg7)))
          (sliceS ![2, 1] slices_S6x3_S1x1_2_1 (X (Proc.devRef .tc main_arg3)))) := by
  after_results_simp
  rfl

end Cert.ReferenceIdeal.HandV

end
-- ==== Proof.RV.Id13.lean ====
/- Branch 2 of node pair 2 of the reference's cell: whatever the buffers hold before its operations,
   after them the product buffer holds the branch term of the contents at the branch's input and at the five stacked
   parameters, each cut at (2, 2), and the accumulator holds the previous accumulator plus that term. The input's own
   contents are an operand and are not opened. -/
import proofs.«414290_j6631429505478_3_alg».proof.Proof.RV.TopSeg13
import proofs.«414290_j6631429505478_3_alg».proof.Proof.RV.Branch
import proofs.«414290_j6631429505478_3_alg».proof.Proof.RV.Slices
import Idealize.ShloMosaic.Lib.StableHlo.Run

noncomputable section

namespace Cert.ReferenceIdeal.HandV

open Cert.ReferenceIdeal Cert.ReferenceIdeal.Gen Idealize.ShloMosaic Idealize.ShloMosaic.TcCoe Idealize.SL.Sem Idealize.ShloMosaic.StableHlo
open Idealize.ShloMosaic.ValueIdx

set_option maxHeartbeats 4000000 in
set_option maxRecDepth 8192 in
/-- The product buffer after the segment: the branch term. -/
theorem sg13_prod (X : Valuation τ sig (Elt Ideal)) :
    (after (sg13 (F := Ideal)) X (Proc.devRef .tc main_v396) : FVec Ideal S50000x128 .f32)
      = branchTerm (X (Proc.devRef .tc main_arg2))
          (sliceW ![2, 2, 0, 0] slices_S6x3x128x128_S1x1x128x128_2_2_0_0 (X (Proc.devRef .tc main_arg4)))
          (sliceV ![2, 2, 0] slices_S6x3x128_S1x1x128_2_2_0 (X (Proc.devRef .tc main_arg5)))
          (sliceV ![2, 2, 0] slices_S6x3x128_S1x1x128_2_2_0 (X (Proc.devRef .tc main_arg6)))
          (sliceV ![2, 2, 0] slices_S6x3x128_S1x1x128_2_2_0 (X (Proc.devRef .tc main_arg7)))
          (sliceS ![2, 2] slices_S6x3_S1x1_2_2 (X (Proc.devRef .tc main_arg3))) := by
  after_results_simp
  rfl

set_option maxHeartbeats 4000000 in
set_option maxRecDepth 8192 in
/-- The accumulator after the segment: the previous accumulator plus the branch term. -/
theorem sg13_acc (X : Valuation τ sig (Elt Ideal)) :
    (after (sg13 (F := Ideal)) X (Proc.devRef .tc main_v397) : FVec Ideal S50000x128 .f32)
      = addf (X (Proc.devRef .tc main_v359))
          (branchTerm (X (Proc.devRef .tc main_arg2))
          (sliceW ![2, 2, 0, 0] slices_S6x3x128x128_S1x1x128x128_2_2_0_0 (X (Proc.devRef .tc main_arg4)))
          (sliceV ![2, 2, 0] slices_S6x3x128_S1x1x128_2_2_0 (X (Proc.devRef .tc main_arg5)))
          (sliceV ![2, 2, 0] slices_S6x3x128_S1x1x128_2_2_0 (X (Proc.devRef .tc main_arg6)))
          (sliceV ![2, 2, 0] slices_S6x3x128_S1x1x128_2_2_0 (X (Proc.devRef .tc main_arg7)))
          (sliceS ![2, 2] slices_S6x3_S1x1_2_2 (X (Proc.devRef .tc main_arg3)))) := by
  after_results_simp
  rfl

end Cert.ReferenceIdeal.HandV

end
-- ==== Proof.RV.Id6.lean ====
/- Branch 0 of node pair 1 of the reference's cell: whatever the buffers hold before its operations,
   after them the product buffer holds the branch term of the contents at the branch's input and at the five stacked
   parameters, each cut at (1, 0), and the accumulator holds the previous accumulator plus that term. The input's own
   contents are an operand and are not opened. -/
import proofs.«414290_j6631429505478_3_alg».proof.Proof.RV.TopSeg6
import proofs.«414290_j6631429505478_3_alg».proof.Proof.RV.Branch
import proofs.«414290_j6631429505478_3_alg».proof.Proof.RV.Slices
import Idealize.ShloMosaic.Lib.StableHlo.Run

noncomputable section

namespace Cert.ReferenceIdeal.HandV

open Cert.ReferenceIdeal Cert.ReferenceIdeal.Gen Idealize.ShloMosaic Idealize.ShloMosaic.TcCoe Idealize.SL.Sem Idealize.ShloMosaic.StableHlo
open Idealize.ShloMosaic.ValueIdx

set_option maxHeartbeats 4000000 in
set_option maxRecDepth 8192 in
/-- The product buffer after the segment: the branch term. -/
theorem sg6_prod (X : Valuation τ sig (Elt Ideal)) :
    (after (sg6 (F := Ideal)) X (Proc.devRef .tc main_v191) : FVec Ideal S50000x128 .f32)
      = branchTerm (X (Proc.devRef .tc main_v153))
          (sliceW ![1, 0, 0, 0] slices_S6x3x128x128_S1x1x128x128_1_0_0_0 (X (Proc.devRef .tc main_arg4)))
          (sliceV ![1, 0, 0] slices_S6x3x128_S1x1x128_1_0_0 (X (Proc.devRef .tc main_arg5)))
          (sliceV ![1, 0, 0] slices_S6x3x128_S1x1x128_1_0_0 (X (Proc.devRef .tc main_arg6)))
          (sliceV ![1, 0, 0] slices_S6x3x128_S1x1x128_1_0_0 (X (Proc.devRef .tc main_arg7)))
          (sliceS ![1, 0] slices_S6x3_S1x1_1_0 (X (Proc.devRef .tc main_arg3))) := by
  after_results_simp
  rfl

set_option maxHeartbeats 4000000 in
set_option maxRecDepth 8192 in
/-- The accumulator after the segment: the previous accumulator plus the branch term. -/
theorem sg6_acc (X : Valuation τ sig (Elt Ideal)) :
    (after (sg6 (F := Ideal)) X (Proc.devRef .tc main_v192) : FVec Ideal S50000x128 .f32)
      = addf (broadcastInDim S50000x128 ![] bcast_S_S50000x128 (constant (F := Ideal) S_ .f32 0x00000000#32))
          (branchTerm (X (Proc.devRef .tc main_v153))
          (sliceW ![1, 0, 0, 0] slices_S6x3x128x128_S1x1x128x128_1_0_0_0 (X (Proc.devRef .tc main_arg4)))
          (sliceV ![1, 0, 0] slices_S6x3x128_S1x1x128_1_0_0 (X (Proc.devRef .tc main_arg5)))
          (sliceV ![1, 0, 0] slices_S6x3x128_S1x1x128_1_0_0 (X (Proc.devRef .tc main_arg6)))
          (sliceV ![1, 0, 0] slices_S6x3x128_S1x1x128_1_0_0 (X (Proc.devRef .tc main_arg7)))
          (sliceS ![1, 0] slices_S6x3_S1x1_1_0 (X (Proc.devRef .tc main_arg3)))) := by
  after_results_simp
  rfl

end Cert.ReferenceIdeal.HandV

end
-- ==== Proof.RV.Id7.lean ====
/- Branch 1 of node pair 1 of the reference's cell: whatever the buffers hold before its operations,
   after them the product buffer holds the branch term of the contents at the branch's input and at the five stacked
   parameters, each cut at (1, 1), and the accumulator holds the previous accumulator plus that term. The input's own
   contents are an operand and are not opened. -/
import proofs.«414290_j6631429505478_3_alg».proof.Proof.RV.TopSeg7
import proofs.«414290_j6631429505478_3_alg».proof.Proof.RV.Branch
import proofs.«414290_j6631429505478_3_alg».proof.Proof.RV.Slices
import Idealize.ShloMosaic.Lib.StableHlo.Run

noncomputable section

namespace Cert.ReferenceIdeal.HandV

open Cert.ReferenceIdeal Cert.ReferenceIdeal.Gen Idealize.ShloMosaic Idealize.ShloMosaic.TcCoe Idealize.SL.Sem Idealize.ShloMosaic.StableHlo
open Idealize.ShloMosaic.ValueIdx

set_option maxHeartbeats 4000000 in
set_option maxRecDepth 8192 in
/-- The product buffer after the segment: the branch term. -/
theorem sg7_prod (X : Valuation τ sig (Elt Ideal)) :
    (after (sg7 (F := Ideal)) X (Proc.devRef .tc main_v229) : FVec Ideal S50000x128 .f32)
      = branchTerm (X (Proc.devRef .tc main_arg1))
          (sliceW ![1, 1, 0, 0] slices_S6x3x128x128_S1x1x128x128_1_1_0_0 (X (Proc.devRef .tc main_arg4)))
          (sliceV ![1, 1, 0] slices_S6x3x128_S1x1x128_1_1_0 (X (Proc.devRef .tc main_arg5)))
          (sliceV ![1, 1, 0] slices_S6x3x128_S1x1x128_1_1_0 (X (Proc.devRef .tc main_arg6)))
          (sliceV ![1, 1, 0] slices_S6x3x128_S1x1x128_1_1_0 (X (Proc.devRef .tc main_arg7)))
          (sliceS ![1, 1] slices_S6x3_S1x1_1_1 (X (Proc.devRef .tc main_arg3))) := by
  after_results_simp
  rfl

set_option maxHeartbeats 4000000 in
set_option maxRecDepth 8192 in
/-- The accumulator after the segment: the previous accumulator plus the branch term. -/
theorem sg7_acc (X : Valuation τ sig (Elt Ideal)) :
    (after (sg7 (F := Ideal)) X (Proc.devRef .tc main_v230) : FVec Ideal S50000x128 .f32)
      = addf (X (Proc.devRef .tc main_v192))
          (branchTerm (X (Proc.devRef .tc main_arg1))
          (sliceW ![1, 1, 0, 0] slices_S6x3x128x128_S1x1x128x128_1_1_0_0 (X (Proc.devRef .tc main_arg4)))
          (sliceV ![1, 1, 0] slices_S6x3x128_S1x1x128_1_1_0 (X (Proc.devRef .tc main_arg5)))
          (sliceV ![1, 1, 0] slices_S6x3x128_S1x1x128_1_1_0 (X (Proc.devRef .tc main_arg6)))
          (sliceV ![1, 1, 0] slices_S6x3x128_S1x1x128_1_1_0 (X (Proc.devRef .tc main_arg7)))
          (sliceS ![1, 1] slices_S6x3_S1x1_1_1 (X (Proc.devRef .tc main_arg3)))) := by
  after_results_simp
  rfl

end Cert.ReferenceIdeal.HandV

end
-- ==== Proof.RV.Id8.lean ====
/- Branch 2 of node pair 1 of the reference's cell: whatever the buffers hold before its operations,
   after them the product buffer holds the branch term of the contents at the branch's input and at the five stacked
   parameters, each cut at (1, 2), and the accumulator holds the previous accumulator plus that term. The input's own
   contents are an operand and are not opened. -/
import proofs.«414290_j6631429505478_3_alg».proof.Proof.RV.TopSeg8
import proofs.«414290_j6631429505478_3_alg».proof.Proof.RV.Branch
import proofs.«414290_j6631429505478_3_alg».proof.Proof.RV.Slices
import Idealize.ShloMosaic.Lib.StableHlo.Run

noncomputable section

namespace Cert.ReferenceIdeal.HandV

open Cert.ReferenceIdeal Cert.ReferenceIdeal.Gen Idealize.ShloMosaic Idealize.ShloMosaic.TcCoe Idealize.SL.Sem Idealize.ShloMosaic.StableHlo
open Idealize.ShloMosaic.ValueIdx

set_option maxHeartbeats 4000000 in
set_option maxRecDepth 8192 in
/-- The product buffer after the segment: the branch term. -/
theorem sg8_prod (X : Valuation τ sig (Elt Ideal)) :
    (after (sg8 (F := Ideal)) X (Proc.devRef .tc main_v267) : FVec Ideal S50000x128 .f32)
      = branchTerm (X (Proc.devRef .tc main_arg2))
          (sliceW ![1, 2, 0, 0] slices_S6x3x128x128_S1x1x128x128_1_2_0_0 (X (Proc.devRef .tc main_arg4)))
          (sliceV ![1, 2, 0] slices_S6x3x128_S1x1x128_1_2_0 (X (Proc.devRef .tc main_arg5)))
          (sliceV ![1, 2, 0] slices_S6x3x128_S1x1x128_1_2_0 (X (Proc.devRef .tc main_arg6)))
          (sliceV ![1, 2, 0] slices_S6x3x128_S1x1x128_1_2_0 (X (Proc.devRef .tc main_arg7)))
          (sliceS ![1, 2] slices_S6x3_S1x1_1_2 (X (Proc.devRef .tc main_arg3))) := by
  after_results_simp
  rfl

set_option maxHeartbeats 4000000 in
set_option maxRecDepth 8192 in
/-- The accumulator after the segment: the previous accumulator plus the branch term. -/
theorem sg8_acc (X : Valuation τ sig (Elt Ideal)) :
    (after (sg8 (F := Ideal)) X (Proc.devRef .tc main_v268) : FVec Ideal S50000x128 .f32)
      = addf (X (Proc.devRef .tc main_v230))
          (branchTerm (X (Proc.devRef .tc main_arg2))
          (sliceW ![1, 2, 0, 0] slices_S6x3x128x128_S1x1x128x128_1_2_0_0 (X (Proc.devRef .tc main_arg4)))
          (sliceV ![1, 2, 0] slices_S6x3x128_S1x1x128_1_2_0 (X (Proc.devRef .tc main_arg5)))
          (sliceV ![1, 2, 0] slices_S6x3x128_S1x1x128_1_2_0 (X (Proc.devRef .tc main_arg6)))
          (sliceV ![1, 2, 0] slices_S6x3x128_S1x1x128_1_2_0 (X (Proc.devRef .tc main_arg7)))
          (sliceS ![1, 2] slices_S6x3_S1x1_1_2 (X (Proc.devRef .tc main_arg3)))) := by
  after_results_simp
  rfl

end Cert.ReferenceIdeal.HandV

end
-- ==== Proof.RV.Id1.lean ====
/- Branch 0 of node pair 0 of the reference's cell: whatever the buffers hold before its operations,
   after them the product buffer holds the branch term of the contents at the branch's input and at the five stacked
   parameters, each cut at (0, 0), and the accumulator holds the previous accumulator plus that term. The input's own
   contents are an operand and are not opened. -/
import proofs.«414290_j6631429505478_3_alg».proof.Proof.RV.TopSeg1
import proofs.«414290_j6631429505478_3_alg».proof.Proof.RV.Branch
import proofs.«414290_j6631429505478_3_alg».proof.Proof.RV.Slices
import Idealize.ShloMosaic.Lib.StableHlo.Run

noncomputable section

namespace Cert.ReferenceIdeal.HandV

open Cert.ReferenceIdeal Cert.ReferenceIdeal.Gen Idealize.ShloMosaic Idealize.ShloMosaic.TcCoe Idealize.SL.Sem Idealize.ShloMosaic.StableHlo
open Idealize.ShloMosaic.ValueIdx

set_option maxHeartbeats 4000000 in
set_option maxRecDepth 8192 in
/-- The product buffer after the segment: the branch term. -/
theorem sg1_prod (X : Valuation τ sig (Elt Ideal)) :
    (after (sg1 (F := Ideal)) X (Proc.devRef .tc main_v62) : FVec Ideal S50000x128 .f32)
      = branchTerm (X (Proc.devRef .tc main_v24))
          (sliceW ![0, 0, 0, 0] slices_S6x3x128x128_S1x1x128x128_0_0_0_0 (X (Proc.devRef .tc main_arg4)))
          (sliceV ![0, 0, 0] slices_S6x3x128_S1x1x128_0_0_0 (X (Proc.devRef .tc main_arg5)))
          (sliceV ![0, 0, 0] slices_S6x3x128_S1x1x128_0_0_0 (X (Proc.devRef .tc main_arg6)))
          (sliceV ![0, 0, 0] slices_S6x3x128_S1x1x128_0_0_0 (X (Proc.devRef .tc main_arg7)))
          (sliceS ![0, 0] slices_S6x3_S1x1_0_0 (X (Proc.devRef .tc main_arg3))) := by
  after_results_simp
  rfl

set_option maxHeartbeats 4000000 in
set_option maxRecDepth 8192 in
/-- The accumulator after the segment: the previous accumulator plus the branch term. -/
theorem sg1_acc (X : Valuation τ sig (Elt Ideal)) :
    (after (sg1 (F := Ideal)) X (Proc.devRef .tc main_v63) : FVec Ideal S50000x128 .f32)
      = addf (broadcastInDim S50000x128 ![] bcast_S_S50000x128 (constant (F := Ideal) S_ .f32 0x00000000#32))
          (branchTerm (X (Proc.devRef .tc main_v24))
          (sliceW ![0, 0, 0, 0] slices_S6x3x128x128_S1x1x128x128_0_0_0_0 (X (Proc.devRef .tc main_arg4)))
          (sliceV ![0, 0, 0] slices_S6x3x128_S1x1x128_0_0_0 (X (Proc.devRef .tc main_arg5)))
          (sliceV ![0, 0, 0] slices_S6x3x128_S1x1x128_0_0_0 (X (Proc.devRef .tc main_arg6)))
          (sliceV ![0, 0, 0] slices_S6x3x128_S1x1x128_0_0_0 (X (Proc.devRef .tc main_arg7)))
          (sliceS ![0, 0] slices_S6x3_S1x1_0_0 (X (Proc.devRef .tc main_arg3)))) := by
  after_results_simp
  rfl

end Cert.ReferenceIdeal.HandV

end
-- ==== Proof.RV.Id2.lean ====
/- Branch 1 of node pair 0 of the reference's cell: whatever the buffers hold before its operations,
   after them the product buffer holds the branch term of the contents at the branch's input and at the five stacked
   parameters, each cut at (0, 1), and the accumulator holds the previous accumulator plus that term. The input's own
   contents are an operand and are not opened. -/
import proofs.«414290_j6631429505478_3_alg».proof.Proof.RV.TopSeg2
import proofs.«414290_j6631429505478_3_alg».proof.Proof.RV.Branch
import proofs.«414290_j6631429505478_3_alg».proof.Proof.RV.Slices
import Idealize.ShloMosaic.Lib.StableHlo.Run

noncomputable section

namespace Cert.ReferenceIdeal.HandV

open Cert.ReferenceIdeal Cert.ReferenceIdeal.Gen Idealize.ShloMosaic Idealize.ShloMosaic.TcCoe Idealize.SL.Sem Idealize.ShloMosaic.StableHlo
open Idealize.ShloMosaic.ValueIdx

set_option maxHeartbeats 4000000 in
set_option maxRecDepth 8192 in
/-- The product buffer after the segment: the branch term. -/
theorem sg2_prod (X : Valuation τ sig (Elt Ideal)) :
    (after (sg2 (F := Ideal)) X (Proc.devRef .tc main_v100) : FVec Ideal S50000x128 .f32)
      = branchTerm (X (Proc.devRef .tc main_arg1))
          (sliceW ![0, 1, 0, 0] slices_S6x3x128x128_S1x1x128x128_0_1_0_0 (X (Proc.devRef .tc main_arg4)))
          (sliceV ![0, 1, 0] slices_S6x3x128_S1x1x128_0_1_0 (X (Proc.devRef .tc main_arg5)))
          (sliceV ![0, 1, 0] slices_S6x3x128_S1x1x128_0_1_0 (X (Proc.devRef .tc main_arg6)))
          (sliceV ![0, 1, 0] slices_S6x3x128_S1x1x128_0_1_0 (X (Proc.devRef .tc main_arg7)))
          (sliceS ![0, 1] slices_S6x3_S1x1_0_1 (X (Proc.devRef .tc main_arg3))) := by
  after_results_simp
  rfl

set_option maxHeartbeats 4000000 in
set_option maxRecDepth 8192 in
/-- The accumulator after the segment: the previous accumulator plus the branch term. -/
theorem sg2_acc (X : Valuation τ sig (Elt Ideal)) :
    (after (sg2 (F := Ideal)) X (Proc.devRef .tc main_v101) : FVec Ideal S50000x128 .f32)
      = addf (X (Proc.devRef .tc main_v63))
          (branchTerm (X (Proc.devRef .tc main_arg1))
          (sliceW ![0, 1, 0, 0] slices_S6x3x128x128_S1x1x128x128_0_1_0_0 (X (Proc.devRef .tc main_arg4)))
          (sliceV ![0, 1, 0] slices_S6x3x128_S1x1x128_0_1_0 (X (Proc.devRef .tc main_arg5)))
          (sliceV ![0, 1, 0] slices_S6x3x128_S1x1x128_0_1_0 (X (Proc.devRef .tc main_arg6)))
          (sliceV ![0, 1, 0] slices_S6x3x128_S1x1x128_0_1_0 (X (Proc.devRef .tc main_arg7)))
          (sliceS ![0, 1] slices_S6x3_S1x1_0_1 (X (Proc.devRef .tc main_arg3)))) := by
  after_results_simp
  rfl

end Cert.ReferenceIdeal.HandV

end
-- ==== Proof.RV.Id3.lean ====
/- Branch 2 of node pair 0 of the reference's cell: whatever the buffers hold before its operations,
   after them the product buffer holds the branch term of the contents at the branch's input and at the five stacked
   parameters, each cut at (0, 2), and the accumulator holds the previous accumulator plus that term. The input's own
   contents are an operand and are not opened. -/
import proofs.«414290_j6631429505478_3_alg».proof.Proof.RV.TopSeg3
import proofs.«414290_j6631429505478_3_alg».proof.Proof.RV.Branch
import proofs.«414290_j6631429505478_3_alg».proof.Proof.RV.Slices
import Idealize.ShloMosaic.Lib.StableHlo.Run

noncomputable section

namespace Cert.ReferenceIdeal.HandV

open Cert.ReferenceIdeal Cert.ReferenceIdeal.Gen Idealize.ShloMosaic Idealize.ShloMosaic.TcCoe Idealize.SL.Sem Idealize.ShloMosaic.StableHlo
open Idealize.ShloMosaic.ValueIdx

set_option maxHeartbeats 4000000 in
set_option maxRecDepth 8192 in
/-- The product buffer after the segment: the branch term. -/
theorem sg3_prod (X : Valuation τ sig (Elt Ideal)) :
    (after (sg3 (F := Ideal)) X (Proc.devRef .tc main_v138) : FVec Ideal S50000x128 .f32)
      = branchTerm (X (Proc.devRef .tc main_arg2))
          (sliceW ![0, 2, 0, 0] slices_S6x3x128x128_S1x1x128x128_0_2_0_0 (X (Proc.devRef .tc main_arg4)))
          (sliceV ![0, 2, 0] slices_S6x3x128_S1x1x128_0_2_0 (X (Proc.devRef .tc main_arg5)))
          (sliceV ![0, 2, 0] slices_S6x3x128_S1x1x128_0_2_0 (X (Proc.devRef .tc main_arg6)))
          (sliceV ![0, 2, 0] slices_S6x3x128_S1x1x128_0_2_0 (X (Proc.devRef .tc main_arg7)))
          (sliceS ![0, 2] slices_S6x3_S1x1_0_2 (X (Proc.devRef .tc main_arg3))) := by
  after_results_simp
  rfl

set_option maxHeartbeats 4000000 in
set_option maxRecDepth 8192 in
/-- The accumulator after the segment: the previous accumulator plus the branch term. -/
theorem sg3_acc (X : Valuation τ sig (Elt Ideal)) :
    (after (sg3 (F := Ideal)) X (Proc.devRef .tc main_v139) : FVec Ideal S50000x128 .f32)
      = addf (X (Proc.devRef .tc main_v101))
          (branchTerm (X (Proc.devRef .tc main_arg2))
          (sliceW ![0, 2, 0, 0] slices_S6x3x128x128_S1x1x128x128_0_2_0_0 (X (Proc.devRef .tc main_arg4)))
          (sliceV ![0, 2, 0] slices_S6x3x128_S1x1x128_0_2_0 (X (Proc.devRef .tc main_arg5)))
          (sliceV ![0, 2, 0] slices_S6x3x128_S1x1x128_0_2_0 (X (Proc.devRef .tc main_arg6)))
          (sliceV ![0, 2, 0] slices_S6x3x128_S1x1x128_0_2_0 (X (Proc.devRef .tc main_arg7)))
          (sliceS ![0, 2] slices_S6x3_S1x1_0_2 (X (Proc.devRef .tc main_arg3)))) := by
  after_results_simp
  rfl

end Cert.ReferenceIdeal.HandV

end
-- ==== Proof.RV.TopChain0.lean ====
import proofs.«414290_j6631429505478_3_alg».proof.Proof.RV.TopVt
import proofs.«414290_j6631429505478_3_alg».proof.Proof.RV.TopIdT
import proofs.«414290_j6631429505478_3_alg».proof.Proof.RV.TopIdA
import proofs.«414290_j6631429505478_3_alg».proof.Proof.RV.Id1
import proofs.«414290_j6631429505478_3_alg».proof.Proof.RV.Id2
import proofs.«414290_j6631429505478_3_alg».proof.Proof.RV.Id3

noncomputable section

namespace Cert.ReferenceIdeal.HandV

open Cert.ReferenceIdeal Cert.ReferenceIdeal.Gen Idealize.ShloMosaic Idealize.ShloMosaic.TcCoe Idealize.SL.Sem Idealize.ShloMosaic.StableHlo
open Idealize.ShloMosaic.ValueIdx

/-! # The live references' contents at the cuts 1 to 5 -/

variable (m' : (ℓ : Loc nD τ sig) → Buf (Elt Ideal) ℓ) (c : Dev nD)

/-- At launch argument 0 holds its launch contents. -/
theorem f0_main_arg0 : (Vt0 m' c (Proc.devRef .tc main_arg0) : (⟨S2x800000, .i32⟩ : BufTy).Contents (Elt Ideal)) = (argsOf m' c).e := rfl
/-- At launch argument 1 holds its launch contents. -/
theorem f0_main_arg1 : (Vt0 m' c (Proc.devRef .tc main_arg1) : FVec Ideal S50000x128 .f32) = (argsOf m' c).H := rfl
/-- At launch argument 4 holds its launch contents. -/
theorem f0_main_arg4 : (Vt0 m' c (Proc.devRef .tc main_arg4) : FVec Ideal S6x3x128x128 .f32) = (argsOf m' c).W4 := rfl
/-- At launch argument 5 holds its launch contents. -/
theorem f0_main_arg5 : (Vt0 m' c (Proc.devRef .tc main_arg5) : FVec Ideal S6x3x128 .f32) = (argsOf m' c).b3 := rfl
/-- At launch argument 6 holds its launch contents. -/
theorem f0_main_arg6 : (Vt0 m' c (Proc.devRef .tc main_arg6) : FVec Ideal S6x3x128 .f32) = (argsOf m' c).g3 := rfl
/-- At launch argument 7 holds its launch contents. -/
theorem f0_main_arg7 : (Vt0 m' c (Proc.devRef .tc main_arg7) : FVec Ideal S6x3x128 .f32) = (argsOf m' c).be3 := rfl
/-- At launch argument 3 holds its launch contents. -/
theorem f0_main_arg3 : (Vt0 m' c (Proc.devRef .tc main_arg3) : FVec Ideal S6x3 .f32) = (argsOf m' c).w2 := rfl
/-- At launch argument 2 holds its launch contents. -/
theorem f0_main_arg2 : (Vt0 m' c (Proc.devRef .tc main_arg2) : FVec Ideal S50000x128 .f32) = (argsOf m' c).Hin := rfl

/-! ## After piece 0 -/

theorem f1_main_arg4 : (Vt1 m' c (Proc.devRef .tc main_arg4) : FVec Ideal S6x3x128x128 .f32) = (argsOf m' c).W4 :=
  (sg0_keep _ main_arg4 (by decide)).trans (f0_main_arg4 m' c)
set_option maxHeartbeats 1000000 in
theorem f1_main_v24 : (Vt1 m' c (Proc.devRef .tc main_v24) : FVec Ideal S50000x128 .f32) = Cert.Bridge.aggR (argsOf m' c).e (argsOf m' c).H := by
  refine (sg0_agg (Vt0 m' c)).trans ?_
  rw [f0_main_arg0 m' c, f0_main_arg1 m' c]
  first | done | rfl
theorem f1_main_arg5 : (Vt1 m' c (Proc.devRef .tc main_arg5) : FVec Ideal S6x3x128 .f32) = (argsOf m' c).b3 :=
  (sg0_keep _ main_arg5 (by decide)).trans (f0_main_arg5 m' c)
theorem f1_main_arg6 : (Vt1 m' c (Proc.devRef .tc main_arg6) : FVec Ideal S6x3x128 .f32) = (argsOf m' c).g3 :=
  (sg0_keep _ main_arg6 (by decide)).trans (f0_main_arg6 m' c)
theorem f1_main_arg7 : (Vt1 m' c (Proc.devRef .tc main_arg7) : FVec Ideal S6x3x128 .f32) = (argsOf m' c).be3 :=
  (sg0_keep _ main_arg7 (by decide)).trans (f0_main_arg7 m' c)
theorem f1_main_arg3 : (Vt1 m' c (Proc.devRef .tc main_arg3) : FVec Ideal S6x3 .f32) = (argsOf m' c).w2 :=
  (sg0_keep _ main_arg3 (by decide)).trans (f0_main_arg3 m' c)
theorem f1_main_arg1 : (Vt1 m' c (Proc.devRef .tc main_arg1) : FVec Ideal S50000x128 .f32) = (argsOf m' c).H :=
  (sg0_keep _ main_arg1 (by decide)).trans (f0_main_arg1 m' c)
theorem f1_main_arg2 : (Vt1 m' c (Proc.devRef .tc main_arg2) : FVec Ideal S50000x128 .f32) = (argsOf m' c).Hin :=
  (sg0_keep _ main_arg2 (by decide)).trans (f0_main_arg2 m' c)
set_option maxHeartbeats 1000000 in
theorem f1_main_v1 : (Vt1 m' c (Proc.devRef .tc main_v1) : (⟨S800000, .i32⟩ : BufTy).Contents (Elt Ideal)) = Cert.Bridge.srcR (argsOf m' c).e := by
  refine (sg0_src (Vt0 m' c)).trans ?_
  rw [f0_main_arg0 m' c]
  first | done | rfl
set_option maxHeartbeats 1000000 in
theorem f1_main_v3 : (Vt1 m' c (Proc.devRef .tc main_v3) : (⟨S800000, .i32⟩ : BufTy).Contents (Elt Ideal)) = Cert.Bridge.dstR (argsOf m' c).e := by
  refine (sg0_dst (Vt0 m' c)).trans ?_
  rw [f0_main_arg0 m' c]
  first | done | rfl
set_option maxHeartbeats 1000000 in
theorem f1_main_v12 : (Vt1 m' c (Proc.devRef .tc main_v12) : (⟨S50000x1, .f32⟩ : BufTy).Contents (Elt Ideal)) = Cert.Bridge.invDegR (argsOf m' c).e := by
  refine (sg0_inv (Vt0 m' c)).trans ?_
  rw [f0_main_arg0 m' c]
  first | done | rfl

/-! ## After piece 1 -/

theorem f2_main_arg4 : (Vt2 m' c (Proc.devRef .tc main_arg4) : FVec Ideal S6x3x128x128 .f32) = (argsOf m' c).W4 :=
  (sg1_keep _ main_arg4 (by decide)).trans (f1_main_arg4 m' c)
theorem f2_main_arg1 : (Vt2 m' c (Proc.devRef .tc main_arg1) : FVec Ideal S50000x128 .f32) = (argsOf m' c).H :=
  (sg1_keep _ main_arg1 (by decide)).trans (f1_main_arg1 m' c)
theorem f2_main_arg5 : (Vt2 m' c (Proc.devRef .tc main_arg5) : FVec Ideal S6x3x128 .f32) = (argsOf m' c).b3 :=
  (sg1_keep _ main_arg5 (by decide)).trans (f1_main_arg5 m' c)
theorem f2_main_arg6 : (Vt2 m' c (Proc.devRef .tc main_arg6) : FVec Ideal S6x3x128 .f32) = (argsOf m' c).g3 :=
  (sg1_keep _ main_arg6 (by decide)).trans (f1_main_arg6 m' c)
theorem f2_main_arg7 : (Vt2 m' c (Proc.devRef .tc main_arg7) : FVec Ideal S6x3x128 .f32) = (argsOf m' c).be3 :=
  (sg1_keep _ main_arg7 (by decide)).trans (f1_main_arg7 m' c)
theorem f2_main_arg3 : (Vt2 m' c (Proc.devRef .tc main_arg3) : FVec Ideal S6x3 .f32) = (argsOf m' c).w2 :=
  (sg1_keep _ main_arg3 (by decide)).trans (f1_main_arg3 m' c)
set_option maxHeartbeats 1000000 in
theorem f2_main_v63 : (Vt2 m' c (Proc.devRef .tc main_v63) : FVec Ideal S50000x128 .f32) = addf Z (br (argsOf m' c) 0 0 (Cert.Bridge.aggR (argsOf m' c).e (argsOf m' c).H)) := by
  refine (sg1_acc (Vt1 m' c)).trans ?_
  rw [f1_main_arg4 m' c, f1_main_v24 m' c, f1_main_arg5 m' c, f1_main_arg6 m' c, f1_main_arg7 m' c, f1_main_arg3 m' c]
  first | done | rfl
theorem f2_main_arg2 : (Vt2 m' c (Proc.devRef .tc main_arg2) : FVec Ideal S50000x128 .f32) = (argsOf m' c).Hin :=
  (sg1_keep _ main_arg2 (by decide)).trans (f1_main_arg2 m' c)
theorem f2_main_v1 : (Vt2 m' c (Proc.devRef .tc main_v1) : (⟨S800000, .i32⟩ : BufTy).Contents (Elt Ideal)) = Cert.Bridge.srcR (argsOf m' c).e :=
  (sg1_keep _ main_v1 (by decide)).trans (f1_main_v1 m' c)
theorem f2_main_v3 : (Vt2 m' c (Proc.devRef .tc main_v3) : (⟨S800000, .i32⟩ : BufTy).Contents (Elt Ideal)) = Cert.Bridge.dstR (argsOf m' c).e :=
  (sg1_keep _ main_v3 (by decide)).trans (f1_main_v3 m' c)
theorem f2_main_v12 : (Vt2 m' c (Proc.devRef .tc main_v12) : (⟨S50000x1, .f32⟩ : BufTy).Contents (Elt Ideal)) = Cert.Bridge.invDegR (argsOf m' c).e :=
  (sg1_keep _ main_v12 (by decide)).trans (f1_main_v12 m' c)

/-! ## After piece 2 -/

theorem f3_main_arg4 : (Vt3 m' c (Proc.devRef .tc main_arg4) : FVec Ideal S6x3x128x128 .f32) = (argsOf m' c).W4 :=
  (sg2_keep _ main_arg4 (by decide)).trans (f2_main_arg4 m' c)
theorem f3_main_arg2 : (Vt3 m' c (Proc.devRef .tc main_arg2) : FVec Ideal S50000x128 .f32) = (argsOf m' c).Hin :=
  (sg2_keep _ main_arg2 (by decide)).trans (f2_main_arg2 m' c)
theorem f3_main_arg5 : (Vt3 m' c (Proc.devRef .tc main_arg5) : FVec Ideal S6x3x128 .f32) = (argsOf m' c).b3 :=
  (sg2_keep _ main_arg5 (by decide)).trans (f2_main_arg5 m' c)
theorem f3_main_arg6 : (Vt3 m' c (Proc.devRef .tc main_arg6) : FVec Ideal S6x3x128 .f32) = (argsOf m' c).g3 :=
  (sg2_keep _ main_arg6 (by decide)).trans (f2_main_arg6 m' c)
theorem f3_main_arg7 : (Vt3 m' c (Proc.devRef .tc main_arg7) : FVec Ideal S6x3x128 .f32) = (argsOf m' c).be3 :=
  (sg2_keep _ main_arg7 (by decide)).trans (f2_main_arg7 m' c)
theorem f3_main_arg3 : (Vt3 m' c (Proc.devRef .tc main_arg3) : FVec Ideal S6x3 .f32) = (argsOf m' c).w2 :=
  (sg2_keep _ main_arg3 (by decide)).trans (f2_main_arg3 m' c)
set_option maxHeartbeats 1000000 in
theorem f3_main_v101 : (Vt3 m' c (Proc.devRef .tc main_v101) : FVec Ideal S50000x128 .f32) = addf (addf Z (br (argsOf m' c) 0 0 (Cert.Bridge.aggR (argsOf m' c).e (argsOf m' c).H))) (br (argsOf m' c) 0 1 (argsOf m' c).H) := by
  refine (sg2_acc (Vt2 m' c)).trans ?_
  rw [f2_main_arg4 m' c, f2_main_arg1 m' c, f2_main_arg5 m' c, f2_main_arg6 m' c, f2_main_arg7 m' c, f2_main_arg3 m' c, f2_main_v63 m' c]
  first | done | rfl
theorem f3_main_v1 : (Vt3 m' c (Proc.devRef .tc main_v1) : (⟨S800000, .i32⟩ : BufTy).Contents (Elt Ideal)) = Cert.Bridge.srcR (argsOf m' c).e :=
  (sg2_keep _ main_v1 (by decide)).trans (f2_main_v1 m' c)
theorem f3_main_arg1 : (Vt3 m' c (Proc.devRef .tc main_arg1) : FVec Ideal S50000x128 .f32) = (argsOf m' c).H :=
  (sg2_keep _ main_arg1 (by decide)).trans (f2_main_arg1 m' c)
theorem f3_main_v3 : (Vt3 m' c (Proc.devRef .tc main_v3) : (⟨S800000, .i32⟩ : BufTy).Contents (Elt Ideal)) = Cert.Bridge.dstR (argsOf m' c).e :=
  (sg2_keep _ main_v3 (by decide)).trans (f2_main_v3 m' c)
theorem f3_main_v12 : (Vt3 m' c (Proc.devRef .tc main_v12) : (⟨S50000x1, .f32⟩ : BufTy).Contents (Elt Ideal)) = Cert.Bridge.invDegR (argsOf m' c).e :=
  (sg2_keep _ main_v12 (by decide)).trans (f2_main_v12 m' c)

/-! ## After piece 3 -/

set_option maxHeartbeats 1000000 in
theorem f4_main_v139 : (Vt4 m' c (Proc.devRef .tc main_v139) : FVec Ideal S50000x128 .f32) = mixA (argsOf m' c) 0 (argsOf m' c).H := by
  refine (sg3_acc (Vt3 m' c)).trans ?_
  rw [f3_main_arg4 m' c, f3_main_arg2 m' c, f3_main_arg5 m' c, f3_main_arg6 m' c, f3_main_arg7 m' c, f3_main_arg3 m' c, f3_main_v101 m' c]
  first | done | rfl
theorem f4_main_v1 : (Vt4 m' c (Proc.devRef .tc main_v1) : (⟨S800000, .i32⟩ : BufTy).Contents (Elt Ideal)) = Cert.Bridge.srcR (argsOf m' c).e :=
  (sg3_keep _ main_v1 (by decide)).trans (f3_main_v1 m' c)
theorem f4_main_arg1 : (Vt4 m' c (Proc.devRef .tc main_arg1) : FVec Ideal S50000x128 .f32) = (argsOf m' c).H :=
  (sg3_keep _ main_arg1 (by decide)).trans (f3_main_arg1 m' c)
theorem f4_main_v3 : (Vt4 m' c (Proc.devRef .tc main_v3) : (⟨S800000, .i32⟩ : BufTy).Contents (Elt Ideal)) = Cert.Bridge.dstR (argsOf m' c).e :=
  (sg3_keep _ main_v3 (by decide)).trans (f3_main_v3 m' c)
theorem f4_main_v12 : (Vt4 m' c (Proc.devRef .tc main_v12) : (⟨S50000x1, .f32⟩ : BufTy).Contents (Elt Ideal)) = Cert.Bridge.invDegR (argsOf m' c).e :=
  (sg3_keep _ main_v12 (by decide)).trans (f3_main_v12 m' c)
theorem f4_main_arg4 : (Vt4 m' c (Proc.devRef .tc main_arg4) : FVec Ideal S6x3x128x128 .f32) = (argsOf m' c).W4 :=
  (sg3_keep _ main_arg4 (by decide)).trans (f3_main_arg4 m' c)
theorem f4_main_arg5 : (Vt4 m' c (Proc.devRef .tc main_arg5) : FVec Ideal S6x3x128 .f32) = (argsOf m' c).b3 :=
  (sg3_keep _ main_arg5 (by decide)).trans (f3_main_arg5 m' c)
theorem f4_main_arg6 : (Vt4 m' c (Proc.devRef .tc main_arg6) : FVec Ideal S6x3x128 .f32) = (argsOf m' c).g3 :=
  (sg3_keep _ main_arg6 (by decide)).trans (f3_main_arg6 m' c)
theorem f4_main_arg7 : (Vt4 m' c (Proc.devRef .tc main_arg7) : FVec Ideal S6x3x128 .f32) = (argsOf m' c).be3 :=
  (sg3_keep _ main_arg7 (by decide)).trans (f3_main_arg7 m' c)
theorem f4_main_arg3 : (Vt4 m' c (Proc.devRef .tc main_arg3) : FVec Ideal S6x3 .f32) = (argsOf m' c).w2 :=
  (sg3_keep _ main_arg3 (by decide)).trans (f3_main_arg3 m' c)
theorem f4_main_arg2 : (Vt4 m' c (Proc.devRef .tc main_arg2) : FVec Ideal S50000x128 .f32) = (argsOf m' c).Hin :=
  (sg3_keep _ main_arg2 (by decide)).trans (f3_main_arg2 m' c)

/-! ## After piece 4 -/

theorem f5_main_v1 : (Vt5 m' c (Proc.devRef .tc main_v1) : (⟨S800000, .i32⟩ : BufTy).Contents (Elt Ideal)) = Cert.Bridge.srcR (argsOf m' c).e :=
  (sg4_keep _ main_v1 (by decide)).trans (f4_main_v1 m' c)
theorem f5_main_arg1 : (Vt5 m' c (Proc.devRef .tc main_arg1) : FVec Ideal S50000x128 .f32) = (argsOf m' c).H :=
  (sg4_keep _ main_arg1 (by decide)).trans (f4_main_arg1 m' c)
theorem f5_main_v3 : (Vt5 m' c (Proc.devRef .tc main_v3) : (⟨S800000, .i32⟩ : BufTy).Contents (Elt Ideal)) = Cert.Bridge.dstR (argsOf m' c).e :=
  (sg4_keep _ main_v3 (by decide)).trans (f4_main_v3 m' c)
theorem f5_main_v12 : (Vt5 m' c (Proc.devRef .tc main_v12) : (⟨S50000x1, .f32⟩ : BufTy).Contents (Elt Ideal)) = Cert.Bridge.invDegR (argsOf m' c).e :=
  (sg4_keep _ main_v12 (by decide)).trans (f4_main_v12 m' c)
theorem f5_main_arg4 : (Vt5 m' c (Proc.devRef .tc main_arg4) : FVec Ideal S6x3x128x128 .f32) = (argsOf m' c).W4 :=
  (sg4_keep _ main_arg4 (by decide)).trans (f4_main_arg4 m' c)
theorem f5_main_arg5 : (Vt5 m' c (Proc.devRef .tc main_arg5) : FVec Ideal S6x3x128 .f32) = (argsOf m' c).b3 :=
  (sg4_keep _ main_arg5 (by decide)).trans (f4_main_arg5 m' c)
theorem f5_main_arg6 : (Vt5 m' c (Proc.devRef .tc main_arg6) : FVec Ideal S6x3x128 .f32) = (argsOf m' c).g3 :=
  (sg4_keep _ main_arg6 (by decide)).trans (f4_main_arg6 m' c)
theorem f5_main_arg7 : (Vt5 m' c (Proc.devRef .tc main_arg7) : FVec Ideal S6x3x128 .f32) = (argsOf m' c).be3 :=
  (sg4_keep _ main_arg7 (by decide)).trans (f4_main_arg7 m' c)
theorem f5_main_arg3 : (Vt5 m' c (Proc.devRef .tc main_arg3) : FVec Ideal S6x3 .f32) = (argsOf m' c).w2 :=
  (sg4_keep _ main_arg3 (by decide)).trans (f4_main_arg3 m' c)
theorem f5_main_arg2 : (Vt5 m' c (Proc.devRef .tc main_arg2) : FVec Ideal S50000x128 .f32) = (argsOf m' c).Hin :=
  (sg4_keep _ main_arg2 (by decide)).trans (f4_main_arg2 m' c)
set_option maxHeartbeats 1000000 in
theorem f5_main_v141 : (Vt5 m' c (Proc.devRef .tc main_v141) : FVec Ideal S50000x128 .f32) = s1 (argsOf m' c) := by
  refine (sg4_sum (Vt4 m' c)).trans ?_
  rw [f4_main_v139 m' c]
  first | done | rfl

end Cert.ReferenceIdeal.HandV
end
-- ==== Proof.RV.TopChain1.lean ====
import proofs.«414290_j6631429505478_3_alg».proof.Proof.RV.TopVt
import proofs.«414290_j6631429505478_3_alg».proof.Proof.RV.TopIdT
import proofs.«414290_j6631429505478_3_alg».proof.Proof.RV.TopIdA
import proofs.«414290_j6631429505478_3_alg».proof.Proof.RV.Id6
import proofs.«414290_j6631429505478_3_alg».proof.Proof.RV.Id7
import proofs.«414290_j6631429505478_3_alg».proof.Proof.RV.Id8
import proofs.«414290_j6631429505478_3_alg».proof.Proof.RV.TopChain0

noncomputable section

namespace Cert.ReferenceIdeal.HandV

open Cert.ReferenceIdeal Cert.ReferenceIdeal.Gen Idealize.ShloMosaic Idealize.ShloMosaic.TcCoe Idealize.SL.Sem Idealize.ShloMosaic.StableHlo
open Idealize.ShloMosaic.ValueIdx

/-! # The live references' contents at the cuts 6 to 10 -/

variable (m' : (ℓ : Loc nD τ sig) → Buf (Elt Ideal) ℓ) (c : Dev nD)

/-! ## After piece 5 -/

theorem f6_main_arg4 : (Vt6 m' c (Proc.devRef .tc main_arg4) : FVec Ideal S6x3x128x128 .f32) = (argsOf m' c).W4 :=
  (sg5_keep _ main_arg4 (by decide)).trans (f5_main_arg4 m' c)
set_option maxHeartbeats 1000000 in
theorem f6_main_v153 : (Vt6 m' c (Proc.devRef .tc main_v153) : FVec Ideal S50000x128 .f32) = Cert.Bridge.aggR (argsOf m' c).e (argsOf m' c).H := by
  refine (sg5_agg (Vt5 m' c)).trans ?_
  rw [f5_main_v1 m' c, f5_main_v3 m' c, f5_main_v12 m' c, f5_main_arg1 m' c]
  first | done | rfl
theorem f6_main_arg5 : (Vt6 m' c (Proc.devRef .tc main_arg5) : FVec Ideal S6x3x128 .f32) = (argsOf m' c).b3 :=
  (sg5_keep _ main_arg5 (by decide)).trans (f5_main_arg5 m' c)
theorem f6_main_arg6 : (Vt6 m' c (Proc.devRef .tc main_arg6) : FVec Ideal S6x3x128 .f32) = (argsOf m' c).g3 :=
  (sg5_keep _ main_arg6 (by decide)).trans (f5_main_arg6 m' c)
theorem f6_main_arg7 : (Vt6 m' c (Proc.devRef .tc main_arg7) : FVec Ideal S6x3x128 .f32) = (argsOf m' c).be3 :=
  (sg5_keep _ main_arg7 (by decide)).trans (f5_main_arg7 m' c)
theorem f6_main_arg3 : (Vt6 m' c (Proc.devRef .tc main_arg3) : FVec Ideal S6x3 .f32) = (argsOf m' c).w2 :=
  (sg5_keep _ main_arg3 (by decide)).trans (f5_main_arg3 m' c)
theorem f6_main_arg1 : (Vt6 m' c (Proc.devRef .tc main_arg1) : FVec Ideal S50000x128 .f32) = (argsOf m' c).H :=
  (sg5_keep _ main_arg1 (by decide)).trans (f5_main_arg1 m' c)
theorem f6_main_arg2 : (Vt6 m' c (Proc.devRef .tc main_arg2) : FVec Ideal S50000x128 .f32) = (argsOf m' c).Hin :=
  (sg5_keep _ main_arg2 (by decide)).trans (f5_main_arg2 m' c)
theorem f6_main_v1 : (Vt6 m' c (Proc.devRef .tc main_v1) : (⟨S800000, .i32⟩ : BufTy).Contents (Elt Ideal)) = Cert.Bridge.srcR (argsOf m' c).e :=
  (sg5_keep _ main_v1 (by decide)).trans (f5_main_v1 m' c)
theorem f6_main_v141 : (Vt6 m' c (Proc.devRef .tc main_v141) : FVec Ideal S50000x128 .f32) = s1 (argsOf m' c) :=
  (sg5_keep _ main_v141 (by decide)).trans (f5_main_v141 m' c)
theorem f6_main_v3 : (Vt6 m' c (Proc.devRef .tc main_v3) : (⟨S800000, .i32⟩ : BufTy).Contents (Elt Ideal)) = Cert.Bridge.dstR (argsOf m' c).e :=
  (sg5_keep _ main_v3 (by decide)).trans (f5_main_v3 m' c)
theorem f6_main_v12 : (Vt6 m' c (Proc.devRef .tc main_v12) : (⟨S50000x1, .f32⟩ : BufTy).Contents (Elt Ideal)) = Cert.Bridge.invDegR (argsOf m' c).e :=
  (sg5_keep _ main_v12 (by decide)).trans (f5_main_v12 m' c)

/-! ## After piece 6 -/

theorem f7_main_arg4 : (Vt7 m' c (Proc.devRef .tc main_arg4) : FVec Ideal S6x3x128x128 .f32) = (argsOf m' c).W4 :=
  (sg6_keep _ main_arg4 (by decide)).trans (f6_main_arg4 m' c)
theorem f7_main_arg1 : (Vt7 m' c (Proc.devRef .tc main_arg1) : FVec Ideal S50000x128 .f32) = (argsOf m' c).H :=
  (sg6_keep _ main_arg1 (by decide)).trans (f6_main_arg1 m' c)
theorem f7_main_arg5 : (Vt7 m' c (Proc.devRef .tc main_arg5) : FVec Ideal S6x3x128 .f32) = (argsOf m' c).b3 :=
  (sg6_keep _ main_arg5 (by decide)).trans (f6_main_arg5 m' c)
theorem f7_main_arg6 : (Vt7 m' c (Proc.devRef .tc main_arg6) : FVec Ideal S6x3x128 .f32) = (argsOf m' c).g3 :=
  (sg6_keep _ main_arg6 (by decide)).trans (f6_main_arg6 m' c)
theorem f7_main_arg7 : (Vt7 m' c (Proc.devRef .tc main_arg7) : FVec Ideal S6x3x128 .f32) = (argsOf m' c).be3 :=
  (sg6_keep _ main_arg7 (by decide)).trans (f6_main_arg7 m' c)
theorem f7_main_arg3 : (Vt7 m' c (Proc.devRef .tc main_arg3) : FVec Ideal S6x3 .f32) = (argsOf m' c).w2 :=
  (sg6_keep _ main_arg3 (by decide)).trans (f6_main_arg3 m' c)
set_option maxHeartbeats 1000000 in
theorem f7_main_v192 : (Vt7 m' c (Proc.devRef .tc main_v192) : FVec Ideal S50000x128 .f32) = addf Z (br (argsOf m' c) 1 0 (Cert.Bridge.aggR (argsOf m' c).e (argsOf m' c).H)) := by
  refine (sg6_acc (Vt6 m' c)).trans ?_
  rw [f6_main_arg4 m' c, f6_main_v153 m' c, f6_main_arg5 m' c, f6_main_arg6 m' c, f6_main_arg7 m' c, f6_main_arg3 m' c]
  first | done | rfl
theorem f7_main_arg2 : (Vt7 m' c (Proc.devRef .tc main_arg2) : FVec Ideal S50000x128 .f32) = (argsOf m' c).Hin :=
  (sg6_keep _ main_arg2 (by decide)).trans (f6_main_arg2 m' c)
theorem f7_main_v1 : (Vt7 m' c (Proc.devRef .tc main_v1) : (⟨S800000, .i32⟩ : BufTy).Contents (Elt Ideal)) = Cert.Bridge.srcR (argsOf m' c).e :=
  (sg6_keep _ main_v1 (by decide)).trans (f6_main_v1 m' c)
theorem f7_main_v141 : (Vt7 m' c (Proc.devRef .tc main_v141) : FVec Ideal S50000x128 .f32) = s1 (argsOf m' c) :=
  (sg6_keep _ main_v141 (by decide)).trans (f6_main_v141 m' c)
theorem f7_main_v3 : (Vt7 m' c (Proc.devRef .tc main_v3) : (⟨S800000, .i32⟩ : BufTy).Contents (Elt Ideal)) = Cert.Bridge.dstR (argsOf m' c).e :=
  (sg6_keep _ main_v3 (by decide)).trans (f6_main_v3 m' c)
theorem f7_main_v12 : (Vt7 m' c (Proc.devRef .tc main_v12) : (⟨S50000x1, .f32⟩ : BufTy).Contents (Elt Ideal)) = Cert.Bridge.invDegR (argsOf m' c).e :=
  (sg6_keep _ main_v12 (by decide)).trans (f6_main_v12 m' c)

/-! ## After piece 7 -/

theorem f8_main_arg4 : (Vt8 m' c (Proc.devRef .tc main_arg4) : FVec Ideal S6x3x128x128 .f32) = (argsOf m' c).W4 :=
  (sg7_keep _ main_arg4 (by decide)).trans (f7_main_arg4 m' c)
theorem f8_main_arg2 : (Vt8 m' c (Proc.devRef .tc main_arg2) : FVec Ideal S50000x128 .f32) = (argsOf m' c).Hin :=
  (sg7_keep _ main_arg2 (by decide)).trans (f7_main_arg2 m' c)
theorem f8_main_arg5 : (Vt8 m' c (Proc.devRef .tc main_arg5) : FVec Ideal S6x3x128 .f32) = (argsOf m' c).b3 :=
  (sg7_keep _ main_arg5 (by decide)).trans (f7_main_arg5 m' c)
theorem f8_main_arg6 : (Vt8 m' c (Proc.devRef .tc main_arg6) : FVec Ideal S6x3x128 .f32) = (argsOf m' c).g3 :=
  (sg7_keep _ main_arg6 (by decide)).trans (f7_main_arg6 m' c)
theorem f8_main_arg7 : (Vt8 m' c (Proc.devRef .tc main_arg7) : FVec Ideal S6x3x128 .f32) = (argsOf m' c).be3 :=
  (sg7_keep _ main_arg7 (by decide)).trans (f7_main_arg7 m' c)
theorem f8_main_arg3 : (Vt8 m' c (Proc.devRef .tc main_arg3) : FVec Ideal S6x3 .f32) = (argsOf m' c).w2 :=
  (sg7_keep _ main_arg3 (by decide)).trans (f7_main_arg3 m' c)
set_option maxHeartbeats 1000000 in
theorem f8_main_v230 : (Vt8 m' c (Proc.devRef .tc main_v230) : FVec Ideal S50000x128 .f32) = addf (addf Z (br (argsOf m' c) 1 0 (Cert.Bridge.aggR (argsOf m' c).e (argsOf m' c).H))) (br (argsOf m' c) 1 1 (argsOf m' c).H) := by
  refine (sg7_acc (Vt7 m' c)).trans ?_
  rw [f7_main_arg4 m' c, f7_main_arg1 m' c, f7_main_arg5 m' c, f7_main_arg6 m' c, f7_main_arg7 m' c, f7_main_arg3 m' c, f7_main_v192 m' c]
  first | done | rfl
theorem f8_main_v1 : (Vt8 m' c (Proc.devRef .tc main_v1) : (⟨S800000, .i32⟩ : BufTy).Contents (Elt Ideal)) = Cert.Bridge.srcR (argsOf m' c).e :=
  (sg7_keep _ main_v1 (by decide)).trans (f7_main_v1 m' c)
theorem f8_main_v141 : (Vt8 m' c (Proc.devRef .tc main_v141) : FVec Ideal S50000x128 .f32) = s1 (argsOf m' c) :=
  (sg7_keep _ main_v141 (by decide)).trans (f7_main_v141 m' c)
theorem f8_main_v3 : (Vt8 m' c (Proc.devRef .tc main_v3) : (⟨S800000, .i32⟩ : BufTy).Contents (Elt Ideal)) = Cert.Bridge.dstR (argsOf m' c).e :=
  (sg7_keep _ main_v3 (by decide)).trans (f7_main_v3 m' c)
theorem f8_main_v12 : (Vt8 m' c (Proc.devRef .tc main_v12) : (⟨S50000x1, .f32⟩ : BufTy).Contents (Elt Ideal)) = Cert.Bridge.invDegR (argsOf m' c).e :=
  (sg7_keep _ main_v12 (by decide)).trans (f7_main_v12 m' c)
theorem f8_main_arg1 : (Vt8 m' c (Proc.devRef .tc main_arg1) : FVec Ideal S50000x128 .f32) = (argsOf m' c).H :=
  (sg7_keep _ main_arg1 (by decide)).trans (f7_main_arg1 m' c)

/-! ## After piece 8 -/

set_option maxHeartbeats 1000000 in
theorem f9_main_v268 : (Vt9 m' c (Proc.devRef .tc main_v268) : FVec Ideal S50000x128 .f32) = mixA (argsOf m' c) 1 (argsOf m' c).H := by
  refine (sg8_acc (Vt8 m' c)).trans ?_
  rw [f8_main_arg4 m' c, f8_main_arg2 m' c, f8_main_arg5 m' c, f8_main_arg6 m' c, f8_main_arg7 m' c, f8_main_arg3 m' c, f8_main_v230 m' c]
  first | done | rfl
theorem f9_main_v1 : (Vt9 m' c (Proc.devRef .tc main_v1) : (⟨S800000, .i32⟩ : BufTy).Contents (Elt Ideal)) = Cert.Bridge.srcR (argsOf m' c).e :=
  (sg8_keep _ main_v1 (by decide)).trans (f8_main_v1 m' c)
theorem f9_main_v141 : (Vt9 m' c (Proc.devRef .tc main_v141) : FVec Ideal S50000x128 .f32) = s1 (argsOf m' c) :=
  (sg8_keep _ main_v141 (by decide)).trans (f8_main_v141 m' c)
theorem f9_main_v3 : (Vt9 m' c (Proc.devRef .tc main_v3) : (⟨S800000, .i32⟩ : BufTy).Contents (Elt Ideal)) = Cert.Bridge.dstR (argsOf m' c).e :=
  (sg8_keep _ main_v3 (by decide)).trans (f8_main_v3 m' c)
theorem f9_main_v12 : (Vt9 m' c (Proc.devRef .tc main_v12) : (⟨S50000x1, .f32⟩ : BufTy).Contents (Elt Ideal)) = Cert.Bridge.invDegR (argsOf m' c).e :=
  (sg8_keep _ main_v12 (by decide)).trans (f8_main_v12 m' c)
theorem f9_main_arg4 : (Vt9 m' c (Proc.devRef .tc main_arg4) : FVec Ideal S6x3x128x128 .f32) = (argsOf m' c).W4 :=
  (sg8_keep _ main_arg4 (by decide)).trans (f8_main_arg4 m' c)
theorem f9_main_arg5 : (Vt9 m' c (Proc.devRef .tc main_arg5) : FVec Ideal S6x3x128 .f32) = (argsOf m' c).b3 :=
  (sg8_keep _ main_arg5 (by decide)).trans (f8_main_arg5 m' c)
theorem f9_main_arg6 : (Vt9 m' c (Proc.devRef .tc main_arg6) : FVec Ideal S6x3x128 .f32) = (argsOf m' c).g3 :=
  (sg8_keep _ main_arg6 (by decide)).trans (f8_main_arg6 m' c)
theorem f9_main_arg7 : (Vt9 m' c (Proc.devRef .tc main_arg7) : FVec Ideal S6x3x128 .f32) = (argsOf m' c).be3 :=
  (sg8_keep _ main_arg7 (by decide)).trans (f8_main_arg7 m' c)
theorem f9_main_arg3 : (Vt9 m' c (Proc.devRef .tc main_arg3) : FVec Ideal S6x3 .f32) = (argsOf m' c).w2 :=
  (sg8_keep _ main_arg3 (by decide)).trans (f8_main_arg3 m' c)
theorem f9_main_arg2 : (Vt9 m' c (Proc.devRef .tc main_arg2) : FVec Ideal S50000x128 .f32) = (argsOf m' c).Hin :=
  (sg8_keep _ main_arg2 (by decide)).trans (f8_main_arg2 m' c)
theorem f9_main_arg1 : (Vt9 m' c (Proc.devRef .tc main_arg1) : FVec Ideal S50000x128 .f32) = (argsOf m' c).H :=
  (sg8_keep _ main_arg1 (by decide)).trans (f8_main_arg1 m' c)

/-! ## After piece 9 -/

theorem f10_main_v1 : (Vt10 m' c (Proc.devRef .tc main_v1) : (⟨S800000, .i32⟩ : BufTy).Contents (Elt Ideal)) = Cert.Bridge.srcR (argsOf m' c).e :=
  (sg9_keep _ main_v1 (by decide)).trans (f9_main_v1 m' c)
theorem f10_main_v141 : (Vt10 m' c (Proc.devRef .tc main_v141) : FVec Ideal S50000x128 .f32) = s1 (argsOf m' c) :=
  (sg9_keep _ main_v141 (by decide)).trans (f9_main_v141 m' c)
theorem f10_main_v3 : (Vt10 m' c (Proc.devRef .tc main_v3) : (⟨S800000, .i32⟩ : BufTy).Contents (Elt Ideal)) = Cert.Bridge.dstR (argsOf m' c).e :=
  (sg9_keep _ main_v3 (by decide)).trans (f9_main_v3 m' c)
theorem f10_main_v12 : (Vt10 m' c (Proc.devRef .tc main_v12) : (⟨S50000x1, .f32⟩ : BufTy).Contents (Elt Ideal)) = Cert.Bridge.invDegR (argsOf m' c).e :=
  (sg9_keep _ main_v12 (by decide)).trans (f9_main_v12 m' c)
theorem f10_main_arg4 : (Vt10 m' c (Proc.devRef .tc main_arg4) : FVec Ideal S6x3x128x128 .f32) = (argsOf m' c).W4 :=
  (sg9_keep _ main_arg4 (by decide)).trans (f9_main_arg4 m' c)
theorem f10_main_arg5 : (Vt10 m' c (Proc.devRef .tc main_arg5) : FVec Ideal S6x3x128 .f32) = (argsOf m' c).b3 :=
  (sg9_keep _ main_arg5 (by decide)).trans (f9_main_arg5 m' c)
theorem f10_main_arg6 : (Vt10 m' c (Proc.devRef .tc main_arg6) : FVec Ideal S6x3x128 .f32) = (argsOf m' c).g3 :=
  (sg9_keep _ main_arg6 (by decide)).trans (f9_main_arg6 m' c)
theorem f10_main_arg7 : (Vt10 m' c (Proc.devRef .tc main_arg7) : FVec Ideal S6x3x128 .f32) = (argsOf m' c).be3 :=
  (sg9_keep _ main_arg7 (by decide)).trans (f9_main_arg7 m' c)
theorem f10_main_arg3 : (Vt10 m' c (Proc.devRef .tc main_arg3) : FVec Ideal S6x3 .f32) = (argsOf m' c).w2 :=
  (sg9_keep _ main_arg3 (by decide)).trans (f9_main_arg3 m' c)
theorem f10_main_arg2 : (Vt10 m' c (Proc.devRef .tc main_arg2) : FVec Ideal S50000x128 .f32) = (argsOf m' c).Hin :=
  (sg9_keep _ main_arg2 (by decide)).trans (f9_main_arg2 m' c)
set_option maxHeartbeats 1000000 in
theorem f10_main_v270 : (Vt10 m' c (Proc.devRef .tc main_v270) : FVec Ideal S50000x128 .f32) = t1 (argsOf m' c) := by
  refine (sg9_sum (Vt9 m' c)).trans ?_
  rw [f9_main_v268 m' c]
  first | done | rfl
theorem f10_main_arg1 : (Vt10 m' c (Proc.devRef .tc main_arg1) : FVec Ideal S50000x128 .f32) = (argsOf m' c).H :=
  (sg9_keep _ main_arg1 (by decide)).trans (f9_main_arg1 m' c)

end Cert.ReferenceIdeal.HandV
end
-- ==== Proof.RV.TopChain2.lean ====
import proofs.«414290_j6631429505478_3_alg».proof.Proof.RV.TopVt
import proofs.«414290_j6631429505478_3_alg».proof.Proof.RV.TopIdT
import proofs.«414290_j6631429505478_3_alg».proof.Proof.RV.TopIdA
import proofs.«414290_j6631429505478_3_alg».proof.Proof.RV.Id11
import proofs.«414290_j6631429505478_3_alg».proof.Proof.RV.Id12
import proofs.«414290_j6631429505478_3_alg».proof.Proof.RV.Id13
import proofs.«414290_j6631429505478_3_alg».proof.Proof.RV.TopChain1

noncomputable section

namespace Cert.ReferenceIdeal.HandV

open Cert.ReferenceIdeal Cert.ReferenceIdeal.Gen Idealize.ShloMosaic Idealize.ShloMosaic.TcCoe Idealize.SL.Sem Idealize.ShloMosaic.StableHlo
open Idealize.ShloMosaic.ValueIdx

/-! # The live references' contents at the cuts 11 to 15 -/

variable (m' : (ℓ : Loc nD τ sig) → Buf (Elt Ideal) ℓ) (c : Dev nD)

/-! ## After piece 10 -/

theorem f11_main_arg4 : (Vt11 m' c (Proc.devRef .tc main_arg4) : FVec Ideal S6x3x128x128 .f32) = (argsOf m' c).W4 :=
  (sg10_keep _ main_arg4 (by decide)).trans (f10_main_arg4 m' c)
set_option maxHeartbeats 1000000 in
theorem f11_main_v282 : (Vt11 m' c (Proc.devRef .tc main_v282) : FVec Ideal S50000x128 .f32) = Cert.Bridge.aggR (argsOf m' c).e (s1 (argsOf m' c)) := by
  refine (sg10_agg (Vt10 m' c)).trans ?_
  rw [f10_main_v1 m' c, f10_main_v3 m' c, f10_main_v12 m' c, f10_main_v141 m' c]
  first | done | rfl
theorem f11_main_arg5 : (Vt11 m' c (Proc.devRef .tc main_arg5) : FVec Ideal S6x3x128 .f32) = (argsOf m' c).b3 :=
  (sg10_keep _ main_arg5 (by decide)).trans (f10_main_arg5 m' c)
theorem f11_main_arg6 : (Vt11 m' c (Proc.devRef .tc main_arg6) : FVec Ideal S6x3x128 .f32) = (argsOf m' c).g3 :=
  (sg10_keep _ main_arg6 (by decide)).trans (f10_main_arg6 m' c)
theorem f11_main_arg7 : (Vt11 m' c (Proc.devRef .tc main_arg7) : FVec Ideal S6x3x128 .f32) = (argsOf m' c).be3 :=
  (sg10_keep _ main_arg7 (by decide)).trans (f10_main_arg7 m' c)
theorem f11_main_arg3 : (Vt11 m' c (Proc.devRef .tc main_arg3) : FVec Ideal S6x3 .f32) = (argsOf m' c).w2 :=
  (sg10_keep _ main_arg3 (by decide)).trans (f10_main_arg3 m' c)
theorem f11_main_v141 : (Vt11 m' c (Proc.devRef .tc main_v141) : FVec Ideal S50000x128 .f32) = s1 (argsOf m' c) :=
  (sg10_keep _ main_v141 (by decide)).trans (f10_main_v141 m' c)
theorem f11_main_arg2 : (Vt11 m' c (Proc.devRef .tc main_arg2) : FVec Ideal S50000x128 .f32) = (argsOf m' c).Hin :=
  (sg10_keep _ main_arg2 (by decide)).trans (f10_main_arg2 m' c)
theorem f11_main_v270 : (Vt11 m' c (Proc.devRef .tc main_v270) : FVec Ideal S50000x128 .f32) = t1 (argsOf m' c) :=
  (sg10_keep _ main_v270 (by decide)).trans (f10_main_v270 m' c)
theorem f11_main_v1 : (Vt11 m' c (Proc.devRef .tc main_v1) : (⟨S800000, .i32⟩ : BufTy).Contents (Elt Ideal)) = Cert.Bridge.srcR (argsOf m' c).e :=
  (sg10_keep _ main_v1 (by decide)).trans (f10_main_v1 m' c)
theorem f11_main_arg1 : (Vt11 m' c (Proc.devRef .tc main_arg1) : FVec Ideal S50000x128 .f32) = (argsOf m' c).H :=
  (sg10_keep _ main_arg1 (by decide)).trans (f10_main_arg1 m' c)
theorem f11_main_v3 : (Vt11 m' c (Proc.devRef .tc main_v3) : (⟨S800000, .i32⟩ : BufTy).Contents (Elt Ideal)) = Cert.Bridge.dstR (argsOf m' c).e :=
  (sg10_keep _ main_v3 (by decide)).trans (f10_main_v3 m' c)
theorem f11_main_v12 : (Vt11 m' c (Proc.devRef .tc main_v12) : (⟨S50000x1, .f32⟩ : BufTy).Contents (Elt Ideal)) = Cert.Bridge.invDegR (argsOf m' c).e :=
  (sg10_keep _ main_v12 (by decide)).trans (f10_main_v12 m' c)

/-! ## After piece 11 -/

theorem f12_main_arg4 : (Vt12 m' c (Proc.devRef .tc main_arg4) : FVec Ideal S6x3x128x128 .f32) = (argsOf m' c).W4 :=
  (sg11_keep _ main_arg4 (by decide)).trans (f11_main_arg4 m' c)
theorem f12_main_v141 : (Vt12 m' c (Proc.devRef .tc main_v141) : FVec Ideal S50000x128 .f32) = s1 (argsOf m' c) :=
  (sg11_keep _ main_v141 (by decide)).trans (f11_main_v141 m' c)
theorem f12_main_arg5 : (Vt12 m' c (Proc.devRef .tc main_arg5) : FVec Ideal S6x3x128 .f32) = (argsOf m' c).b3 :=
  (sg11_keep _ main_arg5 (by decide)).trans (f11_main_arg5 m' c)
theorem f12_main_arg6 : (Vt12 m' c (Proc.devRef .tc main_arg6) : FVec Ideal S6x3x128 .f32) = (argsOf m' c).g3 :=
  (sg11_keep _ main_arg6 (by decide)).trans (f11_main_arg6 m' c)
theorem f12_main_arg7 : (Vt12 m' c (Proc.devRef .tc main_arg7) : FVec Ideal S6x3x128 .f32) = (argsOf m' c).be3 :=
  (sg11_keep _ main_arg7 (by decide)).trans (f11_main_arg7 m' c)
theorem f12_main_arg3 : (Vt12 m' c (Proc.devRef .tc main_arg3) : FVec Ideal S6x3 .f32) = (argsOf m' c).w2 :=
  (sg11_keep _ main_arg3 (by decide)).trans (f11_main_arg3 m' c)
set_option maxHeartbeats 1000000 in
theorem f12_main_v321 : (Vt12 m' c (Proc.devRef .tc main_v321) : FVec Ideal S50000x128 .f32) = addf Z (br (argsOf m' c) 2 0 (Cert.Bridge.aggR (argsOf m' c).e (s1 (argsOf m' c)))) := by
  refine (sg11_acc (Vt11 m' c)).trans ?_
  rw [f11_main_arg4 m' c, f11_main_v282 m' c, f11_main_arg5 m' c, f11_main_arg6 m' c, f11_main_arg7 m' c, f11_main_arg3 m' c]
  first | done | rfl
theorem f12_main_arg2 : (Vt12 m' c (Proc.devRef .tc main_arg2) : FVec Ideal S50000x128 .f32) = (argsOf m' c).Hin :=
  (sg11_keep _ main_arg2 (by decide)).trans (f11_main_arg2 m' c)
theorem f12_main_v270 : (Vt12 m' c (Proc.devRef .tc main_v270) : FVec Ideal S50000x128 .f32) = t1 (argsOf m' c) :=
  (sg11_keep _ main_v270 (by decide)).trans (f11_main_v270 m' c)
theorem f12_main_v1 : (Vt12 m' c (Proc.devRef .tc main_v1) : (⟨S800000, .i32⟩ : BufTy).Contents (Elt Ideal)) = Cert.Bridge.srcR (argsOf m' c).e :=
  (sg11_keep _ main_v1 (by decide)).trans (f11_main_v1 m' c)
theorem f12_main_arg1 : (Vt12 m' c (Proc.devRef .tc main_arg1) : FVec Ideal S50000x128 .f32) = (argsOf m' c).H :=
  (sg11_keep _ main_arg1 (by decide)).trans (f11_main_arg1 m' c)
theorem f12_main_v3 : (Vt12 m' c (Proc.devRef .tc main_v3) : (⟨S800000, .i32⟩ : BufTy).Contents (Elt Ideal)) = Cert.Bridge.dstR (argsOf m' c).e :=
  (sg11_keep _ main_v3 (by decide)).trans (f11_main_v3 m' c)
theorem f12_main_v12 : (Vt12 m' c (Proc.devRef .tc main_v12) : (⟨S50000x1, .f32⟩ : BufTy).Contents (Elt Ideal)) = Cert.Bridge.invDegR (argsOf m' c).e :=
  (sg11_keep _ main_v12 (by decide)).trans (f11_main_v12 m' c)

/-! ## After piece 12 -/

theorem f13_main_arg4 : (Vt13 m' c (Proc.devRef .tc main_arg4) : FVec Ideal S6x3x128x128 .f32) = (argsOf m' c).W4 :=
  (sg12_keep _ main_arg4 (by decide)).trans (f12_main_arg4 m' c)
theorem f13_main_arg2 : (Vt13 m' c (Proc.devRef .tc main_arg2) : FVec Ideal S50000x128 .f32) = (argsOf m' c).Hin :=
  (sg12_keep _ main_arg2 (by decide)).trans (f12_main_arg2 m' c)
theorem f13_main_arg5 : (Vt13 m' c (Proc.devRef .tc main_arg5) : FVec Ideal S6x3x128 .f32) = (argsOf m' c).b3 :=
  (sg12_keep _ main_arg5 (by decide)).trans (f12_main_arg5 m' c)
theorem f13_main_arg6 : (Vt13 m' c (Proc.devRef .tc main_arg6) : FVec Ideal S6x3x128 .f32) = (argsOf m' c).g3 :=
  (sg12_keep _ main_arg6 (by decide)).trans (f12_main_arg6 m' c)
theorem f13_main_arg7 : (Vt13 m' c (Proc.devRef .tc main_arg7) : FVec Ideal S6x3x128 .f32) = (argsOf m' c).be3 :=
  (sg12_keep _ main_arg7 (by decide)).trans (f12_main_arg7 m' c)
theorem f13_main_arg3 : (Vt13 m' c (Proc.devRef .tc main_arg3) : FVec Ideal S6x3 .f32) = (argsOf m' c).w2 :=
  (sg12_keep _ main_arg3 (by decide)).trans (f12_main_arg3 m' c)
set_option maxHeartbeats 1000000 in
theorem f13_main_v359 : (Vt13 m' c (Proc.devRef .tc main_v359) : FVec Ideal S50000x128 .f32) = addf (addf Z (br (argsOf m' c) 2 0 (Cert.Bridge.aggR (argsOf m' c).e (s1 (argsOf m' c))))) (br (argsOf m' c) 2 1 (s1 (argsOf m' c))) := by
  refine (sg12_acc (Vt12 m' c)).trans ?_
  rw [f12_main_arg4 m' c, f12_main_v141 m' c, f12_main_arg5 m' c, f12_main_arg6 m' c, f12_main_arg7 m' c, f12_main_arg3 m' c, f12_main_v321 m' c]
  first | done | rfl
theorem f13_main_v270 : (Vt13 m' c (Proc.devRef .tc main_v270) : FVec Ideal S50000x128 .f32) = t1 (argsOf m' c) :=
  (sg12_keep _ main_v270 (by decide)).trans (f12_main_v270 m' c)
theorem f13_main_v1 : (Vt13 m' c (Proc.devRef .tc main_v1) : (⟨S800000, .i32⟩ : BufTy).Contents (Elt Ideal)) = Cert.Bridge.srcR (argsOf m' c).e :=
  (sg12_keep _ main_v1 (by decide)).trans (f12_main_v1 m' c)
theorem f13_main_arg1 : (Vt13 m' c (Proc.devRef .tc main_arg1) : FVec Ideal S50000x128 .f32) = (argsOf m' c).H :=
  (sg12_keep _ main_arg1 (by decide)).trans (f12_main_arg1 m' c)
theorem f13_main_v3 : (Vt13 m' c (Proc.devRef .tc main_v3) : (⟨S800000, .i32⟩ : BufTy).Contents (Elt Ideal)) = Cert.Bridge.dstR (argsOf m' c).e :=
  (sg12_keep _ main_v3 (by decide)).trans (f12_main_v3 m' c)
theorem f13_main_v12 : (Vt13 m' c (Proc.devRef .tc main_v12) : (⟨S50000x1, .f32⟩ : BufTy).Contents (Elt Ideal)) = Cert.Bridge.invDegR (argsOf m' c).e :=
  (sg12_keep _ main_v12 (by decide)).trans (f12_main_v12 m' c)
theorem f13_main_v141 : (Vt13 m' c (Proc.devRef .tc main_v141) : FVec Ideal S50000x128 .f32) = s1 (argsOf m' c) :=
  (sg12_keep _ main_v141 (by decide)).trans (f12_main_v141 m' c)

/-! ## After piece 13 -/

theorem f14_main_v270 : (Vt14 m' c (Proc.devRef .tc main_v270) : FVec Ideal S50000x128 .f32) = t1 (argsOf m' c) :=
  (sg13_keep _ main_v270 (by decide)).trans (f13_main_v270 m' c)
set_option maxHeartbeats 1000000 in
theorem f14_main_v397 : (Vt14 m' c (Proc.devRef .tc main_v397) : FVec Ideal S50000x128 .f32) = mixA (argsOf m' c) 2 (s1 (argsOf m' c)) := by
  refine (sg13_acc (Vt13 m' c)).trans ?_
  rw [f13_main_arg4 m' c, f13_main_arg2 m' c, f13_main_arg5 m' c, f13_main_arg6 m' c, f13_main_arg7 m' c, f13_main_arg3 m' c, f13_main_v359 m' c]
  first | done | rfl
theorem f14_main_v1 : (Vt14 m' c (Proc.devRef .tc main_v1) : (⟨S800000, .i32⟩ : BufTy).Contents (Elt Ideal)) = Cert.Bridge.srcR (argsOf m' c).e :=
  (sg13_keep _ main_v1 (by decide)).trans (f13_main_v1 m' c)
theorem f14_main_arg1 : (Vt14 m' c (Proc.devRef .tc main_arg1) : FVec Ideal S50000x128 .f32) = (argsOf m' c).H :=
  (sg13_keep _ main_arg1 (by decide)).trans (f13_main_arg1 m' c)
theorem f14_main_v3 : (Vt14 m' c (Proc.devRef .tc main_v3) : (⟨S800000, .i32⟩ : BufTy).Contents (Elt Ideal)) = Cert.Bridge.dstR (argsOf m' c).e :=
  (sg13_keep _ main_v3 (by decide)).trans (f13_main_v3 m' c)
theorem f14_main_v12 : (Vt14 m' c (Proc.devRef .tc main_v12) : (⟨S50000x1, .f32⟩ : BufTy).Contents (Elt Ideal)) = Cert.Bridge.invDegR (argsOf m' c).e :=
  (sg13_keep _ main_v12 (by decide)).trans (f13_main_v12 m' c)
theorem f14_main_arg4 : (Vt14 m' c (Proc.devRef .tc main_arg4) : FVec Ideal S6x3x128x128 .f32) = (argsOf m' c).W4 :=
  (sg13_keep _ main_arg4 (by decide)).trans (f13_main_arg4 m' c)
theorem f14_main_arg5 : (Vt14 m' c (Proc.devRef .tc main_arg5) : FVec Ideal S6x3x128 .f32) = (argsOf m' c).b3 :=
  (sg13_keep _ main_arg5 (by decide)).trans (f13_main_arg5 m' c)
theorem f14_main_arg6 : (Vt14 m' c (Proc.devRef .tc main_arg6) : FVec Ideal S6x3x128 .f32) = (argsOf m' c).g3 :=
  (sg13_keep _ main_arg6 (by decide)).trans (f13_main_arg6 m' c)
theorem f14_main_arg7 : (Vt14 m' c (Proc.devRef .tc main_arg7) : FVec Ideal S6x3x128 .f32) = (argsOf m' c).be3 :=
  (sg13_keep _ main_arg7 (by decide)).trans (f13_main_arg7 m' c)
theorem f14_main_arg3 : (Vt14 m' c (Proc.devRef .tc main_arg3) : FVec Ideal S6x3 .f32) = (argsOf m' c).w2 :=
  (sg13_keep _ main_arg3 (by decide)).trans (f13_main_arg3 m' c)
theorem f14_main_arg2 : (Vt14 m' c (Proc.devRef .tc main_arg2) : FVec Ideal S50000x128 .f32) = (argsOf m' c).Hin :=
  (sg13_keep _ main_arg2 (by decide)).trans (f13_main_arg2 m' c)
theorem f14_main_v141 : (Vt14 m' c (Proc.devRef .tc main_v141) : FVec Ideal S50000x128 .f32) = s1 (argsOf m' c) :=
  (sg13_keep _ main_v141 (by decide)).trans (f13_main_v141 m' c)

/-! ## After piece 14 -/

theorem f15_main_v1 : (Vt15 m' c (Proc.devRef .tc main_v1) : (⟨S800000, .i32⟩ : BufTy).Contents (Elt Ideal)) = Cert.Bridge.srcR (argsOf m' c).e :=
  (sg14_keep _ main_v1 (by decide)).trans (f14_main_v1 m' c)
theorem f15_main_arg1 : (Vt15 m' c (Proc.devRef .tc main_arg1) : FVec Ideal S50000x128 .f32) = (argsOf m' c).H :=
  (sg14_keep _ main_arg1 (by decide)).trans (f14_main_arg1 m' c)
theorem f15_main_v3 : (Vt15 m' c (Proc.devRef .tc main_v3) : (⟨S800000, .i32⟩ : BufTy).Contents (Elt Ideal)) = Cert.Bridge.dstR (argsOf m' c).e :=
  (sg14_keep _ main_v3 (by decide)).trans (f14_main_v3 m' c)
theorem f15_main_v12 : (Vt15 m' c (Proc.devRef .tc main_v12) : (⟨S50000x1, .f32⟩ : BufTy).Contents (Elt Ideal)) = Cert.Bridge.invDegR (argsOf m' c).e :=
  (sg14_keep _ main_v12 (by decide)).trans (f14_main_v12 m' c)
theorem f15_main_arg4 : (Vt15 m' c (Proc.devRef .tc main_arg4) : FVec Ideal S6x3x128x128 .f32) = (argsOf m' c).W4 :=
  (sg14_keep _ main_arg4 (by decide)).trans (f14_main_arg4 m' c)
theorem f15_main_arg5 : (Vt15 m' c (Proc.devRef .tc main_arg5) : FVec Ideal S6x3x128 .f32) = (argsOf m' c).b3 :=
  (sg14_keep _ main_arg5 (by decide)).trans (f14_main_arg5 m' c)
theorem f15_main_arg6 : (Vt15 m' c (Proc.devRef .tc main_arg6) : FVec Ideal S6x3x128 .f32) = (argsOf m' c).g3 :=
  (sg14_keep _ main_arg6 (by decide)).trans (f14_main_arg6 m' c)
theorem f15_main_arg7 : (Vt15 m' c (Proc.devRef .tc main_arg7) : FVec Ideal S6x3x128 .f32) = (argsOf m' c).be3 :=
  (sg14_keep _ main_arg7 (by decide)).trans (f14_main_arg7 m' c)
theorem f15_main_arg3 : (Vt15 m' c (Proc.devRef .tc main_arg3) : FVec Ideal S6x3 .f32) = (argsOf m' c).w2 :=
  (sg14_keep _ main_arg3 (by decide)).trans (f14_main_arg3 m' c)
theorem f15_main_arg2 : (Vt15 m' c (Proc.devRef .tc main_arg2) : FVec Ideal S50000x128 .f32) = (argsOf m' c).Hin :=
  (sg14_keep _ main_arg2 (by decide)).trans (f14_main_arg2 m' c)
theorem f15_main_v141 : (Vt15 m' c (Proc.devRef .tc main_v141) : FVec Ideal S50000x128 .f32) = s1 (argsOf m' c) :=
  (sg14_keep _ main_v141 (by decide)).trans (f14_main_v141 m' c)
set_option maxHeartbeats 1000000 in
theorem f15_main_v398 : (Vt15 m' c (Proc.devRef .tc main_v398) : FVec Ideal S50000x128 .f32) = s2 (argsOf m' c) := by
  refine (sg14_sum (Vt14 m' c)).trans ?_
  rw [f14_main_v270 m' c, f14_main_v397 m' c]
  first | done | rfl

end Cert.ReferenceIdeal.HandV
end
-- ==== Proof.RV.TopChain3.lean ====
import proofs.«414290_j6631429505478_3_alg».proof.Proof.RV.TopVt
import proofs.«414290_j6631429505478_3_alg».proof.Proof.RV.TopIdT
import proofs.«414290_j6631429505478_3_alg».proof.Proof.RV.TopIdA
import proofs.«414290_j6631429505478_3_alg».proof.Proof.RV.Id16
import proofs.«414290_j6631429505478_3_alg».proof.Proof.RV.Id17
import proofs.«414290_j6631429505478_3_alg».proof.Proof.RV.Id18
import proofs.«414290_j6631429505478_3_alg».proof.Proof.RV.TopChain2

noncomputable section

namespace Cert.ReferenceIdeal.HandV

open Cert.ReferenceIdeal Cert.ReferenceIdeal.Gen Idealize.ShloMosaic Idealize.ShloMosaic.TcCoe Idealize.SL.Sem Idealize.ShloMosaic.StableHlo
open Idealize.ShloMosaic.ValueIdx

/-! # The live references' contents at the cuts 16 to 20 -/

variable (m' : (ℓ : Loc nD τ sig) → Buf (Elt Ideal) ℓ) (c : Dev nD)

/-! ## After piece 15 -/

theorem f16_main_arg4 : (Vt16 m' c (Proc.devRef .tc main_arg4) : FVec Ideal S6x3x128x128 .f32) = (argsOf m' c).W4 :=
  (sg15_keep _ main_arg4 (by decide)).trans (f15_main_arg4 m' c)
set_option maxHeartbeats 1000000 in
theorem f16_main_v410 : (Vt16 m' c (Proc.devRef .tc main_v410) : FVec Ideal S50000x128 .f32) = Cert.Bridge.aggR (argsOf m' c).e (argsOf m' c).H := by
  refine (sg15_agg (Vt15 m' c)).trans ?_
  rw [f15_main_v1 m' c, f15_main_v3 m' c, f15_main_v12 m' c, f15_main_arg1 m' c]
  first | done | rfl
theorem f16_main_arg5 : (Vt16 m' c (Proc.devRef .tc main_arg5) : FVec Ideal S6x3x128 .f32) = (argsOf m' c).b3 :=
  (sg15_keep _ main_arg5 (by decide)).trans (f15_main_arg5 m' c)
theorem f16_main_arg6 : (Vt16 m' c (Proc.devRef .tc main_arg6) : FVec Ideal S6x3x128 .f32) = (argsOf m' c).g3 :=
  (sg15_keep _ main_arg6 (by decide)).trans (f15_main_arg6 m' c)
theorem f16_main_arg7 : (Vt16 m' c (Proc.devRef .tc main_arg7) : FVec Ideal S6x3x128 .f32) = (argsOf m' c).be3 :=
  (sg15_keep _ main_arg7 (by decide)).trans (f15_main_arg7 m' c)
theorem f16_main_arg3 : (Vt16 m' c (Proc.devRef .tc main_arg3) : FVec Ideal S6x3 .f32) = (argsOf m' c).w2 :=
  (sg15_keep _ main_arg3 (by decide)).trans (f15_main_arg3 m' c)
theorem f16_main_arg1 : (Vt16 m' c (Proc.devRef .tc main_arg1) : FVec Ideal S50000x128 .f32) = (argsOf m' c).H :=
  (sg15_keep _ main_arg1 (by decide)).trans (f15_main_arg1 m' c)
theorem f16_main_arg2 : (Vt16 m' c (Proc.devRef .tc main_arg2) : FVec Ideal S50000x128 .f32) = (argsOf m' c).Hin :=
  (sg15_keep _ main_arg2 (by decide)).trans (f15_main_arg2 m' c)
theorem f16_main_v1 : (Vt16 m' c (Proc.devRef .tc main_v1) : (⟨S800000, .i32⟩ : BufTy).Contents (Elt Ideal)) = Cert.Bridge.srcR (argsOf m' c).e :=
  (sg15_keep _ main_v1 (by decide)).trans (f15_main_v1 m' c)
theorem f16_main_v141 : (Vt16 m' c (Proc.devRef .tc main_v141) : FVec Ideal S50000x128 .f32) = s1 (argsOf m' c) :=
  (sg15_keep _ main_v141 (by decide)).trans (f15_main_v141 m' c)
theorem f16_main_v3 : (Vt16 m' c (Proc.devRef .tc main_v3) : (⟨S800000, .i32⟩ : BufTy).Contents (Elt Ideal)) = Cert.Bridge.dstR (argsOf m' c).e :=
  (sg15_keep _ main_v3 (by decide)).trans (f15_main_v3 m' c)
theorem f16_main_v12 : (Vt16 m' c (Proc.devRef .tc main_v12) : (⟨S50000x1, .f32⟩ : BufTy).Contents (Elt Ideal)) = Cert.Bridge.invDegR (argsOf m' c).e :=
  (sg15_keep _ main_v12 (by decide)).trans (f15_main_v12 m' c)
theorem f16_main_v398 : (Vt16 m' c (Proc.devRef .tc main_v398) : FVec Ideal S50000x128 .f32) = s2 (argsOf m' c) :=
  (sg15_keep _ main_v398 (by decide)).trans (f15_main_v398 m' c)

/-! ## After piece 16 -/

theorem f17_main_arg4 : (Vt17 m' c (Proc.devRef .tc main_arg4) : FVec Ideal S6x3x128x128 .f32) = (argsOf m' c).W4 :=
  (sg16_keep _ main_arg4 (by decide)).trans (f16_main_arg4 m' c)
theorem f17_main_arg1 : (Vt17 m' c (Proc.devRef .tc main_arg1) : FVec Ideal S50000x128 .f32) = (argsOf m' c).H :=
  (sg16_keep _ main_arg1 (by decide)).trans (f16_main_arg1 m' c)
theorem f17_main_arg5 : (Vt17 m' c (Proc.devRef .tc main_arg5) : FVec Ideal S6x3x128 .f32) = (argsOf m' c).b3 :=
  (sg16_keep _ main_arg5 (by decide)).trans (f16_main_arg5 m' c)
theorem f17_main_arg6 : (Vt17 m' c (Proc.devRef .tc main_arg6) : FVec Ideal S6x3x128 .f32) = (argsOf m' c).g3 :=
  (sg16_keep _ main_arg6 (by decide)).trans (f16_main_arg6 m' c)
theorem f17_main_arg7 : (Vt17 m' c (Proc.devRef .tc main_arg7) : FVec Ideal S6x3x128 .f32) = (argsOf m' c).be3 :=
  (sg16_keep _ main_arg7 (by decide)).trans (f16_main_arg7 m' c)
theorem f17_main_arg3 : (Vt17 m' c (Proc.devRef .tc main_arg3) : FVec Ideal S6x3 .f32) = (argsOf m' c).w2 :=
  (sg16_keep _ main_arg3 (by decide)).trans (f16_main_arg3 m' c)
set_option maxHeartbeats 1000000 in
theorem f17_main_v449 : (Vt17 m' c (Proc.devRef .tc main_v449) : FVec Ideal S50000x128 .f32) = addf Z (br (argsOf m' c) 3 0 (Cert.Bridge.aggR (argsOf m' c).e (argsOf m' c).H)) := by
  refine (sg16_acc (Vt16 m' c)).trans ?_
  rw [f16_main_arg4 m' c, f16_main_v410 m' c, f16_main_arg5 m' c, f16_main_arg6 m' c, f16_main_arg7 m' c, f16_main_arg3 m' c]
  first | done | rfl
theorem f17_main_arg2 : (Vt17 m' c (Proc.devRef .tc main_arg2) : FVec Ideal S50000x128 .f32) = (argsOf m' c).Hin :=
  (sg16_keep _ main_arg2 (by decide)).trans (f16_main_arg2 m' c)
theorem f17_main_v1 : (Vt17 m' c (Proc.devRef .tc main_v1) : (⟨S800000, .i32⟩ : BufTy).Contents (Elt Ideal)) = Cert.Bridge.srcR (argsOf m' c).e :=
  (sg16_keep _ main_v1 (by decide)).trans (f16_main_v1 m' c)
theorem f17_main_v141 : (Vt17 m' c (Proc.devRef .tc main_v141) : FVec Ideal S50000x128 .f32) = s1 (argsOf m' c) :=
  (sg16_keep _ main_v141 (by decide)).trans (f16_main_v141 m' c)
theorem f17_main_v3 : (Vt17 m' c (Proc.devRef .tc main_v3) : (⟨S800000, .i32⟩ : BufTy).Contents (Elt Ideal)) = Cert.Bridge.dstR (argsOf m' c).e :=
  (sg16_keep _ main_v3 (by decide)).trans (f16_main_v3 m' c)
theorem f17_main_v12 : (Vt17 m' c (Proc.devRef .tc main_v12) : (⟨S50000x1, .f32⟩ : BufTy).Contents (Elt Ideal)) = Cert.Bridge.invDegR (argsOf m' c).e :=
  (sg16_keep _ main_v12 (by decide)).trans (f16_main_v12 m' c)
theorem f17_main_v398 : (Vt17 m' c (Proc.devRef .tc main_v398) : FVec Ideal S50000x128 .f32) = s2 (argsOf m' c) :=
  (sg16_keep _ main_v398 (by decide)).trans (f16_main_v398 m' c)

/-! ## After piece 17 -/

theorem f18_main_arg4 : (Vt18 m' c (Proc.devRef .tc main_arg4) : FVec Ideal S6x3x128x128 .f32) = (argsOf m' c).W4 :=
  (sg17_keep _ main_arg4 (by decide)).trans (f17_main_arg4 m' c)
theorem f18_main_arg2 : (Vt18 m' c (Proc.devRef .tc main_arg2) : FVec Ideal S50000x128 .f32) = (argsOf m' c).Hin :=
  (sg17_keep _ main_arg2 (by decide)).trans (f17_main_arg2 m' c)
theorem f18_main_arg5 : (Vt18 m' c (Proc.devRef .tc main_arg5) : FVec Ideal S6x3x128 .f32) = (argsOf m' c).b3 :=
  (sg17_keep _ main_arg5 (by decide)).trans (f17_main_arg5 m' c)
theorem f18_main_arg6 : (Vt18 m' c (Proc.devRef .tc main_arg6) : FVec Ideal S6x3x128 .f32) = (argsOf m' c).g3 :=
  (sg17_keep _ main_arg6 (by decide)).trans (f17_main_arg6 m' c)
theorem f18_main_arg7 : (Vt18 m' c (Proc.devRef .tc main_arg7) : FVec Ideal S6x3x128 .f32) = (argsOf m' c).be3 :=
  (sg17_keep _ main_arg7 (by decide)).trans (f17_main_arg7 m' c)
theorem f18_main_arg3 : (Vt18 m' c (Proc.devRef .tc main_arg3) : FVec Ideal S6x3 .f32) = (argsOf m' c).w2 :=
  (sg17_keep _ main_arg3 (by decide)).trans (f17_main_arg3 m' c)
set_option maxHeartbeats 1000000 in
theorem f18_main_v487 : (Vt18 m' c (Proc.devRef .tc main_v487) : FVec Ideal S50000x128 .f32) = addf (addf Z (br (argsOf m' c) 3 0 (Cert.Bridge.aggR (argsOf m' c).e (argsOf m' c).H))) (br (argsOf m' c) 3 1 (argsOf m' c).H) := by
  refine (sg17_acc (Vt17 m' c)).trans ?_
  rw [f17_main_arg4 m' c, f17_main_arg1 m' c, f17_main_arg5 m' c, f17_main_arg6 m' c, f17_main_arg7 m' c, f17_main_arg3 m' c, f17_main_v449 m' c]
  first | done | rfl
theorem f18_main_v1 : (Vt18 m' c (Proc.devRef .tc main_v1) : (⟨S800000, .i32⟩ : BufTy).Contents (Elt Ideal)) = Cert.Bridge.srcR (argsOf m' c).e :=
  (sg17_keep _ main_v1 (by decide)).trans (f17_main_v1 m' c)
theorem f18_main_v141 : (Vt18 m' c (Proc.devRef .tc main_v141) : FVec Ideal S50000x128 .f32) = s1 (argsOf m' c) :=
  (sg17_keep _ main_v141 (by decide)).trans (f17_main_v141 m' c)
theorem f18_main_v3 : (Vt18 m' c (Proc.devRef .tc main_v3) : (⟨S800000, .i32⟩ : BufTy).Contents (Elt Ideal)) = Cert.Bridge.dstR (argsOf m' c).e :=
  (sg17_keep _ main_v3 (by decide)).trans (f17_main_v3 m' c)
theorem f18_main_v12 : (Vt18 m' c (Proc.devRef .tc main_v12) : (⟨S50000x1, .f32⟩ : BufTy).Contents (Elt Ideal)) = Cert.Bridge.invDegR (argsOf m' c).e :=
  (sg17_keep _ main_v12 (by decide)).trans (f17_main_v12 m' c)
theorem f18_main_v398 : (Vt18 m' c (Proc.devRef .tc main_v398) : FVec Ideal S50000x128 .f32) = s2 (argsOf m' c) :=
  (sg17_keep _ main_v398 (by decide)).trans (f17_main_v398 m' c)

/-! ## After piece 18 -/

set_option maxHeartbeats 1000000 in
theorem f19_main_v525 : (Vt19 m' c (Proc.devRef .tc main_v525) : FVec Ideal S50000x128 .f32) = mixA (argsOf m' c) 3 (argsOf m' c).H := by
  refine (sg18_acc (Vt18 m' c)).trans ?_
  rw [f18_main_arg4 m' c, f18_main_arg2 m' c, f18_main_arg5 m' c, f18_main_arg6 m' c, f18_main_arg7 m' c, f18_main_arg3 m' c, f18_main_v487 m' c]
  first | done | rfl
theorem f19_main_v1 : (Vt19 m' c (Proc.devRef .tc main_v1) : (⟨S800000, .i32⟩ : BufTy).Contents (Elt Ideal)) = Cert.Bridge.srcR (argsOf m' c).e :=
  (sg18_keep _ main_v1 (by decide)).trans (f18_main_v1 m' c)
theorem f19_main_v141 : (Vt19 m' c (Proc.devRef .tc main_v141) : FVec Ideal S50000x128 .f32) = s1 (argsOf m' c) :=
  (sg18_keep _ main_v141 (by decide)).trans (f18_main_v141 m' c)
theorem f19_main_v3 : (Vt19 m' c (Proc.devRef .tc main_v3) : (⟨S800000, .i32⟩ : BufTy).Contents (Elt Ideal)) = Cert.Bridge.dstR (argsOf m' c).e :=
  (sg18_keep _ main_v3 (by decide)).trans (f18_main_v3 m' c)
theorem f19_main_v12 : (Vt19 m' c (Proc.devRef .tc main_v12) : (⟨S50000x1, .f32⟩ : BufTy).Contents (Elt Ideal)) = Cert.Bridge.invDegR (argsOf m' c).e :=
  (sg18_keep _ main_v12 (by decide)).trans (f18_main_v12 m' c)
theorem f19_main_arg4 : (Vt19 m' c (Proc.devRef .tc main_arg4) : FVec Ideal S6x3x128x128 .f32) = (argsOf m' c).W4 :=
  (sg18_keep _ main_arg4 (by decide)).trans (f18_main_arg4 m' c)
theorem f19_main_arg5 : (Vt19 m' c (Proc.devRef .tc main_arg5) : FVec Ideal S6x3x128 .f32) = (argsOf m' c).b3 :=
  (sg18_keep _ main_arg5 (by decide)).trans (f18_main_arg5 m' c)
theorem f19_main_arg6 : (Vt19 m' c (Proc.devRef .tc main_arg6) : FVec Ideal S6x3x128 .f32) = (argsOf m' c).g3 :=
  (sg18_keep _ main_arg6 (by decide)).trans (f18_main_arg6 m' c)
theorem f19_main_arg7 : (Vt19 m' c (Proc.devRef .tc main_arg7) : FVec Ideal S6x3x128 .f32) = (argsOf m' c).be3 :=
  (sg18_keep _ main_arg7 (by decide)).trans (f18_main_arg7 m' c)
theorem f19_main_arg3 : (Vt19 m' c (Proc.devRef .tc main_arg3) : FVec Ideal S6x3 .f32) = (argsOf m' c).w2 :=
  (sg18_keep _ main_arg3 (by decide)).trans (f18_main_arg3 m' c)
theorem f19_main_arg2 : (Vt19 m' c (Proc.devRef .tc main_arg2) : FVec Ideal S50000x128 .f32) = (argsOf m' c).Hin :=
  (sg18_keep _ main_arg2 (by decide)).trans (f18_main_arg2 m' c)
theorem f19_main_v398 : (Vt19 m' c (Proc.devRef .tc main_v398) : FVec Ideal S50000x128 .f32) = s2 (argsOf m' c) :=
  (sg18_keep _ main_v398 (by decide)).trans (f18_main_v398 m' c)

/-! ## After piece 19 -/

theorem f20_main_v1 : (Vt20 m' c (Proc.devRef .tc main_v1) : (⟨S800000, .i32⟩ : BufTy).Contents (Elt Ideal)) = Cert.Bridge.srcR (argsOf m' c).e :=
  (sg19_keep _ main_v1 (by decide)).trans (f19_main_v1 m' c)
theorem f20_main_v141 : (Vt20 m' c (Proc.devRef .tc main_v141) : FVec Ideal S50000x128 .f32) = s1 (argsOf m' c) :=
  (sg19_keep _ main_v141 (by decide)).trans (f19_main_v141 m' c)
theorem f20_main_v3 : (Vt20 m' c (Proc.devRef .tc main_v3) : (⟨S800000, .i32⟩ : BufTy).Contents (Elt Ideal)) = Cert.Bridge.dstR (argsOf m' c).e :=
  (sg19_keep _ main_v3 (by decide)).trans (f19_main_v3 m' c)
theorem f20_main_v12 : (Vt20 m' c (Proc.devRef .tc main_v12) : (⟨S50000x1, .f32⟩ : BufTy).Contents (Elt Ideal)) = Cert.Bridge.invDegR (argsOf m' c).e :=
  (sg19_keep _ main_v12 (by decide)).trans (f19_main_v12 m' c)
theorem f20_main_arg4 : (Vt20 m' c (Proc.devRef .tc main_arg4) : FVec Ideal S6x3x128x128 .f32) = (argsOf m' c).W4 :=
  (sg19_keep _ main_arg4 (by decide)).trans (f19_main_arg4 m' c)
theorem f20_main_arg5 : (Vt20 m' c (Proc.devRef .tc main_arg5) : FVec Ideal S6x3x128 .f32) = (argsOf m' c).b3 :=
  (sg19_keep _ main_arg5 (by decide)).trans (f19_main_arg5 m' c)
theorem f20_main_arg6 : (Vt20 m' c (Proc.devRef .tc main_arg6) : FVec Ideal S6x3x128 .f32) = (argsOf m' c).g3 :=
  (sg19_keep _ main_arg6 (by decide)).trans (f19_main_arg6 m' c)
theorem f20_main_arg7 : (Vt20 m' c (Proc.devRef .tc main_arg7) : FVec Ideal S6x3x128 .f32) = (argsOf m' c).be3 :=
  (sg19_keep _ main_arg7 (by decide)).trans (f19_main_arg7 m' c)
theorem f20_main_arg3 : (Vt20 m' c (Proc.devRef .tc main_arg3) : FVec Ideal S6x3 .f32) = (argsOf m' c).w2 :=
  (sg19_keep _ main_arg3 (by decide)).trans (f19_main_arg3 m' c)
theorem f20_main_arg2 : (Vt20 m' c (Proc.devRef .tc main_arg2) : FVec Ideal S50000x128 .f32) = (argsOf m' c).Hin :=
  (sg19_keep _ main_arg2 (by decide)).trans (f19_main_arg2 m' c)
set_option maxHeartbeats 1000000 in
theorem f20_main_v527 : (Vt20 m' c (Proc.devRef .tc main_v527) : FVec Ideal S50000x128 .f32) = t3 (argsOf m' c) := by
  refine (sg19_sum (Vt19 m' c)).trans ?_
  rw [f19_main_v525 m' c]
  first | done | rfl
theorem f20_main_v398 : (Vt20 m' c (Proc.devRef .tc main_v398) : FVec Ideal S50000x128 .f32) = s2 (argsOf m' c) :=
  (sg19_keep _ main_v398 (by decide)).trans (f19_main_v398 m' c)

end Cert.ReferenceIdeal.HandV
end
-- ==== Proof.RV.TopChain4.lean ====
import proofs.«414290_j6631429505478_3_alg».proof.Proof.RV.TopVt
import proofs.«414290_j6631429505478_3_alg».proof.Proof.RV.TopIdT
import proofs.«414290_j6631429505478_3_alg».proof.Proof.RV.TopIdA
import proofs.«414290_j6631429505478_3_alg».proof.Proof.RV.Id21
import proofs.«414290_j6631429505478_3_alg».proof.Proof.RV.Id22
import proofs.«414290_j6631429505478_3_alg».proof.Proof.RV.Id23
import proofs.«414290_j6631429505478_3_alg».proof.Proof.RV.TopChain3

noncomputable section

namespace Cert.ReferenceIdeal.HandV

open Cert.ReferenceIdeal Cert.ReferenceIdeal.Gen Idealize.ShloMosaic Idealize.ShloMosaic.TcCoe Idealize.SL.Sem Idealize.ShloMosaic.StableHlo
open Idealize.ShloMosaic.ValueIdx

/-! # The live references' contents at the cuts 21 to 25 -/

variable (m' : (ℓ : Loc nD τ sig) → Buf (Elt Ideal) ℓ) (c : Dev nD)

/-! ## After piece 20 -/

theorem f21_main_arg4 : (Vt21 m' c (Proc.devRef .tc main_arg4) : FVec Ideal S6x3x128x128 .f32) = (argsOf m' c).W4 :=
  (sg20_keep _ main_arg4 (by decide)).trans (f20_main_arg4 m' c)
set_option maxHeartbeats 1000000 in
theorem f21_main_v539 : (Vt21 m' c (Proc.devRef .tc main_v539) : FVec Ideal S50000x128 .f32) = Cert.Bridge.aggR (argsOf m' c).e (s1 (argsOf m' c)) := by
  refine (sg20_agg (Vt20 m' c)).trans ?_
  rw [f20_main_v1 m' c, f20_main_v3 m' c, f20_main_v12 m' c, f20_main_v141 m' c]
  first | done | rfl
theorem f21_main_arg5 : (Vt21 m' c (Proc.devRef .tc main_arg5) : FVec Ideal S6x3x128 .f32) = (argsOf m' c).b3 :=
  (sg20_keep _ main_arg5 (by decide)).trans (f20_main_arg5 m' c)
theorem f21_main_arg6 : (Vt21 m' c (Proc.devRef .tc main_arg6) : FVec Ideal S6x3x128 .f32) = (argsOf m' c).g3 :=
  (sg20_keep _ main_arg6 (by decide)).trans (f20_main_arg6 m' c)
theorem f21_main_arg7 : (Vt21 m' c (Proc.devRef .tc main_arg7) : FVec Ideal S6x3x128 .f32) = (argsOf m' c).be3 :=
  (sg20_keep _ main_arg7 (by decide)).trans (f20_main_arg7 m' c)
theorem f21_main_arg3 : (Vt21 m' c (Proc.devRef .tc main_arg3) : FVec Ideal S6x3 .f32) = (argsOf m' c).w2 :=
  (sg20_keep _ main_arg3 (by decide)).trans (f20_main_arg3 m' c)
theorem f21_main_v141 : (Vt21 m' c (Proc.devRef .tc main_v141) : FVec Ideal S50000x128 .f32) = s1 (argsOf m' c) :=
  (sg20_keep _ main_v141 (by decide)).trans (f20_main_v141 m' c)
theorem f21_main_arg2 : (Vt21 m' c (Proc.devRef .tc main_arg2) : FVec Ideal S50000x128 .f32) = (argsOf m' c).Hin :=
  (sg20_keep _ main_arg2 (by decide)).trans (f20_main_arg2 m' c)
theorem f21_main_v527 : (Vt21 m' c (Proc.devRef .tc main_v527) : FVec Ideal S50000x128 .f32) = t3 (argsOf m' c) :=
  (sg20_keep _ main_v527 (by decide)).trans (f20_main_v527 m' c)
theorem f21_main_v1 : (Vt21 m' c (Proc.devRef .tc main_v1) : (⟨S800000, .i32⟩ : BufTy).Contents (Elt Ideal)) = Cert.Bridge.srcR (argsOf m' c).e :=
  (sg20_keep _ main_v1 (by decide)).trans (f20_main_v1 m' c)
theorem f21_main_v398 : (Vt21 m' c (Proc.devRef .tc main_v398) : FVec Ideal S50000x128 .f32) = s2 (argsOf m' c) :=
  (sg20_keep _ main_v398 (by decide)).trans (f20_main_v398 m' c)
theorem f21_main_v3 : (Vt21 m' c (Proc.devRef .tc main_v3) : (⟨S800000, .i32⟩ : BufTy).Contents (Elt Ideal)) = Cert.Bridge.dstR (argsOf m' c).e :=
  (sg20_keep _ main_v3 (by decide)).trans (f20_main_v3 m' c)
theorem f21_main_v12 : (Vt21 m' c (Proc.devRef .tc main_v12) : (⟨S50000x1, .f32⟩ : BufTy).Contents (Elt Ideal)) = Cert.Bridge.invDegR (argsOf m' c).e :=
  (sg20_keep _ main_v12 (by decide)).trans (f20_main_v12 m' c)

/-! ## After piece 21 -/

theorem f22_main_arg4 : (Vt22 m' c (Proc.devRef .tc main_arg4) : FVec Ideal S6x3x128x128 .f32) = (argsOf m' c).W4 :=
  (sg21_keep _ main_arg4 (by decide)).trans (f21_main_arg4 m' c)
theorem f22_main_v141 : (Vt22 m' c (Proc.devRef .tc main_v141) : FVec Ideal S50000x128 .f32) = s1 (argsOf m' c) :=
  (sg21_keep _ main_v141 (by decide)).trans (f21_main_v141 m' c)
theorem f22_main_arg5 : (Vt22 m' c (Proc.devRef .tc main_arg5) : FVec Ideal S6x3x128 .f32) = (argsOf m' c).b3 :=
  (sg21_keep _ main_arg5 (by decide)).trans (f21_main_arg5 m' c)
theorem f22_main_arg6 : (Vt22 m' c (Proc.devRef .tc main_arg6) : FVec Ideal S6x3x128 .f32) = (argsOf m' c).g3 :=
  (sg21_keep _ main_arg6 (by decide)).trans (f21_main_arg6 m' c)
theorem f22_main_arg7 : (Vt22 m' c (Proc.devRef .tc main_arg7) : FVec Ideal S6x3x128 .f32) = (argsOf m' c).be3 :=
  (sg21_keep _ main_arg7 (by decide)).trans (f21_main_arg7 m' c)
theorem f22_main_arg3 : (Vt22 m' c (Proc.devRef .tc main_arg3) : FVec Ideal S6x3 .f32) = (argsOf m' c).w2 :=
  (sg21_keep _ main_arg3 (by decide)).trans (f21_main_arg3 m' c)
set_option maxHeartbeats 1000000 in
theorem f22_main_v578 : (Vt22 m' c (Proc.devRef .tc main_v578) : FVec Ideal S50000x128 .f32) = addf Z (br (argsOf m' c) 4 0 (Cert.Bridge.aggR (argsOf m' c).e (s1 (argsOf m' c)))) := by
  refine (sg21_acc (Vt21 m' c)).trans ?_
  rw [f21_main_arg4 m' c, f21_main_v539 m' c, f21_main_arg5 m' c, f21_main_arg6 m' c, f21_main_arg7 m' c, f21_main_arg3 m' c]
  first | done | rfl
theorem f22_main_arg2 : (Vt22 m' c (Proc.devRef .tc main_arg2) : FVec Ideal S50000x128 .f32) = (argsOf m' c).Hin :=
  (sg21_keep _ main_arg2 (by decide)).trans (f21_main_arg2 m' c)
theorem f22_main_v527 : (Vt22 m' c (Proc.devRef .tc main_v527) : FVec Ideal S50000x128 .f32) = t3 (argsOf m' c) :=
  (sg21_keep _ main_v527 (by decide)).trans (f21_main_v527 m' c)
theorem f22_main_v1 : (Vt22 m' c (Proc.devRef .tc main_v1) : (⟨S800000, .i32⟩ : BufTy).Contents (Elt Ideal)) = Cert.Bridge.srcR (argsOf m' c).e :=
  (sg21_keep _ main_v1 (by decide)).trans (f21_main_v1 m' c)
theorem f22_main_v398 : (Vt22 m' c (Proc.devRef .tc main_v398) : FVec Ideal S50000x128 .f32) = s2 (argsOf m' c) :=
  (sg21_keep _ main_v398 (by decide)).trans (f21_main_v398 m' c)
theorem f22_main_v3 : (Vt22 m' c (Proc.devRef .tc main_v3) : (⟨S800000, .i32⟩ : BufTy).Contents (Elt Ideal)) = Cert.Bridge.dstR (argsOf m' c).e :=
  (sg21_keep _ main_v3 (by decide)).trans (f21_main_v3 m' c)
theorem f22_main_v12 : (Vt22 m' c (Proc.devRef .tc main_v12) : (⟨S50000x1, .f32⟩ : BufTy).Contents (Elt Ideal)) = Cert.Bridge.invDegR (argsOf m' c).e :=
  (sg21_keep _ main_v12 (by decide)).trans (f21_main_v12 m' c)

/-! ## After piece 22 -/

theorem f23_main_arg4 : (Vt23 m' c (Proc.devRef .tc main_arg4) : FVec Ideal S6x3x128x128 .f32) = (argsOf m' c).W4 :=
  (sg22_keep _ main_arg4 (by decide)).trans (f22_main_arg4 m' c)
theorem f23_main_arg2 : (Vt23 m' c (Proc.devRef .tc main_arg2) : FVec Ideal S50000x128 .f32) = (argsOf m' c).Hin :=
  (sg22_keep _ main_arg2 (by decide)).trans (f22_main_arg2 m' c)
theorem f23_main_arg5 : (Vt23 m' c (Proc.devRef .tc main_arg5) : FVec Ideal S6x3x128 .f32) = (argsOf m' c).b3 :=
  (sg22_keep _ main_arg5 (by decide)).trans (f22_main_arg5 m' c)
theorem f23_main_arg6 : (Vt23 m' c (Proc.devRef .tc main_arg6) : FVec Ideal S6x3x128 .f32) = (argsOf m' c).g3 :=
  (sg22_keep _ main_arg6 (by decide)).trans (f22_main_arg6 m' c)
theorem f23_main_arg7 : (Vt23 m' c (Proc.devRef .tc main_arg7) : FVec Ideal S6x3x128 .f32) = (argsOf m' c).be3 :=
  (sg22_keep _ main_arg7 (by decide)).trans (f22_main_arg7 m' c)
theorem f23_main_arg3 : (Vt23 m' c (Proc.devRef .tc main_arg3) : FVec Ideal S6x3 .f32) = (argsOf m' c).w2 :=
  (sg22_keep _ main_arg3 (by decide)).trans (f22_main_arg3 m' c)
set_option maxHeartbeats 1000000 in
theorem f23_main_v616 : (Vt23 m' c (Proc.devRef .tc main_v616) : FVec Ideal S50000x128 .f32) = addf (addf Z (br (argsOf m' c) 4 0 (Cert.Bridge.aggR (argsOf m' c).e (s1 (argsOf m' c))))) (br (argsOf m' c) 4 1 (s1 (argsOf m' c))) := by
  refine (sg22_acc (Vt22 m' c)).trans ?_
  rw [f22_main_arg4 m' c, f22_main_v141 m' c, f22_main_arg5 m' c, f22_main_arg6 m' c, f22_main_arg7 m' c, f22_main_arg3 m' c, f22_main_v578 m' c]
  first | done | rfl
theorem f23_main_v527 : (Vt23 m' c (Proc.devRef .tc main_v527) : FVec Ideal S50000x128 .f32) = t3 (argsOf m' c) :=
  (sg22_keep _ main_v527 (by decide)).trans (f22_main_v527 m' c)
theorem f23_main_v1 : (Vt23 m' c (Proc.devRef .tc main_v1) : (⟨S800000, .i32⟩ : BufTy).Contents (Elt Ideal)) = Cert.Bridge.srcR (argsOf m' c).e :=
  (sg22_keep _ main_v1 (by decide)).trans (f22_main_v1 m' c)
theorem f23_main_v398 : (Vt23 m' c (Proc.devRef .tc main_v398) : FVec Ideal S50000x128 .f32) = s2 (argsOf m' c) :=
  (sg22_keep _ main_v398 (by decide)).trans (f22_main_v398 m' c)
theorem f23_main_v3 : (Vt23 m' c (Proc.devRef .tc main_v3) : (⟨S800000, .i32⟩ : BufTy).Contents (Elt Ideal)) = Cert.Bridge.dstR (argsOf m' c).e :=
  (sg22_keep _ main_v3 (by decide)).trans (f22_main_v3 m' c)
theorem f23_main_v12 : (Vt23 m' c (Proc.devRef .tc main_v12) : (⟨S50000x1, .f32⟩ : BufTy).Contents (Elt Ideal)) = Cert.Bridge.invDegR (argsOf m' c).e :=
  (sg22_keep _ main_v12 (by decide)).trans (f22_main_v12 m' c)
theorem f23_main_v141 : (Vt23 m' c (Proc.devRef .tc main_v141) : FVec Ideal S50000x128 .f32) = s1 (argsOf m' c) :=
  (sg22_keep _ main_v141 (by decide)).trans (f22_main_v141 m' c)

/-! ## After piece 23 -/

theorem f24_main_v527 : (Vt24 m' c (Proc.devRef .tc main_v527) : FVec Ideal S50000x128 .f32) = t3 (argsOf m' c) :=
  (sg23_keep _ main_v527 (by decide)).trans (f23_main_v527 m' c)
set_option maxHeartbeats 1000000 in
theorem f24_main_v654 : (Vt24 m' c (Proc.devRef .tc main_v654) : FVec Ideal S50000x128 .f32) = mixA (argsOf m' c) 4 (s1 (argsOf m' c)) := by
  refine (sg23_acc (Vt23 m' c)).trans ?_
  rw [f23_main_arg4 m' c, f23_main_arg2 m' c, f23_main_arg5 m' c, f23_main_arg6 m' c, f23_main_arg7 m' c, f23_main_arg3 m' c, f23_main_v616 m' c]
  first | done | rfl
theorem f24_main_v1 : (Vt24 m' c (Proc.devRef .tc main_v1) : (⟨S800000, .i32⟩ : BufTy).Contents (Elt Ideal)) = Cert.Bridge.srcR (argsOf m' c).e :=
  (sg23_keep _ main_v1 (by decide)).trans (f23_main_v1 m' c)
theorem f24_main_v398 : (Vt24 m' c (Proc.devRef .tc main_v398) : FVec Ideal S50000x128 .f32) = s2 (argsOf m' c) :=
  (sg23_keep _ main_v398 (by decide)).trans (f23_main_v398 m' c)
theorem f24_main_v3 : (Vt24 m' c (Proc.devRef .tc main_v3) : (⟨S800000, .i32⟩ : BufTy).Contents (Elt Ideal)) = Cert.Bridge.dstR (argsOf m' c).e :=
  (sg23_keep _ main_v3 (by decide)).trans (f23_main_v3 m' c)
theorem f24_main_v12 : (Vt24 m' c (Proc.devRef .tc main_v12) : (⟨S50000x1, .f32⟩ : BufTy).Contents (Elt Ideal)) = Cert.Bridge.invDegR (argsOf m' c).e :=
  (sg23_keep _ main_v12 (by decide)).trans (f23_main_v12 m' c)
theorem f24_main_arg4 : (Vt24 m' c (Proc.devRef .tc main_arg4) : FVec Ideal S6x3x128x128 .f32) = (argsOf m' c).W4 :=
  (sg23_keep _ main_arg4 (by decide)).trans (f23_main_arg4 m' c)
theorem f24_main_arg5 : (Vt24 m' c (Proc.devRef .tc main_arg5) : FVec Ideal S6x3x128 .f32) = (argsOf m' c).b3 :=
  (sg23_keep _ main_arg5 (by decide)).trans (f23_main_arg5 m' c)
theorem f24_main_arg6 : (Vt24 m' c (Proc.devRef .tc main_arg6) : FVec Ideal S6x3x128 .f32) = (argsOf m' c).g3 :=
  (sg23_keep _ main_arg6 (by decide)).trans (f23_main_arg6 m' c)
theorem f24_main_arg7 : (Vt24 m' c (Proc.devRef .tc main_arg7) : FVec Ideal S6x3x128 .f32) = (argsOf m' c).be3 :=
  (sg23_keep _ main_arg7 (by decide)).trans (f23_main_arg7 m' c)
theorem f24_main_arg3 : (Vt24 m' c (Proc.devRef .tc main_arg3) : FVec Ideal S6x3 .f32) = (argsOf m' c).w2 :=
  (sg23_keep _ main_arg3 (by decide)).trans (f23_main_arg3 m' c)
theorem f24_main_arg2 : (Vt24 m' c (Proc.devRef .tc main_arg2) : FVec Ideal S50000x128 .f32) = (argsOf m' c).Hin :=
  (sg23_keep _ main_arg2 (by decide)).trans (f23_main_arg2 m' c)
theorem f24_main_v141 : (Vt24 m' c (Proc.devRef .tc main_v141) : FVec Ideal S50000x128 .f32) = s1 (argsOf m' c) :=
  (sg23_keep _ main_v141 (by decide)).trans (f23_main_v141 m' c)

/-! ## After piece 24 -/

theorem f25_main_v1 : (Vt25 m' c (Proc.devRef .tc main_v1) : (⟨S800000, .i32⟩ : BufTy).Contents (Elt Ideal)) = Cert.Bridge.srcR (argsOf m' c).e :=
  (sg24_keep _ main_v1 (by decide)).trans (f24_main_v1 m' c)
theorem f25_main_v398 : (Vt25 m' c (Proc.devRef .tc main_v398) : FVec Ideal S50000x128 .f32) = s2 (argsOf m' c) :=
  (sg24_keep _ main_v398 (by decide)).trans (f24_main_v398 m' c)
theorem f25_main_v3 : (Vt25 m' c (Proc.devRef .tc main_v3) : (⟨S800000, .i32⟩ : BufTy).Contents (Elt Ideal)) = Cert.Bridge.dstR (argsOf m' c).e :=
  (sg24_keep _ main_v3 (by decide)).trans (f24_main_v3 m' c)
theorem f25_main_v12 : (Vt25 m' c (Proc.devRef .tc main_v12) : (⟨S50000x1, .f32⟩ : BufTy).Contents (Elt Ideal)) = Cert.Bridge.invDegR (argsOf m' c).e :=
  (sg24_keep _ main_v12 (by decide)).trans (f24_main_v12 m' c)
theorem f25_main_arg4 : (Vt25 m' c (Proc.devRef .tc main_arg4) : FVec Ideal S6x3x128x128 .f32) = (argsOf m' c).W4 :=
  (sg24_keep _ main_arg4 (by decide)).trans (f24_main_arg4 m' c)
theorem f25_main_arg5 : (Vt25 m' c (Proc.devRef .tc main_arg5) : FVec Ideal S6x3x128 .f32) = (argsOf m' c).b3 :=
  (sg24_keep _ main_arg5 (by decide)).trans (f24_main_arg5 m' c)
theorem f25_main_arg6 : (Vt25 m' c (Proc.devRef .tc main_arg6) : FVec Ideal S6x3x128 .f32) = (argsOf m' c).g3 :=
  (sg24_keep _ main_arg6 (by decide)).trans (f24_main_arg6 m' c)
theorem f25_main_arg7 : (Vt25 m' c (Proc.devRef .tc main_arg7) : FVec Ideal S6x3x128 .f32) = (argsOf m' c).be3 :=
  (sg24_keep _ main_arg7 (by decide)).trans (f24_main_arg7 m' c)
theorem f25_main_arg3 : (Vt25 m' c (Proc.devRef .tc main_arg3) : FVec Ideal S6x3 .f32) = (argsOf m' c).w2 :=
  (sg24_keep _ main_arg3 (by decide)).trans (f24_main_arg3 m' c)
theorem f25_main_arg2 : (Vt25 m' c (Proc.devRef .tc main_arg2) : FVec Ideal S50000x128 .f32) = (argsOf m' c).Hin :=
  (sg24_keep _ main_arg2 (by decide)).trans (f24_main_arg2 m' c)
set_option maxHeartbeats 1000000 in
theorem f25_main_v655 : (Vt25 m' c (Proc.devRef .tc main_v655) : FVec Ideal S50000x128 .f32) = t4 (argsOf m' c) := by
  refine (sg24_sum (Vt24 m' c)).trans ?_
  rw [f24_main_v527 m' c, f24_main_v654 m' c]
  first | done | rfl
theorem f25_main_v141 : (Vt25 m' c (Proc.devRef .tc main_v141) : FVec Ideal S50000x128 .f32) = s1 (argsOf m' c) :=
  (sg24_keep _ main_v141 (by decide)).trans (f24_main_v141 m' c)

end Cert.ReferenceIdeal.HandV
end
-- ==== Proof.RV.TopChain5.lean ====
import proofs.«414290_j6631429505478_3_alg».proof.Proof.RV.TopVt
import proofs.«414290_j6631429505478_3_alg».proof.Proof.RV.TopIdT
import proofs.«414290_j6631429505478_3_alg».proof.Proof.RV.TopIdA
import proofs.«414290_j6631429505478_3_alg».proof.Proof.RV.Id26
import proofs.«414290_j6631429505478_3_alg».proof.Proof.RV.Id27
import proofs.«414290_j6631429505478_3_alg».proof.Proof.RV.Id28
import proofs.«414290_j6631429505478_3_alg».proof.Proof.RV.TopChain4

noncomputable section

namespace Cert.ReferenceIdeal.HandV

open Cert.ReferenceIdeal Cert.ReferenceIdeal.Gen Idealize.ShloMosaic Idealize.ShloMosaic.TcCoe Idealize.SL.Sem Idealize.ShloMosaic.StableHlo
open Idealize.ShloMosaic.ValueIdx

/-! # The live references' contents at the cuts 26 to 30 -/

variable (m' : (ℓ : Loc nD τ sig) → Buf (Elt Ideal) ℓ) (c : Dev nD)

/-! ## After piece 25 -/

theorem f26_main_arg4 : (Vt26 m' c (Proc.devRef .tc main_arg4) : FVec Ideal S6x3x128x128 .f32) = (argsOf m' c).W4 :=
  (sg25_keep _ main_arg4 (by decide)).trans (f25_main_arg4 m' c)
set_option maxHeartbeats 1000000 in
theorem f26_main_v667 : (Vt26 m' c (Proc.devRef .tc main_v667) : FVec Ideal S50000x128 .f32) = Cert.Bridge.aggR (argsOf m' c).e (s2 (argsOf m' c)) := by
  refine (sg25_agg (Vt25 m' c)).trans ?_
  rw [f25_main_v1 m' c, f25_main_v3 m' c, f25_main_v12 m' c, f25_main_v398 m' c]
  first | done | rfl
theorem f26_main_arg5 : (Vt26 m' c (Proc.devRef .tc main_arg5) : FVec Ideal S6x3x128 .f32) = (argsOf m' c).b3 :=
  (sg25_keep _ main_arg5 (by decide)).trans (f25_main_arg5 m' c)
theorem f26_main_arg6 : (Vt26 m' c (Proc.devRef .tc main_arg6) : FVec Ideal S6x3x128 .f32) = (argsOf m' c).g3 :=
  (sg25_keep _ main_arg6 (by decide)).trans (f25_main_arg6 m' c)
theorem f26_main_arg7 : (Vt26 m' c (Proc.devRef .tc main_arg7) : FVec Ideal S6x3x128 .f32) = (argsOf m' c).be3 :=
  (sg25_keep _ main_arg7 (by decide)).trans (f25_main_arg7 m' c)
theorem f26_main_arg3 : (Vt26 m' c (Proc.devRef .tc main_arg3) : FVec Ideal S6x3 .f32) = (argsOf m' c).w2 :=
  (sg25_keep _ main_arg3 (by decide)).trans (f25_main_arg3 m' c)
theorem f26_main_v398 : (Vt26 m' c (Proc.devRef .tc main_v398) : FVec Ideal S50000x128 .f32) = s2 (argsOf m' c) :=
  (sg25_keep _ main_v398 (by decide)).trans (f25_main_v398 m' c)
theorem f26_main_arg2 : (Vt26 m' c (Proc.devRef .tc main_arg2) : FVec Ideal S50000x128 .f32) = (argsOf m' c).Hin :=
  (sg25_keep _ main_arg2 (by decide)).trans (f25_main_arg2 m' c)
theorem f26_main_v655 : (Vt26 m' c (Proc.devRef .tc main_v655) : FVec Ideal S50000x128 .f32) = t4 (argsOf m' c) :=
  (sg25_keep _ main_v655 (by decide)).trans (f25_main_v655 m' c)
theorem f26_main_v141 : (Vt26 m' c (Proc.devRef .tc main_v141) : FVec Ideal S50000x128 .f32) = s1 (argsOf m' c) :=
  (sg25_keep _ main_v141 (by decide)).trans (f25_main_v141 m' c)

/-! ## After piece 26 -/

theorem f27_main_arg4 : (Vt27 m' c (Proc.devRef .tc main_arg4) : FVec Ideal S6x3x128x128 .f32) = (argsOf m' c).W4 :=
  (sg26_keep _ main_arg4 (by decide)).trans (f26_main_arg4 m' c)
theorem f27_main_v398 : (Vt27 m' c (Proc.devRef .tc main_v398) : FVec Ideal S50000x128 .f32) = s2 (argsOf m' c) :=
  (sg26_keep _ main_v398 (by decide)).trans (f26_main_v398 m' c)
theorem f27_main_arg5 : (Vt27 m' c (Proc.devRef .tc main_arg5) : FVec Ideal S6x3x128 .f32) = (argsOf m' c).b3 :=
  (sg26_keep _ main_arg5 (by decide)).trans (f26_main_arg5 m' c)
theorem f27_main_arg6 : (Vt27 m' c (Proc.devRef .tc main_arg6) : FVec Ideal S6x3x128 .f32) = (argsOf m' c).g3 :=
  (sg26_keep _ main_arg6 (by decide)).trans (f26_main_arg6 m' c)
theorem f27_main_arg7 : (Vt27 m' c (Proc.devRef .tc main_arg7) : FVec Ideal S6x3x128 .f32) = (argsOf m' c).be3 :=
  (sg26_keep _ main_arg7 (by decide)).trans (f26_main_arg7 m' c)
theorem f27_main_arg3 : (Vt27 m' c (Proc.devRef .tc main_arg3) : FVec Ideal S6x3 .f32) = (argsOf m' c).w2 :=
  (sg26_keep _ main_arg3 (by decide)).trans (f26_main_arg3 m' c)
set_option maxHeartbeats 1000000 in
theorem f27_main_v706 : (Vt27 m' c (Proc.devRef .tc main_v706) : FVec Ideal S50000x128 .f32) = addf Z (br (argsOf m' c) 5 0 (Cert.Bridge.aggR (argsOf m' c).e (s2 (argsOf m' c)))) := by
  refine (sg26_acc (Vt26 m' c)).trans ?_
  rw [f26_main_arg4 m' c, f26_main_v667 m' c, f26_main_arg5 m' c, f26_main_arg6 m' c, f26_main_arg7 m' c, f26_main_arg3 m' c]
  first | done | rfl
theorem f27_main_arg2 : (Vt27 m' c (Proc.devRef .tc main_arg2) : FVec Ideal S50000x128 .f32) = (argsOf m' c).Hin :=
  (sg26_keep _ main_arg2 (by decide)).trans (f26_main_arg2 m' c)
theorem f27_main_v655 : (Vt27 m' c (Proc.devRef .tc main_v655) : FVec Ideal S50000x128 .f32) = t4 (argsOf m' c) :=
  (sg26_keep _ main_v655 (by decide)).trans (f26_main_v655 m' c)
theorem f27_main_v141 : (Vt27 m' c (Proc.devRef .tc main_v141) : FVec Ideal S50000x128 .f32) = s1 (argsOf m' c) :=
  (sg26_keep _ main_v141 (by decide)).trans (f26_main_v141 m' c)

/-! ## After piece 27 -/

theorem f28_main_arg4 : (Vt28 m' c (Proc.devRef .tc main_arg4) : FVec Ideal S6x3x128x128 .f32) = (argsOf m' c).W4 :=
  (sg27_keep _ main_arg4 (by decide)).trans (f27_main_arg4 m' c)
theorem f28_main_arg2 : (Vt28 m' c (Proc.devRef .tc main_arg2) : FVec Ideal S50000x128 .f32) = (argsOf m' c).Hin :=
  (sg27_keep _ main_arg2 (by decide)).trans (f27_main_arg2 m' c)
theorem f28_main_arg5 : (Vt28 m' c (Proc.devRef .tc main_arg5) : FVec Ideal S6x3x128 .f32) = (argsOf m' c).b3 :=
  (sg27_keep _ main_arg5 (by decide)).trans (f27_main_arg5 m' c)
theorem f28_main_arg6 : (Vt28 m' c (Proc.devRef .tc main_arg6) : FVec Ideal S6x3x128 .f32) = (argsOf m' c).g3 :=
  (sg27_keep _ main_arg6 (by decide)).trans (f27_main_arg6 m' c)
theorem f28_main_arg7 : (Vt28 m' c (Proc.devRef .tc main_arg7) : FVec Ideal S6x3x128 .f32) = (argsOf m' c).be3 :=
  (sg27_keep _ main_arg7 (by decide)).trans (f27_main_arg7 m' c)
theorem f28_main_arg3 : (Vt28 m' c (Proc.devRef .tc main_arg3) : FVec Ideal S6x3 .f32) = (argsOf m' c).w2 :=
  (sg27_keep _ main_arg3 (by decide)).trans (f27_main_arg3 m' c)
set_option maxHeartbeats 1000000 in
theorem f28_main_v744 : (Vt28 m' c (Proc.devRef .tc main_v744) : FVec Ideal S50000x128 .f32) = addf (addf Z (br (argsOf m' c) 5 0 (Cert.Bridge.aggR (argsOf m' c).e (s2 (argsOf m' c))))) (br (argsOf m' c) 5 1 (s2 (argsOf m' c))) := by
  refine (sg27_acc (Vt27 m' c)).trans ?_
  rw [f27_main_arg4 m' c, f27_main_v398 m' c, f27_main_arg5 m' c, f27_main_arg6 m' c, f27_main_arg7 m' c, f27_main_arg3 m' c, f27_main_v706 m' c]
  first | done | rfl
theorem f28_main_v655 : (Vt28 m' c (Proc.devRef .tc main_v655) : FVec Ideal S50000x128 .f32) = t4 (argsOf m' c) :=
  (sg27_keep _ main_v655 (by decide)).trans (f27_main_v655 m' c)
theorem f28_main_v141 : (Vt28 m' c (Proc.devRef .tc main_v141) : FVec Ideal S50000x128 .f32) = s1 (argsOf m' c) :=
  (sg27_keep _ main_v141 (by decide)).trans (f27_main_v141 m' c)
theorem f28_main_v398 : (Vt28 m' c (Proc.devRef .tc main_v398) : FVec Ideal S50000x128 .f32) = s2 (argsOf m' c) :=
  (sg27_keep _ main_v398 (by decide)).trans (f27_main_v398 m' c)

/-! ## After piece 28 -/

theorem f29_main_v655 : (Vt29 m' c (Proc.devRef .tc main_v655) : FVec Ideal S50000x128 .f32) = t4 (argsOf m' c) :=
  (sg28_keep _ main_v655 (by decide)).trans (f28_main_v655 m' c)
set_option maxHeartbeats 1000000 in
theorem f29_main_v782 : (Vt29 m' c (Proc.devRef .tc main_v782) : FVec Ideal S50000x128 .f32) = mixA (argsOf m' c) 5 (s2 (argsOf m' c)) := by
  refine (sg28_acc (Vt28 m' c)).trans ?_
  rw [f28_main_arg4 m' c, f28_main_arg2 m' c, f28_main_arg5 m' c, f28_main_arg6 m' c, f28_main_arg7 m' c, f28_main_arg3 m' c, f28_main_v744 m' c]
  first | done | rfl
theorem f29_main_v141 : (Vt29 m' c (Proc.devRef .tc main_v141) : FVec Ideal S50000x128 .f32) = s1 (argsOf m' c) :=
  (sg28_keep _ main_v141 (by decide)).trans (f28_main_v141 m' c)
theorem f29_main_v398 : (Vt29 m' c (Proc.devRef .tc main_v398) : FVec Ideal S50000x128 .f32) = s2 (argsOf m' c) :=
  (sg28_keep _ main_v398 (by decide)).trans (f28_main_v398 m' c)

/-! ## After piece 29 -/

set_option maxHeartbeats 1000000 in
theorem f30_main_v787 : (Vt30 m' c (Proc.devRef .tc main_v787) : FVec Ideal S3x50000x128 .f32) = stackT (s1 (argsOf m' c)) (s2 (argsOf m' c)) (s3 (argsOf m' c)) := by
  refine (sg29_stack (Vt29 m' c)).trans ?_
  rw [f29_main_v655 m' c, f29_main_v782 m' c, f29_main_v141 m' c, f29_main_v398 m' c]
  first | done | rfl

end Cert.ReferenceIdeal.HandV
end
-- ==== Proof.RV.TopCut.lean ====
import proofs.«414290_j6631429505478_3_alg».proof.Proof.RV.TopSeg0
import proofs.«414290_j6631429505478_3_alg».proof.Proof.RV.TopSeg1
import proofs.«414290_j6631429505478_3_alg».proof.Proof.RV.TopSeg2
import proofs.«414290_j6631429505478_3_alg».proof.Proof.RV.TopSeg3
import proofs.«414290_j6631429505478_3_alg».proof.Proof.RV.TopSeg4
import proofs.«414290_j6631429505478_3_alg».proof.Proof.RV.TopSeg5
import proofs.«414290_j6631429505478_3_alg».proof.Proof.RV.TopSeg6
import proofs.«414290_j6631429505478_3_alg».proof.Proof.RV.TopSeg7
import proofs.«414290_j6631429505478_3_alg».proof.Proof.RV.TopSeg8
import proofs.«414290_j6631429505478_3_alg».proof.Proof.RV.TopSeg9
import proofs.«414290_j6631429505478_3_alg».proof.Proof.RV.TopSeg10
import proofs.«414290_j6631429505478_3_alg».proof.Proof.RV.TopSeg11
import proofs.«414290_j6631429505478_3_alg».proof.Proof.RV.TopSeg12
import proofs.«414290_j6631429505478_3_alg».proof.Proof.RV.TopSeg13
import proofs.«414290_j6631429505478_3_alg».proof.Proof.RV.TopSeg14
import proofs.«414290_j6631429505478_3_alg».proof.Proof.RV.TopSeg15
import proofs.«414290_j6631429505478_3_alg».proof.Proof.RV.TopSeg16
import proofs.«414290_j6631429505478_3_alg».proof.Proof.RV.TopSeg17
import proofs.«414290_j6631429505478_3_alg».proof.Proof.RV.TopSeg18
import proofs.«414290_j6631429505478_3_alg».proof.Proof.RV.TopSeg19
import proofs.«414290_j6631429505478_3_alg».proof.Proof.RV.TopSeg20
import proofs.«414290_j6631429505478_3_alg».proof.Proof.RV.TopSeg21
import proofs.«414290_j6631429505478_3_alg».proof.Proof.RV.TopSeg22
import proofs.«414290_j6631429505478_3_alg».proof.Proof.RV.TopSeg23
import proofs.«414290_j6631429505478_3_alg».proof.Proof.RV.TopSeg24
import proofs.«414290_j6631429505478_3_alg».proof.Proof.RV.TopSeg25
import proofs.«414290_j6631429505478_3_alg».proof.Proof.RV.TopSeg26
import proofs.«414290_j6631429505478_3_alg».proof.Proof.RV.TopSeg27
import proofs.«414290_j6631429505478_3_alg».proof.Proof.RV.TopSeg28
import proofs.«414290_j6631429505478_3_alg».proof.Proof.RV.TopSeg29
import proofs.«414290_j6631429505478_3_alg».proof.Proof.Ref.Run

set_option Elab.async false

noncomputable section

namespace Cert.ReferenceIdeal.HandV

open Cert.ReferenceIdeal Cert.ReferenceIdeal.Gen Cert.ReferenceIdeal.Hand Idealize.ShloMosaic Idealize.ShloMosaic.TcCoe Idealize.SL.Sem Idealize.ShloMosaic.StableHlo

variable {F : FTy → Type} [FloatOps F]

set_option maxHeartbeats 40000000 in
set_option maxRecDepth 65536 in
/-- @main's operations are the thirty pieces one after the other: the same list, cut elsewhere. -/
theorem ops_eq_cut : (ops : List (HloOp τ sig (Elt F))) = sg0 ++ (sg1 ++ (sg2 ++ (sg3 ++ (sg4 ++ (sg5 ++ (sg6 ++ (sg7 ++ (sg8 ++ (sg9 ++ (sg10 ++ (sg11 ++ (sg12 ++ (sg13 ++ (sg14 ++ (sg15 ++ (sg16 ++ (sg17 ++ (sg18 ++ (sg19 ++ (sg20 ++ (sg21 ++ (sg22 ++ (sg23 ++ (sg24 ++ (sg25 ++ (sg26 ++ (sg27 ++ (sg28 ++ (sg29))))))))))))))))))))))))))))) := rfl

/-- The fold over all the operations is the pieces' folds one after the other. -/
theorem after_cut (V : Valuation τ sig (Elt F)) :
    after ops V = after sg29 (after sg28 (after sg27 (after sg26 (after sg25 (after sg24 (after sg23 (after sg22 (after sg21 (after sg20 (after sg19 (after sg18 (after sg17 (after sg16 (after sg15 (after sg14 (after sg13 (after sg12 (after sg11 (after sg10 (after sg9 (after sg8 (after sg7 (after sg6 (after sg5 (after sg4 (after sg3 (after sg2 (after sg1 (after sg0 (V)))))))))))))))))))))))))))))) := by
  rw [ops_eq_cut]; simp only [after_append]

end Cert.ReferenceIdeal.HandV

end
-- ==== Proof.RV.Result.lean ====
import proofs.«414290_j6631429505478_3_alg».proof.Proof.RV.TopChain5
import proofs.«414290_j6631429505478_3_alg».proof.Proof.RV.TopCut

noncomputable section

namespace Cert.ReferenceIdeal.HandV

open Cert.ReferenceIdeal Cert.ReferenceIdeal.Gen Cert.ReferenceIdeal.Hand Idealize.ShloMosaic Idealize.ShloMosaic.TcCoe Idealize.SL.Sem Idealize.ShloMosaic.StableHlo
open Idealize.ShloMosaic.ValueIdx

/-! # The reference's result is the specification's three states -/

variable (m' : (ℓ : Loc nD τ sig) → Buf (Elt Ideal) ℓ) (c : Dev nD)

/-- The result buffer after @main is the stack of the three states. -/
theorem result_stack :
    (after (ops (F := Ideal)) (launchContents m' c) (Proc.devRef .tc main_v787) : FVec Ideal S3x50000x128 .f32)
      = stackT (s1 (argsOf m' c)) (s2 (argsOf m' c)) (s3 (argsOf m' c)) := by
  rw [after_cut]
  exact f30_main_v787 m' c

/-- The result at state `s`, row `n`, column `d` is the specification's state of the inputs read at their indices. -/
theorem reference_value (m' : (ℓ : Loc nD τ sig) → Buf (Elt Ideal) ℓ) (c : Dev nD) (n : Fin 50000) (d : Fin 128) :
    StableHlo.after ops (StableHlo.launchContents m' c) (Proc.devRef .tc main_v787) (ix3 0 n d)
        = Cert.Spec.r1 (P m' c) (aggF m' c) (hF m' c) (hinF m' c) n d
    ∧ StableHlo.after ops (StableHlo.launchContents m' c) (Proc.devRef .tc main_v787) (ix3 1 n d)
        = Cert.Spec.r2 (P m' c) (aggF m' c) (hF m' c) (hinF m' c) n d
    ∧ StableHlo.after ops (StableHlo.launchContents m' c) (Proc.devRef .tc main_v787) (ix3 2 n d)
        = Cert.Spec.r3 (P m' c) (aggF m' c) (hF m' c) (hinF m' c) n d := by
  have h := result_stack m' c
  refine ⟨?_, ?_, ?_⟩
  · exact (congrFun h (ix3 0 n d)).trans ((stackT_apply0 _ _ _ n d).trans (s1_apply (argsOf m' c) n d))
  · exact (congrFun h (ix3 1 n d)).trans ((stackT_apply1 _ _ _ n d).trans (s2_apply (argsOf m' c) n d))
  · exact (congrFun h (ix3 2 n d)).trans ((stackT_apply2 _ _ _ n d).trans (s3_apply (argsOf m' c) n d))

end Cert.ReferenceIdeal.HandV
end
-- ==== Proof.Br.Algebraic.lean ====
/- The algebraic claim assembled: both programs run; the kernel's run ends with its result at the last
   boundary's contents and its arguments as launched; the reference's run ends with its result at the fold of its
   operations, which is the kernel's result (the two value readings, the precondition, the agreement of the arguments),
   and its arguments as launched. -/
import proofs.«414290_j6631429505478_3_alg».proof.Defs
import proofs.«414290_j6631429505478_3_alg».proof.Proof.KI.Run
import proofs.«414290_j6631429505478_3_alg».proof.Proof.Ref.Run
import proofs.«414290_j6631429505478_3_alg».proof.Proof.Br.Value
import proofs.«414290_j6631429505478_3_alg».proof.Proof.KV.Result
import proofs.«414290_j6631429505478_3_alg».proof.Proof.RV.Result
import proofs.«414290_j6631429505478_3_alg».proof.Proof.Gen.Pre_finite_inputs

set_option maxRecDepth 16384

noncomputable section

namespace Cert.Bridge

open Idealize.ShloMosaic Idealize.ShloMosaic.TcCoe Idealize.SL.Sem

/-- The reference's result array is the kernel's, under the precondition, from memories agreeing on the arguments. -/
theorem value_eq (m : KMem) (ρ : Dev Cert.KernelIdeal.nD → PrngReg) (m' : RMem) (hpre : Cert.Pre_KernelIdeal m)
    (hagree : (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)))
    (c : Dev Cert.KernelIdeal.nD) :
    StableHlo.after (Cert.ReferenceIdeal.Hand.ops (F := Ideal)) (StableHlo.launchContents m' c) (Proc.devRef .tc Cert.ReferenceIdeal.main_v787)
      = Cert.KernelIdeal.Hand.W13 (F := Ideal) m ρ c (Proc.devRef .tc Cert.KernelIdeal.main_v407) :=
  value_eq_of m ρ m' hpre hagree c (fun n d => Cert.KernelIdeal.HandV.kernel_value m ρ c n d)
    (fun n d => Cert.ReferenceIdeal.HandV.reference_value m' c n d)

/-- `Cert.algebraic_KernelIdeal_ReferenceIdeal`: the common result is the kernel's last boundary contents at its result. -/
theorem algebraic : Cert.algebraic_KernelIdeal_ReferenceIdeal := by
  intro m ρ m' ρ' hpre hagree
  refine ⟨fun c => Cert.KernelIdeal.Hand.W13 (F := Ideal) m ρ c (Proc.devRef .tc Cert.KernelIdeal.main_v407), ?_, ?_⟩
  · exact (θ_run Cert.KernelIdeal.defs _ _).mono
      (fun r h c => ⟨h c _ (Cert.KernelIdeal.Hand.mem_uc Cert.KernelIdeal.main_v407 (by decide)),
      (h c _ (Cert.KernelIdeal.Hand.mem_uc Cert.KernelIdeal.main_arg0 (by decide))).trans (Cert.KernelIdeal.Hand.W13_main_arg0 m ρ c),
      (h c _ (Cert.KernelIdeal.Hand.mem_uc Cert.KernelIdeal.main_arg1 (by decide))).trans (Cert.KernelIdeal.Hand.W13_main_arg1 m ρ c),
      (h c _ (Cert.KernelIdeal.Hand.mem_uc Cert.KernelIdeal.main_arg2 (by decide))).trans (Cert.KernelIdeal.Hand.W13_main_arg2 m ρ c),
      (h c _ (Cert.KernelIdeal.Hand.mem_uc Cert.KernelIdeal.main_arg3 (by decide))).trans (Cert.KernelIdeal.Hand.W13_main_arg3 m ρ c),
      (h c _ (Cert.KernelIdeal.Hand.mem_uc Cert.KernelIdeal.main_arg4 (by decide))).trans (Cert.KernelIdeal.Hand.W13_main_arg4 m ρ c),
      (h c _ (Cert.KernelIdeal.Hand.mem_uc Cert.KernelIdeal.main_arg5 (by decide))).trans (Cert.KernelIdeal.Hand.W13_main_arg5 m ρ c),
      (h c _ (Cert.KernelIdeal.Hand.mem_uc Cert.KernelIdeal.main_arg6 (by decide))).trans (Cert.KernelIdeal.Hand.W13_main_arg6 m ρ c),
      (h c _ (Cert.KernelIdeal.Hand.mem_uc Cert.KernelIdeal.main_arg7 (by decide))).trans (Cert.KernelIdeal.Hand.W13_main_arg7 m ρ c)⟩)
      (Cert.KernelIdeal.Hand.run_all (F := Ideal) m ρ)
  · exact (θ_run Cert.ReferenceIdeal.defs _ _).mono
      (fun r h c => ⟨(h c Cert.ReferenceIdeal.main_v787).trans (value_eq m ρ m' hpre hagree c),
      (h c Cert.ReferenceIdeal.main_arg0).trans (Cert.ReferenceIdeal.Hand.after_main_arg0 _),
      (h c Cert.ReferenceIdeal.main_arg1).trans (Cert.ReferenceIdeal.Hand.after_main_arg1 _),
      (h c Cert.ReferenceIdeal.main_arg2).trans (Cert.ReferenceIdeal.Hand.after_main_arg2 _),
      (h c Cert.ReferenceIdeal.main_arg3).trans (Cert.ReferenceIdeal.Hand.after_main_arg3 _),
      (h c Cert.ReferenceIdeal.main_arg4).trans (Cert.ReferenceIdeal.Hand.after_main_arg4 _),
      (h c Cert.ReferenceIdeal.main_arg5).trans (Cert.ReferenceIdeal.Hand.after_main_arg5 _),
      (h c Cert.ReferenceIdeal.main_arg6).trans (Cert.ReferenceIdeal.Hand.after_main_arg6 _),
      (h c Cert.ReferenceIdeal.main_arg7).trans (Cert.ReferenceIdeal.Hand.after_main_arg7 _)⟩)
      (Cert.ReferenceIdeal.Hand.run_all (F := Ideal) m' ρ')

end Cert.Bridge

end
-- ==== Proof.lean ====
/- The proof of `Cert.Claim` (Defs.lean): five conjuncts under the four witnesses of the programs' stated facts
   (the instances Proof/Gen/ proves).

   * `frame_Kernel`, `frame_KernelIdeal`: @main is 13 items, seven stretches of host operations around six kernel regions.
     The buffers' contents at each boundary are a fold from the launch memory (a stretch rewrites its operations'
     results, a region rewrites its windows' arrays with what its write-backs leave); the run over the items
     (`Hand.run_all`) ends with every unscoped buffer at the last contents of the fold, and no item writes an argument, so
     the fold at an argument is the launch memory there (`Hand.W13_main_arg0` … `W13_main_arg7`). The same text at
     `Bits` and at `Ideal`.
   * `frame_ReferenceIdeal`: the reference is one line of host operations, none of which writes an argument
     (`Cert.ReferenceIdeal.Hand.frame_ri`).
   * `preserves_Kernel_KernelIdeal`: the ideal pass rewrote nothing; the claim is `True`.
   * `algebraic_KernelIdeal_ReferenceIdeal`: at `Ideal`, from finite inputs, both results are the same function of the
     arguments — the kernel's batch normalisation takes the variance as the mean of squares less the squared mean,
     clamped at zero, the reference's as the mean of squared deviations; on finite values the two agree, the clamp being
     the identity on a value that is not negative; the rest is re-association and layout (`Cert.Bridge.algebraic`). -/
import proofs.«414290_j6631429505478_3_alg».proof.Defs
import proofs.«414290_j6631429505478_3_alg».proof.Proof.K.Run
import proofs.«414290_j6631429505478_3_alg».proof.Proof.KI.Run
import proofs.«414290_j6631429505478_3_alg».proof.Proof.Ref.Run
import proofs.«414290_j6631429505478_3_alg».proof.Proof.Br.Algebraic
import proofs.«414290_j6631429505478_3_alg».proof.Proof.Gen.Pre_finite_inputs

set_option maxRecDepth 16384

noncomputable section

namespace Cert.Proof

open Idealize.ShloMosaic Idealize.ShloMosaic.TcCoe Idealize.SL.Sem

/-- `Cert.frame_Kernel` (Defs.lean): the run over the 13 items (`Cert.Kernel.Hand.run_all`) read at the arguments, each of which no item
    touches (`Cert.Kernel.Hand.W13_main_arg0` … `W13_main_arg7`). -/
theorem frame_Kernel : Cert.frame_Kernel := by
  intro m ρ _
  exact (θ_run Cert.Kernel.defs _ _).mono
    (fun r h c => ⟨(h c _ (Cert.Kernel.Hand.mem_uc Cert.Kernel.main_arg0 (by decide))).trans (Cert.Kernel.Hand.W13_main_arg0 m ρ c),
      (h c _ (Cert.Kernel.Hand.mem_uc Cert.Kernel.main_arg1 (by decide))).trans (Cert.Kernel.Hand.W13_main_arg1 m ρ c),
      (h c _ (Cert.Kernel.Hand.mem_uc Cert.Kernel.main_arg2 (by decide))).trans (Cert.Kernel.Hand.W13_main_arg2 m ρ c),
      (h c _ (Cert.Kernel.Hand.mem_uc Cert.Kernel.main_arg3 (by decide))).trans (Cert.Kernel.Hand.W13_main_arg3 m ρ c),
      (h c _ (Cert.Kernel.Hand.mem_uc Cert.Kernel.main_arg4 (by decide))).trans (Cert.Kernel.Hand.W13_main_arg4 m ρ c),
      (h c _ (Cert.Kernel.Hand.mem_uc Cert.Kernel.main_arg5 (by decide))).trans (Cert.Kernel.Hand.W13_main_arg5 m ρ c),
      (h c _ (Cert.Kernel.Hand.mem_uc Cert.Kernel.main_arg6 (by decide))).trans (Cert.Kernel.Hand.W13_main_arg6 m ρ c),
      (h c _ (Cert.Kernel.Hand.mem_uc Cert.Kernel.main_arg7 (by decide))).trans (Cert.Kernel.Hand.W13_main_arg7 m ρ c)⟩)
    (Cert.Kernel.Hand.run_all (F := Bits) m ρ)

/-- `Cert.frame_KernelIdeal` (Defs.lean): the run over the 13 items (`Cert.KernelIdeal.Hand.run_all`) read at the arguments, each of which no item
    touches (`Cert.KernelIdeal.Hand.W13_main_arg0` … `W13_main_arg7`). -/
theorem frame_KernelIdeal : Cert.frame_KernelIdeal := by
  intro m ρ _
  exact (θ_run Cert.KernelIdeal.defs _ _).mono
    (fun r h c => ⟨(h c _ (Cert.KernelIdeal.Hand.mem_uc Cert.KernelIdeal.main_arg0 (by decide))).trans (Cert.KernelIdeal.Hand.W13_main_arg0 m ρ c),
      (h c _ (Cert.KernelIdeal.Hand.mem_uc Cert.KernelIdeal.main_arg1 (by decide))).trans (Cert.KernelIdeal.Hand.W13_main_arg1 m ρ c),
      (h c _ (Cert.KernelIdeal.Hand.mem_uc Cert.KernelIdeal.main_arg2 (by decide))).trans (Cert.KernelIdeal.Hand.W13_main_arg2 m ρ c),
      (h c _ (Cert.KernelIdeal.Hand.mem_uc Cert.KernelIdeal.main_arg3 (by decide))).trans (Cert.KernelIdeal.Hand.W13_main_arg3 m ρ c),
      (h c _ (Cert.KernelIdeal.Hand.mem_uc Cert.KernelIdeal.main_arg4 (by decide))).trans (Cert.KernelIdeal.Hand.W13_main_arg4 m ρ c),
      (h c _ (Cert.KernelIdeal.Hand.mem_uc Cert.KernelIdeal.main_arg5 (by decide))).trans (Cert.KernelIdeal.Hand.W13_main_arg5 m ρ c),
      (h c _ (Cert.KernelIdeal.Hand.mem_uc Cert.KernelIdeal.main_arg6 (by decide))).trans (Cert.KernelIdeal.Hand.W13_main_arg6 m ρ c),
      (h c _ (Cert.KernelIdeal.Hand.mem_uc Cert.KernelIdeal.main_arg7 (by decide))).trans (Cert.KernelIdeal.Hand.W13_main_arg7 m ρ c)⟩)
    (Cert.KernelIdeal.Hand.run_all (F := Ideal) m ρ)

/-- `Cert.frame_ReferenceIdeal` (Defs.lean): the reference's line of host operations writes no argument. -/
theorem frame_ReferenceIdeal : Cert.frame_ReferenceIdeal := fun m g _ => Cert.ReferenceIdeal.Hand.frame_ri m g

/-- `Cert.preserves_Kernel_KernelIdeal` (Defs.lean): no operation was rewritten. -/
theorem preserves : Cert.preserves_Kernel_KernelIdeal := trivial

/-- `Cert.Claim` (Defs.lean): the five conjuncts under the four witnesses. -/
theorem claim : Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, preserves, Cert.Bridge.algebraic⟩

end Cert.Proof

end
